-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 256]⟩ ⟨2, ![512, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S512x256 .f32) (main_arg5 : FVec F S256x512 .f32) (main_arg6 : FVec F S512x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S512x256 .f32) (main_arg1 : FVec F S256x512 .f32) (main_arg2 : FVec F S512x256 .f32) (main_arg3 : FVec F S256x512 .f32) (main_arg4 : FVec F S512x256 .f32) (main_arg5 : FVec F S256x512 .f32) (main_arg6 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Pre_finite_inputs_ReferenceIdeal.lean ====
abbrev S512x256 : Shape := ⟨2, ![512, 256]⟩
abbrev S256x4096 : Shape := ⟨2, ![256, 4096]⟩
abbrev S4096x256 : Shape := ⟨2, ![4096, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_arg4 : FVec F S4096x256 .f32) (main_arg5 : FVec F S256x4096 .f32) (main_arg6 : FVec F S4096x256 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S256x4096 .f32 := Host.absf main_arg5
  let main_cst_8 : FVec F S_ .f32 := constant S_ .f32 0x7F800000#32
  let main_v25 : FVec F S256x4096 .f32 := broadcastInDim S256x4096 ![] bcast_S_S256x4096 main_cst_8
  let main_v26 : IVec S256x4096 1 := cmpf .olt main_v24 main_v25
  let main_c_9 : IVec S_ 1 := constantI S_ 1 1#1
  let main_v27 : IVec S_ 1 := (fun x v => Host.reduce IntOp.andi x v reducesTo_S256x4096_S_d0_1 h_S_) main_v26 main_c_9
  let main_v28 : IVec S_ 1 := andi main_v23 main_v27
  let main_v29 : FVec F S4096x256 .f32 := Host.absf main_arg6
  let main_cst_10 : FVec F S_ .f32 := constant S_ .f32 0x7F800000#32
  let main_v30 : FVec F S4096x256 .f32 := broadcastInDim S4096x256 ![] bcast_S_S4096x256 main_cst_10
  let main_v31 : IVec S4096x256 1 := cmpf .olt main_v29 main_v30
  let main_c_11 : IVec S_ 1 := constantI S_ 1 1#1
  let main_v32 : IVec S_ 1 := (fun x v => Host.reduce IntOp.andi x v reducesTo_S4096x256_S_d0_1 h_S_) main_v31 main_c_11
  let main_v33 : IVec S_ 1 := andi main_v28 main_v32
  main_v33

def fn {F : FTy → Type} [FloatOps F] (main_arg0 : FVec F S512x256 .f32) (main_arg1 : FVec F S256x4096 .f32) (main_arg2 : FVec F S4096x256 .f32) (main_arg3 : FVec F S256x4096 .f32) (main_arg4 : FVec F S4096x256 .f32) (main_arg5 : FVec F S256x4096 .f32) (main_arg6 : FVec F S4096x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_arg5 main_arg6 main_v13 main_v16
-- ==== Kernel.lean ====
abbrev S512x256 : Shape := ⟨2, ![512, 256]⟩
abbrev S256x512 : Shape := ⟨2, ![256, 512]⟩
abbrev S64x256 : Shape := ⟨2, ![64, 256]⟩
abbrev S3x512x256 : Shape := ⟨3, ![3, 512, 256]⟩
abbrev S3x8x64x256 : Shape := ⟨4, ![3, 8, 64, 256]⟩
abbrev S3 : Shape := ⟨1, ![3]⟩
abbrev S3x8 : Shape := ⟨2, ![3, 8]⟩
abbrev S_ : Shape := ⟨0, ![]⟩
abbrev S512x512 : Shape := ⟨2, ![512, 512]⟩
abbrev S1x512x256 : Shape := ⟨3, ![1, 512, 256]⟩
abbrev S1 : Shape := ⟨1, ![1]⟩
abbrev S1x1 : Shape := ⟨2, ![1, 1]⟩
abbrev S1x1x64x256 : Shape := ⟨4, ![1, 1, 64, 256]⟩
abbrev S1x64x256 : Shape := ⟨3, ![1, 64, 256]⟩
abbrev S1x128x256 : Shape := ⟨3, ![1, 128, 256]⟩
abbrev S128x256 : Shape := ⟨2, ![128, 256]⟩
abbrev S128x512 : Shape := ⟨2, ![128, 512]⟩

abbrev nBuf : Space → Nat
  | .hbm => 8
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S64x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S64x256, .f32⟩
  | .local _ .vmem, ⟨8, _⟩ => ⟨S3x512x256, .bf16⟩
  | .local _ .vmem, ⟨9, _⟩ => ⟨S3x8x64x256, .bf16⟩
  | .local _ .vmem, ⟨10, _⟩ => ⟨S3x512x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_39 : BitVec 32 := 0#32
  let v50 : BitVec 1 := Scalar.cmpi .ne v2 c0_i32_39
  let v51 : BitVec 32 := Scalar.extui v50
  let c0_i32_40 : BitVec 32 := 0#32
  let v52 : BitVec 1 := Scalar.cmpi .ne v51 c0_i32_40
  v52

def k0_off1 (d0 : Dev nD) : Fin 2 → Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off2 (d0 : Dev nD) : Fin 4 → Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_dev8 : Nat :=
  let c0_i32_866 : BitVec 32 := 0#32
  let c0_i32_864 : BitVec 32 := 0#32
  let c1_i32_865 : BitVec 32 := 1#32
  let v986 : BitVec 32 := Scalar.muli c0_i32_864 c1_i32_865
  let v987 : BitVec 32 := Scalar.addi c0_i32_866 v986
  v987.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v53 : BitVec 1 := Scalar.cmpi .ne v2 c1_i32_41
  let v54 : BitVec 32 := Scalar.extui v53
  let c0_i32_42 : BitVec 32 := 0#32
  let v55 : BitVec 1 := Scalar.cmpi .ne v54 c0_i32_42
  v55

def k0_off3 (d0 : Dev nD) : Fin 2 → Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off4 (d0 : Dev nD) : Fin 4 → Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_dev9 : Nat :=
  let c0_i32_866 : BitVec 32 := 0#32
  let c1_i32_864 : BitVec 32 := 1#32
  let c1_i32_865 : BitVec 32 := 1#32
  let v986 : BitVec 32 := Scalar.muli c1_i32_864 c1_i32_865
  let v987 : BitVec 32 := Scalar.addi c0_i32_866 v986
  v987.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_43 : BitVec 32 := 2#32
  let v56 : BitVec 1 := Scalar.cmpi .ne v2 c2_i32_43
  let v57 : BitVec 32 := Scalar.extui v56
  let c0_i32_44 : BitVec 32 := 0#32
  let v58 : BitVec 1 := Scalar.cmpi .ne v57 c0_i32_44
  v58

def k0_off5 (d0 : Dev nD) : Fin 2 → Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off6 (d0 : Dev nD) : Fin 4 → Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_dev10 : Nat :=
  let c0_i32_866 : BitVec 32 := 0#32
  let c2_i32_864 : BitVec 32 := 2#32
  let c1_i32_865 : BitVec 32 := 1#32
  let v986 : BitVec 32 := Scalar.muli c2_i32_864 c1_i32_865
  let v987 : BitVec 32 := Scalar.addi c0_i32_866 v986
  v987.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v59 : BitVec 1 := Scalar.cmpi .ne v2 c3_i32_45
  let v60 : BitVec 32 := Scalar.extui v59
  let c0_i32_46 : BitVec 32 := 0#32
  let v61 : BitVec 1 := Scalar.cmpi .ne v60 c0_i32_46
  v61

def k0_off7 (d0 : Dev nD) : Fin 2 → Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off8 (d0 : Dev nD) : Fin 4 → Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_dev11 : Nat :=
  let c0_i32_866 : BitVec 32 := 0#32
  let c3_i32_864 : BitVec 32 := 3#32
  let c1_i32_865 : BitVec 32 := 1#32
  let v986 : BitVec 32 := Scalar.muli c3_i32_864 c1_i32_865
  let v987 : BitVec 32 := Scalar.addi c0_i32_866 v986
  v987.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v62 : BitVec 1 := Scalar.cmpi .ne v2 c4_i32_47
  let v63 : BitVec 32 := Scalar.extui v62
  let c0_i32_48 : BitVec 32 := 0#32
  let v64 : BitVec 1 := Scalar.cmpi .ne v63 c0_i32_48
  v64

def k0_off9 (d0 : Dev nD) : Fin 2 → Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off10 (d0 : Dev nD) : Fin 4 → Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_dev12 : Nat :=
  let c0_i32_866 : BitVec 32 := 0#32
  let c4_i32_864 : BitVec 32 := 4#32
  let c1_i32_865 : BitVec 32 := 1#32
  let v986 : BitVec 32 := Scalar.muli c4_i32_864 c1_i32_865
  let v987 : BitVec 32 := Scalar.addi c0_i32_866 v986
  v987.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v65 : BitVec 1 := Scalar.cmpi .ne v2 c5_i32_49
  let v66 : BitVec 32 := Scalar.extui v65
  let c0_i32_50 : BitVec 32 := 0#32
  let v67 : BitVec 1 := Scalar.cmpi .ne v66 c0_i32_50
  v67

def k0_off11 (d0 : Dev nD) : Fin 2 → Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off12 (d0 : Dev nD) : Fin 4 → Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_dev13 : Nat :=
  let c0_i32_866 : BitVec 32 := 0#32
  let c5_i32_864 : BitVec 32 := 5#32
  let c1_i32_865 : BitVec 32 := 1#32
  let v986 : BitVec 32 := Scalar.muli c5_i32_864 c1_i32_865
  let v987 : BitVec 32 := Scalar.addi c0_i32_866 v986
  v987.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_51 : BitVec 32 := 6#32
  let v68 : BitVec 1 := Scalar.cmpi .ne v2 c6_i32_51
  let v69 : BitVec 32 := Scalar.extui v68
  let c0_i32_52 : BitVec 32 := 0#32
  let v70 : BitVec 1 := Scalar.cmpi .ne v69 c0_i32_52
  v70

def k0_off13 (d0 : Dev nD) : Fin 2 → Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off14 (d0 : Dev nD) : Fin 4 → Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_dev14 : Nat :=
  let c0_i32_866 : BitVec 32 := 0#32
  let c6_i32_864 : BitVec 32 := 6#32
  let c1_i32_865 : BitVec 32 := 1#32
  let v986 : BitVec 32 := Scalar.muli c6_i32_864 c1_i32_865
  let v987 : BitVec 32 := Scalar.addi c0_i32_866 v986
  v987.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_53 : BitVec 32 := 7#32
  let v71 : BitVec 1 := Scalar.cmpi .ne v2 c7_i32_53
  let v72 : BitVec 32 := Scalar.extui v71
  let c0_i32_54 : BitVec 32 := 0#32
  let v73 : BitVec 1 := Scalar.cmpi .ne v72 c0_i32_54
  v73

def k0_off15 (d0 : Dev nD) : Fin 2 → Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off16 (d0 : Dev nD) : Fin 4 → Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_dev15 : Nat :=
  let c0_i32_866 : BitVec 32 := 0#32
  let c7_i32_864 : BitVec 32 := 7#32
  let c1_i32_865 : BitVec 32 := 1#32
  let v986 : BitVec 32 := Scalar.muli c7_i32_864 c1_i32_865
  let v987 : BitVec 32 := Scalar.addi c0_i32_866 v986
  v987.toNat
def k0_off17 (d0 : Dev nD) : Fin 3 → Nat :=
  let c0_55 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v74 : BitVec 32 := Scalar.muli v2 c64_i32
  let v75 : Index := Scalar.indexCast v74
  let c0_56 : Index := 0#32
  ![0, v75.toNat, 0]
def k0_off18 (d0 : Dev nD) (c1_i32_58 : BitVec 32) : Fin 2 → Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_57 : BitVec 32 := 8#32
  let v79 : BitVec 32 := Scalar.addi v2 c8_i32_57
  let v80 : BitVec 32 := Scalar.subi v79 c1_i32_58
  let c8_i32_59 : BitVec 32 := 8#32
  let v81 : BitVec 32 := Scalar.remsi v80 c8_i32_59
  ![0, v81.toNat]
def k0_off19 (d0 : Dev nD) (c1_i32_58 : BitVec 32) : Fin 4 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_57 : BitVec 32 := 8#32
  let v79 : BitVec 32 := Scalar.addi v2 c8_i32_57
  let v80 : BitVec 32 := Scalar.subi v79 c1_i32_58
  let c8_i32_59 : BitVec 32 := 8#32
  let v81 : BitVec 32 := Scalar.remsi v80 c8_i32_59
  let c0_i32_66 : BitVec 32 := 0#32
  let c0_i32_67 : BitVec 32 := 0#32
  ![0, v81.toNat, 0, 0]
def k0_off20 (d0 : Dev nD) (c1_i32_58 : BitVec 32) : Fin 4 → Nat :=
  let c0_70 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_57 : BitVec 32 := 8#32
  let v79 : BitVec 32 := Scalar.addi v2 c8_i32_57
  let v80 : BitVec 32 := Scalar.subi v79 c1_i32_58
  let c8_i32_59 : BitVec 32 := 8#32
  let v81 : BitVec 32 := Scalar.remsi v80 c8_i32_59
  let v90 : Index := Scalar.indexCast v81
  let c0_71 : Index := 0#32
  let c0_72 : Index := 0#32
  ![0, v90.toNat, 0, 0]
def k0_off21 (d0 : Dev nD) : Fin 2 → Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off22 (d0 : Dev nD) : Fin 3 → Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_175 : BitVec 32 := 64#32
  let v200 : BitVec 32 := Scalar.muli v2 c64_i32_175
  let c0_i32_182 : BitVec 32 := 0#32
  ![0, v200.toNat, 0]
def k0_dev16 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_172 : BitVec 32 := 1#32
  let v197 : BitVec 32 := Scalar.addi v2 c1_i32_172
  let c8_i32_173 : BitVec 32 := 8#32
  let v198 : BitVec 32 := Scalar.remsi v197 c8_i32_173
  let c1_i32_180 : BitVec 32 := 1#32
  let v201 : BitVec 32 := Scalar.muli v198 c1_i32_180
  let v202 : BitVec 32 := Scalar.addi c0_i32_181 v201
  v202.toNat
def k0_dev17 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_184 : BitVec 32 := 2#32
  let v211 : BitVec 32 := Scalar.addi v2 c2_i32_184
  let c8_i32_185 : BitVec 32 := 8#32
  let v212 : BitVec 32 := Scalar.remsi v211 c8_i32_185
  let c1_i32_192 : BitVec 32 := 1#32
  let v215 : BitVec 32 := Scalar.muli v212 c1_i32_192
  let v216 : BitVec 32 := Scalar.addi c0_i32_193 v215
  v216.toNat
def k0_dev18 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_196 : BitVec 32 := 3#32
  let v225 : BitVec 32 := Scalar.addi v2 c3_i32_196
  let c8_i32_197 : BitVec 32 := 8#32
  let v226 : BitVec 32 := Scalar.remsi v225 c8_i32_197
  let c1_i32_204 : BitVec 32 := 1#32
  let v229 : BitVec 32 := Scalar.muli v226 c1_i32_204
  let v230 : BitVec 32 := Scalar.addi c0_i32_205 v229
  v230.toNat
def k0_dev19 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v239 : BitVec 32 := Scalar.addi v2 c4_i32_208
  let c8_i32_209 : BitVec 32 := 8#32
  let v240 : BitVec 32 := Scalar.remsi v239 c8_i32_209
  let c1_i32_216 : BitVec 32 := 1#32
  let v243 : BitVec 32 := Scalar.muli v240 c1_i32_216
  let v244 : BitVec 32 := Scalar.addi c0_i32_217 v243
  v244.toNat
def k0_dev20 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_220 : BitVec 32 := 5#32
  let v253 : BitVec 32 := Scalar.addi v2 c5_i32_220
  let c8_i32_221 : BitVec 32 := 8#32
  let v254 : BitVec 32 := Scalar.remsi v253 c8_i32_221
  let c1_i32_228 : BitVec 32 := 1#32
  let v257 : BitVec 32 := Scalar.muli v254 c1_i32_228
  let v258 : BitVec 32 := Scalar.addi c0_i32_229 v257
  v258.toNat
def k0_dev21 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_232 : BitVec 32 := 6#32
  let v267 : BitVec 32 := Scalar.addi v2 c6_i32_232
  let c8_i32_233 : BitVec 32 := 8#32
  let v268 : BitVec 32 := Scalar.remsi v267 c8_i32_233
  let c1_i32_240 : BitVec 32 := 1#32
  let v271 : BitVec 32 := Scalar.muli v268 c1_i32_240
  let v272 : BitVec 32 := Scalar.addi c0_i32_241 v271
  v272.toNat
def k0_dev22 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_244 : BitVec 32 := 7#32
  let v281 : BitVec 32 := Scalar.addi v2 c7_i32_244
  let c8_i32_245 : BitVec 32 := 8#32
  let v282 : BitVec 32 := Scalar.remsi v281 c8_i32_245
  let c1_i32_252 : BitVec 32 := 1#32
  let v285 : BitVec 32 := Scalar.muli v282 c1_i32_252
  let v286 : BitVec 32 := Scalar.addi c0_i32_253 v285
  v286.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_256 : BitVec 32 := 0#32
  let v295 : BitVec 1 := Scalar.cmpi .ne v2 c0_i32_256
  let v296 : BitVec 32 := Scalar.extui v295
  let c0_i32_257 : BitVec 32 := 0#32
  let v297 : BitVec 1 := Scalar.cmpi .ne v296 c0_i32_257
  v297

def k0_off23 (d0 : Dev nD) : Fin 4 → Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_868 : BitVec 32 := 0#32
  let c0_i32_869 : BitVec 32 := 0#32
  ![0, v2.toNat, 0, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_258 : BitVec 32 := 1#32
  let v298 : BitVec 1 := Scalar.cmpi .ne v2 c1_i32_258
  let v299 : BitVec 32 := Scalar.extui v298
  let c0_i32_259 : BitVec 32 := 0#32
  let v300 : BitVec 1 := Scalar.cmpi .ne v299 c0_i32_259
  v300

def k0_off24 (d0 : Dev nD) : Fin 4 → Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_868 : BitVec 32 := 0#32
  let c0_i32_869 : BitVec 32 := 0#32
  ![0, v2.toNat, 0, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_260 : BitVec 32 := 2#32
  let v301 : BitVec 1 := Scalar.cmpi .ne v2 c2_i32_260
  let v302 : BitVec 32 := Scalar.extui v301
  let c0_i32_261 : BitVec 32 := 0#32
  let v303 : BitVec 1 := Scalar.cmpi .ne v302 c0_i32_261
  v303

def k0_off25 (d0 : Dev nD) : Fin 4 → Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_262 : BitVec 32 := 3#32
  let v304 : BitVec 1 := Scalar.cmpi .ne v2 c3_i32_262
  let v305 : BitVec 32 := Scalar.extui v304
  let c0_i32_263 : BitVec 32 := 0#32
  let v306 : BitVec 1 := Scalar.cmpi .ne v305 c0_i32_263
  v306

def k0_off26 (d0 : Dev nD) : Fin 4 → Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_264 : BitVec 32 := 4#32
  let v307 : BitVec 1 := Scalar.cmpi .ne v2 c4_i32_264
  let v308 : BitVec 32 := Scalar.extui v307
  let c0_i32_265 : BitVec 32 := 0#32
  let v309 : BitVec 1 := Scalar.cmpi .ne v308 c0_i32_265
  v309

def k0_off27 (d0 : Dev nD) : Fin 4 → Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_266 : BitVec 32 := 5#32
  let v310 : BitVec 1 := Scalar.cmpi .ne v2 c5_i32_266
  let v311 : BitVec 32 := Scalar.extui v310
  let c0_i32_267 : BitVec 32 := 0#32
  let v312 : BitVec 1 := Scalar.cmpi .ne v311 c0_i32_267
  v312

def k0_off28 (d0 : Dev nD) : Fin 4 → Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_268 : BitVec 32 := 6#32
  let v313 : BitVec 1 := Scalar.cmpi .ne v2 c6_i32_268
  let v314 : BitVec 32 := Scalar.extui v313
  let c0_i32_269 : BitVec 32 := 0#32
  let v315 : BitVec 1 := Scalar.cmpi .ne v314 c0_i32_269
  v315

def k0_off29 (d0 : Dev nD) : Fin 4 → Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_270 : BitVec 32 := 7#32
  let v316 : BitVec 1 := Scalar.cmpi .ne v2 c7_i32_270
  let v317 : BitVec 32 := Scalar.extui v316
  let c0_i32_271 : BitVec 32 := 0#32
  let v318 : BitVec 1 := Scalar.cmpi .ne v317 c0_i32_271
  v318

def k0_off30 (d0 : Dev nD) : Fin 4 → Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![0, v2.toNat, 0, 0]
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_337 : BitVec 32 := 0#32
  let v384 : BitVec 1 := Scalar.cmpi .ne v2 c0_i32_337
  let v385 : BitVec 32 := Scalar.extui v384
  let c0_i32_338 : BitVec 32 := 0#32
  let v386 : BitVec 1 := Scalar.cmpi .ne v385 c0_i32_338
  v386

def k0_off31 (d0 : Dev nD) : Fin 2 → Nat :=
  let c1_i32_862 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off32 (d0 : Dev nD) : Fin 4 → Nat :=
  let c1_i32_861 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_dev23 : Nat :=
  let c0_i32_866 : BitVec 32 := 0#32
  let c0_i32_864 : BitVec 32 := 0#32
  let c1_i32_865 : BitVec 32 := 1#32
  let v986 : BitVec 32 := Scalar.muli c0_i32_864 c1_i32_865
  let v987 : BitVec 32 := Scalar.addi c0_i32_866 v986
  v987.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_339 : BitVec 32 := 1#32
  let v387 : BitVec 1 := Scalar.cmpi .ne v2 c1_i32_339
  let v388 : BitVec 32 := Scalar.extui v387
  let c0_i32_340 : BitVec 32 := 0#32
  let v389 : BitVec 1 := Scalar.cmpi .ne v388 c0_i32_340
  v389

def k0_off33 (d0 : Dev nD) : Fin 2 → Nat :=
  let c1_i32_862 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off34 (d0 : Dev nD) : Fin 4 → Nat :=
  let c1_i32_861 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_dev24 : Nat :=
  let c0_i32_866 : BitVec 32 := 0#32
  let c1_i32_864 : BitVec 32 := 1#32
  let c1_i32_865 : BitVec 32 := 1#32
  let v986 : BitVec 32 := Scalar.muli c1_i32_864 c1_i32_865
  let v987 : BitVec 32 := Scalar.addi c0_i32_866 v986
  v987.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_353 : BitVec 32 := 2#32
  let v407 : BitVec 1 := Scalar.cmpi .ne v2 c2_i32_353
  let v408 : BitVec 32 := Scalar.extui v407
  let c0_i32_354 : BitVec 32 := 0#32
  let v409 : BitVec 1 := Scalar.cmpi .ne v408 c0_i32_354
  v409

def k0_off35 (d0 : Dev nD) : Fin 2 → Nat :=
  let c1_i32_862 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off36 (d0 : Dev nD) : Fin 4 → Nat :=
  let c1_i32_861 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_dev25 : Nat :=
  let c0_i32_866 : BitVec 32 := 0#32
  let c2_i32_864 : BitVec 32 := 2#32
  let c1_i32_865 : BitVec 32 := 1#32
  let v986 : BitVec 32 := Scalar.muli c2_i32_864 c1_i32_865
  let v987 : BitVec 32 := Scalar.addi c0_i32_866 v986
  v987.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_355 : BitVec 32 := 3#32
  let v410 : BitVec 1 := Scalar.cmpi .ne v2 c3_i32_355
  let v411 : BitVec 32 := Scalar.extui v410
  let c0_i32_356 : BitVec 32 := 0#32
  let v412 : BitVec 1 := Scalar.cmpi .ne v411 c0_i32_356
  v412

def k0_off37 (d0 : Dev nD) : Fin 2 → Nat :=
  let c1_i32_862 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off38 (d0 : Dev nD) : Fin 4 → Nat :=
  let c1_i32_861 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_dev26 : Nat :=
  let c0_i32_866 : BitVec 32 := 0#32
  let c3_i32_864 : BitVec 32 := 3#32
  let c1_i32_865 : BitVec 32 := 1#32
  let v986 : BitVec 32 := Scalar.muli c3_i32_864 c1_i32_865
  let v987 : BitVec 32 := Scalar.addi c0_i32_866 v986
  v987.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_369 : BitVec 32 := 4#32
  let v430 : BitVec 1 := Scalar.cmpi .ne v2 c4_i32_369
  let v431 : BitVec 32 := Scalar.extui v430
  let c0_i32_370 : BitVec 32 := 0#32
  let v432 : BitVec 1 := Scalar.cmpi .ne v431 c0_i32_370
  v432

def k0_off39 (d0 : Dev nD) : Fin 2 → Nat :=
  let c1_i32_862 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off40 (d0 : Dev nD) : Fin 4 → Nat :=
  let c1_i32_861 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_dev27 : Nat :=
  let c0_i32_866 : BitVec 32 := 0#32
  let c4_i32_864 : BitVec 32 := 4#32
  let c1_i32_865 : BitVec 32 := 1#32
  let v986 : BitVec 32 := Scalar.muli c4_i32_864 c1_i32_865
  let v987 : BitVec 32 := Scalar.addi c0_i32_866 v986
  v987.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_371 : BitVec 32 := 5#32
  let v433 : BitVec 1 := Scalar.cmpi .ne v2 c5_i32_371
  let v434 : BitVec 32 := Scalar.extui v433
  let c0_i32_372 : BitVec 32 := 0#32
  let v435 : BitVec 1 := Scalar.cmpi .ne v434 c0_i32_372
  v435

def k0_off41 (d0 : Dev nD) : Fin 2 → Nat :=
  let c1_i32_862 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off42 (d0 : Dev nD) : Fin 4 → Nat :=
  let c1_i32_861 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_dev28 : Nat :=
  let c0_i32_866 : BitVec 32 := 0#32
  let c5_i32_864 : BitVec 32 := 5#32
  let c1_i32_865 : BitVec 32 := 1#32
  let v986 : BitVec 32 := Scalar.muli c5_i32_864 c1_i32_865
  let v987 : BitVec 32 := Scalar.addi c0_i32_866 v986
  v987.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_385 : BitVec 32 := 6#32
  let v453 : BitVec 1 := Scalar.cmpi .ne v2 c6_i32_385
  let v454 : BitVec 32 := Scalar.extui v453
  let c0_i32_386 : BitVec 32 := 0#32
  let v455 : BitVec 1 := Scalar.cmpi .ne v454 c0_i32_386
  v455

def k0_off43 (d0 : Dev nD) : Fin 2 → Nat :=
  let c1_i32_862 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off44 (d0 : Dev nD) : Fin 4 → Nat :=
  let c1_i32_861 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_dev29 : Nat :=
  let c0_i32_866 : BitVec 32 := 0#32
  let c6_i32_864 : BitVec 32 := 6#32
  let c1_i32_865 : BitVec 32 := 1#32
  let v986 : BitVec 32 := Scalar.muli c6_i32_864 c1_i32_865
  let v987 : BitVec 32 := Scalar.addi c0_i32_866 v986
  v987.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_387 : BitVec 32 := 7#32
  let v456 : BitVec 1 := Scalar.cmpi .ne v2 c7_i32_387
  let v457 : BitVec 32 := Scalar.extui v456
  let c0_i32_388 : BitVec 32 := 0#32
  let v458 : BitVec 1 := Scalar.cmpi .ne v457 c0_i32_388
  v458

def k0_off45 (d0 : Dev nD) : Fin 2 → Nat :=
  let c1_i32_862 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off46 (d0 : Dev nD) : Fin 4 → Nat :=
  let c1_i32_861 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_dev30 : Nat :=
  let c0_i32_866 : BitVec 32 := 0#32
  let c7_i32_864 : BitVec 32 := 7#32
  let c1_i32_865 : BitVec 32 := 1#32
  let v986 : BitVec 32 := Scalar.muli c7_i32_864 c1_i32_865
  let v987 : BitVec 32 := Scalar.addi c0_i32_866 v986
  v987.toNat
def k0_off47 (d0 : Dev nD) : Fin 3 → Nat :=
  let c1_390 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_389 : BitVec 32 := 64#32
  let v459 : BitVec 32 := Scalar.muli v2 c64_i32_389
  let v460 : Index := Scalar.indexCast v459
  let c0_391 : Index := 0#32
  ![1, v460.toNat, 0]
def k0_off48 (d0 : Dev nD) (c1_i32_393 : BitVec 32) : Fin 2 → Nat :=
  let c1_i32_397 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_392 : BitVec 32 := 8#32
  let v464 : BitVec 32 := Scalar.addi v2 c8_i32_392
  let v465 : BitVec 32 := Scalar.subi v464 c1_i32_393
  let c8_i32_394 : BitVec 32 := 8#32
  let v466 : BitVec 32 := Scalar.remsi v465 c8_i32_394
  ![1, v466.toNat]
def k0_off49 (d0 : Dev nD) (c1_i32_393 : BitVec 32) : Fin 4 → Nat :=
  let c1_i32_396 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_392 : BitVec 32 := 8#32
  let v464 : BitVec 32 := Scalar.addi v2 c8_i32_392
  let v465 : BitVec 32 := Scalar.subi v464 c1_i32_393
  let c8_i32_394 : BitVec 32 := 8#32
  let v466 : BitVec 32 := Scalar.remsi v465 c8_i32_394
  let c0_i32_401 : BitVec 32 := 0#32
  let c0_i32_402 : BitVec 32 := 0#32
  ![1, v466.toNat, 0, 0]
def k0_off50 (d0 : Dev nD) (c1_i32_393 : BitVec 32) : Fin 4 → Nat :=
  let c1_405 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_392 : BitVec 32 := 8#32
  let v464 : BitVec 32 := Scalar.addi v2 c8_i32_392
  let v465 : BitVec 32 := Scalar.subi v464 c1_i32_393
  let c8_i32_394 : BitVec 32 := 8#32
  let v466 : BitVec 32 := Scalar.remsi v465 c8_i32_394
  let v475 : Index := Scalar.indexCast v466
  let c0_406 : Index := 0#32
  let c0_407 : Index := 0#32
  ![1, v475.toNat, 0, 0]
def k0_off51 (d0 : Dev nD) : Fin 2 → Nat :=
  let c1_i32_513 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off52 (d0 : Dev nD) : Fin 3 → Nat :=
  let c1_i32_512 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_510 : BitVec 32 := 64#32
  let v585 : BitVec 32 := Scalar.muli v2 c64_i32_510
  let c0_i32_517 : BitVec 32 := 0#32
  ![1, v585.toNat, 0]
def k0_dev31 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_507 : BitVec 32 := 1#32
  let v582 : BitVec 32 := Scalar.addi v2 c1_i32_507
  let c8_i32_508 : BitVec 32 := 8#32
  let v583 : BitVec 32 := Scalar.remsi v582 c8_i32_508
  let c1_i32_515 : BitVec 32 := 1#32
  let v586 : BitVec 32 := Scalar.muli v583 c1_i32_515
  let v587 : BitVec 32 := Scalar.addi c0_i32_516 v586
  v587.toNat
def k0_dev32 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_519 : BitVec 32 := 2#32
  let v596 : BitVec 32 := Scalar.addi v2 c2_i32_519
  let c8_i32_520 : BitVec 32 := 8#32
  let v597 : BitVec 32 := Scalar.remsi v596 c8_i32_520
  let c1_i32_527 : BitVec 32 := 1#32
  let v600 : BitVec 32 := Scalar.muli v597 c1_i32_527
  let v601 : BitVec 32 := Scalar.addi c0_i32_528 v600
  v601.toNat
def k0_dev33 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_531 : BitVec 32 := 3#32
  let v610 : BitVec 32 := Scalar.addi v2 c3_i32_531
  let c8_i32_532 : BitVec 32 := 8#32
  let v611 : BitVec 32 := Scalar.remsi v610 c8_i32_532
  let c1_i32_539 : BitVec 32 := 1#32
  let v614 : BitVec 32 := Scalar.muli v611 c1_i32_539
  let v615 : BitVec 32 := Scalar.addi c0_i32_540 v614
  v615.toNat
def k0_dev34 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_543 : BitVec 32 := 4#32
  let v624 : BitVec 32 := Scalar.addi v2 c4_i32_543
  let c8_i32_544 : BitVec 32 := 8#32
  let v625 : BitVec 32 := Scalar.remsi v624 c8_i32_544
  let c1_i32_551 : BitVec 32 := 1#32
  let v628 : BitVec 32 := Scalar.muli v625 c1_i32_551
  let v629 : BitVec 32 := Scalar.addi c0_i32_552 v628
  v629.toNat
def k0_dev35 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_555 : BitVec 32 := 5#32
  let v638 : BitVec 32 := Scalar.addi v2 c5_i32_555
  let c8_i32_556 : BitVec 32 := 8#32
  let v639 : BitVec 32 := Scalar.remsi v638 c8_i32_556
  let c1_i32_563 : BitVec 32 := 1#32
  let v642 : BitVec 32 := Scalar.muli v639 c1_i32_563
  let v643 : BitVec 32 := Scalar.addi c0_i32_564 v642
  v643.toNat
def k0_dev36 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_567 : BitVec 32 := 6#32
  let v652 : BitVec 32 := Scalar.addi v2 c6_i32_567
  let c8_i32_568 : BitVec 32 := 8#32
  let v653 : BitVec 32 := Scalar.remsi v652 c8_i32_568
  let c1_i32_575 : BitVec 32 := 1#32
  let v656 : BitVec 32 := Scalar.muli v653 c1_i32_575
  let v657 : BitVec 32 := Scalar.addi c0_i32_576 v656
  v657.toNat
def k0_dev37 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_579 : BitVec 32 := 7#32
  let v666 : BitVec 32 := Scalar.addi v2 c7_i32_579
  let c8_i32_580 : BitVec 32 := 8#32
  let v667 : BitVec 32 := Scalar.remsi v666 c8_i32_580
  let c1_i32_587 : BitVec 32 := 1#32
  let v670 : BitVec 32 := Scalar.muli v667 c1_i32_587
  let v671 : BitVec 32 := Scalar.addi c0_i32_588 v670
  v671.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_591 : BitVec 32 := 0#32
  let v680 : BitVec 1 := Scalar.cmpi .ne v2 c0_i32_591
  let v681 : BitVec 32 := Scalar.extui v680
  let c0_i32_592 : BitVec 32 := 0#32
  let v682 : BitVec 1 := Scalar.cmpi .ne v681 c0_i32_592
  v682

def k0_off53 (d0 : Dev nD) : Fin 4 → Nat :=
  let c1_i32_860 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_868 : BitVec 32 := 0#32
  let c0_i32_869 : BitVec 32 := 0#32
  ![1, v2.toNat, 0, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_593 : BitVec 32 := 1#32
  let v683 : BitVec 1 := Scalar.cmpi .ne v2 c1_i32_593
  let v684 : BitVec 32 := Scalar.extui v683
  let c0_i32_594 : BitVec 32 := 0#32
  let v685 : BitVec 1 := Scalar.cmpi .ne v684 c0_i32_594
  v685

def k0_off54 (d0 : Dev nD) : Fin 4 → Nat :=
  let c1_i32_860 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_868 : BitVec 32 := 0#32
  let c0_i32_869 : BitVec 32 := 0#32
  ![1, v2.toNat, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_595 : BitVec 32 := 2#32
  let v686 : BitVec 1 := Scalar.cmpi .ne v2 c2_i32_595
  let v687 : BitVec 32 := Scalar.extui v686
  let c0_i32_596 : BitVec 32 := 0#32
  let v688 : BitVec 1 := Scalar.cmpi .ne v687 c0_i32_596
  v688

def k0_off55 (d0 : Dev nD) : Fin 4 → Nat :=
  let c1_i32_860 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_597 : BitVec 32 := 3#32
  let v689 : BitVec 1 := Scalar.cmpi .ne v2 c3_i32_597
  let v690 : BitVec 32 := Scalar.extui v689
  let c0_i32_598 : BitVec 32 := 0#32
  let v691 : BitVec 1 := Scalar.cmpi .ne v690 c0_i32_598
  v691

def k0_off56 (d0 : Dev nD) : Fin 4 → Nat :=
  let c1_i32_860 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_599 : BitVec 32 := 4#32
  let v692 : BitVec 1 := Scalar.cmpi .ne v2 c4_i32_599
  let v693 : BitVec 32 := Scalar.extui v692
  let c0_i32_600 : BitVec 32 := 0#32
  let v694 : BitVec 1 := Scalar.cmpi .ne v693 c0_i32_600
  v694

def k0_off57 (d0 : Dev nD) : Fin 4 → Nat :=
  let c1_i32_860 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_601 : BitVec 32 := 5#32
  let v695 : BitVec 1 := Scalar.cmpi .ne v2 c5_i32_601
  let v696 : BitVec 32 := Scalar.extui v695
  let c0_i32_602 : BitVec 32 := 0#32
  let v697 : BitVec 1 := Scalar.cmpi .ne v696 c0_i32_602
  v697

def k0_off58 (d0 : Dev nD) : Fin 4 → Nat :=
  let c1_i32_860 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_603 : BitVec 32 := 6#32
  let v698 : BitVec 1 := Scalar.cmpi .ne v2 c6_i32_603
  let v699 : BitVec 32 := Scalar.extui v698
  let c0_i32_604 : BitVec 32 := 0#32
  let v700 : BitVec 1 := Scalar.cmpi .ne v699 c0_i32_604
  v700

def k0_off59 (d0 : Dev nD) : Fin 4 → Nat :=
  let c1_i32_860 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_605 : BitVec 32 := 7#32
  let v701 : BitVec 1 := Scalar.cmpi .ne v2 c7_i32_605
  let v702 : BitVec 32 := Scalar.extui v701
  let c0_i32_606 : BitVec 32 := 0#32
  let v703 : BitVec 1 := Scalar.cmpi .ne v702 c0_i32_606
  v703

def k0_off60 (d0 : Dev nD) : Fin 4 → Nat :=
  let c1_i32_860 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![1, v2.toNat, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_672 : BitVec 32 := 0#32
  let v769 : BitVec 1 := Scalar.cmpi .ne v2 c0_i32_672
  let v770 : BitVec 32 := Scalar.extui v769
  let c0_i32_673 : BitVec 32 := 0#32
  let v771 : BitVec 1 := Scalar.cmpi .ne v770 c0_i32_673
  v771

def k0_off61 (d0 : Dev nD) : Fin 2 → Nat :=
  let c2_i32_862 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off62 (d0 : Dev nD) : Fin 4 → Nat :=
  let c2_i32_861 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_dev38 : Nat :=
  let c0_i32_866 : BitVec 32 := 0#32
  let c0_i32_864 : BitVec 32 := 0#32
  let c1_i32_865 : BitVec 32 := 1#32
  let v986 : BitVec 32 := Scalar.muli c0_i32_864 c1_i32_865
  let v987 : BitVec 32 := Scalar.addi c0_i32_866 v986
  v987.toNat
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_674 : BitVec 32 := 1#32
  let v772 : BitVec 1 := Scalar.cmpi .ne v2 c1_i32_674
  let v773 : BitVec 32 := Scalar.extui v772
  let c0_i32_675 : BitVec 32 := 0#32
  let v774 : BitVec 1 := Scalar.cmpi .ne v773 c0_i32_675
  v774

def k0_off63 (d0 : Dev nD) : Fin 2 → Nat :=
  let c2_i32_862 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off64 (d0 : Dev nD) : Fin 4 → Nat :=
  let c2_i32_861 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_dev39 : Nat :=
  let c0_i32_866 : BitVec 32 := 0#32
  let c1_i32_864 : BitVec 32 := 1#32
  let c1_i32_865 : BitVec 32 := 1#32
  let v986 : BitVec 32 := Scalar.muli c1_i32_864 c1_i32_865
  let v987 : BitVec 32 := Scalar.addi c0_i32_866 v986
  v987.toNat
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_689 : BitVec 32 := 2#32
  let v792 : BitVec 1 := Scalar.cmpi .ne v2 c2_i32_689
  let v793 : BitVec 32 := Scalar.extui v792
  let c0_i32_690 : BitVec 32 := 0#32
  let v794 : BitVec 1 := Scalar.cmpi .ne v793 c0_i32_690
  v794

def k0_off65 (d0 : Dev nD) : Fin 2 → Nat :=
  let c2_i32_862 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off66 (d0 : Dev nD) : Fin 4 → Nat :=
  let c2_i32_861 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_dev40 : Nat :=
  let c0_i32_866 : BitVec 32 := 0#32
  let c2_i32_864 : BitVec 32 := 2#32
  let c1_i32_865 : BitVec 32 := 1#32
  let v986 : BitVec 32 := Scalar.muli c2_i32_864 c1_i32_865
  let v987 : BitVec 32 := Scalar.addi c0_i32_866 v986
  v987.toNat
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_691 : BitVec 32 := 3#32
  let v795 : BitVec 1 := Scalar.cmpi .ne v2 c3_i32_691
  let v796 : BitVec 32 := Scalar.extui v795
  let c0_i32_692 : BitVec 32 := 0#32
  let v797 : BitVec 1 := Scalar.cmpi .ne v796 c0_i32_692
  v797

def k0_off67 (d0 : Dev nD) : Fin 2 → Nat :=
  let c2_i32_862 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off68 (d0 : Dev nD) : Fin 4 → Nat :=
  let c2_i32_861 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_dev41 : Nat :=
  let c0_i32_866 : BitVec 32 := 0#32
  let c3_i32_864 : BitVec 32 := 3#32
  let c1_i32_865 : BitVec 32 := 1#32
  let v986 : BitVec 32 := Scalar.muli c3_i32_864 c1_i32_865
  let v987 : BitVec 32 := Scalar.addi c0_i32_866 v986
  v987.toNat
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_706 : BitVec 32 := 4#32
  let v815 : BitVec 1 := Scalar.cmpi .ne v2 c4_i32_706
  let v816 : BitVec 32 := Scalar.extui v815
  let c0_i32_707 : BitVec 32 := 0#32
  let v817 : BitVec 1 := Scalar.cmpi .ne v816 c0_i32_707
  v817

def k0_off69 (d0 : Dev nD) : Fin 2 → Nat :=
  let c2_i32_862 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off70 (d0 : Dev nD) : Fin 4 → Nat :=
  let c2_i32_861 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_dev42 : Nat :=
  let c0_i32_866 : BitVec 32 := 0#32
  let c4_i32_864 : BitVec 32 := 4#32
  let c1_i32_865 : BitVec 32 := 1#32
  let v986 : BitVec 32 := Scalar.muli c4_i32_864 c1_i32_865
  let v987 : BitVec 32 := Scalar.addi c0_i32_866 v986
  v987.toNat
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_708 : BitVec 32 := 5#32
  let v818 : BitVec 1 := Scalar.cmpi .ne v2 c5_i32_708
  let v819 : BitVec 32 := Scalar.extui v818
  let c0_i32_709 : BitVec 32 := 0#32
  let v820 : BitVec 1 := Scalar.cmpi .ne v819 c0_i32_709
  v820

def k0_off71 (d0 : Dev nD) : Fin 2 → Nat :=
  let c2_i32_862 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off72 (d0 : Dev nD) : Fin 4 → Nat :=
  let c2_i32_861 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_dev43 : Nat :=
  let c0_i32_866 : BitVec 32 := 0#32
  let c5_i32_864 : BitVec 32 := 5#32
  let c1_i32_865 : BitVec 32 := 1#32
  let v986 : BitVec 32 := Scalar.muli c5_i32_864 c1_i32_865
  let v987 : BitVec 32 := Scalar.addi c0_i32_866 v986
  v987.toNat
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_723 : BitVec 32 := 6#32
  let v838 : BitVec 1 := Scalar.cmpi .ne v2 c6_i32_723
  let v839 : BitVec 32 := Scalar.extui v838
  let c0_i32_724 : BitVec 32 := 0#32
  let v840 : BitVec 1 := Scalar.cmpi .ne v839 c0_i32_724
  v840

def k0_off73 (d0 : Dev nD) : Fin 2 → Nat :=
  let c2_i32_862 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off74 (d0 : Dev nD) : Fin 4 → Nat :=
  let c2_i32_861 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_dev44 : Nat :=
  let c0_i32_866 : BitVec 32 := 0#32
  let c6_i32_864 : BitVec 32 := 6#32
  let c1_i32_865 : BitVec 32 := 1#32
  let v986 : BitVec 32 := Scalar.muli c6_i32_864 c1_i32_865
  let v987 : BitVec 32 := Scalar.addi c0_i32_866 v986
  v987.toNat
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_725 : BitVec 32 := 7#32
  let v841 : BitVec 1 := Scalar.cmpi .ne v2 c7_i32_725
  let v842 : BitVec 32 := Scalar.extui v841
  let c0_i32_726 : BitVec 32 := 0#32
  let v843 : BitVec 1 := Scalar.cmpi .ne v842 c0_i32_726
  v843

def k0_off75 (d0 : Dev nD) : Fin 2 → Nat :=
  let c2_i32_862 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off76 (d0 : Dev nD) : Fin 4 → Nat :=
  let c2_i32_861 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_dev45 : Nat :=
  let c0_i32_866 : BitVec 32 := 0#32
  let c7_i32_864 : BitVec 32 := 7#32
  let c1_i32_865 : BitVec 32 := 1#32
  let v986 : BitVec 32 := Scalar.muli c7_i32_864 c1_i32_865
  let v987 : BitVec 32 := Scalar.addi c0_i32_866 v986
  v987.toNat
def k0_off77 (d0 : Dev nD) : Fin 3 → Nat :=
  let c2_728 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_727 : BitVec 32 := 64#32
  let v844 : BitVec 32 := Scalar.muli v2 c64_i32_727
  let v845 : Index := Scalar.indexCast v844
  let c0_729 : Index := 0#32
  ![2, v845.toNat, 0]
def k0_off78 (d0 : Dev nD) (c1_i32_731 : BitVec 32) : Fin 2 → Nat :=
  let c2_i32_735 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_730 : BitVec 32 := 8#32
  let v849 : BitVec 32 := Scalar.addi v2 c8_i32_730
  let v850 : BitVec 32 := Scalar.subi v849 c1_i32_731
  let c8_i32_732 : BitVec 32 := 8#32
  let v851 : BitVec 32 := Scalar.remsi v850 c8_i32_732
  ![2, v851.toNat]
def k0_off79 (d0 : Dev nD) (c1_i32_731 : BitVec 32) : Fin 4 → Nat :=
  let c2_i32_734 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_730 : BitVec 32 := 8#32
  let v849 : BitVec 32 := Scalar.addi v2 c8_i32_730
  let v850 : BitVec 32 := Scalar.subi v849 c1_i32_731
  let c8_i32_732 : BitVec 32 := 8#32
  let v851 : BitVec 32 := Scalar.remsi v850 c8_i32_732
  let c0_i32_739 : BitVec 32 := 0#32
  let c0_i32_740 : BitVec 32 := 0#32
  ![2, v851.toNat, 0, 0]
def k0_off80 (d0 : Dev nD) (c1_i32_731 : BitVec 32) : Fin 4 → Nat :=
  let c2_743 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_730 : BitVec 32 := 8#32
  let v849 : BitVec 32 := Scalar.addi v2 c8_i32_730
  let v850 : BitVec 32 := Scalar.subi v849 c1_i32_731
  let c8_i32_732 : BitVec 32 := 8#32
  let v851 : BitVec 32 := Scalar.remsi v850 c8_i32_732
  let v860 : Index := Scalar.indexCast v851
  let c0_744 : Index := 0#32
  let c0_745 : Index := 0#32
  ![2, v860.toNat, 0, 0]
def k0_cond57 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_844 : BitVec 32 := 0#32
  let v962 : BitVec 1 := Scalar.cmpi .ne v2 c0_i32_844
  let v963 : BitVec 32 := Scalar.extui v962
  let c0_i32_845 : BitVec 32 := 0#32
  let v964 : BitVec 1 := Scalar.cmpi .ne v963 c0_i32_845
  v964

def k0_off81 (d0 : Dev nD) : Fin 4 → Nat :=
  let c2_i32_860 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_868 : BitVec 32 := 0#32
  let c0_i32_869 : BitVec 32 := 0#32
  ![2, v2.toNat, 0, 0]
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_846 : BitVec 32 := 1#32
  let v965 : BitVec 1 := Scalar.cmpi .ne v2 c1_i32_846
  let v966 : BitVec 32 := Scalar.extui v965
  let c0_i32_847 : BitVec 32 := 0#32
  let v967 : BitVec 1 := Scalar.cmpi .ne v966 c0_i32_847
  v967

def k0_off82 (d0 : Dev nD) : Fin 4 → Nat :=
  let c2_i32_860 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_868 : BitVec 32 := 0#32
  let c0_i32_869 : BitVec 32 := 0#32
  ![2, v2.toNat, 0, 0]
def k0_cond59 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_848 : BitVec 32 := 2#32
  let v968 : BitVec 1 := Scalar.cmpi .ne v2 c2_i32_848
  let v969 : BitVec 32 := Scalar.extui v968
  let c0_i32_849 : BitVec 32 := 0#32
  let v970 : BitVec 1 := Scalar.cmpi .ne v969 c0_i32_849
  v970

def k0_off83 (d0 : Dev nD) : Fin 4 → Nat :=
  let c2_i32_860 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_cond60 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_850 : BitVec 32 := 3#32
  let v971 : BitVec 1 := Scalar.cmpi .ne v2 c3_i32_850
  let v972 : BitVec 32 := Scalar.extui v971
  let c0_i32_851 : BitVec 32 := 0#32
  let v973 : BitVec 1 := Scalar.cmpi .ne v972 c0_i32_851
  v973

def k0_off84 (d0 : Dev nD) : Fin 4 → Nat :=
  let c2_i32_860 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_cond61 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_852 : BitVec 32 := 4#32
  let v974 : BitVec 1 := Scalar.cmpi .ne v2 c4_i32_852
  let v975 : BitVec 32 := Scalar.extui v974
  let c0_i32_853 : BitVec 32 := 0#32
  let v976 : BitVec 1 := Scalar.cmpi .ne v975 c0_i32_853
  v976

def k0_off85 (d0 : Dev nD) : Fin 4 → Nat :=
  let c2_i32_860 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_cond62 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_854 : BitVec 32 := 5#32
  let v977 : BitVec 1 := Scalar.cmpi .ne v2 c5_i32_854
  let v978 : BitVec 32 := Scalar.extui v977
  let c0_i32_855 : BitVec 32 := 0#32
  let v979 : BitVec 1 := Scalar.cmpi .ne v978 c0_i32_855
  v979

def k0_off86 (d0 : Dev nD) : Fin 4 → Nat :=
  let c2_i32_860 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_cond63 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_856 : BitVec 32 := 6#32
  let v980 : BitVec 1 := Scalar.cmpi .ne v2 c6_i32_856
  let v981 : BitVec 32 := Scalar.extui v980
  let c0_i32_857 : BitVec 32 := 0#32
  let v982 : BitVec 1 := Scalar.cmpi .ne v981 c0_i32_857
  v982

def k0_off87 (d0 : Dev nD) : Fin 4 → Nat :=
  let c2_i32_860 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
def k0_cond64 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_858 : BitVec 32 := 7#32
  let v983 : BitVec 1 := Scalar.cmpi .ne v2 c7_i32_858
  let v984 : BitVec 32 := Scalar.extui v983
  let c0_i32_859 : BitVec 32 := 0#32
  let v985 : BitVec 1 := Scalar.cmpi .ne v984 c0_i32_859
  v985

def k0_off88 (d0 : Dev nD) : Fin 4 → Nat :=
  let c2_i32_860 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_867 : BitVec 32 := 0#32
  let c0_i32_868 : BitVec 32 := 0#32
  ![2, v2.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S3x512x256_S1x512x256_0_0_0 : ∀ a, (![0, 0, 0] : Fin 3 → Nat) a + S1x512x256.size a ≤ S3x512x256.size a
  h_S1x512x256 : 0 < S1x512x256.numel
  shapeCasts_S1x512x256_S512x256 : S1x512x256.ShapeCasts S512x256
  shapeCasts_S512x256_S1x512x256 : S512x256.ShapeCasts S1x512x256
  packedbf16_S3x512x256_S1x512x256_0_0_0 : (Rect.unit (s := S3x512x256) ![0, 0, 0] S1x512x256.size inb_S3x512x256_S1x512x256_0_0_0).PackedRows (EltTy.packing .bf16)
  hamt_7 : (7#32 : BitVec 32).msb = false
  inb_S3_S1_0 : ∀ a, (![0] : Fin 1 → Nat) a + S1.size a ≤ S3.size a
  squeezes_S1_S_ : S1.Squeezes S_
  squeezes_S1x1_S_ : S1x1.Squeezes S_
  squeezes_S1x1x64x256_S64x256 : S1x1x64x256.Squeezes S64x256
  inb_S3x512x256_S1x64x256_0_0_0 : ∀ a, (![0, 0, 0] : Fin 3 → Nat) a + S1x64x256.size a ≤ S3x512x256.size a
  squeezes_S1x64x256_S64x256 : S1x64x256.Squeezes S64x256
  wordsbf16_S3x512x256_S1x64x256_0_0_0 : (Rect.unit (s := S3x512x256) ![0, 0, 0] S1x64x256.size inb_S3x512x256_S1x64x256_0_0_0).WholeWords (EltTy.packing .bf16)
  inb_S3x512x256_S1x64x256_0_64_0 : ∀ a, (![0, 64, 0] : Fin 3 → Nat) a + S1x64x256.size a ≤ S3x512x256.size a
  wordsbf16_S3x512x256_S1x64x256_0_64_0 : (Rect.unit (s := S3x512x256) ![0, 64, 0] S1x64x256.size inb_S3x512x256_S1x64x256_0_64_0).WholeWords (EltTy.packing .bf16)
  inb_S3x512x256_S1x64x256_0_128_0 : ∀ a, (![0, 128, 0] : Fin 3 → Nat) a + S1x64x256.size a ≤ S3x512x256.size a
  wordsbf16_S3x512x256_S1x64x256_0_128_0 : (Rect.unit (s := S3x512x256) ![0, 128, 0] S1x64x256.size inb_S3x512x256_S1x64x256_0_128_0).WholeWords (EltTy.packing .bf16)
  inb_S3x512x256_S1x64x256_0_192_0 : ∀ a, (![0, 192, 0] : Fin 3 → Nat) a + S1x64x256.size a ≤ S3x512x256.size a
  wordsbf16_S3x512x256_S1x64x256_0_192_0 : (Rect.unit (s := S3x512x256) ![0, 192, 0] S1x64x256.size inb_S3x512x256_S1x64x256_0_192_0).WholeWords (EltTy.packing .bf16)
  inb_S3x512x256_S1x64x256_0_256_0 : ∀ a, (![0, 256, 0] : Fin 3 → Nat) a + S1x64x256.size a ≤ S3x512x256.size a
  wordsbf16_S3x512x256_S1x64x256_0_256_0 : (Rect.unit (s := S3x512x256) ![0, 256, 0] S1x64x256.size inb_S3x512x256_S1x64x256_0_256_0).WholeWords (EltTy.packing .bf16)
  inb_S3x512x256_S1x64x256_0_320_0 : ∀ a, (![0, 320, 0] : Fin 3 → Nat) a + S1x64x256.size a ≤ S3x512x256.size a
  wordsbf16_S3x512x256_S1x64x256_0_320_0 : (Rect.unit (s := S3x512x256) ![0, 320, 0] S1x64x256.size inb_S3x512x256_S1x64x256_0_320_0).WholeWords (EltTy.packing .bf16)
  inb_S3x512x256_S1x64x256_0_384_0 : ∀ a, (![0, 384, 0] : Fin 3 → Nat) a + S1x64x256.size a ≤ S3x512x256.size a
  wordsbf16_S3x512x256_S1x64x256_0_384_0 : (Rect.unit (s := S3x512x256) ![0, 384, 0] S1x64x256.size inb_S3x512x256_S1x64x256_0_384_0).WholeWords (EltTy.packing .bf16)
  inb_S3x512x256_S1x64x256_0_448_0 : ∀ a, (![0, 448, 0] : Fin 3 → Nat) a + S1x64x256.size a ≤ S3x512x256.size a
  wordsbf16_S3x512x256_S1x64x256_0_448_0 : (Rect.unit (s := S3x512x256) ![0, 448, 0] S1x64x256.size inb_S3x512x256_S1x64x256_0_448_0).WholeWords (EltTy.packing .bf16)
  h_S1x64x256 : 0 < S1x64x256.numel
  shapeCasts_S1x64x256_S64x256 : S1x64x256.ShapeCasts S64x256
  h_S1x1x64x256 : 0 < S1x1x64x256.numel
  shapeCasts_S1x1x64x256_S64x256 : S1x1x64x256.ShapeCasts S64x256
  shapeCasts_S64x256_S1x64x256 : S64x256.ShapeCasts S1x64x256
  inb_S3x8_S1x1_0_0 : ∀ a, (![0, 0] : Fin 2 → Nat) a + S1x1.size a ≤ S3x8.size a
  inb_S3x8_S1x1_0_1 : ∀ a, (![0, 1] : Fin 2 → Nat) a + S1x1.size a ≤ S3x8.size a
  inb_S3x512x256_S1x128x256_0_0_0 : ∀ a, (![0, 0, 0] : Fin 3 → Nat) a + S1x128x256.size a ≤ S3x512x256.size a
  h_S1x128x256 : 0 < S1x128x256.numel
  shapeCasts_S1x128x256_S128x256 : S1x128x256.ShapeCasts S128x256
  inb_S3x512x256_S1x128x256_1_0_0 : ∀ a, (![1, 0, 0] : Fin 3 → Nat) a + S1x128x256.size a ≤ S3x512x256.size a
  shapeCasts_S128x256_S1x128x256 : S128x256.ShapeCasts S1x128x256
  packedbf16_S3x512x256_S1x128x256_1_0_0 : (Rect.unit (s := S3x512x256) ![1, 0, 0] S1x128x256.size inb_S3x512x256_S1x128x256_1_0_0).PackedRows (EltTy.packing .bf16)
  inb_S3_S1_1 : ∀ a, (![1] : Fin 1 → Nat) a + S1.size a ≤ S3.size a
  inb_S3x512x256_S1x64x256_1_0_0 : ∀ a, (![1, 0, 0] : Fin 3 → Nat) a + S1x64x256.size a ≤ S3x512x256.size a
  wordsbf16_S3x512x256_S1x64x256_1_0_0 : (Rect.unit (s := S3x512x256) ![1, 0, 0] S1x64x256.size inb_S3x512x256_S1x64x256_1_0_0).WholeWords (EltTy.packing .bf16)
  inb_S3x512x256_S1x64x256_1_64_0 : ∀ a, (![1, 64, 0] : Fin 3 → Nat) a + S1x64x256.size a ≤ S3x512x256.size a
  wordsbf16_S3x512x256_S1x64x256_1_64_0 : (Rect.unit (s := S3x512x256) ![1, 64, 0] S1x64x256.size inb_S3x512x256_S1x64x256_1_64_0).WholeWords (EltTy.packing .bf16)
  inb_S3x8_S1x1_0_2 : ∀ a, (![0, 2] : Fin 2 → Nat) a + S1x1.size a ≤ S3x8.size a
  inb_S3x8_S1x1_0_3 : ∀ a, (![0, 3] : Fin 2 → Nat) a + S1x1.size a ≤ S3x8.size a
  inb_S3x512x256_S1x128x256_0_128_0 : ∀ a, (![0, 128, 0] : Fin 3 → Nat) a + S1x128x256.size a ≤ S3x512x256.size a
  inb_S3x512x256_S1x128x256_1_128_0 : ∀ a, (![1, 128, 0] : Fin 3 → Nat) a + S1x128x256.size a ≤ S3x512x256.size a
  packedbf16_S3x512x256_S1x128x256_1_128_0 : (Rect.unit (s := S3x512x256) ![1, 128, 0] S1x128x256.size inb_S3x512x256_S1x128x256_1_128_0).PackedRows (EltTy.packing .bf16)
  inb_S3x512x256_S1x64x256_1_128_0 : ∀ a, (![1, 128, 0] : Fin 3 → Nat) a + S1x64x256.size a ≤ S3x512x256.size a
  wordsbf16_S3x512x256_S1x64x256_1_128_0 : (Rect.unit (s := S3x512x256) ![1, 128, 0] S1x64x256.size inb_S3x512x256_S1x64x256_1_128_0).WholeWords (EltTy.packing .bf16)
  inb_S3x512x256_S1x64x256_1_192_0 : ∀ a, (![1, 192, 0] : Fin 3 → Nat) a + S1x64x256.size a ≤ S3x512x256.size a
  wordsbf16_S3x512x256_S1x64x256_1_192_0 : (Rect.unit (s := S3x512x256) ![1, 192, 0] S1x64x256.size inb_S3x512x256_S1x64x256_1_192_0).WholeWords (EltTy.packing .bf16)
  inb_S3x8_S1x1_0_4 : ∀ a, (![0, 4] : Fin 2 → Nat) a + S1x1.size a ≤ S3x8.size a
  inb_S3x8_S1x1_0_5 : ∀ a, (![0, 5] : Fin 2 → Nat) a + S1x1.size a ≤ S3x8.size a
  inb_S3x512x256_S1x128x256_0_256_0 : ∀ a, (![0, 256, 0] : Fin 3 → Nat) a + S1x128x256.size a ≤ S3x512x256.size a
  inb_S3x512x256_S1x128x256_1_256_0 : ∀ a, (![1, 256, 0] : Fin 3 → Nat) a + S1x128x256.size a ≤ S3x512x256.size a
  packedbf16_S3x512x256_S1x128x256_1_256_0 : (Rect.unit (s := S3x512x256) ![1, 256, 0] S1x128x256.size inb_S3x512x256_S1x128x256_1_256_0).PackedRows (EltTy.packing .bf16)
  inb_S3x512x256_S1x64x256_1_256_0 : ∀ a, (![1, 256, 0] : Fin 3 → Nat) a + S1x64x256.size a ≤ S3x512x256.size a
  wordsbf16_S3x512x256_S1x64x256_1_256_0 : (Rect.unit (s := S3x512x256) ![1, 256, 0] S1x64x256.size inb_S3x512x256_S1x64x256_1_256_0).WholeWords (EltTy.packing .bf16)
  inb_S3x512x256_S1x64x256_1_320_0 : ∀ a, (![1, 320, 0] : Fin 3 → Nat) a + S1x64x256.size a ≤ S3x512x256.size a
  wordsbf16_S3x512x256_S1x64x256_1_320_0 : (Rect.unit (s := S3x512x256) ![1, 320, 0] S1x64x256.size inb_S3x512x256_S1x64x256_1_320_0).WholeWords (EltTy.packing .bf16)
  inb_S3x8_S1x1_0_6 : ∀ a, (![0, 6] : Fin 2 → Nat) a + S1x1.size a ≤ S3x8.size a
  inb_S3x8_S1x1_0_7 : ∀ a, (![0, 7] : Fin 2 → Nat) a + S1x1.size a ≤ S3x8.size a
  inb_S3x512x256_S1x128x256_0_384_0 : ∀ a, (![0, 384, 0] : Fin 3 → Nat) a + S1x128x256.size a ≤ S3x512x256.size a
  inb_S3x512x256_S1x128x256_1_384_0 : ∀ a, (![1, 384, 0] : Fin 3 → Nat) a + S1x128x256.size a ≤ S3x512x256.size a
  packedbf16_S3x512x256_S1x128x256_1_384_0 : (Rect.unit (s := S3x512x256) ![1, 384, 0] S1x128x256.size inb_S3x512x256_S1x128x256_1_384_0).PackedRows (EltTy.packing .bf16)
  inb_S3x512x256_S1x64x256_1_384_0 : ∀ a, (![1, 384, 0] : Fin 3 → Nat) a + S1x64x256.size a ≤ S3x512x256.size a
  wordsbf16_S3x512x256_S1x64x256_1_384_0 : (Rect.unit (s := S3x512x256) ![1, 384, 0] S1x64x256.size inb_S3x512x256_S1x64x256_1_384_0).WholeWords (EltTy.packing .bf16)
  inb_S3x512x256_S1x64x256_1_448_0 : ∀ a, (![1, 448, 0] : Fin 3 → Nat) a + S1x64x256.size a ≤ S3x512x256.size a
  wordsbf16_S3x512x256_S1x64x256_1_448_0 : (Rect.unit (s := S3x512x256) ![1, 448, 0] S1x64x256.size inb_S3x512x256_S1x64x256_1_448_0).WholeWords (EltTy.packing .bf16)
  inb_S3x8_S1x1_1_0 : ∀ a, (![1, 0] : Fin 2 → Nat) a + S1x1.size a ≤ S3x8.size a
  inb_S3x8_S1x1_1_1 : ∀ a, (![1, 1] : Fin 2 → Nat) a + S1x1.size a ≤ S3x8.size a
  inb_S3x512x256_S1x128x256_2_0_0 : ∀ a, (![2, 0, 0] : Fin 3 → Nat) a + S1x128x256.size a ≤ S3x512x256.size a
  packedbf16_S3x512x256_S1x128x256_2_0_0 : (Rect.unit (s := S3x512x256) ![2, 0, 0] S1x128x256.size inb_S3x512x256_S1x128x256_2_0_0).PackedRows (EltTy.packing .bf16)
  inb_S3_S1_2 : ∀ a, (![2] : Fin 1 → Nat) a + S1.size a ≤ S3.size a
  inb_S3x512x256_S1x64x256_2_0_0 : ∀ a, (![2, 0, 0] : Fin 3 → Nat) a + S1x64x256.size a ≤ S3x512x256.size a
  wordsbf16_S3x512x256_S1x64x256_2_0_0 : (Rect.unit (s := S3x512x256) ![2, 0, 0] S1x64x256.size inb_S3x512x256_S1x64x256_2_0_0).WholeWords (EltTy.packing .bf16)
  inb_S3x512x256_S1x64x256_2_64_0 : ∀ a, (![2, 64, 0] : Fin 3 → Nat) a + S1x64x256.size a ≤ S3x512x256.size a
  wordsbf16_S3x512x256_S1x64x256_2_64_0 : (Rect.unit (s := S3x512x256) ![2, 64, 0] S1x64x256.size inb_S3x512x256_S1x64x256_2_64_0).WholeWords (EltTy.packing .bf16)
  inb_S3x8_S1x1_1_2 : ∀ a, (![1, 2] : Fin 2 → Nat) a + S1x1.size a ≤ S3x8.size a
  inb_S3x8_S1x1_1_3 : ∀ a, (![1, 3] : Fin 2 → Nat) a + S1x1.size a ≤ S3x8.size a
  inb_S3x512x256_S1x128x256_2_128_0 : ∀ a, (![2, 128, 0] : Fin 3 → Nat) a + S1x128x256.size a ≤ S3x512x256.size a
  packedbf16_S3x512x256_S1x128x256_2_128_0 : (Rect.unit (s := S3x512x256) ![2, 128, 0] S1x128x256.size inb_S3x512x256_S1x128x256_2_128_0).PackedRows (EltTy.packing .bf16)
  inb_S3x512x256_S1x64x256_2_128_0 : ∀ a, (![2, 128, 0] : Fin 3 → Nat) a + S1x64x256.size a ≤ S3x512x256.size a
  wordsbf16_S3x512x256_S1x64x256_2_128_0 : (Rect.unit (s := S3x512x256) ![2, 128, 0] S1x64x256.size inb_S3x512x256_S1x64x256_2_128_0).WholeWords (EltTy.packing .bf16)
  inb_S3x512x256_S1x64x256_2_192_0 : ∀ a, (![2, 192, 0] : Fin 3 → Nat) a + S1x64x256.size a ≤ S3x512x256.size a
  wordsbf16_S3x512x256_S1x64x256_2_192_0 : (Rect.unit (s := S3x512x256) ![2, 192, 0] S1x64x256.size inb_S3x512x256_S1x64x256_2_192_0).WholeWords (EltTy.packing .bf16)
  inb_S3x8_S1x1_1_4 : ∀ a, (![1, 4] : Fin 2 → Nat) a + S1x1.size a ≤ S3x8.size a
  inb_S3x8_S1x1_1_5 : ∀ a, (![1, 5] : Fin 2 → Nat) a + S1x1.size a ≤ S3x8.size a
  inb_S3x512x256_S1x128x256_2_256_0 : ∀ a, (![2, 256, 0] : Fin 3 → Nat) a + S1x128x256.size a ≤ S3x512x256.size a
  packedbf16_S3x512x256_S1x128x256_2_256_0 : (Rect.unit (s := S3x512x256) ![2, 256, 0] S1x128x256.size inb_S3x512x256_S1x128x256_2_256_0).PackedRows (EltTy.packing .bf16)
  inb_S3x512x256_S1x64x256_2_256_0 : ∀ a, (![2, 256, 0] : Fin 3 → Nat) a + S1x64x256.size a ≤ S3x512x256.size a
  wordsbf16_S3x512x256_S1x64x256_2_256_0 : (Rect.unit (s := S3x512x256) ![2, 256, 0] S1x64x256.size inb_S3x512x256_S1x64x256_2_256_0).WholeWords (EltTy.packing .bf16)
  inb_S3x512x256_S1x64x256_2_320_0 : ∀ a, (![2, 320, 0] : Fin 3 → Nat) a + S1x64x256.size a ≤ S3x512x256.size a
  wordsbf16_S3x512x256_S1x64x256_2_320_0 : (Rect.unit (s := S3x512x256) ![2, 320, 0] S1x64x256.size inb_S3x512x256_S1x64x256_2_320_0).WholeWords (EltTy.packing .bf16)
  inb_S3x8_S1x1_1_6 : ∀ a, (![1, 6] : Fin 2 → Nat) a + S1x1.size a ≤ S3x8.size a
  inb_S3x8_S1x1_1_7 : ∀ a, (![1, 7] : Fin 2 → Nat) a + S1x1.size a ≤ S3x8.size a
  inb_S3x512x256_S1x128x256_2_384_0 : ∀ a, (![2, 384, 0] : Fin 3 → Nat) a + S1x128x256.size a ≤ S3x512x256.size a
  packedbf16_S3x512x256_S1x128x256_2_384_0 : (Rect.unit (s := S3x512x256) ![2, 384, 0] S1x128x256.size inb_S3x512x256_S1x128x256_2_384_0).PackedRows (EltTy.packing .bf16)
  inb_S3x512x256_S1x64x256_2_384_0 : ∀ a, (![2, 384, 0] : Fin 3 → Nat) a + S1x64x256.size a ≤ S3x512x256.size a
  wordsbf16_S3x512x256_S1x64x256_2_384_0 : (Rect.unit (s := S3x512x256) ![2, 384, 0] S1x64x256.size inb_S3x512x256_S1x64x256_2_384_0).WholeWords (EltTy.packing .bf16)
  inb_S3x512x256_S1x64x256_2_448_0 : ∀ a, (![2, 448, 0] : Fin 3 → Nat) a + S1x64x256.size a ≤ S3x512x256.size a
  wordsbf16_S3x512x256_S1x64x256_2_448_0 : (Rect.unit (s := S3x512x256) ![2, 448, 0] S1x64x256.size inb_S3x512x256_S1x64x256_2_448_0).WholeWords (EltTy.packing .bf16)
  inb_S64x256_S64x256_0_0 : ∀ a, (![0, 0] : Fin 2 → Nat) a + S64x256.size a ≤ S64x256.size a
  h_S64x256 : 0 < S64x256.numel
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  dot_S128x256_S256x512_S128x512_1_0_0_1_n_n_wf : DotDims.WF S128x256 S256x512 S128x512 [1] [0] [0] [1] [] []
  dot_S128x512_S512x256_S128x256_1_0_0_1_n_n_wf : DotDims.WF S128x512 S512x256 S128x256 [1] [0] [0] [1] [] []
  hcc0_scratch3 : 8 + S3.numel ≤ 62
  hcc0_scratch4 : 11 + S3x8.numel ≤ 62
  hcc0_scratch5 : 35 + S3.numel ≤ 62
  hcc0_scratch6 : 38 + S3x8.numel ≤ 62
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (k0_h1 : k0_cond1 d0 = 1#1), ∀ a, (k0_off1 d0) a + S1x1.size a ≤ S3x8.size a
  k0_off2_inb : ∀ d0 : Dev nD, ∀ (k0_h1 : k0_cond1 d0 = 1#1), ∀ a, (k0_off2 d0) a + S1x1x64x256.size a ≤ S3x8x64x256.size a
  k0_off2_wordsbf16 : ∀ d0 : Dev nD, ∀ (k0_h1 : k0_cond1 d0 = 1#1), (Rect.unit (s := S3x8x64x256) (k0_off2 d0) S1x1x64x256.size (k0_off2_inb d0 k0_h1)).WholeWords (EltTy.packing .bf16)
  k0_dev8_lt : ∀ d0 : Dev nD, ∀ (k0_h1 : k0_cond1 d0 = 1#1), k0_dev8 < nD
  k0_off3_inb : ∀ d0 : Dev nD, ∀ (k0_h2 : k0_cond2 d0 = 1#1), ∀ a, (k0_off3 d0) a + S1x1.size a ≤ S3x8.size a
  k0_off4_inb : ∀ d0 : Dev nD, ∀ (k0_h2 : k0_cond2 d0 = 1#1), ∀ a, (k0_off4 d0) a + S1x1x64x256.size a ≤ S3x8x64x256.size a
  k0_off4_wordsbf16 : ∀ d0 : Dev nD, ∀ (k0_h2 : k0_cond2 d0 = 1#1), (Rect.unit (s := S3x8x64x256) (k0_off4 d0) S1x1x64x256.size (k0_off4_inb d0 k0_h2)).WholeWords (EltTy.packing .bf16)
  k0_dev9_lt : ∀ d0 : Dev nD, ∀ (k0_h2 : k0_cond2 d0 = 1#1), k0_dev9 < nD
  k0_off5_inb : ∀ d0 : Dev nD, ∀ (k0_h3 : k0_cond3 d0 = 1#1), ∀ a, (k0_off5 d0) a + S1x1.size a ≤ S3x8.size a
  k0_off6_inb : ∀ d0 : Dev nD, ∀ (k0_h3 : k0_cond3 d0 = 1#1), ∀ a, (k0_off6 d0) a + S1x1x64x256.size a ≤ S3x8x64x256.size a
  k0_off6_wordsbf16 : ∀ d0 : Dev nD, ∀ (k0_h3 : k0_cond3 d0 = 1#1), (Rect.unit (s := S3x8x64x256) (k0_off6 d0) S1x1x64x256.size (k0_off6_inb d0 k0_h3)).WholeWords (EltTy.packing .bf16)
  k0_dev10_lt : ∀ d0 : Dev nD, ∀ (k0_h3 : k0_cond3 d0 = 1#1), k0_dev10 < nD
  k0_off7_inb : ∀ d0 : Dev nD, ∀ (k0_h4 : k0_cond4 d0 = 1#1), ∀ a, (k0_off7 d0) a + S1x1.size a ≤ S3x8.size a
  k0_off8_inb : ∀ d0 : Dev nD, ∀ (k0_h4 : k0_cond4 d0 = 1#1), ∀ a, (k0_off8 d0) a + S1x1x64x256.size a ≤ S3x8x64x256.size a
  k0_off8_wordsbf16 : ∀ d0 : Dev nD, ∀ (k0_h4 : k0_cond4 d0 = 1#1), (Rect.unit (s := S3x8x64x256) (k0_off8 d0) S1x1x64x256.size (k0_off8_inb d0 k0_h4)).WholeWords (EltTy.packing .bf16)
  k0_dev11_lt : ∀ d0 : Dev nD, ∀ (k0_h4 : k0_cond4 d0 = 1#1), k0_dev11 < nD
  k0_off9_inb : ∀ d0 : Dev nD, ∀ (k0_h5 : k0_cond5 d0 = 1#1), ∀ a, (k0_off9 d0) a + S1x1.size a ≤ S3x8.size a
  k0_off10_inb : ∀ d0 : Dev nD, ∀ (k0_h5 : k0_cond5 d0 = 1#1), ∀ a, (k0_off10 d0) a + S1x1x64x256.size a ≤ S3x8x64x256.size a
  k0_off10_wordsbf16 : ∀ d0 : Dev nD, ∀ (k0_h5 : k0_cond5 d0 = 1#1), (Rect.unit (s := S3x8x64x256) (k0_off10 d0) S1x1x64x256.size (k0_off10_inb d0 k0_h5)).WholeWords (EltTy.packing .bf16)
  k0_dev12_lt : ∀ d0 : Dev nD, ∀ (k0_h5 : k0_cond5 d0 = 1#1), k0_dev12 < nD
  k0_off11_inb : ∀ d0 : Dev nD, ∀ (k0_h6 : k0_cond6 d0 = 1#1), ∀ a, (k0_off11 d0) a + S1x1.size a ≤ S3x8.size a
  k0_off12_inb : ∀ d0 : Dev nD, ∀ (k0_h6 : k0_cond6 d0 = 1#1), ∀ a, (k0_off12 d0) a + S1x1x64x256.size a ≤ S3x8x64x256.size a
  k0_off12_wordsbf16 : ∀ d0 : Dev nD, ∀ (k0_h6 : k0_cond6 d0 = 1#1), (Rect.unit (s := S3x8x64x256) (k0_off12 d0) S1x1x64x256.size (k0_off12_inb d0 k0_h6)).WholeWords (EltTy.packing .bf16)
  k0_dev13_lt : ∀ d0 : Dev nD, ∀ (k0_h6 : k0_cond6 d0 = 1#1), k0_dev13 < nD
  k0_off13_inb : ∀ d0 : Dev nD, ∀ (k0_h7 : k0_cond7 d0 = 1#1), ∀ a, (k0_off13 d0) a + S1x1.size a ≤ S3x8.size a
  k0_off14_inb : ∀ d0 : Dev nD, ∀ (k0_h7 : k0_cond7 d0 = 1#1), ∀ a, (k0_off14 d0) a + S1x1x64x256.size a ≤ S3x8x64x256.size a
  k0_off14_wordsbf16 : ∀ d0 : Dev nD, ∀ (k0_h7 : k0_cond7 d0 = 1#1), (Rect.unit (s := S3x8x64x256) (k0_off14 d0) S1x1x64x256.size (k0_off14_inb d0 k0_h7)).WholeWords (EltTy.packing .bf16)
  k0_dev14_lt : ∀ d0 : Dev nD, ∀ (k0_h7 : k0_cond7 d0 = 1#1), k0_dev14 < nD
  k0_off15_inb : ∀ d0 : Dev nD, ∀ (k0_h8 : k0_cond8 d0 = 1#1), ∀ a, (k0_off15 d0) a + S1x1.size a ≤ S3x8.size a
  k0_off16_inb : ∀ d0 : Dev nD, ∀ (k0_h8 : k0_cond8 d0 = 1#1), ∀ a, (k0_off16 d0) a + S1x1x64x256.size a ≤ S3x8x64x256.size a
  k0_off16_wordsbf16 : ∀ d0 : Dev nD, ∀ (k0_h8 : k0_cond8 d0 = 1#1), (Rect.unit (s := S3x8x64x256) (k0_off16 d0) S1x1x64x256.size (k0_off16_inb d0 k0_h8)).WholeWords (EltTy.packing .bf16)
  k0_dev15_lt : ∀ d0 : Dev nD, ∀ (k0_h8 : k0_cond8 d0 = 1#1), k0_dev15 < nD
  k0_off17_inb : ∀ d0 : Dev nD, ∀ a, (k0_off17 d0) a + S1x64x256.size a ≤ S3x512x256.size a
  k0_off18_inb : ∀ d0 : Dev nD, ∀ (r : Fin 7), ∀ a, (k0_off18 d0 (BitVec.ofNat 32 (1 + r.val))) a + S1x1.size a ≤ S3x8.size a
  k0_off19_inb : ∀ d0 : Dev nD, ∀ (r : Fin 7), ∀ a, (k0_off19 d0 (BitVec.ofNat 32 (1 + r.val))) a + S1x1x64x256.size a ≤ S3x8x64x256.size a
  k0_off19_wordsbf16 : ∀ d0 : Dev nD, ∀ (r : Fin 7), (Rect.unit (s := S3x8x64x256) (k0_off19 d0 (BitVec.ofNat 32 (1 + r.val))) S1x1x64x256.size (k0_off19_inb d0 r)).WholeWords (EltTy.packing .bf16)
  k0_off20_inb : ∀ d0 : Dev nD, ∀ (r : Fin 7), ∀ a, (k0_off20 d0 (BitVec.ofNat 32 (1 + r.val))) a + S1x1x64x256.size a ≤ S3x8x64x256.size a
  k0_off17_packedbf16 : ∀ d0 : Dev nD, (Rect.unit (s := S3x512x256) (k0_off17 d0) S1x64x256.size (k0_off17_inb d0)).PackedRows (EltTy.packing .bf16)
  k0_off21_inb : ∀ d0 : Dev nD, ∀ a, (k0_off21 d0) a + S1x1.size a ≤ S3x8.size a
  k0_off22_inb : ∀ d0 : Dev nD, ∀ a, (k0_off22 d0) a + S1x64x256.size a ≤ S3x512x256.size a
  k0_off22_wordsbf16 : ∀ d0 : Dev nD, (Rect.unit (s := S3x512x256) (k0_off22 d0) S1x64x256.size (k0_off22_inb d0)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_off23_inb : ∀ d0 : Dev nD, ∀ (k0_h9 : k0_cond9 d0 = 1#1), ∀ a, (k0_off23 d0) a + S1x1x64x256.size a ≤ S3x8x64x256.size a
  k0_off23_wordsbf16 : ∀ d0 : Dev nD, ∀ (k0_h9 : k0_cond9 d0 = 1#1), (Rect.unit (s := S3x8x64x256) (k0_off23 d0) S1x1x64x256.size (k0_off23_inb d0 k0_h9)).WholeWords (EltTy.packing .bf16)
  k0_off24_inb : ∀ d0 : Dev nD, ∀ (k0_h10 : k0_cond10 d0 = 1#1), ∀ a, (k0_off24 d0) a + S1x1x64x256.size a ≤ S3x8x64x256.size a
  k0_off24_wordsbf16 : ∀ d0 : Dev nD, ∀ (k0_h10 : k0_cond10 d0 = 1#1), (Rect.unit (s := S3x8x64x256) (k0_off24 d0) S1x1x64x256.size (k0_off24_inb d0 k0_h10)).WholeWords (EltTy.packing .bf16)
  k0_off25_inb : ∀ d0 : Dev nD, ∀ (k0_h11 : k0_cond11 d0 = 1#1), ∀ a, (k0_off25 d0) a + S1x1x64x256.size a ≤ S3x8x64x256.size a
  k0_off25_wordsbf16 : ∀ d0 : Dev nD, ∀ (k0_h11 : k0_cond11 d0 = 1#1), (Rect.unit (s := S3x8x64x256) (k0_off25 d0) S1x1x64x256.size (k0_off25_inb d0 k0_h11)).WholeWords (EltTy.packing .bf16)
  k0_off26_inb : ∀ d0 : Dev nD, ∀ (k0_h12 : k0_cond12 d0 = 1#1), ∀ a, (k0_off26 d0) a + S1x1x64x256.size a ≤ S3x8x64x256.size a
  k0_off26_wordsbf16 : ∀ d0 : Dev nD, ∀ (k0_h12 : k0_cond12 d0 = 1#1), (Rect.unit (s := S3x8x64x256) (k0_off26 d0) S1x1x64x256.size (k0_off26_inb d0 k0_h12)).WholeWords (EltTy.packing .bf16)
  k0_off27_inb : ∀ d0 : Dev nD, ∀ (k0_h13 : k0_cond13 d0 = 1#1), ∀ a, (k0_off27 d0) a + S1x1x64x256.size a ≤ S3x8x64x256.size a
  k0_off27_wordsbf16 : ∀ d0 : Dev nD, ∀ (k0_h13 : k0_cond13 d0 = 1#1), (Rect.unit (s := S3x8x64x256) (k0_off27 d0) S1x1x64x256.size (k0_off27_inb d0 k0_h13)).WholeWords (EltTy.packing .bf16)
  k0_off28_inb : ∀ d0 : Dev nD, ∀ (k0_h14 : k0_cond14 d0 = 1#1), ∀ a, (k0_off28 d0) a + S1x1x64x256.size a ≤ S3x8x64x256.size a
  k0_off28_wordsbf16 : ∀ d0 : Dev nD, ∀ (k0_h14 : k0_cond14 d0 = 1#1), (Rect.unit (s := S3x8x64x256) (k0_off28 d0) S1x1x64x256.size (k0_off28_inb d0 k0_h14)).WholeWords (EltTy.packing .bf16)
  k0_off29_inb : ∀ d0 : Dev nD, ∀ (k0_h15 : k0_cond15 d0 = 1#1), ∀ a, (k0_off29 d0) a + S1x1x64x256.size a ≤ S3x8x64x256.size a
  k0_off29_wordsbf16 : ∀ d0 : Dev nD, ∀ (k0_h15 : k0_cond15 d0 = 1#1), (Rect.unit (s := S3x8x64x256) (k0_off29 d0) S1x1x64x256.size (k0_off29_inb d0 k0_h15)).WholeWords (EltTy.packing .bf16)
  k0_off30_inb : ∀ d0 : Dev nD, ∀ (k0_h16 : k0_cond16 d0 = 1#1), ∀ a, (k0_off30 d0) a + S1x1x64x256.size a ≤ S3x8x64x256.size a
  k0_off30_wordsbf16 : ∀ d0 : Dev nD, ∀ (k0_h16 : k0_cond16 d0 = 1#1), (Rect.unit (s := S3x8x64x256) (k0_off30 d0) S1x1x64x256.size (k0_off30_inb d0 k0_h16)).WholeWords (EltTy.packing .bf16)
  k0_off31_inb : ∀ d0 : Dev nD, ∀ (k0_h19 : k0_cond19 d0 = 1#1), ∀ a, (k0_off31 d0) a + S1x1.size a ≤ S3x8.size a
  k0_off32_inb : ∀ d0 : Dev nD, ∀ (k0_h19 : k0_cond19 d0 = 1#1), ∀ a, (k0_off32 d0) a + S1x1x64x256.size a ≤ S3x8x64x256.size a
  k0_off32_wordsbf16 : ∀ d0 : Dev nD, ∀ (k0_h19 : k0_cond19 d0 = 1#1), (Rect.unit (s := S3x8x64x256) (k0_off32 d0) S1x1x64x256.size (k0_off32_inb d0 k0_h19)).WholeWords (EltTy.packing .bf16)
  k0_dev23_lt : ∀ d0 : Dev nD, ∀ (k0_h19 : k0_cond19 d0 = 1#1), k0_dev23 < nD
  k0_off33_inb : ∀ d0 : Dev nD, ∀ (k0_h20 : k0_cond20 d0 = 1#1), ∀ a, (k0_off33 d0) a + S1x1.size a ≤ S3x8.size a
  k0_off34_inb : ∀ d0 : Dev nD, ∀ (k0_h20 : k0_cond20 d0 = 1#1), ∀ a, (k0_off34 d0) a + S1x1x64x256.size a ≤ S3x8x64x256.size a
  k0_off34_wordsbf16 : ∀ d0 : Dev nD, ∀ (k0_h20 : k0_cond20 d0 = 1#1), (Rect.unit (s := S3x8x64x256) (k0_off34 d0) S1x1x64x256.size (k0_off34_inb d0 k0_h20)).WholeWords (EltTy.packing .bf16)
  k0_dev24_lt : ∀ d0 : Dev nD, ∀ (k0_h20 : k0_cond20 d0 = 1#1), k0_dev24 < nD
  k0_off35_inb : ∀ d0 : Dev nD, ∀ (k0_h23 : k0_cond23 d0 = 1#1), ∀ a, (k0_off35 d0) a + S1x1.size a ≤ S3x8.size a
  k0_off36_inb : ∀ d0 : Dev nD, ∀ (k0_h23 : k0_cond23 d0 = 1#1), ∀ a, (k0_off36 d0) a + S1x1x64x256.size a ≤ S3x8x64x256.size a
  k0_off36_wordsbf16 : ∀ d0 : Dev nD, ∀ (k0_h23 : k0_cond23 d0 = 1#1), (Rect.unit (s := S3x8x64x256) (k0_off36 d0) S1x1x64x256.size (k0_off36_inb d0 k0_h23)).WholeWords (EltTy.packing .bf16)
  k0_dev25_lt : ∀ d0 : Dev nD, ∀ (k0_h23 : k0_cond23 d0 = 1#1), k0_dev25 < nD
  k0_off37_inb : ∀ d0 : Dev nD, ∀ (k0_h24 : k0_cond24 d0 = 1#1), ∀ a, (k0_off37 d0) a + S1x1.size a ≤ S3x8.size a
  k0_off38_inb : ∀ d0 : Dev nD, ∀ (k0_h24 : k0_cond24 d0 = 1#1), ∀ a, (k0_off38 d0) a + S1x1x64x256.size a ≤ S3x8x64x256.size a
  k0_off38_wordsbf16 : ∀ d0 : Dev nD, ∀ (k0_h24 : k0_cond24 d0 = 1#1), (Rect.unit (s := S3x8x64x256) (k0_off38 d0) S1x1x64x256.size (k0_off38_inb d0 k0_h24)).WholeWords (EltTy.packing .bf16)
  k0_dev26_lt : ∀ d0 : Dev nD, ∀ (k0_h24 : k0_cond24 d0 = 1#1), k0_dev26 < nD
  k0_off39_inb : ∀ d0 : Dev nD, ∀ (k0_h27 : k0_cond27 d0 = 1#1), ∀ a, (k0_off39 d0) a + S1x1.size a ≤ S3x8.size a
  k0_off40_inb : ∀ d0 : Dev nD, ∀ (k0_h27 : k0_cond27 d0 = 1#1), ∀ a, (k0_off40 d0) a + S1x1x64x256.size a ≤ S3x8x64x256.size a
  k0_off40_wordsbf16 : ∀ d0 : Dev nD, ∀ (k0_h27 : k0_cond27 d0 = 1#1), (Rect.unit (s := S3x8x64x256) (k0_off40 d0) S1x1x64x256.size (k0_off40_inb d0 k0_h27)).WholeWords (EltTy.packing .bf16)
  k0_dev27_lt : ∀ d0 : Dev nD, ∀ (k0_h27 : k0_cond27 d0 = 1#1), k0_dev27 < nD
  k0_off41_inb : ∀ d0 : Dev nD, ∀ (k0_h28 : k0_cond28 d0 = 1#1), ∀ a, (k0_off41 d0) a + S1x1.size a ≤ S3x8.size a
  k0_off42_inb : ∀ d0 : Dev nD, ∀ (k0_h28 : k0_cond28 d0 = 1#1), ∀ a, (k0_off42 d0) a + S1x1x64x256.size a ≤ S3x8x64x256.size a
  k0_off42_wordsbf16 : ∀ d0 : Dev nD, ∀ (k0_h28 : k0_cond28 d0 = 1#1), (Rect.unit (s := S3x8x64x256) (k0_off42 d0) S1x1x64x256.size (k0_off42_inb d0 k0_h28)).WholeWords (EltTy.packing .bf16)
  k0_dev28_lt : ∀ d0 : Dev nD, ∀ (k0_h28 : k0_cond28 d0 = 1#1), k0_dev28 < nD
  k0_off43_inb : ∀ d0 : Dev nD, ∀ (k0_h31 : k0_cond31 d0 = 1#1), ∀ a, (k0_off43 d0) a + S1x1.size a ≤ S3x8.size a
  k0_off44_inb : ∀ d0 : Dev nD, ∀ (k0_h31 : k0_cond31 d0 = 1#1), ∀ a, (k0_off44 d0) a + S1x1x64x256.size a ≤ S3x8x64x256.size a
  k0_off44_wordsbf16 : ∀ d0 : Dev nD, ∀ (k0_h31 : k0_cond31 d0 = 1#1), (Rect.unit (s := S3x8x64x256) (k0_off44 d0) S1x1x64x256.size (k0_off44_inb d0 k0_h31)).WholeWords (EltTy.packing .bf16)
  k0_dev29_lt : ∀ d0 : Dev nD, ∀ (k0_h31 : k0_cond31 d0 = 1#1), k0_dev29 < nD
  k0_off45_inb : ∀ d0 : Dev nD, ∀ (k0_h32 : k0_cond32 d0 = 1#1), ∀ a, (k0_off45 d0) a + S1x1.size a ≤ S3x8.size a
  k0_off46_inb : ∀ d0 : Dev nD, ∀ (k0_h32 : k0_cond32 d0 = 1#1), ∀ a, (k0_off46 d0) a + S1x1x64x256.size a ≤ S3x8x64x256.size a
  k0_off46_wordsbf16 : ∀ d0 : Dev nD, ∀ (k0_h32 : k0_cond32 d0 = 1#1), (Rect.unit (s := S3x8x64x256) (k0_off46 d0) S1x1x64x256.size (k0_off46_inb d0 k0_h32)).WholeWords (EltTy.packing .bf16)
  k0_dev30_lt : ∀ d0 : Dev nD, ∀ (k0_h32 : k0_cond32 d0 = 1#1), k0_dev30 < nD
  k0_off47_inb : ∀ d0 : Dev nD, ∀ a, (k0_off47 d0) a + S1x64x256.size a ≤ S3x512x256.size a
  k0_off48_inb : ∀ d0 : Dev nD, ∀ (r : Fin 7), ∀ a, (k0_off48 d0 (BitVec.ofNat 32 (1 + r.val))) a + S1x1.size a ≤ S3x8.size a
  k0_off49_inb : ∀ d0 : Dev nD, ∀ (r : Fin 7), ∀ a, (k0_off49 d0 (BitVec.ofNat 32 (1 + r.val))) a + S1x1x64x256.size a ≤ S3x8x64x256.size a
  k0_off49_wordsbf16 : ∀ d0 : Dev nD, ∀ (r : Fin 7), (Rect.unit (s := S3x8x64x256) (k0_off49 d0 (BitVec.ofNat 32 (1 + r.val))) S1x1x64x256.size (k0_off49_inb d0 r)).WholeWords (EltTy.packing .bf16)
  k0_off50_inb : ∀ d0 : Dev nD, ∀ (r : Fin 7), ∀ a, (k0_off50 d0 (BitVec.ofNat 32 (1 + r.val))) a + S1x1x64x256.size a ≤ S3x8x64x256.size a
  k0_off47_packedbf16 : ∀ d0 : Dev nD, (Rect.unit (s := S3x512x256) (k0_off47 d0) S1x64x256.size (k0_off47_inb d0)).PackedRows (EltTy.packing .bf16)
  k0_off51_inb : ∀ d0 : Dev nD, ∀ a, (k0_off51 d0) a + S1x1.size a ≤ S3x8.size a
  k0_off52_inb : ∀ d0 : Dev nD, ∀ a, (k0_off52 d0) a + S1x64x256.size a ≤ S3x512x256.size a
  k0_off52_wordsbf16 : ∀ d0 : Dev nD, (Rect.unit (s := S3x512x256) (k0_off52 d0) S1x64x256.size (k0_off52_inb d0)).WholeWords (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_off53_inb : ∀ d0 : Dev nD, ∀ (k0_h33 : k0_cond33 d0 = 1#1), ∀ a, (k0_off53 d0) a + S1x1x64x256.size a ≤ S3x8x64x256.size a
  k0_off53_wordsbf16 : ∀ d0 : Dev nD, ∀ (k0_h33 : k0_cond33 d0 = 1#1), (Rect.unit (s := S3x8x64x256) (k0_off53 d0) S1x1x64x256.size (k0_off53_inb d0 k0_h33)).WholeWords (EltTy.packing .bf16)
  k0_off54_inb : ∀ d0 : Dev nD, ∀ (k0_h34 : k0_cond34 d0 = 1#1), ∀ a, (k0_off54 d0) a + S1x1x64x256.size a ≤ S3x8x64x256.size a
  k0_off54_wordsbf16 : ∀ d0 : Dev nD, ∀ (k0_h34 : k0_cond34 d0 = 1#1), (Rect.unit (s := S3x8x64x256) (k0_off54 d0) S1x1x64x256.size (k0_off54_inb d0 k0_h34)).WholeWords (EltTy.packing .bf16)
  k0_off55_inb : ∀ d0 : Dev nD, ∀ (k0_h35 : k0_cond35 d0 = 1#1), ∀ a, (k0_off55 d0) a + S1x1x64x256.size a ≤ S3x8x64x256.size a
  k0_off55_wordsbf16 : ∀ d0 : Dev nD, ∀ (k0_h35 : k0_cond35 d0 = 1#1), (Rect.unit (s := S3x8x64x256) (k0_off55 d0) S1x1x64x256.size (k0_off55_inb d0 k0_h35)).WholeWords (EltTy.packing .bf16)
  k0_off56_inb : ∀ d0 : Dev nD, ∀ (k0_h36 : k0_cond36 d0 = 1#1), ∀ a, (k0_off56 d0) a + S1x1x64x256.size a ≤ S3x8x64x256.size a
  k0_off56_wordsbf16 : ∀ d0 : Dev nD, ∀ (k0_h36 : k0_cond36 d0 = 1#1), (Rect.unit (s := S3x8x64x256) (k0_off56 d0) S1x1x64x256.size (k0_off56_inb d0 k0_h36)).WholeWords (EltTy.packing .bf16)
  k0_off57_inb : ∀ d0 : Dev nD, ∀ (k0_h37 : k0_cond37 d0 = 1#1), ∀ a, (k0_off57 d0) a + S1x1x64x256.size a ≤ S3x8x64x256.size a
  k0_off57_wordsbf16 : ∀ d0 : Dev nD, ∀ (k0_h37 : k0_cond37 d0 = 1#1), (Rect.unit (s := S3x8x64x256) (k0_off57 d0) S1x1x64x256.size (k0_off57_inb d0 k0_h37)).WholeWords (EltTy.packing .bf16)
  k0_off58_inb : ∀ d0 : Dev nD, ∀ (k0_h38 : k0_cond38 d0 = 1#1), ∀ a, (k0_off58 d0) a + S1x1x64x256.size a ≤ S3x8x64x256.size a
  k0_off58_wordsbf16 : ∀ d0 : Dev nD, ∀ (k0_h38 : k0_cond38 d0 = 1#1), (Rect.unit (s := S3x8x64x256) (k0_off58 d0) S1x1x64x256.size (k0_off58_inb d0 k0_h38)).WholeWords (EltTy.packing .bf16)
  k0_off59_inb : ∀ d0 : Dev nD, ∀ (k0_h39 : k0_cond39 d0 = 1#1), ∀ a, (k0_off59 d0) a + S1x1x64x256.size a ≤ S3x8x64x256.size a
  k0_off59_wordsbf16 : ∀ d0 : Dev nD, ∀ (k0_h39 : k0_cond39 d0 = 1#1), (Rect.unit (s := S3x8x64x256) (k0_off59 d0) S1x1x64x256.size (k0_off59_inb d0 k0_h39)).WholeWords (EltTy.packing .bf16)
  k0_off60_inb : ∀ d0 : Dev nD, ∀ (k0_h40 : k0_cond40 d0 = 1#1), ∀ a, (k0_off60 d0) a + S1x1x64x256.size a ≤ S3x8x64x256.size a
  k0_off60_wordsbf16 : ∀ d0 : Dev nD, ∀ (k0_h40 : k0_cond40 d0 = 1#1), (Rect.unit (s := S3x8x64x256) (k0_off60 d0) S1x1x64x256.size (k0_off60_inb d0 k0_h40)).WholeWords (EltTy.packing .bf16)
  k0_off61_inb : ∀ d0 : Dev nD, ∀ (k0_h43 : k0_cond43 d0 = 1#1), ∀ a, (k0_off61 d0) a + S1x1.size a ≤ S3x8.size a
  k0_off62_inb : ∀ d0 : Dev nD, ∀ (k0_h43 : k0_cond43 d0 = 1#1), ∀ a, (k0_off62 d0) a + S1x1x64x256.size a ≤ S3x8x64x256.size a
  k0_off62_wordsbf16 : ∀ d0 : Dev nD, ∀ (k0_h43 : k0_cond43 d0 = 1#1), (Rect.unit (s := S3x8x64x256) (k0_off62 d0) S1x1x64x256.size (k0_off62_inb d0 k0_h43)).WholeWords (EltTy.packing .bf16)
  k0_dev38_lt : ∀ d0 : Dev nD, ∀ (k0_h43 : k0_cond43 d0 = 1#1), k0_dev38 < nD
  k0_off63_inb : ∀ d0 : Dev nD, ∀ (k0_h44 : k0_cond44 d0 = 1#1), ∀ a, (k0_off63 d0) a + S1x1.size a ≤ S3x8.size a
  k0_off64_inb : ∀ d0 : Dev nD, ∀ (k0_h44 : k0_cond44 d0 = 1#1), ∀ a, (k0_off64 d0) a + S1x1x64x256.size a ≤ S3x8x64x256.size a
  k0_off64_wordsbf16 : ∀ d0 : Dev nD, ∀ (k0_h44 : k0_cond44 d0 = 1#1), (Rect.unit (s := S3x8x64x256) (k0_off64 d0) S1x1x64x256.size (k0_off64_inb d0 k0_h44)).WholeWords (EltTy.packing .bf16)
  k0_dev39_lt : ∀ d0 : Dev nD, ∀ (k0_h44 : k0_cond44 d0 = 1#1), k0_dev39 < nD
  k0_off65_inb : ∀ d0 : Dev nD, ∀ (k0_h47 : k0_cond47 d0 = 1#1), ∀ a, (k0_off65 d0) a + S1x1.size a ≤ S3x8.size a
  k0_off66_inb : ∀ d0 : Dev nD, ∀ (k0_h47 : k0_cond47 d0 = 1#1), ∀ a, (k0_off66 d0) a + S1x1x64x256.size a ≤ S3x8x64x256.size a
  k0_off66_wordsbf16 : ∀ d0 : Dev nD, ∀ (k0_h47 : k0_cond47 d0 = 1#1), (Rect.unit (s := S3x8x64x256) (k0_off66 d0) S1x1x64x256.size (k0_off66_inb d0 k0_h47)).WholeWords (EltTy.packing .bf16)
  k0_dev40_lt : ∀ d0 : Dev nD, ∀ (k0_h47 : k0_cond47 d0 = 1#1), k0_dev40 < nD
  k0_off67_inb : ∀ d0 : Dev nD, ∀ (k0_h48 : k0_cond48 d0 = 1#1), ∀ a, (k0_off67 d0) a + S1x1.size a ≤ S3x8.size a
  k0_off68_inb : ∀ d0 : Dev nD, ∀ (k0_h48 : k0_cond48 d0 = 1#1), ∀ a, (k0_off68 d0) a + S1x1x64x256.size a ≤ S3x8x64x256.size a
  k0_off68_wordsbf16 : ∀ d0 : Dev nD, ∀ (k0_h48 : k0_cond48 d0 = 1#1), (Rect.unit (s := S3x8x64x256) (k0_off68 d0) S1x1x64x256.size (k0_off68_inb d0 k0_h48)).WholeWords (EltTy.packing .bf16)
  k0_dev41_lt : ∀ d0 : Dev nD, ∀ (k0_h48 : k0_cond48 d0 = 1#1), k0_dev41 < nD
  k0_off69_inb : ∀ d0 : Dev nD, ∀ (k0_h51 : k0_cond51 d0 = 1#1), ∀ a, (k0_off69 d0) a + S1x1.size a ≤ S3x8.size a
  k0_off70_inb : ∀ d0 : Dev nD, ∀ (k0_h51 : k0_cond51 d0 = 1#1), ∀ a, (k0_off70 d0) a + S1x1x64x256.size a ≤ S3x8x64x256.size a
  k0_off70_wordsbf16 : ∀ d0 : Dev nD, ∀ (k0_h51 : k0_cond51 d0 = 1#1), (Rect.unit (s := S3x8x64x256) (k0_off70 d0) S1x1x64x256.size (k0_off70_inb d0 k0_h51)).WholeWords (EltTy.packing .bf16)
  k0_dev42_lt : ∀ d0 : Dev nD, ∀ (k0_h51 : k0_cond51 d0 = 1#1), k0_dev42 < nD
  k0_off71_inb : ∀ d0 : Dev nD, ∀ (k0_h52 : k0_cond52 d0 = 1#1), ∀ a, (k0_off71 d0) a + S1x1.size a ≤ S3x8.size a
  k0_off72_inb : ∀ d0 : Dev nD, ∀ (k0_h52 : k0_cond52 d0 = 1#1), ∀ a, (k0_off72 d0) a + S1x1x64x256.size a ≤ S3x8x64x256.size a
  k0_off72_wordsbf16 : ∀ d0 : Dev nD, ∀ (k0_h52 : k0_cond52 d0 = 1#1), (Rect.unit (s := S3x8x64x256) (k0_off72 d0) S1x1x64x256.size (k0_off72_inb d0 k0_h52)).WholeWords (EltTy.packing .bf16)
  k0_dev43_lt : ∀ d0 : Dev nD, ∀ (k0_h52 : k0_cond52 d0 = 1#1), k0_dev43 < nD
  k0_off73_inb : ∀ d0 : Dev nD, ∀ (k0_h55 : k0_cond55 d0 = 1#1), ∀ a, (k0_off73 d0) a + S1x1.size a ≤ S3x8.size a
  k0_off74_inb : ∀ d0 : Dev nD, ∀ (k0_h55 : k0_cond55 d0 = 1#1), ∀ a, (k0_off74 d0) a + S1x1x64x256.size a ≤ S3x8x64x256.size a
  k0_off74_wordsbf16 : ∀ d0 : Dev nD, ∀ (k0_h55 : k0_cond55 d0 = 1#1), (Rect.unit (s := S3x8x64x256) (k0_off74 d0) S1x1x64x256.size (k0_off74_inb d0 k0_h55)).WholeWords (EltTy.packing .bf16)
  k0_dev44_lt : ∀ d0 : Dev nD, ∀ (k0_h55 : k0_cond55 d0 = 1#1), k0_dev44 < nD
  k0_off75_inb : ∀ d0 : Dev nD, ∀ (k0_h56 : k0_cond56 d0 = 1#1), ∀ a, (k0_off75 d0) a + S1x1.size a ≤ S3x8.size a
  k0_off76_inb : ∀ d0 : Dev nD, ∀ (k0_h56 : k0_cond56 d0 = 1#1), ∀ a, (k0_off76 d0) a + S1x1x64x256.size a ≤ S3x8x64x256.size a
  k0_off76_wordsbf16 : ∀ d0 : Dev nD, ∀ (k0_h56 : k0_cond56 d0 = 1#1), (Rect.unit (s := S3x8x64x256) (k0_off76 d0) S1x1x64x256.size (k0_off76_inb d0 k0_h56)).WholeWords (EltTy.packing .bf16)
  k0_dev45_lt : ∀ d0 : Dev nD, ∀ (k0_h56 : k0_cond56 d0 = 1#1), k0_dev45 < nD
  k0_off77_inb : ∀ d0 : Dev nD, ∀ a, (k0_off77 d0) a + S1x64x256.size a ≤ S3x512x256.size a
  k0_off78_inb : ∀ d0 : Dev nD, ∀ (r : Fin 7), ∀ a, (k0_off78 d0 (BitVec.ofNat 32 (1 + r.val))) a + S1x1.size a ≤ S3x8.size a
  k0_off79_inb : ∀ d0 : Dev nD, ∀ (r : Fin 7), ∀ a, (k0_off79 d0 (BitVec.ofNat 32 (1 + r.val))) a + S1x1x64x256.size a ≤ S3x8x64x256.size a
  k0_off79_wordsbf16 : ∀ d0 : Dev nD, ∀ (r : Fin 7), (Rect.unit (s := S3x8x64x256) (k0_off79 d0 (BitVec.ofNat 32 (1 + r.val))) S1x1x64x256.size (k0_off79_inb d0 r)).WholeWords (EltTy.packing .bf16)
  k0_off80_inb : ∀ d0 : Dev nD, ∀ (r : Fin 7), ∀ a, (k0_off80 d0 (BitVec.ofNat 32 (1 + r.val))) a + S1x1x64x256.size a ≤ S3x8x64x256.size a
  k0_off81_inb : ∀ d0 : Dev nD, ∀ (k0_h57 : k0_cond57 d0 = 1#1), ∀ a, (k0_off81 d0) a + S1x1x64x256.size a ≤ S3x8x64x256.size a
  k0_off81_wordsbf16 : ∀ d0 : Dev nD, ∀ (k0_h57 : k0_cond57 d0 = 1#1), (Rect.unit (s := S3x8x64x256) (k0_off81 d0) S1x1x64x256.size (k0_off81_inb d0 k0_h57)).WholeWords (EltTy.packing .bf16)
  k0_off82_inb : ∀ d0 : Dev nD, ∀ (k0_h58 : k0_cond58 d0 = 1#1), ∀ a, (k0_off82 d0) a + S1x1x64x256.size a ≤ S3x8x64x256.size a
  k0_off82_wordsbf16 : ∀ d0 : Dev nD, ∀ (k0_h58 : k0_cond58 d0 = 1#1), (Rect.unit (s := S3x8x64x256) (k0_off82 d0) S1x1x64x256.size (k0_off82_inb d0 k0_h58)).WholeWords (EltTy.packing .bf16)
  k0_off83_inb : ∀ d0 : Dev nD, ∀ (k0_h59 : k0_cond59 d0 = 1#1), ∀ a, (k0_off83 d0) a + S1x1x64x256.size a ≤ S3x8x64x256.size a
  k0_off83_wordsbf16 : ∀ d0 : Dev nD, ∀ (k0_h59 : k0_cond59 d0 = 1#1), (Rect.unit (s := S3x8x64x256) (k0_off83 d0) S1x1x64x256.size (k0_off83_inb d0 k0_h59)).WholeWords (EltTy.packing .bf16)
  k0_off84_inb : ∀ d0 : Dev nD, ∀ (k0_h60 : k0_cond60 d0 = 1#1), ∀ a, (k0_off84 d0) a + S1x1x64x256.size a ≤ S3x8x64x256.size a
  k0_off84_wordsbf16 : ∀ d0 : Dev nD, ∀ (k0_h60 : k0_cond60 d0 = 1#1), (Rect.unit (s := S3x8x64x256) (k0_off84 d0) S1x1x64x256.size (k0_off84_inb d0 k0_h60)).WholeWords (EltTy.packing .bf16)
  k0_off85_inb : ∀ d0 : Dev nD, ∀ (k0_h61 : k0_cond61 d0 = 1#1), ∀ a, (k0_off85 d0) a + S1x1x64x256.size a ≤ S3x8x64x256.size a
  k0_off85_wordsbf16 : ∀ d0 : Dev nD, ∀ (k0_h61 : k0_cond61 d0 = 1#1), (Rect.unit (s := S3x8x64x256) (k0_off85 d0) S1x1x64x256.size (k0_off85_inb d0 k0_h61)).WholeWords (EltTy.packing .bf16)
  k0_off86_inb : ∀ d0 : Dev nD, ∀ (k0_h62 : k0_cond62 d0 = 1#1), ∀ a, (k0_off86 d0) a + S1x1x64x256.size a ≤ S3x8x64x256.size a
  k0_off86_wordsbf16 : ∀ d0 : Dev nD, ∀ (k0_h62 : k0_cond62 d0 = 1#1), (Rect.unit (s := S3x8x64x256) (k0_off86 d0) S1x1x64x256.size (k0_off86_inb d0 k0_h62)).WholeWords (EltTy.packing .bf16)
  k0_off87_inb : ∀ d0 : Dev nD, ∀ (k0_h63 : k0_cond63 d0 = 1#1), ∀ a, (k0_off87 d0) a + S1x1x64x256.size a ≤ S3x8x64x256.size a
  k0_off87_wordsbf16 : ∀ d0 : Dev nD, ∀ (k0_h63 : k0_cond63 d0 = 1#1), (Rect.unit (s := S3x8x64x256) (k0_off87 d0) S1x1x64x256.size (k0_off87_inb d0 k0_h63)).WholeWords (EltTy.packing .bf16)
  k0_off88_inb : ∀ d0 : Dev nD, ∀ (k0_h64 : k0_cond64 d0 = 1#1), ∀ a, (k0_off88 d0) a + S1x1x64x256.size a ≤ S3x8x64x256.size a
  k0_off88_wordsbf16 : ∀ d0 : Dev nD, ∀ (k0_h64 : k0_cond64 d0 = 1#1), (Rect.unit (s := S3x8x64x256) (k0_off88 d0) S1x1x64x256.size (k0_off88_inb d0 k0_h64)).WholeWords (EltTy.packing .bf16)
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch3 : DmaSems sig S3 := SemArray.consecutive 8 S3 hcc0_scratch3
abbrev cc0_scratch4 : DmaSems sig S3x8 := SemArray.consecutive 11 S3x8 hcc0_scratch4
abbrev cc0_scratch5 : DmaSems sig S3 := SemArray.consecutive 35 S3 hcc0_scratch5
abbrev cc0_scratch6 : DmaSems sig S3x8 := SemArray.consecutive 38 S3x8 hcc0_scratch6
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x256 : Shape := ⟨2, ![512, 256]⟩
abbrev S256x4096 : Shape := ⟨2, ![256, 4096]⟩
abbrev S4096x256 : Shape := ⟨2, ![4096, 256]⟩
abbrev S512x4096 : Shape := ⟨2, ![512, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x4096, .f32⟩
  | .hbm, ⟨2, _⟩ => ⟨S4096x256, .f32⟩
  | .hbm, ⟨3, _⟩ => ⟨S256x4096, .f32⟩
  | .hbm, ⟨4, _⟩ => ⟨S4096x256, .f32⟩
  | .hbm, ⟨5, _⟩ => ⟨S256x4096, .f32⟩
  | .hbm, ⟨6, _⟩ => ⟨S4096x256, .f32⟩
  | .hbm, ⟨7, _⟩ => ⟨S512x4096, .f32⟩
  | .hbm, ⟨8, _⟩ => ⟨S_, .f32⟩
  | .hbm, ⟨9, _⟩ => ⟨S512x4096, .f32⟩
  | .hbm, ⟨10, _⟩ => ⟨S512x4096, .f32⟩
  | .hbm, ⟨11, _⟩ => ⟨S512x256, .f32⟩
  | .hbm, ⟨12, _⟩ => ⟨S512x4096, .f32⟩
  | .hbm, ⟨13, _⟩ => ⟨S_, .f32⟩
  | .hbm, ⟨14, _⟩ => ⟨S512x4096, .f32⟩
  | .hbm, ⟨15, _⟩ => ⟨S512x4096, .f32⟩
  | .hbm, ⟨16, _⟩ => ⟨S512x256, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S512x4096 : S_.BroadcastsInDim S512x4096 (![] : Fin 0 → Fin S512x4096.rank)
  dot_S512x256_S256x4096_S512x4096_1_0_0_1_n_n_wf : DotDims.WF S512x256 S256x4096 S512x4096 [1] [0] [0] [1] [] []
  dot_S512x4096_S4096x256_S512x256_1_0_0_1_n_n_wf : DotDims.WF S512x4096 S4096x256 S512x256 [1] [0] [0] [1] [] []

variable [Facts₀]

def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

class Facts : Prop extends Facts₀ where

variable [Facts]
-- ==== Proof.RefRun.lean ====
import proofs.«900993_g7700000000000994_dist_mlpseq_tp1d_rep_bs_b512_d256_h512_v7x_i8_bf16_1_alg».proof.Defs
import proofs.«900993_g7700000000000994_dist_mlpseq_tp1d_rep_bs_b512_d256_h512_v7x_i8_bf16_1_alg».proof.Proof.Gen.ReferenceIdeal
import proofs.«900993_g7700000000000994_dist_mlpseq_tp1d_rep_bs_b512_d256_h512_v7x_i8_bf16_1_alg».proof.Proof.Gen.Pre_finite_inputs_ReferenceIdeal
import proofs.«900993_g7700000000000994_dist_mlpseq_tp1d_rep_bs_b512_d256_h512_v7x_i8_bf16_1_alg».proof.Proof.Gen.ReferenceIdeal.Run
import proofs.«900993_g7700000000000994_dist_mlpseq_tp1d_rep_bs_b512_d256_h512_v7x_i8_bf16_1_alg».proof.Proof.Gen.ReferenceIdeal.Read

/-! The reference program's run: every weakly fair execution of the one-device reference terminates with its
    result at the composed term of its host operations and its seven argument arrays unchanged. The frame of the
    reference is that run with the result's value forgotten. -/

noncomputable section

open Idealize.ShloMosaic Idealize.ShloMosaic.TcCoe Idealize.SL.Sem

namespace Cert.Proof.RefRun

theorem frame_ri : Cert.frame_ReferenceIdeal := fun m ρ _ =>
  (θ_run Cert.ReferenceIdeal.defs _ _).mono (fun _ h c => (h c).2) (Cert.ReferenceIdeal.Value.run (F := Ideal) m ρ)

end Cert.Proof.RefRun

end
-- ==== Proof.Spec.lean ====
import Idealize.ShloMosaic.PureOps.Ideal
import Idealize.ShloMosaic.PureOps.Ideal.Laws
import Idealize.ShloMosaic.Lib.ValueIdx
import Idealize.ShloMosaic.Lib.Layout
import Mathlib.Data.EReal.Basic
import Mathlib.Data.Fintype.BigOperators
import Mathlib.Algebra.BigOperators.Group.Finset.Defs

/-! The value of the three-layer perceptron, index by index on the extended reals, and the one law that joins the
    one-device computation to the tensor-parallel one.

    A layer is `relu (X · Win) · Wout`: its element `(i, j)` is the sum over the hidden coordinate `k < 4096` of
    `max (Σ_{d < 256} X i d * Win d k) 0 * Wout k j`. Cut the hidden coordinate into eight blocks of 512,
    `k = 512 c + k'`: block `c` of the sum reads only columns `512 c … 512 c + 511` of `Win` and the same rows of
    `Wout`, that is block `c` of each, and is the partial product the device holding those blocks computes. The
    whole sum is the sum of the eight partial sums: a regrouping of one finite sum in a commutative monoid (no
    distributivity, so no finiteness of the terms is asked). -/

noncomputable section

open scoped BigOperators

namespace Cert.Spec

open Idealize.ShloMosaic Idealize.ShloMosaic.ValueIdx

abbrev S512x256 : Shape := ⟨2, ![512, 256]⟩
abbrev S256x4096 : Shape := ⟨2, ![256, 4096]⟩
abbrev S4096x256 : Shape := ⟨2, ![4096, 256]⟩
abbrev S256x512 : Shape := ⟨2, ![256, 512]⟩
abbrev S64x256 : Shape := ⟨2, ![64, 256]⟩

/-- One layer, `relu (X · Win) · Wout`, at row `r` and column `j`: the sum over the hidden coordinate of the
    rectified pre-activation times the output weight. -/
def layerAt (X : S512x256.Idx → EReal) (Win : S256x4096.Idx → EReal) (Wout : S4096x256.Idx → EReal)
    (r : Fin 512) (j : Fin 256) : EReal :=
  ∑ k : Fin 4096, max (∑ d : Fin 256, X (ix2 r d) * Win (ix2 d k)) 0 * Wout (ix2 k j)

/-- One layer as an array. -/
def layer (X : S512x256.Idx → EReal) (Win : S256x4096.Idx → EReal) (Wout : S4096x256.Idx → EReal) :
    S512x256.Idx → EReal :=
  fun i => layerAt X Win Wout (i 0) (i 1)

/-- The three layers in sequence. -/
def mlp3 (x : S512x256.Idx → EReal)
    (w0 : S256x4096.Idx → EReal) (v0 : S4096x256.Idx → EReal)
    (w1 : S256x4096.Idx → EReal) (v1 : S4096x256.Idx → EReal)
    (w2 : S256x4096.Idx → EReal) (v2 : S4096x256.Idx → EReal) : S512x256.Idx → EReal :=
  layer (layer (layer x w0 v0) w1 v1) w2 v2

/-- The same with the hidden coordinate running over ONE block of 512: what one device computes from its column
    block `Wc` of `Win` and its row block `Vc` of `Wout`. -/
def partialAt (X : S512x256.Idx → EReal) (Wc : S256x512.Idx → EReal) (Vc : S512x256.Idx → EReal)
    (r : Fin 512) (j : Fin 256) : EReal :=
  ∑ k : Fin 512, max (∑ d : Fin 256, X (ix2 r d) * Wc (ix2 d k)) 0 * Vc (ix2 k j)

/-- One device's partial product as an array. -/
def partialProd (X : S512x256.Idx → EReal) (Wc : S256x512.Idx → EReal) (Vc : S512x256.Idx → EReal) :
    S512x256.Idx → EReal :=
  fun i => partialAt X Wc Vc (i 0) (i 1)

theorem layer_apply (X : S512x256.Idx → EReal) (Win : S256x4096.Idx → EReal) (Wout : S4096x256.Idx → EReal)
    (r : Fin 512) (j : Fin 256) :
    layer X Win Wout (ix2 r j)
      = ∑ k : Fin 4096, max (∑ d : Fin 256, X (ix2 r d) * Win (ix2 d k)) 0 * Wout (ix2 k j) := rfl

theorem partialProd_apply (X : S512x256.Idx → EReal) (Wc : S256x512.Idx → EReal) (Vc : S512x256.Idx → EReal)
    (r : Fin 512) (j : Fin 256) :
    partialProd X Wc Vc (ix2 r j)
      = ∑ k : Fin 512, max (∑ d : Fin 256, X (ix2 r d) * Wc (ix2 d k)) 0 * Vc (ix2 k j) := rfl

/-! ### The hidden coordinate, block by block -/

/-- `k = 512 c + k'`: the hidden coordinate is its block and its place in the block. -/
def hidden : Fin 8 × Fin 512 ≃ Fin 4096 where
  toFun p := ⟨512 * p.1.val + p.2.val, by have := p.1.isLt; have := p.2.isLt; omega⟩
  invFun k := (⟨k.val / 512, by have := k.isLt; omega⟩, ⟨k.val % 512, Nat.mod_lt _ (by decide)⟩)
  left_inv p := by
    have h1 := p.1.isLt
    have h2 := p.2.isLt
    refine Prod.ext (Fin.ext ?_) (Fin.ext ?_)
    · show (512 * p.1.val + p.2.val) / 512 = p.1.val
      omega
    · show (512 * p.1.val + p.2.val) % 512 = p.2.val
      omega
  right_inv k := by
    refine Fin.ext ?_
    show 512 * (k.val / 512) + k.val % 512 = k.val
    omega

theorem hidden_val (c : Fin 8) (k : Fin 512) : (hidden (c, k)).val = 512 * c.val + k.val := rfl

/-- A sum over the hidden coordinate is the sum over the blocks of the sums over each block. -/
theorem sum_hidden {M : Type*} [AddCommMonoid M] (f : Fin 4096 → M) :
    ∑ k : Fin 4096, f k = ∑ c : Fin 8, ∑ k : Fin 512, f (hidden (c, k)) := by
  rw [← Equiv.sum_comp hidden f, Fintype.sum_prod_type]

/-! ### A block at an index -/

/-- Column block `c` of an input weight: its column `k` is column `512 c + k` of the whole. -/
theorem block_cols (Win : S256x4096.Idx → EReal) (c : Fin 8) (d : Fin 256) (k : Fin 512) :
    (Layout.block ⟨2, ![256, 512]⟩ ⟨2, ![256, 4096]⟩ 1 8 c Win) (ix2 d k) = Win (ix2 d (hidden (c, k))) := by
  rw [Layout.block_apply]
  congr 1
  funext a
  refine Fin.ext ?_
  match a with
  | ⟨0, _⟩ => rfl
  | ⟨1, _⟩ =>
    show c.val * 512 + k.val = 512 * c.val + k.val
    omega

/-- Row block `c` of an output weight: its row `k` is row `512 c + k` of the whole. -/
theorem block_hidden_rows (Wout : S4096x256.Idx → EReal) (c : Fin 8) (k : Fin 512) (j : Fin 256) :
    (Layout.block ⟨2, ![512, 256]⟩ ⟨2, ![4096, 256]⟩ 0 8 c Wout) (ix2 k j) = Wout (ix2 (hidden (c, k)) j) := by
  rw [Layout.block_apply]
  congr 1
  funext a
  refine Fin.ext ?_
  match a with
  | ⟨0, _⟩ =>
    show c.val * 512 + k.val = 512 * c.val + k.val
    omega
  | ⟨1, _⟩ => rfl

/-- Row block `c` of a result: its row `r` is row `64 c + r` of the whole. -/
theorem block_rows (v : S512x256.Idx → EReal) (c : Fin 8) (i : S64x256.Idx) :
    (Layout.block ⟨2, ![64, 256]⟩ ⟨2, ![512, 256]⟩ 0 8 c v) i
      = v (ix2 ⟨64 * c.val + (i 0).val, by have := c.isLt; have := idx2_lt0 i; omega⟩ (i 1)) := by
  rw [Layout.block_apply]
  congr 1
  funext a
  refine Fin.ext ?_
  match a with
  | ⟨0, _⟩ =>
    show c.val * 64 + (i 0).val = 64 * c.val + (i 0).val
    omega
  | ⟨1, _⟩ => rfl

/-! ### The law -/

/-- The law at a row and a column: the sum over the hidden coordinate, regrouped by blocks, each block's terms read
    from the blocks of the weights. -/
theorem layerAt_eq_sum_partialAt (X : S512x256.Idx → EReal) (Win : S256x4096.Idx → EReal)
    (Wout : S4096x256.Idx → EReal) (r : Fin 512) (j : Fin 256) :
    layerAt X Win Wout r j
      = ∑ c : Fin 8, partialAt X (Layout.block ⟨2, ![256, 512]⟩ ⟨2, ![256, 4096]⟩ 1 8 c Win)
          (Layout.block ⟨2, ![512, 256]⟩ ⟨2, ![4096, 256]⟩ 0 8 c Wout) r j := by
  unfold layerAt partialAt
  rw [sum_hidden]
  refine Finset.sum_congr rfl fun c _ => Finset.sum_congr rfl fun k _ => ?_
  rw [block_hidden_rows]
  congr 2
  exact Finset.sum_congr rfl fun d _ => by rw [block_cols]

/-- A layer is the sum over the eight devices of their partial products. -/
theorem layer_eq_sum_partial (X : S512x256.Idx → EReal) (Win : S256x4096.Idx → EReal) (Wout : S4096x256.Idx → EReal)
    (i : S512x256.Idx) :
    layer X Win Wout i
      = ∑ c : Fin 8, partialProd X (Layout.block ⟨2, ![256, 512]⟩ ⟨2, ![256, 4096]⟩ 1 8 c Win)
          (Layout.block ⟨2, ![512, 256]⟩ ⟨2, ![4096, 256]⟩ 0 8 c Wout) i :=
  layerAt_eq_sum_partialAt X Win Wout (i 0) (i 1)

/-- info: 'Cert.Spec.layer_eq_sum_partial' depends on axioms: [propext, Classical.choice, Quot.sound] -/
#guard_msgs in #print axioms layer_eq_sum_partial

end Cert.Spec

end
-- ==== Proof.RefValue.lean ====
import proofs.«900993_g7700000000000994_dist_mlpseq_tp1d_rep_bs_b512_d256_h512_v7x_i8_bf16_1_alg».proof.Proof.RefRun
import proofs.«900993_g7700000000000994_dist_mlpseq_tp1d_rep_bs_b512_d256_h512_v7x_i8_bf16_1_alg».proof.Proof.Spec

/-! The one-device reference computes the three-layer perceptron of the specification.

    The reference is three times the same four host operations: a contraction over 256, the maximum with the
    broadcast zero, a contraction over 4096. Read at an index, those four are one layer of the specification
    (`layer_eq`); the run's result term is that layer applied three times, the second and third to the layer before
    (`ref_is_mlp3`); and the run of the reference ends with its result buffer holding it (`ref_run`). -/

noncomputable section

open scoped BigOperators

open Idealize.ShloMosaic Idealize.ShloMosaic.TcCoe Idealize.SL.Sem Idealize.ShloMosaic.ValueIdx

namespace Cert.Proof.RefValue

open Cert.ReferenceIdeal Cert.ReferenceIdeal.Gen Cert.ReferenceIdeal.Read

/-! ### The indices the contractions read, by coordinates -/

theorem lidx_hidden (r : Fin 512) (j : Fin 256) (k : Fin 4096) :
    lidx_main_v3 (ix2 r j) k = ix2 r k :=
  funext fun a => Fin.ext (by match a with | ⟨0, _⟩ => rfl | ⟨1, _⟩ => rfl)

theorem ridx_hidden (r : Fin 512) (j : Fin 256) (k : Fin 4096) :
    ridx_main_v3 (ix2 r j) k = ix2 k j :=
  funext fun a => Fin.ext (by match a with | ⟨0, _⟩ => rfl | ⟨1, _⟩ => rfl)

theorem lidx_inner (r : Fin 512) (k : Fin 4096) (d : Fin 256) :
    lidx_main_v0 (ix2 r k) d = ix2 r d :=
  funext fun a => Fin.ext (by match a with | ⟨0, _⟩ => rfl | ⟨1, _⟩ => rfl)

theorem ridx_inner (r : Fin 512) (k : Fin 4096) (d : Fin 256) :
    ridx_main_v0 (ix2 r k) d = ix2 d k :=
  funext fun a => Fin.ext (by match a with | ⟨0, _⟩ => rfl | ⟨1, _⟩ => rfl)

/-! ### One layer -/

/-- The first layer's four operations, of any three arrays, are the specification's layer: at row `r` and column
    `j` the outer contraction is the sum over `k` of the rectified inner contraction at `(r, k)` times the output
    weight at `(k, j)`, the zero constant the extended real zero. -/
theorem layer_eq (y : (⟨S512x256, .f32⟩ : BufTy).Contents (Elt Ideal)) (w : (⟨S256x4096, .f32⟩ : BufTy).Contents (Elt Ideal))
    (v : (⟨S4096x256, .f32⟩ : BufTy).Contents (Elt Ideal)) :
    val_main_v3 (F := Ideal) y w v = Cert.Spec.layer y w v := by
  funext i
  obtain ⟨r, j, rfl⟩ : ∃ (r : Fin 512) (j : Fin 256), i = ix2 r j := ⟨i 0, i 1, eq_ix2 i⟩
  rw [val_main_v3_apply, Cert.Spec.layer_apply]
  refine Finset.sum_congr rfl fun k _ => ?_
  rw [lidx_hidden, ridx_hidden, val_main_v2_apply, val_main_v0_apply, val_main_v1_apply, val_main_cst_apply,
    Ideal.maximumf_def, Ideal.ofBits_def, Ideal.ofBits_zero_f32]
  congr 2
  exact Finset.sum_congr rfl fun d _ => by rw [lidx_inner, ridx_inner]

/-! ### The three layers -/

/-- The second layer's operations are the first's, of the first layer's result. -/
theorem second_layer (x0 : (⟨S512x256, .f32⟩ : BufTy).Contents (Elt Ideal)) (x1 : (⟨S256x4096, .f32⟩ : BufTy).Contents (Elt Ideal))
    (x2 : (⟨S4096x256, .f32⟩ : BufTy).Contents (Elt Ideal)) (x3 : (⟨S256x4096, .f32⟩ : BufTy).Contents (Elt Ideal))
    (x4 : (⟨S4096x256, .f32⟩ : BufTy).Contents (Elt Ideal)) :
    val_main_v7 (F := Ideal) x0 x1 x2 x3 x4 = val_main_v3 (F := Ideal) (val_main_v3 (F := Ideal) x0 x1 x2) x3 x4 := rfl

/-- The third layer's operations are the first's, of the second layer's result. -/
theorem third_layer (x0 : (⟨S512x256, .f32⟩ : BufTy).Contents (Elt Ideal)) (x1 : (⟨S256x4096, .f32⟩ : BufTy).Contents (Elt Ideal))
    (x2 : (⟨S4096x256, .f32⟩ : BufTy).Contents (Elt Ideal)) (x3 : (⟨S256x4096, .f32⟩ : BufTy).Contents (Elt Ideal))
    (x4 : (⟨S4096x256, .f32⟩ : BufTy).Contents (Elt Ideal)) (x5 : (⟨S256x4096, .f32⟩ : BufTy).Contents (Elt Ideal))
    (x6 : (⟨S4096x256, .f32⟩ : BufTy).Contents (Elt Ideal)) :
    val_main_v11 (F := Ideal) x0 x1 x2 x3 x4 x5 x6
      = val_main_v3 (F := Ideal) (val_main_v7 (F := Ideal) x0 x1 x2 x3 x4) x5 x6 := rfl

/-- The reference's result, as a function of its seven argument arrays, is the three-layer perceptron. -/
theorem ref_is_mlp3 (a0 : (⟨S512x256, .f32⟩ : BufTy).Contents (Elt Ideal)) (a1 : (⟨S256x4096, .f32⟩ : BufTy).Contents (Elt Ideal))
    (a2 : (⟨S4096x256, .f32⟩ : BufTy).Contents (Elt Ideal)) (a3 : (⟨S256x4096, .f32⟩ : BufTy).Contents (Elt Ideal))
    (a4 : (⟨S4096x256, .f32⟩ : BufTy).Contents (Elt Ideal)) (a5 : (⟨S256x4096, .f32⟩ : BufTy).Contents (Elt Ideal))
    (a6 : (⟨S4096x256, .f32⟩ : BufTy).Contents (Elt Ideal)) :
    val_main_v11 (F := Ideal) a0 a1 a2 a3 a4 a5 a6 = Cert.Spec.mlp3 a0 a1 a2 a3 a4 a5 a6 := by
  rw [third_layer, second_layer, layer_eq, layer_eq, layer_eq]
  rfl

/-! ### The run -/

/-- Every weakly fair execution of the reference terminates with its result buffer holding the three-layer
    perceptron of the contents its argument buffers had at the start, and those unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v11)
        = Cert.Spec.mlp3
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))
            (m' (((0 : Dev Cert.ReferenceIdeal.nD).tc : Thread Cert.ReferenceIdeal.nD Cert.ReferenceIdeal.τ).loc Cert.ReferenceIdeal.main_arg3))
            (m' (((0 : Dev Cert.ReferenceIdeal.nD).tc : Thread Cert.ReferenceIdeal.nD Cert.ReferenceIdeal.τ).loc Cert.ReferenceIdeal.main_arg4))
            (m' (((0 : Dev Cert.ReferenceIdeal.nD).tc : Thread Cert.ReferenceIdeal.nD Cert.ReferenceIdeal.τ).loc Cert.ReferenceIdeal.main_arg5))
            (m' (((0 : Dev Cert.ReferenceIdeal.nD).tc : Thread Cert.ReferenceIdeal.nD Cert.ReferenceIdeal.τ).loc Cert.ReferenceIdeal.main_arg6))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
      ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
      ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
      ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)) :=
  (θ_run Cert.ReferenceIdeal.defs _ _).mono
    (fun _ h => ⟨(h 0).1.trans ((val_main_v11_eq (F := Ideal) _ _ _ _ _ _ _).trans (ref_is_mlp3 _ _ _ _ _ _ _)), (h 0).2⟩)
    (Cert.ReferenceIdeal.Value.run (F := Ideal) m' ρ')

/-- info: 'Cert.Proof.RefValue.ref_run' depends on axioms: [propext, Classical.choice, Quot.sound] -/
#guard_msgs in #print axioms ref_run

end Cert.Proof.RefValue

end
-- ==== Proof.Cells.lean ====
import proofs.«900993_g7700000000000994_dist_mlpseq_tp1d_rep_bs_b512_d256_h512_v7x_i8_bf16_1_alg».proof.Proof.Gen.KernelIdeal
import proofs.«900993_g7700000000000994_dist_mlpseq_tp1d_rep_bs_b512_d256_h512_v7x_i8_bf16_1_alg».proof.Proof.Gen.KernelIdeal.Skeleton
import proofs.«900993_g7700000000000994_dist_mlpseq_tp1d_rep_bs_b512_d256_h512_v7x_i8_bf16_1_alg».proof.Proof.Gen.KernelIdeal.Launch
import Idealize.ShloMosaic.Lib.Pipeline.Launch
import Idealize.ShloMosaic.Lib.Pipeline.Kit
import Idealize.ShloMosaic.Lib.Tactic

/-! The names of the protocol. Eight devices on a line of residues mod 8. Device `c` has one barrier cell (the
    runtime's semaphore of collective id 0), and per layer `l < 3`: a reduce-send cell (credited as each of its seven
    partial-product chunks has been read out), eight reduce-receive cells `(l, s)` (credited when device `s`'s chunk
    has landed in slot `(l, s)` of the receive buffer; the one with `s = c` is never used), a gather-send cell and
    eight gather-receive cells `(l, s)` (device `s`'s reduced rows landing in rows `64 s …` of the gather buffer).
    The buffers are cut in 64-row pieces: chunk `t` of layer `l` of the partial-product buffer and of the gather buffer,
    slot `(l, s)` of the receive buffer. -/

noncomputable section

namespace Cert.KernelIdealProof

open Cert.KernelIdeal Cert.KernelIdeal.Gen
open Idealize.ShloMosaic Idealize.ShloMosaic.TcCoe Idealize.SL.Sem

/-! ## Peers -/

/-- The device `j` places after `c` on the ring of residues. -/
def fwd (j : ℕ) (c : Dev nD) : Dev nD := ⟨(c.val + j) % 8, Nat.mod_lt _ (by decide)⟩
/-- The device `j` places before `c` (`1 ≤ j ≤ 8`). -/
def bwd (j : ℕ) (c : Dev nD) : Dev nD := ⟨(c.val + 8 - j) % 8, Nat.mod_lt _ (by decide)⟩

theorem fwd_ne (j : Fin 8) (hj : j.val ≠ 0) (c : Dev nD) : fwd j.val c ≠ c := by revert j c; decide
theorem bwd_ne (j : Fin 8) (hj : j.val ≠ 0) (c : Dev nD) : bwd j.val c ≠ c := by revert j c; decide
theorem bwd_fwd (j : Fin 8) (c : Dev nD) : bwd j.val (fwd j.val c) = c := by revert j c; decide
theorem fwd_bwd (j : Fin 8) (c : Dev nD) : fwd j.val (bwd j.val c) = c := by revert j c; decide

/-! ## Semaphores and cells -/

/-- The runtime's barrier semaphore of collective id 0 (not scoped to the launch). -/
abbrev barS : Sem sig := (SemArray.scalar (sig.barrier 0 rfl) : Sems sig S_).sem
/-- The reduce-send semaphore of layer `l`. -/
def rsS (l : Fin 3) : DmaSem sig := ⟨8 + l.val, by have := l.isLt; decide +revert⟩
/-- The reduce-receive semaphore `(l, s)`. -/
def rrS (l : Fin 3) (s : Dev nD) : DmaSem sig := ⟨11 + 8 * l.val + s.val, by revert l s; decide⟩
/-- The gather-send semaphore of layer `l`. -/
def gsS (l : Fin 3) : DmaSem sig := ⟨35 + l.val, by revert l; decide⟩
/-- The gather-receive semaphore `(l, s)`. -/
def grS (l : Fin 3) (s : Dev nD) : DmaSem sig := ⟨38 + 8 * l.val + s.val, by revert l s; decide⟩

abbrev barCell (c : Dev nD) : GSem nD τ sig := ((c : Thread nD τ), .reg barS)
abbrev rsCell (c : Dev nD) (l : Fin 3) : GSem nD τ sig := ((c : Thread nD τ), .dma (rsS l))
abbrev rrCell (c : Dev nD) (l : Fin 3) (s : Dev nD) : GSem nD τ sig := ((c : Thread nD τ), .dma (rrS l s))
abbrev gsCell (c : Dev nD) (l : Fin 3) : GSem nD τ sig := ((c : Thread nD τ), .dma (gsS l))
abbrev grCell (c : Dev nD) (l : Fin 3) (s : Dev nD) : GSem nD τ sig := ((c : Thread nD τ), .dma (grS l s))

/-! ## The 64-row pieces of the three scratch buffers -/

theorem inb_p (l : Fin 3) (t : Fin 8) : ∀ a, (![l.val, 64 * t.val, 0] : Fin 3 → Nat) a + S1x64x256.size a ≤ S3x512x256.size a := by revert l t; decide
theorem inb_r (l : Fin 3) (s : Fin 8) : ∀ a, (![l.val, s.val, 0, 0] : Fin 4 → Nat) a + S1x1x64x256.size a ≤ S3x8x64x256.size a := by revert l s; decide

/-- Chunk `t` (rows `64 t … 64 t + 63`) of layer `l` of the partial-product buffer. -/
def pChunk (l : Fin 3) (t : Fin 8) : Memref sig .tc .vmem S64x256 .bf16 :=
  ((Memref.whole cc0_scratch0).slice (Rect.unit (s := S3x512x256) ![l.val, 64 * t.val, 0] S1x64x256.size (inb_p l t)) (fun _ => rfl)).squeeze S64x256 squeezes_S1x64x256_S64x256
/-- Slot `(l, s)` of the receive buffer. -/
def rSlot (l : Fin 3) (s : Fin 8) : Memref sig .tc .vmem S64x256 .bf16 :=
  ((Memref.whole cc0_scratch1).slice (Rect.unit (s := S3x8x64x256) ![l.val, s.val, 0, 0] S1x1x64x256.size (inb_r l s)) (fun _ => rfl)).squeeze S64x256 squeezes_S1x1x64x256_S64x256
/-- Chunk `t` of layer `l` of the gather buffer. -/
def gChunk (l : Fin 3) (t : Fin 8) : Memref sig .tc .vmem S64x256 .bf16 :=
  ((Memref.whole cc0_scratch2).slice (Rect.unit (s := S3x512x256) ![l.val, 64 * t.val, 0] S1x64x256.size (inb_p l t)) (fun _ => rfl)).squeeze S64x256 squeezes_S1x64x256_S64x256

/-- The credit of one 64-row piece's transfer, in the units of a DMA semaphore. -/
abbrev N64 : ℕ := (pChunk 0 0).view.dmaCredit
theorem N64_pos : 0 < N64 := View.dmaCredit_pos _ (by decide)

end Cert.KernelIdealProof

end
-- ==== Proof.Contents.lean ====
import proofs.«900993_g7700000000000994_dist_mlpseq_tp1d_rep_bs_b512_d256_h512_v7x_i8_bf16_1_alg».proof.Proof.Cells
import Idealize.ShloMosaic.Lib.ValueIdx

/-! The canonical contents of the three scratch buffers. Each is ONE function of the initial memory for the whole
    buffer of a device, so that every piece of a buffer, once written, holds that function on the piece:
    `Pfun m c` at `(l, r, j)` is the partial product of layer `l` on device `c` — `relu (X_l · Win_l^(c)) · Wout_l^(c)`
    at row `r`, column `j`, rounded as the kernel rounds —; `Rfun m c` at `(l, s, r, j)` is device `s`'s partial
    product of layer `l` at row `64 c + r` (what `s` sends `c`); `Gfun m c` at `(l, r, j)` is the layer's reduced
    output `X_{l+1}` at row `r`: the sum over the eight devices of their partial products, in the order the owner
    of the row adds them. `outAt m c` is the last layer's reduced rows `64 c …`, the kernel's result.

    The functions are built in stages, each the body's own arithmetic (its payload functions) applied to what the
    body reads at that point: the argument arrays; a layer's partial product, whole (layer 0) or in four groups of
    128 rows (layers 1 and 2); the 64-row chunk of it a device keeps and the seven it receives; their sum, the
    device's rows of the next activation; those rows of all eight devices stacked, the next activation whole. -/

noncomputable section

namespace Cert.KernelIdealProof

open Cert.KernelIdeal Cert.KernelIdeal.Gen
open Idealize.ShloMosaic Idealize.ShloMosaic.TcCoe Idealize.SL.Sem
open Idealize.ShloMosaic.ValueIdx

variable {F : FTy → Type} [FloatOps F]

/-! ## Coordinates below their extents, as literals -/

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt
theorem idx4_lt0 {n0 n1 n2 n3 : Nat} (j : (⟨4, ![n0, n1, n2, n3]⟩ : Shape).Idx) : (j 0).val < n0 := (j 0).isLt
theorem idx4_lt1 {n0 n1 n2 n3 : Nat} (j : (⟨4, ![n0, n1, n2, n3]⟩ : Shape).Idx) : (j 1).val < n1 := (j 1).isLt
theorem idx4_lt2 {n0 n1 n2 n3 : Nat} (j : (⟨4, ![n0, n1, n2, n3]⟩ : Shape).Idx) : (j 2).val < n2 := (j 2).isLt
theorem idx4_lt3 {n0 n1 n2 n3 : Nat} (j : (⟨4, ![n0, n1, n2, n3]⟩ : Shape).Idx) : (j 3).val < n3 := (j 3).isLt

/-! ## Pieces of a layer's array

A layer's array has shape `[1, 512, 256]` (one layer of a scratch buffer). -/

/-- Rows `64 t … 64 t + 63` of a layer, as the vector a load of that chunk of a scratch buffer returns. -/
def chunkOf (P : FVec F S1x512x256 .bf16) (t : Fin 8) : Vec F S1x64x256 .bf16 :=
  fun i => P (ix3 0 ⟨64 * t.val + (i 1).val, by have := t.isLt; have := idx3_lt1 i; omega⟩ ⟨(i 2).val, idx3_lt2 i⟩)

/-- The same rows as the vector a load of a slot of the receive buffer returns. -/
def slotOf (P : FVec F S1x512x256 .bf16) (t : Fin 8) : Vec F S1x1x64x256 .bf16 :=
  fun i => P (ix3 0 ⟨64 * t.val + (i 2).val, by have := t.isLt; have := idx4_lt2 i; omega⟩ ⟨(i 3).val, idx4_lt3 i⟩)

/-- Rows `128 g … 128 g + 127` of a layer, as the vector a load of that group returns. -/
def groupOf (G : FVec F S1x512x256 .bf16) (g : Fin 4) : Vec F S1x128x256 .bf16 :=
  fun i => G (ix3 0 ⟨128 * g.val + (i 1).val, by have := g.isLt; have := idx3_lt1 i; omega⟩ ⟨(i 2).val, idx3_lt2 i⟩)

/-- A layer from its four groups of 128 rows. -/
def ofGroups (Q : Fin 4 → FVec F S1x128x256 .bf16) : FVec F S1x512x256 .bf16 :=
  fun i => Q ⟨(i 1).val / 128, by have := idx3_lt1 i; omega⟩
    (ix3 0 ⟨(i 1).val % 128, Nat.mod_lt _ (by decide)⟩ ⟨(i 2).val, idx3_lt2 i⟩)

/-- A layer from its eight chunks of 64 rows. -/
def ofChunks (R : Fin 8 → FVec F S1x64x256 .bf16) : FVec F S1x512x256 .bf16 :=
  fun i => R ⟨(i 1).val / 64, by have := idx3_lt1 i; omega⟩
    (ix3 0 ⟨(i 1).val % 64, Nat.mod_lt _ (by decide)⟩ ⟨(i 2).val, idx3_lt2 i⟩)

variable (m : (ℓ : Loc nD τ sig) → Buf (Elt F) ℓ)

/-! ## The argument arrays -/

/-- The activation every device holds whole. -/
def argX (c : Dev nD) : Vec F S512x256 .f32 := m ((c : Thread nD τ).loc main_arg0)

/-- Device `c`'s column block of the input weight of layer `l`. -/
def argW (c : Dev nD) : Fin 3 → Vec F S256x512 .f32
  | ⟨0, _⟩ => m ((c : Thread nD τ).loc main_arg1)
  | ⟨1, _⟩ => m ((c : Thread nD τ).loc main_arg3)
  | ⟨2, _⟩ => m ((c : Thread nD τ).loc main_arg5)

/-- Device `c`'s row block of the output weight of layer `l`. -/
def argV (c : Dev nD) : Fin 3 → Vec F S512x256 .f32
  | ⟨0, _⟩ => m ((c : Thread nD τ).loc main_arg2)
  | ⟨1, _⟩ => m ((c : Thread nD τ).loc main_arg4)
  | ⟨2, _⟩ => m ((c : Thread nD τ).loc main_arg6)

/-! ## Layer 0 -/

/-- Device `c`'s partial product of layer 0, all 512 rows. -/
def P0 (c : Dev nD) : FVec F S1x512x256 .bf16 := k0_pay1 (argX m c) (argW m c 0) (argV m c 0)

/-- Device `t`'s rows of the first activation: its own chunk of its partial product, then the chunks of the
    devices 1, 2, …, 7 places before it, added in that order, rounded. -/
def red0 (t : Dev nD) : FVec F S1x64x256 .bf16 :=
  k0_pay6
    (k0_pay5
      (k0_pay4
        (k0_pay3 (k0_pay2 (chunkOf (P0 m t) t)) (slotOf (P0 m (bwd 1 t)) t) (slotOf (P0 m (bwd 2 t)) t))
        (slotOf (P0 m (bwd 3 t)) t) (slotOf (P0 m (bwd 4 t)) t))
      (slotOf (P0 m (bwd 5 t)) t))
    (slotOf (P0 m (bwd 6 t)) t) (slotOf (P0 m (bwd 7 t)) t)

/-- The first activation, whole: the eight devices' rows stacked. -/
def G0 : FVec F S1x512x256 .bf16 := ofChunks (red0 m)

/-! ## Layer 1 -/

/-- Device `c`'s partial product of layer 1, group by group. -/
def P1grp (c : Dev nD) : Fin 4 → FVec F S1x128x256 .bf16
  | ⟨0, _⟩ => k0_pay10 (k0_pay9 (argW m c 1) (argV m c 1) (groupOf (G0 m) 0))
  | ⟨1, _⟩ => k0_pay11 (k0_pay7 (argW m c 1)) (k0_pay8 (argV m c 1)) (groupOf (G0 m) 1)
  | ⟨2, _⟩ => k0_pay12 (k0_pay7 (argW m c 1)) (k0_pay8 (argV m c 1)) (groupOf (G0 m) 2)
  | ⟨3, _⟩ => k0_pay13 (k0_pay7 (argW m c 1)) (k0_pay8 (argV m c 1)) (groupOf (G0 m) 3)

def P1 (c : Dev nD) : FVec F S1x512x256 .bf16 := ofGroups (P1grp m c)

/-- Device `t`'s rows of the second activation. -/
def red1 (t : Dev nD) : FVec F S1x64x256 .bf16 :=
  k0_pay18
    (k0_pay17
      (k0_pay16
        (k0_pay15 (k0_pay14 (chunkOf (P1 m t) t)) (slotOf (P1 m (bwd 1 t)) t) (slotOf (P1 m (bwd 2 t)) t))
        (slotOf (P1 m (bwd 3 t)) t) (slotOf (P1 m (bwd 4 t)) t))
      (slotOf (P1 m (bwd 5 t)) t) (slotOf (P1 m (bwd 6 t)) t))
    (slotOf (P1 m (bwd 7 t)) t)

/-- The second activation, whole. -/
def G1 : FVec F S1x512x256 .bf16 := ofChunks (red1 m)

/-! ## Layer 2 -/

/-- Device `c`'s partial product of layer 2, group by group. -/
def P2grp (c : Dev nD) : Fin 4 → FVec F S1x128x256 .bf16
  | ⟨0, _⟩ => k0_pay21 (argW m c 2) (argV m c 2) (groupOf (G1 m) 0)
  | ⟨1, _⟩ => k0_pay22 (k0_pay19 (argW m c 2)) (k0_pay20 (argV m c 2)) (groupOf (G1 m) 1)
  | ⟨2, _⟩ => k0_pay23 (k0_pay19 (argW m c 2)) (k0_pay20 (argV m c 2)) (groupOf (G1 m) 2)
  | ⟨3, _⟩ => k0_pay25 (k0_pay19 (argW m c 2)) (k0_pay20 (argV m c 2)) (k0_pay24 (groupOf (G1 m) 3))
      (constant S128x512 .f32 0x00000000#32)

def P2 (c : Dev nD) : FVec F S1x512x256 .bf16 := ofGroups (P2grp m c)

/-- Device `t`'s rows of the result: the last layer's sum, not rounded. -/
def red2 (t : Dev nD) : FVec F S64x256 .f32 :=
  k0_pay30
    (k0_pay29
      (k0_pay28
        (k0_pay27 (k0_pay26 (chunkOf (P2 m t) t)) (slotOf (P2 m (bwd 1 t)) t) (slotOf (P2 m (bwd 2 t)) t))
        (slotOf (P2 m (bwd 3 t)) t) (slotOf (P2 m (bwd 4 t)) t))
      (slotOf (P2 m (bwd 5 t)) t) (slotOf (P2 m (bwd 6 t)) t))
    (slotOf (P2 m (bwd 7 t)) t)

/-! ## The buffers -/

/-- Layer `l`'s partial product of device `c`. -/
def Pl (c : Dev nD) : Fin 3 → FVec F S1x512x256 .bf16
  | ⟨0, _⟩ => P0 m c
  | ⟨1, _⟩ => P1 m c
  | ⟨2, _⟩ => P2 m c

/-- The activation layer `l` produces, whole (the last layer's is never gathered: its slot of the gather buffer
    is never written, and any function serves there). -/
def Gl : Fin 3 → FVec F S1x512x256 .bf16
  | ⟨0, _⟩ => G0 m
  | ⟨1, _⟩ => G1 m
  | ⟨2, _⟩ => G1 m

/-- Device `c`'s partial-product buffer, all three layers. -/
def Pfun (c : Dev nD) : Buf (Elt F) ((c : Thread nD τ).loc cc0_scratch0) :=
  fun i => Pl m c ⟨(i 0).val, idx3_lt0 i⟩ (ix3 0 ⟨(i 1).val, idx3_lt1 i⟩ ⟨(i 2).val, idx3_lt2 i⟩)
/-- Device `c`'s receive buffer: slot `(l, s)` holds rows `64 c …` of device `s`'s partial product of layer `l`. -/
def Rfun (c : Dev nD) : Buf (Elt F) ((c : Thread nD τ).loc cc0_scratch1) :=
  fun i => Pl m ⟨(i 1).val, idx4_lt1 i⟩ ⟨(i 0).val, idx4_lt0 i⟩
    (ix3 0 ⟨64 * c.val + (i 2).val, by have h8 : c.val < 8 := c.isLt; have := idx4_lt2 i; omega⟩ ⟨(i 3).val, idx4_lt3 i⟩)
/-- Device `c`'s gather buffer: layer `l` holds the whole reduced output of layer `l`. -/
def Gfun (c : Dev nD) : Buf (Elt F) ((c : Thread nD τ).loc cc0_scratch2) :=
  fun i => Gl m ⟨(i 0).val, idx3_lt0 i⟩ (ix3 0 ⟨(i 1).val, idx3_lt1 i⟩ ⟨(i 2).val, idx3_lt2 i⟩)
/-- Device `c`'s result block. -/
def outAt (c : Dev nD) : (cc0_stg7_0 : Ref sig .tc).ty.Contents (Elt F) := red2 m c

end Cert.KernelIdealProof

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Value.lean ====
import proofs.«900993_g7700000000000994_dist_mlpseq_tp1d_rep_bs_b512_d256_h512_v7x_i8_bf16_1_alg».proof.Proof.Contents
import proofs.«900993_g7700000000000994_dist_mlpseq_tp1d_rep_bs_b512_d256_h512_v7x_i8_bf16_1_alg».proof.Proof.Spec
import proofs.«900993_g7700000000000994_dist_mlpseq_tp1d_rep_bs_b512_d256_h512_v7x_i8_bf16_1_alg».proof.Proof.LibPlainDot
import Idealize.ShloMosaic.Lib.ValueLayout
import Idealize.ShloMosaic.Lib.Pipeline.Value

/-! The kernel's result at the ideal instance is its block of the three-layer perceptron.

    At the ideal instance every rounding is the identity, a product into a zero accumulator is a finite sum and the
    rectifier is `max · 0`, so a device's partial product of a layer, whole or group by group, is the specification's
    `partialProd` of the activation and the device's blocks of the two weights. A device's rows of the next
    activation are its own chunk plus the chunks of the devices 1, …, 7 places before it: the sum over all eight
    devices in another order, which the regrouping law of the specification says is the whole layer at those rows.
    Stacked, the devices' rows are the layer; three times over, the last reduction is rows `64 c …` of the
    perceptron, which is block `c` of it. -/

noncomputable section

open scoped BigOperators

namespace Cert.KernelIdealProof

open Cert.KernelIdeal Cert.KernelIdeal.Gen
open Idealize.ShloMosaic Idealize.ShloMosaic.TcCoe Idealize.SL.Sem
open Idealize.ShloMosaic.ValueIdx

/-! ## The printed dimension numbers are the plain ones -/

theorem dotA1_eq : dot_S512x256_S256x512_S512x512_1_0_0_1_n_n = DotDims.plain 512 256 512 := rfl
theorem dotA2_eq : dot_S512x512_S512x256_S512x256_1_0_0_1_n_n = DotDims.plain 512 512 256 := rfl
theorem dotB1_eq : dot_S128x256_S256x512_S128x512_1_0_0_1_n_n = DotDims.plain 128 256 512 := rfl
theorem dotB2_eq : dot_S128x512_S512x256_S128x256_1_0_0_1_n_n = DotDims.plain 128 512 256 := rfl

/-! ## The two products with the rectifier between, at an entry -/

/-- `relu (A · W) · V` over 512 rows, at row `r` and column `j`: the sum over the hidden coordinate of the rectified
    inner sum times the output weight (every rounding the identity on the extended reals). -/
theorem core512 (A : FVec Ideal S512x256 .bf16) (W : FVec Ideal S256x512 .bf16) (V : FVec Ideal S512x256 .bf16)
    (r : Fin 512) (j : Fin 256) :
    matmul dot_S512x512_S512x256_S512x256_1_0_0_1_n_n none
        (truncf .bf16 (maximumf (matmul dot_S512x256_S256x512_S512x512_1_0_0_1_n_n none A W (constant S512x512 .f32 0x00000000#32))
          (broadcast S512x512 (Scalar.ofBits (F := Ideal) .f32 0x00000000#32))) bitsLt_bf16_f32)
        V (constant S512x256 .f32 0x00000000#32) (ix2 r j)
      = ∑ k : Fin 512, max (∑ d : Fin 256, A (ix2 r d) * W (ix2 d k)) 0 * V (ix2 k j) := by
  rw [dotA2_eq, dotA1_eq]
  refine (Cert.LibPlainDot.matmul_plain_apply 512 512 256 none _ _ r j).trans ?_
  refine Finset.sum_congr rfl fun k _ => ?_
  rw [truncf_apply, maximumf_apply, broadcast_apply]
  refine congrArg₂ (fun a b => max a b * V (ix2 k j)) (Cert.LibPlainDot.matmul_plain_apply 512 256 512 none _ _ r k) ?_
  exact Ideal.ofBits_zero_f32

/-- The same over a group of 128 rows. -/
theorem core128 (A : FVec Ideal S128x256 .bf16) (W : FVec Ideal S256x512 .bf16) (V : FVec Ideal S512x256 .bf16)
    (acc : FVec Ideal S128x512 .f32) (hacc : acc = constant S128x512 .f32 0x00000000#32) (r : Fin 128) (j : Fin 256) :
    matmul dot_S128x512_S512x256_S128x256_1_0_0_1_n_n none
        (truncf .bf16 (maximumf (matmul dot_S128x256_S256x512_S128x512_1_0_0_1_n_n none A W acc)
          (broadcast S128x512 (Scalar.ofBits (F := Ideal) .f32 0x00000000#32))) bitsLt_bf16_f32)
        V (constant S128x256 .f32 0x00000000#32) (ix2 r j)
      = ∑ k : Fin 512, max (∑ d : Fin 256, A (ix2 r d) * W (ix2 d k)) 0 * V (ix2 k j) := by
  subst hacc
  rw [dotB2_eq, dotB1_eq]
  refine (Cert.LibPlainDot.matmul_plain_apply 128 512 256 none _ _ r j).trans ?_
  refine Finset.sum_congr rfl fun k _ => ?_
  rw [truncf_apply, maximumf_apply, broadcast_apply]
  refine congrArg₂ (fun a b => max a b * V (ix2 k j)) (Cert.LibPlainDot.matmul_plain_apply 128 256 512 none _ _ r k) ?_
  exact Ideal.ofBits_zero_f32

/-! ## The payloads of the partial products, at an entry -/

theorem pay1_apply (X : Vec Ideal S512x256 .f32) (W : Vec Ideal S256x512 .f32) (V : Vec Ideal S512x256 .f32)
    (r : Fin 512) (j : Fin 256) :
    k0_pay1 (F := Ideal) X W V (ix3 0 r j)
      = ∑ k : Fin 512, max (∑ d : Fin 256, X (ix2 r d) * W (ix2 d k)) 0 * V (ix2 k j) := by
  unfold k0_pay1
  rw [shapeCast_ab_1ab_apply, truncf_apply, core512]
  simp only [truncf_apply, shapeCast_self]

/-- The casts of the weights read at an entry: the weight. -/
theorem pay7_apply (W : Vec Ideal S256x512 .f32) (d : Fin 256) (k : Fin 512) : k0_pay7 (F := Ideal) W (ix2 d k) = W (ix2 d k) := by
  unfold k0_pay7; rw [truncf_apply, shapeCast_self]
theorem pay8_apply (V : Vec Ideal S512x256 .f32) (k : Fin 512) (j : Fin 256) : k0_pay8 (F := Ideal) V (ix2 k j) = V (ix2 k j) := by
  unfold k0_pay8; rw [truncf_apply, shapeCast_self]
theorem pay19_apply (W : Vec Ideal S256x512 .f32) (d : Fin 256) (k : Fin 512) : k0_pay19 (F := Ideal) W (ix2 d k) = W (ix2 d k) := by
  unfold k0_pay19; rw [truncf_apply, shapeCast_self]
theorem pay20_apply (V : Vec Ideal S512x256 .f32) (k : Fin 512) (j : Fin 256) : k0_pay20 (F := Ideal) V (ix2 k j) = V (ix2 k j) := by
  unfold k0_pay20; rw [truncf_apply, shapeCast_self]

/-- A group's partial product from the group of the activation: the same two products over its 128 rows. -/
theorem pay11_apply (W : FVec Ideal S256x512 .bf16) (V : FVec Ideal S512x256 .bf16) (v : Vec Ideal S1x128x256 .bf16)
    (r : Fin 128) (j : Fin 256) :
    k0_pay11 (F := Ideal) W V v (ix3 0 r j)
      = ∑ k : Fin 512, max (∑ d : Fin 256, v (ix3 0 r d) * W (ix2 d k)) 0 * V (ix2 k j) := by
  unfold k0_pay11
  rw [shapeCast_ab_1ab_apply, truncf_apply, core128 _ _ _ _ rfl]
  simp only [shapeCast_1ab_ab_apply]

theorem pay12_apply (W : FVec Ideal S256x512 .bf16) (V : FVec Ideal S512x256 .bf16) (v : Vec Ideal S1x128x256 .bf16)
    (r : Fin 128) (j : Fin 256) :
    k0_pay12 (F := Ideal) W V v (ix3 0 r j)
      = ∑ k : Fin 512, max (∑ d : Fin 256, v (ix3 0 r d) * W (ix2 d k)) 0 * V (ix2 k j) := by
  unfold k0_pay12
  rw [shapeCast_ab_1ab_apply, truncf_apply, core128 _ _ _ _ rfl]
  simp only [shapeCast_1ab_ab_apply]

theorem pay13_apply (W : FVec Ideal S256x512 .bf16) (V : FVec Ideal S512x256 .bf16) (v : Vec Ideal S1x128x256 .bf16)
    (r : Fin 128) (j : Fin 256) :
    k0_pay13 (F := Ideal) W V v (ix3 0 r j)
      = ∑ k : Fin 512, max (∑ d : Fin 256, v (ix3 0 r d) * W (ix2 d k)) 0 * V (ix2 k j) := by
  unfold k0_pay13
  rw [shapeCast_ab_1ab_apply, truncf_apply, core128 _ _ _ _ rfl]
  simp only [shapeCast_1ab_ab_apply]

theorem pay22_apply (W : FVec Ideal S256x512 .bf16) (V : FVec Ideal S512x256 .bf16) (v : Vec Ideal S1x128x256 .bf16)
    (r : Fin 128) (j : Fin 256) :
    k0_pay22 (F := Ideal) W V v (ix3 0 r j)
      = ∑ k : Fin 512, max (∑ d : Fin 256, v (ix3 0 r d) * W (ix2 d k)) 0 * V (ix2 k j) := by
  unfold k0_pay22
  rw [shapeCast_ab_1ab_apply, truncf_apply, core128 _ _ _ _ rfl]
  simp only [shapeCast_1ab_ab_apply]

theorem pay23_apply (W : FVec Ideal S256x512 .bf16) (V : FVec Ideal S512x256 .bf16) (v : Vec Ideal S1x128x256 .bf16)
    (r : Fin 128) (j : Fin 256) :
    k0_pay23 (F := Ideal) W V v (ix3 0 r j)
      = ∑ k : Fin 512, max (∑ d : Fin 256, v (ix3 0 r d) * W (ix2 d k)) 0 * V (ix2 k j) := by
  unfold k0_pay23
  rw [shapeCast_ab_1ab_apply, truncf_apply, core128 _ _ _ _ rfl]
  simp only [shapeCast_1ab_ab_apply]

theorem pay10_9_apply (W : Vec Ideal S256x512 .f32) (V : Vec Ideal S512x256 .f32) (v : Vec Ideal S1x128x256 .bf16)
    (r : Fin 128) (j : Fin 256) :
    k0_pay10 (F := Ideal) (k0_pay9 (F := Ideal) W V v) (ix3 0 r j)
      = ∑ k : Fin 512, max (∑ d : Fin 256, v (ix3 0 r d) * W (ix2 d k)) 0 * V (ix2 k j) := by
  unfold k0_pay10 k0_pay9
  rw [shapeCast_ab_1ab_apply, truncf_apply, core128 _ _ _ _ rfl]
  simp only [shapeCast_1ab_ab_apply, pay7_apply, pay8_apply]

theorem pay21_apply (W : Vec Ideal S256x512 .f32) (V : Vec Ideal S512x256 .f32) (v : Vec Ideal S1x128x256 .bf16)
    (r : Fin 128) (j : Fin 256) :
    k0_pay21 (F := Ideal) W V v (ix3 0 r j)
      = ∑ k : Fin 512, max (∑ d : Fin 256, v (ix3 0 r d) * W (ix2 d k)) 0 * V (ix2 k j) := by
  unfold k0_pay21
  rw [shapeCast_ab_1ab_apply, truncf_apply, core128 _ _ _ _ rfl]
  simp only [shapeCast_1ab_ab_apply, pay19_apply, pay20_apply]

theorem pay25_24_apply (W : FVec Ideal S256x512 .bf16) (V : FVec Ideal S512x256 .bf16) (v : Vec Ideal S1x128x256 .bf16)
    (r : Fin 128) (j : Fin 256) :
    k0_pay25 (F := Ideal) W V (k0_pay24 (F := Ideal) v) (constant S128x512 .f32 0x00000000#32) (ix3 0 r j)
      = ∑ k : Fin 512, max (∑ d : Fin 256, v (ix3 0 r d) * W (ix2 d k)) 0 * V (ix2 k j) := by
  unfold k0_pay25 k0_pay24
  rw [shapeCast_ab_1ab_apply, truncf_apply, core128 _ _ _ _ rfl]
  simp only [shapeCast_1ab_ab_apply]

/-! ## The reductions, at an entry -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- Layer 0's reduction: the own chunk and the seven received, added in order. -/
theorem chain0_apply (v0 : Vec Ideal S1x64x256 .bf16) (v1 v2 v3 v4 v5 v6 v7 : Vec Ideal S1x1x64x256 .bf16) (r : Fin 64) (j : Fin 256) :
    k0_pay6 (F := Ideal) (k0_pay5 (F := Ideal) (k0_pay4 (F := Ideal) (k0_pay3 (F := Ideal) (k0_pay2 (F := Ideal) v0) v1 v2) v3 v4) v5) v6 v7 (ix3 0 r j)
      = v0 (ix3 0 r j) + v1 (ix4 0 0 r j) + v2 (ix4 0 0 r j) + v3 (ix4 0 0 r j) + v4 (ix4 0 0 r j) + v5 (ix4 0 0 r j)
        + v6 (ix4 0 0 r j) + v7 (ix4 0 0 r j) := by
  unfold k0_pay6 k0_pay5 k0_pay4 k0_pay3 k0_pay2
  rw [shapeCast_ab_1ab_apply, truncf_apply]
  simp only [addf_apply, extf_apply, shapeCast_1ab_ab_apply, shapeCast_11ab_ab_apply]

/-- Layer 1's reduction. -/
theorem chain1_apply (v0 : Vec Ideal S1x64x256 .bf16) (v1 v2 v3 v4 v5 v6 v7 : Vec Ideal S1x1x64x256 .bf16) (r : Fin 64) (j : Fin 256) :
    k0_pay18 (F := Ideal) (k0_pay17 (F := Ideal) (k0_pay16 (F := Ideal) (k0_pay15 (F := Ideal) (k0_pay14 (F := Ideal) v0) v1 v2) v3 v4) v5 v6) v7 (ix3 0 r j)
      = v0 (ix3 0 r j) + v1 (ix4 0 0 r j) + v2 (ix4 0 0 r j) + v3 (ix4 0 0 r j) + v4 (ix4 0 0 r j) + v5 (ix4 0 0 r j)
        + v6 (ix4 0 0 r j) + v7 (ix4 0 0 r j) := by
  unfold k0_pay18 k0_pay17 k0_pay16 k0_pay15 k0_pay14
  rw [shapeCast_ab_1ab_apply, truncf_apply]
  simp only [addf_apply, extf_apply, shapeCast_1ab_ab_apply, shapeCast_11ab_ab_apply]

/-- Layer 2's reduction (the result, not rounded). -/
theorem chain2_apply (v0 : Vec Ideal S1x64x256 .bf16) (v1 v2 v3 v4 v5 v6 v7 : Vec Ideal S1x1x64x256 .bf16) (r : Fin 64) (j : Fin 256) :
    k0_pay30 (F := Ideal) (k0_pay29 (F := Ideal) (k0_pay28 (F := Ideal) (k0_pay27 (F := Ideal) (k0_pay26 (F := Ideal) v0) v1 v2) v3 v4) v5 v6) v7 (ix2 r j)
      = v0 (ix3 0 r j) + v1 (ix4 0 0 r j) + v2 (ix4 0 0 r j) + v3 (ix4 0 0 r j) + v4 (ix4 0 0 r j) + v5 (ix4 0 0 r j)
        + v6 (ix4 0 0 r j) + v7 (ix4 0 0 r j) := by
  unfold k0_pay30 k0_pay29 k0_pay28 k0_pay27 k0_pay26
  simp only [addf_apply, extf_apply, shapeCast_1ab_ab_apply, shapeCast_11ab_ab_apply]

/-! ## The eight summands, in the order a device adds them -/

theorem bwd_invol : ∀ (t : Dev nD) (j : Fin 8), bwd (bwd j.val t).val t = j := by decide

/-- The devices 0, 1, …, 7 places before `t` are all the devices. -/
def bwdPerm (t : Dev nD) : Fin 8 ≃ Fin 8 := ⟨fun j => bwd j.val t, fun s => bwd s.val t, bwd_invol t, bwd_invol t⟩

/-- A device's own term, then those of the devices 1, …, 7 places before it, added in that order: the sum over all
    devices (addition of extended reals is commutative and associative). -/
theorem ring_sum (a : Dev nD → EReal) (t : Dev nD) :
    a t + a (bwd 1 t) + a (bwd 2 t) + a (bwd 3 t) + a (bwd 4 t) + a (bwd 5 t) + a (bwd 6 t) + a (bwd 7 t) = ∑ c : Fin 8, a c := by
  rw [← Equiv.sum_comp (bwdPerm t) a, Fin.sum_univ_eight]
  have h0 : bwd 0 t = t := by revert t; decide
  show _ = a (bwd 0 t) + a (bwd 1 t) + a (bwd 2 t) + a (bwd 3 t) + a (bwd 4 t) + a (bwd 5 t) + a (bwd 6 t) + a (bwd 7 t)
  rw [h0]

/-! ## One layer -/

/-- The reduction of a layer: if every device's array is its partial product, the own chunk plus the seven received
    is the whole layer at the device's rows. -/
theorem reduce_eq (Pc : Dev nD → FVec Ideal S1x512x256 .bf16) (X : Cert.Spec.S512x256.Idx → EReal)
    (W : Cert.Spec.S256x4096.Idx → EReal) (V : Cert.Spec.S4096x256.Idx → EReal)
    (hP : ∀ (c : Dev nD) (r : Fin 512) (j : Fin 256), Pc c (ix3 0 r j)
      = Cert.Spec.partialProd X (Layout.block ⟨2, ![256, 512]⟩ ⟨2, ![256, 4096]⟩ 1 8 c W)
          (Layout.block ⟨2, ![512, 256]⟩ ⟨2, ![4096, 256]⟩ 0 8 c V) (ix2 r j))
    (t : Dev nD) (r : Fin 64) (j : Fin 256) :
    chunkOf (Pc t) t (ix3 0 r j) + slotOf (Pc (bwd 1 t)) t (ix4 0 0 r j) + slotOf (Pc (bwd 2 t)) t (ix4 0 0 r j)
        + slotOf (Pc (bwd 3 t)) t (ix4 0 0 r j) + slotOf (Pc (bwd 4 t)) t (ix4 0 0 r j) + slotOf (Pc (bwd 5 t)) t (ix4 0 0 r j)
        + slotOf (Pc (bwd 6 t)) t (ix4 0 0 r j) + slotOf (Pc (bwd 7 t)) t (ix4 0 0 r j)
      = Cert.Spec.layer X W V (ix2 ⟨64 * t.val + r.val, by have : t.val < 8 := t.isLt; omega⟩ j) := by
  refine (ring_sum (fun c => Pc c (ix3 0 ⟨64 * t.val + r.val, by have : t.val < 8 := t.isLt; omega⟩ j)) t).trans ?_
  rw [Cert.Spec.layer_eq_sum_partial]
  exact Finset.sum_congr rfl fun c _ => hP c _ j

/-- The activation stacked from the devices' rows. -/
theorem ofChunks_eq (R : Dev nD → FVec Ideal S1x64x256 .bf16) (Y : Cert.Spec.S512x256.Idx → EReal)
    (hR : ∀ (t : Dev nD) (r : Fin 64) (j : Fin 256),
      R t (ix3 0 r j) = Y (ix2 ⟨64 * t.val + r.val, by have : t.val < 8 := t.isLt; omega⟩ j))
    (r : Fin 512) (j : Fin 256) : ofChunks R (ix3 0 r j) = Y (ix2 r j) := by
  show R ⟨r.val / 64, _⟩ (ix3 0 ⟨r.val % 64, _⟩ ⟨j.val, _⟩) = _
  rw [hR]
  congr 2
  exact Fin.ext (by show 64 * (r.val / 64) + r.val % 64 = r.val; omega)

/-- A layer's partial product assembled from its four groups, each the two products over its rows of the
    activation. -/
theorem ofGroups_eq (Q : Fin 4 → FVec Ideal S1x128x256 .bf16) (G : FVec Ideal S1x512x256 .bf16)
    (Xp : Cert.Spec.S512x256.Idx → EReal) (Wc : Cert.Spec.S256x512.Idx → EReal) (Vc : Cert.Spec.S512x256.Idx → EReal)
    (hG : ∀ (r : Fin 512) (d : Fin 256), G (ix3 0 r d) = Xp (ix2 r d))
    (hQ : ∀ (g : Fin 4) (r : Fin 128) (j : Fin 256), Q g (ix3 0 r j)
      = ∑ k : Fin 512, max (∑ d : Fin 256, groupOf G g (ix3 0 r d) * Wc (ix2 d k)) 0 * Vc (ix2 k j))
    (r : Fin 512) (j : Fin 256) : ofGroups Q (ix3 0 r j) = Cert.Spec.partialProd Xp Wc Vc (ix2 r j) := by
  show Q ⟨r.val / 128, _⟩ (ix3 0 ⟨r.val % 128, _⟩ ⟨j.val, _⟩) = _
  rw [hQ, Cert.Spec.partialProd_apply]
  refine Finset.sum_congr rfl fun k _ => ?_
  congr 2
  refine Finset.sum_congr rfl fun d _ => ?_
  congr 1
  show G (ix3 0 ⟨128 * (r.val / 128) + r.val % 128, _⟩ ⟨d.val, _⟩) = _
  rw [← hG]
  congr 2
  exact Fin.ext (by show 128 * (r.val / 128) + r.val % 128 = r.val; omega)

/-! ## The three layers -/

section Layers

variable (m : (ℓ : Loc nD τ sig) → Buf (Elt Ideal) ℓ)
variable (x : Cert.Spec.S512x256.Idx → EReal)
variable (w0 : Cert.Spec.S256x4096.Idx → EReal) (v0 : Cert.Spec.S4096x256.Idx → EReal)
variable (w1 : Cert.Spec.S256x4096.Idx → EReal) (v1 : Cert.Spec.S4096x256.Idx → EReal)
variable (w2 : Cert.Spec.S256x4096.Idx → EReal) (v2 : Cert.Spec.S4096x256.Idx → EReal)

/-- Each device's argument buffers hold the activation whole and its blocks of the six weights. -/
def Agree : Prop := ∀ c : Dev nD,
  m ((c.tc : Thread nD τ).loc main_arg0) = x
  ∧ m ((c.tc : Thread nD τ).loc main_arg1) = Layout.block ⟨2, ![256, 512]⟩ ⟨2, ![256, 4096]⟩ 1 8 c w0
  ∧ m ((c.tc : Thread nD τ).loc main_arg2) = Layout.block ⟨2, ![512, 256]⟩ ⟨2, ![4096, 256]⟩ 0 8 c v0
  ∧ m ((c.tc : Thread nD τ).loc main_arg3) = Layout.block ⟨2, ![256, 512]⟩ ⟨2, ![256, 4096]⟩ 1 8 c w1
  ∧ m ((c.tc : Thread nD τ).loc main_arg4) = Layout.block ⟨2, ![512, 256]⟩ ⟨2, ![4096, 256]⟩ 0 8 c v1
  ∧ m ((c.tc : Thread nD τ).loc main_arg5) = Layout.block ⟨2, ![256, 512]⟩ ⟨2, ![256, 4096]⟩ 1 8 c w2
  ∧ m ((c.tc : Thread nD τ).loc main_arg6) = Layout.block ⟨2, ![512, 256]⟩ ⟨2, ![4096, 256]⟩ 0 8 c v2

variable {m x w0 v0 w1 v1 w2 v2}
variable (h : Agree m x w0 v0 w1 v1 w2 v2)
include h

theorem P0_eq (c : Dev nD) (r : Fin 512) (j : Fin 256) :
    P0 m c (ix3 0 r j) = Cert.Spec.partialProd x (Layout.block ⟨2, ![256, 512]⟩ ⟨2, ![256, 4096]⟩ 1 8 c w0)
      (Layout.block ⟨2, ![512, 256]⟩ ⟨2, ![4096, 256]⟩ 0 8 c v0) (ix2 r j) := by
  have hx : argX m c = x := (h c).1
  have hw : argW m c 0 = Layout.block ⟨2, ![256, 512]⟩ ⟨2, ![256, 4096]⟩ 1 8 c w0 := (h c).2.1
  have hv : argV m c 0 = Layout.block ⟨2, ![512, 256]⟩ ⟨2, ![4096, 256]⟩ 0 8 c v0 := (h c).2.2.1
  unfold P0
  rw [pay1_apply, hx, hw, hv, Cert.Spec.partialProd_apply]

theorem red0_eq (t : Dev nD) (r : Fin 64) (j : Fin 256) :
    red0 m t (ix3 0 r j) = Cert.Spec.layer x w0 v0 (ix2 ⟨64 * t.val + r.val, by have : t.val < 8 := t.isLt; omega⟩ j) := by
  unfold red0
  rw [chain0_apply]
  exact reduce_eq (P0 m) x w0 v0 (P0_eq h) t r j

theorem G0_eq (r : Fin 512) (j : Fin 256) : G0 m (ix3 0 r j) = Cert.Spec.layer x w0 v0 (ix2 r j) :=
  ofChunks_eq (red0 m) _ (red0_eq h) r j

theorem P1grp_eq (c : Dev nD) (g : Fin 4) (r : Fin 128) (j : Fin 256) :
    P1grp m c g (ix3 0 r j) = ∑ k : Fin 512, max (∑ d : Fin 256, groupOf (G0 m) g (ix3 0 r d)
      * (Layout.block ⟨2, ![256, 512]⟩ ⟨2, ![256, 4096]⟩ 1 8 c w1) (ix2 d k)) 0
      * (Layout.block ⟨2, ![512, 256]⟩ ⟨2, ![4096, 256]⟩ 0 8 c v1) (ix2 k j) := by
  have hw : argW m c 1 = Layout.block ⟨2, ![256, 512]⟩ ⟨2, ![256, 4096]⟩ 1 8 c w1 := (h c).2.2.2.1
  have hv : argV m c 1 = Layout.block ⟨2, ![512, 256]⟩ ⟨2, ![4096, 256]⟩ 0 8 c v1 := (h c).2.2.2.2.1
  match g with
  | ⟨0, _⟩ =>
    show k0_pay10 (k0_pay9 (argW m c 1) (argV m c 1) (groupOf (G0 m) 0)) (ix3 0 r j) = _
    rw [pay10_9_apply, hw, hv]
    rfl
  | ⟨1, _⟩ =>
    show k0_pay11 (k0_pay7 (argW m c 1)) (k0_pay8 (argV m c 1)) (groupOf (G0 m) 1) (ix3 0 r j) = _
    rw [pay11_apply]; simp only [pay7_apply, pay8_apply]; rw [hw, hv]
    rfl
  | ⟨2, _⟩ =>
    show k0_pay12 (k0_pay7 (argW m c 1)) (k0_pay8 (argV m c 1)) (groupOf (G0 m) 2) (ix3 0 r j) = _
    rw [pay12_apply]; simp only [pay7_apply, pay8_apply]; rw [hw, hv]
    rfl
  | ⟨3, _⟩ =>
    show k0_pay13 (k0_pay7 (argW m c 1)) (k0_pay8 (argV m c 1)) (groupOf (G0 m) 3) (ix3 0 r j) = _
    rw [pay13_apply]; simp only [pay7_apply, pay8_apply]; rw [hw, hv]
    rfl

theorem P1_eq (c : Dev nD) (r : Fin 512) (j : Fin 256) :
    P1 m c (ix3 0 r j) = Cert.Spec.partialProd (Cert.Spec.layer x w0 v0) (Layout.block ⟨2, ![256, 512]⟩ ⟨2, ![256, 4096]⟩ 1 8 c w1)
      (Layout.block ⟨2, ![512, 256]⟩ ⟨2, ![4096, 256]⟩ 0 8 c v1) (ix2 r j) :=
  ofGroups_eq (P1grp m c) (G0 m) _ _ _ (G0_eq h) (P1grp_eq h c) r j

theorem red1_eq (t : Dev nD) (r : Fin 64) (j : Fin 256) :
    red1 m t (ix3 0 r j) = Cert.Spec.layer (Cert.Spec.layer x w0 v0) w1 v1
      (ix2 ⟨64 * t.val + r.val, by have : t.val < 8 := t.isLt; omega⟩ j) := by
  unfold red1
  rw [chain1_apply]
  exact reduce_eq (P1 m) _ w1 v1 (P1_eq h) t r j

theorem G1_eq (r : Fin 512) (j : Fin 256) : G1 m (ix3 0 r j) = Cert.Spec.layer (Cert.Spec.layer x w0 v0) w1 v1 (ix2 r j) :=
  ofChunks_eq (red1 m) _ (red1_eq h) r j

theorem P2grp_eq (c : Dev nD) (g : Fin 4) (r : Fin 128) (j : Fin 256) :
    P2grp m c g (ix3 0 r j) = ∑ k : Fin 512, max (∑ d : Fin 256, groupOf (G1 m) g (ix3 0 r d)
      * (Layout.block ⟨2, ![256, 512]⟩ ⟨2, ![256, 4096]⟩ 1 8 c w2) (ix2 d k)) 0
      * (Layout.block ⟨2, ![512, 256]⟩ ⟨2, ![4096, 256]⟩ 0 8 c v2) (ix2 k j) := by
  have hw : argW m c 2 = Layout.block ⟨2, ![256, 512]⟩ ⟨2, ![256, 4096]⟩ 1 8 c w2 := (h c).2.2.2.2.2.1
  have hv : argV m c 2 = Layout.block ⟨2, ![512, 256]⟩ ⟨2, ![4096, 256]⟩ 0 8 c v2 := (h c).2.2.2.2.2.2
  match g with
  | ⟨0, _⟩ =>
    show k0_pay21 (argW m c 2) (argV m c 2) (groupOf (G1 m) 0) (ix3 0 r j) = _
    rw [pay21_apply, hw, hv]
    rfl
  | ⟨1, _⟩ =>
    show k0_pay22 (k0_pay19 (argW m c 2)) (k0_pay20 (argV m c 2)) (groupOf (G1 m) 1) (ix3 0 r j) = _
    rw [pay22_apply]; simp only [pay19_apply, pay20_apply]; rw [hw, hv]
    rfl
  | ⟨2, _⟩ =>
    show k0_pay23 (k0_pay19 (argW m c 2)) (k0_pay20 (argV m c 2)) (groupOf (G1 m) 2) (ix3 0 r j) = _
    rw [pay23_apply]; simp only [pay19_apply, pay20_apply]; rw [hw, hv]
    rfl
  | ⟨3, _⟩ =>
    show k0_pay25 (k0_pay19 (argW m c 2)) (k0_pay20 (argV m c 2)) (k0_pay24 (groupOf (G1 m) 3))
      (constant S128x512 .f32 0x00000000#32) (ix3 0 r j) = _
    rw [pay25_24_apply]; simp only [pay19_apply, pay20_apply]; rw [hw, hv]
    rfl

theorem P2_eq (c : Dev nD) (r : Fin 512) (j : Fin 256) :
    P2 m c (ix3 0 r j) = Cert.Spec.partialProd (Cert.Spec.layer (Cert.Spec.layer x w0 v0) w1 v1)
      (Layout.block ⟨2, ![256, 512]⟩ ⟨2, ![256, 4096]⟩ 1 8 c w2)
      (Layout.block ⟨2, ![512, 256]⟩ ⟨2, ![4096, 256]⟩ 0 8 c v2) (ix2 r j) :=
  ofGroups_eq (P2grp m c) (G1 m) _ _ _ (G1_eq h) (P2grp_eq h c) r j

theorem red2_eq (t : Dev nD) (r : Fin 64) (j : Fin 256) :
    red2 m t (ix2 r j) = Cert.Spec.mlp3 x w0 v0 w1 v1 w2 v2
      (ix2 ⟨64 * t.val + r.val, by have : t.val < 8 := t.isLt; omega⟩ j) := by
  unfold red2
  rw [chain2_apply]
  exact reduce_eq (P2 m) _ w2 v2 (P2_eq h) t r j

/-- Device `c`'s result block is block `c` of the three-layer perceptron of the whole arrays. -/
theorem out_is_block (c : Dev nD) :
    outAt (F := Ideal) m c = Layout.block ⟨2, ![64, 256]⟩ ⟨2, ![512, 256]⟩ 0 8 c (Cert.Spec.mlp3 x w0 v0 w1 v1 w2 v2) := by
  funext i
  obtain ⟨r, j, rfl⟩ : ∃ (r : Fin 64) (j : Fin 256), i = ix2 r j := ⟨i 0, i 1, eq_ix2 i⟩
  rw [Cert.Spec.block_rows]
  exact red2_eq h c r j

end Layers

/-- info: 'Cert.KernelIdealProof.out_is_block' depends on axioms: [propext, Classical.choice, Quot.sound] -/
#guard_msgs in #print axioms out_is_block

end Cert.KernelIdealProof

end
-- ==== Proof.Assembly.lean ====
import proofs.«900993_g7700000000000994_dist_mlpseq_tp1d_rep_bs_b512_d256_h512_v7x_i8_bf16_1_alg».proof.Defs
import proofs.«900993_g7700000000000994_dist_mlpseq_tp1d_rep_bs_b512_d256_h512_v7x_i8_bf16_1_alg».proof.Proof.Gen.Kernel
import proofs.«900993_g7700000000000994_dist_mlpseq_tp1d_rep_bs_b512_d256_h512_v7x_i8_bf16_1_alg».proof.Proof.Gen.KernelIdeal
import proofs.«900993_g7700000000000994_dist_mlpseq_tp1d_rep_bs_b512_d256_h512_v7x_i8_bf16_1_alg».proof.Proof.Gen.ReferenceIdeal
import proofs.«900993_g7700000000000994_dist_mlpseq_tp1d_rep_bs_b512_d256_h512_v7x_i8_bf16_1_alg».proof.Proof.Gen.Pre_finite_inputs_Kernel
import proofs.«900993_g7700000000000994_dist_mlpseq_tp1d_rep_bs_b512_d256_h512_v7x_i8_bf16_1_alg».proof.Proof.Gen.Pre_finite_inputs_ReferenceIdeal
import proofs.«900993_g7700000000000994_dist_mlpseq_tp1d_rep_bs_b512_d256_h512_v7x_i8_bf16_1_alg».proof.Proof.RefRun
import proofs.«900993_g7700000000000994_dist_mlpseq_tp1d_rep_bs_b512_d256_h512_v7x_i8_bf16_1_alg».proof.Proof.RefValue
import proofs.«900993_g7700000000000994_dist_mlpseq_tp1d_rep_bs_b512_d256_h512_v7x_i8_bf16_1_alg».proof.Proof.Value
import Idealize.ShloMosaic.Lib.Pipeline.Kit

/-! The five claims from the runs.

    The run of the eight-device program, at either float instance, ends with every window's array at a named final
    contents: an argument's array at what it held at launch, the result's array at the last layer's reduced rows.
    Forgetting the result gives the program's frame. At the ideal instance the result is block `c` of the three-layer
    perceptron of the whole arrays, which is what the one-device reference's run leaves in its result: the two runs
    together are the algebraic claim. -/

noncomputable section

open Idealize.ShloMosaic Idealize.ShloMosaic.TcCoe Idealize.SL.Sem

namespace Cert.Proof.Assembly

/-! ## The idealized kernel -/

section KernelIdeal

open Cert.KernelIdeal Cert.KernelIdeal.Gen Cert.KernelIdealProof

variable (finalA : (m : (ℓ : Loc nD τ sig) → Buf (Elt Ideal) ℓ) → (ρ : Dev nD → PrngReg) → (c : Dev nD) → (w : Fin 8) →
  Buf (Elt Ideal) ((cfg0.win w).arr.view.loc (c : Thread nD τ)))
variable (run_main : ∀ (m : (ℓ : Loc nD τ sig) → Buf (Elt Ideal) ℓ) (ρ : Dev nD → PrngReg),
  θ_run (defs (F := Ideal)) (onTc (τ := τ) (main (F := Ideal))) (s₀ m ρ)
    (fun r => ∀ (c : Dev nD) (w : Fin 8), r.2.mem ((cfg0.win w).arr.view.loc (c : Thread nD τ)) = finalA m ρ c w))
variable (finalA_in : ∀ (m : (ℓ : Loc nD τ sig) → Buf (Elt Ideal) ℓ) (ρ : Dev nD → PrngReg) (c : Dev nD) (w : Fin 8) (hw : w.val < 7),
  finalA m ρ c w = (s₀ m ρ).mem ((cfg0.win w).arr.view.loc (c : Thread nD τ)))
variable (finalA_out : ∀ (m : (ℓ : Loc nD τ sig) → Buf (Elt Ideal) ℓ) (ρ : Dev nD → PrngReg) (c : Dev nD),
  finalA m ρ c 7 = outAt m c)

include run_main finalA_in in
/-- The idealized kernel runs and leaves its seven argument arrays as they were. -/
theorem frame_ki : Cert.frame_KernelIdeal := fun m ρ _ =>
  (θ_run defs _ _).mono (fun _ h c =>
    ⟨(h c 0).trans (finalA_in m ρ c 0 (by decide)), (h c 1).trans (finalA_in m ρ c 1 (by decide)),
      (h c 2).trans (finalA_in m ρ c 2 (by decide)), (h c 3).trans (finalA_in m ρ c 3 (by decide)),
      (h c 4).trans (finalA_in m ρ c 4 (by decide)), (h c 5).trans (finalA_in m ρ c 5 (by decide)),
      (h c 6).trans (finalA_in m ρ c 6 (by decide))⟩) (run_main m ρ)

include run_main finalA_in finalA_out in
/-- Both programs run; the reference's result is the three-layer perceptron of its arrays, each device's result of the
    idealized kernel its block of it, and all arguments end as they were. -/
theorem algebraic : Cert.algebraic_KernelIdeal_ReferenceIdeal := by
  intro m g m' g' _ hagree
  refine ⟨_, ?_, Cert.Proof.RefValue.ref_run m' g'⟩
  exact (θ_run defs _ _).mono (fun _ h c =>
    ⟨((h c 7).trans (finalA_out m g c)).trans (out_is_block hagree c),
      (h c 0).trans (finalA_in m g c 0 (by decide)), (h c 1).trans (finalA_in m g c 1 (by decide)),
      (h c 2).trans (finalA_in m g c 2 (by decide)), (h c 3).trans (finalA_in m g c 3 (by decide)),
      (h c 4).trans (finalA_in m g c 4 (by decide)), (h c 5).trans (finalA_in m g c 5 (by decide)),
      (h c 6).trans (finalA_in m g c 6 (by decide))⟩) (run_main m g)

end KernelIdeal

/-! ## The kernel as printed -/

section Kernel

open Cert.Kernel Cert.Kernel.Gen

variable (finalA : (m : (ℓ : Loc nD τ sig) → Buf (Elt Bits) ℓ) → (ρ : Dev nD → PrngReg) → (c : Dev nD) → (w : Fin 8) →
  Buf (Elt Bits) ((cfg0.win w).arr.view.loc (c : Thread nD τ)))
variable (run_main : ∀ (m : (ℓ : Loc nD τ sig) → Buf (Elt Bits) ℓ) (ρ : Dev nD → PrngReg),
  θ_run (defs (F := Bits)) (onTc (τ := τ) (main (F := Bits))) (s₀ m ρ)
    (fun r => ∀ (c : Dev nD) (w : Fin 8), r.2.mem ((cfg0.win w).arr.view.loc (c : Thread nD τ)) = finalA m ρ c w))
variable (finalA_in : ∀ (m : (ℓ : Loc nD τ sig) → Buf (Elt Bits) ℓ) (ρ : Dev nD → PrngReg) (c : Dev nD) (w : Fin 8) (hw : w.val < 7),
  finalA m ρ c w = (s₀ m ρ).mem ((cfg0.win w).arr.view.loc (c : Thread nD τ)))

include run_main finalA_in in
/-- The kernel as printed runs and leaves its seven argument arrays as they were. -/
theorem frame_k : Cert.frame_Kernel := fun m ρ _ =>
  (θ_run defs _ _).mono (fun _ h c =>
    ⟨(h c 0).trans (finalA_in m ρ c 0 (by decide)), (h c 1).trans (finalA_in m ρ c 1 (by decide)),
      (h c 2).trans (finalA_in m ρ c 2 (by decide)), (h c 3).trans (finalA_in m ρ c 3 (by decide)),
      (h c 4).trans (finalA_in m ρ c 4 (by decide)), (h c 5).trans (finalA_in m ρ c 5 (by decide)),
      (h c 6).trans (finalA_in m ρ c 6 (by decide))⟩) (run_main m ρ)

end Kernel

/-! ## The claim -/

/-- No operation of the kernel was rewritten for its idealization. -/
theorem preserves : Cert.preserves_Kernel_KernelIdeal := trivial

/-- The certificate's claim, from the two programs' runs and the final contents they name. -/
theorem claim_of
    (finalA_K : (m : (ℓ : Loc Cert.Kernel.nD Cert.Kernel.τ Cert.Kernel.sig) → Buf (Elt Bits) ℓ) → (ρ : Dev Cert.Kernel.nD → PrngReg) →
      (c : Dev Cert.Kernel.nD) → (w : Fin 8) →
      Buf (Elt Bits) ((Cert.Kernel.cfg0.win w).arr.view.loc (c : Thread Cert.Kernel.nD Cert.Kernel.τ)))
    (run_main_K : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) (s₀ m ρ)
        (fun r => ∀ (c : Dev Cert.Kernel.nD) (w : Fin 8),
          r.2.mem ((Cert.Kernel.cfg0.win w).arr.view.loc (c : Thread Cert.Kernel.nD Cert.Kernel.τ)) = finalA_K m ρ c w))
    (finalA_in_K : ∀ (m : (ℓ : Loc Cert.Kernel.nD Cert.Kernel.τ Cert.Kernel.sig) → Buf (Elt Bits) ℓ) (ρ : Dev Cert.Kernel.nD → PrngReg)
      (c : Dev Cert.Kernel.nD) (w : Fin 8) (hw : w.val < 7),
      finalA_K m ρ c w = (s₀ m ρ).mem ((Cert.Kernel.cfg0.win w).arr.view.loc (c : Thread Cert.Kernel.nD Cert.Kernel.τ)))
    (finalA : (m : (ℓ : Loc Cert.KernelIdeal.nD Cert.KernelIdeal.τ Cert.KernelIdeal.sig) → Buf (Elt Ideal) ℓ) →
      (ρ : Dev Cert.KernelIdeal.nD → PrngReg) → (c : Dev Cert.KernelIdeal.nD) → (w : Fin 8) →
      Buf (Elt Ideal) ((Cert.KernelIdeal.cfg0.win w).arr.view.loc (c : Thread Cert.KernelIdeal.nD Cert.KernelIdeal.τ)))
    (run_main : ∀ (m : (ℓ : Loc Cert.KernelIdeal.nD Cert.KernelIdeal.τ Cert.KernelIdeal.sig) → Buf (Elt Ideal) ℓ)
      (ρ : Dev Cert.KernelIdeal.nD → PrngReg),
      θ_run (Cert.KernelIdeal.defs (F := Ideal)) (onTc (τ := Cert.KernelIdeal.τ) (Cert.KernelIdeal.main (F := Ideal))) (s₀ m ρ)
        (fun r => ∀ (c : Dev Cert.KernelIdeal.nD) (w : Fin 8),
          r.2.mem ((Cert.KernelIdeal.cfg0.win w).arr.view.loc (c : Thread Cert.KernelIdeal.nD Cert.KernelIdeal.τ)) = finalA m ρ c w))
    (finalA_in : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD) (w : Fin 8) (hw : w.val < 7),
      finalA m ρ c w = (s₀ m ρ).mem ((Cert.KernelIdeal.cfg0.win w).arr.view.loc (c : Thread Cert.KernelIdeal.nD Cert.KernelIdeal.τ)))
    (finalA_out : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      finalA m ρ c 7 = Cert.KernelIdealProof.outAt m c) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_k finalA_K run_main_K finalA_in_K, frame_ki finalA run_main finalA_in, Cert.Proof.RefRun.frame_ri, preserves,
    algebraic finalA run_main finalA_in finalA_out⟩

/-- info: 'Cert.Proof.Assembly.claim_of' depends on axioms: [propext, Classical.choice, Quot.sound] -/
#guard_msgs in #print axioms claim_of

end Cert.Proof.Assembly

end
-- ==== Proof.Sched.lean ====
import proofs.«900993_g7700000000000994_dist_mlpseq_tp1d_rep_bs_b512_d256_h512_v7x_i8_bf16_1_alg».proof.Proof.Contents

/-! The schedule of the protocol under the rounds discipline: every cell has ONE round, round 0.
    * A barrier cell of device `c` has seven duties, one per peer `p ≠ c`, of one unit each: `p`'s entry signal. It hands
      `c` the pieces of `p`'s buffers that `c`'s copies will write — slot `(l, c)` of `p`'s receive buffer for the three
      layers, chunk `c` of layers 0 and 1 of `p`'s gather buffer — and that `p`'s receive cells for them are at round 0.
    * A reduce-send cell `(c, l)` has seven duties, one per target `t ≠ c`, of a piece's credit: chunk `t` of layer `l` of
      `c`'s partial-product buffer has been read out; it hands the chunk back.
    * A reduce-receive cell `(c, l, s)`, `s ≠ c`, has the one duty `s`: `s`'s chunk has landed; it hands `c` slot `(l, s)`
      holding rows `64 c …` of `s`'s partial product.
    * A gather-send cell `(c, l)`, `l < 2`, has seven duties `t ≠ c`: `c`'s reduced rows have been read out once more; each
      hands back the share of chunk `c` of the gather buffer the copy was lent.
    * A gather-receive cell `(c, l, s)`, `l < 2`, `s ≠ c`, has the one duty `s`: it hands `c` chunk `s` of layer `l` of
      its gather buffer holding `s`'s reduced rows. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by the peer device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cell kinds -/

/-- The kind of a protocol cell: which semaphore of a device it is. -/
inductive CK where
  | bar
  | rs (l : Fin 3)
  | rr (l : Fin 3) (s : Dev nD)
  | gs (l : Fin 3)
  | gr (l : Fin 3) (s : Dev nD)
  deriving DecidableEq

def CK.sem : CK → SemLoc sig
  | .bar => .reg barS
  | .rs l => .dma (rsS l)
  | .rr l s => .dma (rrS l s)
  | .gs l => .dma (gsS l)
  | .gr l s => .dma (grS l s)

/-- The kind a semaphore is, if it is one of the protocol's. -/
def ckOf : SemLoc sig → Option CK
  | .reg s => if s = barS then some .bar else none
  | .dma s =>
    if h : 8 ≤ s.val ∧ s.val < 11 then some (.rs ⟨s.val - 8, by omega⟩)
    else if h : 11 ≤ s.val ∧ s.val < 35 then some (.rr ⟨(s.val - 11) / 8, by omega⟩ ⟨(s.val - 11) % 8, Nat.mod_lt _ (by decide)⟩)
    else if h : 35 ≤ s.val ∧ s.val < 38 then some (.gs ⟨s.val - 35, by omega⟩)
    else if h : 38 ≤ s.val ∧ s.val < 62 then some (.gr ⟨(s.val - 38) / 8, by omega⟩ ⟨(s.val - 38) % 8, Nat.mod_lt _ (by decide)⟩)
    else none

theorem ckOf_sem (k : CK) : ckOf k.sem = some k := by
  cases k with
  | bar => rfl
  | rs l => revert l; decide
  | rr l s => revert l s; decide
  | gs l => revert l; decide
  | gr l s => revert l s; decide

/-! ## Shares: the gather source is lent to seven copies at once -/

/-- Eight disjoint shares of the whole, named by a device. -/
def sh8 (t : Dev nD) : PosShare TreeShare :=
  match t with
  | ⟨0, _⟩ => fullShare.left.left.left | ⟨1, _⟩ => fullShare.left.left.right | ⟨2, _⟩ => fullShare.left.right.left | ⟨3, _⟩ => fullShare.left.right.right
  | ⟨4, _⟩ => fullShare.right.left.left | ⟨5, _⟩ => fullShare.right.left.right | ⟨6, _⟩ => fullShare.right.right.left | ⟨_, _⟩ => fullShare.right.right.right

/-! ## Pieces held -/

/-- Device `c` holds the piece `M` of one of its buffers at share `q`, the buffer reading `f` there. -/
def piece (c : Dev nD) {sp : Space} (M : Memref sig .tc sp S64x256 .bf16) (q : PosShare TreeShare) (f : Buf (Elt F) (M.view.loc (c : Thread nD τ))) : sProp 𝕄 :=
  M.view.loc (c : Thread nD τ) ↦[M.view.set]{q} f

omit [FloatOps F] in
instance piece_storable (c : Dev nD) {sp : Space} (M : Memref sig .tc sp S64x256 .bf16) (q : PosShare TreeShare) (f) :
    BI.Storable (upEmb : UEmb _ 𝕄) (piece (F := F) c M q f) := by unfold piece; infer_instance

/-! ## Payloads -/

/-- What peer `p`'s entry signal hands device `c`: the pieces of `p`'s buffers that `c`'s copies write, at some contents,
    and that `p`'s receive cells for those copies are at round 0. -/
def barPay (c p : Dev nD) : sProp 𝕄 :=
  iprop((∃ f, piece p (rSlot 0 c) fullShare f) ∗ (∃ f, piece p (rSlot 1 c) fullShare f) ∗ (∃ f, piece p (rSlot 2 c) fullShare f)
    ∗ (∃ f, piece p (gChunk 0 c) fullShare f) ∗ (∃ f, piece p (gChunk 1 c) fullShare f)
    ∗ reached ER (rrCell p 0 c) 0 ∗ reached ER (rrCell p 1 c) 0 ∗ reached ER (rrCell p 2 c) 0
    ∗ reached ER (grCell p 0 c) 0 ∗ reached ER (grCell p 1 c) 0)
/-- Chunk `t` of layer `l` of `c`'s partial products, back from the copy to `t`. -/
def rsPay (c : Dev nD) (l : Fin 3) (t : Dev nD) : sProp 𝕄 := piece c (pChunk l t) fullShare (Pfun m c)
/-- Slot `(l, s)` of `c`'s receive buffer holding what `s` sent: chunk `c` of `s`'s partial products of layer `l`, written
    over whatever the slot held. -/
def rrPay (c : Dev nD) (l : Fin 3) (s : Dev nD) : sProp 𝕄 :=
  iprop(∃ fd, piece c (rSlot l s) fullShare ((rSlot l s).view.write (Elt F) fd ((pChunk l c).view.read (Elt F) (Pfun m s)) Finset.univ))
/-- The share of `c`'s own reduced rows lent to the copy to `t`. -/
def gsPay (c : Dev nD) (l : Fin 3) (t : Dev nD) : sProp 𝕄 := piece c (gChunk l c) (sh8 t) (Gfun m c)
/-- Chunk `s` of layer `l` of `c`'s gather buffer holding `s`'s reduced rows, written over whatever the chunk held. -/
def grPay (c : Dev nD) (l : Fin 3) (s : Dev nD) : sProp 𝕄 :=
  iprop(∃ fd, piece c (gChunk l s) fullShare ((gChunk l s).view.write (Elt F) fd ((gChunk l s).view.read (Elt F) (Gfun m s)) Finset.univ))

/-- Every device but `c`. -/
def peers (c : Dev nD) : Finset (Dev nD) := Finset.univ.erase c

/-! ## The schedule -/

def sched : Rounds.Schedule (GSem nD τ sig) (Dev nD) 𝕄 where
  duties g r :=
    if r = 0 ∧ g.1.2 = .tc then
      match ckOf g.2 with
      | some .bar => peers g.1.1
      | some (.rs _) => peers g.1.1
      | some (.rr _ s) => if s = g.1.1 then ∅ else {s}
      | some (.gs l) => if l.val < 2 then peers g.1.1 else ∅
      | some (.gr l s) => if l.val < 2 ∧ s ≠ g.1.1 then {s} else ∅
      | none => ∅
    else ∅
  amount g _ _ := if g.2 = .reg barS then 1 else N64
  payload g _ d :=
    match ckOf g.2 with
    | some .bar => barPay g.1.1 d
    | some (.rs l) => rsPay m g.1.1 l d
    | some (.rr l s) => rrPay m g.1.1 l s
    | some (.gs l) => gsPay m g.1.1 l d
    | some (.gr l s) => grPay m g.1.1 l s
    | none => iprop(emp)
  amount_pos g _ _ _ := by
    by_cases h : g.2 = .reg barS
    · rw [if_pos h]; exact Nat.one_pos
    · rw [if_neg h]; exact N64_pos

instance sched_payload_storable (g : GSem nD τ sig) (r : ℕ) (d : Dev nD) :
    BI.Storable (upEmb : UEmb _ 𝕄) ((sched (F := F) m).payload g r d) := by
  show BI.Storable upEmb (match ckOf g.2 with
    | some .bar => barPay g.1.1 d
    | some (.rs l) => rsPay m g.1.1 l d
    | some (.rr l s) => rrPay m g.1.1 l s
    | some (.gs l) => gsPay m g.1.1 l d
    | some (.gr l s) => grPay m g.1.1 l s
    | none => iprop(emp))
  unfold barPay rsPay rrPay gsPay grPay
  unfold piece
  split <;> first | infer_instance | exact piece_storable _ _ _ _

end Cert.KernelIdealProof

end
-- ==== Proof.SchedTables.lean ====
import proofs.«900993_g7700000000000994_dist_mlpseq_tp1d_rep_bs_b512_d256_h512_v7x_i8_bf16_1_alg».proof.Proof.Sched

/-! The tables of the schedule, read cell by cell. Every cell has the one round 0. For each kind of cell of a device
    `c` — its barrier cell, and per layer its reduce-send, reduce-receive, gather-send and gather-receive cells — the
    equations below give the duties of round 0 (the seven peers of `c`, or the one sending peer), the units of one duty
    (one unit on the barrier cell, a 64-row piece's credit on the others), the units the round expects in all, and what a
    duty hands the owner; then what is left of the round when no duty has been taken. Before them: who the peers of a
    device are, and that the cells of the protocol are pairwise different. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

universe u

variable {F : FTy → Type} [FloatOps F]

local notation "𝕄" => MT nD τ sig Unit (Elt F) ℕ UU ℕ

variable (m : (ℓ : Loc nD τ sig) → Buf (Elt F) ℓ)

/-! ## The peers of a device -/

/-- A device is a peer of `c` exactly when it is not `c`. -/
theorem mem_peers (c t : Dev nD) : t ∈ peers c ↔ t ≠ c := by
  unfold peers
  rw [Finset.mem_erase]
  exact ⟨fun h => h.1, fun h => ⟨h, Finset.mem_univ t⟩⟩

theorem not_mem_peers_self (c : Dev nD) : c ∉ peers c := fun h => (mem_peers c c).mp h rfl

/-- A device has seven peers. -/
theorem card_peers (c : Dev nD) : (peers c).card = 7 := by revert c; decide

/-- Being a peer is symmetric. -/
theorem mem_peers_comm (c t : Dev nD) : t ∈ peers c ↔ c ∈ peers t := by
  rw [mem_peers, mem_peers]; exact ne_comm

/-- The device `j` places after `c` is a peer of `c`, and `c` one of its peers. -/
theorem fwd_mem_peers_self (j : Fin 8) (hj : j.val ≠ 0) (c : Dev nD) : fwd j.val c ∈ peers c := (mem_peers c _).mpr (fwd_ne j hj c)
theorem fwd_mem_peers (j : Fin 8) (hj : j.val ≠ 0) (c : Dev nD) : c ∈ peers (fwd j.val c) := (mem_peers _ c).mpr (fwd_ne j hj c).symm
/-- The same for the device `j` places before `c`. -/
theorem bwd_mem_peers_self (j : Fin 8) (hj : j.val ≠ 0) (c : Dev nD) : bwd j.val c ∈ peers c := (mem_peers c _).mpr (bwd_ne j hj c)
theorem bwd_mem_peers (j : Fin 8) (hj : j.val ≠ 0) (c : Dev nD) : c ∈ peers (bwd j.val c) := (mem_peers _ c).mpr (bwd_ne j hj c).symm

/-- The same facts with the distance a natural number strictly between 0 and 8 (a literal, in the body). -/
theorem fwd_ne_nat (j : ℕ) (h0 : 0 < j) (h8 : j < 8) (c : Dev nD) : fwd j c ≠ c := fwd_ne ⟨j, h8⟩ (Nat.pos_iff_ne_zero.mp h0) c
theorem bwd_ne_nat (j : ℕ) (h0 : 0 < j) (h8 : j < 8) (c : Dev nD) : bwd j c ≠ c := bwd_ne ⟨j, h8⟩ (Nat.pos_iff_ne_zero.mp h0) c
theorem bwd_fwd_nat (j : ℕ) (h8 : j < 8) (c : Dev nD) : bwd j (fwd j c) = c := bwd_fwd ⟨j, h8⟩ c
theorem fwd_bwd_nat (j : ℕ) (h8 : j < 8) (c : Dev nD) : fwd j (bwd j c) = c := fwd_bwd ⟨j, h8⟩ c
theorem fwd_mem_peers_self_nat (j : ℕ) (h0 : 0 < j) (h8 : j < 8) (c : Dev nD) : fwd j c ∈ peers c := (mem_peers c _).mpr (fwd_ne_nat j h0 h8 c)
theorem fwd_mem_peers_nat (j : ℕ) (h0 : 0 < j) (h8 : j < 8) (c : Dev nD) : c ∈ peers (fwd j c) := (mem_peers _ c).mpr (fwd_ne_nat j h0 h8 c).symm
theorem bwd_mem_peers_self_nat (j : ℕ) (h0 : 0 < j) (h8 : j < 8) (c : Dev nD) : bwd j c ∈ peers c := (mem_peers c _).mpr (bwd_ne_nat j h0 h8 c)
theorem bwd_mem_peers_nat (j : ℕ) (h0 : 0 < j) (h8 : j < 8) (c : Dev nD) : c ∈ peers (bwd j c) := (mem_peers _ c).mpr (bwd_ne_nat j h0 h8 c).symm

/-- The peers of `c` listed by their distance after `c`, and by their distance before it. -/
theorem peers_eq_fwd (c : Dev nD) : peers c = [fwd 1 c, fwd 2 c, fwd 3 c, fwd 4 c, fwd 5 c, fwd 6 c, fwd 7 c].toFinset := by revert c; decide
theorem peers_eq_bwd (c : Dev nD) : peers c = [bwd 1 c, bwd 2 c, bwd 3 c, bwd 4 c, bwd 5 c, bwd 6 c, bwd 7 c].toFinset := by revert c; decide
theorem fwd_nodup (c : Dev nD) : [fwd 1 c, fwd 2 c, fwd 3 c, fwd 4 c, fwd 5 c, fwd 6 c, fwd 7 c].Nodup := by revert c; decide
theorem bwd_nodup (c : Dev nD) : [bwd 1 c, bwd 2 c, bwd 3 c, bwd 4 c, bwd 5 c, bwd 6 c, bwd 7 c].Nodup := by revert c; decide

/-- A separating conjunction over the peers of `c` is the chain of its seven terms, in the order of the distance after
    `c`, or before it. -/
theorem bigSep_peers_fwd {M : Type u} [URA M] (c : Dev nD) (Φ : Dev nD → sProp M) :
    bigSep (peers c) Φ = iprop(Φ (fwd 1 c) ∗ Φ (fwd 2 c) ∗ Φ (fwd 3 c) ∗ Φ (fwd 4 c) ∗ Φ (fwd 5 c) ∗ Φ (fwd 6 c) ∗ Φ (fwd 7 c)) :=
  bigSep_eq_bigSepL_of_eq _ (peers_eq_fwd c) (fwd_nodup c) Φ
theorem bigSep_peers_bwd {M : Type u} [URA M] (c : Dev nD) (Φ : Dev nD → sProp M) :
    bigSep (peers c) Φ = iprop(Φ (bwd 1 c) ∗ Φ (bwd 2 c) ∗ Φ (bwd 3 c) ∗ Φ (bwd 4 c) ∗ Φ (bwd 5 c) ∗ Φ (bwd 6 c) ∗ Φ (bwd 7 c)) :=
  bigSep_eq_bigSepL_of_eq _ (peers_eq_bwd c) (bwd_nodup c) Φ

/-! ## The cells are pairwise different -/

/-- A kind of cell is read back off its semaphore, so two kinds with one semaphore are one kind. -/
theorem CK.sem_injective : Function.Injective CK.sem := fun k k' h =>
  Option.some.inj ((ckOf_sem k).symm.trans ((congrArg ckOf h).trans (ckOf_sem k')))

theorem CK.sem_ne {k k' : CK} (h : k ≠ k') : k.sem ≠ k'.sem := fun e => h (CK.sem_injective e)

/-- The cell of kind `k` of device `c`. -/
abbrev kcell (c : Dev nD) (k : CK) : GSem nD τ sig := ((c : Thread nD τ), k.sem)

/-- A cell of the protocol determines its device and its kind. -/
theorem kcell_inj {c c' : Dev nD} {k k' : CK} (h : kcell c k = kcell c' k') : c = c' ∧ k = k' :=
  ⟨congrArg (fun g : GSem nD τ sig => g.1.1) h, CK.sem_injective (congrArg (fun g : GSem nD τ sig => g.2) h)⟩

theorem kcell_injective : Function.Injective (fun p : Dev nD × CK => kcell p.1 p.2) := fun p p' h => by
  obtain ⟨h1, h2⟩ := kcell_inj h
  exact Prod.ext h1 h2

theorem kcell_ne_of_dev {c c' : Dev nD} (h : c ≠ c') (k k' : CK) : kcell c k ≠ kcell c' k' := fun e => h (kcell_inj e).1
theorem kcell_ne_of_kind (c c' : Dev nD) {k k' : CK} (h : k ≠ k') : kcell c k ≠ kcell c' k' := fun e => h (kcell_inj e).2

theorem barCell_eq (c : Dev nD) : barCell c = kcell c .bar := rfl
theorem rsCell_eq (c : Dev nD) (l : Fin 3) : rsCell c l = kcell c (.rs l) := rfl
theorem rrCell_eq (c : Dev nD) (l : Fin 3) (s : Dev nD) : rrCell c l s = kcell c (.rr l s) := rfl
theorem gsCell_eq (c : Dev nD) (l : Fin 3) : gsCell c l = kcell c (.gs l) := rfl
theorem grCell_eq (c : Dev nD) (l : Fin 3) (s : Dev nD) : grCell c l s = kcell c (.gr l s) := rfl

/-- The semaphores of the five kinds are pairwise different, and within a kind they differ with the layer or the sender. -/
theorem rs_ne_bar (l : Fin 3) : (SemLoc.dma (rsS l) : SemLoc sig) ≠ .reg barS := CK.sem_ne (k := .rs l) (k' := .bar) (fun h => CK.noConfusion h)
theorem rr_ne_bar (l : Fin 3) (s : Dev nD) : (SemLoc.dma (rrS l s) : SemLoc sig) ≠ .reg barS := CK.sem_ne (k := .rr l s) (k' := .bar) (fun h => CK.noConfusion h)
theorem gs_ne_bar (l : Fin 3) : (SemLoc.dma (gsS l) : SemLoc sig) ≠ .reg barS := CK.sem_ne (k := .gs l) (k' := .bar) (fun h => CK.noConfusion h)
theorem gr_ne_bar (l : Fin 3) (s : Dev nD) : (SemLoc.dma (grS l s) : SemLoc sig) ≠ .reg barS := CK.sem_ne (k := .gr l s) (k' := .bar) (fun h => CK.noConfusion h)
theorem rs_ne_rr (l l' : Fin 3) (s : Dev nD) : (SemLoc.dma (rsS l) : SemLoc sig) ≠ .dma (rrS l' s) := CK.sem_ne (k := .rs l) (k' := .rr l' s) (fun h => CK.noConfusion h)
theorem rs_ne_gs (l l' : Fin 3) : (SemLoc.dma (rsS l) : SemLoc sig) ≠ .dma (gsS l') := CK.sem_ne (k := .rs l) (k' := .gs l') (fun h => CK.noConfusion h)
theorem rs_ne_gr (l l' : Fin 3) (s : Dev nD) : (SemLoc.dma (rsS l) : SemLoc sig) ≠ .dma (grS l' s) := CK.sem_ne (k := .rs l) (k' := .gr l' s) (fun h => CK.noConfusion h)
theorem rr_ne_gs (l l' : Fin 3) (s : Dev nD) : (SemLoc.dma (rrS l s) : SemLoc sig) ≠ .dma (gsS l') := CK.sem_ne (k := .rr l s) (k' := .gs l') (fun h => CK.noConfusion h)
theorem rr_ne_gr (l l' : Fin 3) (s s' : Dev nD) : (SemLoc.dma (rrS l s) : SemLoc sig) ≠ .dma (grS l' s') := CK.sem_ne (k := .rr l s) (k' := .gr l' s') (fun h => CK.noConfusion h)
theorem gs_ne_gr (l l' : Fin 3) (s : Dev nD) : (SemLoc.dma (gsS l) : SemLoc sig) ≠ .dma (grS l' s) := CK.sem_ne (k := .gs l) (k' := .gr l' s) (fun h => CK.noConfusion h)
theorem rs_inj {l l' : Fin 3} (h : (SemLoc.dma (rsS l) : SemLoc sig) = .dma (rsS l')) : l = l' := CK.rs.inj (CK.sem_injective (a₁ := .rs l) (a₂ := .rs l') h)
theorem gs_inj {l l' : Fin 3} (h : (SemLoc.dma (gsS l) : SemLoc sig) = .dma (gsS l')) : l = l' := CK.gs.inj (CK.sem_injective (a₁ := .gs l) (a₂ := .gs l') h)
theorem rr_inj {l l' : Fin 3} {s s' : Dev nD} (h : (SemLoc.dma (rrS l s) : SemLoc sig) = .dma (rrS l' s')) : l = l' ∧ s = s' :=
  CK.rr.inj (CK.sem_injective (a₁ := .rr l s) (a₂ := .rr l' s') h)
theorem gr_inj {l l' : Fin 3} {s s' : Dev nD} (h : (SemLoc.dma (grS l s) : SemLoc sig) = .dma (grS l' s')) : l = l' ∧ s = s' :=
  CK.gr.inj (CK.sem_injective (a₁ := .gr l s) (a₂ := .gr l' s') h)

/-! ## Duties of round 0, and none later -/

/-- The duties of round 0 of the cell of kind `k` of device `c`, by the kind. -/
theorem duties_kind (c : Dev nD) (k : CK) : (sched (F := F) m).duties (kcell c k) 0 =
    (match k with
      | .bar => peers c
      | .rs _ => peers c
      | .rr _ s => if s = c then ∅ else {s}
      | .gs l => if l.val < 2 then peers c else ∅
      | .gr l s => if l.val < 2 ∧ s ≠ c then {s} else ∅) := by
  dsimp only [sched]
  refine (if_pos ⟨rfl, rfl⟩).trans ?_
  rw [ckOf_sem]
  cases k <;> rfl

theorem duties_bar (c : Dev nD) : (sched (F := F) m).duties (barCell c) 0 = peers c := duties_kind m c .bar
theorem duties_rs (c : Dev nD) (l : Fin 3) : (sched (F := F) m).duties (rsCell c l) 0 = peers c := duties_kind m c (.rs l)
theorem duties_rr (c : Dev nD) (l : Fin 3) (s : Dev nD) (h : s ≠ c) : (sched (F := F) m).duties (rrCell c l s) 0 = {s} :=
  (duties_kind m c (.rr l s)).trans (if_neg h)
theorem duties_gs (c : Dev nD) (l : Fin 3) (h : l.val < 2) : (sched (F := F) m).duties (gsCell c l) 0 = peers c :=
  (duties_kind m c (.gs l)).trans (if_pos h)
theorem duties_gr (c : Dev nD) (l : Fin 3) (s : Dev nD) (hl : l.val < 2) (h : s ≠ c) : (sched (F := F) m).duties (grCell c l s) 0 = {s} :=
  (duties_kind m c (.gr l s)).trans (if_pos ⟨hl, h⟩)
/-- The cells the protocol never waits on have no duty: a device's own receive cells, and the gather cells of the last layer. -/
theorem duties_rr_self (c : Dev nD) (l : Fin 3) : (sched (F := F) m).duties (rrCell c l c) 0 = ∅ := (duties_kind m c (.rr l c)).trans (if_pos rfl)
theorem duties_gs_last (c : Dev nD) (l : Fin 3) (h : ¬ l.val < 2) : (sched (F := F) m).duties (gsCell c l) 0 = ∅ := (duties_kind m c (.gs l)).trans (if_neg h)
theorem duties_gr_none (c : Dev nD) (l : Fin 3) (s : Dev nD) (h : ¬ (l.val < 2 ∧ s ≠ c)) : (sched (F := F) m).duties (grCell c l s) 0 = ∅ :=
  (duties_kind m c (.gr l s)).trans (if_neg h)

/-- No cell has a duty after round 0. -/
theorem duties_later (g : GSem nD τ sig) : ∀ r, 1 ≤ r → (sched (F := F) m).duties g r = ∅ := fun r hr => by
  dsimp only [sched]
  exact if_neg fun h => absurd h.1 (by omega)

/-- Membership of a duty in its round, per kind of cell. -/
theorem mem_duties_bar (c p : Dev nD) (h : p ≠ c) : p ∈ (sched (F := F) m).duties (barCell c) 0 := by rw [duties_bar]; exact (mem_peers c p).mpr h
theorem mem_duties_rs (c : Dev nD) (l : Fin 3) (t : Dev nD) (h : t ≠ c) : t ∈ (sched (F := F) m).duties (rsCell c l) 0 := by rw [duties_rs]; exact (mem_peers c t).mpr h
theorem mem_duties_rr (c : Dev nD) (l : Fin 3) (s : Dev nD) (h : s ≠ c) : s ∈ (sched (F := F) m).duties (rrCell c l s) 0 := by
  rw [duties_rr m c l s h]; exact Finset.mem_singleton_self s
theorem mem_duties_gs (c : Dev nD) (l : Fin 3) (t : Dev nD) (hl : l.val < 2) (h : t ≠ c) : t ∈ (sched (F := F) m).duties (gsCell c l) 0 := by
  rw [duties_gs m c l hl]; exact (mem_peers c t).mpr h
theorem mem_duties_gr (c : Dev nD) (l : Fin 3) (s : Dev nD) (hl : l.val < 2) (h : s ≠ c) : s ∈ (sched (F := F) m).duties (grCell c l s) 0 := by
  rw [duties_gr m c l s hl h]; exact Finset.mem_singleton_self s

/-- The same memberships at the devices the body names: the device `j` places after or before `c` (`0 < j < 8`), or a
    device different from `c`; stated over the table's own entry. -/
theorem mem_bar_fwd (j : ℕ) (h0 : 0 < j) (h8 : j < 8) (c : Dev nD) : c ∈ (sched (F := F) m).duties (barCell (fwd j c)) 0 :=
  mem_duties_bar m (fwd j c) c (fwd_ne_nat j h0 h8 c).symm
theorem mem_rs_of_ne (c : Dev nD) (l : Fin 3) (t : Dev nD) (h : c ≠ t) : t ∈ (sched (F := F) m).duties (rsCell c l) 0 := mem_duties_rs m c l t h.symm
theorem mem_rr_of_ne (c t : Dev nD) (l : Fin 3) (h : c ≠ t) : c ∈ (sched (F := F) m).duties (rrCell t l c) 0 := mem_duties_rr m t l c h
theorem mem_gs_fwd (j : ℕ) (h0 : 0 < j) (h8 : j < 8) (c : Dev nD) (l : Fin 3) (hl : l.val < 2) : fwd j c ∈ (sched (F := F) m).duties (gsCell c l) 0 :=
  mem_duties_gs m c l (fwd j c) hl (fwd_ne_nat j h0 h8 c)
theorem mem_gs_of_ne (c : Dev nD) (l : Fin 3) (t : Dev nD) (hl : l.val < 2) (h : c ≠ t) : t ∈ (sched (F := F) m).duties (gsCell c l) 0 :=
  mem_duties_gs m c l t hl h.symm
theorem mem_gr_fwd (j : ℕ) (h0 : 0 < j) (h8 : j < 8) (c : Dev nD) (l : Fin 3) (hl : l.val < 2) : c ∈ (sched (F := F) m).duties (grCell (fwd j c) l c) 0 :=
  mem_duties_gr m (fwd j c) l c hl (fwd_ne_nat j h0 h8 c).symm
theorem mem_rr_bwd (j : ℕ) (h0 : 0 < j) (h8 : j < 8) (c : Dev nD) (l : Fin 3) : bwd j c ∈ (sched (F := F) m).duties (rrCell c l (bwd j c)) 0 :=
  mem_duties_rr m c l (bwd j c) (bwd_ne_nat j h0 h8 c)
theorem mem_gr_of_ne (c : Dev nD) (l : Fin 3) (s : Dev nD) (hl : l.val < 2) (h : c ≠ s) : s ∈ (sched (F := F) m).duties (grCell c l s) 0 :=
  mem_duties_gr m c l s hl h.symm

/-! ## The units of a duty -/

/-- One unit on a barrier cell, a 64-row piece's credit on every other cell of the protocol. -/
theorem amount_kind (c : Dev nD) (k : CK) (r : ℕ) (d : Dev nD) : (sched (F := F) m).amount (kcell c k) r d = if k = .bar then 1 else N64 := by
  dsimp only [sched]
  by_cases hk : k = .bar
  · subst hk; exact (if_pos rfl).trans (if_pos rfl).symm
  · exact (if_neg (CK.sem_ne (k' := .bar) hk)).trans (if_neg hk).symm

theorem amount_bar (c d : Dev nD) : (sched (F := F) m).amount (barCell c) 0 d = 1 := (amount_kind m c .bar 0 d).trans (if_pos rfl)
theorem amount_rs (c : Dev nD) (l : Fin 3) (d : Dev nD) : (sched (F := F) m).amount (rsCell c l) 0 d = N64 :=
  (amount_kind m c (.rs l) 0 d).trans (if_neg fun h => CK.noConfusion h)
theorem amount_rr (c : Dev nD) (l : Fin 3) (s d : Dev nD) : (sched (F := F) m).amount (rrCell c l s) 0 d = N64 :=
  (amount_kind m c (.rr l s) 0 d).trans (if_neg fun h => CK.noConfusion h)
theorem amount_gs (c : Dev nD) (l : Fin 3) (d : Dev nD) : (sched (F := F) m).amount (gsCell c l) 0 d = N64 :=
  (amount_kind m c (.gs l) 0 d).trans (if_neg fun h => CK.noConfusion h)
theorem amount_gr (c : Dev nD) (l : Fin 3) (s d : Dev nD) : (sched (F := F) m).amount (grCell c l s) 0 d = N64 :=
  (amount_kind m c (.gr l s) 0 d).trans (if_neg fun h => CK.noConfusion h)

/-! ## The units a round expects -/

/-- Duties that all bring `n` units bring `n` for each of them; so a round of such duties expects that many. -/
theorem amountOf_const (g : GSem nD τ sig) (r n : ℕ) (h : ∀ d, (sched (F := F) m).amount g r d = n) (B : Finset (Dev nD)) :
    (sched (F := F) m).amountOf g r B = B.card * n := by
  unfold Schedule.amountOf
  rw [Finset.sum_congr rfl fun d _ => h d, Finset.sum_const, smul_eq_mul]
theorem expect_const (g : GSem nD τ sig) (r n : ℕ) (h : ∀ d, (sched (F := F) m).amount g r d = n) :
    (sched (F := F) m).expect g r = ((sched (F := F) m).duties g r).card * n := amountOf_const m g r n h _

theorem amountOf_bar (c : Dev nD) (B : Finset (Dev nD)) : (sched (F := F) m).amountOf (barCell c) 0 B = B.card := by
  rw [amountOf_const m _ 0 1 (amount_bar m c), Nat.mul_one]
theorem amountOf_rs (c : Dev nD) (l : Fin 3) (B : Finset (Dev nD)) : (sched (F := F) m).amountOf (rsCell c l) 0 B = B.card * N64 :=
  amountOf_const m _ 0 N64 (amount_rs m c l) B
theorem amountOf_gs (c : Dev nD) (l : Fin 3) (B : Finset (Dev nD)) : (sched (F := F) m).amountOf (gsCell c l) 0 B = B.card * N64 :=
  amountOf_const m _ 0 N64 (amount_gs m c l) B

theorem expect_bar (c : Dev nD) : (sched (F := F) m).expect (barCell c) 0 = 7 := by
  rw [expect_const m _ 0 1 (amount_bar m c), duties_bar, card_peers]
theorem expect_rs (c : Dev nD) (l : Fin 3) : (sched (F := F) m).expect (rsCell c l) 0 = 7 * N64 := by
  rw [expect_const m _ 0 N64 (amount_rs m c l), duties_rs, card_peers]
theorem expect_rr (c : Dev nD) (l : Fin 3) (s : Dev nD) (h : s ≠ c) : (sched (F := F) m).expect (rrCell c l s) 0 = N64 := by
  rw [expect_const m _ 0 N64 (amount_rr m c l s), duties_rr m c l s h, Finset.card_singleton, Nat.one_mul]
theorem expect_gs (c : Dev nD) (l : Fin 3) (h : l.val < 2) : (sched (F := F) m).expect (gsCell c l) 0 = 7 * N64 := by
  rw [expect_const m _ 0 N64 (amount_gs m c l), duties_gs m c l h, card_peers]
theorem expect_gr (c : Dev nD) (l : Fin 3) (s : Dev nD) (hl : l.val < 2) (h : s ≠ c) : (sched (F := F) m).expect (grCell c l s) 0 = N64 := by
  rw [expect_const m _ 0 N64 (amount_gr m c l s), duties_gr m c l s hl h, Finset.card_singleton, Nat.one_mul]

/-! ## What a duty hands over -/

theorem payload_kind (c : Dev nD) (k : CK) (r : ℕ) (d : Dev nD) : (sched (F := F) m).payload (kcell c k) r d =
    (match k with
      | .bar => barPay c d
      | .rs l => rsPay m c l d
      | .rr l s => rrPay m c l s
      | .gs l => gsPay m c l d
      | .gr l s => grPay m c l s) := by
  dsimp only [sched]
  rw [ckOf_sem]
  cases k <;> rfl

theorem payload_bar (c p : Dev nD) : (sched (F := F) m).payload (barCell c) 0 p = barPay c p := payload_kind m c .bar 0 p
theorem payload_rs (c : Dev nD) (l : Fin 3) (t : Dev nD) : (sched (F := F) m).payload (rsCell c l) 0 t = rsPay m c l t := payload_kind m c (.rs l) 0 t
theorem payload_rr (c : Dev nD) (l : Fin 3) (s d : Dev nD) : (sched (F := F) m).payload (rrCell c l s) 0 d = rrPay m c l s := payload_kind m c (.rr l s) 0 d
theorem payload_gs (c : Dev nD) (l : Fin 3) (t : Dev nD) : (sched (F := F) m).payload (gsCell c l) 0 t = gsPay m c l t := payload_kind m c (.gs l) 0 t
theorem payload_gr (c : Dev nD) (l : Fin 3) (s d : Dev nD) : (sched (F := F) m).payload (grCell c l s) 0 d = grPay m c l s := payload_kind m c (.gr l s) 0 d

/-- The same entries with the pieces spelt as the ownership of their elements; an arrival's piece holds the sender's rows
    written over whatever it held before. -/
theorem payload_bar' (c p : Dev nD) : (sched (F := F) m).payload (barCell c) 0 p =
    iprop((∃ f, (rSlot 0 c).view.loc (p : Thread nD τ) ↦[(rSlot 0 c).view.set]{fullShare} f)
      ∗ (∃ f, (rSlot 1 c).view.loc (p : Thread nD τ) ↦[(rSlot 1 c).view.set]{fullShare} f)
      ∗ (∃ f, (rSlot 2 c).view.loc (p : Thread nD τ) ↦[(rSlot 2 c).view.set]{fullShare} f)
      ∗ (∃ f, (gChunk 0 c).view.loc (p : Thread nD τ) ↦[(gChunk 0 c).view.set]{fullShare} f)
      ∗ (∃ f, (gChunk 1 c).view.loc (p : Thread nD τ) ↦[(gChunk 1 c).view.set]{fullShare} f)
      ∗ reached ER (rrCell p 0 c) 0 ∗ reached ER (rrCell p 1 c) 0 ∗ reached ER (rrCell p 2 c) 0
      ∗ reached ER (grCell p 0 c) 0 ∗ reached ER (grCell p 1 c) 0) := payload_bar m c p
theorem payload_rs' (c : Dev nD) (l : Fin 3) (t : Dev nD) : (sched (F := F) m).payload (rsCell c l) 0 t =
    ((pChunk l t).view.loc (c : Thread nD τ) ↦[(pChunk l t).view.set]{fullShare} Pfun m c) := payload_rs m c l t
theorem payload_rr' (c : Dev nD) (l : Fin 3) (s d : Dev nD) : (sched (F := F) m).payload (rrCell c l s) 0 d =
    iprop(∃ fd, (rSlot l s).view.loc (c : Thread nD τ) ↦[(rSlot l s).view.set]{fullShare}
      ((rSlot l s).view.write (Elt F) fd ((pChunk l c).view.read (Elt F) (Pfun m s)) Finset.univ)) := payload_rr m c l s d
theorem payload_gs' (c : Dev nD) (l : Fin 3) (t : Dev nD) : (sched (F := F) m).payload (gsCell c l) 0 t =
    ((gChunk l c).view.loc (c : Thread nD τ) ↦[(gChunk l c).view.set]{sh8 t} Gfun m c) := payload_gs m c l t
theorem payload_gr' (c : Dev nD) (l : Fin 3) (s d : Dev nD) : (sched (F := F) m).payload (grCell c l s) 0 d =
    iprop(∃ fd, (gChunk l s).view.loc (c : Thread nD τ) ↦[(gChunk l s).view.set]{fullShare}
      ((gChunk l s).view.write (Elt F) fd ((gChunk l s).view.read (Elt F) (Gfun m s)) Finset.univ)) := payload_gr m c l s d

/-! ## What is left of round 0 when no duty has been taken -/

theorem rest_bar (c : Dev nD) : bigSep ((sched (F := F) m).duties (barCell c) 0 \ ∅) (fun d => (sched (F := F) m).payload (barCell c) 0 d)
    = bigSep (peers c) (fun p => barPay (F := F) c p) := by
  rw [Finset.sdiff_empty, duties_bar]
  exact bigSep_congr fun p _ => payload_bar m c p
theorem rest_rs (c : Dev nD) (l : Fin 3) : bigSep ((sched (F := F) m).duties (rsCell c l) 0 \ ∅) (fun d => (sched (F := F) m).payload (rsCell c l) 0 d)
    = bigSep (peers c) (fun t => rsPay m c l t) := by
  rw [Finset.sdiff_empty, duties_rs]
  exact bigSep_congr fun t _ => payload_rs m c l t
theorem rest_rr (c : Dev nD) (l : Fin 3) (s : Dev nD) (h : s ≠ c) :
    bigSep ((sched (F := F) m).duties (rrCell c l s) 0 \ ∅) (fun d => (sched (F := F) m).payload (rrCell c l s) 0 d) = rrPay m c l s := by
  rw [Finset.sdiff_empty, duties_rr m c l s h, bigSep_singleton, payload_rr]
theorem rest_gs (c : Dev nD) (l : Fin 3) (h : l.val < 2) :
    bigSep ((sched (F := F) m).duties (gsCell c l) 0 \ ∅) (fun d => (sched (F := F) m).payload (gsCell c l) 0 d) = bigSep (peers c) (fun t => gsPay m c l t) := by
  rw [Finset.sdiff_empty, duties_gs m c l h]
  exact bigSep_congr fun t _ => payload_gs m c l t
theorem rest_gr (c : Dev nD) (l : Fin 3) (s : Dev nD) (hl : l.val < 2) (h : s ≠ c) :
    bigSep ((sched (F := F) m).duties (grCell c l s) 0 \ ∅) (fun d => (sched (F := F) m).payload (grCell c l s) 0 d) = grPay m c l s := by
  rw [Finset.sdiff_empty, duties_gr m c l s hl h, bigSep_singleton, payload_gr]

/-- The one-duty rests with the piece spelt as the ownership of its elements. -/
theorem rest_rr' (c : Dev nD) (l : Fin 3) (s : Dev nD) (h : s ≠ c) :
    bigSep ((sched (F := F) m).duties (rrCell c l s) 0 \ ∅) (fun d => (sched (F := F) m).payload (rrCell c l s) 0 d)
      = iprop(∃ fd, (rSlot l s).view.loc (c : Thread nD τ) ↦[(rSlot l s).view.set]{fullShare}
          ((rSlot l s).view.write (Elt F) fd ((pChunk l c).view.read (Elt F) (Pfun m s)) Finset.univ)) := rest_rr m c l s h
theorem rest_gr' (c : Dev nD) (l : Fin 3) (s : Dev nD) (hl : l.val < 2) (h : s ≠ c) :
    bigSep ((sched (F := F) m).duties (grCell c l s) 0 \ ∅) (fun d => (sched (F := F) m).payload (grCell c l s) 0 d)
      = iprop(∃ fd, (gChunk l s).view.loc (c : Thread nD τ) ↦[(gChunk l s).view.set]{fullShare}
          ((gChunk l s).view.write (Elt F) fd ((gChunk l s).view.read (Elt F) (Gfun m s)) Finset.univ)) := rest_gr m c l s hl h

/-- info: 'Cert.KernelIdealProof.kcell_injective' depends on axioms: [propext, Classical.choice, Quot.sound] -/
#guard_msgs in #print axioms kcell_injective

/-- info: 'Cert.KernelIdealProof.bigSep_peers_fwd' depends on axioms: [propext, Classical.choice, Quot.sound] -/
#guard_msgs in #print axioms bigSep_peers_fwd

/-- info: 'Cert.KernelIdealProof.card_peers' depends on axioms: [propext, Classical.choice, Quot.sound] -/
#guard_msgs in #print axioms card_peers

end Cert.KernelIdealProof

end
-- ==== Proof.Levels.lean ====
import proofs.«900993_g7700000000000994_dist_mlpseq_tp1d_rep_bs_b512_d256_h512_v7x_i8_bf16_1_alg».proof.Proof.Sched

/-! Deadlock freedom of the launch: what each device owes at launch, the levels of the cells, and that every wait of
    the kernel is on a cell strictly below everything its device still owes at that point.

    Device `c` owes, at launch: one unit on the barrier cell of each of its seven peers (its entry signals); for each
    layer `l < 3` and each target `t ≠ c` a piece's credit on the reduce-receive cell `(t, l, c)` (the arrival of its
    chunk at `t`; the summand for `t = c` is kept, with amount zero, because the kernel writes one guarded copy per
    literal target); for each layer `l < 2` and each peer a piece's credit on that peer's gather-receive cell `(l, c)`.

    The levels rise in program order: staging cells 0, barrier 1, and for layer `l` the reduce-receive cells `2 + 3 l`,
    the two send cells `3 + 3 l`, the gather-receive cells `4 + 3 l` (layers 0 and 1 only). A device waits on a
    cell only when everything it still owes is owed to cells of a LATER stage, on whichever device. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What each device owes at launch -/

/-- The seven entry signals of device `c`: one unit on the barrier cell of each peer. -/
abbrev owesBar (c : Dev nD) : CellTallies nD τ sig Unit :=
  tallyAt (barCell (fwd 1 c)) () 1 + tallyAt (barCell (fwd 2 c)) () 1 + tallyAt (barCell (fwd 3 c)) () 1 + tallyAt (barCell (fwd 4 c)) () 1
    + tallyAt (barCell (fwd 5 c)) () 1 + tallyAt (barCell (fwd 6 c)) () 1 + tallyAt (barCell (fwd 7 c)) () 1

/-- The arrivals of device `c`'s reduce copies of layer `l`, one per literal target; nothing towards itself. -/
abbrev owesRed (c : Dev nD) (l : Fin 3) : CellTallies nD τ sig Unit :=
  tallyAt (rrCell 0 l c) () (if c ≠ 0 then N64 else 0) + tallyAt (rrCell 1 l c) () (if c ≠ 1 then N64 else 0)
    + tallyAt (rrCell 2 l c) () (if c ≠ 2 then N64 else 0) + tallyAt (rrCell 3 l c) () (if c ≠ 3 then N64 else 0)
    + tallyAt (rrCell 4 l c) () (if c ≠ 4 then N64 else 0) + tallyAt (rrCell 5 l c) () (if c ≠ 5 then N64 else 0)
    + tallyAt (rrCell 6 l c) () (if c ≠ 6 then N64 else 0) + tallyAt (rrCell 7 l c) () (if c ≠ 7 then N64 else 0)

/-- The arrivals of device `c`'s gather copies of layer `l`, one per peer. -/
abbrev owesGat (c : Dev nD) (l : Fin 3) : CellTallies nD τ sig Unit :=
  tallyAt (grCell (fwd 1 c) l c) () N64 + tallyAt (grCell (fwd 2 c) l c) () N64 + tallyAt (grCell (fwd 3 c) l c) () N64
    + tallyAt (grCell (fwd 4 c) l c) () N64 + tallyAt (grCell (fwd 5 c) l c) () N64 + tallyAt (grCell (fwd 6 c) l c) () N64
    + tallyAt (grCell (fwd 7 c) l c) () N64

/-- Everything device `c` owes at launch, in program order. -/
abbrev O₀ (c : Dev nD) : CellTallies nD τ sig Unit :=
  owesBar c + owesRed c 0 + owesRed c 1 + owesRed c 2 + owesGat c 0 + owesGat c 1

/-! ## The levels -/

/-- Only the TensorCores' cells carry a level, at the one index. -/
def L (g : GSem nD τ sig) : Finset Unit := if g.1.2 = .tc then {()} else ∅

/-- The level of a kind of semaphore: the barrier 1; of layer `l` the reduce-receive cells `2 + 3 l`, the reduce-send
    and gather-send cells `3 + 3 l`, the gather-receive cells `4 + 3 l`; the last layer gathers nothing, and a
    semaphore that is none of the protocol's (a staging semaphore) sits at 0. -/
def lvK : Option CK → ℕ
  | some .bar => 1
  | some (.rr l _) => 2 + 3 * l.val
  | some (.rs l) => 3 + 3 * l.val
  | some (.gs l) => if l.val < 2 then 3 + 3 * l.val else 0
  | some (.gr l _) => if l.val < 2 then 4 + 3 * l.val else 0
  | none => 0

/-- The level of a cell is that of its semaphore's kind, on whichever device. -/
def lv (g : GSem nD τ sig) (_ : Unit) : ℕ := lvK (ckOf g.2)

theorem L_of_ne (g : GSem nD τ sig) (h : g.1.2 ≠ .tc) : L g = ∅ := if_neg h
theorem L_tc (c : Dev nD) (sm : SemLoc sig) : L ((c : Thread nD τ), sm) = {()} := if_pos rfl
theorem mem_L {g : GSem nD τ sig} (h : g.1.2 = .tc) (u : Unit) : u ∈ L g := by
  unfold L; rw [if_pos h]; exact Finset.mem_singleton_self _

theorem lv_kind (t : Thread nD τ) (k : CK) (u : Unit) : lv (t, k.sem) u = lvK (some k) := by
  show lvK (ckOf k.sem) = _; rw [ckOf_sem]
theorem lv_none (t : Thread nD τ) (sm : SemLoc sig) (h : ckOf sm = none) (u : Unit) : lv (t, sm) u = 0 := by
  show lvK (ckOf sm) = _; rw [h]; rfl

theorem lv_bar (c : Dev nD) (u : Unit) : lv (barCell c) u = 1 := lv_kind _ .bar u
theorem lv_rr (c : Dev nD) (l : Fin 3) (s : Dev nD) (u : Unit) : lv (rrCell c l s) u = 2 + 3 * l.val := lv_kind _ (.rr l s) u
theorem lv_rs (c : Dev nD) (l : Fin 3) (u : Unit) : lv (rsCell c l) u = 3 + 3 * l.val := lv_kind _ (.rs l) u
theorem lv_gs (c : Dev nD) (l : Fin 3) (hl : l.val < 2) (u : Unit) : lv (gsCell c l) u = 3 + 3 * l.val :=
  (lv_kind _ (.gs l) u).trans (if_pos hl)
theorem lv_gr (c : Dev nD) (l : Fin 3) (s : Dev nD) (hl : l.val < 2) (u : Unit) : lv (grCell c l s) u = 4 + 3 * l.val :=
  (lv_kind _ (.gr l s) u).trans (if_pos hl)
/-- The eight staging semaphores are none of the protocol's. -/
theorem ckOf_stage (q : DmaSem sig) (hq : q.val < 8) : ckOf (.dma q) = none := by
  unfold ckOf
  dsimp only
  rw [dif_neg (by omega), dif_neg (by omega), dif_neg (by omega), dif_neg (by omega)]
theorem lv_stage (c : Dev nD) (q : DmaSem sig) (hq : q.val < 8) (u : Unit) : lv ((c : Thread nD τ), .dma q) u = 0 :=
  lv_none _ _ (ckOf_stage q hq) u

/-! ## Owing only above a level -/

/-- Everything `O` owes, it owes to TensorCore cells of level above `n`. -/
def Above (n : ℕ) (O : CellTallies nD τ sig Unit) : Prop := ∀ g u, 0 < O g u → g.1.2 = .tc ∧ n < lv g u

theorem Above.zero (n : ℕ) : Above n (0 : CellTallies nD τ sig Unit) := fun g u h => absurd h (Nat.lt_irrefl 0)
theorem Above.add {n : ℕ} {O₁ O₂ : CellTallies nD τ sig Unit} (h₁ : Above n O₁) (h₂ : Above n O₂) : Above n (O₁ + O₂) :=
  fun g u h => (Pipeline.add_pos_cases h).elim (h₁ g u) (h₂ g u)
theorem Above.mono {n n' : ℕ} (h : n' ≤ n) {O : CellTallies nD τ sig Unit} (hO : Above n O) : Above n' O :=
  fun g u hg => ⟨(hO g u hg).1, Nat.lt_of_le_of_lt h (hO g u hg).2⟩
/-- Owing less (at fewer cells) keeps the bound: what covers every point between two clean stages of the program. -/
theorem Above.of_pos {n : ℕ} {O O' : CellTallies nD τ sig Unit} (hO' : Above n O') (h : ∀ g u, 0 < O g u → 0 < O' g u) : Above n O :=
  fun g u hg => hO' g u (h g u hg)
theorem Above.tally {n : ℕ} {g : GSem nD τ sig} (hg : g.1.2 = .tc) (hn : n < lv g ()) (k : ℕ) : Above n (tallyAt g () k) :=
  fun g' u h => by obtain ⟨rfl, rfl⟩ := Pipeline.tallyAt_pos h; exact ⟨hg, hn⟩

theorem above_bar {n : ℕ} (hn : n < 1) (p : Dev nD) (k : ℕ) : Above n (tallyAt (barCell p) () k) :=
  Above.tally rfl (by rw [lv_bar]; exact hn) k
theorem above_rr {n : ℕ} (t : Dev nD) (l : Fin 3) (s : Dev nD) (k : ℕ) (hn : n < 2 + 3 * l.val) : Above n (tallyAt (rrCell t l s) () k) :=
  Above.tally rfl (by rw [lv_rr]; exact hn) k
theorem above_gr {n : ℕ} (t : Dev nD) (l : Fin 3) (s : Dev nD) (k : ℕ) (hl : l.val < 2) (hn : n < 4 + 3 * l.val) :
    Above n (tallyAt (grCell t l s) () k) :=
  Above.tally rfl (by rw [lv_gr _ _ _ hl]; exact hn) k

/-- The entry signals are owed to barrier cells, level 1. -/
theorem above_owesBar {n : ℕ} (c : Dev nD) (hn : n < 1) : Above n (owesBar c) := by
  unfold owesBar
  repeat' apply Above.add
  all_goals exact above_bar hn _ _
/-- Layer `l`'s reduce arrivals are owed to reduce-receive cells of layer `l`, level `2 + 3 l`. -/
theorem above_owesRed {n : ℕ} (c : Dev nD) (l : Fin 3) (hn : n < 2 + 3 * l.val) : Above n (owesRed c l) := by
  unfold owesRed
  repeat' apply Above.add
  all_goals exact above_rr _ _ _ _ hn
/-- Layer `l`'s gather arrivals (`l < 2`) are owed to gather-receive cells of layer `l`, level `4 + 3 l`. -/
theorem above_owesGat {n : ℕ} (c : Dev nD) (l : Fin 3) (hl : l.val < 2) (hn : n < 4 + 3 * l.val) : Above n (owesGat c l) := by
  unfold owesGat
  repeat' apply Above.add
  all_goals exact above_gr _ _ _ _ hl hn

/-- At launch a device owes only to protocol cells: all of level at least 1. -/
theorem above_O₀ (c : Dev nD) : Above 0 (O₀ c) :=
  (((((above_owesBar c (by decide)).add (above_owesRed c 0 (by decide))).add (above_owesRed c 1 (by decide))).add
    (above_owesRed c 2 (by decide))).add (above_owesGat c 0 (by decide) (by decide))).add (above_owesGat c 1 (by decide) (by decide))

theorem O₀_pos {c : Dev nD} {g : GSem nD τ sig} {u : Unit} (h : 0 < O₀ c g u) : g.1.2 = .tc ∧ 0 < lv g u := above_O₀ c g u h

/-- Closes `Above n O` for `O` a sum, in any grouping, of the protocol's one-cell tallies (of any amounts), of the
    families `owesBar`, `owesRed`, `owesGat` and of zeros, at a literal level `n` and literal layers. -/
macro "owes_above" : tactic => `(tactic| (
  repeat' apply Above.add
  all_goals first
    | exact Above.zero _
    | exact above_bar (by decide) _ _
    | exact above_rr _ _ _ _ (by decide)
    | exact above_gr _ _ _ _ (by decide) (by decide)))

/-! ## Every wait is allowed -/

omit [FloatOps F] in
/-- A device may wait on a cell of its own when everything it owes is owed to TensorCore cells of a higher level. -/
theorem mayWait_of_lt (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  Pipeline.mayWait_of_levAts (by rw [L_tc]; exact Finset.mem_singleton_self _)
    (fun g u hg => ⟨mem_L (hO g u hg).1 u, (hO g u hg).2⟩)

omit [FloatOps F] in
/-- The same through a cut: the waited cell at level at most `n`, everything owed above `n`. -/
theorem mayWait_of_above {n : ℕ} (c : Dev nD) (sm : SemLoc sig) (hn : lv ((c : Thread nD τ), sm) () ≤ n)
    (O : CellTallies nD τ sig Unit) (hO : Above n O) : (levAts L lv : sProp 𝕄) ⊢ MayWait (c : Thread nD τ) sm () O :=
  mayWait_of_lt c sm O fun g u hg => ⟨(hO g u hg).1, Nat.lt_of_le_of_lt hn (hO g u hg).2⟩

theorem lv_gs_le (c : Dev nD) (l : Fin 3) (u : Unit) : lv (gsCell c l) u ≤ 3 + 3 * l.val := by
  rw [show lv (gsCell c l) u = lvK (some (.gs l)) from lv_kind _ (.gs l) u]
  show (if l.val < 2 then 3 + 3 * l.val else 0) ≤ _
  split <;> omega
theorem lv_gr_le (c : Dev nD) (l : Fin 3) (s : Dev nD) (u : Unit) : lv (grCell c l s) u ≤ 4 + 3 * l.val := by
  rw [show lv (grCell c l s) u = lvK (some (.gr l s)) from lv_kind _ (.gr l s) u]
  show (if l.val < 2 then 4 + 3 * l.val else 0) ≤ _
  split <;> omega

/-! ### By the cell waited on, owing anything above its level -/

omit [FloatOps F] in
theorem mayWait_bar (c : Dev nD) (O : CellTallies nD τ sig Unit) (hO : Above 1 O) :
    (levAts L lv : sProp 𝕄) ⊢ MayWait (c : Thread nD τ) (.reg barS) () O :=
  mayWait_of_above c _ (Nat.le_of_eq (lv_bar c ())) O hO
omit [FloatOps F] in
theorem mayWait_rr (c : Dev nD) (l : Fin 3) (s : Dev nD) (O : CellTallies nD τ sig Unit) (hO : Above (2 + 3 * l.val) O) :
    (levAts L lv : sProp 𝕄) ⊢ MayWait (c : Thread nD τ) (.dma (rrS l s)) () O :=
  mayWait_of_above c _ (Nat.le_of_eq (lv_rr c l s ())) O hO
omit [FloatOps F] in
theorem mayWait_rs (c : Dev nD) (l : Fin 3) (O : CellTallies nD τ sig Unit) (hO : Above (3 + 3 * l.val) O) :
    (levAts L lv : sProp 𝕄) ⊢ MayWait (c : Thread nD τ) (.dma (rsS l)) () O :=
  mayWait_of_above c _ (Nat.le_of_eq (lv_rs c l ())) O hO
omit [FloatOps F] in
theorem mayWait_gs (c : Dev nD) (l : Fin 3) (O : CellTallies nD τ sig Unit) (hO : Above (3 + 3 * l.val) O) :
    (levAts L lv : sProp 𝕄) ⊢ MayWait (c : Thread nD τ) (.dma (gsS l)) () O :=
  mayWait_of_above c _ (lv_gs_le c l ()) O hO
omit [FloatOps F] in
theorem mayWait_gr (c : Dev nD) (l : Fin 3) (s : Dev nD) (O : CellTallies nD τ sig Unit) (hO : Above (4 + 3 * l.val) O) :
    (levAts L lv : sProp 𝕄) ⊢ MayWait (c : Thread nD τ) (.dma (grS l s)) () O :=
  mayWait_of_above c _ (lv_gr_le c l s ()) O hO

omit [FloatOps F] in
/-- The pipeline's own waits, on the staging semaphores (level 0), before the body (owing everything) and after it
    (owing nothing). -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · exact mayWait_of_above c _ (Nat.le_of_eq (lv_stage c q hq ())) _ (above_O₀ c)
  · exact mayWait_of_above c _ (Nat.le_of_eq (lv_stage c q hq ())) _ (Above.zero 0)

/-! ### At the clean stages of the program, in its order -/

/-- What is owed from layer `1` on, once layer 0's reduce and gather copies have left. -/
theorem above_after0 (c : Dev nD) : Above 4 (owesRed c 1 + owesRed c 2 + owesGat c 1) :=
  ((above_owesRed c 1 (by decide)).add (above_owesRed c 2 (by decide))).add (above_owesGat c 1 (by decide) (by decide))

omit [FloatOps F] in
/-- The barrier wait: the seven signals sent, every copy still owed. -/
theorem mayWait_bar_entry (c : Dev nD) :
    (levAts L lv : sProp 𝕄) ⊢ MayWait (c : Thread nD τ) (.reg barS) () (owesRed c 0 + owesRed c 1 + owesRed c 2 + owesGat c 0 + owesGat c 1) :=
  mayWait_bar c _ (((((above_owesRed c 0 (by decide)).add (above_owesRed c 1 (by decide))).add (above_owesRed c 2 (by decide))).add
    (above_owesGat c 0 (by decide) (by decide))).add (above_owesGat c 1 (by decide) (by decide)))
omit [FloatOps F] in
/-- Layer 0's receive waits: its reduce copies sent. -/
theorem mayWait_rr0 (c s : Dev nD) :
    (levAts L lv : sProp 𝕄) ⊢ MayWait (c : Thread nD τ) (.dma (rrS 0 s)) () (owesRed c 1 + owesRed c 2 + owesGat c 0 + owesGat c 1) :=
  mayWait_rr c 0 s _ ((((above_owesRed c 1 (by decide)).add (above_owesRed c 2 (by decide))).add
    (above_owesGat c 0 (by decide) (by decide))).add (above_owesGat c 1 (by decide) (by decide)))
omit [FloatOps F] in
/-- Layer 0's send waits: its gather copies sent too. -/
theorem mayWait_rs0 (c : Dev nD) :
    (levAts L lv : sProp 𝕄) ⊢ MayWait (c : Thread nD τ) (.dma (rsS 0)) () (owesRed c 1 + owesRed c 2 + owesGat c 1) :=
  mayWait_rs c 0 _ ((above_after0 c).mono (by decide))
omit [FloatOps F] in
theorem mayWait_gs0 (c : Dev nD) :
    (levAts L lv : sProp 𝕄) ⊢ MayWait (c : Thread nD τ) (.dma (gsS 0)) () (owesRed c 1 + owesRed c 2 + owesGat c 1) :=
  mayWait_gs c 0 _ ((above_after0 c).mono (by decide))
omit [FloatOps F] in
/-- Layer 0's gather-receive waits, interleaved with layer 1's reduce copies: whatever part of them is still owed. -/
theorem mayWait_gr0 (c s : Dev nD) (O : CellTallies nD τ sig Unit)
    (hO : ∀ g u, 0 < O g u → 0 < (owesRed c 1 + owesRed c 2 + owesGat c 1) g u) :
    (levAts L lv : sProp 𝕄) ⊢ MayWait (c : Thread nD τ) (.dma (grS 0 s)) () O :=
  mayWait_gr c 0 s O ((above_after0 c).of_pos hO)
omit [FloatOps F] in
/-- Layer 1's receive waits. -/
theorem mayWait_rr1 (c s : Dev nD) :
    (levAts L lv : sProp 𝕄) ⊢ MayWait (c : Thread nD τ) (.dma (rrS 1 s)) () (owesRed c 2 + owesGat c 1) :=
  mayWait_rr c 1 s _ ((above_owesRed c 2 (by decide)).add (above_owesGat c 1 (by decide) (by decide)))
omit [FloatOps F] in
/-- Layer 1's send waits. -/
theorem mayWait_rs1 (c : Dev nD) : (levAts L lv : sProp 𝕄) ⊢ MayWait (c : Thread nD τ) (.dma (rsS 1)) () (owesRed c 2) :=
  mayWait_rs c 1 _ (above_owesRed c 2 (by decide))
omit [FloatOps F] in
theorem mayWait_gs1 (c : Dev nD) : (levAts L lv : sProp 𝕄) ⊢ MayWait (c : Thread nD τ) (.dma (gsS 1)) () (owesRed c 2) :=
  mayWait_gs c 1 _ (above_owesRed c 2 (by decide))
omit [FloatOps F] in
/-- Layer 1's gather-receive waits, interleaved with layer 2's reduce copies. -/
theorem mayWait_gr1 (c s : Dev nD) (O : CellTallies nD τ sig Unit) (hO : ∀ g u, 0 < O g u → 0 < owesRed c 2 g u) :
    (levAts L lv : sProp 𝕄) ⊢ MayWait (c : Thread nD τ) (.dma (grS 1 s)) () O :=
  mayWait_gr c 1 s O ((above_owesRed c 2 (by decide)).of_pos hO)

/-- info: 'Cert.KernelIdealProof.mayWait_of_lt' depends on axioms: [propext, Classical.choice, Quot.sound] -/
#guard_msgs in #print axioms mayWait_of_lt

/-- info: 'Cert.KernelIdealProof.mayWait_stage' depends on axioms: [propext, Classical.choice, Quot.sound] -/
#guard_msgs in #print axioms mayWait_stage

/-- info: 'Cert.KernelIdealProof.mayWait_bar_entry' depends on axioms: [propext, Classical.choice, Quot.sound] -/
#guard_msgs in #print axioms mayWait_bar_entry

/-- info: 'Cert.KernelIdealProof.mayWait_gr1' depends on axioms: [propext, Classical.choice, Quot.sound] -/
#guard_msgs in #print axioms mayWait_gr1

end Cert.KernelIdealProof

end
-- ==== Proof.Ghost.lean ====
import proofs.«900993_g7700000000000994_dist_mlpseq_tp1d_rep_bs_b512_d256_h512_v7x_i8_bf16_1_alg».proof.Proof.SchedTables
import proofs.«900993_g7700000000000994_dist_mlpseq_tp1d_rep_bs_b512_d256_h512_v7x_i8_bf16_1_alg».proof.Proof.Levels

/-! The protocol's ghost state as the launch deals it. Persistent: every cell's invariant (at the names `K` the launch
    allocated) and that every cell is at round 0. Linear, per device `c`: its position at round 0 of each of its own
    cells; the tokens of the duties IT pays — on each peer `p`: `p`'s barrier duty `c` (its entry signal), the arrival
    duties `c` of `p`'s reduce-receive cells `(l, c)` and gather-receive cells `(l, c)`; on its own send cells: the departure
    duty `t` of each copy to a peer `t` —; and the credit it was dealt: seven units on its barrier cell, a piece's credit
    on each receive cell a peer's copy lands on. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

deriving instance Fintype for CK

variable {F : FTy → Type} [FloatOps F]
local notation "𝕄" => MT nD τ sig Unit (Elt F) ℕ UU ℕ
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Every cell's invariant, cell `(c, k)`'s at the name `K (kcell c k)`. -/
def invsAll (K : GSem nD τ sig → ℕ) : sProp 𝕄 :=
  bigSep (Finset.univ : Finset (Dev nD × CK)) fun p => cellInv ER (sched m) (K (kcell p.1 p.2)) (kcell p.1 p.2)
/-- Every cell is at round 0. -/
def reachedAll : sProp 𝕄 :=
  bigSep (Finset.univ : Finset (Dev nD × CK)) fun p => (reached ER (kcell p.1 p.2) 0 : sProp 𝕄)

instance invsAll_persistent (K : GSem nD τ sig → ℕ) : BI.Persistent (invsAll m K) := by unfold invsAll; infer_instance
instance reachedAll_persistent : BI.Persistent (reachedAll (F := F)) := by unfold reachedAll; infer_instance

/-- Device `c`'s positions: round 0 of each of its cells, nothing taken. -/
def posAll (c : Dev nD) : sProp 𝕄 := bigSep (Finset.univ : Finset CK) fun k => (atPos ER (kcell c k) 0 ∅ 0 : sProp 𝕄)

/-- The tokens device `c` pays peer `p`'s cells with: its entry signal, the arrivals of its three reduce copies and two
    gather copies into `p`'s buffers. -/
def toksTo (c p : Dev nD) : sProp 𝕄 :=
  iprop(dutyTok ER (barCell p) 0 c
    ∗ dutyTok ER (rrCell p 0 c) 0 c ∗ dutyTok ER (rrCell p 1 c) 0 c ∗ dutyTok ER (rrCell p 2 c) 0 c
    ∗ dutyTok ER (grCell p 0 c) 0 c ∗ dutyTok ER (grCell p 1 c) 0 c)
/-- The tokens of the departures of `c`'s own copies to peer `t`. -/
def toksOut (c t : Dev nD) : sProp 𝕄 :=
  iprop(dutyTok ER (rsCell c 0) 0 t ∗ dutyTok ER (rsCell c 1) 0 t ∗ dutyTok ER (rsCell c 2) 0 t
    ∗ dutyTok ER (gsCell c 0) 0 t ∗ dutyTok ER (gsCell c 1) 0 t)
def payToks (c : Dev nD) : sProp 𝕄 :=
  iprop(bigSep (peers c) (fun p => toksTo (F := F) c p) ∗ bigSep (peers c) (fun t => toksOut (F := F) c t))

/-- The credit dealt to `c` for what peer `s` owes its cells. -/
def credFrom (c s : Dev nD) : sProp 𝕄 :=
  iprop(cred (tallyAt (rrCell c 0 s) () N64) ∗ cred (tallyAt (rrCell c 1 s) () N64) ∗ cred (tallyAt (rrCell c 2 s) () N64)
    ∗ cred (tallyAt (grCell c 0 s) () N64) ∗ cred (tallyAt (grCell c 1 s) () N64))
def credsOf (c : Dev nD) : sProp 𝕄 :=
  iprop(cred (tallyAt (barCell c) () 7) ∗ bigSep (peers c) (fun s => credFrom (F := F) c s))

/-- The protocol's ghost state device `c` starts from, at the names `K`. -/
def ghost (K : GSem nD τ sig → ℕ) (c : Dev nD) : sProp 𝕄 :=
  iprop(invsAll m K ∗ reachedAll ∗ posAll c ∗ payToks c)

/-- What device `c`'s body starts from beside its buffers: the ghost state at some names, its credit, the level facts. -/
def start (c : Dev nD) : sProp 𝕄 :=
  iprop((∃ K, ghost m K c) ∗ credsOf c ∗ levAts L lv)

/-- A whole scratch buffer held at some contents. -/
def scr (c : Dev nD) (b : Ref sig .tc) : sProp 𝕄 :=
  iprop(∃ f : Buf (Elt F) ((c : Thread nD τ).loc b), ((c : Thread nD τ).loc b) ↦{fullShare} f)

/-- Before the point: the start and the three scratch buffers at whatever they hold. -/
def Φ₀ (c : Dev nD) : sProp 𝕄 := iprop(start m c ∗ scr c cc0_scratch0 ∗ scr c cc0_scratch1 ∗ scr c cc0_scratch2)
/-- After the point: the three scratch buffers back whole, and every own (scoped) semaphore at zero with its cell closed. -/
def Φ₁ (c : Dev nD) : sProp 𝕄 :=
  iprop(scr c cc0_scratch0 ∗ scr c cc0_scratch1 ∗ scr c cc0_scratch2
    ∗ bigSep ((Finset.univ : Finset CK).erase .bar) (fun k => (semVal (kcell c k) 0 : sProp 𝕄)))

end Cert.KernelIdealProof

end
-- ==== Proof.Data.lean ====
import proofs.«900993_g7700000000000994_dist_mlpseq_tp1d_rep_bs_b512_d256_h512_v7x_i8_bf16_1_alg».proof.Proof.Ghost
import proofs.«900993_g7700000000000994_dist_mlpseq_tp1d_rep_bs_b512_d256_h512_v7x_i8_bf16_1_alg».proof.Proof.Gen.KernelIdeal.Points

/-! The pipeline's proof data of a device and the interface of its body. The kernel has no grid: one point, at which the
    seven argument arrays are fetched whole into their staging buffers and the result's staging buffer is written back
    whole. So after the body each input's staging buffer holds the device's argument array, and the result's holds the
    device's rows of the last layer's sum. Before the point the device holds the protocol's ghost state, its launch
    credit, the level facts and its three scratch buffers at whatever they hold, and owes everything it owes at launch;
    after it, the scratch buffers back whole, its own semaphores at zero, and it owes nothing. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argX m c
    | ⟨1, _⟩ => argW m c 0
    | ⟨2, _⟩ => argV m c 0
    | ⟨3, _⟩ => argW m c 1
    | ⟨4, _⟩ => argV m c 1
    | ⟨5, _⟩ => argW m c 2
    | ⟨6, _⟩ => argV m c 2
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body's interface -/

/-- A whole staging buffer of device `c` held at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` starts from: the protocol's ghost state at the names `K`, its credit, the level facts,
    the three scratch buffers at whatever they hold; owing what it owes at launch; the seven input staging buffers
    holding its argument arrays, the result's staging buffer at whatever it holds. -/
def bodyPre (K : GSem nD τ sig → ℕ) (c : Dev nD) : sProp 𝕄 :=
  iprop((ghost m K c ∗ credsOf c ∗ levAts L lv ∗ scr c cc0_scratch0 ∗ scr c cc0_scratch1 ∗ scr c cc0_scratch2)
    ∗ (∃ W, owes (c : Thread nD τ) (O₀ c) W)
    ∗ stg c cc0_stg0_0 (argX m c) ∗ stg c cc0_stg1_0 (argW m c 0) ∗ stg c cc0_stg2_0 (argV m c 0)
    ∗ stg c cc0_stg3_0 (argW m c 1) ∗ stg c cc0_stg4_0 (argV m c 1)
    ∗ stg c cc0_stg5_0 (argW m c 2) ∗ stg c cc0_stg6_0 (argV m c 2)
    ∗ (∃ X, stg c cc0_stg7_0 X))

/-- What it ends with: the scratch buffers back whole and its own semaphores at zero (`Φ₁`); owing nothing; the input
    staging buffers as they were, the result's holding the device's rows of the last layer's sum. -/
def bodyPost (c : Dev nD) : sProp 𝕄 :=
  iprop(Φ₁ c
    ∗ (∃ W, owes (c : Thread nD τ) 0 W)
    ∗ stg c cc0_stg0_0 (argX m c) ∗ stg c cc0_stg1_0 (argW m c 0) ∗ stg c cc0_stg2_0 (argV m c 0)
    ∗ stg c cc0_stg3_0 (argW m c 1) ∗ stg c cc0_stg4_0 (argV m c 1)
    ∗ stg c cc0_stg5_0 (argW m c 2) ∗ stg c cc0_stg6_0 (argV m c 2)
    ∗ stg c cc0_stg7_0 (outAt m c))

/-! ## The body obligation

The library states the obligation over each window's current staging buffer at what the pipeline left in it; here that
is, for an input, the fetched block — the whole argument array — and for the result whatever the buffer held. -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! An input's staging buffer, fetched at the one point, holds the argument array: the window's block is the whole array. -/
theorem before_0 (c : Dev nD) (d) : (dats m ρ 0 c).before (0 : Fin 8) t0_0 d = argX m c := by
  unfold Dat.before; rw [if_pos (fetch0_0 t0_0)]; unfold Dat.fetched Dat.blockOf
  show (win0_0.blk t0_0).view.read (Elt F) (m ((c : Thread nD τ).loc main_arg0)) = _
  exact Memref.read_access_unit_zero (Elt F) main_arg0 (funext fun a => Nat.zero_mul _) _ _
theorem before_1 (c : Dev nD) (d) : (dats m ρ 0 c).before (1 : Fin 8) t0_0 d = argW m c 0 := by
  unfold Dat.before; rw [if_pos (fetch0_1 t0_0)]; unfold Dat.fetched Dat.blockOf
  show (win0_1.blk t0_0).view.read (Elt F) (m ((c : Thread nD τ).loc main_arg1)) = _
  exact Memref.read_access_unit_zero (Elt F) main_arg1 (funext fun a => Nat.zero_mul _) _ _
theorem before_2 (c : Dev nD) (d) : (dats m ρ 0 c).before (2 : Fin 8) t0_0 d = argV m c 0 := by
  unfold Dat.before; rw [if_pos (fetch0_2 t0_0)]; unfold Dat.fetched Dat.blockOf
  show (win0_2.blk t0_0).view.read (Elt F) (m ((c : Thread nD τ).loc main_arg2)) = _
  exact Memref.read_access_unit_zero (Elt F) main_arg2 (funext fun a => Nat.zero_mul _) _ _
theorem before_3 (c : Dev nD) (d) : (dats m ρ 0 c).before (3 : Fin 8) t0_0 d = argW m c 1 := by
  unfold Dat.before; rw [if_pos (fetch0_3 t0_0)]; unfold Dat.fetched Dat.blockOf
  show (win0_3.blk t0_0).view.read (Elt F) (m ((c : Thread nD τ).loc main_arg3)) = _
  exact Memref.read_access_unit_zero (Elt F) main_arg3 (funext fun a => Nat.zero_mul _) _ _
theorem before_4 (c : Dev nD) (d) : (dats m ρ 0 c).before (4 : Fin 8) t0_0 d = argV m c 1 := by
  unfold Dat.before; rw [if_pos (fetch0_4 t0_0)]; unfold Dat.fetched Dat.blockOf
  show (win0_4.blk t0_0).view.read (Elt F) (m ((c : Thread nD τ).loc main_arg4)) = _
  exact Memref.read_access_unit_zero (Elt F) main_arg4 (funext fun a => Nat.zero_mul _) _ _
theorem before_5 (c : Dev nD) (d) : (dats m ρ 0 c).before (5 : Fin 8) t0_0 d = argW m c 2 := by
  unfold Dat.before; rw [if_pos (fetch0_5 t0_0)]; unfold Dat.fetched Dat.blockOf
  show (win0_5.blk t0_0).view.read (Elt F) (m ((c : Thread nD τ).loc main_arg5)) = _
  exact Memref.read_access_unit_zero (Elt F) main_arg5 (funext fun a => Nat.zero_mul _) _ _
theorem before_6 (c : Dev nD) (d) : (dats m ρ 0 c).before (6 : Fin 8) t0_0 d = argV m c 2 := by
  unfold Dat.before; rw [if_pos (fetch0_6 t0_0)]; unfold Dat.fetched Dat.blockOf
  show (win0_6.blk t0_0).view.read (Elt F) (m ((c : Thread nD τ).loc main_arg6)) = _
  exact Memref.read_access_unit_zero (Elt F) main_arg6 (funext fun a => Nat.zero_mul _) _ _

set_option maxRecDepth 4000 in
/-- The obligation's precondition at the one point, the windows written out. -/
def bodyPre' (c : Dev nD) : sProp 𝕄 :=
  iprop(Φ₀ m c ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

set_option maxRecDepth 4000 in
/-- Its postcondition there. -/
def bodyPost' (c : Dev nD) : sProp 𝕄 :=
  iprop(Φ₁ c ∗ (dats m ρ 0 c).owesAt () t0_0.succ
    ∗ stg c cc0_stg0_0 (argX m c) ∗ stg c cc0_stg1_0 (argW m c 0) ∗ stg c cc0_stg2_0 (argV m c 0)
    ∗ stg c cc0_stg3_0 (argW m c 1) ∗ stg c cc0_stg4_0 (argV m c 1)
    ∗ stg c cc0_stg5_0 (argW m c 2) ∗ stg c cc0_stg6_0 (argV m c 2)
    ∗ stg c cc0_stg7_0 (outAt m c))

/-- The obligation's precondition gives the body's, at the names the ghost state was allocated at. -/
theorem bodyPre_of (c : Dev nD) : bodyPre' m ρ c ⊢ iprop(∃ K, bodyPre m K c) := by
  unfold bodyPre' Φ₀ start
  simp only [before_0, before_1, before_2, before_3, before_4, before_5, before_6]
  iintro ⟨⟨⟨⟨%K, Hg⟩, Hcr, Hlev⟩, Hs0, Hs1, Hs2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  icases Ho with ⟨%W, %hW, HO⟩
  iexists K
  unfold bodyPre
  isplitl [Hg Hcr Hlev Hs0 Hs1 Hs2]
  · isplitl [Hg]; · iexact Hg
    isplitl [Hcr]; · iexact Hcr
    isplitl [Hlev]; · iexact Hlev
    isplitl [Hs0]; · iexact Hs0
    isplitl [Hs1]; · iexact Hs1
    iexact Hs2
  isplitl [HO]; · iexists W; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The body's postcondition gives the obligation's: what it owes — nothing — within the next point's bound. -/
theorem bodyPost_to (c : Dev nD) : bodyPost m c ⊢ bodyPost' m ρ c := by
  unfold bodyPost bodyPost'
  iintro ⟨HΦ, ⟨%W, HO⟩, Hst⟩
  isplitl [HΦ]; · iexact HΦ
  isplitl [HO]
  · iexists W
    isplitr; · ipureintro; exact fun _ _ => Or.inl trivial
    iexact HO
  iexact Hst

set_option maxRecDepth 8000 in
/-- The library's body obligation on device `c`, from the soundness of the body between `bodyPre` and `bodyPost`. -/
theorem body_obligation
    (hbody : ∀ (K : GSem nD τ sig → ℕ) (c : Dev nD) (Kt : PUnit → sProp 𝕄), iprop(bodyPre m K c ∗ (bodyPost m c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt)
    (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost' m ρ c)
  refine (bodyPre_of m ρ c).trans ?_
  iintro ⟨%K, H⟩
  iapply (hbody K c fun _ => bodyPost' m ρ c)
  isplitl [H]; · iexact H
  iintro H; iapply (bodyPost_to m ρ c); iexact H

/-- info: 'Cert.KernelIdealProof.body_obligation' depends on axioms: [propext, Classical.choice, Quot.sound] -/
#guard_msgs in #print axioms body_obligation

end Cert.KernelIdealProof

end
-- ==== Proof.Lit.lean ====
import proofs.«900993_g7700000000000994_dist_mlpseq_tp1d_rep_bs_b512_d256_h512_v7x_i8_bf16_1_alg».proof.Proof.Ghost

/-! The family of all kinds of cell, written out. A device has 55 cells: its barrier cell; the reduce-send cells of the
    three layers; the 24 reduce-receive cells, by layer and then by sender; the gather-send cells of the three layers;
    the 24 gather-receive cells, by layer and then by sender. A separating conjunction over all kinds is the chain of its
    55 factors in that order; without the barrier cell, of the other 54; and the conjunction over the cells of all
    devices hands over the factor of any one cell. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

universe u

/-- The kinds of cell other than the barrier, in the order of the chain. -/
def restCK : List CK :=
  [.rs 0, .rs 1, .rs 2,
   .rr 0 0, .rr 0 1, .rr 0 2, .rr 0 3, .rr 0 4, .rr 0 5, .rr 0 6, .rr 0 7,
   .rr 1 0, .rr 1 1, .rr 1 2, .rr 1 3, .rr 1 4, .rr 1 5, .rr 1 6, .rr 1 7,
   .rr 2 0, .rr 2 1, .rr 2 2, .rr 2 3, .rr 2 4, .rr 2 5, .rr 2 6, .rr 2 7,
   .gs 0, .gs 1, .gs 2,
   .gr 0 0, .gr 0 1, .gr 0 2, .gr 0 3, .gr 0 4, .gr 0 5, .gr 0 6, .gr 0 7,
   .gr 1 0, .gr 1 1, .gr 1 2, .gr 1 3, .gr 1 4, .gr 1 5, .gr 1 6, .gr 1 7,
   .gr 2 0, .gr 2 1, .gr 2 2, .gr 2 3, .gr 2 4, .gr 2 5, .gr 2 6, .gr 2 7]

/-- All 55 kinds of cell, the barrier first. -/
def allCK : List CK := .bar :: restCK

theorem restCK_nodup : restCK.Nodup := by decide
theorem bar_not_mem_restCK : CK.bar ∉ restCK := by decide
theorem allCK_nodup : allCK.Nodup := List.nodup_cons.mpr ⟨bar_not_mem_restCK, restCK_nodup⟩

/-- Every kind is listed; every kind but the barrier is listed among the rest. -/
theorem mem_restCK (k : CK) (h : k ≠ .bar) : k ∈ restCK := by
  cases k with
  | bar => exact absurd rfl h
  | rs l => revert l; decide
  | rr l s => revert l s; decide
  | gs l => revert l; decide
  | gr l s => revert l s; decide
theorem mem_allCK (k : CK) : k ∈ allCK := by
  by_cases h : k = .bar
  · subst h; exact List.mem_cons_self
  · exact List.mem_cons_of_mem _ (mem_restCK k h)

theorem univ_CK : (Finset.univ : Finset CK) = allCK.toFinset :=
  (Finset.eq_univ_iff_forall.mpr fun k => List.mem_toFinset.mpr (mem_allCK k)).symm
theorem univ_erase_bar : (Finset.univ : Finset CK).erase .bar = restCK.toFinset := by
  ext k
  rw [Finset.mem_erase, List.mem_toFinset]
  exact ⟨fun h => mem_restCK k h.1, fun h => ⟨fun e => bar_not_mem_restCK (e ▸ h), Finset.mem_univ k⟩⟩

/-- The conjunction over all kinds of cell, as the chain of its 55 factors. -/
theorem bigSep_CK {M : Type u} [URA M] (Φ : CK → sProp M) : bigSep (Finset.univ : Finset CK) Φ =
    iprop(Φ .bar ∗ Φ (.rs 0) ∗ Φ (.rs 1) ∗ Φ (.rs 2)
      ∗ Φ (.rr 0 0) ∗ Φ (.rr 0 1) ∗ Φ (.rr 0 2) ∗ Φ (.rr 0 3) ∗ Φ (.rr 0 4) ∗ Φ (.rr 0 5) ∗ Φ (.rr 0 6) ∗ Φ (.rr 0 7)
      ∗ Φ (.rr 1 0) ∗ Φ (.rr 1 1) ∗ Φ (.rr 1 2) ∗ Φ (.rr 1 3) ∗ Φ (.rr 1 4) ∗ Φ (.rr 1 5) ∗ Φ (.rr 1 6) ∗ Φ (.rr 1 7)
      ∗ Φ (.rr 2 0) ∗ Φ (.rr 2 1) ∗ Φ (.rr 2 2) ∗ Φ (.rr 2 3) ∗ Φ (.rr 2 4) ∗ Φ (.rr 2 5) ∗ Φ (.rr 2 6) ∗ Φ (.rr 2 7)
      ∗ Φ (.gs 0) ∗ Φ (.gs 1) ∗ Φ (.gs 2)
      ∗ Φ (.gr 0 0) ∗ Φ (.gr 0 1) ∗ Φ (.gr 0 2) ∗ Φ (.gr 0 3) ∗ Φ (.gr 0 4) ∗ Φ (.gr 0 5) ∗ Φ (.gr 0 6) ∗ Φ (.gr 0 7)
      ∗ Φ (.gr 1 0) ∗ Φ (.gr 1 1) ∗ Φ (.gr 1 2) ∗ Φ (.gr 1 3) ∗ Φ (.gr 1 4) ∗ Φ (.gr 1 5) ∗ Φ (.gr 1 6) ∗ Φ (.gr 1 7)
      ∗ Φ (.gr 2 0) ∗ Φ (.gr 2 1) ∗ Φ (.gr 2 2) ∗ Φ (.gr 2 3) ∗ Φ (.gr 2 4) ∗ Φ (.gr 2 5) ∗ Φ (.gr 2 6) ∗ Φ (.gr 2 7)) :=
  bigSep_univ_eq_bigSepL allCK univ_CK allCK_nodup Φ

/-- The conjunction over the kinds other than the barrier, as the chain of its 54 factors. -/
theorem bigSep_CK_rest {M : Type u} [URA M] (Φ : CK → sProp M) : bigSep ((Finset.univ : Finset CK).erase .bar) Φ =
    iprop(Φ (.rs 0) ∗ Φ (.rs 1) ∗ Φ (.rs 2)
      ∗ Φ (.rr 0 0) ∗ Φ (.rr 0 1) ∗ Φ (.rr 0 2) ∗ Φ (.rr 0 3) ∗ Φ (.rr 0 4) ∗ Φ (.rr 0 5) ∗ Φ (.rr 0 6) ∗ Φ (.rr 0 7)
      ∗ Φ (.rr 1 0) ∗ Φ (.rr 1 1) ∗ Φ (.rr 1 2) ∗ Φ (.rr 1 3) ∗ Φ (.rr 1 4) ∗ Φ (.rr 1 5) ∗ Φ (.rr 1 6) ∗ Φ (.rr 1 7)
      ∗ Φ (.rr 2 0) ∗ Φ (.rr 2 1) ∗ Φ (.rr 2 2) ∗ Φ (.rr 2 3) ∗ Φ (.rr 2 4) ∗ Φ (.rr 2 5) ∗ Φ (.rr 2 6) ∗ Φ (.rr 2 7)
      ∗ Φ (.gs 0) ∗ Φ (.gs 1) ∗ Φ (.gs 2)
      ∗ Φ (.gr 0 0) ∗ Φ (.gr 0 1) ∗ Φ (.gr 0 2) ∗ Φ (.gr 0 3) ∗ Φ (.gr 0 4) ∗ Φ (.gr 0 5) ∗ Φ (.gr 0 6) ∗ Φ (.gr 0 7)
      ∗ Φ (.gr 1 0) ∗ Φ (.gr 1 1) ∗ Φ (.gr 1 2) ∗ Φ (.gr 1 3) ∗ Φ (.gr 1 4) ∗ Φ (.gr 1 5) ∗ Φ (.gr 1 6) ∗ Φ (.gr 1 7)
      ∗ Φ (.gr 2 0) ∗ Φ (.gr 2 1) ∗ Φ (.gr 2 2) ∗ Φ (.gr 2 3) ∗ Φ (.gr 2 4) ∗ Φ (.gr 2 5) ∗ Φ (.gr 2 6) ∗ Φ (.gr 2 7)) :=
  bigSep_eq_bigSepL_of_eq restCK univ_erase_bar restCK_nodup Φ

/-- The conjunction over the cells of all devices hands over the factor of the cell of kind `k` of device `c`. -/
theorem allAt {M : Type u} [URA M] (Φ : Dev nD × CK → sProp M) (c : Dev nD) (k : CK) :
    bigSep (Finset.univ : Finset (Dev nD × CK)) Φ ⊢ Φ (c, k) :=
  bigSep_elim (Finset.mem_univ (c, k))

/-- The conjunction over the cells of all devices, device by device. -/
theorem bigSep_allCells {M : Type u} [URA M] (Φ : Dev nD × CK → sProp M) :
    bigSep (Finset.univ : Finset (Dev nD × CK)) Φ = bigSep (Finset.univ : Finset (Dev nD)) (fun c => bigSep (Finset.univ : Finset CK) (fun k => Φ (c, k))) :=
  bigSep_univ_prod Φ

/-- info: 'Cert.KernelIdealProof.bigSep_CK' depends on axioms: [propext, Classical.choice, Quot.sound] -/
#guard_msgs in #print axioms bigSep_CK

/-- info: 'Cert.KernelIdealProof.bigSep_CK_rest' depends on axioms: [propext, Classical.choice, Quot.sound] -/
#guard_msgs in #print axioms bigSep_CK_rest

/-- info: 'Cert.KernelIdealProof.allAt' depends on axioms: [propext, Classical.choice, Quot.sound] -/
#guard_msgs in #print axioms allAt

end Cert.KernelIdealProof

end
-- ==== Proof.LitTable.lean ====
import proofs.«900993_g7700000000000994_dist_mlpseq_tp1d_rep_bs_b512_d256_h512_v7x_i8_bf16_1_alg».proof.Proof.SchedTables
import proofs.«900993_g7700000000000994_dist_mlpseq_tp1d_rep_bs_b512_d256_h512_v7x_i8_bf16_1_alg».proof.Proof.Levels

/-! The ring of eight devices evaluated at each device `c₀ = 0 … 7`: the device at each distance after and before
    `c₀`; that `c₀` differs from every other device; the set of its seven peers and a separating conjunction over them as
    the chain of its seven factors, in increasing order; and what `c₀` owes at launch with every peer named: the entry
    signals, the reduce arrivals of a layer (nothing towards `c₀` itself), the gather arrivals of a layer, and all of
    them as one chain of 42 summands. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

universe u

/-! ## Device 0 -/

theorem fwd_0_1 : fwd 1 (0 : Dev nD) = (1 : Dev nD) := by decide
theorem fwd_0_2 : fwd 2 (0 : Dev nD) = (2 : Dev nD) := by decide
theorem fwd_0_3 : fwd 3 (0 : Dev nD) = (3 : Dev nD) := by decide
theorem fwd_0_4 : fwd 4 (0 : Dev nD) = (4 : Dev nD) := by decide
theorem fwd_0_5 : fwd 5 (0 : Dev nD) = (5 : Dev nD) := by decide
theorem fwd_0_6 : fwd 6 (0 : Dev nD) = (6 : Dev nD) := by decide
theorem fwd_0_7 : fwd 7 (0 : Dev nD) = (7 : Dev nD) := by decide
theorem bwd_0_1 : bwd 1 (0 : Dev nD) = (7 : Dev nD) := by decide
theorem bwd_0_2 : bwd 2 (0 : Dev nD) = (6 : Dev nD) := by decide
theorem bwd_0_3 : bwd 3 (0 : Dev nD) = (5 : Dev nD) := by decide
theorem bwd_0_4 : bwd 4 (0 : Dev nD) = (4 : Dev nD) := by decide
theorem bwd_0_5 : bwd 5 (0 : Dev nD) = (3 : Dev nD) := by decide
theorem bwd_0_6 : bwd 6 (0 : Dev nD) = (2 : Dev nD) := by decide
theorem bwd_0_7 : bwd 7 (0 : Dev nD) = (1 : Dev nD) := by decide
theorem ne_0_1 : (0 : Dev nD) ≠ (1 : Dev nD) := by decide
theorem ne_0_2 : (0 : Dev nD) ≠ (2 : Dev nD) := by decide
theorem ne_0_3 : (0 : Dev nD) ≠ (3 : Dev nD) := by decide
theorem ne_0_4 : (0 : Dev nD) ≠ (4 : Dev nD) := by decide
theorem ne_0_5 : (0 : Dev nD) ≠ (5 : Dev nD) := by decide
theorem ne_0_6 : (0 : Dev nD) ≠ (6 : Dev nD) := by decide
theorem ne_0_7 : (0 : Dev nD) ≠ (7 : Dev nD) := by decide
theorem peers_0 : peers (0 : Dev nD) = {1, 2, 3, 4, 5, 6, 7} := by decide
theorem bigSep_peers_0 {M : Type u} [URA M] (Φ : Dev nD → sProp M) :
    bigSep (peers (0 : Dev nD)) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
theorem owesBar_0 : owesBar (0 : Dev nD) =
    tallyAt (barCell 1) () 1 + tallyAt (barCell 2) () 1 + tallyAt (barCell 3) () 1 + tallyAt (barCell 4) () 1 + tallyAt (barCell 5) () 1 + tallyAt (barCell 6) () 1 + tallyAt (barCell 7) () 1 := by
  unfold owesBar
  rw [fwd_0_1, fwd_0_2, fwd_0_3, fwd_0_4, fwd_0_5, fwd_0_6, fwd_0_7]
theorem owesRed_0 (l : Fin 3) : owesRed (0 : Dev nD) l =
    tallyAt (rrCell 1 l 0) () N64 + tallyAt (rrCell 2 l 0) () N64 + tallyAt (rrCell 3 l 0) () N64 + tallyAt (rrCell 4 l 0) () N64 + tallyAt (rrCell 5 l 0) () N64 + tallyAt (rrCell 6 l 0) () N64 + tallyAt (rrCell 7 l 0) () N64 := by
  unfold owesRed
  rw [if_neg (show ¬ ((0 : Dev nD) ≠ 0) from fun h => h rfl), if_pos ne_0_1, if_pos ne_0_2, if_pos ne_0_3, if_pos ne_0_4, if_pos ne_0_5, if_pos ne_0_6, if_pos ne_0_7, tallyAt_zero, zero_add]
theorem owesGat_0 (l : Fin 3) : owesGat (0 : Dev nD) l =
    tallyAt (grCell 1 l 0) () N64 + tallyAt (grCell 2 l 0) () N64 + tallyAt (grCell 3 l 0) () N64 + tallyAt (grCell 4 l 0) () N64 + tallyAt (grCell 5 l 0) () N64 + tallyAt (grCell 6 l 0) () N64 + tallyAt (grCell 7 l 0) () N64 := by
  unfold owesGat
  rw [fwd_0_1, fwd_0_2, fwd_0_3, fwd_0_4, fwd_0_5, fwd_0_6, fwd_0_7]
theorem O₀_0 : O₀ (0 : Dev nD) =
    tallyAt (barCell 1) () 1 + tallyAt (barCell 2) () 1 + tallyAt (barCell 3) () 1 + tallyAt (barCell 4) () 1 + tallyAt (barCell 5) () 1 + tallyAt (barCell 6) () 1 + tallyAt (barCell 7) () 1
    + tallyAt (rrCell 1 0 0) () N64 + tallyAt (rrCell 2 0 0) () N64 + tallyAt (rrCell 3 0 0) () N64 + tallyAt (rrCell 4 0 0) () N64 + tallyAt (rrCell 5 0 0) () N64 + tallyAt (rrCell 6 0 0) () N64 + tallyAt (rrCell 7 0 0) () N64
    + tallyAt (rrCell 1 1 0) () N64 + tallyAt (rrCell 2 1 0) () N64 + tallyAt (rrCell 3 1 0) () N64 + tallyAt (rrCell 4 1 0) () N64 + tallyAt (rrCell 5 1 0) () N64 + tallyAt (rrCell 6 1 0) () N64 + tallyAt (rrCell 7 1 0) () N64
    + tallyAt (rrCell 1 2 0) () N64 + tallyAt (rrCell 2 2 0) () N64 + tallyAt (rrCell 3 2 0) () N64 + tallyAt (rrCell 4 2 0) () N64 + tallyAt (rrCell 5 2 0) () N64 + tallyAt (rrCell 6 2 0) () N64 + tallyAt (rrCell 7 2 0) () N64
    + tallyAt (grCell 1 0 0) () N64 + tallyAt (grCell 2 0 0) () N64 + tallyAt (grCell 3 0 0) () N64 + tallyAt (grCell 4 0 0) () N64 + tallyAt (grCell 5 0 0) () N64 + tallyAt (grCell 6 0 0) () N64 + tallyAt (grCell 7 0 0) () N64
    + tallyAt (grCell 1 1 0) () N64 + tallyAt (grCell 2 1 0) () N64 + tallyAt (grCell 3 1 0) () N64 + tallyAt (grCell 4 1 0) () N64 + tallyAt (grCell 5 1 0) () N64 + tallyAt (grCell 6 1 0) () N64 + tallyAt (grCell 7 1 0) () N64 := by
  unfold O₀
  rw [owesBar_0, owesRed_0, owesRed_0, owesRed_0, owesGat_0, owesGat_0]
  simp only [← add_assoc]

/-! ## Device 1 -/

theorem fwd_1_1 : fwd 1 (1 : Dev nD) = (2 : Dev nD) := by decide
theorem fwd_1_2 : fwd 2 (1 : Dev nD) = (3 : Dev nD) := by decide
theorem fwd_1_3 : fwd 3 (1 : Dev nD) = (4 : Dev nD) := by decide
theorem fwd_1_4 : fwd 4 (1 : Dev nD) = (5 : Dev nD) := by decide
theorem fwd_1_5 : fwd 5 (1 : Dev nD) = (6 : Dev nD) := by decide
theorem fwd_1_6 : fwd 6 (1 : Dev nD) = (7 : Dev nD) := by decide
theorem fwd_1_7 : fwd 7 (1 : Dev nD) = (0 : Dev nD) := by decide
theorem bwd_1_1 : bwd 1 (1 : Dev nD) = (0 : Dev nD) := by decide
theorem bwd_1_2 : bwd 2 (1 : Dev nD) = (7 : Dev nD) := by decide
theorem bwd_1_3 : bwd 3 (1 : Dev nD) = (6 : Dev nD) := by decide
theorem bwd_1_4 : bwd 4 (1 : Dev nD) = (5 : Dev nD) := by decide
theorem bwd_1_5 : bwd 5 (1 : Dev nD) = (4 : Dev nD) := by decide
theorem bwd_1_6 : bwd 6 (1 : Dev nD) = (3 : Dev nD) := by decide
theorem bwd_1_7 : bwd 7 (1 : Dev nD) = (2 : Dev nD) := by decide
theorem ne_1_0 : (1 : Dev nD) ≠ (0 : Dev nD) := by decide
theorem ne_1_2 : (1 : Dev nD) ≠ (2 : Dev nD) := by decide
theorem ne_1_3 : (1 : Dev nD) ≠ (3 : Dev nD) := by decide
theorem ne_1_4 : (1 : Dev nD) ≠ (4 : Dev nD) := by decide
theorem ne_1_5 : (1 : Dev nD) ≠ (5 : Dev nD) := by decide
theorem ne_1_6 : (1 : Dev nD) ≠ (6 : Dev nD) := by decide
theorem ne_1_7 : (1 : Dev nD) ≠ (7 : Dev nD) := by decide
theorem peers_1 : peers (1 : Dev nD) = {0, 2, 3, 4, 5, 6, 7} := by decide
theorem bigSep_peers_1 {M : Type u} [URA M] (Φ : Dev nD → sProp M) :
    bigSep (peers (1 : Dev nD)) Φ = iprop(Φ 0 ∗ Φ 2 ∗ Φ 3 ∗ Φ 4 ∗ Φ 5 ∗ Φ 6 ∗ Φ 7) :=
  bigSep_eq_bigSepL_of_eq [0, 2, 3, 4, 5, 6, 7] (by decide) (by decide) Φ
theorem owesBar_1 : owesBar (1 : Dev nD) =
    tallyAt (barCell 2) () 1 + tallyAt (barCell 3) () 1 + tallyAt (barCell 4) () 1 + tallyAt (barCell 5) () 1 + tallyAt (barCell 6) () 1 + tallyAt (barCell 7) () 1 + tallyAt (barCell 0) () 1 := by
  unfold owesBar
  rw [fwd_1_1, fwd_1_2, fwd_1_3, fwd_1_4, fwd_1_5, fwd_1_6, fwd_1_7]
theorem owesRed_1 (l : Fin 3) : owesRed (1 : Dev nD) l =
    tallyAt (rrCell 0 l 1) () N64 + tallyAt (rrCell 2 l 1) () N64 + tallyAt (rrCell 3 l 1) () N64 + tallyAt (rrCell 4 l 1) () N64 + tallyAt (rrCell 5 l 1) () N64 + tallyAt (rrCell 6 l 1) () N64 + tallyAt (rrCell 7 l 1) () N64 := by
  unfold owesRed
  rw [if_pos ne_1_0, if_neg (show ¬ ((1 : Dev nD) ≠ 1) from fun h => h rfl), if_pos ne_1_2, if_pos ne_1_3, if_pos ne_1_4, if_pos ne_1_5, if_pos ne_1_6, if_pos ne_1_7, tallyAt_zero, add_zero]
theorem owesGat_1 (l : Fin 3) : owesGat (1 : Dev nD) l =
    tallyAt (grCell 2 l 1) () N64 + tallyAt (grCell 3 l 1) () N64 + tallyAt (grCell 4 l 1) () N64 + tallyAt (grCell 5 l 1) () N64 + tallyAt (grCell 6 l 1) () N64 + tallyAt (grCell 7 l 1) () N64 + tallyAt (grCell 0 l 1) () N64 := by
  unfold owesGat
  rw [fwd_1_1, fwd_1_2, fwd_1_3, fwd_1_4, fwd_1_5, fwd_1_6, fwd_1_7]
theorem O₀_1 : O₀ (1 : Dev nD) =
    tallyAt (barCell 2) () 1 + tallyAt (barCell 3) () 1 + tallyAt (barCell 4) () 1 + tallyAt (barCell 5) () 1 + tallyAt (barCell 6) () 1 + tallyAt (barCell 7) () 1 + tallyAt (barCell 0) () 1
    + tallyAt (rrCell 0 0 1) () N64 + tallyAt (rrCell 2 0 1) () N64 + tallyAt (rrCell 3 0 1) () N64 + tallyAt (rrCell 4 0 1) () N64 + tallyAt (rrCell 5 0 1) () N64 + tallyAt (rrCell 6 0 1) () N64 + tallyAt (rrCell 7 0 1) () N64
    + tallyAt (rrCell 0 1 1) () N64 + tallyAt (rrCell 2 1 1) () N64 + tallyAt (rrCell 3 1 1) () N64 + tallyAt (rrCell 4 1 1) () N64 + tallyAt (rrCell 5 1 1) () N64 + tallyAt (rrCell 6 1 1) () N64 + tallyAt (rrCell 7 1 1) () N64
    + tallyAt (rrCell 0 2 1) () N64 + tallyAt (rrCell 2 2 1) () N64 + tallyAt (rrCell 3 2 1) () N64 + tallyAt (rrCell 4 2 1) () N64 + tallyAt (rrCell 5 2 1) () N64 + tallyAt (rrCell 6 2 1) () N64 + tallyAt (rrCell 7 2 1) () N64
    + tallyAt (grCell 2 0 1) () N64 + tallyAt (grCell 3 0 1) () N64 + tallyAt (grCell 4 0 1) () N64 + tallyAt (grCell 5 0 1) () N64 + tallyAt (grCell 6 0 1) () N64 + tallyAt (grCell 7 0 1) () N64 + tallyAt (grCell 0 0 1) () N64
    + tallyAt (grCell 2 1 1) () N64 + tallyAt (grCell 3 1 1) () N64 + tallyAt (grCell 4 1 1) () N64 + tallyAt (grCell 5 1 1) () N64 + tallyAt (grCell 6 1 1) () N64 + tallyAt (grCell 7 1 1) () N64 + tallyAt (grCell 0 1 1) () N64 := by
  unfold O₀
  rw [owesBar_1, owesRed_1, owesRed_1, owesRed_1, owesGat_1, owesGat_1]
  simp only [← add_assoc]

/-! ## Device 2 -/

theorem fwd_2_1 : fwd 1 (2 : Dev nD) = (3 : Dev nD) := by decide
theorem fwd_2_2 : fwd 2 (2 : Dev nD) = (4 : Dev nD) := by decide
theorem fwd_2_3 : fwd 3 (2 : Dev nD) = (5 : Dev nD) := by decide
theorem fwd_2_4 : fwd 4 (2 : Dev nD) = (6 : Dev nD) := by decide
theorem fwd_2_5 : fwd 5 (2 : Dev nD) = (7 : Dev nD) := by decide
theorem fwd_2_6 : fwd 6 (2 : Dev nD) = (0 : Dev nD) := by decide
theorem fwd_2_7 : fwd 7 (2 : Dev nD) = (1 : Dev nD) := by decide
theorem bwd_2_1 : bwd 1 (2 : Dev nD) = (1 : Dev nD) := by decide
theorem bwd_2_2 : bwd 2 (2 : Dev nD) = (0 : Dev nD) := by decide
theorem bwd_2_3 : bwd 3 (2 : Dev nD) = (7 : Dev nD) := by decide
theorem bwd_2_4 : bwd 4 (2 : Dev nD) = (6 : Dev nD) := by decide
theorem bwd_2_5 : bwd 5 (2 : Dev nD) = (5 : Dev nD) := by decide
theorem bwd_2_6 : bwd 6 (2 : Dev nD) = (4 : Dev nD) := by decide
theorem bwd_2_7 : bwd 7 (2 : Dev nD) = (3 : Dev nD) := by decide
theorem ne_2_0 : (2 : Dev nD) ≠ (0 : Dev nD) := by decide
theorem ne_2_1 : (2 : Dev nD) ≠ (1 : Dev nD) := by decide
theorem ne_2_3 : (2 : Dev nD) ≠ (3 : Dev nD) := by decide
theorem ne_2_4 : (2 : Dev nD) ≠ (4 : Dev nD) := by decide
theorem ne_2_5 : (2 : Dev nD) ≠ (5 : Dev nD) := by decide
theorem ne_2_6 : (2 : Dev nD) ≠ (6 : Dev nD) := by decide
theorem ne_2_7 : (2 : Dev nD) ≠ (7 : Dev nD) := by decide
theorem peers_2 : peers (2 : Dev nD) = {0, 1, 3, 4, 5, 6, 7} := by decide
theorem bigSep_peers_2 {M : Type u} [URA M] (Φ : Dev nD → sProp M) :
    bigSep (peers (2 : Dev nD)) Φ = iprop(Φ 0 ∗ Φ 1 ∗ Φ 3 ∗ Φ 4 ∗ Φ 5 ∗ Φ 6 ∗ Φ 7) :=
  bigSep_eq_bigSepL_of_eq [0, 1, 3, 4, 5, 6, 7] (by decide) (by decide) Φ
theorem owesBar_2 : owesBar (2 : Dev nD) =
    tallyAt (barCell 3) () 1 + tallyAt (barCell 4) () 1 + tallyAt (barCell 5) () 1 + tallyAt (barCell 6) () 1 + tallyAt (barCell 7) () 1 + tallyAt (barCell 0) () 1 + tallyAt (barCell 1) () 1 := by
  unfold owesBar
  rw [fwd_2_1, fwd_2_2, fwd_2_3, fwd_2_4, fwd_2_5, fwd_2_6, fwd_2_7]
theorem owesRed_2 (l : Fin 3) : owesRed (2 : Dev nD) l =
    tallyAt (rrCell 0 l 2) () N64 + tallyAt (rrCell 1 l 2) () N64 + tallyAt (rrCell 3 l 2) () N64 + tallyAt (rrCell 4 l 2) () N64 + tallyAt (rrCell 5 l 2) () N64 + tallyAt (rrCell 6 l 2) () N64 + tallyAt (rrCell 7 l 2) () N64 := by
  unfold owesRed
  rw [if_pos ne_2_0, if_pos ne_2_1, if_neg (show ¬ ((2 : Dev nD) ≠ 2) from fun h => h rfl), if_pos ne_2_3, if_pos ne_2_4, if_pos ne_2_5, if_pos ne_2_6, if_pos ne_2_7, tallyAt_zero, add_zero]
theorem owesGat_2 (l : Fin 3) : owesGat (2 : Dev nD) l =
    tallyAt (grCell 3 l 2) () N64 + tallyAt (grCell 4 l 2) () N64 + tallyAt (grCell 5 l 2) () N64 + tallyAt (grCell 6 l 2) () N64 + tallyAt (grCell 7 l 2) () N64 + tallyAt (grCell 0 l 2) () N64 + tallyAt (grCell 1 l 2) () N64 := by
  unfold owesGat
  rw [fwd_2_1, fwd_2_2, fwd_2_3, fwd_2_4, fwd_2_5, fwd_2_6, fwd_2_7]
theorem O₀_2 : O₀ (2 : Dev nD) =
    tallyAt (barCell 3) () 1 + tallyAt (barCell 4) () 1 + tallyAt (barCell 5) () 1 + tallyAt (barCell 6) () 1 + tallyAt (barCell 7) () 1 + tallyAt (barCell 0) () 1 + tallyAt (barCell 1) () 1
    + tallyAt (rrCell 0 0 2) () N64 + tallyAt (rrCell 1 0 2) () N64 + tallyAt (rrCell 3 0 2) () N64 + tallyAt (rrCell 4 0 2) () N64 + tallyAt (rrCell 5 0 2) () N64 + tallyAt (rrCell 6 0 2) () N64 + tallyAt (rrCell 7 0 2) () N64
    + tallyAt (rrCell 0 1 2) () N64 + tallyAt (rrCell 1 1 2) () N64 + tallyAt (rrCell 3 1 2) () N64 + tallyAt (rrCell 4 1 2) () N64 + tallyAt (rrCell 5 1 2) () N64 + tallyAt (rrCell 6 1 2) () N64 + tallyAt (rrCell 7 1 2) () N64
    + tallyAt (rrCell 0 2 2) () N64 + tallyAt (rrCell 1 2 2) () N64 + tallyAt (rrCell 3 2 2) () N64 + tallyAt (rrCell 4 2 2) () N64 + tallyAt (rrCell 5 2 2) () N64 + tallyAt (rrCell 6 2 2) () N64 + tallyAt (rrCell 7 2 2) () N64
    + tallyAt (grCell 3 0 2) () N64 + tallyAt (grCell 4 0 2) () N64 + tallyAt (grCell 5 0 2) () N64 + tallyAt (grCell 6 0 2) () N64 + tallyAt (grCell 7 0 2) () N64 + tallyAt (grCell 0 0 2) () N64 + tallyAt (grCell 1 0 2) () N64
    + tallyAt (grCell 3 1 2) () N64 + tallyAt (grCell 4 1 2) () N64 + tallyAt (grCell 5 1 2) () N64 + tallyAt (grCell 6 1 2) () N64 + tallyAt (grCell 7 1 2) () N64 + tallyAt (grCell 0 1 2) () N64 + tallyAt (grCell 1 1 2) () N64 := by
  unfold O₀
  rw [owesBar_2, owesRed_2, owesRed_2, owesRed_2, owesGat_2, owesGat_2]
  simp only [← add_assoc]

/-! ## Device 3 -/

theorem fwd_3_1 : fwd 1 (3 : Dev nD) = (4 : Dev nD) := by decide
theorem fwd_3_2 : fwd 2 (3 : Dev nD) = (5 : Dev nD) := by decide
theorem fwd_3_3 : fwd 3 (3 : Dev nD) = (6 : Dev nD) := by decide
theorem fwd_3_4 : fwd 4 (3 : Dev nD) = (7 : Dev nD) := by decide
theorem fwd_3_5 : fwd 5 (3 : Dev nD) = (0 : Dev nD) := by decide
theorem fwd_3_6 : fwd 6 (3 : Dev nD) = (1 : Dev nD) := by decide
theorem fwd_3_7 : fwd 7 (3 : Dev nD) = (2 : Dev nD) := by decide
theorem bwd_3_1 : bwd 1 (3 : Dev nD) = (2 : Dev nD) := by decide
theorem bwd_3_2 : bwd 2 (3 : Dev nD) = (1 : Dev nD) := by decide
theorem bwd_3_3 : bwd 3 (3 : Dev nD) = (0 : Dev nD) := by decide
theorem bwd_3_4 : bwd 4 (3 : Dev nD) = (7 : Dev nD) := by decide
theorem bwd_3_5 : bwd 5 (3 : Dev nD) = (6 : Dev nD) := by decide
theorem bwd_3_6 : bwd 6 (3 : Dev nD) = (5 : Dev nD) := by decide
theorem bwd_3_7 : bwd 7 (3 : Dev nD) = (4 : Dev nD) := by decide
theorem ne_3_0 : (3 : Dev nD) ≠ (0 : Dev nD) := by decide
theorem ne_3_1 : (3 : Dev nD) ≠ (1 : Dev nD) := by decide
theorem ne_3_2 : (3 : Dev nD) ≠ (2 : Dev nD) := by decide
theorem ne_3_4 : (3 : Dev nD) ≠ (4 : Dev nD) := by decide
theorem ne_3_5 : (3 : Dev nD) ≠ (5 : Dev nD) := by decide
theorem ne_3_6 : (3 : Dev nD) ≠ (6 : Dev nD) := by decide
theorem ne_3_7 : (3 : Dev nD) ≠ (7 : Dev nD) := by decide
theorem peers_3 : peers (3 : Dev nD) = {0, 1, 2, 4, 5, 6, 7} := by decide
theorem bigSep_peers_3 {M : Type u} [URA M] (Φ : Dev nD → sProp M) :
    bigSep (peers (3 : Dev nD)) Φ = iprop(Φ 0 ∗ Φ 1 ∗ Φ 2 ∗ Φ 4 ∗ Φ 5 ∗ Φ 6 ∗ Φ 7) :=
  bigSep_eq_bigSepL_of_eq [0, 1, 2, 4, 5, 6, 7] (by decide) (by decide) Φ
theorem owesBar_3 : owesBar (3 : Dev nD) =
    tallyAt (barCell 4) () 1 + tallyAt (barCell 5) () 1 + tallyAt (barCell 6) () 1 + tallyAt (barCell 7) () 1 + tallyAt (barCell 0) () 1 + tallyAt (barCell 1) () 1 + tallyAt (barCell 2) () 1 := by
  unfold owesBar
  rw [fwd_3_1, fwd_3_2, fwd_3_3, fwd_3_4, fwd_3_5, fwd_3_6, fwd_3_7]
theorem owesRed_3 (l : Fin 3) : owesRed (3 : Dev nD) l =
    tallyAt (rrCell 0 l 3) () N64 + tallyAt (rrCell 1 l 3) () N64 + tallyAt (rrCell 2 l 3) () N64 + tallyAt (rrCell 4 l 3) () N64 + tallyAt (rrCell 5 l 3) () N64 + tallyAt (rrCell 6 l 3) () N64 + tallyAt (rrCell 7 l 3) () N64 := by
  unfold owesRed
  rw [if_pos ne_3_0, if_pos ne_3_1, if_pos ne_3_2, if_neg (show ¬ ((3 : Dev nD) ≠ 3) from fun h => h rfl), if_pos ne_3_4, if_pos ne_3_5, if_pos ne_3_6, if_pos ne_3_7, tallyAt_zero, add_zero]
theorem owesGat_3 (l : Fin 3) : owesGat (3 : Dev nD) l =
    tallyAt (grCell 4 l 3) () N64 + tallyAt (grCell 5 l 3) () N64 + tallyAt (grCell 6 l 3) () N64 + tallyAt (grCell 7 l 3) () N64 + tallyAt (grCell 0 l 3) () N64 + tallyAt (grCell 1 l 3) () N64 + tallyAt (grCell 2 l 3) () N64 := by
  unfold owesGat
  rw [fwd_3_1, fwd_3_2, fwd_3_3, fwd_3_4, fwd_3_5, fwd_3_6, fwd_3_7]
theorem O₀_3 : O₀ (3 : Dev nD) =
    tallyAt (barCell 4) () 1 + tallyAt (barCell 5) () 1 + tallyAt (barCell 6) () 1 + tallyAt (barCell 7) () 1 + tallyAt (barCell 0) () 1 + tallyAt (barCell 1) () 1 + tallyAt (barCell 2) () 1
    + tallyAt (rrCell 0 0 3) () N64 + tallyAt (rrCell 1 0 3) () N64 + tallyAt (rrCell 2 0 3) () N64 + tallyAt (rrCell 4 0 3) () N64 + tallyAt (rrCell 5 0 3) () N64 + tallyAt (rrCell 6 0 3) () N64 + tallyAt (rrCell 7 0 3) () N64
    + tallyAt (rrCell 0 1 3) () N64 + tallyAt (rrCell 1 1 3) () N64 + tallyAt (rrCell 2 1 3) () N64 + tallyAt (rrCell 4 1 3) () N64 + tallyAt (rrCell 5 1 3) () N64 + tallyAt (rrCell 6 1 3) () N64 + tallyAt (rrCell 7 1 3) () N64
    + tallyAt (rrCell 0 2 3) () N64 + tallyAt (rrCell 1 2 3) () N64 + tallyAt (rrCell 2 2 3) () N64 + tallyAt (rrCell 4 2 3) () N64 + tallyAt (rrCell 5 2 3) () N64 + tallyAt (rrCell 6 2 3) () N64 + tallyAt (rrCell 7 2 3) () N64
    + tallyAt (grCell 4 0 3) () N64 + tallyAt (grCell 5 0 3) () N64 + tallyAt (grCell 6 0 3) () N64 + tallyAt (grCell 7 0 3) () N64 + tallyAt (grCell 0 0 3) () N64 + tallyAt (grCell 1 0 3) () N64 + tallyAt (grCell 2 0 3) () N64
    + tallyAt (grCell 4 1 3) () N64 + tallyAt (grCell 5 1 3) () N64 + tallyAt (grCell 6 1 3) () N64 + tallyAt (grCell 7 1 3) () N64 + tallyAt (grCell 0 1 3) () N64 + tallyAt (grCell 1 1 3) () N64 + tallyAt (grCell 2 1 3) () N64 := by
  unfold O₀
  rw [owesBar_3, owesRed_3, owesRed_3, owesRed_3, owesGat_3, owesGat_3]
  simp only [← add_assoc]

/-! ## Device 4 -/

theorem fwd_4_1 : fwd 1 (4 : Dev nD) = (5 : Dev nD) := by decide
theorem fwd_4_2 : fwd 2 (4 : Dev nD) = (6 : Dev nD) := by decide
theorem fwd_4_3 : fwd 3 (4 : Dev nD) = (7 : Dev nD) := by decide
theorem fwd_4_4 : fwd 4 (4 : Dev nD) = (0 : Dev nD) := by decide
theorem fwd_4_5 : fwd 5 (4 : Dev nD) = (1 : Dev nD) := by decide
theorem fwd_4_6 : fwd 6 (4 : Dev nD) = (2 : Dev nD) := by decide
theorem fwd_4_7 : fwd 7 (4 : Dev nD) = (3 : Dev nD) := by decide
theorem bwd_4_1 : bwd 1 (4 : Dev nD) = (3 : Dev nD) := by decide
theorem bwd_4_2 : bwd 2 (4 : Dev nD) = (2 : Dev nD) := by decide
theorem bwd_4_3 : bwd 3 (4 : Dev nD) = (1 : Dev nD) := by decide
theorem bwd_4_4 : bwd 4 (4 : Dev nD) = (0 : Dev nD) := by decide
theorem bwd_4_5 : bwd 5 (4 : Dev nD) = (7 : Dev nD) := by decide
theorem bwd_4_6 : bwd 6 (4 : Dev nD) = (6 : Dev nD) := by decide
theorem bwd_4_7 : bwd 7 (4 : Dev nD) = (5 : Dev nD) := by decide
theorem ne_4_0 : (4 : Dev nD) ≠ (0 : Dev nD) := by decide
theorem ne_4_1 : (4 : Dev nD) ≠ (1 : Dev nD) := by decide
theorem ne_4_2 : (4 : Dev nD) ≠ (2 : Dev nD) := by decide
theorem ne_4_3 : (4 : Dev nD) ≠ (3 : Dev nD) := by decide
theorem ne_4_5 : (4 : Dev nD) ≠ (5 : Dev nD) := by decide
theorem ne_4_6 : (4 : Dev nD) ≠ (6 : Dev nD) := by decide
theorem ne_4_7 : (4 : Dev nD) ≠ (7 : Dev nD) := by decide
theorem peers_4 : peers (4 : Dev nD) = {0, 1, 2, 3, 5, 6, 7} := by decide
theorem bigSep_peers_4 {M : Type u} [URA M] (Φ : Dev nD → sProp M) :
    bigSep (peers (4 : Dev nD)) Φ = iprop(Φ 0 ∗ Φ 1 ∗ Φ 2 ∗ Φ 3 ∗ Φ 5 ∗ Φ 6 ∗ Φ 7) :=
  bigSep_eq_bigSepL_of_eq [0, 1, 2, 3, 5, 6, 7] (by decide) (by decide) Φ
theorem owesBar_4 : owesBar (4 : Dev nD) =
    tallyAt (barCell 5) () 1 + tallyAt (barCell 6) () 1 + tallyAt (barCell 7) () 1 + tallyAt (barCell 0) () 1 + tallyAt (barCell 1) () 1 + tallyAt (barCell 2) () 1 + tallyAt (barCell 3) () 1 := by
  unfold owesBar
  rw [fwd_4_1, fwd_4_2, fwd_4_3, fwd_4_4, fwd_4_5, fwd_4_6, fwd_4_7]
theorem owesRed_4 (l : Fin 3) : owesRed (4 : Dev nD) l =
    tallyAt (rrCell 0 l 4) () N64 + tallyAt (rrCell 1 l 4) () N64 + tallyAt (rrCell 2 l 4) () N64 + tallyAt (rrCell 3 l 4) () N64 + tallyAt (rrCell 5 l 4) () N64 + tallyAt (rrCell 6 l 4) () N64 + tallyAt (rrCell 7 l 4) () N64 := by
  unfold owesRed
  rw [if_pos ne_4_0, if_pos ne_4_1, if_pos ne_4_2, if_pos ne_4_3, if_neg (show ¬ ((4 : Dev nD) ≠ 4) from fun h => h rfl), if_pos ne_4_5, if_pos ne_4_6, if_pos ne_4_7, tallyAt_zero, add_zero]
theorem owesGat_4 (l : Fin 3) : owesGat (4 : Dev nD) l =
    tallyAt (grCell 5 l 4) () N64 + tallyAt (grCell 6 l 4) () N64 + tallyAt (grCell 7 l 4) () N64 + tallyAt (grCell 0 l 4) () N64 + tallyAt (grCell 1 l 4) () N64 + tallyAt (grCell 2 l 4) () N64 + tallyAt (grCell 3 l 4) () N64 := by
  unfold owesGat
  rw [fwd_4_1, fwd_4_2, fwd_4_3, fwd_4_4, fwd_4_5, fwd_4_6, fwd_4_7]
theorem O₀_4 : O₀ (4 : Dev nD) =
    tallyAt (barCell 5) () 1 + tallyAt (barCell 6) () 1 + tallyAt (barCell 7) () 1 + tallyAt (barCell 0) () 1 + tallyAt (barCell 1) () 1 + tallyAt (barCell 2) () 1 + tallyAt (barCell 3) () 1
    + tallyAt (rrCell 0 0 4) () N64 + tallyAt (rrCell 1 0 4) () N64 + tallyAt (rrCell 2 0 4) () N64 + tallyAt (rrCell 3 0 4) () N64 + tallyAt (rrCell 5 0 4) () N64 + tallyAt (rrCell 6 0 4) () N64 + tallyAt (rrCell 7 0 4) () N64
    + tallyAt (rrCell 0 1 4) () N64 + tallyAt (rrCell 1 1 4) () N64 + tallyAt (rrCell 2 1 4) () N64 + tallyAt (rrCell 3 1 4) () N64 + tallyAt (rrCell 5 1 4) () N64 + tallyAt (rrCell 6 1 4) () N64 + tallyAt (rrCell 7 1 4) () N64
    + tallyAt (rrCell 0 2 4) () N64 + tallyAt (rrCell 1 2 4) () N64 + tallyAt (rrCell 2 2 4) () N64 + tallyAt (rrCell 3 2 4) () N64 + tallyAt (rrCell 5 2 4) () N64 + tallyAt (rrCell 6 2 4) () N64 + tallyAt (rrCell 7 2 4) () N64
    + tallyAt (grCell 5 0 4) () N64 + tallyAt (grCell 6 0 4) () N64 + tallyAt (grCell 7 0 4) () N64 + tallyAt (grCell 0 0 4) () N64 + tallyAt (grCell 1 0 4) () N64 + tallyAt (grCell 2 0 4) () N64 + tallyAt (grCell 3 0 4) () N64
    + tallyAt (grCell 5 1 4) () N64 + tallyAt (grCell 6 1 4) () N64 + tallyAt (grCell 7 1 4) () N64 + tallyAt (grCell 0 1 4) () N64 + tallyAt (grCell 1 1 4) () N64 + tallyAt (grCell 2 1 4) () N64 + tallyAt (grCell 3 1 4) () N64 := by
  unfold O₀
  rw [owesBar_4, owesRed_4, owesRed_4, owesRed_4, owesGat_4, owesGat_4]
  simp only [← add_assoc]

/-! ## Device 5 -/

theorem fwd_5_1 : fwd 1 (5 : Dev nD) = (6 : Dev nD) := by decide
theorem fwd_5_2 : fwd 2 (5 : Dev nD) = (7 : Dev nD) := by decide
theorem fwd_5_3 : fwd 3 (5 : Dev nD) = (0 : Dev nD) := by decide
theorem fwd_5_4 : fwd 4 (5 : Dev nD) = (1 : Dev nD) := by decide
theorem fwd_5_5 : fwd 5 (5 : Dev nD) = (2 : Dev nD) := by decide
theorem fwd_5_6 : fwd 6 (5 : Dev nD) = (3 : Dev nD) := by decide
theorem fwd_5_7 : fwd 7 (5 : Dev nD) = (4 : Dev nD) := by decide
theorem bwd_5_1 : bwd 1 (5 : Dev nD) = (4 : Dev nD) := by decide
theorem bwd_5_2 : bwd 2 (5 : Dev nD) = (3 : Dev nD) := by decide
theorem bwd_5_3 : bwd 3 (5 : Dev nD) = (2 : Dev nD) := by decide
theorem bwd_5_4 : bwd 4 (5 : Dev nD) = (1 : Dev nD) := by decide
theorem bwd_5_5 : bwd 5 (5 : Dev nD) = (0 : Dev nD) := by decide
theorem bwd_5_6 : bwd 6 (5 : Dev nD) = (7 : Dev nD) := by decide
theorem bwd_5_7 : bwd 7 (5 : Dev nD) = (6 : Dev nD) := by decide
theorem ne_5_0 : (5 : Dev nD) ≠ (0 : Dev nD) := by decide
theorem ne_5_1 : (5 : Dev nD) ≠ (1 : Dev nD) := by decide
theorem ne_5_2 : (5 : Dev nD) ≠ (2 : Dev nD) := by decide
theorem ne_5_3 : (5 : Dev nD) ≠ (3 : Dev nD) := by decide
theorem ne_5_4 : (5 : Dev nD) ≠ (4 : Dev nD) := by decide
theorem ne_5_6 : (5 : Dev nD) ≠ (6 : Dev nD) := by decide
theorem ne_5_7 : (5 : Dev nD) ≠ (7 : Dev nD) := by decide
theorem peers_5 : peers (5 : Dev nD) = {0, 1, 2, 3, 4, 6, 7} := by decide
theorem bigSep_peers_5 {M : Type u} [URA M] (Φ : Dev nD → sProp M) :
    bigSep (peers (5 : Dev nD)) Φ = iprop(Φ 0 ∗ Φ 1 ∗ Φ 2 ∗ Φ 3 ∗ Φ 4 ∗ Φ 6 ∗ Φ 7) :=
  bigSep_eq_bigSepL_of_eq [0, 1, 2, 3, 4, 6, 7] (by decide) (by decide) Φ
theorem owesBar_5 : owesBar (5 : Dev nD) =
    tallyAt (barCell 6) () 1 + tallyAt (barCell 7) () 1 + tallyAt (barCell 0) () 1 + tallyAt (barCell 1) () 1 + tallyAt (barCell 2) () 1 + tallyAt (barCell 3) () 1 + tallyAt (barCell 4) () 1 := by
  unfold owesBar
  rw [fwd_5_1, fwd_5_2, fwd_5_3, fwd_5_4, fwd_5_5, fwd_5_6, fwd_5_7]
theorem owesRed_5 (l : Fin 3) : owesRed (5 : Dev nD) l =
    tallyAt (rrCell 0 l 5) () N64 + tallyAt (rrCell 1 l 5) () N64 + tallyAt (rrCell 2 l 5) () N64 + tallyAt (rrCell 3 l 5) () N64 + tallyAt (rrCell 4 l 5) () N64 + tallyAt (rrCell 6 l 5) () N64 + tallyAt (rrCell 7 l 5) () N64 := by
  unfold owesRed
  rw [if_pos ne_5_0, if_pos ne_5_1, if_pos ne_5_2, if_pos ne_5_3, if_pos ne_5_4, if_neg (show ¬ ((5 : Dev nD) ≠ 5) from fun h => h rfl), if_pos ne_5_6, if_pos ne_5_7, tallyAt_zero, add_zero]
theorem owesGat_5 (l : Fin 3) : owesGat (5 : Dev nD) l =
    tallyAt (grCell 6 l 5) () N64 + tallyAt (grCell 7 l 5) () N64 + tallyAt (grCell 0 l 5) () N64 + tallyAt (grCell 1 l 5) () N64 + tallyAt (grCell 2 l 5) () N64 + tallyAt (grCell 3 l 5) () N64 + tallyAt (grCell 4 l 5) () N64 := by
  unfold owesGat
  rw [fwd_5_1, fwd_5_2, fwd_5_3, fwd_5_4, fwd_5_5, fwd_5_6, fwd_5_7]
theorem O₀_5 : O₀ (5 : Dev nD) =
    tallyAt (barCell 6) () 1 + tallyAt (barCell 7) () 1 + tallyAt (barCell 0) () 1 + tallyAt (barCell 1) () 1 + tallyAt (barCell 2) () 1 + tallyAt (barCell 3) () 1 + tallyAt (barCell 4) () 1
    + tallyAt (rrCell 0 0 5) () N64 + tallyAt (rrCell 1 0 5) () N64 + tallyAt (rrCell 2 0 5) () N64 + tallyAt (rrCell 3 0 5) () N64 + tallyAt (rrCell 4 0 5) () N64 + tallyAt (rrCell 6 0 5) () N64 + tallyAt (rrCell 7 0 5) () N64
    + tallyAt (rrCell 0 1 5) () N64 + tallyAt (rrCell 1 1 5) () N64 + tallyAt (rrCell 2 1 5) () N64 + tallyAt (rrCell 3 1 5) () N64 + tallyAt (rrCell 4 1 5) () N64 + tallyAt (rrCell 6 1 5) () N64 + tallyAt (rrCell 7 1 5) () N64
    + tallyAt (rrCell 0 2 5) () N64 + tallyAt (rrCell 1 2 5) () N64 + tallyAt (rrCell 2 2 5) () N64 + tallyAt (rrCell 3 2 5) () N64 + tallyAt (rrCell 4 2 5) () N64 + tallyAt (rrCell 6 2 5) () N64 + tallyAt (rrCell 7 2 5) () N64
    + tallyAt (grCell 6 0 5) () N64 + tallyAt (grCell 7 0 5) () N64 + tallyAt (grCell 0 0 5) () N64 + tallyAt (grCell 1 0 5) () N64 + tallyAt (grCell 2 0 5) () N64 + tallyAt (grCell 3 0 5) () N64 + tallyAt (grCell 4 0 5) () N64
    + tallyAt (grCell 6 1 5) () N64 + tallyAt (grCell 7 1 5) () N64 + tallyAt (grCell 0 1 5) () N64 + tallyAt (grCell 1 1 5) () N64 + tallyAt (grCell 2 1 5) () N64 + tallyAt (grCell 3 1 5) () N64 + tallyAt (grCell 4 1 5) () N64 := by
  unfold O₀
  rw [owesBar_5, owesRed_5, owesRed_5, owesRed_5, owesGat_5, owesGat_5]
  simp only [← add_assoc]

/-! ## Device 6 -/

theorem fwd_6_1 : fwd 1 (6 : Dev nD) = (7 : Dev nD) := by decide
theorem fwd_6_2 : fwd 2 (6 : Dev nD) = (0 : Dev nD) := by decide
theorem fwd_6_3 : fwd 3 (6 : Dev nD) = (1 : Dev nD) := by decide
theorem fwd_6_4 : fwd 4 (6 : Dev nD) = (2 : Dev nD) := by decide
theorem fwd_6_5 : fwd 5 (6 : Dev nD) = (3 : Dev nD) := by decide
theorem fwd_6_6 : fwd 6 (6 : Dev nD) = (4 : Dev nD) := by decide
theorem fwd_6_7 : fwd 7 (6 : Dev nD) = (5 : Dev nD) := by decide
theorem bwd_6_1 : bwd 1 (6 : Dev nD) = (5 : Dev nD) := by decide
theorem bwd_6_2 : bwd 2 (6 : Dev nD) = (4 : Dev nD) := by decide
theorem bwd_6_3 : bwd 3 (6 : Dev nD) = (3 : Dev nD) := by decide
theorem bwd_6_4 : bwd 4 (6 : Dev nD) = (2 : Dev nD) := by decide
theorem bwd_6_5 : bwd 5 (6 : Dev nD) = (1 : Dev nD) := by decide
theorem bwd_6_6 : bwd 6 (6 : Dev nD) = (0 : Dev nD) := by decide
theorem bwd_6_7 : bwd 7 (6 : Dev nD) = (7 : Dev nD) := by decide
theorem ne_6_0 : (6 : Dev nD) ≠ (0 : Dev nD) := by decide
theorem ne_6_1 : (6 : Dev nD) ≠ (1 : Dev nD) := by decide
theorem ne_6_2 : (6 : Dev nD) ≠ (2 : Dev nD) := by decide
theorem ne_6_3 : (6 : Dev nD) ≠ (3 : Dev nD) := by decide
theorem ne_6_4 : (6 : Dev nD) ≠ (4 : Dev nD) := by decide
theorem ne_6_5 : (6 : Dev nD) ≠ (5 : Dev nD) := by decide
theorem ne_6_7 : (6 : Dev nD) ≠ (7 : Dev nD) := by decide
theorem peers_6 : peers (6 : Dev nD) = {0, 1, 2, 3, 4, 5, 7} := by decide
theorem bigSep_peers_6 {M : Type u} [URA M] (Φ : Dev nD → sProp M) :
    bigSep (peers (6 : Dev nD)) Φ = iprop(Φ 0 ∗ Φ 1 ∗ Φ 2 ∗ Φ 3 ∗ Φ 4 ∗ Φ 5 ∗ Φ 7) :=
  bigSep_eq_bigSepL_of_eq [0, 1, 2, 3, 4, 5, 7] (by decide) (by decide) Φ
theorem owesBar_6 : owesBar (6 : Dev nD) =
    tallyAt (barCell 7) () 1 + tallyAt (barCell 0) () 1 + tallyAt (barCell 1) () 1 + tallyAt (barCell 2) () 1 + tallyAt (barCell 3) () 1 + tallyAt (barCell 4) () 1 + tallyAt (barCell 5) () 1 := by
  unfold owesBar
  rw [fwd_6_1, fwd_6_2, fwd_6_3, fwd_6_4, fwd_6_5, fwd_6_6, fwd_6_7]
theorem owesRed_6 (l : Fin 3) : owesRed (6 : Dev nD) l =
    tallyAt (rrCell 0 l 6) () N64 + tallyAt (rrCell 1 l 6) () N64 + tallyAt (rrCell 2 l 6) () N64 + tallyAt (rrCell 3 l 6) () N64 + tallyAt (rrCell 4 l 6) () N64 + tallyAt (rrCell 5 l 6) () N64 + tallyAt (rrCell 7 l 6) () N64 := by
  unfold owesRed
  rw [if_pos ne_6_0, if_pos ne_6_1, if_pos ne_6_2, if_pos ne_6_3, if_pos ne_6_4, if_pos ne_6_5, if_neg (show ¬ ((6 : Dev nD) ≠ 6) from fun h => h rfl), if_pos ne_6_7, tallyAt_zero, add_zero]
theorem owesGat_6 (l : Fin 3) : owesGat (6 : Dev nD) l =
    tallyAt (grCell 7 l 6) () N64 + tallyAt (grCell 0 l 6) () N64 + tallyAt (grCell 1 l 6) () N64 + tallyAt (grCell 2 l 6) () N64 + tallyAt (grCell 3 l 6) () N64 + tallyAt (grCell 4 l 6) () N64 + tallyAt (grCell 5 l 6) () N64 := by
  unfold owesGat
  rw [fwd_6_1, fwd_6_2, fwd_6_3, fwd_6_4, fwd_6_5, fwd_6_6, fwd_6_7]
theorem O₀_6 : O₀ (6 : Dev nD) =
    tallyAt (barCell 7) () 1 + tallyAt (barCell 0) () 1 + tallyAt (barCell 1) () 1 + tallyAt (barCell 2) () 1 + tallyAt (barCell 3) () 1 + tallyAt (barCell 4) () 1 + tallyAt (barCell 5) () 1
    + tallyAt (rrCell 0 0 6) () N64 + tallyAt (rrCell 1 0 6) () N64 + tallyAt (rrCell 2 0 6) () N64 + tallyAt (rrCell 3 0 6) () N64 + tallyAt (rrCell 4 0 6) () N64 + tallyAt (rrCell 5 0 6) () N64 + tallyAt (rrCell 7 0 6) () N64
    + tallyAt (rrCell 0 1 6) () N64 + tallyAt (rrCell 1 1 6) () N64 + tallyAt (rrCell 2 1 6) () N64 + tallyAt (rrCell 3 1 6) () N64 + tallyAt (rrCell 4 1 6) () N64 + tallyAt (rrCell 5 1 6) () N64 + tallyAt (rrCell 7 1 6) () N64
    + tallyAt (rrCell 0 2 6) () N64 + tallyAt (rrCell 1 2 6) () N64 + tallyAt (rrCell 2 2 6) () N64 + tallyAt (rrCell 3 2 6) () N64 + tallyAt (rrCell 4 2 6) () N64 + tallyAt (rrCell 5 2 6) () N64 + tallyAt (rrCell 7 2 6) () N64
    + tallyAt (grCell 7 0 6) () N64 + tallyAt (grCell 0 0 6) () N64 + tallyAt (grCell 1 0 6) () N64 + tallyAt (grCell 2 0 6) () N64 + tallyAt (grCell 3 0 6) () N64 + tallyAt (grCell 4 0 6) () N64 + tallyAt (grCell 5 0 6) () N64
    + tallyAt (grCell 7 1 6) () N64 + tallyAt (grCell 0 1 6) () N64 + tallyAt (grCell 1 1 6) () N64 + tallyAt (grCell 2 1 6) () N64 + tallyAt (grCell 3 1 6) () N64 + tallyAt (grCell 4 1 6) () N64 + tallyAt (grCell 5 1 6) () N64 := by
  unfold O₀
  rw [owesBar_6, owesRed_6, owesRed_6, owesRed_6, owesGat_6, owesGat_6]
  simp only [← add_assoc]

/-! ## Device 7 -/

theorem fwd_7_1 : fwd 1 (7 : Dev nD) = (0 : Dev nD) := by decide
theorem fwd_7_2 : fwd 2 (7 : Dev nD) = (1 : Dev nD) := by decide
theorem fwd_7_3 : fwd 3 (7 : Dev nD) = (2 : Dev nD) := by decide
theorem fwd_7_4 : fwd 4 (7 : Dev nD) = (3 : Dev nD) := by decide
theorem fwd_7_5 : fwd 5 (7 : Dev nD) = (4 : Dev nD) := by decide
theorem fwd_7_6 : fwd 6 (7 : Dev nD) = (5 : Dev nD) := by decide
theorem fwd_7_7 : fwd 7 (7 : Dev nD) = (6 : Dev nD) := by decide
theorem bwd_7_1 : bwd 1 (7 : Dev nD) = (6 : Dev nD) := by decide
theorem bwd_7_2 : bwd 2 (7 : Dev nD) = (5 : Dev nD) := by decide
theorem bwd_7_3 : bwd 3 (7 : Dev nD) = (4 : Dev nD) := by decide
theorem bwd_7_4 : bwd 4 (7 : Dev nD) = (3 : Dev nD) := by decide
theorem bwd_7_5 : bwd 5 (7 : Dev nD) = (2 : Dev nD) := by decide
theorem bwd_7_6 : bwd 6 (7 : Dev nD) = (1 : Dev nD) := by decide
theorem bwd_7_7 : bwd 7 (7 : Dev nD) = (0 : Dev nD) := by decide
theorem ne_7_0 : (7 : Dev nD) ≠ (0 : Dev nD) := by decide
theorem ne_7_1 : (7 : Dev nD) ≠ (1 : Dev nD) := by decide
theorem ne_7_2 : (7 : Dev nD) ≠ (2 : Dev nD) := by decide
theorem ne_7_3 : (7 : Dev nD) ≠ (3 : Dev nD) := by decide
theorem ne_7_4 : (7 : Dev nD) ≠ (4 : Dev nD) := by decide
theorem ne_7_5 : (7 : Dev nD) ≠ (5 : Dev nD) := by decide
theorem ne_7_6 : (7 : Dev nD) ≠ (6 : Dev nD) := by decide
theorem peers_7 : peers (7 : Dev nD) = {0, 1, 2, 3, 4, 5, 6} := by decide
theorem bigSep_peers_7 {M : Type u} [URA M] (Φ : Dev nD → sProp M) :
    bigSep (peers (7 : Dev nD)) Φ = iprop(Φ 0 ∗ Φ 1 ∗ Φ 2 ∗ Φ 3 ∗ Φ 4 ∗ Φ 5 ∗ Φ 6) :=
  bigSep_eq_bigSepL_of_eq [0, 1, 2, 3, 4, 5, 6] (by decide) (by decide) Φ
theorem owesBar_7 : owesBar (7 : Dev nD) =
    tallyAt (barCell 0) () 1 + tallyAt (barCell 1) () 1 + tallyAt (barCell 2) () 1 + tallyAt (barCell 3) () 1 + tallyAt (barCell 4) () 1 + tallyAt (barCell 5) () 1 + tallyAt (barCell 6) () 1 := by
  unfold owesBar
  rw [fwd_7_1, fwd_7_2, fwd_7_3, fwd_7_4, fwd_7_5, fwd_7_6, fwd_7_7]
theorem owesRed_7 (l : Fin 3) : owesRed (7 : Dev nD) l =
    tallyAt (rrCell 0 l 7) () N64 + tallyAt (rrCell 1 l 7) () N64 + tallyAt (rrCell 2 l 7) () N64 + tallyAt (rrCell 3 l 7) () N64 + tallyAt (rrCell 4 l 7) () N64 + tallyAt (rrCell 5 l 7) () N64 + tallyAt (rrCell 6 l 7) () N64 := by
  unfold owesRed
  rw [if_pos ne_7_0, if_pos ne_7_1, if_pos ne_7_2, if_pos ne_7_3, if_pos ne_7_4, if_pos ne_7_5, if_pos ne_7_6, if_neg (show ¬ ((7 : Dev nD) ≠ 7) from fun h => h rfl), tallyAt_zero, add_zero]
theorem owesGat_7 (l : Fin 3) : owesGat (7 : Dev nD) l =
    tallyAt (grCell 0 l 7) () N64 + tallyAt (grCell 1 l 7) () N64 + tallyAt (grCell 2 l 7) () N64 + tallyAt (grCell 3 l 7) () N64 + tallyAt (grCell 4 l 7) () N64 + tallyAt (grCell 5 l 7) () N64 + tallyAt (grCell 6 l 7) () N64 := by
  unfold owesGat
  rw [fwd_7_1, fwd_7_2, fwd_7_3, fwd_7_4, fwd_7_5, fwd_7_6, fwd_7_7]
theorem O₀_7 : O₀ (7 : Dev nD) =
    tallyAt (barCell 0) () 1 + tallyAt (barCell 1) () 1 + tallyAt (barCell 2) () 1 + tallyAt (barCell 3) () 1 + tallyAt (barCell 4) () 1 + tallyAt (barCell 5) () 1 + tallyAt (barCell 6) () 1
    + tallyAt (rrCell 0 0 7) () N64 + tallyAt (rrCell 1 0 7) () N64 + tallyAt (rrCell 2 0 7) () N64 + tallyAt (rrCell 3 0 7) () N64 + tallyAt (rrCell 4 0 7) () N64 + tallyAt (rrCell 5 0 7) () N64 + tallyAt (rrCell 6 0 7) () N64
    + tallyAt (rrCell 0 1 7) () N64 + tallyAt (rrCell 1 1 7) () N64 + tallyAt (rrCell 2 1 7) () N64 + tallyAt (rrCell 3 1 7) () N64 + tallyAt (rrCell 4 1 7) () N64 + tallyAt (rrCell 5 1 7) () N64 + tallyAt (rrCell 6 1 7) () N64
    + tallyAt (rrCell 0 2 7) () N64 + tallyAt (rrCell 1 2 7) () N64 + tallyAt (rrCell 2 2 7) () N64 + tallyAt (rrCell 3 2 7) () N64 + tallyAt (rrCell 4 2 7) () N64 + tallyAt (rrCell 5 2 7) () N64 + tallyAt (rrCell 6 2 7) () N64
    + tallyAt (grCell 0 0 7) () N64 + tallyAt (grCell 1 0 7) () N64 + tallyAt (grCell 2 0 7) () N64 + tallyAt (grCell 3 0 7) () N64 + tallyAt (grCell 4 0 7) () N64 + tallyAt (grCell 5 0 7) () N64 + tallyAt (grCell 6 0 7) () N64
    + tallyAt (grCell 0 1 7) () N64 + tallyAt (grCell 1 1 7) () N64 + tallyAt (grCell 2 1 7) () N64 + tallyAt (grCell 3 1 7) () N64 + tallyAt (grCell 4 1 7) () N64 + tallyAt (grCell 5 1 7) () N64 + tallyAt (grCell 6 1 7) () N64 := by
  unfold O₀
  rw [owesBar_7, owesRed_7, owesRed_7, owesRed_7, owesGat_7, owesGat_7]
  simp only [← add_assoc]

/-- info: 'Cert.KernelIdealProof.O₀_0' depends on axioms: [propext, Classical.choice, Quot.sound] -/
#guard_msgs in #print axioms O₀_0

/-- info: 'Cert.KernelIdealProof.O₀_7' depends on axioms: [propext, Classical.choice, Quot.sound] -/
#guard_msgs in #print axioms O₀_7

/-- info: 'Cert.KernelIdealProof.bigSep_peers_3' depends on axioms: [propext, Classical.choice, Quot.sound] -/
#guard_msgs in #print axioms bigSep_peers_3

end Cert.KernelIdealProof

end
-- ==== Proof.Split.lean ====
import proofs.«900993_g7700000000000994_dist_mlpseq_tp1d_rep_bs_b512_d256_h512_v7x_i8_bf16_1_alg».proof.Proof.Sched

/-! The geometry of the three scratch buffers. A device holds each buffer whole; the protocol lends and hands over
    64-row pieces. A buffer is the disjoint union of its 24 pieces; a 512-row layer of the partial-product or gather
    buffer is the union of its eight chunks, a 128-row group the union of two; a piece held whole is the same as the
    piece held at eight disjoint shares. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The element sets of the pieces -/

/-- The rectangle of chunk `t` of layer `l` in a 3 × 512 × 256 buffer. -/
abbrev rectP (l : Fin 3) (t : Fin 8) : Rect S3x512x256 := Rect.unit (s := S3x512x256) ![l.val, 64 * t.val, 0] S1x64x256.size (inb_p l t)
/-- The rectangle of slot `(l, s)` in the receive buffer. -/
abbrev rectR (l : Fin 3) (s : Fin 8) : Rect S3x8x64x256 := Rect.unit (s := S3x8x64x256) ![l.val, s.val, 0, 0] S1x1x64x256.size (inb_r l s)

theorem set_pChunk (l : Fin 3) (t : Fin 8) : (pChunk l t).view.set = (rectP l t).set :=
  (View.set_reshape _ _).trans (View.set_slice_whole _ _)
theorem set_gChunk (l : Fin 3) (t : Fin 8) : (gChunk l t).view.set = (rectP l t).set :=
  (View.set_reshape _ _).trans (View.set_slice_whole _ _)
theorem set_rSlot (l : Fin 3) (s : Fin 8) : (rSlot l s).view.set = (rectR l s).set :=
  (View.set_reshape _ _).trans (View.set_slice_whole _ _)

theorem mem_rectP {l : Fin 3} {t : Fin 8} {i : S3x512x256.Idx} :
    i ∈ (rectP l t).set ↔ (i 0).val = l.val ∧ 64 * t.val ≤ (i 1).val ∧ (i 1).val < 64 * t.val + 64 := by
  rw [Rect.mem_set_unit, Fin.forall_fin_succ, Fin.forall_fin_succ, Fin.forall_fin_succ]
  have h2 : (i 2).val < 256 := (i 2).isLt
  show ((l.val ≤ (i 0).val ∧ (i 0).val < l.val + 1) ∧ (64 * t.val ≤ (i 1).val ∧ (i 1).val < 64 * t.val + 64)
    ∧ (0 ≤ (i 2).val ∧ (i 2).val < 0 + 256) ∧ ∀ j : Fin 0, _) ↔ _
  refine ⟨fun ⟨h0, h1, _⟩ => ⟨by omega, h1⟩, fun ⟨h0, h1⟩ => ⟨by omega, h1, by omega, fun j => j.elim0⟩⟩

theorem mem_rectR {l : Fin 3} {s : Fin 8} {i : S3x8x64x256.Idx} :
    i ∈ (rectR l s).set ↔ (i 0).val = l.val ∧ (i 1).val = s.val := by
  rw [Rect.mem_set_unit, Fin.forall_fin_succ, Fin.forall_fin_succ, Fin.forall_fin_succ, Fin.forall_fin_succ]
  have h2 : (i 2).val < 64 := (i 2).isLt
  have h3 : (i 3).val < 256 := (i 3).isLt
  show ((l.val ≤ (i 0).val ∧ (i 0).val < l.val + 1) ∧ (s.val ≤ (i 1).val ∧ (i 1).val < s.val + 1)
    ∧ (0 ≤ (i 2).val ∧ (i 2).val < 0 + 64) ∧ (0 ≤ (i 3).val ∧ (i 3).val < 0 + 256) ∧ ∀ j : Fin 0, _) ↔ _
  refine ⟨fun ⟨h0, h1, _⟩ => ⟨by omega, by omega⟩, fun ⟨h0, h1⟩ => ⟨by omega, by omega, by omega, by omega, fun j => j.elim0⟩⟩

theorem rectP_disjoint {a b : Fin 3 × Dev nD} (h : a ≠ b) : Disjoint (rectP a.1 a.2).set (rectP b.1 b.2).set := by
  rw [Finset.disjoint_left]; intro i hi hi'
  rw [mem_rectP] at hi hi'
  exact h (Prod.ext (Fin.ext (by omega)) (Fin.ext (by omega)))

theorem rectR_disjoint {a b : Fin 3 × Dev nD} (h : a ≠ b) : Disjoint (rectR a.1 a.2).set (rectR b.1 b.2).set := by
  rw [Finset.disjoint_left]; intro i hi hi'
  rw [mem_rectR] at hi hi'
  exact h (Prod.ext (Fin.ext (by omega)) (Fin.ext (by omega)))

theorem biUnion_rectP : (Finset.univ : Finset (Fin 3 × Dev nD)).biUnion (fun a => (rectP a.1 a.2).set) = Finset.univ := by
  ext i
  simp only [Finset.mem_biUnion, Finset.mem_univ, true_and, iff_true]
  have h0 : (i 0).val < 3 := (i 0).isLt
  have h1 : (i 1).val < 512 := (i 1).isLt
  exact ⟨(⟨(i 0).val, h0⟩, ⟨(i 1).val / 64, by show (i 1).val / 64 < 8; omega⟩), mem_rectP.mpr ⟨rfl, by show 64 * ((i 1).val / 64) ≤ _; omega,
    by show _ < 64 * ((i 1).val / 64) + 64; omega⟩⟩

theorem biUnion_rectR : (Finset.univ : Finset (Fin 3 × Dev nD)).biUnion (fun a => (rectR a.1 a.2).set) = Finset.univ := by
  ext i
  simp only [Finset.mem_biUnion, Finset.mem_univ, true_and, iff_true]
  have h0 : (i 0).val < 3 := (i 0).isLt
  have h1 : (i 1).val < 8 := (i 1).isLt
  exact ⟨(⟨(i 0).val, h0⟩, ⟨(i 1).val, h1⟩), mem_rectR.mpr ⟨rfl, rfl⟩⟩

/-! ## Separating conjunctions over the layers and the devices, written out -/

section Lists
universe u
variable {M : Type u} [URA M]

theorem bigSep_fin3 (Φ : Fin 3 → sProp M) : bigSep Finset.univ Φ = iprop(Φ 0 ∗ Φ 1 ∗ Φ 2) := by
  rw [show (Finset.univ : Finset (Fin 3)) = {0, 1, 2} from by decide, bigSep_insert (by decide), bigSep_insert (by decide),
    bigSep_singleton]
  rfl

theorem bigSep_dev8 (Φ : Dev nD → sProp M) :
    bigSep Finset.univ Φ = iprop(Φ 0 ∗ Φ 1 ∗ Φ 2 ∗ Φ 3 ∗ Φ 4 ∗ Φ 5 ∗ Φ 6 ∗ Φ 7) := by
  rw [show (Finset.univ : Finset (Dev nD)) = {0, 1, 2, 3, 4, 5, 6, 7} from by decide, bigSep_insert (by decide),
    bigSep_insert (by decide), bigSep_insert (by decide), bigSep_insert (by decide), bigSep_insert (by decide),
    bigSep_insert (by decide), bigSep_insert (by decide), bigSep_singleton]
  rfl

/-- The 24 terms of a family over layers and devices, layer by layer. -/
theorem bigSep_layers_devs (Φ : Fin 3 × Dev nD → sProp M) :
    bigSep Finset.univ Φ = iprop(
      (Φ (0, 0) ∗ Φ (0, 1) ∗ Φ (0, 2) ∗ Φ (0, 3) ∗ Φ (0, 4) ∗ Φ (0, 5) ∗ Φ (0, 6) ∗ Φ (0, 7))
      ∗ (Φ (1, 0) ∗ Φ (1, 1) ∗ Φ (1, 2) ∗ Φ (1, 3) ∗ Φ (1, 4) ∗ Φ (1, 5) ∗ Φ (1, 6) ∗ Φ (1, 7))
      ∗ (Φ (2, 0) ∗ Φ (2, 1) ∗ Φ (2, 2) ∗ Φ (2, 3) ∗ Φ (2, 4) ∗ Φ (2, 5) ∗ Φ (2, 6) ∗ Φ (2, 7))) := by
  rw [bigSep_univ_prod, bigSep_fin3, bigSep_dev8, bigSep_dev8, bigSep_dev8]

/-- The devices in the order of the ring from `c` on. -/
def ringEquiv (c : Dev nD) : Fin 8 ≃ Dev nD where
  toFun j := fwd j.val c
  invFun d := ⟨(d.val + 8 - c.val) % 8, Nat.mod_lt _ (by decide)⟩
  left_inv := by revert c; decide
  right_inv := by revert c; decide

theorem fwd_zero (c : Dev nD) : fwd 0 c = c := by revert c; decide

/-- The eight terms of a family over the devices, in the order of the ring from `c` on. -/
theorem bigSep_ring (c : Dev nD) (Φ : Dev nD → sProp M) :
    bigSep Finset.univ Φ = iprop(Φ c ∗ Φ (fwd 1 c) ∗ Φ (fwd 2 c) ∗ Φ (fwd 3 c) ∗ Φ (fwd 4 c) ∗ Φ (fwd 5 c) ∗ Φ (fwd 6 c) ∗ Φ (fwd 7 c)) := by
  rw [bigSep_univ_equiv (ringEquiv c) Φ, bigSep_dev8 (fun j => Φ (ringEquiv c j))]
  show iprop(Φ (fwd 0 c) ∗ _) = _
  rw [fwd_zero]
  rfl

end Lists

/-! ## A whole buffer is its 24 pieces -/

/-- The partial-product buffer held whole is its 24 chunks held. -/
theorem whole0_eq (c : Dev nD) (q : PosShare TreeShare) (f : Buf (Elt F) ((Memref.whole cc0_scratch0).view.loc (c : Thread nD τ))) :
    ((Memref.whole cc0_scratch0).view.loc (c : Thread nD τ) ↦[(Memref.whole cc0_scratch0).view.set]{q} f : sProp 𝕄)
      = bigSep (Finset.univ : Finset (Fin 3 × Dev nD)) (fun a => piece c (pChunk a.1 a.2) q f) := by
  refine (congrArg (fun I => pointsTo ((Memref.whole cc0_scratch0).view.loc (c : Thread nD τ)) I q f)
    ((View.set_whole _).trans biUnion_rectP.symm)).trans ?_
  refine (pointsTo_biUnion _ _ (fun a _ b _ h => rectP_disjoint h)).trans ?_
  exact bigSep_congr fun a _ => congrArg (fun I => pointsTo ((Memref.whole cc0_scratch0).view.loc (c : Thread nD τ)) I q f) (set_pChunk a.1 a.2).symm

/-- The receive buffer held whole is its 24 slots held. -/
theorem whole1_eq (c : Dev nD) (q : PosShare TreeShare) (f : Buf (Elt F) ((Memref.whole cc0_scratch1).view.loc (c : Thread nD τ))) :
    ((Memref.whole cc0_scratch1).view.loc (c : Thread nD τ) ↦[(Memref.whole cc0_scratch1).view.set]{q} f : sProp 𝕄)
      = bigSep (Finset.univ : Finset (Fin 3 × Dev nD)) (fun a => piece c (rSlot a.1 a.2) q f) := by
  refine (congrArg (fun I => pointsTo ((Memref.whole cc0_scratch1).view.loc (c : Thread nD τ)) I q f)
    ((View.set_whole _).trans biUnion_rectR.symm)).trans ?_
  refine (pointsTo_biUnion _ _ (fun a _ b _ h => rectR_disjoint h)).trans ?_
  exact bigSep_congr fun a _ => congrArg (fun I => pointsTo ((Memref.whole cc0_scratch1).view.loc (c : Thread nD τ)) I q f) (set_rSlot a.1 a.2).symm

/-- The gather buffer held whole is its 24 chunks held. -/
theorem whole2_eq (c : Dev nD) (q : PosShare TreeShare) (f : Buf (Elt F) ((Memref.whole cc0_scratch2).view.loc (c : Thread nD τ))) :
    ((Memref.whole cc0_scratch2).view.loc (c : Thread nD τ) ↦[(Memref.whole cc0_scratch2).view.set]{q} f : sProp 𝕄)
      = bigSep (Finset.univ : Finset (Fin 3 × Dev nD)) (fun a => piece c (gChunk a.1 a.2) q f) := by
  refine (congrArg (fun I => pointsTo ((Memref.whole cc0_scratch2).view.loc (c : Thread nD τ)) I q f)
    ((View.set_whole _).trans biUnion_rectP.symm)).trans ?_
  refine (pointsTo_biUnion _ _ (fun a _ b _ h => rectP_disjoint h)).trans ?_
  exact bigSep_congr fun a _ => congrArg (fun I => pointsTo ((Memref.whole cc0_scratch2).view.loc (c : Thread nD τ)) I q f) (set_gChunk a.1 a.2).symm

theorem whole0_split (c : Dev nD) (q : PosShare TreeShare) (f : Buf (Elt F) ((Memref.whole cc0_scratch0).view.loc (c : Thread nD τ))) :
    ((Memref.whole cc0_scratch0).view.loc (c : Thread nD τ) ↦[(Memref.whole cc0_scratch0).view.set]{q} f : sProp 𝕄)
      ⊢ bigSep (Finset.univ : Finset (Fin 3 × Dev nD)) (fun a => piece c (pChunk a.1 a.2) q f) := Entails.of_eq (whole0_eq c q f)
theorem whole0_join (c : Dev nD) (q : PosShare TreeShare) (f : Buf (Elt F) ((Memref.whole cc0_scratch0).view.loc (c : Thread nD τ))) :
    bigSep (Finset.univ : Finset (Fin 3 × Dev nD)) (fun a => piece c (pChunk a.1 a.2) q f)
      ⊢ ((Memref.whole cc0_scratch0).view.loc (c : Thread nD τ) ↦[(Memref.whole cc0_scratch0).view.set]{q} f : sProp 𝕄) := Entails.of_eq (whole0_eq c q f).symm
theorem whole1_split (c : Dev nD) (q : PosShare TreeShare) (f : Buf (Elt F) ((Memref.whole cc0_scratch1).view.loc (c : Thread nD τ))) :
    ((Memref.whole cc0_scratch1).view.loc (c : Thread nD τ) ↦[(Memref.whole cc0_scratch1).view.set]{q} f : sProp 𝕄)
      ⊢ bigSep (Finset.univ : Finset (Fin 3 × Dev nD)) (fun a => piece c (rSlot a.1 a.2) q f) := Entails.of_eq (whole1_eq c q f)
theorem whole1_join (c : Dev nD) (q : PosShare TreeShare) (f : Buf (Elt F) ((Memref.whole cc0_scratch1).view.loc (c : Thread nD τ))) :
    bigSep (Finset.univ : Finset (Fin 3 × Dev nD)) (fun a => piece c (rSlot a.1 a.2) q f)
      ⊢ ((Memref.whole cc0_scratch1).view.loc (c : Thread nD τ) ↦[(Memref.whole cc0_scratch1).view.set]{q} f : sProp 𝕄) := Entails.of_eq (whole1_eq c q f).symm
theorem whole2_split (c : Dev nD) (q : PosShare TreeShare) (f : Buf (Elt F) ((Memref.whole cc0_scratch2).view.loc (c : Thread nD τ))) :
    ((Memref.whole cc0_scratch2).view.loc (c : Thread nD τ) ↦[(Memref.whole cc0_scratch2).view.set]{q} f : sProp 𝕄)
      ⊢ bigSep (Finset.univ : Finset (Fin 3 × Dev nD)) (fun a => piece c (gChunk a.1 a.2) q f) := Entails.of_eq (whole2_eq c q f)
theorem whole2_join (c : Dev nD) (q : PosShare TreeShare) (f : Buf (Elt F) ((Memref.whole cc0_scratch2).view.loc (c : Thread nD τ))) :
    bigSep (Finset.univ : Finset (Fin 3 × Dev nD)) (fun a => piece c (gChunk a.1 a.2) q f)
      ⊢ ((Memref.whole cc0_scratch2).view.loc (c : Thread nD τ) ↦[(Memref.whole cc0_scratch2).view.set]{q} f : sProp 𝕄) := Entails.of_eq (whole2_eq c q f).symm

/-! ## One piece: its contents and its shares -/

/-- A piece's assertion reads the contents on the piece's elements only. -/
theorem piece_congr (c : Dev nD) {sp : Space} (M : Memref sig .tc sp S64x256 .bf16) (q : PosShare TreeShare)
    {f g : Buf (Elt F) (M.view.loc (c : Thread nD τ))} (h : ∀ i ∈ M.view.set, f i = g i) :
    (piece c M q f : sProp 𝕄) = piece c M q g := pointsTo_congr h

/-- A piece at a share is the piece at the share's two halves. -/
theorem piece_halves (c : Dev nD) {sp : Space} (M : Memref sig .tc sp S64x256 .bf16) (q : PosShare TreeShare)
    (f : Buf (Elt F) (M.view.loc (c : Thread nD τ))) :
    (piece c M q f : sProp 𝕄) = iprop(piece c M q.left f ∗ piece c M q.right f) :=
  have h : (piece c M q f : sProp 𝕄) ⊣⊢ iprop(piece c M q.left f ∗ piece c M q.right f) := pointsTo_share (PosShare.mem_left_op_right q)
  equiv_iff.mp ⟨h.1, h.2⟩

/-- A piece held whole is the piece held at the eight shares. -/
theorem piece_shares (c : Dev nD) {sp : Space} (M : Memref sig .tc sp S64x256 .bf16) (f : Buf (Elt F) (M.view.loc (c : Thread nD τ))) :
    (piece c M fullShare f : sProp 𝕄) = bigSep (Finset.univ : Finset (Dev nD)) (fun t => piece c M (sh8 t) f) := by
  have assoc : ∀ P Q R : sProp 𝕄, iprop((P ∗ Q) ∗ R) = iprop(P ∗ Q ∗ R) := fun P Q R => equiv_iff.mp ⟨(Laws.sep_assoc (P := P) (Q := Q) (R := R)).1, (Laws.sep_assoc (P := P) (Q := Q) (R := R)).2⟩
  rw [bigSep_dev8]
  show _ = iprop(piece c M fullShare.left.left.left f ∗ piece c M fullShare.left.left.right f ∗ piece c M fullShare.left.right.left f
    ∗ piece c M fullShare.left.right.right f ∗ piece c M fullShare.right.left.left f ∗ piece c M fullShare.right.left.right f
    ∗ piece c M fullShare.right.right.left f ∗ piece c M fullShare.right.right.right f)
  rw [piece_halves c M fullShare, piece_halves c M fullShare.left, piece_halves c M fullShare.right,
    piece_halves c M fullShare.left.left, piece_halves c M fullShare.left.right, piece_halves c M fullShare.right.left,
    piece_halves c M fullShare.right.right]
  simp only [assoc]

theorem piece_shares_split (c : Dev nD) {sp : Space} (M : Memref sig .tc sp S64x256 .bf16) (f : Buf (Elt F) (M.view.loc (c : Thread nD τ))) :
    (piece c M fullShare f : sProp 𝕄) ⊢ bigSep (Finset.univ : Finset (Dev nD)) (fun t => piece c M (sh8 t) f) :=
  Entails.of_eq (piece_shares c M f)
theorem piece_shares_join (c : Dev nD) {sp : Space} (M : Memref sig .tc sp S64x256 .bf16) (f : Buf (Elt F) (M.view.loc (c : Thread nD τ))) :
    bigSep (Finset.univ : Finset (Dev nD)) (fun t => piece c M (sh8 t) f) ⊢ (piece c M fullShare f : sProp 𝕄) :=
  Entails.of_eq (piece_shares c M f).symm

end Cert.KernelIdealProof

end
-- ==== Proof.SchedInst.lean ====
import proofs.«900993_g7700000000000994_dist_mlpseq_tp1d_rep_bs_b512_d256_h512_v7x_i8_bf16_1_alg».proof.Proof.SchedTables

/-! The membership facts of a duty in round 0 of its cell, at each of the seven distances `1 … 7` between a device and
    its peer: instances of the general facts, one per distance. -/

noncomputable section

namespace Cert.KernelIdealProof

open Cert.KernelIdeal Cert.KernelIdeal.Gen
open Idealize.ShloMosaic Idealize.ShloMosaic.TcCoe
open Idealize.SL Idealize.SL.RA Idealize.SL.BI
open Idealize.ShloMosaic.Rounds

variable {F : FTy → Type} [FloatOps F]

variable (m : (ℓ : Loc nD τ sig) → Buf (Elt F) ℓ)

theorem mem_bar_fwd1 (c : Dev nD) : c ∈ (sched (F := F) m).duties (barCell (fwd 1 c)) 0 := mem_bar_fwd m 1 (by decide) (by decide) c
theorem mem_bar_fwd2 (c : Dev nD) : c ∈ (sched (F := F) m).duties (barCell (fwd 2 c)) 0 := mem_bar_fwd m 2 (by decide) (by decide) c
theorem mem_bar_fwd3 (c : Dev nD) : c ∈ (sched (F := F) m).duties (barCell (fwd 3 c)) 0 := mem_bar_fwd m 3 (by decide) (by decide) c
theorem mem_bar_fwd4 (c : Dev nD) : c ∈ (sched (F := F) m).duties (barCell (fwd 4 c)) 0 := mem_bar_fwd m 4 (by decide) (by decide) c
theorem mem_bar_fwd5 (c : Dev nD) : c ∈ (sched (F := F) m).duties (barCell (fwd 5 c)) 0 := mem_bar_fwd m 5 (by decide) (by decide) c
theorem mem_bar_fwd6 (c : Dev nD) : c ∈ (sched (F := F) m).duties (barCell (fwd 6 c)) 0 := mem_bar_fwd m 6 (by decide) (by decide) c
theorem mem_bar_fwd7 (c : Dev nD) : c ∈ (sched (F := F) m).duties (barCell (fwd 7 c)) 0 := mem_bar_fwd m 7 (by decide) (by decide) c
theorem mem_gs_fwd1 (c : Dev nD) (l : Fin 3) (hl : l.val < 2) : fwd 1 c ∈ (sched (F := F) m).duties (gsCell c l) 0 := mem_gs_fwd m 1 (by decide) (by decide) c l hl
theorem mem_gs_fwd2 (c : Dev nD) (l : Fin 3) (hl : l.val < 2) : fwd 2 c ∈ (sched (F := F) m).duties (gsCell c l) 0 := mem_gs_fwd m 2 (by decide) (by decide) c l hl
theorem mem_gs_fwd3 (c : Dev nD) (l : Fin 3) (hl : l.val < 2) : fwd 3 c ∈ (sched (F := F) m).duties (gsCell c l) 0 := mem_gs_fwd m 3 (by decide) (by decide) c l hl
theorem mem_gs_fwd4 (c : Dev nD) (l : Fin 3) (hl : l.val < 2) : fwd 4 c ∈ (sched (F := F) m).duties (gsCell c l) 0 := mem_gs_fwd m 4 (by decide) (by decide) c l hl
theorem mem_gs_fwd5 (c : Dev nD) (l : Fin 3) (hl : l.val < 2) : fwd 5 c ∈ (sched (F := F) m).duties (gsCell c l) 0 := mem_gs_fwd m 5 (by decide) (by decide) c l hl
theorem mem_gs_fwd6 (c : Dev nD) (l : Fin 3) (hl : l.val < 2) : fwd 6 c ∈ (sched (F := F) m).duties (gsCell c l) 0 := mem_gs_fwd m 6 (by decide) (by decide) c l hl
theorem mem_gs_fwd7 (c : Dev nD) (l : Fin 3) (hl : l.val < 2) : fwd 7 c ∈ (sched (F := F) m).duties (gsCell c l) 0 := mem_gs_fwd m 7 (by decide) (by decide) c l hl
theorem mem_gr_fwd1 (c : Dev nD) (l : Fin 3) (hl : l.val < 2) : c ∈ (sched (F := F) m).duties (grCell (fwd 1 c) l c) 0 := mem_gr_fwd m 1 (by decide) (by decide) c l hl
theorem mem_gr_fwd2 (c : Dev nD) (l : Fin 3) (hl : l.val < 2) : c ∈ (sched (F := F) m).duties (grCell (fwd 2 c) l c) 0 := mem_gr_fwd m 2 (by decide) (by decide) c l hl
theorem mem_gr_fwd3 (c : Dev nD) (l : Fin 3) (hl : l.val < 2) : c ∈ (sched (F := F) m).duties (grCell (fwd 3 c) l c) 0 := mem_gr_fwd m 3 (by decide) (by decide) c l hl
theorem mem_gr_fwd4 (c : Dev nD) (l : Fin 3) (hl : l.val < 2) : c ∈ (sched (F := F) m).duties (grCell (fwd 4 c) l c) 0 := mem_gr_fwd m 4 (by decide) (by decide) c l hl
theorem mem_gr_fwd5 (c : Dev nD) (l : Fin 3) (hl : l.val < 2) : c ∈ (sched (F := F) m).duties (grCell (fwd 5 c) l c) 0 := mem_gr_fwd m 5 (by decide) (by decide) c l hl
theorem mem_gr_fwd6 (c : Dev nD) (l : Fin 3) (hl : l.val < 2) : c ∈ (sched (F := F) m).duties (grCell (fwd 6 c) l c) 0 := mem_gr_fwd m 6 (by decide) (by decide) c l hl
theorem mem_gr_fwd7 (c : Dev nD) (l : Fin 3) (hl : l.val < 2) : c ∈ (sched (F := F) m).duties (grCell (fwd 7 c) l c) 0 := mem_gr_fwd m 7 (by decide) (by decide) c l hl
theorem mem_rr_bwd1 (c : Dev nD) (l : Fin 3) : bwd 1 c ∈ (sched (F := F) m).duties (rrCell c l (bwd 1 c)) 0 := mem_rr_bwd m 1 (by decide) (by decide) c l
theorem mem_rr_bwd2 (c : Dev nD) (l : Fin 3) : bwd 2 c ∈ (sched (F := F) m).duties (rrCell c l (bwd 2 c)) 0 := mem_rr_bwd m 2 (by decide) (by decide) c l
theorem mem_rr_bwd3 (c : Dev nD) (l : Fin 3) : bwd 3 c ∈ (sched (F := F) m).duties (rrCell c l (bwd 3 c)) 0 := mem_rr_bwd m 3 (by decide) (by decide) c l
theorem mem_rr_bwd4 (c : Dev nD) (l : Fin 3) : bwd 4 c ∈ (sched (F := F) m).duties (rrCell c l (bwd 4 c)) 0 := mem_rr_bwd m 4 (by decide) (by decide) c l
theorem mem_rr_bwd5 (c : Dev nD) (l : Fin 3) : bwd 5 c ∈ (sched (F := F) m).duties (rrCell c l (bwd 5 c)) 0 := mem_rr_bwd m 5 (by decide) (by decide) c l
theorem mem_rr_bwd6 (c : Dev nD) (l : Fin 3) : bwd 6 c ∈ (sched (F := F) m).duties (rrCell c l (bwd 6 c)) 0 := mem_rr_bwd m 6 (by decide) (by decide) c l
theorem mem_rr_bwd7 (c : Dev nD) (l : Fin 3) : bwd 7 c ∈ (sched (F := F) m).duties (rrCell c l (bwd 7 c)) 0 := mem_rr_bwd m 7 (by decide) (by decide) c l

end Cert.KernelIdealProof

end
-- ==== Proof.Prelude.lean ====
import proofs.«900993_g7700000000000994_dist_mlpseq_tp1d_rep_bs_b512_d256_h512_v7x_i8_bf16_1_alg».proof.Proof.Data
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.LitTable
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.SchedInst

/-! The start of a device's body: what it was dealt at launch, taken apart into the single facts and resources the
    protocol's steps use — the invariant and the round-0 fact of every cell the device touches, its duty tokens, its
    positions, its credit, the pieces of its buffers it hands its peers with its entry signals, and what it owes. The
    peers appear in two enumerations: along the ring (after or before the device), and as the seven literal devices
    other than it; the second is a parameter here, and is fixed device by device. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

universe u

variable {F : FTy → Type} [FloatOps F]
local notation "𝕄" => MT nD τ sig Unit (Elt F) ℕ UU ℕ
variable (m : (ℓ : Loc nD τ sig) → Buf (Elt F) ℓ)

/-! ## Enumerations of the peers -/

/-- Seven terms along the ring after `c`. -/
abbrev alongF {M : Type u} [URA M] (c : Dev nD) (Φ : Dev nD → sProp M) : sProp M :=
  iprop(Φ (fwd 1 c) ∗ Φ (fwd 2 c) ∗ Φ (fwd 3 c) ∗ Φ (fwd 4 c) ∗ Φ (fwd 5 c) ∗ Φ (fwd 6 c) ∗ Φ (fwd 7 c))
/-- Seven terms along the ring before `c`. -/
abbrev alongB {M : Type u} [URA M] (c : Dev nD) (Φ : Dev nD → sProp M) : sProp M :=
  iprop(Φ (bwd 1 c) ∗ Φ (bwd 2 c) ∗ Φ (bwd 3 c) ∗ Φ (bwd 4 c) ∗ Φ (bwd 5 c) ∗ Φ (bwd 6 c) ∗ Φ (bwd 7 c))

theorem alongF_eq {M : Type u} [URA M] (c : Dev nD) (Φ : Dev nD → sProp M) : bigSep (peers c) Φ = alongF c Φ := bigSep_peers_fwd c Φ
theorem alongB_eq {M : Type u} [URA M] (c : Dev nD) (Φ : Dev nD → sProp M) : bigSep (peers c) Φ = alongB c Φ := bigSep_peers_bwd c Φ

/-- A persistent assertion that yields two assertions yields both. -/
theorem pers_sep {M : Type u} [URA M] {R A B : sProp M} [Persistent R] (hA : R ⊢ A) (hB : R ⊢ B) : R ⊢ iprop(A ∗ B) := by
  iintro #H
  isplitl []
  · iapply hA; iexact H
  · iapply hB; iexact H

/-- A persistent assertion that yields every term of a family over the peers yields the family. -/
theorem pers_peers {M : Type u} [URA M] {R : sProp M} [Persistent R] (c : Dev nD) {Φ : Dev nD → sProp M} (h : ∀ p, R ⊢ Φ p) :
    R ⊢ bigSep (peers c) Φ := bigSep_intro_persistent fun p _ => h p

/-! ## The cells a device touches -/

section Cells
variable {M : Type u} [URA M]

/-- One assertion per cell the device `c` touches, `G` of the cell: its barrier cell and its peers'; per layer its
    reduce-send cell, its reduce-receive cells (by the sender before it on the ring) and the peers' reduce-receive cells it
    sends to (by literal target); for the two gathering layers its gather-send cell, its gather-receive cells (by
    literal sender) and the peers' gather-receive cells it sends to (along the ring). `X` enumerates the literal peers. -/
abbrev cellsFam (c : Dev nD) (X : (Dev nD → sProp M) → sProp M) (G : GSem nD τ sig → sProp M) : sProp M :=
  iprop(G (barCell c) ∗ alongF c (fun p => G (barCell p))
    ∗ (G (rsCell c 0) ∗ alongB c (fun s => G (rrCell c 0 s)) ∗ X (fun t => G (rrCell t 0 c)))
    ∗ (G (rsCell c 1) ∗ alongB c (fun s => G (rrCell c 1 s)) ∗ X (fun t => G (rrCell t 1 c)))
    ∗ (G (rsCell c 2) ∗ alongB c (fun s => G (rrCell c 2 s)) ∗ X (fun t => G (rrCell t 2 c)))
    ∗ (G (gsCell c 0) ∗ X (fun s => G (grCell c 0 s)) ∗ alongF c (fun p => G (grCell p 0 c)))
    ∗ (G (gsCell c 1) ∗ X (fun s => G (grCell c 1 s)) ∗ alongF c (fun p => G (grCell p 1 c))))

/-- A persistent assertion that yields `G` of every cell yields the family. -/
theorem cellsFam_intro {R : sProp M} [Persistent R] (c : Dev nD) (X : (Dev nD → sProp M) → sProp M)
    (hX : ∀ Φ, bigSep (peers c) Φ = X Φ) (G : GSem nD τ sig → sProp M) (h : ∀ (d : Dev nD) (k : CK), R ⊢ G (kcell d k)) :
    R ⊢ cellsFam c X G := by
  have hF : ∀ Φ : Dev nD → sProp M, (∀ p, R ⊢ Φ p) → R ⊢ alongF c Φ := fun Φ hΦ => alongF_eq c Φ ▸ pers_peers c hΦ
  have hB : ∀ Φ : Dev nD → sProp M, (∀ p, R ⊢ Φ p) → R ⊢ alongB c Φ := fun Φ hΦ => alongB_eq c Φ ▸ pers_peers c hΦ
  have hL : ∀ Φ : Dev nD → sProp M, (∀ p, R ⊢ Φ p) → R ⊢ X Φ := fun Φ hΦ => hX Φ ▸ pers_peers c hΦ
  refine pers_sep (h c .bar) (pers_sep (hF _ fun p => h p .bar) (pers_sep ?_ (pers_sep ?_ (pers_sep ?_ (pers_sep ?_ ?_)))))
  · exact pers_sep (h c (.rs 0)) (pers_sep (hB _ fun s => h c (.rr 0 s)) (hL _ fun t => h t (.rr 0 c)))
  · exact pers_sep (h c (.rs 1)) (pers_sep (hB _ fun s => h c (.rr 1 s)) (hL _ fun t => h t (.rr 1 c)))
  · exact pers_sep (h c (.rs 2)) (pers_sep (hB _ fun s => h c (.rr 2 s)) (hL _ fun t => h t (.rr 2 c)))
  · exact pers_sep (h c (.gs 0)) (pers_sep (hL _ fun s => h c (.gr 0 s)) (hF _ fun p => h p (.gr 0 c)))
  · exact pers_sep (h c (.gs 1)) (pers_sep (hL _ fun s => h c (.gr 1 s)) (hF _ fun p => h p (.gr 1 c)))

end Cells

/-- The invariants of the cells device `c` touches. -/
theorem invs_intro (K : GSem nD τ sig → ℕ) (c : Dev nD) (X : (Dev nD → sProp 𝕄) → sProp 𝕄) (hX : ∀ Φ, bigSep (peers c) Φ = X Φ) :
    invsAll m K ⊢ cellsFam c X (fun g => cellInv ER (sched m) (K g) g) :=
  cellsFam_intro c X hX _ fun d k => allAt (fun p : Dev nD × CK => cellInv ER (sched m) (K (kcell p.1 p.2)) (kcell p.1 p.2)) d k

/-- That they are at round 0. -/
theorem reached_intro (c : Dev nD) (X : (Dev nD → sProp 𝕄) → sProp 𝕄) (hX : ∀ Φ, bigSep (peers c) Φ = X Φ) :
    (reachedAll (F := F)) ⊢ cellsFam c X (fun g => (reached ER g 0 : sProp 𝕄)) :=
  cellsFam_intro c X hX _ fun d k => allAt (fun p : Dev nD × CK => (reached ER (kcell p.1 p.2) 0 : sProp 𝕄)) d k

/-! ## The duty tokens -/

/-- The tokens device `c` pays with, in the order it pays them: its entry signals; per layer the departures and the
    arrivals of its reduce copies (by literal target); per gathering layer the departures and the arrivals of its gather
    copies (along the ring). -/
abbrev toksFam (c : Dev nD) (X : (Dev nD → sProp 𝕄) → sProp 𝕄) : sProp 𝕄 :=
  iprop(alongF c (fun p => dutyTok ER (barCell p) 0 c)
    ∗ (X (fun t => dutyTok ER (rsCell c 0) 0 t) ∗ X (fun t => dutyTok ER (rrCell t 0 c) 0 c))
    ∗ (X (fun t => dutyTok ER (rsCell c 1) 0 t) ∗ X (fun t => dutyTok ER (rrCell t 1 c) 0 c))
    ∗ (X (fun t => dutyTok ER (rsCell c 2) 0 t) ∗ X (fun t => dutyTok ER (rrCell t 2 c) 0 c))
    ∗ (alongF c (fun p => dutyTok ER (gsCell c 0) 0 p) ∗ alongF c (fun p => dutyTok ER (grCell p 0 c) 0 c))
    ∗ (alongF c (fun p => dutyTok ER (gsCell c 1) 0 p) ∗ alongF c (fun p => dutyTok ER (grCell p 1 c) 0 c)))

theorem toks_intro (c : Dev nD) (X : (Dev nD → sProp 𝕄) → sProp 𝕄) (hX : ∀ Φ, bigSep (peers c) Φ = X Φ) :
    (payToks (F := F) c) ⊢ toksFam c X := by
  unfold payToks toksTo toksOut
  simp only [bigSep_sep']
  iintro ⟨⟨B, R0, R1, R2, G0, G1⟩, S0, S1, S2, GS0, GS1⟩
  ihave B := (Entails.of_eq (alongF_eq c _)) $$ B
  ihave R0 := (Entails.of_eq (hX _)) $$ R0
  ihave R1 := (Entails.of_eq (hX _)) $$ R1
  ihave R2 := (Entails.of_eq (hX _)) $$ R2
  ihave G0 := (Entails.of_eq (alongF_eq c _)) $$ G0
  ihave G1 := (Entails.of_eq (alongF_eq c _)) $$ G1
  ihave S0 := (Entails.of_eq (hX _)) $$ S0
  ihave S1 := (Entails.of_eq (hX _)) $$ S1
  ihave S2 := (Entails.of_eq (hX _)) $$ S2
  ihave GS0 := (Entails.of_eq (alongF_eq c _)) $$ GS0
  ihave GS1 := (Entails.of_eq (alongF_eq c _)) $$ GS1
  unfold toksFam
  iframe

/-! ## The kinds of cell of one device, grouped as the protocol uses them -/

section Kinds
variable {M : Type u} [URA M]

theorem sep_assoc_eq (P Q R : sProp M) : iprop((P ∗ Q) ∗ R) = iprop(P ∗ Q ∗ R) :=
  equiv_iff.mp ⟨(Laws.sep_assoc (P := P) (Q := Q) (R := R)).1, (Laws.sep_assoc (P := P) (Q := Q) (R := R)).2⟩

theorem eq_of_entails {P Q : sProp M} (h1 : P ⊢ Q) (h2 : Q ⊢ P) : P = Q := equiv_iff.mp ⟨h1, h2⟩

/-- Eight terms over the devices: the one of `c`, and those of its peers in the enumeration `Y`. -/
theorem dev8_at (c : Dev nD) (Y : (Dev nD → sProp M) → sProp M) (hY : ∀ Φ, bigSep (peers c) Φ = Y Φ) (Φ : Dev nD → sProp M) :
    iprop(Φ 0 ∗ Φ 1 ∗ Φ 2 ∗ Φ 3 ∗ Φ 4 ∗ Φ 5 ∗ Φ 6 ∗ Φ 7) = iprop(Φ c ∗ Y Φ) := by
  rw [← bigSep_dev8, bigSep_univ_at Φ c, ← hY]; rfl

/-- The kinds of the cells of `c` that have duties, other than the barrier: per layer the reduce-send cell and the
    reduce-receive cells of the senders before `c` on the ring; per gathering layer the gather-send cell and the
    gather-receive cells of the literal senders. -/
abbrev kindsUsed (c : Dev nD) (X : (Dev nD → sProp M) → sProp M) (Φ : CK → sProp M) : sProp M :=
  iprop((Φ (.rs 0) ∗ alongB c (fun s => Φ (.rr 0 s))) ∗ (Φ (.rs 1) ∗ alongB c (fun s => Φ (.rr 1 s)))
    ∗ (Φ (.rs 2) ∗ alongB c (fun s => Φ (.rr 2 s)))
    ∗ (Φ (.gs 0) ∗ X (fun s => Φ (.gr 0 s))) ∗ (Φ (.gs 1) ∗ X (fun s => Φ (.gr 1 s))))
/-- The kinds of the cells of `c` without duties: receiving from itself, and the gather cells of the last layer. -/
abbrev kindsUnused (c : Dev nD) (Φ : CK → sProp M) : sProp M :=
  iprop(Φ (.rr 0 c) ∗ Φ (.rr 1 c) ∗ Φ (.rr 2 c) ∗ Φ (.gs 2) ∗ Φ (.gr 0 c) ∗ Φ (.gr 1 c)
    ∗ bigSep (Finset.univ : Finset (Dev nD)) (fun s => Φ (.gr 2 s)))

theorem kinds_rest_split (c : Dev nD) (X : (Dev nD → sProp M) → sProp M) (hX : ∀ Φ, bigSep (peers c) Φ = X Φ) (Φ : CK → sProp M) :
    bigSep ((Finset.univ : Finset CK).erase .bar) Φ = iprop(kindsUsed c X Φ ∗ kindsUnused c Φ) := by
  have mid : bigSep ((Finset.univ : Finset CK).erase .bar) Φ = iprop((Φ (.rs 0) ∗ Φ (.rs 1) ∗ Φ (.rs 2))
      ∗ (Φ (.rr 0 c) ∗ alongB c (fun s => Φ (.rr 0 s))) ∗ (Φ (.rr 1 c) ∗ alongB c (fun s => Φ (.rr 1 s)))
      ∗ (Φ (.rr 2 c) ∗ alongB c (fun s => Φ (.rr 2 s)))
      ∗ (Φ (.gs 0) ∗ Φ (.gs 1) ∗ Φ (.gs 2))
      ∗ (Φ (.gr 0 c) ∗ X (fun s => Φ (.gr 0 s))) ∗ (Φ (.gr 1 c) ∗ X (fun s => Φ (.gr 1 s)))
      ∗ bigSep (Finset.univ : Finset (Dev nD)) (fun s => Φ (.gr 2 s))) := by
    rw [← dev8_at c (alongB c) (alongB_eq c) (fun s => Φ (.rr 0 s)), ← dev8_at c (alongB c) (alongB_eq c) (fun s => Φ (.rr 1 s)),
      ← dev8_at c (alongB c) (alongB_eq c) (fun s => Φ (.rr 2 s)), ← dev8_at c X hX (fun s => Φ (.gr 0 s)),
      ← dev8_at c X hX (fun s => Φ (.gr 1 s)), bigSep_dev8 (fun s => Φ (.gr 2 s)), bigSep_CK_rest]
    simp only [sep_assoc_eq]
  rw [mid]
  unfold kindsUsed kindsUnused
  refine eq_of_entails ?_ ?_
  · iintro ⟨⟨s0, s1, s2⟩, ⟨r0c, r0⟩, ⟨r1c, r1⟩, ⟨r2c, r2⟩, ⟨g0, g1, g2⟩, ⟨q0c, q0⟩, ⟨q1c, q1⟩, q2⟩
    iframe
  · iintro ⟨⟨⟨s0, r0⟩, ⟨s1, r1⟩, ⟨s2, r2⟩, ⟨g0, q0⟩, ⟨g1, q1⟩⟩, r0c, r1c, r2c, g2, q0c, q1c, q2⟩
    iframe

theorem kinds_split (c : Dev nD) (X : (Dev nD → sProp M) → sProp M) (hX : ∀ Φ, bigSep (peers c) Φ = X Φ) (Φ : CK → sProp M) :
    bigSep (Finset.univ : Finset CK) Φ = iprop(Φ .bar ∗ kindsUsed c X Φ ∗ kindsUnused c Φ) := by
  rw [bigSep_univ_at Φ .bar, kinds_rest_split c X hX Φ]

end Kinds

/-! ## Positions and credit -/

/-- The device's positions at the cells that have duties, in program order. -/
abbrev posFam (c : Dev nD) (X : (Dev nD → sProp 𝕄) → sProp 𝕄) : sProp 𝕄 :=
  iprop(atPos ER (barCell c) 0 ∅ 0
    ∗ (atPos ER (rsCell c 0) 0 ∅ 0 ∗ alongB c (fun s => (atPos ER (rrCell c 0 s) 0 ∅ 0 : sProp 𝕄)))
    ∗ (atPos ER (rsCell c 1) 0 ∅ 0 ∗ alongB c (fun s => (atPos ER (rrCell c 1 s) 0 ∅ 0 : sProp 𝕄)))
    ∗ (atPos ER (rsCell c 2) 0 ∅ 0 ∗ alongB c (fun s => (atPos ER (rrCell c 2 s) 0 ∅ 0 : sProp 𝕄)))
    ∗ (atPos ER (gsCell c 0) 0 ∅ 0 ∗ X (fun s => (atPos ER (grCell c 0 s) 0 ∅ 0 : sProp 𝕄)))
    ∗ (atPos ER (gsCell c 1) 0 ∅ 0 ∗ X (fun s => (atPos ER (grCell c 1 s) 0 ∅ 0 : sProp 𝕄))))
/-- Its positions at its cells without duties. -/
abbrev posRest (c : Dev nD) : sProp 𝕄 := kindsUnused c (fun k => (atPos ER (kcell c k) 0 ∅ 0 : sProp 𝕄))

theorem pos_intro (c : Dev nD) (X : (Dev nD → sProp 𝕄) → sProp 𝕄) (hX : ∀ Φ, bigSep (peers c) Φ = X Φ) :
    (posAll (F := F) c) ⊢ iprop(posFam c X ∗ posRest c) := by
  unfold posAll
  rw [kinds_split c X hX, ← sep_assoc_eq]
  exact .rfl

/-- The device's credit, in program order: the seven entry signals it will hear; per layer the arrivals from the senders
    before it on the ring; per gathering layer the arrivals from the literal senders. -/
abbrev credsFam (c : Dev nD) (X : (Dev nD → sProp 𝕄) → sProp 𝕄) : sProp 𝕄 :=
  iprop(cred (tallyAt (barCell c) () 7)
    ∗ alongB c (fun s => (cred (tallyAt (rrCell c 0 s) () N64) : sProp 𝕄))
    ∗ alongB c (fun s => (cred (tallyAt (rrCell c 1 s) () N64) : sProp 𝕄))
    ∗ alongB c (fun s => (cred (tallyAt (rrCell c 2 s) () N64) : sProp 𝕄))
    ∗ X (fun s => (cred (tallyAt (grCell c 0 s) () N64) : sProp 𝕄))
    ∗ X (fun s => (cred (tallyAt (grCell c 1 s) () N64) : sProp 𝕄)))

theorem creds_intro (c : Dev nD) (X : (Dev nD → sProp 𝕄) → sProp 𝕄) (hX : ∀ Φ, bigSep (peers c) Φ = X Φ) :
    (credsOf (F := F) c) ⊢ credsFam c X := by
  unfold credsOf credFrom
  simp only [bigSep_sep']
  iintro ⟨B, R0, R1, R2, G0, G1⟩
  ihave R0 := (Entails.of_eq (alongB_eq c _)) $$ R0
  ihave R1 := (Entails.of_eq (alongB_eq c _)) $$ R1
  ihave R2 := (Entails.of_eq (alongB_eq c _)) $$ R2
  ihave G0 := (Entails.of_eq (hX _)) $$ G0
  ihave G1 := (Entails.of_eq (hX _)) $$ G1
  unfold credsFam
  iframe

/-! ## The buffers at entry -/

section Layers
variable {M : Type u} [URA M]

/-- A family over layers and devices, layer by layer: the term of `c` and those of its peers. -/
theorem layers_split (c : Dev nD) (Ψ : Fin 3 × Dev nD → sProp M) :
    bigSep Finset.univ Ψ = iprop((Ψ (0, c) ∗ bigSep (peers c) (fun p => Ψ (0, p))) ∗ (Ψ (1, c) ∗ bigSep (peers c) (fun p => Ψ (1, p)))
      ∗ (Ψ (2, c) ∗ bigSep (peers c) (fun p => Ψ (2, p)))) := by
  rw [bigSep_univ_prod, bigSep_fin3, bigSep_univ_at (fun b => Ψ (0, b)) c, bigSep_univ_at (fun b => Ψ (1, b)) c,
    bigSep_univ_at (fun b => Ψ (2, b)) c]
  rfl

/-- The same with the last layer kept together. -/
theorem layers_split' (c : Dev nD) (Ψ : Fin 3 × Dev nD → sProp M) :
    bigSep Finset.univ Ψ = iprop((Ψ (0, c) ∗ bigSep (peers c) (fun p => Ψ (0, p))) ∗ (Ψ (1, c) ∗ bigSep (peers c) (fun p => Ψ (1, p)))
      ∗ bigSep (Finset.univ : Finset (Dev nD)) (fun t => Ψ (2, t))) := by
  rw [bigSep_univ_prod, bigSep_fin3, bigSep_univ_at (fun b => Ψ (0, b)) c, bigSep_univ_at (fun b => Ψ (1, b)) c]
  rfl

end Layers

/-- What the entry signal to `p` hands over, from its ten parts. -/
theorem barPay_intro (c p : Dev nD) :
    iprop((∃ f, piece c (rSlot 0 p) fullShare f) ∗ (∃ f, piece c (rSlot 1 p) fullShare f) ∗ (∃ f, piece c (rSlot 2 p) fullShare f)
      ∗ (∃ f, piece c (gChunk 0 p) fullShare f) ∗ (∃ f, piece c (gChunk 1 p) fullShare f)
      ∗ reached ER (rrCell c 0 p) 0 ∗ reached ER (rrCell c 1 p) 0 ∗ reached ER (rrCell c 2 p) 0
      ∗ reached ER (grCell c 0 p) 0 ∗ reached ER (grCell c 1 p) 0) ⊢ (barPay p c : sProp 𝕄) := by
  unfold barPay; exact .rfl

/-- The receive buffer held whole at some contents, cut into its slots (at those contents), layer by layer. -/
theorem scr1_cut (c : Dev nD) : (scr c cc0_scratch1 : sProp 𝕄)
    ⊢ iprop(∃ f : Buf (Elt F) ((c : Thread nD τ).loc cc0_scratch1),
      (piece c (rSlot 0 c) fullShare f ∗ bigSep (peers c) (fun p => piece c (rSlot 0 p) fullShare f))
      ∗ (piece c (rSlot 1 c) fullShare f ∗ bigSep (peers c) (fun p => piece c (rSlot 1 p) fullShare f))
      ∗ (piece c (rSlot 2 c) fullShare f ∗ bigSep (peers c) (fun p => piece c (rSlot 2 p) fullShare f))) := by
  unfold scr
  iintro ⟨%f, H⟩
  iexists f
  iapply (Entails.of_eq (layers_split c (fun a => piece c (rSlot a.1 a.2) fullShare f)))
  iapply (whole1_split c fullShare f)
  iapply (Entails.of_eq (congrArg (fun I => pointsTo ((c : Thread nD τ).loc cc0_scratch1) I fullShare f) (View.set_whole cc0_scratch1).symm))
  iexact H

/-- The gather buffer held whole at some contents, cut into its chunks (at those contents), the last layer together. -/
theorem scr2_cut (c : Dev nD) : (scr c cc0_scratch2 : sProp 𝕄)
    ⊢ iprop(∃ f : Buf (Elt F) ((c : Thread nD τ).loc cc0_scratch2),
      (piece c (gChunk 0 c) fullShare f ∗ bigSep (peers c) (fun p => piece c (gChunk 0 p) fullShare f))
      ∗ (piece c (gChunk 1 c) fullShare f ∗ bigSep (peers c) (fun p => piece c (gChunk 1 p) fullShare f))
      ∗ bigSep (Finset.univ : Finset (Dev nD)) (fun t => piece c (gChunk 2 t) fullShare f)) := by
  unfold scr
  iintro ⟨%f, H⟩
  iexists f
  iapply (Entails.of_eq (layers_split' c (fun a => piece c (gChunk a.1 a.2) fullShare f)))
  iapply (whole2_split c fullShare f)
  iapply (Entails.of_eq (congrArg (fun I => pointsTo ((c : Thread nD τ).loc cc0_scratch2) I fullShare f) (View.set_whole cc0_scratch2).symm))
  iexact H

/-- The device's own slots of the receive buffer: nobody writes them. -/
abbrev slotsOwn (c : Dev nD) : sProp 𝕄 :=
  iprop(∃ f : Buf (Elt F) ((c : Thread nD τ).loc cc0_scratch1), piece c (rSlot 0 c) fullShare f ∗ piece c (rSlot 1 c) fullShare f ∗ piece c (rSlot 2 c) fullShare f)
/-- What the device keeps of the gather buffer at entry: its own chunks of the gathering layers, and the last layer. -/
abbrev gathOwn (c : Dev nD) : sProp 𝕄 :=
  iprop(∃ f : Buf (Elt F) ((c : Thread nD τ).loc cc0_scratch2), piece c (gChunk 0 c) fullShare f ∗ piece c (gChunk 1 c) fullShare f
    ∗ bigSep (Finset.univ : Finset (Dev nD)) (fun t => piece c (gChunk 2 t) fullShare f))

/-- The pieces the entry signals hand over, with the round-0 facts of the cells their copies land on. -/
theorem piece_ex (c : Dev nD) {sp : Space} (M : Memref sig .tc sp S64x256 .bf16) (q : PosShare TreeShare) (f : Buf (Elt F) (M.view.loc (c : Thread nD τ))) :
    (piece c M q f : sProp 𝕄) ⊢ iprop(∃ f, piece c M q f) := by
  iintro H; iexists f; iexact H

theorem reached_at (d : Dev nD) (k : CK) : (reachedAll (F := F)) ⊢ (reached ER (kcell d k) 0 : sProp 𝕄) :=
  allAt (fun a : Dev nD × CK => (reached ER (kcell a.1 a.2) 0 : sProp 𝕄)) d k

theorem barPays_intro (c : Dev nD) (f1 : Buf (Elt F) ((c : Thread nD τ).loc cc0_scratch1)) (f2 : Buf (Elt F) ((c : Thread nD τ).loc cc0_scratch2)) :
    iprop(reachedAll ∗ bigSep (peers c) (fun p => piece c (rSlot 0 p) fullShare f1) ∗ bigSep (peers c) (fun p => piece c (rSlot 1 p) fullShare f1)
      ∗ bigSep (peers c) (fun p => piece c (rSlot 2 p) fullShare f1) ∗ bigSep (peers c) (fun p => piece c (gChunk 0 p) fullShare f2)
      ∗ bigSep (peers c) (fun p => piece c (gChunk 1 p) fullShare f2))
      ⊢ (alongF c (fun p => barPay p c) : sProp 𝕄) := by
  have h0 : bigSep (peers c) (fun p => piece c (rSlot 0 p) fullShare f1) ⊢ bigSep (peers c) (fun p => (iprop(∃ f, piece c (rSlot 0 p) fullShare f) : sProp 𝕄)) :=
    bigSep_mono fun p _ => piece_ex c (rSlot 0 p) fullShare f1
  have h1 : bigSep (peers c) (fun p => piece c (rSlot 1 p) fullShare f1) ⊢ bigSep (peers c) (fun p => (iprop(∃ f, piece c (rSlot 1 p) fullShare f) : sProp 𝕄)) :=
    bigSep_mono fun p _ => piece_ex c (rSlot 1 p) fullShare f1
  have h2 : bigSep (peers c) (fun p => piece c (rSlot 2 p) fullShare f1) ⊢ bigSep (peers c) (fun p => (iprop(∃ f, piece c (rSlot 2 p) fullShare f) : sProp 𝕄)) :=
    bigSep_mono fun p _ => piece_ex c (rSlot 2 p) fullShare f1
  have h3 : bigSep (peers c) (fun p => piece c (gChunk 0 p) fullShare f2) ⊢ bigSep (peers c) (fun p => (iprop(∃ f, piece c (gChunk 0 p) fullShare f) : sProp 𝕄)) :=
    bigSep_mono fun p _ => piece_ex c (gChunk 0 p) fullShare f2
  have h4 : bigSep (peers c) (fun p => piece c (gChunk 1 p) fullShare f2) ⊢ bigSep (peers c) (fun p => (iprop(∃ f, piece c (gChunk 1 p) fullShare f) : sProp 𝕄)) :=
    bigSep_mono fun p _ => piece_ex c (gChunk 1 p) fullShare f2
  have r0 : (reachedAll (F := F)) ⊢ bigSep (peers c) (fun p => (reached ER (rrCell c 0 p) 0 : sProp 𝕄)) := pers_peers c fun p => reached_at c (.rr 0 p)
  have r1 : (reachedAll (F := F)) ⊢ bigSep (peers c) (fun p => (reached ER (rrCell c 1 p) 0 : sProp 𝕄)) := pers_peers c fun p => reached_at c (.rr 1 p)
  have r2 : (reachedAll (F := F)) ⊢ bigSep (peers c) (fun p => (reached ER (rrCell c 2 p) 0 : sProp 𝕄)) := pers_peers c fun p => reached_at c (.rr 2 p)
  have r3 : (reachedAll (F := F)) ⊢ bigSep (peers c) (fun p => (reached ER (grCell c 0 p) 0 : sProp 𝕄)) := pers_peers c fun p => reached_at c (.gr 0 p)
  have r4 : (reachedAll (F := F)) ⊢ bigSep (peers c) (fun p => (reached ER (grCell c 1 p) 0 : sProp 𝕄)) := pers_peers c fun p => reached_at c (.gr 1 p)
  rw [← alongF_eq]
  unfold barPay
  simp only [bigSep_sep']
  iintro ⟨#HR, p0, p1, p2, q0, q1⟩
  isplitl [p0]; · iapply h0; iexact p0
  isplitl [p1]; · iapply h1; iexact p1
  isplitl [p2]; · iapply h2; iexact p2
  isplitl [q0]; · iapply h3; iexact q0
  isplitl [q1]; · iapply h4; iexact q1
  isplitl []; · iapply r0; iexact HR
  isplitl []; · iapply r1; iexact HR
  isplitl []; · iapply r2; iexact HR
  isplitl []; · iapply r3; iexact HR
  iapply r4; iexact HR

/-- The two buffers peers write into, at entry: what each entry signal hands over, and what the device keeps. -/
theorem bufs_intro (c : Dev nD) :
    iprop(reachedAll ∗ scr c cc0_scratch1 ∗ scr c cc0_scratch2)
      ⊢ (iprop(alongF c (fun p => barPay p c) ∗ slotsOwn c ∗ gathOwn c) : sProp 𝕄) := by
  iintro ⟨#HR, H1, H2⟩
  ihave H1 := (scr1_cut c) $$ H1
  ihave H2 := (scr2_cut c) $$ H2
  icases H1 with ⟨%f1, ⟨o0, p0⟩, ⟨o1, p1⟩, o2, p2⟩
  icases H2 with ⟨%f2, ⟨g0, q0⟩, ⟨g1, q1⟩, g2⟩
  isplitl [p0 p1 p2 q0 q1]
  · iapply (barPays_intro c f1 f2)
    iframe
    iexact HR
  isplitl [o0 o1 o2]
  · iexists f1; iframe
  · iexists f2; iframe

/-! ## The debt -/

theorem amt_rSlot (l : Fin 3) (s : Fin 8) (x : DmaSem sig) : (rSlot l s).view.amount (SemLoc.dma x) = N64 := by
  show (rSlot l s).view.dmaCredit = N64; revert l s; decide
theorem amt_gChunk (l : Fin 3) (t : Fin 8) (x : DmaSem sig) : (gChunk l t).view.amount (SemLoc.dma x) = N64 := by
  show (gChunk l t).view.dmaCredit = N64; revert l t; decide

/-- The arrivals of the reduce copies of layer `l` at the seven literal targets, each in the units its transfer is
    counted in. -/
abbrev owesRedLit (c : Dev nD) (l : Fin 3) (t1 t2 t3 t4 t5 t6 t7 : Dev nD) : CellTallies nD τ sig Unit :=
  tallyAt (rrCell t1 l c) () ((rSlot l c).view.amount (SemLoc.dma (rrS l c))) + tallyAt (rrCell t2 l c) () ((rSlot l c).view.amount (SemLoc.dma (rrS l c)))
    + tallyAt (rrCell t3 l c) () ((rSlot l c).view.amount (SemLoc.dma (rrS l c))) + tallyAt (rrCell t4 l c) () ((rSlot l c).view.amount (SemLoc.dma (rrS l c)))
    + tallyAt (rrCell t5 l c) () ((rSlot l c).view.amount (SemLoc.dma (rrS l c))) + tallyAt (rrCell t6 l c) () ((rSlot l c).view.amount (SemLoc.dma (rrS l c)))
    + tallyAt (rrCell t7 l c) () ((rSlot l c).view.amount (SemLoc.dma (rrS l c)))
/-- The arrivals of the gather copies of layer `l` along the ring, likewise. -/
abbrev owesGatA (c : Dev nD) (l : Fin 3) : CellTallies nD τ sig Unit :=
  tallyAt (grCell (fwd 1 c) l c) () ((gChunk l c).view.amount (SemLoc.dma (grS l c))) + tallyAt (grCell (fwd 2 c) l c) () ((gChunk l c).view.amount (SemLoc.dma (grS l c)))
    + tallyAt (grCell (fwd 3 c) l c) () ((gChunk l c).view.amount (SemLoc.dma (grS l c))) + tallyAt (grCell (fwd 4 c) l c) () ((gChunk l c).view.amount (SemLoc.dma (grS l c)))
    + tallyAt (grCell (fwd 5 c) l c) () ((gChunk l c).view.amount (SemLoc.dma (grS l c))) + tallyAt (grCell (fwd 6 c) l c) () ((gChunk l c).view.amount (SemLoc.dma (grS l c)))
    + tallyAt (grCell (fwd 7 c) l c) () ((gChunk l c).view.amount (SemLoc.dma (grS l c)))
/-- Everything the device owes at launch, in program order, the reduce arrivals by literal target. -/
abbrev debt (c : Dev nD) (t1 t2 t3 t4 t5 t6 t7 : Dev nD) : CellTallies nD τ sig Unit :=
  owesBar c + owesRedLit c 0 t1 t2 t3 t4 t5 t6 t7 + owesRedLit c 1 t1 t2 t3 t4 t5 t6 t7 + owesRedLit c 2 t1 t2 t3 t4 t5 t6 t7
    + owesGatA c 0 + owesGatA c 1

theorem debt_eq (c : Dev nD) (t1 t2 t3 t4 t5 t6 t7 : Dev nD)
    (hR : ∀ l, owesRed c l = tallyAt (rrCell t1 l c) () N64 + tallyAt (rrCell t2 l c) () N64 + tallyAt (rrCell t3 l c) () N64
      + tallyAt (rrCell t4 l c) () N64 + tallyAt (rrCell t5 l c) () N64 + tallyAt (rrCell t6 l c) () N64 + tallyAt (rrCell t7 l c) () N64) :
    O₀ c = debt c t1 t2 t3 t4 t5 t6 t7 := by
  show owesBar c + owesRed c 0 + owesRed c 1 + owesRed c 2 + owesGat c 0 + owesGat c 1 = _
  rw [hR 0, hR 1, hR 2]

/-! ## The whole start -/

/-- What the body of device `c` starts from, taken apart, in the order the protocol uses it: the invariants and the
    round-0 facts of the cells it touches, the level facts, its tokens, positions and credit; then its positions at the
    cells without duties, the partial-product buffer whole, what its entry signals hand over, what it keeps of the receive
    and gather buffers, what it owes, and the staging buffers. -/
abbrev ctx (K : GSem nD τ sig → ℕ) (c : Dev nD) (X : (Dev nD → sProp 𝕄) → sProp 𝕄) (t1 t2 t3 t4 t5 t6 t7 : Dev nD) : sProp 𝕄 :=
  iprop(cellsFam c X (fun g => cellInv ER (sched m) (K g) g) ∗ cellsFam c X (fun g => (reached ER g 0 : sProp 𝕄)) ∗ levAts L lv
    ∗ toksFam c X ∗ posFam c X ∗ credsFam c X
    ∗ posRest c ∗ scr c cc0_scratch0 ∗ alongF c (fun p => barPay p c) ∗ slotsOwn c ∗ gathOwn c
    ∗ (∃ W, owes (c : Thread nD τ) (debt c t1 t2 t3 t4 t5 t6 t7) W)
    ∗ stg c cc0_stg0_0 (argX m c) ∗ stg c cc0_stg1_0 (argW m c 0) ∗ stg c cc0_stg2_0 (argV m c 0)
    ∗ stg c cc0_stg3_0 (argW m c 1) ∗ stg c cc0_stg4_0 (argV m c 1)
    ∗ stg c cc0_stg5_0 (argW m c 2) ∗ stg c cc0_stg6_0 (argV m c 2)
    ∗ (∃ X, stg c cc0_stg7_0 X))

theorem prelude (K : GSem nD τ sig → ℕ) (c : Dev nD) (X : (Dev nD → sProp 𝕄) → sProp 𝕄) (hX : ∀ Φ, bigSep (peers c) Φ = X Φ)
    (t1 t2 t3 t4 t5 t6 t7 : Dev nD)
    (hR : ∀ l, owesRed c l = tallyAt (rrCell t1 l c) () N64 + tallyAt (rrCell t2 l c) () N64 + tallyAt (rrCell t3 l c) () N64
      + tallyAt (rrCell t4 l c) () N64 + tallyAt (rrCell t5 l c) () N64 + tallyAt (rrCell t6 l c) () N64 + tallyAt (rrCell t7 l c) () N64) :
    bodyPre m K c ⊢ ctx m K c X t1 t2 t3 t4 t5 t6 t7 := by
  unfold bodyPre ghost
  rw [debt_eq c t1 t2 t3 t4 t5 t6 t7 hR]
  iintro ⟨⟨⟨#HI, #HR, HP, HT⟩, HC, Hlev, S0, S1, S2⟩, HO, Hstg⟩
  isplitl []; · iapply (invs_intro m K c X hX); iexact HI
  isplitl []; · iapply (reached_intro c X hX); iexact HR
  isplitl [Hlev]; · iexact Hlev
  isplitl [HT]; · iapply (toks_intro c X hX); iexact HT
  ihave HP := (pos_intro c X hX) $$ HP
  icases HP with ⟨HP, HPr⟩
  isplitl [HP]; · iexact HP
  isplitl [HC]; · iapply (creds_intro c X hX); iexact HC
  isplitl [HPr]; · iexact HPr
  isplitl [S0]; · iexact S0
  ihave HB := (bufs_intro c) $$ [S1 S2]
  · isplitl []; · iexact HR
    isplitl [S1] <;> iassumption
  icases HB with ⟨HB, Ho1, Ho2⟩
  isplitl [HB]; · iexact HB
  isplitl [Ho1]; · iexact Ho1
  isplitl [Ho2]; · iexact Ho2
  isplitl [HO]; · iexact HO
  iexact Hstg

end Cert.KernelIdealProof

end
-- ==== Proof.BodySegs.lean ====
import proofs.«900993_g7700000000000994_dist_mlpseq_tp1d_rep_bs_b512_d256_h512_v7x_i8_bf16_1_alg».proof.Proof.Gen.KernelIdeal.Skeleton

/-! The kernel's body cut in three between its layers: the entry handshake with layer 0 (through the last wait for
    layer 0's gather sends), layer 1 (likewise), and layer 2 with the exit. Two printed parts begin with the last two
    waits of the layer before; they are cut there. The body is the three in sequence. -/

set_option maxRecDepth 65536

noncomputable section

namespace Cert.KernelIdealProof

open Cert.KernelIdeal Cert.KernelIdeal.Gen
open Idealize.ShloMosaic Idealize.ShloMosaic.TcCoe Idealize.SL.Sem

variable {F : FTy → Type} [FloatOps F]

/-- The two waits the thirteenth printed part begins with (the last two for layer 0's gather sends). -/
def part13a (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) : Prog (TpuEff nD τ sig (Elt F) Λ₀ .tc) PUnit := do
  let v349 : DmaSems sig S1 := arg13.slice (Rect.unit (s := S3) ![0] S1.size inb_S3_S1_0)
  let v350 : DmaSems sig S_ := v349.squeeze S_ squeezes_S1_S_
  let v351 : Memref sig .tc .vmem S1x64x256 .bf16 := arg10.slice (Rect.unit (s := S3x512x256) (k0_off22 d0) S1x64x256.size (k0_off22_inb d0)) (fun _ => rfl)
  let v352 : Memref sig .tc .vmem S64x256 .bf16 := v351.squeeze S64x256 squeezes_S1x64x256_S64x256
  let v353 : Memref sig .tc .vmem S1x64x256 .bf16 := arg10.slice (Rect.unit (s := S3x512x256) (k0_off22 d0) S1x64x256.size (k0_off22_inb d0)) (fun _ => rfl)
  let v354 : Memref sig .tc .vmem S64x256 .bf16 := v353.squeeze S64x256 squeezes_S1x64x256_S64x256
  Prog.lift (.waitDma2 v350.sem v354 v352 ((harg10.wordExact_slice rfl _ (k0_off22_wordsbf16 d0)).reshape _ _) ((harg10.wordExact_slice rfl _ (k0_off22_wordsbf16 d0)).reshape _ _))
  let v355 : DmaSems sig S1 := arg13.slice (Rect.unit (s := S3) ![0] S1.size inb_S3_S1_0)
  let v356 : DmaSems sig S_ := v355.squeeze S_ squeezes_S1_S_
  let v357 : Memref sig .tc .vmem S1x64x256 .bf16 := arg10.slice (Rect.unit (s := S3x512x256) (k0_off22 d0) S1x64x256.size (k0_off22_inb d0)) (fun _ => rfl)
  let v358 : Memref sig .tc .vmem S64x256 .bf16 := v357.squeeze S64x256 squeezes_S1x64x256_S64x256
  let v359 : Memref sig .tc .vmem S1x64x256 .bf16 := arg10.slice (Rect.unit (s := S3x512x256) (k0_off22 d0) S1x64x256.size (k0_off22_inb d0)) (fun _ => rfl)
  let v360 : Memref sig .tc .vmem S64x256 .bf16 := v359.squeeze S64x256 squeezes_S1x64x256_S64x256
  Prog.lift (.waitDma2 v356.sem v360 v358 ((harg10.wordExact_slice rfl _ (k0_off22_wordsbf16 d0)).reshape _ _) ((harg10.wordExact_slice rfl _ (k0_off22_wordsbf16 d0)).reshape _ _))
/-- The rest of the thirteenth part. -/
def part13b (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) (Σ' (v363 : FVec F S256x512 .bf16) (v366 : FVec F S512x256 .bf16), FVec F S128x256 .bf16) := do
  let v361 : Vec F S256x512 .f32 ← Prog.lift (.load arg3 (Rect.unit (s := S256x512) ![0, 0] S256x512.size inb_S256x512_S256x512_0_0).toLoadRect (View.loadsAt_vmem h_S256x512))
  let v364 : Vec F S512x256 .f32 ← Prog.lift (.load arg4 (Rect.unit (s := S512x256) ![0, 0] S512x256.size inb_S512x256_S512x256_0_0).toLoadRect (View.loadsAt_vmem h_S512x256))
  let v367 : BitVec 1 := Scalar.cmpi .ne v2 0#32
  let v368 : BitVec 32 := Scalar.extui v367
  let v369 : BitVec 1 := Scalar.cmpi .ne v368 0#32
  if k0_h17 : v369 = 1#1 then do

    let v988 : DmaSems sig S1x1 := arg14.slice (Rect.unit (s := S3x8) ![0, 0] S1x1.size inb_S3x8_S1x1_0_0)
    let v989 : DmaSems sig S_ := v988.squeeze S_ squeezes_S1x1_S_
    let v990 : Memref sig .tc .vmem S1x64x256 .bf16 := arg10.slice (Rect.unit (s := S3x512x256) ![0, 0, 0] S1x64x256.size inb_S3x512x256_S1x64x256_0_0_0) (fun _ => rfl)
    let v991 : Memref sig .tc .vmem S64x256 .bf16 := v990.squeeze S64x256 squeezes_S1x64x256_S64x256
    let v992 : Memref sig .tc .vmem S1x64x256 .bf16 := arg10.slice (Rect.unit (s := S3x512x256) ![0, 0, 0] S1x64x256.size inb_S3x512x256_S1x64x256_0_0_0) (fun _ => rfl)
    let v993 : Memref sig .tc .vmem S64x256 .bf16 := v992.squeeze S64x256 squeezes_S1x64x256_S64x256
    Prog.lift (.waitDma2 v989.sem v993 v991 ((harg10.wordExact_slice rfl _ wordsbf16_S3x512x256_S1x64x256_0_0_0).reshape _ _) ((harg10.wordExact_slice rfl _ wordsbf16_S3x512x256_S1x64x256_0_0_0).reshape _ _))
    pure ⟨⟩
  else do
    pure ⟨⟩
  let v370 : BitVec 1 := Scalar.cmpi .ne v2 1#32
  let v371 : BitVec 32 := Scalar.extui v370
  let v372 : BitVec 1 := Scalar.cmpi .ne v371 0#32
  if k0_h18 : v372 = 1#1 then do

    let v988 : DmaSems sig S1x1 := arg14.slice (Rect.unit (s := S3x8) ![0, 1] S1x1.size inb_S3x8_S1x1_0_1)
    let v989 : DmaSems sig S_ := v988.squeeze S_ squeezes_S1x1_S_
    let v990 : Memref sig .tc .vmem S1x64x256 .bf16 := arg10.slice (Rect.unit (s := S3x512x256) ![0, 64, 0] S1x64x256.size inb_S3x512x256_S1x64x256_0_64_0) (fun _ => rfl)
    let v991 : Memref sig .tc .vmem S64x256 .bf16 := v990.squeeze S64x256 squeezes_S1x64x256_S64x256
    let v992 : Memref sig .tc .vmem S1x64x256 .bf16 := arg10.slice (Rect.unit (s := S3x512x256) ![0, 64, 0] S1x64x256.size inb_S3x512x256_S1x64x256_0_64_0) (fun _ => rfl)
    let v993 : Memref sig .tc .vmem S64x256 .bf16 := v992.squeeze S64x256 squeezes_S1x64x256_S64x256
    Prog.lift (.waitDma2 v989.sem v993 v991 ((harg10.wordExact_slice rfl _ wordsbf16_S3x512x256_S1x64x256_0_64_0).reshape _ _) ((harg10.wordExact_slice rfl _ wordsbf16_S3x512x256_S1x64x256_0_64_0).reshape _ _))
    pure ⟨⟩
  else do
    pure ⟨⟩
  let v373 : Vec F S1x128x256 .bf16 ← Prog.lift (.load arg10 (Rect.unit (s := S3x512x256) ![0, 0, 0] S1x128x256.size inb_S3x512x256_S1x128x256_0_0_0).toLoadRect (View.loadsAt_vmem h_S1x128x256))
  pure ⟨k0_pay7 v361, k0_pay8 v364, k0_pay9 v361 v364 v373⟩
theorem part13_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    k0_part13 (F := F) arg0 harg0 arg1 harg1 arg2 harg2 arg3 harg3 arg4 harg4 arg5 harg5 arg6 harg6 arg7 harg7 arg8 harg8 arg9 harg9 arg10 harg10 arg11 arg12 arg13 arg14 d0 v2 = (do part13a arg0 harg0 arg1 harg1 arg2 harg2 arg3 harg3 arg4 harg4 arg5 harg5 arg6 harg6 arg7 harg7 arg8 harg8 arg9 harg9 arg10 harg10 arg11 arg12 arg13 arg14 d0 v2; part13b arg0 harg0 arg1 harg1 arg2 harg2 arg3 harg3 arg4 harg4 arg5 harg5 arg6 harg6 arg7 harg7 arg8 harg8 arg9 harg9 arg10 harg10 arg11 arg12 arg13 arg14 d0 v2) := by
  rw [k0_part13_eq_skeleton]; rfl

def part26a (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) : Prog (TpuEff nD τ sig (Elt F) Λ₀ .tc) PUnit := do
  let v738 : Memref sig .tc .vmem S1x64x256 .bf16 := arg10.slice (Rect.unit (s := S3x512x256) (k0_off52 d0) S1x64x256.size (k0_off52_inb d0)) (fun _ => rfl)
  let v739 : Memref sig .tc .vmem S64x256 .bf16 := v738.squeeze S64x256 squeezes_S1x64x256_S64x256
  let v734 : DmaSems sig S1 := arg13.slice (Rect.unit (s := S3) ![1] S1.size inb_S3_S1_1)
  let v735 : DmaSems sig S_ := v734.squeeze S_ squeezes_S1_S_
  let v736 : Memref sig .tc .vmem S1x64x256 .bf16 := arg10.slice (Rect.unit (s := S3x512x256) (k0_off52 d0) S1x64x256.size (k0_off52_inb d0)) (fun _ => rfl)
  let v737 : Memref sig .tc .vmem S64x256 .bf16 := v736.squeeze S64x256 squeezes_S1x64x256_S64x256
  Prog.lift (.waitDma2 v735.sem v739 v737 ((harg10.wordExact_slice rfl _ (k0_off52_wordsbf16 d0)).reshape _ _) ((harg10.wordExact_slice rfl _ (k0_off52_wordsbf16 d0)).reshape _ _))
  let v740 : DmaSems sig S1 := arg13.slice (Rect.unit (s := S3) ![1] S1.size inb_S3_S1_1)
  let v741 : DmaSems sig S_ := v740.squeeze S_ squeezes_S1_S_
  let v742 : Memref sig .tc .vmem S1x64x256 .bf16 := arg10.slice (Rect.unit (s := S3x512x256) (k0_off52 d0) S1x64x256.size (k0_off52_inb d0)) (fun _ => rfl)
  let v743 : Memref sig .tc .vmem S64x256 .bf16 := v742.squeeze S64x256 squeezes_S1x64x256_S64x256
  let v744 : Memref sig .tc .vmem S1x64x256 .bf16 := arg10.slice (Rect.unit (s := S3x512x256) (k0_off52 d0) S1x64x256.size (k0_off52_inb d0)) (fun _ => rfl)
  let v745 : Memref sig .tc .vmem S64x256 .bf16 := v744.squeeze S64x256 squeezes_S1x64x256_S64x256
  Prog.lift (.waitDma2 v741.sem v745 v743 ((harg10.wordExact_slice rfl _ (k0_off52_wordsbf16 d0)).reshape _ _) ((harg10.wordExact_slice rfl _ (k0_off52_wordsbf16 d0)).reshape _ _))
def part26b (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) (Σ' (v748 : FVec F S256x512 .bf16), FVec F S512x256 .bf16) := do
  let v746 : Vec F S256x512 .f32 ← Prog.lift (.load arg5 (Rect.unit (s := S256x512) ![0, 0] S256x512.size inb_S256x512_S256x512_0_0).toLoadRect (View.loadsAt_vmem h_S256x512))
  let v749 : Vec F S512x256 .f32 ← Prog.lift (.load arg6 (Rect.unit (s := S512x256) ![0, 0] S512x256.size inb_S512x256_S512x256_0_0).toLoadRect (View.loadsAt_vmem h_S512x256))
  let v752 : BitVec 1 := Scalar.cmpi .ne v2 0#32
  let v753 : BitVec 32 := Scalar.extui v752
  let v754 : BitVec 1 := Scalar.cmpi .ne v753 0#32
  if k0_h41 : v754 = 1#1 then do

    let v988 : DmaSems sig S1x1 := arg14.slice (Rect.unit (s := S3x8) ![1, 0] S1x1.size inb_S3x8_S1x1_1_0)
    let v989 : DmaSems sig S_ := v988.squeeze S_ squeezes_S1x1_S_
    let v990 : Memref sig .tc .vmem S1x64x256 .bf16 := arg10.slice (Rect.unit (s := S3x512x256) ![1, 0, 0] S1x64x256.size inb_S3x512x256_S1x64x256_1_0_0) (fun _ => rfl)
    let v991 : Memref sig .tc .vmem S64x256 .bf16 := v990.squeeze S64x256 squeezes_S1x64x256_S64x256
    let v992 : Memref sig .tc .vmem S1x64x256 .bf16 := arg10.slice (Rect.unit (s := S3x512x256) ![1, 0, 0] S1x64x256.size inb_S3x512x256_S1x64x256_1_0_0) (fun _ => rfl)
    let v993 : Memref sig .tc .vmem S64x256 .bf16 := v992.squeeze S64x256 squeezes_S1x64x256_S64x256
    Prog.lift (.waitDma2 v989.sem v993 v991 ((harg10.wordExact_slice rfl _ wordsbf16_S3x512x256_S1x64x256_1_0_0).reshape _ _) ((harg10.wordExact_slice rfl _ wordsbf16_S3x512x256_S1x64x256_1_0_0).reshape _ _))
    pure ⟨⟩
  else do
    pure ⟨⟩
  let v755 : BitVec 1 := Scalar.cmpi .ne v2 1#32
  let v756 : BitVec 32 := Scalar.extui v755
  let v757 : BitVec 1 := Scalar.cmpi .ne v756 0#32
  if k0_h42 : v757 = 1#1 then do

    let v988 : DmaSems sig S1x1 := arg14.slice (Rect.unit (s := S3x8) ![1, 1] S1x1.size inb_S3x8_S1x1_1_1)
    let v989 : DmaSems sig S_ := v988.squeeze S_ squeezes_S1x1_S_
    let v990 : Memref sig .tc .vmem S1x64x256 .bf16 := arg10.slice (Rect.unit (s := S3x512x256) ![1, 64, 0] S1x64x256.size inb_S3x512x256_S1x64x256_1_64_0) (fun _ => rfl)
    let v991 : Memref sig .tc .vmem S64x256 .bf16 := v990.squeeze S64x256 squeezes_S1x64x256_S64x256
    let v992 : Memref sig .tc .vmem S1x64x256 .bf16 := arg10.slice (Rect.unit (s := S3x512x256) ![1, 64, 0] S1x64x256.size inb_S3x512x256_S1x64x256_1_64_0) (fun _ => rfl)
    let v993 : Memref sig .tc .vmem S64x256 .bf16 := v992.squeeze S64x256 squeezes_S1x64x256_S64x256
    Prog.lift (.waitDma2 v989.sem v993 v991 ((harg10.wordExact_slice rfl _ wordsbf16_S3x512x256_S1x64x256_1_64_0).reshape _ _) ((harg10.wordExact_slice rfl _ wordsbf16_S3x512x256_S1x64x256_1_64_0).reshape _ _))
    pure ⟨⟩
  else do
    pure ⟨⟩
  let v758 : Vec F S1x128x256 .bf16 ← Prog.lift (.load arg10 (Rect.unit (s := S3x512x256) ![1, 0, 0] S1x128x256.size inb_S3x512x256_S1x128x256_1_0_0).toLoadRect (View.loadsAt_vmem h_S1x128x256))
  let v766 : Vec F S1x128x256 .bf16 ← Prog.lift (.load arg8 (Rect.unit (s := S3x512x256) ![2, 0, 0] S1x128x256.size inb_S3x512x256_S1x128x256_2_0_0).toLoadRect (View.loadsAt_vmem h_S1x128x256))

  Prog.lift (.store arg8 (Rect.unit (s := S3x512x256) ![2, 0, 0] S1x128x256.size inb_S3x512x256_S1x128x256_2_0_0) (k0_pay21 v746 v749 v758) Finset.univ (View.stores_vmem h_S1x128x256 (harg8.storeExact_slice rfl _ packedbf16_S3x512x256_S1x128x256_2_0_0) (fun _ => rfl)) (.inl rfl))
  pure ⟨k0_pay19 v746, k0_pay20 v749⟩
theorem part26_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    k0_part26 (F := F) arg0 harg0 arg1 harg1 arg2 harg2 arg3 harg3 arg4 harg4 arg5 harg5 arg6 harg6 arg7 harg7 arg8 harg8 arg9 harg9 arg10 harg10 arg11 arg12 arg13 arg14 d0 v2 = (do part26a arg0 harg0 arg1 harg1 arg2 harg2 arg3 harg3 arg4 harg4 arg5 harg5 arg6 harg6 arg7 harg7 arg8 harg8 arg9 harg9 arg10 harg10 arg11 arg12 arg13 arg14 d0 v2; part26b arg0 harg0 arg1 harg1 arg2 harg2 arg3 harg3 arg4 harg4 arg5 harg5 arg6 harg6 arg7 harg7 arg8 harg8 arg9 harg9 arg10 harg10 arg11 arg12 arg13 arg14 d0 v2) := by
  rw [k0_part26_eq_skeleton]; rfl

/-- The entry handshake and layer 0: returns the device and its id as the kernel computes it. -/
def segA (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) :
    Prog (TpuEff nD τ sig (Elt F) Λ₀ .tc) (Σ' (d0 : Dev nD), BitVec 32) := do
  let ⟨d0, v2, v3, v24, c8_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 harg7 arg8 harg8 arg9 harg9 arg10 harg10 arg11 arg12 arg13 arg14
  let v54 : BitVec 32 ← k0_part2 arg0 harg0 arg1 harg1 arg2 harg2 arg3 harg3 arg4 harg4 arg5 harg5 arg6 harg6 arg7 harg7 arg8 harg8 arg9 harg9 arg10 harg10 arg11 arg12 arg13 arg14 d0 v2 v3 v24 c8_i32_20
  let ⟨v78, v81, v82, c0_i32_65⟩ : Σ' (v78 : FVec F S64x256 .f32) (v81 : BitVec 32) (v82 : BitVec 32), BitVec 32 ← k0_part3 arg0 harg0 arg1 harg1 arg2 harg2 arg3 harg3 arg4 harg4 arg5 harg5 arg6 harg6 arg7 harg7 arg8 harg8 arg9 harg9 arg10 harg10 arg11 arg12 arg13 arg14 d0 v2 v54
  let ⟨v110, v113⟩ : Σ' (v110 : FVec F S64x256 .f32), BitVec 32 ← k0_part4 arg0 harg0 arg1 harg1 arg2 harg2 arg3 harg3 arg4 harg4 arg5 harg5 arg6 harg6 arg7 harg7 arg8 harg8 arg9 harg9 arg10 harg10 arg11 arg12 arg13 arg14 d0 v2 v78 v81 v82 c0_i32_65
  let ⟨v142, c8_i32_121⟩ : Σ' (v142 : FVec F S64x256 .f32), BitVec 32 ← k0_part5 arg0 harg0 arg1 harg1 arg2 harg2 arg3 harg3 arg4 harg4 arg5 harg5 arg6 harg6 arg7 harg7 arg8 harg8 arg9 harg9 arg10 harg10 arg11 arg12 arg13 arg14 d0 v2 v110 v113
  let v158 : FVec F S64x256 .f32 ← k0_part6 arg0 harg0 arg1 harg1 arg2 harg2 arg3 harg3 arg4 harg4 arg5 harg5 arg6 harg6 arg7 harg7 arg8 harg8 arg9 harg9 arg10 harg10 arg11 arg12 arg13 arg14 d0 v2 v142 c8_i32_121
  let v198 : BitVec 32 ← k0_part7 arg0 harg0 arg1 harg1 arg2 harg2 arg3 harg3 arg4 harg4 arg5 harg5 arg6 harg6 arg7 harg7 arg8 harg8 arg9 harg9 arg10 harg10 arg11 arg12 arg13 arg14 d0 v2 v158
  k0_part8 arg0 harg0 arg1 harg1 arg2 harg2 arg3 harg3 arg4 harg4 arg5 harg5 arg6 harg6 arg7 harg7 arg8 harg8 arg9 harg9 arg10 harg10 arg11 arg12 arg13 arg14 d0 v2 v198
  k0_part9 arg0 harg0 arg1 harg1 arg2 harg2 arg3 harg3 arg4 harg4 arg5 harg5 arg6 harg6 arg7 harg7 arg8 harg8 arg9 harg9 arg10 harg10 arg11 arg12 arg13 arg14 d0 v2
  let v296 : BitVec 32 ← k0_part10 arg0 harg0 arg1 harg1 arg2 harg2 arg3 harg3 arg4 harg4 arg5 harg5 arg6 harg6 arg7 harg7 arg8 harg8 arg9 harg9 arg10 harg10 arg11 arg12 arg13 arg14 d0 v2
  k0_part11 arg0 harg0 arg1 harg1 arg2 harg2 arg3 harg3 arg4 harg4 arg5 harg5 arg6 harg6 arg7 harg7 arg8 harg8 arg9 harg9 arg10 harg10 arg11 arg12 arg13 arg14 d0 v2 v296
  k0_part12 arg0 harg0 arg1 harg1 arg2 harg2 arg3 harg3 arg4 harg4 arg5 harg5 arg6 harg6 arg7 harg7 arg8 harg8 arg9 harg9 arg10 harg10 arg11 arg12 arg13 arg14 d0
  part13a arg0 harg0 arg1 harg1 arg2 harg2 arg3 harg3 arg4 harg4 arg5 harg5 arg6 harg6 arg7 harg7 arg8 harg8 arg9 harg9 arg10 harg10 arg11 arg12 arg13 arg14 d0 v2
  pure ⟨d0, v2⟩

/-- Layer 1. -/
def segB (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) PUnit := do
  let ⟨v363, v366, v380⟩ : Σ' (v363 : FVec F S256x512 .bf16) (v366 : FVec F S512x256 .bf16), FVec F S128x256 .bf16 ← part13b arg0 harg0 arg1 harg1 arg2 harg2 arg3 harg3 arg4 harg4 arg5 harg5 arg6 harg6 arg7 harg7 arg8 harg8 arg9 harg9 arg10 harg10 arg11 arg12 arg13 arg14 d0 v2
  let v411 : BitVec 32 ← k0_part14 arg0 harg0 arg1 harg1 arg2 harg2 arg3 harg3 arg4 harg4 arg5 harg5 arg6 harg6 arg7 harg7 arg8 harg8 arg9 harg9 arg10 harg10 arg11 arg12 arg13 arg14 d0 v2 v363 v366 v380
  k0_part15 arg0 harg0 arg1 harg1 arg2 harg2 arg3 harg3 arg4 harg4 arg5 harg5 arg6 harg6 arg7 harg7 arg8 harg8 arg9 harg9 arg10 harg10 arg11 arg12 arg13 arg14 d0 v2 v363 v366 v411
  let ⟨v463, v466⟩ : Σ' (v463 : FVec F S64x256 .f32), BitVec 32 ← k0_part16 arg0 harg0 arg1 harg1 arg2 harg2 arg3 harg3 arg4 harg4 arg5 harg5 arg6 harg6 arg7 harg7 arg8 harg8 arg9 harg9 arg10 harg10 arg11 arg12 arg13 arg14 d0 v2 v363 v366
  let ⟨v495, v498, v499, c0_i32_432⟩ : Σ' (v495 : FVec F S64x256 .f32) (v498 : BitVec 32) (v499 : BitVec 32), BitVec 32 ← k0_part17 arg0 harg0 arg1 harg1 arg2 harg2 arg3 harg3 arg4 harg4 arg5 harg5 arg6 harg6 arg7 harg7 arg8 harg8 arg9 harg9 arg10 harg10 arg11 arg12 arg13 arg14 d0 v2 v463 v466
  let ⟨v527, v530⟩ : Σ' (v527 : FVec F S64x256 .f32), BitVec 32 ← k0_part18 arg0 harg0 arg1 harg1 arg2 harg2 arg3 harg3 arg4 harg4 arg5 harg5 arg6 harg6 arg7 harg7 arg8 harg8 arg9 harg9 arg10 harg10 arg11 arg12 arg13 arg14 d0 v2 v495 v498 v499 c0_i32_432
  let ⟨v559, c8_i32_488⟩ : Σ' (v559 : FVec F S64x256 .f32), BitVec 32 ← k0_part19 arg0 harg0 arg1 harg1 arg2 harg2 arg3 harg3 arg4 harg4 arg5 harg5 arg6 harg6 arg7 harg7 arg8 harg8 arg9 harg9 arg10 harg10 arg11 arg12 arg13 arg14 d0 v2 v527 v530
  k0_part20 arg0 harg0 arg1 harg1 arg2 harg2 arg3 harg3 arg4 harg4 arg5 harg5 arg6 harg6 arg7 harg7 arg8 harg8 arg9 harg9 arg10 harg10 arg11 arg12 arg13 arg14 d0 v2 v559 c8_i32_488
  k0_part21 arg0 harg0 arg1 harg1 arg2 harg2 arg3 harg3 arg4 harg4 arg5 harg5 arg6 harg6 arg7 harg7 arg8 harg8 arg9 harg9 arg10 harg10 arg11 arg12 arg13 arg14 d0 v2
  let ⟨v652, c8_i32_568⟩ : Σ' (v652 : BitVec 32), BitVec 32 ← k0_part22 arg0 harg0 arg1 harg1 arg2 harg2 arg3 harg3 arg4 harg4 arg5 harg5 arg6 harg6 arg7 harg7 arg8 harg8 arg9 harg9 arg10 harg10 arg11 arg12 arg13 arg14 d0 v2
  let v684 : BitVec 32 ← k0_part23 arg0 harg0 arg1 harg1 arg2 harg2 arg3 harg3 arg4 harg4 arg5 harg5 arg6 harg6 arg7 harg7 arg8 harg8 arg9 harg9 arg10 harg10 arg11 arg12 arg13 arg14 d0 v2 v652 c8_i32_568
  k0_part24 arg0 harg0 arg1 harg1 arg2 harg2 arg3 harg3 arg4 harg4 arg5 harg5 arg6 harg6 arg7 harg7 arg8 harg8 arg9 harg9 arg10 harg10 arg11 arg12 arg13 arg14 d0 v2 v684
  k0_part25 arg0 harg0 arg1 harg1 arg2 harg2 arg3 harg3 arg4 harg4 arg5 harg5 arg6 harg6 arg7 harg7 arg8 harg8 arg9 harg9 arg10 harg10 arg11 arg12 arg13 arg14 d0
  part26a arg0 harg0 arg1 harg1 arg2 harg2 arg3 harg3 arg4 harg4 arg5 harg5 arg6 harg6 arg7 harg7 arg8 harg8 arg9 harg9 arg10 harg10 arg11 arg12 arg13 arg14 d0 v2

/-- Layer 2 and the exit. -/
def segC (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) PUnit := do
  let ⟨v748, v751⟩ : Σ' (v748 : FVec F S256x512 .bf16), FVec F S512x256 .bf16 ← part26b arg0 harg0 arg1 harg1 arg2 harg2 arg3 harg3 arg4 harg4 arg5 harg5 arg6 harg6 arg7 harg7 arg8 harg8 arg9 harg9 arg10 harg10 arg11 arg12 arg13 arg14 d0 v2
  let v799 : BitVec 32 ← k0_part27 arg0 harg0 arg1 harg1 arg2 harg2 arg3 harg3 arg4 harg4 arg5 harg5 arg6 harg6 arg7 harg7 arg8 harg8 arg9 harg9 arg10 harg10 arg11 arg12 arg13 arg14 d0 v2 v748 v751
  let ⟨v828, cst_717⟩ : Σ' (v828 : FVec F S128x256 .bf16), FVec F S128x512 .f32 ← k0_part28 arg0 harg0 arg1 harg1 arg2 harg2 arg3 harg3 arg4 harg4 arg5 harg5 arg6 harg6 arg7 harg7 arg8 harg8 arg9 harg9 arg10 harg10 arg11 arg12 arg13 arg14 d0 v2 v748 v751 v799
  let ⟨v848, v851⟩ : Σ' (v848 : FVec F S64x256 .f32), BitVec 32 ← k0_part29 arg0 harg0 arg1 harg1 arg2 harg2 arg3 harg3 arg4 harg4 arg5 harg5 arg6 harg6 arg7 harg7 arg8 harg8 arg9 harg9 arg10 harg10 arg11 arg12 arg13 arg14 d0 v2 v748 v751 v828 cst_717
  let ⟨v880, v883⟩ : Σ' (v880 : FVec F S64x256 .f32), BitVec 32 ← k0_part30 arg0 harg0 arg1 harg1 arg2 harg2 arg3 harg3 arg4 harg4 arg5 harg5 arg6 harg6 arg7 harg7 arg8 harg8 arg9 harg9 arg10 harg10 arg11 arg12 arg13 arg14 d0 v2 v848 v851
  let ⟨v912, v915, v916, c0_i32_802⟩ : Σ' (v912 : FVec F S64x256 .f32) (v915 : BitVec 32) (v916 : BitVec 32), BitVec 32 ← k0_part31 arg0 harg0 arg1 harg1 arg2 harg2 arg3 harg3 arg4 harg4 arg5 harg5 arg6 harg6 arg7 harg7 arg8 harg8 arg9 harg9 arg10 harg10 arg11 arg12 arg13 arg14 d0 v2 v880 v883
  let ⟨v944, v947⟩ : Σ' (v944 : FVec F S64x256 .f32), BitVec 32 ← k0_part32 arg0 harg0 arg1 harg1 arg2 harg2 arg3 harg3 arg4 harg4 arg5 harg5 arg6 harg6 arg7 harg7 arg8 harg8 arg9 harg9 arg10 harg10 arg11 arg12 arg13 arg14 d0 v2 v912 v915 v916 c0_i32_802
  k0_part33 arg0 harg0 arg1 harg1 arg2 harg2 arg3 harg3 arg4 harg4 arg5 harg5 arg6 harg6 arg7 harg7 arg8 harg8 arg9 harg9 arg10 harg10 arg11 arg12 arg13 arg14 d0 v2 v944 v947

  if k0_h62 : k0_cond62 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 320, 0] S1x64x256.size inb_S3x512x256_S1x64x256_2_320_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off86 d0) S1x1x64x256.size (k0_off86_inb d0 k0_h62)) (fun _ => rfl)
    let v991 : Memref sig .tc .vmem S64x256 .bf16 := v990.squeeze S64x256 squeezes_S1x1x64x256_S64x256
    Prog.lift (.waitDma2 v987.sem v991 v989 ((harg9.wordExact_slice rfl _ (k0_off86_wordsbf16 d0 k0_h62)).reshape _ _) ((harg8.wordExact_slice rfl _ wordsbf16_S3x512x256_S1x64x256_2_320_0).reshape _ _))
    pure ⟨⟩
  else do
    pure ⟨⟩

  if k0_h63 : k0_cond63 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 384, 0] S1x64x256.size inb_S3x512x256_S1x64x256_2_384_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off87 d0) S1x1x64x256.size (k0_off87_inb d0 k0_h63)) (fun _ => rfl)
    let v991 : Memref sig .tc .vmem S64x256 .bf16 := v990.squeeze S64x256 squeezes_S1x1x64x256_S64x256
    Prog.lift (.waitDma2 v987.sem v991 v989 ((harg9.wordExact_slice rfl _ (k0_off87_wordsbf16 d0 k0_h63)).reshape _ _) ((harg8.wordExact_slice rfl _ wordsbf16_S3x512x256_S1x64x256_2_384_0).reshape _ _))
    pure ⟨⟩
  else do
    pure ⟨⟩

  if k0_h64 : k0_cond64 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 448, 0] S1x64x256.size inb_S3x512x256_S1x64x256_2_448_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off88 d0) S1x1x64x256.size (k0_off88_inb d0 k0_h64)) (fun _ => rfl)
    let v991 : Memref sig .tc .vmem S64x256 .bf16 := v990.squeeze S64x256 squeezes_S1x1x64x256_S64x256
    Prog.lift (.waitDma2 v987.sem v991 v989 ((harg9.wordExact_slice rfl _ (k0_off88_wordsbf16 d0 k0_h64)).reshape _ _) ((harg8.wordExact_slice rfl _ wordsbf16_S3x512x256_S1x64x256_2_448_0).reshape _ _))
    pure ⟨⟩
  else do
    pure ⟨⟩
  pure ⟨⟩

theorem body_eq_segs (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) :
    cc0_body (F := F) arg0 harg0 arg1 harg1 arg2 harg2 arg3 harg3 arg4 harg4 arg5 harg5 arg6 harg6 arg7 harg7 arg8 harg8 arg9 harg9 arg10 harg10 arg11 arg12 arg13 arg14 = (do
      let r ← segA arg0 harg0 arg1 harg1 arg2 harg2 arg3 harg3 arg4 harg4 arg5 harg5 arg6 harg6 arg7 harg7 arg8 harg8 arg9 harg9 arg10 harg10 arg11 arg12 arg13 arg14
      segB arg0 harg0 arg1 harg1 arg2 harg2 arg3 harg3 arg4 harg4 arg5 harg5 arg6 harg6 arg7 harg7 arg8 harg8 arg9 harg9 arg10 harg10 arg11 arg12 arg13 arg14 r.1 r.2
      segC arg0 harg0 arg1 harg1 arg2 harg2 arg3 harg3 arg4 harg4 arg5 harg5 arg6 harg6 arg7 harg7 arg8 harg8 arg9 harg9 arg10 harg10 arg11 arg12 arg13 arg14 r.1 r.2) := by
  rw [cc0_body_eq_skeleton]
  unfold cc0_body_skel segA segB segC
  simp only [part13_split, part26_split, bind_assoc, pure_bind]

end Cert.KernelIdealProof

end
-- ==== Proof.BodyMid.lean ====
import proofs.«900993_g7700000000000994_dist_mlpseq_tp1d_rep_bs_b512_d256_h512_v7x_i8_bf16_1_alg».proof.Proof.Data
import proofs.«900993_g7700000000000994_dist_mlpseq_tp1d_rep_bs_b512_d256_h512_v7x_i8_bf16_1_alg».proof.Proof.Prelude
import proofs.«900993_g7700000000000994_dist_mlpseq_tp1d_rep_bs_b512_d256_h512_v7x_i8_bf16_1_alg».proof.Proof.BodySegs

/-! What a device holds between the layers of the kernel. `Ts` is the list of its seven peers named by literal (the
    targets of its reduce sends, the sources of the gather copies it receives); `ringF c` / `ringB c` are the same seven
    in ring order forward (entry signals, gather sends) and backward (the order it adds what it received).
    Per layer `l`: the tokens it pays with, its positions and credit, the peers' pieces its copies land in. Between
    layers everything of the finished layers has come back: the partial-product buffer whole, the receive slots, the
    gather chunks; only the gather copies INTO it of the layer just finished are still to be waited for (the next layer
    waits for them group by group). -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

def ringF (c : Dev nD) : List (Dev nD) := [fwd 1 c, fwd 2 c, fwd 3 c, fwd 4 c, fwd 5 c, fwd 6 c, fwd 7 c]
def ringB (c : Dev nD) : List (Dev nD) := [bwd 1 c, bwd 2 c, bwd 3 c, bwd 4 c, bwd 5 c, bwd 6 c, bwd 7 c]

/-- A 64-row piece held whole at some contents. -/
def ex (c : Dev nD) (M : Memref sig .tc .vmem S64x256 .bf16) : sProp 𝕄 := iprop(∃ f, piece c M fullShare f)

/-- Layer `l`'s tokens: the departures of `c`'s reduce copies and their arrivals at the targets; for `l < 2` the same of its
    gather copies. -/
def layerToks (c : Dev nD) (Ts : List (Dev nD)) (l : Fin 3) : sProp 𝕄 :=
  iprop(bigSepL Ts (fun t => iprop(dutyTok ER (rsCell c l) 0 t ∗ dutyTok ER (rrCell t l c) 0 c))
    ∗ (if l.val < 2 then bigSepL (ringF c) (fun p => iprop(dutyTok ER (gsCell c l) 0 p ∗ dutyTok ER (grCell p l c) 0 c)) else iprop(emp)))
/-- Layer `l`'s reduce positions: the send cell and the seven receive cells with their credit. -/
def posRed (c : Dev nD) (l : Fin 3) : sProp 𝕄 :=
  iprop(atPos ER (rsCell c l) 0 ∅ 0 ∗ bigSepL (ringB c) (fun s => iprop(atPos ER (rrCell c l s) 0 ∅ 0 ∗ cred (tallyAt (rrCell c l s) () N64))))
/-- Layer `l`'s gather-send position (`l < 2`). -/
def posGs (c : Dev nD) (l : Fin 3) : sProp 𝕄 := atPos ER (gsCell c l) 0 ∅ 0
/-- Layer `l`'s gather-receive positions with their credit (`l < 2`): waited for during layer `l + 1`. -/
def posGr (c : Dev nD) (Ts : List (Dev nD)) (l : Fin 3) : sProp 𝕄 :=
  bigSepL Ts (fun s => iprop(atPos ER (grCell c l s) 0 ∅ 0 ∗ cred (tallyAt (grCell c l s) () N64)))
/-- The peers' pieces layer `l`'s copies land in. -/
def layerDest (c : Dev nD) (Ts : List (Dev nD)) (l : Fin 3) : sProp 𝕄 :=
  iprop(bigSepL Ts (fun t => iprop(∃ fd, piece t (rSlot l c) fullShare fd))
    ∗ (if l.val < 2 then bigSepL (ringF c) (fun p => iprop(∃ fd, piece p (gChunk l c) fullShare fd)) else iprop(emp)))
/-- Everything layer `l` starts from. -/
def layerRes (c : Dev nD) (Ts : List (Dev nD)) (l : Fin 3) : sProp 𝕄 :=
  iprop(layerToks c Ts l ∗ posRed c l ∗ (if l.val < 2 then iprop(posGs c l ∗ posGr c Ts l) else iprop(emp)) ∗ layerDest c Ts l)

/-- The positions a finished layer leaves (for closing the cells at the exit). -/
def posDoneRed (c : Dev nD) (l : Fin 3) : sProp 𝕄 :=
  iprop(atPos ER (rsCell c l) 1 ∅ 0 ∗ bigSepL (ringB c) (fun s => (atPos ER (rrCell c l s) 1 ∅ 0 : sProp 𝕄))
    ∗ (if l.val < 2 then (atPos ER (gsCell c l) 1 ∅ 0 : sProp 𝕄) else iprop(emp)))
def posDoneGr (c : Dev nD) (Ts : List (Dev nD)) (l : Fin 3) : sProp 𝕄 :=
  bigSepL Ts (fun s => (atPos ER (grCell c l s) 1 ∅ 0 : sProp 𝕄))

/-- The receive slots of a finished layer: all eight back. -/
def slotsBack (c : Dev nD) (l : Fin 3) : sProp 𝕄 := iprop(ex c (rSlot l c) ∗ bigSepL (ringB c) (fun s => ex (F := F) c (rSlot l s)))
/-- The eight gather chunks of a layer, all held. -/
def chunksAll (c : Dev nD) (Ts : List (Dev nD)) (l : Fin 3) : sProp 𝕄 := iprop(ex c (gChunk l c) ∗ bigSepL Ts (fun s => ex (F := F) c (gChunk l s)))

/-- What `c` still owes from layer `l` on: the arrivals of its reduce copies of layers `≥ l` and of its gather copies of
    layers `≥ l` below 2 — spelt as the step lemmas peel them: one tally per literal target, one per ring peer. -/
def owesRedL (c : Dev nD) (Ts : List (Dev nD)) (l : Fin 3) : CellTallies nD τ sig Unit :=
  (Ts.map fun t => tallyAt (rrCell t l c) () N64).sum
def owesGatL (c : Dev nD) (l : Fin 3) : CellTallies nD τ sig Unit :=
  ((ringF c).map fun p => tallyAt (grCell p l c) () N64).sum

/-- The seven staged arguments and the result's staging buffer (at whatever it holds, or at the result). -/
def stagedIn (c : Dev nD) : sProp 𝕄 :=
  iprop(stg c cc0_stg0_0 (argX m c) ∗ stg c cc0_stg1_0 (argW m c 0) ∗ stg c cc0_stg2_0 (argV m c 0)
    ∗ stg c cc0_stg3_0 (argW m c 1) ∗ stg c cc0_stg4_0 (argV m c 1) ∗ stg c cc0_stg5_0 (argW m c 2) ∗ stg c cc0_stg6_0 (argV m c 2))

/-- Between layer 0 and layer 1. -/
def mid1 (K : GSem nD τ sig → ℕ) (c : Dev nD) (Ts : List (Dev nD)) : sProp 𝕄 :=
  iprop((invsAll m K ∗ reachedAll ∗ levAts L lv)
    ∗ (∃ W, owes (c : Thread nD τ) (owesRedL c Ts 1 + owesRedL c Ts 2 + owesGatL c 1) W)
    ∗ layerRes c Ts 1 ∗ layerRes c Ts 2
    ∗ posGr c Ts 0 ∗ posDoneRed c 0 ∗ posRest c
    ∗ scr c cc0_scratch0
    ∗ slotsBack c 0 ∗ ex c (rSlot 1 c) ∗ ex c (rSlot 2 c)
    ∗ piece c (gChunk 0 c) fullShare (Gfun m c) ∗ ex c (gChunk 1 c) ∗ chunksAll c Ts 2
    ∗ stagedIn m c ∗ (∃ X, stg c cc0_stg7_0 X))

/-- Between layer 1 and layer 2. -/
def mid2 (K : GSem nD τ sig → ℕ) (c : Dev nD) (Ts : List (Dev nD)) : sProp 𝕄 :=
  iprop((invsAll m K ∗ reachedAll ∗ levAts L lv)
    ∗ (∃ W, owes (c : Thread nD τ) (owesRedL c Ts 2) W)
    ∗ layerRes c Ts 2
    ∗ posGr c Ts 1 ∗ posDoneRed c 0 ∗ posDoneRed c 1 ∗ posDoneGr c Ts 0 ∗ posRest c
    ∗ scr c cc0_scratch0
    ∗ slotsBack c 0 ∗ slotsBack c 1 ∗ ex c (rSlot 2 c)
    ∗ chunksAll c Ts 0 ∗ piece c (gChunk 1 c) fullShare (Gfun m c) ∗ chunksAll c Ts 2
    ∗ stagedIn m c ∗ (∃ X, stg c cc0_stg7_0 X))

/-- The device's id as the kernel computes it. -/
def devWord (c : Dev nD) : BitVec 32 := Scalar.remsi (Scalar.divsi (Dev.word c) 1#32) 8#32

end Cert.KernelIdealProof

end
-- ==== Proof.BodyCompose.lean ====
import proofs.«900993_g7700000000000994_dist_mlpseq_tp1d_rep_bs_b512_d256_h512_v7x_i8_bf16_1_alg».proof.Proof.BodyMid

/-! The body from its three segments: the entry handshake with layer 0 leaves what layer 1 starts from, layer 1 what
    layer 2 starts from, layer 2 with the exit what the body owes the launch. -/

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The three segments in sequence, on one device with its list `Ts` of peers named by literal. -/
theorem body_of_segs (c : Dev nD) (Ts : List (Dev nD)) (K : GSem nD τ sig → ℕ) (Kt : PUnit → sProp 𝕄)
    (hA : ∀ Kt' : (Σ' (d0 : Dev nD), BitVec 32) → sProp 𝕄,
      iprop(bodyPre m K c ∗ (mid1 m K c Ts -∗ Kt' ⟨c, devWord c⟩)) ⊢ wp frame (wpE (defs₀ (F := F)) 𝒱₀ (c : Thread nD τ) none) Set.univ (segA (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt')
    (hB : ∀ Kt' : PUnit → sProp 𝕄,
      iprop(mid1 m K c Ts ∗ (mid2 m K c Ts -∗ Kt' ⟨⟩)) ⊢ wp frame (wpE (defs₀ (F := F)) 𝒱₀ (c : Thread nD τ) none) Set.univ (segB (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt')
    (hC : ∀ Kt' : PUnit → sProp 𝕄,
      iprop(mid2 m K c Ts ∗ (bodyPost m c -∗ Kt' ⟨⟩)) ⊢ wp frame (wpE (defs₀ (F := F)) 𝒱₀ (c : Thread nD τ) none) Set.univ (segC (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt') :
    iprop(bodyPre m K c ∗ (bodyPost m c -∗ Kt ⟨⟩)) ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [body_eq_segs]
  simp only [wp_bind]
  iintro ⟨Hpre, Hk⟩
  iapply (hA _)
  isplitl [Hpre]; · iexact Hpre
  iintro Hm1
  iapply (hB _)
  isplitl [Hm1]; · iexact Hm1
  iintro Hm2
  iapply (hC _)
  isplitl [Hm2]; · iexact Hm2
  iexact Hk

end Cert.KernelIdealProof

end
-- ==== Proof.BodySegACut.lean ====
import proofs.«900993_g7700000000000994_dist_mlpseq_tp1d_rep_bs_b512_d256_h512_v7x_i8_bf16_1_alg».proof.Proof.BodyMid

/-! Layer 0 cut in two after the load of the device's own chunk of its partial products: the entry handshake, the
    first layer's product and the reduce sends on one side; the accumulation of what the peers sent, the gather sends
    and the waits for the layer's copies to have left on the other. The first segment is the two in sequence. -/

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The entry handshake and layer 0 through the last reduce send and the load of the device's own chunk. -/
def segA1 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) :
    Prog (TpuEff nD τ sig (Elt F) Λ₀ .tc) (Σ' (d0 : Dev nD) (v2 : BitVec 32) (v78 : FVec F S64x256 .f32) (v81 : BitVec 32) (v82 : BitVec 32), BitVec 32) := do
  let ⟨d0, v2, v3, v24, c8_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 harg7 arg8 harg8 arg9 harg9 arg10 harg10 arg11 arg12 arg13 arg14
  let v54 : BitVec 32 ← k0_part2 arg0 harg0 arg1 harg1 arg2 harg2 arg3 harg3 arg4 harg4 arg5 harg5 arg6 harg6 arg7 harg7 arg8 harg8 arg9 harg9 arg10 harg10 arg11 arg12 arg13 arg14 d0 v2 v3 v24 c8_i32_20
  let ⟨v78, v81, v82, c0_i32_65⟩ : Σ' (v78 : FVec F S64x256 .f32) (v81 : BitVec 32) (v82 : BitVec 32), BitVec 32 ← k0_part3 arg0 harg0 arg1 harg1 arg2 harg2 arg3 harg3 arg4 harg4 arg5 harg5 arg6 harg6 arg7 harg7 arg8 harg8 arg9 harg9 arg10 harg10 arg11 arg12 arg13 arg14 d0 v2 v54
  pure ⟨d0, v2, v78, v81, v82, c0_i32_65⟩

/-- Layer 0 from the first wait of the accumulation on. -/
def segA2 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) (v78 : FVec F S64x256 .f32) (v81 : BitVec 32) (v82 : BitVec 32) (c0_i32_65 : BitVec 32) :
    Prog (TpuEff nD τ sig (Elt F) Λ₀ .tc) (Σ' (d0 : Dev nD), BitVec 32) := do
  let ⟨v110, v113⟩ : Σ' (v110 : FVec F S64x256 .f32), BitVec 32 ← k0_part4 arg0 harg0 arg1 harg1 arg2 harg2 arg3 harg3 arg4 harg4 arg5 harg5 arg6 harg6 arg7 harg7 arg8 harg8 arg9 harg9 arg10 harg10 arg11 arg12 arg13 arg14 d0 v2 v78 v81 v82 c0_i32_65
  let ⟨v142, c8_i32_121⟩ : Σ' (v142 : FVec F S64x256 .f32), BitVec 32 ← k0_part5 arg0 harg0 arg1 harg1 arg2 harg2 arg3 harg3 arg4 harg4 arg5 harg5 arg6 harg6 arg7 harg7 arg8 harg8 arg9 harg9 arg10 harg10 arg11 arg12 arg13 arg14 d0 v2 v110 v113
  let v158 : FVec F S64x256 .f32 ← k0_part6 arg0 harg0 arg1 harg1 arg2 harg2 arg3 harg3 arg4 harg4 arg5 harg5 arg6 harg6 arg7 harg7 arg8 harg8 arg9 harg9 arg10 harg10 arg11 arg12 arg13 arg14 d0 v2 v142 c8_i32_121
  let v198 : BitVec 32 ← k0_part7 arg0 harg0 arg1 harg1 arg2 harg2 arg3 harg3 arg4 harg4 arg5 harg5 arg6 harg6 arg7 harg7 arg8 harg8 arg9 harg9 arg10 harg10 arg11 arg12 arg13 arg14 d0 v2 v158
  k0_part8 arg0 harg0 arg1 harg1 arg2 harg2 arg3 harg3 arg4 harg4 arg5 harg5 arg6 harg6 arg7 harg7 arg8 harg8 arg9 harg9 arg10 harg10 arg11 arg12 arg13 arg14 d0 v2 v198
  k0_part9 arg0 harg0 arg1 harg1 arg2 harg2 arg3 harg3 arg4 harg4 arg5 harg5 arg6 harg6 arg7 harg7 arg8 harg8 arg9 harg9 arg10 harg10 arg11 arg12 arg13 arg14 d0 v2
  let v296 : BitVec 32 ← k0_part10 arg0 harg0 arg1 harg1 arg2 harg2 arg3 harg3 arg4 harg4 arg5 harg5 arg6 harg6 arg7 harg7 arg8 harg8 arg9 harg9 arg10 harg10 arg11 arg12 arg13 arg14 d0 v2
  k0_part11 arg0 harg0 arg1 harg1 arg2 harg2 arg3 harg3 arg4 harg4 arg5 harg5 arg6 harg6 arg7 harg7 arg8 harg8 arg9 harg9 arg10 harg10 arg11 arg12 arg13 arg14 d0 v2 v296
  k0_part12 arg0 harg0 arg1 harg1 arg2 harg2 arg3 harg3 arg4 harg4 arg5 harg5 arg6 harg6 arg7 harg7 arg8 harg8 arg9 harg9 arg10 harg10 arg11 arg12 arg13 arg14 d0
  part13a arg0 harg0 arg1 harg1 arg2 harg2 arg3 harg3 arg4 harg4 arg5 harg5 arg6 harg6 arg7 harg7 arg8 harg8 arg9 harg9 arg10 harg10 arg11 arg12 arg13 arg14 d0 v2
  pure ⟨d0, v2⟩

theorem segA_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) :
    segA (F := F) arg0 harg0 arg1 harg1 arg2 harg2 arg3 harg3 arg4 harg4 arg5 harg5 arg6 harg6 arg7 harg7 arg8 harg8 arg9 harg9 arg10 harg10 arg11 arg12 arg13 arg14 = (do
      let r ← segA1 arg0 harg0 arg1 harg1 arg2 harg2 arg3 harg3 arg4 harg4 arg5 harg5 arg6 harg6 arg7 harg7 arg8 harg8 arg9 harg9 arg10 harg10 arg11 arg12 arg13 arg14
      segA2 arg0 harg0 arg1 harg1 arg2 harg2 arg3 harg3 arg4 harg4 arg5 harg5 arg6 harg6 arg7 harg7 arg8 harg8 arg9 harg9 arg10 harg10 arg11 arg12 arg13 arg14 r.1 r.2.1 r.2.2.1 r.2.2.2.1 r.2.2.2.2.1 r.2.2.2.2.2) := by
  unfold segA segA1 segA2
  simp only [bind_assoc, pure_bind]

variable (m : (ℓ : Loc nD τ sig) → Buf (Elt F) ℓ)

/-- Between the two halves of layer 0: the entry handshake is over, the layer's partial products are stored, its seven
    reduce copies are on their way, and the device's own chunk of its partial products is loaded. -/
def midA (K : GSem nD τ sig → ℕ) (c : Dev nD) (Ts : List (Dev nD)) (v78 : FVec F S64x256 .f32) : sProp 𝕄 :=
  iprop((invsAll m K ∗ reachedAll ∗ levAts L lv)
    ∗ ⌜v78 = k0_pay2 (chunkOf (P0 m c) c)⌝
    ∗ (∃ W, owes (c : Thread nD τ) (owesRedL c Ts 1 + owesRedL c Ts 2 + owesGatL c 0 + owesGatL c 1) W)
    ∗ bigSepL (ringF c) (fun p => iprop(dutyTok ER (gsCell c 0) 0 p ∗ dutyTok ER (grCell p 0 c) 0 c))
    ∗ bigSepL (ringF c) (fun p => iprop(∃ fd, piece p (gChunk 0 c) fullShare fd))
    ∗ posRed c 0 ∗ posGs c 0 ∗ posGr c Ts 0
    ∗ bigSepL Ts (fun _ => (cred (tallyAt (rsCell c 0) () N64) : sProp 𝕄))
    ∗ layerRes c Ts 1 ∗ layerRes c Ts 2
    ∗ posRest c
    ∗ ex c (pChunk 0 c) ∗ bigSep (Finset.univ : Finset (Dev nD)) (fun t => ex (F := F) c (pChunk 1 t))
    ∗ bigSep (Finset.univ : Finset (Dev nD)) (fun t => ex (F := F) c (pChunk 2 t))
    ∗ ex c (rSlot 0 c) ∗ ex c (rSlot 1 c) ∗ ex c (rSlot 2 c)
    ∗ ex c (gChunk 0 c) ∗ ex c (gChunk 1 c) ∗ chunksAll c Ts 2
    ∗ stagedIn m c ∗ (∃ X, stg c cc0_stg7_0 X))

end Cert.KernelIdealProof

end
-- ==== Proof.BodySegBCut.lean ====
import proofs.«900993_g7700000000000994_dist_mlpseq_tp1d_rep_bs_b512_d256_h512_v7x_i8_bf16_1_alg».proof.Proof.BodyMid

/-! Layer 1 cut in two at a boundary of the printed parts: the first half waits for layer 0's gathered rows group by
    group, computes and stores the layer's partial product, sends its seven chunks and loads the device's own chunk;
    the second half adds the seven chunks it receives to its own, stores the sum as its rows of the next activation,
    sends those rows to the seven peers, and waits for all its copies to have left. Between the two the device holds
    `midB`: layer 1's reduce copies are out (seven credits on the reduce-send cell, the seven chunks lent), the partial
    product buffer is cut in chunks, and the loaded value is the device's own chunk of its partial product. -/

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- Layer 1 through the last reduce send and the load of the device's own chunk. -/
def segB1 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) (Σ' (v463 : FVec F S64x256 .f32), BitVec 32) := do
  let ⟨v363, v366, v380⟩ : Σ' (v363 : FVec F S256x512 .bf16) (v366 : FVec F S512x256 .bf16), FVec F S128x256 .bf16 ← part13b arg0 harg0 arg1 harg1 arg2 harg2 arg3 harg3 arg4 harg4 arg5 harg5 arg6 harg6 arg7 harg7 arg8 harg8 arg9 harg9 arg10 harg10 arg11 arg12 arg13 arg14 d0 v2
  let v411 : BitVec 32 ← k0_part14 arg0 harg0 arg1 harg1 arg2 harg2 arg3 harg3 arg4 harg4 arg5 harg5 arg6 harg6 arg7 harg7 arg8 harg8 arg9 harg9 arg10 harg10 arg11 arg12 arg13 arg14 d0 v2 v363 v366 v380
  k0_part15 arg0 harg0 arg1 harg1 arg2 harg2 arg3 harg3 arg4 harg4 arg5 harg5 arg6 harg6 arg7 harg7 arg8 harg8 arg9 harg9 arg10 harg10 arg11 arg12 arg13 arg14 d0 v2 v363 v366 v411
  k0_part16 arg0 harg0 arg1 harg1 arg2 harg2 arg3 harg3 arg4 harg4 arg5 harg5 arg6 harg6 arg7 harg7 arg8 harg8 arg9 harg9 arg10 harg10 arg11 arg12 arg13 arg14 d0 v2 v363 v366

/-- Layer 1 from the first wait of the accumulation on. -/
def segB2 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) (v463 : FVec F S64x256 .f32) (v466 : BitVec 32) :
    Prog (TpuEff nD τ sig (Elt F) Λ₀ .tc) PUnit := do
  let ⟨v495, v498, v499, c0_i32_432⟩ : Σ' (v495 : FVec F S64x256 .f32) (v498 : BitVec 32) (v499 : BitVec 32), BitVec 32 ← k0_part17 arg0 harg0 arg1 harg1 arg2 harg2 arg3 harg3 arg4 harg4 arg5 harg5 arg6 harg6 arg7 harg7 arg8 harg8 arg9 harg9 arg10 harg10 arg11 arg12 arg13 arg14 d0 v2 v463 v466
  let ⟨v527, v530⟩ : Σ' (v527 : FVec F S64x256 .f32), BitVec 32 ← k0_part18 arg0 harg0 arg1 harg1 arg2 harg2 arg3 harg3 arg4 harg4 arg5 harg5 arg6 harg6 arg7 harg7 arg8 harg8 arg9 harg9 arg10 harg10 arg11 arg12 arg13 arg14 d0 v2 v495 v498 v499 c0_i32_432
  let ⟨v559, c8_i32_488⟩ : Σ' (v559 : FVec F S64x256 .f32), BitVec 32 ← k0_part19 arg0 harg0 arg1 harg1 arg2 harg2 arg3 harg3 arg4 harg4 arg5 harg5 arg6 harg6 arg7 harg7 arg8 harg8 arg9 harg9 arg10 harg10 arg11 arg12 arg13 arg14 d0 v2 v527 v530
  k0_part20 arg0 harg0 arg1 harg1 arg2 harg2 arg3 harg3 arg4 harg4 arg5 harg5 arg6 harg6 arg7 harg7 arg8 harg8 arg9 harg9 arg10 harg10 arg11 arg12 arg13 arg14 d0 v2 v559 c8_i32_488
  k0_part21 arg0 harg0 arg1 harg1 arg2 harg2 arg3 harg3 arg4 harg4 arg5 harg5 arg6 harg6 arg7 harg7 arg8 harg8 arg9 harg9 arg10 harg10 arg11 arg12 arg13 arg14 d0 v2
  let ⟨v652, c8_i32_568⟩ : Σ' (v652 : BitVec 32), BitVec 32 ← k0_part22 arg0 harg0 arg1 harg1 arg2 harg2 arg3 harg3 arg4 harg4 arg5 harg5 arg6 harg6 arg7 harg7 arg8 harg8 arg9 harg9 arg10 harg10 arg11 arg12 arg13 arg14 d0 v2
  let v684 : BitVec 32 ← k0_part23 arg0 harg0 arg1 harg1 arg2 harg2 arg3 harg3 arg4 harg4 arg5 harg5 arg6 harg6 arg7 harg7 arg8 harg8 arg9 harg9 arg10 harg10 arg11 arg12 arg13 arg14 d0 v2 v652 c8_i32_568
  k0_part24 arg0 harg0 arg1 harg1 arg2 harg2 arg3 harg3 arg4 harg4 arg5 harg5 arg6 harg6 arg7 harg7 arg8 harg8 arg9 harg9 arg10 harg10 arg11 arg12 arg13 arg14 d0 v2 v684
  k0_part25 arg0 harg0 arg1 harg1 arg2 harg2 arg3 harg3 arg4 harg4 arg5 harg5 arg6 harg6 arg7 harg7 arg8 harg8 arg9 harg9 arg10 harg10 arg11 arg12 arg13 arg14 d0
  part26a arg0 harg0 arg1 harg1 arg2 harg2 arg3 harg3 arg4 harg4 arg5 harg5 arg6 harg6 arg7 harg7 arg8 harg8 arg9 harg9 arg10 harg10 arg11 arg12 arg13 arg14 d0 v2

theorem segB_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    segB (F := F) arg0 harg0 arg1 harg1 arg2 harg2 arg3 harg3 arg4 harg4 arg5 harg5 arg6 harg6 arg7 harg7 arg8 harg8 arg9 harg9 arg10 harg10 arg11 arg12 arg13 arg14 d0 v2 = (do
      let r ← segB1 arg0 harg0 arg1 harg1 arg2 harg2 arg3 harg3 arg4 harg4 arg5 harg5 arg6 harg6 arg7 harg7 arg8 harg8 arg9 harg9 arg10 harg10 arg11 arg12 arg13 arg14 d0 v2
      segB2 arg0 harg0 arg1 harg1 arg2 harg2 arg3 harg3 arg4 harg4 arg5 harg5 arg6 harg6 arg7 harg7 arg8 harg8 arg9 harg9 arg10 harg10 arg11 arg12 arg13 arg14 d0 v2 r.1 r.2) := by
  unfold segB segB1 segB2
  simp only [bind_assoc, pure_bind]

variable (m : (ℓ : Loc nD τ sig) → Buf (Elt F) ℓ)

/-- Between the two halves of layer 1. -/
def midB (K : GSem nD τ sig → ℕ) (c : Dev nD) (Ts : List (Dev nD)) (v463 : FVec F S64x256 .f32) : sProp 𝕄 :=
  iprop((invsAll m K ∗ reachedAll ∗ levAts L lv)
    ∗ ⌜v463 = k0_pay14 (chunkOf (P1 m c) c)⌝
    ∗ (∃ W, owes (c : Thread nD τ) (owesRedL c Ts 2 + owesGatL c 1) W)
    ∗ bigSepL (ringF c) (fun p => iprop(dutyTok ER (gsCell c 1) 0 p ∗ dutyTok ER (grCell p 1 c) 0 c))
    ∗ bigSepL (ringF c) (fun p => iprop(∃ fd, piece p (gChunk 1 c) fullShare fd))
    ∗ posRed c 1 ∗ posGs c 1 ∗ posGr c Ts 1
    ∗ bigSepL Ts (fun _ => (cred (tallyAt (rsCell c 1) () N64) : sProp 𝕄))
    ∗ layerRes c Ts 2
    ∗ posDoneRed c 0 ∗ posDoneGr c Ts 0 ∗ posRest c
    ∗ bigSep (Finset.univ : Finset (Dev nD)) (fun t => ex (F := F) c (pChunk 0 t)) ∗ ex c (pChunk 1 c)
    ∗ bigSep (Finset.univ : Finset (Dev nD)) (fun t => ex (F := F) c (pChunk 2 t))
    ∗ slotsBack c 0 ∗ ex c (rSlot 1 c) ∗ ex c (rSlot 2 c)
    ∗ chunksAll c Ts 0 ∗ ex c (gChunk 1 c) ∗ chunksAll c Ts 2
    ∗ stagedIn m c ∗ (∃ X, stg c cc0_stg7_0 X))

end Cert.KernelIdealProof

end
-- ==== Proof.BodyMidC.lean ====
import proofs.«900993_g7700000000000994_dist_mlpseq_tp1d_rep_bs_b512_d256_h512_v7x_i8_bf16_1_alg».proof.Proof.BodyMid

/-! Layer 2 of the kernel cut in two between its last reduce send and its accumulation: the first half runs the four
    groups (the waits for layer 1's gathered chunks, the group's product, its two sends), the second adds up the eight
    partial products of the device's own rows — its own chunk and, in ring order backward, the seven that arrive —,
    writes the sum to the result's staging buffer and waits for its seven sends to have left. The printed part that holds
    the last two sends also begins the accumulation; it is cut after the second send. Between the halves the device owes
    nothing more: what it holds there, and what it holds when the program ends, are stated here. -/

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The program -/

/-- The twenty-ninth printed part up to its second reduce send: the last group's store and the sends to devices 6 and 7. -/
def part29a (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) (v748 : FVec F S256x512 .bf16) (v751 : FVec F S512x256 .bf16) (v828 : FVec F S128x256 .bf16) (cst_717 : FVec F S128x512 .f32) :
    Prog (TpuEff nD τ sig (Elt F) Λ₀ .tc) PUnit := do
  let v835 : Vec F S1x128x256 .bf16 ← Prog.lift (.load arg8 (Rect.unit (s := S3x512x256) ![2, 384, 0] S1x128x256.size inb_S3x512x256_S1x128x256_2_384_0).toLoadRect (View.loadsAt_vmem h_S1x128x256))
  Prog.lift (.store arg8 (Rect.unit (s := S3x512x256) ![2, 384, 0] S1x128x256.size inb_S3x512x256_S1x128x256_2_384_0) (k0_pay25 v748 v751 v828 cst_717) Finset.univ (View.stores_vmem h_S1x128x256 (harg8.storeExact_slice rfl _ packedbf16_S3x512x256_S1x128x256_2_384_0) (fun _ => rfl)) (.inl rfl))
  if k0_h55 : k0_cond55 d0 = 1#1 then do
    let v988 : DmaSems sig S1 := arg11.slice (Rect.unit (s := S3) ![2] S1.size inb_S3_S1_2)
    let v989 : DmaSems sig S_ := v988.squeeze S_ squeezes_S1_S_
    let v990 : DmaSems sig S1x1 := arg12.slice (Rect.unit (s := S3x8) (k0_off73 d0) S1x1.size (k0_off73_inb d0 k0_h55))
    let v991 : DmaSems sig S_ := v990.squeeze S_ squeezes_S1x1_S_
    let v992 : Memref sig .tc .vmem S1x1x64x256 .bf16 := arg9.slice (Rect.unit (s := S3x8x64x256) (k0_off74 d0) S1x1x64x256.size (k0_off74_inb d0 k0_h55)) (fun _ => rfl)
    let v993 : Memref sig .tc .vmem S64x256 .bf16 := v992.squeeze S64x256 squeezes_S1x1x64x256_S64x256
    let v994 : Memref sig .tc .vmem S1x64x256 .bf16 := arg8.slice (Rect.unit (s := S3x512x256) ![2, 384, 0] S1x64x256.size inb_S3x512x256_S1x64x256_2_384_0) (fun _ => rfl)
    let v995 : Memref sig .tc .vmem S64x256 .bf16 := v994.squeeze S64x256 squeezes_S1x64x256_S64x256
    Prog.lift (.enqueueDma v995 (.remote (Dev.tc (⟨k0_dev44, k0_dev44_lt d0 k0_h55⟩ : Dev nD)) v993 (.dma v989.sem)) (.dma v991.sem) ((harg8.wordExact_slice rfl _ wordsbf16_S3x512x256_S1x64x256_2_384_0).reshape _ _) ((harg9.wordExact_slice rfl _ (k0_off74_wordsbf16 d0 k0_h55)).reshape _ _) ⟨⟨rfl, Or.inl rfl⟩, trivial⟩)
    pure ⟨⟩
  else do
    pure ⟨⟩
  if k0_h56 : k0_cond56 d0 = 1#1 then do
    let v988 : DmaSems sig S1 := arg11.slice (Rect.unit (s := S3) ![2] S1.size inb_S3_S1_2)
    let v989 : DmaSems sig S_ := v988.squeeze S_ squeezes_S1_S_
    let v990 : DmaSems sig S1x1 := arg12.slice (Rect.unit (s := S3x8) (k0_off75 d0) S1x1.size (k0_off75_inb d0 k0_h56))
    let v991 : DmaSems sig S_ := v990.squeeze S_ squeezes_S1x1_S_
    let v992 : Memref sig .tc .vmem S1x1x64x256 .bf16 := arg9.slice (Rect.unit (s := S3x8x64x256) (k0_off76 d0) S1x1x64x256.size (k0_off76_inb d0 k0_h56)) (fun _ => rfl)
    let v993 : Memref sig .tc .vmem S64x256 .bf16 := v992.squeeze S64x256 squeezes_S1x1x64x256_S64x256
    let v994 : Memref sig .tc .vmem S1x64x256 .bf16 := arg8.slice (Rect.unit (s := S3x512x256) ![2, 448, 0] S1x64x256.size inb_S3x512x256_S1x64x256_2_448_0) (fun _ => rfl)
    let v995 : Memref sig .tc .vmem S64x256 .bf16 := v994.squeeze S64x256 squeezes_S1x64x256_S64x256
    Prog.lift (.enqueueDma v995 (.remote (Dev.tc (⟨k0_dev45, k0_dev45_lt d0 k0_h56⟩ : Dev nD)) v993 (.dma v989.sem)) (.dma v991.sem) ((harg8.wordExact_slice rfl _ wordsbf16_S3x512x256_S1x64x256_2_448_0).reshape _ _) ((harg9.wordExact_slice rfl _ (k0_off76_wordsbf16 d0 k0_h56)).reshape _ _) ⟨⟨rfl, Or.inl rfl⟩, trivial⟩)
    pure ⟨⟩
  else do
    pure ⟨⟩
/-- The rest of that part: the load of the device's own chunk and the wait for the first chunk that arrives. -/
def part29b (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) (Σ' (v848 : FVec F S64x256 .f32), BitVec 32) := do
  let v846 : Vec F S1x64x256 .bf16 ← Prog.lift (.load arg8 (Rect.unit (s := S3x512x256) (k0_off77 d0) S1x64x256.size (k0_off77_inb d0)).toLoadRect (View.loadsAt_vmem h_S1x64x256))
  let v849 : BitVec 32 := Scalar.addi v2 8#32
  let v850 : BitVec 32 := Scalar.subi v849 1#32
  let v851 : BitVec 32 := Scalar.remsi v850 8#32
  let v854 : DmaSems sig S1x1 := arg12.slice (Rect.unit (s := S3x8) (k0_off78 d0 1#32) S1x1.size (k0_off78_inb d0 0))
  let v855 : DmaSems sig S_ := v854.squeeze S_ squeezes_S1x1_S_
  let v856 : Memref sig .tc .vmem S1x1x64x256 .bf16 := arg9.slice (Rect.unit (s := S3x8x64x256) (k0_off79 d0 1#32) S1x1x64x256.size (k0_off79_inb d0 0)) (fun _ => rfl)
  let v857 : Memref sig .tc .vmem S64x256 .bf16 := v856.squeeze S64x256 squeezes_S1x1x64x256_S64x256
  let v858 : Memref sig .tc .vmem S1x1x64x256 .bf16 := arg9.slice (Rect.unit (s := S3x8x64x256) (k0_off79 d0 1#32) S1x1x64x256.size (k0_off79_inb d0 0)) (fun _ => rfl)
  let v859 : Memref sig .tc .vmem S64x256 .bf16 := v858.squeeze S64x256 squeezes_S1x1x64x256_S64x256
  Prog.lift (.waitDma2 v855.sem v859 v857 ((harg9.wordExact_slice rfl _ (k0_off79_wordsbf16 d0 0)).reshape _ _) ((harg9.wordExact_slice rfl _ (k0_off79_wordsbf16 d0 0)).reshape _ _))
  pure ⟨k0_pay26 v846, v851⟩

/-- Layer 2 through its last reduce send. -/
def segC1 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) PUnit := do
  let ⟨v748, v751⟩ : Σ' (v748 : FVec F S256x512 .bf16), FVec F S512x256 .bf16 ← part26b arg0 harg0 arg1 harg1 arg2 harg2 arg3 harg3 arg4 harg4 arg5 harg5 arg6 harg6 arg7 harg7 arg8 harg8 arg9 harg9 arg10 harg10 arg11 arg12 arg13 arg14 d0 v2
  let v799 : BitVec 32 ← k0_part27 arg0 harg0 arg1 harg1 arg2 harg2 arg3 harg3 arg4 harg4 arg5 harg5 arg6 harg6 arg7 harg7 arg8 harg8 arg9 harg9 arg10 harg10 arg11 arg12 arg13 arg14 d0 v2 v748 v751
  let ⟨v828, cst_717⟩ : Σ' (v828 : FVec F S128x256 .bf16), FVec F S128x512 .f32 ← k0_part28 arg0 harg0 arg1 harg1 arg2 harg2 arg3 harg3 arg4 harg4 arg5 harg5 arg6 harg6 arg7 harg7 arg8 harg8 arg9 harg9 arg10 harg10 arg11 arg12 arg13 arg14 d0 v2 v748 v751 v799
  part29a arg0 harg0 arg1 harg1 arg2 harg2 arg3 harg3 arg4 harg4 arg5 harg5 arg6 harg6 arg7 harg7 arg8 harg8 arg9 harg9 arg10 harg10 arg11 arg12 arg13 arg14 d0 v2 v748 v751 v828 cst_717

/-- The accumulation of layer 2, the result's store and the waits for the sends. -/
def segC2 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) PUnit := do
  let ⟨v848, v851⟩ : Σ' (v848 : FVec F S64x256 .f32), BitVec 32 ← part29b arg0 harg0 arg1 harg1 arg2 harg2 arg3 harg3 arg4 harg4 arg5 harg5 arg6 harg6 arg7 harg7 arg8 harg8 arg9 harg9 arg10 harg10 arg11 arg12 arg13 arg14 d0 v2
  let ⟨v880, v883⟩ : Σ' (v880 : FVec F S64x256 .f32), BitVec 32 ← k0_part30 arg0 harg0 arg1 harg1 arg2 harg2 arg3 harg3 arg4 harg4 arg5 harg5 arg6 harg6 arg7 harg7 arg8 harg8 arg9 harg9 arg10 harg10 arg11 arg12 arg13 arg14 d0 v2 v848 v851
  let ⟨v912, v915, v916, c0_i32_802⟩ : Σ' (v912 : FVec F S64x256 .f32) (v915 : BitVec 32) (v916 : BitVec 32), BitVec 32 ← k0_part31 arg0 harg0 arg1 harg1 arg2 harg2 arg3 harg3 arg4 harg4 arg5 harg5 arg6 harg6 arg7 harg7 arg8 harg8 arg9 harg9 arg10 harg10 arg11 arg12 arg13 arg14 d0 v2 v880 v883
  let ⟨v944, v947⟩ : Σ' (v944 : FVec F S64x256 .f32), BitVec 32 ← k0_part32 arg0 harg0 arg1 harg1 arg2 harg2 arg3 harg3 arg4 harg4 arg5 harg5 arg6 harg6 arg7 harg7 arg8 harg8 arg9 harg9 arg10 harg10 arg11 arg12 arg13 arg14 d0 v2 v912 v915 v916 c0_i32_802
  k0_part33 arg0 harg0 arg1 harg1 arg2 harg2 arg3 harg3 arg4 harg4 arg5 harg5 arg6 harg6 arg7 harg7 arg8 harg8 arg9 harg9 arg10 harg10 arg11 arg12 arg13 arg14 d0 v2 v944 v947

  if k0_h62 : k0_cond62 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 320, 0] S1x64x256.size inb_S3x512x256_S1x64x256_2_320_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off86 d0) S1x1x64x256.size (k0_off86_inb d0 k0_h62)) (fun _ => rfl)
    let v991 : Memref sig .tc .vmem S64x256 .bf16 := v990.squeeze S64x256 squeezes_S1x1x64x256_S64x256
    Prog.lift (.waitDma2 v987.sem v991 v989 ((harg9.wordExact_slice rfl _ (k0_off86_wordsbf16 d0 k0_h62)).reshape _ _) ((harg8.wordExact_slice rfl _ wordsbf16_S3x512x256_S1x64x256_2_320_0).reshape _ _))
    pure ⟨⟩
  else do
    pure ⟨⟩

  if k0_h63 : k0_cond63 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 384, 0] S1x64x256.size inb_S3x512x256_S1x64x256_2_384_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off87 d0) S1x1x64x256.size (k0_off87_inb d0 k0_h63)) (fun _ => rfl)
    let v991 : Memref sig .tc .vmem S64x256 .bf16 := v990.squeeze S64x256 squeezes_S1x1x64x256_S64x256
    Prog.lift (.waitDma2 v987.sem v991 v989 ((harg9.wordExact_slice rfl _ (k0_off87_wordsbf16 d0 k0_h63)).reshape _ _) ((harg8.wordExact_slice rfl _ wordsbf16_S3x512x256_S1x64x256_2_384_0).reshape _ _))
    pure ⟨⟩
  else do
    pure ⟨⟩

  if k0_h64 : k0_cond64 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 448, 0] S1x64x256.size inb_S3x512x256_S1x64x256_2_448_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off88 d0) S1x1x64x256.size (k0_off88_inb d0 k0_h64)) (fun _ => rfl)
    let v991 : Memref sig .tc .vmem S64x256 .bf16 := v990.squeeze S64x256 squeezes_S1x1x64x256_S64x256
    Prog.lift (.waitDma2 v987.sem v991 v989 ((harg9.wordExact_slice rfl _ (k0_off88_wordsbf16 d0 k0_h64)).reshape _ _) ((harg8.wordExact_slice rfl _ wordsbf16_S3x512x256_S1x64x256_2_448_0).reshape _ _))
    pure ⟨⟩
  else do
    pure ⟨⟩
  pure ⟨⟩

/-- A program that branches and then goes on is the branching of the two programs that go on. -/
theorem dite_bind_prog {E : Type → Type} {α β : Type} {p : Prop} [Decidable p] (A : p → Prog E α) (B : ¬p → Prog E α) (f : α → Prog E β) :
    (dite p A B >>= f) = dite p (fun h => A h >>= f) (fun h => B h >>= f) := by
  split <;> rfl

/-- Layer 2 is its two halves in sequence. -/
theorem segC_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    segC (F := F) arg0 harg0 arg1 harg1 arg2 harg2 arg3 harg3 arg4 harg4 arg5 harg5 arg6 harg6 arg7 harg7 arg8 harg8 arg9 harg9 arg10 harg10 arg11 arg12 arg13 arg14 d0 v2 = (do
      segC1 arg0 harg0 arg1 harg1 arg2 harg2 arg3 harg3 arg4 harg4 arg5 harg5 arg6 harg6 arg7 harg7 arg8 harg8 arg9 harg9 arg10 harg10 arg11 arg12 arg13 arg14 d0 v2
      segC2 arg0 harg0 arg1 harg1 arg2 harg2 arg3 harg3 arg4 harg4 arg5 harg5 arg6 harg6 arg7 harg7 arg8 harg8 arg9 harg9 arg10 harg10 arg11 arg12 arg13 arg14 d0 v2) := by
  unfold segC segC1 segC2
  rw [k0_part29_eq_skeleton]
  unfold k0_part29_skel part29a part29b
  simp only [bind_assoc, pure_bind, dite_bind_prog]

variable (m : (ℓ : Loc nD τ sig) → Buf (Elt F) ℓ)

/-! ## What the device holds between the halves, and at the end -/

/-- The eight chunks of layer `l` of the partial-product buffer, all held. -/
def chunksP (c : Dev nD) (Ts : List (Dev nD)) (l : Fin 3) : sProp 𝕄 := iprop(ex c (pChunk l c) ∗ bigSepL Ts (fun t => ex (F := F) c (pChunk l t)))

/-- After layer 2's seven reduce sends: nothing is owed any more; the seven chunks sent are with their copies, each
    send having left the credit for one wait on the send cell; the device's own chunk holds its partial product; layer
    1's gathered chunks have all been waited for. -/
def mid3 (K : GSem nD τ sig → ℕ) (c : Dev nD) (Ts : List (Dev nD)) : sProp 𝕄 :=
  iprop((invsAll m K ∗ reachedAll ∗ levAts L lv)
    ∗ (∃ W, owes (c : Thread nD τ) 0 W)
    ∗ posRed c 2 ∗ bigSepL Ts (fun _ => (cred (tallyAt (rsCell c 2) () N64) : sProp 𝕄))
    ∗ posDoneRed c 0 ∗ posDoneRed c 1 ∗ posDoneGr c Ts 0 ∗ posDoneGr c Ts 1 ∗ posRest c
    ∗ chunksP c Ts 0 ∗ chunksP c Ts 1 ∗ piece c (pChunk 2 c) fullShare (Pfun m c)
    ∗ slotsBack c 0 ∗ slotsBack c 1 ∗ ex c (rSlot 2 c)
    ∗ chunksAll c Ts 0 ∗ chunksAll c Ts 1 ∗ chunksAll c Ts 2
    ∗ stagedIn m c ∗ (∃ X, stg c cc0_stg7_0 X))

/-- When the program ends: every cell that had duties stands after its round, every piece of the three scratch buffers
    is back, and the result's staging buffer holds the device's rows of the last layer's sum. -/
def midE (K : GSem nD τ sig → ℕ) (c : Dev nD) (Ts : List (Dev nD)) : sProp 𝕄 :=
  iprop((invsAll m K ∗ reachedAll ∗ levAts L lv)
    ∗ (∃ W, owes (c : Thread nD τ) 0 W)
    ∗ posDoneRed c 0 ∗ posDoneRed c 1 ∗ posDoneRed c 2 ∗ posDoneGr c Ts 0 ∗ posDoneGr c Ts 1 ∗ posRest c
    ∗ chunksP c Ts 0 ∗ chunksP c Ts 1 ∗ chunksP c Ts 2
    ∗ slotsBack c 0 ∗ slotsBack c 1 ∗ slotsBack c 2
    ∗ chunksAll c Ts 0 ∗ chunksAll c Ts 1 ∗ chunksAll c Ts 2
    ∗ stagedIn m c ∗ stg c cc0_stg7_0 (outAt m c))

end Cert.KernelIdealProof

end
-- ==== Proof.BodyCompose2.lean ====
import proofs.«900993_g7700000000000994_dist_mlpseq_tp1d_rep_bs_b512_d256_h512_v7x_i8_bf16_1_alg».proof.Proof.BodyCompose
import proofs.«900993_g7700000000000994_dist_mlpseq_tp1d_rep_bs_b512_d256_h512_v7x_i8_bf16_1_alg».proof.Proof.BodySegACut
import proofs.«900993_g7700000000000994_dist_mlpseq_tp1d_rep_bs_b512_d256_h512_v7x_i8_bf16_1_alg».proof.Proof.BodySegBCut
import proofs.«900993_g7700000000000994_dist_mlpseq_tp1d_rep_bs_b512_d256_h512_v7x_i8_bf16_1_alg».proof.Proof.BodyMidC

/-! The body from the six halves of its three segments and the exit. -/

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem body_of_halves (c : Dev nD) (Ts : List (Dev nD)) (K : GSem nD τ sig → ℕ) (Kt : PUnit → sProp 𝕄)
    (hA1 : ∀ Kt' : (Σ' (d0 : Dev nD) (v2 : BitVec 32) (v78 : FVec F S64x256 .f32) (v81 : BitVec 32) (v82 : BitVec 32), BitVec 32) → sProp 𝕄,
      iprop(bodyPre m K c ∗ (∀ v78 v81 v82 c0, midA m K c Ts v78 -∗ Kt' ⟨c, devWord c, v78, v81, v82, c0⟩)) ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt')
    (hA2 : ∀ (Kt' : (Σ' (d0 : Dev nD), BitVec 32) → sProp 𝕄) v78 v81 v82 c0,
      iprop(midA m K c Ts v78 ∗ (mid1 m K c Ts -∗ Kt' ⟨c, devWord c⟩)) ⊢ wp frame (wpE (defs₀ (F := F)) 𝒱₀ (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt')
    (hB1 : ∀ Kt' : (Σ' (v463 : FVec F S64x256 .f32), BitVec 32) → sProp 𝕄,
      iprop(mid1 m K c Ts ∗ (∀ v466, midB m K c Ts (k0_pay14 (chunkOf (P1 m c) c)) -∗ Kt' ⟨k0_pay14 (chunkOf (P1 m c) c), v466⟩)) ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt')
    (hB2 : ∀ (Kt' : PUnit → sProp 𝕄) v463 v466,
      iprop(midB m K c Ts v463 ∗ (mid2 m K c Ts -∗ Kt' ⟨⟩)) ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt')
    (hC1 : ∀ Kt' : PUnit → sProp 𝕄,
      iprop(mid2 m K c Ts ∗ (mid3 m K c Ts -∗ Kt' ⟨⟩)) ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt')
    (hC2 : ∀ Kt' : PUnit → sProp 𝕄,
      iprop(mid3 m K c Ts ∗ (bodyPost m c -∗ Kt' ⟨⟩)) ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt') :
    iprop(bodyPre m K c ∗ (bodyPost m c -∗ Kt ⟨⟩)) ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  refine body_of_segs m c Ts K Kt ?_ ?_ ?_
  · intro Kt'
    rw [segA_split]; simp only [wp_bind]
    iintro ⟨Hpre, Hk⟩
    iapply (hA1 _)
    isplitl [Hpre]; · iexact Hpre
    iintro %v78 %v81 %v82 %c0 HmA
    iapply (hA2 _ v78 v81 v82 c0)
    isplitl [HmA]; · iexact HmA
    iexact Hk
  · intro Kt'
    rw [segB_split]; simp only [wp_bind]
    iintro ⟨Hm1, Hk⟩
    iapply (hB1 _)
    isplitl [Hm1]; · iexact Hm1
    iintro %v466 HmB
    iapply (hB2 _ _ v466)
    isplitl [HmB]; · iexact HmB
    iexact Hk
  · intro Kt'
    rw [segC_split]; simp only [wp_bind]
    iintro ⟨Hm2, Hk⟩
    iapply (hC1 _)
    isplitl [Hm2]; · iexact Hm2
    iintro Hm3
    iapply (hC2 _)
    isplitl [Hm3]; · iexact Hm3
    iexact Hk

end Cert.KernelIdealProof

end
-- ==== Proof.Waits.lean ====
import proofs.«900993_g7700000000000994_dist_mlpseq_tp1d_rep_bs_b512_d256_h512_v7x_i8_bf16_1_alg».proof.Proof.SchedTables
import proofs.«900993_g7700000000000994_dist_mlpseq_tp1d_rep_bs_b512_d256_h512_v7x_i8_bf16_1_alg».proof.Proof.Levels

/-! The seven waits on a send cell. A device waits seven times, a piece's credit each, on each of its send cells: the seven
    departures of a layer's copies are ONE round of seven duties of that credit, so the first six waits consume part of
    the round and the seventh its rest. Between two waits the device holds its position on the cell — round 0, the set
    `S` of duties whose payloads it has been handed so far, `k` pieces' credit consumed — and those payloads; a wait for
    part of the round hands it the payloads of whichever further duties have landed (possibly none), and the wait for
    the rest of the round the payloads of all that remain, so that after the seventh it holds the whole round's. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A `bigSep` is the one over a subset and the one over the rest (with the proof mode's `∗`). -/
theorem bigSep_sdiff_split' {M : Type} [URA M] {I : Type} [DecidableEq I] {s t : Finset I} (h : t ⊆ s) (Φ : I → sProp M) :
    bigSep s Φ = iprop(bigSep t Φ ∗ bigSep (s \ t) Φ) := bigSep_sdiff_split h

/-! ## Between two waits -/

/-- After `k` waits of a piece's credit on cell `g`: the owner stands in round 0 having consumed `k` pieces' credit, and
    holds the payloads of the duties `S` it has been handed so far. -/
def waited (g : GSem nD τ sig) (k : ℕ) : sProp 𝕄 :=
  iprop(∃ S : Finset (Dev nD), ⌜S ⊆ (sched m).duties g 0⌝ ∗ atPos ER g 0 S (k * N64) ∗ bigSep S (fun d => (sched m).payload g 0 d))

/-- Before the first wait nothing is consumed and nothing held. -/
theorem waited_zero (g : GSem nD τ sig) : (atPos ER g 0 ∅ 0 : sProp 𝕄) ⊢ waited m g 0 := by
  unfold waited
  iintro Hat
  iexists (∅ : Finset (Dev nD))
  isplitr; · ipureintro; exact Finset.empty_subset _
  isplitl [Hat]; · rw [Nat.zero_mul]; iexact Hat
  rw [bigSep_empty]; iempintro

/-! ## One wait, by either wait effect, on any cell of the device -/

/-- A wait of a piece's credit that is not the round's last: the owner moves on in round 0, one more piece consumed, and
    keeps what it held together with the payloads of the duties that have landed since. -/
theorem wp_wait_step (𝒱 : Variants) (c : Dev nD) (sm : SemLoc sig) (κ : ℕ) (k : ℕ)
    {w : TpuEff nD τ sig (Elt F) Λ₀ (c : Thread nD τ).2 PUnit}
    (hw : ∀ K : PUnit → sProp 𝕄, wpE (defs₀ (F := F)) 𝒱 (c : Thread nD τ) none Set.univ w K = waitSpec (c : Thread nD τ) Set.univ sm N64 K)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ ((c : Thread nD τ), sm) ∗ cred (tallyAt ((c : Thread nD τ), sm) () N64) ∗ owes (c : Thread nD τ) O W
        ∗ MayWait (c : Thread nD τ) sm () O ∗ waited m ((c : Thread nD τ), sm) k)
      ⊢ iprop(((owes (c : Thread nD τ) O (insert (sm, ()) W) ∗ waited m ((c : Thread nD τ), sm) (k + 1))
            -∗ wp frame (wpE (defs₀ (F := F)) 𝒱 (c : Thread nD τ) none) Set.univ (kont ⟨⟩) Q)
          -∗ wp frame (wpE (defs₀ (F := F)) 𝒱 (c : Thread nD τ) none) Set.univ (.op w kont) Q) := by
  unfold waited
  iintro ⟨#HI, Hc, HO, #Hmw, ⟨%S, %hS, Hat, Hpay⟩⟩ Hk
  iapply (Rounds.wp_wait 𝒱 ER (sched m) (c : Thread nD τ) none (κ := κ) hw (Set.mem_univ _) {(sm, ())} (cr := Finsupp.single () N64)
      (O := O) (W := W) (R := 0) (m := k * N64) (T := S) (by rw [Util.total_single]) (image_single_subset sm () N64)) $$ [Hc HO Hat]
  · isplitr; · iexact HI
    isplitl [Hc]; · iexact Hc
    isplitl [HO]; · iexact HO
    isplitr; · iexact Hmw
    iexact Hat
  iintro %S' ⟨%hS', HO, Hat, Hnew⟩
  iapply Hk
  isplitl [HO]; · rw [Finset.insert_eq, Finset.union_comm]; iexact HO
  iexists S'
  isplitr; · ipureintro; exact hS'.2.1
  isplitl [Hat]; · rw [Nat.succ_mul]; iexact Hat
  rw [bigSep_sdiff_split' hS'.1]
  isplitl [Hpay]; · iexact Hpay
  iexact Hnew

/-- The round's last wait (the `(k + 1)`-th of a round of `k + 1` pieces): the owner comes back at round 1, round 1
    reached, holding the payloads of the whole of round 0 — what it held and the rest. -/
theorem wp_wait_last (𝒱 : Variants) (c : Dev nD) (sm : SemLoc sig) (κ : ℕ) (k : ℕ)
    (hexp : (sched m).expect ((c : Thread nD τ), sm) 0 = (k + 1) * N64)
    {w : TpuEff nD τ sig (Elt F) Λ₀ (c : Thread nD τ).2 PUnit}
    (hw : ∀ K : PUnit → sProp 𝕄, wpE (defs₀ (F := F)) 𝒱 (c : Thread nD τ) none Set.univ w K = waitSpec (c : Thread nD τ) Set.univ sm N64 K)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ ((c : Thread nD τ), sm) ∗ cred (tallyAt ((c : Thread nD τ), sm) () N64) ∗ owes (c : Thread nD τ) O W
        ∗ MayWait (c : Thread nD τ) sm () O ∗ waited m ((c : Thread nD τ), sm) k)
      ⊢ iprop(((owes (c : Thread nD τ) O (insert (sm, ()) W) ∗ atPos ER ((c : Thread nD τ), sm) 1 ∅ 0 ∗ reached ER ((c : Thread nD τ), sm) 1
              ∗ bigSep ((sched m).duties ((c : Thread nD τ), sm) 0) (fun d => (sched m).payload ((c : Thread nD τ), sm) 0 d))
            -∗ wp frame (wpE (defs₀ (F := F)) 𝒱 (c : Thread nD τ) none) Set.univ (kont ⟨⟩) Q)
          -∗ wp frame (wpE (defs₀ (F := F)) 𝒱 (c : Thread nD τ) none) Set.univ (.op w kont) Q) := by
  unfold waited
  iintro ⟨#HI, Hc, HO, #Hmw, ⟨%S, %hS, Hat, Hpay⟩⟩ Hk
  iapply (Rounds.wp_wait_rest_token 𝒱 ER (sched m) (c : Thread nD τ) none (κ := κ) hw (Set.mem_univ _) () (O := O) (W := W)
      (R := 0) (m := k * N64) (T := S) (by rw [hexp, Nat.succ_mul])) $$ [Hc HO Hat]
  · isplitr; · iexact HI
    isplitl [Hc]; · iexact Hc
    isplitl [HO]; · iexact HO
    isplitr; · iexact Hmw
    iexact Hat
  iintro ⟨HO, Hat, Hr, Hrest⟩
  iapply Hk
  isplitl [HO]; · iexact HO
  isplitl [Hat]; · iexact Hat
  isplitl [Hr]; · iexact Hr
  rw [bigSep_sdiff_split' hS]
  isplitl [Hpay]; · iexact Hpay
  iexact Hrest

/-! ## The kernel's waits: a DMA wait whose destination view carries a piece's credit -/

/-- The clause of such a wait is the wait clause at the semaphore's cell for a piece's credit. -/
theorem waitDma2_clause (𝒱 : Variants) (c : Dev nD) (q : DmaSem sig)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64) (K : PUnit → sProp 𝕄) :
    wpE (defs₀ (F := F)) 𝒱 (c : Thread nD τ) none Set.univ (.waitDma2 q src dst h₁ h₂) K = waitSpec (c : Thread nD τ) Set.univ (.dma q) N64 K :=
  (wpE_waitDma2_eq 𝒱 (c : Thread nD τ) none Set.univ K).trans (by rw [hcr])

/-- One of the first six waits on the reduce-send cell of layer `l`. -/
theorem wp_rs_step (𝒱 : Variants) (c : Dev nD) (l : Fin 3) (κ : ℕ) (k : ℕ) {q : DmaSem sig} (hq : q = rsS l)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (rsCell c l) ∗ cred (tallyAt (rsCell c l) () N64) ∗ owes (c : Thread nD τ) O W
        ∗ MayWait (c : Thread nD τ) (.dma (rsS l)) () O ∗ waited m (rsCell c l) k)
      ⊢ iprop(((owes (c : Thread nD τ) O (insert (.dma (rsS l), ()) W) ∗ waited m (rsCell c l) (k + 1))
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  exact wp_wait_step m 𝒱 c (.dma (rsS l)) κ k (waitDma2_clause 𝒱 c (rsS l) hcr)

/-- The seventh wait on the reduce-send cell of layer `l`: the seven chunks are back. -/
theorem wp_rs_last (𝒱 : Variants) (c : Dev nD) (l : Fin 3) (κ : ℕ) {q : DmaSem sig} (hq : q = rsS l)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (rsCell c l) ∗ cred (tallyAt (rsCell c l) () N64) ∗ owes (c : Thread nD τ) O W
        ∗ MayWait (c : Thread nD τ) (.dma (rsS l)) () O ∗ waited m (rsCell c l) 6)
      ⊢ iprop(((owes (c : Thread nD τ) O (insert (.dma (rsS l), ()) W) ∗ atPos ER (rsCell c l) 1 ∅ 0 ∗ reached ER (rsCell c l) 1
              ∗ bigSep (peers c) (fun t => rsPay m c l t))
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  have h := wp_wait_last m 𝒱 c (.dma (rsS l)) κ 6 (expect_rs m c l) (w := .waitDma2 (rsS l) src dst h₁ h₂) (waitDma2_clause 𝒱 c (rsS l) hcr)
    (kont := kont) (Q := Q) (O := O) (W := W)
  rw [show (sched m).duties ((c : Thread nD τ), SemLoc.dma (rsS l)) 0 = peers c from duties_rs m c l,
    show (fun d => (sched m).payload ((c : Thread nD τ), SemLoc.dma (rsS l)) 0 d) = fun t => rsPay m c l t from funext fun t => payload_rs m c l t] at h
  exact h

/-- One of the first six waits on the gather-send cell of layer `l`. -/
theorem wp_gs_step (𝒱 : Variants) (c : Dev nD) (l : Fin 3) (κ : ℕ) (k : ℕ) {q : DmaSem sig} (hq : q = gsS l)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (gsCell c l) ∗ cred (tallyAt (gsCell c l) () N64) ∗ owes (c : Thread nD τ) O W
        ∗ MayWait (c : Thread nD τ) (.dma (gsS l)) () O ∗ waited m (gsCell c l) k)
      ⊢ iprop(((owes (c : Thread nD τ) O (insert (.dma (gsS l), ()) W) ∗ waited m (gsCell c l) (k + 1))
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  exact wp_wait_step m 𝒱 c (.dma (gsS l)) κ k (waitDma2_clause 𝒱 c (gsS l) hcr)

/-- The seventh wait on the gather-send cell of layer `l < 2`: the seven shares of the device's reduced rows are back. -/
theorem wp_gs_last (𝒱 : Variants) (c : Dev nD) (l : Fin 3) (hl : l.val < 2) (κ : ℕ) {q : DmaSem sig} (hq : q = gsS l)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (gsCell c l) ∗ cred (tallyAt (gsCell c l) () N64) ∗ owes (c : Thread nD τ) O W
        ∗ MayWait (c : Thread nD τ) (.dma (gsS l)) () O ∗ waited m (gsCell c l) 6)
      ⊢ iprop(((owes (c : Thread nD τ) O (insert (.dma (gsS l), ()) W) ∗ atPos ER (gsCell c l) 1 ∅ 0 ∗ reached ER (gsCell c l) 1
              ∗ bigSep (peers c) (fun t => gsPay m c l t))
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  have h := wp_wait_last m 𝒱 c (.dma (gsS l)) κ 6 (expect_gs m c l hl) (w := .waitDma2 (gsS l) src dst h₁ h₂) (waitDma2_clause 𝒱 c (gsS l) hcr)
    (kont := kont) (Q := Q) (O := O) (W := W)
  rw [show (sched m).duties ((c : Thread nD τ), SemLoc.dma (gsS l)) 0 = peers c from duties_gs m c l hl,
    show (fun d => (sched m).payload ((c : Thread nD τ), SemLoc.dma (gsS l)) 0 d) = fun t => gsPay m c l t from funext fun t => payload_gs m c l t] at h
  exact h

/-- info: 'Cert.KernelIdealProof.wp_wait_step' depends on axioms: [propext, Classical.choice, Quot.sound] -/
#guard_msgs in #print axioms wp_wait_step

/-- info: 'Cert.KernelIdealProof.wp_wait_last' depends on axioms: [propext, Classical.choice, Quot.sound] -/
#guard_msgs in #print axioms wp_wait_last

/-- info: 'Cert.KernelIdealProof.wp_rs_last' depends on axioms: [propext, Classical.choice, Quot.sound] -/
#guard_msgs in #print axioms wp_rs_last

/-- info: 'Cert.KernelIdealProof.wp_gs_last' depends on axioms: [propext, Classical.choice, Quot.sound] -/
#guard_msgs in #print axioms wp_gs_last

end Cert.KernelIdealProof

end
-- ==== Proof.StepsReduce.lean ====
import proofs.«900993_g7700000000000994_dist_mlpseq_tp1d_rep_bs_b512_d256_h512_v7x_i8_bf16_1_alg».proof.Proof.SchedTables
import proofs.«900993_g7700000000000994_dist_mlpseq_tp1d_rep_bs_b512_d256_h512_v7x_i8_bf16_1_alg».proof.Proof.Waits

/-! The two steps of a layer's reduction that cross devices.

    Sending: device `c` enqueues the copy of chunk `t` of its partial product into slot `(l, c)` of device `t`'s receive
    buffer. It pays two duties at once: duty `t` of its own reduce-send cell (the chunk comes back when it has been read
    out) and duty `c` of `t`'s reduce-receive cell `(l, c)` (the slot holding the chunk, written over whatever the slot
    held). What it owed `t`'s cell is settled; it gains the credit to wait on its own send cell.
    Receiving: device `c` waits on its reduce-receive cell `(l, s)` for the one duty of the round, a piece's credit: it
    comes back with the slot holding `s`'s chunk. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A slot of the receive buffer carries a piece's credit on any DMA semaphore. -/
theorem rSlot_amount (l : Fin 3) (s : Fin 8) (x : DmaSem sig) : (rSlot l s).view.amount (SemLoc.dma x) = N64 := by
  revert l s x; decide

/-- The enqueue of chunk `t` of layer `l` to device `t`. -/
theorem wp_red_send (𝒱 : Variants) (c t : Dev nD) (l : Fin 3) (h : c ≠ t) (κ₁ κ₂ : ℕ)
    {dev : Dev nD} (hdev : dev = t)
    {src : Memref sig (c : Thread nD τ).2.kind .vmem S64x256 .bf16} (hsrc : src = pChunk l t)
    {dst : Memref sig (Dev.tc dev : Thread nD τ).2.kind .vmem S64x256 .bf16} (hdst : dst = rSlot l c)
    {sS sem : SemLoc sig} (hsS : sS = SemLoc.dma (rsS l)) (hsem : sem = SemLoc.dma (rrS l c))
    {hsc : dst.view.ref.isScScratch = false} {h₁ : src.view.WordExact} {h₂ : dst.view.WordExact}
    {h₃ : DmaTarget.Typed .vmem sem (.remote (Dev.tc dev) dst sS hsc)}
    {α : Type} {kont : PUnit → Prog (TpuEff nD τ sig (Elt F) Λ₀ (c : Thread nD τ).2) α} {Q : α → sProp 𝕄}
    (O : CellTallies nD τ sig Unit) {W : Waits sig Unit} (fd : Buf (Elt F) ((rSlot l c).view.loc (t : Thread nD τ))) :
    iprop(cellInv ER (sched m) κ₁ (rsCell c l) ∗ cellInv ER (sched m) κ₂ (rrCell t l c)
        ∗ piece c (pChunk l t) fullShare (Pfun m c) ∗ piece t (rSlot l c) fullShare fd
        ∗ owes (c : Thread nD τ) (O + tallyAt (rrCell t l c) () N64) W
        ∗ dutyTok ER (rsCell c l) 0 t ∗ reached ER (rsCell c l) 0
        ∗ dutyTok ER (rrCell t l c) 0 c ∗ reached ER (rrCell t l c) 0)
      ⊢ iprop(((cred (tallyAt (rsCell c l) () N64) ∗ owes (c : Thread nD τ) O W)
            -∗ wp frame (wpE (defs₀ (F := F)) 𝒱 (c : Thread nD τ) none) Set.univ (kont ⟨⟩) Q)
          -∗ wp frame (wpE (defs₀ (F := F)) 𝒱 (c : Thread nD τ) none) Set.univ
            (.op (.enqueueDma src (.remote (Dev.tc dev) dst sS hsc) sem h₁ h₂ h₃) kont) Q) := by
  subst hdev hsrc hdst hsS hsem
  unfold piece
  exact Rounds.wp_send_pointsTo 𝒱 ER (sched m) (c : Thread nD τ) none (κ₁ := κ₁) (κ₂ := κ₂)
    (mem_rs_of_ne m c l dev h) (mem_rr_of_ne m c dev l h) () () N64 (rSlot_amount l c (rrS l c))
    (amount_rs m c l dev) (amount_rr m dev l c c) O rfl
    (Entails.of_eq (payload_rs' m c l dev).symm)
    (by rw [payload_rr' m dev l c c]; iintro H; iexists fd; iexact H)

/-- The wait for device `s`'s chunk of layer `l`. -/
theorem wp_red_recv (𝒱 : Variants) (c s : Dev nD) (l : Fin 3) (h : s ≠ c) (κ : ℕ)
    {q : DmaSem sig} (hq : q = rrS l s)
    {sp sp' : Space} {sh sh' : Shape} {e e' : EltTy} {src : Memref sig (c : Thread nD τ).2.kind sp' sh' e'} {κ' : Kind}
    {dst : Memref sig κ' sp sh e} {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (rrCell c l s) ∗ cred (tallyAt (rrCell c l s) () N64) ∗ owes (c : Thread nD τ) O W
        ∗ MayWait (c : Thread nD τ) (.dma (rrS l s)) () O ∗ atPos ER (rrCell c l s) 0 ∅ 0)
      ⊢ iprop(((owes (c : Thread nD τ) O (insert (.dma (rrS l s), ()) W) ∗ atPos ER (rrCell c l s) 1 ∅ 0
              ∗ reached ER (rrCell c l s) 1 ∗ rrPay m c l s)
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  have hrule := Rounds.wp_wait_rest_token 𝒱 ER (sched m) (c : Thread nD τ) none (κ := κ) (w := .waitDma2 (rrS l s) src dst h₁ h₂)
    (waitDma2_clause 𝒱 c (rrS l s) hcr) (Set.mem_univ _) () (O := O) (W := W) (R := 0) (m := 0) (T := ∅) (k := kont) (Q := Q)
    (by rw [Nat.zero_add]; exact (expect_rr m c l s h).symm)
  rw [rest_rr m c l s h] at hrule
  exact hrule

/-- info: 'Cert.KernelIdealProof.wp_red_send' depends on axioms: [propext, Classical.choice, Quot.sound] -/
#guard_msgs in #print axioms wp_red_send

/-- info: 'Cert.KernelIdealProof.wp_red_recv' depends on axioms: [propext, Classical.choice, Quot.sound] -/
#guard_msgs in #print axioms wp_red_recv

end Cert.KernelIdealProof

end
-- ==== Proof.StepsGather.lean ====
import proofs.«900993_g7700000000000994_dist_mlpseq_tp1d_rep_bs_b512_d256_h512_v7x_i8_bf16_1_alg».proof.Proof.Waits

/-! The two remote steps of the all-gather, each proved once at a symbolic device, layer and peer.

    The send: device `c` copies its own reduced rows — chunk `c` of layer `l` of its gather buffer — into the same chunk of
    peer `p`'s gather buffer. It lends the copy one of the eight shares of the source, the one named after `p`, which comes
    back with the departure (the gather-send cell's duty `p`); it gives up the destination chunk, which it was handed by
    `p`'s entry signal, and which lands, rewritten, as the arrival's payload on `p`'s gather-receive cell `(l, c)` (its one
    duty, `c`); and it pays the arrival's credit off what it owes.

    The receive: the wait on the gather-receive cell `(l, s)` is for the whole of its one-duty round, and hands the
    device chunk `s` of its gather buffer holding `s`'s reduced rows. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A chunk of the gather buffer carries a piece's credit on whichever DMA semaphore. -/
theorem gChunk_credit (l : Fin 3) (t : Dev nD) : (gChunk l t).view.dmaCredit = N64 := by revert l t; decide
theorem gChunk_amount (l : Fin 3) (t : Dev nD) (q : DmaSem sig) : (gChunk l t).view.amount (.dma q) = N64 :=
  (View.amount_dma _ q).trans (gChunk_credit l t)

/-! ## The gather send -/

/-- The copy of `c`'s reduced rows of layer `l < 2` to peer `p`. -/
theorem wp_gat_send (𝒱 : Variants) (c p : Dev nD) (l : Fin 3) (hl : l.val < 2) (hpc : p ≠ c) (κ₁ κ₂ : ℕ)
    {dev : Dev nD} (hdev : dev = p)
    {src : Memref sig (c : Thread nD τ).2.kind .vmem S64x256 .bf16} (hsrc : src = gChunk l c)
    {dst : Memref sig (Dev.tc dev : Thread nD τ).2.kind .vmem S64x256 .bf16} (hdst : dst = gChunk l c)
    {sS : SemLoc sig} (hsS : sS = .dma (gsS l)) {sem : SemLoc sig} (hsem : sem = .dma (grS l c))
    {hsc : dst.view.ref.isScScratch = false} {h₁ : src.view.WordExact} {h₂ : dst.view.WordExact}
    {h₃ : DmaTarget.Typed .vmem sem (.remote (Dev.tc dev : Thread nD τ) dst sS hsc)}
    {α : Type} {kont : PUnit → Prog (TpuEff nD τ sig (Elt F) Λ₀ (c : Thread nD τ).2) α} {Q : α → sProp 𝕄}
    {O₀ : CellTallies nD τ sig Unit} (O : CellTallies nD τ sig Unit) (hO : O₀ = O + tallyAt (grCell p l c) () N64) {W : Waits sig Unit}
    (fd : Buf (Elt F) ((gChunk l c).view.loc (p : Thread nD τ))) :
    iprop(cellInv ER (sched m) κ₁ (gsCell c l) ∗ cellInv ER (sched m) κ₂ (grCell p l c)
        ∗ piece c (gChunk l c) (sh8 p) (Gfun m c) ∗ piece p (gChunk l c) fullShare fd
        ∗ owes (c : Thread nD τ) O₀ W
        ∗ dutyTok ER (gsCell c l) 0 p ∗ reached ER (gsCell c l) 0
        ∗ dutyTok ER (grCell p l c) 0 c ∗ reached ER (grCell p l c) 0)
      ⊢ iprop(((cred (tallyAt (gsCell c l) () N64) ∗ owes (c : Thread nD τ) O W)
            -∗ wp frame (wpE (defs₀ (F := F)) 𝒱 (c : Thread nD τ) none) Set.univ (kont ⟨⟩) Q)
          -∗ wp frame (wpE (defs₀ (F := F)) 𝒱 (c : Thread nD τ) none) Set.univ
              (.op (.enqueueDma src (.remote (Dev.tc dev : Thread nD τ) dst sS hsc) sem h₁ h₂ h₃) kont) Q) := by
  subst hdev hsrc hdst hsS hsem
  exact Rounds.wp_send_pointsTo 𝒱 ER (sched m) (c : Thread nD τ) none
    (c' := (Dev.tc dev : Thread nD τ)) (src := gChunk l c) (dst := gChunk l c) (hsc := hsc) (sS := .dma (gsS l)) (sem := .dma (grS l c))
    (hsrc := h₁) (hdst := h₂) (hsem := h₃) (k := kont) (q := sh8 dev) (fs := Gfun m c) (fd := fd) (r₁ := 0) (r₂ := 0) (d₁ := dev) (d₂ := c)
    (κ₁ := κ₁) (κ₂ := κ₂)
    (mem_duties_gs m c l dev hl hpc) (mem_duties_gr m dev l c hl hpc.symm) () () N64 (gChunk_amount l c (grS l c))
    (amount_gs m c l dev) (amount_gr m dev l c c) (O₀ := O₀) O hO (W := W)
    (by rw [payload_gs]; exact Entails.rfl)
    (by rw [payload_gr]; unfold grPay piece; iintro H; iexists fd; iexact H) (Es := Set.univ)

/-! ## The gather receive -/

/-- The wait for peer `s`'s reduced rows of layer `l < 2`: the whole of the cell's one-duty round. -/
theorem wp_gat_recv (𝒱 : Variants) (c s : Dev nD) (l : Fin 3) (hl : l.val < 2) (hsc : s ≠ c) (κ : ℕ)
    {q : DmaSem sig} (hq : q = grS l s)
    {sp sp' : Space} {sh sh' : Shape} {e e' : EltTy} {src : Memref sig (c : Thread nD τ).2.kind sp' sh' e'} {κ' : Kind} {dst : Memref sig κ' sp sh e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (grCell c l s) ∗ cred (tallyAt (grCell c l s) () N64) ∗ owes (c : Thread nD τ) O W
        ∗ MayWait (c : Thread nD τ) (.dma (grS l s)) () O ∗ atPos ER (grCell c l s) 0 ∅ 0)
      ⊢ iprop(((owes (c : Thread nD τ) O (insert (.dma (grS l s), ()) W) ∗ atPos ER (grCell c l s) 1 ∅ 0 ∗ reached ER (grCell c l s) 1
              ∗ grPay m c l s)
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  have h := wp_wait_last m 𝒱 c (.dma (grS l s)) κ 0 ((expect_gr m c l s hl hsc).trans (by rw [Nat.zero_add, Nat.one_mul]))
    (w := .waitDma2 (grS l s) src dst h₁ h₂) (waitDma2_clause 𝒱 c (grS l s) hcr) (kont := kont) (Q := Q) (O := O) (W := W)
  rw [show (sched m).duties ((c : Thread nD τ), SemLoc.dma (grS l s)) 0 = {s} from duties_gr m c l s hl hsc, bigSep_singleton,
    show (sched m).payload ((c : Thread nD τ), SemLoc.dma (grS l s)) 0 s = grPay m c l s from payload_gr m c l s s] at h
  exact (sep_mono_right (sep_mono_right (sep_mono_right (sep_mono_right (waited_zero m _))))).trans h

/-- info: 'Cert.KernelIdealProof.wp_gat_send' depends on axioms: [propext, Classical.choice, Quot.sound] -/
#guard_msgs in #print axioms wp_gat_send

/-- info: 'Cert.KernelIdealProof.wp_gat_recv' depends on axioms: [propext, Classical.choice, Quot.sound] -/
#guard_msgs in #print axioms wp_gat_recv

end Cert.KernelIdealProof

end
-- ==== Proof.Exit.lean ====
import proofs.«900993_g7700000000000994_dist_mlpseq_tp1d_rep_bs_b512_d256_h512_v7x_i8_bf16_1_alg».proof.Proof.Ghost
import proofs.«900993_g7700000000000994_dist_mlpseq_tp1d_rep_bs_b512_d256_h512_v7x_i8_bf16_1_alg».proof.Proof.Split

/-! The end of a device's body: what it gives the launch back. Every own transfer cell is closed — one whose round had
    duties after the owner has waited through it, one without duties untouched — and yields its counter at zero; and a
    scratch buffer whose 24 pieces are all held whole, at whatever contents, is the buffer held whole at some contents. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Closing the cells -/

/-- A cell whose owner stands after round 0 closes, and yields its counter at zero. -/
theorem close_used (K : GSem nD τ sig → ℕ) (c : Dev nD) (k : CK) :
    iprop(cellInv ER (sched m) (K (kcell c k)) (kcell c k) ∗ atPos ER (kcell c k) 1 ∅ 0)
      ⊢ (iprop(|={Set.univ}=> semVal (kcell c k) 0) : sProp 𝕄) :=
  Rounds.cell_close ER (sched m) (Set.mem_univ _) (fun h => h) (R := 1) (duties_later m (kcell c k))

/-- A cell with no duty at all closes from its first position. -/
theorem close_unused (K : GSem nD τ sig → ℕ) (c : Dev nD) (k : CK) (h : (sched (F := F) m).duties (kcell c k) 0 = ∅) :
    iprop(cellInv ER (sched m) (K (kcell c k)) (kcell c k) ∗ atPos ER (kcell c k) 0 ∅ 0)
      ⊢ (iprop(|={Set.univ}=> semVal (kcell c k) 0) : sProp 𝕄) :=
  Rounds.cell_close ER (sched m) (Set.mem_univ _) (fun h => h) (R := 0) fun r _ => by
    rcases Nat.eq_zero_or_pos r with rfl | hr
    · exact h
    · exact duties_later m (kcell c k) r hr

/-- The invariant of one cell, out of the family. -/
theorem invsAll_at (K : GSem nD τ sig → ℕ) (c : Dev nD) (k : CK) :
    invsAll m K ⊢ (cellInv ER (sched m) (K (kcell c k)) (kcell c k) : sProp 𝕄) :=
  bigSep_elim (i := ((c, k) : Dev nD × CK)) (Finset.mem_univ _)

/-- All the transfer cells of a device close: each from the position after round 0 if the round had duties, from its
    first position if not. -/
theorem close_all (K : GSem nD τ sig → ℕ) (c : Dev nD) :
    iprop(invsAll m K ∗ bigSep ((Finset.univ : Finset CK).erase .bar)
        (fun k => (atPos ER (kcell c k) (if ((sched (F := F) m).duties (kcell c k) 0).Nonempty then 1 else 0) ∅ 0 : sProp 𝕄)))
      ⊢ (iprop(|={Set.univ}=> bigSep ((Finset.univ : Finset CK).erase .bar) (fun k => (semVal (kcell c k) 0 : sProp 𝕄))) : sProp 𝕄) := by
  refine (bigSep_with_persistent (Ψ := fun k => (iprop(|={Set.univ}=> semVal (kcell c k) 0) : sProp 𝕄)) fun k _ => ?_).trans
    (bigSep_fupd _ _)
  refine (sep_mono_left (invsAll_at m K c k)).trans ?_
  by_cases h : ((sched (F := F) m).duties (kcell c k) 0).Nonempty
  · rw [if_pos h]; exact close_used m K c k
  · rw [if_neg h]; exact close_unused m K c k (Finset.not_nonempty_iff_eq_empty.mp h)

/-! ## Rejoining a buffer from its pieces -/

/-- A region held at some contents absorbs a family of regions, each held at some contents, all pairwise disjoint: their
    union is held at some contents. -/
theorem pointsTo_absorb {ℓ : Loc nD τ sig} {T : Type} [DecidableEq T] (q : PosShare TreeShare) (K : T → Finset (Idx ℓ)) (S : Finset T) :
    ∀ J : Finset (Idx ℓ), (∀ t ∈ S, Disjoint J (K t)) → (∀ t ∈ S, ∀ t' ∈ S, t ≠ t' → Disjoint (K t) (K t')) →
      iprop((∃ f : Buf (Elt F) ℓ, ℓ ↦[J]{q} f) ∗ bigSep S (fun t => iprop(∃ f : Buf (Elt F) ℓ, ℓ ↦[K t]{q} f)))
        ⊢ (iprop(∃ g : Buf (Elt F) ℓ, ℓ ↦[J ∪ S.biUnion K]{q} g) : sProp 𝕄) := by
  induction S using Finset.induction_on with
  | empty =>
    intro J _ _
    rw [bigSep_empty, Finset.biUnion_empty, Finset.union_empty]
    iintro ⟨H, -⟩
    iexact H
  | insert t S ht ih =>
    intro J hJ hK
    have hJt : Disjoint J (K t) := hJ t (Finset.mem_insert_self _ _)
    have hJ' : ∀ t' ∈ S, Disjoint (J ∪ K t) (K t') := fun t' ht' =>
      Finset.disjoint_union_left.mpr ⟨hJ t' (Finset.mem_insert_of_mem ht'),
        hK t (Finset.mem_insert_self _ _) t' (Finset.mem_insert_of_mem ht') (fun e => ht (e ▸ ht'))⟩
    rw [bigSep_insert ht, Finset.biUnion_insert, ← Finset.union_assoc]
    refine (show iprop((∃ f : Buf (Elt F) ℓ, ℓ ↦[J]{q} f) ∗ (∃ f : Buf (Elt F) ℓ, ℓ ↦[K t]{q} f)
      ∗ bigSep S (fun t => iprop(∃ f : Buf (Elt F) ℓ, ℓ ↦[K t]{q} f))) ⊢ _ from ?_)
    iintro ⟨⟨%f, HJ⟩, ⟨%ft, Ht⟩, HS⟩
    iapply (ih (J ∪ K t) hJ' fun t₁ h₁ t₂ h₂ => hK t₁ (Finset.mem_insert_of_mem h₁) t₂ (Finset.mem_insert_of_mem h₂))
    isplitl [HJ Ht]
    · iexists (K t).piecewise ft f
      iapply (pointsTo_join hJt)
      isplitl [HJ] <;> iassumption
    · iexact HS

/-- A buffer whose 24 regions, pairwise disjoint and covering it, are each held whole at some contents is held whole at
    some contents. -/
theorem scr_of_cover (c : Dev nD) (b : Ref sig .tc) (K : Fin 3 × Dev nD → Finset (Idx ((c : Thread nD τ).loc b)))
    (hd : ∀ a a', a ≠ a' → Disjoint (K a) (K a')) (hU : Finset.univ.biUnion K = Finset.univ) :
    bigSep (Finset.univ : Finset (Fin 3 × Dev nD))
        (fun a => (iprop(∃ f : Buf (Elt F) ((c : Thread nD τ).loc b), ((c : Thread nD τ).loc b) ↦[K a]{fullShare} f) : sProp 𝕄))
      ⊢ (scr c b : sProp 𝕄) := by
  rw [bigSep_univ_at _ ((0, 0) : Fin 3 × Dev nD)]
  refine (pointsTo_absorb fullShare K (Finset.univ.erase (0, 0)) (K (0, 0))
    (fun t ht => hd _ _ (Finset.ne_of_mem_erase ht).symm) (fun t _ t' _ h => hd t t' h)).trans ?_
  rw [← Finset.biUnion_insert, Finset.insert_erase (Finset.mem_univ _), hU]
  exact .rfl

/-- The partial-product buffer back whole from its 24 chunks. -/
theorem scr0_of_pieces (c : Dev nD) :
    bigSep (Finset.univ : Finset (Fin 3 × Dev nD)) (fun a => (iprop(∃ f, piece c (pChunk a.1 a.2) fullShare f) : sProp 𝕄))
      ⊢ (scr c cc0_scratch0 : sProp 𝕄) := by
  refine (Entails.of_eq (bigSep_congr fun a _ => ?_)).trans
    (scr_of_cover c cc0_scratch0 (fun a => (rectP a.1 a.2).set) (fun a a' h => rectP_disjoint h) biUnion_rectP)
  exact congrArg (fun I => (iprop(∃ f : Buf (Elt F) ((c : Thread nD τ).loc cc0_scratch0),
    ((c : Thread nD τ).loc cc0_scratch0) ↦[I]{fullShare} f) : sProp 𝕄)) (set_pChunk a.1 a.2)

/-- The receive buffer back whole from its 24 slots. -/
theorem scr1_of_pieces (c : Dev nD) :
    bigSep (Finset.univ : Finset (Fin 3 × Dev nD)) (fun a => (iprop(∃ f, piece c (rSlot a.1 a.2) fullShare f) : sProp 𝕄))
      ⊢ (scr c cc0_scratch1 : sProp 𝕄) := by
  refine (Entails.of_eq (bigSep_congr fun a _ => ?_)).trans
    (scr_of_cover c cc0_scratch1 (fun a => (rectR a.1 a.2).set) (fun a a' h => rectR_disjoint h) biUnion_rectR)
  exact congrArg (fun I => (iprop(∃ f : Buf (Elt F) ((c : Thread nD τ).loc cc0_scratch1),
    ((c : Thread nD τ).loc cc0_scratch1) ↦[I]{fullShare} f) : sProp 𝕄)) (set_rSlot a.1 a.2)

/-- The gather buffer back whole from its 24 chunks. -/
theorem scr2_of_pieces (c : Dev nD) :
    bigSep (Finset.univ : Finset (Fin 3 × Dev nD)) (fun a => (iprop(∃ f, piece c (gChunk a.1 a.2) fullShare f) : sProp 𝕄))
      ⊢ (scr c cc0_scratch2 : sProp 𝕄) := by
  refine (Entails.of_eq (bigSep_congr fun a _ => ?_)).trans
    (scr_of_cover c cc0_scratch2 (fun a => (rectP a.1 a.2).set) (fun a a' h => rectP_disjoint h) biUnion_rectP)
  exact congrArg (fun I => (iprop(∃ f : Buf (Elt F) ((c : Thread nD τ).loc cc0_scratch2),
    ((c : Thread nD τ).loc cc0_scratch2) ↦[I]{fullShare} f) : sProp 𝕄)) (set_gChunk a.1 a.2)

/-- A scratch buffer held whole at given contents is, in particular, held whole at some contents. -/
theorem scr_of_whole (c : Dev nD) (b : Ref sig .tc) (f : Buf (Elt F) ((Memref.whole b).view.loc (c : Thread nD τ))) :
    ((Memref.whole b).view.loc (c : Thread nD τ) ↦[(Memref.whole b).view.set]{fullShare} f : sProp 𝕄) ⊢ scr c b := by
  refine (Entails.of_eq (congrArg (fun I => pointsTo ((c : Thread nD τ).loc b) I fullShare f) (View.set_whole b))).trans ?_
  unfold scr
  iintro H
  iexists f
  iexact H

end Cert.KernelIdealProof

end
-- ==== Proof.Canon.lean ====
import proofs.«900993_g7700000000000994_dist_mlpseq_tp1d_rep_bs_b512_d256_h512_v7x_i8_bf16_1_alg».proof.Proof.Cells

/-! Canonical names. The printed program spells every device-dependent peer, slice offset and guard by an integer
    chain over the device's own position; the protocol is stated over the names of the cells module (the peers
    `fwd j c` and `bwd j c`, the 64-row pieces `pChunk`, `rSlot`, `gChunk`, the semaphores `rsS`, `rrS`, `gsS`,
    `grS`). This module proves, once and for any spelling of the offsets, that a piece, a rectangle or a semaphore
    picked at offsets equal to a closed form is the named one; the table module instantiates these at each printed
    chain through its closed form. -/

noncomputable section

namespace Cert.KernelIdealProof

open Cert.KernelIdeal Cert.KernelIdeal.Gen
open Idealize.ShloMosaic Idealize.ShloMosaic.TcCoe Idealize.SL.Sem

/-! ## Peers -/

/-- A device given by a number and its bound is the device whose position is that number. -/
theorem dev_eq_of_val {n : ℕ} {h : n < nD} {d : Dev nD} (e : n = d.val) : (⟨n, h⟩ : Dev nD) = d := Fin.ext e

/-- The position of the device `j` places after `c`. -/
theorem fwd_val (j : ℕ) (c : Dev nD) : (fwd j c).val = (c.val + j) % 8 := rfl

/-- The printed chain `(c + 7 - r) % 8` of the accumulation step `1 + r` is the position of the device `1 + r`
    places before `c`. -/
theorem bwd_val (c : Dev nD) (r : Fin 7) : (c.val + 7 - r.val) % 8 = (bwd (1 + r.val) c).val := by
  revert c r; decide

/-- The device's id as the kernel computes it from its own word (divided by the stride 1 of the one mesh axis, modulo
    the axis's 8) is its position. -/
theorem devWord_eq (c : Dev nD) : Scalar.remsi (Scalar.divsi (Dev.word c) 1#32) 8#32 = BitVec.ofNat 32 c.val := by
  revert c; decide

/-! ## Pieces: a 64-row slice at offsets equal to `![l, 64 t, 0]` (`![l, s, 0, 0]` in the receive buffer), with its
    unit axes dropped, is the named piece, whatever the evidence it carries. -/

theorem pchunk_of_off (l : Fin 3) (t : Fin 8) {off : Fin 3 → Nat} (e : off = ![l.val, 64 * t.val, 0])
    (h : ∀ a, off a + S1x64x256.size a ≤ S3x512x256.size a)
    (h' : ∀ a, (Rect.unit (s := S3x512x256) off S1x64x256.size h).stride a = 1) :
    ((Memref.whole cc0_scratch0).slice (Rect.unit (s := S3x512x256) off S1x64x256.size h) h').squeeze S64x256
      squeezes_S1x64x256_S64x256 = pChunk l t := by
  subst e; rfl

theorem slot_of_off (l : Fin 3) (s : Fin 8) {off : Fin 4 → Nat} (e : off = ![l.val, s.val, 0, 0])
    (h : ∀ a, off a + S1x1x64x256.size a ≤ S3x8x64x256.size a)
    (h' : ∀ a, (Rect.unit (s := S3x8x64x256) off S1x1x64x256.size h).stride a = 1) :
    ((Memref.whole cc0_scratch1).slice (Rect.unit (s := S3x8x64x256) off S1x1x64x256.size h) h').squeeze S64x256
      squeezes_S1x1x64x256_S64x256 = rSlot l s := by
  subst e; rfl

theorem gchunk_of_off (l : Fin 3) (t : Fin 8) {off : Fin 3 → Nat} (e : off = ![l.val, 64 * t.val, 0])
    (h : ∀ a, off a + S1x64x256.size a ≤ S3x512x256.size a)
    (h' : ∀ a, (Rect.unit (s := S3x512x256) off S1x64x256.size h).stride a = 1) :
    ((Memref.whole cc0_scratch2).slice (Rect.unit (s := S3x512x256) off S1x64x256.size h) h').squeeze S64x256
      squeezes_S1x64x256_S64x256 = gChunk l t := by
  subst e; rfl

/-! ## Rectangles: the rectangle a load or a store goes through, at offsets equal to a piece's, is the piece's own
    rectangle (of the partial-product and gather buffers; of the receive buffer). -/

theorem rectp_of_off (l : Fin 3) (t : Fin 8) {off : Fin 3 → Nat} (e : off = ![l.val, 64 * t.val, 0])
    (h : ∀ a, off a + S1x64x256.size a ≤ S3x512x256.size a) :
    Rect.unit (s := S3x512x256) off S1x64x256.size h
      = Rect.unit (s := S3x512x256) ![l.val, 64 * t.val, 0] S1x64x256.size (inb_p l t) := by
  subst e; rfl

theorem rectr_of_off (l : Fin 3) (s : Fin 8) {off : Fin 4 → Nat} (e : off = ![l.val, s.val, 0, 0])
    (h : ∀ a, off a + S1x1x64x256.size a ≤ S3x8x64x256.size a) :
    Rect.unit (s := S3x8x64x256) off S1x1x64x256.size h
      = Rect.unit (s := S3x8x64x256) ![l.val, s.val, 0, 0] S1x1x64x256.size (inb_r l s) := by
  subst e; rfl

/-! ## Semaphores: the one semaphore picked from an array at offsets equal to `![l]` or `![l, s]` is the named one
    (the arrays lie on the pool row-major from 8, 11, 35 and 38). -/

theorem rsS_of_off (l : Fin 3) {off : Fin 1 → Nat} (e : off = ![l.val]) (h : ∀ a, off a + S1.size a ≤ S3.size a) :
    ((cc0_scratch3.slice (Rect.unit (s := S3) off S1.size h)).squeeze S_ squeezes_S1_S_).sem = rsS l := by
  subst e; revert l; decide

theorem rrS_of_off (l : Fin 3) (s : Dev nD) {off : Fin 2 → Nat} (e : off = ![l.val, s.val])
    (h : ∀ a, off a + S1x1.size a ≤ S3x8.size a) :
    ((cc0_scratch4.slice (Rect.unit (s := S3x8) off S1x1.size h)).squeeze S_ squeezes_S1x1_S_).sem = rrS l s := by
  subst e; revert l s; decide

theorem gsS_of_off (l : Fin 3) {off : Fin 1 → Nat} (e : off = ![l.val]) (h : ∀ a, off a + S1.size a ≤ S3.size a) :
    ((cc0_scratch5.slice (Rect.unit (s := S3) off S1.size h)).squeeze S_ squeezes_S1_S_).sem = gsS l := by
  subst e; revert l; decide

theorem grS_of_off (l : Fin 3) (s : Dev nD) {off : Fin 2 → Nat} (e : off = ![l.val, s.val])
    (h : ∀ a, off a + S1x1.size a ≤ S3x8.size a) :
    ((cc0_scratch6.slice (Rect.unit (s := S3x8) off S1x1.size h)).squeeze S_ squeezes_S1x1_S_).sem = grS l s := by
  subst e; revert l s; decide

/-! ## Guards -/

/-- The guard "my id is not `t`", as the kernel computes it on a word `w` equal to the device's position (compare,
    widen to a word, compare with zero), holds exactly when the device is not `t`. -/
theorem guard_iff_of (c t : Dev nD) {w : BitVec 32} (e : w = BitVec.ofNat 32 c.val) :
    Scalar.cmpi .ne (Scalar.extui (Scalar.cmpi .ne w (BitVec.ofNat 32 t.val))) 0#32 = 1#1 ↔ c ≠ t := by
  subst e; revert c t; decide

end Cert.KernelIdealProof

end
-- ==== Proof.CanonTable.lean ====
import proofs.«900993_g7700000000000994_dist_mlpseq_tp1d_rep_bs_b512_d256_h512_v7x_i8_bf16_1_alg».proof.Proof.Canon

/-! The table of canonical names: for every device chain, slice offset, semaphore pick and guard the printed program
    spells, the equation between the printed spelling and the protocol's name, each an instance of a lemma of the
    canonical-names module at the chain's generated closed form. A peer is `fwd j c` (the entry signals and the gather
    sends go `j` places forward) or a literal device (a reduce send's target); a piece at the device's own position is
    `rSlot l c` or `gChunk l c`, and at the accumulation step `j` the slot and the semaphore are those of the device `j`
    places back, `bwd j c`; a guard holds exactly off the one device it names. -/

noncomputable section

namespace Cert.KernelIdealProof

open Cert.KernelIdeal Cert.KernelIdeal.Gen
open Idealize.ShloMosaic Idealize.ShloMosaic.TcCoe Idealize.SL.Sem

/-! ## Peers: the device a signal or a transfer addresses, `j` places after `c` on the ring of residues -/

theorem dev1_eq (c : Dev nD) (h : k0_dev1 c < nD) : (⟨k0_dev1 c, h⟩ : Dev nD) = fwd 1 c := dev_eq_of_val (k0_dev1_eq c)
theorem dev2_eq (c : Dev nD) (h : k0_dev2 c < nD) : (⟨k0_dev2 c, h⟩ : Dev nD) = fwd 2 c := dev_eq_of_val (k0_dev2_eq c)
theorem dev3_eq (c : Dev nD) (h : k0_dev3 c < nD) : (⟨k0_dev3 c, h⟩ : Dev nD) = fwd 3 c := dev_eq_of_val (k0_dev3_eq c)
theorem dev4_eq (c : Dev nD) (h : k0_dev4 c < nD) : (⟨k0_dev4 c, h⟩ : Dev nD) = fwd 4 c := dev_eq_of_val (k0_dev4_eq c)
theorem dev5_eq (c : Dev nD) (h : k0_dev5 c < nD) : (⟨k0_dev5 c, h⟩ : Dev nD) = fwd 5 c := dev_eq_of_val (k0_dev5_eq c)
theorem dev6_eq (c : Dev nD) (h : k0_dev6 c < nD) : (⟨k0_dev6 c, h⟩ : Dev nD) = fwd 6 c := dev_eq_of_val (k0_dev6_eq c)
theorem dev7_eq (c : Dev nD) (h : k0_dev7 c < nD) : (⟨k0_dev7 c, h⟩ : Dev nD) = fwd 7 c := dev_eq_of_val (k0_dev7_eq c)
theorem dev16_eq (c : Dev nD) (h : k0_dev16 c < nD) : (⟨k0_dev16 c, h⟩ : Dev nD) = fwd 1 c := dev_eq_of_val (k0_dev16_eq c)
theorem dev17_eq (c : Dev nD) (h : k0_dev17 c < nD) : (⟨k0_dev17 c, h⟩ : Dev nD) = fwd 2 c := dev_eq_of_val (k0_dev17_eq c)
theorem dev18_eq (c : Dev nD) (h : k0_dev18 c < nD) : (⟨k0_dev18 c, h⟩ : Dev nD) = fwd 3 c := dev_eq_of_val (k0_dev18_eq c)
theorem dev19_eq (c : Dev nD) (h : k0_dev19 c < nD) : (⟨k0_dev19 c, h⟩ : Dev nD) = fwd 4 c := dev_eq_of_val (k0_dev19_eq c)
theorem dev20_eq (c : Dev nD) (h : k0_dev20 c < nD) : (⟨k0_dev20 c, h⟩ : Dev nD) = fwd 5 c := dev_eq_of_val (k0_dev20_eq c)
theorem dev21_eq (c : Dev nD) (h : k0_dev21 c < nD) : (⟨k0_dev21 c, h⟩ : Dev nD) = fwd 6 c := dev_eq_of_val (k0_dev21_eq c)
theorem dev22_eq (c : Dev nD) (h : k0_dev22 c < nD) : (⟨k0_dev22 c, h⟩ : Dev nD) = fwd 7 c := dev_eq_of_val (k0_dev22_eq c)
theorem dev31_eq (c : Dev nD) (h : k0_dev31 c < nD) : (⟨k0_dev31 c, h⟩ : Dev nD) = fwd 1 c := dev_eq_of_val (k0_dev31_eq c)
theorem dev32_eq (c : Dev nD) (h : k0_dev32 c < nD) : (⟨k0_dev32 c, h⟩ : Dev nD) = fwd 2 c := dev_eq_of_val (k0_dev32_eq c)
theorem dev33_eq (c : Dev nD) (h : k0_dev33 c < nD) : (⟨k0_dev33 c, h⟩ : Dev nD) = fwd 3 c := dev_eq_of_val (k0_dev33_eq c)
theorem dev34_eq (c : Dev nD) (h : k0_dev34 c < nD) : (⟨k0_dev34 c, h⟩ : Dev nD) = fwd 4 c := dev_eq_of_val (k0_dev34_eq c)
theorem dev35_eq (c : Dev nD) (h : k0_dev35 c < nD) : (⟨k0_dev35 c, h⟩ : Dev nD) = fwd 5 c := dev_eq_of_val (k0_dev35_eq c)
theorem dev36_eq (c : Dev nD) (h : k0_dev36 c < nD) : (⟨k0_dev36 c, h⟩ : Dev nD) = fwd 6 c := dev_eq_of_val (k0_dev36_eq c)
theorem dev37_eq (c : Dev nD) (h : k0_dev37 c < nD) : (⟨k0_dev37 c, h⟩ : Dev nD) = fwd 7 c := dev_eq_of_val (k0_dev37_eq c)

/-! ## Peers: the literal device a reduce send addresses -/

theorem dev8_eq (h : k0_dev8 < nD) : (⟨k0_dev8, h⟩ : Dev nD) = (0 : Dev nD) := dev_eq_of_val k0_dev8_eq
theorem dev9_eq (h : k0_dev9 < nD) : (⟨k0_dev9, h⟩ : Dev nD) = (1 : Dev nD) := dev_eq_of_val k0_dev9_eq
theorem dev10_eq (h : k0_dev10 < nD) : (⟨k0_dev10, h⟩ : Dev nD) = (2 : Dev nD) := dev_eq_of_val k0_dev10_eq
theorem dev11_eq (h : k0_dev11 < nD) : (⟨k0_dev11, h⟩ : Dev nD) = (3 : Dev nD) := dev_eq_of_val k0_dev11_eq
theorem dev12_eq (h : k0_dev12 < nD) : (⟨k0_dev12, h⟩ : Dev nD) = (4 : Dev nD) := dev_eq_of_val k0_dev12_eq
theorem dev13_eq (h : k0_dev13 < nD) : (⟨k0_dev13, h⟩ : Dev nD) = (5 : Dev nD) := dev_eq_of_val k0_dev13_eq
theorem dev14_eq (h : k0_dev14 < nD) : (⟨k0_dev14, h⟩ : Dev nD) = (6 : Dev nD) := dev_eq_of_val k0_dev14_eq
theorem dev15_eq (h : k0_dev15 < nD) : (⟨k0_dev15, h⟩ : Dev nD) = (7 : Dev nD) := dev_eq_of_val k0_dev15_eq
theorem dev23_eq (h : k0_dev23 < nD) : (⟨k0_dev23, h⟩ : Dev nD) = (0 : Dev nD) := dev_eq_of_val k0_dev23_eq
theorem dev24_eq (h : k0_dev24 < nD) : (⟨k0_dev24, h⟩ : Dev nD) = (1 : Dev nD) := dev_eq_of_val k0_dev24_eq
theorem dev25_eq (h : k0_dev25 < nD) : (⟨k0_dev25, h⟩ : Dev nD) = (2 : Dev nD) := dev_eq_of_val k0_dev25_eq
theorem dev26_eq (h : k0_dev26 < nD) : (⟨k0_dev26, h⟩ : Dev nD) = (3 : Dev nD) := dev_eq_of_val k0_dev26_eq
theorem dev27_eq (h : k0_dev27 < nD) : (⟨k0_dev27, h⟩ : Dev nD) = (4 : Dev nD) := dev_eq_of_val k0_dev27_eq
theorem dev28_eq (h : k0_dev28 < nD) : (⟨k0_dev28, h⟩ : Dev nD) = (5 : Dev nD) := dev_eq_of_val k0_dev28_eq
theorem dev29_eq (h : k0_dev29 < nD) : (⟨k0_dev29, h⟩ : Dev nD) = (6 : Dev nD) := dev_eq_of_val k0_dev29_eq
theorem dev30_eq (h : k0_dev30 < nD) : (⟨k0_dev30, h⟩ : Dev nD) = (7 : Dev nD) := dev_eq_of_val k0_dev30_eq
theorem dev38_eq (h : k0_dev38 < nD) : (⟨k0_dev38, h⟩ : Dev nD) = (0 : Dev nD) := dev_eq_of_val k0_dev38_eq
theorem dev39_eq (h : k0_dev39 < nD) : (⟨k0_dev39, h⟩ : Dev nD) = (1 : Dev nD) := dev_eq_of_val k0_dev39_eq
theorem dev40_eq (h : k0_dev40 < nD) : (⟨k0_dev40, h⟩ : Dev nD) = (2 : Dev nD) := dev_eq_of_val k0_dev40_eq
theorem dev41_eq (h : k0_dev41 < nD) : (⟨k0_dev41, h⟩ : Dev nD) = (3 : Dev nD) := dev_eq_of_val k0_dev41_eq
theorem dev42_eq (h : k0_dev42 < nD) : (⟨k0_dev42, h⟩ : Dev nD) = (4 : Dev nD) := dev_eq_of_val k0_dev42_eq
theorem dev43_eq (h : k0_dev43 < nD) : (⟨k0_dev43, h⟩ : Dev nD) = (5 : Dev nD) := dev_eq_of_val k0_dev43_eq
theorem dev44_eq (h : k0_dev44 < nD) : (⟨k0_dev44, h⟩ : Dev nD) = (6 : Dev nD) := dev_eq_of_val k0_dev44_eq
theorem dev45_eq (h : k0_dev45 < nD) : (⟨k0_dev45, h⟩ : Dev nD) = (7 : Dev nD) := dev_eq_of_val k0_dev45_eq

/-! ## Receive slots: a slice of the receive buffer at the device's own position (the target of its reduce sends, and what
    their waits name), or at the position `j` places back (what the accumulation step `j` reads) -/

theorem slot_off2 (c : Dev nD) (h : ∀ a, (k0_off2 c) a + S1x1x64x256.size a ≤ S3x8x64x256.size a) (h' : ∀ a, (Rect.unit (s := S3x8x64x256) (k0_off2 c) S1x1x64x256.size h).stride a = 1) : ((Memref.whole cc0_scratch1).slice (Rect.unit (s := S3x8x64x256) (k0_off2 c) S1x1x64x256.size h) h').squeeze S64x256 squeezes_S1x1x64x256_S64x256 = rSlot 0 c := slot_of_off 0 c (k0_off2_eq c) h h'
theorem slot_off4 (c : Dev nD) (h : ∀ a, (k0_off4 c) a + S1x1x64x256.size a ≤ S3x8x64x256.size a) (h' : ∀ a, (Rect.unit (s := S3x8x64x256) (k0_off4 c) S1x1x64x256.size h).stride a = 1) : ((Memref.whole cc0_scratch1).slice (Rect.unit (s := S3x8x64x256) (k0_off4 c) S1x1x64x256.size h) h').squeeze S64x256 squeezes_S1x1x64x256_S64x256 = rSlot 0 c := slot_of_off 0 c (k0_off4_eq c) h h'
theorem slot_off6 (c : Dev nD) (h : ∀ a, (k0_off6 c) a + S1x1x64x256.size a ≤ S3x8x64x256.size a) (h' : ∀ a, (Rect.unit (s := S3x8x64x256) (k0_off6 c) S1x1x64x256.size h).stride a = 1) : ((Memref.whole cc0_scratch1).slice (Rect.unit (s := S3x8x64x256) (k0_off6 c) S1x1x64x256.size h) h').squeeze S64x256 squeezes_S1x1x64x256_S64x256 = rSlot 0 c := slot_of_off 0 c (k0_off6_eq c) h h'
theorem slot_off8 (c : Dev nD) (h : ∀ a, (k0_off8 c) a + S1x1x64x256.size a ≤ S3x8x64x256.size a) (h' : ∀ a, (Rect.unit (s := S3x8x64x256) (k0_off8 c) S1x1x64x256.size h).stride a = 1) : ((Memref.whole cc0_scratch1).slice (Rect.unit (s := S3x8x64x256) (k0_off8 c) S1x1x64x256.size h) h').squeeze S64x256 squeezes_S1x1x64x256_S64x256 = rSlot 0 c := slot_of_off 0 c (k0_off8_eq c) h h'
theorem slot_off10 (c : Dev nD) (h : ∀ a, (k0_off10 c) a + S1x1x64x256.size a ≤ S3x8x64x256.size a) (h' : ∀ a, (Rect.unit (s := S3x8x64x256) (k0_off10 c) S1x1x64x256.size h).stride a = 1) : ((Memref.whole cc0_scratch1).slice (Rect.unit (s := S3x8x64x256) (k0_off10 c) S1x1x64x256.size h) h').squeeze S64x256 squeezes_S1x1x64x256_S64x256 = rSlot 0 c := slot_of_off 0 c (k0_off10_eq c) h h'
theorem slot_off12 (c : Dev nD) (h : ∀ a, (k0_off12 c) a + S1x1x64x256.size a ≤ S3x8x64x256.size a) (h' : ∀ a, (Rect.unit (s := S3x8x64x256) (k0_off12 c) S1x1x64x256.size h).stride a = 1) : ((Memref.whole cc0_scratch1).slice (Rect.unit (s := S3x8x64x256) (k0_off12 c) S1x1x64x256.size h) h').squeeze S64x256 squeezes_S1x1x64x256_S64x256 = rSlot 0 c := slot_of_off 0 c (k0_off12_eq c) h h'
theorem slot_off14 (c : Dev nD) (h : ∀ a, (k0_off14 c) a + S1x1x64x256.size a ≤ S3x8x64x256.size a) (h' : ∀ a, (Rect.unit (s := S3x8x64x256) (k0_off14 c) S1x1x64x256.size h).stride a = 1) : ((Memref.whole cc0_scratch1).slice (Rect.unit (s := S3x8x64x256) (k0_off14 c) S1x1x64x256.size h) h').squeeze S64x256 squeezes_S1x1x64x256_S64x256 = rSlot 0 c := slot_of_off 0 c (k0_off14_eq c) h h'
theorem slot_off16 (c : Dev nD) (h : ∀ a, (k0_off16 c) a + S1x1x64x256.size a ≤ S3x8x64x256.size a) (h' : ∀ a, (Rect.unit (s := S3x8x64x256) (k0_off16 c) S1x1x64x256.size h).stride a = 1) : ((Memref.whole cc0_scratch1).slice (Rect.unit (s := S3x8x64x256) (k0_off16 c) S1x1x64x256.size h) h').squeeze S64x256 squeezes_S1x1x64x256_S64x256 = rSlot 0 c := slot_of_off 0 c (k0_off16_eq c) h h'
theorem slot_off23 (c : Dev nD) (h : ∀ a, (k0_off23 c) a + S1x1x64x256.size a ≤ S3x8x64x256.size a) (h' : ∀ a, (Rect.unit (s := S3x8x64x256) (k0_off23 c) S1x1x64x256.size h).stride a = 1) : ((Memref.whole cc0_scratch1).slice (Rect.unit (s := S3x8x64x256) (k0_off23 c) S1x1x64x256.size h) h').squeeze S64x256 squeezes_S1x1x64x256_S64x256 = rSlot 0 c := slot_of_off 0 c (k0_off23_eq c) h h'
theorem slot_off24 (c : Dev nD) (h : ∀ a, (k0_off24 c) a + S1x1x64x256.size a ≤ S3x8x64x256.size a) (h' : ∀ a, (Rect.unit (s := S3x8x64x256) (k0_off24 c) S1x1x64x256.size h).stride a = 1) : ((Memref.whole cc0_scratch1).slice (Rect.unit (s := S3x8x64x256) (k0_off24 c) S1x1x64x256.size h) h').squeeze S64x256 squeezes_S1x1x64x256_S64x256 = rSlot 0 c := slot_of_off 0 c (k0_off24_eq c) h h'
theorem slot_off25 (c : Dev nD) (h : ∀ a, (k0_off25 c) a + S1x1x64x256.size a ≤ S3x8x64x256.size a) (h' : ∀ a, (Rect.unit (s := S3x8x64x256) (k0_off25 c) S1x1x64x256.size h).stride a = 1) : ((Memref.whole cc0_scratch1).slice (Rect.unit (s := S3x8x64x256) (k0_off25 c) S1x1x64x256.size h) h').squeeze S64x256 squeezes_S1x1x64x256_S64x256 = rSlot 0 c := slot_of_off 0 c (k0_off25_eq c) h h'
theorem slot_off26 (c : Dev nD) (h : ∀ a, (k0_off26 c) a + S1x1x64x256.size a ≤ S3x8x64x256.size a) (h' : ∀ a, (Rect.unit (s := S3x8x64x256) (k0_off26 c) S1x1x64x256.size h).stride a = 1) : ((Memref.whole cc0_scratch1).slice (Rect.unit (s := S3x8x64x256) (k0_off26 c) S1x1x64x256.size h) h').squeeze S64x256 squeezes_S1x1x64x256_S64x256 = rSlot 0 c := slot_of_off 0 c (k0_off26_eq c) h h'
theorem slot_off27 (c : Dev nD) (h : ∀ a, (k0_off27 c) a + S1x1x64x256.size a ≤ S3x8x64x256.size a) (h' : ∀ a, (Rect.unit (s := S3x8x64x256) (k0_off27 c) S1x1x64x256.size h).stride a = 1) : ((Memref.whole cc0_scratch1).slice (Rect.unit (s := S3x8x64x256) (k0_off27 c) S1x1x64x256.size h) h').squeeze S64x256 squeezes_S1x1x64x256_S64x256 = rSlot 0 c := slot_of_off 0 c (k0_off27_eq c) h h'
theorem slot_off28 (c : Dev nD) (h : ∀ a, (k0_off28 c) a + S1x1x64x256.size a ≤ S3x8x64x256.size a) (h' : ∀ a, (Rect.unit (s := S3x8x64x256) (k0_off28 c) S1x1x64x256.size h).stride a = 1) : ((Memref.whole cc0_scratch1).slice (Rect.unit (s := S3x8x64x256) (k0_off28 c) S1x1x64x256.size h) h').squeeze S64x256 squeezes_S1x1x64x256_S64x256 = rSlot 0 c := slot_of_off 0 c (k0_off28_eq c) h h'
theorem slot_off29 (c : Dev nD) (h : ∀ a, (k0_off29 c) a + S1x1x64x256.size a ≤ S3x8x64x256.size a) (h' : ∀ a, (Rect.unit (s := S3x8x64x256) (k0_off29 c) S1x1x64x256.size h).stride a = 1) : ((Memref.whole cc0_scratch1).slice (Rect.unit (s := S3x8x64x256) (k0_off29 c) S1x1x64x256.size h) h').squeeze S64x256 squeezes_S1x1x64x256_S64x256 = rSlot 0 c := slot_of_off 0 c (k0_off29_eq c) h h'
theorem slot_off30 (c : Dev nD) (h : ∀ a, (k0_off30 c) a + S1x1x64x256.size a ≤ S3x8x64x256.size a) (h' : ∀ a, (Rect.unit (s := S3x8x64x256) (k0_off30 c) S1x1x64x256.size h).stride a = 1) : ((Memref.whole cc0_scratch1).slice (Rect.unit (s := S3x8x64x256) (k0_off30 c) S1x1x64x256.size h) h').squeeze S64x256 squeezes_S1x1x64x256_S64x256 = rSlot 0 c := slot_of_off 0 c (k0_off30_eq c) h h'
theorem slot_off32 (c : Dev nD) (h : ∀ a, (k0_off32 c) a + S1x1x64x256.size a ≤ S3x8x64x256.size a) (h' : ∀ a, (Rect.unit (s := S3x8x64x256) (k0_off32 c) S1x1x64x256.size h).stride a = 1) : ((Memref.whole cc0_scratch1).slice (Rect.unit (s := S3x8x64x256) (k0_off32 c) S1x1x64x256.size h) h').squeeze S64x256 squeezes_S1x1x64x256_S64x256 = rSlot 1 c := slot_of_off 1 c (k0_off32_eq c) h h'
theorem slot_off34 (c : Dev nD) (h : ∀ a, (k0_off34 c) a + S1x1x64x256.size a ≤ S3x8x64x256.size a) (h' : ∀ a, (Rect.unit (s := S3x8x64x256) (k0_off34 c) S1x1x64x256.size h).stride a = 1) : ((Memref.whole cc0_scratch1).slice (Rect.unit (s := S3x8x64x256) (k0_off34 c) S1x1x64x256.size h) h').squeeze S64x256 squeezes_S1x1x64x256_S64x256 = rSlot 1 c := slot_of_off 1 c (k0_off34_eq c) h h'
theorem slot_off36 (c : Dev nD) (h : ∀ a, (k0_off36 c) a + S1x1x64x256.size a ≤ S3x8x64x256.size a) (h' : ∀ a, (Rect.unit (s := S3x8x64x256) (k0_off36 c) S1x1x64x256.size h).stride a = 1) : ((Memref.whole cc0_scratch1).slice (Rect.unit (s := S3x8x64x256) (k0_off36 c) S1x1x64x256.size h) h').squeeze S64x256 squeezes_S1x1x64x256_S64x256 = rSlot 1 c := slot_of_off 1 c (k0_off36_eq c) h h'
theorem slot_off38 (c : Dev nD) (h : ∀ a, (k0_off38 c) a + S1x1x64x256.size a ≤ S3x8x64x256.size a) (h' : ∀ a, (Rect.unit (s := S3x8x64x256) (k0_off38 c) S1x1x64x256.size h).stride a = 1) : ((Memref.whole cc0_scratch1).slice (Rect.unit (s := S3x8x64x256) (k0_off38 c) S1x1x64x256.size h) h').squeeze S64x256 squeezes_S1x1x64x256_S64x256 = rSlot 1 c := slot_of_off 1 c (k0_off38_eq c) h h'
theorem slot_off40 (c : Dev nD) (h : ∀ a, (k0_off40 c) a + S1x1x64x256.size a ≤ S3x8x64x256.size a) (h' : ∀ a, (Rect.unit (s := S3x8x64x256) (k0_off40 c) S1x1x64x256.size h).stride a = 1) : ((Memref.whole cc0_scratch1).slice (Rect.unit (s := S3x8x64x256) (k0_off40 c) S1x1x64x256.size h) h').squeeze S64x256 squeezes_S1x1x64x256_S64x256 = rSlot 1 c := slot_of_off 1 c (k0_off40_eq c) h h'
theorem slot_off42 (c : Dev nD) (h : ∀ a, (k0_off42 c) a + S1x1x64x256.size a ≤ S3x8x64x256.size a) (h' : ∀ a, (Rect.unit (s := S3x8x64x256) (k0_off42 c) S1x1x64x256.size h).stride a = 1) : ((Memref.whole cc0_scratch1).slice (Rect.unit (s := S3x8x64x256) (k0_off42 c) S1x1x64x256.size h) h').squeeze S64x256 squeezes_S1x1x64x256_S64x256 = rSlot 1 c := slot_of_off 1 c (k0_off42_eq c) h h'
theorem slot_off44 (c : Dev nD) (h : ∀ a, (k0_off44 c) a + S1x1x64x256.size a ≤ S3x8x64x256.size a) (h' : ∀ a, (Rect.unit (s := S3x8x64x256) (k0_off44 c) S1x1x64x256.size h).stride a = 1) : ((Memref.whole cc0_scratch1).slice (Rect.unit (s := S3x8x64x256) (k0_off44 c) S1x1x64x256.size h) h').squeeze S64x256 squeezes_S1x1x64x256_S64x256 = rSlot 1 c := slot_of_off 1 c (k0_off44_eq c) h h'
theorem slot_off46 (c : Dev nD) (h : ∀ a, (k0_off46 c) a + S1x1x64x256.size a ≤ S3x8x64x256.size a) (h' : ∀ a, (Rect.unit (s := S3x8x64x256) (k0_off46 c) S1x1x64x256.size h).stride a = 1) : ((Memref.whole cc0_scratch1).slice (Rect.unit (s := S3x8x64x256) (k0_off46 c) S1x1x64x256.size h) h').squeeze S64x256 squeezes_S1x1x64x256_S64x256 = rSlot 1 c := slot_of_off 1 c (k0_off46_eq c) h h'
theorem slot_off53 (c : Dev nD) (h : ∀ a, (k0_off53 c) a + S1x1x64x256.size a ≤ S3x8x64x256.size a) (h' : ∀ a, (Rect.unit (s := S3x8x64x256) (k0_off53 c) S1x1x64x256.size h).stride a = 1) : ((Memref.whole cc0_scratch1).slice (Rect.unit (s := S3x8x64x256) (k0_off53 c) S1x1x64x256.size h) h').squeeze S64x256 squeezes_S1x1x64x256_S64x256 = rSlot 1 c := slot_of_off 1 c (k0_off53_eq c) h h'
theorem slot_off54 (c : Dev nD) (h : ∀ a, (k0_off54 c) a + S1x1x64x256.size a ≤ S3x8x64x256.size a) (h' : ∀ a, (Rect.unit (s := S3x8x64x256) (k0_off54 c) S1x1x64x256.size h).stride a = 1) : ((Memref.whole cc0_scratch1).slice (Rect.unit (s := S3x8x64x256) (k0_off54 c) S1x1x64x256.size h) h').squeeze S64x256 squeezes_S1x1x64x256_S64x256 = rSlot 1 c := slot_of_off 1 c (k0_off54_eq c) h h'
theorem slot_off55 (c : Dev nD) (h : ∀ a, (k0_off55 c) a + S1x1x64x256.size a ≤ S3x8x64x256.size a) (h' : ∀ a, (Rect.unit (s := S3x8x64x256) (k0_off55 c) S1x1x64x256.size h).stride a = 1) : ((Memref.whole cc0_scratch1).slice (Rect.unit (s := S3x8x64x256) (k0_off55 c) S1x1x64x256.size h) h').squeeze S64x256 squeezes_S1x1x64x256_S64x256 = rSlot 1 c := slot_of_off 1 c (k0_off55_eq c) h h'
theorem slot_off56 (c : Dev nD) (h : ∀ a, (k0_off56 c) a + S1x1x64x256.size a ≤ S3x8x64x256.size a) (h' : ∀ a, (Rect.unit (s := S3x8x64x256) (k0_off56 c) S1x1x64x256.size h).stride a = 1) : ((Memref.whole cc0_scratch1).slice (Rect.unit (s := S3x8x64x256) (k0_off56 c) S1x1x64x256.size h) h').squeeze S64x256 squeezes_S1x1x64x256_S64x256 = rSlot 1 c := slot_of_off 1 c (k0_off56_eq c) h h'
theorem slot_off57 (c : Dev nD) (h : ∀ a, (k0_off57 c) a + S1x1x64x256.size a ≤ S3x8x64x256.size a) (h' : ∀ a, (Rect.unit (s := S3x8x64x256) (k0_off57 c) S1x1x64x256.size h).stride a = 1) : ((Memref.whole cc0_scratch1).slice (Rect.unit (s := S3x8x64x256) (k0_off57 c) S1x1x64x256.size h) h').squeeze S64x256 squeezes_S1x1x64x256_S64x256 = rSlot 1 c := slot_of_off 1 c (k0_off57_eq c) h h'
theorem slot_off58 (c : Dev nD) (h : ∀ a, (k0_off58 c) a + S1x1x64x256.size a ≤ S3x8x64x256.size a) (h' : ∀ a, (Rect.unit (s := S3x8x64x256) (k0_off58 c) S1x1x64x256.size h).stride a = 1) : ((Memref.whole cc0_scratch1).slice (Rect.unit (s := S3x8x64x256) (k0_off58 c) S1x1x64x256.size h) h').squeeze S64x256 squeezes_S1x1x64x256_S64x256 = rSlot 1 c := slot_of_off 1 c (k0_off58_eq c) h h'
theorem slot_off59 (c : Dev nD) (h : ∀ a, (k0_off59 c) a + S1x1x64x256.size a ≤ S3x8x64x256.size a) (h' : ∀ a, (Rect.unit (s := S3x8x64x256) (k0_off59 c) S1x1x64x256.size h).stride a = 1) : ((Memref.whole cc0_scratch1).slice (Rect.unit (s := S3x8x64x256) (k0_off59 c) S1x1x64x256.size h) h').squeeze S64x256 squeezes_S1x1x64x256_S64x256 = rSlot 1 c := slot_of_off 1 c (k0_off59_eq c) h h'
theorem slot_off60 (c : Dev nD) (h : ∀ a, (k0_off60 c) a + S1x1x64x256.size a ≤ S3x8x64x256.size a) (h' : ∀ a, (Rect.unit (s := S3x8x64x256) (k0_off60 c) S1x1x64x256.size h).stride a = 1) : ((Memref.whole cc0_scratch1).slice (Rect.unit (s := S3x8x64x256) (k0_off60 c) S1x1x64x256.size h) h').squeeze S64x256 squeezes_S1x1x64x256_S64x256 = rSlot 1 c := slot_of_off 1 c (k0_off60_eq c) h h'
theorem slot_off62 (c : Dev nD) (h : ∀ a, (k0_off62 c) a + S1x1x64x256.size a ≤ S3x8x64x256.size a) (h' : ∀ a, (Rect.unit (s := S3x8x64x256) (k0_off62 c) S1x1x64x256.size h).stride a = 1) : ((Memref.whole cc0_scratch1).slice (Rect.unit (s := S3x8x64x256) (k0_off62 c) S1x1x64x256.size h) h').squeeze S64x256 squeezes_S1x1x64x256_S64x256 = rSlot 2 c := slot_of_off 2 c (k0_off62_eq c) h h'
theorem slot_off64 (c : Dev nD) (h : ∀ a, (k0_off64 c) a + S1x1x64x256.size a ≤ S3x8x64x256.size a) (h' : ∀ a, (Rect.unit (s := S3x8x64x256) (k0_off64 c) S1x1x64x256.size h).stride a = 1) : ((Memref.whole cc0_scratch1).slice (Rect.unit (s := S3x8x64x256) (k0_off64 c) S1x1x64x256.size h) h').squeeze S64x256 squeezes_S1x1x64x256_S64x256 = rSlot 2 c := slot_of_off 2 c (k0_off64_eq c) h h'
theorem slot_off66 (c : Dev nD) (h : ∀ a, (k0_off66 c) a + S1x1x64x256.size a ≤ S3x8x64x256.size a) (h' : ∀ a, (Rect.unit (s := S3x8x64x256) (k0_off66 c) S1x1x64x256.size h).stride a = 1) : ((Memref.whole cc0_scratch1).slice (Rect.unit (s := S3x8x64x256) (k0_off66 c) S1x1x64x256.size h) h').squeeze S64x256 squeezes_S1x1x64x256_S64x256 = rSlot 2 c := slot_of_off 2 c (k0_off66_eq c) h h'
theorem slot_off68 (c : Dev nD) (h : ∀ a, (k0_off68 c) a + S1x1x64x256.size a ≤ S3x8x64x256.size a) (h' : ∀ a, (Rect.unit (s := S3x8x64x256) (k0_off68 c) S1x1x64x256.size h).stride a = 1) : ((Memref.whole cc0_scratch1).slice (Rect.unit (s := S3x8x64x256) (k0_off68 c) S1x1x64x256.size h) h').squeeze S64x256 squeezes_S1x1x64x256_S64x256 = rSlot 2 c := slot_of_off 2 c (k0_off68_eq c) h h'
theorem slot_off70 (c : Dev nD) (h : ∀ a, (k0_off70 c) a + S1x1x64x256.size a ≤ S3x8x64x256.size a) (h' : ∀ a, (Rect.unit (s := S3x8x64x256) (k0_off70 c) S1x1x64x256.size h).stride a = 1) : ((Memref.whole cc0_scratch1).slice (Rect.unit (s := S3x8x64x256) (k0_off70 c) S1x1x64x256.size h) h').squeeze S64x256 squeezes_S1x1x64x256_S64x256 = rSlot 2 c := slot_of_off 2 c (k0_off70_eq c) h h'
theorem slot_off72 (c : Dev nD) (h : ∀ a, (k0_off72 c) a + S1x1x64x256.size a ≤ S3x8x64x256.size a) (h' : ∀ a, (Rect.unit (s := S3x8x64x256) (k0_off72 c) S1x1x64x256.size h).stride a = 1) : ((Memref.whole cc0_scratch1).slice (Rect.unit (s := S3x8x64x256) (k0_off72 c) S1x1x64x256.size h) h').squeeze S64x256 squeezes_S1x1x64x256_S64x256 = rSlot 2 c := slot_of_off 2 c (k0_off72_eq c) h h'
theorem slot_off74 (c : Dev nD) (h : ∀ a, (k0_off74 c) a + S1x1x64x256.size a ≤ S3x8x64x256.size a) (h' : ∀ a, (Rect.unit (s := S3x8x64x256) (k0_off74 c) S1x1x64x256.size h).stride a = 1) : ((Memref.whole cc0_scratch1).slice (Rect.unit (s := S3x8x64x256) (k0_off74 c) S1x1x64x256.size h) h').squeeze S64x256 squeezes_S1x1x64x256_S64x256 = rSlot 2 c := slot_of_off 2 c (k0_off74_eq c) h h'
theorem slot_off76 (c : Dev nD) (h : ∀ a, (k0_off76 c) a + S1x1x64x256.size a ≤ S3x8x64x256.size a) (h' : ∀ a, (Rect.unit (s := S3x8x64x256) (k0_off76 c) S1x1x64x256.size h).stride a = 1) : ((Memref.whole cc0_scratch1).slice (Rect.unit (s := S3x8x64x256) (k0_off76 c) S1x1x64x256.size h) h').squeeze S64x256 squeezes_S1x1x64x256_S64x256 = rSlot 2 c := slot_of_off 2 c (k0_off76_eq c) h h'
theorem slot_off81 (c : Dev nD) (h : ∀ a, (k0_off81 c) a + S1x1x64x256.size a ≤ S3x8x64x256.size a) (h' : ∀ a, (Rect.unit (s := S3x8x64x256) (k0_off81 c) S1x1x64x256.size h).stride a = 1) : ((Memref.whole cc0_scratch1).slice (Rect.unit (s := S3x8x64x256) (k0_off81 c) S1x1x64x256.size h) h').squeeze S64x256 squeezes_S1x1x64x256_S64x256 = rSlot 2 c := slot_of_off 2 c (k0_off81_eq c) h h'
theorem slot_off82 (c : Dev nD) (h : ∀ a, (k0_off82 c) a + S1x1x64x256.size a ≤ S3x8x64x256.size a) (h' : ∀ a, (Rect.unit (s := S3x8x64x256) (k0_off82 c) S1x1x64x256.size h).stride a = 1) : ((Memref.whole cc0_scratch1).slice (Rect.unit (s := S3x8x64x256) (k0_off82 c) S1x1x64x256.size h) h').squeeze S64x256 squeezes_S1x1x64x256_S64x256 = rSlot 2 c := slot_of_off 2 c (k0_off82_eq c) h h'
theorem slot_off83 (c : Dev nD) (h : ∀ a, (k0_off83 c) a + S1x1x64x256.size a ≤ S3x8x64x256.size a) (h' : ∀ a, (Rect.unit (s := S3x8x64x256) (k0_off83 c) S1x1x64x256.size h).stride a = 1) : ((Memref.whole cc0_scratch1).slice (Rect.unit (s := S3x8x64x256) (k0_off83 c) S1x1x64x256.size h) h').squeeze S64x256 squeezes_S1x1x64x256_S64x256 = rSlot 2 c := slot_of_off 2 c (k0_off83_eq c) h h'
theorem slot_off84 (c : Dev nD) (h : ∀ a, (k0_off84 c) a + S1x1x64x256.size a ≤ S3x8x64x256.size a) (h' : ∀ a, (Rect.unit (s := S3x8x64x256) (k0_off84 c) S1x1x64x256.size h).stride a = 1) : ((Memref.whole cc0_scratch1).slice (Rect.unit (s := S3x8x64x256) (k0_off84 c) S1x1x64x256.size h) h').squeeze S64x256 squeezes_S1x1x64x256_S64x256 = rSlot 2 c := slot_of_off 2 c (k0_off84_eq c) h h'
theorem slot_off85 (c : Dev nD) (h : ∀ a, (k0_off85 c) a + S1x1x64x256.size a ≤ S3x8x64x256.size a) (h' : ∀ a, (Rect.unit (s := S3x8x64x256) (k0_off85 c) S1x1x64x256.size h).stride a = 1) : ((Memref.whole cc0_scratch1).slice (Rect.unit (s := S3x8x64x256) (k0_off85 c) S1x1x64x256.size h) h').squeeze S64x256 squeezes_S1x1x64x256_S64x256 = rSlot 2 c := slot_of_off 2 c (k0_off85_eq c) h h'
theorem slot_off86 (c : Dev nD) (h : ∀ a, (k0_off86 c) a + S1x1x64x256.size a ≤ S3x8x64x256.size a) (h' : ∀ a, (Rect.unit (s := S3x8x64x256) (k0_off86 c) S1x1x64x256.size h).stride a = 1) : ((Memref.whole cc0_scratch1).slice (Rect.unit (s := S3x8x64x256) (k0_off86 c) S1x1x64x256.size h) h').squeeze S64x256 squeezes_S1x1x64x256_S64x256 = rSlot 2 c := slot_of_off 2 c (k0_off86_eq c) h h'
theorem slot_off87 (c : Dev nD) (h : ∀ a, (k0_off87 c) a + S1x1x64x256.size a ≤ S3x8x64x256.size a) (h' : ∀ a, (Rect.unit (s := S3x8x64x256) (k0_off87 c) S1x1x64x256.size h).stride a = 1) : ((Memref.whole cc0_scratch1).slice (Rect.unit (s := S3x8x64x256) (k0_off87 c) S1x1x64x256.size h) h').squeeze S64x256 squeezes_S1x1x64x256_S64x256 = rSlot 2 c := slot_of_off 2 c (k0_off87_eq c) h h'
theorem slot_off88 (c : Dev nD) (h : ∀ a, (k0_off88 c) a + S1x1x64x256.size a ≤ S3x8x64x256.size a) (h' : ∀ a, (Rect.unit (s := S3x8x64x256) (k0_off88 c) S1x1x64x256.size h).stride a = 1) : ((Memref.whole cc0_scratch1).slice (Rect.unit (s := S3x8x64x256) (k0_off88 c) S1x1x64x256.size h) h').squeeze S64x256 squeezes_S1x1x64x256_S64x256 = rSlot 2 c := slot_of_off 2 c (k0_off88_eq c) h h'
theorem slot_off19_1 (c : Dev nD) (h : ∀ a, (k0_off19 c 1#32) a + S1x1x64x256.size a ≤ S3x8x64x256.size a) (h' : ∀ a, (Rect.unit (s := S3x8x64x256) (k0_off19 c 1#32) S1x1x64x256.size h).stride a = 1) : ((Memref.whole cc0_scratch1).slice (Rect.unit (s := S3x8x64x256) (k0_off19 c 1#32) S1x1x64x256.size h) h').squeeze S64x256 squeezes_S1x1x64x256_S64x256 = rSlot 0 (bwd 1 c) := slot_of_off 0 (bwd 1 c) ((k0_off19_eq c 0).trans (by rw [bwd_val c 0]; rfl)) h h'
theorem slot_off19_2 (c : Dev nD) (h : ∀ a, (k0_off19 c 2#32) a + S1x1x64x256.size a ≤ S3x8x64x256.size a) (h' : ∀ a, (Rect.unit (s := S3x8x64x256) (k0_off19 c 2#32) S1x1x64x256.size h).stride a = 1) : ((Memref.whole cc0_scratch1).slice (Rect.unit (s := S3x8x64x256) (k0_off19 c 2#32) S1x1x64x256.size h) h').squeeze S64x256 squeezes_S1x1x64x256_S64x256 = rSlot 0 (bwd 2 c) := slot_of_off 0 (bwd 2 c) ((k0_off19_eq c 1).trans (by rw [bwd_val c 1]; rfl)) h h'
theorem slot_off19_3 (c : Dev nD) (h : ∀ a, (k0_off19 c 3#32) a + S1x1x64x256.size a ≤ S3x8x64x256.size a) (h' : ∀ a, (Rect.unit (s := S3x8x64x256) (k0_off19 c 3#32) S1x1x64x256.size h).stride a = 1) : ((Memref.whole cc0_scratch1).slice (Rect.unit (s := S3x8x64x256) (k0_off19 c 3#32) S1x1x64x256.size h) h').squeeze S64x256 squeezes_S1x1x64x256_S64x256 = rSlot 0 (bwd 3 c) := slot_of_off 0 (bwd 3 c) ((k0_off19_eq c 2).trans (by rw [bwd_val c 2]; rfl)) h h'
theorem slot_off19_4 (c : Dev nD) (h : ∀ a, (k0_off19 c 4#32) a + S1x1x64x256.size a ≤ S3x8x64x256.size a) (h' : ∀ a, (Rect.unit (s := S3x8x64x256) (k0_off19 c 4#32) S1x1x64x256.size h).stride a = 1) : ((Memref.whole cc0_scratch1).slice (Rect.unit (s := S3x8x64x256) (k0_off19 c 4#32) S1x1x64x256.size h) h').squeeze S64x256 squeezes_S1x1x64x256_S64x256 = rSlot 0 (bwd 4 c) := slot_of_off 0 (bwd 4 c) ((k0_off19_eq c 3).trans (by rw [bwd_val c 3]; rfl)) h h'
theorem slot_off19_5 (c : Dev nD) (h : ∀ a, (k0_off19 c 5#32) a + S1x1x64x256.size a ≤ S3x8x64x256.size a) (h' : ∀ a, (Rect.unit (s := S3x8x64x256) (k0_off19 c 5#32) S1x1x64x256.size h).stride a = 1) : ((Memref.whole cc0_scratch1).slice (Rect.unit (s := S3x8x64x256) (k0_off19 c 5#32) S1x1x64x256.size h) h').squeeze S64x256 squeezes_S1x1x64x256_S64x256 = rSlot 0 (bwd 5 c) := slot_of_off 0 (bwd 5 c) ((k0_off19_eq c 4).trans (by rw [bwd_val c 4]; rfl)) h h'
theorem slot_off19_6 (c : Dev nD) (h : ∀ a, (k0_off19 c 6#32) a + S1x1x64x256.size a ≤ S3x8x64x256.size a) (h' : ∀ a, (Rect.unit (s := S3x8x64x256) (k0_off19 c 6#32) S1x1x64x256.size h).stride a = 1) : ((Memref.whole cc0_scratch1).slice (Rect.unit (s := S3x8x64x256) (k0_off19 c 6#32) S1x1x64x256.size h) h').squeeze S64x256 squeezes_S1x1x64x256_S64x256 = rSlot 0 (bwd 6 c) := slot_of_off 0 (bwd 6 c) ((k0_off19_eq c 5).trans (by rw [bwd_val c 5]; rfl)) h h'
theorem slot_off19_7 (c : Dev nD) (h : ∀ a, (k0_off19 c 7#32) a + S1x1x64x256.size a ≤ S3x8x64x256.size a) (h' : ∀ a, (Rect.unit (s := S3x8x64x256) (k0_off19 c 7#32) S1x1x64x256.size h).stride a = 1) : ((Memref.whole cc0_scratch1).slice (Rect.unit (s := S3x8x64x256) (k0_off19 c 7#32) S1x1x64x256.size h) h').squeeze S64x256 squeezes_S1x1x64x256_S64x256 = rSlot 0 (bwd 7 c) := slot_of_off 0 (bwd 7 c) ((k0_off19_eq c 6).trans (by rw [bwd_val c 6]; rfl)) h h'
theorem slot_off49_1 (c : Dev nD) (h : ∀ a, (k0_off49 c 1#32) a + S1x1x64x256.size a ≤ S3x8x64x256.size a) (h' : ∀ a, (Rect.unit (s := S3x8x64x256) (k0_off49 c 1#32) S1x1x64x256.size h).stride a = 1) : ((Memref.whole cc0_scratch1).slice (Rect.unit (s := S3x8x64x256) (k0_off49 c 1#32) S1x1x64x256.size h) h').squeeze S64x256 squeezes_S1x1x64x256_S64x256 = rSlot 1 (bwd 1 c) := slot_of_off 1 (bwd 1 c) ((k0_off49_eq c 0).trans (by rw [bwd_val c 0]; rfl)) h h'
theorem slot_off49_2 (c : Dev nD) (h : ∀ a, (k0_off49 c 2#32) a + S1x1x64x256.size a ≤ S3x8x64x256.size a) (h' : ∀ a, (Rect.unit (s := S3x8x64x256) (k0_off49 c 2#32) S1x1x64x256.size h).stride a = 1) : ((Memref.whole cc0_scratch1).slice (Rect.unit (s := S3x8x64x256) (k0_off49 c 2#32) S1x1x64x256.size h) h').squeeze S64x256 squeezes_S1x1x64x256_S64x256 = rSlot 1 (bwd 2 c) := slot_of_off 1 (bwd 2 c) ((k0_off49_eq c 1).trans (by rw [bwd_val c 1]; rfl)) h h'
theorem slot_off49_3 (c : Dev nD) (h : ∀ a, (k0_off49 c 3#32) a + S1x1x64x256.size a ≤ S3x8x64x256.size a) (h' : ∀ a, (Rect.unit (s := S3x8x64x256) (k0_off49 c 3#32) S1x1x64x256.size h).stride a = 1) : ((Memref.whole cc0_scratch1).slice (Rect.unit (s := S3x8x64x256) (k0_off49 c 3#32) S1x1x64x256.size h) h').squeeze S64x256 squeezes_S1x1x64x256_S64x256 = rSlot 1 (bwd 3 c) := slot_of_off 1 (bwd 3 c) ((k0_off49_eq c 2).trans (by rw [bwd_val c 2]; rfl)) h h'
theorem slot_off49_4 (c : Dev nD) (h : ∀ a, (k0_off49 c 4#32) a + S1x1x64x256.size a ≤ S3x8x64x256.size a) (h' : ∀ a, (Rect.unit (s := S3x8x64x256) (k0_off49 c 4#32) S1x1x64x256.size h).stride a = 1) : ((Memref.whole cc0_scratch1).slice (Rect.unit (s := S3x8x64x256) (k0_off49 c 4#32) S1x1x64x256.size h) h').squeeze S64x256 squeezes_S1x1x64x256_S64x256 = rSlot 1 (bwd 4 c) := slot_of_off 1 (bwd 4 c) ((k0_off49_eq c 3).trans (by rw [bwd_val c 3]; rfl)) h h'
theorem slot_off49_5 (c : Dev nD) (h : ∀ a, (k0_off49 c 5#32) a + S1x1x64x256.size a ≤ S3x8x64x256.size a) (h' : ∀ a, (Rect.unit (s := S3x8x64x256) (k0_off49 c 5#32) S1x1x64x256.size h).stride a = 1) : ((Memref.whole cc0_scratch1).slice (Rect.unit (s := S3x8x64x256) (k0_off49 c 5#32) S1x1x64x256.size h) h').squeeze S64x256 squeezes_S1x1x64x256_S64x256 = rSlot 1 (bwd 5 c) := slot_of_off 1 (bwd 5 c) ((k0_off49_eq c 4).trans (by rw [bwd_val c 4]; rfl)) h h'
theorem slot_off49_6 (c : Dev nD) (h : ∀ a, (k0_off49 c 6#32) a + S1x1x64x256.size a ≤ S3x8x64x256.size a) (h' : ∀ a, (Rect.unit (s := S3x8x64x256) (k0_off49 c 6#32) S1x1x64x256.size h).stride a = 1) : ((Memref.whole cc0_scratch1).slice (Rect.unit (s := S3x8x64x256) (k0_off49 c 6#32) S1x1x64x256.size h) h').squeeze S64x256 squeezes_S1x1x64x256_S64x256 = rSlot 1 (bwd 6 c) := slot_of_off 1 (bwd 6 c) ((k0_off49_eq c 5).trans (by rw [bwd_val c 5]; rfl)) h h'
theorem slot_off49_7 (c : Dev nD) (h : ∀ a, (k0_off49 c 7#32) a + S1x1x64x256.size a ≤ S3x8x64x256.size a) (h' : ∀ a, (Rect.unit (s := S3x8x64x256) (k0_off49 c 7#32) S1x1x64x256.size h).stride a = 1) : ((Memref.whole cc0_scratch1).slice (Rect.unit (s := S3x8x64x256) (k0_off49 c 7#32) S1x1x64x256.size h) h').squeeze S64x256 squeezes_S1x1x64x256_S64x256 = rSlot 1 (bwd 7 c) := slot_of_off 1 (bwd 7 c) ((k0_off49_eq c 6).trans (by rw [bwd_val c 6]; rfl)) h h'
theorem slot_off79_1 (c : Dev nD) (h : ∀ a, (k0_off79 c 1#32) a + S1x1x64x256.size a ≤ S3x8x64x256.size a) (h' : ∀ a, (Rect.unit (s := S3x8x64x256) (k0_off79 c 1#32) S1x1x64x256.size h).stride a = 1) : ((Memref.whole cc0_scratch1).slice (Rect.unit (s := S3x8x64x256) (k0_off79 c 1#32) S1x1x64x256.size h) h').squeeze S64x256 squeezes_S1x1x64x256_S64x256 = rSlot 2 (bwd 1 c) := slot_of_off 2 (bwd 1 c) ((k0_off79_eq c 0).trans (by rw [bwd_val c 0]; rfl)) h h'
theorem slot_off79_2 (c : Dev nD) (h : ∀ a, (k0_off79 c 2#32) a + S1x1x64x256.size a ≤ S3x8x64x256.size a) (h' : ∀ a, (Rect.unit (s := S3x8x64x256) (k0_off79 c 2#32) S1x1x64x256.size h).stride a = 1) : ((Memref.whole cc0_scratch1).slice (Rect.unit (s := S3x8x64x256) (k0_off79 c 2#32) S1x1x64x256.size h) h').squeeze S64x256 squeezes_S1x1x64x256_S64x256 = rSlot 2 (bwd 2 c) := slot_of_off 2 (bwd 2 c) ((k0_off79_eq c 1).trans (by rw [bwd_val c 1]; rfl)) h h'
theorem slot_off79_3 (c : Dev nD) (h : ∀ a, (k0_off79 c 3#32) a + S1x1x64x256.size a ≤ S3x8x64x256.size a) (h' : ∀ a, (Rect.unit (s := S3x8x64x256) (k0_off79 c 3#32) S1x1x64x256.size h).stride a = 1) : ((Memref.whole cc0_scratch1).slice (Rect.unit (s := S3x8x64x256) (k0_off79 c 3#32) S1x1x64x256.size h) h').squeeze S64x256 squeezes_S1x1x64x256_S64x256 = rSlot 2 (bwd 3 c) := slot_of_off 2 (bwd 3 c) ((k0_off79_eq c 2).trans (by rw [bwd_val c 2]; rfl)) h h'
theorem slot_off79_4 (c : Dev nD) (h : ∀ a, (k0_off79 c 4#32) a + S1x1x64x256.size a ≤ S3x8x64x256.size a) (h' : ∀ a, (Rect.unit (s := S3x8x64x256) (k0_off79 c 4#32) S1x1x64x256.size h).stride a = 1) : ((Memref.whole cc0_scratch1).slice (Rect.unit (s := S3x8x64x256) (k0_off79 c 4#32) S1x1x64x256.size h) h').squeeze S64x256 squeezes_S1x1x64x256_S64x256 = rSlot 2 (bwd 4 c) := slot_of_off 2 (bwd 4 c) ((k0_off79_eq c 3).trans (by rw [bwd_val c 3]; rfl)) h h'
theorem slot_off79_5 (c : Dev nD) (h : ∀ a, (k0_off79 c 5#32) a + S1x1x64x256.size a ≤ S3x8x64x256.size a) (h' : ∀ a, (Rect.unit (s := S3x8x64x256) (k0_off79 c 5#32) S1x1x64x256.size h).stride a = 1) : ((Memref.whole cc0_scratch1).slice (Rect.unit (s := S3x8x64x256) (k0_off79 c 5#32) S1x1x64x256.size h) h').squeeze S64x256 squeezes_S1x1x64x256_S64x256 = rSlot 2 (bwd 5 c) := slot_of_off 2 (bwd 5 c) ((k0_off79_eq c 4).trans (by rw [bwd_val c 4]; rfl)) h h'
theorem slot_off79_6 (c : Dev nD) (h : ∀ a, (k0_off79 c 6#32) a + S1x1x64x256.size a ≤ S3x8x64x256.size a) (h' : ∀ a, (Rect.unit (s := S3x8x64x256) (k0_off79 c 6#32) S1x1x64x256.size h).stride a = 1) : ((Memref.whole cc0_scratch1).slice (Rect.unit (s := S3x8x64x256) (k0_off79 c 6#32) S1x1x64x256.size h) h').squeeze S64x256 squeezes_S1x1x64x256_S64x256 = rSlot 2 (bwd 6 c) := slot_of_off 2 (bwd 6 c) ((k0_off79_eq c 5).trans (by rw [bwd_val c 5]; rfl)) h h'
theorem slot_off79_7 (c : Dev nD) (h : ∀ a, (k0_off79 c 7#32) a + S1x1x64x256.size a ≤ S3x8x64x256.size a) (h' : ∀ a, (Rect.unit (s := S3x8x64x256) (k0_off79 c 7#32) S1x1x64x256.size h).stride a = 1) : ((Memref.whole cc0_scratch1).slice (Rect.unit (s := S3x8x64x256) (k0_off79 c 7#32) S1x1x64x256.size h) h').squeeze S64x256 squeezes_S1x1x64x256_S64x256 = rSlot 2 (bwd 7 c) := slot_of_off 2 (bwd 7 c) ((k0_off79_eq c 6).trans (by rw [bwd_val c 6]; rfl)) h h'

/-! ## Gather chunks: the device's own 64 rows of the gather buffer, source and target of its gather sends -/

theorem chunk_off22 (c : Dev nD) (h : ∀ a, (k0_off22 c) a + S1x64x256.size a ≤ S3x512x256.size a) (h' : ∀ a, (Rect.unit (s := S3x512x256) (k0_off22 c) S1x64x256.size h).stride a = 1) : ((Memref.whole cc0_scratch2).slice (Rect.unit (s := S3x512x256) (k0_off22 c) S1x64x256.size h) h').squeeze S64x256 squeezes_S1x64x256_S64x256 = gChunk 0 c := gchunk_of_off 0 c (k0_off22_eq c) h h'
theorem chunk_off52 (c : Dev nD) (h : ∀ a, (k0_off52 c) a + S1x64x256.size a ≤ S3x512x256.size a) (h' : ∀ a, (Rect.unit (s := S3x512x256) (k0_off52 c) S1x64x256.size h).stride a = 1) : ((Memref.whole cc0_scratch2).slice (Rect.unit (s := S3x512x256) (k0_off52 c) S1x64x256.size h) h').squeeze S64x256 squeezes_S1x64x256_S64x256 = gChunk 1 c := gchunk_of_off 1 c (k0_off52_eq c) h h'

/-! ## Rectangles: the device's own 64 rows of the partial-product and gather buffers, as a load or a store goes through them -/

theorem rect_off17 (c : Dev nD) (h : ∀ a, (k0_off17 c) a + S1x64x256.size a ≤ S3x512x256.size a) : Rect.unit (s := S3x512x256) (k0_off17 c) S1x64x256.size h = Rect.unit (s := S3x512x256) ![0, 64 * c.val, 0] S1x64x256.size (inb_p 0 c) := rectp_of_off 0 c (k0_off17_eq c) h
theorem rect_off47 (c : Dev nD) (h : ∀ a, (k0_off47 c) a + S1x64x256.size a ≤ S3x512x256.size a) : Rect.unit (s := S3x512x256) (k0_off47 c) S1x64x256.size h = Rect.unit (s := S3x512x256) ![1, 64 * c.val, 0] S1x64x256.size (inb_p 1 c) := rectp_of_off 1 c (k0_off47_eq c) h
theorem rect_off77 (c : Dev nD) (h : ∀ a, (k0_off77 c) a + S1x64x256.size a ≤ S3x512x256.size a) : Rect.unit (s := S3x512x256) (k0_off77 c) S1x64x256.size h = Rect.unit (s := S3x512x256) ![2, 64 * c.val, 0] S1x64x256.size (inb_p 2 c) := rectp_of_off 2 c (k0_off77_eq c) h

/-! ## Rectangles: the receive slot of the device `j` places back, as the accumulation step `j` loads it -/

theorem rect_off20_1 (c : Dev nD) (h : ∀ a, (k0_off20 c 1#32) a + S1x1x64x256.size a ≤ S3x8x64x256.size a) : Rect.unit (s := S3x8x64x256) (k0_off20 c 1#32) S1x1x64x256.size h = Rect.unit (s := S3x8x64x256) ![0, (bwd 1 c).val, 0, 0] S1x1x64x256.size (inb_r 0 (bwd 1 c)) := rectr_of_off 0 (bwd 1 c) ((k0_off20_eq c 0).trans (by rw [bwd_val c 0]; rfl)) h
theorem rect_off20_2 (c : Dev nD) (h : ∀ a, (k0_off20 c 2#32) a + S1x1x64x256.size a ≤ S3x8x64x256.size a) : Rect.unit (s := S3x8x64x256) (k0_off20 c 2#32) S1x1x64x256.size h = Rect.unit (s := S3x8x64x256) ![0, (bwd 2 c).val, 0, 0] S1x1x64x256.size (inb_r 0 (bwd 2 c)) := rectr_of_off 0 (bwd 2 c) ((k0_off20_eq c 1).trans (by rw [bwd_val c 1]; rfl)) h
theorem rect_off20_3 (c : Dev nD) (h : ∀ a, (k0_off20 c 3#32) a + S1x1x64x256.size a ≤ S3x8x64x256.size a) : Rect.unit (s := S3x8x64x256) (k0_off20 c 3#32) S1x1x64x256.size h = Rect.unit (s := S3x8x64x256) ![0, (bwd 3 c).val, 0, 0] S1x1x64x256.size (inb_r 0 (bwd 3 c)) := rectr_of_off 0 (bwd 3 c) ((k0_off20_eq c 2).trans (by rw [bwd_val c 2]; rfl)) h
theorem rect_off20_4 (c : Dev nD) (h : ∀ a, (k0_off20 c 4#32) a + S1x1x64x256.size a ≤ S3x8x64x256.size a) : Rect.unit (s := S3x8x64x256) (k0_off20 c 4#32) S1x1x64x256.size h = Rect.unit (s := S3x8x64x256) ![0, (bwd 4 c).val, 0, 0] S1x1x64x256.size (inb_r 0 (bwd 4 c)) := rectr_of_off 0 (bwd 4 c) ((k0_off20_eq c 3).trans (by rw [bwd_val c 3]; rfl)) h
theorem rect_off20_5 (c : Dev nD) (h : ∀ a, (k0_off20 c 5#32) a + S1x1x64x256.size a ≤ S3x8x64x256.size a) : Rect.unit (s := S3x8x64x256) (k0_off20 c 5#32) S1x1x64x256.size h = Rect.unit (s := S3x8x64x256) ![0, (bwd 5 c).val, 0, 0] S1x1x64x256.size (inb_r 0 (bwd 5 c)) := rectr_of_off 0 (bwd 5 c) ((k0_off20_eq c 4).trans (by rw [bwd_val c 4]; rfl)) h
theorem rect_off20_6 (c : Dev nD) (h : ∀ a, (k0_off20 c 6#32) a + S1x1x64x256.size a ≤ S3x8x64x256.size a) : Rect.unit (s := S3x8x64x256) (k0_off20 c 6#32) S1x1x64x256.size h = Rect.unit (s := S3x8x64x256) ![0, (bwd 6 c).val, 0, 0] S1x1x64x256.size (inb_r 0 (bwd 6 c)) := rectr_of_off 0 (bwd 6 c) ((k0_off20_eq c 5).trans (by rw [bwd_val c 5]; rfl)) h
theorem rect_off20_7 (c : Dev nD) (h : ∀ a, (k0_off20 c 7#32) a + S1x1x64x256.size a ≤ S3x8x64x256.size a) : Rect.unit (s := S3x8x64x256) (k0_off20 c 7#32) S1x1x64x256.size h = Rect.unit (s := S3x8x64x256) ![0, (bwd 7 c).val, 0, 0] S1x1x64x256.size (inb_r 0 (bwd 7 c)) := rectr_of_off 0 (bwd 7 c) ((k0_off20_eq c 6).trans (by rw [bwd_val c 6]; rfl)) h
theorem rect_off50_1 (c : Dev nD) (h : ∀ a, (k0_off50 c 1#32) a + S1x1x64x256.size a ≤ S3x8x64x256.size a) : Rect.unit (s := S3x8x64x256) (k0_off50 c 1#32) S1x1x64x256.size h = Rect.unit (s := S3x8x64x256) ![1, (bwd 1 c).val, 0, 0] S1x1x64x256.size (inb_r 1 (bwd 1 c)) := rectr_of_off 1 (bwd 1 c) ((k0_off50_eq c 0).trans (by rw [bwd_val c 0]; rfl)) h
theorem rect_off50_2 (c : Dev nD) (h : ∀ a, (k0_off50 c 2#32) a + S1x1x64x256.size a ≤ S3x8x64x256.size a) : Rect.unit (s := S3x8x64x256) (k0_off50 c 2#32) S1x1x64x256.size h = Rect.unit (s := S3x8x64x256) ![1, (bwd 2 c).val, 0, 0] S1x1x64x256.size (inb_r 1 (bwd 2 c)) := rectr_of_off 1 (bwd 2 c) ((k0_off50_eq c 1).trans (by rw [bwd_val c 1]; rfl)) h
theorem rect_off50_3 (c : Dev nD) (h : ∀ a, (k0_off50 c 3#32) a + S1x1x64x256.size a ≤ S3x8x64x256.size a) : Rect.unit (s := S3x8x64x256) (k0_off50 c 3#32) S1x1x64x256.size h = Rect.unit (s := S3x8x64x256) ![1, (bwd 3 c).val, 0, 0] S1x1x64x256.size (inb_r 1 (bwd 3 c)) := rectr_of_off 1 (bwd 3 c) ((k0_off50_eq c 2).trans (by rw [bwd_val c 2]; rfl)) h
theorem rect_off50_4 (c : Dev nD) (h : ∀ a, (k0_off50 c 4#32) a + S1x1x64x256.size a ≤ S3x8x64x256.size a) : Rect.unit (s := S3x8x64x256) (k0_off50 c 4#32) S1x1x64x256.size h = Rect.unit (s := S3x8x64x256) ![1, (bwd 4 c).val, 0, 0] S1x1x64x256.size (inb_r 1 (bwd 4 c)) := rectr_of_off 1 (bwd 4 c) ((k0_off50_eq c 3).trans (by rw [bwd_val c 3]; rfl)) h
theorem rect_off50_5 (c : Dev nD) (h : ∀ a, (k0_off50 c 5#32) a + S1x1x64x256.size a ≤ S3x8x64x256.size a) : Rect.unit (s := S3x8x64x256) (k0_off50 c 5#32) S1x1x64x256.size h = Rect.unit (s := S3x8x64x256) ![1, (bwd 5 c).val, 0, 0] S1x1x64x256.size (inb_r 1 (bwd 5 c)) := rectr_of_off 1 (bwd 5 c) ((k0_off50_eq c 4).trans (by rw [bwd_val c 4]; rfl)) h
theorem rect_off50_6 (c : Dev nD) (h : ∀ a, (k0_off50 c 6#32) a + S1x1x64x256.size a ≤ S3x8x64x256.size a) : Rect.unit (s := S3x8x64x256) (k0_off50 c 6#32) S1x1x64x256.size h = Rect.unit (s := S3x8x64x256) ![1, (bwd 6 c).val, 0, 0] S1x1x64x256.size (inb_r 1 (bwd 6 c)) := rectr_of_off 1 (bwd 6 c) ((k0_off50_eq c 5).trans (by rw [bwd_val c 5]; rfl)) h
theorem rect_off50_7 (c : Dev nD) (h : ∀ a, (k0_off50 c 7#32) a + S1x1x64x256.size a ≤ S3x8x64x256.size a) : Rect.unit (s := S3x8x64x256) (k0_off50 c 7#32) S1x1x64x256.size h = Rect.unit (s := S3x8x64x256) ![1, (bwd 7 c).val, 0, 0] S1x1x64x256.size (inb_r 1 (bwd 7 c)) := rectr_of_off 1 (bwd 7 c) ((k0_off50_eq c 6).trans (by rw [bwd_val c 6]; rfl)) h
theorem rect_off80_1 (c : Dev nD) (h : ∀ a, (k0_off80 c 1#32) a + S1x1x64x256.size a ≤ S3x8x64x256.size a) : Rect.unit (s := S3x8x64x256) (k0_off80 c 1#32) S1x1x64x256.size h = Rect.unit (s := S3x8x64x256) ![2, (bwd 1 c).val, 0, 0] S1x1x64x256.size (inb_r 2 (bwd 1 c)) := rectr_of_off 2 (bwd 1 c) ((k0_off80_eq c 0).trans (by rw [bwd_val c 0]; rfl)) h
theorem rect_off80_2 (c : Dev nD) (h : ∀ a, (k0_off80 c 2#32) a + S1x1x64x256.size a ≤ S3x8x64x256.size a) : Rect.unit (s := S3x8x64x256) (k0_off80 c 2#32) S1x1x64x256.size h = Rect.unit (s := S3x8x64x256) ![2, (bwd 2 c).val, 0, 0] S1x1x64x256.size (inb_r 2 (bwd 2 c)) := rectr_of_off 2 (bwd 2 c) ((k0_off80_eq c 1).trans (by rw [bwd_val c 1]; rfl)) h
theorem rect_off80_3 (c : Dev nD) (h : ∀ a, (k0_off80 c 3#32) a + S1x1x64x256.size a ≤ S3x8x64x256.size a) : Rect.unit (s := S3x8x64x256) (k0_off80 c 3#32) S1x1x64x256.size h = Rect.unit (s := S3x8x64x256) ![2, (bwd 3 c).val, 0, 0] S1x1x64x256.size (inb_r 2 (bwd 3 c)) := rectr_of_off 2 (bwd 3 c) ((k0_off80_eq c 2).trans (by rw [bwd_val c 2]; rfl)) h
theorem rect_off80_4 (c : Dev nD) (h : ∀ a, (k0_off80 c 4#32) a + S1x1x64x256.size a ≤ S3x8x64x256.size a) : Rect.unit (s := S3x8x64x256) (k0_off80 c 4#32) S1x1x64x256.size h = Rect.unit (s := S3x8x64x256) ![2, (bwd 4 c).val, 0, 0] S1x1x64x256.size (inb_r 2 (bwd 4 c)) := rectr_of_off 2 (bwd 4 c) ((k0_off80_eq c 3).trans (by rw [bwd_val c 3]; rfl)) h
theorem rect_off80_5 (c : Dev nD) (h : ∀ a, (k0_off80 c 5#32) a + S1x1x64x256.size a ≤ S3x8x64x256.size a) : Rect.unit (s := S3x8x64x256) (k0_off80 c 5#32) S1x1x64x256.size h = Rect.unit (s := S3x8x64x256) ![2, (bwd 5 c).val, 0, 0] S1x1x64x256.size (inb_r 2 (bwd 5 c)) := rectr_of_off 2 (bwd 5 c) ((k0_off80_eq c 4).trans (by rw [bwd_val c 4]; rfl)) h
theorem rect_off80_6 (c : Dev nD) (h : ∀ a, (k0_off80 c 6#32) a + S1x1x64x256.size a ≤ S3x8x64x256.size a) : Rect.unit (s := S3x8x64x256) (k0_off80 c 6#32) S1x1x64x256.size h = Rect.unit (s := S3x8x64x256) ![2, (bwd 6 c).val, 0, 0] S1x1x64x256.size (inb_r 2 (bwd 6 c)) := rectr_of_off 2 (bwd 6 c) ((k0_off80_eq c 5).trans (by rw [bwd_val c 5]; rfl)) h
theorem rect_off80_7 (c : Dev nD) (h : ∀ a, (k0_off80 c 7#32) a + S1x1x64x256.size a ≤ S3x8x64x256.size a) : Rect.unit (s := S3x8x64x256) (k0_off80 c 7#32) S1x1x64x256.size h = Rect.unit (s := S3x8x64x256) ![2, (bwd 7 c).val, 0, 0] S1x1x64x256.size (inb_r 2 (bwd 7 c)) := rectr_of_off 2 (bwd 7 c) ((k0_off80_eq c 6).trans (by rw [bwd_val c 6]; rfl)) h

/-! ## Reduce-receive semaphores: the one the device's reduce sends credit on their target (its own position), and the one
    the accumulation step `j` waits on (the position `j` places back) -/

theorem sem_off1 (c : Dev nD) (h : ∀ a, (k0_off1 c) a + S1x1.size a ≤ S3x8.size a) : ((cc0_scratch4.slice (Rect.unit (s := S3x8) (k0_off1 c) S1x1.size h)).squeeze S_ squeezes_S1x1_S_).sem = rrS 0 c := rrS_of_off 0 c (k0_off1_eq c) h
theorem sem_off3 (c : Dev nD) (h : ∀ a, (k0_off3 c) a + S1x1.size a ≤ S3x8.size a) : ((cc0_scratch4.slice (Rect.unit (s := S3x8) (k0_off3 c) S1x1.size h)).squeeze S_ squeezes_S1x1_S_).sem = rrS 0 c := rrS_of_off 0 c (k0_off3_eq c) h
theorem sem_off5 (c : Dev nD) (h : ∀ a, (k0_off5 c) a + S1x1.size a ≤ S3x8.size a) : ((cc0_scratch4.slice (Rect.unit (s := S3x8) (k0_off5 c) S1x1.size h)).squeeze S_ squeezes_S1x1_S_).sem = rrS 0 c := rrS_of_off 0 c (k0_off5_eq c) h
theorem sem_off7 (c : Dev nD) (h : ∀ a, (k0_off7 c) a + S1x1.size a ≤ S3x8.size a) : ((cc0_scratch4.slice (Rect.unit (s := S3x8) (k0_off7 c) S1x1.size h)).squeeze S_ squeezes_S1x1_S_).sem = rrS 0 c := rrS_of_off 0 c (k0_off7_eq c) h
theorem sem_off9 (c : Dev nD) (h : ∀ a, (k0_off9 c) a + S1x1.size a ≤ S3x8.size a) : ((cc0_scratch4.slice (Rect.unit (s := S3x8) (k0_off9 c) S1x1.size h)).squeeze S_ squeezes_S1x1_S_).sem = rrS 0 c := rrS_of_off 0 c (k0_off9_eq c) h
theorem sem_off11 (c : Dev nD) (h : ∀ a, (k0_off11 c) a + S1x1.size a ≤ S3x8.size a) : ((cc0_scratch4.slice (Rect.unit (s := S3x8) (k0_off11 c) S1x1.size h)).squeeze S_ squeezes_S1x1_S_).sem = rrS 0 c := rrS_of_off 0 c (k0_off11_eq c) h
theorem sem_off13 (c : Dev nD) (h : ∀ a, (k0_off13 c) a + S1x1.size a ≤ S3x8.size a) : ((cc0_scratch4.slice (Rect.unit (s := S3x8) (k0_off13 c) S1x1.size h)).squeeze S_ squeezes_S1x1_S_).sem = rrS 0 c := rrS_of_off 0 c (k0_off13_eq c) h
theorem sem_off15 (c : Dev nD) (h : ∀ a, (k0_off15 c) a + S1x1.size a ≤ S3x8.size a) : ((cc0_scratch4.slice (Rect.unit (s := S3x8) (k0_off15 c) S1x1.size h)).squeeze S_ squeezes_S1x1_S_).sem = rrS 0 c := rrS_of_off 0 c (k0_off15_eq c) h
theorem sem_off31 (c : Dev nD) (h : ∀ a, (k0_off31 c) a + S1x1.size a ≤ S3x8.size a) : ((cc0_scratch4.slice (Rect.unit (s := S3x8) (k0_off31 c) S1x1.size h)).squeeze S_ squeezes_S1x1_S_).sem = rrS 1 c := rrS_of_off 1 c (k0_off31_eq c) h
theorem sem_off33 (c : Dev nD) (h : ∀ a, (k0_off33 c) a + S1x1.size a ≤ S3x8.size a) : ((cc0_scratch4.slice (Rect.unit (s := S3x8) (k0_off33 c) S1x1.size h)).squeeze S_ squeezes_S1x1_S_).sem = rrS 1 c := rrS_of_off 1 c (k0_off33_eq c) h
theorem sem_off35 (c : Dev nD) (h : ∀ a, (k0_off35 c) a + S1x1.size a ≤ S3x8.size a) : ((cc0_scratch4.slice (Rect.unit (s := S3x8) (k0_off35 c) S1x1.size h)).squeeze S_ squeezes_S1x1_S_).sem = rrS 1 c := rrS_of_off 1 c (k0_off35_eq c) h
theorem sem_off37 (c : Dev nD) (h : ∀ a, (k0_off37 c) a + S1x1.size a ≤ S3x8.size a) : ((cc0_scratch4.slice (Rect.unit (s := S3x8) (k0_off37 c) S1x1.size h)).squeeze S_ squeezes_S1x1_S_).sem = rrS 1 c := rrS_of_off 1 c (k0_off37_eq c) h
theorem sem_off39 (c : Dev nD) (h : ∀ a, (k0_off39 c) a + S1x1.size a ≤ S3x8.size a) : ((cc0_scratch4.slice (Rect.unit (s := S3x8) (k0_off39 c) S1x1.size h)).squeeze S_ squeezes_S1x1_S_).sem = rrS 1 c := rrS_of_off 1 c (k0_off39_eq c) h
theorem sem_off41 (c : Dev nD) (h : ∀ a, (k0_off41 c) a + S1x1.size a ≤ S3x8.size a) : ((cc0_scratch4.slice (Rect.unit (s := S3x8) (k0_off41 c) S1x1.size h)).squeeze S_ squeezes_S1x1_S_).sem = rrS 1 c := rrS_of_off 1 c (k0_off41_eq c) h
theorem sem_off43 (c : Dev nD) (h : ∀ a, (k0_off43 c) a + S1x1.size a ≤ S3x8.size a) : ((cc0_scratch4.slice (Rect.unit (s := S3x8) (k0_off43 c) S1x1.size h)).squeeze S_ squeezes_S1x1_S_).sem = rrS 1 c := rrS_of_off 1 c (k0_off43_eq c) h
theorem sem_off45 (c : Dev nD) (h : ∀ a, (k0_off45 c) a + S1x1.size a ≤ S3x8.size a) : ((cc0_scratch4.slice (Rect.unit (s := S3x8) (k0_off45 c) S1x1.size h)).squeeze S_ squeezes_S1x1_S_).sem = rrS 1 c := rrS_of_off 1 c (k0_off45_eq c) h
theorem sem_off61 (c : Dev nD) (h : ∀ a, (k0_off61 c) a + S1x1.size a ≤ S3x8.size a) : ((cc0_scratch4.slice (Rect.unit (s := S3x8) (k0_off61 c) S1x1.size h)).squeeze S_ squeezes_S1x1_S_).sem = rrS 2 c := rrS_of_off 2 c (k0_off61_eq c) h
theorem sem_off63 (c : Dev nD) (h : ∀ a, (k0_off63 c) a + S1x1.size a ≤ S3x8.size a) : ((cc0_scratch4.slice (Rect.unit (s := S3x8) (k0_off63 c) S1x1.size h)).squeeze S_ squeezes_S1x1_S_).sem = rrS 2 c := rrS_of_off 2 c (k0_off63_eq c) h
theorem sem_off65 (c : Dev nD) (h : ∀ a, (k0_off65 c) a + S1x1.size a ≤ S3x8.size a) : ((cc0_scratch4.slice (Rect.unit (s := S3x8) (k0_off65 c) S1x1.size h)).squeeze S_ squeezes_S1x1_S_).sem = rrS 2 c := rrS_of_off 2 c (k0_off65_eq c) h
theorem sem_off67 (c : Dev nD) (h : ∀ a, (k0_off67 c) a + S1x1.size a ≤ S3x8.size a) : ((cc0_scratch4.slice (Rect.unit (s := S3x8) (k0_off67 c) S1x1.size h)).squeeze S_ squeezes_S1x1_S_).sem = rrS 2 c := rrS_of_off 2 c (k0_off67_eq c) h
theorem sem_off69 (c : Dev nD) (h : ∀ a, (k0_off69 c) a + S1x1.size a ≤ S3x8.size a) : ((cc0_scratch4.slice (Rect.unit (s := S3x8) (k0_off69 c) S1x1.size h)).squeeze S_ squeezes_S1x1_S_).sem = rrS 2 c := rrS_of_off 2 c (k0_off69_eq c) h
theorem sem_off71 (c : Dev nD) (h : ∀ a, (k0_off71 c) a + S1x1.size a ≤ S3x8.size a) : ((cc0_scratch4.slice (Rect.unit (s := S3x8) (k0_off71 c) S1x1.size h)).squeeze S_ squeezes_S1x1_S_).sem = rrS 2 c := rrS_of_off 2 c (k0_off71_eq c) h
theorem sem_off73 (c : Dev nD) (h : ∀ a, (k0_off73 c) a + S1x1.size a ≤ S3x8.size a) : ((cc0_scratch4.slice (Rect.unit (s := S3x8) (k0_off73 c) S1x1.size h)).squeeze S_ squeezes_S1x1_S_).sem = rrS 2 c := rrS_of_off 2 c (k0_off73_eq c) h
theorem sem_off75 (c : Dev nD) (h : ∀ a, (k0_off75 c) a + S1x1.size a ≤ S3x8.size a) : ((cc0_scratch4.slice (Rect.unit (s := S3x8) (k0_off75 c) S1x1.size h)).squeeze S_ squeezes_S1x1_S_).sem = rrS 2 c := rrS_of_off 2 c (k0_off75_eq c) h
theorem sem_off18_1 (c : Dev nD) (h : ∀ a, (k0_off18 c 1#32) a + S1x1.size a ≤ S3x8.size a) : ((cc0_scratch4.slice (Rect.unit (s := S3x8) (k0_off18 c 1#32) S1x1.size h)).squeeze S_ squeezes_S1x1_S_).sem = rrS 0 (bwd 1 c) := rrS_of_off 0 (bwd 1 c) ((k0_off18_eq c 0).trans (by rw [bwd_val c 0]; rfl)) h
theorem sem_off18_2 (c : Dev nD) (h : ∀ a, (k0_off18 c 2#32) a + S1x1.size a ≤ S3x8.size a) : ((cc0_scratch4.slice (Rect.unit (s := S3x8) (k0_off18 c 2#32) S1x1.size h)).squeeze S_ squeezes_S1x1_S_).sem = rrS 0 (bwd 2 c) := rrS_of_off 0 (bwd 2 c) ((k0_off18_eq c 1).trans (by rw [bwd_val c 1]; rfl)) h
theorem sem_off18_3 (c : Dev nD) (h : ∀ a, (k0_off18 c 3#32) a + S1x1.size a ≤ S3x8.size a) : ((cc0_scratch4.slice (Rect.unit (s := S3x8) (k0_off18 c 3#32) S1x1.size h)).squeeze S_ squeezes_S1x1_S_).sem = rrS 0 (bwd 3 c) := rrS_of_off 0 (bwd 3 c) ((k0_off18_eq c 2).trans (by rw [bwd_val c 2]; rfl)) h
theorem sem_off18_4 (c : Dev nD) (h : ∀ a, (k0_off18 c 4#32) a + S1x1.size a ≤ S3x8.size a) : ((cc0_scratch4.slice (Rect.unit (s := S3x8) (k0_off18 c 4#32) S1x1.size h)).squeeze S_ squeezes_S1x1_S_).sem = rrS 0 (bwd 4 c) := rrS_of_off 0 (bwd 4 c) ((k0_off18_eq c 3).trans (by rw [bwd_val c 3]; rfl)) h
theorem sem_off18_5 (c : Dev nD) (h : ∀ a, (k0_off18 c 5#32) a + S1x1.size a ≤ S3x8.size a) : ((cc0_scratch4.slice (Rect.unit (s := S3x8) (k0_off18 c 5#32) S1x1.size h)).squeeze S_ squeezes_S1x1_S_).sem = rrS 0 (bwd 5 c) := rrS_of_off 0 (bwd 5 c) ((k0_off18_eq c 4).trans (by rw [bwd_val c 4]; rfl)) h
theorem sem_off18_6 (c : Dev nD) (h : ∀ a, (k0_off18 c 6#32) a + S1x1.size a ≤ S3x8.size a) : ((cc0_scratch4.slice (Rect.unit (s := S3x8) (k0_off18 c 6#32) S1x1.size h)).squeeze S_ squeezes_S1x1_S_).sem = rrS 0 (bwd 6 c) := rrS_of_off 0 (bwd 6 c) ((k0_off18_eq c 5).trans (by rw [bwd_val c 5]; rfl)) h
theorem sem_off18_7 (c : Dev nD) (h : ∀ a, (k0_off18 c 7#32) a + S1x1.size a ≤ S3x8.size a) : ((cc0_scratch4.slice (Rect.unit (s := S3x8) (k0_off18 c 7#32) S1x1.size h)).squeeze S_ squeezes_S1x1_S_).sem = rrS 0 (bwd 7 c) := rrS_of_off 0 (bwd 7 c) ((k0_off18_eq c 6).trans (by rw [bwd_val c 6]; rfl)) h
theorem sem_off48_1 (c : Dev nD) (h : ∀ a, (k0_off48 c 1#32) a + S1x1.size a ≤ S3x8.size a) : ((cc0_scratch4.slice (Rect.unit (s := S3x8) (k0_off48 c 1#32) S1x1.size h)).squeeze S_ squeezes_S1x1_S_).sem = rrS 1 (bwd 1 c) := rrS_of_off 1 (bwd 1 c) ((k0_off48_eq c 0).trans (by rw [bwd_val c 0]; rfl)) h
theorem sem_off48_2 (c : Dev nD) (h : ∀ a, (k0_off48 c 2#32) a + S1x1.size a ≤ S3x8.size a) : ((cc0_scratch4.slice (Rect.unit (s := S3x8) (k0_off48 c 2#32) S1x1.size h)).squeeze S_ squeezes_S1x1_S_).sem = rrS 1 (bwd 2 c) := rrS_of_off 1 (bwd 2 c) ((k0_off48_eq c 1).trans (by rw [bwd_val c 1]; rfl)) h
theorem sem_off48_3 (c : Dev nD) (h : ∀ a, (k0_off48 c 3#32) a + S1x1.size a ≤ S3x8.size a) : ((cc0_scratch4.slice (Rect.unit (s := S3x8) (k0_off48 c 3#32) S1x1.size h)).squeeze S_ squeezes_S1x1_S_).sem = rrS 1 (bwd 3 c) := rrS_of_off 1 (bwd 3 c) ((k0_off48_eq c 2).trans (by rw [bwd_val c 2]; rfl)) h
theorem sem_off48_4 (c : Dev nD) (h : ∀ a, (k0_off48 c 4#32) a + S1x1.size a ≤ S3x8.size a) : ((cc0_scratch4.slice (Rect.unit (s := S3x8) (k0_off48 c 4#32) S1x1.size h)).squeeze S_ squeezes_S1x1_S_).sem = rrS 1 (bwd 4 c) := rrS_of_off 1 (bwd 4 c) ((k0_off48_eq c 3).trans (by rw [bwd_val c 3]; rfl)) h
theorem sem_off48_5 (c : Dev nD) (h : ∀ a, (k0_off48 c 5#32) a + S1x1.size a ≤ S3x8.size a) : ((cc0_scratch4.slice (Rect.unit (s := S3x8) (k0_off48 c 5#32) S1x1.size h)).squeeze S_ squeezes_S1x1_S_).sem = rrS 1 (bwd 5 c) := rrS_of_off 1 (bwd 5 c) ((k0_off48_eq c 4).trans (by rw [bwd_val c 4]; rfl)) h
theorem sem_off48_6 (c : Dev nD) (h : ∀ a, (k0_off48 c 6#32) a + S1x1.size a ≤ S3x8.size a) : ((cc0_scratch4.slice (Rect.unit (s := S3x8) (k0_off48 c 6#32) S1x1.size h)).squeeze S_ squeezes_S1x1_S_).sem = rrS 1 (bwd 6 c) := rrS_of_off 1 (bwd 6 c) ((k0_off48_eq c 5).trans (by rw [bwd_val c 5]; rfl)) h
theorem sem_off48_7 (c : Dev nD) (h : ∀ a, (k0_off48 c 7#32) a + S1x1.size a ≤ S3x8.size a) : ((cc0_scratch4.slice (Rect.unit (s := S3x8) (k0_off48 c 7#32) S1x1.size h)).squeeze S_ squeezes_S1x1_S_).sem = rrS 1 (bwd 7 c) := rrS_of_off 1 (bwd 7 c) ((k0_off48_eq c 6).trans (by rw [bwd_val c 6]; rfl)) h
theorem sem_off78_1 (c : Dev nD) (h : ∀ a, (k0_off78 c 1#32) a + S1x1.size a ≤ S3x8.size a) : ((cc0_scratch4.slice (Rect.unit (s := S3x8) (k0_off78 c 1#32) S1x1.size h)).squeeze S_ squeezes_S1x1_S_).sem = rrS 2 (bwd 1 c) := rrS_of_off 2 (bwd 1 c) ((k0_off78_eq c 0).trans (by rw [bwd_val c 0]; rfl)) h
theorem sem_off78_2 (c : Dev nD) (h : ∀ a, (k0_off78 c 2#32) a + S1x1.size a ≤ S3x8.size a) : ((cc0_scratch4.slice (Rect.unit (s := S3x8) (k0_off78 c 2#32) S1x1.size h)).squeeze S_ squeezes_S1x1_S_).sem = rrS 2 (bwd 2 c) := rrS_of_off 2 (bwd 2 c) ((k0_off78_eq c 1).trans (by rw [bwd_val c 1]; rfl)) h
theorem sem_off78_3 (c : Dev nD) (h : ∀ a, (k0_off78 c 3#32) a + S1x1.size a ≤ S3x8.size a) : ((cc0_scratch4.slice (Rect.unit (s := S3x8) (k0_off78 c 3#32) S1x1.size h)).squeeze S_ squeezes_S1x1_S_).sem = rrS 2 (bwd 3 c) := rrS_of_off 2 (bwd 3 c) ((k0_off78_eq c 2).trans (by rw [bwd_val c 2]; rfl)) h
theorem sem_off78_4 (c : Dev nD) (h : ∀ a, (k0_off78 c 4#32) a + S1x1.size a ≤ S3x8.size a) : ((cc0_scratch4.slice (Rect.unit (s := S3x8) (k0_off78 c 4#32) S1x1.size h)).squeeze S_ squeezes_S1x1_S_).sem = rrS 2 (bwd 4 c) := rrS_of_off 2 (bwd 4 c) ((k0_off78_eq c 3).trans (by rw [bwd_val c 3]; rfl)) h
theorem sem_off78_5 (c : Dev nD) (h : ∀ a, (k0_off78 c 5#32) a + S1x1.size a ≤ S3x8.size a) : ((cc0_scratch4.slice (Rect.unit (s := S3x8) (k0_off78 c 5#32) S1x1.size h)).squeeze S_ squeezes_S1x1_S_).sem = rrS 2 (bwd 5 c) := rrS_of_off 2 (bwd 5 c) ((k0_off78_eq c 4).trans (by rw [bwd_val c 4]; rfl)) h
theorem sem_off78_6 (c : Dev nD) (h : ∀ a, (k0_off78 c 6#32) a + S1x1.size a ≤ S3x8.size a) : ((cc0_scratch4.slice (Rect.unit (s := S3x8) (k0_off78 c 6#32) S1x1.size h)).squeeze S_ squeezes_S1x1_S_).sem = rrS 2 (bwd 6 c) := rrS_of_off 2 (bwd 6 c) ((k0_off78_eq c 5).trans (by rw [bwd_val c 5]; rfl)) h
theorem sem_off78_7 (c : Dev nD) (h : ∀ a, (k0_off78 c 7#32) a + S1x1.size a ≤ S3x8.size a) : ((cc0_scratch4.slice (Rect.unit (s := S3x8) (k0_off78 c 7#32) S1x1.size h)).squeeze S_ squeezes_S1x1_S_).sem = rrS 2 (bwd 7 c) := rrS_of_off 2 (bwd 7 c) ((k0_off78_eq c 6).trans (by rw [bwd_val c 6]; rfl)) h

/-! ## Gather-receive semaphores: the one the device's gather sends credit on their targets -/

theorem sem_off21 (c : Dev nD) (h : ∀ a, (k0_off21 c) a + S1x1.size a ≤ S3x8.size a) : ((cc0_scratch6.slice (Rect.unit (s := S3x8) (k0_off21 c) S1x1.size h)).squeeze S_ squeezes_S1x1_S_).sem = grS 0 c := grS_of_off 0 c (k0_off21_eq c) h
theorem sem_off51 (c : Dev nD) (h : ∀ a, (k0_off51 c) a + S1x1.size a ≤ S3x8.size a) : ((cc0_scratch6.slice (Rect.unit (s := S3x8) (k0_off51 c) S1x1.size h)).squeeze S_ squeezes_S1x1_S_).sem = grS 1 c := grS_of_off 1 c (k0_off51_eq c) h

/-! ## Literal picks: a piece or a semaphore at literal offsets is the named one at those literals -/

theorem pchunk_lit0_0 (h : ∀ a, (![0, 0, 0] : Fin 3 → Nat) a + S1x64x256.size a ≤ S3x512x256.size a) (h' : ∀ a, (Rect.unit (s := S3x512x256) (![0, 0, 0]) S1x64x256.size h).stride a = 1) : ((Memref.whole cc0_scratch0).slice (Rect.unit (s := S3x512x256) (![0, 0, 0]) S1x64x256.size h) h').squeeze S64x256 squeezes_S1x64x256_S64x256 = pChunk 0 0 := pchunk_of_off 0 0 rfl h h'
theorem pchunk_lit0_1 (h : ∀ a, (![0, 64, 0] : Fin 3 → Nat) a + S1x64x256.size a ≤ S3x512x256.size a) (h' : ∀ a, (Rect.unit (s := S3x512x256) (![0, 64, 0]) S1x64x256.size h).stride a = 1) : ((Memref.whole cc0_scratch0).slice (Rect.unit (s := S3x512x256) (![0, 64, 0]) S1x64x256.size h) h').squeeze S64x256 squeezes_S1x64x256_S64x256 = pChunk 0 1 := pchunk_of_off 0 1 rfl h h'
theorem pchunk_lit0_2 (h : ∀ a, (![0, 128, 0] : Fin 3 → Nat) a + S1x64x256.size a ≤ S3x512x256.size a) (h' : ∀ a, (Rect.unit (s := S3x512x256) (![0, 128, 0]) S1x64x256.size h).stride a = 1) : ((Memref.whole cc0_scratch0).slice (Rect.unit (s := S3x512x256) (![0, 128, 0]) S1x64x256.size h) h').squeeze S64x256 squeezes_S1x64x256_S64x256 = pChunk 0 2 := pchunk_of_off 0 2 rfl h h'
theorem pchunk_lit0_3 (h : ∀ a, (![0, 192, 0] : Fin 3 → Nat) a + S1x64x256.size a ≤ S3x512x256.size a) (h' : ∀ a, (Rect.unit (s := S3x512x256) (![0, 192, 0]) S1x64x256.size h).stride a = 1) : ((Memref.whole cc0_scratch0).slice (Rect.unit (s := S3x512x256) (![0, 192, 0]) S1x64x256.size h) h').squeeze S64x256 squeezes_S1x64x256_S64x256 = pChunk 0 3 := pchunk_of_off 0 3 rfl h h'
theorem pchunk_lit0_4 (h : ∀ a, (![0, 256, 0] : Fin 3 → Nat) a + S1x64x256.size a ≤ S3x512x256.size a) (h' : ∀ a, (Rect.unit (s := S3x512x256) (![0, 256, 0]) S1x64x256.size h).stride a = 1) : ((Memref.whole cc0_scratch0).slice (Rect.unit (s := S3x512x256) (![0, 256, 0]) S1x64x256.size h) h').squeeze S64x256 squeezes_S1x64x256_S64x256 = pChunk 0 4 := pchunk_of_off 0 4 rfl h h'
theorem pchunk_lit0_5 (h : ∀ a, (![0, 320, 0] : Fin 3 → Nat) a + S1x64x256.size a ≤ S3x512x256.size a) (h' : ∀ a, (Rect.unit (s := S3x512x256) (![0, 320, 0]) S1x64x256.size h).stride a = 1) : ((Memref.whole cc0_scratch0).slice (Rect.unit (s := S3x512x256) (![0, 320, 0]) S1x64x256.size h) h').squeeze S64x256 squeezes_S1x64x256_S64x256 = pChunk 0 5 := pchunk_of_off 0 5 rfl h h'
theorem pchunk_lit0_6 (h : ∀ a, (![0, 384, 0] : Fin 3 → Nat) a + S1x64x256.size a ≤ S3x512x256.size a) (h' : ∀ a, (Rect.unit (s := S3x512x256) (![0, 384, 0]) S1x64x256.size h).stride a = 1) : ((Memref.whole cc0_scratch0).slice (Rect.unit (s := S3x512x256) (![0, 384, 0]) S1x64x256.size h) h').squeeze S64x256 squeezes_S1x64x256_S64x256 = pChunk 0 6 := pchunk_of_off 0 6 rfl h h'
theorem pchunk_lit0_7 (h : ∀ a, (![0, 448, 0] : Fin 3 → Nat) a + S1x64x256.size a ≤ S3x512x256.size a) (h' : ∀ a, (Rect.unit (s := S3x512x256) (![0, 448, 0]) S1x64x256.size h).stride a = 1) : ((Memref.whole cc0_scratch0).slice (Rect.unit (s := S3x512x256) (![0, 448, 0]) S1x64x256.size h) h').squeeze S64x256 squeezes_S1x64x256_S64x256 = pChunk 0 7 := pchunk_of_off 0 7 rfl h h'
theorem pchunk_lit1_0 (h : ∀ a, (![1, 0, 0] : Fin 3 → Nat) a + S1x64x256.size a ≤ S3x512x256.size a) (h' : ∀ a, (Rect.unit (s := S3x512x256) (![1, 0, 0]) S1x64x256.size h).stride a = 1) : ((Memref.whole cc0_scratch0).slice (Rect.unit (s := S3x512x256) (![1, 0, 0]) S1x64x256.size h) h').squeeze S64x256 squeezes_S1x64x256_S64x256 = pChunk 1 0 := pchunk_of_off 1 0 rfl h h'
theorem pchunk_lit1_1 (h : ∀ a, (![1, 64, 0] : Fin 3 → Nat) a + S1x64x256.size a ≤ S3x512x256.size a) (h' : ∀ a, (Rect.unit (s := S3x512x256) (![1, 64, 0]) S1x64x256.size h).stride a = 1) : ((Memref.whole cc0_scratch0).slice (Rect.unit (s := S3x512x256) (![1, 64, 0]) S1x64x256.size h) h').squeeze S64x256 squeezes_S1x64x256_S64x256 = pChunk 1 1 := pchunk_of_off 1 1 rfl h h'
theorem pchunk_lit1_2 (h : ∀ a, (![1, 128, 0] : Fin 3 → Nat) a + S1x64x256.size a ≤ S3x512x256.size a) (h' : ∀ a, (Rect.unit (s := S3x512x256) (![1, 128, 0]) S1x64x256.size h).stride a = 1) : ((Memref.whole cc0_scratch0).slice (Rect.unit (s := S3x512x256) (![1, 128, 0]) S1x64x256.size h) h').squeeze S64x256 squeezes_S1x64x256_S64x256 = pChunk 1 2 := pchunk_of_off 1 2 rfl h h'
theorem pchunk_lit1_3 (h : ∀ a, (![1, 192, 0] : Fin 3 → Nat) a + S1x64x256.size a ≤ S3x512x256.size a) (h' : ∀ a, (Rect.unit (s := S3x512x256) (![1, 192, 0]) S1x64x256.size h).stride a = 1) : ((Memref.whole cc0_scratch0).slice (Rect.unit (s := S3x512x256) (![1, 192, 0]) S1x64x256.size h) h').squeeze S64x256 squeezes_S1x64x256_S64x256 = pChunk 1 3 := pchunk_of_off 1 3 rfl h h'
theorem pchunk_lit1_4 (h : ∀ a, (![1, 256, 0] : Fin 3 → Nat) a + S1x64x256.size a ≤ S3x512x256.size a) (h' : ∀ a, (Rect.unit (s := S3x512x256) (![1, 256, 0]) S1x64x256.size h).stride a = 1) : ((Memref.whole cc0_scratch0).slice (Rect.unit (s := S3x512x256) (![1, 256, 0]) S1x64x256.size h) h').squeeze S64x256 squeezes_S1x64x256_S64x256 = pChunk 1 4 := pchunk_of_off 1 4 rfl h h'
theorem pchunk_lit1_5 (h : ∀ a, (![1, 320, 0] : Fin 3 → Nat) a + S1x64x256.size a ≤ S3x512x256.size a) (h' : ∀ a, (Rect.unit (s := S3x512x256) (![1, 320, 0]) S1x64x256.size h).stride a = 1) : ((Memref.whole cc0_scratch0).slice (Rect.unit (s := S3x512x256) (![1, 320, 0]) S1x64x256.size h) h').squeeze S64x256 squeezes_S1x64x256_S64x256 = pChunk 1 5 := pchunk_of_off 1 5 rfl h h'
theorem pchunk_lit1_6 (h : ∀ a, (![1, 384, 0] : Fin 3 → Nat) a + S1x64x256.size a ≤ S3x512x256.size a) (h' : ∀ a, (Rect.unit (s := S3x512x256) (![1, 384, 0]) S1x64x256.size h).stride a = 1) : ((Memref.whole cc0_scratch0).slice (Rect.unit (s := S3x512x256) (![1, 384, 0]) S1x64x256.size h) h').squeeze S64x256 squeezes_S1x64x256_S64x256 = pChunk 1 6 := pchunk_of_off 1 6 rfl h h'
theorem pchunk_lit1_7 (h : ∀ a, (![1, 448, 0] : Fin 3 → Nat) a + S1x64x256.size a ≤ S3x512x256.size a) (h' : ∀ a, (Rect.unit (s := S3x512x256) (![1, 448, 0]) S1x64x256.size h).stride a = 1) : ((Memref.whole cc0_scratch0).slice (Rect.unit (s := S3x512x256) (![1, 448, 0]) S1x64x256.size h) h').squeeze S64x256 squeezes_S1x64x256_S64x256 = pChunk 1 7 := pchunk_of_off 1 7 rfl h h'
theorem pchunk_lit2_0 (h : ∀ a, (![2, 0, 0] : Fin 3 → Nat) a + S1x64x256.size a ≤ S3x512x256.size a) (h' : ∀ a, (Rect.unit (s := S3x512x256) (![2, 0, 0]) S1x64x256.size h).stride a = 1) : ((Memref.whole cc0_scratch0).slice (Rect.unit (s := S3x512x256) (![2, 0, 0]) S1x64x256.size h) h').squeeze S64x256 squeezes_S1x64x256_S64x256 = pChunk 2 0 := pchunk_of_off 2 0 rfl h h'
theorem pchunk_lit2_1 (h : ∀ a, (![2, 64, 0] : Fin 3 → Nat) a + S1x64x256.size a ≤ S3x512x256.size a) (h' : ∀ a, (Rect.unit (s := S3x512x256) (![2, 64, 0]) S1x64x256.size h).stride a = 1) : ((Memref.whole cc0_scratch0).slice (Rect.unit (s := S3x512x256) (![2, 64, 0]) S1x64x256.size h) h').squeeze S64x256 squeezes_S1x64x256_S64x256 = pChunk 2 1 := pchunk_of_off 2 1 rfl h h'
theorem pchunk_lit2_2 (h : ∀ a, (![2, 128, 0] : Fin 3 → Nat) a + S1x64x256.size a ≤ S3x512x256.size a) (h' : ∀ a, (Rect.unit (s := S3x512x256) (![2, 128, 0]) S1x64x256.size h).stride a = 1) : ((Memref.whole cc0_scratch0).slice (Rect.unit (s := S3x512x256) (![2, 128, 0]) S1x64x256.size h) h').squeeze S64x256 squeezes_S1x64x256_S64x256 = pChunk 2 2 := pchunk_of_off 2 2 rfl h h'
theorem pchunk_lit2_3 (h : ∀ a, (![2, 192, 0] : Fin 3 → Nat) a + S1x64x256.size a ≤ S3x512x256.size a) (h' : ∀ a, (Rect.unit (s := S3x512x256) (![2, 192, 0]) S1x64x256.size h).stride a = 1) : ((Memref.whole cc0_scratch0).slice (Rect.unit (s := S3x512x256) (![2, 192, 0]) S1x64x256.size h) h').squeeze S64x256 squeezes_S1x64x256_S64x256 = pChunk 2 3 := pchunk_of_off 2 3 rfl h h'
theorem pchunk_lit2_4 (h : ∀ a, (![2, 256, 0] : Fin 3 → Nat) a + S1x64x256.size a ≤ S3x512x256.size a) (h' : ∀ a, (Rect.unit (s := S3x512x256) (![2, 256, 0]) S1x64x256.size h).stride a = 1) : ((Memref.whole cc0_scratch0).slice (Rect.unit (s := S3x512x256) (![2, 256, 0]) S1x64x256.size h) h').squeeze S64x256 squeezes_S1x64x256_S64x256 = pChunk 2 4 := pchunk_of_off 2 4 rfl h h'
theorem pchunk_lit2_5 (h : ∀ a, (![2, 320, 0] : Fin 3 → Nat) a + S1x64x256.size a ≤ S3x512x256.size a) (h' : ∀ a, (Rect.unit (s := S3x512x256) (![2, 320, 0]) S1x64x256.size h).stride a = 1) : ((Memref.whole cc0_scratch0).slice (Rect.unit (s := S3x512x256) (![2, 320, 0]) S1x64x256.size h) h').squeeze S64x256 squeezes_S1x64x256_S64x256 = pChunk 2 5 := pchunk_of_off 2 5 rfl h h'
theorem pchunk_lit2_6 (h : ∀ a, (![2, 384, 0] : Fin 3 → Nat) a + S1x64x256.size a ≤ S3x512x256.size a) (h' : ∀ a, (Rect.unit (s := S3x512x256) (![2, 384, 0]) S1x64x256.size h).stride a = 1) : ((Memref.whole cc0_scratch0).slice (Rect.unit (s := S3x512x256) (![2, 384, 0]) S1x64x256.size h) h').squeeze S64x256 squeezes_S1x64x256_S64x256 = pChunk 2 6 := pchunk_of_off 2 6 rfl h h'
theorem pchunk_lit2_7 (h : ∀ a, (![2, 448, 0] : Fin 3 → Nat) a + S1x64x256.size a ≤ S3x512x256.size a) (h' : ∀ a, (Rect.unit (s := S3x512x256) (![2, 448, 0]) S1x64x256.size h).stride a = 1) : ((Memref.whole cc0_scratch0).slice (Rect.unit (s := S3x512x256) (![2, 448, 0]) S1x64x256.size h) h').squeeze S64x256 squeezes_S1x64x256_S64x256 = pChunk 2 7 := pchunk_of_off 2 7 rfl h h'

theorem gchunk_lit0_0 (h : ∀ a, (![0, 0, 0] : Fin 3 → Nat) a + S1x64x256.size a ≤ S3x512x256.size a) (h' : ∀ a, (Rect.unit (s := S3x512x256) (![0, 0, 0]) S1x64x256.size h).stride a = 1) : ((Memref.whole cc0_scratch2).slice (Rect.unit (s := S3x512x256) (![0, 0, 0]) S1x64x256.size h) h').squeeze S64x256 squeezes_S1x64x256_S64x256 = gChunk 0 0 := gchunk_of_off 0 0 rfl h h'
theorem gchunk_lit0_1 (h : ∀ a, (![0, 64, 0] : Fin 3 → Nat) a + S1x64x256.size a ≤ S3x512x256.size a) (h' : ∀ a, (Rect.unit (s := S3x512x256) (![0, 64, 0]) S1x64x256.size h).stride a = 1) : ((Memref.whole cc0_scratch2).slice (Rect.unit (s := S3x512x256) (![0, 64, 0]) S1x64x256.size h) h').squeeze S64x256 squeezes_S1x64x256_S64x256 = gChunk 0 1 := gchunk_of_off 0 1 rfl h h'
theorem gchunk_lit0_2 (h : ∀ a, (![0, 128, 0] : Fin 3 → Nat) a + S1x64x256.size a ≤ S3x512x256.size a) (h' : ∀ a, (Rect.unit (s := S3x512x256) (![0, 128, 0]) S1x64x256.size h).stride a = 1) : ((Memref.whole cc0_scratch2).slice (Rect.unit (s := S3x512x256) (![0, 128, 0]) S1x64x256.size h) h').squeeze S64x256 squeezes_S1x64x256_S64x256 = gChunk 0 2 := gchunk_of_off 0 2 rfl h h'
theorem gchunk_lit0_3 (h : ∀ a, (![0, 192, 0] : Fin 3 → Nat) a + S1x64x256.size a ≤ S3x512x256.size a) (h' : ∀ a, (Rect.unit (s := S3x512x256) (![0, 192, 0]) S1x64x256.size h).stride a = 1) : ((Memref.whole cc0_scratch2).slice (Rect.unit (s := S3x512x256) (![0, 192, 0]) S1x64x256.size h) h').squeeze S64x256 squeezes_S1x64x256_S64x256 = gChunk 0 3 := gchunk_of_off 0 3 rfl h h'
theorem gchunk_lit0_4 (h : ∀ a, (![0, 256, 0] : Fin 3 → Nat) a + S1x64x256.size a ≤ S3x512x256.size a) (h' : ∀ a, (Rect.unit (s := S3x512x256) (![0, 256, 0]) S1x64x256.size h).stride a = 1) : ((Memref.whole cc0_scratch2).slice (Rect.unit (s := S3x512x256) (![0, 256, 0]) S1x64x256.size h) h').squeeze S64x256 squeezes_S1x64x256_S64x256 = gChunk 0 4 := gchunk_of_off 0 4 rfl h h'
theorem gchunk_lit0_5 (h : ∀ a, (![0, 320, 0] : Fin 3 → Nat) a + S1x64x256.size a ≤ S3x512x256.size a) (h' : ∀ a, (Rect.unit (s := S3x512x256) (![0, 320, 0]) S1x64x256.size h).stride a = 1) : ((Memref.whole cc0_scratch2).slice (Rect.unit (s := S3x512x256) (![0, 320, 0]) S1x64x256.size h) h').squeeze S64x256 squeezes_S1x64x256_S64x256 = gChunk 0 5 := gchunk_of_off 0 5 rfl h h'
theorem gchunk_lit0_6 (h : ∀ a, (![0, 384, 0] : Fin 3 → Nat) a + S1x64x256.size a ≤ S3x512x256.size a) (h' : ∀ a, (Rect.unit (s := S3x512x256) (![0, 384, 0]) S1x64x256.size h).stride a = 1) : ((Memref.whole cc0_scratch2).slice (Rect.unit (s := S3x512x256) (![0, 384, 0]) S1x64x256.size h) h').squeeze S64x256 squeezes_S1x64x256_S64x256 = gChunk 0 6 := gchunk_of_off 0 6 rfl h h'
theorem gchunk_lit0_7 (h : ∀ a, (![0, 448, 0] : Fin 3 → Nat) a + S1x64x256.size a ≤ S3x512x256.size a) (h' : ∀ a, (Rect.unit (s := S3x512x256) (![0, 448, 0]) S1x64x256.size h).stride a = 1) : ((Memref.whole cc0_scratch2).slice (Rect.unit (s := S3x512x256) (![0, 448, 0]) S1x64x256.size h) h').squeeze S64x256 squeezes_S1x64x256_S64x256 = gChunk 0 7 := gchunk_of_off 0 7 rfl h h'
theorem gchunk_lit1_0 (h : ∀ a, (![1, 0, 0] : Fin 3 → Nat) a + S1x64x256.size a ≤ S3x512x256.size a) (h' : ∀ a, (Rect.unit (s := S3x512x256) (![1, 0, 0]) S1x64x256.size h).stride a = 1) : ((Memref.whole cc0_scratch2).slice (Rect.unit (s := S3x512x256) (![1, 0, 0]) S1x64x256.size h) h').squeeze S64x256 squeezes_S1x64x256_S64x256 = gChunk 1 0 := gchunk_of_off 1 0 rfl h h'
theorem gchunk_lit1_1 (h : ∀ a, (![1, 64, 0] : Fin 3 → Nat) a + S1x64x256.size a ≤ S3x512x256.size a) (h' : ∀ a, (Rect.unit (s := S3x512x256) (![1, 64, 0]) S1x64x256.size h).stride a = 1) : ((Memref.whole cc0_scratch2).slice (Rect.unit (s := S3x512x256) (![1, 64, 0]) S1x64x256.size h) h').squeeze S64x256 squeezes_S1x64x256_S64x256 = gChunk 1 1 := gchunk_of_off 1 1 rfl h h'
theorem gchunk_lit1_2 (h : ∀ a, (![1, 128, 0] : Fin 3 → Nat) a + S1x64x256.size a ≤ S3x512x256.size a) (h' : ∀ a, (Rect.unit (s := S3x512x256) (![1, 128, 0]) S1x64x256.size h).stride a = 1) : ((Memref.whole cc0_scratch2).slice (Rect.unit (s := S3x512x256) (![1, 128, 0]) S1x64x256.size h) h').squeeze S64x256 squeezes_S1x64x256_S64x256 = gChunk 1 2 := gchunk_of_off 1 2 rfl h h'
theorem gchunk_lit1_3 (h : ∀ a, (![1, 192, 0] : Fin 3 → Nat) a + S1x64x256.size a ≤ S3x512x256.size a) (h' : ∀ a, (Rect.unit (s := S3x512x256) (![1, 192, 0]) S1x64x256.size h).stride a = 1) : ((Memref.whole cc0_scratch2).slice (Rect.unit (s := S3x512x256) (![1, 192, 0]) S1x64x256.size h) h').squeeze S64x256 squeezes_S1x64x256_S64x256 = gChunk 1 3 := gchunk_of_off 1 3 rfl h h'
theorem gchunk_lit1_4 (h : ∀ a, (![1, 256, 0] : Fin 3 → Nat) a + S1x64x256.size a ≤ S3x512x256.size a) (h' : ∀ a, (Rect.unit (s := S3x512x256) (![1, 256, 0]) S1x64x256.size h).stride a = 1) : ((Memref.whole cc0_scratch2).slice (Rect.unit (s := S3x512x256) (![1, 256, 0]) S1x64x256.size h) h').squeeze S64x256 squeezes_S1x64x256_S64x256 = gChunk 1 4 := gchunk_of_off 1 4 rfl h h'
theorem gchunk_lit1_5 (h : ∀ a, (![1, 320, 0] : Fin 3 → Nat) a + S1x64x256.size a ≤ S3x512x256.size a) (h' : ∀ a, (Rect.unit (s := S3x512x256) (![1, 320, 0]) S1x64x256.size h).stride a = 1) : ((Memref.whole cc0_scratch2).slice (Rect.unit (s := S3x512x256) (![1, 320, 0]) S1x64x256.size h) h').squeeze S64x256 squeezes_S1x64x256_S64x256 = gChunk 1 5 := gchunk_of_off 1 5 rfl h h'
theorem gchunk_lit1_6 (h : ∀ a, (![1, 384, 0] : Fin 3 → Nat) a + S1x64x256.size a ≤ S3x512x256.size a) (h' : ∀ a, (Rect.unit (s := S3x512x256) (![1, 384, 0]) S1x64x256.size h).stride a = 1) : ((Memref.whole cc0_scratch2).slice (Rect.unit (s := S3x512x256) (![1, 384, 0]) S1x64x256.size h) h').squeeze S64x256 squeezes_S1x64x256_S64x256 = gChunk 1 6 := gchunk_of_off 1 6 rfl h h'
theorem gchunk_lit1_7 (h : ∀ a, (![1, 448, 0] : Fin 3 → Nat) a + S1x64x256.size a ≤ S3x512x256.size a) (h' : ∀ a, (Rect.unit (s := S3x512x256) (![1, 448, 0]) S1x64x256.size h).stride a = 1) : ((Memref.whole cc0_scratch2).slice (Rect.unit (s := S3x512x256) (![1, 448, 0]) S1x64x256.size h) h').squeeze S64x256 squeezes_S1x64x256_S64x256 = gChunk 1 7 := gchunk_of_off 1 7 rfl h h'

theorem sem_rs0 (h : ∀ a, (![0] : Fin 1 → Nat) a + S1.size a ≤ S3.size a) : ((cc0_scratch3.slice (Rect.unit (s := S3) (![0]) S1.size h)).squeeze S_ squeezes_S1_S_).sem = rsS 0 := rsS_of_off 0 rfl h
theorem sem_rs1 (h : ∀ a, (![1] : Fin 1 → Nat) a + S1.size a ≤ S3.size a) : ((cc0_scratch3.slice (Rect.unit (s := S3) (![1]) S1.size h)).squeeze S_ squeezes_S1_S_).sem = rsS 1 := rsS_of_off 1 rfl h
theorem sem_rs2 (h : ∀ a, (![2] : Fin 1 → Nat) a + S1.size a ≤ S3.size a) : ((cc0_scratch3.slice (Rect.unit (s := S3) (![2]) S1.size h)).squeeze S_ squeezes_S1_S_).sem = rsS 2 := rsS_of_off 2 rfl h

theorem sem_gs0 (h : ∀ a, (![0] : Fin 1 → Nat) a + S1.size a ≤ S3.size a) : ((cc0_scratch5.slice (Rect.unit (s := S3) (![0]) S1.size h)).squeeze S_ squeezes_S1_S_).sem = gsS 0 := gsS_of_off 0 rfl h
theorem sem_gs1 (h : ∀ a, (![1] : Fin 1 → Nat) a + S1.size a ≤ S3.size a) : ((cc0_scratch5.slice (Rect.unit (s := S3) (![1]) S1.size h)).squeeze S_ squeezes_S1_S_).sem = gsS 1 := gsS_of_off 1 rfl h

theorem sem_gr0_0 (h : ∀ a, (![0, 0] : Fin 2 → Nat) a + S1x1.size a ≤ S3x8.size a) : ((cc0_scratch6.slice (Rect.unit (s := S3x8) (![0, 0]) S1x1.size h)).squeeze S_ squeezes_S1x1_S_).sem = grS 0 0 := grS_of_off 0 0 rfl h
theorem sem_gr0_1 (h : ∀ a, (![0, 1] : Fin 2 → Nat) a + S1x1.size a ≤ S3x8.size a) : ((cc0_scratch6.slice (Rect.unit (s := S3x8) (![0, 1]) S1x1.size h)).squeeze S_ squeezes_S1x1_S_).sem = grS 0 1 := grS_of_off 0 1 rfl h
theorem sem_gr0_2 (h : ∀ a, (![0, 2] : Fin 2 → Nat) a + S1x1.size a ≤ S3x8.size a) : ((cc0_scratch6.slice (Rect.unit (s := S3x8) (![0, 2]) S1x1.size h)).squeeze S_ squeezes_S1x1_S_).sem = grS 0 2 := grS_of_off 0 2 rfl h
theorem sem_gr0_3 (h : ∀ a, (![0, 3] : Fin 2 → Nat) a + S1x1.size a ≤ S3x8.size a) : ((cc0_scratch6.slice (Rect.unit (s := S3x8) (![0, 3]) S1x1.size h)).squeeze S_ squeezes_S1x1_S_).sem = grS 0 3 := grS_of_off 0 3 rfl h
theorem sem_gr0_4 (h : ∀ a, (![0, 4] : Fin 2 → Nat) a + S1x1.size a ≤ S3x8.size a) : ((cc0_scratch6.slice (Rect.unit (s := S3x8) (![0, 4]) S1x1.size h)).squeeze S_ squeezes_S1x1_S_).sem = grS 0 4 := grS_of_off 0 4 rfl h
theorem sem_gr0_5 (h : ∀ a, (![0, 5] : Fin 2 → Nat) a + S1x1.size a ≤ S3x8.size a) : ((cc0_scratch6.slice (Rect.unit (s := S3x8) (![0, 5]) S1x1.size h)).squeeze S_ squeezes_S1x1_S_).sem = grS 0 5 := grS_of_off 0 5 rfl h
theorem sem_gr0_6 (h : ∀ a, (![0, 6] : Fin 2 → Nat) a + S1x1.size a ≤ S3x8.size a) : ((cc0_scratch6.slice (Rect.unit (s := S3x8) (![0, 6]) S1x1.size h)).squeeze S_ squeezes_S1x1_S_).sem = grS 0 6 := grS_of_off 0 6 rfl h
theorem sem_gr0_7 (h : ∀ a, (![0, 7] : Fin 2 → Nat) a + S1x1.size a ≤ S3x8.size a) : ((cc0_scratch6.slice (Rect.unit (s := S3x8) (![0, 7]) S1x1.size h)).squeeze S_ squeezes_S1x1_S_).sem = grS 0 7 := grS_of_off 0 7 rfl h
theorem sem_gr1_0 (h : ∀ a, (![1, 0] : Fin 2 → Nat) a + S1x1.size a ≤ S3x8.size a) : ((cc0_scratch6.slice (Rect.unit (s := S3x8) (![1, 0]) S1x1.size h)).squeeze S_ squeezes_S1x1_S_).sem = grS 1 0 := grS_of_off 1 0 rfl h
theorem sem_gr1_1 (h : ∀ a, (![1, 1] : Fin 2 → Nat) a + S1x1.size a ≤ S3x8.size a) : ((cc0_scratch6.slice (Rect.unit (s := S3x8) (![1, 1]) S1x1.size h)).squeeze S_ squeezes_S1x1_S_).sem = grS 1 1 := grS_of_off 1 1 rfl h
theorem sem_gr1_2 (h : ∀ a, (![1, 2] : Fin 2 → Nat) a + S1x1.size a ≤ S3x8.size a) : ((cc0_scratch6.slice (Rect.unit (s := S3x8) (![1, 2]) S1x1.size h)).squeeze S_ squeezes_S1x1_S_).sem = grS 1 2 := grS_of_off 1 2 rfl h
theorem sem_gr1_3 (h : ∀ a, (![1, 3] : Fin 2 → Nat) a + S1x1.size a ≤ S3x8.size a) : ((cc0_scratch6.slice (Rect.unit (s := S3x8) (![1, 3]) S1x1.size h)).squeeze S_ squeezes_S1x1_S_).sem = grS 1 3 := grS_of_off 1 3 rfl h
theorem sem_gr1_4 (h : ∀ a, (![1, 4] : Fin 2 → Nat) a + S1x1.size a ≤ S3x8.size a) : ((cc0_scratch6.slice (Rect.unit (s := S3x8) (![1, 4]) S1x1.size h)).squeeze S_ squeezes_S1x1_S_).sem = grS 1 4 := grS_of_off 1 4 rfl h
theorem sem_gr1_5 (h : ∀ a, (![1, 5] : Fin 2 → Nat) a + S1x1.size a ≤ S3x8.size a) : ((cc0_scratch6.slice (Rect.unit (s := S3x8) (![1, 5]) S1x1.size h)).squeeze S_ squeezes_S1x1_S_).sem = grS 1 5 := grS_of_off 1 5 rfl h
theorem sem_gr1_6 (h : ∀ a, (![1, 6] : Fin 2 → Nat) a + S1x1.size a ≤ S3x8.size a) : ((cc0_scratch6.slice (Rect.unit (s := S3x8) (![1, 6]) S1x1.size h)).squeeze S_ squeezes_S1x1_S_).sem = grS 1 6 := grS_of_off 1 6 rfl h
theorem sem_gr1_7 (h : ∀ a, (![1, 7] : Fin 2 → Nat) a + S1x1.size a ≤ S3x8.size a) : ((cc0_scratch6.slice (Rect.unit (s := S3x8) (![1, 7]) S1x1.size h)).squeeze S_ squeezes_S1x1_S_).sem = grS 1 7 := grS_of_off 1 7 rfl h

/-! ## Guards written in line: over the id as the kernel computes it, over the position as a word, and over any word equal to it -/

theorem condw0_iff (c : Dev nD) : Scalar.cmpi .ne (Scalar.extui (Scalar.cmpi .ne (Scalar.remsi (Scalar.divsi (Dev.word c) 1#32) 8#32) 0#32)) 0#32 = 1#1 ↔ c ≠ (0 : Dev nD) := guard_iff_of c 0 (devWord_eq c)
theorem condw1_iff (c : Dev nD) : Scalar.cmpi .ne (Scalar.extui (Scalar.cmpi .ne (Scalar.remsi (Scalar.divsi (Dev.word c) 1#32) 8#32) 1#32)) 0#32 = 1#1 ↔ c ≠ (1 : Dev nD) := guard_iff_of c 1 (devWord_eq c)
theorem condw2_iff (c : Dev nD) : Scalar.cmpi .ne (Scalar.extui (Scalar.cmpi .ne (Scalar.remsi (Scalar.divsi (Dev.word c) 1#32) 8#32) 2#32)) 0#32 = 1#1 ↔ c ≠ (2 : Dev nD) := guard_iff_of c 2 (devWord_eq c)
theorem condw3_iff (c : Dev nD) : Scalar.cmpi .ne (Scalar.extui (Scalar.cmpi .ne (Scalar.remsi (Scalar.divsi (Dev.word c) 1#32) 8#32) 3#32)) 0#32 = 1#1 ↔ c ≠ (3 : Dev nD) := guard_iff_of c 3 (devWord_eq c)
theorem condw4_iff (c : Dev nD) : Scalar.cmpi .ne (Scalar.extui (Scalar.cmpi .ne (Scalar.remsi (Scalar.divsi (Dev.word c) 1#32) 8#32) 4#32)) 0#32 = 1#1 ↔ c ≠ (4 : Dev nD) := guard_iff_of c 4 (devWord_eq c)
theorem condw5_iff (c : Dev nD) : Scalar.cmpi .ne (Scalar.extui (Scalar.cmpi .ne (Scalar.remsi (Scalar.divsi (Dev.word c) 1#32) 8#32) 5#32)) 0#32 = 1#1 ↔ c ≠ (5 : Dev nD) := guard_iff_of c 5 (devWord_eq c)
theorem condw6_iff (c : Dev nD) : Scalar.cmpi .ne (Scalar.extui (Scalar.cmpi .ne (Scalar.remsi (Scalar.divsi (Dev.word c) 1#32) 8#32) 6#32)) 0#32 = 1#1 ↔ c ≠ (6 : Dev nD) := guard_iff_of c 6 (devWord_eq c)
theorem condw7_iff (c : Dev nD) : Scalar.cmpi .ne (Scalar.extui (Scalar.cmpi .ne (Scalar.remsi (Scalar.divsi (Dev.word c) 1#32) 8#32) 7#32)) 0#32 = 1#1 ↔ c ≠ (7 : Dev nD) := guard_iff_of c 7 (devWord_eq c)
theorem condn0_iff (c : Dev nD) : Scalar.cmpi .ne (Scalar.extui (Scalar.cmpi .ne (BitVec.ofNat 32 c.val) 0#32)) 0#32 = 1#1 ↔ c ≠ (0 : Dev nD) := guard_iff_of c 0 rfl
theorem condn1_iff (c : Dev nD) : Scalar.cmpi .ne (Scalar.extui (Scalar.cmpi .ne (BitVec.ofNat 32 c.val) 1#32)) 0#32 = 1#1 ↔ c ≠ (1 : Dev nD) := guard_iff_of c 1 rfl
theorem condn2_iff (c : Dev nD) : Scalar.cmpi .ne (Scalar.extui (Scalar.cmpi .ne (BitVec.ofNat 32 c.val) 2#32)) 0#32 = 1#1 ↔ c ≠ (2 : Dev nD) := guard_iff_of c 2 rfl
theorem condn3_iff (c : Dev nD) : Scalar.cmpi .ne (Scalar.extui (Scalar.cmpi .ne (BitVec.ofNat 32 c.val) 3#32)) 0#32 = 1#1 ↔ c ≠ (3 : Dev nD) := guard_iff_of c 3 rfl
theorem condn4_iff (c : Dev nD) : Scalar.cmpi .ne (Scalar.extui (Scalar.cmpi .ne (BitVec.ofNat 32 c.val) 4#32)) 0#32 = 1#1 ↔ c ≠ (4 : Dev nD) := guard_iff_of c 4 rfl
theorem condn5_iff (c : Dev nD) : Scalar.cmpi .ne (Scalar.extui (Scalar.cmpi .ne (BitVec.ofNat 32 c.val) 5#32)) 0#32 = 1#1 ↔ c ≠ (5 : Dev nD) := guard_iff_of c 5 rfl
theorem condn6_iff (c : Dev nD) : Scalar.cmpi .ne (Scalar.extui (Scalar.cmpi .ne (BitVec.ofNat 32 c.val) 6#32)) 0#32 = 1#1 ↔ c ≠ (6 : Dev nD) := guard_iff_of c 6 rfl
theorem condn7_iff (c : Dev nD) : Scalar.cmpi .ne (Scalar.extui (Scalar.cmpi .ne (BitVec.ofNat 32 c.val) 7#32)) 0#32 = 1#1 ↔ c ≠ (7 : Dev nD) := guard_iff_of c 7 rfl
theorem condv0_iff (c : Dev nD) {w : BitVec 32} (e : w = BitVec.ofNat 32 c.val) : Scalar.cmpi .ne (Scalar.extui (Scalar.cmpi .ne (w) 0#32)) 0#32 = 1#1 ↔ c ≠ (0 : Dev nD) := guard_iff_of c 0 e
theorem condv1_iff (c : Dev nD) {w : BitVec 32} (e : w = BitVec.ofNat 32 c.val) : Scalar.cmpi .ne (Scalar.extui (Scalar.cmpi .ne (w) 1#32)) 0#32 = 1#1 ↔ c ≠ (1 : Dev nD) := guard_iff_of c 1 e
theorem condv2_iff (c : Dev nD) {w : BitVec 32} (e : w = BitVec.ofNat 32 c.val) : Scalar.cmpi .ne (Scalar.extui (Scalar.cmpi .ne (w) 2#32)) 0#32 = 1#1 ↔ c ≠ (2 : Dev nD) := guard_iff_of c 2 e
theorem condv3_iff (c : Dev nD) {w : BitVec 32} (e : w = BitVec.ofNat 32 c.val) : Scalar.cmpi .ne (Scalar.extui (Scalar.cmpi .ne (w) 3#32)) 0#32 = 1#1 ↔ c ≠ (3 : Dev nD) := guard_iff_of c 3 e
theorem condv4_iff (c : Dev nD) {w : BitVec 32} (e : w = BitVec.ofNat 32 c.val) : Scalar.cmpi .ne (Scalar.extui (Scalar.cmpi .ne (w) 4#32)) 0#32 = 1#1 ↔ c ≠ (4 : Dev nD) := guard_iff_of c 4 e
theorem condv5_iff (c : Dev nD) {w : BitVec 32} (e : w = BitVec.ofNat 32 c.val) : Scalar.cmpi .ne (Scalar.extui (Scalar.cmpi .ne (w) 5#32)) 0#32 = 1#1 ↔ c ≠ (5 : Dev nD) := guard_iff_of c 5 e
theorem condv6_iff (c : Dev nD) {w : BitVec 32} (e : w = BitVec.ofNat 32 c.val) : Scalar.cmpi .ne (Scalar.extui (Scalar.cmpi .ne (w) 6#32)) 0#32 = 1#1 ↔ c ≠ (6 : Dev nD) := guard_iff_of c 6 e
theorem condv7_iff (c : Dev nD) {w : BitVec 32} (e : w = BitVec.ofNat 32 c.val) : Scalar.cmpi .ne (Scalar.extui (Scalar.cmpi .ne (w) 7#32)) 0#32 = 1#1 ↔ c ≠ (7 : Dev nD) := guard_iff_of c 7 e

/-! ## Named guards: each is the in-line guard of the literal its definition compares the id with -/

theorem cond1_iff (c : Dev nD) : k0_cond1 c = 1#1 ↔ c ≠ (0 : Dev nD) := condw0_iff c
theorem cond2_iff (c : Dev nD) : k0_cond2 c = 1#1 ↔ c ≠ (1 : Dev nD) := condw1_iff c
theorem cond3_iff (c : Dev nD) : k0_cond3 c = 1#1 ↔ c ≠ (2 : Dev nD) := condw2_iff c
theorem cond4_iff (c : Dev nD) : k0_cond4 c = 1#1 ↔ c ≠ (3 : Dev nD) := condw3_iff c
theorem cond5_iff (c : Dev nD) : k0_cond5 c = 1#1 ↔ c ≠ (4 : Dev nD) := condw4_iff c
theorem cond6_iff (c : Dev nD) : k0_cond6 c = 1#1 ↔ c ≠ (5 : Dev nD) := condw5_iff c
theorem cond7_iff (c : Dev nD) : k0_cond7 c = 1#1 ↔ c ≠ (6 : Dev nD) := condw6_iff c
theorem cond8_iff (c : Dev nD) : k0_cond8 c = 1#1 ↔ c ≠ (7 : Dev nD) := condw7_iff c
theorem cond9_iff (c : Dev nD) : k0_cond9 c = 1#1 ↔ c ≠ (0 : Dev nD) := condw0_iff c
theorem cond10_iff (c : Dev nD) : k0_cond10 c = 1#1 ↔ c ≠ (1 : Dev nD) := condw1_iff c
theorem cond11_iff (c : Dev nD) : k0_cond11 c = 1#1 ↔ c ≠ (2 : Dev nD) := condw2_iff c
theorem cond12_iff (c : Dev nD) : k0_cond12 c = 1#1 ↔ c ≠ (3 : Dev nD) := condw3_iff c
theorem cond13_iff (c : Dev nD) : k0_cond13 c = 1#1 ↔ c ≠ (4 : Dev nD) := condw4_iff c
theorem cond14_iff (c : Dev nD) : k0_cond14 c = 1#1 ↔ c ≠ (5 : Dev nD) := condw5_iff c
theorem cond15_iff (c : Dev nD) : k0_cond15 c = 1#1 ↔ c ≠ (6 : Dev nD) := condw6_iff c
theorem cond16_iff (c : Dev nD) : k0_cond16 c = 1#1 ↔ c ≠ (7 : Dev nD) := condw7_iff c
theorem cond19_iff (c : Dev nD) : k0_cond19 c = 1#1 ↔ c ≠ (0 : Dev nD) := condw0_iff c
theorem cond20_iff (c : Dev nD) : k0_cond20 c = 1#1 ↔ c ≠ (1 : Dev nD) := condw1_iff c
theorem cond23_iff (c : Dev nD) : k0_cond23 c = 1#1 ↔ c ≠ (2 : Dev nD) := condw2_iff c
theorem cond24_iff (c : Dev nD) : k0_cond24 c = 1#1 ↔ c ≠ (3 : Dev nD) := condw3_iff c
theorem cond27_iff (c : Dev nD) : k0_cond27 c = 1#1 ↔ c ≠ (4 : Dev nD) := condw4_iff c
theorem cond28_iff (c : Dev nD) : k0_cond28 c = 1#1 ↔ c ≠ (5 : Dev nD) := condw5_iff c
theorem cond31_iff (c : Dev nD) : k0_cond31 c = 1#1 ↔ c ≠ (6 : Dev nD) := condw6_iff c
theorem cond32_iff (c : Dev nD) : k0_cond32 c = 1#1 ↔ c ≠ (7 : Dev nD) := condw7_iff c
theorem cond33_iff (c : Dev nD) : k0_cond33 c = 1#1 ↔ c ≠ (0 : Dev nD) := condw0_iff c
theorem cond34_iff (c : Dev nD) : k0_cond34 c = 1#1 ↔ c ≠ (1 : Dev nD) := condw1_iff c
theorem cond35_iff (c : Dev nD) : k0_cond35 c = 1#1 ↔ c ≠ (2 : Dev nD) := condw2_iff c
theorem cond36_iff (c : Dev nD) : k0_cond36 c = 1#1 ↔ c ≠ (3 : Dev nD) := condw3_iff c
theorem cond37_iff (c : Dev nD) : k0_cond37 c = 1#1 ↔ c ≠ (4 : Dev nD) := condw4_iff c
theorem cond38_iff (c : Dev nD) : k0_cond38 c = 1#1 ↔ c ≠ (5 : Dev nD) := condw5_iff c
theorem cond39_iff (c : Dev nD) : k0_cond39 c = 1#1 ↔ c ≠ (6 : Dev nD) := condw6_iff c
theorem cond40_iff (c : Dev nD) : k0_cond40 c = 1#1 ↔ c ≠ (7 : Dev nD) := condw7_iff c
theorem cond43_iff (c : Dev nD) : k0_cond43 c = 1#1 ↔ c ≠ (0 : Dev nD) := condw0_iff c
theorem cond44_iff (c : Dev nD) : k0_cond44 c = 1#1 ↔ c ≠ (1 : Dev nD) := condw1_iff c
theorem cond47_iff (c : Dev nD) : k0_cond47 c = 1#1 ↔ c ≠ (2 : Dev nD) := condw2_iff c
theorem cond48_iff (c : Dev nD) : k0_cond48 c = 1#1 ↔ c ≠ (3 : Dev nD) := condw3_iff c
theorem cond51_iff (c : Dev nD) : k0_cond51 c = 1#1 ↔ c ≠ (4 : Dev nD) := condw4_iff c
theorem cond52_iff (c : Dev nD) : k0_cond52 c = 1#1 ↔ c ≠ (5 : Dev nD) := condw5_iff c
theorem cond55_iff (c : Dev nD) : k0_cond55 c = 1#1 ↔ c ≠ (6 : Dev nD) := condw6_iff c
theorem cond56_iff (c : Dev nD) : k0_cond56 c = 1#1 ↔ c ≠ (7 : Dev nD) := condw7_iff c
theorem cond57_iff (c : Dev nD) : k0_cond57 c = 1#1 ↔ c ≠ (0 : Dev nD) := condw0_iff c
theorem cond58_iff (c : Dev nD) : k0_cond58 c = 1#1 ↔ c ≠ (1 : Dev nD) := condw1_iff c
theorem cond59_iff (c : Dev nD) : k0_cond59 c = 1#1 ↔ c ≠ (2 : Dev nD) := condw2_iff c
theorem cond60_iff (c : Dev nD) : k0_cond60 c = 1#1 ↔ c ≠ (3 : Dev nD) := condw3_iff c
theorem cond61_iff (c : Dev nD) : k0_cond61 c = 1#1 ↔ c ≠ (4 : Dev nD) := condw4_iff c
theorem cond62_iff (c : Dev nD) : k0_cond62 c = 1#1 ↔ c ≠ (5 : Dev nD) := condw5_iff c
theorem cond63_iff (c : Dev nD) : k0_cond63 c = 1#1 ↔ c ≠ (6 : Dev nD) := condw6_iff c
theorem cond64_iff (c : Dev nD) : k0_cond64 c = 1#1 ↔ c ≠ (7 : Dev nD) := condw7_iff c

/-! ## The last row of three families, checked to be in the environment and to rest on the usual axioms only -/

/-- info: 'Cert.KernelIdealProof.slot_off79_7' depends on axioms: [propext, Classical.choice, Quot.sound] -/
#guard_msgs in #print axioms slot_off79_7
/-- info: 'Cert.KernelIdealProof.sem_off78_7' depends on axioms: [propext, Classical.choice, Quot.sound] -/
#guard_msgs in #print axioms sem_off78_7
/-- info: 'Cert.KernelIdealProof.cond64_iff' depends on axioms: [propext, Quot.sound] -/
#guard_msgs in #print axioms cond64_iff

end Cert.KernelIdealProof

end
-- ==== Proof.ContentsRead.lean ====
import proofs.«900993_g7700000000000994_dist_mlpseq_tp1d_rep_bs_b512_d256_h512_v7x_i8_bf16_1_alg».proof.Proof.Contents
import Idealize.ShloMosaic.Lib.Pipeline.Value

/-! The canonical contents read and written through the body's own rectangles.

    A load through a unit-stride rectangle of a buffer that holds a canonical function returns the matching piece
    of the layer: a 64-row chunk of the partial-product or gather buffer is `chunkOf` of the layer, a slot of the
    receive buffer is `slotOf` of the sender's layer, a 128-row group of the gather buffer is `groupOf` of the
    activation. A store of a stage's value through its rectangle, and a copy of one 64-row piece onto another,
    leave on the piece written the canonical function of the buffer written. The rectangles' offsets are taken as
    any function equal to the literal triple or quadruple, so that the body's computed offsets fit by their closed
    forms. Every statement is an index computation: a rectangle places its index `x` at `off + x`, a squeezed
    rectangle its index `(r, j)` at the rectangle's `(0, r, j)` or `(0, 0, r, j)` (the same row-major position). -/

noncomputable section

namespace Cert.KernelIdealProof

open Cert.KernelIdeal Cert.KernelIdeal.Gen
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## Indices by coordinates -/

/-- A function of a `[1, n1, n2]` index, at indices with equal coordinates. -/
theorem at3_congr {α : Type} {n1 n2 : Nat} (P : (⟨3, ![1, n1, n2]⟩ : Shape).Idx → α) {r r' j j' : Nat}
    (hr : r < n1) (hr' : r' < n1) (hj : j < n2) (hj' : j' < n2) (er : r = r') (ej : j = j') :
    P (ix3 0 ⟨r, hr⟩ ⟨j, hj⟩) = P (ix3 0 ⟨r', hr'⟩ ⟨j', hj'⟩) := by
  subst er ej; rfl

/-- A function of a `[1, n1, n2]` index, at an index given by its coordinates. -/
theorem eq_at3 {α : Type} {n1 n2 : Nat} (P : (⟨3, ![1, n1, n2]⟩ : Shape).Idx → α) (y : (⟨3, ![1, n1, n2]⟩ : Shape).Idx)
    {r j : Nat} (hr : r < n1) (hj : j < n2) (er : (y 1).val = r) (ej : (y 2).val = j) :
    P y = P (ix3 0 ⟨r, hr⟩ ⟨j, hj⟩) := by
  congr 1
  funext a
  refine Fin.ext ?_
  match a with
  | ⟨0, _⟩ =>
    have := idx3_lt0 y
    show (y 0).val = 0
    omega
  | ⟨1, _⟩ => exact er
  | ⟨2, _⟩ => exact ej

/-- The squeeze of a `[1, 64, 256]` rectangle: its index `(r, j)` is the rectangle's `(0, r, j)`. -/
theorem squeeze3 (h : S64x256.numel = S1x64x256.numel) (y : S64x256.Idx) :
    Shape.reshapeEquiv (s := S1x64x256) (s' := S64x256) h y = ix3 0 ⟨(y 0).val, idx2_lt0 y⟩ ⟨(y 1).val, idx2_lt1 y⟩ :=
  Shape.reshapeEquiv_eq_of_rowMajor h (by
    rw [Shape.rowMajor_val_three, Shape.rowMajor_val_two]
    show ((0 * 64 + (y 0).val) * 256 + (y 1).val) = (y 0).val * 256 + (y 1).val
    omega)

/-- The squeeze of a `[1, 1, 64, 256]` rectangle: its index `(r, j)` is the rectangle's `(0, 0, r, j)`. -/
theorem squeeze4 (h : S64x256.numel = S1x1x64x256.numel) (y : S64x256.Idx) :
    Shape.reshapeEquiv (s := S1x1x64x256) (s' := S64x256) h y = ix4 0 0 ⟨(y 0).val, idx2_lt0 y⟩ ⟨(y 1).val, idx2_lt1 y⟩ :=
  Shape.reshapeEquiv_eq_of_rowMajor h (by
    rw [Shape.rowMajor_val_four, Shape.rowMajor_val_two]
    show (((0 * 1 + 0) * 64 + (y 0).val) * 256 + (y 1).val) = (y 0).val * 256 + (y 1).val
    omega)

/-! ## The buffers at an index of a rectangle -/

/-- The partial-product buffer at row `r` of layer `l`. -/
theorem Pfun_at (s : Dev nD) (l : Fin 3) (i : S3x512x256.Idx) {r j : Nat} (hr : r < 512) (hj : j < 256)
    (e0 : (i 0).val = l.val) (e1 : (i 1).val = r) (e2 : (i 2).val = j) :
    Pfun m s i = Pl m s l (ix3 0 ⟨r, hr⟩ ⟨j, hj⟩) := by
  unfold Pfun
  have el : (⟨(i 0).val, idx3_lt0 i⟩ : Fin 3) = l := Fin.ext e0
  rw [el]
  exact at3_congr _ _ _ _ _ e1 e2

/-- The gather buffer at row `r` of layer `l`. -/
theorem Gfun_at (c : Dev nD) (l : Fin 3) (i : S3x512x256.Idx) {r j : Nat} (hr : r < 512) (hj : j < 256)
    (e0 : (i 0).val = l.val) (e1 : (i 1).val = r) (e2 : (i 2).val = j) :
    Gfun m c i = Gl m l (ix3 0 ⟨r, hr⟩ ⟨j, hj⟩) := by
  unfold Gfun
  have el : (⟨(i 0).val, idx3_lt0 i⟩ : Fin 3) = l := Fin.ext e0
  rw [el]
  exact at3_congr _ _ _ _ _ e1 e2

/-- The receive buffer of device `c` at row `r` of slot `(l, s)`: row `64 c + r` of device `s`'s layer `l`. -/
theorem Rfun_at (c s : Dev nD) (l : Fin 3) (i : S3x8x64x256.Idx) {r j : Nat} (hr : r < 512) (hj : j < 256)
    (e0 : (i 0).val = l.val) (e1 : (i 1).val = s.val) (e2 : 64 * c.val + (i 2).val = r) (e3 : (i 3).val = j) :
    Rfun m c i = Pl m s l (ix3 0 ⟨r, hr⟩ ⟨j, hj⟩) := by
  unfold Rfun
  have el : (⟨(i 0).val, idx4_lt0 i⟩ : Fin 3) = l := Fin.ext e0
  have es : (⟨(i 1).val, idx4_lt1 i⟩ : Dev nD) = s := Fin.ext e1
  rw [el, es]
  exact at3_congr _ _ _ _ _ e2 e3

/-! ## Loads -/

/-- Chunk `t` of layer `l` of device `s`'s partial-product buffer. -/
theorem read_P_chunk (s : Dev nD) (l : Fin 3) (t : Fin 8) (off : Fin 3 → Nat) (hoff : off = ![l.val, 64 * t.val, 0])
    (inb : ∀ a, off a + S1x64x256.size a ≤ S3x512x256.size a) :
    (Memref.whole cc0_scratch0).view.readAt (Elt F) (Rect.unit (s := S3x512x256) off S1x64x256.size inb).toLoadRect (Pfun m s)
      = chunkOf (Pl m s l) t := by
  subst hoff
  funext x
  have h0 : (x 0).val = 0 := by have := idx3_lt0 x; omega
  show Pfun m s ((Rect.unit (s := S3x512x256) ![l.val, 64 * t.val, 0] S1x64x256.size inb).toLoadRect.idx x) = chunkOf (Pl m s l) t x
  unfold chunkOf
  exact Pfun_at m s l _ _ _ (by show l.val + 1 * (x 0).val = l.val; omega)
    (by show 64 * t.val + 1 * (x 1).val = 64 * t.val + (x 1).val; omega) (by show 0 + 1 * (x 2).val = (x 2).val; omega)

/-- Slot `(l, s)` of device `c`'s receive buffer: device `s`'s rows `64 c …`. -/
theorem read_R_slot (c s : Dev nD) (l : Fin 3) (off : Fin 4 → Nat) (hoff : off = ![l.val, s.val, 0, 0])
    (inb : ∀ a, off a + S1x1x64x256.size a ≤ S3x8x64x256.size a) :
    (Memref.whole cc0_scratch1).view.readAt (Elt F) (Rect.unit (s := S3x8x64x256) off S1x1x64x256.size inb).toLoadRect (Rfun m c)
      = slotOf (Pl m s l) c := by
  subst hoff
  funext x
  have h0 : (x 0).val = 0 := by have := idx4_lt0 x; omega
  have h1 : (x 1).val = 0 := by have := idx4_lt1 x; omega
  show Rfun m c ((Rect.unit (s := S3x8x64x256) ![l.val, s.val, 0, 0] S1x1x64x256.size inb).toLoadRect.idx x) = slotOf (Pl m s l) c x
  unfold slotOf
  exact Rfun_at m c s l _ _ _ (by show l.val + 1 * (x 0).val = l.val; omega) (by show s.val + 1 * (x 1).val = s.val; omega)
    (by show 64 * c.val + (0 + 1 * (x 2).val) = 64 * c.val + (x 2).val; omega) (by show 0 + 1 * (x 3).val = (x 3).val; omega)

/-- Chunk `t` of layer `l` of a device's gather buffer. -/
theorem read_G_chunk (c : Dev nD) (l : Fin 3) (t : Fin 8) (off : Fin 3 → Nat) (hoff : off = ![l.val, 64 * t.val, 0])
    (inb : ∀ a, off a + S1x64x256.size a ≤ S3x512x256.size a) :
    (Memref.whole cc0_scratch2).view.readAt (Elt F) (Rect.unit (s := S3x512x256) off S1x64x256.size inb).toLoadRect (Gfun m c)
      = chunkOf (Gl m l) t := by
  subst hoff
  funext x
  have h0 : (x 0).val = 0 := by have := idx3_lt0 x; omega
  show Gfun m c ((Rect.unit (s := S3x512x256) ![l.val, 64 * t.val, 0] S1x64x256.size inb).toLoadRect.idx x) = chunkOf (Gl m l) t x
  unfold chunkOf
  exact Gfun_at m c l _ _ _ (by show l.val + 1 * (x 0).val = l.val; omega)
    (by show 64 * t.val + 1 * (x 1).val = 64 * t.val + (x 1).val; omega) (by show 0 + 1 * (x 2).val = (x 2).val; omega)

/-- Group `g` (rows `128 g …`) of layer `l` of a device's gather buffer. -/
theorem read_G_group (c : Dev nD) (l : Fin 3) (g : Fin 4) (off : Fin 3 → Nat) (hoff : off = ![l.val, 128 * g.val, 0])
    (inb : ∀ a, off a + S1x128x256.size a ≤ S3x512x256.size a) :
    (Memref.whole cc0_scratch2).view.readAt (Elt F) (Rect.unit (s := S3x512x256) off S1x128x256.size inb).toLoadRect (Gfun m c)
      = groupOf (Gl m l) g := by
  subst hoff
  funext x
  have h0 : (x 0).val = 0 := by have := idx3_lt0 x; omega
  show Gfun m c ((Rect.unit (s := S3x512x256) ![l.val, 128 * g.val, 0] S1x128x256.size inb).toLoadRect.idx x) = groupOf (Gl m l) g x
  unfold groupOf
  exact Gfun_at m c l _ _ _ (by show l.val + 1 * (x 0).val = l.val; omega)
    (by show 128 * g.val + 1 * (x 1).val = 128 * g.val + (x 1).val; omega) (by show 0 + 1 * (x 2).val = (x 2).val; omega)

/-! ## Stores -/

/-- The store of layer 0's partial product, whole. -/
theorem write_P0 (c : Dev nD) (f0 : Buf (Elt F) ((c : Thread nD τ).loc cc0_scratch0)) (off : Fin 3 → Nat) (hoff : off = ![0, 0, 0])
    (inb : ∀ a, off a + S1x512x256.size a ≤ S3x512x256.size a) :
    ∀ i ∈ ((Memref.whole cc0_scratch0).access (Rect.unit (s := S3x512x256) off S1x512x256.size inb)).set,
      ((Memref.whole cc0_scratch0).access (Rect.unit (s := S3x512x256) off S1x512x256.size inb)).write (Elt F) f0 (P0 m c) Finset.univ i
        = Pfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  show P0 m c y = Pfun m c ((Rect.unit (s := S3x512x256) ![0, 0, 0] S1x512x256.size inb).emb y)
  rw [Pfun_at m c 0 _ (idx3_lt1 y) (idx3_lt2 y) (by show 0 + 1 * (y 0).val = 0; omega)
    (by show 0 + 1 * (y 1).val = (y 1).val; omega) (by show 0 + 1 * (y 2).val = (y 2).val; omega)]
  exact eq_at3 (P0 m c) y _ _ rfl rfl

/-- A layer given by groups, at a row of group `g`. -/
theorem ofGroups_at (Q : Fin 4 → FVec F S1x128x256 .bf16) (g : Fin 4) (y : S1x128x256.Idx) {r j : Nat} (hr : r < 512) (hj : j < 256)
    (er : 128 * g.val + (y 1).val = r) (ej : (y 2).val = j) :
    ofGroups Q (ix3 0 ⟨r, hr⟩ ⟨j, hj⟩) = Q g y := by
  unfold ofGroups
  have hy := idx3_lt1 y
  have eg : (⟨((ix3 (0 : Fin 1) (⟨r, hr⟩ : Fin 512) (⟨j, hj⟩ : Fin 256)) 1).val / 128, by
      have := idx3_lt1 (ix3 (0 : Fin 1) (⟨r, hr⟩ : Fin 512) (⟨j, hj⟩ : Fin 256)); omega⟩ : Fin 4) = g :=
    Fin.ext (by show r / 128 = g.val; omega)
  rw [eg]
  exact (eq_at3 (Q g) y _ _ (by show (y 1).val = r % 128; omega) (by show (y 2).val = j; omega)).symm

/-- A layer given by chunks, at a row of chunk `t`. -/
theorem ofChunks_at (R : Fin 8 → FVec F S1x64x256 .bf16) (t : Fin 8) (y : S1x64x256.Idx) {r j : Nat} (hr : r < 512) (hj : j < 256)
    (er : 64 * t.val + (y 1).val = r) (ej : (y 2).val = j) :
    ofChunks R (ix3 0 ⟨r, hr⟩ ⟨j, hj⟩) = R t y := by
  unfold ofChunks
  have hy := idx3_lt1 y
  have et : (⟨((ix3 (0 : Fin 1) (⟨r, hr⟩ : Fin 512) (⟨j, hj⟩ : Fin 256)) 1).val / 64, by
      have := idx3_lt1 (ix3 (0 : Fin 1) (⟨r, hr⟩ : Fin 512) (⟨j, hj⟩ : Fin 256)); omega⟩ : Fin 8) = t :=
    Fin.ext (by show r / 64 = t.val; omega)
  rw [et]
  exact (eq_at3 (R t) y _ _ (by show (y 1).val = r % 64; omega) (by show (y 2).val = j; omega)).symm

/-- The store of group `g` of layer 1's partial product. -/
theorem write_P1grp (c : Dev nD) (g : Fin 4) (f0 : Buf (Elt F) ((c : Thread nD τ).loc cc0_scratch0)) (off : Fin 3 → Nat)
    (hoff : off = ![1, 128 * g.val, 0]) (inb : ∀ a, off a + S1x128x256.size a ≤ S3x512x256.size a) :
    ∀ i ∈ ((Memref.whole cc0_scratch0).access (Rect.unit (s := S3x512x256) off S1x128x256.size inb)).set,
      ((Memref.whole cc0_scratch0).access (Rect.unit (s := S3x512x256) off S1x128x256.size inb)).write (Elt F) f0 (P1grp m c g) Finset.univ i
        = Pfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  have h1 := idx3_lt1 y
  have hg : g.val < 4 := g.isLt
  show P1grp m c g y = Pfun m c ((Rect.unit (s := S3x512x256) ![1, 128 * g.val, 0] S1x128x256.size inb).emb y)
  rw [Pfun_at m c 1 _ (r := 128 * g.val + (y 1).val) (j := (y 2).val) (by omega) (idx3_lt2 y) (by show 1 + 1 * (y 0).val = 1; omega)
    (by show 128 * g.val + 1 * (y 1).val = 128 * g.val + (y 1).val; omega) (by show 0 + 1 * (y 2).val = (y 2).val; omega)]
  exact (ofGroups_at (P1grp m c) g y _ _ rfl rfl).symm

/-- The store of group `g` of layer 2's partial product. -/
theorem write_P2grp (c : Dev nD) (g : Fin 4) (f0 : Buf (Elt F) ((c : Thread nD τ).loc cc0_scratch0)) (off : Fin 3 → Nat)
    (hoff : off = ![2, 128 * g.val, 0]) (inb : ∀ a, off a + S1x128x256.size a ≤ S3x512x256.size a) :
    ∀ i ∈ ((Memref.whole cc0_scratch0).access (Rect.unit (s := S3x512x256) off S1x128x256.size inb)).set,
      ((Memref.whole cc0_scratch0).access (Rect.unit (s := S3x512x256) off S1x128x256.size inb)).write (Elt F) f0 (P2grp m c g) Finset.univ i
        = Pfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  have h1 := idx3_lt1 y
  have hg : g.val < 4 := g.isLt
  show P2grp m c g y = Pfun m c ((Rect.unit (s := S3x512x256) ![2, 128 * g.val, 0] S1x128x256.size inb).emb y)
  rw [Pfun_at m c 2 _ (r := 128 * g.val + (y 1).val) (j := (y 2).val) (by omega) (idx3_lt2 y) (by show 2 + 1 * (y 0).val = 2; omega)
    (by show 128 * g.val + 1 * (y 1).val = 128 * g.val + (y 1).val; omega) (by show 0 + 1 * (y 2).val = (y 2).val; omega)]
  exact (ofGroups_at (P2grp m c) g y _ _ rfl rfl).symm

/-- The store of a device's own rows of the first activation into its gather buffer. -/
theorem write_G0 (c : Dev nD) (f0 : Buf (Elt F) ((c : Thread nD τ).loc cc0_scratch2)) (off : Fin 3 → Nat)
    (hoff : off = ![0, 64 * c.val, 0]) (inb : ∀ a, off a + S1x64x256.size a ≤ S3x512x256.size a) :
    ∀ i ∈ ((Memref.whole cc0_scratch2).access (Rect.unit (s := S3x512x256) off S1x64x256.size inb)).set,
      ((Memref.whole cc0_scratch2).access (Rect.unit (s := S3x512x256) off S1x64x256.size inb)).write (Elt F) f0 (red0 m c) Finset.univ i
        = Gfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  have h1 := idx3_lt1 y
  have hc : c.val < 8 := c.isLt
  show red0 m c y = Gfun m c ((Rect.unit (s := S3x512x256) ![0, 64 * c.val, 0] S1x64x256.size inb).emb y)
  rw [Gfun_at m c 0 _ (r := 64 * c.val + (y 1).val) (j := (y 2).val) (by omega) (idx3_lt2 y) (by show 0 + 1 * (y 0).val = 0; omega)
    (by show 64 * c.val + 1 * (y 1).val = 64 * c.val + (y 1).val; omega) (by show 0 + 1 * (y 2).val = (y 2).val; omega)]
  exact (ofChunks_at (red0 m) c y _ _ rfl rfl).symm

/-- The store of a device's own rows of the second activation into its gather buffer. -/
theorem write_G1 (c : Dev nD) (f0 : Buf (Elt F) ((c : Thread nD τ).loc cc0_scratch2)) (off : Fin 3 → Nat)
    (hoff : off = ![1, 64 * c.val, 0]) (inb : ∀ a, off a + S1x64x256.size a ≤ S3x512x256.size a) :
    ∀ i ∈ ((Memref.whole cc0_scratch2).access (Rect.unit (s := S3x512x256) off S1x64x256.size inb)).set,
      ((Memref.whole cc0_scratch2).access (Rect.unit (s := S3x512x256) off S1x64x256.size inb)).write (Elt F) f0 (red1 m c) Finset.univ i
        = Gfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  have h1 := idx3_lt1 y
  have hc : c.val < 8 := c.isLt
  show red1 m c y = Gfun m c ((Rect.unit (s := S3x512x256) ![1, 64 * c.val, 0] S1x64x256.size inb).emb y)
  rw [Gfun_at m c 1 _ (r := 64 * c.val + (y 1).val) (j := (y 2).val) (by omega) (idx3_lt2 y) (by show 1 + 1 * (y 0).val = 1; omega)
    (by show 64 * c.val + 1 * (y 1).val = 64 * c.val + (y 1).val; omega) (by show 0 + 1 * (y 2).val = (y 2).val; omega)]
  exact (ofChunks_at (red1 m) c y _ _ rfl rfl).symm

/-! ## Landings -/

/-- Device `s`'s chunk `t` of layer `l`, copied into slot `(l, s)` of device `t`'s receive buffer. -/
theorem land_reduce (s t : Dev nD) (l : Fin 3) (fd : Buf (Elt F) ((t : Thread nD τ).loc cc0_scratch1)) :
    ∀ i ∈ (rSlot l s).view.set,
      (rSlot l s).view.write (Elt F) fd ((pChunk l t).view.read (Elt F) (Pfun m s)) Finset.univ i = Rfun m t i := by
  intro i hi
  obtain ⟨y, rfl⟩ := View.exists_emb_of_mem_set _ hi
  refine (View.write_emb_of_mem _ _ (Finset.mem_univ y)).trans ?_
  have hy0 := idx2_lt0 y
  have ht : t.val < 8 := t.isLt
  show Pfun m s ((Rect.unit (s := S3x512x256) ![l.val, 64 * t.val, 0] S1x64x256.size (inb_p l t)).emb
      (Shape.reshapeEquiv (s := S1x64x256) (s' := S64x256) squeezes_S1x64x256_S64x256.numel_eq y))
    = Rfun m t ((Rect.unit (s := S3x8x64x256) ![l.val, s.val, 0, 0] S1x1x64x256.size (inb_r l s)).emb
      (Shape.reshapeEquiv (s := S1x1x64x256) (s' := S64x256) squeezes_S1x1x64x256_S64x256.numel_eq y))
  rw [squeeze3, squeeze4]
  rw [Pfun_at m s l _ (r := 64 * t.val + (y 0).val) (j := (y 1).val) (by omega) (idx2_lt1 y) (by show l.val + 1 * 0 = l.val; omega)
      (by show 64 * t.val + 1 * (y 0).val = 64 * t.val + (y 0).val; omega) (by show 0 + 1 * (y 1).val = (y 1).val; omega),
    Rfun_at m t s l _ (r := 64 * t.val + (y 0).val) (j := (y 1).val) (by omega) (idx2_lt1 y) (by show l.val + 1 * 0 = l.val; omega)
      (by show s.val + 1 * 0 = s.val; omega) (by show 64 * t.val + (0 + 1 * (y 0).val) = 64 * t.val + (y 0).val; omega)
      (by show 0 + 1 * (y 1).val = (y 1).val; omega)]

/-- The gather buffers of all devices hold one function. -/
theorem Gfun_eq (c p : Dev nD) : Gfun m c = Gfun m p := rfl

/-- Device `c`'s own rows of the activation of layer `l`, copied into the same rows of device `p`'s gather buffer. -/
theorem land_gather (c p : Dev nD) (l : Fin 3) (fd : Buf (Elt F) ((p : Thread nD τ).loc cc0_scratch2)) :
    ∀ i ∈ (gChunk l c).view.set,
      (gChunk l c).view.write (Elt F) fd ((gChunk l c).view.read (Elt F) (Gfun m c)) Finset.univ i = Gfun m p i := by
  intro i hi
  obtain ⟨y, rfl⟩ := View.exists_emb_of_mem_set _ hi
  exact View.write_emb_of_mem _ _ (Finset.mem_univ y)

/-! ## Loads from a buffer that agrees with a canonical function on the piece read

What a wait hands over is a piece of a buffer, not the buffer: these are the loads above from any contents that
agree, on the 64-row pieces the rectangle is made of, with the canonical function or with the term a copy's landing
is written as. -/

theorem pChunk_set (l : Fin 3) (t : Fin 8) :
    (pChunk l t).view.set = (Rect.unit (s := S3x512x256) ![l.val, 64 * t.val, 0] S1x64x256.size (inb_p l t)).set :=
  (View.set_reshape _ _).trans (View.set_slice_whole _ _)

theorem rSlot_set (l : Fin 3) (s : Fin 8) :
    (rSlot l s).view.set = (Rect.unit (s := S3x8x64x256) ![l.val, s.val, 0, 0] S1x1x64x256.size (inb_r l s)).set :=
  (View.set_reshape _ _).trans (View.set_slice_whole _ _)

theorem gChunk_set (l : Fin 3) (t : Fin 8) :
    (gChunk l t).view.set = (Rect.unit (s := S3x512x256) ![l.val, 64 * t.val, 0] S1x64x256.size (inb_p l t)).set :=
  (View.set_reshape _ _).trans (View.set_slice_whole _ _)

/-- The elements a load through a rectangle of a whole buffer reads are the rectangle's. -/
theorem setOn_whole {κ : Kind} (b : Ref sig κ) (M : Finset b.ty.shape.Idx) : (Memref.whole b).view.setOn M = M :=
  Finset.map_refl

/-- Chunk `t` of layer `l` of a partial-product buffer that holds device `s`'s canonical function there. -/
theorem read_P_chunk_of (s : Dev nD) (l : Fin 3) (t : Fin 8) (off : Fin 3 → Nat) (hoff : off = ![l.val, 64 * t.val, 0])
    (inb : ∀ a, off a + S1x64x256.size a ≤ S3x512x256.size a) (f : Buf (Elt F) ((s : Thread nD τ).loc cc0_scratch0))
    (h : ∀ i ∈ (pChunk l t).view.set, f i = Pfun m s i) :
    (Memref.whole cc0_scratch0).view.readAt (Elt F) (Rect.unit (s := S3x512x256) off S1x64x256.size inb).toLoadRect f
      = chunkOf (Pl m s l) t := by
  subst hoff
  have hc : ∀ i ∈ (Memref.whole cc0_scratch0).view.setOn
      (Rect.unit (s := S3x512x256) ![l.val, 64 * t.val, 0] S1x64x256.size inb).toLoadRect.set, f i = Pfun m s i := fun i hi =>
    h i (by rw [pChunk_set]; rw [setOn_whole] at hi; exact hi)
  exact (View.readAt_congr hc).trans (read_P_chunk m s l t _ rfl inb)

/-- Slot `(l, s)` of a receive buffer of device `c` that holds the canonical function there. -/
theorem read_R_slot_of (c s : Dev nD) (l : Fin 3) (off : Fin 4 → Nat) (hoff : off = ![l.val, s.val, 0, 0])
    (inb : ∀ a, off a + S1x1x64x256.size a ≤ S3x8x64x256.size a) (f : Buf (Elt F) ((c : Thread nD τ).loc cc0_scratch1))
    (h : ∀ i ∈ (rSlot l s).view.set, f i = Rfun m c i) :
    (Memref.whole cc0_scratch1).view.readAt (Elt F) (Rect.unit (s := S3x8x64x256) off S1x1x64x256.size inb).toLoadRect f
      = slotOf (Pl m s l) c := by
  subst hoff
  have hc : ∀ i ∈ (Memref.whole cc0_scratch1).view.setOn
      (Rect.unit (s := S3x8x64x256) ![l.val, s.val, 0, 0] S1x1x64x256.size inb).toLoadRect.set, f i = Rfun m c i := fun i hi =>
    h i (by rw [rSlot_set]; rw [setOn_whole] at hi; exact hi)
  exact (View.readAt_congr hc).trans (read_R_slot m c s l _ rfl inb)

/-- Slot `(l, s)` of a receive buffer of device `c` in which device `s`'s chunk has landed. -/
theorem read_R_slot_landed (c s : Dev nD) (l : Fin 3) (off : Fin 4 → Nat) (hoff : off = ![l.val, s.val, 0, 0])
    (inb : ∀ a, off a + S1x1x64x256.size a ≤ S3x8x64x256.size a) (f fd : Buf (Elt F) ((c : Thread nD τ).loc cc0_scratch1))
    (h : ∀ i ∈ (rSlot l s).view.set,
      f i = (rSlot l s).view.write (Elt F) fd ((pChunk l c).view.read (Elt F) (Pfun m s)) Finset.univ i) :
    (Memref.whole cc0_scratch1).view.readAt (Elt F) (Rect.unit (s := S3x8x64x256) off S1x1x64x256.size inb).toLoadRect f
      = slotOf (Pl m s l) c :=
  read_R_slot_of m c s l off hoff inb f fun i hi => (h i hi).trans (land_reduce m s c l fd i hi)

/-- Chunk `t` of layer `l` of a gather buffer that holds the canonical function there. -/
theorem read_G_chunk_of (c : Dev nD) (l : Fin 3) (t : Fin 8) (off : Fin 3 → Nat) (hoff : off = ![l.val, 64 * t.val, 0])
    (inb : ∀ a, off a + S1x64x256.size a ≤ S3x512x256.size a) (f : Buf (Elt F) ((c : Thread nD τ).loc cc0_scratch2))
    (h : ∀ i ∈ (gChunk l t).view.set, f i = Gfun m c i) :
    (Memref.whole cc0_scratch2).view.readAt (Elt F) (Rect.unit (s := S3x512x256) off S1x64x256.size inb).toLoadRect f
      = chunkOf (Gl m l) t := by
  subst hoff
  have hc : ∀ i ∈ (Memref.whole cc0_scratch2).view.setOn
      (Rect.unit (s := S3x512x256) ![l.val, 64 * t.val, 0] S1x64x256.size inb).toLoadRect.set, f i = Gfun m c i := fun i hi =>
    h i (by rw [gChunk_set]; rw [setOn_whole] at hi; exact hi)
  exact (View.readAt_congr hc).trans (read_G_chunk m c l t _ rfl inb)

/-- A chunk of a gather buffer in which device `s`'s rows have landed holds the canonical function. -/
theorem landed_gather (c s : Dev nD) (l : Fin 3) (f fd : Buf (Elt F) ((c : Thread nD τ).loc cc0_scratch2))
    (h : ∀ i ∈ (gChunk l s).view.set,
      f i = (gChunk l s).view.write (Elt F) fd ((gChunk l s).view.read (Elt F) (Gfun m s)) Finset.univ i) :
    ∀ i ∈ (gChunk l s).view.set, f i = Gfun m c i :=
  fun i hi => (h i hi).trans (land_gather m s c l fd i hi)

/-- Group `g` of layer `l` of a gather buffer whose chunks `2 g` and `2 g + 1` hold the canonical function. -/
theorem read_G_group_of (c : Dev nD) (l : Fin 3) (g : Fin 4) (off : Fin 3 → Nat) (hoff : off = ![l.val, 128 * g.val, 0])
    (inb : ∀ a, off a + S1x128x256.size a ≤ S3x512x256.size a) (f : Buf (Elt F) ((c : Thread nD τ).loc cc0_scratch2))
    (t0 t1 : Fin 8) (ht0 : t0.val = 2 * g.val) (ht1 : t1.val = 2 * g.val + 1)
    (h0 : ∀ i ∈ (gChunk l t0).view.set, f i = Gfun m c i) (h1 : ∀ i ∈ (gChunk l t1).view.set, f i = Gfun m c i) :
    (Memref.whole cc0_scratch2).view.readAt (Elt F) (Rect.unit (s := S3x512x256) off S1x128x256.size inb).toLoadRect f
      = groupOf (Gl m l) g := by
  subst hoff
  refine (View.readAt_congr (v := (Memref.whole cc0_scratch2).view)
    (r := (Rect.unit (s := S3x512x256) ![l.val, 128 * g.val, 0] S1x128x256.size inb).toLoadRect) (g := Gfun m c) fun i hi => ?_).trans
    (read_G_group m c l g _ rfl inb)
  rw [setOn_whole] at hi
  have hm := Rect.mem_set_unit.mp hi
  have m0 := hm 0
  have m1 := hm 1
  have m2 := hm 2
  by_cases hlow : (i 1).val < 128 * g.val + 64
  · refine h0 i ?_
    rw [gChunk_set]
    refine Rect.mem_set_unit.mpr fun a => ?_
    match a with
    | ⟨0, _⟩ => exact m0
    | ⟨1, _⟩ =>
      show 64 * t0.val ≤ (i 1).val ∧ (i 1).val < 64 * t0.val + 64
      have : (128 * g.val ≤ (i 1).val) := m1.1
      omega
    | ⟨2, _⟩ => exact m2
  · refine h1 i ?_
    rw [gChunk_set]
    refine Rect.mem_set_unit.mpr fun a => ?_
    match a with
    | ⟨0, _⟩ => exact m0
    | ⟨1, _⟩ =>
      show 64 * t1.val ≤ (i 1).val ∧ (i 1).val < 64 * t1.val + 64
      have : (i 1).val < 128 * g.val + 128 := m1.2
      omega
    | ⟨2, _⟩ => exact m2

/-- info: 'Cert.KernelIdealProof.land_reduce' depends on axioms: [propext, Classical.choice, Quot.sound] -/
#guard_msgs in #print axioms land_reduce

end Cert.KernelIdealProof

end
-- ==== Proof.Groups.lean ====
import proofs.«900993_g7700000000000994_dist_mlpseq_tp1d_rep_bs_b512_d256_h512_v7x_i8_bf16_1_alg».proof.Proof.Split

/-! The coarser views of the partial-product and gather buffers. The protocol hands 64-row chunks about, and a device
    holds its buffers chunk by chunk; but the body writes a layer-0 partial product through the layer's whole 512-row
    slab, writes a layer-1 or layer-2 partial product and reads the activation before it in four groups of 128 rows.
    A slab is the disjoint union of the layer's eight chunks and the group `g` of the chunks `2 g` and `2 g + 1`, so a slab
    or a group held (at any share, the buffer reading anything) is its chunks held. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The views -/

theorem inb_slab (l : Fin 3) : ∀ a, (![l.val, 0, 0] : Fin 3 → Nat) a + S1x512x256.size a ≤ S3x512x256.size a := by revert l; decide
theorem inb_grp (l : Fin 3) (g : Fin 4) : ∀ a, (![l.val, 128 * g.val, 0] : Fin 3 → Nat) a + S1x128x256.size a ≤ S3x512x256.size a := by
  revert l g; decide

/-- The rectangle of layer `l` in a 3 × 512 × 256 buffer. -/
abbrev rectSlab (l : Fin 3) : Rect S3x512x256 := Rect.unit (s := S3x512x256) ![l.val, 0, 0] S1x512x256.size (inb_slab l)
/-- The rectangle of group `g` (rows `128 g … 128 g + 127`) of layer `l`. -/
abbrev rectGrp (l : Fin 3) (g : Fin 4) : Rect S3x512x256 := Rect.unit (s := S3x512x256) ![l.val, 128 * g.val, 0] S1x128x256.size (inb_grp l g)

/-- Layer `l` of the partial-product buffer, whole. -/
def pSlab (l : Fin 3) : Memref sig .tc .vmem S1x512x256 .bf16 := (Memref.whole cc0_scratch0).slice (rectSlab l) (fun _ => rfl)
/-- Group `g` of layer `l` of the partial-product buffer. -/
def pGroup (l : Fin 3) (g : Fin 4) : Memref sig .tc .vmem S1x128x256 .bf16 := (Memref.whole cc0_scratch0).slice (rectGrp l g) (fun _ => rfl)
/-- Group `g` of layer `l` of the gather buffer. -/
def gGroup (l : Fin 3) (g : Fin 4) : Memref sig .tc .vmem S1x128x256 .bf16 := (Memref.whole cc0_scratch2).slice (rectGrp l g) (fun _ => rfl)

/-! ## Their element sets -/

theorem set_pSlab (l : Fin 3) : (pSlab l).view.set = (rectSlab l).set := View.set_slice_whole _ _
theorem set_pGroup (l : Fin 3) (g : Fin 4) : (pGroup l g).view.set = (rectGrp l g).set := View.set_slice_whole _ _
theorem set_gGroup (l : Fin 3) (g : Fin 4) : (gGroup l g).view.set = (rectGrp l g).set := View.set_slice_whole _ _

theorem mem_rectSlab {l : Fin 3} {i : S3x512x256.Idx} : i ∈ (rectSlab l).set ↔ (i 0).val = l.val := by
  rw [Rect.mem_set_unit, Fin.forall_fin_succ, Fin.forall_fin_succ, Fin.forall_fin_succ]
  have h1 : (i 1).val < 512 := (i 1).isLt
  have h2 : (i 2).val < 256 := (i 2).isLt
  show ((l.val ≤ (i 0).val ∧ (i 0).val < l.val + 1) ∧ (0 ≤ (i 1).val ∧ (i 1).val < 0 + 512)
    ∧ (0 ≤ (i 2).val ∧ (i 2).val < 0 + 256) ∧ ∀ j : Fin 0, _) ↔ _
  refine ⟨fun ⟨h0, _⟩ => by omega, fun h0 => ⟨by omega, by omega, by omega, fun j => j.elim0⟩⟩

theorem mem_rectGrp {l : Fin 3} {g : Fin 4} {i : S3x512x256.Idx} :
    i ∈ (rectGrp l g).set ↔ (i 0).val = l.val ∧ 128 * g.val ≤ (i 1).val ∧ (i 1).val < 128 * g.val + 128 := by
  rw [Rect.mem_set_unit, Fin.forall_fin_succ, Fin.forall_fin_succ, Fin.forall_fin_succ]
  have h2 : (i 2).val < 256 := (i 2).isLt
  show ((l.val ≤ (i 0).val ∧ (i 0).val < l.val + 1) ∧ (128 * g.val ≤ (i 1).val ∧ (i 1).val < 128 * g.val + 128)
    ∧ (0 ≤ (i 2).val ∧ (i 2).val < 0 + 256) ∧ ∀ j : Fin 0, _) ↔ _
  refine ⟨fun ⟨h0, h1, _⟩ => ⟨by omega, h1⟩, fun ⟨h0, h1⟩ => ⟨by omega, h1, by omega, fun j => j.elim0⟩⟩

/-- A layer's rows are the rows of its eight chunks. -/
theorem rectSlab_eq (l : Fin 3) : (rectSlab l).set = (Finset.univ : Finset (Dev nD)).biUnion (fun t => (rectP l t).set) := by
  ext i
  simp only [Finset.mem_biUnion, Finset.mem_univ, true_and, mem_rectSlab, mem_rectP]
  have h1 : (i 1).val < 512 := (i 1).isLt
  refine ⟨fun h0 => ⟨⟨(i 1).val / 64, by show (i 1).val / 64 < 8; omega⟩, h0, by show 64 * ((i 1).val / 64) ≤ _; omega,
    by show _ < 64 * ((i 1).val / 64) + 64; omega⟩, fun ⟨_, h0, _⟩ => h0⟩

/-- A group's rows are the rows of its two chunks. -/
theorem rectGrp_eq (l : Fin 3) (g : Fin 4) (t0 t1 : Dev nD) (h0 : t0.val = 2 * g.val) (h1 : t1.val = 2 * g.val + 1) :
    (rectGrp l g).set = (rectP l t0).set ∪ (rectP l t1).set := by
  ext i
  simp only [Finset.mem_union, mem_rectGrp, mem_rectP]
  omega

theorem rectP_disjoint_chunks (l : Fin 3) {t t' : Dev nD} (h : t ≠ t') : Disjoint (rectP l t).set (rectP l t').set :=
  rectP_disjoint (a := (l, t)) (b := (l, t')) (fun e => h (congrArg Prod.snd e))

/-! ## A slab or a group held is its chunks held -/

/-- Layer `l` of the partial-product buffer held is its eight chunks held. -/
theorem pSlab_eq (c : Dev nD) (l : Fin 3) (q : PosShare TreeShare) (f : Buf (Elt F) ((Memref.whole cc0_scratch0).view.loc (c : Thread nD τ))) :
    ((pSlab l).view.loc (c : Thread nD τ) ↦[(pSlab l).view.set]{q} f : sProp 𝕄)
      = iprop(piece c (pChunk l 0) q f ∗ piece c (pChunk l 1) q f ∗ piece c (pChunk l 2) q f ∗ piece c (pChunk l 3) q f
          ∗ piece c (pChunk l 4) q f ∗ piece c (pChunk l 5) q f ∗ piece c (pChunk l 6) q f ∗ piece c (pChunk l 7) q f) := by
  refine (congrArg (fun I => pointsTo ((Memref.whole cc0_scratch0).view.loc (c : Thread nD τ)) I q f)
    ((set_pSlab l).trans (rectSlab_eq l))).trans ?_
  refine (pointsTo_biUnion _ _ (fun a _ b _ h => rectP_disjoint_chunks l h)).trans ?_
  refine (bigSep_congr fun t _ => congrArg (fun I => pointsTo ((Memref.whole cc0_scratch0).view.loc (c : Thread nD τ)) I q f)
    (set_pChunk l t).symm).trans ?_
  exact bigSep_dev8 (fun t => piece c (pChunk l t) q f)

/-- Two chunks of a buffer with location `ℓ`, held, are their union held. -/
theorem pointsTo_two {ℓ : Loc nD τ sig} {I J K : Finset (Idx ℓ)} (hK : K = I ∪ J) (hd : Disjoint I J) (q : PosShare TreeShare)
    (f : Buf (Elt F) ℓ) : (ℓ ↦[K]{q} f : sProp 𝕄) = iprop((ℓ ↦[I]{q} f) ∗ ℓ ↦[J]{q} f) := by
  subst hK
  have hu : (ℓ ↦[I ∪ J]{q} f : sProp 𝕄) ⊣⊢ iprop((ℓ ↦[I]{q} f) ∗ ℓ ↦[J]{q} f) := pointsTo_union hd
  exact equiv_iff.mp ⟨hu.1, hu.2⟩

/-- Group `g` of layer `l` of the partial-product buffer held is its two chunks held. -/
theorem pGroup_eq (c : Dev nD) (l : Fin 3) (g : Fin 4) (q : PosShare TreeShare)
    (f : Buf (Elt F) ((Memref.whole cc0_scratch0).view.loc (c : Thread nD τ))) (t0 t1 : Dev nD)
    (h0 : t0.val = 2 * g.val) (h1 : t1.val = 2 * g.val + 1) :
    ((pGroup l g).view.loc (c : Thread nD τ) ↦[(pGroup l g).view.set]{q} f : sProp 𝕄)
      = iprop(piece c (pChunk l t0) q f ∗ piece c (pChunk l t1) q f) :=
  pointsTo_two (ℓ := (Memref.whole cc0_scratch0).view.loc (c : Thread nD τ))
    ((set_pGroup l g).trans ((rectGrp_eq l g t0 t1 h0 h1).trans (by rw [set_pChunk, set_pChunk])))
    (by rw [set_pChunk, set_pChunk]; exact rectP_disjoint_chunks l (fun e => by rw [e] at h0; omega)) q f

/-- Group `g` of layer `l` of the gather buffer held is its two chunks held. -/
theorem gGroup_eq (c : Dev nD) (l : Fin 3) (g : Fin 4) (q : PosShare TreeShare)
    (f : Buf (Elt F) ((Memref.whole cc0_scratch2).view.loc (c : Thread nD τ))) (t0 t1 : Dev nD)
    (h0 : t0.val = 2 * g.val) (h1 : t1.val = 2 * g.val + 1) :
    ((gGroup l g).view.loc (c : Thread nD τ) ↦[(gGroup l g).view.set]{q} f : sProp 𝕄)
      = iprop(piece c (gChunk l t0) q f ∗ piece c (gChunk l t1) q f) :=
  pointsTo_two (ℓ := (Memref.whole cc0_scratch2).view.loc (c : Thread nD τ))
    ((set_gGroup l g).trans ((rectGrp_eq l g t0 t1 h0 h1).trans (by rw [set_gChunk, set_gChunk])))
    (by rw [set_gChunk, set_gChunk]; exact rectP_disjoint_chunks l (fun e => by rw [e] at h0; omega)) q f

/-! ## The four groups of a layer, with their chunks named -/

theorem pGroup0_eq (c : Dev nD) (l : Fin 3) (q : PosShare TreeShare) (f : Buf (Elt F) ((Memref.whole cc0_scratch0).view.loc (c : Thread nD τ))) :
    ((pGroup l 0).view.loc (c : Thread nD τ) ↦[(pGroup l 0).view.set]{q} f : sProp 𝕄) = iprop(piece c (pChunk l 0) q f ∗ piece c (pChunk l 1) q f) :=
  pGroup_eq c l 0 q f 0 1 rfl rfl
theorem pGroup1_eq (c : Dev nD) (l : Fin 3) (q : PosShare TreeShare) (f : Buf (Elt F) ((Memref.whole cc0_scratch0).view.loc (c : Thread nD τ))) :
    ((pGroup l 1).view.loc (c : Thread nD τ) ↦[(pGroup l 1).view.set]{q} f : sProp 𝕄) = iprop(piece c (pChunk l 2) q f ∗ piece c (pChunk l 3) q f) :=
  pGroup_eq c l 1 q f 2 3 rfl rfl
theorem pGroup2_eq (c : Dev nD) (l : Fin 3) (q : PosShare TreeShare) (f : Buf (Elt F) ((Memref.whole cc0_scratch0).view.loc (c : Thread nD τ))) :
    ((pGroup l 2).view.loc (c : Thread nD τ) ↦[(pGroup l 2).view.set]{q} f : sProp 𝕄) = iprop(piece c (pChunk l 4) q f ∗ piece c (pChunk l 5) q f) :=
  pGroup_eq c l 2 q f 4 5 rfl rfl
theorem pGroup3_eq (c : Dev nD) (l : Fin 3) (q : PosShare TreeShare) (f : Buf (Elt F) ((Memref.whole cc0_scratch0).view.loc (c : Thread nD τ))) :
    ((pGroup l 3).view.loc (c : Thread nD τ) ↦[(pGroup l 3).view.set]{q} f : sProp 𝕄) = iprop(piece c (pChunk l 6) q f ∗ piece c (pChunk l 7) q f) :=
  pGroup_eq c l 3 q f 6 7 rfl rfl

theorem gGroup0_eq (c : Dev nD) (l : Fin 3) (q : PosShare TreeShare) (f : Buf (Elt F) ((Memref.whole cc0_scratch2).view.loc (c : Thread nD τ))) :
    ((gGroup l 0).view.loc (c : Thread nD τ) ↦[(gGroup l 0).view.set]{q} f : sProp 𝕄) = iprop(piece c (gChunk l 0) q f ∗ piece c (gChunk l 1) q f) :=
  gGroup_eq c l 0 q f 0 1 rfl rfl
theorem gGroup1_eq (c : Dev nD) (l : Fin 3) (q : PosShare TreeShare) (f : Buf (Elt F) ((Memref.whole cc0_scratch2).view.loc (c : Thread nD τ))) :
    ((gGroup l 1).view.loc (c : Thread nD τ) ↦[(gGroup l 1).view.set]{q} f : sProp 𝕄) = iprop(piece c (gChunk l 2) q f ∗ piece c (gChunk l 3) q f) :=
  gGroup_eq c l 1 q f 2 3 rfl rfl
theorem gGroup2_eq (c : Dev nD) (l : Fin 3) (q : PosShare TreeShare) (f : Buf (Elt F) ((Memref.whole cc0_scratch2).view.loc (c : Thread nD τ))) :
    ((gGroup l 2).view.loc (c : Thread nD τ) ↦[(gGroup l 2).view.set]{q} f : sProp 𝕄) = iprop(piece c (gChunk l 4) q f ∗ piece c (gChunk l 5) q f) :=
  gGroup_eq c l 2 q f 4 5 rfl rfl
theorem gGroup3_eq (c : Dev nD) (l : Fin 3) (q : PosShare TreeShare) (f : Buf (Elt F) ((Memref.whole cc0_scratch2).view.loc (c : Thread nD τ))) :
    ((gGroup l 3).view.loc (c : Thread nD τ) ↦[(gGroup l 3).view.set]{q} f : sProp 𝕄) = iprop(piece c (gChunk l 6) q f ∗ piece c (gChunk l 7) q f) :=
  gGroup_eq c l 3 q f 6 7 rfl rfl

/-! ## The same as entailments, for handing a slab or a group over and taking it back -/

theorem pSlab_split (c : Dev nD) (l : Fin 3) (q : PosShare TreeShare) (f : Buf (Elt F) ((Memref.whole cc0_scratch0).view.loc (c : Thread nD τ))) :
    ((pSlab l).view.loc (c : Thread nD τ) ↦[(pSlab l).view.set]{q} f : sProp 𝕄)
      ⊢ iprop(piece c (pChunk l 0) q f ∗ piece c (pChunk l 1) q f ∗ piece c (pChunk l 2) q f ∗ piece c (pChunk l 3) q f
          ∗ piece c (pChunk l 4) q f ∗ piece c (pChunk l 5) q f ∗ piece c (pChunk l 6) q f ∗ piece c (pChunk l 7) q f) :=
  Entails.of_eq (pSlab_eq c l q f)
theorem pSlab_join (c : Dev nD) (l : Fin 3) (q : PosShare TreeShare) (f : Buf (Elt F) ((Memref.whole cc0_scratch0).view.loc (c : Thread nD τ))) :
    iprop(piece c (pChunk l 0) q f ∗ piece c (pChunk l 1) q f ∗ piece c (pChunk l 2) q f ∗ piece c (pChunk l 3) q f
          ∗ piece c (pChunk l 4) q f ∗ piece c (pChunk l 5) q f ∗ piece c (pChunk l 6) q f ∗ piece c (pChunk l 7) q f)
      ⊢ ((pSlab l).view.loc (c : Thread nD τ) ↦[(pSlab l).view.set]{q} f : sProp 𝕄) :=
  Entails.of_eq (pSlab_eq c l q f).symm
theorem pGroup_split (c : Dev nD) (l : Fin 3) (g : Fin 4) (q : PosShare TreeShare)
    (f : Buf (Elt F) ((Memref.whole cc0_scratch0).view.loc (c : Thread nD τ))) (t0 t1 : Dev nD)
    (h0 : t0.val = 2 * g.val) (h1 : t1.val = 2 * g.val + 1) :
    ((pGroup l g).view.loc (c : Thread nD τ) ↦[(pGroup l g).view.set]{q} f : sProp 𝕄)
      ⊢ iprop(piece c (pChunk l t0) q f ∗ piece c (pChunk l t1) q f) := Entails.of_eq (pGroup_eq c l g q f t0 t1 h0 h1)
theorem pGroup_join (c : Dev nD) (l : Fin 3) (g : Fin 4) (q : PosShare TreeShare)
    (f : Buf (Elt F) ((Memref.whole cc0_scratch0).view.loc (c : Thread nD τ))) (t0 t1 : Dev nD)
    (h0 : t0.val = 2 * g.val) (h1 : t1.val = 2 * g.val + 1) :
    iprop(piece c (pChunk l t0) q f ∗ piece c (pChunk l t1) q f)
      ⊢ ((pGroup l g).view.loc (c : Thread nD τ) ↦[(pGroup l g).view.set]{q} f : sProp 𝕄) := Entails.of_eq (pGroup_eq c l g q f t0 t1 h0 h1).symm
theorem gGroup_split (c : Dev nD) (l : Fin 3) (g : Fin 4) (q : PosShare TreeShare)
    (f : Buf (Elt F) ((Memref.whole cc0_scratch2).view.loc (c : Thread nD τ))) (t0 t1 : Dev nD)
    (h0 : t0.val = 2 * g.val) (h1 : t1.val = 2 * g.val + 1) :
    ((gGroup l g).view.loc (c : Thread nD τ) ↦[(gGroup l g).view.set]{q} f : sProp 𝕄)
      ⊢ iprop(piece c (gChunk l t0) q f ∗ piece c (gChunk l t1) q f) := Entails.of_eq (gGroup_eq c l g q f t0 t1 h0 h1)
theorem gGroup_join (c : Dev nD) (l : Fin 3) (g : Fin 4) (q : PosShare TreeShare)
    (f : Buf (Elt F) ((Memref.whole cc0_scratch2).view.loc (c : Thread nD τ))) (t0 t1 : Dev nD)
    (h0 : t0.val = 2 * g.val) (h1 : t1.val = 2 * g.val + 1) :
    iprop(piece c (gChunk l t0) q f ∗ piece c (gChunk l t1) q f)
      ⊢ ((gGroup l g).view.loc (c : Thread nD τ) ↦[(gGroup l g).view.set]{q} f : sProp 𝕄) := Entails.of_eq (gGroup_eq c l g q f t0 t1 h0 h1).symm

end Cert.KernelIdealProof

end
-- ==== Proof.PreludeDevs.lean ====
import proofs.«900993_g7700000000000994_dist_mlpseq_tp1d_rep_bs_b512_d256_h512_v7x_i8_bf16_1_alg».proof.Proof.Prelude

/-! The start of the body on each of the eight devices: the generic statement at the enumeration of the seven devices
    other than it, in increasing order. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The seven devices other than device 0. -/
abbrev lits0 (Φ : Dev nD → sProp 𝕄) : sProp 𝕄 := iprop(Φ 1 ∗ Φ 2 ∗ Φ 3 ∗ Φ 4 ∗ Φ 5 ∗ Φ 6 ∗ Φ 7)

theorem prelude_dev0 (K : GSem nD τ sig → ℕ) (c : Dev nD) (hc : c = 0) : bodyPre m K c ⊢ ctx m K c lits0 1 2 3 4 5 6 7 :=
  prelude m K c lits0 (fun Φ => by subst hc; exact bigSep_peers_0 Φ) 1 2 3 4 5 6 7 (fun l => by subst hc; exact owesRed_0 l)

/-- The seven devices other than device 1. -/
abbrev lits1 (Φ : Dev nD → sProp 𝕄) : sProp 𝕄 := iprop(Φ 0 ∗ Φ 2 ∗ Φ 3 ∗ Φ 4 ∗ Φ 5 ∗ Φ 6 ∗ Φ 7)

theorem prelude_dev1 (K : GSem nD τ sig → ℕ) (c : Dev nD) (hc : c = 1) : bodyPre m K c ⊢ ctx m K c lits1 0 2 3 4 5 6 7 :=
  prelude m K c lits1 (fun Φ => by subst hc; exact bigSep_peers_1 Φ) 0 2 3 4 5 6 7 (fun l => by subst hc; exact owesRed_1 l)

/-- The seven devices other than device 2. -/
abbrev lits2 (Φ : Dev nD → sProp 𝕄) : sProp 𝕄 := iprop(Φ 0 ∗ Φ 1 ∗ Φ 3 ∗ Φ 4 ∗ Φ 5 ∗ Φ 6 ∗ Φ 7)

theorem prelude_dev2 (K : GSem nD τ sig → ℕ) (c : Dev nD) (hc : c = 2) : bodyPre m K c ⊢ ctx m K c lits2 0 1 3 4 5 6 7 :=
  prelude m K c lits2 (fun Φ => by subst hc; exact bigSep_peers_2 Φ) 0 1 3 4 5 6 7 (fun l => by subst hc; exact owesRed_2 l)

/-- The seven devices other than device 3. -/
abbrev lits3 (Φ : Dev nD → sProp 𝕄) : sProp 𝕄 := iprop(Φ 0 ∗ Φ 1 ∗ Φ 2 ∗ Φ 4 ∗ Φ 5 ∗ Φ 6 ∗ Φ 7)

theorem prelude_dev3 (K : GSem nD τ sig → ℕ) (c : Dev nD) (hc : c = 3) : bodyPre m K c ⊢ ctx m K c lits3 0 1 2 4 5 6 7 :=
  prelude m K c lits3 (fun Φ => by subst hc; exact bigSep_peers_3 Φ) 0 1 2 4 5 6 7 (fun l => by subst hc; exact owesRed_3 l)

/-- The seven devices other than device 4. -/
abbrev lits4 (Φ : Dev nD → sProp 𝕄) : sProp 𝕄 := iprop(Φ 0 ∗ Φ 1 ∗ Φ 2 ∗ Φ 3 ∗ Φ 5 ∗ Φ 6 ∗ Φ 7)

theorem prelude_dev4 (K : GSem nD τ sig → ℕ) (c : Dev nD) (hc : c = 4) : bodyPre m K c ⊢ ctx m K c lits4 0 1 2 3 5 6 7 :=
  prelude m K c lits4 (fun Φ => by subst hc; exact bigSep_peers_4 Φ) 0 1 2 3 5 6 7 (fun l => by subst hc; exact owesRed_4 l)

/-- The seven devices other than device 5. -/
abbrev lits5 (Φ : Dev nD → sProp 𝕄) : sProp 𝕄 := iprop(Φ 0 ∗ Φ 1 ∗ Φ 2 ∗ Φ 3 ∗ Φ 4 ∗ Φ 6 ∗ Φ 7)

theorem prelude_dev5 (K : GSem nD τ sig → ℕ) (c : Dev nD) (hc : c = 5) : bodyPre m K c ⊢ ctx m K c lits5 0 1 2 3 4 6 7 :=
  prelude m K c lits5 (fun Φ => by subst hc; exact bigSep_peers_5 Φ) 0 1 2 3 4 6 7 (fun l => by subst hc; exact owesRed_5 l)

/-- The seven devices other than device 6. -/
abbrev lits6 (Φ : Dev nD → sProp 𝕄) : sProp 𝕄 := iprop(Φ 0 ∗ Φ 1 ∗ Φ 2 ∗ Φ 3 ∗ Φ 4 ∗ Φ 5 ∗ Φ 7)

theorem prelude_dev6 (K : GSem nD τ sig → ℕ) (c : Dev nD) (hc : c = 6) : bodyPre m K c ⊢ ctx m K c lits6 0 1 2 3 4 5 7 :=
  prelude m K c lits6 (fun Φ => by subst hc; exact bigSep_peers_6 Φ) 0 1 2 3 4 5 7 (fun l => by subst hc; exact owesRed_6 l)

/-- The seven devices other than device 7. -/
abbrev lits7 (Φ : Dev nD → sProp 𝕄) : sProp 𝕄 := iprop(Φ 0 ∗ Φ 1 ∗ Φ 2 ∗ Φ 3 ∗ Φ 4 ∗ Φ 5 ∗ Φ 6)

theorem prelude_dev7 (K : GSem nD τ sig → ℕ) (c : Dev nD) (hc : c = 7) : bodyPre m K c ⊢ ctx m K c lits7 0 1 2 3 4 5 6 :=
  prelude m K c lits7 (fun Φ => by subst hc; exact bigSep_peers_7 Φ) 0 1 2 3 4 5 6 (fun l => by subst hc; exact owesRed_7 l)

end Cert.KernelIdealProof

end
-- ==== Proof.StepsEntry.lean ====
import proofs.«900993_g7700000000000994_dist_mlpseq_tp1d_rep_bs_b512_d256_h512_v7x_i8_bf16_1_alg».proof.Proof.SchedTables

/-! The two steps of the entry handshake, each as one rule. Device `c` signals one unit onto the barrier cell of each of
    its seven peers: the signal to peer `p` pays `p`'s barrier duty `c` — it hands over that duty's token, that round 0
    of the cell is reached, and what the duty promises `p` (the pieces of `c`'s buffers that `p`'s copies will write, and
    that `c`'s receive cells for them stand at round 0) — and takes the unit off what `c` owes. Then `c` waits seven units
    on its own barrier cell: the whole of round 0, so it comes back at round 1 holding what each of its seven peers
    handed it. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The entry signal to a peer -/

/-- Device `c`'s signal of one unit to the barrier semaphore of its peer `p`: it pays `p`'s barrier duty `c`. -/
theorem wp_entry_signal (𝒱 : Variants) (c p : Dev nD) (h : p ≠ c) (κ : ℕ)
    {dev : Dev nD} (hdev : dev = p) {sem : Sem sig} (hsem : sem = barS) {n : ℕ} (hn : n = 1)
    {α : Type} {kont : PUnit → Prog (TpuEff nD τ sig (Elt F) Λ₀ (c : Thread nD τ).2) α} {Q : α → sProp 𝕄}
    (O : CellTallies nD τ sig Unit) {W : Waits sig Unit} :
    iprop(cellInv ER (sched m) κ (barCell p) ∗ dutyTok ER (barCell p) 0 c ∗ reached ER (barCell p) 0 ∗ barPay (F := F) p c
        ∗ owes (c : Thread nD τ) (O + tallyAt (barCell p) () 1) W)
      ⊢ iprop((owes (c : Thread nD τ) O W -∗ wp frame (wpE (defs₀ (F := F)) 𝒱 (c : Thread nD τ) none) Set.univ (kont ⟨⟩) Q)
          -∗ wp frame (wpE (defs₀ (F := F)) 𝒱 (c : Thread nD τ) none) Set.univ
              (.op (.semSignal ((dev, (c : Thread nD τ).2) : Thread nD τ) sem n) kont) Q) := by
  subst hdev hsem hn
  iintro ⟨#HI, Htok, #Hr, Hpay, HO⟩ Hk
  iapply (Rounds.wp_signal 𝒱 ER (sched m) (c : Thread nD τ) none (dst := (dev : Thread nD τ)) (sem := barS) (r := 0) (d := c) (k' := 1)
      (κ := κ) (mem_duties_bar m dev c h.symm) (amount_bar m dev c) () O rfl) $$ [HO Htok Hpay]
  · isplitr; · iexact HI
    isplitl [HO]; · iexact HO
    isplitl [Htok]; · iexact Htok
    isplitl [Hpay]; · rw [payload_bar]; iexact Hpay
    iexact Hr
  iexact Hk

/-- The same step as the program writes it: the signal of the word 1, then the rest. -/
theorem wp_entry_signal_word (𝒱 : Variants) (c p : Dev nD) (h : p ≠ c) (κ : ℕ)
    {dev : Dev nD} (hdev : dev = p) {sem : Sem sig} (hsem : sem = barS) {w : BitVec 32} (hw : w = 1#32) {hamt : w.msb = false}
    {α : Type} {kont : PUnit → Prog (TpuEff nD τ sig (Elt F) Λ₀ (c : Thread nD τ).2) α} {Q : α → sProp 𝕄}
    (O : CellTallies nD τ sig Unit) {W : Waits sig Unit} :
    iprop(cellInv ER (sched m) κ (barCell p) ∗ dutyTok ER (barCell p) 0 c ∗ reached ER (barCell p) 0 ∗ barPay (F := F) p c
        ∗ owes (c : Thread nD τ) (O + tallyAt (barCell p) () 1) W)
      ⊢ iprop((owes (c : Thread nD τ) O W -∗ wp frame (wpE (defs₀ (F := F)) 𝒱 (c : Thread nD τ) none) Set.univ (kont ⟨⟩) Q)
          -∗ wp frame (wpE (defs₀ (F := F)) 𝒱 (c : Thread nD τ) none) Set.univ
              ((semSignalWord dev sem w hamt).bind kont) Q) := by
  subst hw
  exact wp_entry_signal m 𝒱 c p h κ hdev hsem rfl O

/-! ## The wait for the seven entry signals -/

/-- Device `c`'s wait of seven units on its barrier semaphore: the whole of round 0 of its barrier cell. -/
theorem wp_bar_wait (𝒱 : Variants) (c : Dev nD) (κ : ℕ) {sem : Sem sig} (hsem : sem = barS) {n : ℕ} (hn : n = 7)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (barCell c) ∗ cred (tallyAt (barCell c) () 7) ∗ owes (c : Thread nD τ) O W
        ∗ MayWait (c : Thread nD τ) (.reg barS) () O ∗ atPos ER (barCell c) 0 ∅ 0)
      ⊢ iprop(((owes (c : Thread nD τ) O (insert (.reg barS, ()) W) ∗ atPos ER (barCell c) 1 ∅ 0 ∗ reached ER (barCell c) 1
              ∗ bigSep (peers c) (fun p => barPay (F := F) c p))
            -∗ wp frame (wpE (defs₀ (F := F)) 𝒱 (c : Thread nD τ) none) Set.univ (kont ⟨⟩) Q)
          -∗ wp frame (wpE (defs₀ (F := F)) 𝒱 (c : Thread nD τ) none) Set.univ (.op (.semWait sem n) kont) Q) := by
  subst hsem hn
  iintro ⟨#HI, Hc, HO, #Hmw, Hat⟩ Hk
  iapply (Rounds.wp_wait_rest_token 𝒱 ER (sched m) (c : Thread nD τ) none (κ := κ) (sm := .reg barS) (k' := 7)
      (fun K => wpE_semWait_eq 𝒱 (c : Thread nD τ) none Set.univ K) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iexact Hmw
    iexact Hat
  iintro ⟨HO, Hat, Hr, Hrest⟩
  iapply Hk
  isplitl [HO]; · iexact HO
  isplitl [Hat]; · iexact Hat
  isplitl [Hr]; · iexact Hr
  rw [← rest_bar m c]
  iexact Hrest

/-- The same step as the program writes it: the wait for the word 7, then the rest. -/
theorem wp_bar_wait_word (𝒱 : Variants) (c : Dev nD) (κ : ℕ) {sem : Sem sig} (hsem : sem = barS) {w : BitVec 32} (hw : w = 7#32)
    {hamt : w.msb = false}
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (barCell c) ∗ cred (tallyAt (barCell c) () 7) ∗ owes (c : Thread nD τ) O W
        ∗ MayWait (c : Thread nD τ) (.reg barS) () O ∗ atPos ER (barCell c) 0 ∅ 0)
      ⊢ iprop(((owes (c : Thread nD τ) O (insert (.reg barS, ()) W) ∗ atPos ER (barCell c) 1 ∅ 0 ∗ reached ER (barCell c) 1
              ∗ bigSep (peers c) (fun p => barPay (F := F) c p))
            -∗ wp frame (wpE (defs₀ (F := F)) 𝒱 (c : Thread nD τ) none) Set.univ (kont ⟨⟩) Q)
          -∗ wp frame (wpE (defs₀ (F := F)) 𝒱 (c : Thread nD τ) none) Set.univ ((semWaitWord sem w hamt).bind kont) Q) := by
  subst hw
  exact wp_bar_wait m 𝒱 c κ hsem rfl

/-- info: 'Cert.KernelIdealProof.wp_entry_signal' depends on axioms: [propext, Classical.choice, Quot.sound] -/
#guard_msgs in #print axioms wp_entry_signal

/-- info: 'Cert.KernelIdealProof.wp_bar_wait' depends on axioms: [propext, Classical.choice, Quot.sound] -/
#guard_msgs in #print axioms wp_bar_wait

end Cert.KernelIdealProof

end
-- ==== Proof.Outro.lean ====
import proofs.«900993_g7700000000000994_dist_mlpseq_tp1d_rep_bs_b512_d256_h512_v7x_i8_bf16_1_alg».proof.Proof.Prelude
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.BodyMid

/-! The device's positions at the end of its body, put back together as the family over the kinds of cell that closing
    the cells reads: a cell whose round had duties stands after the round, a cell without duties where it started. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

universe u

variable {F : FTy → Type} [FloatOps F]
local notation "𝕄" => MT nD τ sig Unit (Elt F) ℕ UU ℕ
variable (m : (ℓ : Loc nD τ sig) → Buf (Elt F) ℓ)

section Congr
variable {M : Type u} [URA M]

/-- Two families that agree on the peers of `c` have the same conjunction over them, in whatever enumeration. -/
theorem peers_congr (c : Dev nD) (Y : (Dev nD → sProp M) → sProp M) (hY : ∀ Φ, bigSep (peers c) Φ = Y Φ) {Φ Ψ : Dev nD → sProp M}
    (h : ∀ s, s ≠ c → Φ s = Ψ s) : Y Φ = Y Ψ := by
  rw [← hY, ← hY]; exact bigSep_congr fun s hs => h s ((mem_peers c s).mp hs)

theorem kindsUsed_congr (c : Dev nD) (X : (Dev nD → sProp M) → sProp M) (hX : ∀ Φ, bigSep (peers c) Φ = X Φ) {Φ Ψ : CK → sProp M}
    (h_rs : ∀ l, Φ (.rs l) = Ψ (.rs l)) (h_rr : ∀ l s, s ≠ c → Φ (.rr l s) = Ψ (.rr l s))
    (h_gs : ∀ l : Fin 3, l.val < 2 → Φ (.gs l) = Ψ (.gs l)) (h_gr : ∀ (l : Fin 3) s, l.val < 2 → s ≠ c → Φ (.gr l s) = Ψ (.gr l s)) :
    kindsUsed c X Φ = kindsUsed c X Ψ := by
  unfold kindsUsed
  rw [h_rs 0, h_rs 1, h_rs 2, h_gs 0 (by decide), h_gs 1 (by decide),
    peers_congr c (alongB c) (alongB_eq c) (Φ := fun s => Φ (.rr 0 s)) (Ψ := fun s => Ψ (.rr 0 s)) (h_rr 0),
    peers_congr c (alongB c) (alongB_eq c) (Φ := fun s => Φ (.rr 1 s)) (Ψ := fun s => Ψ (.rr 1 s)) (h_rr 1),
    peers_congr c (alongB c) (alongB_eq c) (Φ := fun s => Φ (.rr 2 s)) (Ψ := fun s => Ψ (.rr 2 s)) (h_rr 2),
    peers_congr c X hX (Φ := fun s => Φ (.gr 0 s)) (Ψ := fun s => Ψ (.gr 0 s)) (fun s hs => h_gr 0 s (by decide) hs),
    peers_congr c X hX (Φ := fun s => Φ (.gr 1 s)) (Ψ := fun s => Ψ (.gr 1 s)) (fun s hs => h_gr 1 s (by decide) hs)]

theorem kindsUnused_congr (c : Dev nD) {Φ Ψ : CK → sProp M}
    (h_rr : ∀ l, Φ (.rr l c) = Ψ (.rr l c)) (h_gs : Φ (.gs 2) = Ψ (.gs 2))
    (h_gr : ∀ l : Fin 3, Φ (.gr l c) = Ψ (.gr l c)) (h_g2 : ∀ s, Φ (.gr 2 s) = Ψ (.gr 2 s)) :
    kindsUnused c Φ = kindsUnused c Ψ := by
  unfold kindsUnused
  rw [h_rr 0, h_rr 1, h_rr 2, h_gs, h_gr 0, h_gr 1, bigSep_congr (Φ := fun s => Φ (.gr 2 s)) (Ψ := fun s => Ψ (.gr 2 s)) fun s _ => h_g2 s]

end Congr

/-- The family of positions that closing the cells reads, grouped: the cells with duties after their round, the cells
    without duties at their start. -/
theorem pos_done_eq (c : Dev nD) (X : (Dev nD → sProp 𝕄) → sProp 𝕄) (hX : ∀ Φ, bigSep (peers c) Φ = X Φ) :
    bigSep ((Finset.univ : Finset CK).erase .bar)
        (fun k => (atPos ER (kcell c k) (if ((sched (F := F) m).duties (kcell c k) 0).Nonempty then 1 else 0) ∅ 0 : sProp 𝕄))
      = iprop(kindsUsed c X (fun k => (atPos ER (kcell c k) 1 ∅ 0 : sProp 𝕄)) ∗ posRest c) := by
  have hp : (peers c).Nonempty := by rw [← Finset.card_pos, card_peers]; decide
  have used : ∀ k, ((sched (F := F) m).duties (kcell c k) 0).Nonempty →
      (atPos ER (kcell c k) (if ((sched (F := F) m).duties (kcell c k) 0).Nonempty then 1 else 0) ∅ 0 : sProp 𝕄) = atPos ER (kcell c k) 1 ∅ 0 :=
    fun k h => by rw [if_pos h]
  have unused : ∀ k, (sched (F := F) m).duties (kcell c k) 0 = ∅ →
      (atPos ER (kcell c k) (if ((sched (F := F) m).duties (kcell c k) 0).Nonempty then 1 else 0) ∅ 0 : sProp 𝕄) = atPos ER (kcell c k) 0 ∅ 0 :=
    fun k h => by rw [if_neg (by rw [h]; exact Finset.not_nonempty_empty)]
  rw [kinds_rest_split c X hX]
  congr 1
  · refine kindsUsed_congr c X hX (fun l => used _ ?_) (fun l s hs => used _ ?_) (fun l hl => used _ ?_) (fun l s hl hs => used _ ?_)
    · show ((sched (F := F) m).duties (rsCell c l) 0).Nonempty; rw [duties_rs]; exact hp
    · show ((sched (F := F) m).duties (rrCell c l s) 0).Nonempty; rw [duties_rr m c l s hs]; exact Finset.singleton_nonempty s
    · show ((sched (F := F) m).duties (gsCell c l) 0).Nonempty; rw [duties_gs m c l hl]; exact hp
    · show ((sched (F := F) m).duties (grCell c l s) 0).Nonempty; rw [duties_gr m c l s hl hs]; exact Finset.singleton_nonempty s
  · refine kindsUnused_congr c (fun l => unused _ ?_) (unused _ ?_) (fun l => unused _ ?_) (fun s => unused _ ?_)
    · exact duties_rr_self m c l
    · exact duties_gs_last m c 2 (by decide)
    · exact duties_gr_none m c l c (fun h => h.2 rfl)
    · exact duties_gr_none m c 2 s (fun h => absurd h.1 (by decide))

/-- The positions the three layers leave and those never moved, as the family closing the cells reads. -/
theorem pos_outro (c : Dev nD) (Ts : List (Dev nD)) (hTs : peers c = Ts.toFinset) (hnd : Ts.Nodup) :
    iprop(posDoneRed c 0 ∗ posDoneRed c 1 ∗ posDoneRed c 2 ∗ posDoneGr c Ts 0 ∗ posDoneGr c Ts 1 ∗ posRest c)
      ⊢ bigSep ((Finset.univ : Finset CK).erase .bar)
        (fun k => (atPos ER (kcell c k) (if ((sched (F := F) m).duties (kcell c k) 0).Nonempty then 1 else 0) ∅ 0 : sProp 𝕄)) := by
  rw [pos_done_eq m c (bigSepL Ts) (fun Φ => bigSep_eq_bigSepL_of_eq Ts hTs hnd Φ)]
  unfold posDoneRed posDoneGr
  rw [if_pos (show (0 : Fin 3).val < 2 by decide), if_pos (show (1 : Fin 3).val < 2 by decide), if_neg (show ¬ (2 : Fin 3).val < 2 by decide)]
  show _ ⊢ iprop(((atPos ER (rsCell c 0) 1 ∅ 0 ∗ bigSepL (ringB c) (fun s => (atPos ER (rrCell c 0 s) 1 ∅ 0 : sProp 𝕄)))
      ∗ (atPos ER (rsCell c 1) 1 ∅ 0 ∗ bigSepL (ringB c) (fun s => (atPos ER (rrCell c 1 s) 1 ∅ 0 : sProp 𝕄)))
      ∗ (atPos ER (rsCell c 2) 1 ∅ 0 ∗ bigSepL (ringB c) (fun s => (atPos ER (rrCell c 2 s) 1 ∅ 0 : sProp 𝕄)))
      ∗ (atPos ER (gsCell c 0) 1 ∅ 0 ∗ bigSepL Ts (fun s => (atPos ER (grCell c 0 s) 1 ∅ 0 : sProp 𝕄)))
      ∗ (atPos ER (gsCell c 1) 1 ∅ 0 ∗ bigSepL Ts (fun s => (atPos ER (grCell c 1 s) 1 ∅ 0 : sProp 𝕄)))) ∗ posRest c)
  iintro ⟨⟨s0, r0, g0⟩, ⟨s1, r1, g1⟩, ⟨s2, r2, -⟩, q0, q1, Hr⟩
  iframe

/-- Closing all the transfer cells of a device from the positions the three layers leave. -/
theorem close_from_layers (K : GSem nD τ sig → ℕ) (c : Dev nD) (Ts : List (Dev nD)) (hTs : peers c = Ts.toFinset) (hnd : Ts.Nodup) :
    iprop(invsAll m K ∗ posDoneRed c 0 ∗ posDoneRed c 1 ∗ posDoneRed c 2 ∗ posDoneGr c Ts 0 ∗ posDoneGr c Ts 1 ∗ posRest c)
      ⊢ (iprop(|={Set.univ}=> bigSep ((Finset.univ : Finset CK).erase .bar) (fun k => (semVal (kcell c k) 0 : sProp 𝕄))) : sProp 𝕄) := by
  iintro ⟨#HI, H⟩
  iapply (close_all m K c)
  isplitl []; · iexact HI
  iapply (pos_outro m c Ts hTs hnd)
  iexact H

end Cert.KernelIdealProof

end
-- ==== Proof.BodySegA2Lib.lean ====
import proofs.«900993_g7700000000000994_dist_mlpseq_tp1d_rep_bs_b512_d256_h512_v7x_i8_bf16_1_alg».proof.Proof.BodySegACut
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Outro
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! Tools for the second half of layer 0 on a device — the accumulation of what the seven peers sent, the store of the
    device's reduced rows, the seven gather sends and the waits for the layer's copies to have left —: the value read from
    a slot a copy has landed in, a piece's contents and shares, the buffers put back together, and the single steps of
    the protocol as they are taken on every device alike. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Tools -/

omit [FloatOps F] in
theorem a2_step_uncurry {P R G : sProp 𝕄} (h : P ⊢ iprop(R -∗ G)) : iprop(P ∗ R) ⊢ G := by
  iintro ⟨HP, HR⟩
  ihave H := (h) $$ HP
  iapply H
  iexact HR

theorem a2_bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- What the device still owes after layer 0's gather sends (`Ts` its peers by literal). -/
abbrev a2_rest (c : Dev nD) (Ts : List (Dev nD)) : CellTallies nD τ sig Unit := owesRedL c Ts 1 + owesRedL c Ts 2 + owesGatL c 1

/-- The load of a receive slot in which device `s`'s chunk of layer 0 has just landed reads `s`'s partial product on
    the reader's rows. -/
theorem a2_slot_landed_read (c s : Dev nD) (off : Fin 4 → Nat) (hoff : off = ![0, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 0 s).view.write (Elt F) fd ((pChunk 0 c).view.read (Elt F) (Pfun m s)) Finset.univ)
      = slotOf (P0 m s) c :=
  read_R_slot_landed m c s 0 off hoff inb _ fd (fun i _ => rfl)

/-- A piece held at contents that agree with `g` on it is the piece held at `g`. -/
theorem a2_piece_of_agree (c : Dev nD) {sp : Space} (M : Memref sig .tc sp S64x256 .bf16) (q : PosShare TreeShare)
    {f g : Buf (Elt F) (M.view.loc (c : Thread nD τ))} (h : ∀ i ∈ M.view.set, f i = g i) :
    (M.view.loc (c : Thread nD τ) ↦[M.view.set]{q} f : sProp 𝕄) ⊢ piece c M q g := Entails.of_eq (piece_congr c M q h)

/-- A piece held whole is the piece held at the eight shares, in the order of the ring from the device on. -/
theorem a2_piece_shares_ring (c : Dev nD) {sp : Space} (M : Memref sig .tc sp S64x256 .bf16) (f : Buf (Elt F) (M.view.loc (c : Thread nD τ))) :
    (piece c M fullShare f : sProp 𝕄) = iprop(piece c M (sh8 c) f ∗ piece c M (sh8 (fwd 1 c)) f ∗ piece c M (sh8 (fwd 2 c)) f
      ∗ piece c M (sh8 (fwd 3 c)) f ∗ piece c M (sh8 (fwd 4 c)) f ∗ piece c M (sh8 (fwd 5 c)) f ∗ piece c M (sh8 (fwd 6 c)) f
      ∗ piece c M (sh8 (fwd 7 c)) f) := by
  rw [piece_shares c M f, bigSep_ring c]

/-- A finished program yields its postcondition. -/
theorem a2_wp_ret_of {α : Type} (c : Dev nD) (a : α) (Q : α → sProp 𝕄) :
    Q a ⊢ wp frame (wpE (defs₀ (F := F)) Variants.none (c : Thread nD τ) none) Set.univ (Prog.ret a) Q := by
  rw [wp_ret]; exact fupd_intro

/-- A piece held is held at some contents. -/
theorem a2_ex_of_piece (c : Dev nD) (M : Memref sig .tc .vmem S64x256 .bf16) (f : Buf (Elt F) (M.view.loc (c : Thread nD τ))) :
    (M.view.loc (c : Thread nD τ) ↦[M.view.set]{fullShare} f : sProp 𝕄) ⊢ ex c M := by
  unfold ex piece; iintro H; iexists f; iexact H

/-- The partial-product buffer back whole: the device's own chunk of layer 0, the seven chunks the copies have left,
    and the two later layers. -/
theorem a2_scr0_back (c : Dev nD) :
    iprop(ex c (pChunk 0 c) ∗ bigSep (peers c) (fun t => rsPay m c 0 t)
      ∗ bigSep (Finset.univ : Finset (Dev nD)) (fun t => ex (F := F) c (pChunk 1 t))
      ∗ bigSep (Finset.univ : Finset (Dev nD)) (fun t => ex (F := F) c (pChunk 2 t))) ⊢ (scr c cc0_scratch0 : sProp 𝕄) := by
  have h0 : bigSep (peers c) (fun t => rsPay m c 0 t)
      ⊢ bigSep (peers c) (fun t => (iprop(∃ f, piece c (pChunk 0 t) fullShare f) : sProp 𝕄)) :=
    bigSep_mono fun t _ => piece_ex c (pChunk 0 t) fullShare (Pfun m c)
  refine BIBase.Entails.trans ?_ (scr0_of_pieces c)
  rw [bigSep_univ_prod, bigSep_fin3, bigSep_univ_at (fun t : Dev nD => (iprop(∃ f, piece c (pChunk 0 t) fullShare f) : sProp 𝕄)) c]
  unfold ex
  iintro ⟨H0, Hp, H1, H2⟩
  isplitl [H0 Hp]
  · isplitl [H0]; · iexact H0
    iapply h0; iexact Hp
  isplitl [H1]; · iexact H1
  iexact H2

/-- The device's reduced rows of layer 0 back whole: its own share and the seven the copies were lent. -/
theorem a2_gchunk0_back (c : Dev nD) :
    iprop(piece c (gChunk 0 c) (sh8 c) (Gfun m c) ∗ bigSep (peers c) (fun t => gsPay m c 0 t))
      ⊢ (piece c (gChunk 0 c) fullShare (Gfun m c) : sProp 𝕄) := by
  rw [piece_shares c (gChunk 0 c) (Gfun m c), bigSep_univ_at (fun t => piece c (gChunk 0 c) (sh8 t) (Gfun m c)) c]
  unfold gsPay
  exact .rfl

set_option hygiene false in
/-- One of the first six waits for a reduce copy of layer 0 to have left. -/
macro "a2_rs_wait " k:num cr:ident : tactic => `(tactic| (
  iapply (a2_step_uncurry (wp_rs_step m Variants.none c 0 (K (rsCell c 0)) $k (sem_rs0 _) (by rfl)))
  isplitl [$cr HO Wrs]
  · isplitl []; · iapply (invsAll_at m K c (.rs 0)); iexact HI
    isplitl [$cr]; · iexact $cr
    isplitl [HO]; · iexact HO
    isplitl []; · iapply (mayWait_rs (F := F) c 0 _ haboveR); iexact Hlev
    iexact Wrs
  iintro ⟨HO, Wrs⟩))

set_option hygiene false in
/-- One of the first six waits for a gather copy of layer 0 to have left. -/
macro "a2_gs_wait " k:num cr:ident : tactic => `(tactic| (
  iapply (a2_step_uncurry (wp_gs_step m Variants.none c 0 (K (gsCell c 0)) $k (sem_gs0 _) (by rfl)))
  isplitl [$cr HO Wgs]
  · isplitl []; · iapply (invsAll_at m K c (.gs 0)); iexact HI
    isplitl [$cr]; · iexact $cr
    isplitl [HO]; · iexact HO
    isplitl []; · iapply (mayWait_gs (F := F) c 0 _ haboveR); iexact Hlev
    iexact Wgs
  iintro ⟨HO, Wgs⟩))

set_option hygiene false in
/-- The gather send to the device `j` places after: a share of the device's reduced rows is lent, the peer's chunk given. -/
macro "a2_send " j:num deveq:ident tgs:ident tgr:ident dg:ident fd:ident sh:ident cr:ident : tactic => `(tactic| (
  iapply (a2_step_uncurry (wp_gat_send m Variants.none c (fwd $j c) 0 (by decide) (fwd_ne_nat $j (by decide) (by decide) c)
      (K (gsCell c 0)) (K (grCell (fwd $j c) 0 c)) ($deveq c _) (chunk_off22 c _ _) (chunk_off22 c _ _)
      (congrArg SemLoc.dma (sem_gs0 _)) (congrArg SemLoc.dma (sem_off21 c _)) _ rfl $fd))
  isplitl [$sh $dg HO $tgs $tgr]
  · isplitl []; · iapply (invsAll_at m K c (.gs 0)); iexact HI
    isplitl []; · iapply (invsAll_at m K (fwd $j c) (.gr 0 c)); iexact HI
    isplitl [$sh]; · iexact $sh
    isplitl [$dg]; · unfold piece; iexact $dg
    isplitl [HO]; · iexact HO
    isplitl [$tgs]; · iexact $tgs
    isplitl []; · iapply (reached_at (F := F) c (.gs 0)); iexact HR
    isplitl [$tgr]; · iexact $tgr
    iapply (reached_at (F := F) (fwd $j c) (.gr 0 c)); iexact HR
  iintro ⟨$cr:ident, HO⟩))

set_option hygiene false in
/-- The wait for the chunk of the device `j` places back: the slot comes back holding that device's partial product
    on the reader's rows, over whatever it held. -/
macro "a2_recv " j:num semeq:ident sloteq:ident a:ident cr:ident sl:ident : tactic => `(tactic| (
  iapply (a2_step_uncurry (wp_red_recv m Variants.none c (bwd $j c) 0 (bwd_ne_nat $j (by decide) (by decide) c) (K (rrCell c 0 (bwd $j c))) ($semeq c _)
      ((congrArg (fun M : Memref sig .tc .vmem S64x256 .bf16 => M.view.dmaCredit) ($sloteq c _ _)).trans (rSlot_amount 0 (bwd $j c) (rrS 0 (bwd $j c))))))
  isplitl [$cr HO $a]
  · isplitl []; · iapply (invsAll_at m K c (.rr 0 (bwd $j c))); iexact HI
    isplitl [$cr]; · iexact $cr
    isplitl [HO]; · iexact HO
    isplitl []; · iapply (mayWait_rr (F := F) c 0 (bwd $j c) _ habove); iexact Hlev
    iexact $a
  iintro ⟨HO, $a:ident, -, Hpay_⟩
  unfold rrPay piece
  icases Hpay_ with ⟨%fd_, $sl:ident⟩))

end Cert.KernelIdealProof

end
-- ==== Proof.BodySegA2_d0.lean ====
import proofs.«900993_g7700000000000994_dist_mlpseq_tp1d_rep_bs_b512_d256_h512_v7x_i8_bf16_1_alg».proof.Proof.BodySegA2Lib

/-! The second half of layer 0 on device 0: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(1 : Dev nD), 2, 3, 4, 5, 6, 7] : List (Dev nD))

omit [FloatOps F] in
/-- Everything still owed after layer 0's gather sends is owed to cells above the level of the layer's send cells. -/
theorem above_a2_rest_d0 (c : Dev nD) : Above 3 (a2_rest c Ts) := by
  unfold a2_rest owesRedL owesGatL ringF
  simp only [List.map, List.sum_cons, List.sum_nil]
  owes_above

theorem segA2_sound0 (c : Dev nD) (hc : c = 0) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : ¬ k0_cond9 c = 1#1 := fun h => (cond9_iff c).mp h hc
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : ¬ Scalar.cmpi .ne (Scalar.extui (Scalar.cmpi .ne (Scalar.remsi (Scalar.divsi (Dev.word c) 1#32) 8#32) 0#32)) 0#32 = 1#1 := fun h => (condw0_iff c).mp h hc
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d0 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d0 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound0.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound0.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound0.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound0.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound0.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound0.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound0.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound0.sl.r_2 m c v78 a1 a2 a3 a4 a5) (segA2_sound0.sl.v171 m c a6) (segA2_sound0.sl.v187 m c a7) = red0 m c := by
    intro a1 a2 a3 a4 a5 a6 a7
    unfold segA2_sound0.sl.r_2 segA2_sound0.sl.r_1 segA2_sound0.sl.r
    rw [e91, e107, e123, e139, e155, e171, e187, hv]
    rfl
  have hG0 : ∀ g a1 a2 a3 a4 a5 a6 a7, ∀ i ∈ (gChunk 0 c).view.set, segA2_sound0.sl.G0c_w1 m c v78 g a1 a2 a3 a4 a5 a6 a7 i = Gfun m c i := by
    intro g a1 a2 a3 a4 a5 a6 a7 i hi
    unfold segA2_sound0.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelIdealProof

end
-- ==== Proof.BodySegB2_d0.lean ====
import proofs.«900993_g7700000000000994_dist_mlpseq_tp1d_rep_bs_b512_d256_h512_v7x_i8_bf16_1_alg».proof.Proof.BodySegBCut
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 1 on the device at position 0: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound0 (c : Dev nD) (hc : c = 0) (K : GSem nD τ sig → ℕ) (Kt : PUnit → sProp 𝕄) (v463 : FVec F S64x256 .f32) (v466 : BitVec 32) :
    iprop(midB m K c [(1 : Dev nD), 2, 3, 4, 5, 6, 7] v463 ∗ (mid2 m K c [(1 : Dev nD), 2, 3, 4, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : ¬ k0_cond33 c = 1#1 := fun h => (cond33_iff c).mp h hc
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(1 : Dev nD), 2, 3, 4, 5, 6, 7] 2) := by
    unfold owesRedL
    simp only [List.map_cons, List.map_nil, List.sum_cons, List.sum_nil]
    owes_above
  have hdebt : owesRedL c [(1 : Dev nD), 2, 3, 4, 5, 6, 7] 2 + owesGatL c 1
      = owesRedL c [(1 : Dev nD), 2, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(1 : Dev nD), 2, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound0.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound0.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound0.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound0.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound0.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound0.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound0.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound0.sl.r_2 m c a1 a2 a3 a4 a5 a6) (segB2_sound0.sl.v572 m c a7) = red1 m c := by
    intro a1 a2 a3 a4 a5 a6 a7
    unfold segB2_sound0.sl.r_2 segB2_sound0.sl.r_1 segB2_sound0.sl.r
    rw [e476, e492, e508, e524, e540, e556, e572]
    rfl
  have hG1 : ∀ i ∈ (gChunk 1 c).view.set, segB2_sound0.sl.G1c_w1 m c g1 fs1 fs2 fs3 fs4 fs5 fs6 fs7 i = Gfun m c i := by
    intro i hi
    unfold segB2_sound0.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelIdealProof.segB2_sound0' depends on axioms: [propext, Classical.choice, Quot.sound] -/
#guard_msgs in #print axioms segB2_sound0

end Cert.KernelIdealProof

end
-- ==== Proof.BodySegC1Lib.lean ====
import proofs.«900993_g7700000000000994_dist_mlpseq_tp1d_rep_bs_b512_d256_h512_v7x_i8_bf16_1_alg».proof.Proof.BodyMid
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.StepsEntry
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.LitTable
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Groups
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import proofs.«900993_g7700000000000994_dist_mlpseq_tp1d_rep_bs_b512_d256_h512_v7x_i8_bf16_1_alg».proof.Proof.SchedInst
import Idealize.ShloMosaic.Lib.Tactic

/-! What layer 2's first half needs on every device, whichever its place: restating a staged buffer through the whole
    memref's view and back; the partial-product buffer cut into its 24 chunks; a gathered chunk in which a peer's rows
    have landed as the canonical activation; each of the four 128-row groups of layer 2, as the body stores it — the
    layer's payload applied to the staged weights and the gathered group —, as the device's partial product on that
    group; and the peers' receive slots for layer 2 kept as one family, handed out one peer at a time. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- A whole buffer held at named contents, restated through the whole memref's view. -/
theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  iapply (Entails.of_eq (congrArg (fun I => pointsTo ((c : Thread nD τ).loc b) I fullShare f) (View.set_whole b).symm))
  iexact H

omit [FloatOps F] in
/-- A family over seven listed indices, one by one. -/
theorem sepL7 {I : Type} (a b c d e f g : I) (Φ : I → sProp 𝕄) :
    bigSepL [a, b, c, d, e, f, g] Φ = iprop(Φ a ∗ Φ b ∗ Φ c ∗ Φ d ∗ Φ e ∗ Φ f ∗ Φ g) := rfl

/-- A chunk of the gather buffer in which a peer's rows have landed holds the canonical function. -/
theorem grPay_canon (c s : Dev nD) (l : Fin 3) : (grPay m c l s : sProp 𝕄) ⊢ piece c (gChunk l s) fullShare (Gfun m c) := by
  unfold grPay
  iintro ⟨%fd, H⟩
  iapply (Entails.of_eq (piece_congr c (gChunk l s) fullShare (landed_gather m c s l _ fd fun i _ => rfl)))
  iexact H

/-- The partial-product buffer held whole at some contents is its 24 chunks held at those contents. -/
theorem scr0_cut (c : Dev nD) : (scr c cc0_scratch0 : sProp 𝕄)
    ⊢ iprop(∃ f : Buf (Elt F) ((Memref.whole cc0_scratch0).view.loc (c : Thread nD τ)),
        (piece c (pChunk 0 0) fullShare f ∗ piece c (pChunk 0 1) fullShare f ∗ piece c (pChunk 0 2) fullShare f ∗ piece c (pChunk 0 3) fullShare f ∗ piece c (pChunk 0 4) fullShare f ∗ piece c (pChunk 0 5) fullShare f ∗ piece c (pChunk 0 6) fullShare f ∗ piece c (pChunk 0 7) fullShare f)
        ∗ (piece c (pChunk 1 0) fullShare f ∗ piece c (pChunk 1 1) fullShare f ∗ piece c (pChunk 1 2) fullShare f ∗ piece c (pChunk 1 3) fullShare f ∗ piece c (pChunk 1 4) fullShare f ∗ piece c (pChunk 1 5) fullShare f ∗ piece c (pChunk 1 6) fullShare f ∗ piece c (pChunk 1 7) fullShare f)
        ∗ (piece c (pChunk 2 0) fullShare f ∗ piece c (pChunk 2 1) fullShare f ∗ piece c (pChunk 2 2) fullShare f ∗ piece c (pChunk 2 3) fullShare f ∗ piece c (pChunk 2 4) fullShare f ∗ piece c (pChunk 2 5) fullShare f ∗ piece c (pChunk 2 6) fullShare f ∗ piece c (pChunk 2 7) fullShare f)) := by
  unfold scr
  iintro ⟨%f, H⟩
  iexists f
  iapply (Entails.of_eq (bigSep_layers_devs fun a : Fin 3 × Dev nD => (piece c (pChunk a.1 a.2) fullShare f : sProp 𝕄)))
  iapply (whole0_split c fullShare f)
  iapply (Entails.of_eq (congrArg (fun I => pointsTo ((c : Thread nD τ).loc cc0_scratch0) I fullShare f) (View.set_whole cc0_scratch0).symm))
  iexact H

omit [FloatOps F] in
theorem hz2 : (![0, 0] : Fin 2 → Nat) = fun _ => 0 := funext fun a => by fin_cases a <;> rfl
omit [FloatOps F] in
/-- A load of the whole of an argument's staging buffer returns its contents. -/
theorem read_stg5 (f : (cc0_stg5_0 : Ref sig .tc).ty.Contents (Elt F)) :
    (Memref.whole cc0_stg5_0 : Memref sig .tc .vmem S256x512 .f32).view.readAt (Elt F)
      (Rect.unit (s := S256x512) ![0, 0] S256x512.size inb_S256x512_S256x512_0_0).toLoadRect f = f :=
  Memref.readAt_unit_zero (Elt F) cc0_stg5_0 hz2 _ f
omit [FloatOps F] in
theorem read_stg6 (f : (cc0_stg6_0 : Ref sig .tc).ty.Contents (Elt F)) :
    (Memref.whole cc0_stg6_0 : Memref sig .tc .vmem S512x256 .f32).view.readAt (Elt F)
      (Rect.unit (s := S512x256) ![0, 0] S512x256.size inb_S512x256_S512x256_0_0).toLoadRect f = f :=
  Memref.readAt_unit_zero (Elt F) cc0_stg6_0 hz2 _ f

/-- The arrival of device `c`'s chunk of layer 2 at device `t`, as a tally. -/
abbrev T2 (c t : Dev nD) : CellTallies nD τ sig Unit := tallyAt (rrCell t 2 c) () N64

omit [FloatOps F] in
/-- The elements of a 128-row group of the partial-product buffer are those of the access at its offsets. -/
theorem pGroup_set_access (l : Fin 3) (g : Fin 4) (off : Fin 3 → Nat) (hoff : off = ![l.val, 128 * g.val, 0])
    (inb : ∀ a, off a + S1x128x256.size a ≤ S3x512x256.size a) :
    (pGroup l g).view.set = ((Memref.whole cc0_scratch0).access (Rect.unit (s := S3x512x256) off S1x128x256.size inb)).set := by
  subst hoff; rfl

/-- Group 0 of layer 2, as stored, holds the device's partial product. -/
theorem grp0_canon (c : Dev nD) (f0 : Buf (Elt F) ((c : Thread nD τ).loc cc0_scratch0)) :
    ∀ i ∈ (pGroup 2 0).view.set,
      View.write (Elt F) ((Memref.whole cc0_scratch0).access (Rect.unit (s := S3x512x256) ![2, 0, 0] S1x128x256.size inb_S3x512x256_S1x128x256_2_0_0)) f0
        (k0_pay21
          (View.readAt (Elt F) (Memref.whole cc0_stg5_0 : Memref sig .tc .vmem S256x512 .f32).view
            (Rect.unit (s := S256x512) ![0, 0] S256x512.size inb_S256x512_S256x512_0_0).toLoadRect (argW m c 2))
          (View.readAt (Elt F) (Memref.whole cc0_stg6_0 : Memref sig .tc .vmem S512x256 .f32).view
            (Rect.unit (s := S512x256) ![0, 0] S512x256.size inb_S512x256_S512x256_0_0).toLoadRect (argV m c 2))
          (View.readAt (Elt F) (Memref.whole cc0_scratch2 : Memref sig .tc .vmem S3x512x256 .bf16).view
            (Rect.unit (s := S3x512x256) ![1, 0, 0] S1x128x256.size inb_S3x512x256_S1x128x256_1_0_0).toLoadRect (Gfun m c)))
        Finset.univ i = Pfun m c i := by
  intro i hi
  rw [read_stg5, read_stg6, read_G_group m c 1 0 ![1, 0, 0] rfl inb_S3x512x256_S1x128x256_1_0_0]
  have hi' := (pGroup_set_access 2 0 ![2, 0, 0] rfl inb_S3x512x256_S1x128x256_2_0_0) ▸ hi
  exact write_P2grp m c 0 f0 ![2, 0, 0] rfl inb_S3x512x256_S1x128x256_2_0_0 i hi'

/-- Group 1 of layer 2, as stored, holds the device's partial product. -/
theorem grp1_canon (c : Dev nD) (f0 : Buf (Elt F) ((c : Thread nD τ).loc cc0_scratch0)) :
    ∀ i ∈ (pGroup 2 1).view.set,
      View.write (Elt F) ((Memref.whole cc0_scratch0).access (Rect.unit (s := S3x512x256) ![2, 128, 0] S1x128x256.size inb_S3x512x256_S1x128x256_2_128_0)) f0
        (k0_pay22
          (k0_pay19 (View.readAt (Elt F) (Memref.whole cc0_stg5_0 : Memref sig .tc .vmem S256x512 .f32).view
            (Rect.unit (s := S256x512) ![0, 0] S256x512.size inb_S256x512_S256x512_0_0).toLoadRect (argW m c 2)))
          (k0_pay20 (View.readAt (Elt F) (Memref.whole cc0_stg6_0 : Memref sig .tc .vmem S512x256 .f32).view
            (Rect.unit (s := S512x256) ![0, 0] S512x256.size inb_S512x256_S512x256_0_0).toLoadRect (argV m c 2)))
          (View.readAt (Elt F) (Memref.whole cc0_scratch2 : Memref sig .tc .vmem S3x512x256 .bf16).view
            (Rect.unit (s := S3x512x256) ![1, 128, 0] S1x128x256.size inb_S3x512x256_S1x128x256_1_128_0).toLoadRect (Gfun m c)))
        Finset.univ i = Pfun m c i := by
  intro i hi
  rw [read_stg5, read_stg6, read_G_group m c 1 1 ![1, 128, 0] rfl inb_S3x512x256_S1x128x256_1_128_0]
  have hi' := (pGroup_set_access 2 1 ![2, 128, 0] rfl inb_S3x512x256_S1x128x256_2_128_0) ▸ hi
  exact write_P2grp m c 1 f0 ![2, 128, 0] rfl inb_S3x512x256_S1x128x256_2_128_0 i hi'

/-- Group 2 of layer 2, as stored, holds the device's partial product. -/
theorem grp2_canon (c : Dev nD) (f0 : Buf (Elt F) ((c : Thread nD τ).loc cc0_scratch0)) :
    ∀ i ∈ (pGroup 2 2).view.set,
      View.write (Elt F) ((Memref.whole cc0_scratch0).access (Rect.unit (s := S3x512x256) ![2, 256, 0] S1x128x256.size inb_S3x512x256_S1x128x256_2_256_0)) f0
        (k0_pay23
          (k0_pay19 (View.readAt (Elt F) (Memref.whole cc0_stg5_0 : Memref sig .tc .vmem S256x512 .f32).view
            (Rect.unit (s := S256x512) ![0, 0] S256x512.size inb_S256x512_S256x512_0_0).toLoadRect (argW m c 2)))
          (k0_pay20 (View.readAt (Elt F) (Memref.whole cc0_stg6_0 : Memref sig .tc .vmem S512x256 .f32).view
            (Rect.unit (s := S512x256) ![0, 0] S512x256.size inb_S512x256_S512x256_0_0).toLoadRect (argV m c 2)))
          (View.readAt (Elt F) (Memref.whole cc0_scratch2 : Memref sig .tc .vmem S3x512x256 .bf16).view
            (Rect.unit (s := S3x512x256) ![1, 256, 0] S1x128x256.size inb_S3x512x256_S1x128x256_1_256_0).toLoadRect (Gfun m c)))
        Finset.univ i = Pfun m c i := by
  intro i hi
  rw [read_stg5, read_stg6, read_G_group m c 1 2 ![1, 256, 0] rfl inb_S3x512x256_S1x128x256_1_256_0]
  have hi' := (pGroup_set_access 2 2 ![2, 256, 0] rfl inb_S3x512x256_S1x128x256_2_256_0) ▸ hi
  exact write_P2grp m c 2 f0 ![2, 256, 0] rfl inb_S3x512x256_S1x128x256_2_256_0 i hi'

/-- Group 3 of layer 2, as stored, holds the device's partial product. -/
theorem grp3_canon (c : Dev nD) (f0 : Buf (Elt F) ((c : Thread nD τ).loc cc0_scratch0)) :
    ∀ i ∈ (pGroup 2 3).view.set,
      View.write (Elt F) ((Memref.whole cc0_scratch0).access (Rect.unit (s := S3x512x256) ![2, 384, 0] S1x128x256.size inb_S3x512x256_S1x128x256_2_384_0)) f0
        (k0_pay25
          (k0_pay19 (View.readAt (Elt F) (Memref.whole cc0_stg5_0 : Memref sig .tc .vmem S256x512 .f32).view
            (Rect.unit (s := S256x512) ![0, 0] S256x512.size inb_S256x512_S256x512_0_0).toLoadRect (argW m c 2)))
          (k0_pay20 (View.readAt (Elt F) (Memref.whole cc0_stg6_0 : Memref sig .tc .vmem S512x256 .f32).view
            (Rect.unit (s := S512x256) ![0, 0] S512x256.size inb_S512x256_S512x256_0_0).toLoadRect (argV m c 2)))
          (k0_pay24 (View.readAt (Elt F) (Memref.whole cc0_scratch2 : Memref sig .tc .vmem S3x512x256 .bf16).view
            (Rect.unit (s := S3x512x256) ![1, 384, 0] S1x128x256.size inb_S3x512x256_S1x128x256_1_384_0).toLoadRect (Gfun m c)))
          (constant S128x512 .f32 0x00000000#32))
        Finset.univ i = Pfun m c i := by
  intro i hi
  rw [read_stg5, read_stg6, read_G_group m c 1 3 ![1, 384, 0] rfl inb_S3x512x256_S1x128x256_1_384_0]
  have hi' := (pGroup_set_access 2 3 ![2, 384, 0] rfl inb_S3x512x256_S1x128x256_2_384_0) ▸ hi
  exact write_P2grp m c 3 f0 ![2, 384, 0] rfl inb_S3x512x256_S1x128x256_2_384_0 i hi'

omit [FloatOps F] in
/-- A whole buffer held through the whole memref's view at named contents, in the form the staged buffers are stated. -/
theorem stg_close (c : Dev nD) (b : Ref sig .tc) (X : b.ty.Contents (Elt F)) :
    ((Memref.whole b).view.loc (c : Thread nD τ) ↦[(Memref.whole b).view.set]{fullShare} X : sProp 𝕄) ⊢ stg c b X := by
  iintro H
  iexists X
  isplitr; · ipureintro; rfl
  iapply (Entails.of_eq (congrArg (fun I => pointsTo ((c : Thread nD τ).loc b) I fullShare X) (View.set_whole b)))
  iexact H

omit [FloatOps F] in
/-- A piece held whole at given contents is held whole at some contents. -/
theorem ex_of (c : Dev nD) (M : Memref sig .tc .vmem S64x256 .bf16) (f : Buf (Elt F) (M.view.loc (c : Thread nD τ))) :
    (piece c M fullShare f : sProp 𝕄) ⊢ ex c M := by
  unfold ex; iintro H; iexists f; iexact H

/-- A group of layer 2 held at contents that agree with the device's partial product on the group holds the partial product. -/
theorem pGroup_restate (c : Dev nD) (g : Fin 4) (w : Buf (Elt F) ((Memref.whole cc0_scratch0).view.loc (c : Thread nD τ)))
    (h : ∀ i ∈ (pGroup 2 g).view.set, w i = Pfun m c i) :
    ((pGroup 2 g).view.loc (c : Thread nD τ) ↦[(pGroup 2 g).view.set]{fullShare} w : sProp 𝕄)
      ⊢ ((pGroup 2 g).view.loc (c : Thread nD τ) ↦[(pGroup 2 g).view.set]{fullShare} Pfun m c) :=
  Entails.of_eq (pointsTo_congr h)

/-- The slots, on the peers listed, that device `c`'s chunks of layer 2 land in, each held at some contents. -/
def dests2 (c : Dev nD) (ts : List (Dev nD)) : sProp 𝕄 := bigSepL ts (fun t => iprop(∃ fd, piece t (rSlot 2 c) fullShare fd))

omit [FloatOps F] in
theorem dests2_cons (c t : Dev nD) (ts : List (Dev nD)) :
    (dests2 (F := F) c (t :: ts)) ⊢ iprop((∃ fd, piece t (rSlot 2 c) fullShare fd) ∗ dests2 c ts) := by
  unfold dests2
  exact Entails.of_eq (bigSepL_cons t ts _)

omit [FloatOps F] in
theorem dests2_of (c : Dev nD) (ts : List (Dev nD)) : (layerDest (F := F) c ts 2) ⊢ dests2 c ts := by
  unfold layerDest dests2
  rw [if_neg (show ¬ (2 : Fin 3).val < 2 by decide)]
  iintro ⟨H, -⟩
  iexact H

end Cert.KernelIdealProof

end
-- ==== Proof.BodySegC1_d0.lean ====
import proofs.«900993_g7700000000000994_dist_mlpseq_tp1d_rep_bs_b512_d256_h512_v7x_i8_bf16_1_alg».proof.Proof.BodySegC1Lib
import Idealize.ShloMosaic.Lib.Tactic

/-! The first half of layer 2 on the device at position 0: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 0 owes for layer 2, the summands in the reverse of the order its sends pay them. -/
theorem owesRedL_rev_d0 (c : Dev nD) :
    owesRedL c [(1 : Dev nD), 2, 3, 4, 5, 6, 7] 2 = 0 + T2 c 7 + T2 c 6 + T2 c 5 + T2 c 4 + T2 c 3 + T2 c 2 + T2 c 1 := by
  unfold owesRedL T2
  simp only [List.map, List.sum_cons, List.sum_nil]
  abel

theorem segC1_sound0 (c : Dev nD) (hc : c = 0) (K : GSem nD τ sig → ℕ) (Kt : PUnit → sProp 𝕄) :
    iprop(mid2 m K c [(1 : Dev nD), 2, 3, 4, 5, 6, 7] ∗ (mid3 m K c [(1 : Dev nD), 2, 3, 4, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 : ¬ _ := fun h => (condw0_iff c).mp h hc
  have hw1 := (condw1_iff c).mpr hne1
  have hw2 := (condw2_iff c).mpr hne2
  have hw3 := (condw3_iff c).mpr hne3
  have hw4 := (condw4_iff c).mpr hne4
  have hw5 := (condw5_iff c).mpr hne5
  have hw6 := (condw6_iff c).mpr hne6
  have hw7 := (condw7_iff c).mpr hne7
  have hg43 : ¬ k0_cond43 c = 1#1 := fun h => (cond43_iff c).mp h hc
  have hg44 : k0_cond44 c = 1#1 := (cond44_iff c).mpr hne1
  have hg47 : k0_cond47 c = 1#1 := (cond47_iff c).mpr hne2
  have hg48 : k0_cond48 c = 1#1 := (cond48_iff c).mpr hne3
  have hg51 : k0_cond51 c = 1#1 := (cond51_iff c).mpr hne4
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts1, Tr1⟩, ⟨Ts2, Tr2⟩, ⟨Ts3, Tr3⟩, ⟨Ts4, Tr4⟩, ⟨Ts5, Tr5⟩, ⟨Ts6, Tr6⟩, ⟨Ts7, Tr7⟩⟩, -⟩, HposRed2, -, Hdest⟩, ⟨⟨Pg1, Cg1⟩, ⟨Pg2, Cg2⟩, ⟨Pg3, Cg3⟩, ⟨Pg4, Cg4⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d0 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 1's rows of the second activation
  ihave Ig := (invsAll_at m K c (.gr 1 1)) $$ Hinv
  ihave Hmw := (mayWait_gr (F := F) c 1 1 (0 + T2 c 7 + T2 c 6 + T2 c 5 + T2 c 4 + T2 c 3 + T2 c 2 + T2 c 1) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  -- the device's own rows are chunk 0 of the group
  ihave Gc0 := (Entails.of_eq (congrArg (fun t : Dev nD => (piece c (gChunk 1 t) fullShare (Gfun m c) : sProp 𝕄)) hc)) $$ Hg1c
  ihave GG0 := (gGroup_join c 1 0 fullShare (Gfun m c) 0 1 rfl rfl) $$ [Gc0 Gc1]
  · isplitl [Gc0] <;> iassumption
  sl_exec
  -- group 0 of layer 2 now holds the device's partial product
  unfold segC1_sound0.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 5 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 6 + T2 c 5 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound0.sl.PG1_w1 segC1_sound0.sl.r segC1_sound0.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound0.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound0.sl.PG3_w1 segC1_sound0.sl.r_2 segC1_sound0.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs1 Cs2 Cs3 Cs4 Cs5 Cs6 Cs7]
  · rw [sepL7]
    isplitl [Cs1]; · iexact Cs1
    isplitl [Cs2]; · iexact Cs2
    isplitl [Cs3]; · iexact Cs3
    isplitl [Cs4]; · iexact Cs4
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg1 Pg2 Pg3 Pg4 Pg5 Pg6 Pg7]
  · rw [sepL7]
    isplitl [Pg1]; · iexact Pg1
    isplitl [Pg2]; · iexact Pg2
    isplitl [Pg3]; · iexact Pg3
    isplitl [Pg4]; · iexact Pg4
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A00]
    · iapply (Entails.of_eq (congrArg (fun t : Dev nD => (ex (F := F) c (pChunk 0 t) : sProp 𝕄)) hc.symm))
      iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A04]; · iapply (ex_of c (pChunk 0 4) _); iexact A04
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A10]
    · iapply (Entails.of_eq (congrArg (fun t : Dev nD => (ex (F := F) c (pChunk 1 t) : sProp 𝕄)) hc.symm))
      iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A14]; · iapply (ex_of c (pChunk 1 4) _); iexact A14
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B20]
  · iapply (Entails.of_eq (congrArg (fun t : Dev nD => (piece c (pChunk 2 t) fullShare (Pfun m c) : sProp 𝕄)) hc.symm)); iexact B20
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G10]
    · iapply (Entails.of_eq (congrArg (fun t : Dev nD => (ex (F := F) c (gChunk 1 t) : sProp 𝕄)) hc.symm))
      iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G14]; · iapply (ex_of c (gChunk 1 4) _); iexact G14
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelIdealProof.segC1_sound0' depends on axioms: [propext, Classical.choice, Quot.sound] -/
#guard_msgs in #print axioms segC1_sound0

end Cert.KernelIdealProof

end
-- ==== Proof.BodyExit.lean ====
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.Outro
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit

/-! The end of a device's body. When the program is over every cell of the device that had duties stands after its
    round and the others untouched, so all its own cells close and yield their counters at zero; and every 64-row piece
    of the three scratch buffers is back, so each buffer is held whole again. With the staged arguments as they were
    and the result's staging buffer holding the device's rows of the last layer's sum, that is what the body ends with. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

omit [FloatOps F] in
/-- A family at a device and over a list of its peers is the family over all devices. -/
theorem dev_and_peers {c : Dev nD} {Ts : List (Dev nD)} (hTs : peers c = Ts.toFinset) (hnd : Ts.Nodup) (Φ : Dev nD → sProp 𝕄) :
    iprop(Φ c ∗ bigSepL Ts Φ) ⊢ bigSep Finset.univ Φ := by
  rw [bigSep_univ_at Φ c, ← bigSep_eq_bigSepL Ts hnd Φ, ← hTs]
  unfold peers
  exact BI.Entails.refl _

omit [FloatOps F] in
/-- A family over the layers and the devices, layer by layer. -/
theorem layers_devs (Ψ : Fin 3 × Dev nD → sProp 𝕄) :
    bigSep Finset.univ Ψ = iprop((bigSep Finset.univ fun t => Ψ (0, t)) ∗ (bigSep Finset.univ fun t => Ψ (1, t)) ∗ (bigSep Finset.univ fun t => Ψ (2, t))) := by
  rw [bigSep_univ_prod, bigSep_fin3]

/-- The partial-product buffer back whole from the 24 chunks held. -/
theorem scr0_of_chunksP (c : Dev nD) (Ts : List (Dev nD)) (hTs : peers c = Ts.toFinset) (hnd : Ts.Nodup) :
    iprop(chunksP (F := F) c Ts 0 ∗ chunksP c Ts 1 ∗ chunksP c Ts 2) ⊢ scr c cc0_scratch0 := by
  refine BIBase.Entails.trans ?_ (scr0_of_pieces (F := F) c)
  rw [layers_devs]
  unfold chunksP ex
  iintro ⟨H0, H1, H2⟩
  isplitl [H0]; · iapply (dev_and_peers hTs hnd fun t => (iprop(∃ f, piece c (pChunk 0 t) fullShare f) : sProp 𝕄)); iexact H0
  isplitl [H1]; · iapply (dev_and_peers hTs hnd fun t => (iprop(∃ f, piece c (pChunk 1 t) fullShare f) : sProp 𝕄)); iexact H1
  iapply (dev_and_peers hTs hnd fun t => (iprop(∃ f, piece c (pChunk 2 t) fullShare f) : sProp 𝕄)); iexact H2

/-- The receive buffer back whole from the 24 slots held. -/
theorem scr1_of_slotsBack (c : Dev nD) :
    iprop(slotsBack (F := F) c 0 ∗ slotsBack c 1 ∗ slotsBack c 2) ⊢ scr c cc0_scratch1 := by
  have hB : peers c = (ringB c).toFinset := peers_eq_bwd c
  have hnd : (ringB c).Nodup := bwd_nodup c
  refine BIBase.Entails.trans ?_ (scr1_of_pieces (F := F) c)
  rw [layers_devs]
  unfold slotsBack ex
  iintro ⟨H0, H1, H2⟩
  isplitl [H0]; · iapply (dev_and_peers hB hnd fun s => (iprop(∃ f, piece c (rSlot 0 s) fullShare f) : sProp 𝕄)); iexact H0
  isplitl [H1]; · iapply (dev_and_peers hB hnd fun s => (iprop(∃ f, piece c (rSlot 1 s) fullShare f) : sProp 𝕄)); iexact H1
  iapply (dev_and_peers hB hnd fun s => (iprop(∃ f, piece c (rSlot 2 s) fullShare f) : sProp 𝕄)); iexact H2

/-- The gather buffer back whole from the 24 chunks held. -/
theorem scr2_of_chunksAll (c : Dev nD) (Ts : List (Dev nD)) (hTs : peers c = Ts.toFinset) (hnd : Ts.Nodup) :
    iprop(chunksAll (F := F) c Ts 0 ∗ chunksAll c Ts 1 ∗ chunksAll c Ts 2) ⊢ scr c cc0_scratch2 := by
  refine BIBase.Entails.trans ?_ (scr2_of_pieces (F := F) c)
  rw [layers_devs]
  unfold chunksAll ex
  iintro ⟨H0, H1, H2⟩
  isplitl [H0]; · iapply (dev_and_peers hTs hnd fun t => (iprop(∃ f, piece c (gChunk 0 t) fullShare f) : sProp 𝕄)); iexact H0
  isplitl [H1]; · iapply (dev_and_peers hTs hnd fun t => (iprop(∃ f, piece c (gChunk 1 t) fullShare f) : sProp 𝕄)); iexact H1
  iapply (dev_and_peers hTs hnd fun t => (iprop(∃ f, piece c (gChunk 2 t) fullShare f) : sProp 𝕄)); iexact H2

/-- The exit: from what a device holds when its program is over, after the update that closes its own cells, what its
    body ends with. -/
theorem exit_of (c : Dev nD) (Ts : List (Dev nD)) (hTs : peers c = Ts.toFinset) (hnd : Ts.Nodup) (K : GSem nD τ sig → ℕ) :
    midE m K c Ts ⊢ iprop(|={Set.univ}=> bodyPost m c) := by
  unfold midE
  iintro ⟨⟨#Hinv, -, -⟩, HO, Hp0, Hp1, Hp2, Hg0, Hg1, Hrest, HP0, HP1, HP2, HR0, HR1, HR2, HG0, HG1, HG2, Hst, H7⟩
  imod (close_from_layers m K c Ts hTs hnd) $$ [Hp0 Hp1 Hp2 Hg0 Hg1 Hrest] with Hz
  · isplitr; · iexact Hinv
    isplitl [Hp0]; · iexact Hp0
    isplitl [Hp1]; · iexact Hp1
    isplitl [Hp2]; · iexact Hp2
    isplitl [Hg0]; · iexact Hg0
    isplitl [Hg1]; · iexact Hg1
    iexact Hrest
  imodintro
  unfold bodyPost Φ₁ stagedIn
  isplitl [HP0 HP1 HP2 HR0 HR1 HR2 HG0 HG1 HG2 Hz]
  · isplitl [HP0 HP1 HP2]
    · iapply (scr0_of_chunksP c Ts hTs hnd)
      isplitl [HP0]; · iexact HP0
      isplitl [HP1] <;> iassumption
    isplitl [HR0 HR1 HR2]
    · iapply (scr1_of_slotsBack (F := F) c)
      isplitl [HR0]; · iexact HR0
      isplitl [HR1] <;> iassumption
    isplitl [HG0 HG1 HG2]
    · iapply (scr2_of_chunksAll c Ts hTs hnd)
      isplitl [HG0]; · iexact HG0
      isplitl [HG1] <;> iassumption
    iexact Hz
  isplitl [HO]; · iexact HO
  icases Hst with ⟨S0, S1, S2, S3, S4, S5, S6⟩
  isplitl [S0]; · iexact S0
  isplitl [S1]; · iexact S1
  isplitl [S2]; · iexact S2
  isplitl [S3]; · iexact S3
  isplitl [S4]; · iexact S4
  isplitl [S5]; · iexact S5
  isplitl [S6]; · iexact S6
  iexact H7

/-- info: 'Cert.KernelIdealProof.exit_of' depends on axioms: [propext, Classical.choice, Quot.sound] -/
#guard_msgs in #print axioms exit_of

end Cert.KernelIdealProof

end
-- ==== Proof.BodySegC2_d0.lean ====
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.BodyExit
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 2 on the device at position 0: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound0 (c : Dev nD) (hc : c = 0) (K : GSem nD τ sig → ℕ) (Kt : PUnit → sProp 𝕄) :
    iprop(mid3 m K c [(1 : Dev nD), 2, 3, 4, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(1 : Dev nD), 2, 3, 4, 5, 6, 7]).toFinset := by subst hc; decide
  have hnd : ([(1 : Dev nD), 2, 3, 4, 5, 6, 7]).Nodup := by decide
  -- the guards of the seven waits on the reduce-send cell: every literal target but the device itself
  have hg57 : ¬ k0_cond57 c = 1#1 := fun h => (cond57_iff c).mp h hc
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound0.sl.v846 m c : Vec F S1x64x256 .bf16) = chunkOf (P2 m c) c := own_chunk_read m c _
  have e861 : ∀ a, (segC2_sound0.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound0.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound0.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound0.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound0.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound0.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound0.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound0.sl.r_3 m c a1 a2 a3 a4 a5 a6) (segC2_sound0.sl.v957 m c a7) = red2 m c := by
    intro a1 a2 a3 a4 a5 a6 a7
    unfold segC2_sound0.sl.r_3 segC2_sound0.sl.r_2 segC2_sound0.sl.r_1 segC2_sound0.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound0.sl.r_3 m c fs1 fs2 fs3 fs4 fs5 fs6) (segC2_sound0.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelIdealProof.segC2_sound0' depends on axioms: [propext, Classical.choice, Quot.sound] -/
#guard_msgs in #print axioms segC2_sound0

end Cert.KernelIdealProof

end
-- ==== Proof.BodySegA2_d1.lean ====
import proofs.«900993_g7700000000000994_dist_mlpseq_tp1d_rep_bs_b512_d256_h512_v7x_i8_bf16_1_alg».proof.Proof.BodySegA2Lib

/-! The second half of layer 0 on device 1: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 2, 3, 4, 5, 6, 7] : List (Dev nD))

omit [FloatOps F] in
/-- Everything still owed after layer 0's gather sends is owed to cells above the level of the layer's send cells. -/
theorem above_a2_rest_d1 (c : Dev nD) : Above 3 (a2_rest c Ts) := by
  unfold a2_rest owesRedL owesGatL ringF
  simp only [List.map, List.sum_cons, List.sum_nil]
  owes_above

theorem segA2_sound1 (c : Dev nD) (hc : c = 1) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : ¬ k0_cond10 c = 1#1 := fun h => (cond10_iff c).mp h hc
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : ¬ Scalar.cmpi .ne (Scalar.extui (Scalar.cmpi .ne (Scalar.remsi (Scalar.divsi (Dev.word c) 1#32) 8#32) 1#32)) 0#32 = 1#1 := fun h => (condw1_iff c).mp h hc
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d1 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d1 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound1.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound1.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound1.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound1.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound1.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound1.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound1.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound1.sl.r_2 m c v78 a1 a2 a3 a4 a5) (segA2_sound1.sl.v171 m c a6) (segA2_sound1.sl.v187 m c a7) = red0 m c := by
    intro a1 a2 a3 a4 a5 a6 a7
    unfold segA2_sound1.sl.r_2 segA2_sound1.sl.r_1 segA2_sound1.sl.r
    rw [e91, e107, e123, e139, e155, e171, e187, hv]
    rfl
  have hG0 : ∀ g a1 a2 a3 a4 a5 a6 a7, ∀ i ∈ (gChunk 0 c).view.set, segA2_sound1.sl.G0c_w1 m c v78 g a1 a2 a3 a4 a5 a6 a7 i = Gfun m c i := by
    intro g a1 a2 a3 a4 a5 a6 a7 i hi
    unfold segA2_sound1.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelIdealProof

end
-- ==== Proof.BodySegB2_d1.lean ====
import proofs.«900993_g7700000000000994_dist_mlpseq_tp1d_rep_bs_b512_d256_h512_v7x_i8_bf16_1_alg».proof.Proof.BodySegBCut
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 1 on the device at position 1: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound1 (c : Dev nD) (hc : c = 1) (K : GSem nD τ sig → ℕ) (Kt : PUnit → sProp 𝕄) (v463 : FVec F S64x256 .f32) (v466 : BitVec 32) :
    iprop(midB m K c [(0 : Dev nD), 2, 3, 4, 5, 6, 7] v463 ∗ (mid2 m K c [(0 : Dev nD), 2, 3, 4, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : ¬ k0_cond34 c = 1#1 := fun h => (cond34_iff c).mp h hc
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 2, 3, 4, 5, 6, 7] 2) := by
    unfold owesRedL
    simp only [List.map_cons, List.map_nil, List.sum_cons, List.sum_nil]
    owes_above
  have hdebt : owesRedL c [(0 : Dev nD), 2, 3, 4, 5, 6, 7] 2 + owesGatL c 1
      = owesRedL c [(0 : Dev nD), 2, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 2, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound1.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound1.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound1.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound1.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound1.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound1.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound1.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound1.sl.r_2 m c a1 a2 a3 a4 a5 a6) (segB2_sound1.sl.v572 m c a7) = red1 m c := by
    intro a1 a2 a3 a4 a5 a6 a7
    unfold segB2_sound1.sl.r_2 segB2_sound1.sl.r_1 segB2_sound1.sl.r
    rw [e476, e492, e508, e524, e540, e556, e572]
    rfl
  have hG1 : ∀ i ∈ (gChunk 1 c).view.set, segB2_sound1.sl.G1c_w1 m c g1 fs1 fs2 fs3 fs4 fs5 fs6 fs7 i = Gfun m c i := by
    intro i hi
    unfold segB2_sound1.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelIdealProof.segB2_sound1' depends on axioms: [propext, Classical.choice, Quot.sound] -/
#guard_msgs in #print axioms segB2_sound1

end Cert.KernelIdealProof

end
-- ==== Proof.BodySegC1_d1.lean ====
import proofs.«900993_g7700000000000994_dist_mlpseq_tp1d_rep_bs_b512_d256_h512_v7x_i8_bf16_1_alg».proof.Proof.BodySegC1Lib
import Idealize.ShloMosaic.Lib.Tactic

/-! The first half of layer 2 on the device at position 1: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 1 owes for layer 2, the summands in the reverse of the order its sends pay them. -/
theorem owesRedL_rev_d1 (c : Dev nD) :
    owesRedL c [(0 : Dev nD), 2, 3, 4, 5, 6, 7] 2 = 0 + T2 c 7 + T2 c 6 + T2 c 5 + T2 c 4 + T2 c 3 + T2 c 2 + T2 c 0 := by
  unfold owesRedL T2
  simp only [List.map, List.sum_cons, List.sum_nil]
  abel

theorem segC1_sound1 (c : Dev nD) (hc : c = 1) (K : GSem nD τ sig → ℕ) (Kt : PUnit → sProp 𝕄) :
    iprop(mid2 m K c [(0 : Dev nD), 2, 3, 4, 5, 6, 7] ∗ (mid3 m K c [(0 : Dev nD), 2, 3, 4, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 := (condw0_iff c).mpr hne0
  have hw1 : ¬ _ := fun h => (condw1_iff c).mp h hc
  have hw2 := (condw2_iff c).mpr hne2
  have hw3 := (condw3_iff c).mpr hne3
  have hw4 := (condw4_iff c).mpr hne4
  have hw5 := (condw5_iff c).mpr hne5
  have hw6 := (condw6_iff c).mpr hne6
  have hw7 := (condw7_iff c).mpr hne7
  have hg43 : k0_cond43 c = 1#1 := (cond43_iff c).mpr hne0
  have hg44 : ¬ k0_cond44 c = 1#1 := fun h => (cond44_iff c).mp h hc
  have hg47 : k0_cond47 c = 1#1 := (cond47_iff c).mpr hne2
  have hg48 : k0_cond48 c = 1#1 := (cond48_iff c).mpr hne3
  have hg51 : k0_cond51 c = 1#1 := (cond51_iff c).mpr hne4
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts2, Tr2⟩, ⟨Ts3, Tr3⟩, ⟨Ts4, Tr4⟩, ⟨Ts5, Tr5⟩, ⟨Ts6, Tr6⟩, ⟨Ts7, Tr7⟩⟩, -⟩, HposRed2, -, Hdest⟩, ⟨⟨Pg0, Cg0⟩, ⟨Pg2, Cg2⟩, ⟨Pg3, Cg3⟩, ⟨Pg4, Cg4⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d1 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 5 + T2 c 4 + T2 c 3 + T2 c 2 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  -- the device's own rows are chunk 1 of the group
  ihave Gc1 := (Entails.of_eq (congrArg (fun t : Dev nD => (piece c (gChunk 1 t) fullShare (Gfun m c) : sProp 𝕄)) hc)) $$ Hg1c
  ihave GG0 := (gGroup_join c 1 0 fullShare (Gfun m c) 0 1 rfl rfl) $$ [Gc0 Gc1]
  · isplitl [Gc0] <;> iassumption
  sl_exec
  -- group 0 of layer 2 now holds the device's partial product
  unfold segC1_sound1.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 5 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 6 + T2 c 5 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound1.sl.PG1_w1 segC1_sound1.sl.r segC1_sound1.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound1.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound1.sl.PG3_w1 segC1_sound1.sl.r_2 segC1_sound1.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs2 Cs3 Cs4 Cs5 Cs6 Cs7]
  · rw [sepL7]
    isplitl [Cs0]; · iexact Cs0
    isplitl [Cs2]; · iexact Cs2
    isplitl [Cs3]; · iexact Cs3
    isplitl [Cs4]; · iexact Cs4
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg0 Pg2 Pg3 Pg4 Pg5 Pg6 Pg7]
  · rw [sepL7]
    isplitl [Pg0]; · iexact Pg0
    isplitl [Pg2]; · iexact Pg2
    isplitl [Pg3]; · iexact Pg3
    isplitl [Pg4]; · iexact Pg4
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A01]
    · iapply (Entails.of_eq (congrArg (fun t : Dev nD => (ex (F := F) c (pChunk 0 t) : sProp 𝕄)) hc.symm))
      iapply (ex_of c (pChunk 0 1) _); iexact A01
    isplitl [A00]; · iapply (ex_of c (pChunk 0 0) _); iexact A00
    isplitl [A02]; · iapply (ex_of c (pChunk 0 2) _); iexact A02
    isplitl [A03]; · iapply (ex_of c (pChunk 0 3) _); iexact A03
    isplitl [A04]; · iapply (ex_of c (pChunk 0 4) _); iexact A04
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A11]
    · iapply (Entails.of_eq (congrArg (fun t : Dev nD => (ex (F := F) c (pChunk 1 t) : sProp 𝕄)) hc.symm))
      iapply (ex_of c (pChunk 1 1) _); iexact A11
    isplitl [A10]; · iapply (ex_of c (pChunk 1 0) _); iexact A10
    isplitl [A12]; · iapply (ex_of c (pChunk 1 2) _); iexact A12
    isplitl [A13]; · iapply (ex_of c (pChunk 1 3) _); iexact A13
    isplitl [A14]; · iapply (ex_of c (pChunk 1 4) _); iexact A14
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B21]
  · iapply (Entails.of_eq (congrArg (fun t : Dev nD => (piece c (pChunk 2 t) fullShare (Pfun m c) : sProp 𝕄)) hc.symm)); iexact B21
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G11]
    · iapply (Entails.of_eq (congrArg (fun t : Dev nD => (ex (F := F) c (gChunk 1 t) : sProp 𝕄)) hc.symm))
      iapply (ex_of c (gChunk 1 1) _); iexact G11
    isplitl [G10]; · iapply (ex_of c (gChunk 1 0) _); iexact G10
    isplitl [G12]; · iapply (ex_of c (gChunk 1 2) _); iexact G12
    isplitl [G13]; · iapply (ex_of c (gChunk 1 3) _); iexact G13
    isplitl [G14]; · iapply (ex_of c (gChunk 1 4) _); iexact G14
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelIdealProof.segC1_sound1' depends on axioms: [propext, Classical.choice, Quot.sound] -/
#guard_msgs in #print axioms segC1_sound1

end Cert.KernelIdealProof

end
-- ==== Proof.BodySegC2_d1.lean ====
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.BodyExit
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 2 on the device at position 1: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound1 (c : Dev nD) (hc : c = 1) (K : GSem nD τ sig → ℕ) (Kt : PUnit → sProp 𝕄) :
    iprop(mid3 m K c [(0 : Dev nD), 2, 3, 4, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 2, 3, 4, 5, 6, 7]).toFinset := by subst hc; decide
  have hnd : ([(0 : Dev nD), 2, 3, 4, 5, 6, 7]).Nodup := by decide
  -- the guards of the seven waits on the reduce-send cell: every literal target but the device itself
  have hg57 : k0_cond57 c = 1#1 := (cond57_iff c).mpr (by rw [hc]; decide)
  have hg58 : ¬ k0_cond58 c = 1#1 := fun h => (cond58_iff c).mp h hc
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound1.sl.v846 m c : Vec F S1x64x256 .bf16) = chunkOf (P2 m c) c := own_chunk_read m c _
  have e861 : ∀ a, (segC2_sound1.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound1.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound1.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound1.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound1.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound1.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound1.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound1.sl.r_3 m c a1 a2 a3 a4 a5 a6) (segC2_sound1.sl.v957 m c a7) = red2 m c := by
    intro a1 a2 a3 a4 a5 a6 a7
    unfold segC2_sound1.sl.r_3 segC2_sound1.sl.r_2 segC2_sound1.sl.r_1 segC2_sound1.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound1.sl.r_3 m c fs1 fs2 fs3 fs4 fs5 fs6) (segC2_sound1.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelIdealProof.segC2_sound1' depends on axioms: [propext, Classical.choice, Quot.sound] -/
#guard_msgs in #print axioms segC2_sound1

end Cert.KernelIdealProof

end
-- ==== Proof.BodySegA2_d2.lean ====
import proofs.«900993_g7700000000000994_dist_mlpseq_tp1d_rep_bs_b512_d256_h512_v7x_i8_bf16_1_alg».proof.Proof.BodySegA2Lib

/-! The second half of layer 0 on device 2: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 3, 4, 5, 6, 7] : List (Dev nD))

omit [FloatOps F] in
/-- Everything still owed after layer 0's gather sends is owed to cells above the level of the layer's send cells. -/
theorem above_a2_rest_d2 (c : Dev nD) : Above 3 (a2_rest c Ts) := by
  unfold a2_rest owesRedL owesGatL ringF
  simp only [List.map, List.sum_cons, List.sum_nil]
  owes_above

theorem segA2_sound2 (c : Dev nD) (hc : c = 2) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : ¬ k0_cond11 c = 1#1 := fun h => (cond11_iff c).mp h hc
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : ¬ Scalar.cmpi .ne (Scalar.extui (Scalar.cmpi .ne (Scalar.remsi (Scalar.divsi (Dev.word c) 1#32) 8#32) 2#32)) 0#32 = 1#1 := fun h => (condw2_iff c).mp h hc
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d2 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d2 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound2.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound2.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound2.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound2.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound2.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound2.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound2.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound2.sl.r_2 m c v78 a1 a2 a3 a4 a5) (segA2_sound2.sl.v171 m c a6) (segA2_sound2.sl.v187 m c a7) = red0 m c := by
    intro a1 a2 a3 a4 a5 a6 a7
    unfold segA2_sound2.sl.r_2 segA2_sound2.sl.r_1 segA2_sound2.sl.r
    rw [e91, e107, e123, e139, e155, e171, e187, hv]
    rfl
  have hG0 : ∀ g a1 a2 a3 a4 a5 a6 a7, ∀ i ∈ (gChunk 0 c).view.set, segA2_sound2.sl.G0c_w1 m c v78 g a1 a2 a3 a4 a5 a6 a7 i = Gfun m c i := by
    intro g a1 a2 a3 a4 a5 a6 a7 i hi
    unfold segA2_sound2.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelIdealProof

end
-- ==== Proof.BodySegB2_d2.lean ====
import proofs.«900993_g7700000000000994_dist_mlpseq_tp1d_rep_bs_b512_d256_h512_v7x_i8_bf16_1_alg».proof.Proof.BodySegBCut
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 1 on the device at position 2: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound2 (c : Dev nD) (hc : c = 2) (K : GSem nD τ sig → ℕ) (Kt : PUnit → sProp 𝕄) (v463 : FVec F S64x256 .f32) (v466 : BitVec 32) :
    iprop(midB m K c [(0 : Dev nD), 1, 3, 4, 5, 6, 7] v463 ∗ (mid2 m K c [(0 : Dev nD), 1, 3, 4, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : ¬ k0_cond35 c = 1#1 := fun h => (cond35_iff c).mp h hc
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 3, 4, 5, 6, 7] 2) := by
    unfold owesRedL
    simp only [List.map_cons, List.map_nil, List.sum_cons, List.sum_nil]
    owes_above
  have hdebt : owesRedL c [(0 : Dev nD), 1, 3, 4, 5, 6, 7] 2 + owesGatL c 1
      = owesRedL c [(0 : Dev nD), 1, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound2.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound2.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound2.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound2.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound2.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound2.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound2.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound2.sl.r_2 m c a1 a2 a3 a4 a5 a6) (segB2_sound2.sl.v572 m c a7) = red1 m c := by
    intro a1 a2 a3 a4 a5 a6 a7
    unfold segB2_sound2.sl.r_2 segB2_sound2.sl.r_1 segB2_sound2.sl.r
    rw [e476, e492, e508, e524, e540, e556, e572]
    rfl
  have hG1 : ∀ i ∈ (gChunk 1 c).view.set, segB2_sound2.sl.G1c_w1 m c g1 fs1 fs2 fs3 fs4 fs5 fs6 fs7 i = Gfun m c i := by
    intro i hi
    unfold segB2_sound2.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelIdealProof.segB2_sound2' depends on axioms: [propext, Classical.choice, Quot.sound] -/
#guard_msgs in #print axioms segB2_sound2

end Cert.KernelIdealProof

end
-- ==== Proof.BodySegC1_d2.lean ====
import proofs.«900993_g7700000000000994_dist_mlpseq_tp1d_rep_bs_b512_d256_h512_v7x_i8_bf16_1_alg».proof.Proof.BodySegC1Lib
import Idealize.ShloMosaic.Lib.Tactic

/-! The first half of layer 2 on the device at position 2: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 2 owes for layer 2, the summands in the reverse of the order its sends pay them. -/
theorem owesRedL_rev_d2 (c : Dev nD) :
    owesRedL c [(0 : Dev nD), 1, 3, 4, 5, 6, 7] 2 = 0 + T2 c 7 + T2 c 6 + T2 c 5 + T2 c 4 + T2 c 3 + T2 c 1 + T2 c 0 := by
  unfold owesRedL T2
  simp only [List.map, List.sum_cons, List.sum_nil]
  abel

theorem segC1_sound2 (c : Dev nD) (hc : c = 2) (K : GSem nD τ sig → ℕ) (Kt : PUnit → sProp 𝕄) :
    iprop(mid2 m K c [(0 : Dev nD), 1, 3, 4, 5, 6, 7] ∗ (mid3 m K c [(0 : Dev nD), 1, 3, 4, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 := (condw0_iff c).mpr hne0
  have hw1 := (condw1_iff c).mpr hne1
  have hw2 : ¬ _ := fun h => (condw2_iff c).mp h hc
  have hw3 := (condw3_iff c).mpr hne3
  have hw4 := (condw4_iff c).mpr hne4
  have hw5 := (condw5_iff c).mpr hne5
  have hw6 := (condw6_iff c).mpr hne6
  have hw7 := (condw7_iff c).mpr hne7
  have hg43 : k0_cond43 c = 1#1 := (cond43_iff c).mpr hne0
  have hg44 : k0_cond44 c = 1#1 := (cond44_iff c).mpr hne1
  have hg47 : ¬ k0_cond47 c = 1#1 := fun h => (cond47_iff c).mp h hc
  have hg48 : k0_cond48 c = 1#1 := (cond48_iff c).mpr hne3
  have hg51 : k0_cond51 c = 1#1 := (cond51_iff c).mpr hne4
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts3, Tr3⟩, ⟨Ts4, Tr4⟩, ⟨Ts5, Tr5⟩, ⟨Ts6, Tr6⟩, ⟨Ts7, Tr7⟩⟩, -⟩, HposRed2, -, Hdest⟩, ⟨⟨Pg0, Cg0⟩, ⟨Pg1, Cg1⟩, ⟨Pg3, Cg3⟩, ⟨Pg4, Cg4⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d2 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 5 + T2 c 4 + T2 c 3 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 6 + T2 c 5 + T2 c 4 + T2 c 3 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound2.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 3's rows of the second activation
  ihave Ig := (invsAll_at m K c (.gr 1 3)) $$ Hinv
  ihave Hmw := (mayWait_gr (F := F) c 1 3 (0 + T2 c 7 + T2 c 6 + T2 c 5 + T2 c 4 + T2 c 3) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  -- the device's own rows are chunk 2 of the group
  ihave Gc2 := (Entails.of_eq (congrArg (fun t : Dev nD => (piece c (gChunk 1 t) fullShare (Gfun m c) : sProp 𝕄)) hc)) $$ Hg1c
  ihave GG1 := (gGroup_join c 1 1 fullShare (Gfun m c) 2 3 rfl rfl) $$ [Gc2 Gc3]
  · isplitl [Gc2] <;> iassumption
  sl_exec
  -- group 1 of layer 2 now holds the device's partial product
  unfold segC1_sound2.sl.PG1_w1 segC1_sound2.sl.r segC1_sound2.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound2.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound2.sl.PG3_w1 segC1_sound2.sl.r_2 segC1_sound2.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs3 Cs4 Cs5 Cs6 Cs7]
  · rw [sepL7]
    isplitl [Cs0]; · iexact Cs0
    isplitl [Cs1]; · iexact Cs1
    isplitl [Cs3]; · iexact Cs3
    isplitl [Cs4]; · iexact Cs4
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg0 Pg1 Pg3 Pg4 Pg5 Pg6 Pg7]
  · rw [sepL7]
    isplitl [Pg0]; · iexact Pg0
    isplitl [Pg1]; · iexact Pg1
    isplitl [Pg3]; · iexact Pg3
    isplitl [Pg4]; · iexact Pg4
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A02]
    · iapply (Entails.of_eq (congrArg (fun t : Dev nD => (ex (F := F) c (pChunk 0 t) : sProp 𝕄)) hc.symm))
      iapply (ex_of c (pChunk 0 2) _); iexact A02
    isplitl [A00]; · iapply (ex_of c (pChunk 0 0) _); iexact A00
    isplitl [A01]; · iapply (ex_of c (pChunk 0 1) _); iexact A01
    isplitl [A03]; · iapply (ex_of c (pChunk 0 3) _); iexact A03
    isplitl [A04]; · iapply (ex_of c (pChunk 0 4) _); iexact A04
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A12]
    · iapply (Entails.of_eq (congrArg (fun t : Dev nD => (ex (F := F) c (pChunk 1 t) : sProp 𝕄)) hc.symm))
      iapply (ex_of c (pChunk 1 2) _); iexact A12
    isplitl [A10]; · iapply (ex_of c (pChunk 1 0) _); iexact A10
    isplitl [A11]; · iapply (ex_of c (pChunk 1 1) _); iexact A11
    isplitl [A13]; · iapply (ex_of c (pChunk 1 3) _); iexact A13
    isplitl [A14]; · iapply (ex_of c (pChunk 1 4) _); iexact A14
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B22]
  · iapply (Entails.of_eq (congrArg (fun t : Dev nD => (piece c (pChunk 2 t) fullShare (Pfun m c) : sProp 𝕄)) hc.symm)); iexact B22
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G12]
    · iapply (Entails.of_eq (congrArg (fun t : Dev nD => (ex (F := F) c (gChunk 1 t) : sProp 𝕄)) hc.symm))
      iapply (ex_of c (gChunk 1 2) _); iexact G12
    isplitl [G10]; · iapply (ex_of c (gChunk 1 0) _); iexact G10
    isplitl [G11]; · iapply (ex_of c (gChunk 1 1) _); iexact G11
    isplitl [G13]; · iapply (ex_of c (gChunk 1 3) _); iexact G13
    isplitl [G14]; · iapply (ex_of c (gChunk 1 4) _); iexact G14
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelIdealProof.segC1_sound2' depends on axioms: [propext, Classical.choice, Quot.sound] -/
#guard_msgs in #print axioms segC1_sound2

end Cert.KernelIdealProof

end
-- ==== Proof.BodySegC2_d2.lean ====
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.BodyExit
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 2 on the device at position 2: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound2 (c : Dev nD) (hc : c = 2) (K : GSem nD τ sig → ℕ) (Kt : PUnit → sProp 𝕄) :
    iprop(mid3 m K c [(0 : Dev nD), 1, 3, 4, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 3, 4, 5, 6, 7]).toFinset := by subst hc; decide
  have hnd : ([(0 : Dev nD), 1, 3, 4, 5, 6, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : ¬ k0_cond59 c = 1#1 := fun h => (cond59_iff c).mp h hc
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound2.sl.v846 m c : Vec F S1x64x256 .bf16) = chunkOf (P2 m c) c := own_chunk_read m c _
  have e861 : ∀ a, (segC2_sound2.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound2.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound2.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound2.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound2.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound2.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound2.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound2.sl.r_3 m c a1 a2 a3 a4 a5 a6) (segC2_sound2.sl.v957 m c a7) = red2 m c := by
    intro a1 a2 a3 a4 a5 a6 a7
    unfold segC2_sound2.sl.r_3 segC2_sound2.sl.r_2 segC2_sound2.sl.r_1 segC2_sound2.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound2.sl.r_3 m c fs1 fs2 fs3 fs4 fs5 fs6) (segC2_sound2.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelIdealProof.segC2_sound2' depends on axioms: [propext, Classical.choice, Quot.sound] -/
#guard_msgs in #print axioms segC2_sound2

end Cert.KernelIdealProof

end
-- ==== Proof.BodySegA2_d3.lean ====
import proofs.«900993_g7700000000000994_dist_mlpseq_tp1d_rep_bs_b512_d256_h512_v7x_i8_bf16_1_alg».proof.Proof.BodySegA2Lib

/-! The second half of layer 0 on device 3: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 4, 5, 6, 7] : List (Dev nD))

omit [FloatOps F] in
/-- Everything still owed after layer 0's gather sends is owed to cells above the level of the layer's send cells. -/
theorem above_a2_rest_d3 (c : Dev nD) : Above 3 (a2_rest c Ts) := by
  unfold a2_rest owesRedL owesGatL ringF
  simp only [List.map, List.sum_cons, List.sum_nil]
  owes_above

theorem segA2_sound3 (c : Dev nD) (hc : c = 3) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : ¬ k0_cond12 c = 1#1 := fun h => (cond12_iff c).mp h hc
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : ¬ Scalar.cmpi .ne (Scalar.extui (Scalar.cmpi .ne (Scalar.remsi (Scalar.divsi (Dev.word c) 1#32) 8#32) 3#32)) 0#32 = 1#1 := fun h => (condw3_iff c).mp h hc
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d3 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d3 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound3.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound3.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound3.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound3.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound3.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound3.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound3.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound3.sl.r_2 m c v78 a1 a2 a3 a4 a5) (segA2_sound3.sl.v171 m c a6) (segA2_sound3.sl.v187 m c a7) = red0 m c := by
    intro a1 a2 a3 a4 a5 a6 a7
    unfold segA2_sound3.sl.r_2 segA2_sound3.sl.r_1 segA2_sound3.sl.r
    rw [e91, e107, e123, e139, e155, e171, e187, hv]
    rfl
  have hG0 : ∀ g a1 a2 a3 a4 a5 a6 a7, ∀ i ∈ (gChunk 0 c).view.set, segA2_sound3.sl.G0c_w1 m c v78 g a1 a2 a3 a4 a5 a6 a7 i = Gfun m c i := by
    intro g a1 a2 a3 a4 a5 a6 a7 i hi
    unfold segA2_sound3.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelIdealProof

end
-- ==== Proof.BodySegB2_d3.lean ====
import proofs.«900993_g7700000000000994_dist_mlpseq_tp1d_rep_bs_b512_d256_h512_v7x_i8_bf16_1_alg».proof.Proof.BodySegBCut
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 1 on the device at position 3: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound3 (c : Dev nD) (hc : c = 3) (K : GSem nD τ sig → ℕ) (Kt : PUnit → sProp 𝕄) (v463 : FVec F S64x256 .f32) (v466 : BitVec 32) :
    iprop(midB m K c [(0 : Dev nD), 1, 2, 4, 5, 6, 7] v463 ∗ (mid2 m K c [(0 : Dev nD), 1, 2, 4, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : ¬ k0_cond36 c = 1#1 := fun h => (cond36_iff c).mp h hc
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 2, 4, 5, 6, 7] 2) := by
    unfold owesRedL
    simp only [List.map_cons, List.map_nil, List.sum_cons, List.sum_nil]
    owes_above
  have hdebt : owesRedL c [(0 : Dev nD), 1, 2, 4, 5, 6, 7] 2 + owesGatL c 1
      = owesRedL c [(0 : Dev nD), 1, 2, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound3.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound3.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound3.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound3.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound3.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound3.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound3.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound3.sl.r_2 m c a1 a2 a3 a4 a5 a6) (segB2_sound3.sl.v572 m c a7) = red1 m c := by
    intro a1 a2 a3 a4 a5 a6 a7
    unfold segB2_sound3.sl.r_2 segB2_sound3.sl.r_1 segB2_sound3.sl.r
    rw [e476, e492, e508, e524, e540, e556, e572]
    rfl
  have hG1 : ∀ i ∈ (gChunk 1 c).view.set, segB2_sound3.sl.G1c_w1 m c g1 fs1 fs2 fs3 fs4 fs5 fs6 fs7 i = Gfun m c i := by
    intro i hi
    unfold segB2_sound3.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelIdealProof.segB2_sound3' depends on axioms: [propext, Classical.choice, Quot.sound] -/
#guard_msgs in #print axioms segB2_sound3

end Cert.KernelIdealProof

end
-- ==== Proof.BodySegC1_d3.lean ====
import proofs.«900993_g7700000000000994_dist_mlpseq_tp1d_rep_bs_b512_d256_h512_v7x_i8_bf16_1_alg».proof.Proof.BodySegC1Lib
import Idealize.ShloMosaic.Lib.Tactic

/-! The first half of layer 2 on the device at position 3: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 3 owes for layer 2, the summands in the reverse of the order its sends pay them. -/
theorem owesRedL_rev_d3 (c : Dev nD) :
    owesRedL c [(0 : Dev nD), 1, 2, 4, 5, 6, 7] 2 = 0 + T2 c 7 + T2 c 6 + T2 c 5 + T2 c 4 + T2 c 2 + T2 c 1 + T2 c 0 := by
  unfold owesRedL T2
  simp only [List.map, List.sum_cons, List.sum_nil]
  abel

theorem segC1_sound3 (c : Dev nD) (hc : c = 3) (K : GSem nD τ sig → ℕ) (Kt : PUnit → sProp 𝕄) :
    iprop(mid2 m K c [(0 : Dev nD), 1, 2, 4, 5, 6, 7] ∗ (mid3 m K c [(0 : Dev nD), 1, 2, 4, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 := (condw0_iff c).mpr hne0
  have hw1 := (condw1_iff c).mpr hne1
  have hw2 := (condw2_iff c).mpr hne2
  have hw3 : ¬ _ := fun h => (condw3_iff c).mp h hc
  have hw4 := (condw4_iff c).mpr hne4
  have hw5 := (condw5_iff c).mpr hne5
  have hw6 := (condw6_iff c).mpr hne6
  have hw7 := (condw7_iff c).mpr hne7
  have hg43 : k0_cond43 c = 1#1 := (cond43_iff c).mpr hne0
  have hg44 : k0_cond44 c = 1#1 := (cond44_iff c).mpr hne1
  have hg47 : k0_cond47 c = 1#1 := (cond47_iff c).mpr hne2
  have hg48 : ¬ k0_cond48 c = 1#1 := fun h => (cond48_iff c).mp h hc
  have hg51 : k0_cond51 c = 1#1 := (cond51_iff c).mpr hne4
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts4, Tr4⟩, ⟨Ts5, Tr5⟩, ⟨Ts6, Tr6⟩, ⟨Ts7, Tr7⟩⟩, -⟩, HposRed2, -, Hdest⟩, ⟨⟨Pg0, Cg0⟩, ⟨Pg1, Cg1⟩, ⟨Pg2, Cg2⟩, ⟨Pg4, Cg4⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d3 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 5 + T2 c 4 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 6 + T2 c 5 + T2 c 4 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound3.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 5 + T2 c 4 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  -- the device's own rows are chunk 3 of the group
  ihave Gc3 := (Entails.of_eq (congrArg (fun t : Dev nD => (piece c (gChunk 1 t) fullShare (Gfun m c) : sProp 𝕄)) hc)) $$ Hg1c
  ihave GG1 := (gGroup_join c 1 1 fullShare (Gfun m c) 2 3 rfl rfl) $$ [Gc2 Gc3]
  · isplitl [Gc2] <;> iassumption
  sl_exec
  -- group 1 of layer 2 now holds the device's partial product
  unfold segC1_sound3.sl.PG1_w1 segC1_sound3.sl.r segC1_sound3.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound3.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound3.sl.PG3_w1 segC1_sound3.sl.r_2 segC1_sound3.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs4 Cs5 Cs6 Cs7]
  · rw [sepL7]
    isplitl [Cs0]; · iexact Cs0
    isplitl [Cs1]; · iexact Cs1
    isplitl [Cs2]; · iexact Cs2
    isplitl [Cs4]; · iexact Cs4
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg0 Pg1 Pg2 Pg4 Pg5 Pg6 Pg7]
  · rw [sepL7]
    isplitl [Pg0]; · iexact Pg0
    isplitl [Pg1]; · iexact Pg1
    isplitl [Pg2]; · iexact Pg2
    isplitl [Pg4]; · iexact Pg4
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A03]
    · iapply (Entails.of_eq (congrArg (fun t : Dev nD => (ex (F := F) c (pChunk 0 t) : sProp 𝕄)) hc.symm))
      iapply (ex_of c (pChunk 0 3) _); iexact A03
    isplitl [A00]; · iapply (ex_of c (pChunk 0 0) _); iexact A00
    isplitl [A01]; · iapply (ex_of c (pChunk 0 1) _); iexact A01
    isplitl [A02]; · iapply (ex_of c (pChunk 0 2) _); iexact A02
    isplitl [A04]; · iapply (ex_of c (pChunk 0 4) _); iexact A04
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A13]
    · iapply (Entails.of_eq (congrArg (fun t : Dev nD => (ex (F := F) c (pChunk 1 t) : sProp 𝕄)) hc.symm))
      iapply (ex_of c (pChunk 1 3) _); iexact A13
    isplitl [A10]; · iapply (ex_of c (pChunk 1 0) _); iexact A10
    isplitl [A11]; · iapply (ex_of c (pChunk 1 1) _); iexact A11
    isplitl [A12]; · iapply (ex_of c (pChunk 1 2) _); iexact A12
    isplitl [A14]; · iapply (ex_of c (pChunk 1 4) _); iexact A14
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B23]
  · iapply (Entails.of_eq (congrArg (fun t : Dev nD => (piece c (pChunk 2 t) fullShare (Pfun m c) : sProp 𝕄)) hc.symm)); iexact B23
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G13]
    · iapply (Entails.of_eq (congrArg (fun t : Dev nD => (ex (F := F) c (gChunk 1 t) : sProp 𝕄)) hc.symm))
      iapply (ex_of c (gChunk 1 3) _); iexact G13
    isplitl [G10]; · iapply (ex_of c (gChunk 1 0) _); iexact G10
    isplitl [G11]; · iapply (ex_of c (gChunk 1 1) _); iexact G11
    isplitl [G12]; · iapply (ex_of c (gChunk 1 2) _); iexact G12
    isplitl [G14]; · iapply (ex_of c (gChunk 1 4) _); iexact G14
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelIdealProof.segC1_sound3' depends on axioms: [propext, Classical.choice, Quot.sound] -/
#guard_msgs in #print axioms segC1_sound3

end Cert.KernelIdealProof

end
-- ==== Proof.BodySegC2_d3.lean ====
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.BodyExit
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 2 on the device at position 3: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound3 (c : Dev nD) (hc : c = 3) (K : GSem nD τ sig → ℕ) (Kt : PUnit → sProp 𝕄) :
    iprop(mid3 m K c [(0 : Dev nD), 1, 2, 4, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 4, 5, 6, 7]).toFinset := by subst hc; decide
  have hnd : ([(0 : Dev nD), 1, 2, 4, 5, 6, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : ¬ k0_cond60 c = 1#1 := fun h => (cond60_iff c).mp h hc
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound3.sl.v846 m c : Vec F S1x64x256 .bf16) = chunkOf (P2 m c) c := own_chunk_read m c _
  have e861 : ∀ a, (segC2_sound3.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound3.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound3.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound3.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound3.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound3.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound3.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound3.sl.r_3 m c a1 a2 a3 a4 a5 a6) (segC2_sound3.sl.v957 m c a7) = red2 m c := by
    intro a1 a2 a3 a4 a5 a6 a7
    unfold segC2_sound3.sl.r_3 segC2_sound3.sl.r_2 segC2_sound3.sl.r_1 segC2_sound3.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound3.sl.r_3 m c fs1 fs2 fs3 fs4 fs5 fs6) (segC2_sound3.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelIdealProof.segC2_sound3' depends on axioms: [propext, Classical.choice, Quot.sound] -/
#guard_msgs in #print axioms segC2_sound3

end Cert.KernelIdealProof

end
-- ==== Proof.BodySegA2_d4.lean ====
import proofs.«900993_g7700000000000994_dist_mlpseq_tp1d_rep_bs_b512_d256_h512_v7x_i8_bf16_1_alg».proof.Proof.BodySegA2Lib

/-! The second half of layer 0 on device 4: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 3, 5, 6, 7] : List (Dev nD))

omit [FloatOps F] in
/-- Everything still owed after layer 0's gather sends is owed to cells above the level of the layer's send cells. -/
theorem above_a2_rest_d4 (c : Dev nD) : Above 3 (a2_rest c Ts) := by
  unfold a2_rest owesRedL owesGatL ringF
  simp only [List.map, List.sum_cons, List.sum_nil]
  owes_above

theorem segA2_sound4 (c : Dev nD) (hc : c = 4) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : ¬ k0_cond13 c = 1#1 := fun h => (cond13_iff c).mp h hc
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : ¬ Scalar.cmpi .ne (Scalar.extui (Scalar.cmpi .ne (Scalar.remsi (Scalar.divsi (Dev.word c) 1#32) 8#32) 4#32)) 0#32 = 1#1 := fun h => (condw4_iff c).mp h hc
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d4 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d4 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound4.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound4.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound4.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound4.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound4.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound4.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound4.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound4.sl.r_2 m c v78 a1 a2 a3 a4 a5) (segA2_sound4.sl.v171 m c a6) (segA2_sound4.sl.v187 m c a7) = red0 m c := by
    intro a1 a2 a3 a4 a5 a6 a7
    unfold segA2_sound4.sl.r_2 segA2_sound4.sl.r_1 segA2_sound4.sl.r
    rw [e91, e107, e123, e139, e155, e171, e187, hv]
    rfl
  have hG0 : ∀ g a1 a2 a3 a4 a5 a6 a7, ∀ i ∈ (gChunk 0 c).view.set, segA2_sound4.sl.G0c_w1 m c v78 g a1 a2 a3 a4 a5 a6 a7 i = Gfun m c i := by
    intro g a1 a2 a3 a4 a5 a6 a7 i hi
    unfold segA2_sound4.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelIdealProof

end
-- ==== Proof.BodySegB2_d4.lean ====
import proofs.«900993_g7700000000000994_dist_mlpseq_tp1d_rep_bs_b512_d256_h512_v7x_i8_bf16_1_alg».proof.Proof.BodySegBCut
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 1 on the device at position 4: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound4 (c : Dev nD) (hc : c = 4) (K : GSem nD τ sig → ℕ) (Kt : PUnit → sProp 𝕄) (v463 : FVec F S64x256 .f32) (v466 : BitVec 32) :
    iprop(midB m K c [(0 : Dev nD), 1, 2, 3, 5, 6, 7] v463 ∗ (mid2 m K c [(0 : Dev nD), 1, 2, 3, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : ¬ k0_cond37 c = 1#1 := fun h => (cond37_iff c).mp h hc
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 2, 3, 5, 6, 7] 2) := by
    unfold owesRedL
    simp only [List.map_cons, List.map_nil, List.sum_cons, List.sum_nil]
    owes_above
  have hdebt : owesRedL c [(0 : Dev nD), 1, 2, 3, 5, 6, 7] 2 + owesGatL c 1
      = owesRedL c [(0 : Dev nD), 1, 2, 3, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 3, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound4.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound4.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound4.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound4.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound4.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound4.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound4.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound4.sl.r_2 m c a1 a2 a3 a4 a5 a6) (segB2_sound4.sl.v572 m c a7) = red1 m c := by
    intro a1 a2 a3 a4 a5 a6 a7
    unfold segB2_sound4.sl.r_2 segB2_sound4.sl.r_1 segB2_sound4.sl.r
    rw [e476, e492, e508, e524, e540, e556, e572]
    rfl
  have hG1 : ∀ i ∈ (gChunk 1 c).view.set, segB2_sound4.sl.G1c_w1 m c g1 fs1 fs2 fs3 fs4 fs5 fs6 fs7 i = Gfun m c i := by
    intro i hi
    unfold segB2_sound4.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelIdealProof.segB2_sound4' depends on axioms: [propext, Classical.choice, Quot.sound] -/
#guard_msgs in #print axioms segB2_sound4

end Cert.KernelIdealProof

end
-- ==== Proof.BodySegC1_d4.lean ====
import proofs.«900993_g7700000000000994_dist_mlpseq_tp1d_rep_bs_b512_d256_h512_v7x_i8_bf16_1_alg».proof.Proof.BodySegC1Lib
import Idealize.ShloMosaic.Lib.Tactic

/-! The first half of layer 2 on the device at position 4: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 4 owes for layer 2, the summands in the reverse of the order its sends pay them. -/
theorem owesRedL_rev_d4 (c : Dev nD) :
    owesRedL c [(0 : Dev nD), 1, 2, 3, 5, 6, 7] 2 = 0 + T2 c 7 + T2 c 6 + T2 c 5 + T2 c 3 + T2 c 2 + T2 c 1 + T2 c 0 := by
  unfold owesRedL T2
  simp only [List.map, List.sum_cons, List.sum_nil]
  abel

theorem segC1_sound4 (c : Dev nD) (hc : c = 4) (K : GSem nD τ sig → ℕ) (Kt : PUnit → sProp 𝕄) :
    iprop(mid2 m K c [(0 : Dev nD), 1, 2, 3, 5, 6, 7] ∗ (mid3 m K c [(0 : Dev nD), 1, 2, 3, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 := (condw0_iff c).mpr hne0
  have hw1 := (condw1_iff c).mpr hne1
  have hw2 := (condw2_iff c).mpr hne2
  have hw3 := (condw3_iff c).mpr hne3
  have hw4 : ¬ _ := fun h => (condw4_iff c).mp h hc
  have hw5 := (condw5_iff c).mpr hne5
  have hw6 := (condw6_iff c).mpr hne6
  have hw7 := (condw7_iff c).mpr hne7
  have hg43 : k0_cond43 c = 1#1 := (cond43_iff c).mpr hne0
  have hg44 : k0_cond44 c = 1#1 := (cond44_iff c).mpr hne1
  have hg47 : k0_cond47 c = 1#1 := (cond47_iff c).mpr hne2
  have hg48 : k0_cond48 c = 1#1 := (cond48_iff c).mpr hne3
  have hg51 : ¬ k0_cond51 c = 1#1 := fun h => (cond51_iff c).mp h hc
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts3, Tr3⟩, ⟨Ts5, Tr5⟩, ⟨Ts6, Tr6⟩, ⟨Ts7, Tr7⟩⟩, -⟩, HposRed2, -, Hdest⟩, ⟨⟨Pg0, Cg0⟩, ⟨Pg1, Cg1⟩, ⟨Pg2, Cg2⟩, ⟨Pg3, Cg3⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d4 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 5 + T2 c 3 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 6 + T2 c 5 + T2 c 3 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound4.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 5 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 6 + T2 c 5 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound4.sl.PG1_w1 segC1_sound4.sl.r segC1_sound4.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 5's rows of the second activation
  ihave Ig := (invsAll_at m K c (.gr 1 5)) $$ Hinv
  ihave Hmw := (mayWait_gr (F := F) c 1 5 (0 + T2 c 7 + T2 c 6 + T2 c 5) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  -- the device's own rows are chunk 4 of the group
  ihave Gc4 := (Entails.of_eq (congrArg (fun t : Dev nD => (piece c (gChunk 1 t) fullShare (Gfun m c) : sProp 𝕄)) hc)) $$ Hg1c
  ihave GG2 := (gGroup_join c 1 2 fullShare (Gfun m c) 4 5 rfl rfl) $$ [Gc4 Gc5]
  · isplitl [Gc4] <;> iassumption
  sl_exec
  -- group 2 of layer 2 now holds the device's partial product
  unfold segC1_sound4.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound4.sl.PG3_w1 segC1_sound4.sl.r_2 segC1_sound4.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs3 Cs5 Cs6 Cs7]
  · rw [sepL7]
    isplitl [Cs0]; · iexact Cs0
    isplitl [Cs1]; · iexact Cs1
    isplitl [Cs2]; · iexact Cs2
    isplitl [Cs3]; · iexact Cs3
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg0 Pg1 Pg2 Pg3 Pg5 Pg6 Pg7]
  · rw [sepL7]
    isplitl [Pg0]; · iexact Pg0
    isplitl [Pg1]; · iexact Pg1
    isplitl [Pg2]; · iexact Pg2
    isplitl [Pg3]; · iexact Pg3
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A04]
    · iapply (Entails.of_eq (congrArg (fun t : Dev nD => (ex (F := F) c (pChunk 0 t) : sProp 𝕄)) hc.symm))
      iapply (ex_of c (pChunk 0 4) _); iexact A04
    isplitl [A00]; · iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A14]
    · iapply (Entails.of_eq (congrArg (fun t : Dev nD => (ex (F := F) c (pChunk 1 t) : sProp 𝕄)) hc.symm))
      iapply (ex_of c (pChunk 1 4) _); iexact A14
    isplitl [A10]; · iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B24]
  · iapply (Entails.of_eq (congrArg (fun t : Dev nD => (piece c (pChunk 2 t) fullShare (Pfun m c) : sProp 𝕄)) hc.symm)); iexact B24
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G14]
    · iapply (Entails.of_eq (congrArg (fun t : Dev nD => (ex (F := F) c (gChunk 1 t) : sProp 𝕄)) hc.symm))
      iapply (ex_of c (gChunk 1 4) _); iexact G14
    isplitl [G10]; · iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelIdealProof.segC1_sound4' depends on axioms: [propext, Classical.choice, Quot.sound] -/
#guard_msgs in #print axioms segC1_sound4

end Cert.KernelIdealProof

end
-- ==== Proof.BodySegC2_d4.lean ====
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.BodyExit
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 2 on the device at position 4: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound4 (c : Dev nD) (hc : c = 4) (K : GSem nD τ sig → ℕ) (Kt : PUnit → sProp 𝕄) :
    iprop(mid3 m K c [(0 : Dev nD), 1, 2, 3, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 3, 5, 6, 7]).toFinset := by subst hc; decide
  have hnd : ([(0 : Dev nD), 1, 2, 3, 5, 6, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : ¬ k0_cond61 c = 1#1 := fun h => (cond61_iff c).mp h hc
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound4.sl.v846 m c : Vec F S1x64x256 .bf16) = chunkOf (P2 m c) c := own_chunk_read m c _
  have e861 : ∀ a, (segC2_sound4.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound4.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound4.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound4.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound4.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound4.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound4.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound4.sl.r_3 m c a1 a2 a3 a4 a5 a6) (segC2_sound4.sl.v957 m c a7) = red2 m c := by
    intro a1 a2 a3 a4 a5 a6 a7
    unfold segC2_sound4.sl.r_3 segC2_sound4.sl.r_2 segC2_sound4.sl.r_1 segC2_sound4.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound4.sl.r_3 m c fs1 fs2 fs3 fs4 fs5 fs6) (segC2_sound4.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelIdealProof.segC2_sound4' depends on axioms: [propext, Classical.choice, Quot.sound] -/
#guard_msgs in #print axioms segC2_sound4

end Cert.KernelIdealProof

end
-- ==== Proof.BodySegA2_d5.lean ====
import proofs.«900993_g7700000000000994_dist_mlpseq_tp1d_rep_bs_b512_d256_h512_v7x_i8_bf16_1_alg».proof.Proof.BodySegA2Lib

/-! The second half of layer 0 on device 5: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 3, 4, 6, 7] : List (Dev nD))

omit [FloatOps F] in
/-- Everything still owed after layer 0's gather sends is owed to cells above the level of the layer's send cells. -/
theorem above_a2_rest_d5 (c : Dev nD) : Above 3 (a2_rest c Ts) := by
  unfold a2_rest owesRedL owesGatL ringF
  simp only [List.map, List.sum_cons, List.sum_nil]
  owes_above

theorem segA2_sound5 (c : Dev nD) (hc : c = 5) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : ¬ k0_cond14 c = 1#1 := fun h => (cond14_iff c).mp h hc
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : ¬ Scalar.cmpi .ne (Scalar.extui (Scalar.cmpi .ne (Scalar.remsi (Scalar.divsi (Dev.word c) 1#32) 8#32) 5#32)) 0#32 = 1#1 := fun h => (condw5_iff c).mp h hc
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d5 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d5 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound5.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound5.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound5.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound5.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound5.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound5.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound5.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound5.sl.r_2 m c v78 a1 a2 a3 a4 a5) (segA2_sound5.sl.v171 m c a6) (segA2_sound5.sl.v187 m c a7) = red0 m c := by
    intro a1 a2 a3 a4 a5 a6 a7
    unfold segA2_sound5.sl.r_2 segA2_sound5.sl.r_1 segA2_sound5.sl.r
    rw [e91, e107, e123, e139, e155, e171, e187, hv]
    rfl
  have hG0 : ∀ g a1 a2 a3 a4 a5 a6 a7, ∀ i ∈ (gChunk 0 c).view.set, segA2_sound5.sl.G0c_w1 m c v78 g a1 a2 a3 a4 a5 a6 a7 i = Gfun m c i := by
    intro g a1 a2 a3 a4 a5 a6 a7 i hi
    unfold segA2_sound5.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelIdealProof

end
-- ==== Proof.BodySegB2_d5.lean ====
import proofs.«900993_g7700000000000994_dist_mlpseq_tp1d_rep_bs_b512_d256_h512_v7x_i8_bf16_1_alg».proof.Proof.BodySegBCut
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 1 on the device at position 5: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound5 (c : Dev nD) (hc : c = 5) (K : GSem nD τ sig → ℕ) (Kt : PUnit → sProp 𝕄) (v463 : FVec F S64x256 .f32) (v466 : BitVec 32) :
    iprop(midB m K c [(0 : Dev nD), 1, 2, 3, 4, 6, 7] v463 ∗ (mid2 m K c [(0 : Dev nD), 1, 2, 3, 4, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : ¬ k0_cond38 c = 1#1 := fun h => (cond38_iff c).mp h hc
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 2, 3, 4, 6, 7] 2) := by
    unfold owesRedL
    simp only [List.map_cons, List.map_nil, List.sum_cons, List.sum_nil]
    owes_above
  have hdebt : owesRedL c [(0 : Dev nD), 1, 2, 3, 4, 6, 7] 2 + owesGatL c 1
      = owesRedL c [(0 : Dev nD), 1, 2, 3, 4, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 3, 4, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound5.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound5.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound5.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound5.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound5.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound5.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound5.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound5.sl.r_2 m c a1 a2 a3 a4 a5 a6) (segB2_sound5.sl.v572 m c a7) = red1 m c := by
    intro a1 a2 a3 a4 a5 a6 a7
    unfold segB2_sound5.sl.r_2 segB2_sound5.sl.r_1 segB2_sound5.sl.r
    rw [e476, e492, e508, e524, e540, e556, e572]
    rfl
  have hG1 : ∀ i ∈ (gChunk 1 c).view.set, segB2_sound5.sl.G1c_w1 m c g1 fs1 fs2 fs3 fs4 fs5 fs6 fs7 i = Gfun m c i := by
    intro i hi
    unfold segB2_sound5.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelIdealProof.segB2_sound5' depends on axioms: [propext, Classical.choice, Quot.sound] -/
#guard_msgs in #print axioms segB2_sound5

end Cert.KernelIdealProof

end
-- ==== Proof.BodySegC1_d5.lean ====
import proofs.«900993_g7700000000000994_dist_mlpseq_tp1d_rep_bs_b512_d256_h512_v7x_i8_bf16_1_alg».proof.Proof.BodySegC1Lib
import Idealize.ShloMosaic.Lib.Tactic

/-! The first half of layer 2 on the device at position 5: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 5 owes for layer 2, the summands in the reverse of the order its sends pay them. -/
theorem owesRedL_rev_d5 (c : Dev nD) :
    owesRedL c [(0 : Dev nD), 1, 2, 3, 4, 6, 7] 2 = 0 + T2 c 7 + T2 c 6 + T2 c 4 + T2 c 3 + T2 c 2 + T2 c 1 + T2 c 0 := by
  unfold owesRedL T2
  simp only [List.map, List.sum_cons, List.sum_nil]
  abel

theorem segC1_sound5 (c : Dev nD) (hc : c = 5) (K : GSem nD τ sig → ℕ) (Kt : PUnit → sProp 𝕄) :
    iprop(mid2 m K c [(0 : Dev nD), 1, 2, 3, 4, 6, 7] ∗ (mid3 m K c [(0 : Dev nD), 1, 2, 3, 4, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne6 : c ≠ (6 : Dev nD) := by rw [hc]; decide
  have hne7 : c ≠ (7 : Dev nD) := by rw [hc]; decide
  have hw0 := (condw0_iff c).mpr hne0
  have hw1 := (condw1_iff c).mpr hne1
  have hw2 := (condw2_iff c).mpr hne2
  have hw3 := (condw3_iff c).mpr hne3
  have hw4 := (condw4_iff c).mpr hne4
  have hw5 : ¬ _ := fun h => (condw5_iff c).mp h hc
  have hw6 := (condw6_iff c).mpr hne6
  have hw7 := (condw7_iff c).mpr hne7
  have hg43 : k0_cond43 c = 1#1 := (cond43_iff c).mpr hne0
  have hg44 : k0_cond44 c = 1#1 := (cond44_iff c).mpr hne1
  have hg47 : k0_cond47 c = 1#1 := (cond47_iff c).mpr hne2
  have hg48 : k0_cond48 c = 1#1 := (cond48_iff c).mpr hne3
  have hg51 : k0_cond51 c = 1#1 := (cond51_iff c).mpr hne4
  have hg52 : ¬ k0_cond52 c = 1#1 := fun h => (cond52_iff c).mp h hc
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts3, Tr3⟩, ⟨Ts4, Tr4⟩, ⟨Ts6, Tr6⟩, ⟨Ts7, Tr7⟩⟩, -⟩, HposRed2, -, Hdest⟩, ⟨⟨Pg0, Cg0⟩, ⟨Pg1, Cg1⟩, ⟨Pg2, Cg2⟩, ⟨Pg3, Cg3⟩, ⟨Pg4, Cg4⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d5 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 4 + T2 c 3 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 6 + T2 c 4 + T2 c 3 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound5.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 6 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound5.sl.PG1_w1 segC1_sound5.sl.r segC1_sound5.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  -- the device's own rows are chunk 5 of the group
  ihave Gc5 := (Entails.of_eq (congrArg (fun t : Dev nD => (piece c (gChunk 1 t) fullShare (Gfun m c) : sProp 𝕄)) hc)) $$ Hg1c
  ihave GG2 := (gGroup_join c 1 2 fullShare (Gfun m c) 4 5 rfl rfl) $$ [Gc4 Gc5]
  · isplitl [Gc4] <;> iassumption
  sl_exec
  -- group 2 of layer 2 now holds the device's partial product
  unfold segC1_sound5.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound5.sl.PG3_w1 segC1_sound5.sl.r_2 segC1_sound5.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs3 Cs4 Cs6 Cs7]
  · rw [sepL7]
    isplitl [Cs0]; · iexact Cs0
    isplitl [Cs1]; · iexact Cs1
    isplitl [Cs2]; · iexact Cs2
    isplitl [Cs3]; · iexact Cs3
    isplitl [Cs4]; · iexact Cs4
    isplitl [Cs6]; · iexact Cs6
    iexact Cs7
  isplitl [Hpd0]; · iexact Hpd0
  isplitl [Hpd1]; · iexact Hpd1
  isplitl [HpdG0]; · iexact HpdG0
  isplitl [Pg0 Pg1 Pg2 Pg3 Pg4 Pg6 Pg7]
  · rw [sepL7]
    isplitl [Pg0]; · iexact Pg0
    isplitl [Pg1]; · iexact Pg1
    isplitl [Pg2]; · iexact Pg2
    isplitl [Pg3]; · iexact Pg3
    isplitl [Pg4]; · iexact Pg4
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A05]
    · iapply (Entails.of_eq (congrArg (fun t : Dev nD => (ex (F := F) c (pChunk 0 t) : sProp 𝕄)) hc.symm))
      iapply (ex_of c (pChunk 0 5) _); iexact A05
    isplitl [A00]; · iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A04]; · iapply (ex_of c (pChunk 0 4) _); iexact A04
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A15]
    · iapply (Entails.of_eq (congrArg (fun t : Dev nD => (ex (F := F) c (pChunk 1 t) : sProp 𝕄)) hc.symm))
      iapply (ex_of c (pChunk 1 5) _); iexact A15
    isplitl [A10]; · iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A14]; · iapply (ex_of c (pChunk 1 4) _); iexact A14
    isplitl [A16]; · iapply (ex_of c (pChunk 1 6) _); iexact A16
    iapply (ex_of c (pChunk 1 7) _); iexact A17
  -- the device's own chunk of layer 2, holding its partial product
  isplitl [B25]
  · iapply (Entails.of_eq (congrArg (fun t : Dev nD => (piece c (pChunk 2 t) fullShare (Pfun m c) : sProp 𝕄)) hc.symm)); iexact B25
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G15]
    · iapply (Entails.of_eq (congrArg (fun t : Dev nD => (ex (F := F) c (gChunk 1 t) : sProp 𝕄)) hc.symm))
      iapply (ex_of c (gChunk 1 5) _); iexact G15
    isplitl [G10]; · iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G14]; · iapply (ex_of c (gChunk 1 4) _); iexact G14
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelIdealProof.segC1_sound5' depends on axioms: [propext, Classical.choice, Quot.sound] -/
#guard_msgs in #print axioms segC1_sound5

end Cert.KernelIdealProof

end
-- ==== Proof.BodySegC2_d5.lean ====
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.BodyExit
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 2 on the device at position 5: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound5 (c : Dev nD) (hc : c = 5) (K : GSem nD τ sig → ℕ) (Kt : PUnit → sProp 𝕄) :
    iprop(mid3 m K c [(0 : Dev nD), 1, 2, 3, 4, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 3, 4, 6, 7]).toFinset := by subst hc; decide
  have hnd : ([(0 : Dev nD), 1, 2, 3, 4, 6, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : ¬ k0_cond62 c = 1#1 := fun h => (cond62_iff c).mp h hc
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound5.sl.v846 m c : Vec F S1x64x256 .bf16) = chunkOf (P2 m c) c := own_chunk_read m c _
  have e861 : ∀ a, (segC2_sound5.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound5.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound5.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound5.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound5.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound5.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound5.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound5.sl.r_3 m c a1 a2 a3 a4 a5 a6) (segC2_sound5.sl.v957 m c a7) = red2 m c := by
    intro a1 a2 a3 a4 a5 a6 a7
    unfold segC2_sound5.sl.r_3 segC2_sound5.sl.r_2 segC2_sound5.sl.r_1 segC2_sound5.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound5.sl.r_3 m c fs1 fs2 fs3 fs4 fs5 fs6) (segC2_sound5.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelIdealProof.segC2_sound5' depends on axioms: [propext, Classical.choice, Quot.sound] -/
#guard_msgs in #print axioms segC2_sound5

end Cert.KernelIdealProof

end
-- ==== Proof.BodySegA2_d6.lean ====
import proofs.«900993_g7700000000000994_dist_mlpseq_tp1d_rep_bs_b512_d256_h512_v7x_i8_bf16_1_alg».proof.Proof.BodySegA2Lib

/-! The second half of layer 0 on device 6: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 3, 4, 5, 7] : List (Dev nD))

omit [FloatOps F] in
/-- Everything still owed after layer 0's gather sends is owed to cells above the level of the layer's send cells. -/
theorem above_a2_rest_d6 (c : Dev nD) : Above 3 (a2_rest c Ts) := by
  unfold a2_rest owesRedL owesGatL ringF
  simp only [List.map, List.sum_cons, List.sum_nil]
  owes_above

theorem segA2_sound6 (c : Dev nD) (hc : c = 6) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : ¬ k0_cond15 c = 1#1 := fun h => (cond15_iff c).mp h hc
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : ¬ Scalar.cmpi .ne (Scalar.extui (Scalar.cmpi .ne (Scalar.remsi (Scalar.divsi (Dev.word c) 1#32) 8#32) 6#32)) 0#32 = 1#1 := fun h => (condw6_iff c).mp h hc
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d6 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d6 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound6.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound6.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound6.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound6.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound6.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound6.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound6.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound6.sl.r_2 m c v78 a1 a2 a3 a4 a5) (segA2_sound6.sl.v171 m c a6) (segA2_sound6.sl.v187 m c a7) = red0 m c := by
    intro a1 a2 a3 a4 a5 a6 a7
    unfold segA2_sound6.sl.r_2 segA2_sound6.sl.r_1 segA2_sound6.sl.r
    rw [e91, e107, e123, e139, e155, e171, e187, hv]
    rfl
  have hG0 : ∀ g a1 a2 a3 a4 a5 a6 a7, ∀ i ∈ (gChunk 0 c).view.set, segA2_sound6.sl.G0c_w1 m c v78 g a1 a2 a3 a4 a5 a6 a7 i = Gfun m c i := by
    intro g a1 a2 a3 a4 a5 a6 a7 i hi
    unfold segA2_sound6.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelIdealProof

end
-- ==== Proof.BodySegB2_d6.lean ====
import proofs.«900993_g7700000000000994_dist_mlpseq_tp1d_rep_bs_b512_d256_h512_v7x_i8_bf16_1_alg».proof.Proof.BodySegBCut
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 1 on the device at position 6: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound6 (c : Dev nD) (hc : c = 6) (K : GSem nD τ sig → ℕ) (Kt : PUnit → sProp 𝕄) (v463 : FVec F S64x256 .f32) (v466 : BitVec 32) :
    iprop(midB m K c [(0 : Dev nD), 1, 2, 3, 4, 5, 7] v463 ∗ (mid2 m K c [(0 : Dev nD), 1, 2, 3, 4, 5, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : ¬ k0_cond39 c = 1#1 := fun h => (cond39_iff c).mp h hc
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 2, 3, 4, 5, 7] 2) := by
    unfold owesRedL
    simp only [List.map_cons, List.map_nil, List.sum_cons, List.sum_nil]
    owes_above
  have hdebt : owesRedL c [(0 : Dev nD), 1, 2, 3, 4, 5, 7] 2 + owesGatL c 1
      = owesRedL c [(0 : Dev nD), 1, 2, 3, 4, 5, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 3, 4, 5, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound6.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound6.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound6.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound6.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound6.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound6.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound6.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound6.sl.r_2 m c a1 a2 a3 a4 a5 a6) (segB2_sound6.sl.v572 m c a7) = red1 m c := by
    intro a1 a2 a3 a4 a5 a6 a7
    unfold segB2_sound6.sl.r_2 segB2_sound6.sl.r_1 segB2_sound6.sl.r
    rw [e476, e492, e508, e524, e540, e556, e572]
    rfl
  have hG1 : ∀ i ∈ (gChunk 1 c).view.set, segB2_sound6.sl.G1c_w1 m c g1 fs1 fs2 fs3 fs4 fs5 fs6 fs7 i = Gfun m c i := by
    intro i hi
    unfold segB2_sound6.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelIdealProof.segB2_sound6' depends on axioms: [propext, Classical.choice, Quot.sound] -/
#guard_msgs in #print axioms segB2_sound6

end Cert.KernelIdealProof

end
-- ==== Proof.BodySegC1_d6.lean ====
import proofs.«900993_g7700000000000994_dist_mlpseq_tp1d_rep_bs_b512_d256_h512_v7x_i8_bf16_1_alg».proof.Proof.BodySegC1Lib
import Idealize.ShloMosaic.Lib.Tactic

/-! The first half of layer 2 on the device at position 6: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 6 owes for layer 2, the summands in the reverse of the order its sends pay them. -/
theorem owesRedL_rev_d6 (c : Dev nD) :
    owesRedL c [(0 : Dev nD), 1, 2, 3, 4, 5, 7] 2 = 0 + T2 c 7 + T2 c 5 + T2 c 4 + T2 c 3 + T2 c 2 + T2 c 1 + T2 c 0 := by
  unfold owesRedL T2
  simp only [List.map, List.sum_cons, List.sum_nil]
  abel

theorem segC1_sound6 (c : Dev nD) (hc : c = 6) (K : GSem nD τ sig → ℕ) (Kt : PUnit → sProp 𝕄) :
    iprop(mid2 m K c [(0 : Dev nD), 1, 2, 3, 4, 5, 7] ∗ (mid3 m K c [(0 : Dev nD), 1, 2, 3, 4, 5, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne7 : c ≠ (7 : Dev nD) := by rw [hc]; decide
  have hw0 := (condw0_iff c).mpr hne0
  have hw1 := (condw1_iff c).mpr hne1
  have hw2 := (condw2_iff c).mpr hne2
  have hw3 := (condw3_iff c).mpr hne3
  have hw4 := (condw4_iff c).mpr hne4
  have hw5 := (condw5_iff c).mpr hne5
  have hw6 : ¬ _ := fun h => (condw6_iff c).mp h hc
  have hw7 := (condw7_iff c).mpr hne7
  have hg43 : k0_cond43 c = 1#1 := (cond43_iff c).mpr hne0
  have hg44 : k0_cond44 c = 1#1 := (cond44_iff c).mpr hne1
  have hg47 : k0_cond47 c = 1#1 := (cond47_iff c).mpr hne2
  have hg48 : k0_cond48 c = 1#1 := (cond48_iff c).mpr hne3
  have hg51 : k0_cond51 c = 1#1 := (cond51_iff c).mpr hne4
  have hg52 : k0_cond52 c = 1#1 := (cond52_iff c).mpr hne5
  have hg55 : ¬ k0_cond55 c = 1#1 := fun h => (cond55_iff c).mp h hc
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts3, Tr3⟩, ⟨Ts4, Tr4⟩, ⟨Ts5, Tr5⟩, ⟨Ts7, Tr7⟩⟩, -⟩, HposRed2, -, Hdest⟩, ⟨⟨Pg0, Cg0⟩, ⟨Pg1, Cg1⟩, ⟨Pg2, Cg2⟩, ⟨Pg3, Cg3⟩, ⟨Pg4, Cg4⟩, ⟨Pg5, Cg5⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d6 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 5 + T2 c 4 + T2 c 3 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 5 + T2 c 4 + T2 c 3 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound6.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 5 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 5 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound6.sl.PG1_w1 segC1_sound6.sl.r segC1_sound6.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound6.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 7's rows of the second activation
  ihave Ig := (invsAll_at m K c (.gr 1 7)) $$ Hinv
  ihave Hmw := (mayWait_gr (F := F) c 1 7 (0 + T2 c 7) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  -- the device's own rows are chunk 6 of the group
  ihave Gc6 := (Entails.of_eq (congrArg (fun t : Dev nD => (piece c (gChunk 1 t) fullShare (Gfun m c) : sProp 𝕄)) hc)) $$ Hg1c
  ihave GG3 := (gGroup_join c 1 3 fullShare (Gfun m c) 6 7 rfl rfl) $$ [Gc6 Gc7]
  · isplitl [Gc6] <;> iassumption
  sl_exec
  -- group 3 of layer 2 now holds the device's partial product
  unfold segC1_sound6.sl.PG3_w1 segC1_sound6.sl.r_2 segC1_sound6.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs3 Cs4 Cs5 Cs7]
  · rw [sepL7]
    isplitl [Cs0]; · iexact Cs0
    isplitl [Cs1]; · iexact Cs1
    isplitl [Cs2]; · iexact Cs2
    isplitl [Cs3]; · iexact Cs3
    isplitl [Cs4]; · iexact Cs4
    isplitl [Cs5]; · iexact Cs5
    iexact Cs7
  isplitl [Hpd0]; · iexact Hpd0
  isplitl [Hpd1]; · iexact Hpd1
  isplitl [HpdG0]; · iexact HpdG0
  isplitl [Pg0 Pg1 Pg2 Pg3 Pg4 Pg5 Pg7]
  · rw [sepL7]
    isplitl [Pg0]; · iexact Pg0
    isplitl [Pg1]; · iexact Pg1
    isplitl [Pg2]; · iexact Pg2
    isplitl [Pg3]; · iexact Pg3
    isplitl [Pg4]; · iexact Pg4
    isplitl [Pg5]; · iexact Pg5
    iexact Pg7
  isplitl [Hrest]; · iexact Hrest
  -- layer 0 of the partial-product buffer: its eight chunks, at whatever they hold
  isplitl [A00 A01 A02 A03 A04 A05 A06 A07]
  · unfold chunksP
    rw [sepL7]
    isplitl [A06]
    · iapply (Entails.of_eq (congrArg (fun t : Dev nD => (ex (F := F) c (pChunk 0 t) : sProp 𝕄)) hc.symm))
      iapply (ex_of c (pChunk 0 6) _); iexact A06
    isplitl [A00]; · iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A04]; · iapply (ex_of c (pChunk 0 4) _); iexact A04
    isplitl [A05]; · iapply (ex_of c (pChunk 0 5) _); iexact A05
    iapply (ex_of c (pChunk 0 7) _); iexact A07
  -- layer 1 of the partial-product buffer: its eight chunks, at whatever they hold
  isplitl [A10 A11 A12 A13 A14 A15 A16 A17]
  · unfold chunksP
    rw [sepL7]
    isplitl [A16]
    · iapply (Entails.of_eq (congrArg (fun t : Dev nD => (ex (F := F) c (pChunk 1 t) : sProp 𝕄)) hc.symm))
      iapply (ex_of c (pChunk 1 6) _); iexact A16
    isplitl [A10]; · iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A14]; · iapply (ex_of c (pChunk 1 4) _); iexact A14
    isplitl [A15]; · iapply (ex_of c (pChunk 1 5) _); iexact A15
    iapply (ex_of c (pChunk 1 7) _); iexact A17
  -- the device's own chunk of layer 2, holding its partial product
  isplitl [B26]
  · iapply (Entails.of_eq (congrArg (fun t : Dev nD => (piece c (pChunk 2 t) fullShare (Pfun m c) : sProp 𝕄)) hc.symm)); iexact B26
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G16]
    · iapply (Entails.of_eq (congrArg (fun t : Dev nD => (ex (F := F) c (gChunk 1 t) : sProp 𝕄)) hc.symm))
      iapply (ex_of c (gChunk 1 6) _); iexact G16
    isplitl [G10]; · iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G14]; · iapply (ex_of c (gChunk 1 4) _); iexact G14
    isplitl [G15]; · iapply (ex_of c (gChunk 1 5) _); iexact G15
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelIdealProof.segC1_sound6' depends on axioms: [propext, Classical.choice, Quot.sound] -/
#guard_msgs in #print axioms segC1_sound6

end Cert.KernelIdealProof

end
-- ==== Proof.BodySegC2_d6.lean ====
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.BodyExit
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 2 on the device at position 6: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound6 (c : Dev nD) (hc : c = 6) (K : GSem nD τ sig → ℕ) (Kt : PUnit → sProp 𝕄) :
    iprop(mid3 m K c [(0 : Dev nD), 1, 2, 3, 4, 5, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 3, 4, 5, 7]).toFinset := by subst hc; decide
  have hnd : ([(0 : Dev nD), 1, 2, 3, 4, 5, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : ¬ k0_cond63 c = 1#1 := fun h => (cond63_iff c).mp h hc
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound6.sl.v846 m c : Vec F S1x64x256 .bf16) = chunkOf (P2 m c) c := own_chunk_read m c _
  have e861 : ∀ a, (segC2_sound6.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound6.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound6.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound6.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound6.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound6.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound6.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound6.sl.r_3 m c a1 a2 a3 a4 a5 a6) (segC2_sound6.sl.v957 m c a7) = red2 m c := by
    intro a1 a2 a3 a4 a5 a6 a7
    unfold segC2_sound6.sl.r_3 segC2_sound6.sl.r_2 segC2_sound6.sl.r_1 segC2_sound6.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound6.sl.r_3 m c fs1 fs2 fs3 fs4 fs5 fs6) (segC2_sound6.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelIdealProof.segC2_sound6' depends on axioms: [propext, Classical.choice, Quot.sound] -/
#guard_msgs in #print axioms segC2_sound6

end Cert.KernelIdealProof

end
-- ==== Proof.BodySegA2_d7.lean ====
import proofs.«900993_g7700000000000994_dist_mlpseq_tp1d_rep_bs_b512_d256_h512_v7x_i8_bf16_1_alg».proof.Proof.BodySegA2Lib

/-! The second half of layer 0 on device 7: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 3, 4, 5, 6] : List (Dev nD))

omit [FloatOps F] in
/-- Everything still owed after layer 0's gather sends is owed to cells above the level of the layer's send cells. -/
theorem above_a2_rest_d7 (c : Dev nD) : Above 3 (a2_rest c Ts) := by
  unfold a2_rest owesRedL owesGatL ringF
  simp only [List.map, List.sum_cons, List.sum_nil]
  owes_above

theorem segA2_sound7 (c : Dev nD) (hc : c = 7) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : ¬ k0_cond16 c = 1#1 := fun h => (cond16_iff c).mp h hc
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : ¬ Scalar.cmpi .ne (Scalar.extui (Scalar.cmpi .ne (Scalar.remsi (Scalar.divsi (Dev.word c) 1#32) 8#32) 7#32)) 0#32 = 1#1 := fun h => (condw7_iff c).mp h hc
  have haboveR : Above (3 + 3 * (0 : Fin 3).val) (a2_rest c Ts) := above_a2_rest_d7 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d7 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound7.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound7.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound7.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound7.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound7.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound7.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound7.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound7.sl.r_2 m c v78 a1 a2 a3 a4 a5) (segA2_sound7.sl.v171 m c a6) (segA2_sound7.sl.v187 m c a7) = red0 m c := by
    intro a1 a2 a3 a4 a5 a6 a7
    unfold segA2_sound7.sl.r_2 segA2_sound7.sl.r_1 segA2_sound7.sl.r
    rw [e91, e107, e123, e139, e155, e171, e187, hv]
    rfl
  have hG0 : ∀ g a1 a2 a3 a4 a5 a6 a7, ∀ i ∈ (gChunk 0 c).view.set, segA2_sound7.sl.G0c_w1 m c v78 g a1 a2 a3 a4 a5 a6 a7 i = Gfun m c i := by
    intro g a1 a2 a3 a4 a5 a6 a7 i hi
    unfold segA2_sound7.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelIdealProof

end
-- ==== Proof.BodySegB2_d7.lean ====
import proofs.«900993_g7700000000000994_dist_mlpseq_tp1d_rep_bs_b512_d256_h512_v7x_i8_bf16_1_alg».proof.Proof.BodySegBCut
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.StepsGather
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 1 on the device at position 7: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound7 (c : Dev nD) (hc : c = 7) (K : GSem nD τ sig → ℕ) (Kt : PUnit → sProp 𝕄) (v463 : FVec F S64x256 .f32) (v466 : BitVec 32) :
    iprop(midB m K c [(0 : Dev nD), 1, 2, 3, 4, 5, 6] v463 ∗ (mid2 m K c [(0 : Dev nD), 1, 2, 3, 4, 5, 6] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : ¬ k0_cond40 c = 1#1 := fun h => (cond40_iff c).mp h hc
  -- what is owed: layer 2's reduce arrivals (above every cell of layer 1) and layer 1's gather arrivals, last first
  have hRest : Above 6 (owesRedL c [(0 : Dev nD), 1, 2, 3, 4, 5, 6] 2) := by
    unfold owesRedL
    simp only [List.map_cons, List.map_nil, List.sum_cons, List.sum_nil]
    owes_above
  have hdebt : owesRedL c [(0 : Dev nD), 1, 2, 3, 4, 5, 6] 2 + owesGatL c 1
      = owesRedL c [(0 : Dev nD), 1, 2, 3, 4, 5, 6] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 3, 4, 5, 6] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound7.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound7.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound7.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound7.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound7.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound7.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound7.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound7.sl.r_2 m c a1 a2 a3 a4 a5 a6) (segB2_sound7.sl.v572 m c a7) = red1 m c := by
    intro a1 a2 a3 a4 a5 a6 a7
    unfold segB2_sound7.sl.r_2 segB2_sound7.sl.r_1 segB2_sound7.sl.r
    rw [e476, e492, e508, e524, e540, e556, e572]
    rfl
  have hG1 : ∀ i ∈ (gChunk 1 c).view.set, segB2_sound7.sl.G1c_w1 m c g1 fs1 fs2 fs3 fs4 fs5 fs6 fs7 i = Gfun m c i := by
    intro i hi
    unfold segB2_sound7.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelIdealProof.segB2_sound7' depends on axioms: [propext, Classical.choice, Quot.sound] -/
#guard_msgs in #print axioms segB2_sound7

end Cert.KernelIdealProof

end
-- ==== Proof.BodySegC1_d7.lean ====
import proofs.«900993_g7700000000000994_dist_mlpseq_tp1d_rep_bs_b512_d256_h512_v7x_i8_bf16_1_alg».proof.Proof.BodySegC1Lib
import Idealize.ShloMosaic.Lib.Tactic

/-! The first half of layer 2 on the device at position 7: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 7 owes for layer 2, the summands in the reverse of the order its sends pay them. -/
theorem owesRedL_rev_d7 (c : Dev nD) :
    owesRedL c [(0 : Dev nD), 1, 2, 3, 4, 5, 6] 2 = 0 + T2 c 6 + T2 c 5 + T2 c 4 + T2 c 3 + T2 c 2 + T2 c 1 + T2 c 0 := by
  unfold owesRedL T2
  simp only [List.map, List.sum_cons, List.sum_nil]
  abel

theorem segC1_sound7 (c : Dev nD) (hc : c = 7) (K : GSem nD τ sig → ℕ) (Kt : PUnit → sProp 𝕄) :
    iprop(mid2 m K c [(0 : Dev nD), 1, 2, 3, 4, 5, 6] ∗ (mid3 m K c [(0 : Dev nD), 1, 2, 3, 4, 5, 6] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hw0 := (condw0_iff c).mpr hne0
  have hw1 := (condw1_iff c).mpr hne1
  have hw2 := (condw2_iff c).mpr hne2
  have hw3 := (condw3_iff c).mpr hne3
  have hw4 := (condw4_iff c).mpr hne4
  have hw5 := (condw5_iff c).mpr hne5
  have hw6 := (condw6_iff c).mpr hne6
  have hw7 : ¬ _ := fun h => (condw7_iff c).mp h hc
  have hg43 : k0_cond43 c = 1#1 := (cond43_iff c).mpr hne0
  have hg44 : k0_cond44 c = 1#1 := (cond44_iff c).mpr hne1
  have hg47 : k0_cond47 c = 1#1 := (cond47_iff c).mpr hne2
  have hg48 : k0_cond48 c = 1#1 := (cond48_iff c).mpr hne3
  have hg51 : k0_cond51 c = 1#1 := (cond51_iff c).mpr hne4
  have hg52 : k0_cond52 c = 1#1 := (cond52_iff c).mpr hne5
  have hg55 : k0_cond55 c = 1#1 := (cond55_iff c).mpr hne6
  have hg56 : ¬ k0_cond56 c = 1#1 := fun h => (cond56_iff c).mp h hc
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts3, Tr3⟩, ⟨Ts4, Tr4⟩, ⟨Ts5, Tr5⟩, ⟨Ts6, Tr6⟩⟩, -⟩, HposRed2, -, Hdest⟩, ⟨⟨Pg0, Cg0⟩, ⟨Pg1, Cg1⟩, ⟨Pg2, Cg2⟩, ⟨Pg3, Cg3⟩, ⟨Pg4, Cg4⟩, ⟨Pg5, Cg5⟩, ⟨Pg6, Cg6⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d7 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 6 + T2 c 5 + T2 c 4 + T2 c 3 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 6 + T2 c 5 + T2 c 4 + T2 c 3 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound7.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 6 + T2 c 5 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 6 + T2 c 5 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound7.sl.PG1_w1 segC1_sound7.sl.r segC1_sound7.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound7.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  -- the device's own rows are chunk 7 of the group
  ihave Gc7 := (Entails.of_eq (congrArg (fun t : Dev nD => (piece c (gChunk 1 t) fullShare (Gfun m c) : sProp 𝕄)) hc)) $$ Hg1c
  ihave GG3 := (gGroup_join c 1 3 fullShare (Gfun m c) 6 7 rfl rfl) $$ [Gc6 Gc7]
  · isplitl [Gc6] <;> iassumption
  sl_exec
  -- group 3 of layer 2 now holds the device's partial product
  unfold segC1_sound7.sl.PG3_w1 segC1_sound7.sl.r_2 segC1_sound7.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs3 Cs4 Cs5 Cs6]
  · rw [sepL7]
    isplitl [Cs0]; · iexact Cs0
    isplitl [Cs1]; · iexact Cs1
    isplitl [Cs2]; · iexact Cs2
    isplitl [Cs3]; · iexact Cs3
    isplitl [Cs4]; · iexact Cs4
    isplitl [Cs5]; · iexact Cs5
    iexact Cs6
  isplitl [Hpd0]; · iexact Hpd0
  isplitl [Hpd1]; · iexact Hpd1
  isplitl [HpdG0]; · iexact HpdG0
  isplitl [Pg0 Pg1 Pg2 Pg3 Pg4 Pg5 Pg6]
  · rw [sepL7]
    isplitl [Pg0]; · iexact Pg0
    isplitl [Pg1]; · iexact Pg1
    isplitl [Pg2]; · iexact Pg2
    isplitl [Pg3]; · iexact Pg3
    isplitl [Pg4]; · iexact Pg4
    isplitl [Pg5]; · iexact Pg5
    iexact Pg6
  isplitl [Hrest]; · iexact Hrest
  -- layer 0 of the partial-product buffer: its eight chunks, at whatever they hold
  isplitl [A00 A01 A02 A03 A04 A05 A06 A07]
  · unfold chunksP
    rw [sepL7]
    isplitl [A07]
    · iapply (Entails.of_eq (congrArg (fun t : Dev nD => (ex (F := F) c (pChunk 0 t) : sProp 𝕄)) hc.symm))
      iapply (ex_of c (pChunk 0 7) _); iexact A07
    isplitl [A00]; · iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A04]; · iapply (ex_of c (pChunk 0 4) _); iexact A04
    isplitl [A05]; · iapply (ex_of c (pChunk 0 5) _); iexact A05
    iapply (ex_of c (pChunk 0 6) _); iexact A06
  -- layer 1 of the partial-product buffer: its eight chunks, at whatever they hold
  isplitl [A10 A11 A12 A13 A14 A15 A16 A17]
  · unfold chunksP
    rw [sepL7]
    isplitl [A17]
    · iapply (Entails.of_eq (congrArg (fun t : Dev nD => (ex (F := F) c (pChunk 1 t) : sProp 𝕄)) hc.symm))
      iapply (ex_of c (pChunk 1 7) _); iexact A17
    isplitl [A10]; · iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A14]; · iapply (ex_of c (pChunk 1 4) _); iexact A14
    isplitl [A15]; · iapply (ex_of c (pChunk 1 5) _); iexact A15
    iapply (ex_of c (pChunk 1 6) _); iexact A16
  -- the device's own chunk of layer 2, holding its partial product
  isplitl [B27]
  · iapply (Entails.of_eq (congrArg (fun t : Dev nD => (piece c (pChunk 2 t) fullShare (Pfun m c) : sProp 𝕄)) hc.symm)); iexact B27
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G17]
    · iapply (Entails.of_eq (congrArg (fun t : Dev nD => (ex (F := F) c (gChunk 1 t) : sProp 𝕄)) hc.symm))
      iapply (ex_of c (gChunk 1 7) _); iexact G17
    isplitl [G10]; · iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G14]; · iapply (ex_of c (gChunk 1 4) _); iexact G14
    isplitl [G15]; · iapply (ex_of c (gChunk 1 5) _); iexact G15
    iapply (ex_of c (gChunk 1 6) _); iexact G16
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelIdealProof.segC1_sound7' depends on axioms: [propext, Classical.choice, Quot.sound] -/
#guard_msgs in #print axioms segC1_sound7

end Cert.KernelIdealProof

end
-- ==== Proof.BodySegC2_d7.lean ====
import proofs.«900993_g7700000000000994_dist_mlpseq_tp1d_rep_bs_b512_d256_h512_v7x_i8_bf16_1_alg».proof.Proof.BodyMidC
import proofs.«900993_g7700000000000994_dist_mlpseq_tp1d_rep_bs_b512_d256_h512_v7x_i8_bf16_1_alg».proof.Proof.BodyExit
import proofs.«900993_g7700000000000994_dist_mlpseq_tp1d_rep_bs_b512_d256_h512_v7x_i8_bf16_1_alg».proof.Proof.StepsReduce
import proofs.«900993_g7700000000000994_dist_mlpseq_tp1d_rep_bs_b512_d256_h512_v7x_i8_bf16_1_alg».proof.Proof.Waits
import proofs.«900993_g7700000000000994_dist_mlpseq_tp1d_rep_bs_b512_d256_h512_v7x_i8_bf16_1_alg».proof.Proof.Exit
import proofs.«900993_g7700000000000994_dist_mlpseq_tp1d_rep_bs_b512_d256_h512_v7x_i8_bf16_1_alg».proof.Proof.Lit
import proofs.«900993_g7700000000000994_dist_mlpseq_tp1d_rep_bs_b512_d256_h512_v7x_i8_bf16_1_alg».proof.Proof.CanonTable
import proofs.«900993_g7700000000000994_dist_mlpseq_tp1d_rep_bs_b512_d256_h512_v7x_i8_bf16_1_alg».proof.Proof.ContentsRead
import proofs.«900993_g7700000000000994_dist_mlpseq_tp1d_rep_bs_b512_d256_h512_v7x_i8_bf16_1_alg».proof.Proof.Split
import proofs.«900993_g7700000000000994_dist_mlpseq_tp1d_rep_bs_b512_d256_h512_v7x_i8_bf16_1_alg».proof.Proof.Levels
import proofs.«900993_g7700000000000994_dist_mlpseq_tp1d_rep_bs_b512_d256_h512_v7x_i8_bf16_1_alg».proof.Proof.Data
import Idealize.ShloMosaic.Lib.Tactic

/-! The second half of layer 2 on the device at position 7: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound7 (c : Dev nD) (hc : c = 7) (K : GSem nD τ sig → ℕ) (Kt : PUnit → sProp 𝕄) :
    iprop(mid3 m K c [(0 : Dev nD), 1, 2, 3, 4, 5, 6] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 3, 4, 5, 6]).toFinset := by subst hc; decide
  have hnd : ([(0 : Dev nD), 1, 2, 3, 4, 5, 6]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : ¬ k0_cond64 c = 1#1 := fun h => (cond64_iff c).mp h hc
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound7.sl.v846 m c : Vec F S1x64x256 .bf16) = chunkOf (P2 m c) c := own_chunk_read m c _
  have e861 : ∀ a, (segC2_sound7.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound7.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound7.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound7.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound7.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound7.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound7.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound7.sl.r_3 m c a1 a2 a3 a4 a5 a6) (segC2_sound7.sl.v957 m c a7) = red2 m c := by
    intro a1 a2 a3 a4 a5 a6 a7
    unfold segC2_sound7.sl.r_3 segC2_sound7.sl.r_2 segC2_sound7.sl.r_1 segC2_sound7.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound7.sl.r_3 m c fs1 fs2 fs3 fs4 fs5 fs6) (segC2_sound7.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelIdealProof.segC2_sound7' depends on axioms: [propext, Classical.choice, Quot.sound] -/
#guard_msgs in #print axioms segC2_sound7

end Cert.KernelIdealProof

end
-- ==== Proof.Body.lean ====
import proofs.«900993_g7700000000000994_dist_mlpseq_tp1d_rep_bs_b512_d256_h512_v7x_i8_bf16_1_alg».proof.Proof.BodyCompose2
import proofs.«900993_g7700000000000994_dist_mlpseq_tp1d_rep_bs_b512_d256_h512_v7x_i8_bf16_1_alg».proof.Proof.BodySegA1a_d0
import proofs.«900993_g7700000000000994_dist_mlpseq_tp1d_rep_bs_b512_d256_h512_v7x_i8_bf16_1_alg».proof.Proof.BodySegA2_d0
import proofs.«900993_g7700000000000994_dist_mlpseq_tp1d_rep_bs_b512_d256_h512_v7x_i8_bf16_1_alg».proof.Proof.BodySegB1_d0
import proofs.«900993_g7700000000000994_dist_mlpseq_tp1d_rep_bs_b512_d256_h512_v7x_i8_bf16_1_alg».proof.Proof.BodySegB2_d0
import proofs.«900993_g7700000000000994_dist_mlpseq_tp1d_rep_bs_b512_d256_h512_v7x_i8_bf16_1_alg».proof.Proof.BodySegC1_d0
import proofs.«900993_g7700000000000994_dist_mlpseq_tp1d_rep_bs_b512_d256_h512_v7x_i8_bf16_1_alg».proof.Proof.BodySegC2_d0
import proofs.«900993_g7700000000000994_dist_mlpseq_tp1d_rep_bs_b512_d256_h512_v7x_i8_bf16_1_alg».proof.Proof.BodySegA1a_d1
import proofs.«900993_g7700000000000994_dist_mlpseq_tp1d_rep_bs_b512_d256_h512_v7x_i8_bf16_1_alg».proof.Proof.BodySegA2_d1
import proofs.«900993_g7700000000000994_dist_mlpseq_tp1d_rep_bs_b512_d256_h512_v7x_i8_bf16_1_alg».proof.Proof.BodySegB1_d1
import proofs.«900993_g7700000000000994_dist_mlpseq_tp1d_rep_bs_b512_d256_h512_v7x_i8_bf16_1_alg».proof.Proof.BodySegB2_d1
import proofs.«900993_g7700000000000994_dist_mlpseq_tp1d_rep_bs_b512_d256_h512_v7x_i8_bf16_1_alg».proof.Proof.BodySegC1_d1
import proofs.«900993_g7700000000000994_dist_mlpseq_tp1d_rep_bs_b512_d256_h512_v7x_i8_bf16_1_alg».proof.Proof.BodySegC2_d1
import proofs.«900993_g7700000000000994_dist_mlpseq_tp1d_rep_bs_b512_d256_h512_v7x_i8_bf16_1_alg».proof.Proof.BodySegA1a_d2
import proofs.«900993_g7700000000000994_dist_mlpseq_tp1d_rep_bs_b512_d256_h512_v7x_i8_bf16_1_alg».proof.Proof.BodySegA2_d2
import proofs.«900993_g7700000000000994_dist_mlpseq_tp1d_rep_bs_b512_d256_h512_v7x_i8_bf16_1_alg».proof.Proof.BodySegB1_d2
import proofs.«900993_g7700000000000994_dist_mlpseq_tp1d_rep_bs_b512_d256_h512_v7x_i8_bf16_1_alg».proof.Proof.BodySegB2_d2
import proofs.«900993_g7700000000000994_dist_mlpseq_tp1d_rep_bs_b512_d256_h512_v7x_i8_bf16_1_alg».proof.Proof.BodySegC1_d2
import proofs.«900993_g7700000000000994_dist_mlpseq_tp1d_rep_bs_b512_d256_h512_v7x_i8_bf16_1_alg».proof.Proof.BodySegC2_d2
import proofs.«900993_g7700000000000994_dist_mlpseq_tp1d_rep_bs_b512_d256_h512_v7x_i8_bf16_1_alg».proof.Proof.BodySegA1a_d3
import proofs.«900993_g7700000000000994_dist_mlpseq_tp1d_rep_bs_b512_d256_h512_v7x_i8_bf16_1_alg».proof.Proof.BodySegA2_d3
import proofs.«900993_g7700000000000994_dist_mlpseq_tp1d_rep_bs_b512_d256_h512_v7x_i8_bf16_1_alg».proof.Proof.BodySegB1_d3
import proofs.«900993_g7700000000000994_dist_mlpseq_tp1d_rep_bs_b512_d256_h512_v7x_i8_bf16_1_alg».proof.Proof.BodySegB2_d3
import proofs.«900993_g7700000000000994_dist_mlpseq_tp1d_rep_bs_b512_d256_h512_v7x_i8_bf16_1_alg».proof.Proof.BodySegC1_d3
import proofs.«900993_g7700000000000994_dist_mlpseq_tp1d_rep_bs_b512_d256_h512_v7x_i8_bf16_1_alg».proof.Proof.BodySegC2_d3
import proofs.«900993_g7700000000000994_dist_mlpseq_tp1d_rep_bs_b512_d256_h512_v7x_i8_bf16_1_alg».proof.Proof.BodySegA1a_d4
import proofs.«900993_g7700000000000994_dist_mlpseq_tp1d_rep_bs_b512_d256_h512_v7x_i8_bf16_1_alg».proof.Proof.BodySegA2_d4
import proofs.«900993_g7700000000000994_dist_mlpseq_tp1d_rep_bs_b512_d256_h512_v7x_i8_bf16_1_alg».proof.Proof.BodySegB1_d4
import proofs.«900993_g7700000000000994_dist_mlpseq_tp1d_rep_bs_b512_d256_h512_v7x_i8_bf16_1_alg».proof.Proof.BodySegB2_d4
import proofs.«900993_g7700000000000994_dist_mlpseq_tp1d_rep_bs_b512_d256_h512_v7x_i8_bf16_1_alg».proof.Proof.BodySegC1_d4
import proofs.«900993_g7700000000000994_dist_mlpseq_tp1d_rep_bs_b512_d256_h512_v7x_i8_bf16_1_alg».proof.Proof.BodySegC2_d4
import proofs.«900993_g7700000000000994_dist_mlpseq_tp1d_rep_bs_b512_d256_h512_v7x_i8_bf16_1_alg».proof.Proof.BodySegA1a_d5
import proofs.«900993_g7700000000000994_dist_mlpseq_tp1d_rep_bs_b512_d256_h512_v7x_i8_bf16_1_alg».proof.Proof.BodySegA2_d5
import proofs.«900993_g7700000000000994_dist_mlpseq_tp1d_rep_bs_b512_d256_h512_v7x_i8_bf16_1_alg».proof.Proof.BodySegB1_d5
import proofs.«900993_g7700000000000994_dist_mlpseq_tp1d_rep_bs_b512_d256_h512_v7x_i8_bf16_1_alg».proof.Proof.BodySegB2_d5
import proofs.«900993_g7700000000000994_dist_mlpseq_tp1d_rep_bs_b512_d256_h512_v7x_i8_bf16_1_alg».proof.Proof.BodySegC1_d5
import proofs.«900993_g7700000000000994_dist_mlpseq_tp1d_rep_bs_b512_d256_h512_v7x_i8_bf16_1_alg».proof.Proof.BodySegC2_d5
import proofs.«900993_g7700000000000994_dist_mlpseq_tp1d_rep_bs_b512_d256_h512_v7x_i8_bf16_1_alg».proof.Proof.BodySegA1a_d6
import proofs.«900993_g7700000000000994_dist_mlpseq_tp1d_rep_bs_b512_d256_h512_v7x_i8_bf16_1_alg».proof.Proof.BodySegA2_d6
import proofs.«900993_g7700000000000994_dist_mlpseq_tp1d_rep_bs_b512_d256_h512_v7x_i8_bf16_1_alg».proof.Proof.BodySegB1_d6
import proofs.«900993_g7700000000000994_dist_mlpseq_tp1d_rep_bs_b512_d256_h512_v7x_i8_bf16_1_alg».proof.Proof.BodySegB2_d6
import proofs.«900993_g7700000000000994_dist_mlpseq_tp1d_rep_bs_b512_d256_h512_v7x_i8_bf16_1_alg».proof.Proof.BodySegC1_d6
import proofs.«900993_g7700000000000994_dist_mlpseq_tp1d_rep_bs_b512_d256_h512_v7x_i8_bf16_1_alg».proof.Proof.BodySegC2_d6
import proofs.«900993_g7700000000000994_dist_mlpseq_tp1d_rep_bs_b512_d256_h512_v7x_i8_bf16_1_alg».proof.Proof.BodySegA1a_d7
import proofs.«900993_g7700000000000994_dist_mlpseq_tp1d_rep_bs_b512_d256_h512_v7x_i8_bf16_1_alg».proof.Proof.BodySegA2_d7
import proofs.«900993_g7700000000000994_dist_mlpseq_tp1d_rep_bs_b512_d256_h512_v7x_i8_bf16_1_alg».proof.Proof.BodySegB1_d7
import proofs.«900993_g7700000000000994_dist_mlpseq_tp1d_rep_bs_b512_d256_h512_v7x_i8_bf16_1_alg».proof.Proof.BodySegB2_d7
import proofs.«900993_g7700000000000994_dist_mlpseq_tp1d_rep_bs_b512_d256_h512_v7x_i8_bf16_1_alg».proof.Proof.BodySegC1_d7
import proofs.«900993_g7700000000000994_dist_mlpseq_tp1d_rep_bs_b512_d256_h512_v7x_i8_bf16_1_alg».proof.Proof.BodySegC2_d7

/-! The soundness of the kernel's body on every device: from what the launch deals a device (`bodyPre`) the body runs to
    what it owes the launch back (`bodyPost`): the three scratch buffers, every own semaphore at zero with its cell
    closed, nothing owed, the seven staged arguments unchanged and the result block staged. By cases on the device; on
    each device the three segments in sequence. -/

set_option maxHeartbeats 4000000

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem sound_body (K : GSem nD τ sig → ℕ) (c : Dev nD) (Kt : PUnit → sProp 𝕄) :
    iprop(bodyPre m K c ∗ (bodyPost m c -∗ Kt ⟨⟩)) ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have h : c = 0 ∨ c = 1 ∨ c = 2 ∨ c = 3 ∨ c = 4 ∨ c = 5 ∨ c = 6 ∨ c = 7 := by revert c; decide
  rcases h with h | h | h | h | h | h | h | h
  · exact body_of_halves m c [(1 : Dev nD), 2, 3, 4, 5, 6, 7] K Kt
      (fun Kt' => segA1_sound0 m c h K Kt') (fun Kt' v78 v81 v82 c0 => segA2_sound0 m c h K Kt' v78 v81 v82 c0)
      (fun Kt' => segB1_sound0 m c h K Kt') (fun Kt' v463 v466 => segB2_sound0 m c h K Kt' v463 v466)
      (fun Kt' => segC1_sound0 m c h K Kt') (fun Kt' => segC2_sound0 m c h K Kt')
  · exact body_of_halves m c [(0 : Dev nD), 2, 3, 4, 5, 6, 7] K Kt
      (fun Kt' => segA1_sound1 m c h K Kt') (fun Kt' v78 v81 v82 c0 => segA2_sound1 m c h K Kt' v78 v81 v82 c0)
      (fun Kt' => segB1_sound1 m c h K Kt') (fun Kt' v463 v466 => segB2_sound1 m c h K Kt' v463 v466)
      (fun Kt' => segC1_sound1 m c h K Kt') (fun Kt' => segC2_sound1 m c h K Kt')
  · exact body_of_halves m c [(0 : Dev nD), 1, 3, 4, 5, 6, 7] K Kt
      (fun Kt' => segA1_sound2 m c h K Kt') (fun Kt' v78 v81 v82 c0 => segA2_sound2 m c h K Kt' v78 v81 v82 c0)
      (fun Kt' => segB1_sound2 m c h K Kt') (fun Kt' v463 v466 => segB2_sound2 m c h K Kt' v463 v466)
      (fun Kt' => segC1_sound2 m c h K Kt') (fun Kt' => segC2_sound2 m c h K Kt')
  · exact body_of_halves m c [(0 : Dev nD), 1, 2, 4, 5, 6, 7] K Kt
      (fun Kt' => segA1_sound3 m c h K Kt') (fun Kt' v78 v81 v82 c0 => segA2_sound3 m c h K Kt' v78 v81 v82 c0)
      (fun Kt' => segB1_sound3 m c h K Kt') (fun Kt' v463 v466 => segB2_sound3 m c h K Kt' v463 v466)
      (fun Kt' => segC1_sound3 m c h K Kt') (fun Kt' => segC2_sound3 m c h K Kt')
  · exact body_of_halves m c [(0 : Dev nD), 1, 2, 3, 5, 6, 7] K Kt
      (fun Kt' => segA1_sound4 m c h K Kt') (fun Kt' v78 v81 v82 c0 => segA2_sound4 m c h K Kt' v78 v81 v82 c0)
      (fun Kt' => segB1_sound4 m c h K Kt') (fun Kt' v463 v466 => segB2_sound4 m c h K Kt' v463 v466)
      (fun Kt' => segC1_sound4 m c h K Kt') (fun Kt' => segC2_sound4 m c h K Kt')
  · exact body_of_halves m c [(0 : Dev nD), 1, 2, 3, 4, 6, 7] K Kt
      (fun Kt' => segA1_sound5 m c h K Kt') (fun Kt' v78 v81 v82 c0 => segA2_sound5 m c h K Kt' v78 v81 v82 c0)
      (fun Kt' => segB1_sound5 m c h K Kt') (fun Kt' v463 v466 => segB2_sound5 m c h K Kt' v463 v466)
      (fun Kt' => segC1_sound5 m c h K Kt') (fun Kt' => segC2_sound5 m c h K Kt')
  · exact body_of_halves m c [(0 : Dev nD), 1, 2, 3, 4, 5, 7] K Kt
      (fun Kt' => segA1_sound6 m c h K Kt') (fun Kt' v78 v81 v82 c0 => segA2_sound6 m c h K Kt' v78 v81 v82 c0)
      (fun Kt' => segB1_sound6 m c h K Kt') (fun Kt' v463 v466 => segB2_sound6 m c h K Kt' v463 v466)
      (fun Kt' => segC1_sound6 m c h K Kt') (fun Kt' => segC2_sound6 m c h K Kt')
  · exact body_of_halves m c [(0 : Dev nD), 1, 2, 3, 4, 5, 6] K Kt
      (fun Kt' => segA1_sound7 m c h K Kt') (fun Kt' v78 v81 v82 c0 => segA2_sound7 m c h K Kt' v78 v81 v82 c0)
      (fun Kt' => segB1_sound7 m c h K Kt') (fun Kt' v463 v466 => segB2_sound7 m c h K Kt' v463 v466)
      (fun Kt' => segC1_sound7 m c h K Kt') (fun Kt' => segC2_sound7 m c h K Kt')

end Cert.KernelIdealProof

end
-- ==== Proof.LaunchFund.lean ====
import proofs.«900993_g7700000000000994_dist_mlpseq_tp1d_rep_bs_b512_d256_h512_v7x_i8_bf16_1_alg».proof.Proof.Ghost

/-! The funding of the protocol's algebra at launch. The launch element holds, for every protocol cell (each kind of
    semaphore on each device), its one round's state, and one duty token per cell and device. It deals a device the
    round states and positions of its own cells, the fact that every cell is at round 0, and — regrouped from the owner
    of a cell to the device that pays it — the tokens of the duties the device pays: on each peer's barrier cell and
    receive cells its own name, on its own send cells each peer's name. Tokens no duty bears are let go. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells and the tokens funded -/

/-- Every protocol cell: each kind of semaphore on each device. -/
def allCells : Finset (GSem nD τ sig) := Finset.univ.map ⟨fun p : Dev nD × CK => kcell p.1 p.2, kcell_injective⟩

/-- A duty token at round 0 of the cell `(o, k)` named by the device `d`. -/
def tokOf (x : (Dev nD × CK) × Dev nD) : GSem nD τ sig × ℕ × Dev nD := (kcell x.1.1 x.1.2, 0, x.2)

theorem tokOf_injective : Function.Injective tokOf := by
  rintro ⟨⟨c, k⟩, d⟩ ⟨⟨c', k'⟩, d'⟩ h
  obtain ⟨h1, h2⟩ := kcell_inj (congrArg Prod.fst h)
  have h3 : d = d' := congrArg (fun x : GSem nD τ sig × ℕ × Dev nD => x.2.2) h
  subst h1; subst h2; subst h3; rfl

/-- One token per cell and device: among them every duty of every cell's one round. -/
def allToks : Finset (GSem nD τ sig × ℕ × Dev nD) := Finset.univ.map ⟨tokOf, tokOf_injective⟩

/-- The launch element: the pipeline library's cells and tokens, and the protocol's. -/
def u₀ : UU :=
  (initOf (Pipeline.cells cfgs cellOf_inj) (Pipeline.launchToks cfgs cellOf_inj), initOf allCells allToks)

/-! ## What the launch element deals a device -/

/-- Device `c` is dealt: the round state of each of its cells at counter zero; that every cell of every device is at
    round 0; its positions; and the tokens of the duties it pays. -/
def G (c : Dev nD) : sProp 𝕄 :=
  iprop((bigSep Finset.univ fun k : CK => roundState ER (sched m) (kcell c k) 0) ∗ reachedAll ∗ posAll c ∗ payToks c)

/-! ## The tokens, from owner to payer -/

/-- The kinds of cell of an owner on which its peer `d` pays the duty `d`: the barrier, the three reduce-receive and
    two gather-receive cells `(l, d)`, the three reduce-send and two gather-send cells. -/
def paidKinds (d : Dev nD) : List CK := [.bar, .rr 0 d, .rr 1 d, .rr 2 d, .gr 0 d, .gr 1 d, .rs 0, .rs 1, .rs 2, .gs 0, .gs 1]

theorem paidKinds_nodup (d : Dev nD) : (paidKinds d).Nodup := by revert d; decide

omit [FloatOps F] in
/-- A family over the kinds `d` pays, one by one. -/
theorem bigSep_paid (d : Dev nD) (Φ : CK → sProp 𝕄) :
    bigSep (paidKinds d).toFinset Φ = iprop(Φ .bar ∗ Φ (.rr 0 d) ∗ Φ (.rr 1 d) ∗ Φ (.rr 2 d) ∗ Φ (.gr 0 d) ∗ Φ (.gr 1 d)
      ∗ Φ (.rs 0) ∗ Φ (.rs 1) ∗ Φ (.rs 2) ∗ Φ (.gs 0) ∗ Φ (.gs 1)) :=
  bigSep_eq_bigSepL (paidKinds d) (paidKinds_nodup d) Φ

omit [FloatOps F] in
/-- Of the tokens named `d` on the cells of the owner `o`: those `d` pays `o`'s receive cells with, and those of
    the departures of `o`'s own copies to `d`. -/
theorem toks_of_owner (o d : Dev nD) :
    (bigSep Finset.univ fun k : CK => (dutyTok ER (kcell o k) 0 d : sProp 𝕄)) ⊢ iprop(toksTo d o ∗ toksOut o d) := by
  refine (bigSep_subset (Finset.subset_univ (paidKinds d).toFinset)).trans ?_
  rw [bigSep_paid]
  unfold toksTo toksOut
  show (_ : sProp 𝕄) ⊢ _
  iintro ⟨H1, H2, H3, H4, H5, H6, H7, H8, H9, H10, H11⟩
  isplitl [H1 H2 H3 H4 H5 H6]
  · isplitl [H1]; · iexact H1
    isplitl [H2]; · iexact H2
    isplitl [H3]; · iexact H3
    isplitl [H4]; · iexact H4
    isplitl [H5]; · iexact H5
    iexact H6
  · isplitl [H7]; · iexact H7
    isplitl [H8]; · iexact H8
    isplitl [H9]; · iexact H9
    isplitl [H10]; · iexact H10
    iexact H11

omit [FloatOps F] in
/-- All tokens, grouped by the owner of the cell, regrouped by the device that pays: the pairs (owner, payer) of
    distinct devices are the pairs (payer, owner). -/
theorem toks_regroup :
    (bigSep Finset.univ fun o : Dev nD => bigSep Finset.univ fun k : CK => bigSep Finset.univ fun d : Dev nD =>
        (dutyTok ER (kcell o k) 0 d : sProp 𝕄))
      ⊢ bigSep Finset.univ fun c : Dev nD => payToks (F := F) c := by
  have h1 : ∀ o : Dev nD, (bigSep Finset.univ fun k : CK => bigSep Finset.univ fun d : Dev nD => (dutyTok ER (kcell o k) 0 d : sProp 𝕄))
      ⊢ bigSep (Finset.univ.erase o) fun d => iprop(toksTo (F := F) d o ∗ toksOut (F := F) o d) := fun o => by
    rw [bigSep_univ_comm]
    exact (bigSep_subset (Finset.subset_univ _)).trans (bigSep_mono fun d _ => toks_of_owner o d)
  refine (bigSep_mono fun o _ => h1 o).trans ?_
  unfold payToks peers
  simp only [bigSep_sep']
  rw [bigSep_erase_comm (fun a b => toksTo (F := F) b a)]
  exact BI.Entails.refl _

/-! ## The funding -/

/-- The protocol's launch element gives every device what `G` says. -/
theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : CK => Φ (kcell c k) := by
    unfold allCells; rw [bigSep_map, bigSep_univ_prod]; rfl
  have hR : bigSep allCells (fun g => (reached ER g 0 : sProp 𝕄)) = reachedAll := by
    unfold allCells reachedAll; rw [bigSep_map]; rfl
  have hT : bigSep allToks (fun x => (dutyTok ER x.1 x.2.1 x.2.2 : sProp 𝕄))
      = bigSep Finset.univ fun o : Dev nD => bigSep Finset.univ fun k : CK => bigSep Finset.univ fun d : Dev nD =>
          (dutyTok ER (kcell o k) 0 d : sProp 𝕄) := by
    unfold allToks; rw [bigSep_map, bigSep_univ_prod, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := ((Entails.of_eq hR).trans (BI.bigSep_of_persistent (Finset.univ : Finset (Dev nD)) (reachedAll (F := F)))) $$ Hr
  ihave Htok' := ((Entails.of_eq hT).trans (toks_regroup (F := F))) $$ Htok
  unfold G posAll; simp only [bigSep_sep']
  isplitl [Hst']; · iexact Hst'
  isplitl [Hr']; · iexact Hr'
  isplitl [Hat']; · iexact Hat'
  iexact Htok'

/-- info: 'Cert.KernelIdealProof.fund_all' depends on axioms: [propext, Classical.choice, Quot.sound] -/
#guard_msgs in #print axioms fund_all

end Cert.KernelIdealProof

end
-- ==== Proof.LaunchGlob.lean ====
import proofs.«900993_g7700000000000994_dist_mlpseq_tp1d_rep_bs_b512_d256_h512_v7x_i8_bf16_1_alg».proof.Proof.LaunchFund

/-! The launch's global step. The kernel's own semaphores are every kind of the protocol's but the barrier, which is the
    runtime's and the one semaphore of a device not scoped to the launch. With the counters of all of them at zero on
    every device, and every cell's round state, the bodies of all cells' invariants stand; they are allocated together,
    at names `K`, and every device keeps all the invariants beside what it was dealt: its ghost state. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The kernel's own semaphores -/

/-- The kernel's own (scoped) semaphores, as the launch indexes them: every kind of the protocol's but the barrier. -/
abbrev osem : {k : CK // k ≠ .bar} → SemLoc sig := fun k => k.1.sem

theorem stage_sem_lt (w : Fin cfg0.W) (s : Fin (cfg0.spec w).nbuf) : ((cfg0.spec w).sem s).val < 8 := by
  fin_cases w <;> fin_cases s <;> decide

theorem ownSemFacts : Pipeline.OwnSemFacts cfg0.spec osem where
  isScoped := fun ⟨k, hk⟩ => by
    cases k with
    | bar => exact absurd rfl hk
    | rs l => revert l; decide
    | rr l s => revert l s; decide
    | gs l => revert l; decide
    | gr l s => revert l s; decide
  inj := fun a b h => Subtype.ext (CK.sem_injective h)
  disj := fun k w s h => by
    have h1 : ckOf (osem k) = some k.1 := ckOf_sem k.1
    rw [h, ckOf_stage _ (stage_sem_lt w s)] at h1
    exact absurd h1 (by simp)

omit [FloatOps F] in
/-- A device's own semaphores at zero: every kind's but the barrier's. -/
theorem ownSems0_eq (c : Dev nD) :
    (Pipeline.ownSems0 (Ix := Unit) (Name := ℕ) (U := UU) (Lvl := ℕ) (Val := Elt F) (τ := τ) osem c : sProp 𝕄)
      = bigSep ((Finset.univ : Finset CK).erase .bar) (fun k => (semVal (kcell c k) 0 : sProp 𝕄)) := by
  unfold Pipeline.ownSems0
  exact bigSep_subtype_ne CK.bar (fun k => (semVal (kcell c k) 0 : sProp 𝕄))

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together: the counter of every protocol cell of the device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell c k) 0 : sProp 𝕄) := by
  rw [ownSems0_eq, unscopedSems0_eq, bigSep_univ_at (fun k : CK => (semVal (kcell c k) 0 : sProp 𝕄)) CK.bar]
  iintro ⟨HO, HB⟩
  isplitl [HB]; · iexact HB
  iexact HO

/-! ## The global step -/

/-- What the global step makes of what a device was dealt: the ghost state at some names. -/
def G' (c : Dev nD) : sProp 𝕄 := iprop(∃ K, ghost m K c)

omit [FloatOps F] in
theorem bigSep_cells (Φ : GSem nD τ sig → sProp 𝕄) :
    bigSep allCells Φ = bigSep Finset.univ fun c : Dev nD => bigSep Finset.univ fun k : CK => Φ (kcell c k) := by
  unfold allCells; rw [bigSep_map, bigSep_univ_prod]; rfl

/-- A device's counters at zero and round states make the bodies of its cells' invariants; the rest it keeps. -/
theorem core_bodies (c : Dev nD) :
    iprop(Pipeline.ownSems0 (Ix := Unit) (Name := ℕ) (U := UU) (Lvl := ℕ) (Val := Elt F) (τ := τ) osem c ∗ unscopedSems0 c ∗ G m c)
      ⊢ iprop((bigSep Finset.univ fun k : CK => Rounds.body ER (sched m) (kcell c k)) ∗ reachedAll ∗ posAll c ∗ payToks c) := by
  unfold G
  iintro ⟨Hos, Hus, Hst, Hr, Hat, Htok⟩
  ihave Hv := (sems0_eq (F := F) c) $$ [Hos Hus]
  · isplitl [Hos] <;> iassumption
  isplitl [Hv Hst]
  · iapply (show iprop((bigSep Finset.univ fun k : CK => semVal (kcell c k) 0) ∗ bigSep Finset.univ fun k : CK => roundState ER (sched m) (kcell c k) 0)
        ⊢ (bigSep Finset.univ fun k : CK => Rounds.body ER (sched m) (kcell c k) : sProp 𝕄) from by
          rw [← bigSep_sep']
          exact bigSep_mono fun k _ => Rounds.body_intro ER (sched m) (kcell c k))
    isplitl [Hv] <;> iassumption
  isplitl [Hr]; · iexact Hr
  isplitl [Hat]; · iexact Hat
  iexact Htok

theorem invsAll_eq (K : GSem nD τ sig → ℕ) : invsAll m K = bigSep allCells fun g => cellInv ER (sched m) (K g) g := by
  unfold invsAll allCells; rw [bigSep_map]; rfl

/-- With every cell's invariant in hand, a device's share is its ghost state. -/
theorem ghost_intro (K : GSem nD τ sig → ℕ) (c : Dev nD) :
    iprop(invsAll m K ∗ (reachedAll ∗ posAll c ∗ payToks c)) ⊢ G' m c := by
  unfold G' ghost
  iintro ⟨HI, Hr, Hat, Htok⟩
  iexists K
  isplitl [HI]; · iexact HI
  isplitl [Hr]; · iexact Hr
  isplitl [Hat]; · iexact Hat
  iexact Htok

/-- The global step: own AND unscoped semaphores of every device at once become the bodies of all cells' invariants,
    allocated together; every device gets all of them. -/
theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) := by
  refine (bigSep_mono fun c _ => core_bodies m c).trans ?_
  rw [bigSep_sep', ← bigSep_cells (fun g => Rounds.body ER (sched m) g)]
  show (_ : sProp 𝕄) ⊢ _
  iintro ⟨HB, Hrest⟩
  imod (inv_alloc_family allCells (fun g => Rounds.body ER (sched m) g) ∅ (E := Set.univ)) $$ HB with ⟨%K, -, HI⟩
  imodintro
  iapply (bigSep_with_persistent (R := invsAll m K) fun c _ => ghost_intro m K c)
  isplitl [HI]
  · rw [invsAll_eq]; iexact HI
  iexact Hrest

/-- info: 'Cert.KernelIdealProof.glob' depends on axioms: [propext, Classical.choice, Quot.sound] -/
#guard_msgs in #print axioms glob

end Cert.KernelIdealProof

end
-- ==== Proof.LaunchCredit.lean ====
import proofs.«900993_g7700000000000994_dist_mlpseq_tp1d_rep_bs_b512_d256_h512_v7x_i8_bf16_1_alg».proof.Proof.Levels
import Mathlib.Algebra.BigOperators.Fin

/-! The launch credit: what all devices together owe each cell of device `c`, dealt to `c` as credit tokens at launch.

    Every family of dues has one shape: device `d` owes one tally to a cell of each of its seven peers `t`. Summed over
    all `d` and regrouped by the owner `t`, each device is owed, per family, one tally from each of its seven peers:
    seven units on its barrier cell; a piece's credit on each reduce-receive cell `(l, s)`, `s` a peer, of the three
    layers; a piece's credit on each gather-receive cell `(l, s)`, `s` a peer, of layers 0 and 1. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The dues of a family, as sums over the peers -/

/-- The seven devices after `d` on the ring are its seven peers. -/
theorem sum_fwd {α : Type} [AddCommMonoid α] (X : Dev nD → α) (d : Dev nD) :
    X (fwd 1 d) + X (fwd 2 d) + X (fwd 3 d) + X (fwd 4 d) + X (fwd 5 d) + X (fwd 6 d) + X (fwd 7 d) = ∑ t ∈ peers d, X t := by
  have hp : ∀ d : Dev nD, peers d = (Finset.univ : Finset (Fin 7)).image (fun j => fwd (j.val + 1) d) := by decide
  have hinj : ∀ (d : Dev nD) (a b : Fin 7), fwd (a.val + 1) d = fwd (b.val + 1) d → a = b := by decide
  rw [hp d, Finset.sum_image (fun a _ b _ h => hinj d a b h), Fin.sum_univ_seven]
  rfl

theorem owesBar_eq (d : Dev nD) : owesBar d = ∑ t ∈ peers d, tallyAt (barCell t) () 1 :=
  sum_fwd (fun t => (tallyAt (barCell t) () 1 : CellTallies nD τ sig Unit)) d

theorem owesGat_eq (d : Dev nD) (l : Fin 3) : owesGat d l = ∑ t ∈ peers d, tallyAt (grCell t l d) () N64 :=
  sum_fwd (fun t => (tallyAt (grCell t l d) () N64 : CellTallies nD τ sig Unit)) d

/-- The eight literal targets are all the devices; the one towards `d` itself is owed nothing. -/
theorem owesRed_eq (d : Dev nD) (l : Fin 3) : owesRed d l = ∑ t ∈ peers d, tallyAt (rrCell t l d) () N64 := by
  have h8 : owesRed d l = ∑ t : Dev nD, (tallyAt (rrCell t l d) () (if d ≠ t then N64 else 0) : CellTallies nD τ sig Unit) :=
    (Fin.sum_univ_eight (fun t : Dev nD => (tallyAt (rrCell t l d) () (if d ≠ t then N64 else 0) : CellTallies nD τ sig Unit))).symm
  rw [h8]
  unfold peers
  rw [← Finset.sum_erase Finset.univ (a := d) (by rw [if_neg (not_not.mpr rfl), tallyAt_zero])]
  exact Finset.sum_congr rfl fun t ht => by rw [if_pos (Finset.ne_of_mem_erase ht).symm]

/-- A constant tally summed is the tally of the multiple. -/
theorem sum_const_tallyAt (s : Finset (Dev nD)) (g : GSem nD τ sig) (k : ℕ) :
    (∑ _d ∈ s, tallyAt g () k : CellTallies nD τ sig Unit) = tallyAt g () (s.card * k) := by
  induction s using Finset.induction_on with
  | empty => rw [Finset.sum_empty, Finset.card_empty, Nat.zero_mul, tallyAt_zero]
  | insert a s ha ih => rw [Finset.sum_insert ha, ih, tallyAt_add, Finset.card_insert_of_notMem ha, Nat.succ_mul, Nat.add_comm]

theorem peers_card7 (c : Dev nD) : (peers c).card = 7 := by revert c; decide

/-! ## The credit of a family -/

omit [FloatOps F] in
/-- Every device `d` owing the tally `X t d`, on a cell of `t`, to each of its peers `t`: device `c` is dealt the tallies
    `X c s` its peers `s` owe it (the double sum regrouped by the owner). -/
theorem launchCred_peers (X : Dev nD → Dev nD → CellTallies nD τ sig Unit)
    (hX : ∀ (t d : Dev nD) (g : GSem nD τ sig), g.1 ≠ (t : Thread nD τ) → X t d g = 0) (c : Dev nD) :
    (Pipeline.launchCred (fun d => ∑ t ∈ peers d, X t d) c : sProp 𝕄) = bigSep (peers c) fun s => cred (X c s) := by
  have hsum : (∑ d, ∑ t ∈ peers d, X t d) = ∑ t, ∑ d ∈ peers t, X t d :=
    Finset.sum_comm' (fun d t => by
      unfold peers
      rw [Finset.mem_erase, Finset.mem_erase]
      exact ⟨fun h => ⟨⟨fun e => h.2.1 e.symm, Finset.mem_univ _⟩, Finset.mem_univ _⟩, fun h => ⟨Finset.mem_univ _, fun e => h.1.1 e.symm, Finset.mem_univ _⟩⟩)
  have hT : ∀ (t : Dev nD) (g : GSem nD τ sig), (∑ d ∈ peers t, X t d) g ≠ 0 → g.1 = (t : Thread nD τ) := fun t g hg => by
    by_contra hne
    exact hg (by rw [Finset.sum_apply]; exact Finset.sum_eq_zero fun d _ => hX t d g hne)
  rw [Pipeline.launchCred_of_sum (fun d => ∑ t ∈ peers d, X t d) (fun t => ∑ d ∈ peers t, X t d) hsum hT c, Pipeline.cred_finsetSum]

omit [FloatOps F] in
/-- The barrier cell: a unit from each of the seven peers. -/
theorem cred_bar (c : Dev nD) : (Pipeline.launchCred (fun d => owesBar d) c : sProp 𝕄) = cred (tallyAt (barCell c) () 7) := by
  rw [show (fun d => owesBar d) = fun d => ∑ t ∈ peers d, (tallyAt (barCell t) () 1 : CellTallies nD τ sig Unit) from funext owesBar_eq,
    launchCred_peers (fun t _ => tallyAt (barCell t) () 1) (fun t d g hg => tallyAt_ne_cell (fun h => hg (congrArg Prod.fst h)) () 1) c,
    ← Pipeline.cred_finsetSum, sum_const_tallyAt, peers_card7]

omit [FloatOps F] in
/-- The reduce-receive cells of layer `l`: a piece's credit on the cell `(l, s)` of each peer `s`. -/
theorem cred_red (c : Dev nD) (l : Fin 3) :
    (Pipeline.launchCred (fun d => owesRed d l) c : sProp 𝕄) = bigSep (peers c) fun s => cred (tallyAt (rrCell c l s) () N64) := by
  rw [show (fun d => owesRed d l) = fun d => ∑ t ∈ peers d, (tallyAt (rrCell t l d) () N64 : CellTallies nD τ sig Unit) from funext fun d => owesRed_eq d l]
  exact launchCred_peers (fun t d => tallyAt (rrCell t l d) () N64) (fun t d g hg => tallyAt_ne_cell (fun h => hg (congrArg Prod.fst h)) () N64) c

omit [FloatOps F] in
/-- The gather-receive cells of layer `l`: a piece's credit on the cell `(l, s)` of each peer `s`. -/
theorem cred_gat (c : Dev nD) (l : Fin 3) :
    (Pipeline.launchCred (fun d => owesGat d l) c : sProp 𝕄) = bigSep (peers c) fun s => cred (tallyAt (grCell c l s) () N64) := by
  rw [show (fun d => owesGat d l) = fun d => ∑ t ∈ peers d, (tallyAt (grCell t l d) () N64 : CellTallies nD τ sig Unit) from funext fun d => owesGat_eq d l]
  exact launchCred_peers (fun t d => tallyAt (grCell t l d) () N64) (fun t d g hg => tallyAt_ne_cell (fun h => hg (congrArg Prod.fst h)) () N64) c

/-! ## The launch credit of a device -/

omit [FloatOps F] in
/-- Family by family. -/
theorem launchCred_O₀ (c : Dev nD) :
    (Pipeline.launchCred O₀ c : sProp 𝕄)
      = iprop(((((Pipeline.launchCred (fun d => owesBar d) c ∗ Pipeline.launchCred (fun d => owesRed d 0) c) ∗ Pipeline.launchCred (fun d => owesRed d 1) c)
          ∗ Pipeline.launchCred (fun d => owesRed d 2) c) ∗ Pipeline.launchCred (fun d => owesGat d 0) c) ∗ Pipeline.launchCred (fun d => owesGat d 1) c) := by
  rw [← Pipeline.launchCred_add (fun d => owesBar d) (fun d => owesRed d 0) c,
    ← Pipeline.launchCred_add (fun d => owesBar d + owesRed d 0) (fun d => owesRed d 1) c,
    ← Pipeline.launchCred_add (fun d => owesBar d + owesRed d 0 + owesRed d 1) (fun d => owesRed d 2) c,
    ← Pipeline.launchCred_add (fun d => owesBar d + owesRed d 0 + owesRed d 1 + owesRed d 2) (fun d => owesGat d 0) c,
    ← Pipeline.launchCred_add (fun d => owesBar d + owesRed d 0 + owesRed d 1 + owesRed d 2 + owesGat d 0) (fun d => owesGat d 1) c]

omit [FloatOps F] in
/-- What device `c` is dealt at launch: seven units on its barrier cell, and from each peer `s` a piece's credit on the
    reduce-receive cell `(l, s)` of the three layers and on the gather-receive cell `(l, s)` of layers 0 and 1. -/
theorem creds (c : Dev nD) :
    (Pipeline.launchCred O₀ c : sProp 𝕄) ⊢ iprop(cred (tallyAt (barCell c) () 7) ∗ bigSep (peers c) (fun s =>
      iprop(cred (tallyAt (rrCell c 0 s) () N64) ∗ cred (tallyAt (rrCell c 1 s) () N64) ∗ cred (tallyAt (rrCell c 2 s) () N64)
        ∗ cred (tallyAt (grCell c 0 s) () N64) ∗ cred (tallyAt (grCell c 1 s) () N64)))) := by
  rw [launchCred_O₀, cred_bar, cred_red, cred_red, cred_red, cred_gat, cred_gat, bigSep_sep', bigSep_sep', bigSep_sep', bigSep_sep']
  iintro ⟨⟨⟨⟨⟨Hb, H0⟩, H1⟩, H2⟩, G0⟩, G1⟩
  isplitl [Hb]; · iexact Hb
  isplitl [H0]; · iexact H0
  isplitl [H1]; · iexact H1
  isplitl [H2]; · iexact H2
  isplitl [G0]; · iexact G0
  iexact G1

/-- info: 'Cert.KernelIdealProof.creds' depends on axioms: [propext, Classical.choice, Quot.sound] -/
#guard_msgs in #print axioms creds

end Cert.KernelIdealProof

end
-- ==== Proof.LaunchRun.lean ====
import proofs.«900993_g7700000000000994_dist_mlpseq_tp1d_rep_bs_b512_d256_h512_v7x_i8_bf16_1_alg».proof.Proof.Data
import proofs.«900993_g7700000000000994_dist_mlpseq_tp1d_rep_bs_b512_d256_h512_v7x_i8_bf16_1_alg».proof.Proof.LaunchGlob
import proofs.«900993_g7700000000000994_dist_mlpseq_tp1d_rep_bs_b512_d256_h512_v7x_i8_bf16_1_alg».proof.Proof.LaunchCredit

/-! The run of @main on the eight devices. The launch theorem for cores that owe at launch and whose protocol also runs
    on the runtime's barrier semaphore is applied to: the proof data and the body obligation; the protocol's funding and
    global step; the launch credit as the credit a device's body starts from; the levels, under which the pipeline's own
    waits are below everything a device owes. Its conclusion names each windowed array's final contents: an argument
    array holds what it held; the result array holds the device's rows of the last layer's sum. -/

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The launch theorem's side conditions -/

theorem share_eq (c : Dev nD) (w : Fin cfg0.W) : (dats m ρ 0 c).share w = fullShare := by unfold Dat.share; split <;> rfl

omit [FloatOps F] in
/-- The launch credit of a device is the credit its body starts from. -/
theorem credsOf_intro (c : Dev nD) : (Pipeline.launchCred O₀ c : sProp 𝕄) ⊢ credsOf c := by
  unfold credsOf credFrom; exact creds c

/-- What the launch hands a device beside its buffers is its start: no unscoped buffer but the windows' arrays. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credsOf_intro (F := F) c) $$ Hcr
  imodintro
  unfold start G'
  isplitl
  · isplitl [HG]; · iexact HG
    isplitl [Hc]; · iexact Hc
    iexact Hlev
  · iempintro

/-- With the three scratch buffers it is the invariant before the point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, H0, H1, H2⟩
  isplitl [Hs]; · iexact Hs
  isplitl [H0]; · iexact H0
  isplitl [H1]; · iexact H1
  iexact H2

/-- The invariant after the point gives the launch back the scratch buffers and the device's own semaphores at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr
  iintro ⟨H0, H1, H2, Hz⟩
  isplitr; · iempintro
  isplitl [Hz]; · iexact Hz
  isplitl [H0]; · iexact H0
  isplitl [H1]; · iexact H1
  iexact H2

/-- The pipeline's own waits, on the staging semaphores, are below everything a device owes before and after the point. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem_lt w s) _ (by
      rcases t with ⟨_ | _, ht⟩
      · exact Or.inl rfl
      · exact Or.inr rfl)

/-! ## The run -/

/-- The windows' arrays after the run, as the pipeline's write-backs leave them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: given the body's
    soundness, every weakly fair execution of @main terminates, and every final state has each device's windowed arrays
    at `finalA`. -/
theorem run_main
    (hbody : ∀ (K : GSem nD τ sig → ℕ) (c : Dev nD) (Kt : PUnit → sProp 𝕄), iprop(bodyPre m K c ∗ (bodyPost m c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-! ## The arrays after the run -/

/-- An argument array after the run holds what it held: the pipeline never writes an input window back. -/
theorem finalA_in (c : Dev nD) (w : Fin 8) (hw : w.val < 7) : finalA m ρ c w = m ((cfg0.win w).arr.view.loc (c : Thread nD τ)) :=
  (dats (F := F) m ρ 0 c).arrAt_in w (by fin_cases w <;> first | rfl | exact absurd hw (by decide)) _

/-- The result array after the run: the one write-back, at the one point, of the whole block the body left in the
    result's staging buffer — the device's rows of the last layer's sum. -/
theorem finalA_out (c : Dev nD) : finalA m ρ c (7 : Fin 8) = outAt m c := by
  show (dats (F := F) m ρ 0 c).arrAt (7 : Fin 8) (t0_0.val + 1) = _
  rw [Dat.arrAt_succ, if_pos (flush0_7 t0_0)]
  show (win0_7.blk t0_0).view.write (Elt F) _ (outAt m c) Finset.univ = outAt m c
  exact Memref.write_access_unit_zero_univ (Elt F) main_v1 (funext fun a => Nat.zero_mul _) _ _ _

/-- info: 'Cert.KernelIdealProof.finalA_out' depends on axioms: [propext, Classical.choice, Quot.sound] -/
#guard_msgs in #print axioms finalA_out

/-! ## The run, its post read at the arrays -/

set_option maxRecDepth 8000 in
/-- Given the body's soundness: every weakly fair execution of @main from a memory with zero counters terminates, and in
    every final state each device's seven argument arrays hold what they held and its result array holds its rows of
    the last layer's sum. -/
theorem run_value
    (hbody : ∀ (K : GSem nD τ sig → ℕ) (c : Dev nD) (Kt : PUnit → sProp 𝕄), iprop(bodyPre m K c ∗ (bodyPost m c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt) :
    θ_run defs (onTc (τ := τ) (main (F := F))) (s₀ m ρ) (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_v1) = outAt m c) :=
  (θ_run defs _ _).mono (fun _ h c => ⟨((h c) 0).trans (finalA_in m ρ c 0 (by decide)),
      ((h c) 1).trans (finalA_in m ρ c 1 (by decide)),
      ((h c) 2).trans (finalA_in m ρ c 2 (by decide)),
      ((h c) 3).trans (finalA_in m ρ c 3 (by decide)),
      ((h c) 4).trans (finalA_in m ρ c 4 (by decide)),
      ((h c) 5).trans (finalA_in m ρ c 5 (by decide)),
      ((h c) 6).trans (finalA_in m ρ c 6 (by decide)),
      ((h c) 7).trans (finalA_out m ρ c)⟩) (run_main m ρ hbody)

/-- info: 'Cert.KernelIdealProof.run_value' depends on axioms: [propext, Classical.choice, Quot.sound] -/
#guard_msgs in #print axioms run_value

end Cert.KernelIdealProof

end
-- ==== Proof.Wire.lean ====
import proofs.«900993_g7700000000000994_dist_mlpseq_tp1d_rep_bs_b512_d256_h512_v7x_i8_bf16_1_alg».proof.Proof.Body
import proofs.«900993_g7700000000000994_dist_mlpseq_tp1d_rep_bs_b512_d256_h512_v7x_i8_bf16_1_alg».proof.Proof.LaunchRun

/-! The kernel's run, closed over the body's soundness: every weakly fair execution from any memory with the semaphore
    counters at zero terminates with each argument array unchanged and the result array at the result block. -/

noncomputable section

namespace Cert.KernelIdealProof

open Cert.KernelIdeal Cert.KernelIdeal.Gen
open Idealize.ShloMosaic Idealize.ShloMosaic.TcCoe Idealize.SL.Sem

variable {F : FTy → Type} [FloatOps F]

theorem run_main_closed (m : (ℓ : Loc nD τ sig) → Buf (Elt F) ℓ) (ρ : Dev nD → PrngReg) :
    θ_run (defs (F := F)) (onTc (τ := τ) (main (F := F))) (s₀ m ρ)
      (fun r => ∀ (c : Dev nD) (w : Fin 8), r.2.mem ((cfg0.win w).arr.view.loc (c : Thread nD τ)) = finalA m ρ c w) :=
  run_main m ρ (fun K c Kt => sound_body m K c Kt)

end Cert.KernelIdealProof

end
-- ==== Proof.K.Cells.lean ====
import proofs.«900993_g7700000000000994_dist_mlpseq_tp1d_rep_bs_b512_d256_h512_v7x_i8_bf16_1_alg».proof.Proof.Gen.Kernel
import proofs.«900993_g7700000000000994_dist_mlpseq_tp1d_rep_bs_b512_d256_h512_v7x_i8_bf16_1_alg».proof.Proof.Gen.Kernel.Skeleton
import proofs.«900993_g7700000000000994_dist_mlpseq_tp1d_rep_bs_b512_d256_h512_v7x_i8_bf16_1_alg».proof.Proof.Gen.Kernel.Launch
import Idealize.ShloMosaic.Lib.Pipeline.Launch
import Idealize.ShloMosaic.Lib.Pipeline.Kit
import Idealize.ShloMosaic.Lib.Tactic

/-! The names of the protocol. Eight devices on a line of residues mod 8. Device `c` has one barrier cell (the
    runtime's semaphore of collective id 0), and per layer `l < 3`: a reduce-send cell (credited as each of its seven
    partial-product chunks has been read out), eight reduce-receive cells `(l, s)` (credited when device `s`'s chunk
    has landed in slot `(l, s)` of the receive buffer; the one with `s = c` is never used), a gather-send cell and
    eight gather-receive cells `(l, s)` (device `s`'s reduced rows landing in rows `64 s …` of the gather buffer).
    The buffers are cut in 64-row pieces: chunk `t` of layer `l` of the partial-product buffer and of the gather buffer,
    slot `(l, s)` of the receive buffer. -/

noncomputable section

namespace Cert.KernelProof

open Cert.Kernel Cert.Kernel.Gen
open Idealize.ShloMosaic Idealize.ShloMosaic.TcCoe Idealize.SL.Sem

/-! ## Peers -/

/-- The device `j` places after `c` on the ring of residues. -/
def fwd (j : ℕ) (c : Dev nD) : Dev nD := ⟨(c.val + j) % 8, Nat.mod_lt _ (by decide)⟩
/-- The device `j` places before `c` (`1 ≤ j ≤ 8`). -/
def bwd (j : ℕ) (c : Dev nD) : Dev nD := ⟨(c.val + 8 - j) % 8, Nat.mod_lt _ (by decide)⟩

theorem fwd_ne (j : Fin 8) (hj : j.val ≠ 0) (c : Dev nD) : fwd j.val c ≠ c := by revert j c; decide
theorem bwd_ne (j : Fin 8) (hj : j.val ≠ 0) (c : Dev nD) : bwd j.val c ≠ c := by revert j c; decide
theorem bwd_fwd (j : Fin 8) (c : Dev nD) : bwd j.val (fwd j.val c) = c := by revert j c; decide
theorem fwd_bwd (j : Fin 8) (c : Dev nD) : fwd j.val (bwd j.val c) = c := by revert j c; decide

/-! ## Semaphores and cells -/

/-- The runtime's barrier semaphore of collective id 0 (not scoped to the launch). -/
abbrev barS : Sem sig := (SemArray.scalar (sig.barrier 0 rfl) : Sems sig S_).sem
/-- The reduce-send semaphore of layer `l`. -/
def rsS (l : Fin 3) : DmaSem sig := ⟨8 + l.val, by have := l.isLt; decide +revert⟩
/-- The reduce-receive semaphore `(l, s)`. -/
def rrS (l : Fin 3) (s : Dev nD) : DmaSem sig := ⟨11 + 8 * l.val + s.val, by revert l s; decide⟩
/-- The gather-send semaphore of layer `l`. -/
def gsS (l : Fin 3) : DmaSem sig := ⟨35 + l.val, by revert l; decide⟩
/-- The gather-receive semaphore `(l, s)`. -/
def grS (l : Fin 3) (s : Dev nD) : DmaSem sig := ⟨38 + 8 * l.val + s.val, by revert l s; decide⟩

abbrev barCell (c : Dev nD) : GSem nD τ sig := ((c : Thread nD τ), .reg barS)
abbrev rsCell (c : Dev nD) (l : Fin 3) : GSem nD τ sig := ((c : Thread nD τ), .dma (rsS l))
abbrev rrCell (c : Dev nD) (l : Fin 3) (s : Dev nD) : GSem nD τ sig := ((c : Thread nD τ), .dma (rrS l s))
abbrev gsCell (c : Dev nD) (l : Fin 3) : GSem nD τ sig := ((c : Thread nD τ), .dma (gsS l))
abbrev grCell (c : Dev nD) (l : Fin 3) (s : Dev nD) : GSem nD τ sig := ((c : Thread nD τ), .dma (grS l s))

/-! ## The 64-row pieces of the three scratch buffers -/

theorem inb_p (l : Fin 3) (t : Fin 8) : ∀ a, (![l.val, 64 * t.val, 0] : Fin 3 → Nat) a + S1x64x256.size a ≤ S3x512x256.size a := by revert l t; decide
theorem inb_r (l : Fin 3) (s : Fin 8) : ∀ a, (![l.val, s.val, 0, 0] : Fin 4 → Nat) a + S1x1x64x256.size a ≤ S3x8x64x256.size a := by revert l s; decide

/-- Chunk `t` (rows `64 t … 64 t + 63`) of layer `l` of the partial-product buffer. -/
def pChunk (l : Fin 3) (t : Fin 8) : Memref sig .tc .vmem S64x256 .bf16 :=
  ((Memref.whole cc0_scratch0).slice (Rect.unit (s := S3x512x256) ![l.val, 64 * t.val, 0] S1x64x256.size (inb_p l t)) (fun _ => rfl)).squeeze S64x256 squeezes_S1x64x256_S64x256
/-- Slot `(l, s)` of the receive buffer. -/
def rSlot (l : Fin 3) (s : Fin 8) : Memref sig .tc .vmem S64x256 .bf16 :=
  ((Memref.whole cc0_scratch1).slice (Rect.unit (s := S3x8x64x256) ![l.val, s.val, 0, 0] S1x1x64x256.size (inb_r l s)) (fun _ => rfl)).squeeze S64x256 squeezes_S1x1x64x256_S64x256
/-- Chunk `t` of layer `l` of the gather buffer. -/
def gChunk (l : Fin 3) (t : Fin 8) : Memref sig .tc .vmem S64x256 .bf16 :=
  ((Memref.whole cc0_scratch2).slice (Rect.unit (s := S3x512x256) ![l.val, 64 * t.val, 0] S1x64x256.size (inb_p l t)) (fun _ => rfl)).squeeze S64x256 squeezes_S1x64x256_S64x256

/-- The credit of one 64-row piece's transfer, in the units of a DMA semaphore. -/
abbrev N64 : ℕ := (pChunk 0 0).view.dmaCredit
theorem N64_pos : 0 < N64 := View.dmaCredit_pos _ (by decide)

end Cert.KernelProof

end
-- ==== Proof.K.Contents.lean ====
import proofs.«900993_g7700000000000994_dist_mlpseq_tp1d_rep_bs_b512_d256_h512_v7x_i8_bf16_1_alg».proof.Proof.K.Cells
import Idealize.ShloMosaic.Lib.ValueIdx

/-! The canonical contents of the three scratch buffers. Each is ONE function of the initial memory for the whole
    buffer of a device, so that every piece of a buffer, once written, holds that function on the piece:
    `Pfun m c` at `(l, r, j)` is the partial product of layer `l` on device `c` — `relu (X_l · Win_l^(c)) · Wout_l^(c)`
    at row `r`, column `j`, rounded as the kernel rounds —; `Rfun m c` at `(l, s, r, j)` is device `s`'s partial
    product of layer `l` at row `64 c + r` (what `s` sends `c`); `Gfun m c` at `(l, r, j)` is the layer's reduced
    output `X_{l+1}` at row `r`: the sum over the eight devices of their partial products, in the order the owner
    of the row adds them. `outAt m c` is the last layer's reduced rows `64 c …`, the kernel's result.

    The functions are built in stages, each the body's own arithmetic (its payload functions) applied to what the
    body reads at that point: the argument arrays; a layer's partial product, whole (layer 0) or in four groups of
    128 rows (layers 1 and 2); the 64-row chunk of it a device keeps and the seven it receives; their sum, the
    device's rows of the next activation; those rows of all eight devices stacked, the next activation whole. -/

noncomputable section

namespace Cert.KernelProof

open Cert.Kernel Cert.Kernel.Gen
open Idealize.ShloMosaic Idealize.ShloMosaic.TcCoe Idealize.SL.Sem
open Idealize.ShloMosaic.ValueIdx

variable {F : FTy → Type} [FloatOps F]

/-! ## Coordinates below their extents, as literals -/

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt
theorem idx4_lt0 {n0 n1 n2 n3 : Nat} (j : (⟨4, ![n0, n1, n2, n3]⟩ : Shape).Idx) : (j 0).val < n0 := (j 0).isLt
theorem idx4_lt1 {n0 n1 n2 n3 : Nat} (j : (⟨4, ![n0, n1, n2, n3]⟩ : Shape).Idx) : (j 1).val < n1 := (j 1).isLt
theorem idx4_lt2 {n0 n1 n2 n3 : Nat} (j : (⟨4, ![n0, n1, n2, n3]⟩ : Shape).Idx) : (j 2).val < n2 := (j 2).isLt
theorem idx4_lt3 {n0 n1 n2 n3 : Nat} (j : (⟨4, ![n0, n1, n2, n3]⟩ : Shape).Idx) : (j 3).val < n3 := (j 3).isLt

/-! ## Pieces of a layer's array

A layer's array has shape `[1, 512, 256]` (one layer of a scratch buffer). -/

/-- Rows `64 t … 64 t + 63` of a layer, as the vector a load of that chunk of a scratch buffer returns. -/
def chunkOf (P : FVec F S1x512x256 .bf16) (t : Fin 8) : Vec F S1x64x256 .bf16 :=
  fun i => P (ix3 0 ⟨64 * t.val + (i 1).val, by have := t.isLt; have := idx3_lt1 i; omega⟩ ⟨(i 2).val, idx3_lt2 i⟩)

/-- The same rows as the vector a load of a slot of the receive buffer returns. -/
def slotOf (P : FVec F S1x512x256 .bf16) (t : Fin 8) : Vec F S1x1x64x256 .bf16 :=
  fun i => P (ix3 0 ⟨64 * t.val + (i 2).val, by have := t.isLt; have := idx4_lt2 i; omega⟩ ⟨(i 3).val, idx4_lt3 i⟩)

/-- Rows `128 g … 128 g + 127` of a layer, as the vector a load of that group returns. -/
def groupOf (G : FVec F S1x512x256 .bf16) (g : Fin 4) : Vec F S1x128x256 .bf16 :=
  fun i => G (ix3 0 ⟨128 * g.val + (i 1).val, by have := g.isLt; have := idx3_lt1 i; omega⟩ ⟨(i 2).val, idx3_lt2 i⟩)

/-- A layer from its four groups of 128 rows. -/
def ofGroups (Q : Fin 4 → FVec F S1x128x256 .bf16) : FVec F S1x512x256 .bf16 :=
  fun i => Q ⟨(i 1).val / 128, by have := idx3_lt1 i; omega⟩
    (ix3 0 ⟨(i 1).val % 128, Nat.mod_lt _ (by decide)⟩ ⟨(i 2).val, idx3_lt2 i⟩)

/-- A layer from its eight chunks of 64 rows. -/
def ofChunks (R : Fin 8 → FVec F S1x64x256 .bf16) : FVec F S1x512x256 .bf16 :=
  fun i => R ⟨(i 1).val / 64, by have := idx3_lt1 i; omega⟩
    (ix3 0 ⟨(i 1).val % 64, Nat.mod_lt _ (by decide)⟩ ⟨(i 2).val, idx3_lt2 i⟩)

variable (m : (ℓ : Loc nD τ sig) → Buf (Elt F) ℓ)

/-! ## The argument arrays -/

/-- The activation every device holds whole. -/
def argX (c : Dev nD) : Vec F S512x256 .f32 := m ((c : Thread nD τ).loc main_arg0)

/-- Device `c`'s column block of the input weight of layer `l`. -/
def argW (c : Dev nD) : Fin 3 → Vec F S256x512 .f32
  | ⟨0, _⟩ => m ((c : Thread nD τ).loc main_arg1)
  | ⟨1, _⟩ => m ((c : Thread nD τ).loc main_arg3)
  | ⟨2, _⟩ => m ((c : Thread nD τ).loc main_arg5)

/-- Device `c`'s row block of the output weight of layer `l`. -/
def argV (c : Dev nD) : Fin 3 → Vec F S512x256 .f32
  | ⟨0, _⟩ => m ((c : Thread nD τ).loc main_arg2)
  | ⟨1, _⟩ => m ((c : Thread nD τ).loc main_arg4)
  | ⟨2, _⟩ => m ((c : Thread nD τ).loc main_arg6)

/-! ## Layer 0 -/

/-- Device `c`'s partial product of layer 0, all 512 rows. -/
def P0 (c : Dev nD) : FVec F S1x512x256 .bf16 := k0_pay1 (argX m c) (argW m c 0) (argV m c 0)

/-- Device `t`'s rows of the first activation: its own chunk of its partial product, then the chunks of the
    devices 1, 2, …, 7 places before it, added in that order, rounded. -/
def red0 (t : Dev nD) : FVec F S1x64x256 .bf16 :=
  k0_pay6
    (k0_pay5
      (k0_pay4
        (k0_pay3 (k0_pay2 (chunkOf (P0 m t) t)) (slotOf (P0 m (bwd 1 t)) t) (slotOf (P0 m (bwd 2 t)) t))
        (slotOf (P0 m (bwd 3 t)) t) (slotOf (P0 m (bwd 4 t)) t))
      (slotOf (P0 m (bwd 5 t)) t))
    (slotOf (P0 m (bwd 6 t)) t) (slotOf (P0 m (bwd 7 t)) t)

/-- The first activation, whole: the eight devices' rows stacked. -/
def G0 : FVec F S1x512x256 .bf16 := ofChunks (red0 m)

/-! ## Layer 1 -/

/-- Device `c`'s partial product of layer 1, group by group. -/
def P1grp (c : Dev nD) : Fin 4 → FVec F S1x128x256 .bf16
  | ⟨0, _⟩ => k0_pay10 (k0_pay9 (argW m c 1) (argV m c 1) (groupOf (G0 m) 0))
  | ⟨1, _⟩ => k0_pay11 (k0_pay7 (argW m c 1)) (k0_pay8 (argV m c 1)) (groupOf (G0 m) 1)
  | ⟨2, _⟩ => k0_pay12 (k0_pay7 (argW m c 1)) (k0_pay8 (argV m c 1)) (groupOf (G0 m) 2)
  | ⟨3, _⟩ => k0_pay13 (k0_pay7 (argW m c 1)) (k0_pay8 (argV m c 1)) (groupOf (G0 m) 3)

def P1 (c : Dev nD) : FVec F S1x512x256 .bf16 := ofGroups (P1grp m c)

/-- Device `t`'s rows of the second activation. -/
def red1 (t : Dev nD) : FVec F S1x64x256 .bf16 :=
  k0_pay18
    (k0_pay17
      (k0_pay16
        (k0_pay15 (k0_pay14 (chunkOf (P1 m t) t)) (slotOf (P1 m (bwd 1 t)) t) (slotOf (P1 m (bwd 2 t)) t))
        (slotOf (P1 m (bwd 3 t)) t) (slotOf (P1 m (bwd 4 t)) t))
      (slotOf (P1 m (bwd 5 t)) t) (slotOf (P1 m (bwd 6 t)) t))
    (slotOf (P1 m (bwd 7 t)) t)

/-- The second activation, whole. -/
def G1 : FVec F S1x512x256 .bf16 := ofChunks (red1 m)

/-! ## Layer 2 -/

/-- Device `c`'s partial product of layer 2, group by group. -/
def P2grp (c : Dev nD) : Fin 4 → FVec F S1x128x256 .bf16
  | ⟨0, _⟩ => k0_pay21 (argW m c 2) (argV m c 2) (groupOf (G1 m) 0)
  | ⟨1, _⟩ => k0_pay22 (k0_pay19 (argW m c 2)) (k0_pay20 (argV m c 2)) (groupOf (G1 m) 1)
  | ⟨2, _⟩ => k0_pay23 (k0_pay19 (argW m c 2)) (k0_pay20 (argV m c 2)) (groupOf (G1 m) 2)
  | ⟨3, _⟩ => k0_pay25 (k0_pay19 (argW m c 2)) (k0_pay20 (argV m c 2)) (k0_pay24 (groupOf (G1 m) 3))
      (constant S128x512 .f32 0x00000000#32)

def P2 (c : Dev nD) : FVec F S1x512x256 .bf16 := ofGroups (P2grp m c)

/-- Device `t`'s rows of the result: the last layer's sum, not rounded. -/
def red2 (t : Dev nD) : FVec F S64x256 .f32 :=
  k0_pay30
    (k0_pay29
      (k0_pay28
        (k0_pay27 (k0_pay26 (chunkOf (P2 m t) t)) (slotOf (P2 m (bwd 1 t)) t) (slotOf (P2 m (bwd 2 t)) t))
        (slotOf (P2 m (bwd 3 t)) t) (slotOf (P2 m (bwd 4 t)) t))
      (slotOf (P2 m (bwd 5 t)) t) (slotOf (P2 m (bwd 6 t)) t))
    (slotOf (P2 m (bwd 7 t)) t)

/-! ## The buffers -/

/-- Layer `l`'s partial product of device `c`. -/
def Pl (c : Dev nD) : Fin 3 → FVec F S1x512x256 .bf16
  | ⟨0, _⟩ => P0 m c
  | ⟨1, _⟩ => P1 m c
  | ⟨2, _⟩ => P2 m c

/-- The activation layer `l` produces, whole (the last layer's is never gathered: its slot of the gather buffer
    is never written, and any function serves there). -/
def Gl : Fin 3 → FVec F S1x512x256 .bf16
  | ⟨0, _⟩ => G0 m
  | ⟨1, _⟩ => G1 m
  | ⟨2, _⟩ => G1 m

/-- Device `c`'s partial-product buffer, all three layers. -/
def Pfun (c : Dev nD) : Buf (Elt F) ((c : Thread nD τ).loc cc0_scratch0) :=
  fun i => Pl m c ⟨(i 0).val, idx3_lt0 i⟩ (ix3 0 ⟨(i 1).val, idx3_lt1 i⟩ ⟨(i 2).val, idx3_lt2 i⟩)
/-- Device `c`'s receive buffer: slot `(l, s)` holds rows `64 c …` of device `s`'s partial product of layer `l`. -/
def Rfun (c : Dev nD) : Buf (Elt F) ((c : Thread nD τ).loc cc0_scratch1) :=
  fun i => Pl m ⟨(i 1).val, idx4_lt1 i⟩ ⟨(i 0).val, idx4_lt0 i⟩
    (ix3 0 ⟨64 * c.val + (i 2).val, by have h8 : c.val < 8 := c.isLt; have := idx4_lt2 i; omega⟩ ⟨(i 3).val, idx4_lt3 i⟩)
/-- Device `c`'s gather buffer: layer `l` holds the whole reduced output of layer `l`. -/
def Gfun (c : Dev nD) : Buf (Elt F) ((c : Thread nD τ).loc cc0_scratch2) :=
  fun i => Gl m ⟨(i 0).val, idx3_lt0 i⟩ (ix3 0 ⟨(i 1).val, idx3_lt1 i⟩ ⟨(i 2).val, idx3_lt2 i⟩)
/-- Device `c`'s result block. -/
def outAt (c : Dev nD) : (cc0_stg7_0 : Ref sig .tc).ty.Contents (Elt F) := red2 m c

end Cert.KernelProof

end
-- ==== Proof.K.Sched.lean ====
import proofs.«900993_g7700000000000994_dist_mlpseq_tp1d_rep_bs_b512_d256_h512_v7x_i8_bf16_1_alg».proof.Proof.K.Contents

/-! The schedule of the protocol under the rounds discipline: every cell has ONE round, round 0.
    * A barrier cell of device `c` has seven duties, one per peer `p ≠ c`, of one unit each: `p`'s entry signal. It hands
      `c` the pieces of `p`'s buffers that `c`'s copies will write — slot `(l, c)` of `p`'s receive buffer for the three
      layers, chunk `c` of layers 0 and 1 of `p`'s gather buffer — and that `p`'s receive cells for them are at round 0.
    * A reduce-send cell `(c, l)` has seven duties, one per target `t ≠ c`, of a piece's credit: chunk `t` of layer `l` of
      `c`'s partial-product buffer has been read out; it hands the chunk back.
    * A reduce-receive cell `(c, l, s)`, `s ≠ c`, has the one duty `s`: `s`'s chunk has landed; it hands `c` slot `(l, s)`
      holding rows `64 c …` of `s`'s partial product.
    * A gather-send cell `(c, l)`, `l < 2`, has seven duties `t ≠ c`: `c`'s reduced rows have been read out once more; each
      hands back the share of chunk `c` of the gather buffer the copy was lent.
    * A gather-receive cell `(c, l, s)`, `l < 2`, `s ≠ c`, has the one duty `s`: it hands `c` chunk `s` of layer `l` of
      its gather buffer holding `s`'s reduced rows. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by the peer device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cell kinds -/

/-- The kind of a protocol cell: which semaphore of a device it is. -/
inductive CK where
  | bar
  | rs (l : Fin 3)
  | rr (l : Fin 3) (s : Dev nD)
  | gs (l : Fin 3)
  | gr (l : Fin 3) (s : Dev nD)
  deriving DecidableEq

def CK.sem : CK → SemLoc sig
  | .bar => .reg barS
  | .rs l => .dma (rsS l)
  | .rr l s => .dma (rrS l s)
  | .gs l => .dma (gsS l)
  | .gr l s => .dma (grS l s)

/-- The kind a semaphore is, if it is one of the protocol's. -/
def ckOf : SemLoc sig → Option CK
  | .reg s => if s = barS then some .bar else none
  | .dma s =>
    if h : 8 ≤ s.val ∧ s.val < 11 then some (.rs ⟨s.val - 8, by omega⟩)
    else if h : 11 ≤ s.val ∧ s.val < 35 then some (.rr ⟨(s.val - 11) / 8, by omega⟩ ⟨(s.val - 11) % 8, Nat.mod_lt _ (by decide)⟩)
    else if h : 35 ≤ s.val ∧ s.val < 38 then some (.gs ⟨s.val - 35, by omega⟩)
    else if h : 38 ≤ s.val ∧ s.val < 62 then some (.gr ⟨(s.val - 38) / 8, by omega⟩ ⟨(s.val - 38) % 8, Nat.mod_lt _ (by decide)⟩)
    else none

theorem ckOf_sem (k : CK) : ckOf k.sem = some k := by
  cases k with
  | bar => rfl
  | rs l => revert l; decide
  | rr l s => revert l s; decide
  | gs l => revert l; decide
  | gr l s => revert l s; decide

/-! ## Shares: the gather source is lent to seven copies at once -/

/-- Eight disjoint shares of the whole, named by a device. -/
def sh8 (t : Dev nD) : PosShare TreeShare :=
  match t with
  | ⟨0, _⟩ => fullShare.left.left.left | ⟨1, _⟩ => fullShare.left.left.right | ⟨2, _⟩ => fullShare.left.right.left | ⟨3, _⟩ => fullShare.left.right.right
  | ⟨4, _⟩ => fullShare.right.left.left | ⟨5, _⟩ => fullShare.right.left.right | ⟨6, _⟩ => fullShare.right.right.left | ⟨_, _⟩ => fullShare.right.right.right

/-! ## Pieces held -/

/-- Device `c` holds the piece `M` of one of its buffers at share `q`, the buffer reading `f` there. -/
def piece (c : Dev nD) {sp : Space} (M : Memref sig .tc sp S64x256 .bf16) (q : PosShare TreeShare) (f : Buf (Elt F) (M.view.loc (c : Thread nD τ))) : sProp 𝕄 :=
  M.view.loc (c : Thread nD τ) ↦[M.view.set]{q} f

omit [FloatOps F] in
instance piece_storable (c : Dev nD) {sp : Space} (M : Memref sig .tc sp S64x256 .bf16) (q : PosShare TreeShare) (f) :
    BI.Storable (upEmb : UEmb _ 𝕄) (piece (F := F) c M q f) := by unfold piece; infer_instance

/-! ## Payloads -/

/-- What peer `p`'s entry signal hands device `c`: the pieces of `p`'s buffers that `c`'s copies write, at some contents,
    and that `p`'s receive cells for those copies are at round 0. -/
def barPay (c p : Dev nD) : sProp 𝕄 :=
  iprop((∃ f, piece p (rSlot 0 c) fullShare f) ∗ (∃ f, piece p (rSlot 1 c) fullShare f) ∗ (∃ f, piece p (rSlot 2 c) fullShare f)
    ∗ (∃ f, piece p (gChunk 0 c) fullShare f) ∗ (∃ f, piece p (gChunk 1 c) fullShare f)
    ∗ reached ER (rrCell p 0 c) 0 ∗ reached ER (rrCell p 1 c) 0 ∗ reached ER (rrCell p 2 c) 0
    ∗ reached ER (grCell p 0 c) 0 ∗ reached ER (grCell p 1 c) 0)
/-- Chunk `t` of layer `l` of `c`'s partial products, back from the copy to `t`. -/
def rsPay (c : Dev nD) (l : Fin 3) (t : Dev nD) : sProp 𝕄 := piece c (pChunk l t) fullShare (Pfun m c)
/-- Slot `(l, s)` of `c`'s receive buffer holding what `s` sent: chunk `c` of `s`'s partial products of layer `l`, written
    over whatever the slot held. -/
def rrPay (c : Dev nD) (l : Fin 3) (s : Dev nD) : sProp 𝕄 :=
  iprop(∃ fd, piece c (rSlot l s) fullShare ((rSlot l s).view.write (Elt F) fd ((pChunk l c).view.read (Elt F) (Pfun m s)) Finset.univ))
/-- The share of `c`'s own reduced rows lent to the copy to `t`. -/
def gsPay (c : Dev nD) (l : Fin 3) (t : Dev nD) : sProp 𝕄 := piece c (gChunk l c) (sh8 t) (Gfun m c)
/-- Chunk `s` of layer `l` of `c`'s gather buffer holding `s`'s reduced rows, written over whatever the chunk held. -/
def grPay (c : Dev nD) (l : Fin 3) (s : Dev nD) : sProp 𝕄 :=
  iprop(∃ fd, piece c (gChunk l s) fullShare ((gChunk l s).view.write (Elt F) fd ((gChunk l s).view.read (Elt F) (Gfun m s)) Finset.univ))

/-- Every device but `c`. -/
def peers (c : Dev nD) : Finset (Dev nD) := Finset.univ.erase c

/-! ## The schedule -/

def sched : Rounds.Schedule (GSem nD τ sig) (Dev nD) 𝕄 where
  duties g r :=
    if r = 0 ∧ g.1.2 = .tc then
      match ckOf g.2 with
      | some .bar => peers g.1.1
      | some (.rs _) => peers g.1.1
      | some (.rr _ s) => if s = g.1.1 then ∅ else {s}
      | some (.gs l) => if l.val < 2 then peers g.1.1 else ∅
      | some (.gr l s) => if l.val < 2 ∧ s ≠ g.1.1 then {s} else ∅
      | none => ∅
    else ∅
  amount g _ _ := if g.2 = .reg barS then 1 else N64
  payload g _ d :=
    match ckOf g.2 with
    | some .bar => barPay g.1.1 d
    | some (.rs l) => rsPay m g.1.1 l d
    | some (.rr l s) => rrPay m g.1.1 l s
    | some (.gs l) => gsPay m g.1.1 l d
    | some (.gr l s) => grPay m g.1.1 l s
    | none => iprop(emp)
  amount_pos g _ _ _ := by
    by_cases h : g.2 = .reg barS
    · rw [if_pos h]; exact Nat.one_pos
    · rw [if_neg h]; exact N64_pos

instance sched_payload_storable (g : GSem nD τ sig) (r : ℕ) (d : Dev nD) :
    BI.Storable (upEmb : UEmb _ 𝕄) ((sched (F := F) m).payload g r d) := by
  show BI.Storable upEmb (match ckOf g.2 with
    | some .bar => barPay g.1.1 d
    | some (.rs l) => rsPay m g.1.1 l d
    | some (.rr l s) => rrPay m g.1.1 l s
    | some (.gs l) => gsPay m g.1.1 l d
    | some (.gr l s) => grPay m g.1.1 l s
    | none => iprop(emp))
  unfold barPay rsPay rrPay gsPay grPay
  unfold piece
  split <;> first | infer_instance | exact piece_storable _ _ _ _

end Cert.KernelProof

end
-- ==== Proof.K.SchedTables.lean ====
import proofs.«900993_g7700000000000994_dist_mlpseq_tp1d_rep_bs_b512_d256_h512_v7x_i8_bf16_1_alg».proof.Proof.K.Sched

/-! The tables of the schedule, read cell by cell. Every cell has the one round 0. For each kind of cell of a device
    `c` — its barrier cell, and per layer its reduce-send, reduce-receive, gather-send and gather-receive cells — the
    equations below give the duties of round 0 (the seven peers of `c`, or the one sending peer), the units of one duty
    (one unit on the barrier cell, a 64-row piece's credit on the others), the units the round expects in all, and what a
    duty hands the owner; then what is left of the round when no duty has been taken. Before them: who the peers of a
    device are, and that the cells of the protocol are pairwise different. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

universe u

variable {F : FTy → Type} [FloatOps F]

local notation "𝕄" => MT nD τ sig Unit (Elt F) ℕ UU ℕ

variable (m : (ℓ : Loc nD τ sig) → Buf (Elt F) ℓ)

/-! ## The peers of a device -/

/-- A device is a peer of `c` exactly when it is not `c`. -/
theorem mem_peers (c t : Dev nD) : t ∈ peers c ↔ t ≠ c := by
  unfold peers
  rw [Finset.mem_erase]
  exact ⟨fun h => h.1, fun h => ⟨h, Finset.mem_univ t⟩⟩

theorem not_mem_peers_self (c : Dev nD) : c ∉ peers c := fun h => (mem_peers c c).mp h rfl

/-- A device has seven peers. -/
theorem card_peers (c : Dev nD) : (peers c).card = 7 := by revert c; decide

/-- Being a peer is symmetric. -/
theorem mem_peers_comm (c t : Dev nD) : t ∈ peers c ↔ c ∈ peers t := by
  rw [mem_peers, mem_peers]; exact ne_comm

/-- The device `j` places after `c` is a peer of `c`, and `c` one of its peers. -/
theorem fwd_mem_peers_self (j : Fin 8) (hj : j.val ≠ 0) (c : Dev nD) : fwd j.val c ∈ peers c := (mem_peers c _).mpr (fwd_ne j hj c)
theorem fwd_mem_peers (j : Fin 8) (hj : j.val ≠ 0) (c : Dev nD) : c ∈ peers (fwd j.val c) := (mem_peers _ c).mpr (fwd_ne j hj c).symm
/-- The same for the device `j` places before `c`. -/
theorem bwd_mem_peers_self (j : Fin 8) (hj : j.val ≠ 0) (c : Dev nD) : bwd j.val c ∈ peers c := (mem_peers c _).mpr (bwd_ne j hj c)
theorem bwd_mem_peers (j : Fin 8) (hj : j.val ≠ 0) (c : Dev nD) : c ∈ peers (bwd j.val c) := (mem_peers _ c).mpr (bwd_ne j hj c).symm

/-- The same facts with the distance a natural number strictly between 0 and 8 (a literal, in the body). -/
theorem fwd_ne_nat (j : ℕ) (h0 : 0 < j) (h8 : j < 8) (c : Dev nD) : fwd j c ≠ c := fwd_ne ⟨j, h8⟩ (Nat.pos_iff_ne_zero.mp h0) c
theorem bwd_ne_nat (j : ℕ) (h0 : 0 < j) (h8 : j < 8) (c : Dev nD) : bwd j c ≠ c := bwd_ne ⟨j, h8⟩ (Nat.pos_iff_ne_zero.mp h0) c
theorem bwd_fwd_nat (j : ℕ) (h8 : j < 8) (c : Dev nD) : bwd j (fwd j c) = c := bwd_fwd ⟨j, h8⟩ c
theorem fwd_bwd_nat (j : ℕ) (h8 : j < 8) (c : Dev nD) : fwd j (bwd j c) = c := fwd_bwd ⟨j, h8⟩ c
theorem fwd_mem_peers_self_nat (j : ℕ) (h0 : 0 < j) (h8 : j < 8) (c : Dev nD) : fwd j c ∈ peers c := (mem_peers c _).mpr (fwd_ne_nat j h0 h8 c)
theorem fwd_mem_peers_nat (j : ℕ) (h0 : 0 < j) (h8 : j < 8) (c : Dev nD) : c ∈ peers (fwd j c) := (mem_peers _ c).mpr (fwd_ne_nat j h0 h8 c).symm
theorem bwd_mem_peers_self_nat (j : ℕ) (h0 : 0 < j) (h8 : j < 8) (c : Dev nD) : bwd j c ∈ peers c := (mem_peers c _).mpr (bwd_ne_nat j h0 h8 c)
theorem bwd_mem_peers_nat (j : ℕ) (h0 : 0 < j) (h8 : j < 8) (c : Dev nD) : c ∈ peers (bwd j c) := (mem_peers _ c).mpr (bwd_ne_nat j h0 h8 c).symm

/-- The peers of `c` listed by their distance after `c`, and by their distance before it. -/
theorem peers_eq_fwd (c : Dev nD) : peers c = [fwd 1 c, fwd 2 c, fwd 3 c, fwd 4 c, fwd 5 c, fwd 6 c, fwd 7 c].toFinset := by revert c; decide
theorem peers_eq_bwd (c : Dev nD) : peers c = [bwd 1 c, bwd 2 c, bwd 3 c, bwd 4 c, bwd 5 c, bwd 6 c, bwd 7 c].toFinset := by revert c; decide
theorem fwd_nodup (c : Dev nD) : [fwd 1 c, fwd 2 c, fwd 3 c, fwd 4 c, fwd 5 c, fwd 6 c, fwd 7 c].Nodup := by revert c; decide
theorem bwd_nodup (c : Dev nD) : [bwd 1 c, bwd 2 c, bwd 3 c, bwd 4 c, bwd 5 c, bwd 6 c, bwd 7 c].Nodup := by revert c; decide

/-- A separating conjunction over the peers of `c` is the chain of its seven terms, in the order of the distance after
    `c`, or before it. -/
theorem bigSep_peers_fwd {M : Type u} [URA M] (c : Dev nD) (Φ : Dev nD → sProp M) :
    bigSep (peers c) Φ = iprop(Φ (fwd 1 c) ∗ Φ (fwd 2 c) ∗ Φ (fwd 3 c) ∗ Φ (fwd 4 c) ∗ Φ (fwd 5 c) ∗ Φ (fwd 6 c) ∗ Φ (fwd 7 c)) :=
  bigSep_eq_bigSepL_of_eq _ (peers_eq_fwd c) (fwd_nodup c) Φ
theorem bigSep_peers_bwd {M : Type u} [URA M] (c : Dev nD) (Φ : Dev nD → sProp M) :
    bigSep (peers c) Φ = iprop(Φ (bwd 1 c) ∗ Φ (bwd 2 c) ∗ Φ (bwd 3 c) ∗ Φ (bwd 4 c) ∗ Φ (bwd 5 c) ∗ Φ (bwd 6 c) ∗ Φ (bwd 7 c)) :=
  bigSep_eq_bigSepL_of_eq _ (peers_eq_bwd c) (bwd_nodup c) Φ

/-! ## The cells are pairwise different -/

/-- A kind of cell is read back off its semaphore, so two kinds with one semaphore are one kind. -/
theorem CK.sem_injective : Function.Injective CK.sem := fun k k' h =>
  Option.some.inj ((ckOf_sem k).symm.trans ((congrArg ckOf h).trans (ckOf_sem k')))

theorem CK.sem_ne {k k' : CK} (h : k ≠ k') : k.sem ≠ k'.sem := fun e => h (CK.sem_injective e)

/-- The cell of kind `k` of device `c`. -/
abbrev kcell (c : Dev nD) (k : CK) : GSem nD τ sig := ((c : Thread nD τ), k.sem)

/-- A cell of the protocol determines its device and its kind. -/
theorem kcell_inj {c c' : Dev nD} {k k' : CK} (h : kcell c k = kcell c' k') : c = c' ∧ k = k' :=
  ⟨congrArg (fun g : GSem nD τ sig => g.1.1) h, CK.sem_injective (congrArg (fun g : GSem nD τ sig => g.2) h)⟩

theorem kcell_injective : Function.Injective (fun p : Dev nD × CK => kcell p.1 p.2) := fun p p' h => by
  obtain ⟨h1, h2⟩ := kcell_inj h
  exact Prod.ext h1 h2

theorem kcell_ne_of_dev {c c' : Dev nD} (h : c ≠ c') (k k' : CK) : kcell c k ≠ kcell c' k' := fun e => h (kcell_inj e).1
theorem kcell_ne_of_kind (c c' : Dev nD) {k k' : CK} (h : k ≠ k') : kcell c k ≠ kcell c' k' := fun e => h (kcell_inj e).2

theorem barCell_eq (c : Dev nD) : barCell c = kcell c .bar := rfl
theorem rsCell_eq (c : Dev nD) (l : Fin 3) : rsCell c l = kcell c (.rs l) := rfl
theorem rrCell_eq (c : Dev nD) (l : Fin 3) (s : Dev nD) : rrCell c l s = kcell c (.rr l s) := rfl
theorem gsCell_eq (c : Dev nD) (l : Fin 3) : gsCell c l = kcell c (.gs l) := rfl
theorem grCell_eq (c : Dev nD) (l : Fin 3) (s : Dev nD) : grCell c l s = kcell c (.gr l s) := rfl

/-- The semaphores of the five kinds are pairwise different, and within a kind they differ with the layer or the sender. -/
theorem rs_ne_bar (l : Fin 3) : (SemLoc.dma (rsS l) : SemLoc sig) ≠ .reg barS := CK.sem_ne (k := .rs l) (k' := .bar) (fun h => CK.noConfusion h)
theorem rr_ne_bar (l : Fin 3) (s : Dev nD) : (SemLoc.dma (rrS l s) : SemLoc sig) ≠ .reg barS := CK.sem_ne (k := .rr l s) (k' := .bar) (fun h => CK.noConfusion h)
theorem gs_ne_bar (l : Fin 3) : (SemLoc.dma (gsS l) : SemLoc sig) ≠ .reg barS := CK.sem_ne (k := .gs l) (k' := .bar) (fun h => CK.noConfusion h)
theorem gr_ne_bar (l : Fin 3) (s : Dev nD) : (SemLoc.dma (grS l s) : SemLoc sig) ≠ .reg barS := CK.sem_ne (k := .gr l s) (k' := .bar) (fun h => CK.noConfusion h)
theorem rs_ne_rr (l l' : Fin 3) (s : Dev nD) : (SemLoc.dma (rsS l) : SemLoc sig) ≠ .dma (rrS l' s) := CK.sem_ne (k := .rs l) (k' := .rr l' s) (fun h => CK.noConfusion h)
theorem rs_ne_gs (l l' : Fin 3) : (SemLoc.dma (rsS l) : SemLoc sig) ≠ .dma (gsS l') := CK.sem_ne (k := .rs l) (k' := .gs l') (fun h => CK.noConfusion h)
theorem rs_ne_gr (l l' : Fin 3) (s : Dev nD) : (SemLoc.dma (rsS l) : SemLoc sig) ≠ .dma (grS l' s) := CK.sem_ne (k := .rs l) (k' := .gr l' s) (fun h => CK.noConfusion h)
theorem rr_ne_gs (l l' : Fin 3) (s : Dev nD) : (SemLoc.dma (rrS l s) : SemLoc sig) ≠ .dma (gsS l') := CK.sem_ne (k := .rr l s) (k' := .gs l') (fun h => CK.noConfusion h)
theorem rr_ne_gr (l l' : Fin 3) (s s' : Dev nD) : (SemLoc.dma (rrS l s) : SemLoc sig) ≠ .dma (grS l' s') := CK.sem_ne (k := .rr l s) (k' := .gr l' s') (fun h => CK.noConfusion h)
theorem gs_ne_gr (l l' : Fin 3) (s : Dev nD) : (SemLoc.dma (gsS l) : SemLoc sig) ≠ .dma (grS l' s) := CK.sem_ne (k := .gs l) (k' := .gr l' s) (fun h => CK.noConfusion h)
theorem rs_inj {l l' : Fin 3} (h : (SemLoc.dma (rsS l) : SemLoc sig) = .dma (rsS l')) : l = l' := CK.rs.inj (CK.sem_injective (a₁ := .rs l) (a₂ := .rs l') h)
theorem gs_inj {l l' : Fin 3} (h : (SemLoc.dma (gsS l) : SemLoc sig) = .dma (gsS l')) : l = l' := CK.gs.inj (CK.sem_injective (a₁ := .gs l) (a₂ := .gs l') h)
theorem rr_inj {l l' : Fin 3} {s s' : Dev nD} (h : (SemLoc.dma (rrS l s) : SemLoc sig) = .dma (rrS l' s')) : l = l' ∧ s = s' :=
  CK.rr.inj (CK.sem_injective (a₁ := .rr l s) (a₂ := .rr l' s') h)
theorem gr_inj {l l' : Fin 3} {s s' : Dev nD} (h : (SemLoc.dma (grS l s) : SemLoc sig) = .dma (grS l' s')) : l = l' ∧ s = s' :=
  CK.gr.inj (CK.sem_injective (a₁ := .gr l s) (a₂ := .gr l' s') h)

/-! ## Duties of round 0, and none later -/

/-- The duties of round 0 of the cell of kind `k` of device `c`, by the kind. -/
theorem duties_kind (c : Dev nD) (k : CK) : (sched (F := F) m).duties (kcell c k) 0 =
    (match k with
      | .bar => peers c
      | .rs _ => peers c
      | .rr _ s => if s = c then ∅ else {s}
      | .gs l => if l.val < 2 then peers c else ∅
      | .gr l s => if l.val < 2 ∧ s ≠ c then {s} else ∅) := by
  dsimp only [sched]
  refine (if_pos ⟨rfl, rfl⟩).trans ?_
  rw [ckOf_sem]
  cases k <;> rfl

theorem duties_bar (c : Dev nD) : (sched (F := F) m).duties (barCell c) 0 = peers c := duties_kind m c .bar
theorem duties_rs (c : Dev nD) (l : Fin 3) : (sched (F := F) m).duties (rsCell c l) 0 = peers c := duties_kind m c (.rs l)
theorem duties_rr (c : Dev nD) (l : Fin 3) (s : Dev nD) (h : s ≠ c) : (sched (F := F) m).duties (rrCell c l s) 0 = {s} :=
  (duties_kind m c (.rr l s)).trans (if_neg h)
theorem duties_gs (c : Dev nD) (l : Fin 3) (h : l.val < 2) : (sched (F := F) m).duties (gsCell c l) 0 = peers c :=
  (duties_kind m c (.gs l)).trans (if_pos h)
theorem duties_gr (c : Dev nD) (l : Fin 3) (s : Dev nD) (hl : l.val < 2) (h : s ≠ c) : (sched (F := F) m).duties (grCell c l s) 0 = {s} :=
  (duties_kind m c (.gr l s)).trans (if_pos ⟨hl, h⟩)
/-- The cells the protocol never waits on have no duty: a device's own receive cells, and the gather cells of the last layer. -/
theorem duties_rr_self (c : Dev nD) (l : Fin 3) : (sched (F := F) m).duties (rrCell c l c) 0 = ∅ := (duties_kind m c (.rr l c)).trans (if_pos rfl)
theorem duties_gs_last (c : Dev nD) (l : Fin 3) (h : ¬ l.val < 2) : (sched (F := F) m).duties (gsCell c l) 0 = ∅ := (duties_kind m c (.gs l)).trans (if_neg h)
theorem duties_gr_none (c : Dev nD) (l : Fin 3) (s : Dev nD) (h : ¬ (l.val < 2 ∧ s ≠ c)) : (sched (F := F) m).duties (grCell c l s) 0 = ∅ :=
  (duties_kind m c (.gr l s)).trans (if_neg h)

/-- No cell has a duty after round 0. -/
theorem duties_later (g : GSem nD τ sig) : ∀ r, 1 ≤ r → (sched (F := F) m).duties g r = ∅ := fun r hr => by
  dsimp only [sched]
  exact if_neg fun h => absurd h.1 (by omega)

/-- Membership of a duty in its round, per kind of cell. -/
theorem mem_duties_bar (c p : Dev nD) (h : p ≠ c) : p ∈ (sched (F := F) m).duties (barCell c) 0 := by rw [duties_bar]; exact (mem_peers c p).mpr h
theorem mem_duties_rs (c : Dev nD) (l : Fin 3) (t : Dev nD) (h : t ≠ c) : t ∈ (sched (F := F) m).duties (rsCell c l) 0 := by rw [duties_rs]; exact (mem_peers c t).mpr h
theorem mem_duties_rr (c : Dev nD) (l : Fin 3) (s : Dev nD) (h : s ≠ c) : s ∈ (sched (F := F) m).duties (rrCell c l s) 0 := by
  rw [duties_rr m c l s h]; exact Finset.mem_singleton_self s
theorem mem_duties_gs (c : Dev nD) (l : Fin 3) (t : Dev nD) (hl : l.val < 2) (h : t ≠ c) : t ∈ (sched (F := F) m).duties (gsCell c l) 0 := by
  rw [duties_gs m c l hl]; exact (mem_peers c t).mpr h
theorem mem_duties_gr (c : Dev nD) (l : Fin 3) (s : Dev nD) (hl : l.val < 2) (h : s ≠ c) : s ∈ (sched (F := F) m).duties (grCell c l s) 0 := by
  rw [duties_gr m c l s hl h]; exact Finset.mem_singleton_self s

/-- The same memberships at the devices the body names: the device `j` places after or before `c` (`0 < j < 8`), or a
    device different from `c`; stated over the table's own entry. -/
theorem mem_bar_fwd (j : ℕ) (h0 : 0 < j) (h8 : j < 8) (c : Dev nD) : c ∈ (sched (F := F) m).duties (barCell (fwd j c)) 0 :=
  mem_duties_bar m (fwd j c) c (fwd_ne_nat j h0 h8 c).symm
theorem mem_rs_of_ne (c : Dev nD) (l : Fin 3) (t : Dev nD) (h : c ≠ t) : t ∈ (sched (F := F) m).duties (rsCell c l) 0 := mem_duties_rs m c l t h.symm
theorem mem_rr_of_ne (c t : Dev nD) (l : Fin 3) (h : c ≠ t) : c ∈ (sched (F := F) m).duties (rrCell t l c) 0 := mem_duties_rr m t l c h
theorem mem_gs_fwd (j : ℕ) (h0 : 0 < j) (h8 : j < 8) (c : Dev nD) (l : Fin 3) (hl : l.val < 2) : fwd j c ∈ (sched (F := F) m).duties (gsCell c l) 0 :=
  mem_duties_gs m c l (fwd j c) hl (fwd_ne_nat j h0 h8 c)
theorem mem_gs_of_ne (c : Dev nD) (l : Fin 3) (t : Dev nD) (hl : l.val < 2) (h : c ≠ t) : t ∈ (sched (F := F) m).duties (gsCell c l) 0 :=
  mem_duties_gs m c l t hl h.symm
theorem mem_gr_fwd (j : ℕ) (h0 : 0 < j) (h8 : j < 8) (c : Dev nD) (l : Fin 3) (hl : l.val < 2) : c ∈ (sched (F := F) m).duties (grCell (fwd j c) l c) 0 :=
  mem_duties_gr m (fwd j c) l c hl (fwd_ne_nat j h0 h8 c).symm
theorem mem_rr_bwd (j : ℕ) (h0 : 0 < j) (h8 : j < 8) (c : Dev nD) (l : Fin 3) : bwd j c ∈ (sched (F := F) m).duties (rrCell c l (bwd j c)) 0 :=
  mem_duties_rr m c l (bwd j c) (bwd_ne_nat j h0 h8 c)
theorem mem_gr_of_ne (c : Dev nD) (l : Fin 3) (s : Dev nD) (hl : l.val < 2) (h : c ≠ s) : s ∈ (sched (F := F) m).duties (grCell c l s) 0 :=
  mem_duties_gr m c l s hl h.symm

/-! ## The units of a duty -/

/-- One unit on a barrier cell, a 64-row piece's credit on every other cell of the protocol. -/
theorem amount_kind (c : Dev nD) (k : CK) (r : ℕ) (d : Dev nD) : (sched (F := F) m).amount (kcell c k) r d = if k = .bar then 1 else N64 := by
  dsimp only [sched]
  by_cases hk : k = .bar
  · subst hk; exact (if_pos rfl).trans (if_pos rfl).symm
  · exact (if_neg (CK.sem_ne (k' := .bar) hk)).trans (if_neg hk).symm

theorem amount_bar (c d : Dev nD) : (sched (F := F) m).amount (barCell c) 0 d = 1 := (amount_kind m c .bar 0 d).trans (if_pos rfl)
theorem amount_rs (c : Dev nD) (l : Fin 3) (d : Dev nD) : (sched (F := F) m).amount (rsCell c l) 0 d = N64 :=
  (amount_kind m c (.rs l) 0 d).trans (if_neg fun h => CK.noConfusion h)
theorem amount_rr (c : Dev nD) (l : Fin 3) (s d : Dev nD) : (sched (F := F) m).amount (rrCell c l s) 0 d = N64 :=
  (amount_kind m c (.rr l s) 0 d).trans (if_neg fun h => CK.noConfusion h)
theorem amount_gs (c : Dev nD) (l : Fin 3) (d : Dev nD) : (sched (F := F) m).amount (gsCell c l) 0 d = N64 :=
  (amount_kind m c (.gs l) 0 d).trans (if_neg fun h => CK.noConfusion h)
theorem amount_gr (c : Dev nD) (l : Fin 3) (s d : Dev nD) : (sched (F := F) m).amount (grCell c l s) 0 d = N64 :=
  (amount_kind m c (.gr l s) 0 d).trans (if_neg fun h => CK.noConfusion h)

/-! ## The units a round expects -/

/-- Duties that all bring `n` units bring `n` for each of them; so a round of such duties expects that many. -/
theorem amountOf_const (g : GSem nD τ sig) (r n : ℕ) (h : ∀ d, (sched (F := F) m).amount g r d = n) (B : Finset (Dev nD)) :
    (sched (F := F) m).amountOf g r B = B.card * n := by
  unfold Schedule.amountOf
  rw [Finset.sum_congr rfl fun d _ => h d, Finset.sum_const, smul_eq_mul]
theorem expect_const (g : GSem nD τ sig) (r n : ℕ) (h : ∀ d, (sched (F := F) m).amount g r d = n) :
    (sched (F := F) m).expect g r = ((sched (F := F) m).duties g r).card * n := amountOf_const m g r n h _

theorem amountOf_bar (c : Dev nD) (B : Finset (Dev nD)) : (sched (F := F) m).amountOf (barCell c) 0 B = B.card := by
  rw [amountOf_const m _ 0 1 (amount_bar m c), Nat.mul_one]
theorem amountOf_rs (c : Dev nD) (l : Fin 3) (B : Finset (Dev nD)) : (sched (F := F) m).amountOf (rsCell c l) 0 B = B.card * N64 :=
  amountOf_const m _ 0 N64 (amount_rs m c l) B
theorem amountOf_gs (c : Dev nD) (l : Fin 3) (B : Finset (Dev nD)) : (sched (F := F) m).amountOf (gsCell c l) 0 B = B.card * N64 :=
  amountOf_const m _ 0 N64 (amount_gs m c l) B

theorem expect_bar (c : Dev nD) : (sched (F := F) m).expect (barCell c) 0 = 7 := by
  rw [expect_const m _ 0 1 (amount_bar m c), duties_bar, card_peers]
theorem expect_rs (c : Dev nD) (l : Fin 3) : (sched (F := F) m).expect (rsCell c l) 0 = 7 * N64 := by
  rw [expect_const m _ 0 N64 (amount_rs m c l), duties_rs, card_peers]
theorem expect_rr (c : Dev nD) (l : Fin 3) (s : Dev nD) (h : s ≠ c) : (sched (F := F) m).expect (rrCell c l s) 0 = N64 := by
  rw [expect_const m _ 0 N64 (amount_rr m c l s), duties_rr m c l s h, Finset.card_singleton, Nat.one_mul]
theorem expect_gs (c : Dev nD) (l : Fin 3) (h : l.val < 2) : (sched (F := F) m).expect (gsCell c l) 0 = 7 * N64 := by
  rw [expect_const m _ 0 N64 (amount_gs m c l), duties_gs m c l h, card_peers]
theorem expect_gr (c : Dev nD) (l : Fin 3) (s : Dev nD) (hl : l.val < 2) (h : s ≠ c) : (sched (F := F) m).expect (grCell c l s) 0 = N64 := by
  rw [expect_const m _ 0 N64 (amount_gr m c l s), duties_gr m c l s hl h, Finset.card_singleton, Nat.one_mul]

/-! ## What a duty hands over -/

theorem payload_kind (c : Dev nD) (k : CK) (r : ℕ) (d : Dev nD) : (sched (F := F) m).payload (kcell c k) r d =
    (match k with
      | .bar => barPay c d
      | .rs l => rsPay m c l d
      | .rr l s => rrPay m c l s
      | .gs l => gsPay m c l d
      | .gr l s => grPay m c l s) := by
  dsimp only [sched]
  rw [ckOf_sem]
  cases k <;> rfl

theorem payload_bar (c p : Dev nD) : (sched (F := F) m).payload (barCell c) 0 p = barPay c p := payload_kind m c .bar 0 p
theorem payload_rs (c : Dev nD) (l : Fin 3) (t : Dev nD) : (sched (F := F) m).payload (rsCell c l) 0 t = rsPay m c l t := payload_kind m c (.rs l) 0 t
theorem payload_rr (c : Dev nD) (l : Fin 3) (s d : Dev nD) : (sched (F := F) m).payload (rrCell c l s) 0 d = rrPay m c l s := payload_kind m c (.rr l s) 0 d
theorem payload_gs (c : Dev nD) (l : Fin 3) (t : Dev nD) : (sched (F := F) m).payload (gsCell c l) 0 t = gsPay m c l t := payload_kind m c (.gs l) 0 t
theorem payload_gr (c : Dev nD) (l : Fin 3) (s d : Dev nD) : (sched (F := F) m).payload (grCell c l s) 0 d = grPay m c l s := payload_kind m c (.gr l s) 0 d

/-- The same entries with the pieces spelt as the ownership of their elements; an arrival's piece holds the sender's rows
    written over whatever it held before. -/
theorem payload_bar' (c p : Dev nD) : (sched (F := F) m).payload (barCell c) 0 p =
    iprop((∃ f, (rSlot 0 c).view.loc (p : Thread nD τ) ↦[(rSlot 0 c).view.set]{fullShare} f)
      ∗ (∃ f, (rSlot 1 c).view.loc (p : Thread nD τ) ↦[(rSlot 1 c).view.set]{fullShare} f)
      ∗ (∃ f, (rSlot 2 c).view.loc (p : Thread nD τ) ↦[(rSlot 2 c).view.set]{fullShare} f)
      ∗ (∃ f, (gChunk 0 c).view.loc (p : Thread nD τ) ↦[(gChunk 0 c).view.set]{fullShare} f)
      ∗ (∃ f, (gChunk 1 c).view.loc (p : Thread nD τ) ↦[(gChunk 1 c).view.set]{fullShare} f)
      ∗ reached ER (rrCell p 0 c) 0 ∗ reached ER (rrCell p 1 c) 0 ∗ reached ER (rrCell p 2 c) 0
      ∗ reached ER (grCell p 0 c) 0 ∗ reached ER (grCell p 1 c) 0) := payload_bar m c p
theorem payload_rs' (c : Dev nD) (l : Fin 3) (t : Dev nD) : (sched (F := F) m).payload (rsCell c l) 0 t =
    ((pChunk l t).view.loc (c : Thread nD τ) ↦[(pChunk l t).view.set]{fullShare} Pfun m c) := payload_rs m c l t
theorem payload_rr' (c : Dev nD) (l : Fin 3) (s d : Dev nD) : (sched (F := F) m).payload (rrCell c l s) 0 d =
    iprop(∃ fd, (rSlot l s).view.loc (c : Thread nD τ) ↦[(rSlot l s).view.set]{fullShare}
      ((rSlot l s).view.write (Elt F) fd ((pChunk l c).view.read (Elt F) (Pfun m s)) Finset.univ)) := payload_rr m c l s d
theorem payload_gs' (c : Dev nD) (l : Fin 3) (t : Dev nD) : (sched (F := F) m).payload (gsCell c l) 0 t =
    ((gChunk l c).view.loc (c : Thread nD τ) ↦[(gChunk l c).view.set]{sh8 t} Gfun m c) := payload_gs m c l t
theorem payload_gr' (c : Dev nD) (l : Fin 3) (s d : Dev nD) : (sched (F := F) m).payload (grCell c l s) 0 d =
    iprop(∃ fd, (gChunk l s).view.loc (c : Thread nD τ) ↦[(gChunk l s).view.set]{fullShare}
      ((gChunk l s).view.write (Elt F) fd ((gChunk l s).view.read (Elt F) (Gfun m s)) Finset.univ)) := payload_gr m c l s d

/-! ## What is left of round 0 when no duty has been taken -/

theorem rest_bar (c : Dev nD) : bigSep ((sched (F := F) m).duties (barCell c) 0 \ ∅) (fun d => (sched (F := F) m).payload (barCell c) 0 d)
    = bigSep (peers c) (fun p => barPay (F := F) c p) := by
  rw [Finset.sdiff_empty, duties_bar]
  exact bigSep_congr fun p _ => payload_bar m c p
theorem rest_rs (c : Dev nD) (l : Fin 3) : bigSep ((sched (F := F) m).duties (rsCell c l) 0 \ ∅) (fun d => (sched (F := F) m).payload (rsCell c l) 0 d)
    = bigSep (peers c) (fun t => rsPay m c l t) := by
  rw [Finset.sdiff_empty, duties_rs]
  exact bigSep_congr fun t _ => payload_rs m c l t
theorem rest_rr (c : Dev nD) (l : Fin 3) (s : Dev nD) (h : s ≠ c) :
    bigSep ((sched (F := F) m).duties (rrCell c l s) 0 \ ∅) (fun d => (sched (F := F) m).payload (rrCell c l s) 0 d) = rrPay m c l s := by
  rw [Finset.sdiff_empty, duties_rr m c l s h, bigSep_singleton, payload_rr]
theorem rest_gs (c : Dev nD) (l : Fin 3) (h : l.val < 2) :
    bigSep ((sched (F := F) m).duties (gsCell c l) 0 \ ∅) (fun d => (sched (F := F) m).payload (gsCell c l) 0 d) = bigSep (peers c) (fun t => gsPay m c l t) := by
  rw [Finset.sdiff_empty, duties_gs m c l h]
  exact bigSep_congr fun t _ => payload_gs m c l t
theorem rest_gr (c : Dev nD) (l : Fin 3) (s : Dev nD) (hl : l.val < 2) (h : s ≠ c) :
    bigSep ((sched (F := F) m).duties (grCell c l s) 0 \ ∅) (fun d => (sched (F := F) m).payload (grCell c l s) 0 d) = grPay m c l s := by
  rw [Finset.sdiff_empty, duties_gr m c l s hl h, bigSep_singleton, payload_gr]

/-- The one-duty rests with the piece spelt as the ownership of its elements. -/
theorem rest_rr' (c : Dev nD) (l : Fin 3) (s : Dev nD) (h : s ≠ c) :
    bigSep ((sched (F := F) m).duties (rrCell c l s) 0 \ ∅) (fun d => (sched (F := F) m).payload (rrCell c l s) 0 d)
      = iprop(∃ fd, (rSlot l s).view.loc (c : Thread nD τ) ↦[(rSlot l s).view.set]{fullShare}
          ((rSlot l s).view.write (Elt F) fd ((pChunk l c).view.read (Elt F) (Pfun m s)) Finset.univ)) := rest_rr m c l s h
theorem rest_gr' (c : Dev nD) (l : Fin 3) (s : Dev nD) (hl : l.val < 2) (h : s ≠ c) :
    bigSep ((sched (F := F) m).duties (grCell c l s) 0 \ ∅) (fun d => (sched (F := F) m).payload (grCell c l s) 0 d)
      = iprop(∃ fd, (gChunk l s).view.loc (c : Thread nD τ) ↦[(gChunk l s).view.set]{fullShare}
          ((gChunk l s).view.write (Elt F) fd ((gChunk l s).view.read (Elt F) (Gfun m s)) Finset.univ)) := rest_gr m c l s hl h

/-- info: 'Cert.KernelProof.kcell_injective' depends on axioms: [propext, Classical.choice, Quot.sound] -/
#guard_msgs in #print axioms kcell_injective

/-- info: 'Cert.KernelProof.bigSep_peers_fwd' depends on axioms: [propext, Classical.choice, Quot.sound] -/
#guard_msgs in #print axioms bigSep_peers_fwd

/-- info: 'Cert.KernelProof.card_peers' depends on axioms: [propext, Classical.choice, Quot.sound] -/
#guard_msgs in #print axioms card_peers

end Cert.KernelProof

end
-- ==== Proof.K.Levels.lean ====
import proofs.«900993_g7700000000000994_dist_mlpseq_tp1d_rep_bs_b512_d256_h512_v7x_i8_bf16_1_alg».proof.Proof.K.Sched

/-! Deadlock freedom of the launch: what each device owes at launch, the levels of the cells, and that every wait of
    the kernel is on a cell strictly below everything its device still owes at that point.

    Device `c` owes, at launch: one unit on the barrier cell of each of its seven peers (its entry signals); for each
    layer `l < 3` and each target `t ≠ c` a piece's credit on the reduce-receive cell `(t, l, c)` (the arrival of its
    chunk at `t`; the summand for `t = c` is kept, with amount zero, because the kernel writes one guarded copy per
    literal target); for each layer `l < 2` and each peer a piece's credit on that peer's gather-receive cell `(l, c)`.

    The levels rise in program order: staging cells 0, barrier 1, and for layer `l` the reduce-receive cells `2 + 3 l`,
    the two send cells `3 + 3 l`, the gather-receive cells `4 + 3 l` (layers 0 and 1 only). A device waits on a
    cell only when everything it still owes is owed to cells of a LATER stage, on whichever device. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What each device owes at launch -/

/-- The seven entry signals of device `c`: one unit on the barrier cell of each peer. -/
abbrev owesBar (c : Dev nD) : CellTallies nD τ sig Unit :=
  tallyAt (barCell (fwd 1 c)) () 1 + tallyAt (barCell (fwd 2 c)) () 1 + tallyAt (barCell (fwd 3 c)) () 1 + tallyAt (barCell (fwd 4 c)) () 1
    + tallyAt (barCell (fwd 5 c)) () 1 + tallyAt (barCell (fwd 6 c)) () 1 + tallyAt (barCell (fwd 7 c)) () 1

/-- The arrivals of device `c`'s reduce copies of layer `l`, one per literal target; nothing towards itself. -/
abbrev owesRed (c : Dev nD) (l : Fin 3) : CellTallies nD τ sig Unit :=
  tallyAt (rrCell 0 l c) () (if c ≠ 0 then N64 else 0) + tallyAt (rrCell 1 l c) () (if c ≠ 1 then N64 else 0)
    + tallyAt (rrCell 2 l c) () (if c ≠ 2 then N64 else 0) + tallyAt (rrCell 3 l c) () (if c ≠ 3 then N64 else 0)
    + tallyAt (rrCell 4 l c) () (if c ≠ 4 then N64 else 0) + tallyAt (rrCell 5 l c) () (if c ≠ 5 then N64 else 0)
    + tallyAt (rrCell 6 l c) () (if c ≠ 6 then N64 else 0) + tallyAt (rrCell 7 l c) () (if c ≠ 7 then N64 else 0)

/-- The arrivals of device `c`'s gather copies of layer `l`, one per peer. -/
abbrev owesGat (c : Dev nD) (l : Fin 3) : CellTallies nD τ sig Unit :=
  tallyAt (grCell (fwd 1 c) l c) () N64 + tallyAt (grCell (fwd 2 c) l c) () N64 + tallyAt (grCell (fwd 3 c) l c) () N64
    + tallyAt (grCell (fwd 4 c) l c) () N64 + tallyAt (grCell (fwd 5 c) l c) () N64 + tallyAt (grCell (fwd 6 c) l c) () N64
    + tallyAt (grCell (fwd 7 c) l c) () N64

/-- Everything device `c` owes at launch, in program order. -/
abbrev O₀ (c : Dev nD) : CellTallies nD τ sig Unit :=
  owesBar c + owesRed c 0 + owesRed c 1 + owesRed c 2 + owesGat c 0 + owesGat c 1

/-! ## The levels -/

/-- Only the TensorCores' cells carry a level, at the one index. -/
def L (g : GSem nD τ sig) : Finset Unit := if g.1.2 = .tc then {()} else ∅

/-- The level of a kind of semaphore: the barrier 1; of layer `l` the reduce-receive cells `2 + 3 l`, the reduce-send
    and gather-send cells `3 + 3 l`, the gather-receive cells `4 + 3 l`; the last layer gathers nothing, and a
    semaphore that is none of the protocol's (a staging semaphore) sits at 0. -/
def lvK : Option CK → ℕ
  | some .bar => 1
  | some (.rr l _) => 2 + 3 * l.val
  | some (.rs l) => 3 + 3 * l.val
  | some (.gs l) => if l.val < 2 then 3 + 3 * l.val else 0
  | some (.gr l _) => if l.val < 2 then 4 + 3 * l.val else 0
  | none => 0

/-- The level of a cell is that of its semaphore's kind, on whichever device. -/
def lv (g : GSem nD τ sig) (_ : Unit) : ℕ := lvK (ckOf g.2)

theorem L_of_ne (g : GSem nD τ sig) (h : g.1.2 ≠ .tc) : L g = ∅ := if_neg h
theorem L_tc (c : Dev nD) (sm : SemLoc sig) : L ((c : Thread nD τ), sm) = {()} := if_pos rfl
theorem mem_L {g : GSem nD τ sig} (h : g.1.2 = .tc) (u : Unit) : u ∈ L g := by
  unfold L; rw [if_pos h]; exact Finset.mem_singleton_self _

theorem lv_kind (t : Thread nD τ) (k : CK) (u : Unit) : lv (t, k.sem) u = lvK (some k) := by
  show lvK (ckOf k.sem) = _; rw [ckOf_sem]
theorem lv_none (t : Thread nD τ) (sm : SemLoc sig) (h : ckOf sm = none) (u : Unit) : lv (t, sm) u = 0 := by
  show lvK (ckOf sm) = _; rw [h]; rfl

theorem lv_bar (c : Dev nD) (u : Unit) : lv (barCell c) u = 1 := lv_kind _ .bar u
theorem lv_rr (c : Dev nD) (l : Fin 3) (s : Dev nD) (u : Unit) : lv (rrCell c l s) u = 2 + 3 * l.val := lv_kind _ (.rr l s) u
theorem lv_rs (c : Dev nD) (l : Fin 3) (u : Unit) : lv (rsCell c l) u = 3 + 3 * l.val := lv_kind _ (.rs l) u
theorem lv_gs (c : Dev nD) (l : Fin 3) (hl : l.val < 2) (u : Unit) : lv (gsCell c l) u = 3 + 3 * l.val :=
  (lv_kind _ (.gs l) u).trans (if_pos hl)
theorem lv_gr (c : Dev nD) (l : Fin 3) (s : Dev nD) (hl : l.val < 2) (u : Unit) : lv (grCell c l s) u = 4 + 3 * l.val :=
  (lv_kind _ (.gr l s) u).trans (if_pos hl)
/-- The eight staging semaphores are none of the protocol's. -/
theorem ckOf_stage (q : DmaSem sig) (hq : q.val < 8) : ckOf (.dma q) = none := by
  unfold ckOf
  dsimp only
  rw [dif_neg (by omega), dif_neg (by omega), dif_neg (by omega), dif_neg (by omega)]
theorem lv_stage (c : Dev nD) (q : DmaSem sig) (hq : q.val < 8) (u : Unit) : lv ((c : Thread nD τ), .dma q) u = 0 :=
  lv_none _ _ (ckOf_stage q hq) u

/-! ## Owing only above a level -/

/-- Everything `O` owes, it owes to TensorCore cells of level above `n`. -/
def Above (n : ℕ) (O : CellTallies nD τ sig Unit) : Prop := ∀ g u, 0 < O g u → g.1.2 = .tc ∧ n < lv g u

theorem Above.zero (n : ℕ) : Above n (0 : CellTallies nD τ sig Unit) := fun g u h => absurd h (Nat.lt_irrefl 0)
theorem Above.add {n : ℕ} {O₁ O₂ : CellTallies nD τ sig Unit} (h₁ : Above n O₁) (h₂ : Above n O₂) : Above n (O₁ + O₂) :=
  fun g u h => (Pipeline.add_pos_cases h).elim (h₁ g u) (h₂ g u)
theorem Above.mono {n n' : ℕ} (h : n' ≤ n) {O : CellTallies nD τ sig Unit} (hO : Above n O) : Above n' O :=
  fun g u hg => ⟨(hO g u hg).1, Nat.lt_of_le_of_lt h (hO g u hg).2⟩
/-- Owing less (at fewer cells) keeps the bound: what covers every point between two clean stages of the program. -/
theorem Above.of_pos {n : ℕ} {O O' : CellTallies nD τ sig Unit} (hO' : Above n O') (h : ∀ g u, 0 < O g u → 0 < O' g u) : Above n O :=
  fun g u hg => hO' g u (h g u hg)
theorem Above.tally {n : ℕ} {g : GSem nD τ sig} (hg : g.1.2 = .tc) (hn : n < lv g ()) (k : ℕ) : Above n (tallyAt g () k) :=
  fun g' u h => by obtain ⟨rfl, rfl⟩ := Pipeline.tallyAt_pos h; exact ⟨hg, hn⟩

theorem above_bar {n : ℕ} (hn : n < 1) (p : Dev nD) (k : ℕ) : Above n (tallyAt (barCell p) () k) :=
  Above.tally rfl (by rw [lv_bar]; exact hn) k
theorem above_rr {n : ℕ} (t : Dev nD) (l : Fin 3) (s : Dev nD) (k : ℕ) (hn : n < 2 + 3 * l.val) : Above n (tallyAt (rrCell t l s) () k) :=
  Above.tally rfl (by rw [lv_rr]; exact hn) k
theorem above_gr {n : ℕ} (t : Dev nD) (l : Fin 3) (s : Dev nD) (k : ℕ) (hl : l.val < 2) (hn : n < 4 + 3 * l.val) :
    Above n (tallyAt (grCell t l s) () k) :=
  Above.tally rfl (by rw [lv_gr _ _ _ hl]; exact hn) k

/-- The entry signals are owed to barrier cells, level 1. -/
theorem above_owesBar {n : ℕ} (c : Dev nD) (hn : n < 1) : Above n (owesBar c) := by
  unfold owesBar
  repeat' apply Above.add
  all_goals exact above_bar hn _ _
/-- Layer `l`'s reduce arrivals are owed to reduce-receive cells of layer `l`, level `2 + 3 l`. -/
theorem above_owesRed {n : ℕ} (c : Dev nD) (l : Fin 3) (hn : n < 2 + 3 * l.val) : Above n (owesRed c l) := by
  unfold owesRed
  repeat' apply Above.add
  all_goals exact above_rr _ _ _ _ hn
/-- Layer `l`'s gather arrivals (`l < 2`) are owed to gather-receive cells of layer `l`, level `4 + 3 l`. -/
theorem above_owesGat {n : ℕ} (c : Dev nD) (l : Fin 3) (hl : l.val < 2) (hn : n < 4 + 3 * l.val) : Above n (owesGat c l) := by
  unfold owesGat
  repeat' apply Above.add
  all_goals exact above_gr _ _ _ _ hl hn

/-- At launch a device owes only to protocol cells: all of level at least 1. -/
theorem above_O₀ (c : Dev nD) : Above 0 (O₀ c) :=
  (((((above_owesBar c (by decide)).add (above_owesRed c 0 (by decide))).add (above_owesRed c 1 (by decide))).add
    (above_owesRed c 2 (by decide))).add (above_owesGat c 0 (by decide) (by decide))).add (above_owesGat c 1 (by decide) (by decide))

theorem O₀_pos {c : Dev nD} {g : GSem nD τ sig} {u : Unit} (h : 0 < O₀ c g u) : g.1.2 = .tc ∧ 0 < lv g u := above_O₀ c g u h

/-- Closes `Above n O` for `O` a sum, in any grouping, of the protocol's one-cell tallies (of any amounts), of the
    families `owesBar`, `owesRed`, `owesGat` and of zeros, at a literal level `n` and literal layers. -/
macro "owes_above" : tactic => `(tactic| (
  repeat' apply Above.add
  all_goals first
    | exact Above.zero _
    | exact above_bar (by decide) _ _
    | exact above_rr _ _ _ _ (by decide)
    | exact above_gr _ _ _ _ (by decide) (by decide)))

/-! ## Every wait is allowed -/

omit [FloatOps F] in
/-- A device may wait on a cell of its own when everything it owes is owed to TensorCore cells of a higher level. -/
theorem mayWait_of_lt (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  Pipeline.mayWait_of_levAts (by rw [L_tc]; exact Finset.mem_singleton_self _)
    (fun g u hg => ⟨mem_L (hO g u hg).1 u, (hO g u hg).2⟩)

omit [FloatOps F] in
/-- The same through a cut: the waited cell at level at most `n`, everything owed above `n`. -/
theorem mayWait_of_above {n : ℕ} (c : Dev nD) (sm : SemLoc sig) (hn : lv ((c : Thread nD τ), sm) () ≤ n)
    (O : CellTallies nD τ sig Unit) (hO : Above n O) : (levAts L lv : sProp 𝕄) ⊢ MayWait (c : Thread nD τ) sm () O :=
  mayWait_of_lt c sm O fun g u hg => ⟨(hO g u hg).1, Nat.lt_of_le_of_lt hn (hO g u hg).2⟩

theorem lv_gs_le (c : Dev nD) (l : Fin 3) (u : Unit) : lv (gsCell c l) u ≤ 3 + 3 * l.val := by
  rw [show lv (gsCell c l) u = lvK (some (.gs l)) from lv_kind _ (.gs l) u]
  show (if l.val < 2 then 3 + 3 * l.val else 0) ≤ _
  split <;> omega
theorem lv_gr_le (c : Dev nD) (l : Fin 3) (s : Dev nD) (u : Unit) : lv (grCell c l s) u ≤ 4 + 3 * l.val := by
  rw [show lv (grCell c l s) u = lvK (some (.gr l s)) from lv_kind _ (.gr l s) u]
  show (if l.val < 2 then 4 + 3 * l.val else 0) ≤ _
  split <;> omega

/-! ### By the cell waited on, owing anything above its level -/

omit [FloatOps F] in
theorem mayWait_bar (c : Dev nD) (O : CellTallies nD τ sig Unit) (hO : Above 1 O) :
    (levAts L lv : sProp 𝕄) ⊢ MayWait (c : Thread nD τ) (.reg barS) () O :=
  mayWait_of_above c _ (Nat.le_of_eq (lv_bar c ())) O hO
omit [FloatOps F] in
theorem mayWait_rr (c : Dev nD) (l : Fin 3) (s : Dev nD) (O : CellTallies nD τ sig Unit) (hO : Above (2 + 3 * l.val) O) :
    (levAts L lv : sProp 𝕄) ⊢ MayWait (c : Thread nD τ) (.dma (rrS l s)) () O :=
  mayWait_of_above c _ (Nat.le_of_eq (lv_rr c l s ())) O hO
omit [FloatOps F] in
theorem mayWait_rs (c : Dev nD) (l : Fin 3) (O : CellTallies nD τ sig Unit) (hO : Above (3 + 3 * l.val) O) :
    (levAts L lv : sProp 𝕄) ⊢ MayWait (c : Thread nD τ) (.dma (rsS l)) () O :=
  mayWait_of_above c _ (Nat.le_of_eq (lv_rs c l ())) O hO
omit [FloatOps F] in
theorem mayWait_gs (c : Dev nD) (l : Fin 3) (O : CellTallies nD τ sig Unit) (hO : Above (3 + 3 * l.val) O) :
    (levAts L lv : sProp 𝕄) ⊢ MayWait (c : Thread nD τ) (.dma (gsS l)) () O :=
  mayWait_of_above c _ (lv_gs_le c l ()) O hO
omit [FloatOps F] in
theorem mayWait_gr (c : Dev nD) (l : Fin 3) (s : Dev nD) (O : CellTallies nD τ sig Unit) (hO : Above (4 + 3 * l.val) O) :
    (levAts L lv : sProp 𝕄) ⊢ MayWait (c : Thread nD τ) (.dma (grS l s)) () O :=
  mayWait_of_above c _ (lv_gr_le c l s ()) O hO

omit [FloatOps F] in
/-- The pipeline's own waits, on the staging semaphores (level 0), before the body (owing everything) and after it
    (owing nothing). -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · exact mayWait_of_above c _ (Nat.le_of_eq (lv_stage c q hq ())) _ (above_O₀ c)
  · exact mayWait_of_above c _ (Nat.le_of_eq (lv_stage c q hq ())) _ (Above.zero 0)

/-! ### At the clean stages of the program, in its order -/

/-- What is owed from layer `1` on, once layer 0's reduce and gather copies have left. -/
theorem above_after0 (c : Dev nD) : Above 4 (owesRed c 1 + owesRed c 2 + owesGat c 1) :=
  ((above_owesRed c 1 (by decide)).add (above_owesRed c 2 (by decide))).add (above_owesGat c 1 (by decide) (by decide))

omit [FloatOps F] in
/-- The barrier wait: the seven signals sent, every copy still owed. -/
theorem mayWait_bar_entry (c : Dev nD) :
    (levAts L lv : sProp 𝕄) ⊢ MayWait (c : Thread nD τ) (.reg barS) () (owesRed c 0 + owesRed c 1 + owesRed c 2 + owesGat c 0 + owesGat c 1) :=
  mayWait_bar c _ (((((above_owesRed c 0 (by decide)).add (above_owesRed c 1 (by decide))).add (above_owesRed c 2 (by decide))).add
    (above_owesGat c 0 (by decide) (by decide))).add (above_owesGat c 1 (by decide) (by decide)))
omit [FloatOps F] in
/-- Layer 0's receive waits: its reduce copies sent. -/
theorem mayWait_rr0 (c s : Dev nD) :
    (levAts L lv : sProp 𝕄) ⊢ MayWait (c : Thread nD τ) (.dma (rrS 0 s)) () (owesRed c 1 + owesRed c 2 + owesGat c 0 + owesGat c 1) :=
  mayWait_rr c 0 s _ ((((above_owesRed c 1 (by decide)).add (above_owesRed c 2 (by decide))).add
    (above_owesGat c 0 (by decide) (by decide))).add (above_owesGat c 1 (by decide) (by decide)))
omit [FloatOps F] in
/-- Layer 0's send waits: its gather copies sent too. -/
theorem mayWait_rs0 (c : Dev nD) :
    (levAts L lv : sProp 𝕄) ⊢ MayWait (c : Thread nD τ) (.dma (rsS 0)) () (owesRed c 1 + owesRed c 2 + owesGat c 1) :=
  mayWait_rs c 0 _ ((above_after0 c).mono (by decide))
omit [FloatOps F] in
theorem mayWait_gs0 (c : Dev nD) :
    (levAts L lv : sProp 𝕄) ⊢ MayWait (c : Thread nD τ) (.dma (gsS 0)) () (owesRed c 1 + owesRed c 2 + owesGat c 1) :=
  mayWait_gs c 0 _ ((above_after0 c).mono (by decide))
omit [FloatOps F] in
/-- Layer 0's gather-receive waits, interleaved with layer 1's reduce copies: whatever part of them is still owed. -/
theorem mayWait_gr0 (c s : Dev nD) (O : CellTallies nD τ sig Unit)
    (hO : ∀ g u, 0 < O g u → 0 < (owesRed c 1 + owesRed c 2 + owesGat c 1) g u) :
    (levAts L lv : sProp 𝕄) ⊢ MayWait (c : Thread nD τ) (.dma (grS 0 s)) () O :=
  mayWait_gr c 0 s O ((above_after0 c).of_pos hO)
omit [FloatOps F] in
/-- Layer 1's receive waits. -/
theorem mayWait_rr1 (c s : Dev nD) :
    (levAts L lv : sProp 𝕄) ⊢ MayWait (c : Thread nD τ) (.dma (rrS 1 s)) () (owesRed c 2 + owesGat c 1) :=
  mayWait_rr c 1 s _ ((above_owesRed c 2 (by decide)).add (above_owesGat c 1 (by decide) (by decide)))
omit [FloatOps F] in
/-- Layer 1's send waits. -/
theorem mayWait_rs1 (c : Dev nD) : (levAts L lv : sProp 𝕄) ⊢ MayWait (c : Thread nD τ) (.dma (rsS 1)) () (owesRed c 2) :=
  mayWait_rs c 1 _ (above_owesRed c 2 (by decide))
omit [FloatOps F] in
theorem mayWait_gs1 (c : Dev nD) : (levAts L lv : sProp 𝕄) ⊢ MayWait (c : Thread nD τ) (.dma (gsS 1)) () (owesRed c 2) :=
  mayWait_gs c 1 _ (above_owesRed c 2 (by decide))
omit [FloatOps F] in
/-- Layer 1's gather-receive waits, interleaved with layer 2's reduce copies. -/
theorem mayWait_gr1 (c s : Dev nD) (O : CellTallies nD τ sig Unit) (hO : ∀ g u, 0 < O g u → 0 < owesRed c 2 g u) :
    (levAts L lv : sProp 𝕄) ⊢ MayWait (c : Thread nD τ) (.dma (grS 1 s)) () O :=
  mayWait_gr c 1 s O ((above_owesRed c 2 (by decide)).of_pos hO)

/-- info: 'Cert.KernelProof.mayWait_of_lt' depends on axioms: [propext, Classical.choice, Quot.sound] -/
#guard_msgs in #print axioms mayWait_of_lt

/-- info: 'Cert.KernelProof.mayWait_stage' depends on axioms: [propext, Classical.choice, Quot.sound] -/
#guard_msgs in #print axioms mayWait_stage

/-- info: 'Cert.KernelProof.mayWait_bar_entry' depends on axioms: [propext, Classical.choice, Quot.sound] -/
#guard_msgs in #print axioms mayWait_bar_entry

/-- info: 'Cert.KernelProof.mayWait_gr1' depends on axioms: [propext, Classical.choice, Quot.sound] -/
#guard_msgs in #print axioms mayWait_gr1

end Cert.KernelProof

end
-- ==== Proof.K.Ghost.lean ====
import proofs.«900993_g7700000000000994_dist_mlpseq_tp1d_rep_bs_b512_d256_h512_v7x_i8_bf16_1_alg».proof.Proof.K.SchedTables
import proofs.«900993_g7700000000000994_dist_mlpseq_tp1d_rep_bs_b512_d256_h512_v7x_i8_bf16_1_alg».proof.Proof.K.Levels

/-! The protocol's ghost state as the launch deals it. Persistent: every cell's invariant (at the names `K` the launch
    allocated) and that every cell is at round 0. Linear, per device `c`: its position at round 0 of each of its own
    cells; the tokens of the duties IT pays — on each peer `p`: `p`'s barrier duty `c` (its entry signal), the arrival
    duties `c` of `p`'s reduce-receive cells `(l, c)` and gather-receive cells `(l, c)`; on its own send cells: the departure
    duty `t` of each copy to a peer `t` —; and the credit it was dealt: seven units on its barrier cell, a piece's credit
    on each receive cell a peer's copy lands on. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

deriving instance Fintype for CK

variable {F : FTy → Type} [FloatOps F]
local notation "𝕄" => MT nD τ sig Unit (Elt F) ℕ UU ℕ
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Every cell's invariant, cell `(c, k)`'s at the name `K (kcell c k)`. -/
def invsAll (K : GSem nD τ sig → ℕ) : sProp 𝕄 :=
  bigSep (Finset.univ : Finset (Dev nD × CK)) fun p => cellInv ER (sched m) (K (kcell p.1 p.2)) (kcell p.1 p.2)
/-- Every cell is at round 0. -/
def reachedAll : sProp 𝕄 :=
  bigSep (Finset.univ : Finset (Dev nD × CK)) fun p => (reached ER (kcell p.1 p.2) 0 : sProp 𝕄)

instance invsAll_persistent (K : GSem nD τ sig → ℕ) : BI.Persistent (invsAll m K) := by unfold invsAll; infer_instance
instance reachedAll_persistent : BI.Persistent (reachedAll (F := F)) := by unfold reachedAll; infer_instance

/-- Device `c`'s positions: round 0 of each of its cells, nothing taken. -/
def posAll (c : Dev nD) : sProp 𝕄 := bigSep (Finset.univ : Finset CK) fun k => (atPos ER (kcell c k) 0 ∅ 0 : sProp 𝕄)

/-- The tokens device `c` pays peer `p`'s cells with: its entry signal, the arrivals of its three reduce copies and two
    gather copies into `p`'s buffers. -/
def toksTo (c p : Dev nD) : sProp 𝕄 :=
  iprop(dutyTok ER (barCell p) 0 c
    ∗ dutyTok ER (rrCell p 0 c) 0 c ∗ dutyTok ER (rrCell p 1 c) 0 c ∗ dutyTok ER (rrCell p 2 c) 0 c
    ∗ dutyTok ER (grCell p 0 c) 0 c ∗ dutyTok ER (grCell p 1 c) 0 c)
/-- The tokens of the departures of `c`'s own copies to peer `t`. -/
def toksOut (c t : Dev nD) : sProp 𝕄 :=
  iprop(dutyTok ER (rsCell c 0) 0 t ∗ dutyTok ER (rsCell c 1) 0 t ∗ dutyTok ER (rsCell c 2) 0 t
    ∗ dutyTok ER (gsCell c 0) 0 t ∗ dutyTok ER (gsCell c 1) 0 t)
def payToks (c : Dev nD) : sProp 𝕄 :=
  iprop(bigSep (peers c) (fun p => toksTo (F := F) c p) ∗ bigSep (peers c) (fun t => toksOut (F := F) c t))

/-- The credit dealt to `c` for what peer `s` owes its cells. -/
def credFrom (c s : Dev nD) : sProp 𝕄 :=
  iprop(cred (tallyAt (rrCell c 0 s) () N64) ∗ cred (tallyAt (rrCell c 1 s) () N64) ∗ cred (tallyAt (rrCell c 2 s) () N64)
    ∗ cred (tallyAt (grCell c 0 s) () N64) ∗ cred (tallyAt (grCell c 1 s) () N64))
def credsOf (c : Dev nD) : sProp 𝕄 :=
  iprop(cred (tallyAt (barCell c) () 7) ∗ bigSep (peers c) (fun s => credFrom (F := F) c s))

/-- The protocol's ghost state device `c` starts from, at the names `K`. -/
def ghost (K : GSem nD τ sig → ℕ) (c : Dev nD) : sProp 𝕄 :=
  iprop(invsAll m K ∗ reachedAll ∗ posAll c ∗ payToks c)

/-- What device `c`'s body starts from beside its buffers: the ghost state at some names, its credit, the level facts. -/
def start (c : Dev nD) : sProp 𝕄 :=
  iprop((∃ K, ghost m K c) ∗ credsOf c ∗ levAts L lv)

/-- A whole scratch buffer held at some contents. -/
def scr (c : Dev nD) (b : Ref sig .tc) : sProp 𝕄 :=
  iprop(∃ f : Buf (Elt F) ((c : Thread nD τ).loc b), ((c : Thread nD τ).loc b) ↦{fullShare} f)

/-- Before the point: the start and the three scratch buffers at whatever they hold. -/
def Φ₀ (c : Dev nD) : sProp 𝕄 := iprop(start m c ∗ scr c cc0_scratch0 ∗ scr c cc0_scratch1 ∗ scr c cc0_scratch2)
/-- After the point: the three scratch buffers back whole, and every own (scoped) semaphore at zero with its cell closed. -/
def Φ₁ (c : Dev nD) : sProp 𝕄 :=
  iprop(scr c cc0_scratch0 ∗ scr c cc0_scratch1 ∗ scr c cc0_scratch2
    ∗ bigSep ((Finset.univ : Finset CK).erase .bar) (fun k => (semVal (kcell c k) 0 : sProp 𝕄)))

end Cert.KernelProof

end
-- ==== Proof.K.Data.lean ====
import proofs.«900993_g7700000000000994_dist_mlpseq_tp1d_rep_bs_b512_d256_h512_v7x_i8_bf16_1_alg».proof.Proof.K.Ghost
import proofs.«900993_g7700000000000994_dist_mlpseq_tp1d_rep_bs_b512_d256_h512_v7x_i8_bf16_1_alg».proof.Proof.Gen.Kernel.Points

/-! The pipeline's proof data of a device and the interface of its body. The kernel has no grid: one point, at which the
    seven argument arrays are fetched whole into their staging buffers and the result's staging buffer is written back
    whole. So after the body each input's staging buffer holds the device's argument array, and the result's holds the
    device's rows of the last layer's sum. Before the point the device holds the protocol's ghost state, its launch
    credit, the level facts and its three scratch buffers at whatever they hold, and owes everything it owes at launch;
    after it, the scratch buffers back whole, its own semaphores at zero, and it owes nothing. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argX m c
    | ⟨1, _⟩ => argW m c 0
    | ⟨2, _⟩ => argV m c 0
    | ⟨3, _⟩ => argW m c 1
    | ⟨4, _⟩ => argV m c 1
    | ⟨5, _⟩ => argW m c 2
    | ⟨6, _⟩ => argV m c 2
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body's interface -/

/-- A whole staging buffer of device `c` held at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` starts from: the protocol's ghost state at the names `K`, its credit, the level facts,
    the three scratch buffers at whatever they hold; owing what it owes at launch; the seven input staging buffers
    holding its argument arrays, the result's staging buffer at whatever it holds. -/
def bodyPre (K : GSem nD τ sig → ℕ) (c : Dev nD) : sProp 𝕄 :=
  iprop((ghost m K c ∗ credsOf c ∗ levAts L lv ∗ scr c cc0_scratch0 ∗ scr c cc0_scratch1 ∗ scr c cc0_scratch2)
    ∗ (∃ W, owes (c : Thread nD τ) (O₀ c) W)
    ∗ stg c cc0_stg0_0 (argX m c) ∗ stg c cc0_stg1_0 (argW m c 0) ∗ stg c cc0_stg2_0 (argV m c 0)
    ∗ stg c cc0_stg3_0 (argW m c 1) ∗ stg c cc0_stg4_0 (argV m c 1)
    ∗ stg c cc0_stg5_0 (argW m c 2) ∗ stg c cc0_stg6_0 (argV m c 2)
    ∗ (∃ X, stg c cc0_stg7_0 X))

/-- What it ends with: the scratch buffers back whole and its own semaphores at zero (`Φ₁`); owing nothing; the input
    staging buffers as they were, the result's holding the device's rows of the last layer's sum. -/
def bodyPost (c : Dev nD) : sProp 𝕄 :=
  iprop(Φ₁ c
    ∗ (∃ W, owes (c : Thread nD τ) 0 W)
    ∗ stg c cc0_stg0_0 (argX m c) ∗ stg c cc0_stg1_0 (argW m c 0) ∗ stg c cc0_stg2_0 (argV m c 0)
    ∗ stg c cc0_stg3_0 (argW m c 1) ∗ stg c cc0_stg4_0 (argV m c 1)
    ∗ stg c cc0_stg5_0 (argW m c 2) ∗ stg c cc0_stg6_0 (argV m c 2)
    ∗ stg c cc0_stg7_0 (outAt m c))

/-! ## The body obligation

The library states the obligation over each window's current staging buffer at what the pipeline left in it; here that
is, for an input, the fetched block — the whole argument array — and for the result whatever the buffer held. -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! An input's staging buffer, fetched at the one point, holds the argument array: the window's block is the whole array. -/
theorem before_0 (c : Dev nD) (d) : (dats m ρ 0 c).before (0 : Fin 8) t0_0 d = argX m c := by
  unfold Dat.before; rw [if_pos (fetch0_0 t0_0)]; unfold Dat.fetched Dat.blockOf
  show (win0_0.blk t0_0).view.read (Elt F) (m ((c : Thread nD τ).loc main_arg0)) = _
  exact Memref.read_access_unit_zero (Elt F) main_arg0 (funext fun a => Nat.zero_mul _) _ _
theorem before_1 (c : Dev nD) (d) : (dats m ρ 0 c).before (1 : Fin 8) t0_0 d = argW m c 0 := by
  unfold Dat.before; rw [if_pos (fetch0_1 t0_0)]; unfold Dat.fetched Dat.blockOf
  show (win0_1.blk t0_0).view.read (Elt F) (m ((c : Thread nD τ).loc main_arg1)) = _
  exact Memref.read_access_unit_zero (Elt F) main_arg1 (funext fun a => Nat.zero_mul _) _ _
theorem before_2 (c : Dev nD) (d) : (dats m ρ 0 c).before (2 : Fin 8) t0_0 d = argV m c 0 := by
  unfold Dat.before; rw [if_pos (fetch0_2 t0_0)]; unfold Dat.fetched Dat.blockOf
  show (win0_2.blk t0_0).view.read (Elt F) (m ((c : Thread nD τ).loc main_arg2)) = _
  exact Memref.read_access_unit_zero (Elt F) main_arg2 (funext fun a => Nat.zero_mul _) _ _
theorem before_3 (c : Dev nD) (d) : (dats m ρ 0 c).before (3 : Fin 8) t0_0 d = argW m c 1 := by
  unfold Dat.before; rw [if_pos (fetch0_3 t0_0)]; unfold Dat.fetched Dat.blockOf
  show (win0_3.blk t0_0).view.read (Elt F) (m ((c : Thread nD τ).loc main_arg3)) = _
  exact Memref.read_access_unit_zero (Elt F) main_arg3 (funext fun a => Nat.zero_mul _) _ _
theorem before_4 (c : Dev nD) (d) : (dats m ρ 0 c).before (4 : Fin 8) t0_0 d = argV m c 1 := by
  unfold Dat.before; rw [if_pos (fetch0_4 t0_0)]; unfold Dat.fetched Dat.blockOf
  show (win0_4.blk t0_0).view.read (Elt F) (m ((c : Thread nD τ).loc main_arg4)) = _
  exact Memref.read_access_unit_zero (Elt F) main_arg4 (funext fun a => Nat.zero_mul _) _ _
theorem before_5 (c : Dev nD) (d) : (dats m ρ 0 c).before (5 : Fin 8) t0_0 d = argW m c 2 := by
  unfold Dat.before; rw [if_pos (fetch0_5 t0_0)]; unfold Dat.fetched Dat.blockOf
  show (win0_5.blk t0_0).view.read (Elt F) (m ((c : Thread nD τ).loc main_arg5)) = _
  exact Memref.read_access_unit_zero (Elt F) main_arg5 (funext fun a => Nat.zero_mul _) _ _
theorem before_6 (c : Dev nD) (d) : (dats m ρ 0 c).before (6 : Fin 8) t0_0 d = argV m c 2 := by
  unfold Dat.before; rw [if_pos (fetch0_6 t0_0)]; unfold Dat.fetched Dat.blockOf
  show (win0_6.blk t0_0).view.read (Elt F) (m ((c : Thread nD τ).loc main_arg6)) = _
  exact Memref.read_access_unit_zero (Elt F) main_arg6 (funext fun a => Nat.zero_mul _) _ _

set_option maxRecDepth 4000 in
/-- The obligation's precondition at the one point, the windows written out. -/
def bodyPre' (c : Dev nD) : sProp 𝕄 :=
  iprop(Φ₀ m c ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

set_option maxRecDepth 4000 in
/-- Its postcondition there. -/
def bodyPost' (c : Dev nD) : sProp 𝕄 :=
  iprop(Φ₁ c ∗ (dats m ρ 0 c).owesAt () t0_0.succ
    ∗ stg c cc0_stg0_0 (argX m c) ∗ stg c cc0_stg1_0 (argW m c 0) ∗ stg c cc0_stg2_0 (argV m c 0)
    ∗ stg c cc0_stg3_0 (argW m c 1) ∗ stg c cc0_stg4_0 (argV m c 1)
    ∗ stg c cc0_stg5_0 (argW m c 2) ∗ stg c cc0_stg6_0 (argV m c 2)
    ∗ stg c cc0_stg7_0 (outAt m c))

/-- The obligation's precondition gives the body's, at the names the ghost state was allocated at. -/
theorem bodyPre_of (c : Dev nD) : bodyPre' m ρ c ⊢ iprop(∃ K, bodyPre m K c) := by
  unfold bodyPre' Φ₀ start
  simp only [before_0, before_1, before_2, before_3, before_4, before_5, before_6]
  iintro ⟨⟨⟨⟨%K, Hg⟩, Hcr, Hlev⟩, Hs0, Hs1, Hs2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  icases Ho with ⟨%W, %hW, HO⟩
  iexists K
  unfold bodyPre
  isplitl [Hg Hcr Hlev Hs0 Hs1 Hs2]
  · isplitl [Hg]; · iexact Hg
    isplitl [Hcr]; · iexact Hcr
    isplitl [Hlev]; · iexact Hlev
    isplitl [Hs0]; · iexact Hs0
    isplitl [Hs1]; · iexact Hs1
    iexact Hs2
  isplitl [HO]; · iexists W; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The body's postcondition gives the obligation's: what it owes — nothing — within the next point's bound. -/
theorem bodyPost_to (c : Dev nD) : bodyPost m c ⊢ bodyPost' m ρ c := by
  unfold bodyPost bodyPost'
  iintro ⟨HΦ, ⟨%W, HO⟩, Hst⟩
  isplitl [HΦ]; · iexact HΦ
  isplitl [HO]
  · iexists W
    isplitr; · ipureintro; exact fun _ _ => Or.inl trivial
    iexact HO
  iexact Hst

set_option maxRecDepth 8000 in
/-- The library's body obligation on device `c`, from the soundness of the body between `bodyPre` and `bodyPost`. -/
theorem body_obligation
    (hbody : ∀ (K : GSem nD τ sig → ℕ) (c : Dev nD) (Kt : PUnit → sProp 𝕄), iprop(bodyPre m K c ∗ (bodyPost m c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt)
    (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost' m ρ c)
  refine (bodyPre_of m ρ c).trans ?_
  iintro ⟨%K, H⟩
  iapply (hbody K c fun _ => bodyPost' m ρ c)
  isplitl [H]; · iexact H
  iintro H; iapply (bodyPost_to m ρ c); iexact H

/-- info: 'Cert.KernelProof.body_obligation' depends on axioms: [propext, Classical.choice, Quot.sound] -/
#guard_msgs in #print axioms body_obligation

end Cert.KernelProof

end
-- ==== Proof.K.Lit.lean ====
import proofs.«900993_g7700000000000994_dist_mlpseq_tp1d_rep_bs_b512_d256_h512_v7x_i8_bf16_1_alg».proof.Proof.K.Ghost

/-! The family of all kinds of cell, written out. A device has 55 cells: its barrier cell; the reduce-send cells of the
    three layers; the 24 reduce-receive cells, by layer and then by sender; the gather-send cells of the three layers;
    the 24 gather-receive cells, by layer and then by sender. A separating conjunction over all kinds is the chain of its
    55 factors in that order; without the barrier cell, of the other 54; and the conjunction over the cells of all
    devices hands over the factor of any one cell. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

universe u

/-- The kinds of cell other than the barrier, in the order of the chain. -/
def restCK : List CK :=
  [.rs 0, .rs 1, .rs 2,
   .rr 0 0, .rr 0 1, .rr 0 2, .rr 0 3, .rr 0 4, .rr 0 5, .rr 0 6, .rr 0 7,
   .rr 1 0, .rr 1 1, .rr 1 2, .rr 1 3, .rr 1 4, .rr 1 5, .rr 1 6, .rr 1 7,
   .rr 2 0, .rr 2 1, .rr 2 2, .rr 2 3, .rr 2 4, .rr 2 5, .rr 2 6, .rr 2 7,
   .gs 0, .gs 1, .gs 2,
   .gr 0 0, .gr 0 1, .gr 0 2, .gr 0 3, .gr 0 4, .gr 0 5, .gr 0 6, .gr 0 7,
   .gr 1 0, .gr 1 1, .gr 1 2, .gr 1 3, .gr 1 4, .gr 1 5, .gr 1 6, .gr 1 7,
   .gr 2 0, .gr 2 1, .gr 2 2, .gr 2 3, .gr 2 4, .gr 2 5, .gr 2 6, .gr 2 7]

/-- All 55 kinds of cell, the barrier first. -/
def allCK : List CK := .bar :: restCK

theorem restCK_nodup : restCK.Nodup := by decide
theorem bar_not_mem_restCK : CK.bar ∉ restCK := by decide
theorem allCK_nodup : allCK.Nodup := List.nodup_cons.mpr ⟨bar_not_mem_restCK, restCK_nodup⟩

/-- Every kind is listed; every kind but the barrier is listed among the rest. -/
theorem mem_restCK (k : CK) (h : k ≠ .bar) : k ∈ restCK := by
  cases k with
  | bar => exact absurd rfl h
  | rs l => revert l; decide
  | rr l s => revert l s; decide
  | gs l => revert l; decide
  | gr l s => revert l s; decide
theorem mem_allCK (k : CK) : k ∈ allCK := by
  by_cases h : k = .bar
  · subst h; exact List.mem_cons_self
  · exact List.mem_cons_of_mem _ (mem_restCK k h)

theorem univ_CK : (Finset.univ : Finset CK) = allCK.toFinset :=
  (Finset.eq_univ_iff_forall.mpr fun k => List.mem_toFinset.mpr (mem_allCK k)).symm
theorem univ_erase_bar : (Finset.univ : Finset CK).erase .bar = restCK.toFinset := by
  ext k
  rw [Finset.mem_erase, List.mem_toFinset]
  exact ⟨fun h => mem_restCK k h.1, fun h => ⟨fun e => bar_not_mem_restCK (e ▸ h), Finset.mem_univ k⟩⟩

/-- The conjunction over all kinds of cell, as the chain of its 55 factors. -/
theorem bigSep_CK {M : Type u} [URA M] (Φ : CK → sProp M) : bigSep (Finset.univ : Finset CK) Φ =
    iprop(Φ .bar ∗ Φ (.rs 0) ∗ Φ (.rs 1) ∗ Φ (.rs 2)
      ∗ Φ (.rr 0 0) ∗ Φ (.rr 0 1) ∗ Φ (.rr 0 2) ∗ Φ (.rr 0 3) ∗ Φ (.rr 0 4) ∗ Φ (.rr 0 5) ∗ Φ (.rr 0 6) ∗ Φ (.rr 0 7)
      ∗ Φ (.rr 1 0) ∗ Φ (.rr 1 1) ∗ Φ (.rr 1 2) ∗ Φ (.rr 1 3) ∗ Φ (.rr 1 4) ∗ Φ (.rr 1 5) ∗ Φ (.rr 1 6) ∗ Φ (.rr 1 7)
      ∗ Φ (.rr 2 0) ∗ Φ (.rr 2 1) ∗ Φ (.rr 2 2) ∗ Φ (.rr 2 3) ∗ Φ (.rr 2 4) ∗ Φ (.rr 2 5) ∗ Φ (.rr 2 6) ∗ Φ (.rr 2 7)
      ∗ Φ (.gs 0) ∗ Φ (.gs 1) ∗ Φ (.gs 2)
      ∗ Φ (.gr 0 0) ∗ Φ (.gr 0 1) ∗ Φ (.gr 0 2) ∗ Φ (.gr 0 3) ∗ Φ (.gr 0 4) ∗ Φ (.gr 0 5) ∗ Φ (.gr 0 6) ∗ Φ (.gr 0 7)
      ∗ Φ (.gr 1 0) ∗ Φ (.gr 1 1) ∗ Φ (.gr 1 2) ∗ Φ (.gr 1 3) ∗ Φ (.gr 1 4) ∗ Φ (.gr 1 5) ∗ Φ (.gr 1 6) ∗ Φ (.gr 1 7)
      ∗ Φ (.gr 2 0) ∗ Φ (.gr 2 1) ∗ Φ (.gr 2 2) ∗ Φ (.gr 2 3) ∗ Φ (.gr 2 4) ∗ Φ (.gr 2 5) ∗ Φ (.gr 2 6) ∗ Φ (.gr 2 7)) :=
  bigSep_univ_eq_bigSepL allCK univ_CK allCK_nodup Φ

/-- The conjunction over the kinds other than the barrier, as the chain of its 54 factors. -/
theorem bigSep_CK_rest {M : Type u} [URA M] (Φ : CK → sProp M) : bigSep ((Finset.univ : Finset CK).erase .bar) Φ =
    iprop(Φ (.rs 0) ∗ Φ (.rs 1) ∗ Φ (.rs 2)
      ∗ Φ (.rr 0 0) ∗ Φ (.rr 0 1) ∗ Φ (.rr 0 2) ∗ Φ (.rr 0 3) ∗ Φ (.rr 0 4) ∗ Φ (.rr 0 5) ∗ Φ (.rr 0 6) ∗ Φ (.rr 0 7)
      ∗ Φ (.rr 1 0) ∗ Φ (.rr 1 1) ∗ Φ (.rr 1 2) ∗ Φ (.rr 1 3) ∗ Φ (.rr 1 4) ∗ Φ (.rr 1 5) ∗ Φ (.rr 1 6) ∗ Φ (.rr 1 7)
      ∗ Φ (.rr 2 0) ∗ Φ (.rr 2 1) ∗ Φ (.rr 2 2) ∗ Φ (.rr 2 3) ∗ Φ (.rr 2 4) ∗ Φ (.rr 2 5) ∗ Φ (.rr 2 6) ∗ Φ (.rr 2 7)
      ∗ Φ (.gs 0) ∗ Φ (.gs 1) ∗ Φ (.gs 2)
      ∗ Φ (.gr 0 0) ∗ Φ (.gr 0 1) ∗ Φ (.gr 0 2) ∗ Φ (.gr 0 3) ∗ Φ (.gr 0 4) ∗ Φ (.gr 0 5) ∗ Φ (.gr 0 6) ∗ Φ (.gr 0 7)
      ∗ Φ (.gr 1 0) ∗ Φ (.gr 1 1) ∗ Φ (.gr 1 2) ∗ Φ (.gr 1 3) ∗ Φ (.gr 1 4) ∗ Φ (.gr 1 5) ∗ Φ (.gr 1 6) ∗ Φ (.gr 1 7)
      ∗ Φ (.gr 2 0) ∗ Φ (.gr 2 1) ∗ Φ (.gr 2 2) ∗ Φ (.gr 2 3) ∗ Φ (.gr 2 4) ∗ Φ (.gr 2 5) ∗ Φ (.gr 2 6) ∗ Φ (.gr 2 7)) :=
  bigSep_eq_bigSepL_of_eq restCK univ_erase_bar restCK_nodup Φ

/-- The conjunction over the cells of all devices hands over the factor of the cell of kind `k` of device `c`. -/
theorem allAt {M : Type u} [URA M] (Φ : Dev nD × CK → sProp M) (c : Dev nD) (k : CK) :
    bigSep (Finset.univ : Finset (Dev nD × CK)) Φ ⊢ Φ (c, k) :=
  bigSep_elim (Finset.mem_univ (c, k))

/-- The conjunction over the cells of all devices, device by device. -/
theorem bigSep_allCells {M : Type u} [URA M] (Φ : Dev nD × CK → sProp M) :
    bigSep (Finset.univ : Finset (Dev nD × CK)) Φ = bigSep (Finset.univ : Finset (Dev nD)) (fun c => bigSep (Finset.univ : Finset CK) (fun k => Φ (c, k))) :=
  bigSep_univ_prod Φ

/-- info: 'Cert.KernelProof.bigSep_CK' depends on axioms: [propext, Classical.choice, Quot.sound] -/
#guard_msgs in #print axioms bigSep_CK

/-- info: 'Cert.KernelProof.bigSep_CK_rest' depends on axioms: [propext, Classical.choice, Quot.sound] -/
#guard_msgs in #print axioms bigSep_CK_rest

/-- info: 'Cert.KernelProof.allAt' depends on axioms: [propext, Classical.choice, Quot.sound] -/
#guard_msgs in #print axioms allAt

end Cert.KernelProof

end
-- ==== Proof.K.LitTable.lean ====
import proofs.«900993_g7700000000000994_dist_mlpseq_tp1d_rep_bs_b512_d256_h512_v7x_i8_bf16_1_alg».proof.Proof.K.SchedTables
import proofs.«900993_g7700000000000994_dist_mlpseq_tp1d_rep_bs_b512_d256_h512_v7x_i8_bf16_1_alg».proof.Proof.K.Levels

/-! The ring of eight devices evaluated at each device `c₀ = 0 … 7`: the device at each distance after and before
    `c₀`; that `c₀` differs from every other device; the set of its seven peers and a separating conjunction over them as
    the chain of its seven factors, in increasing order; and what `c₀` owes at launch with every peer named: the entry
    signals, the reduce arrivals of a layer (nothing towards `c₀` itself), the gather arrivals of a layer, and all of
    them as one chain of 42 summands. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

universe u

/-! ## Device 0 -/

theorem fwd_0_1 : fwd 1 (0 : Dev nD) = (1 : Dev nD) := by decide
theorem fwd_0_2 : fwd 2 (0 : Dev nD) = (2 : Dev nD) := by decide
theorem fwd_0_3 : fwd 3 (0 : Dev nD) = (3 : Dev nD) := by decide
theorem fwd_0_4 : fwd 4 (0 : Dev nD) = (4 : Dev nD) := by decide
theorem fwd_0_5 : fwd 5 (0 : Dev nD) = (5 : Dev nD) := by decide
theorem fwd_0_6 : fwd 6 (0 : Dev nD) = (6 : Dev nD) := by decide
theorem fwd_0_7 : fwd 7 (0 : Dev nD) = (7 : Dev nD) := by decide
theorem bwd_0_1 : bwd 1 (0 : Dev nD) = (7 : Dev nD) := by decide
theorem bwd_0_2 : bwd 2 (0 : Dev nD) = (6 : Dev nD) := by decide
theorem bwd_0_3 : bwd 3 (0 : Dev nD) = (5 : Dev nD) := by decide
theorem bwd_0_4 : bwd 4 (0 : Dev nD) = (4 : Dev nD) := by decide
theorem bwd_0_5 : bwd 5 (0 : Dev nD) = (3 : Dev nD) := by decide
theorem bwd_0_6 : bwd 6 (0 : Dev nD) = (2 : Dev nD) := by decide
theorem bwd_0_7 : bwd 7 (0 : Dev nD) = (1 : Dev nD) := by decide
theorem ne_0_1 : (0 : Dev nD) ≠ (1 : Dev nD) := by decide
theorem ne_0_2 : (0 : Dev nD) ≠ (2 : Dev nD) := by decide
theorem ne_0_3 : (0 : Dev nD) ≠ (3 : Dev nD) := by decide
theorem ne_0_4 : (0 : Dev nD) ≠ (4 : Dev nD) := by decide
theorem ne_0_5 : (0 : Dev nD) ≠ (5 : Dev nD) := by decide
theorem ne_0_6 : (0 : Dev nD) ≠ (6 : Dev nD) := by decide
theorem ne_0_7 : (0 : Dev nD) ≠ (7 : Dev nD) := by decide
theorem peers_0 : peers (0 : Dev nD) = {1, 2, 3, 4, 5, 6, 7} := by decide
theorem bigSep_peers_0 {M : Type u} [URA M] (Φ : Dev nD → sProp M) :
    bigSep (peers (0 : Dev nD)) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
theorem owesBar_0 : owesBar (0 : Dev nD) =
    tallyAt (barCell 1) () 1 + tallyAt (barCell 2) () 1 + tallyAt (barCell 3) () 1 + tallyAt (barCell 4) () 1 + tallyAt (barCell 5) () 1 + tallyAt (barCell 6) () 1 + tallyAt (barCell 7) () 1 := by
  unfold owesBar
  rw [fwd_0_1, fwd_0_2, fwd_0_3, fwd_0_4, fwd_0_5, fwd_0_6, fwd_0_7]
theorem owesRed_0 (l : Fin 3) : owesRed (0 : Dev nD) l =
    tallyAt (rrCell 1 l 0) () N64 + tallyAt (rrCell 2 l 0) () N64 + tallyAt (rrCell 3 l 0) () N64 + tallyAt (rrCell 4 l 0) () N64 + tallyAt (rrCell 5 l 0) () N64 + tallyAt (rrCell 6 l 0) () N64 + tallyAt (rrCell 7 l 0) () N64 := by
  unfold owesRed
  rw [if_neg (show ¬ ((0 : Dev nD) ≠ 0) from fun h => h rfl), if_pos ne_0_1, if_pos ne_0_2, if_pos ne_0_3, if_pos ne_0_4, if_pos ne_0_5, if_pos ne_0_6, if_pos ne_0_7, tallyAt_zero, zero_add]
theorem owesGat_0 (l : Fin 3) : owesGat (0 : Dev nD) l =
    tallyAt (grCell 1 l 0) () N64 + tallyAt (grCell 2 l 0) () N64 + tallyAt (grCell 3 l 0) () N64 + tallyAt (grCell 4 l 0) () N64 + tallyAt (grCell 5 l 0) () N64 + tallyAt (grCell 6 l 0) () N64 + tallyAt (grCell 7 l 0) () N64 := by
  unfold owesGat
  rw [fwd_0_1, fwd_0_2, fwd_0_3, fwd_0_4, fwd_0_5, fwd_0_6, fwd_0_7]
theorem O₀_0 : O₀ (0 : Dev nD) =
    tallyAt (barCell 1) () 1 + tallyAt (barCell 2) () 1 + tallyAt (barCell 3) () 1 + tallyAt (barCell 4) () 1 + tallyAt (barCell 5) () 1 + tallyAt (barCell 6) () 1 + tallyAt (barCell 7) () 1
    + tallyAt (rrCell 1 0 0) () N64 + tallyAt (rrCell 2 0 0) () N64 + tallyAt (rrCell 3 0 0) () N64 + tallyAt (rrCell 4 0 0) () N64 + tallyAt (rrCell 5 0 0) () N64 + tallyAt (rrCell 6 0 0) () N64 + tallyAt (rrCell 7 0 0) () N64
    + tallyAt (rrCell 1 1 0) () N64 + tallyAt (rrCell 2 1 0) () N64 + tallyAt (rrCell 3 1 0) () N64 + tallyAt (rrCell 4 1 0) () N64 + tallyAt (rrCell 5 1 0) () N64 + tallyAt (rrCell 6 1 0) () N64 + tallyAt (rrCell 7 1 0) () N64
    + tallyAt (rrCell 1 2 0) () N64 + tallyAt (rrCell 2 2 0) () N64 + tallyAt (rrCell 3 2 0) () N64 + tallyAt (rrCell 4 2 0) () N64 + tallyAt (rrCell 5 2 0) () N64 + tallyAt (rrCell 6 2 0) () N64 + tallyAt (rrCell 7 2 0) () N64
    + tallyAt (grCell 1 0 0) () N64 + tallyAt (grCell 2 0 0) () N64 + tallyAt (grCell 3 0 0) () N64 + tallyAt (grCell 4 0 0) () N64 + tallyAt (grCell 5 0 0) () N64 + tallyAt (grCell 6 0 0) () N64 + tallyAt (grCell 7 0 0) () N64
    + tallyAt (grCell 1 1 0) () N64 + tallyAt (grCell 2 1 0) () N64 + tallyAt (grCell 3 1 0) () N64 + tallyAt (grCell 4 1 0) () N64 + tallyAt (grCell 5 1 0) () N64 + tallyAt (grCell 6 1 0) () N64 + tallyAt (grCell 7 1 0) () N64 := by
  unfold O₀
  rw [owesBar_0, owesRed_0, owesRed_0, owesRed_0, owesGat_0, owesGat_0]
  simp only [← add_assoc]

/-! ## Device 1 -/

theorem fwd_1_1 : fwd 1 (1 : Dev nD) = (2 : Dev nD) := by decide
theorem fwd_1_2 : fwd 2 (1 : Dev nD) = (3 : Dev nD) := by decide
theorem fwd_1_3 : fwd 3 (1 : Dev nD) = (4 : Dev nD) := by decide
theorem fwd_1_4 : fwd 4 (1 : Dev nD) = (5 : Dev nD) := by decide
theorem fwd_1_5 : fwd 5 (1 : Dev nD) = (6 : Dev nD) := by decide
theorem fwd_1_6 : fwd 6 (1 : Dev nD) = (7 : Dev nD) := by decide
theorem fwd_1_7 : fwd 7 (1 : Dev nD) = (0 : Dev nD) := by decide
theorem bwd_1_1 : bwd 1 (1 : Dev nD) = (0 : Dev nD) := by decide
theorem bwd_1_2 : bwd 2 (1 : Dev nD) = (7 : Dev nD) := by decide
theorem bwd_1_3 : bwd 3 (1 : Dev nD) = (6 : Dev nD) := by decide
theorem bwd_1_4 : bwd 4 (1 : Dev nD) = (5 : Dev nD) := by decide
theorem bwd_1_5 : bwd 5 (1 : Dev nD) = (4 : Dev nD) := by decide
theorem bwd_1_6 : bwd 6 (1 : Dev nD) = (3 : Dev nD) := by decide
theorem bwd_1_7 : bwd 7 (1 : Dev nD) = (2 : Dev nD) := by decide
theorem ne_1_0 : (1 : Dev nD) ≠ (0 : Dev nD) := by decide
theorem ne_1_2 : (1 : Dev nD) ≠ (2 : Dev nD) := by decide
theorem ne_1_3 : (1 : Dev nD) ≠ (3 : Dev nD) := by decide
theorem ne_1_4 : (1 : Dev nD) ≠ (4 : Dev nD) := by decide
theorem ne_1_5 : (1 : Dev nD) ≠ (5 : Dev nD) := by decide
theorem ne_1_6 : (1 : Dev nD) ≠ (6 : Dev nD) := by decide
theorem ne_1_7 : (1 : Dev nD) ≠ (7 : Dev nD) := by decide
theorem peers_1 : peers (1 : Dev nD) = {0, 2, 3, 4, 5, 6, 7} := by decide
theorem bigSep_peers_1 {M : Type u} [URA M] (Φ : Dev nD → sProp M) :
    bigSep (peers (1 : Dev nD)) Φ = iprop(Φ 0 ∗ Φ 2 ∗ Φ 3 ∗ Φ 4 ∗ Φ 5 ∗ Φ 6 ∗ Φ 7) :=
  bigSep_eq_bigSepL_of_eq [0, 2, 3, 4, 5, 6, 7] (by decide) (by decide) Φ
theorem owesBar_1 : owesBar (1 : Dev nD) =
    tallyAt (barCell 2) () 1 + tallyAt (barCell 3) () 1 + tallyAt (barCell 4) () 1 + tallyAt (barCell 5) () 1 + tallyAt (barCell 6) () 1 + tallyAt (barCell 7) () 1 + tallyAt (barCell 0) () 1 := by
  unfold owesBar
  rw [fwd_1_1, fwd_1_2, fwd_1_3, fwd_1_4, fwd_1_5, fwd_1_6, fwd_1_7]
theorem owesRed_1 (l : Fin 3) : owesRed (1 : Dev nD) l =
    tallyAt (rrCell 0 l 1) () N64 + tallyAt (rrCell 2 l 1) () N64 + tallyAt (rrCell 3 l 1) () N64 + tallyAt (rrCell 4 l 1) () N64 + tallyAt (rrCell 5 l 1) () N64 + tallyAt (rrCell 6 l 1) () N64 + tallyAt (rrCell 7 l 1) () N64 := by
  unfold owesRed
  rw [if_pos ne_1_0, if_neg (show ¬ ((1 : Dev nD) ≠ 1) from fun h => h rfl), if_pos ne_1_2, if_pos ne_1_3, if_pos ne_1_4, if_pos ne_1_5, if_pos ne_1_6, if_pos ne_1_7, tallyAt_zero, add_zero]
theorem owesGat_1 (l : Fin 3) : owesGat (1 : Dev nD) l =
    tallyAt (grCell 2 l 1) () N64 + tallyAt (grCell 3 l 1) () N64 + tallyAt (grCell 4 l 1) () N64 + tallyAt (grCell 5 l 1) () N64 + tallyAt (grCell 6 l 1) () N64 + tallyAt (grCell 7 l 1) () N64 + tallyAt (grCell 0 l 1) () N64 := by
  unfold owesGat
  rw [fwd_1_1, fwd_1_2, fwd_1_3, fwd_1_4, fwd_1_5, fwd_1_6, fwd_1_7]
theorem O₀_1 : O₀ (1 : Dev nD) =
    tallyAt (barCell 2) () 1 + tallyAt (barCell 3) () 1 + tallyAt (barCell 4) () 1 + tallyAt (barCell 5) () 1 + tallyAt (barCell 6) () 1 + tallyAt (barCell 7) () 1 + tallyAt (barCell 0) () 1
    + tallyAt (rrCell 0 0 1) () N64 + tallyAt (rrCell 2 0 1) () N64 + tallyAt (rrCell 3 0 1) () N64 + tallyAt (rrCell 4 0 1) () N64 + tallyAt (rrCell 5 0 1) () N64 + tallyAt (rrCell 6 0 1) () N64 + tallyAt (rrCell 7 0 1) () N64
    + tallyAt (rrCell 0 1 1) () N64 + tallyAt (rrCell 2 1 1) () N64 + tallyAt (rrCell 3 1 1) () N64 + tallyAt (rrCell 4 1 1) () N64 + tallyAt (rrCell 5 1 1) () N64 + tallyAt (rrCell 6 1 1) () N64 + tallyAt (rrCell 7 1 1) () N64
    + tallyAt (rrCell 0 2 1) () N64 + tallyAt (rrCell 2 2 1) () N64 + tallyAt (rrCell 3 2 1) () N64 + tallyAt (rrCell 4 2 1) () N64 + tallyAt (rrCell 5 2 1) () N64 + tallyAt (rrCell 6 2 1) () N64 + tallyAt (rrCell 7 2 1) () N64
    + tallyAt (grCell 2 0 1) () N64 + tallyAt (grCell 3 0 1) () N64 + tallyAt (grCell 4 0 1) () N64 + tallyAt (grCell 5 0 1) () N64 + tallyAt (grCell 6 0 1) () N64 + tallyAt (grCell 7 0 1) () N64 + tallyAt (grCell 0 0 1) () N64
    + tallyAt (grCell 2 1 1) () N64 + tallyAt (grCell 3 1 1) () N64 + tallyAt (grCell 4 1 1) () N64 + tallyAt (grCell 5 1 1) () N64 + tallyAt (grCell 6 1 1) () N64 + tallyAt (grCell 7 1 1) () N64 + tallyAt (grCell 0 1 1) () N64 := by
  unfold O₀
  rw [owesBar_1, owesRed_1, owesRed_1, owesRed_1, owesGat_1, owesGat_1]
  simp only [← add_assoc]

/-! ## Device 2 -/

theorem fwd_2_1 : fwd 1 (2 : Dev nD) = (3 : Dev nD) := by decide
theorem fwd_2_2 : fwd 2 (2 : Dev nD) = (4 : Dev nD) := by decide
theorem fwd_2_3 : fwd 3 (2 : Dev nD) = (5 : Dev nD) := by decide
theorem fwd_2_4 : fwd 4 (2 : Dev nD) = (6 : Dev nD) := by decide
theorem fwd_2_5 : fwd 5 (2 : Dev nD) = (7 : Dev nD) := by decide
theorem fwd_2_6 : fwd 6 (2 : Dev nD) = (0 : Dev nD) := by decide
theorem fwd_2_7 : fwd 7 (2 : Dev nD) = (1 : Dev nD) := by decide
theorem bwd_2_1 : bwd 1 (2 : Dev nD) = (1 : Dev nD) := by decide
theorem bwd_2_2 : bwd 2 (2 : Dev nD) = (0 : Dev nD) := by decide
theorem bwd_2_3 : bwd 3 (2 : Dev nD) = (7 : Dev nD) := by decide
theorem bwd_2_4 : bwd 4 (2 : Dev nD) = (6 : Dev nD) := by decide
theorem bwd_2_5 : bwd 5 (2 : Dev nD) = (5 : Dev nD) := by decide
theorem bwd_2_6 : bwd 6 (2 : Dev nD) = (4 : Dev nD) := by decide
theorem bwd_2_7 : bwd 7 (2 : Dev nD) = (3 : Dev nD) := by decide
theorem ne_2_0 : (2 : Dev nD) ≠ (0 : Dev nD) := by decide
theorem ne_2_1 : (2 : Dev nD) ≠ (1 : Dev nD) := by decide
theorem ne_2_3 : (2 : Dev nD) ≠ (3 : Dev nD) := by decide
theorem ne_2_4 : (2 : Dev nD) ≠ (4 : Dev nD) := by decide
theorem ne_2_5 : (2 : Dev nD) ≠ (5 : Dev nD) := by decide
theorem ne_2_6 : (2 : Dev nD) ≠ (6 : Dev nD) := by decide
theorem ne_2_7 : (2 : Dev nD) ≠ (7 : Dev nD) := by decide
theorem peers_2 : peers (2 : Dev nD) = {0, 1, 3, 4, 5, 6, 7} := by decide
theorem bigSep_peers_2 {M : Type u} [URA M] (Φ : Dev nD → sProp M) :
    bigSep (peers (2 : Dev nD)) Φ = iprop(Φ 0 ∗ Φ 1 ∗ Φ 3 ∗ Φ 4 ∗ Φ 5 ∗ Φ 6 ∗ Φ 7) :=
  bigSep_eq_bigSepL_of_eq [0, 1, 3, 4, 5, 6, 7] (by decide) (by decide) Φ
theorem owesBar_2 : owesBar (2 : Dev nD) =
    tallyAt (barCell 3) () 1 + tallyAt (barCell 4) () 1 + tallyAt (barCell 5) () 1 + tallyAt (barCell 6) () 1 + tallyAt (barCell 7) () 1 + tallyAt (barCell 0) () 1 + tallyAt (barCell 1) () 1 := by
  unfold owesBar
  rw [fwd_2_1, fwd_2_2, fwd_2_3, fwd_2_4, fwd_2_5, fwd_2_6, fwd_2_7]
theorem owesRed_2 (l : Fin 3) : owesRed (2 : Dev nD) l =
    tallyAt (rrCell 0 l 2) () N64 + tallyAt (rrCell 1 l 2) () N64 + tallyAt (rrCell 3 l 2) () N64 + tallyAt (rrCell 4 l 2) () N64 + tallyAt (rrCell 5 l 2) () N64 + tallyAt (rrCell 6 l 2) () N64 + tallyAt (rrCell 7 l 2) () N64 := by
  unfold owesRed
  rw [if_pos ne_2_0, if_pos ne_2_1, if_neg (show ¬ ((2 : Dev nD) ≠ 2) from fun h => h rfl), if_pos ne_2_3, if_pos ne_2_4, if_pos ne_2_5, if_pos ne_2_6, if_pos ne_2_7, tallyAt_zero, add_zero]
theorem owesGat_2 (l : Fin 3) : owesGat (2 : Dev nD) l =
    tallyAt (grCell 3 l 2) () N64 + tallyAt (grCell 4 l 2) () N64 + tallyAt (grCell 5 l 2) () N64 + tallyAt (grCell 6 l 2) () N64 + tallyAt (grCell 7 l 2) () N64 + tallyAt (grCell 0 l 2) () N64 + tallyAt (grCell 1 l 2) () N64 := by
  unfold owesGat
  rw [fwd_2_1, fwd_2_2, fwd_2_3, fwd_2_4, fwd_2_5, fwd_2_6, fwd_2_7]
theorem O₀_2 : O₀ (2 : Dev nD) =
    tallyAt (barCell 3) () 1 + tallyAt (barCell 4) () 1 + tallyAt (barCell 5) () 1 + tallyAt (barCell 6) () 1 + tallyAt (barCell 7) () 1 + tallyAt (barCell 0) () 1 + tallyAt (barCell 1) () 1
    + tallyAt (rrCell 0 0 2) () N64 + tallyAt (rrCell 1 0 2) () N64 + tallyAt (rrCell 3 0 2) () N64 + tallyAt (rrCell 4 0 2) () N64 + tallyAt (rrCell 5 0 2) () N64 + tallyAt (rrCell 6 0 2) () N64 + tallyAt (rrCell 7 0 2) () N64
    + tallyAt (rrCell 0 1 2) () N64 + tallyAt (rrCell 1 1 2) () N64 + tallyAt (rrCell 3 1 2) () N64 + tallyAt (rrCell 4 1 2) () N64 + tallyAt (rrCell 5 1 2) () N64 + tallyAt (rrCell 6 1 2) () N64 + tallyAt (rrCell 7 1 2) () N64
    + tallyAt (rrCell 0 2 2) () N64 + tallyAt (rrCell 1 2 2) () N64 + tallyAt (rrCell 3 2 2) () N64 + tallyAt (rrCell 4 2 2) () N64 + tallyAt (rrCell 5 2 2) () N64 + tallyAt (rrCell 6 2 2) () N64 + tallyAt (rrCell 7 2 2) () N64
    + tallyAt (grCell 3 0 2) () N64 + tallyAt (grCell 4 0 2) () N64 + tallyAt (grCell 5 0 2) () N64 + tallyAt (grCell 6 0 2) () N64 + tallyAt (grCell 7 0 2) () N64 + tallyAt (grCell 0 0 2) () N64 + tallyAt (grCell 1 0 2) () N64
    + tallyAt (grCell 3 1 2) () N64 + tallyAt (grCell 4 1 2) () N64 + tallyAt (grCell 5 1 2) () N64 + tallyAt (grCell 6 1 2) () N64 + tallyAt (grCell 7 1 2) () N64 + tallyAt (grCell 0 1 2) () N64 + tallyAt (grCell 1 1 2) () N64 := by
  unfold O₀
  rw [owesBar_2, owesRed_2, owesRed_2, owesRed_2, owesGat_2, owesGat_2]
  simp only [← add_assoc]

/-! ## Device 3 -/

theorem fwd_3_1 : fwd 1 (3 : Dev nD) = (4 : Dev nD) := by decide
theorem fwd_3_2 : fwd 2 (3 : Dev nD) = (5 : Dev nD) := by decide
theorem fwd_3_3 : fwd 3 (3 : Dev nD) = (6 : Dev nD) := by decide
theorem fwd_3_4 : fwd 4 (3 : Dev nD) = (7 : Dev nD) := by decide
theorem fwd_3_5 : fwd 5 (3 : Dev nD) = (0 : Dev nD) := by decide
theorem fwd_3_6 : fwd 6 (3 : Dev nD) = (1 : Dev nD) := by decide
theorem fwd_3_7 : fwd 7 (3 : Dev nD) = (2 : Dev nD) := by decide
theorem bwd_3_1 : bwd 1 (3 : Dev nD) = (2 : Dev nD) := by decide
theorem bwd_3_2 : bwd 2 (3 : Dev nD) = (1 : Dev nD) := by decide
theorem bwd_3_3 : bwd 3 (3 : Dev nD) = (0 : Dev nD) := by decide
theorem bwd_3_4 : bwd 4 (3 : Dev nD) = (7 : Dev nD) := by decide
theorem bwd_3_5 : bwd 5 (3 : Dev nD) = (6 : Dev nD) := by decide
theorem bwd_3_6 : bwd 6 (3 : Dev nD) = (5 : Dev nD) := by decide
theorem bwd_3_7 : bwd 7 (3 : Dev nD) = (4 : Dev nD) := by decide
theorem ne_3_0 : (3 : Dev nD) ≠ (0 : Dev nD) := by decide
theorem ne_3_1 : (3 : Dev nD) ≠ (1 : Dev nD) := by decide
theorem ne_3_2 : (3 : Dev nD) ≠ (2 : Dev nD) := by decide
theorem ne_3_4 : (3 : Dev nD) ≠ (4 : Dev nD) := by decide
theorem ne_3_5 : (3 : Dev nD) ≠ (5 : Dev nD) := by decide
theorem ne_3_6 : (3 : Dev nD) ≠ (6 : Dev nD) := by decide
theorem ne_3_7 : (3 : Dev nD) ≠ (7 : Dev nD) := by decide
theorem peers_3 : peers (3 : Dev nD) = {0, 1, 2, 4, 5, 6, 7} := by decide
theorem bigSep_peers_3 {M : Type u} [URA M] (Φ : Dev nD → sProp M) :
    bigSep (peers (3 : Dev nD)) Φ = iprop(Φ 0 ∗ Φ 1 ∗ Φ 2 ∗ Φ 4 ∗ Φ 5 ∗ Φ 6 ∗ Φ 7) :=
  bigSep_eq_bigSepL_of_eq [0, 1, 2, 4, 5, 6, 7] (by decide) (by decide) Φ
theorem owesBar_3 : owesBar (3 : Dev nD) =
    tallyAt (barCell 4) () 1 + tallyAt (barCell 5) () 1 + tallyAt (barCell 6) () 1 + tallyAt (barCell 7) () 1 + tallyAt (barCell 0) () 1 + tallyAt (barCell 1) () 1 + tallyAt (barCell 2) () 1 := by
  unfold owesBar
  rw [fwd_3_1, fwd_3_2, fwd_3_3, fwd_3_4, fwd_3_5, fwd_3_6, fwd_3_7]
theorem owesRed_3 (l : Fin 3) : owesRed (3 : Dev nD) l =
    tallyAt (rrCell 0 l 3) () N64 + tallyAt (rrCell 1 l 3) () N64 + tallyAt (rrCell 2 l 3) () N64 + tallyAt (rrCell 4 l 3) () N64 + tallyAt (rrCell 5 l 3) () N64 + tallyAt (rrCell 6 l 3) () N64 + tallyAt (rrCell 7 l 3) () N64 := by
  unfold owesRed
  rw [if_pos ne_3_0, if_pos ne_3_1, if_pos ne_3_2, if_neg (show ¬ ((3 : Dev nD) ≠ 3) from fun h => h rfl), if_pos ne_3_4, if_pos ne_3_5, if_pos ne_3_6, if_pos ne_3_7, tallyAt_zero, add_zero]
theorem owesGat_3 (l : Fin 3) : owesGat (3 : Dev nD) l =
    tallyAt (grCell 4 l 3) () N64 + tallyAt (grCell 5 l 3) () N64 + tallyAt (grCell 6 l 3) () N64 + tallyAt (grCell 7 l 3) () N64 + tallyAt (grCell 0 l 3) () N64 + tallyAt (grCell 1 l 3) () N64 + tallyAt (grCell 2 l 3) () N64 := by
  unfold owesGat
  rw [fwd_3_1, fwd_3_2, fwd_3_3, fwd_3_4, fwd_3_5, fwd_3_6, fwd_3_7]
theorem O₀_3 : O₀ (3 : Dev nD) =
    tallyAt (barCell 4) () 1 + tallyAt (barCell 5) () 1 + tallyAt (barCell 6) () 1 + tallyAt (barCell 7) () 1 + tallyAt (barCell 0) () 1 + tallyAt (barCell 1) () 1 + tallyAt (barCell 2) () 1
    + tallyAt (rrCell 0 0 3) () N64 + tallyAt (rrCell 1 0 3) () N64 + tallyAt (rrCell 2 0 3) () N64 + tallyAt (rrCell 4 0 3) () N64 + tallyAt (rrCell 5 0 3) () N64 + tallyAt (rrCell 6 0 3) () N64 + tallyAt (rrCell 7 0 3) () N64
    + tallyAt (rrCell 0 1 3) () N64 + tallyAt (rrCell 1 1 3) () N64 + tallyAt (rrCell 2 1 3) () N64 + tallyAt (rrCell 4 1 3) () N64 + tallyAt (rrCell 5 1 3) () N64 + tallyAt (rrCell 6 1 3) () N64 + tallyAt (rrCell 7 1 3) () N64
    + tallyAt (rrCell 0 2 3) () N64 + tallyAt (rrCell 1 2 3) () N64 + tallyAt (rrCell 2 2 3) () N64 + tallyAt (rrCell 4 2 3) () N64 + tallyAt (rrCell 5 2 3) () N64 + tallyAt (rrCell 6 2 3) () N64 + tallyAt (rrCell 7 2 3) () N64
    + tallyAt (grCell 4 0 3) () N64 + tallyAt (grCell 5 0 3) () N64 + tallyAt (grCell 6 0 3) () N64 + tallyAt (grCell 7 0 3) () N64 + tallyAt (grCell 0 0 3) () N64 + tallyAt (grCell 1 0 3) () N64 + tallyAt (grCell 2 0 3) () N64
    + tallyAt (grCell 4 1 3) () N64 + tallyAt (grCell 5 1 3) () N64 + tallyAt (grCell 6 1 3) () N64 + tallyAt (grCell 7 1 3) () N64 + tallyAt (grCell 0 1 3) () N64 + tallyAt (grCell 1 1 3) () N64 + tallyAt (grCell 2 1 3) () N64 := by
  unfold O₀
  rw [owesBar_3, owesRed_3, owesRed_3, owesRed_3, owesGat_3, owesGat_3]
  simp only [← add_assoc]

/-! ## Device 4 -/

theorem fwd_4_1 : fwd 1 (4 : Dev nD) = (5 : Dev nD) := by decide
theorem fwd_4_2 : fwd 2 (4 : Dev nD) = (6 : Dev nD) := by decide
theorem fwd_4_3 : fwd 3 (4 : Dev nD) = (7 : Dev nD) := by decide
theorem fwd_4_4 : fwd 4 (4 : Dev nD) = (0 : Dev nD) := by decide
theorem fwd_4_5 : fwd 5 (4 : Dev nD) = (1 : Dev nD) := by decide
theorem fwd_4_6 : fwd 6 (4 : Dev nD) = (2 : Dev nD) := by decide
theorem fwd_4_7 : fwd 7 (4 : Dev nD) = (3 : Dev nD) := by decide
theorem bwd_4_1 : bwd 1 (4 : Dev nD) = (3 : Dev nD) := by decide
theorem bwd_4_2 : bwd 2 (4 : Dev nD) = (2 : Dev nD) := by decide
theorem bwd_4_3 : bwd 3 (4 : Dev nD) = (1 : Dev nD) := by decide
theorem bwd_4_4 : bwd 4 (4 : Dev nD) = (0 : Dev nD) := by decide
theorem bwd_4_5 : bwd 5 (4 : Dev nD) = (7 : Dev nD) := by decide
theorem bwd_4_6 : bwd 6 (4 : Dev nD) = (6 : Dev nD) := by decide
theorem bwd_4_7 : bwd 7 (4 : Dev nD) = (5 : Dev nD) := by decide
theorem ne_4_0 : (4 : Dev nD) ≠ (0 : Dev nD) := by decide
theorem ne_4_1 : (4 : Dev nD) ≠ (1 : Dev nD) := by decide
theorem ne_4_2 : (4 : Dev nD) ≠ (2 : Dev nD) := by decide
theorem ne_4_3 : (4 : Dev nD) ≠ (3 : Dev nD) := by decide
theorem ne_4_5 : (4 : Dev nD) ≠ (5 : Dev nD) := by decide
theorem ne_4_6 : (4 : Dev nD) ≠ (6 : Dev nD) := by decide
theorem ne_4_7 : (4 : Dev nD) ≠ (7 : Dev nD) := by decide
theorem peers_4 : peers (4 : Dev nD) = {0, 1, 2, 3, 5, 6, 7} := by decide
theorem bigSep_peers_4 {M : Type u} [URA M] (Φ : Dev nD → sProp M) :
    bigSep (peers (4 : Dev nD)) Φ = iprop(Φ 0 ∗ Φ 1 ∗ Φ 2 ∗ Φ 3 ∗ Φ 5 ∗ Φ 6 ∗ Φ 7) :=
  bigSep_eq_bigSepL_of_eq [0, 1, 2, 3, 5, 6, 7] (by decide) (by decide) Φ
theorem owesBar_4 : owesBar (4 : Dev nD) =
    tallyAt (barCell 5) () 1 + tallyAt (barCell 6) () 1 + tallyAt (barCell 7) () 1 + tallyAt (barCell 0) () 1 + tallyAt (barCell 1) () 1 + tallyAt (barCell 2) () 1 + tallyAt (barCell 3) () 1 := by
  unfold owesBar
  rw [fwd_4_1, fwd_4_2, fwd_4_3, fwd_4_4, fwd_4_5, fwd_4_6, fwd_4_7]
theorem owesRed_4 (l : Fin 3) : owesRed (4 : Dev nD) l =
    tallyAt (rrCell 0 l 4) () N64 + tallyAt (rrCell 1 l 4) () N64 + tallyAt (rrCell 2 l 4) () N64 + tallyAt (rrCell 3 l 4) () N64 + tallyAt (rrCell 5 l 4) () N64 + tallyAt (rrCell 6 l 4) () N64 + tallyAt (rrCell 7 l 4) () N64 := by
  unfold owesRed
  rw [if_pos ne_4_0, if_pos ne_4_1, if_pos ne_4_2, if_pos ne_4_3, if_neg (show ¬ ((4 : Dev nD) ≠ 4) from fun h => h rfl), if_pos ne_4_5, if_pos ne_4_6, if_pos ne_4_7, tallyAt_zero, add_zero]
theorem owesGat_4 (l : Fin 3) : owesGat (4 : Dev nD) l =
    tallyAt (grCell 5 l 4) () N64 + tallyAt (grCell 6 l 4) () N64 + tallyAt (grCell 7 l 4) () N64 + tallyAt (grCell 0 l 4) () N64 + tallyAt (grCell 1 l 4) () N64 + tallyAt (grCell 2 l 4) () N64 + tallyAt (grCell 3 l 4) () N64 := by
  unfold owesGat
  rw [fwd_4_1, fwd_4_2, fwd_4_3, fwd_4_4, fwd_4_5, fwd_4_6, fwd_4_7]
theorem O₀_4 : O₀ (4 : Dev nD) =
    tallyAt (barCell 5) () 1 + tallyAt (barCell 6) () 1 + tallyAt (barCell 7) () 1 + tallyAt (barCell 0) () 1 + tallyAt (barCell 1) () 1 + tallyAt (barCell 2) () 1 + tallyAt (barCell 3) () 1
    + tallyAt (rrCell 0 0 4) () N64 + tallyAt (rrCell 1 0 4) () N64 + tallyAt (rrCell 2 0 4) () N64 + tallyAt (rrCell 3 0 4) () N64 + tallyAt (rrCell 5 0 4) () N64 + tallyAt (rrCell 6 0 4) () N64 + tallyAt (rrCell 7 0 4) () N64
    + tallyAt (rrCell 0 1 4) () N64 + tallyAt (rrCell 1 1 4) () N64 + tallyAt (rrCell 2 1 4) () N64 + tallyAt (rrCell 3 1 4) () N64 + tallyAt (rrCell 5 1 4) () N64 + tallyAt (rrCell 6 1 4) () N64 + tallyAt (rrCell 7 1 4) () N64
    + tallyAt (rrCell 0 2 4) () N64 + tallyAt (rrCell 1 2 4) () N64 + tallyAt (rrCell 2 2 4) () N64 + tallyAt (rrCell 3 2 4) () N64 + tallyAt (rrCell 5 2 4) () N64 + tallyAt (rrCell 6 2 4) () N64 + tallyAt (rrCell 7 2 4) () N64
    + tallyAt (grCell 5 0 4) () N64 + tallyAt (grCell 6 0 4) () N64 + tallyAt (grCell 7 0 4) () N64 + tallyAt (grCell 0 0 4) () N64 + tallyAt (grCell 1 0 4) () N64 + tallyAt (grCell 2 0 4) () N64 + tallyAt (grCell 3 0 4) () N64
    + tallyAt (grCell 5 1 4) () N64 + tallyAt (grCell 6 1 4) () N64 + tallyAt (grCell 7 1 4) () N64 + tallyAt (grCell 0 1 4) () N64 + tallyAt (grCell 1 1 4) () N64 + tallyAt (grCell 2 1 4) () N64 + tallyAt (grCell 3 1 4) () N64 := by
  unfold O₀
  rw [owesBar_4, owesRed_4, owesRed_4, owesRed_4, owesGat_4, owesGat_4]
  simp only [← add_assoc]

/-! ## Device 5 -/

theorem fwd_5_1 : fwd 1 (5 : Dev nD) = (6 : Dev nD) := by decide
theorem fwd_5_2 : fwd 2 (5 : Dev nD) = (7 : Dev nD) := by decide
theorem fwd_5_3 : fwd 3 (5 : Dev nD) = (0 : Dev nD) := by decide
theorem fwd_5_4 : fwd 4 (5 : Dev nD) = (1 : Dev nD) := by decide
theorem fwd_5_5 : fwd 5 (5 : Dev nD) = (2 : Dev nD) := by decide
theorem fwd_5_6 : fwd 6 (5 : Dev nD) = (3 : Dev nD) := by decide
theorem fwd_5_7 : fwd 7 (5 : Dev nD) = (4 : Dev nD) := by decide
theorem bwd_5_1 : bwd 1 (5 : Dev nD) = (4 : Dev nD) := by decide
theorem bwd_5_2 : bwd 2 (5 : Dev nD) = (3 : Dev nD) := by decide
theorem bwd_5_3 : bwd 3 (5 : Dev nD) = (2 : Dev nD) := by decide
theorem bwd_5_4 : bwd 4 (5 : Dev nD) = (1 : Dev nD) := by decide
theorem bwd_5_5 : bwd 5 (5 : Dev nD) = (0 : Dev nD) := by decide
theorem bwd_5_6 : bwd 6 (5 : Dev nD) = (7 : Dev nD) := by decide
theorem bwd_5_7 : bwd 7 (5 : Dev nD) = (6 : Dev nD) := by decide
theorem ne_5_0 : (5 : Dev nD) ≠ (0 : Dev nD) := by decide
theorem ne_5_1 : (5 : Dev nD) ≠ (1 : Dev nD) := by decide
theorem ne_5_2 : (5 : Dev nD) ≠ (2 : Dev nD) := by decide
theorem ne_5_3 : (5 : Dev nD) ≠ (3 : Dev nD) := by decide
theorem ne_5_4 : (5 : Dev nD) ≠ (4 : Dev nD) := by decide
theorem ne_5_6 : (5 : Dev nD) ≠ (6 : Dev nD) := by decide
theorem ne_5_7 : (5 : Dev nD) ≠ (7 : Dev nD) := by decide
theorem peers_5 : peers (5 : Dev nD) = {0, 1, 2, 3, 4, 6, 7} := by decide
theorem bigSep_peers_5 {M : Type u} [URA M] (Φ : Dev nD → sProp M) :
    bigSep (peers (5 : Dev nD)) Φ = iprop(Φ 0 ∗ Φ 1 ∗ Φ 2 ∗ Φ 3 ∗ Φ 4 ∗ Φ 6 ∗ Φ 7) :=
  bigSep_eq_bigSepL_of_eq [0, 1, 2, 3, 4, 6, 7] (by decide) (by decide) Φ
theorem owesBar_5 : owesBar (5 : Dev nD) =
    tallyAt (barCell 6) () 1 + tallyAt (barCell 7) () 1 + tallyAt (barCell 0) () 1 + tallyAt (barCell 1) () 1 + tallyAt (barCell 2) () 1 + tallyAt (barCell 3) () 1 + tallyAt (barCell 4) () 1 := by
  unfold owesBar
  rw [fwd_5_1, fwd_5_2, fwd_5_3, fwd_5_4, fwd_5_5, fwd_5_6, fwd_5_7]
theorem owesRed_5 (l : Fin 3) : owesRed (5 : Dev nD) l =
    tallyAt (rrCell 0 l 5) () N64 + tallyAt (rrCell 1 l 5) () N64 + tallyAt (rrCell 2 l 5) () N64 + tallyAt (rrCell 3 l 5) () N64 + tallyAt (rrCell 4 l 5) () N64 + tallyAt (rrCell 6 l 5) () N64 + tallyAt (rrCell 7 l 5) () N64 := by
  unfold owesRed
  rw [if_pos ne_5_0, if_pos ne_5_1, if_pos ne_5_2, if_pos ne_5_3, if_pos ne_5_4, if_neg (show ¬ ((5 : Dev nD) ≠ 5) from fun h => h rfl), if_pos ne_5_6, if_pos ne_5_7, tallyAt_zero, add_zero]
theorem owesGat_5 (l : Fin 3) : owesGat (5 : Dev nD) l =
    tallyAt (grCell 6 l 5) () N64 + tallyAt (grCell 7 l 5) () N64 + tallyAt (grCell 0 l 5) () N64 + tallyAt (grCell 1 l 5) () N64 + tallyAt (grCell 2 l 5) () N64 + tallyAt (grCell 3 l 5) () N64 + tallyAt (grCell 4 l 5) () N64 := by
  unfold owesGat
  rw [fwd_5_1, fwd_5_2, fwd_5_3, fwd_5_4, fwd_5_5, fwd_5_6, fwd_5_7]
theorem O₀_5 : O₀ (5 : Dev nD) =
    tallyAt (barCell 6) () 1 + tallyAt (barCell 7) () 1 + tallyAt (barCell 0) () 1 + tallyAt (barCell 1) () 1 + tallyAt (barCell 2) () 1 + tallyAt (barCell 3) () 1 + tallyAt (barCell 4) () 1
    + tallyAt (rrCell 0 0 5) () N64 + tallyAt (rrCell 1 0 5) () N64 + tallyAt (rrCell 2 0 5) () N64 + tallyAt (rrCell 3 0 5) () N64 + tallyAt (rrCell 4 0 5) () N64 + tallyAt (rrCell 6 0 5) () N64 + tallyAt (rrCell 7 0 5) () N64
    + tallyAt (rrCell 0 1 5) () N64 + tallyAt (rrCell 1 1 5) () N64 + tallyAt (rrCell 2 1 5) () N64 + tallyAt (rrCell 3 1 5) () N64 + tallyAt (rrCell 4 1 5) () N64 + tallyAt (rrCell 6 1 5) () N64 + tallyAt (rrCell 7 1 5) () N64
    + tallyAt (rrCell 0 2 5) () N64 + tallyAt (rrCell 1 2 5) () N64 + tallyAt (rrCell 2 2 5) () N64 + tallyAt (rrCell 3 2 5) () N64 + tallyAt (rrCell 4 2 5) () N64 + tallyAt (rrCell 6 2 5) () N64 + tallyAt (rrCell 7 2 5) () N64
    + tallyAt (grCell 6 0 5) () N64 + tallyAt (grCell 7 0 5) () N64 + tallyAt (grCell 0 0 5) () N64 + tallyAt (grCell 1 0 5) () N64 + tallyAt (grCell 2 0 5) () N64 + tallyAt (grCell 3 0 5) () N64 + tallyAt (grCell 4 0 5) () N64
    + tallyAt (grCell 6 1 5) () N64 + tallyAt (grCell 7 1 5) () N64 + tallyAt (grCell 0 1 5) () N64 + tallyAt (grCell 1 1 5) () N64 + tallyAt (grCell 2 1 5) () N64 + tallyAt (grCell 3 1 5) () N64 + tallyAt (grCell 4 1 5) () N64 := by
  unfold O₀
  rw [owesBar_5, owesRed_5, owesRed_5, owesRed_5, owesGat_5, owesGat_5]
  simp only [← add_assoc]

/-! ## Device 6 -/

theorem fwd_6_1 : fwd 1 (6 : Dev nD) = (7 : Dev nD) := by decide
theorem fwd_6_2 : fwd 2 (6 : Dev nD) = (0 : Dev nD) := by decide
theorem fwd_6_3 : fwd 3 (6 : Dev nD) = (1 : Dev nD) := by decide
theorem fwd_6_4 : fwd 4 (6 : Dev nD) = (2 : Dev nD) := by decide
theorem fwd_6_5 : fwd 5 (6 : Dev nD) = (3 : Dev nD) := by decide
theorem fwd_6_6 : fwd 6 (6 : Dev nD) = (4 : Dev nD) := by decide
theorem fwd_6_7 : fwd 7 (6 : Dev nD) = (5 : Dev nD) := by decide
theorem bwd_6_1 : bwd 1 (6 : Dev nD) = (5 : Dev nD) := by decide
theorem bwd_6_2 : bwd 2 (6 : Dev nD) = (4 : Dev nD) := by decide
theorem bwd_6_3 : bwd 3 (6 : Dev nD) = (3 : Dev nD) := by decide
theorem bwd_6_4 : bwd 4 (6 : Dev nD) = (2 : Dev nD) := by decide
theorem bwd_6_5 : bwd 5 (6 : Dev nD) = (1 : Dev nD) := by decide
theorem bwd_6_6 : bwd 6 (6 : Dev nD) = (0 : Dev nD) := by decide
theorem bwd_6_7 : bwd 7 (6 : Dev nD) = (7 : Dev nD) := by decide
theorem ne_6_0 : (6 : Dev nD) ≠ (0 : Dev nD) := by decide
theorem ne_6_1 : (6 : Dev nD) ≠ (1 : Dev nD) := by decide
theorem ne_6_2 : (6 : Dev nD) ≠ (2 : Dev nD) := by decide
theorem ne_6_3 : (6 : Dev nD) ≠ (3 : Dev nD) := by decide
theorem ne_6_4 : (6 : Dev nD) ≠ (4 : Dev nD) := by decide
theorem ne_6_5 : (6 : Dev nD) ≠ (5 : Dev nD) := by decide
theorem ne_6_7 : (6 : Dev nD) ≠ (7 : Dev nD) := by decide
theorem peers_6 : peers (6 : Dev nD) = {0, 1, 2, 3, 4, 5, 7} := by decide
theorem bigSep_peers_6 {M : Type u} [URA M] (Φ : Dev nD → sProp M) :
    bigSep (peers (6 : Dev nD)) Φ = iprop(Φ 0 ∗ Φ 1 ∗ Φ 2 ∗ Φ 3 ∗ Φ 4 ∗ Φ 5 ∗ Φ 7) :=
  bigSep_eq_bigSepL_of_eq [0, 1, 2, 3, 4, 5, 7] (by decide) (by decide) Φ
theorem owesBar_6 : owesBar (6 : Dev nD) =
    tallyAt (barCell 7) () 1 + tallyAt (barCell 0) () 1 + tallyAt (barCell 1) () 1 + tallyAt (barCell 2) () 1 + tallyAt (barCell 3) () 1 + tallyAt (barCell 4) () 1 + tallyAt (barCell 5) () 1 := by
  unfold owesBar
  rw [fwd_6_1, fwd_6_2, fwd_6_3, fwd_6_4, fwd_6_5, fwd_6_6, fwd_6_7]
theorem owesRed_6 (l : Fin 3) : owesRed (6 : Dev nD) l =
    tallyAt (rrCell 0 l 6) () N64 + tallyAt (rrCell 1 l 6) () N64 + tallyAt (rrCell 2 l 6) () N64 + tallyAt (rrCell 3 l 6) () N64 + tallyAt (rrCell 4 l 6) () N64 + tallyAt (rrCell 5 l 6) () N64 + tallyAt (rrCell 7 l 6) () N64 := by
  unfold owesRed
  rw [if_pos ne_6_0, if_pos ne_6_1, if_pos ne_6_2, if_pos ne_6_3, if_pos ne_6_4, if_pos ne_6_5, if_neg (show ¬ ((6 : Dev nD) ≠ 6) from fun h => h rfl), if_pos ne_6_7, tallyAt_zero, add_zero]
theorem owesGat_6 (l : Fin 3) : owesGat (6 : Dev nD) l =
    tallyAt (grCell 7 l 6) () N64 + tallyAt (grCell 0 l 6) () N64 + tallyAt (grCell 1 l 6) () N64 + tallyAt (grCell 2 l 6) () N64 + tallyAt (grCell 3 l 6) () N64 + tallyAt (grCell 4 l 6) () N64 + tallyAt (grCell 5 l 6) () N64 := by
  unfold owesGat
  rw [fwd_6_1, fwd_6_2, fwd_6_3, fwd_6_4, fwd_6_5, fwd_6_6, fwd_6_7]
theorem O₀_6 : O₀ (6 : Dev nD) =
    tallyAt (barCell 7) () 1 + tallyAt (barCell 0) () 1 + tallyAt (barCell 1) () 1 + tallyAt (barCell 2) () 1 + tallyAt (barCell 3) () 1 + tallyAt (barCell 4) () 1 + tallyAt (barCell 5) () 1
    + tallyAt (rrCell 0 0 6) () N64 + tallyAt (rrCell 1 0 6) () N64 + tallyAt (rrCell 2 0 6) () N64 + tallyAt (rrCell 3 0 6) () N64 + tallyAt (rrCell 4 0 6) () N64 + tallyAt (rrCell 5 0 6) () N64 + tallyAt (rrCell 7 0 6) () N64
    + tallyAt (rrCell 0 1 6) () N64 + tallyAt (rrCell 1 1 6) () N64 + tallyAt (rrCell 2 1 6) () N64 + tallyAt (rrCell 3 1 6) () N64 + tallyAt (rrCell 4 1 6) () N64 + tallyAt (rrCell 5 1 6) () N64 + tallyAt (rrCell 7 1 6) () N64
    + tallyAt (rrCell 0 2 6) () N64 + tallyAt (rrCell 1 2 6) () N64 + tallyAt (rrCell 2 2 6) () N64 + tallyAt (rrCell 3 2 6) () N64 + tallyAt (rrCell 4 2 6) () N64 + tallyAt (rrCell 5 2 6) () N64 + tallyAt (rrCell 7 2 6) () N64
    + tallyAt (grCell 7 0 6) () N64 + tallyAt (grCell 0 0 6) () N64 + tallyAt (grCell 1 0 6) () N64 + tallyAt (grCell 2 0 6) () N64 + tallyAt (grCell 3 0 6) () N64 + tallyAt (grCell 4 0 6) () N64 + tallyAt (grCell 5 0 6) () N64
    + tallyAt (grCell 7 1 6) () N64 + tallyAt (grCell 0 1 6) () N64 + tallyAt (grCell 1 1 6) () N64 + tallyAt (grCell 2 1 6) () N64 + tallyAt (grCell 3 1 6) () N64 + tallyAt (grCell 4 1 6) () N64 + tallyAt (grCell 5 1 6) () N64 := by
  unfold O₀
  rw [owesBar_6, owesRed_6, owesRed_6, owesRed_6, owesGat_6, owesGat_6]
  simp only [← add_assoc]

/-! ## Device 7 -/

theorem fwd_7_1 : fwd 1 (7 : Dev nD) = (0 : Dev nD) := by decide
theorem fwd_7_2 : fwd 2 (7 : Dev nD) = (1 : Dev nD) := by decide
theorem fwd_7_3 : fwd 3 (7 : Dev nD) = (2 : Dev nD) := by decide
theorem fwd_7_4 : fwd 4 (7 : Dev nD) = (3 : Dev nD) := by decide
theorem fwd_7_5 : fwd 5 (7 : Dev nD) = (4 : Dev nD) := by decide
theorem fwd_7_6 : fwd 6 (7 : Dev nD) = (5 : Dev nD) := by decide
theorem fwd_7_7 : fwd 7 (7 : Dev nD) = (6 : Dev nD) := by decide
theorem bwd_7_1 : bwd 1 (7 : Dev nD) = (6 : Dev nD) := by decide
theorem bwd_7_2 : bwd 2 (7 : Dev nD) = (5 : Dev nD) := by decide
theorem bwd_7_3 : bwd 3 (7 : Dev nD) = (4 : Dev nD) := by decide
theorem bwd_7_4 : bwd 4 (7 : Dev nD) = (3 : Dev nD) := by decide
theorem bwd_7_5 : bwd 5 (7 : Dev nD) = (2 : Dev nD) := by decide
theorem bwd_7_6 : bwd 6 (7 : Dev nD) = (1 : Dev nD) := by decide
theorem bwd_7_7 : bwd 7 (7 : Dev nD) = (0 : Dev nD) := by decide
theorem ne_7_0 : (7 : Dev nD) ≠ (0 : Dev nD) := by decide
theorem ne_7_1 : (7 : Dev nD) ≠ (1 : Dev nD) := by decide
theorem ne_7_2 : (7 : Dev nD) ≠ (2 : Dev nD) := by decide
theorem ne_7_3 : (7 : Dev nD) ≠ (3 : Dev nD) := by decide
theorem ne_7_4 : (7 : Dev nD) ≠ (4 : Dev nD) := by decide
theorem ne_7_5 : (7 : Dev nD) ≠ (5 : Dev nD) := by decide
theorem ne_7_6 : (7 : Dev nD) ≠ (6 : Dev nD) := by decide
theorem peers_7 : peers (7 : Dev nD) = {0, 1, 2, 3, 4, 5, 6} := by decide
theorem bigSep_peers_7 {M : Type u} [URA M] (Φ : Dev nD → sProp M) :
    bigSep (peers (7 : Dev nD)) Φ = iprop(Φ 0 ∗ Φ 1 ∗ Φ 2 ∗ Φ 3 ∗ Φ 4 ∗ Φ 5 ∗ Φ 6) :=
  bigSep_eq_bigSepL_of_eq [0, 1, 2, 3, 4, 5, 6] (by decide) (by decide) Φ
theorem owesBar_7 : owesBar (7 : Dev nD) =
    tallyAt (barCell 0) () 1 + tallyAt (barCell 1) () 1 + tallyAt (barCell 2) () 1 + tallyAt (barCell 3) () 1 + tallyAt (barCell 4) () 1 + tallyAt (barCell 5) () 1 + tallyAt (barCell 6) () 1 := by
  unfold owesBar
  rw [fwd_7_1, fwd_7_2, fwd_7_3, fwd_7_4, fwd_7_5, fwd_7_6, fwd_7_7]
theorem owesRed_7 (l : Fin 3) : owesRed (7 : Dev nD) l =
    tallyAt (rrCell 0 l 7) () N64 + tallyAt (rrCell 1 l 7) () N64 + tallyAt (rrCell 2 l 7) () N64 + tallyAt (rrCell 3 l 7) () N64 + tallyAt (rrCell 4 l 7) () N64 + tallyAt (rrCell 5 l 7) () N64 + tallyAt (rrCell 6 l 7) () N64 := by
  unfold owesRed
  rw [if_pos ne_7_0, if_pos ne_7_1, if_pos ne_7_2, if_pos ne_7_3, if_pos ne_7_4, if_pos ne_7_5, if_pos ne_7_6, if_neg (show ¬ ((7 : Dev nD) ≠ 7) from fun h => h rfl), tallyAt_zero, add_zero]
theorem owesGat_7 (l : Fin 3) : owesGat (7 : Dev nD) l =
    tallyAt (grCell 0 l 7) () N64 + tallyAt (grCell 1 l 7) () N64 + tallyAt (grCell 2 l 7) () N64 + tallyAt (grCell 3 l 7) () N64 + tallyAt (grCell 4 l 7) () N64 + tallyAt (grCell 5 l 7) () N64 + tallyAt (grCell 6 l 7) () N64 := by
  unfold owesGat
  rw [fwd_7_1, fwd_7_2, fwd_7_3, fwd_7_4, fwd_7_5, fwd_7_6, fwd_7_7]
theorem O₀_7 : O₀ (7 : Dev nD) =
    tallyAt (barCell 0) () 1 + tallyAt (barCell 1) () 1 + tallyAt (barCell 2) () 1 + tallyAt (barCell 3) () 1 + tallyAt (barCell 4) () 1 + tallyAt (barCell 5) () 1 + tallyAt (barCell 6) () 1
    + tallyAt (rrCell 0 0 7) () N64 + tallyAt (rrCell 1 0 7) () N64 + tallyAt (rrCell 2 0 7) () N64 + tallyAt (rrCell 3 0 7) () N64 + tallyAt (rrCell 4 0 7) () N64 + tallyAt (rrCell 5 0 7) () N64 + tallyAt (rrCell 6 0 7) () N64
    + tallyAt (rrCell 0 1 7) () N64 + tallyAt (rrCell 1 1 7) () N64 + tallyAt (rrCell 2 1 7) () N64 + tallyAt (rrCell 3 1 7) () N64 + tallyAt (rrCell 4 1 7) () N64 + tallyAt (rrCell 5 1 7) () N64 + tallyAt (rrCell 6 1 7) () N64
    + tallyAt (rrCell 0 2 7) () N64 + tallyAt (rrCell 1 2 7) () N64 + tallyAt (rrCell 2 2 7) () N64 + tallyAt (rrCell 3 2 7) () N64 + tallyAt (rrCell 4 2 7) () N64 + tallyAt (rrCell 5 2 7) () N64 + tallyAt (rrCell 6 2 7) () N64
    + tallyAt (grCell 0 0 7) () N64 + tallyAt (grCell 1 0 7) () N64 + tallyAt (grCell 2 0 7) () N64 + tallyAt (grCell 3 0 7) () N64 + tallyAt (grCell 4 0 7) () N64 + tallyAt (grCell 5 0 7) () N64 + tallyAt (grCell 6 0 7) () N64
    + tallyAt (grCell 0 1 7) () N64 + tallyAt (grCell 1 1 7) () N64 + tallyAt (grCell 2 1 7) () N64 + tallyAt (grCell 3 1 7) () N64 + tallyAt (grCell 4 1 7) () N64 + tallyAt (grCell 5 1 7) () N64 + tallyAt (grCell 6 1 7) () N64 := by
  unfold O₀
  rw [owesBar_7, owesRed_7, owesRed_7, owesRed_7, owesGat_7, owesGat_7]
  simp only [← add_assoc]

/-- info: 'Cert.KernelProof.O₀_0' depends on axioms: [propext, Classical.choice, Quot.sound] -/
#guard_msgs in #print axioms O₀_0

/-- info: 'Cert.KernelProof.O₀_7' depends on axioms: [propext, Classical.choice, Quot.sound] -/
#guard_msgs in #print axioms O₀_7

/-- info: 'Cert.KernelProof.bigSep_peers_3' depends on axioms: [propext, Classical.choice, Quot.sound] -/
#guard_msgs in #print axioms bigSep_peers_3

end Cert.KernelProof

end
-- ==== Proof.K.Split.lean ====
import proofs.«900993_g7700000000000994_dist_mlpseq_tp1d_rep_bs_b512_d256_h512_v7x_i8_bf16_1_alg».proof.Proof.K.Sched

/-! The geometry of the three scratch buffers. A device holds each buffer whole; the protocol lends and hands over
    64-row pieces. A buffer is the disjoint union of its 24 pieces; a 512-row layer of the partial-product or gather
    buffer is the union of its eight chunks, a 128-row group the union of two; a piece held whole is the same as the
    piece held at eight disjoint shares. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The element sets of the pieces -/

/-- The rectangle of chunk `t` of layer `l` in a 3 × 512 × 256 buffer. -/
abbrev rectP (l : Fin 3) (t : Fin 8) : Rect S3x512x256 := Rect.unit (s := S3x512x256) ![l.val, 64 * t.val, 0] S1x64x256.size (inb_p l t)
/-- The rectangle of slot `(l, s)` in the receive buffer. -/
abbrev rectR (l : Fin 3) (s : Fin 8) : Rect S3x8x64x256 := Rect.unit (s := S3x8x64x256) ![l.val, s.val, 0, 0] S1x1x64x256.size (inb_r l s)

theorem set_pChunk (l : Fin 3) (t : Fin 8) : (pChunk l t).view.set = (rectP l t).set :=
  (View.set_reshape _ _).trans (View.set_slice_whole _ _)
theorem set_gChunk (l : Fin 3) (t : Fin 8) : (gChunk l t).view.set = (rectP l t).set :=
  (View.set_reshape _ _).trans (View.set_slice_whole _ _)
theorem set_rSlot (l : Fin 3) (s : Fin 8) : (rSlot l s).view.set = (rectR l s).set :=
  (View.set_reshape _ _).trans (View.set_slice_whole _ _)

theorem mem_rectP {l : Fin 3} {t : Fin 8} {i : S3x512x256.Idx} :
    i ∈ (rectP l t).set ↔ (i 0).val = l.val ∧ 64 * t.val ≤ (i 1).val ∧ (i 1).val < 64 * t.val + 64 := by
  rw [Rect.mem_set_unit, Fin.forall_fin_succ, Fin.forall_fin_succ, Fin.forall_fin_succ]
  have h2 : (i 2).val < 256 := (i 2).isLt
  show ((l.val ≤ (i 0).val ∧ (i 0).val < l.val + 1) ∧ (64 * t.val ≤ (i 1).val ∧ (i 1).val < 64 * t.val + 64)
    ∧ (0 ≤ (i 2).val ∧ (i 2).val < 0 + 256) ∧ ∀ j : Fin 0, _) ↔ _
  refine ⟨fun ⟨h0, h1, _⟩ => ⟨by omega, h1⟩, fun ⟨h0, h1⟩ => ⟨by omega, h1, by omega, fun j => j.elim0⟩⟩

theorem mem_rectR {l : Fin 3} {s : Fin 8} {i : S3x8x64x256.Idx} :
    i ∈ (rectR l s).set ↔ (i 0).val = l.val ∧ (i 1).val = s.val := by
  rw [Rect.mem_set_unit, Fin.forall_fin_succ, Fin.forall_fin_succ, Fin.forall_fin_succ, Fin.forall_fin_succ]
  have h2 : (i 2).val < 64 := (i 2).isLt
  have h3 : (i 3).val < 256 := (i 3).isLt
  show ((l.val ≤ (i 0).val ∧ (i 0).val < l.val + 1) ∧ (s.val ≤ (i 1).val ∧ (i 1).val < s.val + 1)
    ∧ (0 ≤ (i 2).val ∧ (i 2).val < 0 + 64) ∧ (0 ≤ (i 3).val ∧ (i 3).val < 0 + 256) ∧ ∀ j : Fin 0, _) ↔ _
  refine ⟨fun ⟨h0, h1, _⟩ => ⟨by omega, by omega⟩, fun ⟨h0, h1⟩ => ⟨by omega, by omega, by omega, by omega, fun j => j.elim0⟩⟩

theorem rectP_disjoint {a b : Fin 3 × Dev nD} (h : a ≠ b) : Disjoint (rectP a.1 a.2).set (rectP b.1 b.2).set := by
  rw [Finset.disjoint_left]; intro i hi hi'
  rw [mem_rectP] at hi hi'
  exact h (Prod.ext (Fin.ext (by omega)) (Fin.ext (by omega)))

theorem rectR_disjoint {a b : Fin 3 × Dev nD} (h : a ≠ b) : Disjoint (rectR a.1 a.2).set (rectR b.1 b.2).set := by
  rw [Finset.disjoint_left]; intro i hi hi'
  rw [mem_rectR] at hi hi'
  exact h (Prod.ext (Fin.ext (by omega)) (Fin.ext (by omega)))

theorem biUnion_rectP : (Finset.univ : Finset (Fin 3 × Dev nD)).biUnion (fun a => (rectP a.1 a.2).set) = Finset.univ := by
  ext i
  simp only [Finset.mem_biUnion, Finset.mem_univ, true_and, iff_true]
  have h0 : (i 0).val < 3 := (i 0).isLt
  have h1 : (i 1).val < 512 := (i 1).isLt
  exact ⟨(⟨(i 0).val, h0⟩, ⟨(i 1).val / 64, by show (i 1).val / 64 < 8; omega⟩), mem_rectP.mpr ⟨rfl, by show 64 * ((i 1).val / 64) ≤ _; omega,
    by show _ < 64 * ((i 1).val / 64) + 64; omega⟩⟩

theorem biUnion_rectR : (Finset.univ : Finset (Fin 3 × Dev nD)).biUnion (fun a => (rectR a.1 a.2).set) = Finset.univ := by
  ext i
  simp only [Finset.mem_biUnion, Finset.mem_univ, true_and, iff_true]
  have h0 : (i 0).val < 3 := (i 0).isLt
  have h1 : (i 1).val < 8 := (i 1).isLt
  exact ⟨(⟨(i 0).val, h0⟩, ⟨(i 1).val, h1⟩), mem_rectR.mpr ⟨rfl, rfl⟩⟩

/-! ## Separating conjunctions over the layers and the devices, written out -/

section Lists
universe u
variable {M : Type u} [URA M]

theorem bigSep_fin3 (Φ : Fin 3 → sProp M) : bigSep Finset.univ Φ = iprop(Φ 0 ∗ Φ 1 ∗ Φ 2) := by
  rw [show (Finset.univ : Finset (Fin 3)) = {0, 1, 2} from by decide, bigSep_insert (by decide), bigSep_insert (by decide),
    bigSep_singleton]
  rfl

theorem bigSep_dev8 (Φ : Dev nD → sProp M) :
    bigSep Finset.univ Φ = iprop(Φ 0 ∗ Φ 1 ∗ Φ 2 ∗ Φ 3 ∗ Φ 4 ∗ Φ 5 ∗ Φ 6 ∗ Φ 7) := by
  rw [show (Finset.univ : Finset (Dev nD)) = {0, 1, 2, 3, 4, 5, 6, 7} from by decide, bigSep_insert (by decide),
    bigSep_insert (by decide), bigSep_insert (by decide), bigSep_insert (by decide), bigSep_insert (by decide),
    bigSep_insert (by decide), bigSep_insert (by decide), bigSep_singleton]
  rfl

/-- The 24 terms of a family over layers and devices, layer by layer. -/
theorem bigSep_layers_devs (Φ : Fin 3 × Dev nD → sProp M) :
    bigSep Finset.univ Φ = iprop(
      (Φ (0, 0) ∗ Φ (0, 1) ∗ Φ (0, 2) ∗ Φ (0, 3) ∗ Φ (0, 4) ∗ Φ (0, 5) ∗ Φ (0, 6) ∗ Φ (0, 7))
      ∗ (Φ (1, 0) ∗ Φ (1, 1) ∗ Φ (1, 2) ∗ Φ (1, 3) ∗ Φ (1, 4) ∗ Φ (1, 5) ∗ Φ (1, 6) ∗ Φ (1, 7))
      ∗ (Φ (2, 0) ∗ Φ (2, 1) ∗ Φ (2, 2) ∗ Φ (2, 3) ∗ Φ (2, 4) ∗ Φ (2, 5) ∗ Φ (2, 6) ∗ Φ (2, 7))) := by
  rw [bigSep_univ_prod, bigSep_fin3, bigSep_dev8, bigSep_dev8, bigSep_dev8]

/-- The devices in the order of the ring from `c` on. -/
def ringEquiv (c : Dev nD) : Fin 8 ≃ Dev nD where
  toFun j := fwd j.val c
  invFun d := ⟨(d.val + 8 - c.val) % 8, Nat.mod_lt _ (by decide)⟩
  left_inv := by revert c; decide
  right_inv := by revert c; decide

theorem fwd_zero (c : Dev nD) : fwd 0 c = c := by revert c; decide

/-- The eight terms of a family over the devices, in the order of the ring from `c` on. -/
theorem bigSep_ring (c : Dev nD) (Φ : Dev nD → sProp M) :
    bigSep Finset.univ Φ = iprop(Φ c ∗ Φ (fwd 1 c) ∗ Φ (fwd 2 c) ∗ Φ (fwd 3 c) ∗ Φ (fwd 4 c) ∗ Φ (fwd 5 c) ∗ Φ (fwd 6 c) ∗ Φ (fwd 7 c)) := by
  rw [bigSep_univ_equiv (ringEquiv c) Φ, bigSep_dev8 (fun j => Φ (ringEquiv c j))]
  show iprop(Φ (fwd 0 c) ∗ _) = _
  rw [fwd_zero]
  rfl

end Lists

/-! ## A whole buffer is its 24 pieces -/

/-- The partial-product buffer held whole is its 24 chunks held. -/
theorem whole0_eq (c : Dev nD) (q : PosShare TreeShare) (f : Buf (Elt F) ((Memref.whole cc0_scratch0).view.loc (c : Thread nD τ))) :
    ((Memref.whole cc0_scratch0).view.loc (c : Thread nD τ) ↦[(Memref.whole cc0_scratch0).view.set]{q} f : sProp 𝕄)
      = bigSep (Finset.univ : Finset (Fin 3 × Dev nD)) (fun a => piece c (pChunk a.1 a.2) q f) := by
  refine (congrArg (fun I => pointsTo ((Memref.whole cc0_scratch0).view.loc (c : Thread nD τ)) I q f)
    ((View.set_whole _).trans biUnion_rectP.symm)).trans ?_
  refine (pointsTo_biUnion _ _ (fun a _ b _ h => rectP_disjoint h)).trans ?_
  exact bigSep_congr fun a _ => congrArg (fun I => pointsTo ((Memref.whole cc0_scratch0).view.loc (c : Thread nD τ)) I q f) (set_pChunk a.1 a.2).symm

/-- The receive buffer held whole is its 24 slots held. -/
theorem whole1_eq (c : Dev nD) (q : PosShare TreeShare) (f : Buf (Elt F) ((Memref.whole cc0_scratch1).view.loc (c : Thread nD τ))) :
    ((Memref.whole cc0_scratch1).view.loc (c : Thread nD τ) ↦[(Memref.whole cc0_scratch1).view.set]{q} f : sProp 𝕄)
      = bigSep (Finset.univ : Finset (Fin 3 × Dev nD)) (fun a => piece c (rSlot a.1 a.2) q f) := by
  refine (congrArg (fun I => pointsTo ((Memref.whole cc0_scratch1).view.loc (c : Thread nD τ)) I q f)
    ((View.set_whole _).trans biUnion_rectR.symm)).trans ?_
  refine (pointsTo_biUnion _ _ (fun a _ b _ h => rectR_disjoint h)).trans ?_
  exact bigSep_congr fun a _ => congrArg (fun I => pointsTo ((Memref.whole cc0_scratch1).view.loc (c : Thread nD τ)) I q f) (set_rSlot a.1 a.2).symm

/-- The gather buffer held whole is its 24 chunks held. -/
theorem whole2_eq (c : Dev nD) (q : PosShare TreeShare) (f : Buf (Elt F) ((Memref.whole cc0_scratch2).view.loc (c : Thread nD τ))) :
    ((Memref.whole cc0_scratch2).view.loc (c : Thread nD τ) ↦[(Memref.whole cc0_scratch2).view.set]{q} f : sProp 𝕄)
      = bigSep (Finset.univ : Finset (Fin 3 × Dev nD)) (fun a => piece c (gChunk a.1 a.2) q f) := by
  refine (congrArg (fun I => pointsTo ((Memref.whole cc0_scratch2).view.loc (c : Thread nD τ)) I q f)
    ((View.set_whole _).trans biUnion_rectP.symm)).trans ?_
  refine (pointsTo_biUnion _ _ (fun a _ b _ h => rectP_disjoint h)).trans ?_
  exact bigSep_congr fun a _ => congrArg (fun I => pointsTo ((Memref.whole cc0_scratch2).view.loc (c : Thread nD τ)) I q f) (set_gChunk a.1 a.2).symm

theorem whole0_split (c : Dev nD) (q : PosShare TreeShare) (f : Buf (Elt F) ((Memref.whole cc0_scratch0).view.loc (c : Thread nD τ))) :
    ((Memref.whole cc0_scratch0).view.loc (c : Thread nD τ) ↦[(Memref.whole cc0_scratch0).view.set]{q} f : sProp 𝕄)
      ⊢ bigSep (Finset.univ : Finset (Fin 3 × Dev nD)) (fun a => piece c (pChunk a.1 a.2) q f) := Entails.of_eq (whole0_eq c q f)
theorem whole0_join (c : Dev nD) (q : PosShare TreeShare) (f : Buf (Elt F) ((Memref.whole cc0_scratch0).view.loc (c : Thread nD τ))) :
    bigSep (Finset.univ : Finset (Fin 3 × Dev nD)) (fun a => piece c (pChunk a.1 a.2) q f)
      ⊢ ((Memref.whole cc0_scratch0).view.loc (c : Thread nD τ) ↦[(Memref.whole cc0_scratch0).view.set]{q} f : sProp 𝕄) := Entails.of_eq (whole0_eq c q f).symm
theorem whole1_split (c : Dev nD) (q : PosShare TreeShare) (f : Buf (Elt F) ((Memref.whole cc0_scratch1).view.loc (c : Thread nD τ))) :
    ((Memref.whole cc0_scratch1).view.loc (c : Thread nD τ) ↦[(Memref.whole cc0_scratch1).view.set]{q} f : sProp 𝕄)
      ⊢ bigSep (Finset.univ : Finset (Fin 3 × Dev nD)) (fun a => piece c (rSlot a.1 a.2) q f) := Entails.of_eq (whole1_eq c q f)
theorem whole1_join (c : Dev nD) (q : PosShare TreeShare) (f : Buf (Elt F) ((Memref.whole cc0_scratch1).view.loc (c : Thread nD τ))) :
    bigSep (Finset.univ : Finset (Fin 3 × Dev nD)) (fun a => piece c (rSlot a.1 a.2) q f)
      ⊢ ((Memref.whole cc0_scratch1).view.loc (c : Thread nD τ) ↦[(Memref.whole cc0_scratch1).view.set]{q} f : sProp 𝕄) := Entails.of_eq (whole1_eq c q f).symm
theorem whole2_split (c : Dev nD) (q : PosShare TreeShare) (f : Buf (Elt F) ((Memref.whole cc0_scratch2).view.loc (c : Thread nD τ))) :
    ((Memref.whole cc0_scratch2).view.loc (c : Thread nD τ) ↦[(Memref.whole cc0_scratch2).view.set]{q} f : sProp 𝕄)
      ⊢ bigSep (Finset.univ : Finset (Fin 3 × Dev nD)) (fun a => piece c (gChunk a.1 a.2) q f) := Entails.of_eq (whole2_eq c q f)
theorem whole2_join (c : Dev nD) (q : PosShare TreeShare) (f : Buf (Elt F) ((Memref.whole cc0_scratch2).view.loc (c : Thread nD τ))) :
    bigSep (Finset.univ : Finset (Fin 3 × Dev nD)) (fun a => piece c (gChunk a.1 a.2) q f)
      ⊢ ((Memref.whole cc0_scratch2).view.loc (c : Thread nD τ) ↦[(Memref.whole cc0_scratch2).view.set]{q} f : sProp 𝕄) := Entails.of_eq (whole2_eq c q f).symm

/-! ## One piece: its contents and its shares -/

/-- A piece's assertion reads the contents on the piece's elements only. -/
theorem piece_congr (c : Dev nD) {sp : Space} (M : Memref sig .tc sp S64x256 .bf16) (q : PosShare TreeShare)
    {f g : Buf (Elt F) (M.view.loc (c : Thread nD τ))} (h : ∀ i ∈ M.view.set, f i = g i) :
    (piece c M q f : sProp 𝕄) = piece c M q g := pointsTo_congr h

/-- A piece at a share is the piece at the share's two halves. -/
theorem piece_halves (c : Dev nD) {sp : Space} (M : Memref sig .tc sp S64x256 .bf16) (q : PosShare TreeShare)
    (f : Buf (Elt F) (M.view.loc (c : Thread nD τ))) :
    (piece c M q f : sProp 𝕄) = iprop(piece c M q.left f ∗ piece c M q.right f) :=
  have h : (piece c M q f : sProp 𝕄) ⊣⊢ iprop(piece c M q.left f ∗ piece c M q.right f) := pointsTo_share (PosShare.mem_left_op_right q)
  equiv_iff.mp ⟨h.1, h.2⟩

/-- A piece held whole is the piece held at the eight shares. -/
theorem piece_shares (c : Dev nD) {sp : Space} (M : Memref sig .tc sp S64x256 .bf16) (f : Buf (Elt F) (M.view.loc (c : Thread nD τ))) :
    (piece c M fullShare f : sProp 𝕄) = bigSep (Finset.univ : Finset (Dev nD)) (fun t => piece c M (sh8 t) f) := by
  have assoc : ∀ P Q R : sProp 𝕄, iprop((P ∗ Q) ∗ R) = iprop(P ∗ Q ∗ R) := fun P Q R => equiv_iff.mp ⟨(Laws.sep_assoc (P := P) (Q := Q) (R := R)).1, (Laws.sep_assoc (P := P) (Q := Q) (R := R)).2⟩
  rw [bigSep_dev8]
  show _ = iprop(piece c M fullShare.left.left.left f ∗ piece c M fullShare.left.left.right f ∗ piece c M fullShare.left.right.left f
    ∗ piece c M fullShare.left.right.right f ∗ piece c M fullShare.right.left.left f ∗ piece c M fullShare.right.left.right f
    ∗ piece c M fullShare.right.right.left f ∗ piece c M fullShare.right.right.right f)
  rw [piece_halves c M fullShare, piece_halves c M fullShare.left, piece_halves c M fullShare.right,
    piece_halves c M fullShare.left.left, piece_halves c M fullShare.left.right, piece_halves c M fullShare.right.left,
    piece_halves c M fullShare.right.right]
  simp only [assoc]

theorem piece_shares_split (c : Dev nD) {sp : Space} (M : Memref sig .tc sp S64x256 .bf16) (f : Buf (Elt F) (M.view.loc (c : Thread nD τ))) :
    (piece c M fullShare f : sProp 𝕄) ⊢ bigSep (Finset.univ : Finset (Dev nD)) (fun t => piece c M (sh8 t) f) :=
  Entails.of_eq (piece_shares c M f)
theorem piece_shares_join (c : Dev nD) {sp : Space} (M : Memref sig .tc sp S64x256 .bf16) (f : Buf (Elt F) (M.view.loc (c : Thread nD τ))) :
    bigSep (Finset.univ : Finset (Dev nD)) (fun t => piece c M (sh8 t) f) ⊢ (piece c M fullShare f : sProp 𝕄) :=
  Entails.of_eq (piece_shares c M f).symm

end Cert.KernelProof

end
-- ==== Proof.K.SchedInst.lean ====
import proofs.«900993_g7700000000000994_dist_mlpseq_tp1d_rep_bs_b512_d256_h512_v7x_i8_bf16_1_alg».proof.Proof.K.SchedTables

/-! The membership facts of a duty in round 0 of its cell, at each of the seven distances `1 … 7` between a device and
    its peer: instances of the general facts, one per distance. -/

noncomputable section

namespace Cert.KernelProof

open Cert.Kernel Cert.Kernel.Gen
open Idealize.ShloMosaic Idealize.ShloMosaic.TcCoe
open Idealize.SL Idealize.SL.RA Idealize.SL.BI
open Idealize.ShloMosaic.Rounds

variable {F : FTy → Type} [FloatOps F]

variable (m : (ℓ : Loc nD τ sig) → Buf (Elt F) ℓ)

theorem mem_bar_fwd1 (c : Dev nD) : c ∈ (sched (F := F) m).duties (barCell (fwd 1 c)) 0 := mem_bar_fwd m 1 (by decide) (by decide) c
theorem mem_bar_fwd2 (c : Dev nD) : c ∈ (sched (F := F) m).duties (barCell (fwd 2 c)) 0 := mem_bar_fwd m 2 (by decide) (by decide) c
theorem mem_bar_fwd3 (c : Dev nD) : c ∈ (sched (F := F) m).duties (barCell (fwd 3 c)) 0 := mem_bar_fwd m 3 (by decide) (by decide) c
theorem mem_bar_fwd4 (c : Dev nD) : c ∈ (sched (F := F) m).duties (barCell (fwd 4 c)) 0 := mem_bar_fwd m 4 (by decide) (by decide) c
theorem mem_bar_fwd5 (c : Dev nD) : c ∈ (sched (F := F) m).duties (barCell (fwd 5 c)) 0 := mem_bar_fwd m 5 (by decide) (by decide) c
theorem mem_bar_fwd6 (c : Dev nD) : c ∈ (sched (F := F) m).duties (barCell (fwd 6 c)) 0 := mem_bar_fwd m 6 (by decide) (by decide) c
theorem mem_bar_fwd7 (c : Dev nD) : c ∈ (sched (F := F) m).duties (barCell (fwd 7 c)) 0 := mem_bar_fwd m 7 (by decide) (by decide) c
theorem mem_gs_fwd1 (c : Dev nD) (l : Fin 3) (hl : l.val < 2) : fwd 1 c ∈ (sched (F := F) m).duties (gsCell c l) 0 := mem_gs_fwd m 1 (by decide) (by decide) c l hl
theorem mem_gs_fwd2 (c : Dev nD) (l : Fin 3) (hl : l.val < 2) : fwd 2 c ∈ (sched (F := F) m).duties (gsCell c l) 0 := mem_gs_fwd m 2 (by decide) (by decide) c l hl
theorem mem_gs_fwd3 (c : Dev nD) (l : Fin 3) (hl : l.val < 2) : fwd 3 c ∈ (sched (F := F) m).duties (gsCell c l) 0 := mem_gs_fwd m 3 (by decide) (by decide) c l hl
theorem mem_gs_fwd4 (c : Dev nD) (l : Fin 3) (hl : l.val < 2) : fwd 4 c ∈ (sched (F := F) m).duties (gsCell c l) 0 := mem_gs_fwd m 4 (by decide) (by decide) c l hl
theorem mem_gs_fwd5 (c : Dev nD) (l : Fin 3) (hl : l.val < 2) : fwd 5 c ∈ (sched (F := F) m).duties (gsCell c l) 0 := mem_gs_fwd m 5 (by decide) (by decide) c l hl
theorem mem_gs_fwd6 (c : Dev nD) (l : Fin 3) (hl : l.val < 2) : fwd 6 c ∈ (sched (F := F) m).duties (gsCell c l) 0 := mem_gs_fwd m 6 (by decide) (by decide) c l hl
theorem mem_gs_fwd7 (c : Dev nD) (l : Fin 3) (hl : l.val < 2) : fwd 7 c ∈ (sched (F := F) m).duties (gsCell c l) 0 := mem_gs_fwd m 7 (by decide) (by decide) c l hl
theorem mem_gr_fwd1 (c : Dev nD) (l : Fin 3) (hl : l.val < 2) : c ∈ (sched (F := F) m).duties (grCell (fwd 1 c) l c) 0 := mem_gr_fwd m 1 (by decide) (by decide) c l hl
theorem mem_gr_fwd2 (c : Dev nD) (l : Fin 3) (hl : l.val < 2) : c ∈ (sched (F := F) m).duties (grCell (fwd 2 c) l c) 0 := mem_gr_fwd m 2 (by decide) (by decide) c l hl
theorem mem_gr_fwd3 (c : Dev nD) (l : Fin 3) (hl : l.val < 2) : c ∈ (sched (F := F) m).duties (grCell (fwd 3 c) l c) 0 := mem_gr_fwd m 3 (by decide) (by decide) c l hl
theorem mem_gr_fwd4 (c : Dev nD) (l : Fin 3) (hl : l.val < 2) : c ∈ (sched (F := F) m).duties (grCell (fwd 4 c) l c) 0 := mem_gr_fwd m 4 (by decide) (by decide) c l hl
theorem mem_gr_fwd5 (c : Dev nD) (l : Fin 3) (hl : l.val < 2) : c ∈ (sched (F := F) m).duties (grCell (fwd 5 c) l c) 0 := mem_gr_fwd m 5 (by decide) (by decide) c l hl
theorem mem_gr_fwd6 (c : Dev nD) (l : Fin 3) (hl : l.val < 2) : c ∈ (sched (F := F) m).duties (grCell (fwd 6 c) l c) 0 := mem_gr_fwd m 6 (by decide) (by decide) c l hl
theorem mem_gr_fwd7 (c : Dev nD) (l : Fin 3) (hl : l.val < 2) : c ∈ (sched (F := F) m).duties (grCell (fwd 7 c) l c) 0 := mem_gr_fwd m 7 (by decide) (by decide) c l hl
theorem mem_rr_bwd1 (c : Dev nD) (l : Fin 3) : bwd 1 c ∈ (sched (F := F) m).duties (rrCell c l (bwd 1 c)) 0 := mem_rr_bwd m 1 (by decide) (by decide) c l
theorem mem_rr_bwd2 (c : Dev nD) (l : Fin 3) : bwd 2 c ∈ (sched (F := F) m).duties (rrCell c l (bwd 2 c)) 0 := mem_rr_bwd m 2 (by decide) (by decide) c l
theorem mem_rr_bwd3 (c : Dev nD) (l : Fin 3) : bwd 3 c ∈ (sched (F := F) m).duties (rrCell c l (bwd 3 c)) 0 := mem_rr_bwd m 3 (by decide) (by decide) c l
theorem mem_rr_bwd4 (c : Dev nD) (l : Fin 3) : bwd 4 c ∈ (sched (F := F) m).duties (rrCell c l (bwd 4 c)) 0 := mem_rr_bwd m 4 (by decide) (by decide) c l
theorem mem_rr_bwd5 (c : Dev nD) (l : Fin 3) : bwd 5 c ∈ (sched (F := F) m).duties (rrCell c l (bwd 5 c)) 0 := mem_rr_bwd m 5 (by decide) (by decide) c l
theorem mem_rr_bwd6 (c : Dev nD) (l : Fin 3) : bwd 6 c ∈ (sched (F := F) m).duties (rrCell c l (bwd 6 c)) 0 := mem_rr_bwd m 6 (by decide) (by decide) c l
theorem mem_rr_bwd7 (c : Dev nD) (l : Fin 3) : bwd 7 c ∈ (sched (F := F) m).duties (rrCell c l (bwd 7 c)) 0 := mem_rr_bwd m 7 (by decide) (by decide) c l

end Cert.KernelProof

end
-- ==== Proof.K.Prelude.lean ====
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.LitTable
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.SchedInst

/-! The start of a device's body: what it was dealt at launch, taken apart into the single facts and resources the
    protocol's steps use — the invariant and the round-0 fact of every cell the device touches, its duty tokens, its
    positions, its credit, the pieces of its buffers it hands its peers with its entry signals, and what it owes. The
    peers appear in two enumerations: along the ring (after or before the device), and as the seven literal devices
    other than it; the second is a parameter here, and is fixed device by device. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

universe u

variable {F : FTy → Type} [FloatOps F]
local notation "𝕄" => MT nD τ sig Unit (Elt F) ℕ UU ℕ
variable (m : (ℓ : Loc nD τ sig) → Buf (Elt F) ℓ)

/-! ## Enumerations of the peers -/

/-- Seven terms along the ring after `c`. -/
abbrev alongF {M : Type u} [URA M] (c : Dev nD) (Φ : Dev nD → sProp M) : sProp M :=
  iprop(Φ (fwd 1 c) ∗ Φ (fwd 2 c) ∗ Φ (fwd 3 c) ∗ Φ (fwd 4 c) ∗ Φ (fwd 5 c) ∗ Φ (fwd 6 c) ∗ Φ (fwd 7 c))
/-- Seven terms along the ring before `c`. -/
abbrev alongB {M : Type u} [URA M] (c : Dev nD) (Φ : Dev nD → sProp M) : sProp M :=
  iprop(Φ (bwd 1 c) ∗ Φ (bwd 2 c) ∗ Φ (bwd 3 c) ∗ Φ (bwd 4 c) ∗ Φ (bwd 5 c) ∗ Φ (bwd 6 c) ∗ Φ (bwd 7 c))

theorem alongF_eq {M : Type u} [URA M] (c : Dev nD) (Φ : Dev nD → sProp M) : bigSep (peers c) Φ = alongF c Φ := bigSep_peers_fwd c Φ
theorem alongB_eq {M : Type u} [URA M] (c : Dev nD) (Φ : Dev nD → sProp M) : bigSep (peers c) Φ = alongB c Φ := bigSep_peers_bwd c Φ

/-- A persistent assertion that yields two assertions yields both. -/
theorem pers_sep {M : Type u} [URA M] {R A B : sProp M} [Persistent R] (hA : R ⊢ A) (hB : R ⊢ B) : R ⊢ iprop(A ∗ B) := by
  iintro #H
  isplitl []
  · iapply hA; iexact H
  · iapply hB; iexact H

/-- A persistent assertion that yields every term of a family over the peers yields the family. -/
theorem pers_peers {M : Type u} [URA M] {R : sProp M} [Persistent R] (c : Dev nD) {Φ : Dev nD → sProp M} (h : ∀ p, R ⊢ Φ p) :
    R ⊢ bigSep (peers c) Φ := bigSep_intro_persistent fun p _ => h p

/-! ## The cells a device touches -/

section Cells
variable {M : Type u} [URA M]

/-- One assertion per cell the device `c` touches, `G` of the cell: its barrier cell and its peers'; per layer its
    reduce-send cell, its reduce-receive cells (by the sender before it on the ring) and the peers' reduce-receive cells it
    sends to (by literal target); for the two gathering layers its gather-send cell, its gather-receive cells (by
    literal sender) and the peers' gather-receive cells it sends to (along the ring). `X` enumerates the literal peers. -/
abbrev cellsFam (c : Dev nD) (X : (Dev nD → sProp M) → sProp M) (G : GSem nD τ sig → sProp M) : sProp M :=
  iprop(G (barCell c) ∗ alongF c (fun p => G (barCell p))
    ∗ (G (rsCell c 0) ∗ alongB c (fun s => G (rrCell c 0 s)) ∗ X (fun t => G (rrCell t 0 c)))
    ∗ (G (rsCell c 1) ∗ alongB c (fun s => G (rrCell c 1 s)) ∗ X (fun t => G (rrCell t 1 c)))
    ∗ (G (rsCell c 2) ∗ alongB c (fun s => G (rrCell c 2 s)) ∗ X (fun t => G (rrCell t 2 c)))
    ∗ (G (gsCell c 0) ∗ X (fun s => G (grCell c 0 s)) ∗ alongF c (fun p => G (grCell p 0 c)))
    ∗ (G (gsCell c 1) ∗ X (fun s => G (grCell c 1 s)) ∗ alongF c (fun p => G (grCell p 1 c))))

/-- A persistent assertion that yields `G` of every cell yields the family. -/
theorem cellsFam_intro {R : sProp M} [Persistent R] (c : Dev nD) (X : (Dev nD → sProp M) → sProp M)
    (hX : ∀ Φ, bigSep (peers c) Φ = X Φ) (G : GSem nD τ sig → sProp M) (h : ∀ (d : Dev nD) (k : CK), R ⊢ G (kcell d k)) :
    R ⊢ cellsFam c X G := by
  have hF : ∀ Φ : Dev nD → sProp M, (∀ p, R ⊢ Φ p) → R ⊢ alongF c Φ := fun Φ hΦ => alongF_eq c Φ ▸ pers_peers c hΦ
  have hB : ∀ Φ : Dev nD → sProp M, (∀ p, R ⊢ Φ p) → R ⊢ alongB c Φ := fun Φ hΦ => alongB_eq c Φ ▸ pers_peers c hΦ
  have hL : ∀ Φ : Dev nD → sProp M, (∀ p, R ⊢ Φ p) → R ⊢ X Φ := fun Φ hΦ => hX Φ ▸ pers_peers c hΦ
  refine pers_sep (h c .bar) (pers_sep (hF _ fun p => h p .bar) (pers_sep ?_ (pers_sep ?_ (pers_sep ?_ (pers_sep ?_ ?_)))))
  · exact pers_sep (h c (.rs 0)) (pers_sep (hB _ fun s => h c (.rr 0 s)) (hL _ fun t => h t (.rr 0 c)))
  · exact pers_sep (h c (.rs 1)) (pers_sep (hB _ fun s => h c (.rr 1 s)) (hL _ fun t => h t (.rr 1 c)))
  · exact pers_sep (h c (.rs 2)) (pers_sep (hB _ fun s => h c (.rr 2 s)) (hL _ fun t => h t (.rr 2 c)))
  · exact pers_sep (h c (.gs 0)) (pers_sep (hL _ fun s => h c (.gr 0 s)) (hF _ fun p => h p (.gr 0 c)))
  · exact pers_sep (h c (.gs 1)) (pers_sep (hL _ fun s => h c (.gr 1 s)) (hF _ fun p => h p (.gr 1 c)))

end Cells

/-- The invariants of the cells device `c` touches. -/
theorem invs_intro (K : GSem nD τ sig → ℕ) (c : Dev nD) (X : (Dev nD → sProp 𝕄) → sProp 𝕄) (hX : ∀ Φ, bigSep (peers c) Φ = X Φ) :
    invsAll m K ⊢ cellsFam c X (fun g => cellInv ER (sched m) (K g) g) :=
  cellsFam_intro c X hX _ fun d k => allAt (fun p : Dev nD × CK => cellInv ER (sched m) (K (kcell p.1 p.2)) (kcell p.1 p.2)) d k

/-- That they are at round 0. -/
theorem reached_intro (c : Dev nD) (X : (Dev nD → sProp 𝕄) → sProp 𝕄) (hX : ∀ Φ, bigSep (peers c) Φ = X Φ) :
    (reachedAll (F := F)) ⊢ cellsFam c X (fun g => (reached ER g 0 : sProp 𝕄)) :=
  cellsFam_intro c X hX _ fun d k => allAt (fun p : Dev nD × CK => (reached ER (kcell p.1 p.2) 0 : sProp 𝕄)) d k

/-! ## The duty tokens -/

/-- The tokens device `c` pays with, in the order it pays them: its entry signals; per layer the departures and the
    arrivals of its reduce copies (by literal target); per gathering layer the departures and the arrivals of its gather
    copies (along the ring). -/
abbrev toksFam (c : Dev nD) (X : (Dev nD → sProp 𝕄) → sProp 𝕄) : sProp 𝕄 :=
  iprop(alongF c (fun p => dutyTok ER (barCell p) 0 c)
    ∗ (X (fun t => dutyTok ER (rsCell c 0) 0 t) ∗ X (fun t => dutyTok ER (rrCell t 0 c) 0 c))
    ∗ (X (fun t => dutyTok ER (rsCell c 1) 0 t) ∗ X (fun t => dutyTok ER (rrCell t 1 c) 0 c))
    ∗ (X (fun t => dutyTok ER (rsCell c 2) 0 t) ∗ X (fun t => dutyTok ER (rrCell t 2 c) 0 c))
    ∗ (alongF c (fun p => dutyTok ER (gsCell c 0) 0 p) ∗ alongF c (fun p => dutyTok ER (grCell p 0 c) 0 c))
    ∗ (alongF c (fun p => dutyTok ER (gsCell c 1) 0 p) ∗ alongF c (fun p => dutyTok ER (grCell p 1 c) 0 c)))

theorem toks_intro (c : Dev nD) (X : (Dev nD → sProp 𝕄) → sProp 𝕄) (hX : ∀ Φ, bigSep (peers c) Φ = X Φ) :
    (payToks (F := F) c) ⊢ toksFam c X := by
  unfold payToks toksTo toksOut
  simp only [bigSep_sep']
  iintro ⟨⟨B, R0, R1, R2, G0, G1⟩, S0, S1, S2, GS0, GS1⟩
  ihave B := (Entails.of_eq (alongF_eq c _)) $$ B
  ihave R0 := (Entails.of_eq (hX _)) $$ R0
  ihave R1 := (Entails.of_eq (hX _)) $$ R1
  ihave R2 := (Entails.of_eq (hX _)) $$ R2
  ihave G0 := (Entails.of_eq (alongF_eq c _)) $$ G0
  ihave G1 := (Entails.of_eq (alongF_eq c _)) $$ G1
  ihave S0 := (Entails.of_eq (hX _)) $$ S0
  ihave S1 := (Entails.of_eq (hX _)) $$ S1
  ihave S2 := (Entails.of_eq (hX _)) $$ S2
  ihave GS0 := (Entails.of_eq (alongF_eq c _)) $$ GS0
  ihave GS1 := (Entails.of_eq (alongF_eq c _)) $$ GS1
  unfold toksFam
  iframe

/-! ## The kinds of cell of one device, grouped as the protocol uses them -/

section Kinds
variable {M : Type u} [URA M]

theorem sep_assoc_eq (P Q R : sProp M) : iprop((P ∗ Q) ∗ R) = iprop(P ∗ Q ∗ R) :=
  equiv_iff.mp ⟨(Laws.sep_assoc (P := P) (Q := Q) (R := R)).1, (Laws.sep_assoc (P := P) (Q := Q) (R := R)).2⟩

theorem eq_of_entails {P Q : sProp M} (h1 : P ⊢ Q) (h2 : Q ⊢ P) : P = Q := equiv_iff.mp ⟨h1, h2⟩

/-- Eight terms over the devices: the one of `c`, and those of its peers in the enumeration `Y`. -/
theorem dev8_at (c : Dev nD) (Y : (Dev nD → sProp M) → sProp M) (hY : ∀ Φ, bigSep (peers c) Φ = Y Φ) (Φ : Dev nD → sProp M) :
    iprop(Φ 0 ∗ Φ 1 ∗ Φ 2 ∗ Φ 3 ∗ Φ 4 ∗ Φ 5 ∗ Φ 6 ∗ Φ 7) = iprop(Φ c ∗ Y Φ) := by
  rw [← bigSep_dev8, bigSep_univ_at Φ c, ← hY]; rfl

/-- The kinds of the cells of `c` that have duties, other than the barrier: per layer the reduce-send cell and the
    reduce-receive cells of the senders before `c` on the ring; per gathering layer the gather-send cell and the
    gather-receive cells of the literal senders. -/
abbrev kindsUsed (c : Dev nD) (X : (Dev nD → sProp M) → sProp M) (Φ : CK → sProp M) : sProp M :=
  iprop((Φ (.rs 0) ∗ alongB c (fun s => Φ (.rr 0 s))) ∗ (Φ (.rs 1) ∗ alongB c (fun s => Φ (.rr 1 s)))
    ∗ (Φ (.rs 2) ∗ alongB c (fun s => Φ (.rr 2 s)))
    ∗ (Φ (.gs 0) ∗ X (fun s => Φ (.gr 0 s))) ∗ (Φ (.gs 1) ∗ X (fun s => Φ (.gr 1 s))))
/-- The kinds of the cells of `c` without duties: receiving from itself, and the gather cells of the last layer. -/
abbrev kindsUnused (c : Dev nD) (Φ : CK → sProp M) : sProp M :=
  iprop(Φ (.rr 0 c) ∗ Φ (.rr 1 c) ∗ Φ (.rr 2 c) ∗ Φ (.gs 2) ∗ Φ (.gr 0 c) ∗ Φ (.gr 1 c)
    ∗ bigSep (Finset.univ : Finset (Dev nD)) (fun s => Φ (.gr 2 s)))

theorem kinds_rest_split (c : Dev nD) (X : (Dev nD → sProp M) → sProp M) (hX : ∀ Φ, bigSep (peers c) Φ = X Φ) (Φ : CK → sProp M) :
    bigSep ((Finset.univ : Finset CK).erase .bar) Φ = iprop(kindsUsed c X Φ ∗ kindsUnused c Φ) := by
  have mid : bigSep ((Finset.univ : Finset CK).erase .bar) Φ = iprop((Φ (.rs 0) ∗ Φ (.rs 1) ∗ Φ (.rs 2))
      ∗ (Φ (.rr 0 c) ∗ alongB c (fun s => Φ (.rr 0 s))) ∗ (Φ (.rr 1 c) ∗ alongB c (fun s => Φ (.rr 1 s)))
      ∗ (Φ (.rr 2 c) ∗ alongB c (fun s => Φ (.rr 2 s)))
      ∗ (Φ (.gs 0) ∗ Φ (.gs 1) ∗ Φ (.gs 2))
      ∗ (Φ (.gr 0 c) ∗ X (fun s => Φ (.gr 0 s))) ∗ (Φ (.gr 1 c) ∗ X (fun s => Φ (.gr 1 s)))
      ∗ bigSep (Finset.univ : Finset (Dev nD)) (fun s => Φ (.gr 2 s))) := by
    rw [← dev8_at c (alongB c) (alongB_eq c) (fun s => Φ (.rr 0 s)), ← dev8_at c (alongB c) (alongB_eq c) (fun s => Φ (.rr 1 s)),
      ← dev8_at c (alongB c) (alongB_eq c) (fun s => Φ (.rr 2 s)), ← dev8_at c X hX (fun s => Φ (.gr 0 s)),
      ← dev8_at c X hX (fun s => Φ (.gr 1 s)), bigSep_dev8 (fun s => Φ (.gr 2 s)), bigSep_CK_rest]
    simp only [sep_assoc_eq]
  rw [mid]
  unfold kindsUsed kindsUnused
  refine eq_of_entails ?_ ?_
  · iintro ⟨⟨s0, s1, s2⟩, ⟨r0c, r0⟩, ⟨r1c, r1⟩, ⟨r2c, r2⟩, ⟨g0, g1, g2⟩, ⟨q0c, q0⟩, ⟨q1c, q1⟩, q2⟩
    iframe
  · iintro ⟨⟨⟨s0, r0⟩, ⟨s1, r1⟩, ⟨s2, r2⟩, ⟨g0, q0⟩, ⟨g1, q1⟩⟩, r0c, r1c, r2c, g2, q0c, q1c, q2⟩
    iframe

theorem kinds_split (c : Dev nD) (X : (Dev nD → sProp M) → sProp M) (hX : ∀ Φ, bigSep (peers c) Φ = X Φ) (Φ : CK → sProp M) :
    bigSep (Finset.univ : Finset CK) Φ = iprop(Φ .bar ∗ kindsUsed c X Φ ∗ kindsUnused c Φ) := by
  rw [bigSep_univ_at Φ .bar, kinds_rest_split c X hX Φ]

end Kinds

/-! ## Positions and credit -/

/-- The device's positions at the cells that have duties, in program order. -/
abbrev posFam (c : Dev nD) (X : (Dev nD → sProp 𝕄) → sProp 𝕄) : sProp 𝕄 :=
  iprop(atPos ER (barCell c) 0 ∅ 0
    ∗ (atPos ER (rsCell c 0) 0 ∅ 0 ∗ alongB c (fun s => (atPos ER (rrCell c 0 s) 0 ∅ 0 : sProp 𝕄)))
    ∗ (atPos ER (rsCell c 1) 0 ∅ 0 ∗ alongB c (fun s => (atPos ER (rrCell c 1 s) 0 ∅ 0 : sProp 𝕄)))
    ∗ (atPos ER (rsCell c 2) 0 ∅ 0 ∗ alongB c (fun s => (atPos ER (rrCell c 2 s) 0 ∅ 0 : sProp 𝕄)))
    ∗ (atPos ER (gsCell c 0) 0 ∅ 0 ∗ X (fun s => (atPos ER (grCell c 0 s) 0 ∅ 0 : sProp 𝕄)))
    ∗ (atPos ER (gsCell c 1) 0 ∅ 0 ∗ X (fun s => (atPos ER (grCell c 1 s) 0 ∅ 0 : sProp 𝕄))))
/-- Its positions at its cells without duties. -/
abbrev posRest (c : Dev nD) : sProp 𝕄 := kindsUnused c (fun k => (atPos ER (kcell c k) 0 ∅ 0 : sProp 𝕄))

theorem pos_intro (c : Dev nD) (X : (Dev nD → sProp 𝕄) → sProp 𝕄) (hX : ∀ Φ, bigSep (peers c) Φ = X Φ) :
    (posAll (F := F) c) ⊢ iprop(posFam c X ∗ posRest c) := by
  unfold posAll
  rw [kinds_split c X hX, ← sep_assoc_eq]
  exact .rfl

/-- The device's credit, in program order: the seven entry signals it will hear; per layer the arrivals from the senders
    before it on the ring; per gathering layer the arrivals from the literal senders. -/
abbrev credsFam (c : Dev nD) (X : (Dev nD → sProp 𝕄) → sProp 𝕄) : sProp 𝕄 :=
  iprop(cred (tallyAt (barCell c) () 7)
    ∗ alongB c (fun s => (cred (tallyAt (rrCell c 0 s) () N64) : sProp 𝕄))
    ∗ alongB c (fun s => (cred (tallyAt (rrCell c 1 s) () N64) : sProp 𝕄))
    ∗ alongB c (fun s => (cred (tallyAt (rrCell c 2 s) () N64) : sProp 𝕄))
    ∗ X (fun s => (cred (tallyAt (grCell c 0 s) () N64) : sProp 𝕄))
    ∗ X (fun s => (cred (tallyAt (grCell c 1 s) () N64) : sProp 𝕄)))

theorem creds_intro (c : Dev nD) (X : (Dev nD → sProp 𝕄) → sProp 𝕄) (hX : ∀ Φ, bigSep (peers c) Φ = X Φ) :
    (credsOf (F := F) c) ⊢ credsFam c X := by
  unfold credsOf credFrom
  simp only [bigSep_sep']
  iintro ⟨B, R0, R1, R2, G0, G1⟩
  ihave R0 := (Entails.of_eq (alongB_eq c _)) $$ R0
  ihave R1 := (Entails.of_eq (alongB_eq c _)) $$ R1
  ihave R2 := (Entails.of_eq (alongB_eq c _)) $$ R2
  ihave G0 := (Entails.of_eq (hX _)) $$ G0
  ihave G1 := (Entails.of_eq (hX _)) $$ G1
  unfold credsFam
  iframe

/-! ## The buffers at entry -/

section Layers
variable {M : Type u} [URA M]

/-- A family over layers and devices, layer by layer: the term of `c` and those of its peers. -/
theorem layers_split (c : Dev nD) (Ψ : Fin 3 × Dev nD → sProp M) :
    bigSep Finset.univ Ψ = iprop((Ψ (0, c) ∗ bigSep (peers c) (fun p => Ψ (0, p))) ∗ (Ψ (1, c) ∗ bigSep (peers c) (fun p => Ψ (1, p)))
      ∗ (Ψ (2, c) ∗ bigSep (peers c) (fun p => Ψ (2, p)))) := by
  rw [bigSep_univ_prod, bigSep_fin3, bigSep_univ_at (fun b => Ψ (0, b)) c, bigSep_univ_at (fun b => Ψ (1, b)) c,
    bigSep_univ_at (fun b => Ψ (2, b)) c]
  rfl

/-- The same with the last layer kept together. -/
theorem layers_split' (c : Dev nD) (Ψ : Fin 3 × Dev nD → sProp M) :
    bigSep Finset.univ Ψ = iprop((Ψ (0, c) ∗ bigSep (peers c) (fun p => Ψ (0, p))) ∗ (Ψ (1, c) ∗ bigSep (peers c) (fun p => Ψ (1, p)))
      ∗ bigSep (Finset.univ : Finset (Dev nD)) (fun t => Ψ (2, t))) := by
  rw [bigSep_univ_prod, bigSep_fin3, bigSep_univ_at (fun b => Ψ (0, b)) c, bigSep_univ_at (fun b => Ψ (1, b)) c]
  rfl

end Layers

/-- What the entry signal to `p` hands over, from its ten parts. -/
theorem barPay_intro (c p : Dev nD) :
    iprop((∃ f, piece c (rSlot 0 p) fullShare f) ∗ (∃ f, piece c (rSlot 1 p) fullShare f) ∗ (∃ f, piece c (rSlot 2 p) fullShare f)
      ∗ (∃ f, piece c (gChunk 0 p) fullShare f) ∗ (∃ f, piece c (gChunk 1 p) fullShare f)
      ∗ reached ER (rrCell c 0 p) 0 ∗ reached ER (rrCell c 1 p) 0 ∗ reached ER (rrCell c 2 p) 0
      ∗ reached ER (grCell c 0 p) 0 ∗ reached ER (grCell c 1 p) 0) ⊢ (barPay p c : sProp 𝕄) := by
  unfold barPay; exact .rfl

/-- The receive buffer held whole at some contents, cut into its slots (at those contents), layer by layer. -/
theorem scr1_cut (c : Dev nD) : (scr c cc0_scratch1 : sProp 𝕄)
    ⊢ iprop(∃ f : Buf (Elt F) ((c : Thread nD τ).loc cc0_scratch1),
      (piece c (rSlot 0 c) fullShare f ∗ bigSep (peers c) (fun p => piece c (rSlot 0 p) fullShare f))
      ∗ (piece c (rSlot 1 c) fullShare f ∗ bigSep (peers c) (fun p => piece c (rSlot 1 p) fullShare f))
      ∗ (piece c (rSlot 2 c) fullShare f ∗ bigSep (peers c) (fun p => piece c (rSlot 2 p) fullShare f))) := by
  unfold scr
  iintro ⟨%f, H⟩
  iexists f
  iapply (Entails.of_eq (layers_split c (fun a => piece c (rSlot a.1 a.2) fullShare f)))
  iapply (whole1_split c fullShare f)
  iapply (Entails.of_eq (congrArg (fun I => pointsTo ((c : Thread nD τ).loc cc0_scratch1) I fullShare f) (View.set_whole cc0_scratch1).symm))
  iexact H

/-- The gather buffer held whole at some contents, cut into its chunks (at those contents), the last layer together. -/
theorem scr2_cut (c : Dev nD) : (scr c cc0_scratch2 : sProp 𝕄)
    ⊢ iprop(∃ f : Buf (Elt F) ((c : Thread nD τ).loc cc0_scratch2),
      (piece c (gChunk 0 c) fullShare f ∗ bigSep (peers c) (fun p => piece c (gChunk 0 p) fullShare f))
      ∗ (piece c (gChunk 1 c) fullShare f ∗ bigSep (peers c) (fun p => piece c (gChunk 1 p) fullShare f))
      ∗ bigSep (Finset.univ : Finset (Dev nD)) (fun t => piece c (gChunk 2 t) fullShare f)) := by
  unfold scr
  iintro ⟨%f, H⟩
  iexists f
  iapply (Entails.of_eq (layers_split' c (fun a => piece c (gChunk a.1 a.2) fullShare f)))
  iapply (whole2_split c fullShare f)
  iapply (Entails.of_eq (congrArg (fun I => pointsTo ((c : Thread nD τ).loc cc0_scratch2) I fullShare f) (View.set_whole cc0_scratch2).symm))
  iexact H

/-- The device's own slots of the receive buffer: nobody writes them. -/
abbrev slotsOwn (c : Dev nD) : sProp 𝕄 :=
  iprop(∃ f : Buf (Elt F) ((c : Thread nD τ).loc cc0_scratch1), piece c (rSlot 0 c) fullShare f ∗ piece c (rSlot 1 c) fullShare f ∗ piece c (rSlot 2 c) fullShare f)
/-- What the device keeps of the gather buffer at entry: its own chunks of the gathering layers, and the last layer. -/
abbrev gathOwn (c : Dev nD) : sProp 𝕄 :=
  iprop(∃ f : Buf (Elt F) ((c : Thread nD τ).loc cc0_scratch2), piece c (gChunk 0 c) fullShare f ∗ piece c (gChunk 1 c) fullShare f
    ∗ bigSep (Finset.univ : Finset (Dev nD)) (fun t => piece c (gChunk 2 t) fullShare f))

/-- The pieces the entry signals hand over, with the round-0 facts of the cells their copies land on. -/
theorem piece_ex (c : Dev nD) {sp : Space} (M : Memref sig .tc sp S64x256 .bf16) (q : PosShare TreeShare) (f : Buf (Elt F) (M.view.loc (c : Thread nD τ))) :
    (piece c M q f : sProp 𝕄) ⊢ iprop(∃ f, piece c M q f) := by
  iintro H; iexists f; iexact H

theorem reached_at (d : Dev nD) (k : CK) : (reachedAll (F := F)) ⊢ (reached ER (kcell d k) 0 : sProp 𝕄) :=
  allAt (fun a : Dev nD × CK => (reached ER (kcell a.1 a.2) 0 : sProp 𝕄)) d k

theorem barPays_intro (c : Dev nD) (f1 : Buf (Elt F) ((c : Thread nD τ).loc cc0_scratch1)) (f2 : Buf (Elt F) ((c : Thread nD τ).loc cc0_scratch2)) :
    iprop(reachedAll ∗ bigSep (peers c) (fun p => piece c (rSlot 0 p) fullShare f1) ∗ bigSep (peers c) (fun p => piece c (rSlot 1 p) fullShare f1)
      ∗ bigSep (peers c) (fun p => piece c (rSlot 2 p) fullShare f1) ∗ bigSep (peers c) (fun p => piece c (gChunk 0 p) fullShare f2)
      ∗ bigSep (peers c) (fun p => piece c (gChunk 1 p) fullShare f2))
      ⊢ (alongF c (fun p => barPay p c) : sProp 𝕄) := by
  have h0 : bigSep (peers c) (fun p => piece c (rSlot 0 p) fullShare f1) ⊢ bigSep (peers c) (fun p => (iprop(∃ f, piece c (rSlot 0 p) fullShare f) : sProp 𝕄)) :=
    bigSep_mono fun p _ => piece_ex c (rSlot 0 p) fullShare f1
  have h1 : bigSep (peers c) (fun p => piece c (rSlot 1 p) fullShare f1) ⊢ bigSep (peers c) (fun p => (iprop(∃ f, piece c (rSlot 1 p) fullShare f) : sProp 𝕄)) :=
    bigSep_mono fun p _ => piece_ex c (rSlot 1 p) fullShare f1
  have h2 : bigSep (peers c) (fun p => piece c (rSlot 2 p) fullShare f1) ⊢ bigSep (peers c) (fun p => (iprop(∃ f, piece c (rSlot 2 p) fullShare f) : sProp 𝕄)) :=
    bigSep_mono fun p _ => piece_ex c (rSlot 2 p) fullShare f1
  have h3 : bigSep (peers c) (fun p => piece c (gChunk 0 p) fullShare f2) ⊢ bigSep (peers c) (fun p => (iprop(∃ f, piece c (gChunk 0 p) fullShare f) : sProp 𝕄)) :=
    bigSep_mono fun p _ => piece_ex c (gChunk 0 p) fullShare f2
  have h4 : bigSep (peers c) (fun p => piece c (gChunk 1 p) fullShare f2) ⊢ bigSep (peers c) (fun p => (iprop(∃ f, piece c (gChunk 1 p) fullShare f) : sProp 𝕄)) :=
    bigSep_mono fun p _ => piece_ex c (gChunk 1 p) fullShare f2
  have r0 : (reachedAll (F := F)) ⊢ bigSep (peers c) (fun p => (reached ER (rrCell c 0 p) 0 : sProp 𝕄)) := pers_peers c fun p => reached_at c (.rr 0 p)
  have r1 : (reachedAll (F := F)) ⊢ bigSep (peers c) (fun p => (reached ER (rrCell c 1 p) 0 : sProp 𝕄)) := pers_peers c fun p => reached_at c (.rr 1 p)
  have r2 : (reachedAll (F := F)) ⊢ bigSep (peers c) (fun p => (reached ER (rrCell c 2 p) 0 : sProp 𝕄)) := pers_peers c fun p => reached_at c (.rr 2 p)
  have r3 : (reachedAll (F := F)) ⊢ bigSep (peers c) (fun p => (reached ER (grCell c 0 p) 0 : sProp 𝕄)) := pers_peers c fun p => reached_at c (.gr 0 p)
  have r4 : (reachedAll (F := F)) ⊢ bigSep (peers c) (fun p => (reached ER (grCell c 1 p) 0 : sProp 𝕄)) := pers_peers c fun p => reached_at c (.gr 1 p)
  rw [← alongF_eq]
  unfold barPay
  simp only [bigSep_sep']
  iintro ⟨#HR, p0, p1, p2, q0, q1⟩
  isplitl [p0]; · iapply h0; iexact p0
  isplitl [p1]; · iapply h1; iexact p1
  isplitl [p2]; · iapply h2; iexact p2
  isplitl [q0]; · iapply h3; iexact q0
  isplitl [q1]; · iapply h4; iexact q1
  isplitl []; · iapply r0; iexact HR
  isplitl []; · iapply r1; iexact HR
  isplitl []; · iapply r2; iexact HR
  isplitl []; · iapply r3; iexact HR
  iapply r4; iexact HR

/-- The two buffers peers write into, at entry: what each entry signal hands over, and what the device keeps. -/
theorem bufs_intro (c : Dev nD) :
    iprop(reachedAll ∗ scr c cc0_scratch1 ∗ scr c cc0_scratch2)
      ⊢ (iprop(alongF c (fun p => barPay p c) ∗ slotsOwn c ∗ gathOwn c) : sProp 𝕄) := by
  iintro ⟨#HR, H1, H2⟩
  ihave H1 := (scr1_cut c) $$ H1
  ihave H2 := (scr2_cut c) $$ H2
  icases H1 with ⟨%f1, ⟨o0, p0⟩, ⟨o1, p1⟩, o2, p2⟩
  icases H2 with ⟨%f2, ⟨g0, q0⟩, ⟨g1, q1⟩, g2⟩
  isplitl [p0 p1 p2 q0 q1]
  · iapply (barPays_intro c f1 f2)
    iframe
    iexact HR
  isplitl [o0 o1 o2]
  · iexists f1; iframe
  · iexists f2; iframe

/-! ## The debt -/

theorem amt_rSlot (l : Fin 3) (s : Fin 8) (x : DmaSem sig) : (rSlot l s).view.amount (SemLoc.dma x) = N64 := by
  show (rSlot l s).view.dmaCredit = N64; revert l s; decide
theorem amt_gChunk (l : Fin 3) (t : Fin 8) (x : DmaSem sig) : (gChunk l t).view.amount (SemLoc.dma x) = N64 := by
  show (gChunk l t).view.dmaCredit = N64; revert l t; decide

/-- The arrivals of the reduce copies of layer `l` at the seven literal targets, each in the units its transfer is
    counted in. -/
abbrev owesRedLit (c : Dev nD) (l : Fin 3) (t1 t2 t3 t4 t5 t6 t7 : Dev nD) : CellTallies nD τ sig Unit :=
  tallyAt (rrCell t1 l c) () ((rSlot l c).view.amount (SemLoc.dma (rrS l c))) + tallyAt (rrCell t2 l c) () ((rSlot l c).view.amount (SemLoc.dma (rrS l c)))
    + tallyAt (rrCell t3 l c) () ((rSlot l c).view.amount (SemLoc.dma (rrS l c))) + tallyAt (rrCell t4 l c) () ((rSlot l c).view.amount (SemLoc.dma (rrS l c)))
    + tallyAt (rrCell t5 l c) () ((rSlot l c).view.amount (SemLoc.dma (rrS l c))) + tallyAt (rrCell t6 l c) () ((rSlot l c).view.amount (SemLoc.dma (rrS l c)))
    + tallyAt (rrCell t7 l c) () ((rSlot l c).view.amount (SemLoc.dma (rrS l c)))
/-- The arrivals of the gather copies of layer `l` along the ring, likewise. -/
abbrev owesGatA (c : Dev nD) (l : Fin 3) : CellTallies nD τ sig Unit :=
  tallyAt (grCell (fwd 1 c) l c) () ((gChunk l c).view.amount (SemLoc.dma (grS l c))) + tallyAt (grCell (fwd 2 c) l c) () ((gChunk l c).view.amount (SemLoc.dma (grS l c)))
    + tallyAt (grCell (fwd 3 c) l c) () ((gChunk l c).view.amount (SemLoc.dma (grS l c))) + tallyAt (grCell (fwd 4 c) l c) () ((gChunk l c).view.amount (SemLoc.dma (grS l c)))
    + tallyAt (grCell (fwd 5 c) l c) () ((gChunk l c).view.amount (SemLoc.dma (grS l c))) + tallyAt (grCell (fwd 6 c) l c) () ((gChunk l c).view.amount (SemLoc.dma (grS l c)))
    + tallyAt (grCell (fwd 7 c) l c) () ((gChunk l c).view.amount (SemLoc.dma (grS l c)))
/-- Everything the device owes at launch, in program order, the reduce arrivals by literal target. -/
abbrev debt (c : Dev nD) (t1 t2 t3 t4 t5 t6 t7 : Dev nD) : CellTallies nD τ sig Unit :=
  owesBar c + owesRedLit c 0 t1 t2 t3 t4 t5 t6 t7 + owesRedLit c 1 t1 t2 t3 t4 t5 t6 t7 + owesRedLit c 2 t1 t2 t3 t4 t5 t6 t7
    + owesGatA c 0 + owesGatA c 1

theorem debt_eq (c : Dev nD) (t1 t2 t3 t4 t5 t6 t7 : Dev nD)
    (hR : ∀ l, owesRed c l = tallyAt (rrCell t1 l c) () N64 + tallyAt (rrCell t2 l c) () N64 + tallyAt (rrCell t3 l c) () N64
      + tallyAt (rrCell t4 l c) () N64 + tallyAt (rrCell t5 l c) () N64 + tallyAt (rrCell t6 l c) () N64 + tallyAt (rrCell t7 l c) () N64) :
    O₀ c = debt c t1 t2 t3 t4 t5 t6 t7 := by
  show owesBar c + owesRed c 0 + owesRed c 1 + owesRed c 2 + owesGat c 0 + owesGat c 1 = _
  rw [hR 0, hR 1, hR 2]

/-! ## The whole start -/

/-- What the body of device `c` starts from, taken apart, in the order the protocol uses it: the invariants and the
    round-0 facts of the cells it touches, the level facts, its tokens, positions and credit; then its positions at the
    cells without duties, the partial-product buffer whole, what its entry signals hand over, what it keeps of the receive
    and gather buffers, what it owes, and the staging buffers. -/
abbrev ctx (K : GSem nD τ sig → ℕ) (c : Dev nD) (X : (Dev nD → sProp 𝕄) → sProp 𝕄) (t1 t2 t3 t4 t5 t6 t7 : Dev nD) : sProp 𝕄 :=
  iprop(cellsFam c X (fun g => cellInv ER (sched m) (K g) g) ∗ cellsFam c X (fun g => (reached ER g 0 : sProp 𝕄)) ∗ levAts L lv
    ∗ toksFam c X ∗ posFam c X ∗ credsFam c X
    ∗ posRest c ∗ scr c cc0_scratch0 ∗ alongF c (fun p => barPay p c) ∗ slotsOwn c ∗ gathOwn c
    ∗ (∃ W, owes (c : Thread nD τ) (debt c t1 t2 t3 t4 t5 t6 t7) W)
    ∗ stg c cc0_stg0_0 (argX m c) ∗ stg c cc0_stg1_0 (argW m c 0) ∗ stg c cc0_stg2_0 (argV m c 0)
    ∗ stg c cc0_stg3_0 (argW m c 1) ∗ stg c cc0_stg4_0 (argV m c 1)
    ∗ stg c cc0_stg5_0 (argW m c 2) ∗ stg c cc0_stg6_0 (argV m c 2)
    ∗ (∃ X, stg c cc0_stg7_0 X))

theorem prelude (K : GSem nD τ sig → ℕ) (c : Dev nD) (X : (Dev nD → sProp 𝕄) → sProp 𝕄) (hX : ∀ Φ, bigSep (peers c) Φ = X Φ)
    (t1 t2 t3 t4 t5 t6 t7 : Dev nD)
    (hR : ∀ l, owesRed c l = tallyAt (rrCell t1 l c) () N64 + tallyAt (rrCell t2 l c) () N64 + tallyAt (rrCell t3 l c) () N64
      + tallyAt (rrCell t4 l c) () N64 + tallyAt (rrCell t5 l c) () N64 + tallyAt (rrCell t6 l c) () N64 + tallyAt (rrCell t7 l c) () N64) :
    bodyPre m K c ⊢ ctx m K c X t1 t2 t3 t4 t5 t6 t7 := by
  unfold bodyPre ghost
  rw [debt_eq c t1 t2 t3 t4 t5 t6 t7 hR]
  iintro ⟨⟨⟨#HI, #HR, HP, HT⟩, HC, Hlev, S0, S1, S2⟩, HO, Hstg⟩
  isplitl []; · iapply (invs_intro m K c X hX); iexact HI
  isplitl []; · iapply (reached_intro c X hX); iexact HR
  isplitl [Hlev]; · iexact Hlev
  isplitl [HT]; · iapply (toks_intro c X hX); iexact HT
  ihave HP := (pos_intro c X hX) $$ HP
  icases HP with ⟨HP, HPr⟩
  isplitl [HP]; · iexact HP
  isplitl [HC]; · iapply (creds_intro c X hX); iexact HC
  isplitl [HPr]; · iexact HPr
  isplitl [S0]; · iexact S0
  ihave HB := (bufs_intro c) $$ [S1 S2]
  · isplitl []; · iexact HR
    isplitl [S1] <;> iassumption
  icases HB with ⟨HB, Ho1, Ho2⟩
  isplitl [HB]; · iexact HB
  isplitl [Ho1]; · iexact Ho1
  isplitl [Ho2]; · iexact Ho2
  isplitl [HO]; · iexact HO
  iexact Hstg

end Cert.KernelProof

end
-- ==== Proof.K.BodySegs.lean ====
import proofs.«900993_g7700000000000994_dist_mlpseq_tp1d_rep_bs_b512_d256_h512_v7x_i8_bf16_1_alg».proof.Proof.Gen.Kernel.Skeleton

/-! The kernel's body cut in three between its layers: the entry handshake with layer 0 (through the last wait for
    layer 0's gather sends), layer 1 (likewise), and layer 2 with the exit. Two printed parts begin with the last two
    waits of the layer before; they are cut there. The body is the three in sequence. -/

set_option maxRecDepth 65536

noncomputable section

namespace Cert.KernelProof

open Cert.Kernel Cert.Kernel.Gen
open Idealize.ShloMosaic Idealize.ShloMosaic.TcCoe Idealize.SL.Sem

variable {F : FTy → Type} [FloatOps F]

/-- The two waits the thirteenth printed part begins with (the last two for layer 0's gather sends). -/
def part13a (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) : Prog (TpuEff nD τ sig (Elt F) Λ₀ .tc) PUnit := do
  let v349 : DmaSems sig S1 := arg13.slice (Rect.unit (s := S3) ![0] S1.size inb_S3_S1_0)
  let v350 : DmaSems sig S_ := v349.squeeze S_ squeezes_S1_S_
  let v351 : Memref sig .tc .vmem S1x64x256 .bf16 := arg10.slice (Rect.unit (s := S3x512x256) (k0_off22 d0) S1x64x256.size (k0_off22_inb d0)) (fun _ => rfl)
  let v352 : Memref sig .tc .vmem S64x256 .bf16 := v351.squeeze S64x256 squeezes_S1x64x256_S64x256
  let v353 : Memref sig .tc .vmem S1x64x256 .bf16 := arg10.slice (Rect.unit (s := S3x512x256) (k0_off22 d0) S1x64x256.size (k0_off22_inb d0)) (fun _ => rfl)
  let v354 : Memref sig .tc .vmem S64x256 .bf16 := v353.squeeze S64x256 squeezes_S1x64x256_S64x256
  Prog.lift (.waitDma2 v350.sem v354 v352 ((harg10.wordExact_slice rfl _ (k0_off22_wordsbf16 d0)).reshape _ _) ((harg10.wordExact_slice rfl _ (k0_off22_wordsbf16 d0)).reshape _ _))
  let v355 : DmaSems sig S1 := arg13.slice (Rect.unit (s := S3) ![0] S1.size inb_S3_S1_0)
  let v356 : DmaSems sig S_ := v355.squeeze S_ squeezes_S1_S_
  let v357 : Memref sig .tc .vmem S1x64x256 .bf16 := arg10.slice (Rect.unit (s := S3x512x256) (k0_off22 d0) S1x64x256.size (k0_off22_inb d0)) (fun _ => rfl)
  let v358 : Memref sig .tc .vmem S64x256 .bf16 := v357.squeeze S64x256 squeezes_S1x64x256_S64x256
  let v359 : Memref sig .tc .vmem S1x64x256 .bf16 := arg10.slice (Rect.unit (s := S3x512x256) (k0_off22 d0) S1x64x256.size (k0_off22_inb d0)) (fun _ => rfl)
  let v360 : Memref sig .tc .vmem S64x256 .bf16 := v359.squeeze S64x256 squeezes_S1x64x256_S64x256
  Prog.lift (.waitDma2 v356.sem v360 v358 ((harg10.wordExact_slice rfl _ (k0_off22_wordsbf16 d0)).reshape _ _) ((harg10.wordExact_slice rfl _ (k0_off22_wordsbf16 d0)).reshape _ _))
/-- The rest of the thirteenth part. -/
def part13b (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) (Σ' (v363 : FVec F S256x512 .bf16) (v366 : FVec F S512x256 .bf16), FVec F S128x256 .bf16) := do
  let v361 : Vec F S256x512 .f32 ← Prog.lift (.load arg3 (Rect.unit (s := S256x512) ![0, 0] S256x512.size inb_S256x512_S256x512_0_0).toLoadRect (View.loadsAt_vmem h_S256x512))
  let v364 : Vec F S512x256 .f32 ← Prog.lift (.load arg4 (Rect.unit (s := S512x256) ![0, 0] S512x256.size inb_S512x256_S512x256_0_0).toLoadRect (View.loadsAt_vmem h_S512x256))
  let v367 : BitVec 1 := Scalar.cmpi .ne v2 0#32
  let v368 : BitVec 32 := Scalar.extui v367
  let v369 : BitVec 1 := Scalar.cmpi .ne v368 0#32
  if k0_h17 : v369 = 1#1 then do

    let v988 : DmaSems sig S1x1 := arg14.slice (Rect.unit (s := S3x8) ![0, 0] S1x1.size inb_S3x8_S1x1_0_0)
    let v989 : DmaSems sig S_ := v988.squeeze S_ squeezes_S1x1_S_
    let v990 : Memref sig .tc .vmem S1x64x256 .bf16 := arg10.slice (Rect.unit (s := S3x512x256) ![0, 0, 0] S1x64x256.size inb_S3x512x256_S1x64x256_0_0_0) (fun _ => rfl)
    let v991 : Memref sig .tc .vmem S64x256 .bf16 := v990.squeeze S64x256 squeezes_S1x64x256_S64x256
    let v992 : Memref sig .tc .vmem S1x64x256 .bf16 := arg10.slice (Rect.unit (s := S3x512x256) ![0, 0, 0] S1x64x256.size inb_S3x512x256_S1x64x256_0_0_0) (fun _ => rfl)
    let v993 : Memref sig .tc .vmem S64x256 .bf16 := v992.squeeze S64x256 squeezes_S1x64x256_S64x256
    Prog.lift (.waitDma2 v989.sem v993 v991 ((harg10.wordExact_slice rfl _ wordsbf16_S3x512x256_S1x64x256_0_0_0).reshape _ _) ((harg10.wordExact_slice rfl _ wordsbf16_S3x512x256_S1x64x256_0_0_0).reshape _ _))
    pure ⟨⟩
  else do
    pure ⟨⟩
  let v370 : BitVec 1 := Scalar.cmpi .ne v2 1#32
  let v371 : BitVec 32 := Scalar.extui v370
  let v372 : BitVec 1 := Scalar.cmpi .ne v371 0#32
  if k0_h18 : v372 = 1#1 then do

    let v988 : DmaSems sig S1x1 := arg14.slice (Rect.unit (s := S3x8) ![0, 1] S1x1.size inb_S3x8_S1x1_0_1)
    let v989 : DmaSems sig S_ := v988.squeeze S_ squeezes_S1x1_S_
    let v990 : Memref sig .tc .vmem S1x64x256 .bf16 := arg10.slice (Rect.unit (s := S3x512x256) ![0, 64, 0] S1x64x256.size inb_S3x512x256_S1x64x256_0_64_0) (fun _ => rfl)
    let v991 : Memref sig .tc .vmem S64x256 .bf16 := v990.squeeze S64x256 squeezes_S1x64x256_S64x256
    let v992 : Memref sig .tc .vmem S1x64x256 .bf16 := arg10.slice (Rect.unit (s := S3x512x256) ![0, 64, 0] S1x64x256.size inb_S3x512x256_S1x64x256_0_64_0) (fun _ => rfl)
    let v993 : Memref sig .tc .vmem S64x256 .bf16 := v992.squeeze S64x256 squeezes_S1x64x256_S64x256
    Prog.lift (.waitDma2 v989.sem v993 v991 ((harg10.wordExact_slice rfl _ wordsbf16_S3x512x256_S1x64x256_0_64_0).reshape _ _) ((harg10.wordExact_slice rfl _ wordsbf16_S3x512x256_S1x64x256_0_64_0).reshape _ _))
    pure ⟨⟩
  else do
    pure ⟨⟩
  let v373 : Vec F S1x128x256 .bf16 ← Prog.lift (.load arg10 (Rect.unit (s := S3x512x256) ![0, 0, 0] S1x128x256.size inb_S3x512x256_S1x128x256_0_0_0).toLoadRect (View.loadsAt_vmem h_S1x128x256))
  pure ⟨k0_pay7 v361, k0_pay8 v364, k0_pay9 v361 v364 v373⟩
theorem part13_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    k0_part13 (F := F) arg0 harg0 arg1 harg1 arg2 harg2 arg3 harg3 arg4 harg4 arg5 harg5 arg6 harg6 arg7 harg7 arg8 harg8 arg9 harg9 arg10 harg10 arg11 arg12 arg13 arg14 d0 v2 = (do part13a arg0 harg0 arg1 harg1 arg2 harg2 arg3 harg3 arg4 harg4 arg5 harg5 arg6 harg6 arg7 harg7 arg8 harg8 arg9 harg9 arg10 harg10 arg11 arg12 arg13 arg14 d0 v2; part13b arg0 harg0 arg1 harg1 arg2 harg2 arg3 harg3 arg4 harg4 arg5 harg5 arg6 harg6 arg7 harg7 arg8 harg8 arg9 harg9 arg10 harg10 arg11 arg12 arg13 arg14 d0 v2) := by
  rw [k0_part13_eq_skeleton]; rfl

def part26a (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) : Prog (TpuEff nD τ sig (Elt F) Λ₀ .tc) PUnit := do
  let v738 : Memref sig .tc .vmem S1x64x256 .bf16 := arg10.slice (Rect.unit (s := S3x512x256) (k0_off52 d0) S1x64x256.size (k0_off52_inb d0)) (fun _ => rfl)
  let v739 : Memref sig .tc .vmem S64x256 .bf16 := v738.squeeze S64x256 squeezes_S1x64x256_S64x256
  let v734 : DmaSems sig S1 := arg13.slice (Rect.unit (s := S3) ![1] S1.size inb_S3_S1_1)
  let v735 : DmaSems sig S_ := v734.squeeze S_ squeezes_S1_S_
  let v736 : Memref sig .tc .vmem S1x64x256 .bf16 := arg10.slice (Rect.unit (s := S3x512x256) (k0_off52 d0) S1x64x256.size (k0_off52_inb d0)) (fun _ => rfl)
  let v737 : Memref sig .tc .vmem S64x256 .bf16 := v736.squeeze S64x256 squeezes_S1x64x256_S64x256
  Prog.lift (.waitDma2 v735.sem v739 v737 ((harg10.wordExact_slice rfl _ (k0_off52_wordsbf16 d0)).reshape _ _) ((harg10.wordExact_slice rfl _ (k0_off52_wordsbf16 d0)).reshape _ _))
  let v740 : DmaSems sig S1 := arg13.slice (Rect.unit (s := S3) ![1] S1.size inb_S3_S1_1)
  let v741 : DmaSems sig S_ := v740.squeeze S_ squeezes_S1_S_
  let v742 : Memref sig .tc .vmem S1x64x256 .bf16 := arg10.slice (Rect.unit (s := S3x512x256) (k0_off52 d0) S1x64x256.size (k0_off52_inb d0)) (fun _ => rfl)
  let v743 : Memref sig .tc .vmem S64x256 .bf16 := v742.squeeze S64x256 squeezes_S1x64x256_S64x256
  let v744 : Memref sig .tc .vmem S1x64x256 .bf16 := arg10.slice (Rect.unit (s := S3x512x256) (k0_off52 d0) S1x64x256.size (k0_off52_inb d0)) (fun _ => rfl)
  let v745 : Memref sig .tc .vmem S64x256 .bf16 := v744.squeeze S64x256 squeezes_S1x64x256_S64x256
  Prog.lift (.waitDma2 v741.sem v745 v743 ((harg10.wordExact_slice rfl _ (k0_off52_wordsbf16 d0)).reshape _ _) ((harg10.wordExact_slice rfl _ (k0_off52_wordsbf16 d0)).reshape _ _))
def part26b (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) (Σ' (v748 : FVec F S256x512 .bf16), FVec F S512x256 .bf16) := do
  let v746 : Vec F S256x512 .f32 ← Prog.lift (.load arg5 (Rect.unit (s := S256x512) ![0, 0] S256x512.size inb_S256x512_S256x512_0_0).toLoadRect (View.loadsAt_vmem h_S256x512))
  let v749 : Vec F S512x256 .f32 ← Prog.lift (.load arg6 (Rect.unit (s := S512x256) ![0, 0] S512x256.size inb_S512x256_S512x256_0_0).toLoadRect (View.loadsAt_vmem h_S512x256))
  let v752 : BitVec 1 := Scalar.cmpi .ne v2 0#32
  let v753 : BitVec 32 := Scalar.extui v752
  let v754 : BitVec 1 := Scalar.cmpi .ne v753 0#32
  if k0_h41 : v754 = 1#1 then do

    let v988 : DmaSems sig S1x1 := arg14.slice (Rect.unit (s := S3x8) ![1, 0] S1x1.size inb_S3x8_S1x1_1_0)
    let v989 : DmaSems sig S_ := v988.squeeze S_ squeezes_S1x1_S_
    let v990 : Memref sig .tc .vmem S1x64x256 .bf16 := arg10.slice (Rect.unit (s := S3x512x256) ![1, 0, 0] S1x64x256.size inb_S3x512x256_S1x64x256_1_0_0) (fun _ => rfl)
    let v991 : Memref sig .tc .vmem S64x256 .bf16 := v990.squeeze S64x256 squeezes_S1x64x256_S64x256
    let v992 : Memref sig .tc .vmem S1x64x256 .bf16 := arg10.slice (Rect.unit (s := S3x512x256) ![1, 0, 0] S1x64x256.size inb_S3x512x256_S1x64x256_1_0_0) (fun _ => rfl)
    let v993 : Memref sig .tc .vmem S64x256 .bf16 := v992.squeeze S64x256 squeezes_S1x64x256_S64x256
    Prog.lift (.waitDma2 v989.sem v993 v991 ((harg10.wordExact_slice rfl _ wordsbf16_S3x512x256_S1x64x256_1_0_0).reshape _ _) ((harg10.wordExact_slice rfl _ wordsbf16_S3x512x256_S1x64x256_1_0_0).reshape _ _))
    pure ⟨⟩
  else do
    pure ⟨⟩
  let v755 : BitVec 1 := Scalar.cmpi .ne v2 1#32
  let v756 : BitVec 32 := Scalar.extui v755
  let v757 : BitVec 1 := Scalar.cmpi .ne v756 0#32
  if k0_h42 : v757 = 1#1 then do

    let v988 : DmaSems sig S1x1 := arg14.slice (Rect.unit (s := S3x8) ![1, 1] S1x1.size inb_S3x8_S1x1_1_1)
    let v989 : DmaSems sig S_ := v988.squeeze S_ squeezes_S1x1_S_
    let v990 : Memref sig .tc .vmem S1x64x256 .bf16 := arg10.slice (Rect.unit (s := S3x512x256) ![1, 64, 0] S1x64x256.size inb_S3x512x256_S1x64x256_1_64_0) (fun _ => rfl)
    let v991 : Memref sig .tc .vmem S64x256 .bf16 := v990.squeeze S64x256 squeezes_S1x64x256_S64x256
    let v992 : Memref sig .tc .vmem S1x64x256 .bf16 := arg10.slice (Rect.unit (s := S3x512x256) ![1, 64, 0] S1x64x256.size inb_S3x512x256_S1x64x256_1_64_0) (fun _ => rfl)
    let v993 : Memref sig .tc .vmem S64x256 .bf16 := v992.squeeze S64x256 squeezes_S1x64x256_S64x256
    Prog.lift (.waitDma2 v989.sem v993 v991 ((harg10.wordExact_slice rfl _ wordsbf16_S3x512x256_S1x64x256_1_64_0).reshape _ _) ((harg10.wordExact_slice rfl _ wordsbf16_S3x512x256_S1x64x256_1_64_0).reshape _ _))
    pure ⟨⟩
  else do
    pure ⟨⟩
  let v758 : Vec F S1x128x256 .bf16 ← Prog.lift (.load arg10 (Rect.unit (s := S3x512x256) ![1, 0, 0] S1x128x256.size inb_S3x512x256_S1x128x256_1_0_0).toLoadRect (View.loadsAt_vmem h_S1x128x256))
  let v766 : Vec F S1x128x256 .bf16 ← Prog.lift (.load arg8 (Rect.unit (s := S3x512x256) ![2, 0, 0] S1x128x256.size inb_S3x512x256_S1x128x256_2_0_0).toLoadRect (View.loadsAt_vmem h_S1x128x256))

  Prog.lift (.store arg8 (Rect.unit (s := S3x512x256) ![2, 0, 0] S1x128x256.size inb_S3x512x256_S1x128x256_2_0_0) (k0_pay21 v746 v749 v758) Finset.univ (View.stores_vmem h_S1x128x256 (harg8.storeExact_slice rfl _ packedbf16_S3x512x256_S1x128x256_2_0_0) (fun _ => rfl)) (.inl rfl))
  pure ⟨k0_pay19 v746, k0_pay20 v749⟩
theorem part26_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    k0_part26 (F := F) arg0 harg0 arg1 harg1 arg2 harg2 arg3 harg3 arg4 harg4 arg5 harg5 arg6 harg6 arg7 harg7 arg8 harg8 arg9 harg9 arg10 harg10 arg11 arg12 arg13 arg14 d0 v2 = (do part26a arg0 harg0 arg1 harg1 arg2 harg2 arg3 harg3 arg4 harg4 arg5 harg5 arg6 harg6 arg7 harg7 arg8 harg8 arg9 harg9 arg10 harg10 arg11 arg12 arg13 arg14 d0 v2; part26b arg0 harg0 arg1 harg1 arg2 harg2 arg3 harg3 arg4 harg4 arg5 harg5 arg6 harg6 arg7 harg7 arg8 harg8 arg9 harg9 arg10 harg10 arg11 arg12 arg13 arg14 d0 v2) := by
  rw [k0_part26_eq_skeleton]; rfl

/-- The entry handshake and layer 0: returns the device and its id as the kernel computes it. -/
def segA (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) :
    Prog (TpuEff nD τ sig (Elt F) Λ₀ .tc) (Σ' (d0 : Dev nD), BitVec 32) := do
  let ⟨d0, v2, v3, v24, c8_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 harg7 arg8 harg8 arg9 harg9 arg10 harg10 arg11 arg12 arg13 arg14
  let v54 : BitVec 32 ← k0_part2 arg0 harg0 arg1 harg1 arg2 harg2 arg3 harg3 arg4 harg4 arg5 harg5 arg6 harg6 arg7 harg7 arg8 harg8 arg9 harg9 arg10 harg10 arg11 arg12 arg13 arg14 d0 v2 v3 v24 c8_i32_20
  let ⟨v78, v81, v82, c0_i32_65⟩ : Σ' (v78 : FVec F S64x256 .f32) (v81 : BitVec 32) (v82 : BitVec 32), BitVec 32 ← k0_part3 arg0 harg0 arg1 harg1 arg2 harg2 arg3 harg3 arg4 harg4 arg5 harg5 arg6 harg6 arg7 harg7 arg8 harg8 arg9 harg9 arg10 harg10 arg11 arg12 arg13 arg14 d0 v2 v54
  let ⟨v110, v113⟩ : Σ' (v110 : FVec F S64x256 .f32), BitVec 32 ← k0_part4 arg0 harg0 arg1 harg1 arg2 harg2 arg3 harg3 arg4 harg4 arg5 harg5 arg6 harg6 arg7 harg7 arg8 harg8 arg9 harg9 arg10 harg10 arg11 arg12 arg13 arg14 d0 v2 v78 v81 v82 c0_i32_65
  let ⟨v142, c8_i32_121⟩ : Σ' (v142 : FVec F S64x256 .f32), BitVec 32 ← k0_part5 arg0 harg0 arg1 harg1 arg2 harg2 arg3 harg3 arg4 harg4 arg5 harg5 arg6 harg6 arg7 harg7 arg8 harg8 arg9 harg9 arg10 harg10 arg11 arg12 arg13 arg14 d0 v2 v110 v113
  let v158 : FVec F S64x256 .f32 ← k0_part6 arg0 harg0 arg1 harg1 arg2 harg2 arg3 harg3 arg4 harg4 arg5 harg5 arg6 harg6 arg7 harg7 arg8 harg8 arg9 harg9 arg10 harg10 arg11 arg12 arg13 arg14 d0 v2 v142 c8_i32_121
  let v198 : BitVec 32 ← k0_part7 arg0 harg0 arg1 harg1 arg2 harg2 arg3 harg3 arg4 harg4 arg5 harg5 arg6 harg6 arg7 harg7 arg8 harg8 arg9 harg9 arg10 harg10 arg11 arg12 arg13 arg14 d0 v2 v158
  k0_part8 arg0 harg0 arg1 harg1 arg2 harg2 arg3 harg3 arg4 harg4 arg5 harg5 arg6 harg6 arg7 harg7 arg8 harg8 arg9 harg9 arg10 harg10 arg11 arg12 arg13 arg14 d0 v2 v198
  k0_part9 arg0 harg0 arg1 harg1 arg2 harg2 arg3 harg3 arg4 harg4 arg5 harg5 arg6 harg6 arg7 harg7 arg8 harg8 arg9 harg9 arg10 harg10 arg11 arg12 arg13 arg14 d0 v2
  let v296 : BitVec 32 ← k0_part10 arg0 harg0 arg1 harg1 arg2 harg2 arg3 harg3 arg4 harg4 arg5 harg5 arg6 harg6 arg7 harg7 arg8 harg8 arg9 harg9 arg10 harg10 arg11 arg12 arg13 arg14 d0 v2
  k0_part11 arg0 harg0 arg1 harg1 arg2 harg2 arg3 harg3 arg4 harg4 arg5 harg5 arg6 harg6 arg7 harg7 arg8 harg8 arg9 harg9 arg10 harg10 arg11 arg12 arg13 arg14 d0 v2 v296
  k0_part12 arg0 harg0 arg1 harg1 arg2 harg2 arg3 harg3 arg4 harg4 arg5 harg5 arg6 harg6 arg7 harg7 arg8 harg8 arg9 harg9 arg10 harg10 arg11 arg12 arg13 arg14 d0
  part13a arg0 harg0 arg1 harg1 arg2 harg2 arg3 harg3 arg4 harg4 arg5 harg5 arg6 harg6 arg7 harg7 arg8 harg8 arg9 harg9 arg10 harg10 arg11 arg12 arg13 arg14 d0 v2
  pure ⟨d0, v2⟩

/-- Layer 1. -/
def segB (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) PUnit := do
  let ⟨v363, v366, v380⟩ : Σ' (v363 : FVec F S256x512 .bf16) (v366 : FVec F S512x256 .bf16), FVec F S128x256 .bf16 ← part13b arg0 harg0 arg1 harg1 arg2 harg2 arg3 harg3 arg4 harg4 arg5 harg5 arg6 harg6 arg7 harg7 arg8 harg8 arg9 harg9 arg10 harg10 arg11 arg12 arg13 arg14 d0 v2
  let v411 : BitVec 32 ← k0_part14 arg0 harg0 arg1 harg1 arg2 harg2 arg3 harg3 arg4 harg4 arg5 harg5 arg6 harg6 arg7 harg7 arg8 harg8 arg9 harg9 arg10 harg10 arg11 arg12 arg13 arg14 d0 v2 v363 v366 v380
  k0_part15 arg0 harg0 arg1 harg1 arg2 harg2 arg3 harg3 arg4 harg4 arg5 harg5 arg6 harg6 arg7 harg7 arg8 harg8 arg9 harg9 arg10 harg10 arg11 arg12 arg13 arg14 d0 v2 v363 v366 v411
  let ⟨v463, v466⟩ : Σ' (v463 : FVec F S64x256 .f32), BitVec 32 ← k0_part16 arg0 harg0 arg1 harg1 arg2 harg2 arg3 harg3 arg4 harg4 arg5 harg5 arg6 harg6 arg7 harg7 arg8 harg8 arg9 harg9 arg10 harg10 arg11 arg12 arg13 arg14 d0 v2 v363 v366
  let ⟨v495, v498, v499, c0_i32_432⟩ : Σ' (v495 : FVec F S64x256 .f32) (v498 : BitVec 32) (v499 : BitVec 32), BitVec 32 ← k0_part17 arg0 harg0 arg1 harg1 arg2 harg2 arg3 harg3 arg4 harg4 arg5 harg5 arg6 harg6 arg7 harg7 arg8 harg8 arg9 harg9 arg10 harg10 arg11 arg12 arg13 arg14 d0 v2 v463 v466
  let ⟨v527, v530⟩ : Σ' (v527 : FVec F S64x256 .f32), BitVec 32 ← k0_part18 arg0 harg0 arg1 harg1 arg2 harg2 arg3 harg3 arg4 harg4 arg5 harg5 arg6 harg6 arg7 harg7 arg8 harg8 arg9 harg9 arg10 harg10 arg11 arg12 arg13 arg14 d0 v2 v495 v498 v499 c0_i32_432
  let ⟨v559, c8_i32_488⟩ : Σ' (v559 : FVec F S64x256 .f32), BitVec 32 ← k0_part19 arg0 harg0 arg1 harg1 arg2 harg2 arg3 harg3 arg4 harg4 arg5 harg5 arg6 harg6 arg7 harg7 arg8 harg8 arg9 harg9 arg10 harg10 arg11 arg12 arg13 arg14 d0 v2 v527 v530
  k0_part20 arg0 harg0 arg1 harg1 arg2 harg2 arg3 harg3 arg4 harg4 arg5 harg5 arg6 harg6 arg7 harg7 arg8 harg8 arg9 harg9 arg10 harg10 arg11 arg12 arg13 arg14 d0 v2 v559 c8_i32_488
  k0_part21 arg0 harg0 arg1 harg1 arg2 harg2 arg3 harg3 arg4 harg4 arg5 harg5 arg6 harg6 arg7 harg7 arg8 harg8 arg9 harg9 arg10 harg10 arg11 arg12 arg13 arg14 d0 v2
  let ⟨v652, c8_i32_568⟩ : Σ' (v652 : BitVec 32), BitVec 32 ← k0_part22 arg0 harg0 arg1 harg1 arg2 harg2 arg3 harg3 arg4 harg4 arg5 harg5 arg6 harg6 arg7 harg7 arg8 harg8 arg9 harg9 arg10 harg10 arg11 arg12 arg13 arg14 d0 v2
  let v684 : BitVec 32 ← k0_part23 arg0 harg0 arg1 harg1 arg2 harg2 arg3 harg3 arg4 harg4 arg5 harg5 arg6 harg6 arg7 harg7 arg8 harg8 arg9 harg9 arg10 harg10 arg11 arg12 arg13 arg14 d0 v2 v652 c8_i32_568
  k0_part24 arg0 harg0 arg1 harg1 arg2 harg2 arg3 harg3 arg4 harg4 arg5 harg5 arg6 harg6 arg7 harg7 arg8 harg8 arg9 harg9 arg10 harg10 arg11 arg12 arg13 arg14 d0 v2 v684
  k0_part25 arg0 harg0 arg1 harg1 arg2 harg2 arg3 harg3 arg4 harg4 arg5 harg5 arg6 harg6 arg7 harg7 arg8 harg8 arg9 harg9 arg10 harg10 arg11 arg12 arg13 arg14 d0
  part26a arg0 harg0 arg1 harg1 arg2 harg2 arg3 harg3 arg4 harg4 arg5 harg5 arg6 harg6 arg7 harg7 arg8 harg8 arg9 harg9 arg10 harg10 arg11 arg12 arg13 arg14 d0 v2

/-- Layer 2 and the exit. -/
def segC (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) PUnit := do
  let ⟨v748, v751⟩ : Σ' (v748 : FVec F S256x512 .bf16), FVec F S512x256 .bf16 ← part26b arg0 harg0 arg1 harg1 arg2 harg2 arg3 harg3 arg4 harg4 arg5 harg5 arg6 harg6 arg7 harg7 arg8 harg8 arg9 harg9 arg10 harg10 arg11 arg12 arg13 arg14 d0 v2
  let v799 : BitVec 32 ← k0_part27 arg0 harg0 arg1 harg1 arg2 harg2 arg3 harg3 arg4 harg4 arg5 harg5 arg6 harg6 arg7 harg7 arg8 harg8 arg9 harg9 arg10 harg10 arg11 arg12 arg13 arg14 d0 v2 v748 v751
  let ⟨v828, cst_717⟩ : Σ' (v828 : FVec F S128x256 .bf16), FVec F S128x512 .f32 ← k0_part28 arg0 harg0 arg1 harg1 arg2 harg2 arg3 harg3 arg4 harg4 arg5 harg5 arg6 harg6 arg7 harg7 arg8 harg8 arg9 harg9 arg10 harg10 arg11 arg12 arg13 arg14 d0 v2 v748 v751 v799
  let ⟨v848, v851⟩ : Σ' (v848 : FVec F S64x256 .f32), BitVec 32 ← k0_part29 arg0 harg0 arg1 harg1 arg2 harg2 arg3 harg3 arg4 harg4 arg5 harg5 arg6 harg6 arg7 harg7 arg8 harg8 arg9 harg9 arg10 harg10 arg11 arg12 arg13 arg14 d0 v2 v748 v751 v828 cst_717
  let ⟨v880, v883⟩ : Σ' (v880 : FVec F S64x256 .f32), BitVec 32 ← k0_part30 arg0 harg0 arg1 harg1 arg2 harg2 arg3 harg3 arg4 harg4 arg5 harg5 arg6 harg6 arg7 harg7 arg8 harg8 arg9 harg9 arg10 harg10 arg11 arg12 arg13 arg14 d0 v2 v848 v851
  let ⟨v912, v915, v916, c0_i32_802⟩ : Σ' (v912 : FVec F S64x256 .f32) (v915 : BitVec 32) (v916 : BitVec 32), BitVec 32 ← k0_part31 arg0 harg0 arg1 harg1 arg2 harg2 arg3 harg3 arg4 harg4 arg5 harg5 arg6 harg6 arg7 harg7 arg8 harg8 arg9 harg9 arg10 harg10 arg11 arg12 arg13 arg14 d0 v2 v880 v883
  let ⟨v944, v947⟩ : Σ' (v944 : FVec F S64x256 .f32), BitVec 32 ← k0_part32 arg0 harg0 arg1 harg1 arg2 harg2 arg3 harg3 arg4 harg4 arg5 harg5 arg6 harg6 arg7 harg7 arg8 harg8 arg9 harg9 arg10 harg10 arg11 arg12 arg13 arg14 d0 v2 v912 v915 v916 c0_i32_802
  k0_part33 arg0 harg0 arg1 harg1 arg2 harg2 arg3 harg3 arg4 harg4 arg5 harg5 arg6 harg6 arg7 harg7 arg8 harg8 arg9 harg9 arg10 harg10 arg11 arg12 arg13 arg14 d0 v2 v944 v947

  if k0_h62 : k0_cond62 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 320, 0] S1x64x256.size inb_S3x512x256_S1x64x256_2_320_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off86 d0) S1x1x64x256.size (k0_off86_inb d0 k0_h62)) (fun _ => rfl)
    let v991 : Memref sig .tc .vmem S64x256 .bf16 := v990.squeeze S64x256 squeezes_S1x1x64x256_S64x256
    Prog.lift (.waitDma2 v987.sem v991 v989 ((harg9.wordExact_slice rfl _ (k0_off86_wordsbf16 d0 k0_h62)).reshape _ _) ((harg8.wordExact_slice rfl _ wordsbf16_S3x512x256_S1x64x256_2_320_0).reshape _ _))
    pure ⟨⟩
  else do
    pure ⟨⟩

  if k0_h63 : k0_cond63 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 384, 0] S1x64x256.size inb_S3x512x256_S1x64x256_2_384_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off87 d0) S1x1x64x256.size (k0_off87_inb d0 k0_h63)) (fun _ => rfl)
    let v991 : Memref sig .tc .vmem S64x256 .bf16 := v990.squeeze S64x256 squeezes_S1x1x64x256_S64x256
    Prog.lift (.waitDma2 v987.sem v991 v989 ((harg9.wordExact_slice rfl _ (k0_off87_wordsbf16 d0 k0_h63)).reshape _ _) ((harg8.wordExact_slice rfl _ wordsbf16_S3x512x256_S1x64x256_2_384_0).reshape _ _))
    pure ⟨⟩
  else do
    pure ⟨⟩

  if k0_h64 : k0_cond64 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 448, 0] S1x64x256.size inb_S3x512x256_S1x64x256_2_448_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off88 d0) S1x1x64x256.size (k0_off88_inb d0 k0_h64)) (fun _ => rfl)
    let v991 : Memref sig .tc .vmem S64x256 .bf16 := v990.squeeze S64x256 squeezes_S1x1x64x256_S64x256
    Prog.lift (.waitDma2 v987.sem v991 v989 ((harg9.wordExact_slice rfl _ (k0_off88_wordsbf16 d0 k0_h64)).reshape _ _) ((harg8.wordExact_slice rfl _ wordsbf16_S3x512x256_S1x64x256_2_448_0).reshape _ _))
    pure ⟨⟩
  else do
    pure ⟨⟩
  pure ⟨⟩

theorem body_eq_segs (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) :
    cc0_body (F := F) arg0 harg0 arg1 harg1 arg2 harg2 arg3 harg3 arg4 harg4 arg5 harg5 arg6 harg6 arg7 harg7 arg8 harg8 arg9 harg9 arg10 harg10 arg11 arg12 arg13 arg14 = (do
      let r ← segA arg0 harg0 arg1 harg1 arg2 harg2 arg3 harg3 arg4 harg4 arg5 harg5 arg6 harg6 arg7 harg7 arg8 harg8 arg9 harg9 arg10 harg10 arg11 arg12 arg13 arg14
      segB arg0 harg0 arg1 harg1 arg2 harg2 arg3 harg3 arg4 harg4 arg5 harg5 arg6 harg6 arg7 harg7 arg8 harg8 arg9 harg9 arg10 harg10 arg11 arg12 arg13 arg14 r.1 r.2
      segC arg0 harg0 arg1 harg1 arg2 harg2 arg3 harg3 arg4 harg4 arg5 harg5 arg6 harg6 arg7 harg7 arg8 harg8 arg9 harg9 arg10 harg10 arg11 arg12 arg13 arg14 r.1 r.2) := by
  rw [cc0_body_eq_skeleton]
  unfold cc0_body_skel segA segB segC
  simp only [part13_split, part26_split, bind_assoc, pure_bind]

end Cert.KernelProof

end
-- ==== Proof.K.BodyMid.lean ====
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.BodySegs

/-! What a device holds between the layers of the kernel. `Ts` is the list of its seven peers named by literal (the
    targets of its reduce sends, the sources of the gather copies it receives); `ringF c` / `ringB c` are the same seven
    in ring order forward (entry signals, gather sends) and backward (the order it adds what it received).
    Per layer `l`: the tokens it pays with, its positions and credit, the peers' pieces its copies land in. Between
    layers everything of the finished layers has come back: the partial-product buffer whole, the receive slots, the
    gather chunks; only the gather copies INTO it of the layer just finished are still to be waited for (the next layer
    waits for them group by group). -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

def ringF (c : Dev nD) : List (Dev nD) := [fwd 1 c, fwd 2 c, fwd 3 c, fwd 4 c, fwd 5 c, fwd 6 c, fwd 7 c]
def ringB (c : Dev nD) : List (Dev nD) := [bwd 1 c, bwd 2 c, bwd 3 c, bwd 4 c, bwd 5 c, bwd 6 c, bwd 7 c]

/-- A 64-row piece held whole at some contents. -/
def ex (c : Dev nD) (M : Memref sig .tc .vmem S64x256 .bf16) : sProp 𝕄 := iprop(∃ f, piece c M fullShare f)

/-- Layer `l`'s tokens: the departures of `c`'s reduce copies and their arrivals at the targets; for `l < 2` the same of its
    gather copies. -/
def layerToks (c : Dev nD) (Ts : List (Dev nD)) (l : Fin 3) : sProp 𝕄 :=
  iprop(bigSepL Ts (fun t => iprop(dutyTok ER (rsCell c l) 0 t ∗ dutyTok ER (rrCell t l c) 0 c))
    ∗ (if l.val < 2 then bigSepL (ringF c) (fun p => iprop(dutyTok ER (gsCell c l) 0 p ∗ dutyTok ER (grCell p l c) 0 c)) else iprop(emp)))
/-- Layer `l`'s reduce positions: the send cell and the seven receive cells with their credit. -/
def posRed (c : Dev nD) (l : Fin 3) : sProp 𝕄 :=
  iprop(atPos ER (rsCell c l) 0 ∅ 0 ∗ bigSepL (ringB c) (fun s => iprop(atPos ER (rrCell c l s) 0 ∅ 0 ∗ cred (tallyAt (rrCell c l s) () N64))))
/-- Layer `l`'s gather-send position (`l < 2`). -/
def posGs (c : Dev nD) (l : Fin 3) : sProp 𝕄 := atPos ER (gsCell c l) 0 ∅ 0
/-- Layer `l`'s gather-receive positions with their credit (`l < 2`): waited for during layer `l + 1`. -/
def posGr (c : Dev nD) (Ts : List (Dev nD)) (l : Fin 3) : sProp 𝕄 :=
  bigSepL Ts (fun s => iprop(atPos ER (grCell c l s) 0 ∅ 0 ∗ cred (tallyAt (grCell c l s) () N64)))
/-- The peers' pieces layer `l`'s copies land in. -/
def layerDest (c : Dev nD) (Ts : List (Dev nD)) (l : Fin 3) : sProp 𝕄 :=
  iprop(bigSepL Ts (fun t => iprop(∃ fd, piece t (rSlot l c) fullShare fd))
    ∗ (if l.val < 2 then bigSepL (ringF c) (fun p => iprop(∃ fd, piece p (gChunk l c) fullShare fd)) else iprop(emp)))
/-- Everything layer `l` starts from. -/
def layerRes (c : Dev nD) (Ts : List (Dev nD)) (l : Fin 3) : sProp 𝕄 :=
  iprop(layerToks c Ts l ∗ posRed c l ∗ (if l.val < 2 then iprop(posGs c l ∗ posGr c Ts l) else iprop(emp)) ∗ layerDest c Ts l)

/-- The positions a finished layer leaves (for closing the cells at the exit). -/
def posDoneRed (c : Dev nD) (l : Fin 3) : sProp 𝕄 :=
  iprop(atPos ER (rsCell c l) 1 ∅ 0 ∗ bigSepL (ringB c) (fun s => (atPos ER (rrCell c l s) 1 ∅ 0 : sProp 𝕄))
    ∗ (if l.val < 2 then (atPos ER (gsCell c l) 1 ∅ 0 : sProp 𝕄) else iprop(emp)))
def posDoneGr (c : Dev nD) (Ts : List (Dev nD)) (l : Fin 3) : sProp 𝕄 :=
  bigSepL Ts (fun s => (atPos ER (grCell c l s) 1 ∅ 0 : sProp 𝕄))

/-- The receive slots of a finished layer: all eight back. -/
def slotsBack (c : Dev nD) (l : Fin 3) : sProp 𝕄 := iprop(ex c (rSlot l c) ∗ bigSepL (ringB c) (fun s => ex (F := F) c (rSlot l s)))
/-- The eight gather chunks of a layer, all held. -/
def chunksAll (c : Dev nD) (Ts : List (Dev nD)) (l : Fin 3) : sProp 𝕄 := iprop(ex c (gChunk l c) ∗ bigSepL Ts (fun s => ex (F := F) c (gChunk l s)))

/-- What `c` still owes from layer `l` on: the arrivals of its reduce copies of layers `≥ l` and of its gather copies of
    layers `≥ l` below 2 — spelt as the step lemmas peel them: one tally per literal target, one per ring peer. -/
def owesRedL (c : Dev nD) (Ts : List (Dev nD)) (l : Fin 3) : CellTallies nD τ sig Unit :=
  (Ts.map fun t => tallyAt (rrCell t l c) () N64).sum
def owesGatL (c : Dev nD) (l : Fin 3) : CellTallies nD τ sig Unit :=
  ((ringF c).map fun p => tallyAt (grCell p l c) () N64).sum

/-- The seven staged arguments and the result's staging buffer (at whatever it holds, or at the result). -/
def stagedIn (c : Dev nD) : sProp 𝕄 :=
  iprop(stg c cc0_stg0_0 (argX m c) ∗ stg c cc0_stg1_0 (argW m c 0) ∗ stg c cc0_stg2_0 (argV m c 0)
    ∗ stg c cc0_stg3_0 (argW m c 1) ∗ stg c cc0_stg4_0 (argV m c 1) ∗ stg c cc0_stg5_0 (argW m c 2) ∗ stg c cc0_stg6_0 (argV m c 2))

/-- Between layer 0 and layer 1. -/
def mid1 (K : GSem nD τ sig → ℕ) (c : Dev nD) (Ts : List (Dev nD)) : sProp 𝕄 :=
  iprop((invsAll m K ∗ reachedAll ∗ levAts L lv)
    ∗ (∃ W, owes (c : Thread nD τ) (owesRedL c Ts 1 + owesRedL c Ts 2 + owesGatL c 1) W)
    ∗ layerRes c Ts 1 ∗ layerRes c Ts 2
    ∗ posGr c Ts 0 ∗ posDoneRed c 0 ∗ posRest c
    ∗ scr c cc0_scratch0
    ∗ slotsBack c 0 ∗ ex c (rSlot 1 c) ∗ ex c (rSlot 2 c)
    ∗ piece c (gChunk 0 c) fullShare (Gfun m c) ∗ ex c (gChunk 1 c) ∗ chunksAll c Ts 2
    ∗ stagedIn m c ∗ (∃ X, stg c cc0_stg7_0 X))

/-- Between layer 1 and layer 2. -/
def mid2 (K : GSem nD τ sig → ℕ) (c : Dev nD) (Ts : List (Dev nD)) : sProp 𝕄 :=
  iprop((invsAll m K ∗ reachedAll ∗ levAts L lv)
    ∗ (∃ W, owes (c : Thread nD τ) (owesRedL c Ts 2) W)
    ∗ layerRes c Ts 2
    ∗ posGr c Ts 1 ∗ posDoneRed c 0 ∗ posDoneRed c 1 ∗ posDoneGr c Ts 0 ∗ posRest c
    ∗ scr c cc0_scratch0
    ∗ slotsBack c 0 ∗ slotsBack c 1 ∗ ex c (rSlot 2 c)
    ∗ chunksAll c Ts 0 ∗ piece c (gChunk 1 c) fullShare (Gfun m c) ∗ chunksAll c Ts 2
    ∗ stagedIn m c ∗ (∃ X, stg c cc0_stg7_0 X))

/-- The device's id as the kernel computes it. -/
def devWord (c : Dev nD) : BitVec 32 := Scalar.remsi (Scalar.divsi (Dev.word c) 1#32) 8#32

end Cert.KernelProof

end
-- ==== Proof.K.BodyCompose.lean ====
import proofs.«900993_g7700000000000994_dist_mlpseq_tp1d_rep_bs_b512_d256_h512_v7x_i8_bf16_1_alg».proof.Proof.K.BodyMid

/-! The body from its three segments: the entry handshake with layer 0 leaves what layer 1 starts from, layer 1 what
    layer 2 starts from, layer 2 with the exit what the body owes the launch. -/

set_option maxRecDepth 65536

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The three segments in sequence, on one device with its list `Ts` of peers named by literal. -/
theorem body_of_segs (c : Dev nD) (Ts : List (Dev nD)) (K : GSem nD τ sig → ℕ) (Kt : PUnit → sProp 𝕄)
    (hA : ∀ Kt' : (Σ' (d0 : Dev nD), BitVec 32) → sProp 𝕄,
      iprop(bodyPre m K c ∗ (mid1 m K c Ts -∗ Kt' ⟨c, devWord c⟩)) ⊢ wp frame (wpE (defs₀ (F := F)) 𝒱₀ (c : Thread nD τ) none) Set.univ (segA (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt')
    (hB : ∀ Kt' : PUnit → sProp 𝕄,
      iprop(mid1 m K c Ts ∗ (mid2 m K c Ts -∗ Kt' ⟨⟩)) ⊢ wp frame (wpE (defs₀ (F := F)) 𝒱₀ (c : Thread nD τ) none) Set.univ (segB (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt')
    (hC : ∀ Kt' : PUnit → sProp 𝕄,
      iprop(mid2 m K c Ts ∗ (bodyPost m c -∗ Kt' ⟨⟩)) ⊢ wp frame (wpE (defs₀ (F := F)) 𝒱₀ (c : Thread nD τ) none) Set.univ (segC (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt') :
    iprop(bodyPre m K c ∗ (bodyPost m c -∗ Kt ⟨⟩)) ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [body_eq_segs]
  simp only [wp_bind]
  iintro ⟨Hpre, Hk⟩
  iapply (hA _)
  isplitl [Hpre]; · iexact Hpre
  iintro Hm1
  iapply (hB _)
  isplitl [Hm1]; · iexact Hm1
  iintro Hm2
  iapply (hC _)
  isplitl [Hm2]; · iexact Hm2
  iexact Hk

end Cert.KernelProof

end
-- ==== Proof.K.BodySegACut.lean ====
import proofs.«900993_g7700000000000994_dist_mlpseq_tp1d_rep_bs_b512_d256_h512_v7x_i8_bf16_1_alg».proof.Proof.K.BodyMid

/-! Layer 0 cut in two after the load of the device's own chunk of its partial products: the entry handshake, the
    first layer's product and the reduce sends on one side; the accumulation of what the peers sent, the gather sends
    and the waits for the layer's copies to have left on the other. The first segment is the two in sequence. -/

set_option maxRecDepth 65536

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The entry handshake and layer 0 through the last reduce send and the load of the device's own chunk. -/
def segA1 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) :
    Prog (TpuEff nD τ sig (Elt F) Λ₀ .tc) (Σ' (d0 : Dev nD) (v2 : BitVec 32) (v78 : FVec F S64x256 .f32) (v81 : BitVec 32) (v82 : BitVec 32), BitVec 32) := do
  let ⟨d0, v2, v3, v24, c8_i32_20⟩ : Σ' (d0 : Dev nD) (v2 : BitVec 32) (v3 : Sems sig S_) (v24 : BitVec 32), BitVec 32 ← k0_part1 arg0 harg0 arg1 harg1 arg2 harg2 arg3 harg3 arg4 harg4 arg5 harg5 arg6 harg6 arg7 harg7 arg8 harg8 arg9 harg9 arg10 harg10 arg11 arg12 arg13 arg14
  let v54 : BitVec 32 ← k0_part2 arg0 harg0 arg1 harg1 arg2 harg2 arg3 harg3 arg4 harg4 arg5 harg5 arg6 harg6 arg7 harg7 arg8 harg8 arg9 harg9 arg10 harg10 arg11 arg12 arg13 arg14 d0 v2 v3 v24 c8_i32_20
  let ⟨v78, v81, v82, c0_i32_65⟩ : Σ' (v78 : FVec F S64x256 .f32) (v81 : BitVec 32) (v82 : BitVec 32), BitVec 32 ← k0_part3 arg0 harg0 arg1 harg1 arg2 harg2 arg3 harg3 arg4 harg4 arg5 harg5 arg6 harg6 arg7 harg7 arg8 harg8 arg9 harg9 arg10 harg10 arg11 arg12 arg13 arg14 d0 v2 v54
  pure ⟨d0, v2, v78, v81, v82, c0_i32_65⟩

/-- Layer 0 from the first wait of the accumulation on. -/
def segA2 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) (v78 : FVec F S64x256 .f32) (v81 : BitVec 32) (v82 : BitVec 32) (c0_i32_65 : BitVec 32) :
    Prog (TpuEff nD τ sig (Elt F) Λ₀ .tc) (Σ' (d0 : Dev nD), BitVec 32) := do
  let ⟨v110, v113⟩ : Σ' (v110 : FVec F S64x256 .f32), BitVec 32 ← k0_part4 arg0 harg0 arg1 harg1 arg2 harg2 arg3 harg3 arg4 harg4 arg5 harg5 arg6 harg6 arg7 harg7 arg8 harg8 arg9 harg9 arg10 harg10 arg11 arg12 arg13 arg14 d0 v2 v78 v81 v82 c0_i32_65
  let ⟨v142, c8_i32_121⟩ : Σ' (v142 : FVec F S64x256 .f32), BitVec 32 ← k0_part5 arg0 harg0 arg1 harg1 arg2 harg2 arg3 harg3 arg4 harg4 arg5 harg5 arg6 harg6 arg7 harg7 arg8 harg8 arg9 harg9 arg10 harg10 arg11 arg12 arg13 arg14 d0 v2 v110 v113
  let v158 : FVec F S64x256 .f32 ← k0_part6 arg0 harg0 arg1 harg1 arg2 harg2 arg3 harg3 arg4 harg4 arg5 harg5 arg6 harg6 arg7 harg7 arg8 harg8 arg9 harg9 arg10 harg10 arg11 arg12 arg13 arg14 d0 v2 v142 c8_i32_121
  let v198 : BitVec 32 ← k0_part7 arg0 harg0 arg1 harg1 arg2 harg2 arg3 harg3 arg4 harg4 arg5 harg5 arg6 harg6 arg7 harg7 arg8 harg8 arg9 harg9 arg10 harg10 arg11 arg12 arg13 arg14 d0 v2 v158
  k0_part8 arg0 harg0 arg1 harg1 arg2 harg2 arg3 harg3 arg4 harg4 arg5 harg5 arg6 harg6 arg7 harg7 arg8 harg8 arg9 harg9 arg10 harg10 arg11 arg12 arg13 arg14 d0 v2 v198
  k0_part9 arg0 harg0 arg1 harg1 arg2 harg2 arg3 harg3 arg4 harg4 arg5 harg5 arg6 harg6 arg7 harg7 arg8 harg8 arg9 harg9 arg10 harg10 arg11 arg12 arg13 arg14 d0 v2
  let v296 : BitVec 32 ← k0_part10 arg0 harg0 arg1 harg1 arg2 harg2 arg3 harg3 arg4 harg4 arg5 harg5 arg6 harg6 arg7 harg7 arg8 harg8 arg9 harg9 arg10 harg10 arg11 arg12 arg13 arg14 d0 v2
  k0_part11 arg0 harg0 arg1 harg1 arg2 harg2 arg3 harg3 arg4 harg4 arg5 harg5 arg6 harg6 arg7 harg7 arg8 harg8 arg9 harg9 arg10 harg10 arg11 arg12 arg13 arg14 d0 v2 v296
  k0_part12 arg0 harg0 arg1 harg1 arg2 harg2 arg3 harg3 arg4 harg4 arg5 harg5 arg6 harg6 arg7 harg7 arg8 harg8 arg9 harg9 arg10 harg10 arg11 arg12 arg13 arg14 d0
  part13a arg0 harg0 arg1 harg1 arg2 harg2 arg3 harg3 arg4 harg4 arg5 harg5 arg6 harg6 arg7 harg7 arg8 harg8 arg9 harg9 arg10 harg10 arg11 arg12 arg13 arg14 d0 v2
  pure ⟨d0, v2⟩

theorem segA_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) :
    segA (F := F) arg0 harg0 arg1 harg1 arg2 harg2 arg3 harg3 arg4 harg4 arg5 harg5 arg6 harg6 arg7 harg7 arg8 harg8 arg9 harg9 arg10 harg10 arg11 arg12 arg13 arg14 = (do
      let r ← segA1 arg0 harg0 arg1 harg1 arg2 harg2 arg3 harg3 arg4 harg4 arg5 harg5 arg6 harg6 arg7 harg7 arg8 harg8 arg9 harg9 arg10 harg10 arg11 arg12 arg13 arg14
      segA2 arg0 harg0 arg1 harg1 arg2 harg2 arg3 harg3 arg4 harg4 arg5 harg5 arg6 harg6 arg7 harg7 arg8 harg8 arg9 harg9 arg10 harg10 arg11 arg12 arg13 arg14 r.1 r.2.1 r.2.2.1 r.2.2.2.1 r.2.2.2.2.1 r.2.2.2.2.2) := by
  unfold segA segA1 segA2
  simp only [bind_assoc, pure_bind]

variable (m : (ℓ : Loc nD τ sig) → Buf (Elt F) ℓ)

/-- Between the two halves of layer 0: the entry handshake is over, the layer's partial products are stored, its seven
    reduce copies are on their way, and the device's own chunk of its partial products is loaded. -/
def midA (K : GSem nD τ sig → ℕ) (c : Dev nD) (Ts : List (Dev nD)) (v78 : FVec F S64x256 .f32) : sProp 𝕄 :=
  iprop((invsAll m K ∗ reachedAll ∗ levAts L lv)
    ∗ ⌜v78 = k0_pay2 (chunkOf (P0 m c) c)⌝
    ∗ (∃ W, owes (c : Thread nD τ) (owesRedL c Ts 1 + owesRedL c Ts 2 + owesGatL c 0 + owesGatL c 1) W)
    ∗ bigSepL (ringF c) (fun p => iprop(dutyTok ER (gsCell c 0) 0 p ∗ dutyTok ER (grCell p 0 c) 0 c))
    ∗ bigSepL (ringF c) (fun p => iprop(∃ fd, piece p (gChunk 0 c) fullShare fd))
    ∗ posRed c 0 ∗ posGs c 0 ∗ posGr c Ts 0
    ∗ bigSepL Ts (fun _ => (cred (tallyAt (rsCell c 0) () N64) : sProp 𝕄))
    ∗ layerRes c Ts 1 ∗ layerRes c Ts 2
    ∗ posRest c
    ∗ ex c (pChunk 0 c) ∗ bigSep (Finset.univ : Finset (Dev nD)) (fun t => ex (F := F) c (pChunk 1 t))
    ∗ bigSep (Finset.univ : Finset (Dev nD)) (fun t => ex (F := F) c (pChunk 2 t))
    ∗ ex c (rSlot 0 c) ∗ ex c (rSlot 1 c) ∗ ex c (rSlot 2 c)
    ∗ ex c (gChunk 0 c) ∗ ex c (gChunk 1 c) ∗ chunksAll c Ts 2
    ∗ stagedIn m c ∗ (∃ X, stg c cc0_stg7_0 X))

end Cert.KernelProof

end
-- ==== Proof.K.BodySegBCut.lean ====
import proofs.«900993_g7700000000000994_dist_mlpseq_tp1d_rep_bs_b512_d256_h512_v7x_i8_bf16_1_alg».proof.Proof.K.BodyMid

/-! Layer 1 cut in two at a boundary of the printed parts: the first half waits for layer 0's gathered rows group by
    group, computes and stores the layer's partial product, sends its seven chunks and loads the device's own chunk;
    the second half adds the seven chunks it receives to its own, stores the sum as its rows of the next activation,
    sends those rows to the seven peers, and waits for all its copies to have left. Between the two the device holds
    `midB`: layer 1's reduce copies are out (seven credits on the reduce-send cell, the seven chunks lent), the partial
    product buffer is cut in chunks, and the loaded value is the device's own chunk of its partial product. -/

set_option maxRecDepth 65536

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- Layer 1 through the last reduce send and the load of the device's own chunk. -/
def segB1 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) (Σ' (v463 : FVec F S64x256 .f32), BitVec 32) := do
  let ⟨v363, v366, v380⟩ : Σ' (v363 : FVec F S256x512 .bf16) (v366 : FVec F S512x256 .bf16), FVec F S128x256 .bf16 ← part13b arg0 harg0 arg1 harg1 arg2 harg2 arg3 harg3 arg4 harg4 arg5 harg5 arg6 harg6 arg7 harg7 arg8 harg8 arg9 harg9 arg10 harg10 arg11 arg12 arg13 arg14 d0 v2
  let v411 : BitVec 32 ← k0_part14 arg0 harg0 arg1 harg1 arg2 harg2 arg3 harg3 arg4 harg4 arg5 harg5 arg6 harg6 arg7 harg7 arg8 harg8 arg9 harg9 arg10 harg10 arg11 arg12 arg13 arg14 d0 v2 v363 v366 v380
  k0_part15 arg0 harg0 arg1 harg1 arg2 harg2 arg3 harg3 arg4 harg4 arg5 harg5 arg6 harg6 arg7 harg7 arg8 harg8 arg9 harg9 arg10 harg10 arg11 arg12 arg13 arg14 d0 v2 v363 v366 v411
  k0_part16 arg0 harg0 arg1 harg1 arg2 harg2 arg3 harg3 arg4 harg4 arg5 harg5 arg6 harg6 arg7 harg7 arg8 harg8 arg9 harg9 arg10 harg10 arg11 arg12 arg13 arg14 d0 v2 v363 v366

/-- Layer 1 from the first wait of the accumulation on. -/
def segB2 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) (v463 : FVec F S64x256 .f32) (v466 : BitVec 32) :
    Prog (TpuEff nD τ sig (Elt F) Λ₀ .tc) PUnit := do
  let ⟨v495, v498, v499, c0_i32_432⟩ : Σ' (v495 : FVec F S64x256 .f32) (v498 : BitVec 32) (v499 : BitVec 32), BitVec 32 ← k0_part17 arg0 harg0 arg1 harg1 arg2 harg2 arg3 harg3 arg4 harg4 arg5 harg5 arg6 harg6 arg7 harg7 arg8 harg8 arg9 harg9 arg10 harg10 arg11 arg12 arg13 arg14 d0 v2 v463 v466
  let ⟨v527, v530⟩ : Σ' (v527 : FVec F S64x256 .f32), BitVec 32 ← k0_part18 arg0 harg0 arg1 harg1 arg2 harg2 arg3 harg3 arg4 harg4 arg5 harg5 arg6 harg6 arg7 harg7 arg8 harg8 arg9 harg9 arg10 harg10 arg11 arg12 arg13 arg14 d0 v2 v495 v498 v499 c0_i32_432
  let ⟨v559, c8_i32_488⟩ : Σ' (v559 : FVec F S64x256 .f32), BitVec 32 ← k0_part19 arg0 harg0 arg1 harg1 arg2 harg2 arg3 harg3 arg4 harg4 arg5 harg5 arg6 harg6 arg7 harg7 arg8 harg8 arg9 harg9 arg10 harg10 arg11 arg12 arg13 arg14 d0 v2 v527 v530
  k0_part20 arg0 harg0 arg1 harg1 arg2 harg2 arg3 harg3 arg4 harg4 arg5 harg5 arg6 harg6 arg7 harg7 arg8 harg8 arg9 harg9 arg10 harg10 arg11 arg12 arg13 arg14 d0 v2 v559 c8_i32_488
  k0_part21 arg0 harg0 arg1 harg1 arg2 harg2 arg3 harg3 arg4 harg4 arg5 harg5 arg6 harg6 arg7 harg7 arg8 harg8 arg9 harg9 arg10 harg10 arg11 arg12 arg13 arg14 d0 v2
  let ⟨v652, c8_i32_568⟩ : Σ' (v652 : BitVec 32), BitVec 32 ← k0_part22 arg0 harg0 arg1 harg1 arg2 harg2 arg3 harg3 arg4 harg4 arg5 harg5 arg6 harg6 arg7 harg7 arg8 harg8 arg9 harg9 arg10 harg10 arg11 arg12 arg13 arg14 d0 v2
  let v684 : BitVec 32 ← k0_part23 arg0 harg0 arg1 harg1 arg2 harg2 arg3 harg3 arg4 harg4 arg5 harg5 arg6 harg6 arg7 harg7 arg8 harg8 arg9 harg9 arg10 harg10 arg11 arg12 arg13 arg14 d0 v2 v652 c8_i32_568
  k0_part24 arg0 harg0 arg1 harg1 arg2 harg2 arg3 harg3 arg4 harg4 arg5 harg5 arg6 harg6 arg7 harg7 arg8 harg8 arg9 harg9 arg10 harg10 arg11 arg12 arg13 arg14 d0 v2 v684
  k0_part25 arg0 harg0 arg1 harg1 arg2 harg2 arg3 harg3 arg4 harg4 arg5 harg5 arg6 harg6 arg7 harg7 arg8 harg8 arg9 harg9 arg10 harg10 arg11 arg12 arg13 arg14 d0
  part26a arg0 harg0 arg1 harg1 arg2 harg2 arg3 harg3 arg4 harg4 arg5 harg5 arg6 harg6 arg7 harg7 arg8 harg8 arg9 harg9 arg10 harg10 arg11 arg12 arg13 arg14 d0 v2

theorem segB_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    segB (F := F) arg0 harg0 arg1 harg1 arg2 harg2 arg3 harg3 arg4 harg4 arg5 harg5 arg6 harg6 arg7 harg7 arg8 harg8 arg9 harg9 arg10 harg10 arg11 arg12 arg13 arg14 d0 v2 = (do
      let r ← segB1 arg0 harg0 arg1 harg1 arg2 harg2 arg3 harg3 arg4 harg4 arg5 harg5 arg6 harg6 arg7 harg7 arg8 harg8 arg9 harg9 arg10 harg10 arg11 arg12 arg13 arg14 d0 v2
      segB2 arg0 harg0 arg1 harg1 arg2 harg2 arg3 harg3 arg4 harg4 arg5 harg5 arg6 harg6 arg7 harg7 arg8 harg8 arg9 harg9 arg10 harg10 arg11 arg12 arg13 arg14 d0 v2 r.1 r.2) := by
  unfold segB segB1 segB2
  simp only [bind_assoc, pure_bind]

variable (m : (ℓ : Loc nD τ sig) → Buf (Elt F) ℓ)

/-- Between the two halves of layer 1. -/
def midB (K : GSem nD τ sig → ℕ) (c : Dev nD) (Ts : List (Dev nD)) (v463 : FVec F S64x256 .f32) : sProp 𝕄 :=
  iprop((invsAll m K ∗ reachedAll ∗ levAts L lv)
    ∗ ⌜v463 = k0_pay14 (chunkOf (P1 m c) c)⌝
    ∗ (∃ W, owes (c : Thread nD τ) (owesRedL c Ts 2 + owesGatL c 1) W)
    ∗ bigSepL (ringF c) (fun p => iprop(dutyTok ER (gsCell c 1) 0 p ∗ dutyTok ER (grCell p 1 c) 0 c))
    ∗ bigSepL (ringF c) (fun p => iprop(∃ fd, piece p (gChunk 1 c) fullShare fd))
    ∗ posRed c 1 ∗ posGs c 1 ∗ posGr c Ts 1
    ∗ bigSepL Ts (fun _ => (cred (tallyAt (rsCell c 1) () N64) : sProp 𝕄))
    ∗ layerRes c Ts 2
    ∗ posDoneRed c 0 ∗ posDoneGr c Ts 0 ∗ posRest c
    ∗ bigSep (Finset.univ : Finset (Dev nD)) (fun t => ex (F := F) c (pChunk 0 t)) ∗ ex c (pChunk 1 c)
    ∗ bigSep (Finset.univ : Finset (Dev nD)) (fun t => ex (F := F) c (pChunk 2 t))
    ∗ slotsBack c 0 ∗ ex c (rSlot 1 c) ∗ ex c (rSlot 2 c)
    ∗ chunksAll c Ts 0 ∗ ex c (gChunk 1 c) ∗ chunksAll c Ts 2
    ∗ stagedIn m c ∗ (∃ X, stg c cc0_stg7_0 X))

end Cert.KernelProof

end
-- ==== Proof.K.BodyMidC.lean ====
import proofs.«900993_g7700000000000994_dist_mlpseq_tp1d_rep_bs_b512_d256_h512_v7x_i8_bf16_1_alg».proof.Proof.K.BodyMid

/-! Layer 2 of the kernel cut in two between its last reduce send and its accumulation: the first half runs the four
    groups (the waits for layer 1's gathered chunks, the group's product, its two sends), the second adds up the eight
    partial products of the device's own rows — its own chunk and, in ring order backward, the seven that arrive —,
    writes the sum to the result's staging buffer and waits for its seven sends to have left. The printed part that holds
    the last two sends also begins the accumulation; it is cut after the second send. Between the halves the device owes
    nothing more: what it holds there, and what it holds when the program ends, are stated here. -/

set_option maxRecDepth 65536

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The program -/

/-- The twenty-ninth printed part up to its second reduce send: the last group's store and the sends to devices 6 and 7. -/
def part29a (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) (v748 : FVec F S256x512 .bf16) (v751 : FVec F S512x256 .bf16) (v828 : FVec F S128x256 .bf16) (cst_717 : FVec F S128x512 .f32) :
    Prog (TpuEff nD τ sig (Elt F) Λ₀ .tc) PUnit := do
  let v835 : Vec F S1x128x256 .bf16 ← Prog.lift (.load arg8 (Rect.unit (s := S3x512x256) ![2, 384, 0] S1x128x256.size inb_S3x512x256_S1x128x256_2_384_0).toLoadRect (View.loadsAt_vmem h_S1x128x256))
  Prog.lift (.store arg8 (Rect.unit (s := S3x512x256) ![2, 384, 0] S1x128x256.size inb_S3x512x256_S1x128x256_2_384_0) (k0_pay25 v748 v751 v828 cst_717) Finset.univ (View.stores_vmem h_S1x128x256 (harg8.storeExact_slice rfl _ packedbf16_S3x512x256_S1x128x256_2_384_0) (fun _ => rfl)) (.inl rfl))
  if k0_h55 : k0_cond55 d0 = 1#1 then do
    let v988 : DmaSems sig S1 := arg11.slice (Rect.unit (s := S3) ![2] S1.size inb_S3_S1_2)
    let v989 : DmaSems sig S_ := v988.squeeze S_ squeezes_S1_S_
    let v990 : DmaSems sig S1x1 := arg12.slice (Rect.unit (s := S3x8) (k0_off73 d0) S1x1.size (k0_off73_inb d0 k0_h55))
    let v991 : DmaSems sig S_ := v990.squeeze S_ squeezes_S1x1_S_
    let v992 : Memref sig .tc .vmem S1x1x64x256 .bf16 := arg9.slice (Rect.unit (s := S3x8x64x256) (k0_off74 d0) S1x1x64x256.size (k0_off74_inb d0 k0_h55)) (fun _ => rfl)
    let v993 : Memref sig .tc .vmem S64x256 .bf16 := v992.squeeze S64x256 squeezes_S1x1x64x256_S64x256
    let v994 : Memref sig .tc .vmem S1x64x256 .bf16 := arg8.slice (Rect.unit (s := S3x512x256) ![2, 384, 0] S1x64x256.size inb_S3x512x256_S1x64x256_2_384_0) (fun _ => rfl)
    let v995 : Memref sig .tc .vmem S64x256 .bf16 := v994.squeeze S64x256 squeezes_S1x64x256_S64x256
    Prog.lift (.enqueueDma v995 (.remote (Dev.tc (⟨k0_dev44, k0_dev44_lt d0 k0_h55⟩ : Dev nD)) v993 (.dma v989.sem)) (.dma v991.sem) ((harg8.wordExact_slice rfl _ wordsbf16_S3x512x256_S1x64x256_2_384_0).reshape _ _) ((harg9.wordExact_slice rfl _ (k0_off74_wordsbf16 d0 k0_h55)).reshape _ _) ⟨⟨rfl, Or.inl rfl⟩, trivial⟩)
    pure ⟨⟩
  else do
    pure ⟨⟩
  if k0_h56 : k0_cond56 d0 = 1#1 then do
    let v988 : DmaSems sig S1 := arg11.slice (Rect.unit (s := S3) ![2] S1.size inb_S3_S1_2)
    let v989 : DmaSems sig S_ := v988.squeeze S_ squeezes_S1_S_
    let v990 : DmaSems sig S1x1 := arg12.slice (Rect.unit (s := S3x8) (k0_off75 d0) S1x1.size (k0_off75_inb d0 k0_h56))
    let v991 : DmaSems sig S_ := v990.squeeze S_ squeezes_S1x1_S_
    let v992 : Memref sig .tc .vmem S1x1x64x256 .bf16 := arg9.slice (Rect.unit (s := S3x8x64x256) (k0_off76 d0) S1x1x64x256.size (k0_off76_inb d0 k0_h56)) (fun _ => rfl)
    let v993 : Memref sig .tc .vmem S64x256 .bf16 := v992.squeeze S64x256 squeezes_S1x1x64x256_S64x256
    let v994 : Memref sig .tc .vmem S1x64x256 .bf16 := arg8.slice (Rect.unit (s := S3x512x256) ![2, 448, 0] S1x64x256.size inb_S3x512x256_S1x64x256_2_448_0) (fun _ => rfl)
    let v995 : Memref sig .tc .vmem S64x256 .bf16 := v994.squeeze S64x256 squeezes_S1x64x256_S64x256
    Prog.lift (.enqueueDma v995 (.remote (Dev.tc (⟨k0_dev45, k0_dev45_lt d0 k0_h56⟩ : Dev nD)) v993 (.dma v989.sem)) (.dma v991.sem) ((harg8.wordExact_slice rfl _ wordsbf16_S3x512x256_S1x64x256_2_448_0).reshape _ _) ((harg9.wordExact_slice rfl _ (k0_off76_wordsbf16 d0 k0_h56)).reshape _ _) ⟨⟨rfl, Or.inl rfl⟩, trivial⟩)
    pure ⟨⟩
  else do
    pure ⟨⟩
/-- The rest of that part: the load of the device's own chunk and the wait for the first chunk that arrives. -/
def part29b (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) (Σ' (v848 : FVec F S64x256 .f32), BitVec 32) := do
  let v846 : Vec F S1x64x256 .bf16 ← Prog.lift (.load arg8 (Rect.unit (s := S3x512x256) (k0_off77 d0) S1x64x256.size (k0_off77_inb d0)).toLoadRect (View.loadsAt_vmem h_S1x64x256))
  let v849 : BitVec 32 := Scalar.addi v2 8#32
  let v850 : BitVec 32 := Scalar.subi v849 1#32
  let v851 : BitVec 32 := Scalar.remsi v850 8#32
  let v854 : DmaSems sig S1x1 := arg12.slice (Rect.unit (s := S3x8) (k0_off78 d0 1#32) S1x1.size (k0_off78_inb d0 0))
  let v855 : DmaSems sig S_ := v854.squeeze S_ squeezes_S1x1_S_
  let v856 : Memref sig .tc .vmem S1x1x64x256 .bf16 := arg9.slice (Rect.unit (s := S3x8x64x256) (k0_off79 d0 1#32) S1x1x64x256.size (k0_off79_inb d0 0)) (fun _ => rfl)
  let v857 : Memref sig .tc .vmem S64x256 .bf16 := v856.squeeze S64x256 squeezes_S1x1x64x256_S64x256
  let v858 : Memref sig .tc .vmem S1x1x64x256 .bf16 := arg9.slice (Rect.unit (s := S3x8x64x256) (k0_off79 d0 1#32) S1x1x64x256.size (k0_off79_inb d0 0)) (fun _ => rfl)
  let v859 : Memref sig .tc .vmem S64x256 .bf16 := v858.squeeze S64x256 squeezes_S1x1x64x256_S64x256
  Prog.lift (.waitDma2 v855.sem v859 v857 ((harg9.wordExact_slice rfl _ (k0_off79_wordsbf16 d0 0)).reshape _ _) ((harg9.wordExact_slice rfl _ (k0_off79_wordsbf16 d0 0)).reshape _ _))
  pure ⟨k0_pay26 v846, v851⟩

/-- Layer 2 through its last reduce send. -/
def segC1 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) PUnit := do
  let ⟨v748, v751⟩ : Σ' (v748 : FVec F S256x512 .bf16), FVec F S512x256 .bf16 ← part26b arg0 harg0 arg1 harg1 arg2 harg2 arg3 harg3 arg4 harg4 arg5 harg5 arg6 harg6 arg7 harg7 arg8 harg8 arg9 harg9 arg10 harg10 arg11 arg12 arg13 arg14 d0 v2
  let v799 : BitVec 32 ← k0_part27 arg0 harg0 arg1 harg1 arg2 harg2 arg3 harg3 arg4 harg4 arg5 harg5 arg6 harg6 arg7 harg7 arg8 harg8 arg9 harg9 arg10 harg10 arg11 arg12 arg13 arg14 d0 v2 v748 v751
  let ⟨v828, cst_717⟩ : Σ' (v828 : FVec F S128x256 .bf16), FVec F S128x512 .f32 ← k0_part28 arg0 harg0 arg1 harg1 arg2 harg2 arg3 harg3 arg4 harg4 arg5 harg5 arg6 harg6 arg7 harg7 arg8 harg8 arg9 harg9 arg10 harg10 arg11 arg12 arg13 arg14 d0 v2 v748 v751 v799
  part29a arg0 harg0 arg1 harg1 arg2 harg2 arg3 harg3 arg4 harg4 arg5 harg5 arg6 harg6 arg7 harg7 arg8 harg8 arg9 harg9 arg10 harg10 arg11 arg12 arg13 arg14 d0 v2 v748 v751 v828 cst_717

/-- The accumulation of layer 2, the result's store and the waits for the sends. -/
def segC2 (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    Prog (TpuEff nD τ sig (Elt F) Λ₀ .tc) PUnit := do
  let ⟨v848, v851⟩ : Σ' (v848 : FVec F S64x256 .f32), BitVec 32 ← part29b arg0 harg0 arg1 harg1 arg2 harg2 arg3 harg3 arg4 harg4 arg5 harg5 arg6 harg6 arg7 harg7 arg8 harg8 arg9 harg9 arg10 harg10 arg11 arg12 arg13 arg14 d0 v2
  let ⟨v880, v883⟩ : Σ' (v880 : FVec F S64x256 .f32), BitVec 32 ← k0_part30 arg0 harg0 arg1 harg1 arg2 harg2 arg3 harg3 arg4 harg4 arg5 harg5 arg6 harg6 arg7 harg7 arg8 harg8 arg9 harg9 arg10 harg10 arg11 arg12 arg13 arg14 d0 v2 v848 v851
  let ⟨v912, v915, v916, c0_i32_802⟩ : Σ' (v912 : FVec F S64x256 .f32) (v915 : BitVec 32) (v916 : BitVec 32), BitVec 32 ← k0_part31 arg0 harg0 arg1 harg1 arg2 harg2 arg3 harg3 arg4 harg4 arg5 harg5 arg6 harg6 arg7 harg7 arg8 harg8 arg9 harg9 arg10 harg10 arg11 arg12 arg13 arg14 d0 v2 v880 v883
  let ⟨v944, v947⟩ : Σ' (v944 : FVec F S64x256 .f32), BitVec 32 ← k0_part32 arg0 harg0 arg1 harg1 arg2 harg2 arg3 harg3 arg4 harg4 arg5 harg5 arg6 harg6 arg7 harg7 arg8 harg8 arg9 harg9 arg10 harg10 arg11 arg12 arg13 arg14 d0 v2 v912 v915 v916 c0_i32_802
  k0_part33 arg0 harg0 arg1 harg1 arg2 harg2 arg3 harg3 arg4 harg4 arg5 harg5 arg6 harg6 arg7 harg7 arg8 harg8 arg9 harg9 arg10 harg10 arg11 arg12 arg13 arg14 d0 v2 v944 v947

  if k0_h62 : k0_cond62 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 320, 0] S1x64x256.size inb_S3x512x256_S1x64x256_2_320_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off86 d0) S1x1x64x256.size (k0_off86_inb d0 k0_h62)) (fun _ => rfl)
    let v991 : Memref sig .tc .vmem S64x256 .bf16 := v990.squeeze S64x256 squeezes_S1x1x64x256_S64x256
    Prog.lift (.waitDma2 v987.sem v991 v989 ((harg9.wordExact_slice rfl _ (k0_off86_wordsbf16 d0 k0_h62)).reshape _ _) ((harg8.wordExact_slice rfl _ wordsbf16_S3x512x256_S1x64x256_2_320_0).reshape _ _))
    pure ⟨⟩
  else do
    pure ⟨⟩

  if k0_h63 : k0_cond63 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 384, 0] S1x64x256.size inb_S3x512x256_S1x64x256_2_384_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off87 d0) S1x1x64x256.size (k0_off87_inb d0 k0_h63)) (fun _ => rfl)
    let v991 : Memref sig .tc .vmem S64x256 .bf16 := v990.squeeze S64x256 squeezes_S1x1x64x256_S64x256
    Prog.lift (.waitDma2 v987.sem v991 v989 ((harg9.wordExact_slice rfl _ (k0_off87_wordsbf16 d0 k0_h63)).reshape _ _) ((harg8.wordExact_slice rfl _ wordsbf16_S3x512x256_S1x64x256_2_384_0).reshape _ _))
    pure ⟨⟩
  else do
    pure ⟨⟩

  if k0_h64 : k0_cond64 d0 = 1#1 then do
    let v986 : DmaSems sig S1 := arg11.slice (Rect.unit (s := S3) ![2] S1.size inb_S3_S1_2)
    let v987 : DmaSems sig S_ := v986.squeeze S_ squeezes_S1_S_
    let v988 : Memref sig .tc .vmem S1x64x256 .bf16 := arg8.slice (Rect.unit (s := S3x512x256) ![2, 448, 0] S1x64x256.size inb_S3x512x256_S1x64x256_2_448_0) (fun _ => rfl)
    let v989 : Memref sig .tc .vmem S64x256 .bf16 := v988.squeeze S64x256 squeezes_S1x64x256_S64x256
    let v990 : Memref sig .tc .vmem S1x1x64x256 .bf16 := arg9.slice (Rect.unit (s := S3x8x64x256) (k0_off88 d0) S1x1x64x256.size (k0_off88_inb d0 k0_h64)) (fun _ => rfl)
    let v991 : Memref sig .tc .vmem S64x256 .bf16 := v990.squeeze S64x256 squeezes_S1x1x64x256_S64x256
    Prog.lift (.waitDma2 v987.sem v991 v989 ((harg9.wordExact_slice rfl _ (k0_off88_wordsbf16 d0 k0_h64)).reshape _ _) ((harg8.wordExact_slice rfl _ wordsbf16_S3x512x256_S1x64x256_2_448_0).reshape _ _))
    pure ⟨⟩
  else do
    pure ⟨⟩
  pure ⟨⟩

/-- A program that branches and then goes on is the branching of the two programs that go on. -/
theorem dite_bind_prog {E : Type → Type} {α β : Type} {p : Prop} [Decidable p] (A : p → Prog E α) (B : ¬p → Prog E α) (f : α → Prog E β) :
    (dite p A B >>= f) = dite p (fun h => A h >>= f) (fun h => B h >>= f) := by
  split <;> rfl

/-- Layer 2 is its two halves in sequence. -/
theorem segC_split (arg0 : Memref sig .tc .vmem S512x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S64x256 .f32) (harg7 : arg7.IsWhole) (arg8 : Memref sig .tc .vmem S3x512x256 .bf16) (harg8 : arg8.IsWhole) (arg9 : Memref sig .tc .vmem S3x8x64x256 .bf16) (harg9 : arg9.IsWhole) (arg10 : Memref sig .tc .vmem S3x512x256 .bf16) (harg10 : arg10.IsWhole) (arg11 : DmaSems sig S3) (arg12 : DmaSems sig S3x8) (arg13 : DmaSems sig S3) (arg14 : DmaSems sig S3x8) (d0 : Dev nD) (v2 : BitVec 32) :
    segC (F := F) arg0 harg0 arg1 harg1 arg2 harg2 arg3 harg3 arg4 harg4 arg5 harg5 arg6 harg6 arg7 harg7 arg8 harg8 arg9 harg9 arg10 harg10 arg11 arg12 arg13 arg14 d0 v2 = (do
      segC1 arg0 harg0 arg1 harg1 arg2 harg2 arg3 harg3 arg4 harg4 arg5 harg5 arg6 harg6 arg7 harg7 arg8 harg8 arg9 harg9 arg10 harg10 arg11 arg12 arg13 arg14 d0 v2
      segC2 arg0 harg0 arg1 harg1 arg2 harg2 arg3 harg3 arg4 harg4 arg5 harg5 arg6 harg6 arg7 harg7 arg8 harg8 arg9 harg9 arg10 harg10 arg11 arg12 arg13 arg14 d0 v2) := by
  unfold segC segC1 segC2
  rw [k0_part29_eq_skeleton]
  unfold k0_part29_skel part29a part29b
  simp only [bind_assoc, pure_bind, dite_bind_prog]

variable (m : (ℓ : Loc nD τ sig) → Buf (Elt F) ℓ)

/-! ## What the device holds between the halves, and at the end -/

/-- The eight chunks of layer `l` of the partial-product buffer, all held. -/
def chunksP (c : Dev nD) (Ts : List (Dev nD)) (l : Fin 3) : sProp 𝕄 := iprop(ex c (pChunk l c) ∗ bigSepL Ts (fun t => ex (F := F) c (pChunk l t)))

/-- After layer 2's seven reduce sends: nothing is owed any more; the seven chunks sent are with their copies, each
    send having left the credit for one wait on the send cell; the device's own chunk holds its partial product; layer
    1's gathered chunks have all been waited for. -/
def mid3 (K : GSem nD τ sig → ℕ) (c : Dev nD) (Ts : List (Dev nD)) : sProp 𝕄 :=
  iprop((invsAll m K ∗ reachedAll ∗ levAts L lv)
    ∗ (∃ W, owes (c : Thread nD τ) 0 W)
    ∗ posRed c 2 ∗ bigSepL Ts (fun _ => (cred (tallyAt (rsCell c 2) () N64) : sProp 𝕄))
    ∗ posDoneRed c 0 ∗ posDoneRed c 1 ∗ posDoneGr c Ts 0 ∗ posDoneGr c Ts 1 ∗ posRest c
    ∗ chunksP c Ts 0 ∗ chunksP c Ts 1 ∗ piece c (pChunk 2 c) fullShare (Pfun m c)
    ∗ slotsBack c 0 ∗ slotsBack c 1 ∗ ex c (rSlot 2 c)
    ∗ chunksAll c Ts 0 ∗ chunksAll c Ts 1 ∗ chunksAll c Ts 2
    ∗ stagedIn m c ∗ (∃ X, stg c cc0_stg7_0 X))

/-- When the program ends: every cell that had duties stands after its round, every piece of the three scratch buffers
    is back, and the result's staging buffer holds the device's rows of the last layer's sum. -/
def midE (K : GSem nD τ sig → ℕ) (c : Dev nD) (Ts : List (Dev nD)) : sProp 𝕄 :=
  iprop((invsAll m K ∗ reachedAll ∗ levAts L lv)
    ∗ (∃ W, owes (c : Thread nD τ) 0 W)
    ∗ posDoneRed c 0 ∗ posDoneRed c 1 ∗ posDoneRed c 2 ∗ posDoneGr c Ts 0 ∗ posDoneGr c Ts 1 ∗ posRest c
    ∗ chunksP c Ts 0 ∗ chunksP c Ts 1 ∗ chunksP c Ts 2
    ∗ slotsBack c 0 ∗ slotsBack c 1 ∗ slotsBack c 2
    ∗ chunksAll c Ts 0 ∗ chunksAll c Ts 1 ∗ chunksAll c Ts 2
    ∗ stagedIn m c ∗ stg c cc0_stg7_0 (outAt m c))

end Cert.KernelProof

end
-- ==== Proof.K.BodyCompose2.lean ====
import proofs.«900993_g7700000000000994_dist_mlpseq_tp1d_rep_bs_b512_d256_h512_v7x_i8_bf16_1_alg».proof.Proof.K.BodyCompose
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.BodySegBCut
import proofs.«900993_g7700000000000994_dist_mlpseq_tp1d_rep_bs_b512_d256_h512_v7x_i8_bf16_1_alg».proof.Proof.K.BodyMidC

/-! The body from the six halves of its three segments and the exit. -/

set_option maxRecDepth 65536

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem body_of_halves (c : Dev nD) (Ts : List (Dev nD)) (K : GSem nD τ sig → ℕ) (Kt : PUnit → sProp 𝕄)
    (hA1 : ∀ Kt' : (Σ' (d0 : Dev nD) (v2 : BitVec 32) (v78 : FVec F S64x256 .f32) (v81 : BitVec 32) (v82 : BitVec 32), BitVec 32) → sProp 𝕄,
      iprop(bodyPre m K c ∗ (∀ v78 v81 v82 c0, midA m K c Ts v78 -∗ Kt' ⟨c, devWord c, v78, v81, v82, c0⟩)) ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt')
    (hA2 : ∀ (Kt' : (Σ' (d0 : Dev nD), BitVec 32) → sProp 𝕄) v78 v81 v82 c0,
      iprop(midA m K c Ts v78 ∗ (mid1 m K c Ts -∗ Kt' ⟨c, devWord c⟩)) ⊢ wp frame (wpE (defs₀ (F := F)) 𝒱₀ (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt')
    (hB1 : ∀ Kt' : (Σ' (v463 : FVec F S64x256 .f32), BitVec 32) → sProp 𝕄,
      iprop(mid1 m K c Ts ∗ (∀ v466, midB m K c Ts (k0_pay14 (chunkOf (P1 m c) c)) -∗ Kt' ⟨k0_pay14 (chunkOf (P1 m c) c), v466⟩)) ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt')
    (hB2 : ∀ (Kt' : PUnit → sProp 𝕄) v463 v466,
      iprop(midB m K c Ts v463 ∗ (mid2 m K c Ts -∗ Kt' ⟨⟩)) ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt')
    (hC1 : ∀ Kt' : PUnit → sProp 𝕄,
      iprop(mid2 m K c Ts ∗ (mid3 m K c Ts -∗ Kt' ⟨⟩)) ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt')
    (hC2 : ∀ Kt' : PUnit → sProp 𝕄,
      iprop(mid3 m K c Ts ∗ (bodyPost m c -∗ Kt' ⟨⟩)) ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt') :
    iprop(bodyPre m K c ∗ (bodyPost m c -∗ Kt ⟨⟩)) ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  refine body_of_segs m c Ts K Kt ?_ ?_ ?_
  · intro Kt'
    rw [segA_split]; simp only [wp_bind]
    iintro ⟨Hpre, Hk⟩
    iapply (hA1 _)
    isplitl [Hpre]; · iexact Hpre
    iintro %v78 %v81 %v82 %c0 HmA
    iapply (hA2 _ v78 v81 v82 c0)
    isplitl [HmA]; · iexact HmA
    iexact Hk
  · intro Kt'
    rw [segB_split]; simp only [wp_bind]
    iintro ⟨Hm1, Hk⟩
    iapply (hB1 _)
    isplitl [Hm1]; · iexact Hm1
    iintro %v466 HmB
    iapply (hB2 _ _ v466)
    isplitl [HmB]; · iexact HmB
    iexact Hk
  · intro Kt'
    rw [segC_split]; simp only [wp_bind]
    iintro ⟨Hm2, Hk⟩
    iapply (hC1 _)
    isplitl [Hm2]; · iexact Hm2
    iintro Hm3
    iapply (hC2 _)
    isplitl [Hm3]; · iexact Hm3
    iexact Hk

end Cert.KernelProof

end
-- ==== Proof.K.Waits.lean ====
import proofs.«900993_g7700000000000994_dist_mlpseq_tp1d_rep_bs_b512_d256_h512_v7x_i8_bf16_1_alg».proof.Proof.K.SchedTables
import proofs.«900993_g7700000000000994_dist_mlpseq_tp1d_rep_bs_b512_d256_h512_v7x_i8_bf16_1_alg».proof.Proof.K.Levels

/-! The seven waits on a send cell. A device waits seven times, a piece's credit each, on each of its send cells: the seven
    departures of a layer's copies are ONE round of seven duties of that credit, so the first six waits consume part of
    the round and the seventh its rest. Between two waits the device holds its position on the cell — round 0, the set
    `S` of duties whose payloads it has been handed so far, `k` pieces' credit consumed — and those payloads; a wait for
    part of the round hands it the payloads of whichever further duties have landed (possibly none), and the wait for
    the rest of the round the payloads of all that remain, so that after the seventh it holds the whole round's. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A `bigSep` is the one over a subset and the one over the rest (with the proof mode's `∗`). -/
theorem bigSep_sdiff_split' {M : Type} [URA M] {I : Type} [DecidableEq I] {s t : Finset I} (h : t ⊆ s) (Φ : I → sProp M) :
    bigSep s Φ = iprop(bigSep t Φ ∗ bigSep (s \ t) Φ) := bigSep_sdiff_split h

/-! ## Between two waits -/

/-- After `k` waits of a piece's credit on cell `g`: the owner stands in round 0 having consumed `k` pieces' credit, and
    holds the payloads of the duties `S` it has been handed so far. -/
def waited (g : GSem nD τ sig) (k : ℕ) : sProp 𝕄 :=
  iprop(∃ S : Finset (Dev nD), ⌜S ⊆ (sched m).duties g 0⌝ ∗ atPos ER g 0 S (k * N64) ∗ bigSep S (fun d => (sched m).payload g 0 d))

/-- Before the first wait nothing is consumed and nothing held. -/
theorem waited_zero (g : GSem nD τ sig) : (atPos ER g 0 ∅ 0 : sProp 𝕄) ⊢ waited m g 0 := by
  unfold waited
  iintro Hat
  iexists (∅ : Finset (Dev nD))
  isplitr; · ipureintro; exact Finset.empty_subset _
  isplitl [Hat]; · rw [Nat.zero_mul]; iexact Hat
  rw [bigSep_empty]; iempintro

/-! ## One wait, by either wait effect, on any cell of the device -/

/-- A wait of a piece's credit that is not the round's last: the owner moves on in round 0, one more piece consumed, and
    keeps what it held together with the payloads of the duties that have landed since. -/
theorem wp_wait_step (𝒱 : Variants) (c : Dev nD) (sm : SemLoc sig) (κ : ℕ) (k : ℕ)
    {w : TpuEff nD τ sig (Elt F) Λ₀ (c : Thread nD τ).2 PUnit}
    (hw : ∀ K : PUnit → sProp 𝕄, wpE (defs₀ (F := F)) 𝒱 (c : Thread nD τ) none Set.univ w K = waitSpec (c : Thread nD τ) Set.univ sm N64 K)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ ((c : Thread nD τ), sm) ∗ cred (tallyAt ((c : Thread nD τ), sm) () N64) ∗ owes (c : Thread nD τ) O W
        ∗ MayWait (c : Thread nD τ) sm () O ∗ waited m ((c : Thread nD τ), sm) k)
      ⊢ iprop(((owes (c : Thread nD τ) O (insert (sm, ()) W) ∗ waited m ((c : Thread nD τ), sm) (k + 1))
            -∗ wp frame (wpE (defs₀ (F := F)) 𝒱 (c : Thread nD τ) none) Set.univ (kont ⟨⟩) Q)
          -∗ wp frame (wpE (defs₀ (F := F)) 𝒱 (c : Thread nD τ) none) Set.univ (.op w kont) Q) := by
  unfold waited
  iintro ⟨#HI, Hc, HO, #Hmw, ⟨%S, %hS, Hat, Hpay⟩⟩ Hk
  iapply (Rounds.wp_wait 𝒱 ER (sched m) (c : Thread nD τ) none (κ := κ) hw (Set.mem_univ _) {(sm, ())} (cr := Finsupp.single () N64)
      (O := O) (W := W) (R := 0) (m := k * N64) (T := S) (by rw [Util.total_single]) (image_single_subset sm () N64)) $$ [Hc HO Hat]
  · isplitr; · iexact HI
    isplitl [Hc]; · iexact Hc
    isplitl [HO]; · iexact HO
    isplitr; · iexact Hmw
    iexact Hat
  iintro %S' ⟨%hS', HO, Hat, Hnew⟩
  iapply Hk
  isplitl [HO]; · rw [Finset.insert_eq, Finset.union_comm]; iexact HO
  iexists S'
  isplitr; · ipureintro; exact hS'.2.1
  isplitl [Hat]; · rw [Nat.succ_mul]; iexact Hat
  rw [bigSep_sdiff_split' hS'.1]
  isplitl [Hpay]; · iexact Hpay
  iexact Hnew

/-- The round's last wait (the `(k + 1)`-th of a round of `k + 1` pieces): the owner comes back at round 1, round 1
    reached, holding the payloads of the whole of round 0 — what it held and the rest. -/
theorem wp_wait_last (𝒱 : Variants) (c : Dev nD) (sm : SemLoc sig) (κ : ℕ) (k : ℕ)
    (hexp : (sched m).expect ((c : Thread nD τ), sm) 0 = (k + 1) * N64)
    {w : TpuEff nD τ sig (Elt F) Λ₀ (c : Thread nD τ).2 PUnit}
    (hw : ∀ K : PUnit → sProp 𝕄, wpE (defs₀ (F := F)) 𝒱 (c : Thread nD τ) none Set.univ w K = waitSpec (c : Thread nD τ) Set.univ sm N64 K)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ ((c : Thread nD τ), sm) ∗ cred (tallyAt ((c : Thread nD τ), sm) () N64) ∗ owes (c : Thread nD τ) O W
        ∗ MayWait (c : Thread nD τ) sm () O ∗ waited m ((c : Thread nD τ), sm) k)
      ⊢ iprop(((owes (c : Thread nD τ) O (insert (sm, ()) W) ∗ atPos ER ((c : Thread nD τ), sm) 1 ∅ 0 ∗ reached ER ((c : Thread nD τ), sm) 1
              ∗ bigSep ((sched m).duties ((c : Thread nD τ), sm) 0) (fun d => (sched m).payload ((c : Thread nD τ), sm) 0 d))
            -∗ wp frame (wpE (defs₀ (F := F)) 𝒱 (c : Thread nD τ) none) Set.univ (kont ⟨⟩) Q)
          -∗ wp frame (wpE (defs₀ (F := F)) 𝒱 (c : Thread nD τ) none) Set.univ (.op w kont) Q) := by
  unfold waited
  iintro ⟨#HI, Hc, HO, #Hmw, ⟨%S, %hS, Hat, Hpay⟩⟩ Hk
  iapply (Rounds.wp_wait_rest_token 𝒱 ER (sched m) (c : Thread nD τ) none (κ := κ) hw (Set.mem_univ _) () (O := O) (W := W)
      (R := 0) (m := k * N64) (T := S) (by rw [hexp, Nat.succ_mul])) $$ [Hc HO Hat]
  · isplitr; · iexact HI
    isplitl [Hc]; · iexact Hc
    isplitl [HO]; · iexact HO
    isplitr; · iexact Hmw
    iexact Hat
  iintro ⟨HO, Hat, Hr, Hrest⟩
  iapply Hk
  isplitl [HO]; · iexact HO
  isplitl [Hat]; · iexact Hat
  isplitl [Hr]; · iexact Hr
  rw [bigSep_sdiff_split' hS]
  isplitl [Hpay]; · iexact Hpay
  iexact Hrest

/-! ## The kernel's waits: a DMA wait whose destination view carries a piece's credit -/

/-- The clause of such a wait is the wait clause at the semaphore's cell for a piece's credit. -/
theorem waitDma2_clause (𝒱 : Variants) (c : Dev nD) (q : DmaSem sig)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64) (K : PUnit → sProp 𝕄) :
    wpE (defs₀ (F := F)) 𝒱 (c : Thread nD τ) none Set.univ (.waitDma2 q src dst h₁ h₂) K = waitSpec (c : Thread nD τ) Set.univ (.dma q) N64 K :=
  (wpE_waitDma2_eq 𝒱 (c : Thread nD τ) none Set.univ K).trans (by rw [hcr])

/-- One of the first six waits on the reduce-send cell of layer `l`. -/
theorem wp_rs_step (𝒱 : Variants) (c : Dev nD) (l : Fin 3) (κ : ℕ) (k : ℕ) {q : DmaSem sig} (hq : q = rsS l)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (rsCell c l) ∗ cred (tallyAt (rsCell c l) () N64) ∗ owes (c : Thread nD τ) O W
        ∗ MayWait (c : Thread nD τ) (.dma (rsS l)) () O ∗ waited m (rsCell c l) k)
      ⊢ iprop(((owes (c : Thread nD τ) O (insert (.dma (rsS l), ()) W) ∗ waited m (rsCell c l) (k + 1))
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  exact wp_wait_step m 𝒱 c (.dma (rsS l)) κ k (waitDma2_clause 𝒱 c (rsS l) hcr)

/-- The seventh wait on the reduce-send cell of layer `l`: the seven chunks are back. -/
theorem wp_rs_last (𝒱 : Variants) (c : Dev nD) (l : Fin 3) (κ : ℕ) {q : DmaSem sig} (hq : q = rsS l)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (rsCell c l) ∗ cred (tallyAt (rsCell c l) () N64) ∗ owes (c : Thread nD τ) O W
        ∗ MayWait (c : Thread nD τ) (.dma (rsS l)) () O ∗ waited m (rsCell c l) 6)
      ⊢ iprop(((owes (c : Thread nD τ) O (insert (.dma (rsS l), ()) W) ∗ atPos ER (rsCell c l) 1 ∅ 0 ∗ reached ER (rsCell c l) 1
              ∗ bigSep (peers c) (fun t => rsPay m c l t))
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  have h := wp_wait_last m 𝒱 c (.dma (rsS l)) κ 6 (expect_rs m c l) (w := .waitDma2 (rsS l) src dst h₁ h₂) (waitDma2_clause 𝒱 c (rsS l) hcr)
    (kont := kont) (Q := Q) (O := O) (W := W)
  rw [show (sched m).duties ((c : Thread nD τ), SemLoc.dma (rsS l)) 0 = peers c from duties_rs m c l,
    show (fun d => (sched m).payload ((c : Thread nD τ), SemLoc.dma (rsS l)) 0 d) = fun t => rsPay m c l t from funext fun t => payload_rs m c l t] at h
  exact h

/-- One of the first six waits on the gather-send cell of layer `l`. -/
theorem wp_gs_step (𝒱 : Variants) (c : Dev nD) (l : Fin 3) (κ : ℕ) (k : ℕ) {q : DmaSem sig} (hq : q = gsS l)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (gsCell c l) ∗ cred (tallyAt (gsCell c l) () N64) ∗ owes (c : Thread nD τ) O W
        ∗ MayWait (c : Thread nD τ) (.dma (gsS l)) () O ∗ waited m (gsCell c l) k)
      ⊢ iprop(((owes (c : Thread nD τ) O (insert (.dma (gsS l), ()) W) ∗ waited m (gsCell c l) (k + 1))
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  exact wp_wait_step m 𝒱 c (.dma (gsS l)) κ k (waitDma2_clause 𝒱 c (gsS l) hcr)

/-- The seventh wait on the gather-send cell of layer `l < 2`: the seven shares of the device's reduced rows are back. -/
theorem wp_gs_last (𝒱 : Variants) (c : Dev nD) (l : Fin 3) (hl : l.val < 2) (κ : ℕ) {q : DmaSem sig} (hq : q = gsS l)
    {sp sp' : Space} {s s' : Shape} {e e' : EltTy} {src : Memref sig (c : Thread nD τ).2.kind sp' s' e'} {κ' : Kind} {dst : Memref sig κ' sp s e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (gsCell c l) ∗ cred (tallyAt (gsCell c l) () N64) ∗ owes (c : Thread nD τ) O W
        ∗ MayWait (c : Thread nD τ) (.dma (gsS l)) () O ∗ waited m (gsCell c l) 6)
      ⊢ iprop(((owes (c : Thread nD τ) O (insert (.dma (gsS l), ()) W) ∗ atPos ER (gsCell c l) 1 ∅ 0 ∗ reached ER (gsCell c l) 1
              ∗ bigSep (peers c) (fun t => gsPay m c l t))
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  have h := wp_wait_last m 𝒱 c (.dma (gsS l)) κ 6 (expect_gs m c l hl) (w := .waitDma2 (gsS l) src dst h₁ h₂) (waitDma2_clause 𝒱 c (gsS l) hcr)
    (kont := kont) (Q := Q) (O := O) (W := W)
  rw [show (sched m).duties ((c : Thread nD τ), SemLoc.dma (gsS l)) 0 = peers c from duties_gs m c l hl,
    show (fun d => (sched m).payload ((c : Thread nD τ), SemLoc.dma (gsS l)) 0 d) = fun t => gsPay m c l t from funext fun t => payload_gs m c l t] at h
  exact h

/-- info: 'Cert.KernelProof.wp_wait_step' depends on axioms: [propext, Classical.choice, Quot.sound] -/
#guard_msgs in #print axioms wp_wait_step

/-- info: 'Cert.KernelProof.wp_wait_last' depends on axioms: [propext, Classical.choice, Quot.sound] -/
#guard_msgs in #print axioms wp_wait_last

/-- info: 'Cert.KernelProof.wp_rs_last' depends on axioms: [propext, Classical.choice, Quot.sound] -/
#guard_msgs in #print axioms wp_rs_last

/-- info: 'Cert.KernelProof.wp_gs_last' depends on axioms: [propext, Classical.choice, Quot.sound] -/
#guard_msgs in #print axioms wp_gs_last

end Cert.KernelProof

end
-- ==== Proof.K.StepsReduce.lean ====
import proofs.«900993_g7700000000000994_dist_mlpseq_tp1d_rep_bs_b512_d256_h512_v7x_i8_bf16_1_alg».proof.Proof.K.SchedTables
import proofs.«900993_g7700000000000994_dist_mlpseq_tp1d_rep_bs_b512_d256_h512_v7x_i8_bf16_1_alg».proof.Proof.K.Waits

/-! The two steps of a layer's reduction that cross devices.

    Sending: device `c` enqueues the copy of chunk `t` of its partial product into slot `(l, c)` of device `t`'s receive
    buffer. It pays two duties at once: duty `t` of its own reduce-send cell (the chunk comes back when it has been read
    out) and duty `c` of `t`'s reduce-receive cell `(l, c)` (the slot holding the chunk, written over whatever the slot
    held). What it owed `t`'s cell is settled; it gains the credit to wait on its own send cell.
    Receiving: device `c` waits on its reduce-receive cell `(l, s)` for the one duty of the round, a piece's credit: it
    comes back with the slot holding `s`'s chunk. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A slot of the receive buffer carries a piece's credit on any DMA semaphore. -/
theorem rSlot_amount (l : Fin 3) (s : Fin 8) (x : DmaSem sig) : (rSlot l s).view.amount (SemLoc.dma x) = N64 := by
  revert l s x; decide

/-- The enqueue of chunk `t` of layer `l` to device `t`. -/
theorem wp_red_send (𝒱 : Variants) (c t : Dev nD) (l : Fin 3) (h : c ≠ t) (κ₁ κ₂ : ℕ)
    {dev : Dev nD} (hdev : dev = t)
    {src : Memref sig (c : Thread nD τ).2.kind .vmem S64x256 .bf16} (hsrc : src = pChunk l t)
    {dst : Memref sig (Dev.tc dev : Thread nD τ).2.kind .vmem S64x256 .bf16} (hdst : dst = rSlot l c)
    {sS sem : SemLoc sig} (hsS : sS = SemLoc.dma (rsS l)) (hsem : sem = SemLoc.dma (rrS l c))
    {hsc : dst.view.ref.isScScratch = false} {h₁ : src.view.WordExact} {h₂ : dst.view.WordExact}
    {h₃ : DmaTarget.Typed .vmem sem (.remote (Dev.tc dev) dst sS hsc)}
    {α : Type} {kont : PUnit → Prog (TpuEff nD τ sig (Elt F) Λ₀ (c : Thread nD τ).2) α} {Q : α → sProp 𝕄}
    (O : CellTallies nD τ sig Unit) {W : Waits sig Unit} (fd : Buf (Elt F) ((rSlot l c).view.loc (t : Thread nD τ))) :
    iprop(cellInv ER (sched m) κ₁ (rsCell c l) ∗ cellInv ER (sched m) κ₂ (rrCell t l c)
        ∗ piece c (pChunk l t) fullShare (Pfun m c) ∗ piece t (rSlot l c) fullShare fd
        ∗ owes (c : Thread nD τ) (O + tallyAt (rrCell t l c) () N64) W
        ∗ dutyTok ER (rsCell c l) 0 t ∗ reached ER (rsCell c l) 0
        ∗ dutyTok ER (rrCell t l c) 0 c ∗ reached ER (rrCell t l c) 0)
      ⊢ iprop(((cred (tallyAt (rsCell c l) () N64) ∗ owes (c : Thread nD τ) O W)
            -∗ wp frame (wpE (defs₀ (F := F)) 𝒱 (c : Thread nD τ) none) Set.univ (kont ⟨⟩) Q)
          -∗ wp frame (wpE (defs₀ (F := F)) 𝒱 (c : Thread nD τ) none) Set.univ
            (.op (.enqueueDma src (.remote (Dev.tc dev) dst sS hsc) sem h₁ h₂ h₃) kont) Q) := by
  subst hdev hsrc hdst hsS hsem
  unfold piece
  exact Rounds.wp_send_pointsTo 𝒱 ER (sched m) (c : Thread nD τ) none (κ₁ := κ₁) (κ₂ := κ₂)
    (mem_rs_of_ne m c l dev h) (mem_rr_of_ne m c dev l h) () () N64 (rSlot_amount l c (rrS l c))
    (amount_rs m c l dev) (amount_rr m dev l c c) O rfl
    (Entails.of_eq (payload_rs' m c l dev).symm)
    (by rw [payload_rr' m dev l c c]; iintro H; iexists fd; iexact H)

/-- The wait for device `s`'s chunk of layer `l`. -/
theorem wp_red_recv (𝒱 : Variants) (c s : Dev nD) (l : Fin 3) (h : s ≠ c) (κ : ℕ)
    {q : DmaSem sig} (hq : q = rrS l s)
    {sp sp' : Space} {sh sh' : Shape} {e e' : EltTy} {src : Memref sig (c : Thread nD τ).2.kind sp' sh' e'} {κ' : Kind}
    {dst : Memref sig κ' sp sh e} {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (rrCell c l s) ∗ cred (tallyAt (rrCell c l s) () N64) ∗ owes (c : Thread nD τ) O W
        ∗ MayWait (c : Thread nD τ) (.dma (rrS l s)) () O ∗ atPos ER (rrCell c l s) 0 ∅ 0)
      ⊢ iprop(((owes (c : Thread nD τ) O (insert (.dma (rrS l s), ()) W) ∗ atPos ER (rrCell c l s) 1 ∅ 0
              ∗ reached ER (rrCell c l s) 1 ∗ rrPay m c l s)
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  have hrule := Rounds.wp_wait_rest_token 𝒱 ER (sched m) (c : Thread nD τ) none (κ := κ) (w := .waitDma2 (rrS l s) src dst h₁ h₂)
    (waitDma2_clause 𝒱 c (rrS l s) hcr) (Set.mem_univ _) () (O := O) (W := W) (R := 0) (m := 0) (T := ∅) (k := kont) (Q := Q)
    (by rw [Nat.zero_add]; exact (expect_rr m c l s h).symm)
  rw [rest_rr m c l s h] at hrule
  exact hrule

/-- info: 'Cert.KernelProof.wp_red_send' depends on axioms: [propext, Classical.choice, Quot.sound] -/
#guard_msgs in #print axioms wp_red_send

/-- info: 'Cert.KernelProof.wp_red_recv' depends on axioms: [propext, Classical.choice, Quot.sound] -/
#guard_msgs in #print axioms wp_red_recv

end Cert.KernelProof

end
-- ==== Proof.K.StepsGather.lean ====
import proofs.«900993_g7700000000000994_dist_mlpseq_tp1d_rep_bs_b512_d256_h512_v7x_i8_bf16_1_alg».proof.Proof.K.Waits

/-! The two remote steps of the all-gather, each proved once at a symbolic device, layer and peer.

    The send: device `c` copies its own reduced rows — chunk `c` of layer `l` of its gather buffer — into the same chunk of
    peer `p`'s gather buffer. It lends the copy one of the eight shares of the source, the one named after `p`, which comes
    back with the departure (the gather-send cell's duty `p`); it gives up the destination chunk, which it was handed by
    `p`'s entry signal, and which lands, rewritten, as the arrival's payload on `p`'s gather-receive cell `(l, c)` (its one
    duty, `c`); and it pays the arrival's credit off what it owes.

    The receive: the wait on the gather-receive cell `(l, s)` is for the whole of its one-duty round, and hands the
    device chunk `s` of its gather buffer holding `s`'s reduced rows. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A chunk of the gather buffer carries a piece's credit on whichever DMA semaphore. -/
theorem gChunk_credit (l : Fin 3) (t : Dev nD) : (gChunk l t).view.dmaCredit = N64 := by revert l t; decide
theorem gChunk_amount (l : Fin 3) (t : Dev nD) (q : DmaSem sig) : (gChunk l t).view.amount (.dma q) = N64 :=
  (View.amount_dma _ q).trans (gChunk_credit l t)

/-! ## The gather send -/

/-- The copy of `c`'s reduced rows of layer `l < 2` to peer `p`. -/
theorem wp_gat_send (𝒱 : Variants) (c p : Dev nD) (l : Fin 3) (hl : l.val < 2) (hpc : p ≠ c) (κ₁ κ₂ : ℕ)
    {dev : Dev nD} (hdev : dev = p)
    {src : Memref sig (c : Thread nD τ).2.kind .vmem S64x256 .bf16} (hsrc : src = gChunk l c)
    {dst : Memref sig (Dev.tc dev : Thread nD τ).2.kind .vmem S64x256 .bf16} (hdst : dst = gChunk l c)
    {sS : SemLoc sig} (hsS : sS = .dma (gsS l)) {sem : SemLoc sig} (hsem : sem = .dma (grS l c))
    {hsc : dst.view.ref.isScScratch = false} {h₁ : src.view.WordExact} {h₂ : dst.view.WordExact}
    {h₃ : DmaTarget.Typed .vmem sem (.remote (Dev.tc dev : Thread nD τ) dst sS hsc)}
    {α : Type} {kont : PUnit → Prog (TpuEff nD τ sig (Elt F) Λ₀ (c : Thread nD τ).2) α} {Q : α → sProp 𝕄}
    {O₀ : CellTallies nD τ sig Unit} (O : CellTallies nD τ sig Unit) (hO : O₀ = O + tallyAt (grCell p l c) () N64) {W : Waits sig Unit}
    (fd : Buf (Elt F) ((gChunk l c).view.loc (p : Thread nD τ))) :
    iprop(cellInv ER (sched m) κ₁ (gsCell c l) ∗ cellInv ER (sched m) κ₂ (grCell p l c)
        ∗ piece c (gChunk l c) (sh8 p) (Gfun m c) ∗ piece p (gChunk l c) fullShare fd
        ∗ owes (c : Thread nD τ) O₀ W
        ∗ dutyTok ER (gsCell c l) 0 p ∗ reached ER (gsCell c l) 0
        ∗ dutyTok ER (grCell p l c) 0 c ∗ reached ER (grCell p l c) 0)
      ⊢ iprop(((cred (tallyAt (gsCell c l) () N64) ∗ owes (c : Thread nD τ) O W)
            -∗ wp frame (wpE (defs₀ (F := F)) 𝒱 (c : Thread nD τ) none) Set.univ (kont ⟨⟩) Q)
          -∗ wp frame (wpE (defs₀ (F := F)) 𝒱 (c : Thread nD τ) none) Set.univ
              (.op (.enqueueDma src (.remote (Dev.tc dev : Thread nD τ) dst sS hsc) sem h₁ h₂ h₃) kont) Q) := by
  subst hdev hsrc hdst hsS hsem
  exact Rounds.wp_send_pointsTo 𝒱 ER (sched m) (c : Thread nD τ) none
    (c' := (Dev.tc dev : Thread nD τ)) (src := gChunk l c) (dst := gChunk l c) (hsc := hsc) (sS := .dma (gsS l)) (sem := .dma (grS l c))
    (hsrc := h₁) (hdst := h₂) (hsem := h₃) (k := kont) (q := sh8 dev) (fs := Gfun m c) (fd := fd) (r₁ := 0) (r₂ := 0) (d₁ := dev) (d₂ := c)
    (κ₁ := κ₁) (κ₂ := κ₂)
    (mem_duties_gs m c l dev hl hpc) (mem_duties_gr m dev l c hl hpc.symm) () () N64 (gChunk_amount l c (grS l c))
    (amount_gs m c l dev) (amount_gr m dev l c c) (O₀ := O₀) O hO (W := W)
    (by rw [payload_gs]; exact Entails.rfl)
    (by rw [payload_gr]; unfold grPay piece; iintro H; iexists fd; iexact H) (Es := Set.univ)

/-! ## The gather receive -/

/-- The wait for peer `s`'s reduced rows of layer `l < 2`: the whole of the cell's one-duty round. -/
theorem wp_gat_recv (𝒱 : Variants) (c s : Dev nD) (l : Fin 3) (hl : l.val < 2) (hsc : s ≠ c) (κ : ℕ)
    {q : DmaSem sig} (hq : q = grS l s)
    {sp sp' : Space} {sh sh' : Shape} {e e' : EltTy} {src : Memref sig (c : Thread nD τ).2.kind sp' sh' e'} {κ' : Kind} {dst : Memref sig κ' sp sh e}
    {h₁ : src.view.WordExact} {h₂ : dst.view.WordExact} (hcr : dst.view.dmaCredit = N64)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (grCell c l s) ∗ cred (tallyAt (grCell c l s) () N64) ∗ owes (c : Thread nD τ) O W
        ∗ MayWait (c : Thread nD τ) (.dma (grS l s)) () O ∗ atPos ER (grCell c l s) 0 ∅ 0)
      ⊢ iprop(((owes (c : Thread nD τ) O (insert (.dma (grS l s), ()) W) ∗ atPos ER (grCell c l s) 1 ∅ 0 ∗ reached ER (grCell c l s) 1
              ∗ grPay m c l s)
            -∗ wp frame (wpE (defs₀ (F := F)) 𝒱 (c : Thread nD τ) none) Set.univ (kont ⟨⟩) Q)
          -∗ wp frame (wpE (defs₀ (F := F)) 𝒱 (c : Thread nD τ) none) Set.univ (.op (.waitDma2 q src dst h₁ h₂) kont) Q) := by
  subst hq
  have h := wp_wait_last m 𝒱 c (.dma (grS l s)) κ 0 ((expect_gr m c l s hl hsc).trans (by rw [Nat.zero_add, Nat.one_mul]))
    (w := .waitDma2 (grS l s) src dst h₁ h₂) (waitDma2_clause 𝒱 c (grS l s) hcr) (kont := kont) (Q := Q) (O := O) (W := W)
  rw [show (sched m).duties ((c : Thread nD τ), SemLoc.dma (grS l s)) 0 = {s} from duties_gr m c l s hl hsc, bigSep_singleton,
    show (sched m).payload ((c : Thread nD τ), SemLoc.dma (grS l s)) 0 s = grPay m c l s from payload_gr m c l s s] at h
  exact (sep_mono_right (sep_mono_right (sep_mono_right (sep_mono_right (waited_zero m _))))).trans h

/-- info: 'Cert.KernelProof.wp_gat_send' depends on axioms: [propext, Classical.choice, Quot.sound] -/
#guard_msgs in #print axioms wp_gat_send

/-- info: 'Cert.KernelProof.wp_gat_recv' depends on axioms: [propext, Classical.choice, Quot.sound] -/
#guard_msgs in #print axioms wp_gat_recv

end Cert.KernelProof

end
-- ==== Proof.K.Exit.lean ====
import proofs.«900993_g7700000000000994_dist_mlpseq_tp1d_rep_bs_b512_d256_h512_v7x_i8_bf16_1_alg».proof.Proof.K.Ghost
import proofs.«900993_g7700000000000994_dist_mlpseq_tp1d_rep_bs_b512_d256_h512_v7x_i8_bf16_1_alg».proof.Proof.K.Split

/-! The end of a device's body: what it gives the launch back. Every own transfer cell is closed — one whose round had
    duties after the owner has waited through it, one without duties untouched — and yields its counter at zero; and a
    scratch buffer whose 24 pieces are all held whole, at whatever contents, is the buffer held whole at some contents. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Closing the cells -/

/-- A cell whose owner stands after round 0 closes, and yields its counter at zero. -/
theorem close_used (K : GSem nD τ sig → ℕ) (c : Dev nD) (k : CK) :
    iprop(cellInv ER (sched m) (K (kcell c k)) (kcell c k) ∗ atPos ER (kcell c k) 1 ∅ 0)
      ⊢ (iprop(|={Set.univ}=> semVal (kcell c k) 0) : sProp 𝕄) :=
  Rounds.cell_close ER (sched m) (Set.mem_univ _) (fun h => h) (R := 1) (duties_later m (kcell c k))

/-- A cell with no duty at all closes from its first position. -/
theorem close_unused (K : GSem nD τ sig → ℕ) (c : Dev nD) (k : CK) (h : (sched (F := F) m).duties (kcell c k) 0 = ∅) :
    iprop(cellInv ER (sched m) (K (kcell c k)) (kcell c k) ∗ atPos ER (kcell c k) 0 ∅ 0)
      ⊢ (iprop(|={Set.univ}=> semVal (kcell c k) 0) : sProp 𝕄) :=
  Rounds.cell_close ER (sched m) (Set.mem_univ _) (fun h => h) (R := 0) fun r _ => by
    rcases Nat.eq_zero_or_pos r with rfl | hr
    · exact h
    · exact duties_later m (kcell c k) r hr

/-- The invariant of one cell, out of the family. -/
theorem invsAll_at (K : GSem nD τ sig → ℕ) (c : Dev nD) (k : CK) :
    invsAll m K ⊢ (cellInv ER (sched m) (K (kcell c k)) (kcell c k) : sProp 𝕄) :=
  bigSep_elim (i := ((c, k) : Dev nD × CK)) (Finset.mem_univ _)

/-- All the transfer cells of a device close: each from the position after round 0 if the round had duties, from its
    first position if not. -/
theorem close_all (K : GSem nD τ sig → ℕ) (c : Dev nD) :
    iprop(invsAll m K ∗ bigSep ((Finset.univ : Finset CK).erase .bar)
        (fun k => (atPos ER (kcell c k) (if ((sched (F := F) m).duties (kcell c k) 0).Nonempty then 1 else 0) ∅ 0 : sProp 𝕄)))
      ⊢ (iprop(|={Set.univ}=> bigSep ((Finset.univ : Finset CK).erase .bar) (fun k => (semVal (kcell c k) 0 : sProp 𝕄))) : sProp 𝕄) := by
  refine (bigSep_with_persistent (Ψ := fun k => (iprop(|={Set.univ}=> semVal (kcell c k) 0) : sProp 𝕄)) fun k _ => ?_).trans
    (bigSep_fupd _ _)
  refine (sep_mono_left (invsAll_at m K c k)).trans ?_
  by_cases h : ((sched (F := F) m).duties (kcell c k) 0).Nonempty
  · rw [if_pos h]; exact close_used m K c k
  · rw [if_neg h]; exact close_unused m K c k (Finset.not_nonempty_iff_eq_empty.mp h)

/-! ## Rejoining a buffer from its pieces -/

/-- A region held at some contents absorbs a family of regions, each held at some contents, all pairwise disjoint: their
    union is held at some contents. -/
theorem pointsTo_absorb {ℓ : Loc nD τ sig} {T : Type} [DecidableEq T] (q : PosShare TreeShare) (K : T → Finset (Idx ℓ)) (S : Finset T) :
    ∀ J : Finset (Idx ℓ), (∀ t ∈ S, Disjoint J (K t)) → (∀ t ∈ S, ∀ t' ∈ S, t ≠ t' → Disjoint (K t) (K t')) →
      iprop((∃ f : Buf (Elt F) ℓ, ℓ ↦[J]{q} f) ∗ bigSep S (fun t => iprop(∃ f : Buf (Elt F) ℓ, ℓ ↦[K t]{q} f)))
        ⊢ (iprop(∃ g : Buf (Elt F) ℓ, ℓ ↦[J ∪ S.biUnion K]{q} g) : sProp 𝕄) := by
  induction S using Finset.induction_on with
  | empty =>
    intro J _ _
    rw [bigSep_empty, Finset.biUnion_empty, Finset.union_empty]
    iintro ⟨H, -⟩
    iexact H
  | insert t S ht ih =>
    intro J hJ hK
    have hJt : Disjoint J (K t) := hJ t (Finset.mem_insert_self _ _)
    have hJ' : ∀ t' ∈ S, Disjoint (J ∪ K t) (K t') := fun t' ht' =>
      Finset.disjoint_union_left.mpr ⟨hJ t' (Finset.mem_insert_of_mem ht'),
        hK t (Finset.mem_insert_self _ _) t' (Finset.mem_insert_of_mem ht') (fun e => ht (e ▸ ht'))⟩
    rw [bigSep_insert ht, Finset.biUnion_insert, ← Finset.union_assoc]
    refine (show iprop((∃ f : Buf (Elt F) ℓ, ℓ ↦[J]{q} f) ∗ (∃ f : Buf (Elt F) ℓ, ℓ ↦[K t]{q} f)
      ∗ bigSep S (fun t => iprop(∃ f : Buf (Elt F) ℓ, ℓ ↦[K t]{q} f))) ⊢ _ from ?_)
    iintro ⟨⟨%f, HJ⟩, ⟨%ft, Ht⟩, HS⟩
    iapply (ih (J ∪ K t) hJ' fun t₁ h₁ t₂ h₂ => hK t₁ (Finset.mem_insert_of_mem h₁) t₂ (Finset.mem_insert_of_mem h₂))
    isplitl [HJ Ht]
    · iexists (K t).piecewise ft f
      iapply (pointsTo_join hJt)
      isplitl [HJ] <;> iassumption
    · iexact HS

/-- A buffer whose 24 regions, pairwise disjoint and covering it, are each held whole at some contents is held whole at
    some contents. -/
theorem scr_of_cover (c : Dev nD) (b : Ref sig .tc) (K : Fin 3 × Dev nD → Finset (Idx ((c : Thread nD τ).loc b)))
    (hd : ∀ a a', a ≠ a' → Disjoint (K a) (K a')) (hU : Finset.univ.biUnion K = Finset.univ) :
    bigSep (Finset.univ : Finset (Fin 3 × Dev nD))
        (fun a => (iprop(∃ f : Buf (Elt F) ((c : Thread nD τ).loc b), ((c : Thread nD τ).loc b) ↦[K a]{fullShare} f) : sProp 𝕄))
      ⊢ (scr c b : sProp 𝕄) := by
  rw [bigSep_univ_at _ ((0, 0) : Fin 3 × Dev nD)]
  refine (pointsTo_absorb fullShare K (Finset.univ.erase (0, 0)) (K (0, 0))
    (fun t ht => hd _ _ (Finset.ne_of_mem_erase ht).symm) (fun t _ t' _ h => hd t t' h)).trans ?_
  rw [← Finset.biUnion_insert, Finset.insert_erase (Finset.mem_univ _), hU]
  exact .rfl

/-- The partial-product buffer back whole from its 24 chunks. -/
theorem scr0_of_pieces (c : Dev nD) :
    bigSep (Finset.univ : Finset (Fin 3 × Dev nD)) (fun a => (iprop(∃ f, piece c (pChunk a.1 a.2) fullShare f) : sProp 𝕄))
      ⊢ (scr c cc0_scratch0 : sProp 𝕄) := by
  refine (Entails.of_eq (bigSep_congr fun a _ => ?_)).trans
    (scr_of_cover c cc0_scratch0 (fun a => (rectP a.1 a.2).set) (fun a a' h => rectP_disjoint h) biUnion_rectP)
  exact congrArg (fun I => (iprop(∃ f : Buf (Elt F) ((c : Thread nD τ).loc cc0_scratch0),
    ((c : Thread nD τ).loc cc0_scratch0) ↦[I]{fullShare} f) : sProp 𝕄)) (set_pChunk a.1 a.2)

/-- The receive buffer back whole from its 24 slots. -/
theorem scr1_of_pieces (c : Dev nD) :
    bigSep (Finset.univ : Finset (Fin 3 × Dev nD)) (fun a => (iprop(∃ f, piece c (rSlot a.1 a.2) fullShare f) : sProp 𝕄))
      ⊢ (scr c cc0_scratch1 : sProp 𝕄) := by
  refine (Entails.of_eq (bigSep_congr fun a _ => ?_)).trans
    (scr_of_cover c cc0_scratch1 (fun a => (rectR a.1 a.2).set) (fun a a' h => rectR_disjoint h) biUnion_rectR)
  exact congrArg (fun I => (iprop(∃ f : Buf (Elt F) ((c : Thread nD τ).loc cc0_scratch1),
    ((c : Thread nD τ).loc cc0_scratch1) ↦[I]{fullShare} f) : sProp 𝕄)) (set_rSlot a.1 a.2)

/-- The gather buffer back whole from its 24 chunks. -/
theorem scr2_of_pieces (c : Dev nD) :
    bigSep (Finset.univ : Finset (Fin 3 × Dev nD)) (fun a => (iprop(∃ f, piece c (gChunk a.1 a.2) fullShare f) : sProp 𝕄))
      ⊢ (scr c cc0_scratch2 : sProp 𝕄) := by
  refine (Entails.of_eq (bigSep_congr fun a _ => ?_)).trans
    (scr_of_cover c cc0_scratch2 (fun a => (rectP a.1 a.2).set) (fun a a' h => rectP_disjoint h) biUnion_rectP)
  exact congrArg (fun I => (iprop(∃ f : Buf (Elt F) ((c : Thread nD τ).loc cc0_scratch2),
    ((c : Thread nD τ).loc cc0_scratch2) ↦[I]{fullShare} f) : sProp 𝕄)) (set_gChunk a.1 a.2)

/-- A scratch buffer held whole at given contents is, in particular, held whole at some contents. -/
theorem scr_of_whole (c : Dev nD) (b : Ref sig .tc) (f : Buf (Elt F) ((Memref.whole b).view.loc (c : Thread nD τ))) :
    ((Memref.whole b).view.loc (c : Thread nD τ) ↦[(Memref.whole b).view.set]{fullShare} f : sProp 𝕄) ⊢ scr c b := by
  refine (Entails.of_eq (congrArg (fun I => pointsTo ((c : Thread nD τ).loc b) I fullShare f) (View.set_whole b))).trans ?_
  unfold scr
  iintro H
  iexists f
  iexact H

end Cert.KernelProof

end
-- ==== Proof.K.Canon.lean ====
import proofs.«900993_g7700000000000994_dist_mlpseq_tp1d_rep_bs_b512_d256_h512_v7x_i8_bf16_1_alg».proof.Proof.K.Cells

/-! Canonical names. The printed program spells every device-dependent peer, slice offset and guard by an integer
    chain over the device's own position; the protocol is stated over the names of the cells module (the peers
    `fwd j c` and `bwd j c`, the 64-row pieces `pChunk`, `rSlot`, `gChunk`, the semaphores `rsS`, `rrS`, `gsS`,
    `grS`). This module proves, once and for any spelling of the offsets, that a piece, a rectangle or a semaphore
    picked at offsets equal to a closed form is the named one; the table module instantiates these at each printed
    chain through its closed form. -/

noncomputable section

namespace Cert.KernelProof

open Cert.Kernel Cert.Kernel.Gen
open Idealize.ShloMosaic Idealize.ShloMosaic.TcCoe Idealize.SL.Sem

/-! ## Peers -/

/-- A device given by a number and its bound is the device whose position is that number. -/
theorem dev_eq_of_val {n : ℕ} {h : n < nD} {d : Dev nD} (e : n = d.val) : (⟨n, h⟩ : Dev nD) = d := Fin.ext e

/-- The position of the device `j` places after `c`. -/
theorem fwd_val (j : ℕ) (c : Dev nD) : (fwd j c).val = (c.val + j) % 8 := rfl

/-- The printed chain `(c + 7 - r) % 8` of the accumulation step `1 + r` is the position of the device `1 + r`
    places before `c`. -/
theorem bwd_val (c : Dev nD) (r : Fin 7) : (c.val + 7 - r.val) % 8 = (bwd (1 + r.val) c).val := by
  revert c r; decide

/-- The device's id as the kernel computes it from its own word (divided by the stride 1 of the one mesh axis, modulo
    the axis's 8) is its position. -/
theorem devWord_eq (c : Dev nD) : Scalar.remsi (Scalar.divsi (Dev.word c) 1#32) 8#32 = BitVec.ofNat 32 c.val := by
  revert c; decide

/-! ## Pieces: a 64-row slice at offsets equal to `![l, 64 t, 0]` (`![l, s, 0, 0]` in the receive buffer), with its
    unit axes dropped, is the named piece, whatever the evidence it carries. -/

theorem pchunk_of_off (l : Fin 3) (t : Fin 8) {off : Fin 3 → Nat} (e : off = ![l.val, 64 * t.val, 0])
    (h : ∀ a, off a + S1x64x256.size a ≤ S3x512x256.size a)
    (h' : ∀ a, (Rect.unit (s := S3x512x256) off S1x64x256.size h).stride a = 1) :
    ((Memref.whole cc0_scratch0).slice (Rect.unit (s := S3x512x256) off S1x64x256.size h) h').squeeze S64x256
      squeezes_S1x64x256_S64x256 = pChunk l t := by
  subst e; rfl

theorem slot_of_off (l : Fin 3) (s : Fin 8) {off : Fin 4 → Nat} (e : off = ![l.val, s.val, 0, 0])
    (h : ∀ a, off a + S1x1x64x256.size a ≤ S3x8x64x256.size a)
    (h' : ∀ a, (Rect.unit (s := S3x8x64x256) off S1x1x64x256.size h).stride a = 1) :
    ((Memref.whole cc0_scratch1).slice (Rect.unit (s := S3x8x64x256) off S1x1x64x256.size h) h').squeeze S64x256
      squeezes_S1x1x64x256_S64x256 = rSlot l s := by
  subst e; rfl

theorem gchunk_of_off (l : Fin 3) (t : Fin 8) {off : Fin 3 → Nat} (e : off = ![l.val, 64 * t.val, 0])
    (h : ∀ a, off a + S1x64x256.size a ≤ S3x512x256.size a)
    (h' : ∀ a, (Rect.unit (s := S3x512x256) off S1x64x256.size h).stride a = 1) :
    ((Memref.whole cc0_scratch2).slice (Rect.unit (s := S3x512x256) off S1x64x256.size h) h').squeeze S64x256
      squeezes_S1x64x256_S64x256 = gChunk l t := by
  subst e; rfl

/-! ## Rectangles: the rectangle a load or a store goes through, at offsets equal to a piece's, is the piece's own
    rectangle (of the partial-product and gather buffers; of the receive buffer). -/

theorem rectp_of_off (l : Fin 3) (t : Fin 8) {off : Fin 3 → Nat} (e : off = ![l.val, 64 * t.val, 0])
    (h : ∀ a, off a + S1x64x256.size a ≤ S3x512x256.size a) :
    Rect.unit (s := S3x512x256) off S1x64x256.size h
      = Rect.unit (s := S3x512x256) ![l.val, 64 * t.val, 0] S1x64x256.size (inb_p l t) := by
  subst e; rfl

theorem rectr_of_off (l : Fin 3) (s : Fin 8) {off : Fin 4 → Nat} (e : off = ![l.val, s.val, 0, 0])
    (h : ∀ a, off a + S1x1x64x256.size a ≤ S3x8x64x256.size a) :
    Rect.unit (s := S3x8x64x256) off S1x1x64x256.size h
      = Rect.unit (s := S3x8x64x256) ![l.val, s.val, 0, 0] S1x1x64x256.size (inb_r l s) := by
  subst e; rfl

/-! ## Semaphores: the one semaphore picked from an array at offsets equal to `![l]` or `![l, s]` is the named one
    (the arrays lie on the pool row-major from 8, 11, 35 and 38). -/

theorem rsS_of_off (l : Fin 3) {off : Fin 1 → Nat} (e : off = ![l.val]) (h : ∀ a, off a + S1.size a ≤ S3.size a) :
    ((cc0_scratch3.slice (Rect.unit (s := S3) off S1.size h)).squeeze S_ squeezes_S1_S_).sem = rsS l := by
  subst e; revert l; decide

theorem rrS_of_off (l : Fin 3) (s : Dev nD) {off : Fin 2 → Nat} (e : off = ![l.val, s.val])
    (h : ∀ a, off a + S1x1.size a ≤ S3x8.size a) :
    ((cc0_scratch4.slice (Rect.unit (s := S3x8) off S1x1.size h)).squeeze S_ squeezes_S1x1_S_).sem = rrS l s := by
  subst e; revert l s; decide

theorem gsS_of_off (l : Fin 3) {off : Fin 1 → Nat} (e : off = ![l.val]) (h : ∀ a, off a + S1.size a ≤ S3.size a) :
    ((cc0_scratch5.slice (Rect.unit (s := S3) off S1.size h)).squeeze S_ squeezes_S1_S_).sem = gsS l := by
  subst e; revert l; decide

theorem grS_of_off (l : Fin 3) (s : Dev nD) {off : Fin 2 → Nat} (e : off = ![l.val, s.val])
    (h : ∀ a, off a + S1x1.size a ≤ S3x8.size a) :
    ((cc0_scratch6.slice (Rect.unit (s := S3x8) off S1x1.size h)).squeeze S_ squeezes_S1x1_S_).sem = grS l s := by
  subst e; revert l s; decide

/-! ## Guards -/

/-- The guard "my id is not `t`", as the kernel computes it on a word `w` equal to the device's position (compare,
    widen to a word, compare with zero), holds exactly when the device is not `t`. -/
theorem guard_iff_of (c t : Dev nD) {w : BitVec 32} (e : w = BitVec.ofNat 32 c.val) :
    Scalar.cmpi .ne (Scalar.extui (Scalar.cmpi .ne w (BitVec.ofNat 32 t.val))) 0#32 = 1#1 ↔ c ≠ t := by
  subst e; revert c t; decide

end Cert.KernelProof

end
-- ==== Proof.K.CanonTable.lean ====
import proofs.«900993_g7700000000000994_dist_mlpseq_tp1d_rep_bs_b512_d256_h512_v7x_i8_bf16_1_alg».proof.Proof.K.Canon

/-! The table of canonical names: for every device chain, slice offset, semaphore pick and guard the printed program
    spells, the equation between the printed spelling and the protocol's name, each an instance of a lemma of the
    canonical-names module at the chain's generated closed form. A peer is `fwd j c` (the entry signals and the gather
    sends go `j` places forward) or a literal device (a reduce send's target); a piece at the device's own position is
    `rSlot l c` or `gChunk l c`, and at the accumulation step `j` the slot and the semaphore are those of the device `j`
    places back, `bwd j c`; a guard holds exactly off the one device it names. -/

noncomputable section

namespace Cert.KernelProof

open Cert.Kernel Cert.Kernel.Gen
open Idealize.ShloMosaic Idealize.ShloMosaic.TcCoe Idealize.SL.Sem

/-! ## Peers: the device a signal or a transfer addresses, `j` places after `c` on the ring of residues -/

theorem dev1_eq (c : Dev nD) (h : k0_dev1 c < nD) : (⟨k0_dev1 c, h⟩ : Dev nD) = fwd 1 c := dev_eq_of_val (k0_dev1_eq c)
theorem dev2_eq (c : Dev nD) (h : k0_dev2 c < nD) : (⟨k0_dev2 c, h⟩ : Dev nD) = fwd 2 c := dev_eq_of_val (k0_dev2_eq c)
theorem dev3_eq (c : Dev nD) (h : k0_dev3 c < nD) : (⟨k0_dev3 c, h⟩ : Dev nD) = fwd 3 c := dev_eq_of_val (k0_dev3_eq c)
theorem dev4_eq (c : Dev nD) (h : k0_dev4 c < nD) : (⟨k0_dev4 c, h⟩ : Dev nD) = fwd 4 c := dev_eq_of_val (k0_dev4_eq c)
theorem dev5_eq (c : Dev nD) (h : k0_dev5 c < nD) : (⟨k0_dev5 c, h⟩ : Dev nD) = fwd 5 c := dev_eq_of_val (k0_dev5_eq c)
theorem dev6_eq (c : Dev nD) (h : k0_dev6 c < nD) : (⟨k0_dev6 c, h⟩ : Dev nD) = fwd 6 c := dev_eq_of_val (k0_dev6_eq c)
theorem dev7_eq (c : Dev nD) (h : k0_dev7 c < nD) : (⟨k0_dev7 c, h⟩ : Dev nD) = fwd 7 c := dev_eq_of_val (k0_dev7_eq c)
theorem dev16_eq (c : Dev nD) (h : k0_dev16 c < nD) : (⟨k0_dev16 c, h⟩ : Dev nD) = fwd 1 c := dev_eq_of_val (k0_dev16_eq c)
theorem dev17_eq (c : Dev nD) (h : k0_dev17 c < nD) : (⟨k0_dev17 c, h⟩ : Dev nD) = fwd 2 c := dev_eq_of_val (k0_dev17_eq c)
theorem dev18_eq (c : Dev nD) (h : k0_dev18 c < nD) : (⟨k0_dev18 c, h⟩ : Dev nD) = fwd 3 c := dev_eq_of_val (k0_dev18_eq c)
theorem dev19_eq (c : Dev nD) (h : k0_dev19 c < nD) : (⟨k0_dev19 c, h⟩ : Dev nD) = fwd 4 c := dev_eq_of_val (k0_dev19_eq c)
theorem dev20_eq (c : Dev nD) (h : k0_dev20 c < nD) : (⟨k0_dev20 c, h⟩ : Dev nD) = fwd 5 c := dev_eq_of_val (k0_dev20_eq c)
theorem dev21_eq (c : Dev nD) (h : k0_dev21 c < nD) : (⟨k0_dev21 c, h⟩ : Dev nD) = fwd 6 c := dev_eq_of_val (k0_dev21_eq c)
theorem dev22_eq (c : Dev nD) (h : k0_dev22 c < nD) : (⟨k0_dev22 c, h⟩ : Dev nD) = fwd 7 c := dev_eq_of_val (k0_dev22_eq c)
theorem dev31_eq (c : Dev nD) (h : k0_dev31 c < nD) : (⟨k0_dev31 c, h⟩ : Dev nD) = fwd 1 c := dev_eq_of_val (k0_dev31_eq c)
theorem dev32_eq (c : Dev nD) (h : k0_dev32 c < nD) : (⟨k0_dev32 c, h⟩ : Dev nD) = fwd 2 c := dev_eq_of_val (k0_dev32_eq c)
theorem dev33_eq (c : Dev nD) (h : k0_dev33 c < nD) : (⟨k0_dev33 c, h⟩ : Dev nD) = fwd 3 c := dev_eq_of_val (k0_dev33_eq c)
theorem dev34_eq (c : Dev nD) (h : k0_dev34 c < nD) : (⟨k0_dev34 c, h⟩ : Dev nD) = fwd 4 c := dev_eq_of_val (k0_dev34_eq c)
theorem dev35_eq (c : Dev nD) (h : k0_dev35 c < nD) : (⟨k0_dev35 c, h⟩ : Dev nD) = fwd 5 c := dev_eq_of_val (k0_dev35_eq c)
theorem dev36_eq (c : Dev nD) (h : k0_dev36 c < nD) : (⟨k0_dev36 c, h⟩ : Dev nD) = fwd 6 c := dev_eq_of_val (k0_dev36_eq c)
theorem dev37_eq (c : Dev nD) (h : k0_dev37 c < nD) : (⟨k0_dev37 c, h⟩ : Dev nD) = fwd 7 c := dev_eq_of_val (k0_dev37_eq c)

/-! ## Peers: the literal device a reduce send addresses -/

theorem dev8_eq (h : k0_dev8 < nD) : (⟨k0_dev8, h⟩ : Dev nD) = (0 : Dev nD) := dev_eq_of_val k0_dev8_eq
theorem dev9_eq (h : k0_dev9 < nD) : (⟨k0_dev9, h⟩ : Dev nD) = (1 : Dev nD) := dev_eq_of_val k0_dev9_eq
theorem dev10_eq (h : k0_dev10 < nD) : (⟨k0_dev10, h⟩ : Dev nD) = (2 : Dev nD) := dev_eq_of_val k0_dev10_eq
theorem dev11_eq (h : k0_dev11 < nD) : (⟨k0_dev11, h⟩ : Dev nD) = (3 : Dev nD) := dev_eq_of_val k0_dev11_eq
theorem dev12_eq (h : k0_dev12 < nD) : (⟨k0_dev12, h⟩ : Dev nD) = (4 : Dev nD) := dev_eq_of_val k0_dev12_eq
theorem dev13_eq (h : k0_dev13 < nD) : (⟨k0_dev13, h⟩ : Dev nD) = (5 : Dev nD) := dev_eq_of_val k0_dev13_eq
theorem dev14_eq (h : k0_dev14 < nD) : (⟨k0_dev14, h⟩ : Dev nD) = (6 : Dev nD) := dev_eq_of_val k0_dev14_eq
theorem dev15_eq (h : k0_dev15 < nD) : (⟨k0_dev15, h⟩ : Dev nD) = (7 : Dev nD) := dev_eq_of_val k0_dev15_eq
theorem dev23_eq (h : k0_dev23 < nD) : (⟨k0_dev23, h⟩ : Dev nD) = (0 : Dev nD) := dev_eq_of_val k0_dev23_eq
theorem dev24_eq (h : k0_dev24 < nD) : (⟨k0_dev24, h⟩ : Dev nD) = (1 : Dev nD) := dev_eq_of_val k0_dev24_eq
theorem dev25_eq (h : k0_dev25 < nD) : (⟨k0_dev25, h⟩ : Dev nD) = (2 : Dev nD) := dev_eq_of_val k0_dev25_eq
theorem dev26_eq (h : k0_dev26 < nD) : (⟨k0_dev26, h⟩ : Dev nD) = (3 : Dev nD) := dev_eq_of_val k0_dev26_eq
theorem dev27_eq (h : k0_dev27 < nD) : (⟨k0_dev27, h⟩ : Dev nD) = (4 : Dev nD) := dev_eq_of_val k0_dev27_eq
theorem dev28_eq (h : k0_dev28 < nD) : (⟨k0_dev28, h⟩ : Dev nD) = (5 : Dev nD) := dev_eq_of_val k0_dev28_eq
theorem dev29_eq (h : k0_dev29 < nD) : (⟨k0_dev29, h⟩ : Dev nD) = (6 : Dev nD) := dev_eq_of_val k0_dev29_eq
theorem dev30_eq (h : k0_dev30 < nD) : (⟨k0_dev30, h⟩ : Dev nD) = (7 : Dev nD) := dev_eq_of_val k0_dev30_eq
theorem dev38_eq (h : k0_dev38 < nD) : (⟨k0_dev38, h⟩ : Dev nD) = (0 : Dev nD) := dev_eq_of_val k0_dev38_eq
theorem dev39_eq (h : k0_dev39 < nD) : (⟨k0_dev39, h⟩ : Dev nD) = (1 : Dev nD) := dev_eq_of_val k0_dev39_eq
theorem dev40_eq (h : k0_dev40 < nD) : (⟨k0_dev40, h⟩ : Dev nD) = (2 : Dev nD) := dev_eq_of_val k0_dev40_eq
theorem dev41_eq (h : k0_dev41 < nD) : (⟨k0_dev41, h⟩ : Dev nD) = (3 : Dev nD) := dev_eq_of_val k0_dev41_eq
theorem dev42_eq (h : k0_dev42 < nD) : (⟨k0_dev42, h⟩ : Dev nD) = (4 : Dev nD) := dev_eq_of_val k0_dev42_eq
theorem dev43_eq (h : k0_dev43 < nD) : (⟨k0_dev43, h⟩ : Dev nD) = (5 : Dev nD) := dev_eq_of_val k0_dev43_eq
theorem dev44_eq (h : k0_dev44 < nD) : (⟨k0_dev44, h⟩ : Dev nD) = (6 : Dev nD) := dev_eq_of_val k0_dev44_eq
theorem dev45_eq (h : k0_dev45 < nD) : (⟨k0_dev45, h⟩ : Dev nD) = (7 : Dev nD) := dev_eq_of_val k0_dev45_eq

/-! ## Receive slots: a slice of the receive buffer at the device's own position (the target of its reduce sends, and what
    their waits name), or at the position `j` places back (what the accumulation step `j` reads) -/

theorem slot_off2 (c : Dev nD) (h : ∀ a, (k0_off2 c) a + S1x1x64x256.size a ≤ S3x8x64x256.size a) (h' : ∀ a, (Rect.unit (s := S3x8x64x256) (k0_off2 c) S1x1x64x256.size h).stride a = 1) : ((Memref.whole cc0_scratch1).slice (Rect.unit (s := S3x8x64x256) (k0_off2 c) S1x1x64x256.size h) h').squeeze S64x256 squeezes_S1x1x64x256_S64x256 = rSlot 0 c := slot_of_off 0 c (k0_off2_eq c) h h'
theorem slot_off4 (c : Dev nD) (h : ∀ a, (k0_off4 c) a + S1x1x64x256.size a ≤ S3x8x64x256.size a) (h' : ∀ a, (Rect.unit (s := S3x8x64x256) (k0_off4 c) S1x1x64x256.size h).stride a = 1) : ((Memref.whole cc0_scratch1).slice (Rect.unit (s := S3x8x64x256) (k0_off4 c) S1x1x64x256.size h) h').squeeze S64x256 squeezes_S1x1x64x256_S64x256 = rSlot 0 c := slot_of_off 0 c (k0_off4_eq c) h h'
theorem slot_off6 (c : Dev nD) (h : ∀ a, (k0_off6 c) a + S1x1x64x256.size a ≤ S3x8x64x256.size a) (h' : ∀ a, (Rect.unit (s := S3x8x64x256) (k0_off6 c) S1x1x64x256.size h).stride a = 1) : ((Memref.whole cc0_scratch1).slice (Rect.unit (s := S3x8x64x256) (k0_off6 c) S1x1x64x256.size h) h').squeeze S64x256 squeezes_S1x1x64x256_S64x256 = rSlot 0 c := slot_of_off 0 c (k0_off6_eq c) h h'
theorem slot_off8 (c : Dev nD) (h : ∀ a, (k0_off8 c) a + S1x1x64x256.size a ≤ S3x8x64x256.size a) (h' : ∀ a, (Rect.unit (s := S3x8x64x256) (k0_off8 c) S1x1x64x256.size h).stride a = 1) : ((Memref.whole cc0_scratch1).slice (Rect.unit (s := S3x8x64x256) (k0_off8 c) S1x1x64x256.size h) h').squeeze S64x256 squeezes_S1x1x64x256_S64x256 = rSlot 0 c := slot_of_off 0 c (k0_off8_eq c) h h'
theorem slot_off10 (c : Dev nD) (h : ∀ a, (k0_off10 c) a + S1x1x64x256.size a ≤ S3x8x64x256.size a) (h' : ∀ a, (Rect.unit (s := S3x8x64x256) (k0_off10 c) S1x1x64x256.size h).stride a = 1) : ((Memref.whole cc0_scratch1).slice (Rect.unit (s := S3x8x64x256) (k0_off10 c) S1x1x64x256.size h) h').squeeze S64x256 squeezes_S1x1x64x256_S64x256 = rSlot 0 c := slot_of_off 0 c (k0_off10_eq c) h h'
theorem slot_off12 (c : Dev nD) (h : ∀ a, (k0_off12 c) a + S1x1x64x256.size a ≤ S3x8x64x256.size a) (h' : ∀ a, (Rect.unit (s := S3x8x64x256) (k0_off12 c) S1x1x64x256.size h).stride a = 1) : ((Memref.whole cc0_scratch1).slice (Rect.unit (s := S3x8x64x256) (k0_off12 c) S1x1x64x256.size h) h').squeeze S64x256 squeezes_S1x1x64x256_S64x256 = rSlot 0 c := slot_of_off 0 c (k0_off12_eq c) h h'
theorem slot_off14 (c : Dev nD) (h : ∀ a, (k0_off14 c) a + S1x1x64x256.size a ≤ S3x8x64x256.size a) (h' : ∀ a, (Rect.unit (s := S3x8x64x256) (k0_off14 c) S1x1x64x256.size h).stride a = 1) : ((Memref.whole cc0_scratch1).slice (Rect.unit (s := S3x8x64x256) (k0_off14 c) S1x1x64x256.size h) h').squeeze S64x256 squeezes_S1x1x64x256_S64x256 = rSlot 0 c := slot_of_off 0 c (k0_off14_eq c) h h'
theorem slot_off16 (c : Dev nD) (h : ∀ a, (k0_off16 c) a + S1x1x64x256.size a ≤ S3x8x64x256.size a) (h' : ∀ a, (Rect.unit (s := S3x8x64x256) (k0_off16 c) S1x1x64x256.size h).stride a = 1) : ((Memref.whole cc0_scratch1).slice (Rect.unit (s := S3x8x64x256) (k0_off16 c) S1x1x64x256.size h) h').squeeze S64x256 squeezes_S1x1x64x256_S64x256 = rSlot 0 c := slot_of_off 0 c (k0_off16_eq c) h h'
theorem slot_off23 (c : Dev nD) (h : ∀ a, (k0_off23 c) a + S1x1x64x256.size a ≤ S3x8x64x256.size a) (h' : ∀ a, (Rect.unit (s := S3x8x64x256) (k0_off23 c) S1x1x64x256.size h).stride a = 1) : ((Memref.whole cc0_scratch1).slice (Rect.unit (s := S3x8x64x256) (k0_off23 c) S1x1x64x256.size h) h').squeeze S64x256 squeezes_S1x1x64x256_S64x256 = rSlot 0 c := slot_of_off 0 c (k0_off23_eq c) h h'
theorem slot_off24 (c : Dev nD) (h : ∀ a, (k0_off24 c) a + S1x1x64x256.size a ≤ S3x8x64x256.size a) (h' : ∀ a, (Rect.unit (s := S3x8x64x256) (k0_off24 c) S1x1x64x256.size h).stride a = 1) : ((Memref.whole cc0_scratch1).slice (Rect.unit (s := S3x8x64x256) (k0_off24 c) S1x1x64x256.size h) h').squeeze S64x256 squeezes_S1x1x64x256_S64x256 = rSlot 0 c := slot_of_off 0 c (k0_off24_eq c) h h'
theorem slot_off25 (c : Dev nD) (h : ∀ a, (k0_off25 c) a + S1x1x64x256.size a ≤ S3x8x64x256.size a) (h' : ∀ a, (Rect.unit (s := S3x8x64x256) (k0_off25 c) S1x1x64x256.size h).stride a = 1) : ((Memref.whole cc0_scratch1).slice (Rect.unit (s := S3x8x64x256) (k0_off25 c) S1x1x64x256.size h) h').squeeze S64x256 squeezes_S1x1x64x256_S64x256 = rSlot 0 c := slot_of_off 0 c (k0_off25_eq c) h h'
theorem slot_off26 (c : Dev nD) (h : ∀ a, (k0_off26 c) a + S1x1x64x256.size a ≤ S3x8x64x256.size a) (h' : ∀ a, (Rect.unit (s := S3x8x64x256) (k0_off26 c) S1x1x64x256.size h).stride a = 1) : ((Memref.whole cc0_scratch1).slice (Rect.unit (s := S3x8x64x256) (k0_off26 c) S1x1x64x256.size h) h').squeeze S64x256 squeezes_S1x1x64x256_S64x256 = rSlot 0 c := slot_of_off 0 c (k0_off26_eq c) h h'
theorem slot_off27 (c : Dev nD) (h : ∀ a, (k0_off27 c) a + S1x1x64x256.size a ≤ S3x8x64x256.size a) (h' : ∀ a, (Rect.unit (s := S3x8x64x256) (k0_off27 c) S1x1x64x256.size h).stride a = 1) : ((Memref.whole cc0_scratch1).slice (Rect.unit (s := S3x8x64x256) (k0_off27 c) S1x1x64x256.size h) h').squeeze S64x256 squeezes_S1x1x64x256_S64x256 = rSlot 0 c := slot_of_off 0 c (k0_off27_eq c) h h'
theorem slot_off28 (c : Dev nD) (h : ∀ a, (k0_off28 c) a + S1x1x64x256.size a ≤ S3x8x64x256.size a) (h' : ∀ a, (Rect.unit (s := S3x8x64x256) (k0_off28 c) S1x1x64x256.size h).stride a = 1) : ((Memref.whole cc0_scratch1).slice (Rect.unit (s := S3x8x64x256) (k0_off28 c) S1x1x64x256.size h) h').squeeze S64x256 squeezes_S1x1x64x256_S64x256 = rSlot 0 c := slot_of_off 0 c (k0_off28_eq c) h h'
theorem slot_off29 (c : Dev nD) (h : ∀ a, (k0_off29 c) a + S1x1x64x256.size a ≤ S3x8x64x256.size a) (h' : ∀ a, (Rect.unit (s := S3x8x64x256) (k0_off29 c) S1x1x64x256.size h).stride a = 1) : ((Memref.whole cc0_scratch1).slice (Rect.unit (s := S3x8x64x256) (k0_off29 c) S1x1x64x256.size h) h').squeeze S64x256 squeezes_S1x1x64x256_S64x256 = rSlot 0 c := slot_of_off 0 c (k0_off29_eq c) h h'
theorem slot_off30 (c : Dev nD) (h : ∀ a, (k0_off30 c) a + S1x1x64x256.size a ≤ S3x8x64x256.size a) (h' : ∀ a, (Rect.unit (s := S3x8x64x256) (k0_off30 c) S1x1x64x256.size h).stride a = 1) : ((Memref.whole cc0_scratch1).slice (Rect.unit (s := S3x8x64x256) (k0_off30 c) S1x1x64x256.size h) h').squeeze S64x256 squeezes_S1x1x64x256_S64x256 = rSlot 0 c := slot_of_off 0 c (k0_off30_eq c) h h'
theorem slot_off32 (c : Dev nD) (h : ∀ a, (k0_off32 c) a + S1x1x64x256.size a ≤ S3x8x64x256.size a) (h' : ∀ a, (Rect.unit (s := S3x8x64x256) (k0_off32 c) S1x1x64x256.size h).stride a = 1) : ((Memref.whole cc0_scratch1).slice (Rect.unit (s := S3x8x64x256) (k0_off32 c) S1x1x64x256.size h) h').squeeze S64x256 squeezes_S1x1x64x256_S64x256 = rSlot 1 c := slot_of_off 1 c (k0_off32_eq c) h h'
theorem slot_off34 (c : Dev nD) (h : ∀ a, (k0_off34 c) a + S1x1x64x256.size a ≤ S3x8x64x256.size a) (h' : ∀ a, (Rect.unit (s := S3x8x64x256) (k0_off34 c) S1x1x64x256.size h).stride a = 1) : ((Memref.whole cc0_scratch1).slice (Rect.unit (s := S3x8x64x256) (k0_off34 c) S1x1x64x256.size h) h').squeeze S64x256 squeezes_S1x1x64x256_S64x256 = rSlot 1 c := slot_of_off 1 c (k0_off34_eq c) h h'
theorem slot_off36 (c : Dev nD) (h : ∀ a, (k0_off36 c) a + S1x1x64x256.size a ≤ S3x8x64x256.size a) (h' : ∀ a, (Rect.unit (s := S3x8x64x256) (k0_off36 c) S1x1x64x256.size h).stride a = 1) : ((Memref.whole cc0_scratch1).slice (Rect.unit (s := S3x8x64x256) (k0_off36 c) S1x1x64x256.size h) h').squeeze S64x256 squeezes_S1x1x64x256_S64x256 = rSlot 1 c := slot_of_off 1 c (k0_off36_eq c) h h'
theorem slot_off38 (c : Dev nD) (h : ∀ a, (k0_off38 c) a + S1x1x64x256.size a ≤ S3x8x64x256.size a) (h' : ∀ a, (Rect.unit (s := S3x8x64x256) (k0_off38 c) S1x1x64x256.size h).stride a = 1) : ((Memref.whole cc0_scratch1).slice (Rect.unit (s := S3x8x64x256) (k0_off38 c) S1x1x64x256.size h) h').squeeze S64x256 squeezes_S1x1x64x256_S64x256 = rSlot 1 c := slot_of_off 1 c (k0_off38_eq c) h h'
theorem slot_off40 (c : Dev nD) (h : ∀ a, (k0_off40 c) a + S1x1x64x256.size a ≤ S3x8x64x256.size a) (h' : ∀ a, (Rect.unit (s := S3x8x64x256) (k0_off40 c) S1x1x64x256.size h).stride a = 1) : ((Memref.whole cc0_scratch1).slice (Rect.unit (s := S3x8x64x256) (k0_off40 c) S1x1x64x256.size h) h').squeeze S64x256 squeezes_S1x1x64x256_S64x256 = rSlot 1 c := slot_of_off 1 c (k0_off40_eq c) h h'
theorem slot_off42 (c : Dev nD) (h : ∀ a, (k0_off42 c) a + S1x1x64x256.size a ≤ S3x8x64x256.size a) (h' : ∀ a, (Rect.unit (s := S3x8x64x256) (k0_off42 c) S1x1x64x256.size h).stride a = 1) : ((Memref.whole cc0_scratch1).slice (Rect.unit (s := S3x8x64x256) (k0_off42 c) S1x1x64x256.size h) h').squeeze S64x256 squeezes_S1x1x64x256_S64x256 = rSlot 1 c := slot_of_off 1 c (k0_off42_eq c) h h'
theorem slot_off44 (c : Dev nD) (h : ∀ a, (k0_off44 c) a + S1x1x64x256.size a ≤ S3x8x64x256.size a) (h' : ∀ a, (Rect.unit (s := S3x8x64x256) (k0_off44 c) S1x1x64x256.size h).stride a = 1) : ((Memref.whole cc0_scratch1).slice (Rect.unit (s := S3x8x64x256) (k0_off44 c) S1x1x64x256.size h) h').squeeze S64x256 squeezes_S1x1x64x256_S64x256 = rSlot 1 c := slot_of_off 1 c (k0_off44_eq c) h h'
theorem slot_off46 (c : Dev nD) (h : ∀ a, (k0_off46 c) a + S1x1x64x256.size a ≤ S3x8x64x256.size a) (h' : ∀ a, (Rect.unit (s := S3x8x64x256) (k0_off46 c) S1x1x64x256.size h).stride a = 1) : ((Memref.whole cc0_scratch1).slice (Rect.unit (s := S3x8x64x256) (k0_off46 c) S1x1x64x256.size h) h').squeeze S64x256 squeezes_S1x1x64x256_S64x256 = rSlot 1 c := slot_of_off 1 c (k0_off46_eq c) h h'
theorem slot_off53 (c : Dev nD) (h : ∀ a, (k0_off53 c) a + S1x1x64x256.size a ≤ S3x8x64x256.size a) (h' : ∀ a, (Rect.unit (s := S3x8x64x256) (k0_off53 c) S1x1x64x256.size h).stride a = 1) : ((Memref.whole cc0_scratch1).slice (Rect.unit (s := S3x8x64x256) (k0_off53 c) S1x1x64x256.size h) h').squeeze S64x256 squeezes_S1x1x64x256_S64x256 = rSlot 1 c := slot_of_off 1 c (k0_off53_eq c) h h'
theorem slot_off54 (c : Dev nD) (h : ∀ a, (k0_off54 c) a + S1x1x64x256.size a ≤ S3x8x64x256.size a) (h' : ∀ a, (Rect.unit (s := S3x8x64x256) (k0_off54 c) S1x1x64x256.size h).stride a = 1) : ((Memref.whole cc0_scratch1).slice (Rect.unit (s := S3x8x64x256) (k0_off54 c) S1x1x64x256.size h) h').squeeze S64x256 squeezes_S1x1x64x256_S64x256 = rSlot 1 c := slot_of_off 1 c (k0_off54_eq c) h h'
theorem slot_off55 (c : Dev nD) (h : ∀ a, (k0_off55 c) a + S1x1x64x256.size a ≤ S3x8x64x256.size a) (h' : ∀ a, (Rect.unit (s := S3x8x64x256) (k0_off55 c) S1x1x64x256.size h).stride a = 1) : ((Memref.whole cc0_scratch1).slice (Rect.unit (s := S3x8x64x256) (k0_off55 c) S1x1x64x256.size h) h').squeeze S64x256 squeezes_S1x1x64x256_S64x256 = rSlot 1 c := slot_of_off 1 c (k0_off55_eq c) h h'
theorem slot_off56 (c : Dev nD) (h : ∀ a, (k0_off56 c) a + S1x1x64x256.size a ≤ S3x8x64x256.size a) (h' : ∀ a, (Rect.unit (s := S3x8x64x256) (k0_off56 c) S1x1x64x256.size h).stride a = 1) : ((Memref.whole cc0_scratch1).slice (Rect.unit (s := S3x8x64x256) (k0_off56 c) S1x1x64x256.size h) h').squeeze S64x256 squeezes_S1x1x64x256_S64x256 = rSlot 1 c := slot_of_off 1 c (k0_off56_eq c) h h'
theorem slot_off57 (c : Dev nD) (h : ∀ a, (k0_off57 c) a + S1x1x64x256.size a ≤ S3x8x64x256.size a) (h' : ∀ a, (Rect.unit (s := S3x8x64x256) (k0_off57 c) S1x1x64x256.size h).stride a = 1) : ((Memref.whole cc0_scratch1).slice (Rect.unit (s := S3x8x64x256) (k0_off57 c) S1x1x64x256.size h) h').squeeze S64x256 squeezes_S1x1x64x256_S64x256 = rSlot 1 c := slot_of_off 1 c (k0_off57_eq c) h h'
theorem slot_off58 (c : Dev nD) (h : ∀ a, (k0_off58 c) a + S1x1x64x256.size a ≤ S3x8x64x256.size a) (h' : ∀ a, (Rect.unit (s := S3x8x64x256) (k0_off58 c) S1x1x64x256.size h).stride a = 1) : ((Memref.whole cc0_scratch1).slice (Rect.unit (s := S3x8x64x256) (k0_off58 c) S1x1x64x256.size h) h').squeeze S64x256 squeezes_S1x1x64x256_S64x256 = rSlot 1 c := slot_of_off 1 c (k0_off58_eq c) h h'
theorem slot_off59 (c : Dev nD) (h : ∀ a, (k0_off59 c) a + S1x1x64x256.size a ≤ S3x8x64x256.size a) (h' : ∀ a, (Rect.unit (s := S3x8x64x256) (k0_off59 c) S1x1x64x256.size h).stride a = 1) : ((Memref.whole cc0_scratch1).slice (Rect.unit (s := S3x8x64x256) (k0_off59 c) S1x1x64x256.size h) h').squeeze S64x256 squeezes_S1x1x64x256_S64x256 = rSlot 1 c := slot_of_off 1 c (k0_off59_eq c) h h'
theorem slot_off60 (c : Dev nD) (h : ∀ a, (k0_off60 c) a + S1x1x64x256.size a ≤ S3x8x64x256.size a) (h' : ∀ a, (Rect.unit (s := S3x8x64x256) (k0_off60 c) S1x1x64x256.size h).stride a = 1) : ((Memref.whole cc0_scratch1).slice (Rect.unit (s := S3x8x64x256) (k0_off60 c) S1x1x64x256.size h) h').squeeze S64x256 squeezes_S1x1x64x256_S64x256 = rSlot 1 c := slot_of_off 1 c (k0_off60_eq c) h h'
theorem slot_off62 (c : Dev nD) (h : ∀ a, (k0_off62 c) a + S1x1x64x256.size a ≤ S3x8x64x256.size a) (h' : ∀ a, (Rect.unit (s := S3x8x64x256) (k0_off62 c) S1x1x64x256.size h).stride a = 1) : ((Memref.whole cc0_scratch1).slice (Rect.unit (s := S3x8x64x256) (k0_off62 c) S1x1x64x256.size h) h').squeeze S64x256 squeezes_S1x1x64x256_S64x256 = rSlot 2 c := slot_of_off 2 c (k0_off62_eq c) h h'
theorem slot_off64 (c : Dev nD) (h : ∀ a, (k0_off64 c) a + S1x1x64x256.size a ≤ S3x8x64x256.size a) (h' : ∀ a, (Rect.unit (s := S3x8x64x256) (k0_off64 c) S1x1x64x256.size h).stride a = 1) : ((Memref.whole cc0_scratch1).slice (Rect.unit (s := S3x8x64x256) (k0_off64 c) S1x1x64x256.size h) h').squeeze S64x256 squeezes_S1x1x64x256_S64x256 = rSlot 2 c := slot_of_off 2 c (k0_off64_eq c) h h'
theorem slot_off66 (c : Dev nD) (h : ∀ a, (k0_off66 c) a + S1x1x64x256.size a ≤ S3x8x64x256.size a) (h' : ∀ a, (Rect.unit (s := S3x8x64x256) (k0_off66 c) S1x1x64x256.size h).stride a = 1) : ((Memref.whole cc0_scratch1).slice (Rect.unit (s := S3x8x64x256) (k0_off66 c) S1x1x64x256.size h) h').squeeze S64x256 squeezes_S1x1x64x256_S64x256 = rSlot 2 c := slot_of_off 2 c (k0_off66_eq c) h h'
theorem slot_off68 (c : Dev nD) (h : ∀ a, (k0_off68 c) a + S1x1x64x256.size a ≤ S3x8x64x256.size a) (h' : ∀ a, (Rect.unit (s := S3x8x64x256) (k0_off68 c) S1x1x64x256.size h).stride a = 1) : ((Memref.whole cc0_scratch1).slice (Rect.unit (s := S3x8x64x256) (k0_off68 c) S1x1x64x256.size h) h').squeeze S64x256 squeezes_S1x1x64x256_S64x256 = rSlot 2 c := slot_of_off 2 c (k0_off68_eq c) h h'
theorem slot_off70 (c : Dev nD) (h : ∀ a, (k0_off70 c) a + S1x1x64x256.size a ≤ S3x8x64x256.size a) (h' : ∀ a, (Rect.unit (s := S3x8x64x256) (k0_off70 c) S1x1x64x256.size h).stride a = 1) : ((Memref.whole cc0_scratch1).slice (Rect.unit (s := S3x8x64x256) (k0_off70 c) S1x1x64x256.size h) h').squeeze S64x256 squeezes_S1x1x64x256_S64x256 = rSlot 2 c := slot_of_off 2 c (k0_off70_eq c) h h'
theorem slot_off72 (c : Dev nD) (h : ∀ a, (k0_off72 c) a + S1x1x64x256.size a ≤ S3x8x64x256.size a) (h' : ∀ a, (Rect.unit (s := S3x8x64x256) (k0_off72 c) S1x1x64x256.size h).stride a = 1) : ((Memref.whole cc0_scratch1).slice (Rect.unit (s := S3x8x64x256) (k0_off72 c) S1x1x64x256.size h) h').squeeze S64x256 squeezes_S1x1x64x256_S64x256 = rSlot 2 c := slot_of_off 2 c (k0_off72_eq c) h h'
theorem slot_off74 (c : Dev nD) (h : ∀ a, (k0_off74 c) a + S1x1x64x256.size a ≤ S3x8x64x256.size a) (h' : ∀ a, (Rect.unit (s := S3x8x64x256) (k0_off74 c) S1x1x64x256.size h).stride a = 1) : ((Memref.whole cc0_scratch1).slice (Rect.unit (s := S3x8x64x256) (k0_off74 c) S1x1x64x256.size h) h').squeeze S64x256 squeezes_S1x1x64x256_S64x256 = rSlot 2 c := slot_of_off 2 c (k0_off74_eq c) h h'
theorem slot_off76 (c : Dev nD) (h : ∀ a, (k0_off76 c) a + S1x1x64x256.size a ≤ S3x8x64x256.size a) (h' : ∀ a, (Rect.unit (s := S3x8x64x256) (k0_off76 c) S1x1x64x256.size h).stride a = 1) : ((Memref.whole cc0_scratch1).slice (Rect.unit (s := S3x8x64x256) (k0_off76 c) S1x1x64x256.size h) h').squeeze S64x256 squeezes_S1x1x64x256_S64x256 = rSlot 2 c := slot_of_off 2 c (k0_off76_eq c) h h'
theorem slot_off81 (c : Dev nD) (h : ∀ a, (k0_off81 c) a + S1x1x64x256.size a ≤ S3x8x64x256.size a) (h' : ∀ a, (Rect.unit (s := S3x8x64x256) (k0_off81 c) S1x1x64x256.size h).stride a = 1) : ((Memref.whole cc0_scratch1).slice (Rect.unit (s := S3x8x64x256) (k0_off81 c) S1x1x64x256.size h) h').squeeze S64x256 squeezes_S1x1x64x256_S64x256 = rSlot 2 c := slot_of_off 2 c (k0_off81_eq c) h h'
theorem slot_off82 (c : Dev nD) (h : ∀ a, (k0_off82 c) a + S1x1x64x256.size a ≤ S3x8x64x256.size a) (h' : ∀ a, (Rect.unit (s := S3x8x64x256) (k0_off82 c) S1x1x64x256.size h).stride a = 1) : ((Memref.whole cc0_scratch1).slice (Rect.unit (s := S3x8x64x256) (k0_off82 c) S1x1x64x256.size h) h').squeeze S64x256 squeezes_S1x1x64x256_S64x256 = rSlot 2 c := slot_of_off 2 c (k0_off82_eq c) h h'
theorem slot_off83 (c : Dev nD) (h : ∀ a, (k0_off83 c) a + S1x1x64x256.size a ≤ S3x8x64x256.size a) (h' : ∀ a, (Rect.unit (s := S3x8x64x256) (k0_off83 c) S1x1x64x256.size h).stride a = 1) : ((Memref.whole cc0_scratch1).slice (Rect.unit (s := S3x8x64x256) (k0_off83 c) S1x1x64x256.size h) h').squeeze S64x256 squeezes_S1x1x64x256_S64x256 = rSlot 2 c := slot_of_off 2 c (k0_off83_eq c) h h'
theorem slot_off84 (c : Dev nD) (h : ∀ a, (k0_off84 c) a + S1x1x64x256.size a ≤ S3x8x64x256.size a) (h' : ∀ a, (Rect.unit (s := S3x8x64x256) (k0_off84 c) S1x1x64x256.size h).stride a = 1) : ((Memref.whole cc0_scratch1).slice (Rect.unit (s := S3x8x64x256) (k0_off84 c) S1x1x64x256.size h) h').squeeze S64x256 squeezes_S1x1x64x256_S64x256 = rSlot 2 c := slot_of_off 2 c (k0_off84_eq c) h h'
theorem slot_off85 (c : Dev nD) (h : ∀ a, (k0_off85 c) a + S1x1x64x256.size a ≤ S3x8x64x256.size a) (h' : ∀ a, (Rect.unit (s := S3x8x64x256) (k0_off85 c) S1x1x64x256.size h).stride a = 1) : ((Memref.whole cc0_scratch1).slice (Rect.unit (s := S3x8x64x256) (k0_off85 c) S1x1x64x256.size h) h').squeeze S64x256 squeezes_S1x1x64x256_S64x256 = rSlot 2 c := slot_of_off 2 c (k0_off85_eq c) h h'
theorem slot_off86 (c : Dev nD) (h : ∀ a, (k0_off86 c) a + S1x1x64x256.size a ≤ S3x8x64x256.size a) (h' : ∀ a, (Rect.unit (s := S3x8x64x256) (k0_off86 c) S1x1x64x256.size h).stride a = 1) : ((Memref.whole cc0_scratch1).slice (Rect.unit (s := S3x8x64x256) (k0_off86 c) S1x1x64x256.size h) h').squeeze S64x256 squeezes_S1x1x64x256_S64x256 = rSlot 2 c := slot_of_off 2 c (k0_off86_eq c) h h'
theorem slot_off87 (c : Dev nD) (h : ∀ a, (k0_off87 c) a + S1x1x64x256.size a ≤ S3x8x64x256.size a) (h' : ∀ a, (Rect.unit (s := S3x8x64x256) (k0_off87 c) S1x1x64x256.size h).stride a = 1) : ((Memref.whole cc0_scratch1).slice (Rect.unit (s := S3x8x64x256) (k0_off87 c) S1x1x64x256.size h) h').squeeze S64x256 squeezes_S1x1x64x256_S64x256 = rSlot 2 c := slot_of_off 2 c (k0_off87_eq c) h h'
theorem slot_off88 (c : Dev nD) (h : ∀ a, (k0_off88 c) a + S1x1x64x256.size a ≤ S3x8x64x256.size a) (h' : ∀ a, (Rect.unit (s := S3x8x64x256) (k0_off88 c) S1x1x64x256.size h).stride a = 1) : ((Memref.whole cc0_scratch1).slice (Rect.unit (s := S3x8x64x256) (k0_off88 c) S1x1x64x256.size h) h').squeeze S64x256 squeezes_S1x1x64x256_S64x256 = rSlot 2 c := slot_of_off 2 c (k0_off88_eq c) h h'
theorem slot_off19_1 (c : Dev nD) (h : ∀ a, (k0_off19 c 1#32) a + S1x1x64x256.size a ≤ S3x8x64x256.size a) (h' : ∀ a, (Rect.unit (s := S3x8x64x256) (k0_off19 c 1#32) S1x1x64x256.size h).stride a = 1) : ((Memref.whole cc0_scratch1).slice (Rect.unit (s := S3x8x64x256) (k0_off19 c 1#32) S1x1x64x256.size h) h').squeeze S64x256 squeezes_S1x1x64x256_S64x256 = rSlot 0 (bwd 1 c) := slot_of_off 0 (bwd 1 c) ((k0_off19_eq c 0).trans (by rw [bwd_val c 0]; rfl)) h h'
theorem slot_off19_2 (c : Dev nD) (h : ∀ a, (k0_off19 c 2#32) a + S1x1x64x256.size a ≤ S3x8x64x256.size a) (h' : ∀ a, (Rect.unit (s := S3x8x64x256) (k0_off19 c 2#32) S1x1x64x256.size h).stride a = 1) : ((Memref.whole cc0_scratch1).slice (Rect.unit (s := S3x8x64x256) (k0_off19 c 2#32) S1x1x64x256.size h) h').squeeze S64x256 squeezes_S1x1x64x256_S64x256 = rSlot 0 (bwd 2 c) := slot_of_off 0 (bwd 2 c) ((k0_off19_eq c 1).trans (by rw [bwd_val c 1]; rfl)) h h'
theorem slot_off19_3 (c : Dev nD) (h : ∀ a, (k0_off19 c 3#32) a + S1x1x64x256.size a ≤ S3x8x64x256.size a) (h' : ∀ a, (Rect.unit (s := S3x8x64x256) (k0_off19 c 3#32) S1x1x64x256.size h).stride a = 1) : ((Memref.whole cc0_scratch1).slice (Rect.unit (s := S3x8x64x256) (k0_off19 c 3#32) S1x1x64x256.size h) h').squeeze S64x256 squeezes_S1x1x64x256_S64x256 = rSlot 0 (bwd 3 c) := slot_of_off 0 (bwd 3 c) ((k0_off19_eq c 2).trans (by rw [bwd_val c 2]; rfl)) h h'
theorem slot_off19_4 (c : Dev nD) (h : ∀ a, (k0_off19 c 4#32) a + S1x1x64x256.size a ≤ S3x8x64x256.size a) (h' : ∀ a, (Rect.unit (s := S3x8x64x256) (k0_off19 c 4#32) S1x1x64x256.size h).stride a = 1) : ((Memref.whole cc0_scratch1).slice (Rect.unit (s := S3x8x64x256) (k0_off19 c 4#32) S1x1x64x256.size h) h').squeeze S64x256 squeezes_S1x1x64x256_S64x256 = rSlot 0 (bwd 4 c) := slot_of_off 0 (bwd 4 c) ((k0_off19_eq c 3).trans (by rw [bwd_val c 3]; rfl)) h h'
theorem slot_off19_5 (c : Dev nD) (h : ∀ a, (k0_off19 c 5#32) a + S1x1x64x256.size a ≤ S3x8x64x256.size a) (h' : ∀ a, (Rect.unit (s := S3x8x64x256) (k0_off19 c 5#32) S1x1x64x256.size h).stride a = 1) : ((Memref.whole cc0_scratch1).slice (Rect.unit (s := S3x8x64x256) (k0_off19 c 5#32) S1x1x64x256.size h) h').squeeze S64x256 squeezes_S1x1x64x256_S64x256 = rSlot 0 (bwd 5 c) := slot_of_off 0 (bwd 5 c) ((k0_off19_eq c 4).trans (by rw [bwd_val c 4]; rfl)) h h'
theorem slot_off19_6 (c : Dev nD) (h : ∀ a, (k0_off19 c 6#32) a + S1x1x64x256.size a ≤ S3x8x64x256.size a) (h' : ∀ a, (Rect.unit (s := S3x8x64x256) (k0_off19 c 6#32) S1x1x64x256.size h).stride a = 1) : ((Memref.whole cc0_scratch1).slice (Rect.unit (s := S3x8x64x256) (k0_off19 c 6#32) S1x1x64x256.size h) h').squeeze S64x256 squeezes_S1x1x64x256_S64x256 = rSlot 0 (bwd 6 c) := slot_of_off 0 (bwd 6 c) ((k0_off19_eq c 5).trans (by rw [bwd_val c 5]; rfl)) h h'
theorem slot_off19_7 (c : Dev nD) (h : ∀ a, (k0_off19 c 7#32) a + S1x1x64x256.size a ≤ S3x8x64x256.size a) (h' : ∀ a, (Rect.unit (s := S3x8x64x256) (k0_off19 c 7#32) S1x1x64x256.size h).stride a = 1) : ((Memref.whole cc0_scratch1).slice (Rect.unit (s := S3x8x64x256) (k0_off19 c 7#32) S1x1x64x256.size h) h').squeeze S64x256 squeezes_S1x1x64x256_S64x256 = rSlot 0 (bwd 7 c) := slot_of_off 0 (bwd 7 c) ((k0_off19_eq c 6).trans (by rw [bwd_val c 6]; rfl)) h h'
theorem slot_off49_1 (c : Dev nD) (h : ∀ a, (k0_off49 c 1#32) a + S1x1x64x256.size a ≤ S3x8x64x256.size a) (h' : ∀ a, (Rect.unit (s := S3x8x64x256) (k0_off49 c 1#32) S1x1x64x256.size h).stride a = 1) : ((Memref.whole cc0_scratch1).slice (Rect.unit (s := S3x8x64x256) (k0_off49 c 1#32) S1x1x64x256.size h) h').squeeze S64x256 squeezes_S1x1x64x256_S64x256 = rSlot 1 (bwd 1 c) := slot_of_off 1 (bwd 1 c) ((k0_off49_eq c 0).trans (by rw [bwd_val c 0]; rfl)) h h'
theorem slot_off49_2 (c : Dev nD) (h : ∀ a, (k0_off49 c 2#32) a + S1x1x64x256.size a ≤ S3x8x64x256.size a) (h' : ∀ a, (Rect.unit (s := S3x8x64x256) (k0_off49 c 2#32) S1x1x64x256.size h).stride a = 1) : ((Memref.whole cc0_scratch1).slice (Rect.unit (s := S3x8x64x256) (k0_off49 c 2#32) S1x1x64x256.size h) h').squeeze S64x256 squeezes_S1x1x64x256_S64x256 = rSlot 1 (bwd 2 c) := slot_of_off 1 (bwd 2 c) ((k0_off49_eq c 1).trans (by rw [bwd_val c 1]; rfl)) h h'
theorem slot_off49_3 (c : Dev nD) (h : ∀ a, (k0_off49 c 3#32) a + S1x1x64x256.size a ≤ S3x8x64x256.size a) (h' : ∀ a, (Rect.unit (s := S3x8x64x256) (k0_off49 c 3#32) S1x1x64x256.size h).stride a = 1) : ((Memref.whole cc0_scratch1).slice (Rect.unit (s := S3x8x64x256) (k0_off49 c 3#32) S1x1x64x256.size h) h').squeeze S64x256 squeezes_S1x1x64x256_S64x256 = rSlot 1 (bwd 3 c) := slot_of_off 1 (bwd 3 c) ((k0_off49_eq c 2).trans (by rw [bwd_val c 2]; rfl)) h h'
theorem slot_off49_4 (c : Dev nD) (h : ∀ a, (k0_off49 c 4#32) a + S1x1x64x256.size a ≤ S3x8x64x256.size a) (h' : ∀ a, (Rect.unit (s := S3x8x64x256) (k0_off49 c 4#32) S1x1x64x256.size h).stride a = 1) : ((Memref.whole cc0_scratch1).slice (Rect.unit (s := S3x8x64x256) (k0_off49 c 4#32) S1x1x64x256.size h) h').squeeze S64x256 squeezes_S1x1x64x256_S64x256 = rSlot 1 (bwd 4 c) := slot_of_off 1 (bwd 4 c) ((k0_off49_eq c 3).trans (by rw [bwd_val c 3]; rfl)) h h'
theorem slot_off49_5 (c : Dev nD) (h : ∀ a, (k0_off49 c 5#32) a + S1x1x64x256.size a ≤ S3x8x64x256.size a) (h' : ∀ a, (Rect.unit (s := S3x8x64x256) (k0_off49 c 5#32) S1x1x64x256.size h).stride a = 1) : ((Memref.whole cc0_scratch1).slice (Rect.unit (s := S3x8x64x256) (k0_off49 c 5#32) S1x1x64x256.size h) h').squeeze S64x256 squeezes_S1x1x64x256_S64x256 = rSlot 1 (bwd 5 c) := slot_of_off 1 (bwd 5 c) ((k0_off49_eq c 4).trans (by rw [bwd_val c 4]; rfl)) h h'
theorem slot_off49_6 (c : Dev nD) (h : ∀ a, (k0_off49 c 6#32) a + S1x1x64x256.size a ≤ S3x8x64x256.size a) (h' : ∀ a, (Rect.unit (s := S3x8x64x256) (k0_off49 c 6#32) S1x1x64x256.size h).stride a = 1) : ((Memref.whole cc0_scratch1).slice (Rect.unit (s := S3x8x64x256) (k0_off49 c 6#32) S1x1x64x256.size h) h').squeeze S64x256 squeezes_S1x1x64x256_S64x256 = rSlot 1 (bwd 6 c) := slot_of_off 1 (bwd 6 c) ((k0_off49_eq c 5).trans (by rw [bwd_val c 5]; rfl)) h h'
theorem slot_off49_7 (c : Dev nD) (h : ∀ a, (k0_off49 c 7#32) a + S1x1x64x256.size a ≤ S3x8x64x256.size a) (h' : ∀ a, (Rect.unit (s := S3x8x64x256) (k0_off49 c 7#32) S1x1x64x256.size h).stride a = 1) : ((Memref.whole cc0_scratch1).slice (Rect.unit (s := S3x8x64x256) (k0_off49 c 7#32) S1x1x64x256.size h) h').squeeze S64x256 squeezes_S1x1x64x256_S64x256 = rSlot 1 (bwd 7 c) := slot_of_off 1 (bwd 7 c) ((k0_off49_eq c 6).trans (by rw [bwd_val c 6]; rfl)) h h'
theorem slot_off79_1 (c : Dev nD) (h : ∀ a, (k0_off79 c 1#32) a + S1x1x64x256.size a ≤ S3x8x64x256.size a) (h' : ∀ a, (Rect.unit (s := S3x8x64x256) (k0_off79 c 1#32) S1x1x64x256.size h).stride a = 1) : ((Memref.whole cc0_scratch1).slice (Rect.unit (s := S3x8x64x256) (k0_off79 c 1#32) S1x1x64x256.size h) h').squeeze S64x256 squeezes_S1x1x64x256_S64x256 = rSlot 2 (bwd 1 c) := slot_of_off 2 (bwd 1 c) ((k0_off79_eq c 0).trans (by rw [bwd_val c 0]; rfl)) h h'
theorem slot_off79_2 (c : Dev nD) (h : ∀ a, (k0_off79 c 2#32) a + S1x1x64x256.size a ≤ S3x8x64x256.size a) (h' : ∀ a, (Rect.unit (s := S3x8x64x256) (k0_off79 c 2#32) S1x1x64x256.size h).stride a = 1) : ((Memref.whole cc0_scratch1).slice (Rect.unit (s := S3x8x64x256) (k0_off79 c 2#32) S1x1x64x256.size h) h').squeeze S64x256 squeezes_S1x1x64x256_S64x256 = rSlot 2 (bwd 2 c) := slot_of_off 2 (bwd 2 c) ((k0_off79_eq c 1).trans (by rw [bwd_val c 1]; rfl)) h h'
theorem slot_off79_3 (c : Dev nD) (h : ∀ a, (k0_off79 c 3#32) a + S1x1x64x256.size a ≤ S3x8x64x256.size a) (h' : ∀ a, (Rect.unit (s := S3x8x64x256) (k0_off79 c 3#32) S1x1x64x256.size h).stride a = 1) : ((Memref.whole cc0_scratch1).slice (Rect.unit (s := S3x8x64x256) (k0_off79 c 3#32) S1x1x64x256.size h) h').squeeze S64x256 squeezes_S1x1x64x256_S64x256 = rSlot 2 (bwd 3 c) := slot_of_off 2 (bwd 3 c) ((k0_off79_eq c 2).trans (by rw [bwd_val c 2]; rfl)) h h'
theorem slot_off79_4 (c : Dev nD) (h : ∀ a, (k0_off79 c 4#32) a + S1x1x64x256.size a ≤ S3x8x64x256.size a) (h' : ∀ a, (Rect.unit (s := S3x8x64x256) (k0_off79 c 4#32) S1x1x64x256.size h).stride a = 1) : ((Memref.whole cc0_scratch1).slice (Rect.unit (s := S3x8x64x256) (k0_off79 c 4#32) S1x1x64x256.size h) h').squeeze S64x256 squeezes_S1x1x64x256_S64x256 = rSlot 2 (bwd 4 c) := slot_of_off 2 (bwd 4 c) ((k0_off79_eq c 3).trans (by rw [bwd_val c 3]; rfl)) h h'
theorem slot_off79_5 (c : Dev nD) (h : ∀ a, (k0_off79 c 5#32) a + S1x1x64x256.size a ≤ S3x8x64x256.size a) (h' : ∀ a, (Rect.unit (s := S3x8x64x256) (k0_off79 c 5#32) S1x1x64x256.size h).stride a = 1) : ((Memref.whole cc0_scratch1).slice (Rect.unit (s := S3x8x64x256) (k0_off79 c 5#32) S1x1x64x256.size h) h').squeeze S64x256 squeezes_S1x1x64x256_S64x256 = rSlot 2 (bwd 5 c) := slot_of_off 2 (bwd 5 c) ((k0_off79_eq c 4).trans (by rw [bwd_val c 4]; rfl)) h h'
theorem slot_off79_6 (c : Dev nD) (h : ∀ a, (k0_off79 c 6#32) a + S1x1x64x256.size a ≤ S3x8x64x256.size a) (h' : ∀ a, (Rect.unit (s := S3x8x64x256) (k0_off79 c 6#32) S1x1x64x256.size h).stride a = 1) : ((Memref.whole cc0_scratch1).slice (Rect.unit (s := S3x8x64x256) (k0_off79 c 6#32) S1x1x64x256.size h) h').squeeze S64x256 squeezes_S1x1x64x256_S64x256 = rSlot 2 (bwd 6 c) := slot_of_off 2 (bwd 6 c) ((k0_off79_eq c 5).trans (by rw [bwd_val c 5]; rfl)) h h'
theorem slot_off79_7 (c : Dev nD) (h : ∀ a, (k0_off79 c 7#32) a + S1x1x64x256.size a ≤ S3x8x64x256.size a) (h' : ∀ a, (Rect.unit (s := S3x8x64x256) (k0_off79 c 7#32) S1x1x64x256.size h).stride a = 1) : ((Memref.whole cc0_scratch1).slice (Rect.unit (s := S3x8x64x256) (k0_off79 c 7#32) S1x1x64x256.size h) h').squeeze S64x256 squeezes_S1x1x64x256_S64x256 = rSlot 2 (bwd 7 c) := slot_of_off 2 (bwd 7 c) ((k0_off79_eq c 6).trans (by rw [bwd_val c 6]; rfl)) h h'

/-! ## Gather chunks: the device's own 64 rows of the gather buffer, source and target of its gather sends -/

theorem chunk_off22 (c : Dev nD) (h : ∀ a, (k0_off22 c) a + S1x64x256.size a ≤ S3x512x256.size a) (h' : ∀ a, (Rect.unit (s := S3x512x256) (k0_off22 c) S1x64x256.size h).stride a = 1) : ((Memref.whole cc0_scratch2).slice (Rect.unit (s := S3x512x256) (k0_off22 c) S1x64x256.size h) h').squeeze S64x256 squeezes_S1x64x256_S64x256 = gChunk 0 c := gchunk_of_off 0 c (k0_off22_eq c) h h'
theorem chunk_off52 (c : Dev nD) (h : ∀ a, (k0_off52 c) a + S1x64x256.size a ≤ S3x512x256.size a) (h' : ∀ a, (Rect.unit (s := S3x512x256) (k0_off52 c) S1x64x256.size h).stride a = 1) : ((Memref.whole cc0_scratch2).slice (Rect.unit (s := S3x512x256) (k0_off52 c) S1x64x256.size h) h').squeeze S64x256 squeezes_S1x64x256_S64x256 = gChunk 1 c := gchunk_of_off 1 c (k0_off52_eq c) h h'

/-! ## Rectangles: the device's own 64 rows of the partial-product and gather buffers, as a load or a store goes through them -/

theorem rect_off17 (c : Dev nD) (h : ∀ a, (k0_off17 c) a + S1x64x256.size a ≤ S3x512x256.size a) : Rect.unit (s := S3x512x256) (k0_off17 c) S1x64x256.size h = Rect.unit (s := S3x512x256) ![0, 64 * c.val, 0] S1x64x256.size (inb_p 0 c) := rectp_of_off 0 c (k0_off17_eq c) h
theorem rect_off47 (c : Dev nD) (h : ∀ a, (k0_off47 c) a + S1x64x256.size a ≤ S3x512x256.size a) : Rect.unit (s := S3x512x256) (k0_off47 c) S1x64x256.size h = Rect.unit (s := S3x512x256) ![1, 64 * c.val, 0] S1x64x256.size (inb_p 1 c) := rectp_of_off 1 c (k0_off47_eq c) h
theorem rect_off77 (c : Dev nD) (h : ∀ a, (k0_off77 c) a + S1x64x256.size a ≤ S3x512x256.size a) : Rect.unit (s := S3x512x256) (k0_off77 c) S1x64x256.size h = Rect.unit (s := S3x512x256) ![2, 64 * c.val, 0] S1x64x256.size (inb_p 2 c) := rectp_of_off 2 c (k0_off77_eq c) h

/-! ## Rectangles: the receive slot of the device `j` places back, as the accumulation step `j` loads it -/

theorem rect_off20_1 (c : Dev nD) (h : ∀ a, (k0_off20 c 1#32) a + S1x1x64x256.size a ≤ S3x8x64x256.size a) : Rect.unit (s := S3x8x64x256) (k0_off20 c 1#32) S1x1x64x256.size h = Rect.unit (s := S3x8x64x256) ![0, (bwd 1 c).val, 0, 0] S1x1x64x256.size (inb_r 0 (bwd 1 c)) := rectr_of_off 0 (bwd 1 c) ((k0_off20_eq c 0).trans (by rw [bwd_val c 0]; rfl)) h
theorem rect_off20_2 (c : Dev nD) (h : ∀ a, (k0_off20 c 2#32) a + S1x1x64x256.size a ≤ S3x8x64x256.size a) : Rect.unit (s := S3x8x64x256) (k0_off20 c 2#32) S1x1x64x256.size h = Rect.unit (s := S3x8x64x256) ![0, (bwd 2 c).val, 0, 0] S1x1x64x256.size (inb_r 0 (bwd 2 c)) := rectr_of_off 0 (bwd 2 c) ((k0_off20_eq c 1).trans (by rw [bwd_val c 1]; rfl)) h
theorem rect_off20_3 (c : Dev nD) (h : ∀ a, (k0_off20 c 3#32) a + S1x1x64x256.size a ≤ S3x8x64x256.size a) : Rect.unit (s := S3x8x64x256) (k0_off20 c 3#32) S1x1x64x256.size h = Rect.unit (s := S3x8x64x256) ![0, (bwd 3 c).val, 0, 0] S1x1x64x256.size (inb_r 0 (bwd 3 c)) := rectr_of_off 0 (bwd 3 c) ((k0_off20_eq c 2).trans (by rw [bwd_val c 2]; rfl)) h
theorem rect_off20_4 (c : Dev nD) (h : ∀ a, (k0_off20 c 4#32) a + S1x1x64x256.size a ≤ S3x8x64x256.size a) : Rect.unit (s := S3x8x64x256) (k0_off20 c 4#32) S1x1x64x256.size h = Rect.unit (s := S3x8x64x256) ![0, (bwd 4 c).val, 0, 0] S1x1x64x256.size (inb_r 0 (bwd 4 c)) := rectr_of_off 0 (bwd 4 c) ((k0_off20_eq c 3).trans (by rw [bwd_val c 3]; rfl)) h
theorem rect_off20_5 (c : Dev nD) (h : ∀ a, (k0_off20 c 5#32) a + S1x1x64x256.size a ≤ S3x8x64x256.size a) : Rect.unit (s := S3x8x64x256) (k0_off20 c 5#32) S1x1x64x256.size h = Rect.unit (s := S3x8x64x256) ![0, (bwd 5 c).val, 0, 0] S1x1x64x256.size (inb_r 0 (bwd 5 c)) := rectr_of_off 0 (bwd 5 c) ((k0_off20_eq c 4).trans (by rw [bwd_val c 4]; rfl)) h
theorem rect_off20_6 (c : Dev nD) (h : ∀ a, (k0_off20 c 6#32) a + S1x1x64x256.size a ≤ S3x8x64x256.size a) : Rect.unit (s := S3x8x64x256) (k0_off20 c 6#32) S1x1x64x256.size h = Rect.unit (s := S3x8x64x256) ![0, (bwd 6 c).val, 0, 0] S1x1x64x256.size (inb_r 0 (bwd 6 c)) := rectr_of_off 0 (bwd 6 c) ((k0_off20_eq c 5).trans (by rw [bwd_val c 5]; rfl)) h
theorem rect_off20_7 (c : Dev nD) (h : ∀ a, (k0_off20 c 7#32) a + S1x1x64x256.size a ≤ S3x8x64x256.size a) : Rect.unit (s := S3x8x64x256) (k0_off20 c 7#32) S1x1x64x256.size h = Rect.unit (s := S3x8x64x256) ![0, (bwd 7 c).val, 0, 0] S1x1x64x256.size (inb_r 0 (bwd 7 c)) := rectr_of_off 0 (bwd 7 c) ((k0_off20_eq c 6).trans (by rw [bwd_val c 6]; rfl)) h
theorem rect_off50_1 (c : Dev nD) (h : ∀ a, (k0_off50 c 1#32) a + S1x1x64x256.size a ≤ S3x8x64x256.size a) : Rect.unit (s := S3x8x64x256) (k0_off50 c 1#32) S1x1x64x256.size h = Rect.unit (s := S3x8x64x256) ![1, (bwd 1 c).val, 0, 0] S1x1x64x256.size (inb_r 1 (bwd 1 c)) := rectr_of_off 1 (bwd 1 c) ((k0_off50_eq c 0).trans (by rw [bwd_val c 0]; rfl)) h
theorem rect_off50_2 (c : Dev nD) (h : ∀ a, (k0_off50 c 2#32) a + S1x1x64x256.size a ≤ S3x8x64x256.size a) : Rect.unit (s := S3x8x64x256) (k0_off50 c 2#32) S1x1x64x256.size h = Rect.unit (s := S3x8x64x256) ![1, (bwd 2 c).val, 0, 0] S1x1x64x256.size (inb_r 1 (bwd 2 c)) := rectr_of_off 1 (bwd 2 c) ((k0_off50_eq c 1).trans (by rw [bwd_val c 1]; rfl)) h
theorem rect_off50_3 (c : Dev nD) (h : ∀ a, (k0_off50 c 3#32) a + S1x1x64x256.size a ≤ S3x8x64x256.size a) : Rect.unit (s := S3x8x64x256) (k0_off50 c 3#32) S1x1x64x256.size h = Rect.unit (s := S3x8x64x256) ![1, (bwd 3 c).val, 0, 0] S1x1x64x256.size (inb_r 1 (bwd 3 c)) := rectr_of_off 1 (bwd 3 c) ((k0_off50_eq c 2).trans (by rw [bwd_val c 2]; rfl)) h
theorem rect_off50_4 (c : Dev nD) (h : ∀ a, (k0_off50 c 4#32) a + S1x1x64x256.size a ≤ S3x8x64x256.size a) : Rect.unit (s := S3x8x64x256) (k0_off50 c 4#32) S1x1x64x256.size h = Rect.unit (s := S3x8x64x256) ![1, (bwd 4 c).val, 0, 0] S1x1x64x256.size (inb_r 1 (bwd 4 c)) := rectr_of_off 1 (bwd 4 c) ((k0_off50_eq c 3).trans (by rw [bwd_val c 3]; rfl)) h
theorem rect_off50_5 (c : Dev nD) (h : ∀ a, (k0_off50 c 5#32) a + S1x1x64x256.size a ≤ S3x8x64x256.size a) : Rect.unit (s := S3x8x64x256) (k0_off50 c 5#32) S1x1x64x256.size h = Rect.unit (s := S3x8x64x256) ![1, (bwd 5 c).val, 0, 0] S1x1x64x256.size (inb_r 1 (bwd 5 c)) := rectr_of_off 1 (bwd 5 c) ((k0_off50_eq c 4).trans (by rw [bwd_val c 4]; rfl)) h
theorem rect_off50_6 (c : Dev nD) (h : ∀ a, (k0_off50 c 6#32) a + S1x1x64x256.size a ≤ S3x8x64x256.size a) : Rect.unit (s := S3x8x64x256) (k0_off50 c 6#32) S1x1x64x256.size h = Rect.unit (s := S3x8x64x256) ![1, (bwd 6 c).val, 0, 0] S1x1x64x256.size (inb_r 1 (bwd 6 c)) := rectr_of_off 1 (bwd 6 c) ((k0_off50_eq c 5).trans (by rw [bwd_val c 5]; rfl)) h
theorem rect_off50_7 (c : Dev nD) (h : ∀ a, (k0_off50 c 7#32) a + S1x1x64x256.size a ≤ S3x8x64x256.size a) : Rect.unit (s := S3x8x64x256) (k0_off50 c 7#32) S1x1x64x256.size h = Rect.unit (s := S3x8x64x256) ![1, (bwd 7 c).val, 0, 0] S1x1x64x256.size (inb_r 1 (bwd 7 c)) := rectr_of_off 1 (bwd 7 c) ((k0_off50_eq c 6).trans (by rw [bwd_val c 6]; rfl)) h
theorem rect_off80_1 (c : Dev nD) (h : ∀ a, (k0_off80 c 1#32) a + S1x1x64x256.size a ≤ S3x8x64x256.size a) : Rect.unit (s := S3x8x64x256) (k0_off80 c 1#32) S1x1x64x256.size h = Rect.unit (s := S3x8x64x256) ![2, (bwd 1 c).val, 0, 0] S1x1x64x256.size (inb_r 2 (bwd 1 c)) := rectr_of_off 2 (bwd 1 c) ((k0_off80_eq c 0).trans (by rw [bwd_val c 0]; rfl)) h
theorem rect_off80_2 (c : Dev nD) (h : ∀ a, (k0_off80 c 2#32) a + S1x1x64x256.size a ≤ S3x8x64x256.size a) : Rect.unit (s := S3x8x64x256) (k0_off80 c 2#32) S1x1x64x256.size h = Rect.unit (s := S3x8x64x256) ![2, (bwd 2 c).val, 0, 0] S1x1x64x256.size (inb_r 2 (bwd 2 c)) := rectr_of_off 2 (bwd 2 c) ((k0_off80_eq c 1).trans (by rw [bwd_val c 1]; rfl)) h
theorem rect_off80_3 (c : Dev nD) (h : ∀ a, (k0_off80 c 3#32) a + S1x1x64x256.size a ≤ S3x8x64x256.size a) : Rect.unit (s := S3x8x64x256) (k0_off80 c 3#32) S1x1x64x256.size h = Rect.unit (s := S3x8x64x256) ![2, (bwd 3 c).val, 0, 0] S1x1x64x256.size (inb_r 2 (bwd 3 c)) := rectr_of_off 2 (bwd 3 c) ((k0_off80_eq c 2).trans (by rw [bwd_val c 2]; rfl)) h
theorem rect_off80_4 (c : Dev nD) (h : ∀ a, (k0_off80 c 4#32) a + S1x1x64x256.size a ≤ S3x8x64x256.size a) : Rect.unit (s := S3x8x64x256) (k0_off80 c 4#32) S1x1x64x256.size h = Rect.unit (s := S3x8x64x256) ![2, (bwd 4 c).val, 0, 0] S1x1x64x256.size (inb_r 2 (bwd 4 c)) := rectr_of_off 2 (bwd 4 c) ((k0_off80_eq c 3).trans (by rw [bwd_val c 3]; rfl)) h
theorem rect_off80_5 (c : Dev nD) (h : ∀ a, (k0_off80 c 5#32) a + S1x1x64x256.size a ≤ S3x8x64x256.size a) : Rect.unit (s := S3x8x64x256) (k0_off80 c 5#32) S1x1x64x256.size h = Rect.unit (s := S3x8x64x256) ![2, (bwd 5 c).val, 0, 0] S1x1x64x256.size (inb_r 2 (bwd 5 c)) := rectr_of_off 2 (bwd 5 c) ((k0_off80_eq c 4).trans (by rw [bwd_val c 4]; rfl)) h
theorem rect_off80_6 (c : Dev nD) (h : ∀ a, (k0_off80 c 6#32) a + S1x1x64x256.size a ≤ S3x8x64x256.size a) : Rect.unit (s := S3x8x64x256) (k0_off80 c 6#32) S1x1x64x256.size h = Rect.unit (s := S3x8x64x256) ![2, (bwd 6 c).val, 0, 0] S1x1x64x256.size (inb_r 2 (bwd 6 c)) := rectr_of_off 2 (bwd 6 c) ((k0_off80_eq c 5).trans (by rw [bwd_val c 5]; rfl)) h
theorem rect_off80_7 (c : Dev nD) (h : ∀ a, (k0_off80 c 7#32) a + S1x1x64x256.size a ≤ S3x8x64x256.size a) : Rect.unit (s := S3x8x64x256) (k0_off80 c 7#32) S1x1x64x256.size h = Rect.unit (s := S3x8x64x256) ![2, (bwd 7 c).val, 0, 0] S1x1x64x256.size (inb_r 2 (bwd 7 c)) := rectr_of_off 2 (bwd 7 c) ((k0_off80_eq c 6).trans (by rw [bwd_val c 6]; rfl)) h

/-! ## Reduce-receive semaphores: the one the device's reduce sends credit on their target (its own position), and the one
    the accumulation step `j` waits on (the position `j` places back) -/

theorem sem_off1 (c : Dev nD) (h : ∀ a, (k0_off1 c) a + S1x1.size a ≤ S3x8.size a) : ((cc0_scratch4.slice (Rect.unit (s := S3x8) (k0_off1 c) S1x1.size h)).squeeze S_ squeezes_S1x1_S_).sem = rrS 0 c := rrS_of_off 0 c (k0_off1_eq c) h
theorem sem_off3 (c : Dev nD) (h : ∀ a, (k0_off3 c) a + S1x1.size a ≤ S3x8.size a) : ((cc0_scratch4.slice (Rect.unit (s := S3x8) (k0_off3 c) S1x1.size h)).squeeze S_ squeezes_S1x1_S_).sem = rrS 0 c := rrS_of_off 0 c (k0_off3_eq c) h
theorem sem_off5 (c : Dev nD) (h : ∀ a, (k0_off5 c) a + S1x1.size a ≤ S3x8.size a) : ((cc0_scratch4.slice (Rect.unit (s := S3x8) (k0_off5 c) S1x1.size h)).squeeze S_ squeezes_S1x1_S_).sem = rrS 0 c := rrS_of_off 0 c (k0_off5_eq c) h
theorem sem_off7 (c : Dev nD) (h : ∀ a, (k0_off7 c) a + S1x1.size a ≤ S3x8.size a) : ((cc0_scratch4.slice (Rect.unit (s := S3x8) (k0_off7 c) S1x1.size h)).squeeze S_ squeezes_S1x1_S_).sem = rrS 0 c := rrS_of_off 0 c (k0_off7_eq c) h
theorem sem_off9 (c : Dev nD) (h : ∀ a, (k0_off9 c) a + S1x1.size a ≤ S3x8.size a) : ((cc0_scratch4.slice (Rect.unit (s := S3x8) (k0_off9 c) S1x1.size h)).squeeze S_ squeezes_S1x1_S_).sem = rrS 0 c := rrS_of_off 0 c (k0_off9_eq c) h
theorem sem_off11 (c : Dev nD) (h : ∀ a, (k0_off11 c) a + S1x1.size a ≤ S3x8.size a) : ((cc0_scratch4.slice (Rect.unit (s := S3x8) (k0_off11 c) S1x1.size h)).squeeze S_ squeezes_S1x1_S_).sem = rrS 0 c := rrS_of_off 0 c (k0_off11_eq c) h
theorem sem_off13 (c : Dev nD) (h : ∀ a, (k0_off13 c) a + S1x1.size a ≤ S3x8.size a) : ((cc0_scratch4.slice (Rect.unit (s := S3x8) (k0_off13 c) S1x1.size h)).squeeze S_ squeezes_S1x1_S_).sem = rrS 0 c := rrS_of_off 0 c (k0_off13_eq c) h
theorem sem_off15 (c : Dev nD) (h : ∀ a, (k0_off15 c) a + S1x1.size a ≤ S3x8.size a) : ((cc0_scratch4.slice (Rect.unit (s := S3x8) (k0_off15 c) S1x1.size h)).squeeze S_ squeezes_S1x1_S_).sem = rrS 0 c := rrS_of_off 0 c (k0_off15_eq c) h
theorem sem_off31 (c : Dev nD) (h : ∀ a, (k0_off31 c) a + S1x1.size a ≤ S3x8.size a) : ((cc0_scratch4.slice (Rect.unit (s := S3x8) (k0_off31 c) S1x1.size h)).squeeze S_ squeezes_S1x1_S_).sem = rrS 1 c := rrS_of_off 1 c (k0_off31_eq c) h
theorem sem_off33 (c : Dev nD) (h : ∀ a, (k0_off33 c) a + S1x1.size a ≤ S3x8.size a) : ((cc0_scratch4.slice (Rect.unit (s := S3x8) (k0_off33 c) S1x1.size h)).squeeze S_ squeezes_S1x1_S_).sem = rrS 1 c := rrS_of_off 1 c (k0_off33_eq c) h
theorem sem_off35 (c : Dev nD) (h : ∀ a, (k0_off35 c) a + S1x1.size a ≤ S3x8.size a) : ((cc0_scratch4.slice (Rect.unit (s := S3x8) (k0_off35 c) S1x1.size h)).squeeze S_ squeezes_S1x1_S_).sem = rrS 1 c := rrS_of_off 1 c (k0_off35_eq c) h
theorem sem_off37 (c : Dev nD) (h : ∀ a, (k0_off37 c) a + S1x1.size a ≤ S3x8.size a) : ((cc0_scratch4.slice (Rect.unit (s := S3x8) (k0_off37 c) S1x1.size h)).squeeze S_ squeezes_S1x1_S_).sem = rrS 1 c := rrS_of_off 1 c (k0_off37_eq c) h
theorem sem_off39 (c : Dev nD) (h : ∀ a, (k0_off39 c) a + S1x1.size a ≤ S3x8.size a) : ((cc0_scratch4.slice (Rect.unit (s := S3x8) (k0_off39 c) S1x1.size h)).squeeze S_ squeezes_S1x1_S_).sem = rrS 1 c := rrS_of_off 1 c (k0_off39_eq c) h
theorem sem_off41 (c : Dev nD) (h : ∀ a, (k0_off41 c) a + S1x1.size a ≤ S3x8.size a) : ((cc0_scratch4.slice (Rect.unit (s := S3x8) (k0_off41 c) S1x1.size h)).squeeze S_ squeezes_S1x1_S_).sem = rrS 1 c := rrS_of_off 1 c (k0_off41_eq c) h
theorem sem_off43 (c : Dev nD) (h : ∀ a, (k0_off43 c) a + S1x1.size a ≤ S3x8.size a) : ((cc0_scratch4.slice (Rect.unit (s := S3x8) (k0_off43 c) S1x1.size h)).squeeze S_ squeezes_S1x1_S_).sem = rrS 1 c := rrS_of_off 1 c (k0_off43_eq c) h
theorem sem_off45 (c : Dev nD) (h : ∀ a, (k0_off45 c) a + S1x1.size a ≤ S3x8.size a) : ((cc0_scratch4.slice (Rect.unit (s := S3x8) (k0_off45 c) S1x1.size h)).squeeze S_ squeezes_S1x1_S_).sem = rrS 1 c := rrS_of_off 1 c (k0_off45_eq c) h
theorem sem_off61 (c : Dev nD) (h : ∀ a, (k0_off61 c) a + S1x1.size a ≤ S3x8.size a) : ((cc0_scratch4.slice (Rect.unit (s := S3x8) (k0_off61 c) S1x1.size h)).squeeze S_ squeezes_S1x1_S_).sem = rrS 2 c := rrS_of_off 2 c (k0_off61_eq c) h
theorem sem_off63 (c : Dev nD) (h : ∀ a, (k0_off63 c) a + S1x1.size a ≤ S3x8.size a) : ((cc0_scratch4.slice (Rect.unit (s := S3x8) (k0_off63 c) S1x1.size h)).squeeze S_ squeezes_S1x1_S_).sem = rrS 2 c := rrS_of_off 2 c (k0_off63_eq c) h
theorem sem_off65 (c : Dev nD) (h : ∀ a, (k0_off65 c) a + S1x1.size a ≤ S3x8.size a) : ((cc0_scratch4.slice (Rect.unit (s := S3x8) (k0_off65 c) S1x1.size h)).squeeze S_ squeezes_S1x1_S_).sem = rrS 2 c := rrS_of_off 2 c (k0_off65_eq c) h
theorem sem_off67 (c : Dev nD) (h : ∀ a, (k0_off67 c) a + S1x1.size a ≤ S3x8.size a) : ((cc0_scratch4.slice (Rect.unit (s := S3x8) (k0_off67 c) S1x1.size h)).squeeze S_ squeezes_S1x1_S_).sem = rrS 2 c := rrS_of_off 2 c (k0_off67_eq c) h
theorem sem_off69 (c : Dev nD) (h : ∀ a, (k0_off69 c) a + S1x1.size a ≤ S3x8.size a) : ((cc0_scratch4.slice (Rect.unit (s := S3x8) (k0_off69 c) S1x1.size h)).squeeze S_ squeezes_S1x1_S_).sem = rrS 2 c := rrS_of_off 2 c (k0_off69_eq c) h
theorem sem_off71 (c : Dev nD) (h : ∀ a, (k0_off71 c) a + S1x1.size a ≤ S3x8.size a) : ((cc0_scratch4.slice (Rect.unit (s := S3x8) (k0_off71 c) S1x1.size h)).squeeze S_ squeezes_S1x1_S_).sem = rrS 2 c := rrS_of_off 2 c (k0_off71_eq c) h
theorem sem_off73 (c : Dev nD) (h : ∀ a, (k0_off73 c) a + S1x1.size a ≤ S3x8.size a) : ((cc0_scratch4.slice (Rect.unit (s := S3x8) (k0_off73 c) S1x1.size h)).squeeze S_ squeezes_S1x1_S_).sem = rrS 2 c := rrS_of_off 2 c (k0_off73_eq c) h
theorem sem_off75 (c : Dev nD) (h : ∀ a, (k0_off75 c) a + S1x1.size a ≤ S3x8.size a) : ((cc0_scratch4.slice (Rect.unit (s := S3x8) (k0_off75 c) S1x1.size h)).squeeze S_ squeezes_S1x1_S_).sem = rrS 2 c := rrS_of_off 2 c (k0_off75_eq c) h
theorem sem_off18_1 (c : Dev nD) (h : ∀ a, (k0_off18 c 1#32) a + S1x1.size a ≤ S3x8.size a) : ((cc0_scratch4.slice (Rect.unit (s := S3x8) (k0_off18 c 1#32) S1x1.size h)).squeeze S_ squeezes_S1x1_S_).sem = rrS 0 (bwd 1 c) := rrS_of_off 0 (bwd 1 c) ((k0_off18_eq c 0).trans (by rw [bwd_val c 0]; rfl)) h
theorem sem_off18_2 (c : Dev nD) (h : ∀ a, (k0_off18 c 2#32) a + S1x1.size a ≤ S3x8.size a) : ((cc0_scratch4.slice (Rect.unit (s := S3x8) (k0_off18 c 2#32) S1x1.size h)).squeeze S_ squeezes_S1x1_S_).sem = rrS 0 (bwd 2 c) := rrS_of_off 0 (bwd 2 c) ((k0_off18_eq c 1).trans (by rw [bwd_val c 1]; rfl)) h
theorem sem_off18_3 (c : Dev nD) (h : ∀ a, (k0_off18 c 3#32) a + S1x1.size a ≤ S3x8.size a) : ((cc0_scratch4.slice (Rect.unit (s := S3x8) (k0_off18 c 3#32) S1x1.size h)).squeeze S_ squeezes_S1x1_S_).sem = rrS 0 (bwd 3 c) := rrS_of_off 0 (bwd 3 c) ((k0_off18_eq c 2).trans (by rw [bwd_val c 2]; rfl)) h
theorem sem_off18_4 (c : Dev nD) (h : ∀ a, (k0_off18 c 4#32) a + S1x1.size a ≤ S3x8.size a) : ((cc0_scratch4.slice (Rect.unit (s := S3x8) (k0_off18 c 4#32) S1x1.size h)).squeeze S_ squeezes_S1x1_S_).sem = rrS 0 (bwd 4 c) := rrS_of_off 0 (bwd 4 c) ((k0_off18_eq c 3).trans (by rw [bwd_val c 3]; rfl)) h
theorem sem_off18_5 (c : Dev nD) (h : ∀ a, (k0_off18 c 5#32) a + S1x1.size a ≤ S3x8.size a) : ((cc0_scratch4.slice (Rect.unit (s := S3x8) (k0_off18 c 5#32) S1x1.size h)).squeeze S_ squeezes_S1x1_S_).sem = rrS 0 (bwd 5 c) := rrS_of_off 0 (bwd 5 c) ((k0_off18_eq c 4).trans (by rw [bwd_val c 4]; rfl)) h
theorem sem_off18_6 (c : Dev nD) (h : ∀ a, (k0_off18 c 6#32) a + S1x1.size a ≤ S3x8.size a) : ((cc0_scratch4.slice (Rect.unit (s := S3x8) (k0_off18 c 6#32) S1x1.size h)).squeeze S_ squeezes_S1x1_S_).sem = rrS 0 (bwd 6 c) := rrS_of_off 0 (bwd 6 c) ((k0_off18_eq c 5).trans (by rw [bwd_val c 5]; rfl)) h
theorem sem_off18_7 (c : Dev nD) (h : ∀ a, (k0_off18 c 7#32) a + S1x1.size a ≤ S3x8.size a) : ((cc0_scratch4.slice (Rect.unit (s := S3x8) (k0_off18 c 7#32) S1x1.size h)).squeeze S_ squeezes_S1x1_S_).sem = rrS 0 (bwd 7 c) := rrS_of_off 0 (bwd 7 c) ((k0_off18_eq c 6).trans (by rw [bwd_val c 6]; rfl)) h
theorem sem_off48_1 (c : Dev nD) (h : ∀ a, (k0_off48 c 1#32) a + S1x1.size a ≤ S3x8.size a) : ((cc0_scratch4.slice (Rect.unit (s := S3x8) (k0_off48 c 1#32) S1x1.size h)).squeeze S_ squeezes_S1x1_S_).sem = rrS 1 (bwd 1 c) := rrS_of_off 1 (bwd 1 c) ((k0_off48_eq c 0).trans (by rw [bwd_val c 0]; rfl)) h
theorem sem_off48_2 (c : Dev nD) (h : ∀ a, (k0_off48 c 2#32) a + S1x1.size a ≤ S3x8.size a) : ((cc0_scratch4.slice (Rect.unit (s := S3x8) (k0_off48 c 2#32) S1x1.size h)).squeeze S_ squeezes_S1x1_S_).sem = rrS 1 (bwd 2 c) := rrS_of_off 1 (bwd 2 c) ((k0_off48_eq c 1).trans (by rw [bwd_val c 1]; rfl)) h
theorem sem_off48_3 (c : Dev nD) (h : ∀ a, (k0_off48 c 3#32) a + S1x1.size a ≤ S3x8.size a) : ((cc0_scratch4.slice (Rect.unit (s := S3x8) (k0_off48 c 3#32) S1x1.size h)).squeeze S_ squeezes_S1x1_S_).sem = rrS 1 (bwd 3 c) := rrS_of_off 1 (bwd 3 c) ((k0_off48_eq c 2).trans (by rw [bwd_val c 2]; rfl)) h
theorem sem_off48_4 (c : Dev nD) (h : ∀ a, (k0_off48 c 4#32) a + S1x1.size a ≤ S3x8.size a) : ((cc0_scratch4.slice (Rect.unit (s := S3x8) (k0_off48 c 4#32) S1x1.size h)).squeeze S_ squeezes_S1x1_S_).sem = rrS 1 (bwd 4 c) := rrS_of_off 1 (bwd 4 c) ((k0_off48_eq c 3).trans (by rw [bwd_val c 3]; rfl)) h
theorem sem_off48_5 (c : Dev nD) (h : ∀ a, (k0_off48 c 5#32) a + S1x1.size a ≤ S3x8.size a) : ((cc0_scratch4.slice (Rect.unit (s := S3x8) (k0_off48 c 5#32) S1x1.size h)).squeeze S_ squeezes_S1x1_S_).sem = rrS 1 (bwd 5 c) := rrS_of_off 1 (bwd 5 c) ((k0_off48_eq c 4).trans (by rw [bwd_val c 4]; rfl)) h
theorem sem_off48_6 (c : Dev nD) (h : ∀ a, (k0_off48 c 6#32) a + S1x1.size a ≤ S3x8.size a) : ((cc0_scratch4.slice (Rect.unit (s := S3x8) (k0_off48 c 6#32) S1x1.size h)).squeeze S_ squeezes_S1x1_S_).sem = rrS 1 (bwd 6 c) := rrS_of_off 1 (bwd 6 c) ((k0_off48_eq c 5).trans (by rw [bwd_val c 5]; rfl)) h
theorem sem_off48_7 (c : Dev nD) (h : ∀ a, (k0_off48 c 7#32) a + S1x1.size a ≤ S3x8.size a) : ((cc0_scratch4.slice (Rect.unit (s := S3x8) (k0_off48 c 7#32) S1x1.size h)).squeeze S_ squeezes_S1x1_S_).sem = rrS 1 (bwd 7 c) := rrS_of_off 1 (bwd 7 c) ((k0_off48_eq c 6).trans (by rw [bwd_val c 6]; rfl)) h
theorem sem_off78_1 (c : Dev nD) (h : ∀ a, (k0_off78 c 1#32) a + S1x1.size a ≤ S3x8.size a) : ((cc0_scratch4.slice (Rect.unit (s := S3x8) (k0_off78 c 1#32) S1x1.size h)).squeeze S_ squeezes_S1x1_S_).sem = rrS 2 (bwd 1 c) := rrS_of_off 2 (bwd 1 c) ((k0_off78_eq c 0).trans (by rw [bwd_val c 0]; rfl)) h
theorem sem_off78_2 (c : Dev nD) (h : ∀ a, (k0_off78 c 2#32) a + S1x1.size a ≤ S3x8.size a) : ((cc0_scratch4.slice (Rect.unit (s := S3x8) (k0_off78 c 2#32) S1x1.size h)).squeeze S_ squeezes_S1x1_S_).sem = rrS 2 (bwd 2 c) := rrS_of_off 2 (bwd 2 c) ((k0_off78_eq c 1).trans (by rw [bwd_val c 1]; rfl)) h
theorem sem_off78_3 (c : Dev nD) (h : ∀ a, (k0_off78 c 3#32) a + S1x1.size a ≤ S3x8.size a) : ((cc0_scratch4.slice (Rect.unit (s := S3x8) (k0_off78 c 3#32) S1x1.size h)).squeeze S_ squeezes_S1x1_S_).sem = rrS 2 (bwd 3 c) := rrS_of_off 2 (bwd 3 c) ((k0_off78_eq c 2).trans (by rw [bwd_val c 2]; rfl)) h
theorem sem_off78_4 (c : Dev nD) (h : ∀ a, (k0_off78 c 4#32) a + S1x1.size a ≤ S3x8.size a) : ((cc0_scratch4.slice (Rect.unit (s := S3x8) (k0_off78 c 4#32) S1x1.size h)).squeeze S_ squeezes_S1x1_S_).sem = rrS 2 (bwd 4 c) := rrS_of_off 2 (bwd 4 c) ((k0_off78_eq c 3).trans (by rw [bwd_val c 3]; rfl)) h
theorem sem_off78_5 (c : Dev nD) (h : ∀ a, (k0_off78 c 5#32) a + S1x1.size a ≤ S3x8.size a) : ((cc0_scratch4.slice (Rect.unit (s := S3x8) (k0_off78 c 5#32) S1x1.size h)).squeeze S_ squeezes_S1x1_S_).sem = rrS 2 (bwd 5 c) := rrS_of_off 2 (bwd 5 c) ((k0_off78_eq c 4).trans (by rw [bwd_val c 4]; rfl)) h
theorem sem_off78_6 (c : Dev nD) (h : ∀ a, (k0_off78 c 6#32) a + S1x1.size a ≤ S3x8.size a) : ((cc0_scratch4.slice (Rect.unit (s := S3x8) (k0_off78 c 6#32) S1x1.size h)).squeeze S_ squeezes_S1x1_S_).sem = rrS 2 (bwd 6 c) := rrS_of_off 2 (bwd 6 c) ((k0_off78_eq c 5).trans (by rw [bwd_val c 5]; rfl)) h
theorem sem_off78_7 (c : Dev nD) (h : ∀ a, (k0_off78 c 7#32) a + S1x1.size a ≤ S3x8.size a) : ((cc0_scratch4.slice (Rect.unit (s := S3x8) (k0_off78 c 7#32) S1x1.size h)).squeeze S_ squeezes_S1x1_S_).sem = rrS 2 (bwd 7 c) := rrS_of_off 2 (bwd 7 c) ((k0_off78_eq c 6).trans (by rw [bwd_val c 6]; rfl)) h

/-! ## Gather-receive semaphores: the one the device's gather sends credit on their targets -/

theorem sem_off21 (c : Dev nD) (h : ∀ a, (k0_off21 c) a + S1x1.size a ≤ S3x8.size a) : ((cc0_scratch6.slice (Rect.unit (s := S3x8) (k0_off21 c) S1x1.size h)).squeeze S_ squeezes_S1x1_S_).sem = grS 0 c := grS_of_off 0 c (k0_off21_eq c) h
theorem sem_off51 (c : Dev nD) (h : ∀ a, (k0_off51 c) a + S1x1.size a ≤ S3x8.size a) : ((cc0_scratch6.slice (Rect.unit (s := S3x8) (k0_off51 c) S1x1.size h)).squeeze S_ squeezes_S1x1_S_).sem = grS 1 c := grS_of_off 1 c (k0_off51_eq c) h

/-! ## Literal picks: a piece or a semaphore at literal offsets is the named one at those literals -/

theorem pchunk_lit0_0 (h : ∀ a, (![0, 0, 0] : Fin 3 → Nat) a + S1x64x256.size a ≤ S3x512x256.size a) (h' : ∀ a, (Rect.unit (s := S3x512x256) (![0, 0, 0]) S1x64x256.size h).stride a = 1) : ((Memref.whole cc0_scratch0).slice (Rect.unit (s := S3x512x256) (![0, 0, 0]) S1x64x256.size h) h').squeeze S64x256 squeezes_S1x64x256_S64x256 = pChunk 0 0 := pchunk_of_off 0 0 rfl h h'
theorem pchunk_lit0_1 (h : ∀ a, (![0, 64, 0] : Fin 3 → Nat) a + S1x64x256.size a ≤ S3x512x256.size a) (h' : ∀ a, (Rect.unit (s := S3x512x256) (![0, 64, 0]) S1x64x256.size h).stride a = 1) : ((Memref.whole cc0_scratch0).slice (Rect.unit (s := S3x512x256) (![0, 64, 0]) S1x64x256.size h) h').squeeze S64x256 squeezes_S1x64x256_S64x256 = pChunk 0 1 := pchunk_of_off 0 1 rfl h h'
theorem pchunk_lit0_2 (h : ∀ a, (![0, 128, 0] : Fin 3 → Nat) a + S1x64x256.size a ≤ S3x512x256.size a) (h' : ∀ a, (Rect.unit (s := S3x512x256) (![0, 128, 0]) S1x64x256.size h).stride a = 1) : ((Memref.whole cc0_scratch0).slice (Rect.unit (s := S3x512x256) (![0, 128, 0]) S1x64x256.size h) h').squeeze S64x256 squeezes_S1x64x256_S64x256 = pChunk 0 2 := pchunk_of_off 0 2 rfl h h'
theorem pchunk_lit0_3 (h : ∀ a, (![0, 192, 0] : Fin 3 → Nat) a + S1x64x256.size a ≤ S3x512x256.size a) (h' : ∀ a, (Rect.unit (s := S3x512x256) (![0, 192, 0]) S1x64x256.size h).stride a = 1) : ((Memref.whole cc0_scratch0).slice (Rect.unit (s := S3x512x256) (![0, 192, 0]) S1x64x256.size h) h').squeeze S64x256 squeezes_S1x64x256_S64x256 = pChunk 0 3 := pchunk_of_off 0 3 rfl h h'
theorem pchunk_lit0_4 (h : ∀ a, (![0, 256, 0] : Fin 3 → Nat) a + S1x64x256.size a ≤ S3x512x256.size a) (h' : ∀ a, (Rect.unit (s := S3x512x256) (![0, 256, 0]) S1x64x256.size h).stride a = 1) : ((Memref.whole cc0_scratch0).slice (Rect.unit (s := S3x512x256) (![0, 256, 0]) S1x64x256.size h) h').squeeze S64x256 squeezes_S1x64x256_S64x256 = pChunk 0 4 := pchunk_of_off 0 4 rfl h h'
theorem pchunk_lit0_5 (h : ∀ a, (![0, 320, 0] : Fin 3 → Nat) a + S1x64x256.size a ≤ S3x512x256.size a) (h' : ∀ a, (Rect.unit (s := S3x512x256) (![0, 320, 0]) S1x64x256.size h).stride a = 1) : ((Memref.whole cc0_scratch0).slice (Rect.unit (s := S3x512x256) (![0, 320, 0]) S1x64x256.size h) h').squeeze S64x256 squeezes_S1x64x256_S64x256 = pChunk 0 5 := pchunk_of_off 0 5 rfl h h'
theorem pchunk_lit0_6 (h : ∀ a, (![0, 384, 0] : Fin 3 → Nat) a + S1x64x256.size a ≤ S3x512x256.size a) (h' : ∀ a, (Rect.unit (s := S3x512x256) (![0, 384, 0]) S1x64x256.size h).stride a = 1) : ((Memref.whole cc0_scratch0).slice (Rect.unit (s := S3x512x256) (![0, 384, 0]) S1x64x256.size h) h').squeeze S64x256 squeezes_S1x64x256_S64x256 = pChunk 0 6 := pchunk_of_off 0 6 rfl h h'
theorem pchunk_lit0_7 (h : ∀ a, (![0, 448, 0] : Fin 3 → Nat) a + S1x64x256.size a ≤ S3x512x256.size a) (h' : ∀ a, (Rect.unit (s := S3x512x256) (![0, 448, 0]) S1x64x256.size h).stride a = 1) : ((Memref.whole cc0_scratch0).slice (Rect.unit (s := S3x512x256) (![0, 448, 0]) S1x64x256.size h) h').squeeze S64x256 squeezes_S1x64x256_S64x256 = pChunk 0 7 := pchunk_of_off 0 7 rfl h h'
theorem pchunk_lit1_0 (h : ∀ a, (![1, 0, 0] : Fin 3 → Nat) a + S1x64x256.size a ≤ S3x512x256.size a) (h' : ∀ a, (Rect.unit (s := S3x512x256) (![1, 0, 0]) S1x64x256.size h).stride a = 1) : ((Memref.whole cc0_scratch0).slice (Rect.unit (s := S3x512x256) (![1, 0, 0]) S1x64x256.size h) h').squeeze S64x256 squeezes_S1x64x256_S64x256 = pChunk 1 0 := pchunk_of_off 1 0 rfl h h'
theorem pchunk_lit1_1 (h : ∀ a, (![1, 64, 0] : Fin 3 → Nat) a + S1x64x256.size a ≤ S3x512x256.size a) (h' : ∀ a, (Rect.unit (s := S3x512x256) (![1, 64, 0]) S1x64x256.size h).stride a = 1) : ((Memref.whole cc0_scratch0).slice (Rect.unit (s := S3x512x256) (![1, 64, 0]) S1x64x256.size h) h').squeeze S64x256 squeezes_S1x64x256_S64x256 = pChunk 1 1 := pchunk_of_off 1 1 rfl h h'
theorem pchunk_lit1_2 (h : ∀ a, (![1, 128, 0] : Fin 3 → Nat) a + S1x64x256.size a ≤ S3x512x256.size a) (h' : ∀ a, (Rect.unit (s := S3x512x256) (![1, 128, 0]) S1x64x256.size h).stride a = 1) : ((Memref.whole cc0_scratch0).slice (Rect.unit (s := S3x512x256) (![1, 128, 0]) S1x64x256.size h) h').squeeze S64x256 squeezes_S1x64x256_S64x256 = pChunk 1 2 := pchunk_of_off 1 2 rfl h h'
theorem pchunk_lit1_3 (h : ∀ a, (![1, 192, 0] : Fin 3 → Nat) a + S1x64x256.size a ≤ S3x512x256.size a) (h' : ∀ a, (Rect.unit (s := S3x512x256) (![1, 192, 0]) S1x64x256.size h).stride a = 1) : ((Memref.whole cc0_scratch0).slice (Rect.unit (s := S3x512x256) (![1, 192, 0]) S1x64x256.size h) h').squeeze S64x256 squeezes_S1x64x256_S64x256 = pChunk 1 3 := pchunk_of_off 1 3 rfl h h'
theorem pchunk_lit1_4 (h : ∀ a, (![1, 256, 0] : Fin 3 → Nat) a + S1x64x256.size a ≤ S3x512x256.size a) (h' : ∀ a, (Rect.unit (s := S3x512x256) (![1, 256, 0]) S1x64x256.size h).stride a = 1) : ((Memref.whole cc0_scratch0).slice (Rect.unit (s := S3x512x256) (![1, 256, 0]) S1x64x256.size h) h').squeeze S64x256 squeezes_S1x64x256_S64x256 = pChunk 1 4 := pchunk_of_off 1 4 rfl h h'
theorem pchunk_lit1_5 (h : ∀ a, (![1, 320, 0] : Fin 3 → Nat) a + S1x64x256.size a ≤ S3x512x256.size a) (h' : ∀ a, (Rect.unit (s := S3x512x256) (![1, 320, 0]) S1x64x256.size h).stride a = 1) : ((Memref.whole cc0_scratch0).slice (Rect.unit (s := S3x512x256) (![1, 320, 0]) S1x64x256.size h) h').squeeze S64x256 squeezes_S1x64x256_S64x256 = pChunk 1 5 := pchunk_of_off 1 5 rfl h h'
theorem pchunk_lit1_6 (h : ∀ a, (![1, 384, 0] : Fin 3 → Nat) a + S1x64x256.size a ≤ S3x512x256.size a) (h' : ∀ a, (Rect.unit (s := S3x512x256) (![1, 384, 0]) S1x64x256.size h).stride a = 1) : ((Memref.whole cc0_scratch0).slice (Rect.unit (s := S3x512x256) (![1, 384, 0]) S1x64x256.size h) h').squeeze S64x256 squeezes_S1x64x256_S64x256 = pChunk 1 6 := pchunk_of_off 1 6 rfl h h'
theorem pchunk_lit1_7 (h : ∀ a, (![1, 448, 0] : Fin 3 → Nat) a + S1x64x256.size a ≤ S3x512x256.size a) (h' : ∀ a, (Rect.unit (s := S3x512x256) (![1, 448, 0]) S1x64x256.size h).stride a = 1) : ((Memref.whole cc0_scratch0).slice (Rect.unit (s := S3x512x256) (![1, 448, 0]) S1x64x256.size h) h').squeeze S64x256 squeezes_S1x64x256_S64x256 = pChunk 1 7 := pchunk_of_off 1 7 rfl h h'
theorem pchunk_lit2_0 (h : ∀ a, (![2, 0, 0] : Fin 3 → Nat) a + S1x64x256.size a ≤ S3x512x256.size a) (h' : ∀ a, (Rect.unit (s := S3x512x256) (![2, 0, 0]) S1x64x256.size h).stride a = 1) : ((Memref.whole cc0_scratch0).slice (Rect.unit (s := S3x512x256) (![2, 0, 0]) S1x64x256.size h) h').squeeze S64x256 squeezes_S1x64x256_S64x256 = pChunk 2 0 := pchunk_of_off 2 0 rfl h h'
theorem pchunk_lit2_1 (h : ∀ a, (![2, 64, 0] : Fin 3 → Nat) a + S1x64x256.size a ≤ S3x512x256.size a) (h' : ∀ a, (Rect.unit (s := S3x512x256) (![2, 64, 0]) S1x64x256.size h).stride a = 1) : ((Memref.whole cc0_scratch0).slice (Rect.unit (s := S3x512x256) (![2, 64, 0]) S1x64x256.size h) h').squeeze S64x256 squeezes_S1x64x256_S64x256 = pChunk 2 1 := pchunk_of_off 2 1 rfl h h'
theorem pchunk_lit2_2 (h : ∀ a, (![2, 128, 0] : Fin 3 → Nat) a + S1x64x256.size a ≤ S3x512x256.size a) (h' : ∀ a, (Rect.unit (s := S3x512x256) (![2, 128, 0]) S1x64x256.size h).stride a = 1) : ((Memref.whole cc0_scratch0).slice (Rect.unit (s := S3x512x256) (![2, 128, 0]) S1x64x256.size h) h').squeeze S64x256 squeezes_S1x64x256_S64x256 = pChunk 2 2 := pchunk_of_off 2 2 rfl h h'
theorem pchunk_lit2_3 (h : ∀ a, (![2, 192, 0] : Fin 3 → Nat) a + S1x64x256.size a ≤ S3x512x256.size a) (h' : ∀ a, (Rect.unit (s := S3x512x256) (![2, 192, 0]) S1x64x256.size h).stride a = 1) : ((Memref.whole cc0_scratch0).slice (Rect.unit (s := S3x512x256) (![2, 192, 0]) S1x64x256.size h) h').squeeze S64x256 squeezes_S1x64x256_S64x256 = pChunk 2 3 := pchunk_of_off 2 3 rfl h h'
theorem pchunk_lit2_4 (h : ∀ a, (![2, 256, 0] : Fin 3 → Nat) a + S1x64x256.size a ≤ S3x512x256.size a) (h' : ∀ a, (Rect.unit (s := S3x512x256) (![2, 256, 0]) S1x64x256.size h).stride a = 1) : ((Memref.whole cc0_scratch0).slice (Rect.unit (s := S3x512x256) (![2, 256, 0]) S1x64x256.size h) h').squeeze S64x256 squeezes_S1x64x256_S64x256 = pChunk 2 4 := pchunk_of_off 2 4 rfl h h'
theorem pchunk_lit2_5 (h : ∀ a, (![2, 320, 0] : Fin 3 → Nat) a + S1x64x256.size a ≤ S3x512x256.size a) (h' : ∀ a, (Rect.unit (s := S3x512x256) (![2, 320, 0]) S1x64x256.size h).stride a = 1) : ((Memref.whole cc0_scratch0).slice (Rect.unit (s := S3x512x256) (![2, 320, 0]) S1x64x256.size h) h').squeeze S64x256 squeezes_S1x64x256_S64x256 = pChunk 2 5 := pchunk_of_off 2 5 rfl h h'
theorem pchunk_lit2_6 (h : ∀ a, (![2, 384, 0] : Fin 3 → Nat) a + S1x64x256.size a ≤ S3x512x256.size a) (h' : ∀ a, (Rect.unit (s := S3x512x256) (![2, 384, 0]) S1x64x256.size h).stride a = 1) : ((Memref.whole cc0_scratch0).slice (Rect.unit (s := S3x512x256) (![2, 384, 0]) S1x64x256.size h) h').squeeze S64x256 squeezes_S1x64x256_S64x256 = pChunk 2 6 := pchunk_of_off 2 6 rfl h h'
theorem pchunk_lit2_7 (h : ∀ a, (![2, 448, 0] : Fin 3 → Nat) a + S1x64x256.size a ≤ S3x512x256.size a) (h' : ∀ a, (Rect.unit (s := S3x512x256) (![2, 448, 0]) S1x64x256.size h).stride a = 1) : ((Memref.whole cc0_scratch0).slice (Rect.unit (s := S3x512x256) (![2, 448, 0]) S1x64x256.size h) h').squeeze S64x256 squeezes_S1x64x256_S64x256 = pChunk 2 7 := pchunk_of_off 2 7 rfl h h'

theorem gchunk_lit0_0 (h : ∀ a, (![0, 0, 0] : Fin 3 → Nat) a + S1x64x256.size a ≤ S3x512x256.size a) (h' : ∀ a, (Rect.unit (s := S3x512x256) (![0, 0, 0]) S1x64x256.size h).stride a = 1) : ((Memref.whole cc0_scratch2).slice (Rect.unit (s := S3x512x256) (![0, 0, 0]) S1x64x256.size h) h').squeeze S64x256 squeezes_S1x64x256_S64x256 = gChunk 0 0 := gchunk_of_off 0 0 rfl h h'
theorem gchunk_lit0_1 (h : ∀ a, (![0, 64, 0] : Fin 3 → Nat) a + S1x64x256.size a ≤ S3x512x256.size a) (h' : ∀ a, (Rect.unit (s := S3x512x256) (![0, 64, 0]) S1x64x256.size h).stride a = 1) : ((Memref.whole cc0_scratch2).slice (Rect.unit (s := S3x512x256) (![0, 64, 0]) S1x64x256.size h) h').squeeze S64x256 squeezes_S1x64x256_S64x256 = gChunk 0 1 := gchunk_of_off 0 1 rfl h h'
theorem gchunk_lit0_2 (h : ∀ a, (![0, 128, 0] : Fin 3 → Nat) a + S1x64x256.size a ≤ S3x512x256.size a) (h' : ∀ a, (Rect.unit (s := S3x512x256) (![0, 128, 0]) S1x64x256.size h).stride a = 1) : ((Memref.whole cc0_scratch2).slice (Rect.unit (s := S3x512x256) (![0, 128, 0]) S1x64x256.size h) h').squeeze S64x256 squeezes_S1x64x256_S64x256 = gChunk 0 2 := gchunk_of_off 0 2 rfl h h'
theorem gchunk_lit0_3 (h : ∀ a, (![0, 192, 0] : Fin 3 → Nat) a + S1x64x256.size a ≤ S3x512x256.size a) (h' : ∀ a, (Rect.unit (s := S3x512x256) (![0, 192, 0]) S1x64x256.size h).stride a = 1) : ((Memref.whole cc0_scratch2).slice (Rect.unit (s := S3x512x256) (![0, 192, 0]) S1x64x256.size h) h').squeeze S64x256 squeezes_S1x64x256_S64x256 = gChunk 0 3 := gchunk_of_off 0 3 rfl h h'
theorem gchunk_lit0_4 (h : ∀ a, (![0, 256, 0] : Fin 3 → Nat) a + S1x64x256.size a ≤ S3x512x256.size a) (h' : ∀ a, (Rect.unit (s := S3x512x256) (![0, 256, 0]) S1x64x256.size h).stride a = 1) : ((Memref.whole cc0_scratch2).slice (Rect.unit (s := S3x512x256) (![0, 256, 0]) S1x64x256.size h) h').squeeze S64x256 squeezes_S1x64x256_S64x256 = gChunk 0 4 := gchunk_of_off 0 4 rfl h h'
theorem gchunk_lit0_5 (h : ∀ a, (![0, 320, 0] : Fin 3 → Nat) a + S1x64x256.size a ≤ S3x512x256.size a) (h' : ∀ a, (Rect.unit (s := S3x512x256) (![0, 320, 0]) S1x64x256.size h).stride a = 1) : ((Memref.whole cc0_scratch2).slice (Rect.unit (s := S3x512x256) (![0, 320, 0]) S1x64x256.size h) h').squeeze S64x256 squeezes_S1x64x256_S64x256 = gChunk 0 5 := gchunk_of_off 0 5 rfl h h'
theorem gchunk_lit0_6 (h : ∀ a, (![0, 384, 0] : Fin 3 → Nat) a + S1x64x256.size a ≤ S3x512x256.size a) (h' : ∀ a, (Rect.unit (s := S3x512x256) (![0, 384, 0]) S1x64x256.size h).stride a = 1) : ((Memref.whole cc0_scratch2).slice (Rect.unit (s := S3x512x256) (![0, 384, 0]) S1x64x256.size h) h').squeeze S64x256 squeezes_S1x64x256_S64x256 = gChunk 0 6 := gchunk_of_off 0 6 rfl h h'
theorem gchunk_lit0_7 (h : ∀ a, (![0, 448, 0] : Fin 3 → Nat) a + S1x64x256.size a ≤ S3x512x256.size a) (h' : ∀ a, (Rect.unit (s := S3x512x256) (![0, 448, 0]) S1x64x256.size h).stride a = 1) : ((Memref.whole cc0_scratch2).slice (Rect.unit (s := S3x512x256) (![0, 448, 0]) S1x64x256.size h) h').squeeze S64x256 squeezes_S1x64x256_S64x256 = gChunk 0 7 := gchunk_of_off 0 7 rfl h h'
theorem gchunk_lit1_0 (h : ∀ a, (![1, 0, 0] : Fin 3 → Nat) a + S1x64x256.size a ≤ S3x512x256.size a) (h' : ∀ a, (Rect.unit (s := S3x512x256) (![1, 0, 0]) S1x64x256.size h).stride a = 1) : ((Memref.whole cc0_scratch2).slice (Rect.unit (s := S3x512x256) (![1, 0, 0]) S1x64x256.size h) h').squeeze S64x256 squeezes_S1x64x256_S64x256 = gChunk 1 0 := gchunk_of_off 1 0 rfl h h'
theorem gchunk_lit1_1 (h : ∀ a, (![1, 64, 0] : Fin 3 → Nat) a + S1x64x256.size a ≤ S3x512x256.size a) (h' : ∀ a, (Rect.unit (s := S3x512x256) (![1, 64, 0]) S1x64x256.size h).stride a = 1) : ((Memref.whole cc0_scratch2).slice (Rect.unit (s := S3x512x256) (![1, 64, 0]) S1x64x256.size h) h').squeeze S64x256 squeezes_S1x64x256_S64x256 = gChunk 1 1 := gchunk_of_off 1 1 rfl h h'
theorem gchunk_lit1_2 (h : ∀ a, (![1, 128, 0] : Fin 3 → Nat) a + S1x64x256.size a ≤ S3x512x256.size a) (h' : ∀ a, (Rect.unit (s := S3x512x256) (![1, 128, 0]) S1x64x256.size h).stride a = 1) : ((Memref.whole cc0_scratch2).slice (Rect.unit (s := S3x512x256) (![1, 128, 0]) S1x64x256.size h) h').squeeze S64x256 squeezes_S1x64x256_S64x256 = gChunk 1 2 := gchunk_of_off 1 2 rfl h h'
theorem gchunk_lit1_3 (h : ∀ a, (![1, 192, 0] : Fin 3 → Nat) a + S1x64x256.size a ≤ S3x512x256.size a) (h' : ∀ a, (Rect.unit (s := S3x512x256) (![1, 192, 0]) S1x64x256.size h).stride a = 1) : ((Memref.whole cc0_scratch2).slice (Rect.unit (s := S3x512x256) (![1, 192, 0]) S1x64x256.size h) h').squeeze S64x256 squeezes_S1x64x256_S64x256 = gChunk 1 3 := gchunk_of_off 1 3 rfl h h'
theorem gchunk_lit1_4 (h : ∀ a, (![1, 256, 0] : Fin 3 → Nat) a + S1x64x256.size a ≤ S3x512x256.size a) (h' : ∀ a, (Rect.unit (s := S3x512x256) (![1, 256, 0]) S1x64x256.size h).stride a = 1) : ((Memref.whole cc0_scratch2).slice (Rect.unit (s := S3x512x256) (![1, 256, 0]) S1x64x256.size h) h').squeeze S64x256 squeezes_S1x64x256_S64x256 = gChunk 1 4 := gchunk_of_off 1 4 rfl h h'
theorem gchunk_lit1_5 (h : ∀ a, (![1, 320, 0] : Fin 3 → Nat) a + S1x64x256.size a ≤ S3x512x256.size a) (h' : ∀ a, (Rect.unit (s := S3x512x256) (![1, 320, 0]) S1x64x256.size h).stride a = 1) : ((Memref.whole cc0_scratch2).slice (Rect.unit (s := S3x512x256) (![1, 320, 0]) S1x64x256.size h) h').squeeze S64x256 squeezes_S1x64x256_S64x256 = gChunk 1 5 := gchunk_of_off 1 5 rfl h h'
theorem gchunk_lit1_6 (h : ∀ a, (![1, 384, 0] : Fin 3 → Nat) a + S1x64x256.size a ≤ S3x512x256.size a) (h' : ∀ a, (Rect.unit (s := S3x512x256) (![1, 384, 0]) S1x64x256.size h).stride a = 1) : ((Memref.whole cc0_scratch2).slice (Rect.unit (s := S3x512x256) (![1, 384, 0]) S1x64x256.size h) h').squeeze S64x256 squeezes_S1x64x256_S64x256 = gChunk 1 6 := gchunk_of_off 1 6 rfl h h'
theorem gchunk_lit1_7 (h : ∀ a, (![1, 448, 0] : Fin 3 → Nat) a + S1x64x256.size a ≤ S3x512x256.size a) (h' : ∀ a, (Rect.unit (s := S3x512x256) (![1, 448, 0]) S1x64x256.size h).stride a = 1) : ((Memref.whole cc0_scratch2).slice (Rect.unit (s := S3x512x256) (![1, 448, 0]) S1x64x256.size h) h').squeeze S64x256 squeezes_S1x64x256_S64x256 = gChunk 1 7 := gchunk_of_off 1 7 rfl h h'

theorem sem_rs0 (h : ∀ a, (![0] : Fin 1 → Nat) a + S1.size a ≤ S3.size a) : ((cc0_scratch3.slice (Rect.unit (s := S3) (![0]) S1.size h)).squeeze S_ squeezes_S1_S_).sem = rsS 0 := rsS_of_off 0 rfl h
theorem sem_rs1 (h : ∀ a, (![1] : Fin 1 → Nat) a + S1.size a ≤ S3.size a) : ((cc0_scratch3.slice (Rect.unit (s := S3) (![1]) S1.size h)).squeeze S_ squeezes_S1_S_).sem = rsS 1 := rsS_of_off 1 rfl h
theorem sem_rs2 (h : ∀ a, (![2] : Fin 1 → Nat) a + S1.size a ≤ S3.size a) : ((cc0_scratch3.slice (Rect.unit (s := S3) (![2]) S1.size h)).squeeze S_ squeezes_S1_S_).sem = rsS 2 := rsS_of_off 2 rfl h

theorem sem_gs0 (h : ∀ a, (![0] : Fin 1 → Nat) a + S1.size a ≤ S3.size a) : ((cc0_scratch5.slice (Rect.unit (s := S3) (![0]) S1.size h)).squeeze S_ squeezes_S1_S_).sem = gsS 0 := gsS_of_off 0 rfl h
theorem sem_gs1 (h : ∀ a, (![1] : Fin 1 → Nat) a + S1.size a ≤ S3.size a) : ((cc0_scratch5.slice (Rect.unit (s := S3) (![1]) S1.size h)).squeeze S_ squeezes_S1_S_).sem = gsS 1 := gsS_of_off 1 rfl h

theorem sem_gr0_0 (h : ∀ a, (![0, 0] : Fin 2 → Nat) a + S1x1.size a ≤ S3x8.size a) : ((cc0_scratch6.slice (Rect.unit (s := S3x8) (![0, 0]) S1x1.size h)).squeeze S_ squeezes_S1x1_S_).sem = grS 0 0 := grS_of_off 0 0 rfl h
theorem sem_gr0_1 (h : ∀ a, (![0, 1] : Fin 2 → Nat) a + S1x1.size a ≤ S3x8.size a) : ((cc0_scratch6.slice (Rect.unit (s := S3x8) (![0, 1]) S1x1.size h)).squeeze S_ squeezes_S1x1_S_).sem = grS 0 1 := grS_of_off 0 1 rfl h
theorem sem_gr0_2 (h : ∀ a, (![0, 2] : Fin 2 → Nat) a + S1x1.size a ≤ S3x8.size a) : ((cc0_scratch6.slice (Rect.unit (s := S3x8) (![0, 2]) S1x1.size h)).squeeze S_ squeezes_S1x1_S_).sem = grS 0 2 := grS_of_off 0 2 rfl h
theorem sem_gr0_3 (h : ∀ a, (![0, 3] : Fin 2 → Nat) a + S1x1.size a ≤ S3x8.size a) : ((cc0_scratch6.slice (Rect.unit (s := S3x8) (![0, 3]) S1x1.size h)).squeeze S_ squeezes_S1x1_S_).sem = grS 0 3 := grS_of_off 0 3 rfl h
theorem sem_gr0_4 (h : ∀ a, (![0, 4] : Fin 2 → Nat) a + S1x1.size a ≤ S3x8.size a) : ((cc0_scratch6.slice (Rect.unit (s := S3x8) (![0, 4]) S1x1.size h)).squeeze S_ squeezes_S1x1_S_).sem = grS 0 4 := grS_of_off 0 4 rfl h
theorem sem_gr0_5 (h : ∀ a, (![0, 5] : Fin 2 → Nat) a + S1x1.size a ≤ S3x8.size a) : ((cc0_scratch6.slice (Rect.unit (s := S3x8) (![0, 5]) S1x1.size h)).squeeze S_ squeezes_S1x1_S_).sem = grS 0 5 := grS_of_off 0 5 rfl h
theorem sem_gr0_6 (h : ∀ a, (![0, 6] : Fin 2 → Nat) a + S1x1.size a ≤ S3x8.size a) : ((cc0_scratch6.slice (Rect.unit (s := S3x8) (![0, 6]) S1x1.size h)).squeeze S_ squeezes_S1x1_S_).sem = grS 0 6 := grS_of_off 0 6 rfl h
theorem sem_gr0_7 (h : ∀ a, (![0, 7] : Fin 2 → Nat) a + S1x1.size a ≤ S3x8.size a) : ((cc0_scratch6.slice (Rect.unit (s := S3x8) (![0, 7]) S1x1.size h)).squeeze S_ squeezes_S1x1_S_).sem = grS 0 7 := grS_of_off 0 7 rfl h
theorem sem_gr1_0 (h : ∀ a, (![1, 0] : Fin 2 → Nat) a + S1x1.size a ≤ S3x8.size a) : ((cc0_scratch6.slice (Rect.unit (s := S3x8) (![1, 0]) S1x1.size h)).squeeze S_ squeezes_S1x1_S_).sem = grS 1 0 := grS_of_off 1 0 rfl h
theorem sem_gr1_1 (h : ∀ a, (![1, 1] : Fin 2 → Nat) a + S1x1.size a ≤ S3x8.size a) : ((cc0_scratch6.slice (Rect.unit (s := S3x8) (![1, 1]) S1x1.size h)).squeeze S_ squeezes_S1x1_S_).sem = grS 1 1 := grS_of_off 1 1 rfl h
theorem sem_gr1_2 (h : ∀ a, (![1, 2] : Fin 2 → Nat) a + S1x1.size a ≤ S3x8.size a) : ((cc0_scratch6.slice (Rect.unit (s := S3x8) (![1, 2]) S1x1.size h)).squeeze S_ squeezes_S1x1_S_).sem = grS 1 2 := grS_of_off 1 2 rfl h
theorem sem_gr1_3 (h : ∀ a, (![1, 3] : Fin 2 → Nat) a + S1x1.size a ≤ S3x8.size a) : ((cc0_scratch6.slice (Rect.unit (s := S3x8) (![1, 3]) S1x1.size h)).squeeze S_ squeezes_S1x1_S_).sem = grS 1 3 := grS_of_off 1 3 rfl h
theorem sem_gr1_4 (h : ∀ a, (![1, 4] : Fin 2 → Nat) a + S1x1.size a ≤ S3x8.size a) : ((cc0_scratch6.slice (Rect.unit (s := S3x8) (![1, 4]) S1x1.size h)).squeeze S_ squeezes_S1x1_S_).sem = grS 1 4 := grS_of_off 1 4 rfl h
theorem sem_gr1_5 (h : ∀ a, (![1, 5] : Fin 2 → Nat) a + S1x1.size a ≤ S3x8.size a) : ((cc0_scratch6.slice (Rect.unit (s := S3x8) (![1, 5]) S1x1.size h)).squeeze S_ squeezes_S1x1_S_).sem = grS 1 5 := grS_of_off 1 5 rfl h
theorem sem_gr1_6 (h : ∀ a, (![1, 6] : Fin 2 → Nat) a + S1x1.size a ≤ S3x8.size a) : ((cc0_scratch6.slice (Rect.unit (s := S3x8) (![1, 6]) S1x1.size h)).squeeze S_ squeezes_S1x1_S_).sem = grS 1 6 := grS_of_off 1 6 rfl h
theorem sem_gr1_7 (h : ∀ a, (![1, 7] : Fin 2 → Nat) a + S1x1.size a ≤ S3x8.size a) : ((cc0_scratch6.slice (Rect.unit (s := S3x8) (![1, 7]) S1x1.size h)).squeeze S_ squeezes_S1x1_S_).sem = grS 1 7 := grS_of_off 1 7 rfl h

/-! ## Guards written in line: over the id as the kernel computes it, over the position as a word, and over any word equal to it -/

theorem condw0_iff (c : Dev nD) : Scalar.cmpi .ne (Scalar.extui (Scalar.cmpi .ne (Scalar.remsi (Scalar.divsi (Dev.word c) 1#32) 8#32) 0#32)) 0#32 = 1#1 ↔ c ≠ (0 : Dev nD) := guard_iff_of c 0 (devWord_eq c)
theorem condw1_iff (c : Dev nD) : Scalar.cmpi .ne (Scalar.extui (Scalar.cmpi .ne (Scalar.remsi (Scalar.divsi (Dev.word c) 1#32) 8#32) 1#32)) 0#32 = 1#1 ↔ c ≠ (1 : Dev nD) := guard_iff_of c 1 (devWord_eq c)
theorem condw2_iff (c : Dev nD) : Scalar.cmpi .ne (Scalar.extui (Scalar.cmpi .ne (Scalar.remsi (Scalar.divsi (Dev.word c) 1#32) 8#32) 2#32)) 0#32 = 1#1 ↔ c ≠ (2 : Dev nD) := guard_iff_of c 2 (devWord_eq c)
theorem condw3_iff (c : Dev nD) : Scalar.cmpi .ne (Scalar.extui (Scalar.cmpi .ne (Scalar.remsi (Scalar.divsi (Dev.word c) 1#32) 8#32) 3#32)) 0#32 = 1#1 ↔ c ≠ (3 : Dev nD) := guard_iff_of c 3 (devWord_eq c)
theorem condw4_iff (c : Dev nD) : Scalar.cmpi .ne (Scalar.extui (Scalar.cmpi .ne (Scalar.remsi (Scalar.divsi (Dev.word c) 1#32) 8#32) 4#32)) 0#32 = 1#1 ↔ c ≠ (4 : Dev nD) := guard_iff_of c 4 (devWord_eq c)
theorem condw5_iff (c : Dev nD) : Scalar.cmpi .ne (Scalar.extui (Scalar.cmpi .ne (Scalar.remsi (Scalar.divsi (Dev.word c) 1#32) 8#32) 5#32)) 0#32 = 1#1 ↔ c ≠ (5 : Dev nD) := guard_iff_of c 5 (devWord_eq c)
theorem condw6_iff (c : Dev nD) : Scalar.cmpi .ne (Scalar.extui (Scalar.cmpi .ne (Scalar.remsi (Scalar.divsi (Dev.word c) 1#32) 8#32) 6#32)) 0#32 = 1#1 ↔ c ≠ (6 : Dev nD) := guard_iff_of c 6 (devWord_eq c)
theorem condw7_iff (c : Dev nD) : Scalar.cmpi .ne (Scalar.extui (Scalar.cmpi .ne (Scalar.remsi (Scalar.divsi (Dev.word c) 1#32) 8#32) 7#32)) 0#32 = 1#1 ↔ c ≠ (7 : Dev nD) := guard_iff_of c 7 (devWord_eq c)
theorem condn0_iff (c : Dev nD) : Scalar.cmpi .ne (Scalar.extui (Scalar.cmpi .ne (BitVec.ofNat 32 c.val) 0#32)) 0#32 = 1#1 ↔ c ≠ (0 : Dev nD) := guard_iff_of c 0 rfl
theorem condn1_iff (c : Dev nD) : Scalar.cmpi .ne (Scalar.extui (Scalar.cmpi .ne (BitVec.ofNat 32 c.val) 1#32)) 0#32 = 1#1 ↔ c ≠ (1 : Dev nD) := guard_iff_of c 1 rfl
theorem condn2_iff (c : Dev nD) : Scalar.cmpi .ne (Scalar.extui (Scalar.cmpi .ne (BitVec.ofNat 32 c.val) 2#32)) 0#32 = 1#1 ↔ c ≠ (2 : Dev nD) := guard_iff_of c 2 rfl
theorem condn3_iff (c : Dev nD) : Scalar.cmpi .ne (Scalar.extui (Scalar.cmpi .ne (BitVec.ofNat 32 c.val) 3#32)) 0#32 = 1#1 ↔ c ≠ (3 : Dev nD) := guard_iff_of c 3 rfl
theorem condn4_iff (c : Dev nD) : Scalar.cmpi .ne (Scalar.extui (Scalar.cmpi .ne (BitVec.ofNat 32 c.val) 4#32)) 0#32 = 1#1 ↔ c ≠ (4 : Dev nD) := guard_iff_of c 4 rfl
theorem condn5_iff (c : Dev nD) : Scalar.cmpi .ne (Scalar.extui (Scalar.cmpi .ne (BitVec.ofNat 32 c.val) 5#32)) 0#32 = 1#1 ↔ c ≠ (5 : Dev nD) := guard_iff_of c 5 rfl
theorem condn6_iff (c : Dev nD) : Scalar.cmpi .ne (Scalar.extui (Scalar.cmpi .ne (BitVec.ofNat 32 c.val) 6#32)) 0#32 = 1#1 ↔ c ≠ (6 : Dev nD) := guard_iff_of c 6 rfl
theorem condn7_iff (c : Dev nD) : Scalar.cmpi .ne (Scalar.extui (Scalar.cmpi .ne (BitVec.ofNat 32 c.val) 7#32)) 0#32 = 1#1 ↔ c ≠ (7 : Dev nD) := guard_iff_of c 7 rfl
theorem condv0_iff (c : Dev nD) {w : BitVec 32} (e : w = BitVec.ofNat 32 c.val) : Scalar.cmpi .ne (Scalar.extui (Scalar.cmpi .ne (w) 0#32)) 0#32 = 1#1 ↔ c ≠ (0 : Dev nD) := guard_iff_of c 0 e
theorem condv1_iff (c : Dev nD) {w : BitVec 32} (e : w = BitVec.ofNat 32 c.val) : Scalar.cmpi .ne (Scalar.extui (Scalar.cmpi .ne (w) 1#32)) 0#32 = 1#1 ↔ c ≠ (1 : Dev nD) := guard_iff_of c 1 e
theorem condv2_iff (c : Dev nD) {w : BitVec 32} (e : w = BitVec.ofNat 32 c.val) : Scalar.cmpi .ne (Scalar.extui (Scalar.cmpi .ne (w) 2#32)) 0#32 = 1#1 ↔ c ≠ (2 : Dev nD) := guard_iff_of c 2 e
theorem condv3_iff (c : Dev nD) {w : BitVec 32} (e : w = BitVec.ofNat 32 c.val) : Scalar.cmpi .ne (Scalar.extui (Scalar.cmpi .ne (w) 3#32)) 0#32 = 1#1 ↔ c ≠ (3 : Dev nD) := guard_iff_of c 3 e
theorem condv4_iff (c : Dev nD) {w : BitVec 32} (e : w = BitVec.ofNat 32 c.val) : Scalar.cmpi .ne (Scalar.extui (Scalar.cmpi .ne (w) 4#32)) 0#32 = 1#1 ↔ c ≠ (4 : Dev nD) := guard_iff_of c 4 e
theorem condv5_iff (c : Dev nD) {w : BitVec 32} (e : w = BitVec.ofNat 32 c.val) : Scalar.cmpi .ne (Scalar.extui (Scalar.cmpi .ne (w) 5#32)) 0#32 = 1#1 ↔ c ≠ (5 : Dev nD) := guard_iff_of c 5 e
theorem condv6_iff (c : Dev nD) {w : BitVec 32} (e : w = BitVec.ofNat 32 c.val) : Scalar.cmpi .ne (Scalar.extui (Scalar.cmpi .ne (w) 6#32)) 0#32 = 1#1 ↔ c ≠ (6 : Dev nD) := guard_iff_of c 6 e
theorem condv7_iff (c : Dev nD) {w : BitVec 32} (e : w = BitVec.ofNat 32 c.val) : Scalar.cmpi .ne (Scalar.extui (Scalar.cmpi .ne (w) 7#32)) 0#32 = 1#1 ↔ c ≠ (7 : Dev nD) := guard_iff_of c 7 e

/-! ## Named guards: each is the in-line guard of the literal its definition compares the id with -/

theorem cond1_iff (c : Dev nD) : k0_cond1 c = 1#1 ↔ c ≠ (0 : Dev nD) := condw0_iff c
theorem cond2_iff (c : Dev nD) : k0_cond2 c = 1#1 ↔ c ≠ (1 : Dev nD) := condw1_iff c
theorem cond3_iff (c : Dev nD) : k0_cond3 c = 1#1 ↔ c ≠ (2 : Dev nD) := condw2_iff c
theorem cond4_iff (c : Dev nD) : k0_cond4 c = 1#1 ↔ c ≠ (3 : Dev nD) := condw3_iff c
theorem cond5_iff (c : Dev nD) : k0_cond5 c = 1#1 ↔ c ≠ (4 : Dev nD) := condw4_iff c
theorem cond6_iff (c : Dev nD) : k0_cond6 c = 1#1 ↔ c ≠ (5 : Dev nD) := condw5_iff c
theorem cond7_iff (c : Dev nD) : k0_cond7 c = 1#1 ↔ c ≠ (6 : Dev nD) := condw6_iff c
theorem cond8_iff (c : Dev nD) : k0_cond8 c = 1#1 ↔ c ≠ (7 : Dev nD) := condw7_iff c
theorem cond9_iff (c : Dev nD) : k0_cond9 c = 1#1 ↔ c ≠ (0 : Dev nD) := condw0_iff c
theorem cond10_iff (c : Dev nD) : k0_cond10 c = 1#1 ↔ c ≠ (1 : Dev nD) := condw1_iff c
theorem cond11_iff (c : Dev nD) : k0_cond11 c = 1#1 ↔ c ≠ (2 : Dev nD) := condw2_iff c
theorem cond12_iff (c : Dev nD) : k0_cond12 c = 1#1 ↔ c ≠ (3 : Dev nD) := condw3_iff c
theorem cond13_iff (c : Dev nD) : k0_cond13 c = 1#1 ↔ c ≠ (4 : Dev nD) := condw4_iff c
theorem cond14_iff (c : Dev nD) : k0_cond14 c = 1#1 ↔ c ≠ (5 : Dev nD) := condw5_iff c
theorem cond15_iff (c : Dev nD) : k0_cond15 c = 1#1 ↔ c ≠ (6 : Dev nD) := condw6_iff c
theorem cond16_iff (c : Dev nD) : k0_cond16 c = 1#1 ↔ c ≠ (7 : Dev nD) := condw7_iff c
theorem cond19_iff (c : Dev nD) : k0_cond19 c = 1#1 ↔ c ≠ (0 : Dev nD) := condw0_iff c
theorem cond20_iff (c : Dev nD) : k0_cond20 c = 1#1 ↔ c ≠ (1 : Dev nD) := condw1_iff c
theorem cond23_iff (c : Dev nD) : k0_cond23 c = 1#1 ↔ c ≠ (2 : Dev nD) := condw2_iff c
theorem cond24_iff (c : Dev nD) : k0_cond24 c = 1#1 ↔ c ≠ (3 : Dev nD) := condw3_iff c
theorem cond27_iff (c : Dev nD) : k0_cond27 c = 1#1 ↔ c ≠ (4 : Dev nD) := condw4_iff c
theorem cond28_iff (c : Dev nD) : k0_cond28 c = 1#1 ↔ c ≠ (5 : Dev nD) := condw5_iff c
theorem cond31_iff (c : Dev nD) : k0_cond31 c = 1#1 ↔ c ≠ (6 : Dev nD) := condw6_iff c
theorem cond32_iff (c : Dev nD) : k0_cond32 c = 1#1 ↔ c ≠ (7 : Dev nD) := condw7_iff c
theorem cond33_iff (c : Dev nD) : k0_cond33 c = 1#1 ↔ c ≠ (0 : Dev nD) := condw0_iff c
theorem cond34_iff (c : Dev nD) : k0_cond34 c = 1#1 ↔ c ≠ (1 : Dev nD) := condw1_iff c
theorem cond35_iff (c : Dev nD) : k0_cond35 c = 1#1 ↔ c ≠ (2 : Dev nD) := condw2_iff c
theorem cond36_iff (c : Dev nD) : k0_cond36 c = 1#1 ↔ c ≠ (3 : Dev nD) := condw3_iff c
theorem cond37_iff (c : Dev nD) : k0_cond37 c = 1#1 ↔ c ≠ (4 : Dev nD) := condw4_iff c
theorem cond38_iff (c : Dev nD) : k0_cond38 c = 1#1 ↔ c ≠ (5 : Dev nD) := condw5_iff c
theorem cond39_iff (c : Dev nD) : k0_cond39 c = 1#1 ↔ c ≠ (6 : Dev nD) := condw6_iff c
theorem cond40_iff (c : Dev nD) : k0_cond40 c = 1#1 ↔ c ≠ (7 : Dev nD) := condw7_iff c
theorem cond43_iff (c : Dev nD) : k0_cond43 c = 1#1 ↔ c ≠ (0 : Dev nD) := condw0_iff c
theorem cond44_iff (c : Dev nD) : k0_cond44 c = 1#1 ↔ c ≠ (1 : Dev nD) := condw1_iff c
theorem cond47_iff (c : Dev nD) : k0_cond47 c = 1#1 ↔ c ≠ (2 : Dev nD) := condw2_iff c
theorem cond48_iff (c : Dev nD) : k0_cond48 c = 1#1 ↔ c ≠ (3 : Dev nD) := condw3_iff c
theorem cond51_iff (c : Dev nD) : k0_cond51 c = 1#1 ↔ c ≠ (4 : Dev nD) := condw4_iff c
theorem cond52_iff (c : Dev nD) : k0_cond52 c = 1#1 ↔ c ≠ (5 : Dev nD) := condw5_iff c
theorem cond55_iff (c : Dev nD) : k0_cond55 c = 1#1 ↔ c ≠ (6 : Dev nD) := condw6_iff c
theorem cond56_iff (c : Dev nD) : k0_cond56 c = 1#1 ↔ c ≠ (7 : Dev nD) := condw7_iff c
theorem cond57_iff (c : Dev nD) : k0_cond57 c = 1#1 ↔ c ≠ (0 : Dev nD) := condw0_iff c
theorem cond58_iff (c : Dev nD) : k0_cond58 c = 1#1 ↔ c ≠ (1 : Dev nD) := condw1_iff c
theorem cond59_iff (c : Dev nD) : k0_cond59 c = 1#1 ↔ c ≠ (2 : Dev nD) := condw2_iff c
theorem cond60_iff (c : Dev nD) : k0_cond60 c = 1#1 ↔ c ≠ (3 : Dev nD) := condw3_iff c
theorem cond61_iff (c : Dev nD) : k0_cond61 c = 1#1 ↔ c ≠ (4 : Dev nD) := condw4_iff c
theorem cond62_iff (c : Dev nD) : k0_cond62 c = 1#1 ↔ c ≠ (5 : Dev nD) := condw5_iff c
theorem cond63_iff (c : Dev nD) : k0_cond63 c = 1#1 ↔ c ≠ (6 : Dev nD) := condw6_iff c
theorem cond64_iff (c : Dev nD) : k0_cond64 c = 1#1 ↔ c ≠ (7 : Dev nD) := condw7_iff c

/-! ## The last row of three families, checked to be in the environment and to rest on the usual axioms only -/

/-- info: 'Cert.KernelProof.slot_off79_7' depends on axioms: [propext, Classical.choice, Quot.sound] -/
#guard_msgs in #print axioms slot_off79_7
/-- info: 'Cert.KernelProof.sem_off78_7' depends on axioms: [propext, Classical.choice, Quot.sound] -/
#guard_msgs in #print axioms sem_off78_7
/-- info: 'Cert.KernelProof.cond64_iff' depends on axioms: [propext, Quot.sound] -/
#guard_msgs in #print axioms cond64_iff

end Cert.KernelProof

end
-- ==== Proof.K.ContentsRead.lean ====
import proofs.«900993_g7700000000000994_dist_mlpseq_tp1d_rep_bs_b512_d256_h512_v7x_i8_bf16_1_alg».proof.Proof.K.Contents
import Idealize.ShloMosaic.Lib.Pipeline.Value

/-! The canonical contents read and written through the body's own rectangles.

    A load through a unit-stride rectangle of a buffer that holds a canonical function returns the matching piece
    of the layer: a 64-row chunk of the partial-product or gather buffer is `chunkOf` of the layer, a slot of the
    receive buffer is `slotOf` of the sender's layer, a 128-row group of the gather buffer is `groupOf` of the
    activation. A store of a stage's value through its rectangle, and a copy of one 64-row piece onto another,
    leave on the piece written the canonical function of the buffer written. The rectangles' offsets are taken as
    any function equal to the literal triple or quadruple, so that the body's computed offsets fit by their closed
    forms. Every statement is an index computation: a rectangle places its index `x` at `off + x`, a squeezed
    rectangle its index `(r, j)` at the rectangle's `(0, r, j)` or `(0, 0, r, j)` (the same row-major position). -/

noncomputable section

namespace Cert.KernelProof

open Cert.Kernel Cert.Kernel.Gen
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## Indices by coordinates -/

/-- A function of a `[1, n1, n2]` index, at indices with equal coordinates. -/
theorem at3_congr {α : Type} {n1 n2 : Nat} (P : (⟨3, ![1, n1, n2]⟩ : Shape).Idx → α) {r r' j j' : Nat}
    (hr : r < n1) (hr' : r' < n1) (hj : j < n2) (hj' : j' < n2) (er : r = r') (ej : j = j') :
    P (ix3 0 ⟨r, hr⟩ ⟨j, hj⟩) = P (ix3 0 ⟨r', hr'⟩ ⟨j', hj'⟩) := by
  subst er ej; rfl

/-- A function of a `[1, n1, n2]` index, at an index given by its coordinates. -/
theorem eq_at3 {α : Type} {n1 n2 : Nat} (P : (⟨3, ![1, n1, n2]⟩ : Shape).Idx → α) (y : (⟨3, ![1, n1, n2]⟩ : Shape).Idx)
    {r j : Nat} (hr : r < n1) (hj : j < n2) (er : (y 1).val = r) (ej : (y 2).val = j) :
    P y = P (ix3 0 ⟨r, hr⟩ ⟨j, hj⟩) := by
  congr 1
  funext a
  refine Fin.ext ?_
  match a with
  | ⟨0, _⟩ =>
    have := idx3_lt0 y
    show (y 0).val = 0
    omega
  | ⟨1, _⟩ => exact er
  | ⟨2, _⟩ => exact ej

/-- The squeeze of a `[1, 64, 256]` rectangle: its index `(r, j)` is the rectangle's `(0, r, j)`. -/
theorem squeeze3 (h : S64x256.numel = S1x64x256.numel) (y : S64x256.Idx) :
    Shape.reshapeEquiv (s := S1x64x256) (s' := S64x256) h y = ix3 0 ⟨(y 0).val, idx2_lt0 y⟩ ⟨(y 1).val, idx2_lt1 y⟩ :=
  Shape.reshapeEquiv_eq_of_rowMajor h (by
    rw [Shape.rowMajor_val_three, Shape.rowMajor_val_two]
    show ((0 * 64 + (y 0).val) * 256 + (y 1).val) = (y 0).val * 256 + (y 1).val
    omega)

/-- The squeeze of a `[1, 1, 64, 256]` rectangle: its index `(r, j)` is the rectangle's `(0, 0, r, j)`. -/
theorem squeeze4 (h : S64x256.numel = S1x1x64x256.numel) (y : S64x256.Idx) :
    Shape.reshapeEquiv (s := S1x1x64x256) (s' := S64x256) h y = ix4 0 0 ⟨(y 0).val, idx2_lt0 y⟩ ⟨(y 1).val, idx2_lt1 y⟩ :=
  Shape.reshapeEquiv_eq_of_rowMajor h (by
    rw [Shape.rowMajor_val_four, Shape.rowMajor_val_two]
    show (((0 * 1 + 0) * 64 + (y 0).val) * 256 + (y 1).val) = (y 0).val * 256 + (y 1).val
    omega)

/-! ## The buffers at an index of a rectangle -/

/-- The partial-product buffer at row `r` of layer `l`. -/
theorem Pfun_at (s : Dev nD) (l : Fin 3) (i : S3x512x256.Idx) {r j : Nat} (hr : r < 512) (hj : j < 256)
    (e0 : (i 0).val = l.val) (e1 : (i 1).val = r) (e2 : (i 2).val = j) :
    Pfun m s i = Pl m s l (ix3 0 ⟨r, hr⟩ ⟨j, hj⟩) := by
  unfold Pfun
  have el : (⟨(i 0).val, idx3_lt0 i⟩ : Fin 3) = l := Fin.ext e0
  rw [el]
  exact at3_congr _ _ _ _ _ e1 e2

/-- The gather buffer at row `r` of layer `l`. -/
theorem Gfun_at (c : Dev nD) (l : Fin 3) (i : S3x512x256.Idx) {r j : Nat} (hr : r < 512) (hj : j < 256)
    (e0 : (i 0).val = l.val) (e1 : (i 1).val = r) (e2 : (i 2).val = j) :
    Gfun m c i = Gl m l (ix3 0 ⟨r, hr⟩ ⟨j, hj⟩) := by
  unfold Gfun
  have el : (⟨(i 0).val, idx3_lt0 i⟩ : Fin 3) = l := Fin.ext e0
  rw [el]
  exact at3_congr _ _ _ _ _ e1 e2

/-- The receive buffer of device `c` at row `r` of slot `(l, s)`: row `64 c + r` of device `s`'s layer `l`. -/
theorem Rfun_at (c s : Dev nD) (l : Fin 3) (i : S3x8x64x256.Idx) {r j : Nat} (hr : r < 512) (hj : j < 256)
    (e0 : (i 0).val = l.val) (e1 : (i 1).val = s.val) (e2 : 64 * c.val + (i 2).val = r) (e3 : (i 3).val = j) :
    Rfun m c i = Pl m s l (ix3 0 ⟨r, hr⟩ ⟨j, hj⟩) := by
  unfold Rfun
  have el : (⟨(i 0).val, idx4_lt0 i⟩ : Fin 3) = l := Fin.ext e0
  have es : (⟨(i 1).val, idx4_lt1 i⟩ : Dev nD) = s := Fin.ext e1
  rw [el, es]
  exact at3_congr _ _ _ _ _ e2 e3

/-! ## Loads -/

/-- Chunk `t` of layer `l` of device `s`'s partial-product buffer. -/
theorem read_P_chunk (s : Dev nD) (l : Fin 3) (t : Fin 8) (off : Fin 3 → Nat) (hoff : off = ![l.val, 64 * t.val, 0])
    (inb : ∀ a, off a + S1x64x256.size a ≤ S3x512x256.size a) :
    (Memref.whole cc0_scratch0).view.readAt (Elt F) (Rect.unit (s := S3x512x256) off S1x64x256.size inb).toLoadRect (Pfun m s)
      = chunkOf (Pl m s l) t := by
  subst hoff
  funext x
  have h0 : (x 0).val = 0 := by have := idx3_lt0 x; omega
  show Pfun m s ((Rect.unit (s := S3x512x256) ![l.val, 64 * t.val, 0] S1x64x256.size inb).toLoadRect.idx x) = chunkOf (Pl m s l) t x
  unfold chunkOf
  exact Pfun_at m s l _ _ _ (by show l.val + 1 * (x 0).val = l.val; omega)
    (by show 64 * t.val + 1 * (x 1).val = 64 * t.val + (x 1).val; omega) (by show 0 + 1 * (x 2).val = (x 2).val; omega)

/-- Slot `(l, s)` of device `c`'s receive buffer: device `s`'s rows `64 c …`. -/
theorem read_R_slot (c s : Dev nD) (l : Fin 3) (off : Fin 4 → Nat) (hoff : off = ![l.val, s.val, 0, 0])
    (inb : ∀ a, off a + S1x1x64x256.size a ≤ S3x8x64x256.size a) :
    (Memref.whole cc0_scratch1).view.readAt (Elt F) (Rect.unit (s := S3x8x64x256) off S1x1x64x256.size inb).toLoadRect (Rfun m c)
      = slotOf (Pl m s l) c := by
  subst hoff
  funext x
  have h0 : (x 0).val = 0 := by have := idx4_lt0 x; omega
  have h1 : (x 1).val = 0 := by have := idx4_lt1 x; omega
  show Rfun m c ((Rect.unit (s := S3x8x64x256) ![l.val, s.val, 0, 0] S1x1x64x256.size inb).toLoadRect.idx x) = slotOf (Pl m s l) c x
  unfold slotOf
  exact Rfun_at m c s l _ _ _ (by show l.val + 1 * (x 0).val = l.val; omega) (by show s.val + 1 * (x 1).val = s.val; omega)
    (by show 64 * c.val + (0 + 1 * (x 2).val) = 64 * c.val + (x 2).val; omega) (by show 0 + 1 * (x 3).val = (x 3).val; omega)

/-- Chunk `t` of layer `l` of a device's gather buffer. -/
theorem read_G_chunk (c : Dev nD) (l : Fin 3) (t : Fin 8) (off : Fin 3 → Nat) (hoff : off = ![l.val, 64 * t.val, 0])
    (inb : ∀ a, off a + S1x64x256.size a ≤ S3x512x256.size a) :
    (Memref.whole cc0_scratch2).view.readAt (Elt F) (Rect.unit (s := S3x512x256) off S1x64x256.size inb).toLoadRect (Gfun m c)
      = chunkOf (Gl m l) t := by
  subst hoff
  funext x
  have h0 : (x 0).val = 0 := by have := idx3_lt0 x; omega
  show Gfun m c ((Rect.unit (s := S3x512x256) ![l.val, 64 * t.val, 0] S1x64x256.size inb).toLoadRect.idx x) = chunkOf (Gl m l) t x
  unfold chunkOf
  exact Gfun_at m c l _ _ _ (by show l.val + 1 * (x 0).val = l.val; omega)
    (by show 64 * t.val + 1 * (x 1).val = 64 * t.val + (x 1).val; omega) (by show 0 + 1 * (x 2).val = (x 2).val; omega)

/-- Group `g` (rows `128 g …`) of layer `l` of a device's gather buffer. -/
theorem read_G_group (c : Dev nD) (l : Fin 3) (g : Fin 4) (off : Fin 3 → Nat) (hoff : off = ![l.val, 128 * g.val, 0])
    (inb : ∀ a, off a + S1x128x256.size a ≤ S3x512x256.size a) :
    (Memref.whole cc0_scratch2).view.readAt (Elt F) (Rect.unit (s := S3x512x256) off S1x128x256.size inb).toLoadRect (Gfun m c)
      = groupOf (Gl m l) g := by
  subst hoff
  funext x
  have h0 : (x 0).val = 0 := by have := idx3_lt0 x; omega
  show Gfun m c ((Rect.unit (s := S3x512x256) ![l.val, 128 * g.val, 0] S1x128x256.size inb).toLoadRect.idx x) = groupOf (Gl m l) g x
  unfold groupOf
  exact Gfun_at m c l _ _ _ (by show l.val + 1 * (x 0).val = l.val; omega)
    (by show 128 * g.val + 1 * (x 1).val = 128 * g.val + (x 1).val; omega) (by show 0 + 1 * (x 2).val = (x 2).val; omega)

/-! ## Stores -/

/-- The store of layer 0's partial product, whole. -/
theorem write_P0 (c : Dev nD) (f0 : Buf (Elt F) ((c : Thread nD τ).loc cc0_scratch0)) (off : Fin 3 → Nat) (hoff : off = ![0, 0, 0])
    (inb : ∀ a, off a + S1x512x256.size a ≤ S3x512x256.size a) :
    ∀ i ∈ ((Memref.whole cc0_scratch0).access (Rect.unit (s := S3x512x256) off S1x512x256.size inb)).set,
      ((Memref.whole cc0_scratch0).access (Rect.unit (s := S3x512x256) off S1x512x256.size inb)).write (Elt F) f0 (P0 m c) Finset.univ i
        = Pfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  show P0 m c y = Pfun m c ((Rect.unit (s := S3x512x256) ![0, 0, 0] S1x512x256.size inb).emb y)
  rw [Pfun_at m c 0 _ (idx3_lt1 y) (idx3_lt2 y) (by show 0 + 1 * (y 0).val = 0; omega)
    (by show 0 + 1 * (y 1).val = (y 1).val; omega) (by show 0 + 1 * (y 2).val = (y 2).val; omega)]
  exact eq_at3 (P0 m c) y _ _ rfl rfl

/-- A layer given by groups, at a row of group `g`. -/
theorem ofGroups_at (Q : Fin 4 → FVec F S1x128x256 .bf16) (g : Fin 4) (y : S1x128x256.Idx) {r j : Nat} (hr : r < 512) (hj : j < 256)
    (er : 128 * g.val + (y 1).val = r) (ej : (y 2).val = j) :
    ofGroups Q (ix3 0 ⟨r, hr⟩ ⟨j, hj⟩) = Q g y := by
  unfold ofGroups
  have hy := idx3_lt1 y
  have eg : (⟨((ix3 (0 : Fin 1) (⟨r, hr⟩ : Fin 512) (⟨j, hj⟩ : Fin 256)) 1).val / 128, by
      have := idx3_lt1 (ix3 (0 : Fin 1) (⟨r, hr⟩ : Fin 512) (⟨j, hj⟩ : Fin 256)); omega⟩ : Fin 4) = g :=
    Fin.ext (by show r / 128 = g.val; omega)
  rw [eg]
  exact (eq_at3 (Q g) y _ _ (by show (y 1).val = r % 128; omega) (by show (y 2).val = j; omega)).symm

/-- A layer given by chunks, at a row of chunk `t`. -/
theorem ofChunks_at (R : Fin 8 → FVec F S1x64x256 .bf16) (t : Fin 8) (y : S1x64x256.Idx) {r j : Nat} (hr : r < 512) (hj : j < 256)
    (er : 64 * t.val + (y 1).val = r) (ej : (y 2).val = j) :
    ofChunks R (ix3 0 ⟨r, hr⟩ ⟨j, hj⟩) = R t y := by
  unfold ofChunks
  have hy := idx3_lt1 y
  have et : (⟨((ix3 (0 : Fin 1) (⟨r, hr⟩ : Fin 512) (⟨j, hj⟩ : Fin 256)) 1).val / 64, by
      have := idx3_lt1 (ix3 (0 : Fin 1) (⟨r, hr⟩ : Fin 512) (⟨j, hj⟩ : Fin 256)); omega⟩ : Fin 8) = t :=
    Fin.ext (by show r / 64 = t.val; omega)
  rw [et]
  exact (eq_at3 (R t) y _ _ (by show (y 1).val = r % 64; omega) (by show (y 2).val = j; omega)).symm

/-- The store of group `g` of layer 1's partial product. -/
theorem write_P1grp (c : Dev nD) (g : Fin 4) (f0 : Buf (Elt F) ((c : Thread nD τ).loc cc0_scratch0)) (off : Fin 3 → Nat)
    (hoff : off = ![1, 128 * g.val, 0]) (inb : ∀ a, off a + S1x128x256.size a ≤ S3x512x256.size a) :
    ∀ i ∈ ((Memref.whole cc0_scratch0).access (Rect.unit (s := S3x512x256) off S1x128x256.size inb)).set,
      ((Memref.whole cc0_scratch0).access (Rect.unit (s := S3x512x256) off S1x128x256.size inb)).write (Elt F) f0 (P1grp m c g) Finset.univ i
        = Pfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  have h1 := idx3_lt1 y
  have hg : g.val < 4 := g.isLt
  show P1grp m c g y = Pfun m c ((Rect.unit (s := S3x512x256) ![1, 128 * g.val, 0] S1x128x256.size inb).emb y)
  rw [Pfun_at m c 1 _ (r := 128 * g.val + (y 1).val) (j := (y 2).val) (by omega) (idx3_lt2 y) (by show 1 + 1 * (y 0).val = 1; omega)
    (by show 128 * g.val + 1 * (y 1).val = 128 * g.val + (y 1).val; omega) (by show 0 + 1 * (y 2).val = (y 2).val; omega)]
  exact (ofGroups_at (P1grp m c) g y _ _ rfl rfl).symm

/-- The store of group `g` of layer 2's partial product. -/
theorem write_P2grp (c : Dev nD) (g : Fin 4) (f0 : Buf (Elt F) ((c : Thread nD τ).loc cc0_scratch0)) (off : Fin 3 → Nat)
    (hoff : off = ![2, 128 * g.val, 0]) (inb : ∀ a, off a + S1x128x256.size a ≤ S3x512x256.size a) :
    ∀ i ∈ ((Memref.whole cc0_scratch0).access (Rect.unit (s := S3x512x256) off S1x128x256.size inb)).set,
      ((Memref.whole cc0_scratch0).access (Rect.unit (s := S3x512x256) off S1x128x256.size inb)).write (Elt F) f0 (P2grp m c g) Finset.univ i
        = Pfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  have h1 := idx3_lt1 y
  have hg : g.val < 4 := g.isLt
  show P2grp m c g y = Pfun m c ((Rect.unit (s := S3x512x256) ![2, 128 * g.val, 0] S1x128x256.size inb).emb y)
  rw [Pfun_at m c 2 _ (r := 128 * g.val + (y 1).val) (j := (y 2).val) (by omega) (idx3_lt2 y) (by show 2 + 1 * (y 0).val = 2; omega)
    (by show 128 * g.val + 1 * (y 1).val = 128 * g.val + (y 1).val; omega) (by show 0 + 1 * (y 2).val = (y 2).val; omega)]
  exact (ofGroups_at (P2grp m c) g y _ _ rfl rfl).symm

/-- The store of a device's own rows of the first activation into its gather buffer. -/
theorem write_G0 (c : Dev nD) (f0 : Buf (Elt F) ((c : Thread nD τ).loc cc0_scratch2)) (off : Fin 3 → Nat)
    (hoff : off = ![0, 64 * c.val, 0]) (inb : ∀ a, off a + S1x64x256.size a ≤ S3x512x256.size a) :
    ∀ i ∈ ((Memref.whole cc0_scratch2).access (Rect.unit (s := S3x512x256) off S1x64x256.size inb)).set,
      ((Memref.whole cc0_scratch2).access (Rect.unit (s := S3x512x256) off S1x64x256.size inb)).write (Elt F) f0 (red0 m c) Finset.univ i
        = Gfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  have h1 := idx3_lt1 y
  have hc : c.val < 8 := c.isLt
  show red0 m c y = Gfun m c ((Rect.unit (s := S3x512x256) ![0, 64 * c.val, 0] S1x64x256.size inb).emb y)
  rw [Gfun_at m c 0 _ (r := 64 * c.val + (y 1).val) (j := (y 2).val) (by omega) (idx3_lt2 y) (by show 0 + 1 * (y 0).val = 0; omega)
    (by show 64 * c.val + 1 * (y 1).val = 64 * c.val + (y 1).val; omega) (by show 0 + 1 * (y 2).val = (y 2).val; omega)]
  exact (ofChunks_at (red0 m) c y _ _ rfl rfl).symm

/-- The store of a device's own rows of the second activation into its gather buffer. -/
theorem write_G1 (c : Dev nD) (f0 : Buf (Elt F) ((c : Thread nD τ).loc cc0_scratch2)) (off : Fin 3 → Nat)
    (hoff : off = ![1, 64 * c.val, 0]) (inb : ∀ a, off a + S1x64x256.size a ≤ S3x512x256.size a) :
    ∀ i ∈ ((Memref.whole cc0_scratch2).access (Rect.unit (s := S3x512x256) off S1x64x256.size inb)).set,
      ((Memref.whole cc0_scratch2).access (Rect.unit (s := S3x512x256) off S1x64x256.size inb)).write (Elt F) f0 (red1 m c) Finset.univ i
        = Gfun m c i := by
  subst hoff
  intro i hi
  obtain ⟨y, rfl⟩ := View.exists_emb_of_mem_set _ hi
  rw [View.write_emb_of_mem _ _ (Finset.mem_univ y)]
  have h0 : (y 0).val = 0 := by have := idx3_lt0 y; omega
  have h1 := idx3_lt1 y
  have hc : c.val < 8 := c.isLt
  show red1 m c y = Gfun m c ((Rect.unit (s := S3x512x256) ![1, 64 * c.val, 0] S1x64x256.size inb).emb y)
  rw [Gfun_at m c 1 _ (r := 64 * c.val + (y 1).val) (j := (y 2).val) (by omega) (idx3_lt2 y) (by show 1 + 1 * (y 0).val = 1; omega)
    (by show 64 * c.val + 1 * (y 1).val = 64 * c.val + (y 1).val; omega) (by show 0 + 1 * (y 2).val = (y 2).val; omega)]
  exact (ofChunks_at (red1 m) c y _ _ rfl rfl).symm

/-! ## Landings -/

/-- Device `s`'s chunk `t` of layer `l`, copied into slot `(l, s)` of device `t`'s receive buffer. -/
theorem land_reduce (s t : Dev nD) (l : Fin 3) (fd : Buf (Elt F) ((t : Thread nD τ).loc cc0_scratch1)) :
    ∀ i ∈ (rSlot l s).view.set,
      (rSlot l s).view.write (Elt F) fd ((pChunk l t).view.read (Elt F) (Pfun m s)) Finset.univ i = Rfun m t i := by
  intro i hi
  obtain ⟨y, rfl⟩ := View.exists_emb_of_mem_set _ hi
  refine (View.write_emb_of_mem _ _ (Finset.mem_univ y)).trans ?_
  have hy0 := idx2_lt0 y
  have ht : t.val < 8 := t.isLt
  show Pfun m s ((Rect.unit (s := S3x512x256) ![l.val, 64 * t.val, 0] S1x64x256.size (inb_p l t)).emb
      (Shape.reshapeEquiv (s := S1x64x256) (s' := S64x256) squeezes_S1x64x256_S64x256.numel_eq y))
    = Rfun m t ((Rect.unit (s := S3x8x64x256) ![l.val, s.val, 0, 0] S1x1x64x256.size (inb_r l s)).emb
      (Shape.reshapeEquiv (s := S1x1x64x256) (s' := S64x256) squeezes_S1x1x64x256_S64x256.numel_eq y))
  rw [squeeze3, squeeze4]
  rw [Pfun_at m s l _ (r := 64 * t.val + (y 0).val) (j := (y 1).val) (by omega) (idx2_lt1 y) (by show l.val + 1 * 0 = l.val; omega)
      (by show 64 * t.val + 1 * (y 0).val = 64 * t.val + (y 0).val; omega) (by show 0 + 1 * (y 1).val = (y 1).val; omega),
    Rfun_at m t s l _ (r := 64 * t.val + (y 0).val) (j := (y 1).val) (by omega) (idx2_lt1 y) (by show l.val + 1 * 0 = l.val; omega)
      (by show s.val + 1 * 0 = s.val; omega) (by show 64 * t.val + (0 + 1 * (y 0).val) = 64 * t.val + (y 0).val; omega)
      (by show 0 + 1 * (y 1).val = (y 1).val; omega)]

/-- The gather buffers of all devices hold one function. -/
theorem Gfun_eq (c p : Dev nD) : Gfun m c = Gfun m p := rfl

/-- Device `c`'s own rows of the activation of layer `l`, copied into the same rows of device `p`'s gather buffer. -/
theorem land_gather (c p : Dev nD) (l : Fin 3) (fd : Buf (Elt F) ((p : Thread nD τ).loc cc0_scratch2)) :
    ∀ i ∈ (gChunk l c).view.set,
      (gChunk l c).view.write (Elt F) fd ((gChunk l c).view.read (Elt F) (Gfun m c)) Finset.univ i = Gfun m p i := by
  intro i hi
  obtain ⟨y, rfl⟩ := View.exists_emb_of_mem_set _ hi
  exact View.write_emb_of_mem _ _ (Finset.mem_univ y)

/-! ## Loads from a buffer that agrees with a canonical function on the piece read

What a wait hands over is a piece of a buffer, not the buffer: these are the loads above from any contents that
agree, on the 64-row pieces the rectangle is made of, with the canonical function or with the term a copy's landing
is written as. -/

theorem pChunk_set (l : Fin 3) (t : Fin 8) :
    (pChunk l t).view.set = (Rect.unit (s := S3x512x256) ![l.val, 64 * t.val, 0] S1x64x256.size (inb_p l t)).set :=
  (View.set_reshape _ _).trans (View.set_slice_whole _ _)

theorem rSlot_set (l : Fin 3) (s : Fin 8) :
    (rSlot l s).view.set = (Rect.unit (s := S3x8x64x256) ![l.val, s.val, 0, 0] S1x1x64x256.size (inb_r l s)).set :=
  (View.set_reshape _ _).trans (View.set_slice_whole _ _)

theorem gChunk_set (l : Fin 3) (t : Fin 8) :
    (gChunk l t).view.set = (Rect.unit (s := S3x512x256) ![l.val, 64 * t.val, 0] S1x64x256.size (inb_p l t)).set :=
  (View.set_reshape _ _).trans (View.set_slice_whole _ _)

/-- The elements a load through a rectangle of a whole buffer reads are the rectangle's. -/
theorem setOn_whole {κ : Kind} (b : Ref sig κ) (M : Finset b.ty.shape.Idx) : (Memref.whole b).view.setOn M = M :=
  Finset.map_refl

/-- Chunk `t` of layer `l` of a partial-product buffer that holds device `s`'s canonical function there. -/
theorem read_P_chunk_of (s : Dev nD) (l : Fin 3) (t : Fin 8) (off : Fin 3 → Nat) (hoff : off = ![l.val, 64 * t.val, 0])
    (inb : ∀ a, off a + S1x64x256.size a ≤ S3x512x256.size a) (f : Buf (Elt F) ((s : Thread nD τ).loc cc0_scratch0))
    (h : ∀ i ∈ (pChunk l t).view.set, f i = Pfun m s i) :
    (Memref.whole cc0_scratch0).view.readAt (Elt F) (Rect.unit (s := S3x512x256) off S1x64x256.size inb).toLoadRect f
      = chunkOf (Pl m s l) t := by
  subst hoff
  have hc : ∀ i ∈ (Memref.whole cc0_scratch0).view.setOn
      (Rect.unit (s := S3x512x256) ![l.val, 64 * t.val, 0] S1x64x256.size inb).toLoadRect.set, f i = Pfun m s i := fun i hi =>
    h i (by rw [pChunk_set]; rw [setOn_whole] at hi; exact hi)
  exact (View.readAt_congr hc).trans (read_P_chunk m s l t _ rfl inb)

/-- Slot `(l, s)` of a receive buffer of device `c` that holds the canonical function there. -/
theorem read_R_slot_of (c s : Dev nD) (l : Fin 3) (off : Fin 4 → Nat) (hoff : off = ![l.val, s.val, 0, 0])
    (inb : ∀ a, off a + S1x1x64x256.size a ≤ S3x8x64x256.size a) (f : Buf (Elt F) ((c : Thread nD τ).loc cc0_scratch1))
    (h : ∀ i ∈ (rSlot l s).view.set, f i = Rfun m c i) :
    (Memref.whole cc0_scratch1).view.readAt (Elt F) (Rect.unit (s := S3x8x64x256) off S1x1x64x256.size inb).toLoadRect f
      = slotOf (Pl m s l) c := by
  subst hoff
  have hc : ∀ i ∈ (Memref.whole cc0_scratch1).view.setOn
      (Rect.unit (s := S3x8x64x256) ![l.val, s.val, 0, 0] S1x1x64x256.size inb).toLoadRect.set, f i = Rfun m c i := fun i hi =>
    h i (by rw [rSlot_set]; rw [setOn_whole] at hi; exact hi)
  exact (View.readAt_congr hc).trans (read_R_slot m c s l _ rfl inb)

/-- Slot `(l, s)` of a receive buffer of device `c` in which device `s`'s chunk has landed. -/
theorem read_R_slot_landed (c s : Dev nD) (l : Fin 3) (off : Fin 4 → Nat) (hoff : off = ![l.val, s.val, 0, 0])
    (inb : ∀ a, off a + S1x1x64x256.size a ≤ S3x8x64x256.size a) (f fd : Buf (Elt F) ((c : Thread nD τ).loc cc0_scratch1))
    (h : ∀ i ∈ (rSlot l s).view.set,
      f i = (rSlot l s).view.write (Elt F) fd ((pChunk l c).view.read (Elt F) (Pfun m s)) Finset.univ i) :
    (Memref.whole cc0_scratch1).view.readAt (Elt F) (Rect.unit (s := S3x8x64x256) off S1x1x64x256.size inb).toLoadRect f
      = slotOf (Pl m s l) c :=
  read_R_slot_of m c s l off hoff inb f fun i hi => (h i hi).trans (land_reduce m s c l fd i hi)

/-- Chunk `t` of layer `l` of a gather buffer that holds the canonical function there. -/
theorem read_G_chunk_of (c : Dev nD) (l : Fin 3) (t : Fin 8) (off : Fin 3 → Nat) (hoff : off = ![l.val, 64 * t.val, 0])
    (inb : ∀ a, off a + S1x64x256.size a ≤ S3x512x256.size a) (f : Buf (Elt F) ((c : Thread nD τ).loc cc0_scratch2))
    (h : ∀ i ∈ (gChunk l t).view.set, f i = Gfun m c i) :
    (Memref.whole cc0_scratch2).view.readAt (Elt F) (Rect.unit (s := S3x512x256) off S1x64x256.size inb).toLoadRect f
      = chunkOf (Gl m l) t := by
  subst hoff
  have hc : ∀ i ∈ (Memref.whole cc0_scratch2).view.setOn
      (Rect.unit (s := S3x512x256) ![l.val, 64 * t.val, 0] S1x64x256.size inb).toLoadRect.set, f i = Gfun m c i := fun i hi =>
    h i (by rw [gChunk_set]; rw [setOn_whole] at hi; exact hi)
  exact (View.readAt_congr hc).trans (read_G_chunk m c l t _ rfl inb)

/-- A chunk of a gather buffer in which device `s`'s rows have landed holds the canonical function. -/
theorem landed_gather (c s : Dev nD) (l : Fin 3) (f fd : Buf (Elt F) ((c : Thread nD τ).loc cc0_scratch2))
    (h : ∀ i ∈ (gChunk l s).view.set,
      f i = (gChunk l s).view.write (Elt F) fd ((gChunk l s).view.read (Elt F) (Gfun m s)) Finset.univ i) :
    ∀ i ∈ (gChunk l s).view.set, f i = Gfun m c i :=
  fun i hi => (h i hi).trans (land_gather m s c l fd i hi)

/-- Group `g` of layer `l` of a gather buffer whose chunks `2 g` and `2 g + 1` hold the canonical function. -/
theorem read_G_group_of (c : Dev nD) (l : Fin 3) (g : Fin 4) (off : Fin 3 → Nat) (hoff : off = ![l.val, 128 * g.val, 0])
    (inb : ∀ a, off a + S1x128x256.size a ≤ S3x512x256.size a) (f : Buf (Elt F) ((c : Thread nD τ).loc cc0_scratch2))
    (t0 t1 : Fin 8) (ht0 : t0.val = 2 * g.val) (ht1 : t1.val = 2 * g.val + 1)
    (h0 : ∀ i ∈ (gChunk l t0).view.set, f i = Gfun m c i) (h1 : ∀ i ∈ (gChunk l t1).view.set, f i = Gfun m c i) :
    (Memref.whole cc0_scratch2).view.readAt (Elt F) (Rect.unit (s := S3x512x256) off S1x128x256.size inb).toLoadRect f
      = groupOf (Gl m l) g := by
  subst hoff
  refine (View.readAt_congr (v := (Memref.whole cc0_scratch2).view)
    (r := (Rect.unit (s := S3x512x256) ![l.val, 128 * g.val, 0] S1x128x256.size inb).toLoadRect) (g := Gfun m c) fun i hi => ?_).trans
    (read_G_group m c l g _ rfl inb)
  rw [setOn_whole] at hi
  have hm := Rect.mem_set_unit.mp hi
  have m0 := hm 0
  have m1 := hm 1
  have m2 := hm 2
  by_cases hlow : (i 1).val < 128 * g.val + 64
  · refine h0 i ?_
    rw [gChunk_set]
    refine Rect.mem_set_unit.mpr fun a => ?_
    match a with
    | ⟨0, _⟩ => exact m0
    | ⟨1, _⟩ =>
      show 64 * t0.val ≤ (i 1).val ∧ (i 1).val < 64 * t0.val + 64
      have : (128 * g.val ≤ (i 1).val) := m1.1
      omega
    | ⟨2, _⟩ => exact m2
  · refine h1 i ?_
    rw [gChunk_set]
    refine Rect.mem_set_unit.mpr fun a => ?_
    match a with
    | ⟨0, _⟩ => exact m0
    | ⟨1, _⟩ =>
      show 64 * t1.val ≤ (i 1).val ∧ (i 1).val < 64 * t1.val + 64
      have : (i 1).val < 128 * g.val + 128 := m1.2
      omega
    | ⟨2, _⟩ => exact m2

/-- info: 'Cert.KernelProof.land_reduce' depends on axioms: [propext, Classical.choice, Quot.sound] -/
#guard_msgs in #print axioms land_reduce

end Cert.KernelProof

end
-- ==== Proof.K.Groups.lean ====
import proofs.«900993_g7700000000000994_dist_mlpseq_tp1d_rep_bs_b512_d256_h512_v7x_i8_bf16_1_alg».proof.Proof.K.Split

/-! The coarser views of the partial-product and gather buffers. The protocol hands 64-row chunks about, and a device
    holds its buffers chunk by chunk; but the body writes a layer-0 partial product through the layer's whole 512-row
    slab, writes a layer-1 or layer-2 partial product and reads the activation before it in four groups of 128 rows.
    A slab is the disjoint union of the layer's eight chunks and the group `g` of the chunks `2 g` and `2 g + 1`, so a slab
    or a group held (at any share, the buffer reading anything) is its chunks held. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The views -/

theorem inb_slab (l : Fin 3) : ∀ a, (![l.val, 0, 0] : Fin 3 → Nat) a + S1x512x256.size a ≤ S3x512x256.size a := by revert l; decide
theorem inb_grp (l : Fin 3) (g : Fin 4) : ∀ a, (![l.val, 128 * g.val, 0] : Fin 3 → Nat) a + S1x128x256.size a ≤ S3x512x256.size a := by
  revert l g; decide

/-- The rectangle of layer `l` in a 3 × 512 × 256 buffer. -/
abbrev rectSlab (l : Fin 3) : Rect S3x512x256 := Rect.unit (s := S3x512x256) ![l.val, 0, 0] S1x512x256.size (inb_slab l)
/-- The rectangle of group `g` (rows `128 g … 128 g + 127`) of layer `l`. -/
abbrev rectGrp (l : Fin 3) (g : Fin 4) : Rect S3x512x256 := Rect.unit (s := S3x512x256) ![l.val, 128 * g.val, 0] S1x128x256.size (inb_grp l g)

/-- Layer `l` of the partial-product buffer, whole. -/
def pSlab (l : Fin 3) : Memref sig .tc .vmem S1x512x256 .bf16 := (Memref.whole cc0_scratch0).slice (rectSlab l) (fun _ => rfl)
/-- Group `g` of layer `l` of the partial-product buffer. -/
def pGroup (l : Fin 3) (g : Fin 4) : Memref sig .tc .vmem S1x128x256 .bf16 := (Memref.whole cc0_scratch0).slice (rectGrp l g) (fun _ => rfl)
/-- Group `g` of layer `l` of the gather buffer. -/
def gGroup (l : Fin 3) (g : Fin 4) : Memref sig .tc .vmem S1x128x256 .bf16 := (Memref.whole cc0_scratch2).slice (rectGrp l g) (fun _ => rfl)

/-! ## Their element sets -/

theorem set_pSlab (l : Fin 3) : (pSlab l).view.set = (rectSlab l).set := View.set_slice_whole _ _
theorem set_pGroup (l : Fin 3) (g : Fin 4) : (pGroup l g).view.set = (rectGrp l g).set := View.set_slice_whole _ _
theorem set_gGroup (l : Fin 3) (g : Fin 4) : (gGroup l g).view.set = (rectGrp l g).set := View.set_slice_whole _ _

theorem mem_rectSlab {l : Fin 3} {i : S3x512x256.Idx} : i ∈ (rectSlab l).set ↔ (i 0).val = l.val := by
  rw [Rect.mem_set_unit, Fin.forall_fin_succ, Fin.forall_fin_succ, Fin.forall_fin_succ]
  have h1 : (i 1).val < 512 := (i 1).isLt
  have h2 : (i 2).val < 256 := (i 2).isLt
  show ((l.val ≤ (i 0).val ∧ (i 0).val < l.val + 1) ∧ (0 ≤ (i 1).val ∧ (i 1).val < 0 + 512)
    ∧ (0 ≤ (i 2).val ∧ (i 2).val < 0 + 256) ∧ ∀ j : Fin 0, _) ↔ _
  refine ⟨fun ⟨h0, _⟩ => by omega, fun h0 => ⟨by omega, by omega, by omega, fun j => j.elim0⟩⟩

theorem mem_rectGrp {l : Fin 3} {g : Fin 4} {i : S3x512x256.Idx} :
    i ∈ (rectGrp l g).set ↔ (i 0).val = l.val ∧ 128 * g.val ≤ (i 1).val ∧ (i 1).val < 128 * g.val + 128 := by
  rw [Rect.mem_set_unit, Fin.forall_fin_succ, Fin.forall_fin_succ, Fin.forall_fin_succ]
  have h2 : (i 2).val < 256 := (i 2).isLt
  show ((l.val ≤ (i 0).val ∧ (i 0).val < l.val + 1) ∧ (128 * g.val ≤ (i 1).val ∧ (i 1).val < 128 * g.val + 128)
    ∧ (0 ≤ (i 2).val ∧ (i 2).val < 0 + 256) ∧ ∀ j : Fin 0, _) ↔ _
  refine ⟨fun ⟨h0, h1, _⟩ => ⟨by omega, h1⟩, fun ⟨h0, h1⟩ => ⟨by omega, h1, by omega, fun j => j.elim0⟩⟩

/-- A layer's rows are the rows of its eight chunks. -/
theorem rectSlab_eq (l : Fin 3) : (rectSlab l).set = (Finset.univ : Finset (Dev nD)).biUnion (fun t => (rectP l t).set) := by
  ext i
  simp only [Finset.mem_biUnion, Finset.mem_univ, true_and, mem_rectSlab, mem_rectP]
  have h1 : (i 1).val < 512 := (i 1).isLt
  refine ⟨fun h0 => ⟨⟨(i 1).val / 64, by show (i 1).val / 64 < 8; omega⟩, h0, by show 64 * ((i 1).val / 64) ≤ _; omega,
    by show _ < 64 * ((i 1).val / 64) + 64; omega⟩, fun ⟨_, h0, _⟩ => h0⟩

/-- A group's rows are the rows of its two chunks. -/
theorem rectGrp_eq (l : Fin 3) (g : Fin 4) (t0 t1 : Dev nD) (h0 : t0.val = 2 * g.val) (h1 : t1.val = 2 * g.val + 1) :
    (rectGrp l g).set = (rectP l t0).set ∪ (rectP l t1).set := by
  ext i
  simp only [Finset.mem_union, mem_rectGrp, mem_rectP]
  omega

theorem rectP_disjoint_chunks (l : Fin 3) {t t' : Dev nD} (h : t ≠ t') : Disjoint (rectP l t).set (rectP l t').set :=
  rectP_disjoint (a := (l, t)) (b := (l, t')) (fun e => h (congrArg Prod.snd e))

/-! ## A slab or a group held is its chunks held -/

/-- Layer `l` of the partial-product buffer held is its eight chunks held. -/
theorem pSlab_eq (c : Dev nD) (l : Fin 3) (q : PosShare TreeShare) (f : Buf (Elt F) ((Memref.whole cc0_scratch0).view.loc (c : Thread nD τ))) :
    ((pSlab l).view.loc (c : Thread nD τ) ↦[(pSlab l).view.set]{q} f : sProp 𝕄)
      = iprop(piece c (pChunk l 0) q f ∗ piece c (pChunk l 1) q f ∗ piece c (pChunk l 2) q f ∗ piece c (pChunk l 3) q f
          ∗ piece c (pChunk l 4) q f ∗ piece c (pChunk l 5) q f ∗ piece c (pChunk l 6) q f ∗ piece c (pChunk l 7) q f) := by
  refine (congrArg (fun I => pointsTo ((Memref.whole cc0_scratch0).view.loc (c : Thread nD τ)) I q f)
    ((set_pSlab l).trans (rectSlab_eq l))).trans ?_
  refine (pointsTo_biUnion _ _ (fun a _ b _ h => rectP_disjoint_chunks l h)).trans ?_
  refine (bigSep_congr fun t _ => congrArg (fun I => pointsTo ((Memref.whole cc0_scratch0).view.loc (c : Thread nD τ)) I q f)
    (set_pChunk l t).symm).trans ?_
  exact bigSep_dev8 (fun t => piece c (pChunk l t) q f)

/-- Two chunks of a buffer with location `ℓ`, held, are their union held. -/
theorem pointsTo_two {ℓ : Loc nD τ sig} {I J K : Finset (Idx ℓ)} (hK : K = I ∪ J) (hd : Disjoint I J) (q : PosShare TreeShare)
    (f : Buf (Elt F) ℓ) : (ℓ ↦[K]{q} f : sProp 𝕄) = iprop((ℓ ↦[I]{q} f) ∗ ℓ ↦[J]{q} f) := by
  subst hK
  have hu : (ℓ ↦[I ∪ J]{q} f : sProp 𝕄) ⊣⊢ iprop((ℓ ↦[I]{q} f) ∗ ℓ ↦[J]{q} f) := pointsTo_union hd
  exact equiv_iff.mp ⟨hu.1, hu.2⟩

/-- Group `g` of layer `l` of the partial-product buffer held is its two chunks held. -/
theorem pGroup_eq (c : Dev nD) (l : Fin 3) (g : Fin 4) (q : PosShare TreeShare)
    (f : Buf (Elt F) ((Memref.whole cc0_scratch0).view.loc (c : Thread nD τ))) (t0 t1 : Dev nD)
    (h0 : t0.val = 2 * g.val) (h1 : t1.val = 2 * g.val + 1) :
    ((pGroup l g).view.loc (c : Thread nD τ) ↦[(pGroup l g).view.set]{q} f : sProp 𝕄)
      = iprop(piece c (pChunk l t0) q f ∗ piece c (pChunk l t1) q f) :=
  pointsTo_two (ℓ := (Memref.whole cc0_scratch0).view.loc (c : Thread nD τ))
    ((set_pGroup l g).trans ((rectGrp_eq l g t0 t1 h0 h1).trans (by rw [set_pChunk, set_pChunk])))
    (by rw [set_pChunk, set_pChunk]; exact rectP_disjoint_chunks l (fun e => by rw [e] at h0; omega)) q f

/-- Group `g` of layer `l` of the gather buffer held is its two chunks held. -/
theorem gGroup_eq (c : Dev nD) (l : Fin 3) (g : Fin 4) (q : PosShare TreeShare)
    (f : Buf (Elt F) ((Memref.whole cc0_scratch2).view.loc (c : Thread nD τ))) (t0 t1 : Dev nD)
    (h0 : t0.val = 2 * g.val) (h1 : t1.val = 2 * g.val + 1) :
    ((gGroup l g).view.loc (c : Thread nD τ) ↦[(gGroup l g).view.set]{q} f : sProp 𝕄)
      = iprop(piece c (gChunk l t0) q f ∗ piece c (gChunk l t1) q f) :=
  pointsTo_two (ℓ := (Memref.whole cc0_scratch2).view.loc (c : Thread nD τ))
    ((set_gGroup l g).trans ((rectGrp_eq l g t0 t1 h0 h1).trans (by rw [set_gChunk, set_gChunk])))
    (by rw [set_gChunk, set_gChunk]; exact rectP_disjoint_chunks l (fun e => by rw [e] at h0; omega)) q f

/-! ## The four groups of a layer, with their chunks named -/

theorem pGroup0_eq (c : Dev nD) (l : Fin 3) (q : PosShare TreeShare) (f : Buf (Elt F) ((Memref.whole cc0_scratch0).view.loc (c : Thread nD τ))) :
    ((pGroup l 0).view.loc (c : Thread nD τ) ↦[(pGroup l 0).view.set]{q} f : sProp 𝕄) = iprop(piece c (pChunk l 0) q f ∗ piece c (pChunk l 1) q f) :=
  pGroup_eq c l 0 q f 0 1 rfl rfl
theorem pGroup1_eq (c : Dev nD) (l : Fin 3) (q : PosShare TreeShare) (f : Buf (Elt F) ((Memref.whole cc0_scratch0).view.loc (c : Thread nD τ))) :
    ((pGroup l 1).view.loc (c : Thread nD τ) ↦[(pGroup l 1).view.set]{q} f : sProp 𝕄) = iprop(piece c (pChunk l 2) q f ∗ piece c (pChunk l 3) q f) :=
  pGroup_eq c l 1 q f 2 3 rfl rfl
theorem pGroup2_eq (c : Dev nD) (l : Fin 3) (q : PosShare TreeShare) (f : Buf (Elt F) ((Memref.whole cc0_scratch0).view.loc (c : Thread nD τ))) :
    ((pGroup l 2).view.loc (c : Thread nD τ) ↦[(pGroup l 2).view.set]{q} f : sProp 𝕄) = iprop(piece c (pChunk l 4) q f ∗ piece c (pChunk l 5) q f) :=
  pGroup_eq c l 2 q f 4 5 rfl rfl
theorem pGroup3_eq (c : Dev nD) (l : Fin 3) (q : PosShare TreeShare) (f : Buf (Elt F) ((Memref.whole cc0_scratch0).view.loc (c : Thread nD τ))) :
    ((pGroup l 3).view.loc (c : Thread nD τ) ↦[(pGroup l 3).view.set]{q} f : sProp 𝕄) = iprop(piece c (pChunk l 6) q f ∗ piece c (pChunk l 7) q f) :=
  pGroup_eq c l 3 q f 6 7 rfl rfl

theorem gGroup0_eq (c : Dev nD) (l : Fin 3) (q : PosShare TreeShare) (f : Buf (Elt F) ((Memref.whole cc0_scratch2).view.loc (c : Thread nD τ))) :
    ((gGroup l 0).view.loc (c : Thread nD τ) ↦[(gGroup l 0).view.set]{q} f : sProp 𝕄) = iprop(piece c (gChunk l 0) q f ∗ piece c (gChunk l 1) q f) :=
  gGroup_eq c l 0 q f 0 1 rfl rfl
theorem gGroup1_eq (c : Dev nD) (l : Fin 3) (q : PosShare TreeShare) (f : Buf (Elt F) ((Memref.whole cc0_scratch2).view.loc (c : Thread nD τ))) :
    ((gGroup l 1).view.loc (c : Thread nD τ) ↦[(gGroup l 1).view.set]{q} f : sProp 𝕄) = iprop(piece c (gChunk l 2) q f ∗ piece c (gChunk l 3) q f) :=
  gGroup_eq c l 1 q f 2 3 rfl rfl
theorem gGroup2_eq (c : Dev nD) (l : Fin 3) (q : PosShare TreeShare) (f : Buf (Elt F) ((Memref.whole cc0_scratch2).view.loc (c : Thread nD τ))) :
    ((gGroup l 2).view.loc (c : Thread nD τ) ↦[(gGroup l 2).view.set]{q} f : sProp 𝕄) = iprop(piece c (gChunk l 4) q f ∗ piece c (gChunk l 5) q f) :=
  gGroup_eq c l 2 q f 4 5 rfl rfl
theorem gGroup3_eq (c : Dev nD) (l : Fin 3) (q : PosShare TreeShare) (f : Buf (Elt F) ((Memref.whole cc0_scratch2).view.loc (c : Thread nD τ))) :
    ((gGroup l 3).view.loc (c : Thread nD τ) ↦[(gGroup l 3).view.set]{q} f : sProp 𝕄) = iprop(piece c (gChunk l 6) q f ∗ piece c (gChunk l 7) q f) :=
  gGroup_eq c l 3 q f 6 7 rfl rfl

/-! ## The same as entailments, for handing a slab or a group over and taking it back -/

theorem pSlab_split (c : Dev nD) (l : Fin 3) (q : PosShare TreeShare) (f : Buf (Elt F) ((Memref.whole cc0_scratch0).view.loc (c : Thread nD τ))) :
    ((pSlab l).view.loc (c : Thread nD τ) ↦[(pSlab l).view.set]{q} f : sProp 𝕄)
      ⊢ iprop(piece c (pChunk l 0) q f ∗ piece c (pChunk l 1) q f ∗ piece c (pChunk l 2) q f ∗ piece c (pChunk l 3) q f
          ∗ piece c (pChunk l 4) q f ∗ piece c (pChunk l 5) q f ∗ piece c (pChunk l 6) q f ∗ piece c (pChunk l 7) q f) :=
  Entails.of_eq (pSlab_eq c l q f)
theorem pSlab_join (c : Dev nD) (l : Fin 3) (q : PosShare TreeShare) (f : Buf (Elt F) ((Memref.whole cc0_scratch0).view.loc (c : Thread nD τ))) :
    iprop(piece c (pChunk l 0) q f ∗ piece c (pChunk l 1) q f ∗ piece c (pChunk l 2) q f ∗ piece c (pChunk l 3) q f
          ∗ piece c (pChunk l 4) q f ∗ piece c (pChunk l 5) q f ∗ piece c (pChunk l 6) q f ∗ piece c (pChunk l 7) q f)
      ⊢ ((pSlab l).view.loc (c : Thread nD τ) ↦[(pSlab l).view.set]{q} f : sProp 𝕄) :=
  Entails.of_eq (pSlab_eq c l q f).symm
theorem pGroup_split (c : Dev nD) (l : Fin 3) (g : Fin 4) (q : PosShare TreeShare)
    (f : Buf (Elt F) ((Memref.whole cc0_scratch0).view.loc (c : Thread nD τ))) (t0 t1 : Dev nD)
    (h0 : t0.val = 2 * g.val) (h1 : t1.val = 2 * g.val + 1) :
    ((pGroup l g).view.loc (c : Thread nD τ) ↦[(pGroup l g).view.set]{q} f : sProp 𝕄)
      ⊢ iprop(piece c (pChunk l t0) q f ∗ piece c (pChunk l t1) q f) := Entails.of_eq (pGroup_eq c l g q f t0 t1 h0 h1)
theorem pGroup_join (c : Dev nD) (l : Fin 3) (g : Fin 4) (q : PosShare TreeShare)
    (f : Buf (Elt F) ((Memref.whole cc0_scratch0).view.loc (c : Thread nD τ))) (t0 t1 : Dev nD)
    (h0 : t0.val = 2 * g.val) (h1 : t1.val = 2 * g.val + 1) :
    iprop(piece c (pChunk l t0) q f ∗ piece c (pChunk l t1) q f)
      ⊢ ((pGroup l g).view.loc (c : Thread nD τ) ↦[(pGroup l g).view.set]{q} f : sProp 𝕄) := Entails.of_eq (pGroup_eq c l g q f t0 t1 h0 h1).symm
theorem gGroup_split (c : Dev nD) (l : Fin 3) (g : Fin 4) (q : PosShare TreeShare)
    (f : Buf (Elt F) ((Memref.whole cc0_scratch2).view.loc (c : Thread nD τ))) (t0 t1 : Dev nD)
    (h0 : t0.val = 2 * g.val) (h1 : t1.val = 2 * g.val + 1) :
    ((gGroup l g).view.loc (c : Thread nD τ) ↦[(gGroup l g).view.set]{q} f : sProp 𝕄)
      ⊢ iprop(piece c (gChunk l t0) q f ∗ piece c (gChunk l t1) q f) := Entails.of_eq (gGroup_eq c l g q f t0 t1 h0 h1)
theorem gGroup_join (c : Dev nD) (l : Fin 3) (g : Fin 4) (q : PosShare TreeShare)
    (f : Buf (Elt F) ((Memref.whole cc0_scratch2).view.loc (c : Thread nD τ))) (t0 t1 : Dev nD)
    (h0 : t0.val = 2 * g.val) (h1 : t1.val = 2 * g.val + 1) :
    iprop(piece c (gChunk l t0) q f ∗ piece c (gChunk l t1) q f)
      ⊢ ((gGroup l g).view.loc (c : Thread nD τ) ↦[(gGroup l g).view.set]{q} f : sProp 𝕄) := Entails.of_eq (gGroup_eq c l g q f t0 t1 h0 h1).symm

end Cert.KernelProof

end
-- ==== Proof.K.PreludeDevs.lean ====
import proofs.«900993_g7700000000000994_dist_mlpseq_tp1d_rep_bs_b512_d256_h512_v7x_i8_bf16_1_alg».proof.Proof.K.Prelude

/-! The start of the body on each of the eight devices: the generic statement at the enumeration of the seven devices
    other than it, in increasing order. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The seven devices other than device 0. -/
abbrev lits0 (Φ : Dev nD → sProp 𝕄) : sProp 𝕄 := iprop(Φ 1 ∗ Φ 2 ∗ Φ 3 ∗ Φ 4 ∗ Φ 5 ∗ Φ 6 ∗ Φ 7)

theorem prelude_dev0 (K : GSem nD τ sig → ℕ) (c : Dev nD) (hc : c = 0) : bodyPre m K c ⊢ ctx m K c lits0 1 2 3 4 5 6 7 :=
  prelude m K c lits0 (fun Φ => by subst hc; exact bigSep_peers_0 Φ) 1 2 3 4 5 6 7 (fun l => by subst hc; exact owesRed_0 l)

/-- The seven devices other than device 1. -/
abbrev lits1 (Φ : Dev nD → sProp 𝕄) : sProp 𝕄 := iprop(Φ 0 ∗ Φ 2 ∗ Φ 3 ∗ Φ 4 ∗ Φ 5 ∗ Φ 6 ∗ Φ 7)

theorem prelude_dev1 (K : GSem nD τ sig → ℕ) (c : Dev nD) (hc : c = 1) : bodyPre m K c ⊢ ctx m K c lits1 0 2 3 4 5 6 7 :=
  prelude m K c lits1 (fun Φ => by subst hc; exact bigSep_peers_1 Φ) 0 2 3 4 5 6 7 (fun l => by subst hc; exact owesRed_1 l)

/-- The seven devices other than device 2. -/
abbrev lits2 (Φ : Dev nD → sProp 𝕄) : sProp 𝕄 := iprop(Φ 0 ∗ Φ 1 ∗ Φ 3 ∗ Φ 4 ∗ Φ 5 ∗ Φ 6 ∗ Φ 7)

theorem prelude_dev2 (K : GSem nD τ sig → ℕ) (c : Dev nD) (hc : c = 2) : bodyPre m K c ⊢ ctx m K c lits2 0 1 3 4 5 6 7 :=
  prelude m K c lits2 (fun Φ => by subst hc; exact bigSep_peers_2 Φ) 0 1 3 4 5 6 7 (fun l => by subst hc; exact owesRed_2 l)

/-- The seven devices other than device 3. -/
abbrev lits3 (Φ : Dev nD → sProp 𝕄) : sProp 𝕄 := iprop(Φ 0 ∗ Φ 1 ∗ Φ 2 ∗ Φ 4 ∗ Φ 5 ∗ Φ 6 ∗ Φ 7)

theorem prelude_dev3 (K : GSem nD τ sig → ℕ) (c : Dev nD) (hc : c = 3) : bodyPre m K c ⊢ ctx m K c lits3 0 1 2 4 5 6 7 :=
  prelude m K c lits3 (fun Φ => by subst hc; exact bigSep_peers_3 Φ) 0 1 2 4 5 6 7 (fun l => by subst hc; exact owesRed_3 l)

/-- The seven devices other than device 4. -/
abbrev lits4 (Φ : Dev nD → sProp 𝕄) : sProp 𝕄 := iprop(Φ 0 ∗ Φ 1 ∗ Φ 2 ∗ Φ 3 ∗ Φ 5 ∗ Φ 6 ∗ Φ 7)

theorem prelude_dev4 (K : GSem nD τ sig → ℕ) (c : Dev nD) (hc : c = 4) : bodyPre m K c ⊢ ctx m K c lits4 0 1 2 3 5 6 7 :=
  prelude m K c lits4 (fun Φ => by subst hc; exact bigSep_peers_4 Φ) 0 1 2 3 5 6 7 (fun l => by subst hc; exact owesRed_4 l)

/-- The seven devices other than device 5. -/
abbrev lits5 (Φ : Dev nD → sProp 𝕄) : sProp 𝕄 := iprop(Φ 0 ∗ Φ 1 ∗ Φ 2 ∗ Φ 3 ∗ Φ 4 ∗ Φ 6 ∗ Φ 7)

theorem prelude_dev5 (K : GSem nD τ sig → ℕ) (c : Dev nD) (hc : c = 5) : bodyPre m K c ⊢ ctx m K c lits5 0 1 2 3 4 6 7 :=
  prelude m K c lits5 (fun Φ => by subst hc; exact bigSep_peers_5 Φ) 0 1 2 3 4 6 7 (fun l => by subst hc; exact owesRed_5 l)

/-- The seven devices other than device 6. -/
abbrev lits6 (Φ : Dev nD → sProp 𝕄) : sProp 𝕄 := iprop(Φ 0 ∗ Φ 1 ∗ Φ 2 ∗ Φ 3 ∗ Φ 4 ∗ Φ 5 ∗ Φ 7)

theorem prelude_dev6 (K : GSem nD τ sig → ℕ) (c : Dev nD) (hc : c = 6) : bodyPre m K c ⊢ ctx m K c lits6 0 1 2 3 4 5 7 :=
  prelude m K c lits6 (fun Φ => by subst hc; exact bigSep_peers_6 Φ) 0 1 2 3 4 5 7 (fun l => by subst hc; exact owesRed_6 l)

/-- The seven devices other than device 7. -/
abbrev lits7 (Φ : Dev nD → sProp 𝕄) : sProp 𝕄 := iprop(Φ 0 ∗ Φ 1 ∗ Φ 2 ∗ Φ 3 ∗ Φ 4 ∗ Φ 5 ∗ Φ 6)

theorem prelude_dev7 (K : GSem nD τ sig → ℕ) (c : Dev nD) (hc : c = 7) : bodyPre m K c ⊢ ctx m K c lits7 0 1 2 3 4 5 6 :=
  prelude m K c lits7 (fun Φ => by subst hc; exact bigSep_peers_7 Φ) 0 1 2 3 4 5 6 (fun l => by subst hc; exact owesRed_7 l)

end Cert.KernelProof

end
-- ==== Proof.K.StepsEntry.lean ====
import proofs.«900993_g7700000000000994_dist_mlpseq_tp1d_rep_bs_b512_d256_h512_v7x_i8_bf16_1_alg».proof.Proof.K.SchedTables

/-! The two steps of the entry handshake, each as one rule. Device `c` signals one unit onto the barrier cell of each of
    its seven peers: the signal to peer `p` pays `p`'s barrier duty `c` — it hands over that duty's token, that round 0
    of the cell is reached, and what the duty promises `p` (the pieces of `c`'s buffers that `p`'s copies will write, and
    that `c`'s receive cells for them stand at round 0) — and takes the unit off what `c` owes. Then `c` waits seven units
    on its own barrier cell: the whole of round 0, so it comes back at round 1 holding what each of its seven peers
    handed it. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The entry signal to a peer -/

/-- Device `c`'s signal of one unit to the barrier semaphore of its peer `p`: it pays `p`'s barrier duty `c`. -/
theorem wp_entry_signal (𝒱 : Variants) (c p : Dev nD) (h : p ≠ c) (κ : ℕ)
    {dev : Dev nD} (hdev : dev = p) {sem : Sem sig} (hsem : sem = barS) {n : ℕ} (hn : n = 1)
    {α : Type} {kont : PUnit → Prog (TpuEff nD τ sig (Elt F) Λ₀ (c : Thread nD τ).2) α} {Q : α → sProp 𝕄}
    (O : CellTallies nD τ sig Unit) {W : Waits sig Unit} :
    iprop(cellInv ER (sched m) κ (barCell p) ∗ dutyTok ER (barCell p) 0 c ∗ reached ER (barCell p) 0 ∗ barPay (F := F) p c
        ∗ owes (c : Thread nD τ) (O + tallyAt (barCell p) () 1) W)
      ⊢ iprop((owes (c : Thread nD τ) O W -∗ wp frame (wpE (defs₀ (F := F)) 𝒱 (c : Thread nD τ) none) Set.univ (kont ⟨⟩) Q)
          -∗ wp frame (wpE (defs₀ (F := F)) 𝒱 (c : Thread nD τ) none) Set.univ
              (.op (.semSignal ((dev, (c : Thread nD τ).2) : Thread nD τ) sem n) kont) Q) := by
  subst hdev hsem hn
  iintro ⟨#HI, Htok, #Hr, Hpay, HO⟩ Hk
  iapply (Rounds.wp_signal 𝒱 ER (sched m) (c : Thread nD τ) none (dst := (dev : Thread nD τ)) (sem := barS) (r := 0) (d := c) (k' := 1)
      (κ := κ) (mem_duties_bar m dev c h.symm) (amount_bar m dev c) () O rfl) $$ [HO Htok Hpay]
  · isplitr; · iexact HI
    isplitl [HO]; · iexact HO
    isplitl [Htok]; · iexact Htok
    isplitl [Hpay]; · rw [payload_bar]; iexact Hpay
    iexact Hr
  iexact Hk

/-- The same step as the program writes it: the signal of the word 1, then the rest. -/
theorem wp_entry_signal_word (𝒱 : Variants) (c p : Dev nD) (h : p ≠ c) (κ : ℕ)
    {dev : Dev nD} (hdev : dev = p) {sem : Sem sig} (hsem : sem = barS) {w : BitVec 32} (hw : w = 1#32) {hamt : w.msb = false}
    {α : Type} {kont : PUnit → Prog (TpuEff nD τ sig (Elt F) Λ₀ (c : Thread nD τ).2) α} {Q : α → sProp 𝕄}
    (O : CellTallies nD τ sig Unit) {W : Waits sig Unit} :
    iprop(cellInv ER (sched m) κ (barCell p) ∗ dutyTok ER (barCell p) 0 c ∗ reached ER (barCell p) 0 ∗ barPay (F := F) p c
        ∗ owes (c : Thread nD τ) (O + tallyAt (barCell p) () 1) W)
      ⊢ iprop((owes (c : Thread nD τ) O W -∗ wp frame (wpE (defs₀ (F := F)) 𝒱 (c : Thread nD τ) none) Set.univ (kont ⟨⟩) Q)
          -∗ wp frame (wpE (defs₀ (F := F)) 𝒱 (c : Thread nD τ) none) Set.univ
              ((semSignalWord dev sem w hamt).bind kont) Q) := by
  subst hw
  exact wp_entry_signal m 𝒱 c p h κ hdev hsem rfl O

/-! ## The wait for the seven entry signals -/

/-- Device `c`'s wait of seven units on its barrier semaphore: the whole of round 0 of its barrier cell. -/
theorem wp_bar_wait (𝒱 : Variants) (c : Dev nD) (κ : ℕ) {sem : Sem sig} (hsem : sem = barS) {n : ℕ} (hn : n = 7)
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (barCell c) ∗ cred (tallyAt (barCell c) () 7) ∗ owes (c : Thread nD τ) O W
        ∗ MayWait (c : Thread nD τ) (.reg barS) () O ∗ atPos ER (barCell c) 0 ∅ 0)
      ⊢ iprop(((owes (c : Thread nD τ) O (insert (.reg barS, ()) W) ∗ atPos ER (barCell c) 1 ∅ 0 ∗ reached ER (barCell c) 1
              ∗ bigSep (peers c) (fun p => barPay (F := F) c p))
            -∗ wp frame (wpE (defs₀ (F := F)) 𝒱 (c : Thread nD τ) none) Set.univ (kont ⟨⟩) Q)
          -∗ wp frame (wpE (defs₀ (F := F)) 𝒱 (c : Thread nD τ) none) Set.univ (.op (.semWait sem n) kont) Q) := by
  subst hsem hn
  iintro ⟨#HI, Hc, HO, #Hmw, Hat⟩ Hk
  iapply (Rounds.wp_wait_rest_token 𝒱 ER (sched m) (c : Thread nD τ) none (κ := κ) (sm := .reg barS) (k' := 7)
      (fun K => wpE_semWait_eq 𝒱 (c : Thread nD τ) none Set.univ K) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iexact Hmw
    iexact Hat
  iintro ⟨HO, Hat, Hr, Hrest⟩
  iapply Hk
  isplitl [HO]; · iexact HO
  isplitl [Hat]; · iexact Hat
  isplitl [Hr]; · iexact Hr
  rw [← rest_bar m c]
  iexact Hrest

/-- The same step as the program writes it: the wait for the word 7, then the rest. -/
theorem wp_bar_wait_word (𝒱 : Variants) (c : Dev nD) (κ : ℕ) {sem : Sem sig} (hsem : sem = barS) {w : BitVec 32} (hw : w = 7#32)
    {hamt : w.msb = false}
    {α : Type} {kont : PUnit → Prog (TpuEff nD τ sig (Elt F) Λ₀ (c : Thread nD τ).2) α} {Q : α → sProp 𝕄}
    {O : CellTallies nD τ sig Unit} {W : Waits sig Unit} :
    iprop(cellInv ER (sched m) κ (barCell c) ∗ cred (tallyAt (barCell c) () 7) ∗ owes (c : Thread nD τ) O W
        ∗ MayWait (c : Thread nD τ) (.reg barS) () O ∗ atPos ER (barCell c) 0 ∅ 0)
      ⊢ iprop(((owes (c : Thread nD τ) O (insert (.reg barS, ()) W) ∗ atPos ER (barCell c) 1 ∅ 0 ∗ reached ER (barCell c) 1
              ∗ bigSep (peers c) (fun p => barPay (F := F) c p))
            -∗ wp frame (wpE (defs₀ (F := F)) 𝒱 (c : Thread nD τ) none) Set.univ (kont ⟨⟩) Q)
          -∗ wp frame (wpE (defs₀ (F := F)) 𝒱 (c : Thread nD τ) none) Set.univ ((semWaitWord sem w hamt).bind kont) Q) := by
  subst hw
  exact wp_bar_wait m 𝒱 c κ hsem rfl

/-- info: 'Cert.KernelProof.wp_entry_signal' depends on axioms: [propext, Classical.choice, Quot.sound] -/
#guard_msgs in #print axioms wp_entry_signal

/-- info: 'Cert.KernelProof.wp_bar_wait' depends on axioms: [propext, Classical.choice, Quot.sound] -/
#guard_msgs in #print axioms wp_bar_wait

end Cert.KernelProof

end
-- ==== Proof.K.BodySegA1a_d0.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.PreludeDevs
import proofs.«900993_g7700000000000994_dist_mlpseq_tp1d_rep_bs_b512_d256_h512_v7x_i8_bf16_1_alg».proof.Proof.K.StepsEntry
import Idealize.ShloMosaic.Lib.Tactic

/-! The entry and layer 0 on device 0, first half: from the body's start to the point where the device has enqueued its
    seven reduce copies of layer 0 and read its own chunk.

    The device signals its seven peers along the ring, one unit to each barrier cell: each signal pays the device's
    duty at that cell and hands the peer the pieces of the device's buffers the peer's copies will land in. It waits for
    the seven signals to itself, the whole round of its barrier cell, and receives in turn the pieces of its peers'
    buffers its own copies land in. It then makes layer 0's partial product from the staged arguments by the body's own
    arithmetic and stores it over layer 0 of the partial-product buffer, which from then on holds the canonical partial
    product there; cut into 64-row chunks, each chunk but the device's own is lent to the copy towards the device that
    reduces those rows, which pays duty `t` of the device's reduce-send cell and the one duty of the target's
    reduce-receive cell, settles what the device owed that cell, and earns the credit for a later wait on the send
    cell. The own chunk is read last, as the accumulation's first term. What the device holds then — the tokens,
    positions and credit of everything still to come, regrouped layer by layer — is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [1, 2, 3, 4, 5, 6, 7]

/-- A step rule stated with its continuation as a wand, read with the continuation as a second conjunct. -/
private theorem step_uncurry {P R G : sProp 𝕄} (h : P ⊢ iprop(R -∗ G)) : iprop(P ∗ R) ⊢ G := by
  iintro ⟨HP, HR⟩
  iapply (h) $$ [HP]
  · iexact HP
  iexact HR

/-- The start holds every cell's invariant and round-0 fact for good. -/
private theorem pre_dup (K : GSem nD τ sig → ℕ) (c : Dev nD) : bodyPre m K c ⊢ iprop((invsAll m K ∗ reachedAll (F := F)) ∗ bodyPre m K c) := by
  unfold bodyPre ghost
  iintro ⟨⟨⟨#HI, #HR, HP, HT⟩, HC, Hlev, S0, S1, S2⟩, HO, Hstg⟩
  isplitr
  · isplitr; · iexact HI
    iexact HR
  isplitl [HP HT HC Hlev S0 S1 S2]
  · isplitl [HP HT]
    · isplitr; · iexact HI
      isplitr; · iexact HR
      isplitl [HP]; · iexact HP
      iexact HT
    isplitl [HC]; · iexact HC
    isplitl [Hlev]; · iexact Hlev
    isplitl [S0]; · iexact S0
    isplitl [S1]; · iexact S1
    iexact S2
  isplitl [HO]; · iexact HO
  iexact Hstg

/-- Two chains of seven, term by term. -/
private theorem zip7 {M : Type} [URA M] (a1 a2 a3 a4 a5 a6 a7 b1 b2 b3 b4 b5 b6 b7 : sProp M) :
    iprop((a1 ∗ a2 ∗ a3 ∗ a4 ∗ a5 ∗ a6 ∗ a7) ∗ (b1 ∗ b2 ∗ b3 ∗ b4 ∗ b5 ∗ b6 ∗ b7))
      ⊢ iprop((a1 ∗ b1) ∗ (a2 ∗ b2) ∗ (a3 ∗ b3) ∗ (a4 ∗ b4) ∗ (a5 ∗ b5) ∗ (a6 ∗ b6) ∗ (a7 ∗ b7)) := by
  iintro ⟨⟨A1, A2, A3, A4, A5, A6, A7⟩, ⟨B1, B2, B3, B4, B5, B6, B7⟩⟩
  isplitl [A1 B1]; · isplitl [A1]; · iexact A1
                     iexact B1
  isplitl [A2 B2]; · isplitl [A2]; · iexact A2
                     iexact B2
  isplitl [A3 B3]; · isplitl [A3]; · iexact A3
                     iexact B3
  isplitl [A4 B4]; · isplitl [A4]; · iexact A4
                     iexact B4
  isplitl [A5 B5]; · isplitl [A5]; · iexact A5
                     iexact B5
  isplitl [A6 B6]; · isplitl [A6]; · iexact A6
                     iexact B6
  isplitl [A7]; · iexact A7
  iexact B7

/-- What the seven entry signals heard hand the device, sorted by the layer whose copies land in it. -/
private theorem barPays_fold (c : Dev nD) (Ts : List (Dev nD)) (hTs : peers c = Ts.toFinset) (hnd : Ts.Nodup) :
    bigSep (peers c) (fun p => barPay (F := F) c p) ⊢ iprop(layerDest c Ts 0 ∗ layerDest c Ts 1 ∗ layerDest c Ts 2) := by
  unfold barPay layerDest
  simp only [bigSep_sep']
  rw [if_pos (show (0 : Fin 3).val < 2 by decide), if_pos (show (1 : Fin 3).val < 2 by decide), if_neg (show ¬ (2 : Fin 3).val < 2 by decide)]
  rw [bigSep_eq_bigSepL_of_eq Ts hTs hnd (fun p => iprop(∃ f, piece p (rSlot 0 c) fullShare f)),
    bigSep_eq_bigSepL_of_eq Ts hTs hnd (fun p => iprop(∃ f, piece p (rSlot 1 c) fullShare f)),
    bigSep_eq_bigSepL_of_eq Ts hTs hnd (fun p => iprop(∃ f, piece p (rSlot 2 c) fullShare f)),
    bigSep_eq_bigSepL_of_eq (ringF c) (peers_eq_fwd c) (fwd_nodup c) (fun p => iprop(∃ f, piece p (gChunk 0 c) fullShare f)),
    bigSep_eq_bigSepL_of_eq (ringF c) (peers_eq_fwd c) (fwd_nodup c) (fun p => iprop(∃ f, piece p (gChunk 1 c) fullShare f))]
  iintro ⟨A0, A1, A2, G0, G1, -⟩
  isplitl [A0 G0]; · isplitl [A0]; · iexact A0
                     iexact G0
  isplitl [A1 G1]; · isplitl [A1]; · iexact A1
                     iexact G1
  isplitl [A2]; · iexact A2
  iempintro

/-- Layer 0's destinations: the seven receive slots by target, and the gather chunks along the ring. -/
private theorem layerDest0_eq (c : Dev nD) : (layerDest (F := F) c Tsd 0 : sProp 𝕄) =
    iprop(((∃ fd, piece 1 (rSlot 0 c) fullShare fd) ∗ (∃ fd, piece 2 (rSlot 0 c) fullShare fd) ∗ (∃ fd, piece 3 (rSlot 0 c) fullShare fd) ∗ (∃ fd, piece 4 (rSlot 0 c) fullShare fd) ∗ (∃ fd, piece 5 (rSlot 0 c) fullShare fd) ∗ (∃ fd, piece 6 (rSlot 0 c) fullShare fd) ∗ (∃ fd, piece 7 (rSlot 0 c) fullShare fd))
      ∗ bigSepL (ringF c) (fun p => iprop(∃ fd, piece p (gChunk 0 c) fullShare fd))) := by
  unfold layerDest
  rw [if_pos (show (0 : Fin 3).val < 2 by decide)]
  rfl

/-- Chunk `t` of layer 0 after the store of the layer's partial product holds the canonical contents. -/
private theorem chunk0_stored (c t : Dev nD) (f0 : Buf (Elt F) ((c : Thread nD τ).loc cc0_scratch0))
    (inb : ∀ a, (![0, 0, 0] : Fin 3 → Nat) a + S1x512x256.size a ≤ S3x512x256.size a) :
    (piece c (pChunk 0 t) fullShare ((Memref.whole cc0_scratch0).view.writes (Elt F) f0
        [⟨Rect.unit (s := S3x512x256) ![0, 0, 0] S1x512x256.size inb, P0 m c⟩]) : sProp 𝕄)
      = piece c (pChunk 0 t) fullShare (Pfun m c) := by
  refine piece_congr c (pChunk 0 t) fullShare fun i hi => ?_
  refine write_P0 m c f0 ![0, 0, 0] rfl inb i ?_
  rw [set_pChunk] at hi
  have hs : i ∈ (rectSlab 0).set := by
    rw [rectSlab_eq]; exact Finset.mem_biUnion.mpr ⟨t, Finset.mem_univ _, hi⟩
  have hs' : i ∈ (pSlab 0).view.set := by rw [set_pSlab]; exact hs
  exact hs'

/-- The eight chunks of layer `l` of the partial-product buffer, each at some contents. -/
private def pLayerEx (c : Dev nD) (l : Fin 3) : sProp 𝕄 := bigSep (Finset.univ : Finset (Dev nD)) (fun t => ex (F := F) c (pChunk l t))

/-- After the store of layer 0's partial product the partial-product buffer is: its eight chunks of layer 0 holding the
    canonical contents, and the chunks of the two later layers at whatever they hold. -/
private theorem slab0_cut (c : Dev nD) (f0 : Buf (Elt F) ((c : Thread nD τ).loc cc0_scratch0))
    {a0 : Vec F S512x256 .f32} {a1 : Vec F S256x512 .f32} {a2 : Vec F S512x256 .f32}
    (h0 : a0 = argX m c) (h1 : a1 = argW m c 0) (h2 : a2 = argV m c 0)
    (inb : ∀ a, (![0, 0, 0] : Fin 3 → Nat) a + S1x512x256.size a ≤ S3x512x256.size a) :
    ((Memref.whole cc0_scratch0).view.loc (c : Thread nD τ) ↦[(Memref.whole cc0_scratch0).view.set]{fullShare}
        ((Memref.whole cc0_scratch0).view.writes (Elt F) f0 [⟨Rect.unit (s := S3x512x256) ![0, 0, 0] S1x512x256.size inb, k0_pay1 a0 a1 a2⟩]) : sProp 𝕄)
      ⊢ iprop(bigSep (Finset.univ : Finset (Dev nD)) (fun t => piece c (pChunk 0 t) fullShare (Pfun m c))
          ∗ pLayerEx c 1 ∗ pLayerEx c 2) := by
  unfold pLayerEx
  subst h0 h1 h2
  refine (whole0_split c fullShare _).trans ?_
  rw [bigSep_univ_prod, bigSep_fin3]
  exact sep_mono (Entails.of_eq (bigSep_congr fun t _ => chunk0_stored m c t f0 inb))
    (sep_mono (bigSep_mono fun t _ => piece_ex c _ _ _) (bigSep_mono fun t _ => piece_ex c _ _ _))

private theorem zero2 : (![0, 0] : Fin 2 → Nat) = fun _ => 0 := by funext a; fin_cases a <;> rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; rfl
  iapply (Entails.of_eq (congrArg (fun I => pointsTo ((c : Thread nD τ).loc b) I fullShare x) (View.set_whole b)))
  iexact H

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

/-- What is still owed once the entry signals and layer 0's reduce copies are out, and the whole debt at launch with
    those last, in the reverse of the order they are settled. -/
private abbrev restA (c : Dev nD) : CellTallies nD τ sig Unit := owesRedL c Tsd 1 + owesRedL c Tsd 2 + owesGatL c 0 + owesGatL c 1

private theorem debt_rev (c : Dev nD) : debt c 1 2 3 4 5 6 7 =
    restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64 + tallyAt (rrCell 1 0 c) () N64
      + tallyAt (barCell (fwd 7 c)) () 1 + tallyAt (barCell (fwd 6 c)) () 1 + tallyAt (barCell (fwd 5 c)) () 1 + tallyAt (barCell (fwd 4 c)) () 1
      + tallyAt (barCell (fwd 3 c)) () 1 + tallyAt (barCell (fwd 2 c)) () 1 + tallyAt (barCell (fwd 1 c)) () 1 := by
  unfold debt owesBar owesRedLit owesGatA restA owesRedL owesGatL ringF
  simp only [amt_rSlot, amt_gChunk, List.map, List.sum_cons, List.sum_nil]
  abel

private theorem above_restA (c : Dev nD) : Above 1 (restA c) := by
  unfold restA owesRedL owesGatL ringF
  simp only [List.map, List.sum_cons, List.sum_nil]
  owes_above

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- Seven copies of one assertion, as the family over the literal peers. -/
private theorem creds7 (a : sProp 𝕄) : iprop(a ∗ a ∗ a ∗ a ∗ a ∗ a ∗ a) ⊢ bigSepL Tsd (fun _ => a) := .rfl

/-- Two chains along the ring forward, term by term. -/
private theorem zipF (c : Dev nD) (Φ Ψ : Dev nD → sProp 𝕄) : iprop(alongF c Φ ∗ alongF c Ψ) ⊢ bigSepL (ringF c) (fun p => iprop(Φ p ∗ Ψ p)) :=
  zip7 _ _ _ _ _ _ _ _ _ _ _ _ _ _
/-- Two chains along the ring backward, term by term. -/
private theorem zipB (c : Dev nD) (Φ Ψ : Dev nD → sProp 𝕄) : iprop(alongB c Φ ∗ alongB c Ψ) ⊢ bigSepL (ringB c) (fun p => iprop(Φ p ∗ Ψ p)) :=
  zip7 _ _ _ _ _ _ _ _ _ _ _ _ _ _
/-- Two chains over the literal peers, term by term. -/
private theorem zipT (Φ Ψ : Dev nD → sProp 𝕄) : iprop(lits0 Φ ∗ lits0 Ψ) ⊢ bigSepL Tsd (fun p => iprop(Φ p ∗ Ψ p)) :=
  zip7 _ _ _ _ _ _ _ _ _ _ _ _ _ _

/-- A layer's reduce positions from the send cell's, the receive cells' and their credit. -/
private theorem posRed_intro (c : Dev nD) (l : Fin 3) :
    iprop(atPos ER (rsCell c l) 0 ∅ 0 ∗ alongB c (fun s => (atPos ER (rrCell c l s) 0 ∅ 0 : sProp 𝕄))
      ∗ alongB c (fun s => (cred (tallyAt (rrCell c l s) () N64) : sProp 𝕄))) ⊢ (posRed (F := F) c l : sProp 𝕄) := by
  unfold posRed
  iintro ⟨A, B, C⟩
  isplitl [A]; · iexact A
  iapply (zipB c _ _)
  isplitl [B]; · iexact B
  iexact C
/-- A layer's gather-send position. -/
private theorem posGs_intro (c : Dev nD) (l : Fin 3) : (atPos ER (gsCell c l) 0 ∅ 0 : sProp 𝕄) ⊢ posGs (F := F) c l := by
  unfold posGs
  exact .rfl
/-- A layer's gather-receive positions with their credit. -/
private theorem posGr_intro (c : Dev nD) (l : Fin 3) :
    iprop(lits0 (fun s => (atPos ER (grCell c l s) 0 ∅ 0 : sProp 𝕄)) ∗ lits0 (fun s => (cred (tallyAt (grCell c l s) () N64) : sProp 𝕄)))
      ⊢ (posGr (F := F) c Tsd l : sProp 𝕄) := by
  unfold posGr
  exact zipT _ _

/-- A later layer's resources from its tokens, positions, credit and destinations. -/
private theorem layerRes1_intro (c : Dev nD) :
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1) ∗ layerDest c Tsd 1) ⊢ (layerRes (F := F) c Tsd 1 : sProp 𝕄) := by
  unfold layerRes layerToks
  rw [if_pos (show (1 : Fin 3).val < 2 by decide), if_pos (show (1 : Fin 3).val < 2 by decide)]
private theorem layerRes2_intro (c : Dev nD) :
    iprop((bigSepL Tsd (fun t => iprop(dutyTok ER (rsCell c 2) 0 t ∗ dutyTok ER (rrCell t 2 c) 0 c)) ∗ emp)
      ∗ posRed c 2 ∗ emp ∗ layerDest c Tsd 2) ⊢ (layerRes (F := F) c Tsd 2 : sProp 𝕄) := by
  unfold layerRes layerToks
  rw [if_neg (show ¬ (2 : Fin 3).val < 2 by decide), if_neg (show ¬ (2 : Fin 3).val < 2 by decide)]

private theorem pLayerEx_def (c : Dev nD) (l : Fin 3) :
    (pLayerEx (F := F) c l : sProp 𝕄) = bigSep (Finset.univ : Finset (Dev nD)) (fun t => ex (F := F) c (pChunk l t)) := rfl

/-- The last layer's chunks of the gather buffer, all held. -/
private theorem gath2 (c : Dev nD) (hc : c = 0) (f : Buf (Elt F) ((c : Thread nD τ).loc cc0_scratch2)) :
    bigSep (Finset.univ : Finset (Dev nD)) (fun t => (piece c (gChunk 2 t) fullShare f : sProp 𝕄)) ⊢ chunksAll c Tsd 2 := by
  subst hc
  rw [bigSep_dev8]
  unfold chunksAll
  rw [bigSepL7]
  iintro ⟨H0, H1, H2, H3, H4, H5, H6, H7⟩
  isplitl [H0]; · iapply (ex_intro _ (gChunk 2 0) f); iexact H0
  isplitl [H1]; · iapply (ex_intro _ (gChunk 2 1) f); iexact H1
  isplitl [H2]; · iapply (ex_intro _ (gChunk 2 2) f); iexact H2
  isplitl [H3]; · iapply (ex_intro _ (gChunk 2 3) f); iexact H3
  isplitl [H4]; · iapply (ex_intro _ (gChunk 2 4) f); iexact H4
  isplitl [H5]; · iapply (ex_intro _ (gChunk 2 5) f); iexact H5
  isplitl [H6]; · iapply (ex_intro _ (gChunk 2 6) f); iexact H6
  iapply (ex_intro _ (gChunk 2 7) f); iexact H7

attribute [local irreducible] layerDest layerRes layerToks barPay pLayerEx

set_option hygiene false in
/-- The entry signal to the peer `j` places after the device: it pays with the head token and the head payload. -/
local macro "entry_signal" j:num eq:ident : tactic => `(tactic| (
  icases TB with ⟨Tb, TB⟩
  icases PB with ⟨Pb, PB⟩
  iapply (step_uncurry (wp_entry_signal m 𝒱₀ c (fwd $j c) (fwd_ne_nat $j (by decide) (by decide) c) (K (barCell (fwd $j c))) ($eq c _) rfl rfl _))
  isplitl [Tb Pb HO]
  · isplitr; · iapply (invsAll_at m K (fwd $j c) .bar); iexact Hinv
    isplitl [Tb]; · iexact Tb
    isplitr; · iapply (reached_at (fwd $j c) .bar); iexact Hreach
    isplitl [Pb]; · iexact Pb
    iexact HO
  iintro HO
  sl_exec_parts))

theorem segA1_sound0 (c : Dev nD) (hc : c = 0) (K : GSem nD τ sig → ℕ)
    (Kt : (Σ' (d0 : Dev nD) (v2 : BitVec 32) (v78 : FVec F S64x256 .f32) (v81 : BitVec 32) (v82 : BitVec 32), BitVec 32) → sProp 𝕄) :
    iprop(bodyPre m K c ∗ (∀ v78 v81 v82 c0, midA m K c Tsd v78 -∗ Kt ⟨c, devWord c, v78, v81, v82, c0⟩))
      ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hg1 : ¬ k0_cond1 c = 1#1 := fun h => (cond1_iff c).mp h hc
  have hg2 : k0_cond2 c = 1#1 := (cond2_iff c).mpr hne1
  have hg3 : k0_cond3 c = 1#1 := (cond3_iff c).mpr hne2
  have hg4 : k0_cond4 c = 1#1 := (cond4_iff c).mpr hne3
  have hg5 : k0_cond5 c = 1#1 := (cond5_iff c).mpr hne4
  have hg6 : k0_cond6 c = 1#1 := (cond6_iff c).mpr hne5
  have hg7 : k0_cond7 c = 1#1 := (cond7_iff c).mpr hne6
  have hg8 : k0_cond8 c = 1#1 := (cond8_iff c).mpr hne7
  have hAbW : Above 1 (restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64 + tallyAt (rrCell 1 0 c) () N64 : CellTallies nD τ sig Unit) :=
    (((((((above_restA c).add (above_rr (n := 1) (7 : Dev nD) (0 : Fin 3) c N64 (by decide))).add (above_rr (n := 1) (6 : Dev nD) (0 : Fin 3) c N64 (by decide))).add (above_rr (n := 1) (5 : Dev nD) (0 : Fin 3) c N64 (by decide))).add (above_rr (n := 1) (4 : Dev nD) (0 : Fin 3) c N64 (by decide))).add (above_rr (n := 1) (3 : Dev nD) (0 : Fin 3) c N64 (by decide))).add (above_rr (n := 1) (2 : Dev nD) (0 : Fin 3) c N64 (by decide))).add (above_rr (n := 1) (1 : Dev nD) (0 : Fin 3) c N64 (by decide))
  refine (sep_mono_left ((pre_dup m K c).trans (sep_mono_right (prelude_dev0 m K c hc)))).trans ?_
  unfold ctx toksFam posFam credsFam lits0 midA stagedIn scr
  rw [debt_rev]
  iintro ⟨⟨⟨#Hinv, #Hreach⟩, -, -, #Hlev, ⟨TB, ⟨⟨Trs0T1, Trs0T2, Trs0T3, Trs0T4, Trs0T5, Trs0T6, Trs0T7⟩, ⟨Trr0T1, Trr0T2, Trr0T3, Trr0T4, Trr0T5, Trr0T6, Trr0T7⟩⟩, ⟨TS1, TR1⟩, ⟨TS2, TR2⟩, ⟨TGS0, TGR0⟩, ⟨TGS1, TGR1⟩⟩, ⟨Abar, ⟨Ars0, Arr0⟩, ⟨Ars1, Arr1⟩, ⟨Ars2, Arr2⟩, ⟨Ags0, Agr0⟩, ⟨Ags1, Agr1⟩⟩, ⟨Cbar, Crr0, Crr1, Crr2, Cgr0, Cgr1⟩, HPrest, ⟨%f0, S0⟩, PB, ⟨%fs, SO0, SO1, SO2⟩, ⟨%fg, GO0, GO1, GO2⟩, ⟨%W, HO⟩, ⟨%x0, %hx0, X0⟩, ⟨%x1, %hx1, X1⟩, ⟨%x2, %hx2, X2⟩, X3, X4, X5, X6, H7⟩, Hk⟩
  ihave X0 := (whole_restate c cc0_stg0_0 x0) $$ X0
  ihave X1 := (whole_restate c cc0_stg1_0 x1) $$ X1
  ihave X2 := (whole_restate c cc0_stg2_0 x2) $$ X2
  ihave S0 := (whole_restate c cc0_scratch0 f0) $$ S0
  sl_unfold [segA1]
  sl_exec_parts
  entry_signal 1 dev1_eq
  entry_signal 2 dev2_eq
  entry_signal 3 dev3_eq
  entry_signal 4 dev4_eq
  entry_signal 5 dev5_eq
  entry_signal 6 dev6_eq
  icases TB with Tb
  icases PB with Pb
  iapply (step_uncurry (wp_entry_signal m 𝒱₀ c (fwd 7 c) (fwd_ne_nat 7 (by decide) (by decide) c) (K (barCell (fwd 7 c))) (dev7_eq c _) rfl rfl _))
  isplitl [Tb Pb HO]
  · isplitr; · iapply (invsAll_at m K (fwd 7 c) .bar); iexact Hinv
    isplitl [Tb]; · iexact Tb
    isplitr; · iapply (reached_at (fwd 7 c) .bar); iexact Hreach
    isplitl [Pb]; · iexact Pb
    iexact HO
  iintro HO
  sl_exec_parts
  ihave #Hmw := (mayWait_bar (F := F) c (restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64 + tallyAt (rrCell 1 0 c) () N64) hAbW) $$ Hlev
  iapply (step_uncurry (wp_bar_wait m 𝒱₀ c (K (barCell c)) rfl rfl (O := restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64 + tallyAt (rrCell 1 0 c) () N64) (W := W)))
  isplitl [Cbar HO Abar]
  · isplitr; · iapply (invsAll_at m K c .bar); iexact Hinv
    isplitl [Cbar]; · iexact Cbar
    isplitl [HO]; · iexact HO
    isplitr; · iexact Hmw
    iexact Abar
  iintro ⟨HO, Abar, #Rbar1, PBin⟩
  ihave PBin := (barPays_fold c Tsd (by rw [hc]; decide) (by decide)) $$ PBin
  icases PBin with ⟨D0, D1, D2⟩
  ihave S0 := (slab0_cut m c f0 ((Memref.readAt_unit_zero (Elt F) cc0_stg0_0 zero2 inb_S512x256_S512x256_0_0 x0).trans hx0)
      ((Memref.readAt_unit_zero (Elt F) cc0_stg1_0 zero2 inb_S256x512_S256x512_0_0 x1).trans hx1)
      ((Memref.readAt_unit_zero (Elt F) cc0_stg2_0 zero2 inb_S512x256_S512x256_0_0 x2).trans hx2) _) $$ S0
  icases S0 with ⟨P0s, P1s, P2s⟩
  ihave P0s := (Entails.of_eq (bigSep_dev8 _)) $$ P0s
  icases P0s with ⟨Q0, Q1, Q2, Q3, Q4, Q5, Q6, Q7⟩
  sl_exec_parts
  ihave D0 := (Entails.of_eq (layerDest0_eq c)) $$ D0
  icases D0 with ⟨⟨⟨%fd1, Drr0T1⟩, ⟨%fd2, Drr0T2⟩, ⟨%fd3, Drr0T3⟩, ⟨%fd4, Drr0T4⟩, ⟨%fd5, Drr0T5⟩, ⟨%fd6, Drr0T6⟩, ⟨%fd7, Drr0T7⟩⟩, DG0⟩
  ihave #Irs0 := (invsAll_at m K c (.rs 0)) $$ Hinv
  ihave #Rrs0 := (reached_at (F := F) c (.rs 0)) $$ Hreach
  -- the copy of chunk 1 to device 1
  ihave #Irr0T1 := (invsAll_at m K 1 (.rr 0 c)) $$ Hinv
  ihave #Rrr0T1 := (reached_at (F := F) 1 (.rr 0 c)) $$ Hreach
  iapply (wp_red_send m 𝒱₀ c 1 0 hne1 (K (rsCell c 0)) (K (rrCell 1 0 c)) (dev9_eq _) (pchunk_lit0_1 _ _) (slot_off4 c _ _)
      (congrArg SemLoc.dma (sem_rs0 _)) (congrArg SemLoc.dma (sem_off3 c _)) (restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64) fd1)
    $$ [Q1 Drr0T1 HO Trs0T1 Trr0T1]
  · isplitr; · iexact Irs0
    isplitr; · iexact Irr0T1
    isplitl [Q1]; · iexact Q1
    isplitl [Drr0T1]; · iexact Drr0T1
    isplitl [HO]; · iexact HO
    isplitl [Trs0T1]; · iexact Trs0T1
    isplitr; · iexact Rrs0
    isplitl [Trr0T1]; · iexact Trr0T1
    iexact Rrr0T1
  iintro ⟨Crs0T1, HO⟩
  sl_exec_parts
  -- the copy of chunk 2 to device 2
  ihave #Irr0T2 := (invsAll_at m K 2 (.rr 0 c)) $$ Hinv
  ihave #Rrr0T2 := (reached_at (F := F) 2 (.rr 0 c)) $$ Hreach
  iapply (wp_red_send m 𝒱₀ c 2 0 hne2 (K (rsCell c 0)) (K (rrCell 2 0 c)) (dev10_eq _) (pchunk_lit0_2 _ _) (slot_off6 c _ _)
      (congrArg SemLoc.dma (sem_rs0 _)) (congrArg SemLoc.dma (sem_off5 c _)) (restA c + tallyAt (rrCell 7 0 c) () N64 + tallyAt (rrCell 6 0 c) () N64 + tallyAt (rrCell 5 0 c) () N64 + tallyAt (rrCell 4 0 c) () N64 + tallyAt (rrCell 3 0 c) () N64) fd2)
    $$ [Q2 Drr0T2 HO Trs0T2 Trr0T2]
  · isplitr; · iexact Irs0
    isplitr; · iexact Irr0T2
    isplitl [Q2]; · iexact Q2
    isplitl [Drr0T2]; · iexact Drr0T2
    isplitl [HO]; · iexact HO
    isplitl [Trs0T2]; · iexact Trs0T2
    isplitr; · iexact Rrs0
    isplitl [Trr0T2]; · iexact Trr0T2
    iexact Rrr0T2
  iintro ⟨Crs0T2, HO⟩
  sl_exec_parts
  -- the copy of chunk 3 to device 3
  ihave #Irr0T3 := (invsAll_at m K 3 (.rr 0 c)) $$ Hinv
  ihave #Rrr0T3 := (reached_at (F := F) 3 (.rr 0 c)) $$ Hreach
  iapply (wp_red_send m 𝒱₀ c 3 0 hne3 (K (rsCell c 0)) (K (rrCell 3 0 c)) (dev11_eq _) (pchunk_lit0_3 _ _) (slot_off8 c _ _)
      (congrArg SemLoc.dma (sem_rs0 _)) (congrArg SemLoc.dma (sem_off7 c _)) (restA c + tallyAt (rrCell 7 0 c) () N64 + tallyAt (rrCell 6 0 c) () N64 + tallyAt (rrCell 5 0 c) () N64 + tallyAt (rrCell 4 0 c) () N64) fd3)
    $$ [Q3 Drr0T3 HO Trs0T3 Trr0T3]
  · isplitr; · iexact Irs0
    isplitr; · iexact Irr0T3
    isplitl [Q3]; · iexact Q3
    isplitl [Drr0T3]; · iexact Drr0T3
    isplitl [HO]; · iexact HO
    isplitl [Trs0T3]; · iexact Trs0T3
    isplitr; · iexact Rrs0
    isplitl [Trr0T3]; · iexact Trr0T3
    iexact Rrr0T3
  iintro ⟨Crs0T3, HO⟩
  sl_exec_parts
  -- the copy of chunk 4 to device 4
  ihave #Irr0T4 := (invsAll_at m K 4 (.rr 0 c)) $$ Hinv
  ihave #Rrr0T4 := (reached_at (F := F) 4 (.rr 0 c)) $$ Hreach
  iapply (wp_red_send m 𝒱₀ c 4 0 hne4 (K (rsCell c 0)) (K (rrCell 4 0 c)) (dev12_eq _) (pchunk_lit0_4 _ _) (slot_off10 c _ _)
      (congrArg SemLoc.dma (sem_rs0 _)) (congrArg SemLoc.dma (sem_off9 c _)) (restA c + tallyAt (rrCell 7 0 c) () N64 + tallyAt (rrCell 6 0 c) () N64 + tallyAt (rrCell 5 0 c) () N64) fd4)
    $$ [Q4 Drr0T4 HO Trs0T4 Trr0T4]
  · isplitr; · iexact Irs0
    isplitr; · iexact Irr0T4
    isplitl [Q4]; · iexact Q4
    isplitl [Drr0T4]; · iexact Drr0T4
    isplitl [HO]; · iexact HO
    isplitl [Trs0T4]; · iexact Trs0T4
    isplitr; · iexact Rrs0
    isplitl [Trr0T4]; · iexact Trr0T4
    iexact Rrr0T4
  iintro ⟨Crs0T4, HO⟩
  sl_exec_parts
  -- the copy of chunk 5 to device 5
  ihave #Irr0T5 := (invsAll_at m K 5 (.rr 0 c)) $$ Hinv
  ihave #Rrr0T5 := (reached_at (F := F) 5 (.rr 0 c)) $$ Hreach
  iapply (wp_red_send m 𝒱₀ c 5 0 hne5 (K (rsCell c 0)) (K (rrCell 5 0 c)) (dev13_eq _) (pchunk_lit0_5 _ _) (slot_off12 c _ _)
      (congrArg SemLoc.dma (sem_rs0 _)) (congrArg SemLoc.dma (sem_off11 c _)) (restA c + tallyAt (rrCell 7 0 c) () N64 + tallyAt (rrCell 6 0 c) () N64) fd5)
    $$ [Q5 Drr0T5 HO Trs0T5 Trr0T5]
  · isplitr; · iexact Irs0
    isplitr; · iexact Irr0T5
    isplitl [Q5]; · iexact Q5
    isplitl [Drr0T5]; · iexact Drr0T5
    isplitl [HO]; · iexact HO
    isplitl [Trs0T5]; · iexact Trs0T5
    isplitr; · iexact Rrs0
    isplitl [Trr0T5]; · iexact Trr0T5
    iexact Rrr0T5
  iintro ⟨Crs0T5, HO⟩
  sl_exec_parts
  -- the copy of chunk 6 to device 6
  ihave #Irr0T6 := (invsAll_at m K 6 (.rr 0 c)) $$ Hinv
  ihave #Rrr0T6 := (reached_at (F := F) 6 (.rr 0 c)) $$ Hreach
  iapply (wp_red_send m 𝒱₀ c 6 0 hne6 (K (rsCell c 0)) (K (rrCell 6 0 c)) (dev14_eq _) (pchunk_lit0_6 _ _) (slot_off14 c _ _)
      (congrArg SemLoc.dma (sem_rs0 _)) (congrArg SemLoc.dma (sem_off13 c _)) (restA c + tallyAt (rrCell 7 0 c) () N64) fd6)
    $$ [Q6 Drr0T6 HO Trs0T6 Trr0T6]
  · isplitr; · iexact Irs0
    isplitr; · iexact Irr0T6
    isplitl [Q6]; · iexact Q6
    isplitl [Drr0T6]; · iexact Drr0T6
    isplitl [HO]; · iexact HO
    isplitl [Trs0T6]; · iexact Trs0T6
    isplitr; · iexact Rrs0
    isplitl [Trr0T6]; · iexact Trr0T6
    iexact Rrr0T6
  iintro ⟨Crs0T6, HO⟩
  sl_exec_parts
  -- the copy of chunk 7 to device 7
  ihave #Irr0T7 := (invsAll_at m K 7 (.rr 0 c)) $$ Hinv
  ihave #Rrr0T7 := (reached_at (F := F) 7 (.rr 0 c)) $$ Hreach
  iapply (wp_red_send m 𝒱₀ c 7 0 hne7 (K (rsCell c 0)) (K (rrCell 7 0 c)) (dev15_eq _) (pchunk_lit0_7 _ _) (slot_off16 c _ _)
      (congrArg SemLoc.dma (sem_rs0 _)) (congrArg SemLoc.dma (sem_off15 c _)) (restA c) fd7)
    $$ [Q7 Drr0T7 HO Trs0T7 Trr0T7]
  · isplitr; · iexact Irs0
    isplitr; · iexact Irr0T7
    isplitl [Q7]; · iexact Q7
    isplitl [Drr0T7]; · iexact Drr0T7
    isplitl [HO]; · iexact HO
    isplitl [Trs0T7]; · iexact Trs0T7
    isplitr; · iexact Rrs0
    isplitl [Trr0T7]; · iexact Trr0T7
    iexact Rrr0T7
  iintro ⟨Crs0T7, HO⟩
  ihave Q0 := (Entails.of_eq (congrArg (fun t => (piece c (pChunk 0 t) fullShare (Pfun m c) : sProp 𝕄)) hc.symm)) $$ Q0
  ihave P0own := (Entails.of_eq (pRows_eq c 0 c fullShare (Pfun m c)).symm) $$ Q0
  sl_exec_parts
  have eOwn : View.readAt (Elt F) (Memref.whole cc0_scratch0).view (Rect.unit (s := S3x512x256) (k0_off17 c) S1x64x256.size (k0_off17_inb c)).toLoadRect (Pfun m c)
      = chunkOf (P0 m c) c := read_P_chunk m c 0 c (k0_off17 c) (k0_off17_eq c) _
  have hv78 : segA1_sound0.sl.r m c = k0_pay2 (chunkOf (P0 m c) c) := by
    unfold segA1_sound0.sl.r
    exact congrArg k0_pay2 eOwn
  have hv2 : segA1_sound0.sl.v2 c = devWord c := rfl
  iapply (ret_intro _ Kt c)
  iapply (Entails.of_eq (congrArg (fun w => (Kt ⟨c, w, segA1_sound0.sl.r m c, segA1_sound0.sl.v81 c, segA1_sound0.sl.v82 c, 0#32⟩ : sProp 𝕄)) hv2.symm))
  ihave P0own := (Entails.of_eq (pRows_eq c 0 c fullShare (Pfun m c))) $$ P0own
  ihave X0 := (stg_of_whole c cc0_stg0_0 (argX m c) x0 hx0) $$ X0
  ihave X1 := (stg_of_whole c cc0_stg1_0 (argW m c 0) x1 hx1) $$ X1
  ihave X2 := (stg_of_whole c cc0_stg2_0 (argV m c 0) x2 hx2) $$ X2
  iapply Hk
  isplitr
  · isplitr; · iexact Hinv
    isplitr; · iexact Hreach
    iexact Hlev
  isplitr; · ipureintro; exact hv78
  isplitl [HO]; · iexists _; iexact HO
  isplitl [TGS0 TGR0]
  · iapply (zipF c _ _)
    isplitl [TGS0]; · iexact TGS0
    iexact TGR0
  isplitl [DG0]; · iexact DG0
  isplitl [Ars0 Arr0 Crr0]
  · iapply (posRed_intro c 0)
    isplitl [Ars0]; · iexact Ars0
    isplitl [Arr0]; · iexact Arr0
    iexact Crr0
  isplitl [Ags0]; · iapply (posGs_intro c 0); iexact Ags0
  isplitl [Agr0 Cgr0]
  · iapply (posGr_intro c 0)
    isplitl [Agr0]; · iexact Agr0
    iexact Cgr0
  isplitl [Crs0T1 Crs0T2 Crs0T3 Crs0T4 Crs0T5 Crs0T6 Crs0T7]
  · iapply (creds7 _)
    isplitl [Crs0T1]; · iexact Crs0T1
    isplitl [Crs0T2]; · iexact Crs0T2
    isplitl [Crs0T3]; · iexact Crs0T3
    isplitl [Crs0T4]; · iexact Crs0T4
    isplitl [Crs0T5]; · iexact Crs0T5
    isplitl [Crs0T6]; · iexact Crs0T6
    iexact Crs0T7
  isplitl [TS1 TR1 TGS1 TGR1 Ars1 Arr1 Crr1 Ags1 Agr1 Cgr1 D1]
  · iapply (layerRes1_intro c)
    isplitl [TS1 TR1 TGS1 TGR1]
    · isplitl [TS1 TR1]
      · iapply (zipT _ _)
        isplitl [TS1]; · iexact TS1
        iexact TR1
      iapply (zipF c _ _)
      isplitl [TGS1]; · iexact TGS1
      iexact TGR1
    isplitl [Ars1 Arr1 Crr1]
    · iapply (posRed_intro c 1)
      isplitl [Ars1]; · iexact Ars1
      isplitl [Arr1]; · iexact Arr1
      iexact Crr1
    isplitl [Ags1 Agr1 Cgr1]
    · isplitl [Ags1]; · iapply (posGs_intro c 1); iexact Ags1
      iapply (posGr_intro c 1)
      isplitl [Agr1]; · iexact Agr1
      iexact Cgr1
    iexact D1
  isplitl [TS2 TR2 Ars2 Arr2 Crr2 D2]
  · iapply (layerRes2_intro c)
    isplitl [TS2 TR2]
    · isplitl [TS2 TR2]
      · iapply (zipT _ _)
        isplitl [TS2]; · iexact TS2
        iexact TR2
      iempintro
    isplitl [Ars2 Arr2 Crr2]
    · iapply (posRed_intro c 2)
      isplitl [Ars2]; · iexact Ars2
      isplitl [Arr2]; · iexact Arr2
      iexact Crr2
    isplitr; · iempintro
    iexact D2
  isplitl [HPrest]; · iexact HPrest
  isplitl [P0own]; · iapply (ex_intro c (pChunk 0 c) (Pfun m c)); iexact P0own
  isplitl [P1s]; · iapply (Entails.of_eq (pLayerEx_def c 1)); iexact P1s
  isplitl [P2s]; · iapply (Entails.of_eq (pLayerEx_def c 2)); iexact P2s
  isplitl [SO0]; · iapply (ex_intro c (rSlot 0 c) fs); iexact SO0
  isplitl [SO1]; · iapply (ex_intro c (rSlot 1 c) fs); iexact SO1
  isplitl [SO2]; · iapply (ex_intro c (rSlot 2 c) fs); iexact SO2
  isplitl [GO0]; · iapply (ex_intro c (gChunk 0 c) fg); iexact GO0
  isplitl [GO1]; · iapply (ex_intro c (gChunk 1 c) fg); iexact GO1
  isplitl [GO2]; · iapply (gath2 c hc fg); iexact GO2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segA1_sound0' depends on axioms: [propext, Classical.choice, Quot.sound] -/
#guard_msgs in #print axioms segA1_sound0

end Cert.KernelProof

end
-- ==== Proof.K.Outro.lean ====
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.BodyMid

/-! The device's positions at the end of its body, put back together as the family over the kinds of cell that closing
    the cells reads: a cell whose round had duties stands after the round, a cell without duties where it started. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

universe u

variable {F : FTy → Type} [FloatOps F]
local notation "𝕄" => MT nD τ sig Unit (Elt F) ℕ UU ℕ
variable (m : (ℓ : Loc nD τ sig) → Buf (Elt F) ℓ)

section Congr
variable {M : Type u} [URA M]

/-- Two families that agree on the peers of `c` have the same conjunction over them, in whatever enumeration. -/
theorem peers_congr (c : Dev nD) (Y : (Dev nD → sProp M) → sProp M) (hY : ∀ Φ, bigSep (peers c) Φ = Y Φ) {Φ Ψ : Dev nD → sProp M}
    (h : ∀ s, s ≠ c → Φ s = Ψ s) : Y Φ = Y Ψ := by
  rw [← hY, ← hY]; exact bigSep_congr fun s hs => h s ((mem_peers c s).mp hs)

theorem kindsUsed_congr (c : Dev nD) (X : (Dev nD → sProp M) → sProp M) (hX : ∀ Φ, bigSep (peers c) Φ = X Φ) {Φ Ψ : CK → sProp M}
    (h_rs : ∀ l, Φ (.rs l) = Ψ (.rs l)) (h_rr : ∀ l s, s ≠ c → Φ (.rr l s) = Ψ (.rr l s))
    (h_gs : ∀ l : Fin 3, l.val < 2 → Φ (.gs l) = Ψ (.gs l)) (h_gr : ∀ (l : Fin 3) s, l.val < 2 → s ≠ c → Φ (.gr l s) = Ψ (.gr l s)) :
    kindsUsed c X Φ = kindsUsed c X Ψ := by
  unfold kindsUsed
  rw [h_rs 0, h_rs 1, h_rs 2, h_gs 0 (by decide), h_gs 1 (by decide),
    peers_congr c (alongB c) (alongB_eq c) (Φ := fun s => Φ (.rr 0 s)) (Ψ := fun s => Ψ (.rr 0 s)) (h_rr 0),
    peers_congr c (alongB c) (alongB_eq c) (Φ := fun s => Φ (.rr 1 s)) (Ψ := fun s => Ψ (.rr 1 s)) (h_rr 1),
    peers_congr c (alongB c) (alongB_eq c) (Φ := fun s => Φ (.rr 2 s)) (Ψ := fun s => Ψ (.rr 2 s)) (h_rr 2),
    peers_congr c X hX (Φ := fun s => Φ (.gr 0 s)) (Ψ := fun s => Ψ (.gr 0 s)) (fun s hs => h_gr 0 s (by decide) hs),
    peers_congr c X hX (Φ := fun s => Φ (.gr 1 s)) (Ψ := fun s => Ψ (.gr 1 s)) (fun s hs => h_gr 1 s (by decide) hs)]

theorem kindsUnused_congr (c : Dev nD) {Φ Ψ : CK → sProp M}
    (h_rr : ∀ l, Φ (.rr l c) = Ψ (.rr l c)) (h_gs : Φ (.gs 2) = Ψ (.gs 2))
    (h_gr : ∀ l : Fin 3, Φ (.gr l c) = Ψ (.gr l c)) (h_g2 : ∀ s, Φ (.gr 2 s) = Ψ (.gr 2 s)) :
    kindsUnused c Φ = kindsUnused c Ψ := by
  unfold kindsUnused
  rw [h_rr 0, h_rr 1, h_rr 2, h_gs, h_gr 0, h_gr 1, bigSep_congr (Φ := fun s => Φ (.gr 2 s)) (Ψ := fun s => Ψ (.gr 2 s)) fun s _ => h_g2 s]

end Congr

/-- The family of positions that closing the cells reads, grouped: the cells with duties after their round, the cells
    without duties at their start. -/
theorem pos_done_eq (c : Dev nD) (X : (Dev nD → sProp 𝕄) → sProp 𝕄) (hX : ∀ Φ, bigSep (peers c) Φ = X Φ) :
    bigSep ((Finset.univ : Finset CK).erase .bar)
        (fun k => (atPos ER (kcell c k) (if ((sched (F := F) m).duties (kcell c k) 0).Nonempty then 1 else 0) ∅ 0 : sProp 𝕄))
      = iprop(kindsUsed c X (fun k => (atPos ER (kcell c k) 1 ∅ 0 : sProp 𝕄)) ∗ posRest c) := by
  have hp : (peers c).Nonempty := by rw [← Finset.card_pos, card_peers]; decide
  have used : ∀ k, ((sched (F := F) m).duties (kcell c k) 0).Nonempty →
      (atPos ER (kcell c k) (if ((sched (F := F) m).duties (kcell c k) 0).Nonempty then 1 else 0) ∅ 0 : sProp 𝕄) = atPos ER (kcell c k) 1 ∅ 0 :=
    fun k h => by rw [if_pos h]
  have unused : ∀ k, (sched (F := F) m).duties (kcell c k) 0 = ∅ →
      (atPos ER (kcell c k) (if ((sched (F := F) m).duties (kcell c k) 0).Nonempty then 1 else 0) ∅ 0 : sProp 𝕄) = atPos ER (kcell c k) 0 ∅ 0 :=
    fun k h => by rw [if_neg (by rw [h]; exact Finset.not_nonempty_empty)]
  rw [kinds_rest_split c X hX]
  congr 1
  · refine kindsUsed_congr c X hX (fun l => used _ ?_) (fun l s hs => used _ ?_) (fun l hl => used _ ?_) (fun l s hl hs => used _ ?_)
    · show ((sched (F := F) m).duties (rsCell c l) 0).Nonempty; rw [duties_rs]; exact hp
    · show ((sched (F := F) m).duties (rrCell c l s) 0).Nonempty; rw [duties_rr m c l s hs]; exact Finset.singleton_nonempty s
    · show ((sched (F := F) m).duties (gsCell c l) 0).Nonempty; rw [duties_gs m c l hl]; exact hp
    · show ((sched (F := F) m).duties (grCell c l s) 0).Nonempty; rw [duties_gr m c l s hl hs]; exact Finset.singleton_nonempty s
  · refine kindsUnused_congr c (fun l => unused _ ?_) (unused _ ?_) (fun l => unused _ ?_) (fun s => unused _ ?_)
    · exact duties_rr_self m c l
    · exact duties_gs_last m c 2 (by decide)
    · exact duties_gr_none m c l c (fun h => h.2 rfl)
    · exact duties_gr_none m c 2 s (fun h => absurd h.1 (by decide))

/-- The positions the three layers leave and those never moved, as the family closing the cells reads. -/
theorem pos_outro (c : Dev nD) (Ts : List (Dev nD)) (hTs : peers c = Ts.toFinset) (hnd : Ts.Nodup) :
    iprop(posDoneRed c 0 ∗ posDoneRed c 1 ∗ posDoneRed c 2 ∗ posDoneGr c Ts 0 ∗ posDoneGr c Ts 1 ∗ posRest c)
      ⊢ bigSep ((Finset.univ : Finset CK).erase .bar)
        (fun k => (atPos ER (kcell c k) (if ((sched (F := F) m).duties (kcell c k) 0).Nonempty then 1 else 0) ∅ 0 : sProp 𝕄)) := by
  rw [pos_done_eq m c (bigSepL Ts) (fun Φ => bigSep_eq_bigSepL_of_eq Ts hTs hnd Φ)]
  unfold posDoneRed posDoneGr
  rw [if_pos (show (0 : Fin 3).val < 2 by decide), if_pos (show (1 : Fin 3).val < 2 by decide), if_neg (show ¬ (2 : Fin 3).val < 2 by decide)]
  show _ ⊢ iprop(((atPos ER (rsCell c 0) 1 ∅ 0 ∗ bigSepL (ringB c) (fun s => (atPos ER (rrCell c 0 s) 1 ∅ 0 : sProp 𝕄)))
      ∗ (atPos ER (rsCell c 1) 1 ∅ 0 ∗ bigSepL (ringB c) (fun s => (atPos ER (rrCell c 1 s) 1 ∅ 0 : sProp 𝕄)))
      ∗ (atPos ER (rsCell c 2) 1 ∅ 0 ∗ bigSepL (ringB c) (fun s => (atPos ER (rrCell c 2 s) 1 ∅ 0 : sProp 𝕄)))
      ∗ (atPos ER (gsCell c 0) 1 ∅ 0 ∗ bigSepL Ts (fun s => (atPos ER (grCell c 0 s) 1 ∅ 0 : sProp 𝕄)))
      ∗ (atPos ER (gsCell c 1) 1 ∅ 0 ∗ bigSepL Ts (fun s => (atPos ER (grCell c 1 s) 1 ∅ 0 : sProp 𝕄)))) ∗ posRest c)
  iintro ⟨⟨s0, r0, g0⟩, ⟨s1, r1, g1⟩, ⟨s2, r2, -⟩, q0, q1, Hr⟩
  iframe

/-- Closing all the transfer cells of a device from the positions the three layers leave. -/
theorem close_from_layers (K : GSem nD τ sig → ℕ) (c : Dev nD) (Ts : List (Dev nD)) (hTs : peers c = Ts.toFinset) (hnd : Ts.Nodup) :
    iprop(invsAll m K ∗ posDoneRed c 0 ∗ posDoneRed c 1 ∗ posDoneRed c 2 ∗ posDoneGr c Ts 0 ∗ posDoneGr c Ts 1 ∗ posRest c)
      ⊢ (iprop(|={Set.univ}=> bigSep ((Finset.univ : Finset CK).erase .bar) (fun k => (semVal (kcell c k) 0 : sProp 𝕄))) : sProp 𝕄) := by
  iintro ⟨#HI, H⟩
  iapply (close_all m K c)
  isplitl []; · iexact HI
  iapply (pos_outro m c Ts hTs hnd)
  iexact H

end Cert.KernelProof

end
-- ==== Proof.K.BodySegA2Lib.lean ====
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Outro
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! Tools for the second half of layer 0 on a device — the accumulation of what the seven peers sent, the store of the
    device's reduced rows, the seven gather sends and the waits for the layer's copies to have left —: the value read from
    a slot a copy has landed in, a piece's contents and shares, the buffers put back together, and the single steps of
    the protocol as they are taken on every device alike. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Tools -/

omit [FloatOps F] in
theorem a2_step_uncurry {P R G : sProp 𝕄} (h : P ⊢ iprop(R -∗ G)) : iprop(P ∗ R) ⊢ G := by
  iintro ⟨HP, HR⟩
  ihave H := (h) $$ HP
  iapply H
  iexact HR

theorem a2_bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- What the device still owes after layer 0's gather sends (`Ts` its peers by literal). -/
abbrev a2_rest (c : Dev nD) (Ts : List (Dev nD)) : CellTallies nD τ sig Unit := owesRedL c Ts 1 + owesRedL c Ts 2 + owesGatL c 1

/-- The load of a receive slot in which device `s`'s chunk of layer 0 has just landed reads `s`'s partial product on
    the reader's rows. -/
theorem a2_slot_landed_read (c s : Dev nD) (off : Fin 4 → Nat) (hoff : off = ![0, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 0 s).view.write (Elt F) fd ((pChunk 0 c).view.read (Elt F) (Pfun m s)) Finset.univ)
      = slotOf (P0 m s) c :=
  read_R_slot_landed m c s 0 off hoff inb _ fd (fun i _ => rfl)

/-- A piece held at contents that agree with `g` on it is the piece held at `g`. -/
theorem a2_piece_of_agree (c : Dev nD) {sp : Space} (M : Memref sig .tc sp S64x256 .bf16) (q : PosShare TreeShare)
    {f g : Buf (Elt F) (M.view.loc (c : Thread nD τ))} (h : ∀ i ∈ M.view.set, f i = g i) :
    (M.view.loc (c : Thread nD τ) ↦[M.view.set]{q} f : sProp 𝕄) ⊢ piece c M q g := Entails.of_eq (piece_congr c M q h)

/-- A piece held whole is the piece held at the eight shares, in the order of the ring from the device on. -/
theorem a2_piece_shares_ring (c : Dev nD) {sp : Space} (M : Memref sig .tc sp S64x256 .bf16) (f : Buf (Elt F) (M.view.loc (c : Thread nD τ))) :
    (piece c M fullShare f : sProp 𝕄) = iprop(piece c M (sh8 c) f ∗ piece c M (sh8 (fwd 1 c)) f ∗ piece c M (sh8 (fwd 2 c)) f
      ∗ piece c M (sh8 (fwd 3 c)) f ∗ piece c M (sh8 (fwd 4 c)) f ∗ piece c M (sh8 (fwd 5 c)) f ∗ piece c M (sh8 (fwd 6 c)) f
      ∗ piece c M (sh8 (fwd 7 c)) f) := by
  rw [piece_shares c M f, bigSep_ring c]

/-- A finished program yields its postcondition. -/
theorem a2_wp_ret_of {α : Type} (c : Dev nD) (a : α) (Q : α → sProp 𝕄) :
    Q a ⊢ wp frame (wpE (defs₀ (F := F)) Variants.none (c : Thread nD τ) none) Set.univ (Prog.ret a) Q := by
  rw [wp_ret]; exact fupd_intro

/-- A piece held is held at some contents. -/
theorem a2_ex_of_piece (c : Dev nD) (M : Memref sig .tc .vmem S64x256 .bf16) (f : Buf (Elt F) (M.view.loc (c : Thread nD τ))) :
    (M.view.loc (c : Thread nD τ) ↦[M.view.set]{fullShare} f : sProp 𝕄) ⊢ ex c M := by
  unfold ex piece; iintro H; iexists f; iexact H

/-- The partial-product buffer back whole: the device's own chunk of layer 0, the seven chunks the copies have left,
    and the two later layers. -/
theorem a2_scr0_back (c : Dev nD) :
    iprop(ex c (pChunk 0 c) ∗ bigSep (peers c) (fun t => rsPay m c 0 t)
      ∗ bigSep (Finset.univ : Finset (Dev nD)) (fun t => ex (F := F) c (pChunk 1 t))
      ∗ bigSep (Finset.univ : Finset (Dev nD)) (fun t => ex (F := F) c (pChunk 2 t))) ⊢ (scr c cc0_scratch0 : sProp 𝕄) := by
  have h0 : bigSep (peers c) (fun t => rsPay m c 0 t)
      ⊢ bigSep (peers c) (fun t => (iprop(∃ f, piece c (pChunk 0 t) fullShare f) : sProp 𝕄)) :=
    bigSep_mono fun t _ => piece_ex c (pChunk 0 t) fullShare (Pfun m c)
  refine BIBase.Entails.trans ?_ (scr0_of_pieces c)
  rw [bigSep_univ_prod, bigSep_fin3, bigSep_univ_at (fun t : Dev nD => (iprop(∃ f, piece c (pChunk 0 t) fullShare f) : sProp 𝕄)) c]
  unfold ex
  iintro ⟨H0, Hp, H1, H2⟩
  isplitl [H0 Hp]
  · isplitl [H0]; · iexact H0
    iapply h0; iexact Hp
  isplitl [H1]; · iexact H1
  iexact H2

/-- The device's reduced rows of layer 0 back whole: its own share and the seven the copies were lent. -/
theorem a2_gchunk0_back (c : Dev nD) :
    iprop(piece c (gChunk 0 c) (sh8 c) (Gfun m c) ∗ bigSep (peers c) (fun t => gsPay m c 0 t))
      ⊢ (piece c (gChunk 0 c) fullShare (Gfun m c) : sProp 𝕄) := by
  rw [piece_shares c (gChunk 0 c) (Gfun m c), bigSep_univ_at (fun t => piece c (gChunk 0 c) (sh8 t) (Gfun m c)) c]
  unfold gsPay
  exact .rfl

set_option hygiene false in
/-- One of the first six waits for a reduce copy of layer 0 to have left. -/
macro "a2_rs_wait " k:num cr:ident : tactic => `(tactic| (
  iapply (a2_step_uncurry (wp_rs_step m Variants.none c 0 (K (rsCell c 0)) $k (sem_rs0 _) (by rfl)))
  isplitl [$cr HO Wrs]
  · isplitl []; · iapply (invsAll_at m K c (.rs 0)); iexact HI
    isplitl [$cr]; · iexact $cr
    isplitl [HO]; · iexact HO
    isplitl []; · iapply (mayWait_rs (F := F) c 0 _ haboveR); iexact Hlev
    iexact Wrs
  iintro ⟨HO, Wrs⟩))

set_option hygiene false in
/-- One of the first six waits for a gather copy of layer 0 to have left. -/
macro "a2_gs_wait " k:num cr:ident : tactic => `(tactic| (
  iapply (a2_step_uncurry (wp_gs_step m Variants.none c 0 (K (gsCell c 0)) $k (sem_gs0 _) (by rfl)))
  isplitl [$cr HO Wgs]
  · isplitl []; · iapply (invsAll_at m K c (.gs 0)); iexact HI
    isplitl [$cr]; · iexact $cr
    isplitl [HO]; · iexact HO
    isplitl []; · iapply (mayWait_gs (F := F) c 0 _ haboveR); iexact Hlev
    iexact Wgs
  iintro ⟨HO, Wgs⟩))

set_option hygiene false in
/-- The gather send to the device `j` places after: a share of the device's reduced rows is lent, the peer's chunk given. -/
macro "a2_send " j:num deveq:ident tgs:ident tgr:ident dg:ident fd:ident sh:ident cr:ident : tactic => `(tactic| (
  iapply (a2_step_uncurry (wp_gat_send m Variants.none c (fwd $j c) 0 (by decide) (fwd_ne_nat $j (by decide) (by decide) c)
      (K (gsCell c 0)) (K (grCell (fwd $j c) 0 c)) ($deveq c _) (chunk_off22 c _ _) (chunk_off22 c _ _)
      (congrArg SemLoc.dma (sem_gs0 _)) (congrArg SemLoc.dma (sem_off21 c _)) _ rfl $fd))
  isplitl [$sh $dg HO $tgs $tgr]
  · isplitl []; · iapply (invsAll_at m K c (.gs 0)); iexact HI
    isplitl []; · iapply (invsAll_at m K (fwd $j c) (.gr 0 c)); iexact HI
    isplitl [$sh]; · iexact $sh
    isplitl [$dg]; · unfold piece; iexact $dg
    isplitl [HO]; · iexact HO
    isplitl [$tgs]; · iexact $tgs
    isplitl []; · iapply (reached_at (F := F) c (.gs 0)); iexact HR
    isplitl [$tgr]; · iexact $tgr
    iapply (reached_at (F := F) (fwd $j c) (.gr 0 c)); iexact HR
  iintro ⟨$cr:ident, HO⟩))

set_option hygiene false in
/-- The wait for the chunk of the device `j` places back: the slot comes back holding that device's partial product
    on the reader's rows, over whatever it held. -/
macro "a2_recv " j:num semeq:ident sloteq:ident a:ident cr:ident sl:ident : tactic => `(tactic| (
  iapply (a2_step_uncurry (wp_red_recv m Variants.none c (bwd $j c) 0 (bwd_ne_nat $j (by decide) (by decide) c) (K (rrCell c 0 (bwd $j c))) ($semeq c _)
      ((congrArg (fun M : Memref sig .tc .vmem S64x256 .bf16 => M.view.dmaCredit) ($sloteq c _ _)).trans (rSlot_amount 0 (bwd $j c) (rrS 0 (bwd $j c))))))
  isplitl [$cr HO $a]
  · isplitl []; · iapply (invsAll_at m K c (.rr 0 (bwd $j c))); iexact HI
    isplitl [$cr]; · iexact $cr
    isplitl [HO]; · iexact HO
    isplitl []; · iapply (mayWait_rr (F := F) c 0 (bwd $j c) _ habove); iexact Hlev
    iexact $a
  iintro ⟨HO, $a:ident, -, Hpay_⟩
  unfold rrPay piece
  icases Hpay_ with ⟨%fd_, $sl:ident⟩))

end Cert.KernelProof

end
-- ==== Proof.K.BodySegA2_d0.lean ====
import proofs.«900993_g7700000000000994_dist_mlpseq_tp1d_rep_bs_b512_d256_h512_v7x_i8_bf16_1_alg».proof.Proof.K.BodySegA2Lib

/-! The second half of layer 0 on device 0: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(1 : Dev nD), 2, 3, 4, 5, 6, 7] : List (Dev nD))

omit [FloatOps F] in
/-- Everything still owed after layer 0's gather sends is owed to cells above the level of the layer's send cells. -/
theorem above_a2_rest_d0 (c : Dev nD) : Above 3 (a2_rest c Ts) := by
  unfold a2_rest owesRedL owesGatL ringF
  simp only [List.map, List.sum_cons, List.sum_nil]
  owes_above

theorem segA2_sound0 (c : Dev nD) (hc : c = 0) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : ¬ k0_cond9 c = 1#1 := fun h => (cond9_iff c).mp h hc
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : ¬ Scalar.cmpi .ne (Scalar.extui (Scalar.cmpi .ne (Scalar.remsi (Scalar.divsi (Dev.word c) 1#32) 8#32) 0#32)) 0#32 = 1#1 := fun h => (condw0_iff c).mp h hc
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d0 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d0 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound0.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound0.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound0.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound0.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound0.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound0.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound0.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound0.sl.r_2 m c v78 a1 a2 a3 a4 a5) (segA2_sound0.sl.v171 m c a6) (segA2_sound0.sl.v187 m c a7) = red0 m c := by
    intro a1 a2 a3 a4 a5 a6 a7
    unfold segA2_sound0.sl.r_2 segA2_sound0.sl.r_1 segA2_sound0.sl.r
    rw [e91, e107, e123, e139, e155, e171, e187, hv]
    rfl
  have hG0 : ∀ g a1 a2 a3 a4 a5 a6 a7, ∀ i ∈ (gChunk 0 c).view.set, segA2_sound0.sl.G0c_w1 m c v78 g a1 a2 a3 a4 a5 a6 a7 i = Gfun m c i := by
    intro g a1 a2 a3 a4 a5 a6 a7 i hi
    unfold segA2_sound0.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelProof

end
-- ==== Proof.K.BodySegB1_d0.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegBCut
import Idealize.ShloMosaic.Lib.Tactic

/-! Layer 1 on device 0, first half: from the state between the layers to the point where the device has enqueued its
    seven reduce copies of layer 1 and read its own chunk.

    The device goes through the four groups of 128 rows in order. For a group it first waits for the rows of the first
    activation that the two devices owning them gathered into its buffer (its own rows it holds already): each wait is
    the one duty of a gather-receive cell of layer 0, and hands over the chunk holding the sender's reduced rows written
    over whatever it held — which is the activation on that chunk. The two chunks joined are the group the body loads;
    with the staged weights of layer 1 the body's own arithmetic makes the group of the layer's partial product, stored
    over rows of the partial-product buffer, where it agrees with the canonical partial product. Cut back into its two
    64-row chunks, each chunk is lent to the copy towards the device that reduces those rows: the copy pays duty `t` of
    the device's reduce-send cell and the one duty of the target's reduce-receive cell, settles what the device owed
    that cell, and earns the credit for a later wait on the send cell. The device's own chunk stays; it is read at the
    end, as the accumulation's first term. What is left is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [1, 2, 3, 4, 5, 6, 7]

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- Layer 1's resources, its reduce tokens and destinations listed. -/
private theorem layerRes1_eq (c : Dev nD) : layerRes (F := F) c Tsd 1 =
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1)
      ∗ (bigSepL Tsd (fun t => iprop(∃ fd, piece t (rSlot 1 c) fullShare fd))
        ∗ bigSepL (ringF c) (fun p => iprop(∃ fd, piece p (gChunk 1 c) fullShare fd)))) := by
  unfold layerRes layerToks layerDest
  rw [if_pos (by decide), if_pos (by decide), if_pos (by decide)]

/-- The debt with the next reduce arrival last. -/
private theorem debt_peel (c t : Dev nD) (ts : List (Dev nD)) (l : Fin 3) (A B : CellTallies nD τ sig Unit) :
    owesRedL c (t :: ts) l + A + B = (owesRedL c ts l + A + B) + tallyAt (rrCell t l c) () N64 := by
  unfold owesRedL
  rw [List.map_cons, List.sum_cons]
  abel

/-- Every cell is at round 0: one cell's fact. -/
private theorem reachedAll_at (c : Dev nD) (k : CK) : reachedAll (F := F) ⊢ (reached ER (kcell c k) 0 : sProp 𝕄) := by
  unfold reachedAll
  exact allAt (fun p : Dev nD × CK => (reached ER (kcell p.1 p.2) 0 : sProp 𝕄)) c k

/-- Two functions that agree on a group of 128 rows agree on its two chunks. -/
private theorem agree_chunks {α : Type} (l : Fin 3) (g : Fin 4) (t0 t1 : Dev nD) (h0 : t0.val = 2 * g.val) (h1 : t1.val = 2 * g.val + 1)
    (w g' : S3x512x256.Idx → α) (h : ∀ i ∈ (rectGrp l g).set, w i = g' i) :
    (∀ i ∈ (rectP l t0).set, w i = g' i) ∧ (∀ i ∈ (rectP l t1).set, w i = g' i) := by
  rw [rectGrp_eq l g t0 t1 h0 h1] at h
  exact ⟨fun i hi => h i (Finset.mem_union_left _ hi), fun i hi => h i (Finset.mem_union_right _ hi)⟩

/-- A chunk of the partial-product buffer at contents that agree on its rows. -/
private theorem pChunk_congr (c : Dev nD) (l : Fin 3) (t : Dev nD) (q : PosShare TreeShare)
    {f g : Buf (Elt F) ((c : Thread nD τ).loc cc0_scratch0)} (h : ∀ i ∈ (rectP l t).set, f i = g i) :
    (piece c (pChunk l t) q f : sProp 𝕄) = piece c (pChunk l t) q g :=
  piece_congr c (pChunk l t) q fun i hi => h i ((set_pChunk l t) ▸ hi)

/-- A stored group of layer 1's partial product agrees with the canonical partial products on the group's rows. -/
private theorem stored_P1 (c : Dev nD) (g : Fin 4) (f0 : Buf (Elt F) ((c : Thread nD τ).loc cc0_scratch0)) (R : Rect S3x512x256)
    (hR : R = rectGrp 1 g) (w : R.shape.Idx → Elt F .bf16) (w' : (rectGrp 1 g).shape.Idx → Elt F .bf16) (hw : HEq w w') (hw' : w' = P1grp m c g) :
    ∀ i ∈ (rectGrp 1 g).set, View.write (Elt F) ((Memref.whole cc0_scratch0).access R) f0 w Finset.univ i = Pfun m c i := by
  subst hR
  obtain rfl := eq_of_heq hw
  subst hw'
  intro i hi
  refine write_P1grp m c g f0 _ rfl (inb_grp 1 g) i ?_
  show i ∈ ((View.whole cc0_scratch0).slice (rectGrp 1 g)).set
  rw [View.set_slice_whole]
  exact hi

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

private theorem posGr0_eq (c : Dev nD) : posGr (F := F) c Tsd 0 =
    iprop((atPos ER (grCell c 0 1) 0 ∅ 0 ∗ cred (tallyAt (grCell c 0 1) () N64)) ∗ (atPos ER (grCell c 0 2) 0 ∅ 0 ∗ cred (tallyAt (grCell c 0 2) () N64))
      ∗ (atPos ER (grCell c 0 3) 0 ∅ 0 ∗ cred (tallyAt (grCell c 0 3) () N64)) ∗ (atPos ER (grCell c 0 4) 0 ∅ 0 ∗ cred (tallyAt (grCell c 0 4) () N64))
      ∗ (atPos ER (grCell c 0 5) 0 ∅ 0 ∗ cred (tallyAt (grCell c 0 5) () N64)) ∗ (atPos ER (grCell c 0 6) 0 ∅ 0 ∗ cred (tallyAt (grCell c 0 6) () N64))
      ∗ (atPos ER (grCell c 0 7) 0 ∅ 0 ∗ cred (tallyAt (grCell c 0 7) () N64))) := rfl

private theorem posDoneGr0_eq (c : Dev nD) : posDoneGr (F := F) c Tsd 0 =
    iprop(atPos ER (grCell c 0 1) 1 ∅ 0 ∗ atPos ER (grCell c 0 2) 1 ∅ 0 ∗ atPos ER (grCell c 0 3) 1 ∅ 0 ∗ atPos ER (grCell c 0 4) 1 ∅ 0
      ∗ atPos ER (grCell c 0 5) 1 ∅ 0 ∗ atPos ER (grCell c 0 6) 1 ∅ 0 ∗ atPos ER (grCell c 0 7) 1 ∅ 0) := rfl

private theorem chunksAll0_eq (c : Dev nD) : chunksAll (F := F) c Tsd 0 =
    iprop(ex c (gChunk 0 c) ∗ ex c (gChunk 0 1) ∗ ex c (gChunk 0 2) ∗ ex c (gChunk 0 3) ∗ ex c (gChunk 0 4) ∗ ex c (gChunk 0 5)
      ∗ ex c (gChunk 0 6) ∗ ex c (gChunk 0 7)) := rfl

private theorem creds7_eq (c : Dev nD) : bigSepL Tsd (fun _ => (cred (tallyAt (rsCell c 1) () N64) : sProp 𝕄)) =
    iprop(cred (tallyAt (rsCell c 1) () N64) ∗ cred (tallyAt (rsCell c 1) () N64) ∗ cred (tallyAt (rsCell c 1) () N64) ∗ cred (tallyAt (rsCell c 1) () N64)
      ∗ cred (tallyAt (rsCell c 1) () N64) ∗ cred (tallyAt (rsCell c 1) () N64) ∗ cred (tallyAt (rsCell c 1) () N64)) := rfl

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- The eight chunks of a layer of the partial-product buffer, each held at some contents. -/
private theorem slab_ex (c : Dev nD) (l : Fin 3) (f0 : Buf (Elt F) ((c : Thread nD τ).loc cc0_scratch0)) :
    iprop(piece c (pChunk l 0) fullShare f0 ∗ piece c (pChunk l 1) fullShare f0 ∗ piece c (pChunk l 2) fullShare f0 ∗ piece c (pChunk l 3) fullShare f0
        ∗ piece c (pChunk l 4) fullShare f0 ∗ piece c (pChunk l 5) fullShare f0 ∗ piece c (pChunk l 6) fullShare f0 ∗ piece c (pChunk l 7) fullShare f0)
      ⊢ (bigSep (Finset.univ : Finset (Dev nD)) (fun t => ex (F := F) c (pChunk l t)) : sProp 𝕄) := by
  rw [bigSep_dev8]
  iintro ⟨H0, H1, H2, H3, H4, H5, H6, H7⟩
  isplitl [H0]; · iapply (ex_intro c (pChunk l 0) f0); iexact H0
  isplitl [H1]; · iapply (ex_intro c (pChunk l 1) f0); iexact H1
  isplitl [H2]; · iapply (ex_intro c (pChunk l 2) f0); iexact H2
  isplitl [H3]; · iapply (ex_intro c (pChunk l 3) f0); iexact H3
  isplitl [H4]; · iapply (ex_intro c (pChunk l 4) f0); iexact H4
  isplitl [H5]; · iapply (ex_intro c (pChunk l 5) f0); iexact H5
  isplitl [H6]; · iapply (ex_intro c (pChunk l 6) f0); iexact H6
  iapply (ex_intro c (pChunk l 7) f0); iexact H7

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; trivial
  iapply (Entails.of_eq (congrArg (fun I => pointsTo ((c : Thread nD τ).loc b) I fullShare x) (View.set_whole b)))
  iexact H

/-- Nothing is owed for a layer whose reduce copies have all been enqueued. -/
private theorem debt_done (c : Dev nD) (l : Fin 3) (A B : CellTallies nD τ sig Unit) : owesRedL c [] l + A + B = A + B := by
  unfold owesRedL
  rw [List.map_nil, List.sum_nil, zero_add]

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

private theorem zero2 : (![0, 0] : Fin 2 → ℕ) = fun _ => 0 := by funext a; fin_cases a <;> rfl

/-- A landed chunk of the gather buffer holds the activation, whatever the chunk held before. -/
private theorem grPay_canon (c s : Dev nD) (l : Fin 3) : grPay m c l s ⊢ (piece c (gChunk l s) fullShare (Gfun m c) : sProp 𝕄) := by
  unfold grPay
  iintro ⟨%fd, H⟩
  iapply (Entails.of_eq (piece_congr c (gChunk l s) fullShare (land_gather m s c l fd)))
  iexact H

theorem segB1_sound0 (c : Dev nD) (hc : c = 0) (K : GSem nD τ sig → ℕ) (Kt : (Σ' (v463 : FVec F S64x256 .f32), BitVec 32) → sProp 𝕄) :
    iprop(mid1 m K c Tsd ∗ (∀ v466, midB m K c Tsd (k0_pay14 (chunkOf (P1 m c) c)) -∗ Kt ⟨k0_pay14 (chunkOf (P1 m c) c), v466⟩))
      ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hgw0 : ¬ Scalar.cmpi .ne (Scalar.extui (Scalar.cmpi .ne (devWord c) 0#32)) 0#32 = 1#1 := fun h => (condw0_iff c).mp h hc
  have hgw1 : Scalar.cmpi .ne (Scalar.extui (Scalar.cmpi .ne (devWord c) 1#32)) 0#32 = 1#1 := (condw1_iff c).mpr hne1
  have hgw2 : Scalar.cmpi .ne (Scalar.extui (Scalar.cmpi .ne (devWord c) 2#32)) 0#32 = 1#1 := (condw2_iff c).mpr hne2
  have hgw3 : Scalar.cmpi .ne (Scalar.extui (Scalar.cmpi .ne (devWord c) 3#32)) 0#32 = 1#1 := (condw3_iff c).mpr hne3
  have hgw4 : Scalar.cmpi .ne (Scalar.extui (Scalar.cmpi .ne (devWord c) 4#32)) 0#32 = 1#1 := (condw4_iff c).mpr hne4
  have hgw5 : Scalar.cmpi .ne (Scalar.extui (Scalar.cmpi .ne (devWord c) 5#32)) 0#32 = 1#1 := (condw5_iff c).mpr hne5
  have hgw6 : Scalar.cmpi .ne (Scalar.extui (Scalar.cmpi .ne (devWord c) 6#32)) 0#32 = 1#1 := (condw6_iff c).mpr hne6
  have hgw7 : Scalar.cmpi .ne (Scalar.extui (Scalar.cmpi .ne (devWord c) 7#32)) 0#32 = 1#1 := (condw7_iff c).mpr hne7
  have hg19 : ¬ k0_cond19 c = 1#1 := fun h => (cond19_iff c).mp h hc
  have hg20 : k0_cond20 c = 1#1 := (cond20_iff c).mpr hne1
  have hg23 : k0_cond23 c = 1#1 := (cond23_iff c).mpr hne2
  have hg24 : k0_cond24 c = 1#1 := (cond24_iff c).mpr hne3
  have hg27 : k0_cond27 c = 1#1 := (cond27_iff c).mpr hne4
  have hg28 : k0_cond28 c = 1#1 := (cond28_iff c).mpr hne5
  have hg31 : k0_cond31 c = 1#1 := (cond31_iff c).mpr hne6
  have hg32 : k0_cond32 c = 1#1 := (cond32_iff c).mpr hne7
  have hAbG0 : Above 4 (owesRedL c Tsd 1 + owesRedL c Tsd 2 + owesGatL c 1) := by
    unfold owesRedL owesGatL ringF
    simp only [List.map, List.sum_cons, List.sum_nil]
    owes_above
  have hAbG1 : Above 4 (owesRedL c [2, 3, 4, 5, 6, 7] 1 + owesRedL c Tsd 2 + owesGatL c 1) := by
    unfold owesRedL owesGatL ringF
    simp only [List.map, List.sum_cons, List.sum_nil]
    owes_above
  have hAbG2 : Above 4 (owesRedL c [4, 5, 6, 7] 1 + owesRedL c Tsd 2 + owesGatL c 1) := by
    unfold owesRedL owesGatL ringF
    simp only [List.map, List.sum_cons, List.sum_nil]
    owes_above
  have hAbG3 : Above 4 (owesRedL c [6, 7] 1 + owesRedL c Tsd 2 + owesGatL c 1) := by
    unfold owesRedL owesGatL ringF
    simp only [List.map, List.sum_cons, List.sum_nil]
    owes_above
  unfold mid1 midB stagedIn scr
  rw [layerRes1_eq, posGr0_eq, posDoneGr0_eq, chunksAll0_eq, creds7_eq]
  simp only [bigSepL7]
  iintro ⟨⟨⟨#Hinv, #Hreach, #Hlev⟩, ⟨%W, HO⟩, ⟨⟨⟨⟨Trs1T1, Trr1T1⟩, ⟨Trs1T2, Trr1T2⟩, ⟨Trs1T3, Trr1T3⟩, ⟨Trs1T4, Trr1T4⟩, ⟨Trs1T5, Trr1T5⟩, ⟨Trs1T6, Trr1T6⟩, ⟨Trs1T7, Trr1T7⟩⟩, GTok1⟩, PRed1, ⟨PGs1, PGr1⟩, ⟨⟨⟨%fd1, Drr1T1⟩, ⟨%fd2, Drr1T2⟩, ⟨%fd3, Drr1T3⟩, ⟨%fd4, Drr1T4⟩, ⟨%fd5, Drr1T5⟩, ⟨%fd6, Drr1T6⟩, ⟨%fd7, Drr1T7⟩⟩, GDest1⟩⟩, HL2, ⟨⟨Pgr0S1, Cgr0S1⟩, ⟨Pgr0S2, Cgr0S2⟩, ⟨Pgr0S3, Cgr0S3⟩, ⟨Pgr0S4, Cgr0S4⟩, ⟨Pgr0S5, Cgr0S5⟩, ⟨Pgr0S6, Cgr0S6⟩, ⟨Pgr0S7, Cgr0S7⟩⟩, HPD0, HPrest, ⟨%f0, S0⟩, HSB0, HR1c, HR2c, G0c, G1c, HCA2, ⟨X0, X1, X2, ⟨%x3, %hx3, X3⟩, ⟨%x4, %hx4, X4⟩, X5, X6⟩, H7⟩, Hk⟩
  ihave X3 := (whole_restate c cc0_stg3_0 x3) $$ X3
  ihave X4 := (whole_restate c cc0_stg4_0 x4) $$ X4
  sl_unfold [segB1]
  sl_exec_parts
  -- the wait for device 1's rows
  ihave #Igr0S1 := (invsAll_at m K c (.gr 0 1)) $$ Hinv
  ihave #Mgr0S1 := (mayWait_gr (F := F) c 0 1 (owesRedL c Tsd 1 + owesRedL c Tsd 2 + owesGatL c 1) hAbG0) $$ Hlev
  iapply (wp_gat_recv m 𝒱₀ c 1 0 (by decide) hne1.symm (K (grCell c 0 1)) (sem_gr0_1 _) (gChunk_credit 0 1)) $$ [Cgr0S1 HO Pgr0S1]
  · isplitr; · iexact Igr0S1
    isplitl [Cgr0S1]; · iexact Cgr0S1
    isplitl [HO]; · iexact HO
    isplitr; · iexact Mgr0S1
    iexact Pgr0S1
  iintro ⟨HO, Dgr0S1, #Rgr0S1, Ygr0S1⟩
  -- rows 0 … 127 of the first activation joined, and the same rows of layer 1's partial product
  ihave Ggr0S1 := (grPay_canon m c 1 0) $$ Ygr0S1
  ihave G0c := (Entails.of_eq (congrArg (fun t => (piece c (gChunk 0 t) fullShare (Gfun m c) : sProp 𝕄)) hc)) $$ G0c
  ihave S0 := (whole_restate c cc0_scratch0 f0) $$ S0
  ihave S0 := (whole0_split c fullShare f0) $$ S0
  ihave S0 := (Entails.of_eq (bigSep_layers_devs (fun a => piece c (pChunk a.1 a.2) fullShare f0))) $$ S0
  icases S0 with ⟨PL0, ⟨P1T0, P1T1, P1T2, P1T3, P1T4, P1T5, P1T6, P1T7⟩, PL2⟩
  ihave GG0 := (gGroup_join c 0 0 fullShare (Gfun m c) 0 1 rfl rfl) $$ [G0c Ggr0S1]
  · isplitl [G0c]; · iexact G0c
    iexact Ggr0S1
  ihave PG0 := (pGroup_join c 1 0 fullShare f0 0 1 rfl rfl) $$ [P1T0 P1T1]
  · isplitl [P1T0]; · iexact P1T0
    iexact P1T1
  sl_exec_parts
  -- the group stored is the canonical partial product on its rows; cut into its two chunks
  have e3 : View.readAt (Elt F) (Memref.whole cc0_stg3_0).view (Rect.unit (s := S256x512) ![0, 0] S256x512.size inb_S256x512_S256x512_0_0).toLoadRect x3 = argW m c 1 :=
    (Memref.readAt_unit_zero (Elt F) cc0_stg3_0 zero2 _ x3).trans hx3
  have e4 : View.readAt (Elt F) (Memref.whole cc0_stg4_0).view (Rect.unit (s := S512x256) ![0, 0] S512x256.size inb_S512x256_S512x256_0_0).toLoadRect x4 = argV m c 1 :=
    (Memref.readAt_unit_zero (Elt F) cc0_stg4_0 zero2 _ x4).trans hx4
  have eG0 : View.readAt (Elt F) (Memref.whole cc0_scratch2).view (Rect.unit (s := S3x512x256) ![0, 0, 0] S1x128x256.size inb_S3x512x256_S1x128x256_0_0_0).toLoadRect (Gfun m c)
      = groupOf (G0 m) 0 := read_G_group m c 0 0 ![0, 0, 0] rfl _
  have hval0 : k0_pay10 (segB1_sound0.sl.r_2 m c x3 x4) = P1grp m c 0 := by
    unfold segB1_sound0.sl.r_2
    rw [e3, e4, eG0]
    rfl
  have hw0 : ∀ i ∈ (rectGrp 1 0).set, segB1_sound0.sl.PG0_w1 m c f0 x3 x4 i = Pfun m c i :=
    stored_P1 m c 0 f0 _ rfl _ _ HEq.rfl hval0
  ihave PG0 := (pGroup_split c 1 0 fullShare _ 0 1 rfl rfl) $$ PG0
  icases PG0 with ⟨P1T0, P1T1⟩
  have hw0T := agree_chunks 1 0 0 1 rfl rfl _ _ hw0
  ihave P1T0 := (Entails.of_eq (pChunk_congr c 1 0 fullShare hw0T.1)) $$ P1T0
  ihave P1T1 := (Entails.of_eq (pChunk_congr c 1 1 fullShare hw0T.2)) $$ P1T1
  ihave #Irs1 := (invsAll_at m K c (.rs 1)) $$ Hinv
  ihave #Rrs1 := (reachedAll_at c (.rs 1)) $$ Hreach
  -- the copy of chunk 1 to device 1
  ihave #Irr1T1 := (invsAll_at m K 1 (.rr 1 c)) $$ Hinv
  ihave #Rrr1T1 := (reachedAll_at 1 (.rr 1 c)) $$ Hreach
  ihave HO := (Entails.of_eq (congrArg (fun o => owes (c : Thread nD τ) o _) (debt_peel c 1 [2, 3, 4, 5, 6, 7] 1 (owesRedL c Tsd 2) (owesGatL c 1)))) $$ HO
  iapply (wp_red_send m 𝒱₀ c 1 1 hne1 (K (rsCell c 1)) (K (rrCell 1 1 c)) (dev24_eq _) (pchunk_lit1_1 _ _) (slot_off34 c _ _)
      (congrArg SemLoc.dma (sem_rs1 _)) (congrArg SemLoc.dma (sem_off33 c _)) (owesRedL c [2, 3, 4, 5, 6, 7] 1 + owesRedL c Tsd 2 + owesGatL c 1) fd1)
    $$ [P1T1 Drr1T1 HO Trs1T1 Trr1T1]
  · isplitr; · iexact Irs1
    isplitr; · iexact Irr1T1
    isplitl [P1T1]; · iexact P1T1
    isplitl [Drr1T1]; · iexact Drr1T1
    isplitl [HO]; · iexact HO
    isplitl [Trs1T1]; · iexact Trs1T1
    isplitr; · iexact Rrs1
    isplitl [Trr1T1]; · iexact Trr1T1
    iexact Rrr1T1
  iintro ⟨Crs1T1, HO⟩
  sl_exec_parts
  -- the wait for device 2's rows
  ihave #Igr0S2 := (invsAll_at m K c (.gr 0 2)) $$ Hinv
  ihave #Mgr0S2 := (mayWait_gr (F := F) c 0 2 (owesRedL c [2, 3, 4, 5, 6, 7] 1 + owesRedL c Tsd 2 + owesGatL c 1) hAbG1) $$ Hlev
  iapply (wp_gat_recv m 𝒱₀ c 2 0 (by decide) hne2.symm (K (grCell c 0 2)) (sem_gr0_2 _) (gChunk_credit 0 2)) $$ [Cgr0S2 HO Pgr0S2]
  · isplitr; · iexact Igr0S2
    isplitl [Cgr0S2]; · iexact Cgr0S2
    isplitl [HO]; · iexact HO
    isplitr; · iexact Mgr0S2
    iexact Pgr0S2
  iintro ⟨HO, Dgr0S2, #Rgr0S2, Ygr0S2⟩
  sl_exec_parts
  -- the wait for device 3's rows
  ihave #Igr0S3 := (invsAll_at m K c (.gr 0 3)) $$ Hinv
  ihave #Mgr0S3 := (mayWait_gr (F := F) c 0 3 (owesRedL c [2, 3, 4, 5, 6, 7] 1 + owesRedL c Tsd 2 + owesGatL c 1) hAbG1) $$ Hlev
  iapply (wp_gat_recv m 𝒱₀ c 3 0 (by decide) hne3.symm (K (grCell c 0 3)) (sem_gr0_3 _) (gChunk_credit 0 3)) $$ [Cgr0S3 HO Pgr0S3]
  · isplitr; · iexact Igr0S3
    isplitl [Cgr0S3]; · iexact Cgr0S3
    isplitl [HO]; · iexact HO
    isplitr; · iexact Mgr0S3
    iexact Pgr0S3
  iintro ⟨HO, Dgr0S3, #Rgr0S3, Ygr0S3⟩
  -- rows 128 … 255 of the first activation joined, and the same rows of layer 1's partial product
  ihave Ggr0S2 := (grPay_canon m c 2 0) $$ Ygr0S2
  ihave Ggr0S3 := (grPay_canon m c 3 0) $$ Ygr0S3
  ihave GG1 := (gGroup_join c 0 1 fullShare (Gfun m c) 2 3 rfl rfl) $$ [Ggr0S2 Ggr0S3]
  · isplitl [Ggr0S2]; · iexact Ggr0S2
    iexact Ggr0S3
  ihave PG1 := (pGroup_join c 1 1 fullShare f0 2 3 rfl rfl) $$ [P1T2 P1T3]
  · isplitl [P1T2]; · iexact P1T2
    iexact P1T3
  sl_exec_parts
  -- the group stored is the canonical partial product on its rows; cut into its two chunks
  have eG1 : View.readAt (Elt F) (Memref.whole cc0_scratch2).view (Rect.unit (s := S3x512x256) ![0, 128, 0] S1x128x256.size inb_S3x512x256_S1x128x256_0_128_0).toLoadRect (Gfun m c)
      = groupOf (G0 m) 1 := read_G_group m c 0 1 ![0, 128, 0] rfl _
  have hw1 : ∀ i ∈ (rectGrp 1 1).set, segB1_sound0.sl.PG1_w1 m c f0 x3 x4 i = Pfun m c i :=
    stored_P1 m c 1 f0 _ rfl _ _ HEq.rfl (by
      unfold segB1_sound0.sl.r segB1_sound0.sl.r_1
      rw [e3, e4, eG1]
      rfl)
  ihave PG1 := (pGroup_split c 1 1 fullShare _ 2 3 rfl rfl) $$ PG1
  icases PG1 with ⟨P1T2, P1T3⟩
  have hw1T := agree_chunks 1 1 2 3 rfl rfl _ _ hw1
  ihave P1T2 := (Entails.of_eq (pChunk_congr c 1 2 fullShare hw1T.1)) $$ P1T2
  ihave P1T3 := (Entails.of_eq (pChunk_congr c 1 3 fullShare hw1T.2)) $$ P1T3
  -- the copy of chunk 2 to device 2
  ihave #Irr1T2 := (invsAll_at m K 2 (.rr 1 c)) $$ Hinv
  ihave #Rrr1T2 := (reachedAll_at 2 (.rr 1 c)) $$ Hreach
  ihave HO := (Entails.of_eq (congrArg (fun o => owes (c : Thread nD τ) o _) (debt_peel c 2 [3, 4, 5, 6, 7] 1 (owesRedL c Tsd 2) (owesGatL c 1)))) $$ HO
  iapply (wp_red_send m 𝒱₀ c 2 1 hne2 (K (rsCell c 1)) (K (rrCell 2 1 c)) (dev25_eq _) (pchunk_lit1_2 _ _) (slot_off36 c _ _)
      (congrArg SemLoc.dma (sem_rs1 _)) (congrArg SemLoc.dma (sem_off35 c _)) (owesRedL c [3, 4, 5, 6, 7] 1 + owesRedL c Tsd 2 + owesGatL c 1) fd2)
    $$ [P1T2 Drr1T2 HO Trs1T2 Trr1T2]
  · isplitr; · iexact Irs1
    isplitr; · iexact Irr1T2
    isplitl [P1T2]; · iexact P1T2
    isplitl [Drr1T2]; · iexact Drr1T2
    isplitl [HO]; · iexact HO
    isplitl [Trs1T2]; · iexact Trs1T2
    isplitr; · iexact Rrs1
    isplitl [Trr1T2]; · iexact Trr1T2
    iexact Rrr1T2
  iintro ⟨Crs1T2, HO⟩
  sl_exec_parts
  -- the copy of chunk 3 to device 3
  ihave #Irr1T3 := (invsAll_at m K 3 (.rr 1 c)) $$ Hinv
  ihave #Rrr1T3 := (reachedAll_at 3 (.rr 1 c)) $$ Hreach
  ihave HO := (Entails.of_eq (congrArg (fun o => owes (c : Thread nD τ) o _) (debt_peel c 3 [4, 5, 6, 7] 1 (owesRedL c Tsd 2) (owesGatL c 1)))) $$ HO
  iapply (wp_red_send m 𝒱₀ c 3 1 hne3 (K (rsCell c 1)) (K (rrCell 3 1 c)) (dev26_eq _) (pchunk_lit1_3 _ _) (slot_off38 c _ _)
      (congrArg SemLoc.dma (sem_rs1 _)) (congrArg SemLoc.dma (sem_off37 c _)) (owesRedL c [4, 5, 6, 7] 1 + owesRedL c Tsd 2 + owesGatL c 1) fd3)
    $$ [P1T3 Drr1T3 HO Trs1T3 Trr1T3]
  · isplitr; · iexact Irs1
    isplitr; · iexact Irr1T3
    isplitl [P1T3]; · iexact P1T3
    isplitl [Drr1T3]; · iexact Drr1T3
    isplitl [HO]; · iexact HO
    isplitl [Trs1T3]; · iexact Trs1T3
    isplitr; · iexact Rrs1
    isplitl [Trr1T3]; · iexact Trr1T3
    iexact Rrr1T3
  iintro ⟨Crs1T3, HO⟩
  sl_exec_parts
  -- the wait for device 4's rows
  ihave #Igr0S4 := (invsAll_at m K c (.gr 0 4)) $$ Hinv
  ihave #Mgr0S4 := (mayWait_gr (F := F) c 0 4 (owesRedL c [4, 5, 6, 7] 1 + owesRedL c Tsd 2 + owesGatL c 1) hAbG2) $$ Hlev
  iapply (wp_gat_recv m 𝒱₀ c 4 0 (by decide) hne4.symm (K (grCell c 0 4)) (sem_gr0_4 _) (gChunk_credit 0 4)) $$ [Cgr0S4 HO Pgr0S4]
  · isplitr; · iexact Igr0S4
    isplitl [Cgr0S4]; · iexact Cgr0S4
    isplitl [HO]; · iexact HO
    isplitr; · iexact Mgr0S4
    iexact Pgr0S4
  iintro ⟨HO, Dgr0S4, #Rgr0S4, Ygr0S4⟩
  sl_exec_parts
  -- the wait for device 5's rows
  ihave #Igr0S5 := (invsAll_at m K c (.gr 0 5)) $$ Hinv
  ihave #Mgr0S5 := (mayWait_gr (F := F) c 0 5 (owesRedL c [4, 5, 6, 7] 1 + owesRedL c Tsd 2 + owesGatL c 1) hAbG2) $$ Hlev
  iapply (wp_gat_recv m 𝒱₀ c 5 0 (by decide) hne5.symm (K (grCell c 0 5)) (sem_gr0_5 _) (gChunk_credit 0 5)) $$ [Cgr0S5 HO Pgr0S5]
  · isplitr; · iexact Igr0S5
    isplitl [Cgr0S5]; · iexact Cgr0S5
    isplitl [HO]; · iexact HO
    isplitr; · iexact Mgr0S5
    iexact Pgr0S5
  iintro ⟨HO, Dgr0S5, #Rgr0S5, Ygr0S5⟩
  -- rows 256 … 383 of the first activation joined, and the same rows of layer 1's partial product
  ihave Ggr0S4 := (grPay_canon m c 4 0) $$ Ygr0S4
  ihave Ggr0S5 := (grPay_canon m c 5 0) $$ Ygr0S5
  ihave GG2 := (gGroup_join c 0 2 fullShare (Gfun m c) 4 5 rfl rfl) $$ [Ggr0S4 Ggr0S5]
  · isplitl [Ggr0S4]; · iexact Ggr0S4
    iexact Ggr0S5
  ihave PG2 := (pGroup_join c 1 2 fullShare f0 4 5 rfl rfl) $$ [P1T4 P1T5]
  · isplitl [P1T4]; · iexact P1T4
    iexact P1T5
  sl_exec_parts
  -- the group stored is the canonical partial product on its rows; cut into its two chunks
  have eG2 : View.readAt (Elt F) (Memref.whole cc0_scratch2).view (Rect.unit (s := S3x512x256) ![0, 256, 0] S1x128x256.size inb_S3x512x256_S1x128x256_0_256_0).toLoadRect (Gfun m c)
      = groupOf (G0 m) 2 := read_G_group m c 0 2 ![0, 256, 0] rfl _
  have hw2 : ∀ i ∈ (rectGrp 1 2).set, segB1_sound0.sl.PG2_w1 m c f0 x3 x4 i = Pfun m c i :=
    stored_P1 m c 2 f0 _ rfl _ _ HEq.rfl (by
      unfold segB1_sound0.sl.r segB1_sound0.sl.r_1
      rw [e3, e4, eG2]
      rfl)
  ihave PG2 := (pGroup_split c 1 2 fullShare _ 4 5 rfl rfl) $$ PG2
  icases PG2 with ⟨P1T4, P1T5⟩
  have hw2T := agree_chunks 1 2 4 5 rfl rfl _ _ hw2
  ihave P1T4 := (Entails.of_eq (pChunk_congr c 1 4 fullShare hw2T.1)) $$ P1T4
  ihave P1T5 := (Entails.of_eq (pChunk_congr c 1 5 fullShare hw2T.2)) $$ P1T5
  -- the copy of chunk 4 to device 4
  ihave #Irr1T4 := (invsAll_at m K 4 (.rr 1 c)) $$ Hinv
  ihave #Rrr1T4 := (reachedAll_at 4 (.rr 1 c)) $$ Hreach
  ihave HO := (Entails.of_eq (congrArg (fun o => owes (c : Thread nD τ) o _) (debt_peel c 4 [5, 6, 7] 1 (owesRedL c Tsd 2) (owesGatL c 1)))) $$ HO
  iapply (wp_red_send m 𝒱₀ c 4 1 hne4 (K (rsCell c 1)) (K (rrCell 4 1 c)) (dev27_eq _) (pchunk_lit1_4 _ _) (slot_off40 c _ _)
      (congrArg SemLoc.dma (sem_rs1 _)) (congrArg SemLoc.dma (sem_off39 c _)) (owesRedL c [5, 6, 7] 1 + owesRedL c Tsd 2 + owesGatL c 1) fd4)
    $$ [P1T4 Drr1T4 HO Trs1T4 Trr1T4]
  · isplitr; · iexact Irs1
    isplitr; · iexact Irr1T4
    isplitl [P1T4]; · iexact P1T4
    isplitl [Drr1T4]; · iexact Drr1T4
    isplitl [HO]; · iexact HO
    isplitl [Trs1T4]; · iexact Trs1T4
    isplitr; · iexact Rrs1
    isplitl [Trr1T4]; · iexact Trr1T4
    iexact Rrr1T4
  iintro ⟨Crs1T4, HO⟩
  sl_exec_parts
  -- the copy of chunk 5 to device 5
  ihave #Irr1T5 := (invsAll_at m K 5 (.rr 1 c)) $$ Hinv
  ihave #Rrr1T5 := (reachedAll_at 5 (.rr 1 c)) $$ Hreach
  ihave HO := (Entails.of_eq (congrArg (fun o => owes (c : Thread nD τ) o _) (debt_peel c 5 [6, 7] 1 (owesRedL c Tsd 2) (owesGatL c 1)))) $$ HO
  iapply (wp_red_send m 𝒱₀ c 5 1 hne5 (K (rsCell c 1)) (K (rrCell 5 1 c)) (dev28_eq _) (pchunk_lit1_5 _ _) (slot_off42 c _ _)
      (congrArg SemLoc.dma (sem_rs1 _)) (congrArg SemLoc.dma (sem_off41 c _)) (owesRedL c [6, 7] 1 + owesRedL c Tsd 2 + owesGatL c 1) fd5)
    $$ [P1T5 Drr1T5 HO Trs1T5 Trr1T5]
  · isplitr; · iexact Irs1
    isplitr; · iexact Irr1T5
    isplitl [P1T5]; · iexact P1T5
    isplitl [Drr1T5]; · iexact Drr1T5
    isplitl [HO]; · iexact HO
    isplitl [Trs1T5]; · iexact Trs1T5
    isplitr; · iexact Rrs1
    isplitl [Trr1T5]; · iexact Trr1T5
    iexact Rrr1T5
  iintro ⟨Crs1T5, HO⟩
  sl_exec_parts
  -- the wait for device 6's rows
  ihave #Igr0S6 := (invsAll_at m K c (.gr 0 6)) $$ Hinv
  ihave #Mgr0S6 := (mayWait_gr (F := F) c 0 6 (owesRedL c [6, 7] 1 + owesRedL c Tsd 2 + owesGatL c 1) hAbG3) $$ Hlev
  iapply (wp_gat_recv m 𝒱₀ c 6 0 (by decide) hne6.symm (K (grCell c 0 6)) (sem_gr0_6 _) (gChunk_credit 0 6)) $$ [Cgr0S6 HO Pgr0S6]
  · isplitr; · iexact Igr0S6
    isplitl [Cgr0S6]; · iexact Cgr0S6
    isplitl [HO]; · iexact HO
    isplitr; · iexact Mgr0S6
    iexact Pgr0S6
  iintro ⟨HO, Dgr0S6, #Rgr0S6, Ygr0S6⟩
  sl_exec_parts
  -- the wait for device 7's rows
  ihave #Igr0S7 := (invsAll_at m K c (.gr 0 7)) $$ Hinv
  ihave #Mgr0S7 := (mayWait_gr (F := F) c 0 7 (owesRedL c [6, 7] 1 + owesRedL c Tsd 2 + owesGatL c 1) hAbG3) $$ Hlev
  iapply (wp_gat_recv m 𝒱₀ c 7 0 (by decide) hne7.symm (K (grCell c 0 7)) (sem_gr0_7 _) (gChunk_credit 0 7)) $$ [Cgr0S7 HO Pgr0S7]
  · isplitr; · iexact Igr0S7
    isplitl [Cgr0S7]; · iexact Cgr0S7
    isplitl [HO]; · iexact HO
    isplitr; · iexact Mgr0S7
    iexact Pgr0S7
  iintro ⟨HO, Dgr0S7, #Rgr0S7, Ygr0S7⟩
  -- rows 384 … 511 of the first activation joined, and the same rows of layer 1's partial product
  ihave Ggr0S6 := (grPay_canon m c 6 0) $$ Ygr0S6
  ihave Ggr0S7 := (grPay_canon m c 7 0) $$ Ygr0S7
  ihave GG3 := (gGroup_join c 0 3 fullShare (Gfun m c) 6 7 rfl rfl) $$ [Ggr0S6 Ggr0S7]
  · isplitl [Ggr0S6]; · iexact Ggr0S6
    iexact Ggr0S7
  ihave PG3 := (pGroup_join c 1 3 fullShare f0 6 7 rfl rfl) $$ [P1T6 P1T7]
  · isplitl [P1T6]; · iexact P1T6
    iexact P1T7
  sl_exec_parts
  -- the group stored is the canonical partial product on its rows; cut into its two chunks
  have eG3 : View.readAt (Elt F) (Memref.whole cc0_scratch2).view (Rect.unit (s := S3x512x256) ![0, 384, 0] S1x128x256.size inb_S3x512x256_S1x128x256_0_384_0).toLoadRect (Gfun m c)
      = groupOf (G0 m) 3 := read_G_group m c 0 3 ![0, 384, 0] rfl _
  have hw3 : ∀ i ∈ (rectGrp 1 3).set, segB1_sound0.sl.PG3_w1 m c f0 x3 x4 i = Pfun m c i :=
    stored_P1 m c 3 f0 _ rfl _ _ HEq.rfl (by
      unfold segB1_sound0.sl.r segB1_sound0.sl.r_1
      rw [e3, e4, eG3]
      rfl)
  ihave PG3 := (pGroup_split c 1 3 fullShare _ 6 7 rfl rfl) $$ PG3
  icases PG3 with ⟨P1T6, P1T7⟩
  have hw3T := agree_chunks 1 3 6 7 rfl rfl _ _ hw3
  ihave P1T6 := (Entails.of_eq (pChunk_congr c 1 6 fullShare hw3T.1)) $$ P1T6
  ihave P1T7 := (Entails.of_eq (pChunk_congr c 1 7 fullShare hw3T.2)) $$ P1T7
  -- the copy of chunk 6 to device 6
  ihave #Irr1T6 := (invsAll_at m K 6 (.rr 1 c)) $$ Hinv
  ihave #Rrr1T6 := (reachedAll_at 6 (.rr 1 c)) $$ Hreach
  ihave HO := (Entails.of_eq (congrArg (fun o => owes (c : Thread nD τ) o _) (debt_peel c 6 [7] 1 (owesRedL c Tsd 2) (owesGatL c 1)))) $$ HO
  iapply (wp_red_send m 𝒱₀ c 6 1 hne6 (K (rsCell c 1)) (K (rrCell 6 1 c)) (dev29_eq _) (pchunk_lit1_6 _ _) (slot_off44 c _ _)
      (congrArg SemLoc.dma (sem_rs1 _)) (congrArg SemLoc.dma (sem_off43 c _)) (owesRedL c [7] 1 + owesRedL c Tsd 2 + owesGatL c 1) fd6)
    $$ [P1T6 Drr1T6 HO Trs1T6 Trr1T6]
  · isplitr; · iexact Irs1
    isplitr; · iexact Irr1T6
    isplitl [P1T6]; · iexact P1T6
    isplitl [Drr1T6]; · iexact Drr1T6
    isplitl [HO]; · iexact HO
    isplitl [Trs1T6]; · iexact Trs1T6
    isplitr; · iexact Rrs1
    isplitl [Trr1T6]; · iexact Trr1T6
    iexact Rrr1T6
  iintro ⟨Crs1T6, HO⟩
  sl_exec_parts
  -- the copy of chunk 7 to device 7
  ihave #Irr1T7 := (invsAll_at m K 7 (.rr 1 c)) $$ Hinv
  ihave #Rrr1T7 := (reachedAll_at 7 (.rr 1 c)) $$ Hreach
  ihave HO := (Entails.of_eq (congrArg (fun o => owes (c : Thread nD τ) o _) (debt_peel c 7 [] 1 (owesRedL c Tsd 2) (owesGatL c 1)))) $$ HO
  iapply (wp_red_send m 𝒱₀ c 7 1 hne7 (K (rsCell c 1)) (K (rrCell 7 1 c)) (dev30_eq _) (pchunk_lit1_7 _ _) (slot_off46 c _ _)
      (congrArg SemLoc.dma (sem_rs1 _)) (congrArg SemLoc.dma (sem_off45 c _)) (owesRedL c [] 1 + owesRedL c Tsd 2 + owesGatL c 1) fd7)
    $$ [P1T7 Drr1T7 HO Trs1T7 Trr1T7]
  · isplitr; · iexact Irs1
    isplitr; · iexact Irr1T7
    isplitl [P1T7]; · iexact P1T7
    isplitl [Drr1T7]; · iexact Drr1T7
    isplitl [HO]; · iexact HO
    isplitl [Trs1T7]; · iexact Trs1T7
    isplitr; · iexact Rrs1
    isplitl [Trr1T7]; · iexact Trr1T7
    iexact Rrr1T7
  iintro ⟨Crs1T7, HO⟩
  ihave P1T0 := (Entails.of_eq (congrArg (fun t => (piece c (pChunk 1 t) fullShare (Pfun m c) : sProp 𝕄)) hc.symm)) $$ P1T0
  ihave P1own := (Entails.of_eq (pRows_eq c 1 c fullShare (Pfun m c)).symm) $$ P1T0
  sl_exec_parts
  have eOwn : View.readAt (Elt F) (Memref.whole cc0_scratch0).view (Rect.unit (s := S3x512x256) (k0_off47 c) S1x64x256.size (k0_off47_inb c)).toLoadRect (Pfun m c)
      = chunkOf (P1 m c) c := read_P_chunk m c 1 c (k0_off47 c) (k0_off47_eq c) _
  iapply (ret_intro _ Kt c)
  iapply (Entails.of_eq (congrArg (fun x => (Kt ⟨k0_pay14 x, segB1_sound0.sl.v466 c⟩ : sProp 𝕄)) eOwn.symm))
  ihave GG0 := (gGroup_split c 0 0 fullShare (Gfun m c) 0 1 rfl rfl) $$ GG0
  icases GG0 with ⟨G0T0, G0T1⟩
  ihave GG1 := (gGroup_split c 0 1 fullShare (Gfun m c) 2 3 rfl rfl) $$ GG1
  icases GG1 with ⟨G0T2, G0T3⟩
  ihave GG2 := (gGroup_split c 0 2 fullShare (Gfun m c) 4 5 rfl rfl) $$ GG2
  icases GG2 with ⟨G0T4, G0T5⟩
  ihave GG3 := (gGroup_split c 0 3 fullShare (Gfun m c) 6 7 rfl rfl) $$ GG3
  icases GG3 with ⟨G0T6, G0T7⟩
  ihave G0T0 := (Entails.of_eq (congrArg (fun t => (piece c (gChunk 0 t) fullShare (Gfun m c) : sProp 𝕄)) hc.symm)) $$ G0T0
  ihave P1own := (Entails.of_eq (pRows_eq c 1 c fullShare (Pfun m c))) $$ P1own
  ihave X3 := (stg_of_whole c cc0_stg3_0 (argW m c 1) x3 hx3) $$ X3
  ihave X4 := (stg_of_whole c cc0_stg4_0 (argV m c 1) x4 hx4) $$ X4
  ihave HO := (Entails.of_eq (congrArg (fun o => owes (c : Thread nD τ) o _) (debt_done c 1 (owesRedL c Tsd 2) (owesGatL c 1)))) $$ HO
  iapply Hk
  isplitr
  · isplitr; · iexact Hinv
    isplitr; · iexact Hreach
    iexact Hlev
  isplitr; · ipureintro; trivial
  isplitl [HO]; · iexists _; iexact HO
  isplitl [GTok1]; · iexact GTok1
  isplitl [GDest1]; · iexact GDest1
  isplitl [PRed1]; · iexact PRed1
  isplitl [PGs1]; · iexact PGs1
  isplitl [PGr1]; · iexact PGr1
  isplitl [Crs1T1 Crs1T2 Crs1T3 Crs1T4 Crs1T5 Crs1T6 Crs1T7]
  · isplitl [Crs1T1]; · iexact Crs1T1
    isplitl [Crs1T2]; · iexact Crs1T2
    isplitl [Crs1T3]; · iexact Crs1T3
    isplitl [Crs1T4]; · iexact Crs1T4
    isplitl [Crs1T5]; · iexact Crs1T5
    isplitl [Crs1T6]; · iexact Crs1T6
    iexact Crs1T7
  isplitl [HL2]; · iexact HL2
  isplitl [HPD0]; · iexact HPD0
  isplitl [Dgr0S1 Dgr0S2 Dgr0S3 Dgr0S4 Dgr0S5 Dgr0S6 Dgr0S7]
  · isplitl [Dgr0S1]; · iexact Dgr0S1
    isplitl [Dgr0S2]; · iexact Dgr0S2
    isplitl [Dgr0S3]; · iexact Dgr0S3
    isplitl [Dgr0S4]; · iexact Dgr0S4
    isplitl [Dgr0S5]; · iexact Dgr0S5
    isplitl [Dgr0S6]; · iexact Dgr0S6
    iexact Dgr0S7
  isplitl [HPrest]; · iexact HPrest
  isplitl [PL0]; · iapply (slab_ex c 0 f0); iexact PL0
  isplitl [P1own]; · iapply (ex_intro c (pChunk 1 c) (Pfun m c)); iexact P1own
  isplitl [PL2]; · iapply (slab_ex c 2 f0); iexact PL2
  isplitl [HSB0]; · iexact HSB0
  isplitl [HR1c]; · iexact HR1c
  isplitl [HR2c]; · iexact HR2c
  isplitl [G0T0 G0T1 G0T2 G0T3 G0T4 G0T5 G0T6 G0T7]
  · isplitl [G0T0]; · iapply (ex_intro c (gChunk 0 c) (Gfun m c)); iexact G0T0
    isplitl [G0T1]; · iapply (ex_intro c (gChunk 0 1) (Gfun m c)); iexact G0T1
    isplitl [G0T2]; · iapply (ex_intro c (gChunk 0 2) (Gfun m c)); iexact G0T2
    isplitl [G0T3]; · iapply (ex_intro c (gChunk 0 3) (Gfun m c)); iexact G0T3
    isplitl [G0T4]; · iapply (ex_intro c (gChunk 0 4) (Gfun m c)); iexact G0T4
    isplitl [G0T5]; · iapply (ex_intro c (gChunk 0 5) (Gfun m c)); iexact G0T5
    isplitl [G0T6]; · iapply (ex_intro c (gChunk 0 6) (Gfun m c)); iexact G0T6
    iapply (ex_intro c (gChunk 0 7) (Gfun m c)); iexact G0T7
  isplitl [G1c]; · iexact G1c
  isplitl [HCA2]; · iexact HCA2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segB1_sound0' depends on axioms: [propext, Classical.choice, Quot.sound] -/
#guard_msgs in #print axioms segB1_sound0

end Cert.KernelProof

end
-- ==== Proof.K.BodySegB2_d0.lean ====
import proofs.«900993_g7700000000000994_dist_mlpseq_tp1d_rep_bs_b512_d256_h512_v7x_i8_bf16_1_alg».proof.Proof.K.BodySegBCut
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 1 on the device at position 0: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound0 (c : Dev nD) (hc : c = 0) (K : GSem nD τ sig → ℕ) (Kt : PUnit → sProp 𝕄) (v463 : FVec F S64x256 .f32) (v466 : BitVec 32) :
    iprop(midB m K c [(1 : Dev nD), 2, 3, 4, 5, 6, 7] v463 ∗ (mid2 m K c [(1 : Dev nD), 2, 3, 4, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : ¬ k0_cond33 c = 1#1 := fun h => (cond33_iff c).mp h hc
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(1 : Dev nD), 2, 3, 4, 5, 6, 7] 2) := by
    unfold owesRedL
    simp only [List.map_cons, List.map_nil, List.sum_cons, List.sum_nil]
    owes_above
  have hdebt : owesRedL c [(1 : Dev nD), 2, 3, 4, 5, 6, 7] 2 + owesGatL c 1
      = owesRedL c [(1 : Dev nD), 2, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(1 : Dev nD), 2, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound0.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound0.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound0.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound0.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound0.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound0.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound0.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound0.sl.r_2 m c a1 a2 a3 a4 a5 a6) (segB2_sound0.sl.v572 m c a7) = red1 m c := by
    intro a1 a2 a3 a4 a5 a6 a7
    unfold segB2_sound0.sl.r_2 segB2_sound0.sl.r_1 segB2_sound0.sl.r
    rw [e476, e492, e508, e524, e540, e556, e572]
    rfl
  have hG1 : ∀ i ∈ (gChunk 1 c).view.set, segB2_sound0.sl.G1c_w1 m c g1 fs1 fs2 fs3 fs4 fs5 fs6 fs7 i = Gfun m c i := by
    intro i hi
    unfold segB2_sound0.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelProof.segB2_sound0' depends on axioms: [propext, Classical.choice, Quot.sound] -/
#guard_msgs in #print axioms segB2_sound0

end Cert.KernelProof

end
-- ==== Proof.K.BodySegC1Lib.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.StepsEntry
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.LitTable
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.SchedInst
import Idealize.ShloMosaic.Lib.Tactic

/-! What layer 2's first half needs on every device, whichever its place: restating a staged buffer through the whole
    memref's view and back; the partial-product buffer cut into its 24 chunks; a gathered chunk in which a peer's rows
    have landed as the canonical activation; each of the four 128-row groups of layer 2, as the body stores it — the
    layer's payload applied to the staged weights and the gathered group —, as the device's partial product on that
    group; and the peers' receive slots for layer 2 kept as one family, handed out one peer at a time. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- A whole buffer held at named contents, restated through the whole memref's view. -/
theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  iapply (Entails.of_eq (congrArg (fun I => pointsTo ((c : Thread nD τ).loc b) I fullShare f) (View.set_whole b).symm))
  iexact H

omit [FloatOps F] in
/-- A family over seven listed indices, one by one. -/
theorem sepL7 {I : Type} (a b c d e f g : I) (Φ : I → sProp 𝕄) :
    bigSepL [a, b, c, d, e, f, g] Φ = iprop(Φ a ∗ Φ b ∗ Φ c ∗ Φ d ∗ Φ e ∗ Φ f ∗ Φ g) := rfl

/-- A chunk of the gather buffer in which a peer's rows have landed holds the canonical function. -/
theorem grPay_canon (c s : Dev nD) (l : Fin 3) : (grPay m c l s : sProp 𝕄) ⊢ piece c (gChunk l s) fullShare (Gfun m c) := by
  unfold grPay
  iintro ⟨%fd, H⟩
  iapply (Entails.of_eq (piece_congr c (gChunk l s) fullShare (landed_gather m c s l _ fd fun i _ => rfl)))
  iexact H

/-- The partial-product buffer held whole at some contents is its 24 chunks held at those contents. -/
theorem scr0_cut (c : Dev nD) : (scr c cc0_scratch0 : sProp 𝕄)
    ⊢ iprop(∃ f : Buf (Elt F) ((Memref.whole cc0_scratch0).view.loc (c : Thread nD τ)),
        (piece c (pChunk 0 0) fullShare f ∗ piece c (pChunk 0 1) fullShare f ∗ piece c (pChunk 0 2) fullShare f ∗ piece c (pChunk 0 3) fullShare f ∗ piece c (pChunk 0 4) fullShare f ∗ piece c (pChunk 0 5) fullShare f ∗ piece c (pChunk 0 6) fullShare f ∗ piece c (pChunk 0 7) fullShare f)
        ∗ (piece c (pChunk 1 0) fullShare f ∗ piece c (pChunk 1 1) fullShare f ∗ piece c (pChunk 1 2) fullShare f ∗ piece c (pChunk 1 3) fullShare f ∗ piece c (pChunk 1 4) fullShare f ∗ piece c (pChunk 1 5) fullShare f ∗ piece c (pChunk 1 6) fullShare f ∗ piece c (pChunk 1 7) fullShare f)
        ∗ (piece c (pChunk 2 0) fullShare f ∗ piece c (pChunk 2 1) fullShare f ∗ piece c (pChunk 2 2) fullShare f ∗ piece c (pChunk 2 3) fullShare f ∗ piece c (pChunk 2 4) fullShare f ∗ piece c (pChunk 2 5) fullShare f ∗ piece c (pChunk 2 6) fullShare f ∗ piece c (pChunk 2 7) fullShare f)) := by
  unfold scr
  iintro ⟨%f, H⟩
  iexists f
  iapply (Entails.of_eq (bigSep_layers_devs fun a : Fin 3 × Dev nD => (piece c (pChunk a.1 a.2) fullShare f : sProp 𝕄)))
  iapply (whole0_split c fullShare f)
  iapply (Entails.of_eq (congrArg (fun I => pointsTo ((c : Thread nD τ).loc cc0_scratch0) I fullShare f) (View.set_whole cc0_scratch0).symm))
  iexact H

omit [FloatOps F] in
theorem hz2 : (![0, 0] : Fin 2 → Nat) = fun _ => 0 := funext fun a => by fin_cases a <;> rfl
omit [FloatOps F] in
/-- A load of the whole of an argument's staging buffer returns its contents. -/
theorem read_stg5 (f : (cc0_stg5_0 : Ref sig .tc).ty.Contents (Elt F)) :
    (Memref.whole cc0_stg5_0 : Memref sig .tc .vmem S256x512 .f32).view.readAt (Elt F)
      (Rect.unit (s := S256x512) ![0, 0] S256x512.size inb_S256x512_S256x512_0_0).toLoadRect f = f :=
  Memref.readAt_unit_zero (Elt F) cc0_stg5_0 hz2 _ f
omit [FloatOps F] in
theorem read_stg6 (f : (cc0_stg6_0 : Ref sig .tc).ty.Contents (Elt F)) :
    (Memref.whole cc0_stg6_0 : Memref sig .tc .vmem S512x256 .f32).view.readAt (Elt F)
      (Rect.unit (s := S512x256) ![0, 0] S512x256.size inb_S512x256_S512x256_0_0).toLoadRect f = f :=
  Memref.readAt_unit_zero (Elt F) cc0_stg6_0 hz2 _ f

/-- The arrival of device `c`'s chunk of layer 2 at device `t`, as a tally. -/
abbrev T2 (c t : Dev nD) : CellTallies nD τ sig Unit := tallyAt (rrCell t 2 c) () N64

omit [FloatOps F] in
/-- The elements of a 128-row group of the partial-product buffer are those of the access at its offsets. -/
theorem pGroup_set_access (l : Fin 3) (g : Fin 4) (off : Fin 3 → Nat) (hoff : off = ![l.val, 128 * g.val, 0])
    (inb : ∀ a, off a + S1x128x256.size a ≤ S3x512x256.size a) :
    (pGroup l g).view.set = ((Memref.whole cc0_scratch0).access (Rect.unit (s := S3x512x256) off S1x128x256.size inb)).set := by
  subst hoff; rfl

/-- Group 0 of layer 2, as stored, holds the device's partial product. -/
theorem grp0_canon (c : Dev nD) (f0 : Buf (Elt F) ((c : Thread nD τ).loc cc0_scratch0)) :
    ∀ i ∈ (pGroup 2 0).view.set,
      View.write (Elt F) ((Memref.whole cc0_scratch0).access (Rect.unit (s := S3x512x256) ![2, 0, 0] S1x128x256.size inb_S3x512x256_S1x128x256_2_0_0)) f0
        (k0_pay21
          (View.readAt (Elt F) (Memref.whole cc0_stg5_0 : Memref sig .tc .vmem S256x512 .f32).view
            (Rect.unit (s := S256x512) ![0, 0] S256x512.size inb_S256x512_S256x512_0_0).toLoadRect (argW m c 2))
          (View.readAt (Elt F) (Memref.whole cc0_stg6_0 : Memref sig .tc .vmem S512x256 .f32).view
            (Rect.unit (s := S512x256) ![0, 0] S512x256.size inb_S512x256_S512x256_0_0).toLoadRect (argV m c 2))
          (View.readAt (Elt F) (Memref.whole cc0_scratch2 : Memref sig .tc .vmem S3x512x256 .bf16).view
            (Rect.unit (s := S3x512x256) ![1, 0, 0] S1x128x256.size inb_S3x512x256_S1x128x256_1_0_0).toLoadRect (Gfun m c)))
        Finset.univ i = Pfun m c i := by
  intro i hi
  rw [read_stg5, read_stg6, read_G_group m c 1 0 ![1, 0, 0] rfl inb_S3x512x256_S1x128x256_1_0_0]
  have hi' := (pGroup_set_access 2 0 ![2, 0, 0] rfl inb_S3x512x256_S1x128x256_2_0_0) ▸ hi
  exact write_P2grp m c 0 f0 ![2, 0, 0] rfl inb_S3x512x256_S1x128x256_2_0_0 i hi'

/-- Group 1 of layer 2, as stored, holds the device's partial product. -/
theorem grp1_canon (c : Dev nD) (f0 : Buf (Elt F) ((c : Thread nD τ).loc cc0_scratch0)) :
    ∀ i ∈ (pGroup 2 1).view.set,
      View.write (Elt F) ((Memref.whole cc0_scratch0).access (Rect.unit (s := S3x512x256) ![2, 128, 0] S1x128x256.size inb_S3x512x256_S1x128x256_2_128_0)) f0
        (k0_pay22
          (k0_pay19 (View.readAt (Elt F) (Memref.whole cc0_stg5_0 : Memref sig .tc .vmem S256x512 .f32).view
            (Rect.unit (s := S256x512) ![0, 0] S256x512.size inb_S256x512_S256x512_0_0).toLoadRect (argW m c 2)))
          (k0_pay20 (View.readAt (Elt F) (Memref.whole cc0_stg6_0 : Memref sig .tc .vmem S512x256 .f32).view
            (Rect.unit (s := S512x256) ![0, 0] S512x256.size inb_S512x256_S512x256_0_0).toLoadRect (argV m c 2)))
          (View.readAt (Elt F) (Memref.whole cc0_scratch2 : Memref sig .tc .vmem S3x512x256 .bf16).view
            (Rect.unit (s := S3x512x256) ![1, 128, 0] S1x128x256.size inb_S3x512x256_S1x128x256_1_128_0).toLoadRect (Gfun m c)))
        Finset.univ i = Pfun m c i := by
  intro i hi
  rw [read_stg5, read_stg6, read_G_group m c 1 1 ![1, 128, 0] rfl inb_S3x512x256_S1x128x256_1_128_0]
  have hi' := (pGroup_set_access 2 1 ![2, 128, 0] rfl inb_S3x512x256_S1x128x256_2_128_0) ▸ hi
  exact write_P2grp m c 1 f0 ![2, 128, 0] rfl inb_S3x512x256_S1x128x256_2_128_0 i hi'

/-- Group 2 of layer 2, as stored, holds the device's partial product. -/
theorem grp2_canon (c : Dev nD) (f0 : Buf (Elt F) ((c : Thread nD τ).loc cc0_scratch0)) :
    ∀ i ∈ (pGroup 2 2).view.set,
      View.write (Elt F) ((Memref.whole cc0_scratch0).access (Rect.unit (s := S3x512x256) ![2, 256, 0] S1x128x256.size inb_S3x512x256_S1x128x256_2_256_0)) f0
        (k0_pay23
          (k0_pay19 (View.readAt (Elt F) (Memref.whole cc0_stg5_0 : Memref sig .tc .vmem S256x512 .f32).view
            (Rect.unit (s := S256x512) ![0, 0] S256x512.size inb_S256x512_S256x512_0_0).toLoadRect (argW m c 2)))
          (k0_pay20 (View.readAt (Elt F) (Memref.whole cc0_stg6_0 : Memref sig .tc .vmem S512x256 .f32).view
            (Rect.unit (s := S512x256) ![0, 0] S512x256.size inb_S512x256_S512x256_0_0).toLoadRect (argV m c 2)))
          (View.readAt (Elt F) (Memref.whole cc0_scratch2 : Memref sig .tc .vmem S3x512x256 .bf16).view
            (Rect.unit (s := S3x512x256) ![1, 256, 0] S1x128x256.size inb_S3x512x256_S1x128x256_1_256_0).toLoadRect (Gfun m c)))
        Finset.univ i = Pfun m c i := by
  intro i hi
  rw [read_stg5, read_stg6, read_G_group m c 1 2 ![1, 256, 0] rfl inb_S3x512x256_S1x128x256_1_256_0]
  have hi' := (pGroup_set_access 2 2 ![2, 256, 0] rfl inb_S3x512x256_S1x128x256_2_256_0) ▸ hi
  exact write_P2grp m c 2 f0 ![2, 256, 0] rfl inb_S3x512x256_S1x128x256_2_256_0 i hi'

/-- Group 3 of layer 2, as stored, holds the device's partial product. -/
theorem grp3_canon (c : Dev nD) (f0 : Buf (Elt F) ((c : Thread nD τ).loc cc0_scratch0)) :
    ∀ i ∈ (pGroup 2 3).view.set,
      View.write (Elt F) ((Memref.whole cc0_scratch0).access (Rect.unit (s := S3x512x256) ![2, 384, 0] S1x128x256.size inb_S3x512x256_S1x128x256_2_384_0)) f0
        (k0_pay25
          (k0_pay19 (View.readAt (Elt F) (Memref.whole cc0_stg5_0 : Memref sig .tc .vmem S256x512 .f32).view
            (Rect.unit (s := S256x512) ![0, 0] S256x512.size inb_S256x512_S256x512_0_0).toLoadRect (argW m c 2)))
          (k0_pay20 (View.readAt (Elt F) (Memref.whole cc0_stg6_0 : Memref sig .tc .vmem S512x256 .f32).view
            (Rect.unit (s := S512x256) ![0, 0] S512x256.size inb_S512x256_S512x256_0_0).toLoadRect (argV m c 2)))
          (k0_pay24 (View.readAt (Elt F) (Memref.whole cc0_scratch2 : Memref sig .tc .vmem S3x512x256 .bf16).view
            (Rect.unit (s := S3x512x256) ![1, 384, 0] S1x128x256.size inb_S3x512x256_S1x128x256_1_384_0).toLoadRect (Gfun m c)))
          (constant S128x512 .f32 0x00000000#32))
        Finset.univ i = Pfun m c i := by
  intro i hi
  rw [read_stg5, read_stg6, read_G_group m c 1 3 ![1, 384, 0] rfl inb_S3x512x256_S1x128x256_1_384_0]
  have hi' := (pGroup_set_access 2 3 ![2, 384, 0] rfl inb_S3x512x256_S1x128x256_2_384_0) ▸ hi
  exact write_P2grp m c 3 f0 ![2, 384, 0] rfl inb_S3x512x256_S1x128x256_2_384_0 i hi'

omit [FloatOps F] in
/-- A whole buffer held through the whole memref's view at named contents, in the form the staged buffers are stated. -/
theorem stg_close (c : Dev nD) (b : Ref sig .tc) (X : b.ty.Contents (Elt F)) :
    ((Memref.whole b).view.loc (c : Thread nD τ) ↦[(Memref.whole b).view.set]{fullShare} X : sProp 𝕄) ⊢ stg c b X := by
  iintro H
  iexists X
  isplitr; · ipureintro; rfl
  iapply (Entails.of_eq (congrArg (fun I => pointsTo ((c : Thread nD τ).loc b) I fullShare X) (View.set_whole b)))
  iexact H

omit [FloatOps F] in
/-- A piece held whole at given contents is held whole at some contents. -/
theorem ex_of (c : Dev nD) (M : Memref sig .tc .vmem S64x256 .bf16) (f : Buf (Elt F) (M.view.loc (c : Thread nD τ))) :
    (piece c M fullShare f : sProp 𝕄) ⊢ ex c M := by
  unfold ex; iintro H; iexists f; iexact H

/-- A group of layer 2 held at contents that agree with the device's partial product on the group holds the partial product. -/
theorem pGroup_restate (c : Dev nD) (g : Fin 4) (w : Buf (Elt F) ((Memref.whole cc0_scratch0).view.loc (c : Thread nD τ)))
    (h : ∀ i ∈ (pGroup 2 g).view.set, w i = Pfun m c i) :
    ((pGroup 2 g).view.loc (c : Thread nD τ) ↦[(pGroup 2 g).view.set]{fullShare} w : sProp 𝕄)
      ⊢ ((pGroup 2 g).view.loc (c : Thread nD τ) ↦[(pGroup 2 g).view.set]{fullShare} Pfun m c) :=
  Entails.of_eq (pointsTo_congr h)

/-- The slots, on the peers listed, that device `c`'s chunks of layer 2 land in, each held at some contents. -/
def dests2 (c : Dev nD) (ts : List (Dev nD)) : sProp 𝕄 := bigSepL ts (fun t => iprop(∃ fd, piece t (rSlot 2 c) fullShare fd))

omit [FloatOps F] in
theorem dests2_cons (c t : Dev nD) (ts : List (Dev nD)) :
    (dests2 (F := F) c (t :: ts)) ⊢ iprop((∃ fd, piece t (rSlot 2 c) fullShare fd) ∗ dests2 c ts) := by
  unfold dests2
  exact Entails.of_eq (bigSepL_cons t ts _)

omit [FloatOps F] in
theorem dests2_of (c : Dev nD) (ts : List (Dev nD)) : (layerDest (F := F) c ts 2) ⊢ dests2 c ts := by
  unfold layerDest dests2
  rw [if_neg (show ¬ (2 : Fin 3).val < 2 by decide)]
  iintro ⟨H, -⟩
  iexact H

end Cert.KernelProof

end
-- ==== Proof.K.BodySegC1_d0.lean ====
import proofs.«900993_g7700000000000994_dist_mlpseq_tp1d_rep_bs_b512_d256_h512_v7x_i8_bf16_1_alg».proof.Proof.K.BodySegC1Lib
import Idealize.ShloMosaic.Lib.Tactic

/-! The first half of layer 2 on the device at position 0: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 0 owes for layer 2, the summands in the reverse of the order its sends pay them. -/
theorem owesRedL_rev_d0 (c : Dev nD) :
    owesRedL c [(1 : Dev nD), 2, 3, 4, 5, 6, 7] 2 = 0 + T2 c 7 + T2 c 6 + T2 c 5 + T2 c 4 + T2 c 3 + T2 c 2 + T2 c 1 := by
  unfold owesRedL T2
  simp only [List.map, List.sum_cons, List.sum_nil]
  abel

theorem segC1_sound0 (c : Dev nD) (hc : c = 0) (K : GSem nD τ sig → ℕ) (Kt : PUnit → sProp 𝕄) :
    iprop(mid2 m K c [(1 : Dev nD), 2, 3, 4, 5, 6, 7] ∗ (mid3 m K c [(1 : Dev nD), 2, 3, 4, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 : ¬ _ := fun h => (condw0_iff c).mp h hc
  have hw1 := (condw1_iff c).mpr hne1
  have hw2 := (condw2_iff c).mpr hne2
  have hw3 := (condw3_iff c).mpr hne3
  have hw4 := (condw4_iff c).mpr hne4
  have hw5 := (condw5_iff c).mpr hne5
  have hw6 := (condw6_iff c).mpr hne6
  have hw7 := (condw7_iff c).mpr hne7
  have hg43 : ¬ k0_cond43 c = 1#1 := fun h => (cond43_iff c).mp h hc
  have hg44 : k0_cond44 c = 1#1 := (cond44_iff c).mpr hne1
  have hg47 : k0_cond47 c = 1#1 := (cond47_iff c).mpr hne2
  have hg48 : k0_cond48 c = 1#1 := (cond48_iff c).mpr hne3
  have hg51 : k0_cond51 c = 1#1 := (cond51_iff c).mpr hne4
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts1, Tr1⟩, ⟨Ts2, Tr2⟩, ⟨Ts3, Tr3⟩, ⟨Ts4, Tr4⟩, ⟨Ts5, Tr5⟩, ⟨Ts6, Tr6⟩, ⟨Ts7, Tr7⟩⟩, -⟩, HposRed2, -, Hdest⟩, ⟨⟨Pg1, Cg1⟩, ⟨Pg2, Cg2⟩, ⟨Pg3, Cg3⟩, ⟨Pg4, Cg4⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d0 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 1's rows of the second activation
  ihave Ig := (invsAll_at m K c (.gr 1 1)) $$ Hinv
  ihave Hmw := (mayWait_gr (F := F) c 1 1 (0 + T2 c 7 + T2 c 6 + T2 c 5 + T2 c 4 + T2 c 3 + T2 c 2 + T2 c 1) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  -- the device's own rows are chunk 0 of the group
  ihave Gc0 := (Entails.of_eq (congrArg (fun t : Dev nD => (piece c (gChunk 1 t) fullShare (Gfun m c) : sProp 𝕄)) hc)) $$ Hg1c
  ihave GG0 := (gGroup_join c 1 0 fullShare (Gfun m c) 0 1 rfl rfl) $$ [Gc0 Gc1]
  · isplitl [Gc0] <;> iassumption
  sl_exec
  -- group 0 of layer 2 now holds the device's partial product
  unfold segC1_sound0.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 5 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 6 + T2 c 5 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound0.sl.PG1_w1 segC1_sound0.sl.r segC1_sound0.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound0.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound0.sl.PG3_w1 segC1_sound0.sl.r_2 segC1_sound0.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs1 Cs2 Cs3 Cs4 Cs5 Cs6 Cs7]
  · rw [sepL7]
    isplitl [Cs1]; · iexact Cs1
    isplitl [Cs2]; · iexact Cs2
    isplitl [Cs3]; · iexact Cs3
    isplitl [Cs4]; · iexact Cs4
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg1 Pg2 Pg3 Pg4 Pg5 Pg6 Pg7]
  · rw [sepL7]
    isplitl [Pg1]; · iexact Pg1
    isplitl [Pg2]; · iexact Pg2
    isplitl [Pg3]; · iexact Pg3
    isplitl [Pg4]; · iexact Pg4
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A00]
    · iapply (Entails.of_eq (congrArg (fun t : Dev nD => (ex (F := F) c (pChunk 0 t) : sProp 𝕄)) hc.symm))
      iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A04]; · iapply (ex_of c (pChunk 0 4) _); iexact A04
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A10]
    · iapply (Entails.of_eq (congrArg (fun t : Dev nD => (ex (F := F) c (pChunk 1 t) : sProp 𝕄)) hc.symm))
      iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A14]; · iapply (ex_of c (pChunk 1 4) _); iexact A14
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B20]
  · iapply (Entails.of_eq (congrArg (fun t : Dev nD => (piece c (pChunk 2 t) fullShare (Pfun m c) : sProp 𝕄)) hc.symm)); iexact B20
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G10]
    · iapply (Entails.of_eq (congrArg (fun t : Dev nD => (ex (F := F) c (gChunk 1 t) : sProp 𝕄)) hc.symm))
      iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G14]; · iapply (ex_of c (gChunk 1 4) _); iexact G14
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelProof.segC1_sound0' depends on axioms: [propext, Classical.choice, Quot.sound] -/
#guard_msgs in #print axioms segC1_sound0

end Cert.KernelProof

end
-- ==== Proof.K.BodyExit.lean ====
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.Outro
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit

/-! The end of a device's body. When the program is over every cell of the device that had duties stands after its
    round and the others untouched, so all its own cells close and yield their counters at zero; and every 64-row piece
    of the three scratch buffers is back, so each buffer is held whole again. With the staged arguments as they were
    and the result's staging buffer holding the device's rows of the last layer's sum, that is what the body ends with. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

omit [FloatOps F] in
/-- A family at a device and over a list of its peers is the family over all devices. -/
theorem dev_and_peers {c : Dev nD} {Ts : List (Dev nD)} (hTs : peers c = Ts.toFinset) (hnd : Ts.Nodup) (Φ : Dev nD → sProp 𝕄) :
    iprop(Φ c ∗ bigSepL Ts Φ) ⊢ bigSep Finset.univ Φ := by
  rw [bigSep_univ_at Φ c, ← bigSep_eq_bigSepL Ts hnd Φ, ← hTs]
  unfold peers
  exact BI.Entails.refl _

omit [FloatOps F] in
/-- A family over the layers and the devices, layer by layer. -/
theorem layers_devs (Ψ : Fin 3 × Dev nD → sProp 𝕄) :
    bigSep Finset.univ Ψ = iprop((bigSep Finset.univ fun t => Ψ (0, t)) ∗ (bigSep Finset.univ fun t => Ψ (1, t)) ∗ (bigSep Finset.univ fun t => Ψ (2, t))) := by
  rw [bigSep_univ_prod, bigSep_fin3]

/-- The partial-product buffer back whole from the 24 chunks held. -/
theorem scr0_of_chunksP (c : Dev nD) (Ts : List (Dev nD)) (hTs : peers c = Ts.toFinset) (hnd : Ts.Nodup) :
    iprop(chunksP (F := F) c Ts 0 ∗ chunksP c Ts 1 ∗ chunksP c Ts 2) ⊢ scr c cc0_scratch0 := by
  refine BIBase.Entails.trans ?_ (scr0_of_pieces (F := F) c)
  rw [layers_devs]
  unfold chunksP ex
  iintro ⟨H0, H1, H2⟩
  isplitl [H0]; · iapply (dev_and_peers hTs hnd fun t => (iprop(∃ f, piece c (pChunk 0 t) fullShare f) : sProp 𝕄)); iexact H0
  isplitl [H1]; · iapply (dev_and_peers hTs hnd fun t => (iprop(∃ f, piece c (pChunk 1 t) fullShare f) : sProp 𝕄)); iexact H1
  iapply (dev_and_peers hTs hnd fun t => (iprop(∃ f, piece c (pChunk 2 t) fullShare f) : sProp 𝕄)); iexact H2

/-- The receive buffer back whole from the 24 slots held. -/
theorem scr1_of_slotsBack (c : Dev nD) :
    iprop(slotsBack (F := F) c 0 ∗ slotsBack c 1 ∗ slotsBack c 2) ⊢ scr c cc0_scratch1 := by
  have hB : peers c = (ringB c).toFinset := peers_eq_bwd c
  have hnd : (ringB c).Nodup := bwd_nodup c
  refine BIBase.Entails.trans ?_ (scr1_of_pieces (F := F) c)
  rw [layers_devs]
  unfold slotsBack ex
  iintro ⟨H0, H1, H2⟩
  isplitl [H0]; · iapply (dev_and_peers hB hnd fun s => (iprop(∃ f, piece c (rSlot 0 s) fullShare f) : sProp 𝕄)); iexact H0
  isplitl [H1]; · iapply (dev_and_peers hB hnd fun s => (iprop(∃ f, piece c (rSlot 1 s) fullShare f) : sProp 𝕄)); iexact H1
  iapply (dev_and_peers hB hnd fun s => (iprop(∃ f, piece c (rSlot 2 s) fullShare f) : sProp 𝕄)); iexact H2

/-- The gather buffer back whole from the 24 chunks held. -/
theorem scr2_of_chunksAll (c : Dev nD) (Ts : List (Dev nD)) (hTs : peers c = Ts.toFinset) (hnd : Ts.Nodup) :
    iprop(chunksAll (F := F) c Ts 0 ∗ chunksAll c Ts 1 ∗ chunksAll c Ts 2) ⊢ scr c cc0_scratch2 := by
  refine BIBase.Entails.trans ?_ (scr2_of_pieces (F := F) c)
  rw [layers_devs]
  unfold chunksAll ex
  iintro ⟨H0, H1, H2⟩
  isplitl [H0]; · iapply (dev_and_peers hTs hnd fun t => (iprop(∃ f, piece c (gChunk 0 t) fullShare f) : sProp 𝕄)); iexact H0
  isplitl [H1]; · iapply (dev_and_peers hTs hnd fun t => (iprop(∃ f, piece c (gChunk 1 t) fullShare f) : sProp 𝕄)); iexact H1
  iapply (dev_and_peers hTs hnd fun t => (iprop(∃ f, piece c (gChunk 2 t) fullShare f) : sProp 𝕄)); iexact H2

/-- The exit: from what a device holds when its program is over, after the update that closes its own cells, what its
    body ends with. -/
theorem exit_of (c : Dev nD) (Ts : List (Dev nD)) (hTs : peers c = Ts.toFinset) (hnd : Ts.Nodup) (K : GSem nD τ sig → ℕ) :
    midE m K c Ts ⊢ iprop(|={Set.univ}=> bodyPost m c) := by
  unfold midE
  iintro ⟨⟨#Hinv, -, -⟩, HO, Hp0, Hp1, Hp2, Hg0, Hg1, Hrest, HP0, HP1, HP2, HR0, HR1, HR2, HG0, HG1, HG2, Hst, H7⟩
  imod (close_from_layers m K c Ts hTs hnd) $$ [Hp0 Hp1 Hp2 Hg0 Hg1 Hrest] with Hz
  · isplitr; · iexact Hinv
    isplitl [Hp0]; · iexact Hp0
    isplitl [Hp1]; · iexact Hp1
    isplitl [Hp2]; · iexact Hp2
    isplitl [Hg0]; · iexact Hg0
    isplitl [Hg1]; · iexact Hg1
    iexact Hrest
  imodintro
  unfold bodyPost Φ₁ stagedIn
  isplitl [HP0 HP1 HP2 HR0 HR1 HR2 HG0 HG1 HG2 Hz]
  · isplitl [HP0 HP1 HP2]
    · iapply (scr0_of_chunksP c Ts hTs hnd)
      isplitl [HP0]; · iexact HP0
      isplitl [HP1] <;> iassumption
    isplitl [HR0 HR1 HR2]
    · iapply (scr1_of_slotsBack (F := F) c)
      isplitl [HR0]; · iexact HR0
      isplitl [HR1] <;> iassumption
    isplitl [HG0 HG1 HG2]
    · iapply (scr2_of_chunksAll c Ts hTs hnd)
      isplitl [HG0]; · iexact HG0
      isplitl [HG1] <;> iassumption
    iexact Hz
  isplitl [HO]; · iexact HO
  icases Hst with ⟨S0, S1, S2, S3, S4, S5, S6⟩
  isplitl [S0]; · iexact S0
  isplitl [S1]; · iexact S1
  isplitl [S2]; · iexact S2
  isplitl [S3]; · iexact S3
  isplitl [S4]; · iexact S4
  isplitl [S5]; · iexact S5
  isplitl [S6]; · iexact S6
  iexact H7

/-- info: 'Cert.KernelProof.exit_of' depends on axioms: [propext, Classical.choice, Quot.sound] -/
#guard_msgs in #print axioms exit_of

end Cert.KernelProof

end
-- ==== Proof.K.BodySegC2_d0.lean ====
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.BodyExit
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 2 on the device at position 0: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound0 (c : Dev nD) (hc : c = 0) (K : GSem nD τ sig → ℕ) (Kt : PUnit → sProp 𝕄) :
    iprop(mid3 m K c [(1 : Dev nD), 2, 3, 4, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(1 : Dev nD), 2, 3, 4, 5, 6, 7]).toFinset := by subst hc; decide
  have hnd : ([(1 : Dev nD), 2, 3, 4, 5, 6, 7]).Nodup := by decide
  -- the guards of the seven waits on the reduce-send cell: every literal target but the device itself
  have hg57 : ¬ k0_cond57 c = 1#1 := fun h => (cond57_iff c).mp h hc
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound0.sl.v846 m c : Vec F S1x64x256 .bf16) = chunkOf (P2 m c) c := own_chunk_read m c _
  have e861 : ∀ a, (segC2_sound0.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound0.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound0.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound0.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound0.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound0.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound0.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound0.sl.r_3 m c a1 a2 a3 a4 a5 a6) (segC2_sound0.sl.v957 m c a7) = red2 m c := by
    intro a1 a2 a3 a4 a5 a6 a7
    unfold segC2_sound0.sl.r_3 segC2_sound0.sl.r_2 segC2_sound0.sl.r_1 segC2_sound0.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound0.sl.r_3 m c fs1 fs2 fs3 fs4 fs5 fs6) (segC2_sound0.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelProof.segC2_sound0' depends on axioms: [propext, Classical.choice, Quot.sound] -/
#guard_msgs in #print axioms segC2_sound0

end Cert.KernelProof

end
-- ==== Proof.K.BodySegA1a_d1.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.PreludeDevs
import proofs.«900993_g7700000000000994_dist_mlpseq_tp1d_rep_bs_b512_d256_h512_v7x_i8_bf16_1_alg».proof.Proof.K.StepsEntry
import Idealize.ShloMosaic.Lib.Tactic

/-! The entry and layer 0 on device 1, first half: from the body's start to the point where the device has enqueued its
    seven reduce copies of layer 0 and read its own chunk.

    The device signals its seven peers along the ring, one unit to each barrier cell: each signal pays the device's
    duty at that cell and hands the peer the pieces of the device's buffers the peer's copies will land in. It waits for
    the seven signals to itself, the whole round of its barrier cell, and receives in turn the pieces of its peers'
    buffers its own copies land in. It then makes layer 0's partial product from the staged arguments by the body's own
    arithmetic and stores it over layer 0 of the partial-product buffer, which from then on holds the canonical partial
    product there; cut into 64-row chunks, each chunk but the device's own is lent to the copy towards the device that
    reduces those rows, which pays duty `t` of the device's reduce-send cell and the one duty of the target's
    reduce-receive cell, settles what the device owed that cell, and earns the credit for a later wait on the send
    cell. The own chunk is read last, as the accumulation's first term. What the device holds then — the tokens,
    positions and credit of everything still to come, regrouped layer by layer — is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 2, 3, 4, 5, 6, 7]

/-- A step rule stated with its continuation as a wand, read with the continuation as a second conjunct. -/
private theorem step_uncurry {P R G : sProp 𝕄} (h : P ⊢ iprop(R -∗ G)) : iprop(P ∗ R) ⊢ G := by
  iintro ⟨HP, HR⟩
  iapply (h) $$ [HP]
  · iexact HP
  iexact HR

/-- The start holds every cell's invariant and round-0 fact for good. -/
private theorem pre_dup (K : GSem nD τ sig → ℕ) (c : Dev nD) : bodyPre m K c ⊢ iprop((invsAll m K ∗ reachedAll (F := F)) ∗ bodyPre m K c) := by
  unfold bodyPre ghost
  iintro ⟨⟨⟨#HI, #HR, HP, HT⟩, HC, Hlev, S0, S1, S2⟩, HO, Hstg⟩
  isplitr
  · isplitr; · iexact HI
    iexact HR
  isplitl [HP HT HC Hlev S0 S1 S2]
  · isplitl [HP HT]
    · isplitr; · iexact HI
      isplitr; · iexact HR
      isplitl [HP]; · iexact HP
      iexact HT
    isplitl [HC]; · iexact HC
    isplitl [Hlev]; · iexact Hlev
    isplitl [S0]; · iexact S0
    isplitl [S1]; · iexact S1
    iexact S2
  isplitl [HO]; · iexact HO
  iexact Hstg

/-- Two chains of seven, term by term. -/
private theorem zip7 {M : Type} [URA M] (a1 a2 a3 a4 a5 a6 a7 b1 b2 b3 b4 b5 b6 b7 : sProp M) :
    iprop((a1 ∗ a2 ∗ a3 ∗ a4 ∗ a5 ∗ a6 ∗ a7) ∗ (b1 ∗ b2 ∗ b3 ∗ b4 ∗ b5 ∗ b6 ∗ b7))
      ⊢ iprop((a1 ∗ b1) ∗ (a2 ∗ b2) ∗ (a3 ∗ b3) ∗ (a4 ∗ b4) ∗ (a5 ∗ b5) ∗ (a6 ∗ b6) ∗ (a7 ∗ b7)) := by
  iintro ⟨⟨A1, A2, A3, A4, A5, A6, A7⟩, ⟨B1, B2, B3, B4, B5, B6, B7⟩⟩
  isplitl [A1 B1]; · isplitl [A1]; · iexact A1
                     iexact B1
  isplitl [A2 B2]; · isplitl [A2]; · iexact A2
                     iexact B2
  isplitl [A3 B3]; · isplitl [A3]; · iexact A3
                     iexact B3
  isplitl [A4 B4]; · isplitl [A4]; · iexact A4
                     iexact B4
  isplitl [A5 B5]; · isplitl [A5]; · iexact A5
                     iexact B5
  isplitl [A6 B6]; · isplitl [A6]; · iexact A6
                     iexact B6
  isplitl [A7]; · iexact A7
  iexact B7

/-- What the seven entry signals heard hand the device, sorted by the layer whose copies land in it. -/
private theorem barPays_fold (c : Dev nD) (Ts : List (Dev nD)) (hTs : peers c = Ts.toFinset) (hnd : Ts.Nodup) :
    bigSep (peers c) (fun p => barPay (F := F) c p) ⊢ iprop(layerDest c Ts 0 ∗ layerDest c Ts 1 ∗ layerDest c Ts 2) := by
  unfold barPay layerDest
  simp only [bigSep_sep']
  rw [if_pos (show (0 : Fin 3).val < 2 by decide), if_pos (show (1 : Fin 3).val < 2 by decide), if_neg (show ¬ (2 : Fin 3).val < 2 by decide)]
  rw [bigSep_eq_bigSepL_of_eq Ts hTs hnd (fun p => iprop(∃ f, piece p (rSlot 0 c) fullShare f)),
    bigSep_eq_bigSepL_of_eq Ts hTs hnd (fun p => iprop(∃ f, piece p (rSlot 1 c) fullShare f)),
    bigSep_eq_bigSepL_of_eq Ts hTs hnd (fun p => iprop(∃ f, piece p (rSlot 2 c) fullShare f)),
    bigSep_eq_bigSepL_of_eq (ringF c) (peers_eq_fwd c) (fwd_nodup c) (fun p => iprop(∃ f, piece p (gChunk 0 c) fullShare f)),
    bigSep_eq_bigSepL_of_eq (ringF c) (peers_eq_fwd c) (fwd_nodup c) (fun p => iprop(∃ f, piece p (gChunk 1 c) fullShare f))]
  iintro ⟨A0, A1, A2, G0, G1, -⟩
  isplitl [A0 G0]; · isplitl [A0]; · iexact A0
                     iexact G0
  isplitl [A1 G1]; · isplitl [A1]; · iexact A1
                     iexact G1
  isplitl [A2]; · iexact A2
  iempintro

/-- Layer 0's destinations: the seven receive slots by target, and the gather chunks along the ring. -/
private theorem layerDest0_eq (c : Dev nD) : (layerDest (F := F) c Tsd 0 : sProp 𝕄) =
    iprop(((∃ fd, piece 0 (rSlot 0 c) fullShare fd) ∗ (∃ fd, piece 2 (rSlot 0 c) fullShare fd) ∗ (∃ fd, piece 3 (rSlot 0 c) fullShare fd) ∗ (∃ fd, piece 4 (rSlot 0 c) fullShare fd) ∗ (∃ fd, piece 5 (rSlot 0 c) fullShare fd) ∗ (∃ fd, piece 6 (rSlot 0 c) fullShare fd) ∗ (∃ fd, piece 7 (rSlot 0 c) fullShare fd))
      ∗ bigSepL (ringF c) (fun p => iprop(∃ fd, piece p (gChunk 0 c) fullShare fd))) := by
  unfold layerDest
  rw [if_pos (show (0 : Fin 3).val < 2 by decide)]
  rfl

/-- Chunk `t` of layer 0 after the store of the layer's partial product holds the canonical contents. -/
private theorem chunk0_stored (c t : Dev nD) (f0 : Buf (Elt F) ((c : Thread nD τ).loc cc0_scratch0))
    (inb : ∀ a, (![0, 0, 0] : Fin 3 → Nat) a + S1x512x256.size a ≤ S3x512x256.size a) :
    (piece c (pChunk 0 t) fullShare ((Memref.whole cc0_scratch0).view.writes (Elt F) f0
        [⟨Rect.unit (s := S3x512x256) ![0, 0, 0] S1x512x256.size inb, P0 m c⟩]) : sProp 𝕄)
      = piece c (pChunk 0 t) fullShare (Pfun m c) := by
  refine piece_congr c (pChunk 0 t) fullShare fun i hi => ?_
  refine write_P0 m c f0 ![0, 0, 0] rfl inb i ?_
  rw [set_pChunk] at hi
  have hs : i ∈ (rectSlab 0).set := by
    rw [rectSlab_eq]; exact Finset.mem_biUnion.mpr ⟨t, Finset.mem_univ _, hi⟩
  have hs' : i ∈ (pSlab 0).view.set := by rw [set_pSlab]; exact hs
  exact hs'

/-- The eight chunks of layer `l` of the partial-product buffer, each at some contents. -/
private def pLayerEx (c : Dev nD) (l : Fin 3) : sProp 𝕄 := bigSep (Finset.univ : Finset (Dev nD)) (fun t => ex (F := F) c (pChunk l t))

/-- After the store of layer 0's partial product the partial-product buffer is: its eight chunks of layer 0 holding the
    canonical contents, and the chunks of the two later layers at whatever they hold. -/
private theorem slab0_cut (c : Dev nD) (f0 : Buf (Elt F) ((c : Thread nD τ).loc cc0_scratch0))
    {a0 : Vec F S512x256 .f32} {a1 : Vec F S256x512 .f32} {a2 : Vec F S512x256 .f32}
    (h0 : a0 = argX m c) (h1 : a1 = argW m c 0) (h2 : a2 = argV m c 0)
    (inb : ∀ a, (![0, 0, 0] : Fin 3 → Nat) a + S1x512x256.size a ≤ S3x512x256.size a) :
    ((Memref.whole cc0_scratch0).view.loc (c : Thread nD τ) ↦[(Memref.whole cc0_scratch0).view.set]{fullShare}
        ((Memref.whole cc0_scratch0).view.writes (Elt F) f0 [⟨Rect.unit (s := S3x512x256) ![0, 0, 0] S1x512x256.size inb, k0_pay1 a0 a1 a2⟩]) : sProp 𝕄)
      ⊢ iprop(bigSep (Finset.univ : Finset (Dev nD)) (fun t => piece c (pChunk 0 t) fullShare (Pfun m c))
          ∗ pLayerEx c 1 ∗ pLayerEx c 2) := by
  unfold pLayerEx
  subst h0 h1 h2
  refine (whole0_split c fullShare _).trans ?_
  rw [bigSep_univ_prod, bigSep_fin3]
  exact sep_mono (Entails.of_eq (bigSep_congr fun t _ => chunk0_stored m c t f0 inb))
    (sep_mono (bigSep_mono fun t _ => piece_ex c _ _ _) (bigSep_mono fun t _ => piece_ex c _ _ _))

private theorem zero2 : (![0, 0] : Fin 2 → Nat) = fun _ => 0 := by funext a; fin_cases a <;> rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; rfl
  iapply (Entails.of_eq (congrArg (fun I => pointsTo ((c : Thread nD τ).loc b) I fullShare x) (View.set_whole b)))
  iexact H

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

/-- What is still owed once the entry signals and layer 0's reduce copies are out, and the whole debt at launch with
    those last, in the reverse of the order they are settled. -/
private abbrev restA (c : Dev nD) : CellTallies nD τ sig Unit := owesRedL c Tsd 1 + owesRedL c Tsd 2 + owesGatL c 0 + owesGatL c 1

private theorem debt_rev (c : Dev nD) : debt c 0 2 3 4 5 6 7 =
    restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64 + tallyAt (rrCell 0 0 c) () N64
      + tallyAt (barCell (fwd 7 c)) () 1 + tallyAt (barCell (fwd 6 c)) () 1 + tallyAt (barCell (fwd 5 c)) () 1 + tallyAt (barCell (fwd 4 c)) () 1
      + tallyAt (barCell (fwd 3 c)) () 1 + tallyAt (barCell (fwd 2 c)) () 1 + tallyAt (barCell (fwd 1 c)) () 1 := by
  unfold debt owesBar owesRedLit owesGatA restA owesRedL owesGatL ringF
  simp only [amt_rSlot, amt_gChunk, List.map, List.sum_cons, List.sum_nil]
  abel

private theorem above_restA (c : Dev nD) : Above 1 (restA c) := by
  unfold restA owesRedL owesGatL ringF
  simp only [List.map, List.sum_cons, List.sum_nil]
  owes_above

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- Seven copies of one assertion, as the family over the literal peers. -/
private theorem creds7 (a : sProp 𝕄) : iprop(a ∗ a ∗ a ∗ a ∗ a ∗ a ∗ a) ⊢ bigSepL Tsd (fun _ => a) := .rfl

/-- Two chains along the ring forward, term by term. -/
private theorem zipF (c : Dev nD) (Φ Ψ : Dev nD → sProp 𝕄) : iprop(alongF c Φ ∗ alongF c Ψ) ⊢ bigSepL (ringF c) (fun p => iprop(Φ p ∗ Ψ p)) :=
  zip7 _ _ _ _ _ _ _ _ _ _ _ _ _ _
/-- Two chains along the ring backward, term by term. -/
private theorem zipB (c : Dev nD) (Φ Ψ : Dev nD → sProp 𝕄) : iprop(alongB c Φ ∗ alongB c Ψ) ⊢ bigSepL (ringB c) (fun p => iprop(Φ p ∗ Ψ p)) :=
  zip7 _ _ _ _ _ _ _ _ _ _ _ _ _ _
/-- Two chains over the literal peers, term by term. -/
private theorem zipT (Φ Ψ : Dev nD → sProp 𝕄) : iprop(lits1 Φ ∗ lits1 Ψ) ⊢ bigSepL Tsd (fun p => iprop(Φ p ∗ Ψ p)) :=
  zip7 _ _ _ _ _ _ _ _ _ _ _ _ _ _

/-- A layer's reduce positions from the send cell's, the receive cells' and their credit. -/
private theorem posRed_intro (c : Dev nD) (l : Fin 3) :
    iprop(atPos ER (rsCell c l) 0 ∅ 0 ∗ alongB c (fun s => (atPos ER (rrCell c l s) 0 ∅ 0 : sProp 𝕄))
      ∗ alongB c (fun s => (cred (tallyAt (rrCell c l s) () N64) : sProp 𝕄))) ⊢ (posRed (F := F) c l : sProp 𝕄) := by
  unfold posRed
  iintro ⟨A, B, C⟩
  isplitl [A]; · iexact A
  iapply (zipB c _ _)
  isplitl [B]; · iexact B
  iexact C
/-- A layer's gather-send position. -/
private theorem posGs_intro (c : Dev nD) (l : Fin 3) : (atPos ER (gsCell c l) 0 ∅ 0 : sProp 𝕄) ⊢ posGs (F := F) c l := by
  unfold posGs
  exact .rfl
/-- A layer's gather-receive positions with their credit. -/
private theorem posGr_intro (c : Dev nD) (l : Fin 3) :
    iprop(lits1 (fun s => (atPos ER (grCell c l s) 0 ∅ 0 : sProp 𝕄)) ∗ lits1 (fun s => (cred (tallyAt (grCell c l s) () N64) : sProp 𝕄)))
      ⊢ (posGr (F := F) c Tsd l : sProp 𝕄) := by
  unfold posGr
  exact zipT _ _

/-- A later layer's resources from its tokens, positions, credit and destinations. -/
private theorem layerRes1_intro (c : Dev nD) :
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1) ∗ layerDest c Tsd 1) ⊢ (layerRes (F := F) c Tsd 1 : sProp 𝕄) := by
  unfold layerRes layerToks
  rw [if_pos (show (1 : Fin 3).val < 2 by decide), if_pos (show (1 : Fin 3).val < 2 by decide)]
private theorem layerRes2_intro (c : Dev nD) :
    iprop((bigSepL Tsd (fun t => iprop(dutyTok ER (rsCell c 2) 0 t ∗ dutyTok ER (rrCell t 2 c) 0 c)) ∗ emp)
      ∗ posRed c 2 ∗ emp ∗ layerDest c Tsd 2) ⊢ (layerRes (F := F) c Tsd 2 : sProp 𝕄) := by
  unfold layerRes layerToks
  rw [if_neg (show ¬ (2 : Fin 3).val < 2 by decide), if_neg (show ¬ (2 : Fin 3).val < 2 by decide)]

private theorem pLayerEx_def (c : Dev nD) (l : Fin 3) :
    (pLayerEx (F := F) c l : sProp 𝕄) = bigSep (Finset.univ : Finset (Dev nD)) (fun t => ex (F := F) c (pChunk l t)) := rfl

/-- The last layer's chunks of the gather buffer, all held. -/
private theorem gath2 (c : Dev nD) (hc : c = 1) (f : Buf (Elt F) ((c : Thread nD τ).loc cc0_scratch2)) :
    bigSep (Finset.univ : Finset (Dev nD)) (fun t => (piece c (gChunk 2 t) fullShare f : sProp 𝕄)) ⊢ chunksAll c Tsd 2 := by
  subst hc
  rw [bigSep_dev8]
  unfold chunksAll
  rw [bigSepL7]
  iintro ⟨H0, H1, H2, H3, H4, H5, H6, H7⟩
  isplitl [H1]; · iapply (ex_intro _ (gChunk 2 1) f); iexact H1
  isplitl [H0]; · iapply (ex_intro _ (gChunk 2 0) f); iexact H0
  isplitl [H2]; · iapply (ex_intro _ (gChunk 2 2) f); iexact H2
  isplitl [H3]; · iapply (ex_intro _ (gChunk 2 3) f); iexact H3
  isplitl [H4]; · iapply (ex_intro _ (gChunk 2 4) f); iexact H4
  isplitl [H5]; · iapply (ex_intro _ (gChunk 2 5) f); iexact H5
  isplitl [H6]; · iapply (ex_intro _ (gChunk 2 6) f); iexact H6
  iapply (ex_intro _ (gChunk 2 7) f); iexact H7

attribute [local irreducible] layerDest layerRes layerToks barPay pLayerEx

set_option hygiene false in
/-- The entry signal to the peer `j` places after the device: it pays with the head token and the head payload. -/
local macro "entry_signal" j:num eq:ident : tactic => `(tactic| (
  icases TB with ⟨Tb, TB⟩
  icases PB with ⟨Pb, PB⟩
  iapply (step_uncurry (wp_entry_signal m 𝒱₀ c (fwd $j c) (fwd_ne_nat $j (by decide) (by decide) c) (K (barCell (fwd $j c))) ($eq c _) rfl rfl _))
  isplitl [Tb Pb HO]
  · isplitr; · iapply (invsAll_at m K (fwd $j c) .bar); iexact Hinv
    isplitl [Tb]; · iexact Tb
    isplitr; · iapply (reached_at (fwd $j c) .bar); iexact Hreach
    isplitl [Pb]; · iexact Pb
    iexact HO
  iintro HO
  sl_exec_parts))

theorem segA1_sound1 (c : Dev nD) (hc : c = 1) (K : GSem nD τ sig → ℕ)
    (Kt : (Σ' (d0 : Dev nD) (v2 : BitVec 32) (v78 : FVec F S64x256 .f32) (v81 : BitVec 32) (v82 : BitVec 32), BitVec 32) → sProp 𝕄) :
    iprop(bodyPre m K c ∗ (∀ v78 v81 v82 c0, midA m K c Tsd v78 -∗ Kt ⟨c, devWord c, v78, v81, v82, c0⟩))
      ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have hne0 : c ≠ (0 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hg1 : k0_cond1 c = 1#1 := (cond1_iff c).mpr hne0
  have hg2 : ¬ k0_cond2 c = 1#1 := fun h => (cond2_iff c).mp h hc
  have hg3 : k0_cond3 c = 1#1 := (cond3_iff c).mpr hne2
  have hg4 : k0_cond4 c = 1#1 := (cond4_iff c).mpr hne3
  have hg5 : k0_cond5 c = 1#1 := (cond5_iff c).mpr hne4
  have hg6 : k0_cond6 c = 1#1 := (cond6_iff c).mpr hne5
  have hg7 : k0_cond7 c = 1#1 := (cond7_iff c).mpr hne6
  have hg8 : k0_cond8 c = 1#1 := (cond8_iff c).mpr hne7
  have hAbW : Above 1 (restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64 + tallyAt (rrCell 0 0 c) () N64 : CellTallies nD τ sig Unit) :=
    (((((((above_restA c).add (above_rr (n := 1) (7 : Dev nD) (0 : Fin 3) c N64 (by decide))).add (above_rr (n := 1) (6 : Dev nD) (0 : Fin 3) c N64 (by decide))).add (above_rr (n := 1) (5 : Dev nD) (0 : Fin 3) c N64 (by decide))).add (above_rr (n := 1) (4 : Dev nD) (0 : Fin 3) c N64 (by decide))).add (above_rr (n := 1) (3 : Dev nD) (0 : Fin 3) c N64 (by decide))).add (above_rr (n := 1) (2 : Dev nD) (0 : Fin 3) c N64 (by decide))).add (above_rr (n := 1) (0 : Dev nD) (0 : Fin 3) c N64 (by decide))
  refine (sep_mono_left ((pre_dup m K c).trans (sep_mono_right (prelude_dev1 m K c hc)))).trans ?_
  unfold ctx toksFam posFam credsFam lits1 midA stagedIn scr
  rw [debt_rev]
  iintro ⟨⟨⟨#Hinv, #Hreach⟩, -, -, #Hlev, ⟨TB, ⟨⟨Trs0T0, Trs0T2, Trs0T3, Trs0T4, Trs0T5, Trs0T6, Trs0T7⟩, ⟨Trr0T0, Trr0T2, Trr0T3, Trr0T4, Trr0T5, Trr0T6, Trr0T7⟩⟩, ⟨TS1, TR1⟩, ⟨TS2, TR2⟩, ⟨TGS0, TGR0⟩, ⟨TGS1, TGR1⟩⟩, ⟨Abar, ⟨Ars0, Arr0⟩, ⟨Ars1, Arr1⟩, ⟨Ars2, Arr2⟩, ⟨Ags0, Agr0⟩, ⟨Ags1, Agr1⟩⟩, ⟨Cbar, Crr0, Crr1, Crr2, Cgr0, Cgr1⟩, HPrest, ⟨%f0, S0⟩, PB, ⟨%fs, SO0, SO1, SO2⟩, ⟨%fg, GO0, GO1, GO2⟩, ⟨%W, HO⟩, ⟨%x0, %hx0, X0⟩, ⟨%x1, %hx1, X1⟩, ⟨%x2, %hx2, X2⟩, X3, X4, X5, X6, H7⟩, Hk⟩
  ihave X0 := (whole_restate c cc0_stg0_0 x0) $$ X0
  ihave X1 := (whole_restate c cc0_stg1_0 x1) $$ X1
  ihave X2 := (whole_restate c cc0_stg2_0 x2) $$ X2
  ihave S0 := (whole_restate c cc0_scratch0 f0) $$ S0
  sl_unfold [segA1]
  sl_exec_parts
  entry_signal 1 dev1_eq
  entry_signal 2 dev2_eq
  entry_signal 3 dev3_eq
  entry_signal 4 dev4_eq
  entry_signal 5 dev5_eq
  entry_signal 6 dev6_eq
  icases TB with Tb
  icases PB with Pb
  iapply (step_uncurry (wp_entry_signal m 𝒱₀ c (fwd 7 c) (fwd_ne_nat 7 (by decide) (by decide) c) (K (barCell (fwd 7 c))) (dev7_eq c _) rfl rfl _))
  isplitl [Tb Pb HO]
  · isplitr; · iapply (invsAll_at m K (fwd 7 c) .bar); iexact Hinv
    isplitl [Tb]; · iexact Tb
    isplitr; · iapply (reached_at (fwd 7 c) .bar); iexact Hreach
    isplitl [Pb]; · iexact Pb
    iexact HO
  iintro HO
  sl_exec_parts
  ihave #Hmw := (mayWait_bar (F := F) c (restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64 + tallyAt (rrCell 0 0 c) () N64) hAbW) $$ Hlev
  iapply (step_uncurry (wp_bar_wait m 𝒱₀ c (K (barCell c)) rfl rfl (O := restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64 + tallyAt (rrCell 0 0 c) () N64) (W := W)))
  isplitl [Cbar HO Abar]
  · isplitr; · iapply (invsAll_at m K c .bar); iexact Hinv
    isplitl [Cbar]; · iexact Cbar
    isplitl [HO]; · iexact HO
    isplitr; · iexact Hmw
    iexact Abar
  iintro ⟨HO, Abar, #Rbar1, PBin⟩
  ihave PBin := (barPays_fold c Tsd (by rw [hc]; decide) (by decide)) $$ PBin
  icases PBin with ⟨D0, D1, D2⟩
  ihave S0 := (slab0_cut m c f0 ((Memref.readAt_unit_zero (Elt F) cc0_stg0_0 zero2 inb_S512x256_S512x256_0_0 x0).trans hx0)
      ((Memref.readAt_unit_zero (Elt F) cc0_stg1_0 zero2 inb_S256x512_S256x512_0_0 x1).trans hx1)
      ((Memref.readAt_unit_zero (Elt F) cc0_stg2_0 zero2 inb_S512x256_S512x256_0_0 x2).trans hx2) _) $$ S0
  icases S0 with ⟨P0s, P1s, P2s⟩
  ihave P0s := (Entails.of_eq (bigSep_dev8 _)) $$ P0s
  icases P0s with ⟨Q0, Q1, Q2, Q3, Q4, Q5, Q6, Q7⟩
  sl_exec_parts
  ihave D0 := (Entails.of_eq (layerDest0_eq c)) $$ D0
  icases D0 with ⟨⟨⟨%fd0, Drr0T0⟩, ⟨%fd2, Drr0T2⟩, ⟨%fd3, Drr0T3⟩, ⟨%fd4, Drr0T4⟩, ⟨%fd5, Drr0T5⟩, ⟨%fd6, Drr0T6⟩, ⟨%fd7, Drr0T7⟩⟩, DG0⟩
  ihave #Irs0 := (invsAll_at m K c (.rs 0)) $$ Hinv
  ihave #Rrs0 := (reached_at (F := F) c (.rs 0)) $$ Hreach
  -- the copy of chunk 0 to device 0
  ihave #Irr0T0 := (invsAll_at m K 0 (.rr 0 c)) $$ Hinv
  ihave #Rrr0T0 := (reached_at (F := F) 0 (.rr 0 c)) $$ Hreach
  iapply (wp_red_send m 𝒱₀ c 0 0 hne0 (K (rsCell c 0)) (K (rrCell 0 0 c)) (dev8_eq _) (pchunk_lit0_0 _ _) (slot_off2 c _ _)
      (congrArg SemLoc.dma (sem_rs0 _)) (congrArg SemLoc.dma (sem_off1 c _)) (restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 2 0 c) () N64) fd0)
    $$ [Q0 Drr0T0 HO Trs0T0 Trr0T0]
  · isplitr; · iexact Irs0
    isplitr; · iexact Irr0T0
    isplitl [Q0]; · iexact Q0
    isplitl [Drr0T0]; · iexact Drr0T0
    isplitl [HO]; · iexact HO
    isplitl [Trs0T0]; · iexact Trs0T0
    isplitr; · iexact Rrs0
    isplitl [Trr0T0]; · iexact Trr0T0
    iexact Rrr0T0
  iintro ⟨Crs0T0, HO⟩
  sl_exec_parts
  -- the copy of chunk 2 to device 2
  ihave #Irr0T2 := (invsAll_at m K 2 (.rr 0 c)) $$ Hinv
  ihave #Rrr0T2 := (reached_at (F := F) 2 (.rr 0 c)) $$ Hreach
  iapply (wp_red_send m 𝒱₀ c 2 0 hne2 (K (rsCell c 0)) (K (rrCell 2 0 c)) (dev10_eq _) (pchunk_lit0_2 _ _) (slot_off6 c _ _)
      (congrArg SemLoc.dma (sem_rs0 _)) (congrArg SemLoc.dma (sem_off5 c _)) (restA c + tallyAt (rrCell 7 0 c) () N64 + tallyAt (rrCell 6 0 c) () N64 + tallyAt (rrCell 5 0 c) () N64 + tallyAt (rrCell 4 0 c) () N64 + tallyAt (rrCell 3 0 c) () N64) fd2)
    $$ [Q2 Drr0T2 HO Trs0T2 Trr0T2]
  · isplitr; · iexact Irs0
    isplitr; · iexact Irr0T2
    isplitl [Q2]; · iexact Q2
    isplitl [Drr0T2]; · iexact Drr0T2
    isplitl [HO]; · iexact HO
    isplitl [Trs0T2]; · iexact Trs0T2
    isplitr; · iexact Rrs0
    isplitl [Trr0T2]; · iexact Trr0T2
    iexact Rrr0T2
  iintro ⟨Crs0T2, HO⟩
  sl_exec_parts
  -- the copy of chunk 3 to device 3
  ihave #Irr0T3 := (invsAll_at m K 3 (.rr 0 c)) $$ Hinv
  ihave #Rrr0T3 := (reached_at (F := F) 3 (.rr 0 c)) $$ Hreach
  iapply (wp_red_send m 𝒱₀ c 3 0 hne3 (K (rsCell c 0)) (K (rrCell 3 0 c)) (dev11_eq _) (pchunk_lit0_3 _ _) (slot_off8 c _ _)
      (congrArg SemLoc.dma (sem_rs0 _)) (congrArg SemLoc.dma (sem_off7 c _)) (restA c + tallyAt (rrCell 7 0 c) () N64 + tallyAt (rrCell 6 0 c) () N64 + tallyAt (rrCell 5 0 c) () N64 + tallyAt (rrCell 4 0 c) () N64) fd3)
    $$ [Q3 Drr0T3 HO Trs0T3 Trr0T3]
  · isplitr; · iexact Irs0
    isplitr; · iexact Irr0T3
    isplitl [Q3]; · iexact Q3
    isplitl [Drr0T3]; · iexact Drr0T3
    isplitl [HO]; · iexact HO
    isplitl [Trs0T3]; · iexact Trs0T3
    isplitr; · iexact Rrs0
    isplitl [Trr0T3]; · iexact Trr0T3
    iexact Rrr0T3
  iintro ⟨Crs0T3, HO⟩
  sl_exec_parts
  -- the copy of chunk 4 to device 4
  ihave #Irr0T4 := (invsAll_at m K 4 (.rr 0 c)) $$ Hinv
  ihave #Rrr0T4 := (reached_at (F := F) 4 (.rr 0 c)) $$ Hreach
  iapply (wp_red_send m 𝒱₀ c 4 0 hne4 (K (rsCell c 0)) (K (rrCell 4 0 c)) (dev12_eq _) (pchunk_lit0_4 _ _) (slot_off10 c _ _)
      (congrArg SemLoc.dma (sem_rs0 _)) (congrArg SemLoc.dma (sem_off9 c _)) (restA c + tallyAt (rrCell 7 0 c) () N64 + tallyAt (rrCell 6 0 c) () N64 + tallyAt (rrCell 5 0 c) () N64) fd4)
    $$ [Q4 Drr0T4 HO Trs0T4 Trr0T4]
  · isplitr; · iexact Irs0
    isplitr; · iexact Irr0T4
    isplitl [Q4]; · iexact Q4
    isplitl [Drr0T4]; · iexact Drr0T4
    isplitl [HO]; · iexact HO
    isplitl [Trs0T4]; · iexact Trs0T4
    isplitr; · iexact Rrs0
    isplitl [Trr0T4]; · iexact Trr0T4
    iexact Rrr0T4
  iintro ⟨Crs0T4, HO⟩
  sl_exec_parts
  -- the copy of chunk 5 to device 5
  ihave #Irr0T5 := (invsAll_at m K 5 (.rr 0 c)) $$ Hinv
  ihave #Rrr0T5 := (reached_at (F := F) 5 (.rr 0 c)) $$ Hreach
  iapply (wp_red_send m 𝒱₀ c 5 0 hne5 (K (rsCell c 0)) (K (rrCell 5 0 c)) (dev13_eq _) (pchunk_lit0_5 _ _) (slot_off12 c _ _)
      (congrArg SemLoc.dma (sem_rs0 _)) (congrArg SemLoc.dma (sem_off11 c _)) (restA c + tallyAt (rrCell 7 0 c) () N64 + tallyAt (rrCell 6 0 c) () N64) fd5)
    $$ [Q5 Drr0T5 HO Trs0T5 Trr0T5]
  · isplitr; · iexact Irs0
    isplitr; · iexact Irr0T5
    isplitl [Q5]; · iexact Q5
    isplitl [Drr0T5]; · iexact Drr0T5
    isplitl [HO]; · iexact HO
    isplitl [Trs0T5]; · iexact Trs0T5
    isplitr; · iexact Rrs0
    isplitl [Trr0T5]; · iexact Trr0T5
    iexact Rrr0T5
  iintro ⟨Crs0T5, HO⟩
  sl_exec_parts
  -- the copy of chunk 6 to device 6
  ihave #Irr0T6 := (invsAll_at m K 6 (.rr 0 c)) $$ Hinv
  ihave #Rrr0T6 := (reached_at (F := F) 6 (.rr 0 c)) $$ Hreach
  iapply (wp_red_send m 𝒱₀ c 6 0 hne6 (K (rsCell c 0)) (K (rrCell 6 0 c)) (dev14_eq _) (pchunk_lit0_6 _ _) (slot_off14 c _ _)
      (congrArg SemLoc.dma (sem_rs0 _)) (congrArg SemLoc.dma (sem_off13 c _)) (restA c + tallyAt (rrCell 7 0 c) () N64) fd6)
    $$ [Q6 Drr0T6 HO Trs0T6 Trr0T6]
  · isplitr; · iexact Irs0
    isplitr; · iexact Irr0T6
    isplitl [Q6]; · iexact Q6
    isplitl [Drr0T6]; · iexact Drr0T6
    isplitl [HO]; · iexact HO
    isplitl [Trs0T6]; · iexact Trs0T6
    isplitr; · iexact Rrs0
    isplitl [Trr0T6]; · iexact Trr0T6
    iexact Rrr0T6
  iintro ⟨Crs0T6, HO⟩
  sl_exec_parts
  -- the copy of chunk 7 to device 7
  ihave #Irr0T7 := (invsAll_at m K 7 (.rr 0 c)) $$ Hinv
  ihave #Rrr0T7 := (reached_at (F := F) 7 (.rr 0 c)) $$ Hreach
  iapply (wp_red_send m 𝒱₀ c 7 0 hne7 (K (rsCell c 0)) (K (rrCell 7 0 c)) (dev15_eq _) (pchunk_lit0_7 _ _) (slot_off16 c _ _)
      (congrArg SemLoc.dma (sem_rs0 _)) (congrArg SemLoc.dma (sem_off15 c _)) (restA c) fd7)
    $$ [Q7 Drr0T7 HO Trs0T7 Trr0T7]
  · isplitr; · iexact Irs0
    isplitr; · iexact Irr0T7
    isplitl [Q7]; · iexact Q7
    isplitl [Drr0T7]; · iexact Drr0T7
    isplitl [HO]; · iexact HO
    isplitl [Trs0T7]; · iexact Trs0T7
    isplitr; · iexact Rrs0
    isplitl [Trr0T7]; · iexact Trr0T7
    iexact Rrr0T7
  iintro ⟨Crs0T7, HO⟩
  ihave Q1 := (Entails.of_eq (congrArg (fun t => (piece c (pChunk 0 t) fullShare (Pfun m c) : sProp 𝕄)) hc.symm)) $$ Q1
  ihave P0own := (Entails.of_eq (pRows_eq c 0 c fullShare (Pfun m c)).symm) $$ Q1
  sl_exec_parts
  have eOwn : View.readAt (Elt F) (Memref.whole cc0_scratch0).view (Rect.unit (s := S3x512x256) (k0_off17 c) S1x64x256.size (k0_off17_inb c)).toLoadRect (Pfun m c)
      = chunkOf (P0 m c) c := read_P_chunk m c 0 c (k0_off17 c) (k0_off17_eq c) _
  have hv78 : segA1_sound1.sl.r m c = k0_pay2 (chunkOf (P0 m c) c) := by
    unfold segA1_sound1.sl.r
    exact congrArg k0_pay2 eOwn
  have hv2 : segA1_sound1.sl.v2 c = devWord c := rfl
  iapply (ret_intro _ Kt c)
  iapply (Entails.of_eq (congrArg (fun w => (Kt ⟨c, w, segA1_sound1.sl.r m c, segA1_sound1.sl.v81 c, segA1_sound1.sl.v82 c, 0#32⟩ : sProp 𝕄)) hv2.symm))
  ihave P0own := (Entails.of_eq (pRows_eq c 0 c fullShare (Pfun m c))) $$ P0own
  ihave X0 := (stg_of_whole c cc0_stg0_0 (argX m c) x0 hx0) $$ X0
  ihave X1 := (stg_of_whole c cc0_stg1_0 (argW m c 0) x1 hx1) $$ X1
  ihave X2 := (stg_of_whole c cc0_stg2_0 (argV m c 0) x2 hx2) $$ X2
  iapply Hk
  isplitr
  · isplitr; · iexact Hinv
    isplitr; · iexact Hreach
    iexact Hlev
  isplitr; · ipureintro; exact hv78
  isplitl [HO]; · iexists _; iexact HO
  isplitl [TGS0 TGR0]
  · iapply (zipF c _ _)
    isplitl [TGS0]; · iexact TGS0
    iexact TGR0
  isplitl [DG0]; · iexact DG0
  isplitl [Ars0 Arr0 Crr0]
  · iapply (posRed_intro c 0)
    isplitl [Ars0]; · iexact Ars0
    isplitl [Arr0]; · iexact Arr0
    iexact Crr0
  isplitl [Ags0]; · iapply (posGs_intro c 0); iexact Ags0
  isplitl [Agr0 Cgr0]
  · iapply (posGr_intro c 0)
    isplitl [Agr0]; · iexact Agr0
    iexact Cgr0
  isplitl [Crs0T0 Crs0T2 Crs0T3 Crs0T4 Crs0T5 Crs0T6 Crs0T7]
  · iapply (creds7 _)
    isplitl [Crs0T0]; · iexact Crs0T0
    isplitl [Crs0T2]; · iexact Crs0T2
    isplitl [Crs0T3]; · iexact Crs0T3
    isplitl [Crs0T4]; · iexact Crs0T4
    isplitl [Crs0T5]; · iexact Crs0T5
    isplitl [Crs0T6]; · iexact Crs0T6
    iexact Crs0T7
  isplitl [TS1 TR1 TGS1 TGR1 Ars1 Arr1 Crr1 Ags1 Agr1 Cgr1 D1]
  · iapply (layerRes1_intro c)
    isplitl [TS1 TR1 TGS1 TGR1]
    · isplitl [TS1 TR1]
      · iapply (zipT _ _)
        isplitl [TS1]; · iexact TS1
        iexact TR1
      iapply (zipF c _ _)
      isplitl [TGS1]; · iexact TGS1
      iexact TGR1
    isplitl [Ars1 Arr1 Crr1]
    · iapply (posRed_intro c 1)
      isplitl [Ars1]; · iexact Ars1
      isplitl [Arr1]; · iexact Arr1
      iexact Crr1
    isplitl [Ags1 Agr1 Cgr1]
    · isplitl [Ags1]; · iapply (posGs_intro c 1); iexact Ags1
      iapply (posGr_intro c 1)
      isplitl [Agr1]; · iexact Agr1
      iexact Cgr1
    iexact D1
  isplitl [TS2 TR2 Ars2 Arr2 Crr2 D2]
  · iapply (layerRes2_intro c)
    isplitl [TS2 TR2]
    · isplitl [TS2 TR2]
      · iapply (zipT _ _)
        isplitl [TS2]; · iexact TS2
        iexact TR2
      iempintro
    isplitl [Ars2 Arr2 Crr2]
    · iapply (posRed_intro c 2)
      isplitl [Ars2]; · iexact Ars2
      isplitl [Arr2]; · iexact Arr2
      iexact Crr2
    isplitr; · iempintro
    iexact D2
  isplitl [HPrest]; · iexact HPrest
  isplitl [P0own]; · iapply (ex_intro c (pChunk 0 c) (Pfun m c)); iexact P0own
  isplitl [P1s]; · iapply (Entails.of_eq (pLayerEx_def c 1)); iexact P1s
  isplitl [P2s]; · iapply (Entails.of_eq (pLayerEx_def c 2)); iexact P2s
  isplitl [SO0]; · iapply (ex_intro c (rSlot 0 c) fs); iexact SO0
  isplitl [SO1]; · iapply (ex_intro c (rSlot 1 c) fs); iexact SO1
  isplitl [SO2]; · iapply (ex_intro c (rSlot 2 c) fs); iexact SO2
  isplitl [GO0]; · iapply (ex_intro c (gChunk 0 c) fg); iexact GO0
  isplitl [GO1]; · iapply (ex_intro c (gChunk 1 c) fg); iexact GO1
  isplitl [GO2]; · iapply (gath2 c hc fg); iexact GO2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segA1_sound1' depends on axioms: [propext, Classical.choice, Quot.sound] -/
#guard_msgs in #print axioms segA1_sound1

end Cert.KernelProof

end
-- ==== Proof.K.BodySegA2_d1.lean ====
import proofs.«900993_g7700000000000994_dist_mlpseq_tp1d_rep_bs_b512_d256_h512_v7x_i8_bf16_1_alg».proof.Proof.K.BodySegA2Lib

/-! The second half of layer 0 on device 1: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 2, 3, 4, 5, 6, 7] : List (Dev nD))

omit [FloatOps F] in
/-- Everything still owed after layer 0's gather sends is owed to cells above the level of the layer's send cells. -/
theorem above_a2_rest_d1 (c : Dev nD) : Above 3 (a2_rest c Ts) := by
  unfold a2_rest owesRedL owesGatL ringF
  simp only [List.map, List.sum_cons, List.sum_nil]
  owes_above

theorem segA2_sound1 (c : Dev nD) (hc : c = 1) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : ¬ k0_cond10 c = 1#1 := fun h => (cond10_iff c).mp h hc
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : ¬ Scalar.cmpi .ne (Scalar.extui (Scalar.cmpi .ne (Scalar.remsi (Scalar.divsi (Dev.word c) 1#32) 8#32) 1#32)) 0#32 = 1#1 := fun h => (condw1_iff c).mp h hc
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d1 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d1 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound1.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound1.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound1.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound1.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound1.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound1.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound1.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound1.sl.r_2 m c v78 a1 a2 a3 a4 a5) (segA2_sound1.sl.v171 m c a6) (segA2_sound1.sl.v187 m c a7) = red0 m c := by
    intro a1 a2 a3 a4 a5 a6 a7
    unfold segA2_sound1.sl.r_2 segA2_sound1.sl.r_1 segA2_sound1.sl.r
    rw [e91, e107, e123, e139, e155, e171, e187, hv]
    rfl
  have hG0 : ∀ g a1 a2 a3 a4 a5 a6 a7, ∀ i ∈ (gChunk 0 c).view.set, segA2_sound1.sl.G0c_w1 m c v78 g a1 a2 a3 a4 a5 a6 a7 i = Gfun m c i := by
    intro g a1 a2 a3 a4 a5 a6 a7 i hi
    unfold segA2_sound1.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelProof

end
-- ==== Proof.K.BodySegB1_d1.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegBCut
import Idealize.ShloMosaic.Lib.Tactic

/-! Layer 1 on device 1, first half: from the state between the layers to the point where the device has enqueued its
    seven reduce copies of layer 1 and read its own chunk.

    The device goes through the four groups of 128 rows in order. For a group it first waits for the rows of the first
    activation that the two devices owning them gathered into its buffer (its own rows it holds already): each wait is
    the one duty of a gather-receive cell of layer 0, and hands over the chunk holding the sender's reduced rows written
    over whatever it held — which is the activation on that chunk. The two chunks joined are the group the body loads;
    with the staged weights of layer 1 the body's own arithmetic makes the group of the layer's partial product, stored
    over rows of the partial-product buffer, where it agrees with the canonical partial product. Cut back into its two
    64-row chunks, each chunk is lent to the copy towards the device that reduces those rows: the copy pays duty `t` of
    the device's reduce-send cell and the one duty of the target's reduce-receive cell, settles what the device owed
    that cell, and earns the credit for a later wait on the send cell. The device's own chunk stays; it is read at the
    end, as the accumulation's first term. What is left is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 2, 3, 4, 5, 6, 7]

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- Layer 1's resources, its reduce tokens and destinations listed. -/
private theorem layerRes1_eq (c : Dev nD) : layerRes (F := F) c Tsd 1 =
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1)
      ∗ (bigSepL Tsd (fun t => iprop(∃ fd, piece t (rSlot 1 c) fullShare fd))
        ∗ bigSepL (ringF c) (fun p => iprop(∃ fd, piece p (gChunk 1 c) fullShare fd)))) := by
  unfold layerRes layerToks layerDest
  rw [if_pos (by decide), if_pos (by decide), if_pos (by decide)]

/-- The debt with the next reduce arrival last. -/
private theorem debt_peel (c t : Dev nD) (ts : List (Dev nD)) (l : Fin 3) (A B : CellTallies nD τ sig Unit) :
    owesRedL c (t :: ts) l + A + B = (owesRedL c ts l + A + B) + tallyAt (rrCell t l c) () N64 := by
  unfold owesRedL
  rw [List.map_cons, List.sum_cons]
  abel

/-- Every cell is at round 0: one cell's fact. -/
private theorem reachedAll_at (c : Dev nD) (k : CK) : reachedAll (F := F) ⊢ (reached ER (kcell c k) 0 : sProp 𝕄) := by
  unfold reachedAll
  exact allAt (fun p : Dev nD × CK => (reached ER (kcell p.1 p.2) 0 : sProp 𝕄)) c k

/-- Two functions that agree on a group of 128 rows agree on its two chunks. -/
private theorem agree_chunks {α : Type} (l : Fin 3) (g : Fin 4) (t0 t1 : Dev nD) (h0 : t0.val = 2 * g.val) (h1 : t1.val = 2 * g.val + 1)
    (w g' : S3x512x256.Idx → α) (h : ∀ i ∈ (rectGrp l g).set, w i = g' i) :
    (∀ i ∈ (rectP l t0).set, w i = g' i) ∧ (∀ i ∈ (rectP l t1).set, w i = g' i) := by
  rw [rectGrp_eq l g t0 t1 h0 h1] at h
  exact ⟨fun i hi => h i (Finset.mem_union_left _ hi), fun i hi => h i (Finset.mem_union_right _ hi)⟩

/-- A chunk of the partial-product buffer at contents that agree on its rows. -/
private theorem pChunk_congr (c : Dev nD) (l : Fin 3) (t : Dev nD) (q : PosShare TreeShare)
    {f g : Buf (Elt F) ((c : Thread nD τ).loc cc0_scratch0)} (h : ∀ i ∈ (rectP l t).set, f i = g i) :
    (piece c (pChunk l t) q f : sProp 𝕄) = piece c (pChunk l t) q g :=
  piece_congr c (pChunk l t) q fun i hi => h i ((set_pChunk l t) ▸ hi)

/-- A stored group of layer 1's partial product agrees with the canonical partial products on the group's rows. -/
private theorem stored_P1 (c : Dev nD) (g : Fin 4) (f0 : Buf (Elt F) ((c : Thread nD τ).loc cc0_scratch0)) (R : Rect S3x512x256)
    (hR : R = rectGrp 1 g) (w : R.shape.Idx → Elt F .bf16) (w' : (rectGrp 1 g).shape.Idx → Elt F .bf16) (hw : HEq w w') (hw' : w' = P1grp m c g) :
    ∀ i ∈ (rectGrp 1 g).set, View.write (Elt F) ((Memref.whole cc0_scratch0).access R) f0 w Finset.univ i = Pfun m c i := by
  subst hR
  obtain rfl := eq_of_heq hw
  subst hw'
  intro i hi
  refine write_P1grp m c g f0 _ rfl (inb_grp 1 g) i ?_
  show i ∈ ((View.whole cc0_scratch0).slice (rectGrp 1 g)).set
  rw [View.set_slice_whole]
  exact hi

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

private theorem posGr0_eq (c : Dev nD) : posGr (F := F) c Tsd 0 =
    iprop((atPos ER (grCell c 0 0) 0 ∅ 0 ∗ cred (tallyAt (grCell c 0 0) () N64)) ∗ (atPos ER (grCell c 0 2) 0 ∅ 0 ∗ cred (tallyAt (grCell c 0 2) () N64))
      ∗ (atPos ER (grCell c 0 3) 0 ∅ 0 ∗ cred (tallyAt (grCell c 0 3) () N64)) ∗ (atPos ER (grCell c 0 4) 0 ∅ 0 ∗ cred (tallyAt (grCell c 0 4) () N64))
      ∗ (atPos ER (grCell c 0 5) 0 ∅ 0 ∗ cred (tallyAt (grCell c 0 5) () N64)) ∗ (atPos ER (grCell c 0 6) 0 ∅ 0 ∗ cred (tallyAt (grCell c 0 6) () N64))
      ∗ (atPos ER (grCell c 0 7) 0 ∅ 0 ∗ cred (tallyAt (grCell c 0 7) () N64))) := rfl

private theorem posDoneGr0_eq (c : Dev nD) : posDoneGr (F := F) c Tsd 0 =
    iprop(atPos ER (grCell c 0 0) 1 ∅ 0 ∗ atPos ER (grCell c 0 2) 1 ∅ 0 ∗ atPos ER (grCell c 0 3) 1 ∅ 0 ∗ atPos ER (grCell c 0 4) 1 ∅ 0
      ∗ atPos ER (grCell c 0 5) 1 ∅ 0 ∗ atPos ER (grCell c 0 6) 1 ∅ 0 ∗ atPos ER (grCell c 0 7) 1 ∅ 0) := rfl

private theorem chunksAll0_eq (c : Dev nD) : chunksAll (F := F) c Tsd 0 =
    iprop(ex c (gChunk 0 c) ∗ ex c (gChunk 0 0) ∗ ex c (gChunk 0 2) ∗ ex c (gChunk 0 3) ∗ ex c (gChunk 0 4) ∗ ex c (gChunk 0 5)
      ∗ ex c (gChunk 0 6) ∗ ex c (gChunk 0 7)) := rfl

private theorem creds7_eq (c : Dev nD) : bigSepL Tsd (fun _ => (cred (tallyAt (rsCell c 1) () N64) : sProp 𝕄)) =
    iprop(cred (tallyAt (rsCell c 1) () N64) ∗ cred (tallyAt (rsCell c 1) () N64) ∗ cred (tallyAt (rsCell c 1) () N64) ∗ cred (tallyAt (rsCell c 1) () N64)
      ∗ cred (tallyAt (rsCell c 1) () N64) ∗ cred (tallyAt (rsCell c 1) () N64) ∗ cred (tallyAt (rsCell c 1) () N64)) := rfl

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- The eight chunks of a layer of the partial-product buffer, each held at some contents. -/
private theorem slab_ex (c : Dev nD) (l : Fin 3) (f0 : Buf (Elt F) ((c : Thread nD τ).loc cc0_scratch0)) :
    iprop(piece c (pChunk l 0) fullShare f0 ∗ piece c (pChunk l 1) fullShare f0 ∗ piece c (pChunk l 2) fullShare f0 ∗ piece c (pChunk l 3) fullShare f0
        ∗ piece c (pChunk l 4) fullShare f0 ∗ piece c (pChunk l 5) fullShare f0 ∗ piece c (pChunk l 6) fullShare f0 ∗ piece c (pChunk l 7) fullShare f0)
      ⊢ (bigSep (Finset.univ : Finset (Dev nD)) (fun t => ex (F := F) c (pChunk l t)) : sProp 𝕄) := by
  rw [bigSep_dev8]
  iintro ⟨H0, H1, H2, H3, H4, H5, H6, H7⟩
  isplitl [H0]; · iapply (ex_intro c (pChunk l 0) f0); iexact H0
  isplitl [H1]; · iapply (ex_intro c (pChunk l 1) f0); iexact H1
  isplitl [H2]; · iapply (ex_intro c (pChunk l 2) f0); iexact H2
  isplitl [H3]; · iapply (ex_intro c (pChunk l 3) f0); iexact H3
  isplitl [H4]; · iapply (ex_intro c (pChunk l 4) f0); iexact H4
  isplitl [H5]; · iapply (ex_intro c (pChunk l 5) f0); iexact H5
  isplitl [H6]; · iapply (ex_intro c (pChunk l 6) f0); iexact H6
  iapply (ex_intro c (pChunk l 7) f0); iexact H7

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; trivial
  iapply (Entails.of_eq (congrArg (fun I => pointsTo ((c : Thread nD τ).loc b) I fullShare x) (View.set_whole b)))
  iexact H

/-- Nothing is owed for a layer whose reduce copies have all been enqueued. -/
private theorem debt_done (c : Dev nD) (l : Fin 3) (A B : CellTallies nD τ sig Unit) : owesRedL c [] l + A + B = A + B := by
  unfold owesRedL
  rw [List.map_nil, List.sum_nil, zero_add]

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

private theorem zero2 : (![0, 0] : Fin 2 → ℕ) = fun _ => 0 := by funext a; fin_cases a <;> rfl

/-- A landed chunk of the gather buffer holds the activation, whatever the chunk held before. -/
private theorem grPay_canon (c s : Dev nD) (l : Fin 3) : grPay m c l s ⊢ (piece c (gChunk l s) fullShare (Gfun m c) : sProp 𝕄) := by
  unfold grPay
  iintro ⟨%fd, H⟩
  iapply (Entails.of_eq (piece_congr c (gChunk l s) fullShare (land_gather m s c l fd)))
  iexact H

theorem segB1_sound1 (c : Dev nD) (hc : c = 1) (K : GSem nD τ sig → ℕ) (Kt : (Σ' (v463 : FVec F S64x256 .f32), BitVec 32) → sProp 𝕄) :
    iprop(mid1 m K c Tsd ∗ (∀ v466, midB m K c Tsd (k0_pay14 (chunkOf (P1 m c) c)) -∗ Kt ⟨k0_pay14 (chunkOf (P1 m c) c), v466⟩))
      ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hgw0 : Scalar.cmpi .ne (Scalar.extui (Scalar.cmpi .ne (devWord c) 0#32)) 0#32 = 1#1 := (condw0_iff c).mpr hne0
  have hgw1 : ¬ Scalar.cmpi .ne (Scalar.extui (Scalar.cmpi .ne (devWord c) 1#32)) 0#32 = 1#1 := fun h => (condw1_iff c).mp h hc
  have hgw2 : Scalar.cmpi .ne (Scalar.extui (Scalar.cmpi .ne (devWord c) 2#32)) 0#32 = 1#1 := (condw2_iff c).mpr hne2
  have hgw3 : Scalar.cmpi .ne (Scalar.extui (Scalar.cmpi .ne (devWord c) 3#32)) 0#32 = 1#1 := (condw3_iff c).mpr hne3
  have hgw4 : Scalar.cmpi .ne (Scalar.extui (Scalar.cmpi .ne (devWord c) 4#32)) 0#32 = 1#1 := (condw4_iff c).mpr hne4
  have hgw5 : Scalar.cmpi .ne (Scalar.extui (Scalar.cmpi .ne (devWord c) 5#32)) 0#32 = 1#1 := (condw5_iff c).mpr hne5
  have hgw6 : Scalar.cmpi .ne (Scalar.extui (Scalar.cmpi .ne (devWord c) 6#32)) 0#32 = 1#1 := (condw6_iff c).mpr hne6
  have hgw7 : Scalar.cmpi .ne (Scalar.extui (Scalar.cmpi .ne (devWord c) 7#32)) 0#32 = 1#1 := (condw7_iff c).mpr hne7
  have hg19 : k0_cond19 c = 1#1 := (cond19_iff c).mpr hne0
  have hg20 : ¬ k0_cond20 c = 1#1 := fun h => (cond20_iff c).mp h hc
  have hg23 : k0_cond23 c = 1#1 := (cond23_iff c).mpr hne2
  have hg24 : k0_cond24 c = 1#1 := (cond24_iff c).mpr hne3
  have hg27 : k0_cond27 c = 1#1 := (cond27_iff c).mpr hne4
  have hg28 : k0_cond28 c = 1#1 := (cond28_iff c).mpr hne5
  have hg31 : k0_cond31 c = 1#1 := (cond31_iff c).mpr hne6
  have hg32 : k0_cond32 c = 1#1 := (cond32_iff c).mpr hne7
  have hAbG0 : Above 4 (owesRedL c Tsd 1 + owesRedL c Tsd 2 + owesGatL c 1) := by
    unfold owesRedL owesGatL ringF
    simp only [List.map, List.sum_cons, List.sum_nil]
    owes_above
  have hAbG1 : Above 4 (owesRedL c [2, 3, 4, 5, 6, 7] 1 + owesRedL c Tsd 2 + owesGatL c 1) := by
    unfold owesRedL owesGatL ringF
    simp only [List.map, List.sum_cons, List.sum_nil]
    owes_above
  have hAbG2 : Above 4 (owesRedL c [4, 5, 6, 7] 1 + owesRedL c Tsd 2 + owesGatL c 1) := by
    unfold owesRedL owesGatL ringF
    simp only [List.map, List.sum_cons, List.sum_nil]
    owes_above
  have hAbG3 : Above 4 (owesRedL c [6, 7] 1 + owesRedL c Tsd 2 + owesGatL c 1) := by
    unfold owesRedL owesGatL ringF
    simp only [List.map, List.sum_cons, List.sum_nil]
    owes_above
  unfold mid1 midB stagedIn scr
  rw [layerRes1_eq, posGr0_eq, posDoneGr0_eq, chunksAll0_eq, creds7_eq]
  simp only [bigSepL7]
  iintro ⟨⟨⟨#Hinv, #Hreach, #Hlev⟩, ⟨%W, HO⟩, ⟨⟨⟨⟨Trs1T0, Trr1T0⟩, ⟨Trs1T2, Trr1T2⟩, ⟨Trs1T3, Trr1T3⟩, ⟨Trs1T4, Trr1T4⟩, ⟨Trs1T5, Trr1T5⟩, ⟨Trs1T6, Trr1T6⟩, ⟨Trs1T7, Trr1T7⟩⟩, GTok1⟩, PRed1, ⟨PGs1, PGr1⟩, ⟨⟨⟨%fd0, Drr1T0⟩, ⟨%fd2, Drr1T2⟩, ⟨%fd3, Drr1T3⟩, ⟨%fd4, Drr1T4⟩, ⟨%fd5, Drr1T5⟩, ⟨%fd6, Drr1T6⟩, ⟨%fd7, Drr1T7⟩⟩, GDest1⟩⟩, HL2, ⟨⟨Pgr0S0, Cgr0S0⟩, ⟨Pgr0S2, Cgr0S2⟩, ⟨Pgr0S3, Cgr0S3⟩, ⟨Pgr0S4, Cgr0S4⟩, ⟨Pgr0S5, Cgr0S5⟩, ⟨Pgr0S6, Cgr0S6⟩, ⟨Pgr0S7, Cgr0S7⟩⟩, HPD0, HPrest, ⟨%f0, S0⟩, HSB0, HR1c, HR2c, G0c, G1c, HCA2, ⟨X0, X1, X2, ⟨%x3, %hx3, X3⟩, ⟨%x4, %hx4, X4⟩, X5, X6⟩, H7⟩, Hk⟩
  ihave X3 := (whole_restate c cc0_stg3_0 x3) $$ X3
  ihave X4 := (whole_restate c cc0_stg4_0 x4) $$ X4
  sl_unfold [segB1]
  sl_exec_parts
  -- the wait for device 0's rows
  ihave #Igr0S0 := (invsAll_at m K c (.gr 0 0)) $$ Hinv
  ihave #Mgr0S0 := (mayWait_gr (F := F) c 0 0 (owesRedL c Tsd 1 + owesRedL c Tsd 2 + owesGatL c 1) hAbG0) $$ Hlev
  iapply (wp_gat_recv m 𝒱₀ c 0 0 (by decide) hne0.symm (K (grCell c 0 0)) (sem_gr0_0 _) (gChunk_credit 0 0)) $$ [Cgr0S0 HO Pgr0S0]
  · isplitr; · iexact Igr0S0
    isplitl [Cgr0S0]; · iexact Cgr0S0
    isplitl [HO]; · iexact HO
    isplitr; · iexact Mgr0S0
    iexact Pgr0S0
  iintro ⟨HO, Dgr0S0, #Rgr0S0, Ygr0S0⟩
  -- rows 0 … 127 of the first activation joined, and the same rows of layer 1's partial product
  ihave Ggr0S0 := (grPay_canon m c 0 0) $$ Ygr0S0
  ihave G0c := (Entails.of_eq (congrArg (fun t => (piece c (gChunk 0 t) fullShare (Gfun m c) : sProp 𝕄)) hc)) $$ G0c
  ihave S0 := (whole_restate c cc0_scratch0 f0) $$ S0
  ihave S0 := (whole0_split c fullShare f0) $$ S0
  ihave S0 := (Entails.of_eq (bigSep_layers_devs (fun a => piece c (pChunk a.1 a.2) fullShare f0))) $$ S0
  icases S0 with ⟨PL0, ⟨P1T0, P1T1, P1T2, P1T3, P1T4, P1T5, P1T6, P1T7⟩, PL2⟩
  ihave GG0 := (gGroup_join c 0 0 fullShare (Gfun m c) 0 1 rfl rfl) $$ [Ggr0S0 G0c]
  · isplitl [Ggr0S0]; · iexact Ggr0S0
    iexact G0c
  ihave PG0 := (pGroup_join c 1 0 fullShare f0 0 1 rfl rfl) $$ [P1T0 P1T1]
  · isplitl [P1T0]; · iexact P1T0
    iexact P1T1
  sl_exec_parts
  -- the group stored is the canonical partial product on its rows; cut into its two chunks
  have e3 : View.readAt (Elt F) (Memref.whole cc0_stg3_0).view (Rect.unit (s := S256x512) ![0, 0] S256x512.size inb_S256x512_S256x512_0_0).toLoadRect x3 = argW m c 1 :=
    (Memref.readAt_unit_zero (Elt F) cc0_stg3_0 zero2 _ x3).trans hx3
  have e4 : View.readAt (Elt F) (Memref.whole cc0_stg4_0).view (Rect.unit (s := S512x256) ![0, 0] S512x256.size inb_S512x256_S512x256_0_0).toLoadRect x4 = argV m c 1 :=
    (Memref.readAt_unit_zero (Elt F) cc0_stg4_0 zero2 _ x4).trans hx4
  have eG0 : View.readAt (Elt F) (Memref.whole cc0_scratch2).view (Rect.unit (s := S3x512x256) ![0, 0, 0] S1x128x256.size inb_S3x512x256_S1x128x256_0_0_0).toLoadRect (Gfun m c)
      = groupOf (G0 m) 0 := read_G_group m c 0 0 ![0, 0, 0] rfl _
  have hval0 : k0_pay10 (segB1_sound1.sl.r_2 m c x3 x4) = P1grp m c 0 := by
    unfold segB1_sound1.sl.r_2
    rw [e3, e4, eG0]
    rfl
  have hw0 : ∀ i ∈ (rectGrp 1 0).set, segB1_sound1.sl.PG0_w1 m c f0 x3 x4 i = Pfun m c i :=
    stored_P1 m c 0 f0 _ rfl _ _ HEq.rfl hval0
  ihave PG0 := (pGroup_split c 1 0 fullShare _ 0 1 rfl rfl) $$ PG0
  icases PG0 with ⟨P1T0, P1T1⟩
  have hw0T := agree_chunks 1 0 0 1 rfl rfl _ _ hw0
  ihave P1T0 := (Entails.of_eq (pChunk_congr c 1 0 fullShare hw0T.1)) $$ P1T0
  ihave P1T1 := (Entails.of_eq (pChunk_congr c 1 1 fullShare hw0T.2)) $$ P1T1
  ihave #Irs1 := (invsAll_at m K c (.rs 1)) $$ Hinv
  ihave #Rrs1 := (reachedAll_at c (.rs 1)) $$ Hreach
  -- the copy of chunk 0 to device 0
  ihave #Irr1T0 := (invsAll_at m K 0 (.rr 1 c)) $$ Hinv
  ihave #Rrr1T0 := (reachedAll_at 0 (.rr 1 c)) $$ Hreach
  ihave HO := (Entails.of_eq (congrArg (fun o => owes (c : Thread nD τ) o _) (debt_peel c 0 [2, 3, 4, 5, 6, 7] 1 (owesRedL c Tsd 2) (owesGatL c 1)))) $$ HO
  iapply (wp_red_send m 𝒱₀ c 0 1 hne0 (K (rsCell c 1)) (K (rrCell 0 1 c)) (dev23_eq _) (pchunk_lit1_0 _ _) (slot_off32 c _ _)
      (congrArg SemLoc.dma (sem_rs1 _)) (congrArg SemLoc.dma (sem_off31 c _)) (owesRedL c [2, 3, 4, 5, 6, 7] 1 + owesRedL c Tsd 2 + owesGatL c 1) fd0)
    $$ [P1T0 Drr1T0 HO Trs1T0 Trr1T0]
  · isplitr; · iexact Irs1
    isplitr; · iexact Irr1T0
    isplitl [P1T0]; · iexact P1T0
    isplitl [Drr1T0]; · iexact Drr1T0
    isplitl [HO]; · iexact HO
    isplitl [Trs1T0]; · iexact Trs1T0
    isplitr; · iexact Rrs1
    isplitl [Trr1T0]; · iexact Trr1T0
    iexact Rrr1T0
  iintro ⟨Crs1T0, HO⟩
  sl_exec_parts
  -- the wait for device 2's rows
  ihave #Igr0S2 := (invsAll_at m K c (.gr 0 2)) $$ Hinv
  ihave #Mgr0S2 := (mayWait_gr (F := F) c 0 2 (owesRedL c [2, 3, 4, 5, 6, 7] 1 + owesRedL c Tsd 2 + owesGatL c 1) hAbG1) $$ Hlev
  iapply (wp_gat_recv m 𝒱₀ c 2 0 (by decide) hne2.symm (K (grCell c 0 2)) (sem_gr0_2 _) (gChunk_credit 0 2)) $$ [Cgr0S2 HO Pgr0S2]
  · isplitr; · iexact Igr0S2
    isplitl [Cgr0S2]; · iexact Cgr0S2
    isplitl [HO]; · iexact HO
    isplitr; · iexact Mgr0S2
    iexact Pgr0S2
  iintro ⟨HO, Dgr0S2, #Rgr0S2, Ygr0S2⟩
  sl_exec_parts
  -- the wait for device 3's rows
  ihave #Igr0S3 := (invsAll_at m K c (.gr 0 3)) $$ Hinv
  ihave #Mgr0S3 := (mayWait_gr (F := F) c 0 3 (owesRedL c [2, 3, 4, 5, 6, 7] 1 + owesRedL c Tsd 2 + owesGatL c 1) hAbG1) $$ Hlev
  iapply (wp_gat_recv m 𝒱₀ c 3 0 (by decide) hne3.symm (K (grCell c 0 3)) (sem_gr0_3 _) (gChunk_credit 0 3)) $$ [Cgr0S3 HO Pgr0S3]
  · isplitr; · iexact Igr0S3
    isplitl [Cgr0S3]; · iexact Cgr0S3
    isplitl [HO]; · iexact HO
    isplitr; · iexact Mgr0S3
    iexact Pgr0S3
  iintro ⟨HO, Dgr0S3, #Rgr0S3, Ygr0S3⟩
  -- rows 128 … 255 of the first activation joined, and the same rows of layer 1's partial product
  ihave Ggr0S2 := (grPay_canon m c 2 0) $$ Ygr0S2
  ihave Ggr0S3 := (grPay_canon m c 3 0) $$ Ygr0S3
  ihave GG1 := (gGroup_join c 0 1 fullShare (Gfun m c) 2 3 rfl rfl) $$ [Ggr0S2 Ggr0S3]
  · isplitl [Ggr0S2]; · iexact Ggr0S2
    iexact Ggr0S3
  ihave PG1 := (pGroup_join c 1 1 fullShare f0 2 3 rfl rfl) $$ [P1T2 P1T3]
  · isplitl [P1T2]; · iexact P1T2
    iexact P1T3
  sl_exec_parts
  -- the group stored is the canonical partial product on its rows; cut into its two chunks
  have eG1 : View.readAt (Elt F) (Memref.whole cc0_scratch2).view (Rect.unit (s := S3x512x256) ![0, 128, 0] S1x128x256.size inb_S3x512x256_S1x128x256_0_128_0).toLoadRect (Gfun m c)
      = groupOf (G0 m) 1 := read_G_group m c 0 1 ![0, 128, 0] rfl _
  have hw1 : ∀ i ∈ (rectGrp 1 1).set, segB1_sound1.sl.PG1_w1 m c f0 x3 x4 i = Pfun m c i :=
    stored_P1 m c 1 f0 _ rfl _ _ HEq.rfl (by
      unfold segB1_sound1.sl.r segB1_sound1.sl.r_1
      rw [e3, e4, eG1]
      rfl)
  ihave PG1 := (pGroup_split c 1 1 fullShare _ 2 3 rfl rfl) $$ PG1
  icases PG1 with ⟨P1T2, P1T3⟩
  have hw1T := agree_chunks 1 1 2 3 rfl rfl _ _ hw1
  ihave P1T2 := (Entails.of_eq (pChunk_congr c 1 2 fullShare hw1T.1)) $$ P1T2
  ihave P1T3 := (Entails.of_eq (pChunk_congr c 1 3 fullShare hw1T.2)) $$ P1T3
  -- the copy of chunk 2 to device 2
  ihave #Irr1T2 := (invsAll_at m K 2 (.rr 1 c)) $$ Hinv
  ihave #Rrr1T2 := (reachedAll_at 2 (.rr 1 c)) $$ Hreach
  ihave HO := (Entails.of_eq (congrArg (fun o => owes (c : Thread nD τ) o _) (debt_peel c 2 [3, 4, 5, 6, 7] 1 (owesRedL c Tsd 2) (owesGatL c 1)))) $$ HO
  iapply (wp_red_send m 𝒱₀ c 2 1 hne2 (K (rsCell c 1)) (K (rrCell 2 1 c)) (dev25_eq _) (pchunk_lit1_2 _ _) (slot_off36 c _ _)
      (congrArg SemLoc.dma (sem_rs1 _)) (congrArg SemLoc.dma (sem_off35 c _)) (owesRedL c [3, 4, 5, 6, 7] 1 + owesRedL c Tsd 2 + owesGatL c 1) fd2)
    $$ [P1T2 Drr1T2 HO Trs1T2 Trr1T2]
  · isplitr; · iexact Irs1
    isplitr; · iexact Irr1T2
    isplitl [P1T2]; · iexact P1T2
    isplitl [Drr1T2]; · iexact Drr1T2
    isplitl [HO]; · iexact HO
    isplitl [Trs1T2]; · iexact Trs1T2
    isplitr; · iexact Rrs1
    isplitl [Trr1T2]; · iexact Trr1T2
    iexact Rrr1T2
  iintro ⟨Crs1T2, HO⟩
  sl_exec_parts
  -- the copy of chunk 3 to device 3
  ihave #Irr1T3 := (invsAll_at m K 3 (.rr 1 c)) $$ Hinv
  ihave #Rrr1T3 := (reachedAll_at 3 (.rr 1 c)) $$ Hreach
  ihave HO := (Entails.of_eq (congrArg (fun o => owes (c : Thread nD τ) o _) (debt_peel c 3 [4, 5, 6, 7] 1 (owesRedL c Tsd 2) (owesGatL c 1)))) $$ HO
  iapply (wp_red_send m 𝒱₀ c 3 1 hne3 (K (rsCell c 1)) (K (rrCell 3 1 c)) (dev26_eq _) (pchunk_lit1_3 _ _) (slot_off38 c _ _)
      (congrArg SemLoc.dma (sem_rs1 _)) (congrArg SemLoc.dma (sem_off37 c _)) (owesRedL c [4, 5, 6, 7] 1 + owesRedL c Tsd 2 + owesGatL c 1) fd3)
    $$ [P1T3 Drr1T3 HO Trs1T3 Trr1T3]
  · isplitr; · iexact Irs1
    isplitr; · iexact Irr1T3
    isplitl [P1T3]; · iexact P1T3
    isplitl [Drr1T3]; · iexact Drr1T3
    isplitl [HO]; · iexact HO
    isplitl [Trs1T3]; · iexact Trs1T3
    isplitr; · iexact Rrs1
    isplitl [Trr1T3]; · iexact Trr1T3
    iexact Rrr1T3
  iintro ⟨Crs1T3, HO⟩
  sl_exec_parts
  -- the wait for device 4's rows
  ihave #Igr0S4 := (invsAll_at m K c (.gr 0 4)) $$ Hinv
  ihave #Mgr0S4 := (mayWait_gr (F := F) c 0 4 (owesRedL c [4, 5, 6, 7] 1 + owesRedL c Tsd 2 + owesGatL c 1) hAbG2) $$ Hlev
  iapply (wp_gat_recv m 𝒱₀ c 4 0 (by decide) hne4.symm (K (grCell c 0 4)) (sem_gr0_4 _) (gChunk_credit 0 4)) $$ [Cgr0S4 HO Pgr0S4]
  · isplitr; · iexact Igr0S4
    isplitl [Cgr0S4]; · iexact Cgr0S4
    isplitl [HO]; · iexact HO
    isplitr; · iexact Mgr0S4
    iexact Pgr0S4
  iintro ⟨HO, Dgr0S4, #Rgr0S4, Ygr0S4⟩
  sl_exec_parts
  -- the wait for device 5's rows
  ihave #Igr0S5 := (invsAll_at m K c (.gr 0 5)) $$ Hinv
  ihave #Mgr0S5 := (mayWait_gr (F := F) c 0 5 (owesRedL c [4, 5, 6, 7] 1 + owesRedL c Tsd 2 + owesGatL c 1) hAbG2) $$ Hlev
  iapply (wp_gat_recv m 𝒱₀ c 5 0 (by decide) hne5.symm (K (grCell c 0 5)) (sem_gr0_5 _) (gChunk_credit 0 5)) $$ [Cgr0S5 HO Pgr0S5]
  · isplitr; · iexact Igr0S5
    isplitl [Cgr0S5]; · iexact Cgr0S5
    isplitl [HO]; · iexact HO
    isplitr; · iexact Mgr0S5
    iexact Pgr0S5
  iintro ⟨HO, Dgr0S5, #Rgr0S5, Ygr0S5⟩
  -- rows 256 … 383 of the first activation joined, and the same rows of layer 1's partial product
  ihave Ggr0S4 := (grPay_canon m c 4 0) $$ Ygr0S4
  ihave Ggr0S5 := (grPay_canon m c 5 0) $$ Ygr0S5
  ihave GG2 := (gGroup_join c 0 2 fullShare (Gfun m c) 4 5 rfl rfl) $$ [Ggr0S4 Ggr0S5]
  · isplitl [Ggr0S4]; · iexact Ggr0S4
    iexact Ggr0S5
  ihave PG2 := (pGroup_join c 1 2 fullShare f0 4 5 rfl rfl) $$ [P1T4 P1T5]
  · isplitl [P1T4]; · iexact P1T4
    iexact P1T5
  sl_exec_parts
  -- the group stored is the canonical partial product on its rows; cut into its two chunks
  have eG2 : View.readAt (Elt F) (Memref.whole cc0_scratch2).view (Rect.unit (s := S3x512x256) ![0, 256, 0] S1x128x256.size inb_S3x512x256_S1x128x256_0_256_0).toLoadRect (Gfun m c)
      = groupOf (G0 m) 2 := read_G_group m c 0 2 ![0, 256, 0] rfl _
  have hw2 : ∀ i ∈ (rectGrp 1 2).set, segB1_sound1.sl.PG2_w1 m c f0 x3 x4 i = Pfun m c i :=
    stored_P1 m c 2 f0 _ rfl _ _ HEq.rfl (by
      unfold segB1_sound1.sl.r segB1_sound1.sl.r_1
      rw [e3, e4, eG2]
      rfl)
  ihave PG2 := (pGroup_split c 1 2 fullShare _ 4 5 rfl rfl) $$ PG2
  icases PG2 with ⟨P1T4, P1T5⟩
  have hw2T := agree_chunks 1 2 4 5 rfl rfl _ _ hw2
  ihave P1T4 := (Entails.of_eq (pChunk_congr c 1 4 fullShare hw2T.1)) $$ P1T4
  ihave P1T5 := (Entails.of_eq (pChunk_congr c 1 5 fullShare hw2T.2)) $$ P1T5
  -- the copy of chunk 4 to device 4
  ihave #Irr1T4 := (invsAll_at m K 4 (.rr 1 c)) $$ Hinv
  ihave #Rrr1T4 := (reachedAll_at 4 (.rr 1 c)) $$ Hreach
  ihave HO := (Entails.of_eq (congrArg (fun o => owes (c : Thread nD τ) o _) (debt_peel c 4 [5, 6, 7] 1 (owesRedL c Tsd 2) (owesGatL c 1)))) $$ HO
  iapply (wp_red_send m 𝒱₀ c 4 1 hne4 (K (rsCell c 1)) (K (rrCell 4 1 c)) (dev27_eq _) (pchunk_lit1_4 _ _) (slot_off40 c _ _)
      (congrArg SemLoc.dma (sem_rs1 _)) (congrArg SemLoc.dma (sem_off39 c _)) (owesRedL c [5, 6, 7] 1 + owesRedL c Tsd 2 + owesGatL c 1) fd4)
    $$ [P1T4 Drr1T4 HO Trs1T4 Trr1T4]
  · isplitr; · iexact Irs1
    isplitr; · iexact Irr1T4
    isplitl [P1T4]; · iexact P1T4
    isplitl [Drr1T4]; · iexact Drr1T4
    isplitl [HO]; · iexact HO
    isplitl [Trs1T4]; · iexact Trs1T4
    isplitr; · iexact Rrs1
    isplitl [Trr1T4]; · iexact Trr1T4
    iexact Rrr1T4
  iintro ⟨Crs1T4, HO⟩
  sl_exec_parts
  -- the copy of chunk 5 to device 5
  ihave #Irr1T5 := (invsAll_at m K 5 (.rr 1 c)) $$ Hinv
  ihave #Rrr1T5 := (reachedAll_at 5 (.rr 1 c)) $$ Hreach
  ihave HO := (Entails.of_eq (congrArg (fun o => owes (c : Thread nD τ) o _) (debt_peel c 5 [6, 7] 1 (owesRedL c Tsd 2) (owesGatL c 1)))) $$ HO
  iapply (wp_red_send m 𝒱₀ c 5 1 hne5 (K (rsCell c 1)) (K (rrCell 5 1 c)) (dev28_eq _) (pchunk_lit1_5 _ _) (slot_off42 c _ _)
      (congrArg SemLoc.dma (sem_rs1 _)) (congrArg SemLoc.dma (sem_off41 c _)) (owesRedL c [6, 7] 1 + owesRedL c Tsd 2 + owesGatL c 1) fd5)
    $$ [P1T5 Drr1T5 HO Trs1T5 Trr1T5]
  · isplitr; · iexact Irs1
    isplitr; · iexact Irr1T5
    isplitl [P1T5]; · iexact P1T5
    isplitl [Drr1T5]; · iexact Drr1T5
    isplitl [HO]; · iexact HO
    isplitl [Trs1T5]; · iexact Trs1T5
    isplitr; · iexact Rrs1
    isplitl [Trr1T5]; · iexact Trr1T5
    iexact Rrr1T5
  iintro ⟨Crs1T5, HO⟩
  sl_exec_parts
  -- the wait for device 6's rows
  ihave #Igr0S6 := (invsAll_at m K c (.gr 0 6)) $$ Hinv
  ihave #Mgr0S6 := (mayWait_gr (F := F) c 0 6 (owesRedL c [6, 7] 1 + owesRedL c Tsd 2 + owesGatL c 1) hAbG3) $$ Hlev
  iapply (wp_gat_recv m 𝒱₀ c 6 0 (by decide) hne6.symm (K (grCell c 0 6)) (sem_gr0_6 _) (gChunk_credit 0 6)) $$ [Cgr0S6 HO Pgr0S6]
  · isplitr; · iexact Igr0S6
    isplitl [Cgr0S6]; · iexact Cgr0S6
    isplitl [HO]; · iexact HO
    isplitr; · iexact Mgr0S6
    iexact Pgr0S6
  iintro ⟨HO, Dgr0S6, #Rgr0S6, Ygr0S6⟩
  sl_exec_parts
  -- the wait for device 7's rows
  ihave #Igr0S7 := (invsAll_at m K c (.gr 0 7)) $$ Hinv
  ihave #Mgr0S7 := (mayWait_gr (F := F) c 0 7 (owesRedL c [6, 7] 1 + owesRedL c Tsd 2 + owesGatL c 1) hAbG3) $$ Hlev
  iapply (wp_gat_recv m 𝒱₀ c 7 0 (by decide) hne7.symm (K (grCell c 0 7)) (sem_gr0_7 _) (gChunk_credit 0 7)) $$ [Cgr0S7 HO Pgr0S7]
  · isplitr; · iexact Igr0S7
    isplitl [Cgr0S7]; · iexact Cgr0S7
    isplitl [HO]; · iexact HO
    isplitr; · iexact Mgr0S7
    iexact Pgr0S7
  iintro ⟨HO, Dgr0S7, #Rgr0S7, Ygr0S7⟩
  -- rows 384 … 511 of the first activation joined, and the same rows of layer 1's partial product
  ihave Ggr0S6 := (grPay_canon m c 6 0) $$ Ygr0S6
  ihave Ggr0S7 := (grPay_canon m c 7 0) $$ Ygr0S7
  ihave GG3 := (gGroup_join c 0 3 fullShare (Gfun m c) 6 7 rfl rfl) $$ [Ggr0S6 Ggr0S7]
  · isplitl [Ggr0S6]; · iexact Ggr0S6
    iexact Ggr0S7
  ihave PG3 := (pGroup_join c 1 3 fullShare f0 6 7 rfl rfl) $$ [P1T6 P1T7]
  · isplitl [P1T6]; · iexact P1T6
    iexact P1T7
  sl_exec_parts
  -- the group stored is the canonical partial product on its rows; cut into its two chunks
  have eG3 : View.readAt (Elt F) (Memref.whole cc0_scratch2).view (Rect.unit (s := S3x512x256) ![0, 384, 0] S1x128x256.size inb_S3x512x256_S1x128x256_0_384_0).toLoadRect (Gfun m c)
      = groupOf (G0 m) 3 := read_G_group m c 0 3 ![0, 384, 0] rfl _
  have hw3 : ∀ i ∈ (rectGrp 1 3).set, segB1_sound1.sl.PG3_w1 m c f0 x3 x4 i = Pfun m c i :=
    stored_P1 m c 3 f0 _ rfl _ _ HEq.rfl (by
      unfold segB1_sound1.sl.r segB1_sound1.sl.r_1
      rw [e3, e4, eG3]
      rfl)
  ihave PG3 := (pGroup_split c 1 3 fullShare _ 6 7 rfl rfl) $$ PG3
  icases PG3 with ⟨P1T6, P1T7⟩
  have hw3T := agree_chunks 1 3 6 7 rfl rfl _ _ hw3
  ihave P1T6 := (Entails.of_eq (pChunk_congr c 1 6 fullShare hw3T.1)) $$ P1T6
  ihave P1T7 := (Entails.of_eq (pChunk_congr c 1 7 fullShare hw3T.2)) $$ P1T7
  -- the copy of chunk 6 to device 6
  ihave #Irr1T6 := (invsAll_at m K 6 (.rr 1 c)) $$ Hinv
  ihave #Rrr1T6 := (reachedAll_at 6 (.rr 1 c)) $$ Hreach
  ihave HO := (Entails.of_eq (congrArg (fun o => owes (c : Thread nD τ) o _) (debt_peel c 6 [7] 1 (owesRedL c Tsd 2) (owesGatL c 1)))) $$ HO
  iapply (wp_red_send m 𝒱₀ c 6 1 hne6 (K (rsCell c 1)) (K (rrCell 6 1 c)) (dev29_eq _) (pchunk_lit1_6 _ _) (slot_off44 c _ _)
      (congrArg SemLoc.dma (sem_rs1 _)) (congrArg SemLoc.dma (sem_off43 c _)) (owesRedL c [7] 1 + owesRedL c Tsd 2 + owesGatL c 1) fd6)
    $$ [P1T6 Drr1T6 HO Trs1T6 Trr1T6]
  · isplitr; · iexact Irs1
    isplitr; · iexact Irr1T6
    isplitl [P1T6]; · iexact P1T6
    isplitl [Drr1T6]; · iexact Drr1T6
    isplitl [HO]; · iexact HO
    isplitl [Trs1T6]; · iexact Trs1T6
    isplitr; · iexact Rrs1
    isplitl [Trr1T6]; · iexact Trr1T6
    iexact Rrr1T6
  iintro ⟨Crs1T6, HO⟩
  sl_exec_parts
  -- the copy of chunk 7 to device 7
  ihave #Irr1T7 := (invsAll_at m K 7 (.rr 1 c)) $$ Hinv
  ihave #Rrr1T7 := (reachedAll_at 7 (.rr 1 c)) $$ Hreach
  ihave HO := (Entails.of_eq (congrArg (fun o => owes (c : Thread nD τ) o _) (debt_peel c 7 [] 1 (owesRedL c Tsd 2) (owesGatL c 1)))) $$ HO
  iapply (wp_red_send m 𝒱₀ c 7 1 hne7 (K (rsCell c 1)) (K (rrCell 7 1 c)) (dev30_eq _) (pchunk_lit1_7 _ _) (slot_off46 c _ _)
      (congrArg SemLoc.dma (sem_rs1 _)) (congrArg SemLoc.dma (sem_off45 c _)) (owesRedL c [] 1 + owesRedL c Tsd 2 + owesGatL c 1) fd7)
    $$ [P1T7 Drr1T7 HO Trs1T7 Trr1T7]
  · isplitr; · iexact Irs1
    isplitr; · iexact Irr1T7
    isplitl [P1T7]; · iexact P1T7
    isplitl [Drr1T7]; · iexact Drr1T7
    isplitl [HO]; · iexact HO
    isplitl [Trs1T7]; · iexact Trs1T7
    isplitr; · iexact Rrs1
    isplitl [Trr1T7]; · iexact Trr1T7
    iexact Rrr1T7
  iintro ⟨Crs1T7, HO⟩
  ihave P1T1 := (Entails.of_eq (congrArg (fun t => (piece c (pChunk 1 t) fullShare (Pfun m c) : sProp 𝕄)) hc.symm)) $$ P1T1
  ihave P1own := (Entails.of_eq (pRows_eq c 1 c fullShare (Pfun m c)).symm) $$ P1T1
  sl_exec_parts
  have eOwn : View.readAt (Elt F) (Memref.whole cc0_scratch0).view (Rect.unit (s := S3x512x256) (k0_off47 c) S1x64x256.size (k0_off47_inb c)).toLoadRect (Pfun m c)
      = chunkOf (P1 m c) c := read_P_chunk m c 1 c (k0_off47 c) (k0_off47_eq c) _
  iapply (ret_intro _ Kt c)
  iapply (Entails.of_eq (congrArg (fun x => (Kt ⟨k0_pay14 x, segB1_sound1.sl.v466 c⟩ : sProp 𝕄)) eOwn.symm))
  ihave GG0 := (gGroup_split c 0 0 fullShare (Gfun m c) 0 1 rfl rfl) $$ GG0
  icases GG0 with ⟨G0T0, G0T1⟩
  ihave GG1 := (gGroup_split c 0 1 fullShare (Gfun m c) 2 3 rfl rfl) $$ GG1
  icases GG1 with ⟨G0T2, G0T3⟩
  ihave GG2 := (gGroup_split c 0 2 fullShare (Gfun m c) 4 5 rfl rfl) $$ GG2
  icases GG2 with ⟨G0T4, G0T5⟩
  ihave GG3 := (gGroup_split c 0 3 fullShare (Gfun m c) 6 7 rfl rfl) $$ GG3
  icases GG3 with ⟨G0T6, G0T7⟩
  ihave G0T1 := (Entails.of_eq (congrArg (fun t => (piece c (gChunk 0 t) fullShare (Gfun m c) : sProp 𝕄)) hc.symm)) $$ G0T1
  ihave P1own := (Entails.of_eq (pRows_eq c 1 c fullShare (Pfun m c))) $$ P1own
  ihave X3 := (stg_of_whole c cc0_stg3_0 (argW m c 1) x3 hx3) $$ X3
  ihave X4 := (stg_of_whole c cc0_stg4_0 (argV m c 1) x4 hx4) $$ X4
  ihave HO := (Entails.of_eq (congrArg (fun o => owes (c : Thread nD τ) o _) (debt_done c 1 (owesRedL c Tsd 2) (owesGatL c 1)))) $$ HO
  iapply Hk
  isplitr
  · isplitr; · iexact Hinv
    isplitr; · iexact Hreach
    iexact Hlev
  isplitr; · ipureintro; trivial
  isplitl [HO]; · iexists _; iexact HO
  isplitl [GTok1]; · iexact GTok1
  isplitl [GDest1]; · iexact GDest1
  isplitl [PRed1]; · iexact PRed1
  isplitl [PGs1]; · iexact PGs1
  isplitl [PGr1]; · iexact PGr1
  isplitl [Crs1T0 Crs1T2 Crs1T3 Crs1T4 Crs1T5 Crs1T6 Crs1T7]
  · isplitl [Crs1T0]; · iexact Crs1T0
    isplitl [Crs1T2]; · iexact Crs1T2
    isplitl [Crs1T3]; · iexact Crs1T3
    isplitl [Crs1T4]; · iexact Crs1T4
    isplitl [Crs1T5]; · iexact Crs1T5
    isplitl [Crs1T6]; · iexact Crs1T6
    iexact Crs1T7
  isplitl [HL2]; · iexact HL2
  isplitl [HPD0]; · iexact HPD0
  isplitl [Dgr0S0 Dgr0S2 Dgr0S3 Dgr0S4 Dgr0S5 Dgr0S6 Dgr0S7]
  · isplitl [Dgr0S0]; · iexact Dgr0S0
    isplitl [Dgr0S2]; · iexact Dgr0S2
    isplitl [Dgr0S3]; · iexact Dgr0S3
    isplitl [Dgr0S4]; · iexact Dgr0S4
    isplitl [Dgr0S5]; · iexact Dgr0S5
    isplitl [Dgr0S6]; · iexact Dgr0S6
    iexact Dgr0S7
  isplitl [HPrest]; · iexact HPrest
  isplitl [PL0]; · iapply (slab_ex c 0 f0); iexact PL0
  isplitl [P1own]; · iapply (ex_intro c (pChunk 1 c) (Pfun m c)); iexact P1own
  isplitl [PL2]; · iapply (slab_ex c 2 f0); iexact PL2
  isplitl [HSB0]; · iexact HSB0
  isplitl [HR1c]; · iexact HR1c
  isplitl [HR2c]; · iexact HR2c
  isplitl [G0T0 G0T1 G0T2 G0T3 G0T4 G0T5 G0T6 G0T7]
  · isplitl [G0T1]; · iapply (ex_intro c (gChunk 0 c) (Gfun m c)); iexact G0T1
    isplitl [G0T0]; · iapply (ex_intro c (gChunk 0 0) (Gfun m c)); iexact G0T0
    isplitl [G0T2]; · iapply (ex_intro c (gChunk 0 2) (Gfun m c)); iexact G0T2
    isplitl [G0T3]; · iapply (ex_intro c (gChunk 0 3) (Gfun m c)); iexact G0T3
    isplitl [G0T4]; · iapply (ex_intro c (gChunk 0 4) (Gfun m c)); iexact G0T4
    isplitl [G0T5]; · iapply (ex_intro c (gChunk 0 5) (Gfun m c)); iexact G0T5
    isplitl [G0T6]; · iapply (ex_intro c (gChunk 0 6) (Gfun m c)); iexact G0T6
    iapply (ex_intro c (gChunk 0 7) (Gfun m c)); iexact G0T7
  isplitl [G1c]; · iexact G1c
  isplitl [HCA2]; · iexact HCA2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segB1_sound1' depends on axioms: [propext, Classical.choice, Quot.sound] -/
#guard_msgs in #print axioms segB1_sound1

end Cert.KernelProof

end
-- ==== Proof.K.BodySegB2_d1.lean ====
import proofs.«900993_g7700000000000994_dist_mlpseq_tp1d_rep_bs_b512_d256_h512_v7x_i8_bf16_1_alg».proof.Proof.K.BodySegBCut
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 1 on the device at position 1: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound1 (c : Dev nD) (hc : c = 1) (K : GSem nD τ sig → ℕ) (Kt : PUnit → sProp 𝕄) (v463 : FVec F S64x256 .f32) (v466 : BitVec 32) :
    iprop(midB m K c [(0 : Dev nD), 2, 3, 4, 5, 6, 7] v463 ∗ (mid2 m K c [(0 : Dev nD), 2, 3, 4, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : ¬ k0_cond34 c = 1#1 := fun h => (cond34_iff c).mp h hc
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 2, 3, 4, 5, 6, 7] 2) := by
    unfold owesRedL
    simp only [List.map_cons, List.map_nil, List.sum_cons, List.sum_nil]
    owes_above
  have hdebt : owesRedL c [(0 : Dev nD), 2, 3, 4, 5, 6, 7] 2 + owesGatL c 1
      = owesRedL c [(0 : Dev nD), 2, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 2, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound1.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound1.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound1.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound1.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound1.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound1.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound1.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound1.sl.r_2 m c a1 a2 a3 a4 a5 a6) (segB2_sound1.sl.v572 m c a7) = red1 m c := by
    intro a1 a2 a3 a4 a5 a6 a7
    unfold segB2_sound1.sl.r_2 segB2_sound1.sl.r_1 segB2_sound1.sl.r
    rw [e476, e492, e508, e524, e540, e556, e572]
    rfl
  have hG1 : ∀ i ∈ (gChunk 1 c).view.set, segB2_sound1.sl.G1c_w1 m c g1 fs1 fs2 fs3 fs4 fs5 fs6 fs7 i = Gfun m c i := by
    intro i hi
    unfold segB2_sound1.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelProof.segB2_sound1' depends on axioms: [propext, Classical.choice, Quot.sound] -/
#guard_msgs in #print axioms segB2_sound1

end Cert.KernelProof

end
-- ==== Proof.K.BodySegC1_d1.lean ====
import proofs.«900993_g7700000000000994_dist_mlpseq_tp1d_rep_bs_b512_d256_h512_v7x_i8_bf16_1_alg».proof.Proof.K.BodySegC1Lib
import Idealize.ShloMosaic.Lib.Tactic

/-! The first half of layer 2 on the device at position 1: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 1 owes for layer 2, the summands in the reverse of the order its sends pay them. -/
theorem owesRedL_rev_d1 (c : Dev nD) :
    owesRedL c [(0 : Dev nD), 2, 3, 4, 5, 6, 7] 2 = 0 + T2 c 7 + T2 c 6 + T2 c 5 + T2 c 4 + T2 c 3 + T2 c 2 + T2 c 0 := by
  unfold owesRedL T2
  simp only [List.map, List.sum_cons, List.sum_nil]
  abel

theorem segC1_sound1 (c : Dev nD) (hc : c = 1) (K : GSem nD τ sig → ℕ) (Kt : PUnit → sProp 𝕄) :
    iprop(mid2 m K c [(0 : Dev nD), 2, 3, 4, 5, 6, 7] ∗ (mid3 m K c [(0 : Dev nD), 2, 3, 4, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 := (condw0_iff c).mpr hne0
  have hw1 : ¬ _ := fun h => (condw1_iff c).mp h hc
  have hw2 := (condw2_iff c).mpr hne2
  have hw3 := (condw3_iff c).mpr hne3
  have hw4 := (condw4_iff c).mpr hne4
  have hw5 := (condw5_iff c).mpr hne5
  have hw6 := (condw6_iff c).mpr hne6
  have hw7 := (condw7_iff c).mpr hne7
  have hg43 : k0_cond43 c = 1#1 := (cond43_iff c).mpr hne0
  have hg44 : ¬ k0_cond44 c = 1#1 := fun h => (cond44_iff c).mp h hc
  have hg47 : k0_cond47 c = 1#1 := (cond47_iff c).mpr hne2
  have hg48 : k0_cond48 c = 1#1 := (cond48_iff c).mpr hne3
  have hg51 : k0_cond51 c = 1#1 := (cond51_iff c).mpr hne4
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts2, Tr2⟩, ⟨Ts3, Tr3⟩, ⟨Ts4, Tr4⟩, ⟨Ts5, Tr5⟩, ⟨Ts6, Tr6⟩, ⟨Ts7, Tr7⟩⟩, -⟩, HposRed2, -, Hdest⟩, ⟨⟨Pg0, Cg0⟩, ⟨Pg2, Cg2⟩, ⟨Pg3, Cg3⟩, ⟨Pg4, Cg4⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d1 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 5 + T2 c 4 + T2 c 3 + T2 c 2 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  -- the device's own rows are chunk 1 of the group
  ihave Gc1 := (Entails.of_eq (congrArg (fun t : Dev nD => (piece c (gChunk 1 t) fullShare (Gfun m c) : sProp 𝕄)) hc)) $$ Hg1c
  ihave GG0 := (gGroup_join c 1 0 fullShare (Gfun m c) 0 1 rfl rfl) $$ [Gc0 Gc1]
  · isplitl [Gc0] <;> iassumption
  sl_exec
  -- group 0 of layer 2 now holds the device's partial product
  unfold segC1_sound1.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 5 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 6 + T2 c 5 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound1.sl.PG1_w1 segC1_sound1.sl.r segC1_sound1.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound1.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound1.sl.PG3_w1 segC1_sound1.sl.r_2 segC1_sound1.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs2 Cs3 Cs4 Cs5 Cs6 Cs7]
  · rw [sepL7]
    isplitl [Cs0]; · iexact Cs0
    isplitl [Cs2]; · iexact Cs2
    isplitl [Cs3]; · iexact Cs3
    isplitl [Cs4]; · iexact Cs4
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg0 Pg2 Pg3 Pg4 Pg5 Pg6 Pg7]
  · rw [sepL7]
    isplitl [Pg0]; · iexact Pg0
    isplitl [Pg2]; · iexact Pg2
    isplitl [Pg3]; · iexact Pg3
    isplitl [Pg4]; · iexact Pg4
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A01]
    · iapply (Entails.of_eq (congrArg (fun t : Dev nD => (ex (F := F) c (pChunk 0 t) : sProp 𝕄)) hc.symm))
      iapply (ex_of c (pChunk 0 1) _); iexact A01
    isplitl [A00]; · iapply (ex_of c (pChunk 0 0) _); iexact A00
    isplitl [A02]; · iapply (ex_of c (pChunk 0 2) _); iexact A02
    isplitl [A03]; · iapply (ex_of c (pChunk 0 3) _); iexact A03
    isplitl [A04]; · iapply (ex_of c (pChunk 0 4) _); iexact A04
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A11]
    · iapply (Entails.of_eq (congrArg (fun t : Dev nD => (ex (F := F) c (pChunk 1 t) : sProp 𝕄)) hc.symm))
      iapply (ex_of c (pChunk 1 1) _); iexact A11
    isplitl [A10]; · iapply (ex_of c (pChunk 1 0) _); iexact A10
    isplitl [A12]; · iapply (ex_of c (pChunk 1 2) _); iexact A12
    isplitl [A13]; · iapply (ex_of c (pChunk 1 3) _); iexact A13
    isplitl [A14]; · iapply (ex_of c (pChunk 1 4) _); iexact A14
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B21]
  · iapply (Entails.of_eq (congrArg (fun t : Dev nD => (piece c (pChunk 2 t) fullShare (Pfun m c) : sProp 𝕄)) hc.symm)); iexact B21
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G11]
    · iapply (Entails.of_eq (congrArg (fun t : Dev nD => (ex (F := F) c (gChunk 1 t) : sProp 𝕄)) hc.symm))
      iapply (ex_of c (gChunk 1 1) _); iexact G11
    isplitl [G10]; · iapply (ex_of c (gChunk 1 0) _); iexact G10
    isplitl [G12]; · iapply (ex_of c (gChunk 1 2) _); iexact G12
    isplitl [G13]; · iapply (ex_of c (gChunk 1 3) _); iexact G13
    isplitl [G14]; · iapply (ex_of c (gChunk 1 4) _); iexact G14
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelProof.segC1_sound1' depends on axioms: [propext, Classical.choice, Quot.sound] -/
#guard_msgs in #print axioms segC1_sound1

end Cert.KernelProof

end
-- ==== Proof.K.BodySegC2_d1.lean ====
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.BodyExit
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 2 on the device at position 1: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound1 (c : Dev nD) (hc : c = 1) (K : GSem nD τ sig → ℕ) (Kt : PUnit → sProp 𝕄) :
    iprop(mid3 m K c [(0 : Dev nD), 2, 3, 4, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 2, 3, 4, 5, 6, 7]).toFinset := by subst hc; decide
  have hnd : ([(0 : Dev nD), 2, 3, 4, 5, 6, 7]).Nodup := by decide
  -- the guards of the seven waits on the reduce-send cell: every literal target but the device itself
  have hg57 : k0_cond57 c = 1#1 := (cond57_iff c).mpr (by rw [hc]; decide)
  have hg58 : ¬ k0_cond58 c = 1#1 := fun h => (cond58_iff c).mp h hc
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound1.sl.v846 m c : Vec F S1x64x256 .bf16) = chunkOf (P2 m c) c := own_chunk_read m c _
  have e861 : ∀ a, (segC2_sound1.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound1.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound1.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound1.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound1.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound1.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound1.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound1.sl.r_3 m c a1 a2 a3 a4 a5 a6) (segC2_sound1.sl.v957 m c a7) = red2 m c := by
    intro a1 a2 a3 a4 a5 a6 a7
    unfold segC2_sound1.sl.r_3 segC2_sound1.sl.r_2 segC2_sound1.sl.r_1 segC2_sound1.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound1.sl.r_3 m c fs1 fs2 fs3 fs4 fs5 fs6) (segC2_sound1.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelProof.segC2_sound1' depends on axioms: [propext, Classical.choice, Quot.sound] -/
#guard_msgs in #print axioms segC2_sound1

end Cert.KernelProof

end
-- ==== Proof.K.BodySegA1a_d2.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.PreludeDevs
import proofs.«900993_g7700000000000994_dist_mlpseq_tp1d_rep_bs_b512_d256_h512_v7x_i8_bf16_1_alg».proof.Proof.K.StepsEntry
import Idealize.ShloMosaic.Lib.Tactic

/-! The entry and layer 0 on device 2, first half: from the body's start to the point where the device has enqueued its
    seven reduce copies of layer 0 and read its own chunk.

    The device signals its seven peers along the ring, one unit to each barrier cell: each signal pays the device's
    duty at that cell and hands the peer the pieces of the device's buffers the peer's copies will land in. It waits for
    the seven signals to itself, the whole round of its barrier cell, and receives in turn the pieces of its peers'
    buffers its own copies land in. It then makes layer 0's partial product from the staged arguments by the body's own
    arithmetic and stores it over layer 0 of the partial-product buffer, which from then on holds the canonical partial
    product there; cut into 64-row chunks, each chunk but the device's own is lent to the copy towards the device that
    reduces those rows, which pays duty `t` of the device's reduce-send cell and the one duty of the target's
    reduce-receive cell, settles what the device owed that cell, and earns the credit for a later wait on the send
    cell. The own chunk is read last, as the accumulation's first term. What the device holds then — the tokens,
    positions and credit of everything still to come, regrouped layer by layer — is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 3, 4, 5, 6, 7]

/-- A step rule stated with its continuation as a wand, read with the continuation as a second conjunct. -/
private theorem step_uncurry {P R G : sProp 𝕄} (h : P ⊢ iprop(R -∗ G)) : iprop(P ∗ R) ⊢ G := by
  iintro ⟨HP, HR⟩
  iapply (h) $$ [HP]
  · iexact HP
  iexact HR

/-- The start holds every cell's invariant and round-0 fact for good. -/
private theorem pre_dup (K : GSem nD τ sig → ℕ) (c : Dev nD) : bodyPre m K c ⊢ iprop((invsAll m K ∗ reachedAll (F := F)) ∗ bodyPre m K c) := by
  unfold bodyPre ghost
  iintro ⟨⟨⟨#HI, #HR, HP, HT⟩, HC, Hlev, S0, S1, S2⟩, HO, Hstg⟩
  isplitr
  · isplitr; · iexact HI
    iexact HR
  isplitl [HP HT HC Hlev S0 S1 S2]
  · isplitl [HP HT]
    · isplitr; · iexact HI
      isplitr; · iexact HR
      isplitl [HP]; · iexact HP
      iexact HT
    isplitl [HC]; · iexact HC
    isplitl [Hlev]; · iexact Hlev
    isplitl [S0]; · iexact S0
    isplitl [S1]; · iexact S1
    iexact S2
  isplitl [HO]; · iexact HO
  iexact Hstg

/-- Two chains of seven, term by term. -/
private theorem zip7 {M : Type} [URA M] (a1 a2 a3 a4 a5 a6 a7 b1 b2 b3 b4 b5 b6 b7 : sProp M) :
    iprop((a1 ∗ a2 ∗ a3 ∗ a4 ∗ a5 ∗ a6 ∗ a7) ∗ (b1 ∗ b2 ∗ b3 ∗ b4 ∗ b5 ∗ b6 ∗ b7))
      ⊢ iprop((a1 ∗ b1) ∗ (a2 ∗ b2) ∗ (a3 ∗ b3) ∗ (a4 ∗ b4) ∗ (a5 ∗ b5) ∗ (a6 ∗ b6) ∗ (a7 ∗ b7)) := by
  iintro ⟨⟨A1, A2, A3, A4, A5, A6, A7⟩, ⟨B1, B2, B3, B4, B5, B6, B7⟩⟩
  isplitl [A1 B1]; · isplitl [A1]; · iexact A1
                     iexact B1
  isplitl [A2 B2]; · isplitl [A2]; · iexact A2
                     iexact B2
  isplitl [A3 B3]; · isplitl [A3]; · iexact A3
                     iexact B3
  isplitl [A4 B4]; · isplitl [A4]; · iexact A4
                     iexact B4
  isplitl [A5 B5]; · isplitl [A5]; · iexact A5
                     iexact B5
  isplitl [A6 B6]; · isplitl [A6]; · iexact A6
                     iexact B6
  isplitl [A7]; · iexact A7
  iexact B7

/-- What the seven entry signals heard hand the device, sorted by the layer whose copies land in it. -/
private theorem barPays_fold (c : Dev nD) (Ts : List (Dev nD)) (hTs : peers c = Ts.toFinset) (hnd : Ts.Nodup) :
    bigSep (peers c) (fun p => barPay (F := F) c p) ⊢ iprop(layerDest c Ts 0 ∗ layerDest c Ts 1 ∗ layerDest c Ts 2) := by
  unfold barPay layerDest
  simp only [bigSep_sep']
  rw [if_pos (show (0 : Fin 3).val < 2 by decide), if_pos (show (1 : Fin 3).val < 2 by decide), if_neg (show ¬ (2 : Fin 3).val < 2 by decide)]
  rw [bigSep_eq_bigSepL_of_eq Ts hTs hnd (fun p => iprop(∃ f, piece p (rSlot 0 c) fullShare f)),
    bigSep_eq_bigSepL_of_eq Ts hTs hnd (fun p => iprop(∃ f, piece p (rSlot 1 c) fullShare f)),
    bigSep_eq_bigSepL_of_eq Ts hTs hnd (fun p => iprop(∃ f, piece p (rSlot 2 c) fullShare f)),
    bigSep_eq_bigSepL_of_eq (ringF c) (peers_eq_fwd c) (fwd_nodup c) (fun p => iprop(∃ f, piece p (gChunk 0 c) fullShare f)),
    bigSep_eq_bigSepL_of_eq (ringF c) (peers_eq_fwd c) (fwd_nodup c) (fun p => iprop(∃ f, piece p (gChunk 1 c) fullShare f))]
  iintro ⟨A0, A1, A2, G0, G1, -⟩
  isplitl [A0 G0]; · isplitl [A0]; · iexact A0
                     iexact G0
  isplitl [A1 G1]; · isplitl [A1]; · iexact A1
                     iexact G1
  isplitl [A2]; · iexact A2
  iempintro

/-- Layer 0's destinations: the seven receive slots by target, and the gather chunks along the ring. -/
private theorem layerDest0_eq (c : Dev nD) : (layerDest (F := F) c Tsd 0 : sProp 𝕄) =
    iprop(((∃ fd, piece 0 (rSlot 0 c) fullShare fd) ∗ (∃ fd, piece 1 (rSlot 0 c) fullShare fd) ∗ (∃ fd, piece 3 (rSlot 0 c) fullShare fd) ∗ (∃ fd, piece 4 (rSlot 0 c) fullShare fd) ∗ (∃ fd, piece 5 (rSlot 0 c) fullShare fd) ∗ (∃ fd, piece 6 (rSlot 0 c) fullShare fd) ∗ (∃ fd, piece 7 (rSlot 0 c) fullShare fd))
      ∗ bigSepL (ringF c) (fun p => iprop(∃ fd, piece p (gChunk 0 c) fullShare fd))) := by
  unfold layerDest
  rw [if_pos (show (0 : Fin 3).val < 2 by decide)]
  rfl

/-- Chunk `t` of layer 0 after the store of the layer's partial product holds the canonical contents. -/
private theorem chunk0_stored (c t : Dev nD) (f0 : Buf (Elt F) ((c : Thread nD τ).loc cc0_scratch0))
    (inb : ∀ a, (![0, 0, 0] : Fin 3 → Nat) a + S1x512x256.size a ≤ S3x512x256.size a) :
    (piece c (pChunk 0 t) fullShare ((Memref.whole cc0_scratch0).view.writes (Elt F) f0
        [⟨Rect.unit (s := S3x512x256) ![0, 0, 0] S1x512x256.size inb, P0 m c⟩]) : sProp 𝕄)
      = piece c (pChunk 0 t) fullShare (Pfun m c) := by
  refine piece_congr c (pChunk 0 t) fullShare fun i hi => ?_
  refine write_P0 m c f0 ![0, 0, 0] rfl inb i ?_
  rw [set_pChunk] at hi
  have hs : i ∈ (rectSlab 0).set := by
    rw [rectSlab_eq]; exact Finset.mem_biUnion.mpr ⟨t, Finset.mem_univ _, hi⟩
  have hs' : i ∈ (pSlab 0).view.set := by rw [set_pSlab]; exact hs
  exact hs'

/-- The eight chunks of layer `l` of the partial-product buffer, each at some contents. -/
private def pLayerEx (c : Dev nD) (l : Fin 3) : sProp 𝕄 := bigSep (Finset.univ : Finset (Dev nD)) (fun t => ex (F := F) c (pChunk l t))

/-- After the store of layer 0's partial product the partial-product buffer is: its eight chunks of layer 0 holding the
    canonical contents, and the chunks of the two later layers at whatever they hold. -/
private theorem slab0_cut (c : Dev nD) (f0 : Buf (Elt F) ((c : Thread nD τ).loc cc0_scratch0))
    {a0 : Vec F S512x256 .f32} {a1 : Vec F S256x512 .f32} {a2 : Vec F S512x256 .f32}
    (h0 : a0 = argX m c) (h1 : a1 = argW m c 0) (h2 : a2 = argV m c 0)
    (inb : ∀ a, (![0, 0, 0] : Fin 3 → Nat) a + S1x512x256.size a ≤ S3x512x256.size a) :
    ((Memref.whole cc0_scratch0).view.loc (c : Thread nD τ) ↦[(Memref.whole cc0_scratch0).view.set]{fullShare}
        ((Memref.whole cc0_scratch0).view.writes (Elt F) f0 [⟨Rect.unit (s := S3x512x256) ![0, 0, 0] S1x512x256.size inb, k0_pay1 a0 a1 a2⟩]) : sProp 𝕄)
      ⊢ iprop(bigSep (Finset.univ : Finset (Dev nD)) (fun t => piece c (pChunk 0 t) fullShare (Pfun m c))
          ∗ pLayerEx c 1 ∗ pLayerEx c 2) := by
  unfold pLayerEx
  subst h0 h1 h2
  refine (whole0_split c fullShare _).trans ?_
  rw [bigSep_univ_prod, bigSep_fin3]
  exact sep_mono (Entails.of_eq (bigSep_congr fun t _ => chunk0_stored m c t f0 inb))
    (sep_mono (bigSep_mono fun t _ => piece_ex c _ _ _) (bigSep_mono fun t _ => piece_ex c _ _ _))

private theorem zero2 : (![0, 0] : Fin 2 → Nat) = fun _ => 0 := by funext a; fin_cases a <;> rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; rfl
  iapply (Entails.of_eq (congrArg (fun I => pointsTo ((c : Thread nD τ).loc b) I fullShare x) (View.set_whole b)))
  iexact H

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

/-- What is still owed once the entry signals and layer 0's reduce copies are out, and the whole debt at launch with
    those last, in the reverse of the order they are settled. -/
private abbrev restA (c : Dev nD) : CellTallies nD τ sig Unit := owesRedL c Tsd 1 + owesRedL c Tsd 2 + owesGatL c 0 + owesGatL c 1

private theorem debt_rev (c : Dev nD) : debt c 0 1 3 4 5 6 7 =
    restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 1 0 c) () N64 + tallyAt (rrCell 0 0 c) () N64
      + tallyAt (barCell (fwd 7 c)) () 1 + tallyAt (barCell (fwd 6 c)) () 1 + tallyAt (barCell (fwd 5 c)) () 1 + tallyAt (barCell (fwd 4 c)) () 1
      + tallyAt (barCell (fwd 3 c)) () 1 + tallyAt (barCell (fwd 2 c)) () 1 + tallyAt (barCell (fwd 1 c)) () 1 := by
  unfold debt owesBar owesRedLit owesGatA restA owesRedL owesGatL ringF
  simp only [amt_rSlot, amt_gChunk, List.map, List.sum_cons, List.sum_nil]
  abel

private theorem above_restA (c : Dev nD) : Above 1 (restA c) := by
  unfold restA owesRedL owesGatL ringF
  simp only [List.map, List.sum_cons, List.sum_nil]
  owes_above

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- Seven copies of one assertion, as the family over the literal peers. -/
private theorem creds7 (a : sProp 𝕄) : iprop(a ∗ a ∗ a ∗ a ∗ a ∗ a ∗ a) ⊢ bigSepL Tsd (fun _ => a) := .rfl

/-- Two chains along the ring forward, term by term. -/
private theorem zipF (c : Dev nD) (Φ Ψ : Dev nD → sProp 𝕄) : iprop(alongF c Φ ∗ alongF c Ψ) ⊢ bigSepL (ringF c) (fun p => iprop(Φ p ∗ Ψ p)) :=
  zip7 _ _ _ _ _ _ _ _ _ _ _ _ _ _
/-- Two chains along the ring backward, term by term. -/
private theorem zipB (c : Dev nD) (Φ Ψ : Dev nD → sProp 𝕄) : iprop(alongB c Φ ∗ alongB c Ψ) ⊢ bigSepL (ringB c) (fun p => iprop(Φ p ∗ Ψ p)) :=
  zip7 _ _ _ _ _ _ _ _ _ _ _ _ _ _
/-- Two chains over the literal peers, term by term. -/
private theorem zipT (Φ Ψ : Dev nD → sProp 𝕄) : iprop(lits2 Φ ∗ lits2 Ψ) ⊢ bigSepL Tsd (fun p => iprop(Φ p ∗ Ψ p)) :=
  zip7 _ _ _ _ _ _ _ _ _ _ _ _ _ _

/-- A layer's reduce positions from the send cell's, the receive cells' and their credit. -/
private theorem posRed_intro (c : Dev nD) (l : Fin 3) :
    iprop(atPos ER (rsCell c l) 0 ∅ 0 ∗ alongB c (fun s => (atPos ER (rrCell c l s) 0 ∅ 0 : sProp 𝕄))
      ∗ alongB c (fun s => (cred (tallyAt (rrCell c l s) () N64) : sProp 𝕄))) ⊢ (posRed (F := F) c l : sProp 𝕄) := by
  unfold posRed
  iintro ⟨A, B, C⟩
  isplitl [A]; · iexact A
  iapply (zipB c _ _)
  isplitl [B]; · iexact B
  iexact C
/-- A layer's gather-send position. -/
private theorem posGs_intro (c : Dev nD) (l : Fin 3) : (atPos ER (gsCell c l) 0 ∅ 0 : sProp 𝕄) ⊢ posGs (F := F) c l := by
  unfold posGs
  exact .rfl
/-- A layer's gather-receive positions with their credit. -/
private theorem posGr_intro (c : Dev nD) (l : Fin 3) :
    iprop(lits2 (fun s => (atPos ER (grCell c l s) 0 ∅ 0 : sProp 𝕄)) ∗ lits2 (fun s => (cred (tallyAt (grCell c l s) () N64) : sProp 𝕄)))
      ⊢ (posGr (F := F) c Tsd l : sProp 𝕄) := by
  unfold posGr
  exact zipT _ _

/-- A later layer's resources from its tokens, positions, credit and destinations. -/
private theorem layerRes1_intro (c : Dev nD) :
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1) ∗ layerDest c Tsd 1) ⊢ (layerRes (F := F) c Tsd 1 : sProp 𝕄) := by
  unfold layerRes layerToks
  rw [if_pos (show (1 : Fin 3).val < 2 by decide), if_pos (show (1 : Fin 3).val < 2 by decide)]
private theorem layerRes2_intro (c : Dev nD) :
    iprop((bigSepL Tsd (fun t => iprop(dutyTok ER (rsCell c 2) 0 t ∗ dutyTok ER (rrCell t 2 c) 0 c)) ∗ emp)
      ∗ posRed c 2 ∗ emp ∗ layerDest c Tsd 2) ⊢ (layerRes (F := F) c Tsd 2 : sProp 𝕄) := by
  unfold layerRes layerToks
  rw [if_neg (show ¬ (2 : Fin 3).val < 2 by decide), if_neg (show ¬ (2 : Fin 3).val < 2 by decide)]

private theorem pLayerEx_def (c : Dev nD) (l : Fin 3) :
    (pLayerEx (F := F) c l : sProp 𝕄) = bigSep (Finset.univ : Finset (Dev nD)) (fun t => ex (F := F) c (pChunk l t)) := rfl

/-- The last layer's chunks of the gather buffer, all held. -/
private theorem gath2 (c : Dev nD) (hc : c = 2) (f : Buf (Elt F) ((c : Thread nD τ).loc cc0_scratch2)) :
    bigSep (Finset.univ : Finset (Dev nD)) (fun t => (piece c (gChunk 2 t) fullShare f : sProp 𝕄)) ⊢ chunksAll c Tsd 2 := by
  subst hc
  rw [bigSep_dev8]
  unfold chunksAll
  rw [bigSepL7]
  iintro ⟨H0, H1, H2, H3, H4, H5, H6, H7⟩
  isplitl [H2]; · iapply (ex_intro _ (gChunk 2 2) f); iexact H2
  isplitl [H0]; · iapply (ex_intro _ (gChunk 2 0) f); iexact H0
  isplitl [H1]; · iapply (ex_intro _ (gChunk 2 1) f); iexact H1
  isplitl [H3]; · iapply (ex_intro _ (gChunk 2 3) f); iexact H3
  isplitl [H4]; · iapply (ex_intro _ (gChunk 2 4) f); iexact H4
  isplitl [H5]; · iapply (ex_intro _ (gChunk 2 5) f); iexact H5
  isplitl [H6]; · iapply (ex_intro _ (gChunk 2 6) f); iexact H6
  iapply (ex_intro _ (gChunk 2 7) f); iexact H7

attribute [local irreducible] layerDest layerRes layerToks barPay pLayerEx

set_option hygiene false in
/-- The entry signal to the peer `j` places after the device: it pays with the head token and the head payload. -/
local macro "entry_signal" j:num eq:ident : tactic => `(tactic| (
  icases TB with ⟨Tb, TB⟩
  icases PB with ⟨Pb, PB⟩
  iapply (step_uncurry (wp_entry_signal m 𝒱₀ c (fwd $j c) (fwd_ne_nat $j (by decide) (by decide) c) (K (barCell (fwd $j c))) ($eq c _) rfl rfl _))
  isplitl [Tb Pb HO]
  · isplitr; · iapply (invsAll_at m K (fwd $j c) .bar); iexact Hinv
    isplitl [Tb]; · iexact Tb
    isplitr; · iapply (reached_at (fwd $j c) .bar); iexact Hreach
    isplitl [Pb]; · iexact Pb
    iexact HO
  iintro HO
  sl_exec_parts))

theorem segA1_sound2 (c : Dev nD) (hc : c = 2) (K : GSem nD τ sig → ℕ)
    (Kt : (Σ' (d0 : Dev nD) (v2 : BitVec 32) (v78 : FVec F S64x256 .f32) (v81 : BitVec 32) (v82 : BitVec 32), BitVec 32) → sProp 𝕄) :
    iprop(bodyPre m K c ∗ (∀ v78 v81 v82 c0, midA m K c Tsd v78 -∗ Kt ⟨c, devWord c, v78, v81, v82, c0⟩))
      ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have hne0 : c ≠ (0 : Dev nD) := by rw [hc]; decide
  have hne1 : c ≠ (1 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hg1 : k0_cond1 c = 1#1 := (cond1_iff c).mpr hne0
  have hg2 : k0_cond2 c = 1#1 := (cond2_iff c).mpr hne1
  have hg3 : ¬ k0_cond3 c = 1#1 := fun h => (cond3_iff c).mp h hc
  have hg4 : k0_cond4 c = 1#1 := (cond4_iff c).mpr hne3
  have hg5 : k0_cond5 c = 1#1 := (cond5_iff c).mpr hne4
  have hg6 : k0_cond6 c = 1#1 := (cond6_iff c).mpr hne5
  have hg7 : k0_cond7 c = 1#1 := (cond7_iff c).mpr hne6
  have hg8 : k0_cond8 c = 1#1 := (cond8_iff c).mpr hne7
  have hAbW : Above 1 (restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 1 0 c) () N64 + tallyAt (rrCell 0 0 c) () N64 : CellTallies nD τ sig Unit) :=
    (((((((above_restA c).add (above_rr (n := 1) (7 : Dev nD) (0 : Fin 3) c N64 (by decide))).add (above_rr (n := 1) (6 : Dev nD) (0 : Fin 3) c N64 (by decide))).add (above_rr (n := 1) (5 : Dev nD) (0 : Fin 3) c N64 (by decide))).add (above_rr (n := 1) (4 : Dev nD) (0 : Fin 3) c N64 (by decide))).add (above_rr (n := 1) (3 : Dev nD) (0 : Fin 3) c N64 (by decide))).add (above_rr (n := 1) (1 : Dev nD) (0 : Fin 3) c N64 (by decide))).add (above_rr (n := 1) (0 : Dev nD) (0 : Fin 3) c N64 (by decide))
  refine (sep_mono_left ((pre_dup m K c).trans (sep_mono_right (prelude_dev2 m K c hc)))).trans ?_
  unfold ctx toksFam posFam credsFam lits2 midA stagedIn scr
  rw [debt_rev]
  iintro ⟨⟨⟨#Hinv, #Hreach⟩, -, -, #Hlev, ⟨TB, ⟨⟨Trs0T0, Trs0T1, Trs0T3, Trs0T4, Trs0T5, Trs0T6, Trs0T7⟩, ⟨Trr0T0, Trr0T1, Trr0T3, Trr0T4, Trr0T5, Trr0T6, Trr0T7⟩⟩, ⟨TS1, TR1⟩, ⟨TS2, TR2⟩, ⟨TGS0, TGR0⟩, ⟨TGS1, TGR1⟩⟩, ⟨Abar, ⟨Ars0, Arr0⟩, ⟨Ars1, Arr1⟩, ⟨Ars2, Arr2⟩, ⟨Ags0, Agr0⟩, ⟨Ags1, Agr1⟩⟩, ⟨Cbar, Crr0, Crr1, Crr2, Cgr0, Cgr1⟩, HPrest, ⟨%f0, S0⟩, PB, ⟨%fs, SO0, SO1, SO2⟩, ⟨%fg, GO0, GO1, GO2⟩, ⟨%W, HO⟩, ⟨%x0, %hx0, X0⟩, ⟨%x1, %hx1, X1⟩, ⟨%x2, %hx2, X2⟩, X3, X4, X5, X6, H7⟩, Hk⟩
  ihave X0 := (whole_restate c cc0_stg0_0 x0) $$ X0
  ihave X1 := (whole_restate c cc0_stg1_0 x1) $$ X1
  ihave X2 := (whole_restate c cc0_stg2_0 x2) $$ X2
  ihave S0 := (whole_restate c cc0_scratch0 f0) $$ S0
  sl_unfold [segA1]
  sl_exec_parts
  entry_signal 1 dev1_eq
  entry_signal 2 dev2_eq
  entry_signal 3 dev3_eq
  entry_signal 4 dev4_eq
  entry_signal 5 dev5_eq
  entry_signal 6 dev6_eq
  icases TB with Tb
  icases PB with Pb
  iapply (step_uncurry (wp_entry_signal m 𝒱₀ c (fwd 7 c) (fwd_ne_nat 7 (by decide) (by decide) c) (K (barCell (fwd 7 c))) (dev7_eq c _) rfl rfl _))
  isplitl [Tb Pb HO]
  · isplitr; · iapply (invsAll_at m K (fwd 7 c) .bar); iexact Hinv
    isplitl [Tb]; · iexact Tb
    isplitr; · iapply (reached_at (fwd 7 c) .bar); iexact Hreach
    isplitl [Pb]; · iexact Pb
    iexact HO
  iintro HO
  sl_exec_parts
  ihave #Hmw := (mayWait_bar (F := F) c (restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 1 0 c) () N64 + tallyAt (rrCell 0 0 c) () N64) hAbW) $$ Hlev
  iapply (step_uncurry (wp_bar_wait m 𝒱₀ c (K (barCell c)) rfl rfl (O := restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 1 0 c) () N64 + tallyAt (rrCell 0 0 c) () N64) (W := W)))
  isplitl [Cbar HO Abar]
  · isplitr; · iapply (invsAll_at m K c .bar); iexact Hinv
    isplitl [Cbar]; · iexact Cbar
    isplitl [HO]; · iexact HO
    isplitr; · iexact Hmw
    iexact Abar
  iintro ⟨HO, Abar, #Rbar1, PBin⟩
  ihave PBin := (barPays_fold c Tsd (by rw [hc]; decide) (by decide)) $$ PBin
  icases PBin with ⟨D0, D1, D2⟩
  ihave S0 := (slab0_cut m c f0 ((Memref.readAt_unit_zero (Elt F) cc0_stg0_0 zero2 inb_S512x256_S512x256_0_0 x0).trans hx0)
      ((Memref.readAt_unit_zero (Elt F) cc0_stg1_0 zero2 inb_S256x512_S256x512_0_0 x1).trans hx1)
      ((Memref.readAt_unit_zero (Elt F) cc0_stg2_0 zero2 inb_S512x256_S512x256_0_0 x2).trans hx2) _) $$ S0
  icases S0 with ⟨P0s, P1s, P2s⟩
  ihave P0s := (Entails.of_eq (bigSep_dev8 _)) $$ P0s
  icases P0s with ⟨Q0, Q1, Q2, Q3, Q4, Q5, Q6, Q7⟩
  sl_exec_parts
  ihave D0 := (Entails.of_eq (layerDest0_eq c)) $$ D0
  icases D0 with ⟨⟨⟨%fd0, Drr0T0⟩, ⟨%fd1, Drr0T1⟩, ⟨%fd3, Drr0T3⟩, ⟨%fd4, Drr0T4⟩, ⟨%fd5, Drr0T5⟩, ⟨%fd6, Drr0T6⟩, ⟨%fd7, Drr0T7⟩⟩, DG0⟩
  ihave #Irs0 := (invsAll_at m K c (.rs 0)) $$ Hinv
  ihave #Rrs0 := (reached_at (F := F) c (.rs 0)) $$ Hreach
  -- the copy of chunk 0 to device 0
  ihave #Irr0T0 := (invsAll_at m K 0 (.rr 0 c)) $$ Hinv
  ihave #Rrr0T0 := (reached_at (F := F) 0 (.rr 0 c)) $$ Hreach
  iapply (wp_red_send m 𝒱₀ c 0 0 hne0 (K (rsCell c 0)) (K (rrCell 0 0 c)) (dev8_eq _) (pchunk_lit0_0 _ _) (slot_off2 c _ _)
      (congrArg SemLoc.dma (sem_rs0 _)) (congrArg SemLoc.dma (sem_off1 c _)) (restA c + tallyAt (rrCell 7 0 c) () N64 + tallyAt (rrCell 6 0 c) () N64 + tallyAt (rrCell 5 0 c) () N64 + tallyAt (rrCell 4 0 c) () N64 + tallyAt (rrCell 3 0 c) () N64 + tallyAt (rrCell 1 0 c) () N64) fd0)
    $$ [Q0 Drr0T0 HO Trs0T0 Trr0T0]
  · isplitr; · iexact Irs0
    isplitr; · iexact Irr0T0
    isplitl [Q0]; · iexact Q0
    isplitl [Drr0T0]; · iexact Drr0T0
    isplitl [HO]; · iexact HO
    isplitl [Trs0T0]; · iexact Trs0T0
    isplitr; · iexact Rrs0
    isplitl [Trr0T0]; · iexact Trr0T0
    iexact Rrr0T0
  iintro ⟨Crs0T0, HO⟩
  sl_exec_parts
  -- the copy of chunk 1 to device 1
  ihave #Irr0T1 := (invsAll_at m K 1 (.rr 0 c)) $$ Hinv
  ihave #Rrr0T1 := (reached_at (F := F) 1 (.rr 0 c)) $$ Hreach
  iapply (wp_red_send m 𝒱₀ c 1 0 hne1 (K (rsCell c 0)) (K (rrCell 1 0 c)) (dev9_eq _) (pchunk_lit0_1 _ _) (slot_off4 c _ _)
      (congrArg SemLoc.dma (sem_rs0 _)) (congrArg SemLoc.dma (sem_off3 c _)) (restA c + tallyAt (rrCell 7 0 c) () N64 + tallyAt (rrCell 6 0 c) () N64 + tallyAt (rrCell 5 0 c) () N64 + tallyAt (rrCell 4 0 c) () N64 + tallyAt (rrCell 3 0 c) () N64) fd1)
    $$ [Q1 Drr0T1 HO Trs0T1 Trr0T1]
  · isplitr; · iexact Irs0
    isplitr; · iexact Irr0T1
    isplitl [Q1]; · iexact Q1
    isplitl [Drr0T1]; · iexact Drr0T1
    isplitl [HO]; · iexact HO
    isplitl [Trs0T1]; · iexact Trs0T1
    isplitr; · iexact Rrs0
    isplitl [Trr0T1]; · iexact Trr0T1
    iexact Rrr0T1
  iintro ⟨Crs0T1, HO⟩
  sl_exec_parts
  -- the copy of chunk 3 to device 3
  ihave #Irr0T3 := (invsAll_at m K 3 (.rr 0 c)) $$ Hinv
  ihave #Rrr0T3 := (reached_at (F := F) 3 (.rr 0 c)) $$ Hreach
  iapply (wp_red_send m 𝒱₀ c 3 0 hne3 (K (rsCell c 0)) (K (rrCell 3 0 c)) (dev11_eq _) (pchunk_lit0_3 _ _) (slot_off8 c _ _)
      (congrArg SemLoc.dma (sem_rs0 _)) (congrArg SemLoc.dma (sem_off7 c _)) (restA c + tallyAt (rrCell 7 0 c) () N64 + tallyAt (rrCell 6 0 c) () N64 + tallyAt (rrCell 5 0 c) () N64 + tallyAt (rrCell 4 0 c) () N64) fd3)
    $$ [Q3 Drr0T3 HO Trs0T3 Trr0T3]
  · isplitr; · iexact Irs0
    isplitr; · iexact Irr0T3
    isplitl [Q3]; · iexact Q3
    isplitl [Drr0T3]; · iexact Drr0T3
    isplitl [HO]; · iexact HO
    isplitl [Trs0T3]; · iexact Trs0T3
    isplitr; · iexact Rrs0
    isplitl [Trr0T3]; · iexact Trr0T3
    iexact Rrr0T3
  iintro ⟨Crs0T3, HO⟩
  sl_exec_parts
  -- the copy of chunk 4 to device 4
  ihave #Irr0T4 := (invsAll_at m K 4 (.rr 0 c)) $$ Hinv
  ihave #Rrr0T4 := (reached_at (F := F) 4 (.rr 0 c)) $$ Hreach
  iapply (wp_red_send m 𝒱₀ c 4 0 hne4 (K (rsCell c 0)) (K (rrCell 4 0 c)) (dev12_eq _) (pchunk_lit0_4 _ _) (slot_off10 c _ _)
      (congrArg SemLoc.dma (sem_rs0 _)) (congrArg SemLoc.dma (sem_off9 c _)) (restA c + tallyAt (rrCell 7 0 c) () N64 + tallyAt (rrCell 6 0 c) () N64 + tallyAt (rrCell 5 0 c) () N64) fd4)
    $$ [Q4 Drr0T4 HO Trs0T4 Trr0T4]
  · isplitr; · iexact Irs0
    isplitr; · iexact Irr0T4
    isplitl [Q4]; · iexact Q4
    isplitl [Drr0T4]; · iexact Drr0T4
    isplitl [HO]; · iexact HO
    isplitl [Trs0T4]; · iexact Trs0T4
    isplitr; · iexact Rrs0
    isplitl [Trr0T4]; · iexact Trr0T4
    iexact Rrr0T4
  iintro ⟨Crs0T4, HO⟩
  sl_exec_parts
  -- the copy of chunk 5 to device 5
  ihave #Irr0T5 := (invsAll_at m K 5 (.rr 0 c)) $$ Hinv
  ihave #Rrr0T5 := (reached_at (F := F) 5 (.rr 0 c)) $$ Hreach
  iapply (wp_red_send m 𝒱₀ c 5 0 hne5 (K (rsCell c 0)) (K (rrCell 5 0 c)) (dev13_eq _) (pchunk_lit0_5 _ _) (slot_off12 c _ _)
      (congrArg SemLoc.dma (sem_rs0 _)) (congrArg SemLoc.dma (sem_off11 c _)) (restA c + tallyAt (rrCell 7 0 c) () N64 + tallyAt (rrCell 6 0 c) () N64) fd5)
    $$ [Q5 Drr0T5 HO Trs0T5 Trr0T5]
  · isplitr; · iexact Irs0
    isplitr; · iexact Irr0T5
    isplitl [Q5]; · iexact Q5
    isplitl [Drr0T5]; · iexact Drr0T5
    isplitl [HO]; · iexact HO
    isplitl [Trs0T5]; · iexact Trs0T5
    isplitr; · iexact Rrs0
    isplitl [Trr0T5]; · iexact Trr0T5
    iexact Rrr0T5
  iintro ⟨Crs0T5, HO⟩
  sl_exec_parts
  -- the copy of chunk 6 to device 6
  ihave #Irr0T6 := (invsAll_at m K 6 (.rr 0 c)) $$ Hinv
  ihave #Rrr0T6 := (reached_at (F := F) 6 (.rr 0 c)) $$ Hreach
  iapply (wp_red_send m 𝒱₀ c 6 0 hne6 (K (rsCell c 0)) (K (rrCell 6 0 c)) (dev14_eq _) (pchunk_lit0_6 _ _) (slot_off14 c _ _)
      (congrArg SemLoc.dma (sem_rs0 _)) (congrArg SemLoc.dma (sem_off13 c _)) (restA c + tallyAt (rrCell 7 0 c) () N64) fd6)
    $$ [Q6 Drr0T6 HO Trs0T6 Trr0T6]
  · isplitr; · iexact Irs0
    isplitr; · iexact Irr0T6
    isplitl [Q6]; · iexact Q6
    isplitl [Drr0T6]; · iexact Drr0T6
    isplitl [HO]; · iexact HO
    isplitl [Trs0T6]; · iexact Trs0T6
    isplitr; · iexact Rrs0
    isplitl [Trr0T6]; · iexact Trr0T6
    iexact Rrr0T6
  iintro ⟨Crs0T6, HO⟩
  sl_exec_parts
  -- the copy of chunk 7 to device 7
  ihave #Irr0T7 := (invsAll_at m K 7 (.rr 0 c)) $$ Hinv
  ihave #Rrr0T7 := (reached_at (F := F) 7 (.rr 0 c)) $$ Hreach
  iapply (wp_red_send m 𝒱₀ c 7 0 hne7 (K (rsCell c 0)) (K (rrCell 7 0 c)) (dev15_eq _) (pchunk_lit0_7 _ _) (slot_off16 c _ _)
      (congrArg SemLoc.dma (sem_rs0 _)) (congrArg SemLoc.dma (sem_off15 c _)) (restA c) fd7)
    $$ [Q7 Drr0T7 HO Trs0T7 Trr0T7]
  · isplitr; · iexact Irs0
    isplitr; · iexact Irr0T7
    isplitl [Q7]; · iexact Q7
    isplitl [Drr0T7]; · iexact Drr0T7
    isplitl [HO]; · iexact HO
    isplitl [Trs0T7]; · iexact Trs0T7
    isplitr; · iexact Rrs0
    isplitl [Trr0T7]; · iexact Trr0T7
    iexact Rrr0T7
  iintro ⟨Crs0T7, HO⟩
  ihave Q2 := (Entails.of_eq (congrArg (fun t => (piece c (pChunk 0 t) fullShare (Pfun m c) : sProp 𝕄)) hc.symm)) $$ Q2
  ihave P0own := (Entails.of_eq (pRows_eq c 0 c fullShare (Pfun m c)).symm) $$ Q2
  sl_exec_parts
  have eOwn : View.readAt (Elt F) (Memref.whole cc0_scratch0).view (Rect.unit (s := S3x512x256) (k0_off17 c) S1x64x256.size (k0_off17_inb c)).toLoadRect (Pfun m c)
      = chunkOf (P0 m c) c := read_P_chunk m c 0 c (k0_off17 c) (k0_off17_eq c) _
  have hv78 : segA1_sound2.sl.r m c = k0_pay2 (chunkOf (P0 m c) c) := by
    unfold segA1_sound2.sl.r
    exact congrArg k0_pay2 eOwn
  have hv2 : segA1_sound2.sl.v2 c = devWord c := rfl
  iapply (ret_intro _ Kt c)
  iapply (Entails.of_eq (congrArg (fun w => (Kt ⟨c, w, segA1_sound2.sl.r m c, segA1_sound2.sl.v81 c, segA1_sound2.sl.v82 c, 0#32⟩ : sProp 𝕄)) hv2.symm))
  ihave P0own := (Entails.of_eq (pRows_eq c 0 c fullShare (Pfun m c))) $$ P0own
  ihave X0 := (stg_of_whole c cc0_stg0_0 (argX m c) x0 hx0) $$ X0
  ihave X1 := (stg_of_whole c cc0_stg1_0 (argW m c 0) x1 hx1) $$ X1
  ihave X2 := (stg_of_whole c cc0_stg2_0 (argV m c 0) x2 hx2) $$ X2
  iapply Hk
  isplitr
  · isplitr; · iexact Hinv
    isplitr; · iexact Hreach
    iexact Hlev
  isplitr; · ipureintro; exact hv78
  isplitl [HO]; · iexists _; iexact HO
  isplitl [TGS0 TGR0]
  · iapply (zipF c _ _)
    isplitl [TGS0]; · iexact TGS0
    iexact TGR0
  isplitl [DG0]; · iexact DG0
  isplitl [Ars0 Arr0 Crr0]
  · iapply (posRed_intro c 0)
    isplitl [Ars0]; · iexact Ars0
    isplitl [Arr0]; · iexact Arr0
    iexact Crr0
  isplitl [Ags0]; · iapply (posGs_intro c 0); iexact Ags0
  isplitl [Agr0 Cgr0]
  · iapply (posGr_intro c 0)
    isplitl [Agr0]; · iexact Agr0
    iexact Cgr0
  isplitl [Crs0T0 Crs0T1 Crs0T3 Crs0T4 Crs0T5 Crs0T6 Crs0T7]
  · iapply (creds7 _)
    isplitl [Crs0T0]; · iexact Crs0T0
    isplitl [Crs0T1]; · iexact Crs0T1
    isplitl [Crs0T3]; · iexact Crs0T3
    isplitl [Crs0T4]; · iexact Crs0T4
    isplitl [Crs0T5]; · iexact Crs0T5
    isplitl [Crs0T6]; · iexact Crs0T6
    iexact Crs0T7
  isplitl [TS1 TR1 TGS1 TGR1 Ars1 Arr1 Crr1 Ags1 Agr1 Cgr1 D1]
  · iapply (layerRes1_intro c)
    isplitl [TS1 TR1 TGS1 TGR1]
    · isplitl [TS1 TR1]
      · iapply (zipT _ _)
        isplitl [TS1]; · iexact TS1
        iexact TR1
      iapply (zipF c _ _)
      isplitl [TGS1]; · iexact TGS1
      iexact TGR1
    isplitl [Ars1 Arr1 Crr1]
    · iapply (posRed_intro c 1)
      isplitl [Ars1]; · iexact Ars1
      isplitl [Arr1]; · iexact Arr1
      iexact Crr1
    isplitl [Ags1 Agr1 Cgr1]
    · isplitl [Ags1]; · iapply (posGs_intro c 1); iexact Ags1
      iapply (posGr_intro c 1)
      isplitl [Agr1]; · iexact Agr1
      iexact Cgr1
    iexact D1
  isplitl [TS2 TR2 Ars2 Arr2 Crr2 D2]
  · iapply (layerRes2_intro c)
    isplitl [TS2 TR2]
    · isplitl [TS2 TR2]
      · iapply (zipT _ _)
        isplitl [TS2]; · iexact TS2
        iexact TR2
      iempintro
    isplitl [Ars2 Arr2 Crr2]
    · iapply (posRed_intro c 2)
      isplitl [Ars2]; · iexact Ars2
      isplitl [Arr2]; · iexact Arr2
      iexact Crr2
    isplitr; · iempintro
    iexact D2
  isplitl [HPrest]; · iexact HPrest
  isplitl [P0own]; · iapply (ex_intro c (pChunk 0 c) (Pfun m c)); iexact P0own
  isplitl [P1s]; · iapply (Entails.of_eq (pLayerEx_def c 1)); iexact P1s
  isplitl [P2s]; · iapply (Entails.of_eq (pLayerEx_def c 2)); iexact P2s
  isplitl [SO0]; · iapply (ex_intro c (rSlot 0 c) fs); iexact SO0
  isplitl [SO1]; · iapply (ex_intro c (rSlot 1 c) fs); iexact SO1
  isplitl [SO2]; · iapply (ex_intro c (rSlot 2 c) fs); iexact SO2
  isplitl [GO0]; · iapply (ex_intro c (gChunk 0 c) fg); iexact GO0
  isplitl [GO1]; · iapply (ex_intro c (gChunk 1 c) fg); iexact GO1
  isplitl [GO2]; · iapply (gath2 c hc fg); iexact GO2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segA1_sound2' depends on axioms: [propext, Classical.choice, Quot.sound] -/
#guard_msgs in #print axioms segA1_sound2

end Cert.KernelProof

end
-- ==== Proof.K.BodySegA2_d2.lean ====
import proofs.«900993_g7700000000000994_dist_mlpseq_tp1d_rep_bs_b512_d256_h512_v7x_i8_bf16_1_alg».proof.Proof.K.BodySegA2Lib

/-! The second half of layer 0 on device 2: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 3, 4, 5, 6, 7] : List (Dev nD))

omit [FloatOps F] in
/-- Everything still owed after layer 0's gather sends is owed to cells above the level of the layer's send cells. -/
theorem above_a2_rest_d2 (c : Dev nD) : Above 3 (a2_rest c Ts) := by
  unfold a2_rest owesRedL owesGatL ringF
  simp only [List.map, List.sum_cons, List.sum_nil]
  owes_above

theorem segA2_sound2 (c : Dev nD) (hc : c = 2) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : ¬ k0_cond11 c = 1#1 := fun h => (cond11_iff c).mp h hc
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : ¬ Scalar.cmpi .ne (Scalar.extui (Scalar.cmpi .ne (Scalar.remsi (Scalar.divsi (Dev.word c) 1#32) 8#32) 2#32)) 0#32 = 1#1 := fun h => (condw2_iff c).mp h hc
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d2 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d2 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound2.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound2.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound2.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound2.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound2.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound2.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound2.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound2.sl.r_2 m c v78 a1 a2 a3 a4 a5) (segA2_sound2.sl.v171 m c a6) (segA2_sound2.sl.v187 m c a7) = red0 m c := by
    intro a1 a2 a3 a4 a5 a6 a7
    unfold segA2_sound2.sl.r_2 segA2_sound2.sl.r_1 segA2_sound2.sl.r
    rw [e91, e107, e123, e139, e155, e171, e187, hv]
    rfl
  have hG0 : ∀ g a1 a2 a3 a4 a5 a6 a7, ∀ i ∈ (gChunk 0 c).view.set, segA2_sound2.sl.G0c_w1 m c v78 g a1 a2 a3 a4 a5 a6 a7 i = Gfun m c i := by
    intro g a1 a2 a3 a4 a5 a6 a7 i hi
    unfold segA2_sound2.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelProof

end
-- ==== Proof.K.BodySegB1_d2.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegBCut
import Idealize.ShloMosaic.Lib.Tactic

/-! Layer 1 on device 2, first half: from the state between the layers to the point where the device has enqueued its
    seven reduce copies of layer 1 and read its own chunk.

    The device goes through the four groups of 128 rows in order. For a group it first waits for the rows of the first
    activation that the two devices owning them gathered into its buffer (its own rows it holds already): each wait is
    the one duty of a gather-receive cell of layer 0, and hands over the chunk holding the sender's reduced rows written
    over whatever it held — which is the activation on that chunk. The two chunks joined are the group the body loads;
    with the staged weights of layer 1 the body's own arithmetic makes the group of the layer's partial product, stored
    over rows of the partial-product buffer, where it agrees with the canonical partial product. Cut back into its two
    64-row chunks, each chunk is lent to the copy towards the device that reduces those rows: the copy pays duty `t` of
    the device's reduce-send cell and the one duty of the target's reduce-receive cell, settles what the device owed
    that cell, and earns the credit for a later wait on the send cell. The device's own chunk stays; it is read at the
    end, as the accumulation's first term. What is left is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 3, 4, 5, 6, 7]

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- Layer 1's resources, its reduce tokens and destinations listed. -/
private theorem layerRes1_eq (c : Dev nD) : layerRes (F := F) c Tsd 1 =
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1)
      ∗ (bigSepL Tsd (fun t => iprop(∃ fd, piece t (rSlot 1 c) fullShare fd))
        ∗ bigSepL (ringF c) (fun p => iprop(∃ fd, piece p (gChunk 1 c) fullShare fd)))) := by
  unfold layerRes layerToks layerDest
  rw [if_pos (by decide), if_pos (by decide), if_pos (by decide)]

/-- The debt with the next reduce arrival last. -/
private theorem debt_peel (c t : Dev nD) (ts : List (Dev nD)) (l : Fin 3) (A B : CellTallies nD τ sig Unit) :
    owesRedL c (t :: ts) l + A + B = (owesRedL c ts l + A + B) + tallyAt (rrCell t l c) () N64 := by
  unfold owesRedL
  rw [List.map_cons, List.sum_cons]
  abel

/-- Every cell is at round 0: one cell's fact. -/
private theorem reachedAll_at (c : Dev nD) (k : CK) : reachedAll (F := F) ⊢ (reached ER (kcell c k) 0 : sProp 𝕄) := by
  unfold reachedAll
  exact allAt (fun p : Dev nD × CK => (reached ER (kcell p.1 p.2) 0 : sProp 𝕄)) c k

/-- Two functions that agree on a group of 128 rows agree on its two chunks. -/
private theorem agree_chunks {α : Type} (l : Fin 3) (g : Fin 4) (t0 t1 : Dev nD) (h0 : t0.val = 2 * g.val) (h1 : t1.val = 2 * g.val + 1)
    (w g' : S3x512x256.Idx → α) (h : ∀ i ∈ (rectGrp l g).set, w i = g' i) :
    (∀ i ∈ (rectP l t0).set, w i = g' i) ∧ (∀ i ∈ (rectP l t1).set, w i = g' i) := by
  rw [rectGrp_eq l g t0 t1 h0 h1] at h
  exact ⟨fun i hi => h i (Finset.mem_union_left _ hi), fun i hi => h i (Finset.mem_union_right _ hi)⟩

/-- A chunk of the partial-product buffer at contents that agree on its rows. -/
private theorem pChunk_congr (c : Dev nD) (l : Fin 3) (t : Dev nD) (q : PosShare TreeShare)
    {f g : Buf (Elt F) ((c : Thread nD τ).loc cc0_scratch0)} (h : ∀ i ∈ (rectP l t).set, f i = g i) :
    (piece c (pChunk l t) q f : sProp 𝕄) = piece c (pChunk l t) q g :=
  piece_congr c (pChunk l t) q fun i hi => h i ((set_pChunk l t) ▸ hi)

/-- A stored group of layer 1's partial product agrees with the canonical partial products on the group's rows. -/
private theorem stored_P1 (c : Dev nD) (g : Fin 4) (f0 : Buf (Elt F) ((c : Thread nD τ).loc cc0_scratch0)) (R : Rect S3x512x256)
    (hR : R = rectGrp 1 g) (w : R.shape.Idx → Elt F .bf16) (w' : (rectGrp 1 g).shape.Idx → Elt F .bf16) (hw : HEq w w') (hw' : w' = P1grp m c g) :
    ∀ i ∈ (rectGrp 1 g).set, View.write (Elt F) ((Memref.whole cc0_scratch0).access R) f0 w Finset.univ i = Pfun m c i := by
  subst hR
  obtain rfl := eq_of_heq hw
  subst hw'
  intro i hi
  refine write_P1grp m c g f0 _ rfl (inb_grp 1 g) i ?_
  show i ∈ ((View.whole cc0_scratch0).slice (rectGrp 1 g)).set
  rw [View.set_slice_whole]
  exact hi

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

private theorem posGr0_eq (c : Dev nD) : posGr (F := F) c Tsd 0 =
    iprop((atPos ER (grCell c 0 0) 0 ∅ 0 ∗ cred (tallyAt (grCell c 0 0) () N64)) ∗ (atPos ER (grCell c 0 1) 0 ∅ 0 ∗ cred (tallyAt (grCell c 0 1) () N64))
      ∗ (atPos ER (grCell c 0 3) 0 ∅ 0 ∗ cred (tallyAt (grCell c 0 3) () N64)) ∗ (atPos ER (grCell c 0 4) 0 ∅ 0 ∗ cred (tallyAt (grCell c 0 4) () N64))
      ∗ (atPos ER (grCell c 0 5) 0 ∅ 0 ∗ cred (tallyAt (grCell c 0 5) () N64)) ∗ (atPos ER (grCell c 0 6) 0 ∅ 0 ∗ cred (tallyAt (grCell c 0 6) () N64))
      ∗ (atPos ER (grCell c 0 7) 0 ∅ 0 ∗ cred (tallyAt (grCell c 0 7) () N64))) := rfl

private theorem posDoneGr0_eq (c : Dev nD) : posDoneGr (F := F) c Tsd 0 =
    iprop(atPos ER (grCell c 0 0) 1 ∅ 0 ∗ atPos ER (grCell c 0 1) 1 ∅ 0 ∗ atPos ER (grCell c 0 3) 1 ∅ 0 ∗ atPos ER (grCell c 0 4) 1 ∅ 0
      ∗ atPos ER (grCell c 0 5) 1 ∅ 0 ∗ atPos ER (grCell c 0 6) 1 ∅ 0 ∗ atPos ER (grCell c 0 7) 1 ∅ 0) := rfl

private theorem chunksAll0_eq (c : Dev nD) : chunksAll (F := F) c Tsd 0 =
    iprop(ex c (gChunk 0 c) ∗ ex c (gChunk 0 0) ∗ ex c (gChunk 0 1) ∗ ex c (gChunk 0 3) ∗ ex c (gChunk 0 4) ∗ ex c (gChunk 0 5)
      ∗ ex c (gChunk 0 6) ∗ ex c (gChunk 0 7)) := rfl

private theorem creds7_eq (c : Dev nD) : bigSepL Tsd (fun _ => (cred (tallyAt (rsCell c 1) () N64) : sProp 𝕄)) =
    iprop(cred (tallyAt (rsCell c 1) () N64) ∗ cred (tallyAt (rsCell c 1) () N64) ∗ cred (tallyAt (rsCell c 1) () N64) ∗ cred (tallyAt (rsCell c 1) () N64)
      ∗ cred (tallyAt (rsCell c 1) () N64) ∗ cred (tallyAt (rsCell c 1) () N64) ∗ cred (tallyAt (rsCell c 1) () N64)) := rfl

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- The eight chunks of a layer of the partial-product buffer, each held at some contents. -/
private theorem slab_ex (c : Dev nD) (l : Fin 3) (f0 : Buf (Elt F) ((c : Thread nD τ).loc cc0_scratch0)) :
    iprop(piece c (pChunk l 0) fullShare f0 ∗ piece c (pChunk l 1) fullShare f0 ∗ piece c (pChunk l 2) fullShare f0 ∗ piece c (pChunk l 3) fullShare f0
        ∗ piece c (pChunk l 4) fullShare f0 ∗ piece c (pChunk l 5) fullShare f0 ∗ piece c (pChunk l 6) fullShare f0 ∗ piece c (pChunk l 7) fullShare f0)
      ⊢ (bigSep (Finset.univ : Finset (Dev nD)) (fun t => ex (F := F) c (pChunk l t)) : sProp 𝕄) := by
  rw [bigSep_dev8]
  iintro ⟨H0, H1, H2, H3, H4, H5, H6, H7⟩
  isplitl [H0]; · iapply (ex_intro c (pChunk l 0) f0); iexact H0
  isplitl [H1]; · iapply (ex_intro c (pChunk l 1) f0); iexact H1
  isplitl [H2]; · iapply (ex_intro c (pChunk l 2) f0); iexact H2
  isplitl [H3]; · iapply (ex_intro c (pChunk l 3) f0); iexact H3
  isplitl [H4]; · iapply (ex_intro c (pChunk l 4) f0); iexact H4
  isplitl [H5]; · iapply (ex_intro c (pChunk l 5) f0); iexact H5
  isplitl [H6]; · iapply (ex_intro c (pChunk l 6) f0); iexact H6
  iapply (ex_intro c (pChunk l 7) f0); iexact H7

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; trivial
  iapply (Entails.of_eq (congrArg (fun I => pointsTo ((c : Thread nD τ).loc b) I fullShare x) (View.set_whole b)))
  iexact H

/-- Nothing is owed for a layer whose reduce copies have all been enqueued. -/
private theorem debt_done (c : Dev nD) (l : Fin 3) (A B : CellTallies nD τ sig Unit) : owesRedL c [] l + A + B = A + B := by
  unfold owesRedL
  rw [List.map_nil, List.sum_nil, zero_add]

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

private theorem zero2 : (![0, 0] : Fin 2 → ℕ) = fun _ => 0 := by funext a; fin_cases a <;> rfl

/-- A landed chunk of the gather buffer holds the activation, whatever the chunk held before. -/
private theorem grPay_canon (c s : Dev nD) (l : Fin 3) : grPay m c l s ⊢ (piece c (gChunk l s) fullShare (Gfun m c) : sProp 𝕄) := by
  unfold grPay
  iintro ⟨%fd, H⟩
  iapply (Entails.of_eq (piece_congr c (gChunk l s) fullShare (land_gather m s c l fd)))
  iexact H

theorem segB1_sound2 (c : Dev nD) (hc : c = 2) (K : GSem nD τ sig → ℕ) (Kt : (Σ' (v463 : FVec F S64x256 .f32), BitVec 32) → sProp 𝕄) :
    iprop(mid1 m K c Tsd ∗ (∀ v466, midB m K c Tsd (k0_pay14 (chunkOf (P1 m c) c)) -∗ Kt ⟨k0_pay14 (chunkOf (P1 m c) c), v466⟩))
      ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hgw0 : Scalar.cmpi .ne (Scalar.extui (Scalar.cmpi .ne (devWord c) 0#32)) 0#32 = 1#1 := (condw0_iff c).mpr hne0
  have hgw1 : Scalar.cmpi .ne (Scalar.extui (Scalar.cmpi .ne (devWord c) 1#32)) 0#32 = 1#1 := (condw1_iff c).mpr hne1
  have hgw2 : ¬ Scalar.cmpi .ne (Scalar.extui (Scalar.cmpi .ne (devWord c) 2#32)) 0#32 = 1#1 := fun h => (condw2_iff c).mp h hc
  have hgw3 : Scalar.cmpi .ne (Scalar.extui (Scalar.cmpi .ne (devWord c) 3#32)) 0#32 = 1#1 := (condw3_iff c).mpr hne3
  have hgw4 : Scalar.cmpi .ne (Scalar.extui (Scalar.cmpi .ne (devWord c) 4#32)) 0#32 = 1#1 := (condw4_iff c).mpr hne4
  have hgw5 : Scalar.cmpi .ne (Scalar.extui (Scalar.cmpi .ne (devWord c) 5#32)) 0#32 = 1#1 := (condw5_iff c).mpr hne5
  have hgw6 : Scalar.cmpi .ne (Scalar.extui (Scalar.cmpi .ne (devWord c) 6#32)) 0#32 = 1#1 := (condw6_iff c).mpr hne6
  have hgw7 : Scalar.cmpi .ne (Scalar.extui (Scalar.cmpi .ne (devWord c) 7#32)) 0#32 = 1#1 := (condw7_iff c).mpr hne7
  have hg19 : k0_cond19 c = 1#1 := (cond19_iff c).mpr hne0
  have hg20 : k0_cond20 c = 1#1 := (cond20_iff c).mpr hne1
  have hg23 : ¬ k0_cond23 c = 1#1 := fun h => (cond23_iff c).mp h hc
  have hg24 : k0_cond24 c = 1#1 := (cond24_iff c).mpr hne3
  have hg27 : k0_cond27 c = 1#1 := (cond27_iff c).mpr hne4
  have hg28 : k0_cond28 c = 1#1 := (cond28_iff c).mpr hne5
  have hg31 : k0_cond31 c = 1#1 := (cond31_iff c).mpr hne6
  have hg32 : k0_cond32 c = 1#1 := (cond32_iff c).mpr hne7
  have hAbG0 : Above 4 (owesRedL c Tsd 1 + owesRedL c Tsd 2 + owesGatL c 1) := by
    unfold owesRedL owesGatL ringF
    simp only [List.map, List.sum_cons, List.sum_nil]
    owes_above
  have hAbG1 : Above 4 (owesRedL c [3, 4, 5, 6, 7] 1 + owesRedL c Tsd 2 + owesGatL c 1) := by
    unfold owesRedL owesGatL ringF
    simp only [List.map, List.sum_cons, List.sum_nil]
    owes_above
  have hAbG2 : Above 4 (owesRedL c [4, 5, 6, 7] 1 + owesRedL c Tsd 2 + owesGatL c 1) := by
    unfold owesRedL owesGatL ringF
    simp only [List.map, List.sum_cons, List.sum_nil]
    owes_above
  have hAbG3 : Above 4 (owesRedL c [6, 7] 1 + owesRedL c Tsd 2 + owesGatL c 1) := by
    unfold owesRedL owesGatL ringF
    simp only [List.map, List.sum_cons, List.sum_nil]
    owes_above
  unfold mid1 midB stagedIn scr
  rw [layerRes1_eq, posGr0_eq, posDoneGr0_eq, chunksAll0_eq, creds7_eq]
  simp only [bigSepL7]
  iintro ⟨⟨⟨#Hinv, #Hreach, #Hlev⟩, ⟨%W, HO⟩, ⟨⟨⟨⟨Trs1T0, Trr1T0⟩, ⟨Trs1T1, Trr1T1⟩, ⟨Trs1T3, Trr1T3⟩, ⟨Trs1T4, Trr1T4⟩, ⟨Trs1T5, Trr1T5⟩, ⟨Trs1T6, Trr1T6⟩, ⟨Trs1T7, Trr1T7⟩⟩, GTok1⟩, PRed1, ⟨PGs1, PGr1⟩, ⟨⟨⟨%fd0, Drr1T0⟩, ⟨%fd1, Drr1T1⟩, ⟨%fd3, Drr1T3⟩, ⟨%fd4, Drr1T4⟩, ⟨%fd5, Drr1T5⟩, ⟨%fd6, Drr1T6⟩, ⟨%fd7, Drr1T7⟩⟩, GDest1⟩⟩, HL2, ⟨⟨Pgr0S0, Cgr0S0⟩, ⟨Pgr0S1, Cgr0S1⟩, ⟨Pgr0S3, Cgr0S3⟩, ⟨Pgr0S4, Cgr0S4⟩, ⟨Pgr0S5, Cgr0S5⟩, ⟨Pgr0S6, Cgr0S6⟩, ⟨Pgr0S7, Cgr0S7⟩⟩, HPD0, HPrest, ⟨%f0, S0⟩, HSB0, HR1c, HR2c, G0c, G1c, HCA2, ⟨X0, X1, X2, ⟨%x3, %hx3, X3⟩, ⟨%x4, %hx4, X4⟩, X5, X6⟩, H7⟩, Hk⟩
  ihave X3 := (whole_restate c cc0_stg3_0 x3) $$ X3
  ihave X4 := (whole_restate c cc0_stg4_0 x4) $$ X4
  sl_unfold [segB1]
  sl_exec_parts
  -- the wait for device 0's rows
  ihave #Igr0S0 := (invsAll_at m K c (.gr 0 0)) $$ Hinv
  ihave #Mgr0S0 := (mayWait_gr (F := F) c 0 0 (owesRedL c Tsd 1 + owesRedL c Tsd 2 + owesGatL c 1) hAbG0) $$ Hlev
  iapply (wp_gat_recv m 𝒱₀ c 0 0 (by decide) hne0.symm (K (grCell c 0 0)) (sem_gr0_0 _) (gChunk_credit 0 0)) $$ [Cgr0S0 HO Pgr0S0]
  · isplitr; · iexact Igr0S0
    isplitl [Cgr0S0]; · iexact Cgr0S0
    isplitl [HO]; · iexact HO
    isplitr; · iexact Mgr0S0
    iexact Pgr0S0
  iintro ⟨HO, Dgr0S0, #Rgr0S0, Ygr0S0⟩
  sl_exec_parts
  -- the wait for device 1's rows
  ihave #Igr0S1 := (invsAll_at m K c (.gr 0 1)) $$ Hinv
  ihave #Mgr0S1 := (mayWait_gr (F := F) c 0 1 (owesRedL c Tsd 1 + owesRedL c Tsd 2 + owesGatL c 1) hAbG0) $$ Hlev
  iapply (wp_gat_recv m 𝒱₀ c 1 0 (by decide) hne1.symm (K (grCell c 0 1)) (sem_gr0_1 _) (gChunk_credit 0 1)) $$ [Cgr0S1 HO Pgr0S1]
  · isplitr; · iexact Igr0S1
    isplitl [Cgr0S1]; · iexact Cgr0S1
    isplitl [HO]; · iexact HO
    isplitr; · iexact Mgr0S1
    iexact Pgr0S1
  iintro ⟨HO, Dgr0S1, #Rgr0S1, Ygr0S1⟩
  -- rows 0 … 127 of the first activation joined, and the same rows of layer 1's partial product
  ihave Ggr0S0 := (grPay_canon m c 0 0) $$ Ygr0S0
  ihave Ggr0S1 := (grPay_canon m c 1 0) $$ Ygr0S1
  ihave S0 := (whole_restate c cc0_scratch0 f0) $$ S0
  ihave S0 := (whole0_split c fullShare f0) $$ S0
  ihave S0 := (Entails.of_eq (bigSep_layers_devs (fun a => piece c (pChunk a.1 a.2) fullShare f0))) $$ S0
  icases S0 with ⟨PL0, ⟨P1T0, P1T1, P1T2, P1T3, P1T4, P1T5, P1T6, P1T7⟩, PL2⟩
  ihave GG0 := (gGroup_join c 0 0 fullShare (Gfun m c) 0 1 rfl rfl) $$ [Ggr0S0 Ggr0S1]
  · isplitl [Ggr0S0]; · iexact Ggr0S0
    iexact Ggr0S1
  ihave PG0 := (pGroup_join c 1 0 fullShare f0 0 1 rfl rfl) $$ [P1T0 P1T1]
  · isplitl [P1T0]; · iexact P1T0
    iexact P1T1
  sl_exec_parts
  -- the group stored is the canonical partial product on its rows; cut into its two chunks
  have e3 : View.readAt (Elt F) (Memref.whole cc0_stg3_0).view (Rect.unit (s := S256x512) ![0, 0] S256x512.size inb_S256x512_S256x512_0_0).toLoadRect x3 = argW m c 1 :=
    (Memref.readAt_unit_zero (Elt F) cc0_stg3_0 zero2 _ x3).trans hx3
  have e4 : View.readAt (Elt F) (Memref.whole cc0_stg4_0).view (Rect.unit (s := S512x256) ![0, 0] S512x256.size inb_S512x256_S512x256_0_0).toLoadRect x4 = argV m c 1 :=
    (Memref.readAt_unit_zero (Elt F) cc0_stg4_0 zero2 _ x4).trans hx4
  have eG0 : View.readAt (Elt F) (Memref.whole cc0_scratch2).view (Rect.unit (s := S3x512x256) ![0, 0, 0] S1x128x256.size inb_S3x512x256_S1x128x256_0_0_0).toLoadRect (Gfun m c)
      = groupOf (G0 m) 0 := read_G_group m c 0 0 ![0, 0, 0] rfl _
  have hval0 : k0_pay10 (segB1_sound2.sl.r_2 m c x3 x4) = P1grp m c 0 := by
    unfold segB1_sound2.sl.r_2
    rw [e3, e4, eG0]
    rfl
  have hw0 : ∀ i ∈ (rectGrp 1 0).set, segB1_sound2.sl.PG0_w1 m c f0 x3 x4 i = Pfun m c i :=
    stored_P1 m c 0 f0 _ rfl _ _ HEq.rfl hval0
  ihave PG0 := (pGroup_split c 1 0 fullShare _ 0 1 rfl rfl) $$ PG0
  icases PG0 with ⟨P1T0, P1T1⟩
  have hw0T := agree_chunks 1 0 0 1 rfl rfl _ _ hw0
  ihave P1T0 := (Entails.of_eq (pChunk_congr c 1 0 fullShare hw0T.1)) $$ P1T0
  ihave P1T1 := (Entails.of_eq (pChunk_congr c 1 1 fullShare hw0T.2)) $$ P1T1
  ihave #Irs1 := (invsAll_at m K c (.rs 1)) $$ Hinv
  ihave #Rrs1 := (reachedAll_at c (.rs 1)) $$ Hreach
  -- the copy of chunk 0 to device 0
  ihave #Irr1T0 := (invsAll_at m K 0 (.rr 1 c)) $$ Hinv
  ihave #Rrr1T0 := (reachedAll_at 0 (.rr 1 c)) $$ Hreach
  ihave HO := (Entails.of_eq (congrArg (fun o => owes (c : Thread nD τ) o _) (debt_peel c 0 [1, 3, 4, 5, 6, 7] 1 (owesRedL c Tsd 2) (owesGatL c 1)))) $$ HO
  iapply (wp_red_send m 𝒱₀ c 0 1 hne0 (K (rsCell c 1)) (K (rrCell 0 1 c)) (dev23_eq _) (pchunk_lit1_0 _ _) (slot_off32 c _ _)
      (congrArg SemLoc.dma (sem_rs1 _)) (congrArg SemLoc.dma (sem_off31 c _)) (owesRedL c [1, 3, 4, 5, 6, 7] 1 + owesRedL c Tsd 2 + owesGatL c 1) fd0)
    $$ [P1T0 Drr1T0 HO Trs1T0 Trr1T0]
  · isplitr; · iexact Irs1
    isplitr; · iexact Irr1T0
    isplitl [P1T0]; · iexact P1T0
    isplitl [Drr1T0]; · iexact Drr1T0
    isplitl [HO]; · iexact HO
    isplitl [Trs1T0]; · iexact Trs1T0
    isplitr; · iexact Rrs1
    isplitl [Trr1T0]; · iexact Trr1T0
    iexact Rrr1T0
  iintro ⟨Crs1T0, HO⟩
  sl_exec_parts
  -- the copy of chunk 1 to device 1
  ihave #Irr1T1 := (invsAll_at m K 1 (.rr 1 c)) $$ Hinv
  ihave #Rrr1T1 := (reachedAll_at 1 (.rr 1 c)) $$ Hreach
  ihave HO := (Entails.of_eq (congrArg (fun o => owes (c : Thread nD τ) o _) (debt_peel c 1 [3, 4, 5, 6, 7] 1 (owesRedL c Tsd 2) (owesGatL c 1)))) $$ HO
  iapply (wp_red_send m 𝒱₀ c 1 1 hne1 (K (rsCell c 1)) (K (rrCell 1 1 c)) (dev24_eq _) (pchunk_lit1_1 _ _) (slot_off34 c _ _)
      (congrArg SemLoc.dma (sem_rs1 _)) (congrArg SemLoc.dma (sem_off33 c _)) (owesRedL c [3, 4, 5, 6, 7] 1 + owesRedL c Tsd 2 + owesGatL c 1) fd1)
    $$ [P1T1 Drr1T1 HO Trs1T1 Trr1T1]
  · isplitr; · iexact Irs1
    isplitr; · iexact Irr1T1
    isplitl [P1T1]; · iexact P1T1
    isplitl [Drr1T1]; · iexact Drr1T1
    isplitl [HO]; · iexact HO
    isplitl [Trs1T1]; · iexact Trs1T1
    isplitr; · iexact Rrs1
    isplitl [Trr1T1]; · iexact Trr1T1
    iexact Rrr1T1
  iintro ⟨Crs1T1, HO⟩
  sl_exec_parts
  -- the wait for device 3's rows
  ihave #Igr0S3 := (invsAll_at m K c (.gr 0 3)) $$ Hinv
  ihave #Mgr0S3 := (mayWait_gr (F := F) c 0 3 (owesRedL c [3, 4, 5, 6, 7] 1 + owesRedL c Tsd 2 + owesGatL c 1) hAbG1) $$ Hlev
  iapply (wp_gat_recv m 𝒱₀ c 3 0 (by decide) hne3.symm (K (grCell c 0 3)) (sem_gr0_3 _) (gChunk_credit 0 3)) $$ [Cgr0S3 HO Pgr0S3]
  · isplitr; · iexact Igr0S3
    isplitl [Cgr0S3]; · iexact Cgr0S3
    isplitl [HO]; · iexact HO
    isplitr; · iexact Mgr0S3
    iexact Pgr0S3
  iintro ⟨HO, Dgr0S3, #Rgr0S3, Ygr0S3⟩
  -- rows 128 … 255 of the first activation joined, and the same rows of layer 1's partial product
  ihave Ggr0S3 := (grPay_canon m c 3 0) $$ Ygr0S3
  ihave G0c := (Entails.of_eq (congrArg (fun t => (piece c (gChunk 0 t) fullShare (Gfun m c) : sProp 𝕄)) hc)) $$ G0c
  ihave GG1 := (gGroup_join c 0 1 fullShare (Gfun m c) 2 3 rfl rfl) $$ [G0c Ggr0S3]
  · isplitl [G0c]; · iexact G0c
    iexact Ggr0S3
  ihave PG1 := (pGroup_join c 1 1 fullShare f0 2 3 rfl rfl) $$ [P1T2 P1T3]
  · isplitl [P1T2]; · iexact P1T2
    iexact P1T3
  sl_exec_parts
  -- the group stored is the canonical partial product on its rows; cut into its two chunks
  have eG1 : View.readAt (Elt F) (Memref.whole cc0_scratch2).view (Rect.unit (s := S3x512x256) ![0, 128, 0] S1x128x256.size inb_S3x512x256_S1x128x256_0_128_0).toLoadRect (Gfun m c)
      = groupOf (G0 m) 1 := read_G_group m c 0 1 ![0, 128, 0] rfl _
  have hw1 : ∀ i ∈ (rectGrp 1 1).set, segB1_sound2.sl.PG1_w1 m c f0 x3 x4 i = Pfun m c i :=
    stored_P1 m c 1 f0 _ rfl _ _ HEq.rfl (by
      unfold segB1_sound2.sl.r segB1_sound2.sl.r_1
      rw [e3, e4, eG1]
      rfl)
  ihave PG1 := (pGroup_split c 1 1 fullShare _ 2 3 rfl rfl) $$ PG1
  icases PG1 with ⟨P1T2, P1T3⟩
  have hw1T := agree_chunks 1 1 2 3 rfl rfl _ _ hw1
  ihave P1T2 := (Entails.of_eq (pChunk_congr c 1 2 fullShare hw1T.1)) $$ P1T2
  ihave P1T3 := (Entails.of_eq (pChunk_congr c 1 3 fullShare hw1T.2)) $$ P1T3
  -- the copy of chunk 3 to device 3
  ihave #Irr1T3 := (invsAll_at m K 3 (.rr 1 c)) $$ Hinv
  ihave #Rrr1T3 := (reachedAll_at 3 (.rr 1 c)) $$ Hreach
  ihave HO := (Entails.of_eq (congrArg (fun o => owes (c : Thread nD τ) o _) (debt_peel c 3 [4, 5, 6, 7] 1 (owesRedL c Tsd 2) (owesGatL c 1)))) $$ HO
  iapply (wp_red_send m 𝒱₀ c 3 1 hne3 (K (rsCell c 1)) (K (rrCell 3 1 c)) (dev26_eq _) (pchunk_lit1_3 _ _) (slot_off38 c _ _)
      (congrArg SemLoc.dma (sem_rs1 _)) (congrArg SemLoc.dma (sem_off37 c _)) (owesRedL c [4, 5, 6, 7] 1 + owesRedL c Tsd 2 + owesGatL c 1) fd3)
    $$ [P1T3 Drr1T3 HO Trs1T3 Trr1T3]
  · isplitr; · iexact Irs1
    isplitr; · iexact Irr1T3
    isplitl [P1T3]; · iexact P1T3
    isplitl [Drr1T3]; · iexact Drr1T3
    isplitl [HO]; · iexact HO
    isplitl [Trs1T3]; · iexact Trs1T3
    isplitr; · iexact Rrs1
    isplitl [Trr1T3]; · iexact Trr1T3
    iexact Rrr1T3
  iintro ⟨Crs1T3, HO⟩
  sl_exec_parts
  -- the wait for device 4's rows
  ihave #Igr0S4 := (invsAll_at m K c (.gr 0 4)) $$ Hinv
  ihave #Mgr0S4 := (mayWait_gr (F := F) c 0 4 (owesRedL c [4, 5, 6, 7] 1 + owesRedL c Tsd 2 + owesGatL c 1) hAbG2) $$ Hlev
  iapply (wp_gat_recv m 𝒱₀ c 4 0 (by decide) hne4.symm (K (grCell c 0 4)) (sem_gr0_4 _) (gChunk_credit 0 4)) $$ [Cgr0S4 HO Pgr0S4]
  · isplitr; · iexact Igr0S4
    isplitl [Cgr0S4]; · iexact Cgr0S4
    isplitl [HO]; · iexact HO
    isplitr; · iexact Mgr0S4
    iexact Pgr0S4
  iintro ⟨HO, Dgr0S4, #Rgr0S4, Ygr0S4⟩
  sl_exec_parts
  -- the wait for device 5's rows
  ihave #Igr0S5 := (invsAll_at m K c (.gr 0 5)) $$ Hinv
  ihave #Mgr0S5 := (mayWait_gr (F := F) c 0 5 (owesRedL c [4, 5, 6, 7] 1 + owesRedL c Tsd 2 + owesGatL c 1) hAbG2) $$ Hlev
  iapply (wp_gat_recv m 𝒱₀ c 5 0 (by decide) hne5.symm (K (grCell c 0 5)) (sem_gr0_5 _) (gChunk_credit 0 5)) $$ [Cgr0S5 HO Pgr0S5]
  · isplitr; · iexact Igr0S5
    isplitl [Cgr0S5]; · iexact Cgr0S5
    isplitl [HO]; · iexact HO
    isplitr; · iexact Mgr0S5
    iexact Pgr0S5
  iintro ⟨HO, Dgr0S5, #Rgr0S5, Ygr0S5⟩
  -- rows 256 … 383 of the first activation joined, and the same rows of layer 1's partial product
  ihave Ggr0S4 := (grPay_canon m c 4 0) $$ Ygr0S4
  ihave Ggr0S5 := (grPay_canon m c 5 0) $$ Ygr0S5
  ihave GG2 := (gGroup_join c 0 2 fullShare (Gfun m c) 4 5 rfl rfl) $$ [Ggr0S4 Ggr0S5]
  · isplitl [Ggr0S4]; · iexact Ggr0S4
    iexact Ggr0S5
  ihave PG2 := (pGroup_join c 1 2 fullShare f0 4 5 rfl rfl) $$ [P1T4 P1T5]
  · isplitl [P1T4]; · iexact P1T4
    iexact P1T5
  sl_exec_parts
  -- the group stored is the canonical partial product on its rows; cut into its two chunks
  have eG2 : View.readAt (Elt F) (Memref.whole cc0_scratch2).view (Rect.unit (s := S3x512x256) ![0, 256, 0] S1x128x256.size inb_S3x512x256_S1x128x256_0_256_0).toLoadRect (Gfun m c)
      = groupOf (G0 m) 2 := read_G_group m c 0 2 ![0, 256, 0] rfl _
  have hw2 : ∀ i ∈ (rectGrp 1 2).set, segB1_sound2.sl.PG2_w1 m c f0 x3 x4 i = Pfun m c i :=
    stored_P1 m c 2 f0 _ rfl _ _ HEq.rfl (by
      unfold segB1_sound2.sl.r segB1_sound2.sl.r_1
      rw [e3, e4, eG2]
      rfl)
  ihave PG2 := (pGroup_split c 1 2 fullShare _ 4 5 rfl rfl) $$ PG2
  icases PG2 with ⟨P1T4, P1T5⟩
  have hw2T := agree_chunks 1 2 4 5 rfl rfl _ _ hw2
  ihave P1T4 := (Entails.of_eq (pChunk_congr c 1 4 fullShare hw2T.1)) $$ P1T4
  ihave P1T5 := (Entails.of_eq (pChunk_congr c 1 5 fullShare hw2T.2)) $$ P1T5
  -- the copy of chunk 4 to device 4
  ihave #Irr1T4 := (invsAll_at m K 4 (.rr 1 c)) $$ Hinv
  ihave #Rrr1T4 := (reachedAll_at 4 (.rr 1 c)) $$ Hreach
  ihave HO := (Entails.of_eq (congrArg (fun o => owes (c : Thread nD τ) o _) (debt_peel c 4 [5, 6, 7] 1 (owesRedL c Tsd 2) (owesGatL c 1)))) $$ HO
  iapply (wp_red_send m 𝒱₀ c 4 1 hne4 (K (rsCell c 1)) (K (rrCell 4 1 c)) (dev27_eq _) (pchunk_lit1_4 _ _) (slot_off40 c _ _)
      (congrArg SemLoc.dma (sem_rs1 _)) (congrArg SemLoc.dma (sem_off39 c _)) (owesRedL c [5, 6, 7] 1 + owesRedL c Tsd 2 + owesGatL c 1) fd4)
    $$ [P1T4 Drr1T4 HO Trs1T4 Trr1T4]
  · isplitr; · iexact Irs1
    isplitr; · iexact Irr1T4
    isplitl [P1T4]; · iexact P1T4
    isplitl [Drr1T4]; · iexact Drr1T4
    isplitl [HO]; · iexact HO
    isplitl [Trs1T4]; · iexact Trs1T4
    isplitr; · iexact Rrs1
    isplitl [Trr1T4]; · iexact Trr1T4
    iexact Rrr1T4
  iintro ⟨Crs1T4, HO⟩
  sl_exec_parts
  -- the copy of chunk 5 to device 5
  ihave #Irr1T5 := (invsAll_at m K 5 (.rr 1 c)) $$ Hinv
  ihave #Rrr1T5 := (reachedAll_at 5 (.rr 1 c)) $$ Hreach
  ihave HO := (Entails.of_eq (congrArg (fun o => owes (c : Thread nD τ) o _) (debt_peel c 5 [6, 7] 1 (owesRedL c Tsd 2) (owesGatL c 1)))) $$ HO
  iapply (wp_red_send m 𝒱₀ c 5 1 hne5 (K (rsCell c 1)) (K (rrCell 5 1 c)) (dev28_eq _) (pchunk_lit1_5 _ _) (slot_off42 c _ _)
      (congrArg SemLoc.dma (sem_rs1 _)) (congrArg SemLoc.dma (sem_off41 c _)) (owesRedL c [6, 7] 1 + owesRedL c Tsd 2 + owesGatL c 1) fd5)
    $$ [P1T5 Drr1T5 HO Trs1T5 Trr1T5]
  · isplitr; · iexact Irs1
    isplitr; · iexact Irr1T5
    isplitl [P1T5]; · iexact P1T5
    isplitl [Drr1T5]; · iexact Drr1T5
    isplitl [HO]; · iexact HO
    isplitl [Trs1T5]; · iexact Trs1T5
    isplitr; · iexact Rrs1
    isplitl [Trr1T5]; · iexact Trr1T5
    iexact Rrr1T5
  iintro ⟨Crs1T5, HO⟩
  sl_exec_parts
  -- the wait for device 6's rows
  ihave #Igr0S6 := (invsAll_at m K c (.gr 0 6)) $$ Hinv
  ihave #Mgr0S6 := (mayWait_gr (F := F) c 0 6 (owesRedL c [6, 7] 1 + owesRedL c Tsd 2 + owesGatL c 1) hAbG3) $$ Hlev
  iapply (wp_gat_recv m 𝒱₀ c 6 0 (by decide) hne6.symm (K (grCell c 0 6)) (sem_gr0_6 _) (gChunk_credit 0 6)) $$ [Cgr0S6 HO Pgr0S6]
  · isplitr; · iexact Igr0S6
    isplitl [Cgr0S6]; · iexact Cgr0S6
    isplitl [HO]; · iexact HO
    isplitr; · iexact Mgr0S6
    iexact Pgr0S6
  iintro ⟨HO, Dgr0S6, #Rgr0S6, Ygr0S6⟩
  sl_exec_parts
  -- the wait for device 7's rows
  ihave #Igr0S7 := (invsAll_at m K c (.gr 0 7)) $$ Hinv
  ihave #Mgr0S7 := (mayWait_gr (F := F) c 0 7 (owesRedL c [6, 7] 1 + owesRedL c Tsd 2 + owesGatL c 1) hAbG3) $$ Hlev
  iapply (wp_gat_recv m 𝒱₀ c 7 0 (by decide) hne7.symm (K (grCell c 0 7)) (sem_gr0_7 _) (gChunk_credit 0 7)) $$ [Cgr0S7 HO Pgr0S7]
  · isplitr; · iexact Igr0S7
    isplitl [Cgr0S7]; · iexact Cgr0S7
    isplitl [HO]; · iexact HO
    isplitr; · iexact Mgr0S7
    iexact Pgr0S7
  iintro ⟨HO, Dgr0S7, #Rgr0S7, Ygr0S7⟩
  -- rows 384 … 511 of the first activation joined, and the same rows of layer 1's partial product
  ihave Ggr0S6 := (grPay_canon m c 6 0) $$ Ygr0S6
  ihave Ggr0S7 := (grPay_canon m c 7 0) $$ Ygr0S7
  ihave GG3 := (gGroup_join c 0 3 fullShare (Gfun m c) 6 7 rfl rfl) $$ [Ggr0S6 Ggr0S7]
  · isplitl [Ggr0S6]; · iexact Ggr0S6
    iexact Ggr0S7
  ihave PG3 := (pGroup_join c 1 3 fullShare f0 6 7 rfl rfl) $$ [P1T6 P1T7]
  · isplitl [P1T6]; · iexact P1T6
    iexact P1T7
  sl_exec_parts
  -- the group stored is the canonical partial product on its rows; cut into its two chunks
  have eG3 : View.readAt (Elt F) (Memref.whole cc0_scratch2).view (Rect.unit (s := S3x512x256) ![0, 384, 0] S1x128x256.size inb_S3x512x256_S1x128x256_0_384_0).toLoadRect (Gfun m c)
      = groupOf (G0 m) 3 := read_G_group m c 0 3 ![0, 384, 0] rfl _
  have hw3 : ∀ i ∈ (rectGrp 1 3).set, segB1_sound2.sl.PG3_w1 m c f0 x3 x4 i = Pfun m c i :=
    stored_P1 m c 3 f0 _ rfl _ _ HEq.rfl (by
      unfold segB1_sound2.sl.r segB1_sound2.sl.r_1
      rw [e3, e4, eG3]
      rfl)
  ihave PG3 := (pGroup_split c 1 3 fullShare _ 6 7 rfl rfl) $$ PG3
  icases PG3 with ⟨P1T6, P1T7⟩
  have hw3T := agree_chunks 1 3 6 7 rfl rfl _ _ hw3
  ihave P1T6 := (Entails.of_eq (pChunk_congr c 1 6 fullShare hw3T.1)) $$ P1T6
  ihave P1T7 := (Entails.of_eq (pChunk_congr c 1 7 fullShare hw3T.2)) $$ P1T7
  -- the copy of chunk 6 to device 6
  ihave #Irr1T6 := (invsAll_at m K 6 (.rr 1 c)) $$ Hinv
  ihave #Rrr1T6 := (reachedAll_at 6 (.rr 1 c)) $$ Hreach
  ihave HO := (Entails.of_eq (congrArg (fun o => owes (c : Thread nD τ) o _) (debt_peel c 6 [7] 1 (owesRedL c Tsd 2) (owesGatL c 1)))) $$ HO
  iapply (wp_red_send m 𝒱₀ c 6 1 hne6 (K (rsCell c 1)) (K (rrCell 6 1 c)) (dev29_eq _) (pchunk_lit1_6 _ _) (slot_off44 c _ _)
      (congrArg SemLoc.dma (sem_rs1 _)) (congrArg SemLoc.dma (sem_off43 c _)) (owesRedL c [7] 1 + owesRedL c Tsd 2 + owesGatL c 1) fd6)
    $$ [P1T6 Drr1T6 HO Trs1T6 Trr1T6]
  · isplitr; · iexact Irs1
    isplitr; · iexact Irr1T6
    isplitl [P1T6]; · iexact P1T6
    isplitl [Drr1T6]; · iexact Drr1T6
    isplitl [HO]; · iexact HO
    isplitl [Trs1T6]; · iexact Trs1T6
    isplitr; · iexact Rrs1
    isplitl [Trr1T6]; · iexact Trr1T6
    iexact Rrr1T6
  iintro ⟨Crs1T6, HO⟩
  sl_exec_parts
  -- the copy of chunk 7 to device 7
  ihave #Irr1T7 := (invsAll_at m K 7 (.rr 1 c)) $$ Hinv
  ihave #Rrr1T7 := (reachedAll_at 7 (.rr 1 c)) $$ Hreach
  ihave HO := (Entails.of_eq (congrArg (fun o => owes (c : Thread nD τ) o _) (debt_peel c 7 [] 1 (owesRedL c Tsd 2) (owesGatL c 1)))) $$ HO
  iapply (wp_red_send m 𝒱₀ c 7 1 hne7 (K (rsCell c 1)) (K (rrCell 7 1 c)) (dev30_eq _) (pchunk_lit1_7 _ _) (slot_off46 c _ _)
      (congrArg SemLoc.dma (sem_rs1 _)) (congrArg SemLoc.dma (sem_off45 c _)) (owesRedL c [] 1 + owesRedL c Tsd 2 + owesGatL c 1) fd7)
    $$ [P1T7 Drr1T7 HO Trs1T7 Trr1T7]
  · isplitr; · iexact Irs1
    isplitr; · iexact Irr1T7
    isplitl [P1T7]; · iexact P1T7
    isplitl [Drr1T7]; · iexact Drr1T7
    isplitl [HO]; · iexact HO
    isplitl [Trs1T7]; · iexact Trs1T7
    isplitr; · iexact Rrs1
    isplitl [Trr1T7]; · iexact Trr1T7
    iexact Rrr1T7
  iintro ⟨Crs1T7, HO⟩
  ihave P1T2 := (Entails.of_eq (congrArg (fun t => (piece c (pChunk 1 t) fullShare (Pfun m c) : sProp 𝕄)) hc.symm)) $$ P1T2
  ihave P1own := (Entails.of_eq (pRows_eq c 1 c fullShare (Pfun m c)).symm) $$ P1T2
  sl_exec_parts
  have eOwn : View.readAt (Elt F) (Memref.whole cc0_scratch0).view (Rect.unit (s := S3x512x256) (k0_off47 c) S1x64x256.size (k0_off47_inb c)).toLoadRect (Pfun m c)
      = chunkOf (P1 m c) c := read_P_chunk m c 1 c (k0_off47 c) (k0_off47_eq c) _
  iapply (ret_intro _ Kt c)
  iapply (Entails.of_eq (congrArg (fun x => (Kt ⟨k0_pay14 x, segB1_sound2.sl.v466 c⟩ : sProp 𝕄)) eOwn.symm))
  ihave GG0 := (gGroup_split c 0 0 fullShare (Gfun m c) 0 1 rfl rfl) $$ GG0
  icases GG0 with ⟨G0T0, G0T1⟩
  ihave GG1 := (gGroup_split c 0 1 fullShare (Gfun m c) 2 3 rfl rfl) $$ GG1
  icases GG1 with ⟨G0T2, G0T3⟩
  ihave GG2 := (gGroup_split c 0 2 fullShare (Gfun m c) 4 5 rfl rfl) $$ GG2
  icases GG2 with ⟨G0T4, G0T5⟩
  ihave GG3 := (gGroup_split c 0 3 fullShare (Gfun m c) 6 7 rfl rfl) $$ GG3
  icases GG3 with ⟨G0T6, G0T7⟩
  ihave G0T2 := (Entails.of_eq (congrArg (fun t => (piece c (gChunk 0 t) fullShare (Gfun m c) : sProp 𝕄)) hc.symm)) $$ G0T2
  ihave P1own := (Entails.of_eq (pRows_eq c 1 c fullShare (Pfun m c))) $$ P1own
  ihave X3 := (stg_of_whole c cc0_stg3_0 (argW m c 1) x3 hx3) $$ X3
  ihave X4 := (stg_of_whole c cc0_stg4_0 (argV m c 1) x4 hx4) $$ X4
  ihave HO := (Entails.of_eq (congrArg (fun o => owes (c : Thread nD τ) o _) (debt_done c 1 (owesRedL c Tsd 2) (owesGatL c 1)))) $$ HO
  iapply Hk
  isplitr
  · isplitr; · iexact Hinv
    isplitr; · iexact Hreach
    iexact Hlev
  isplitr; · ipureintro; trivial
  isplitl [HO]; · iexists _; iexact HO
  isplitl [GTok1]; · iexact GTok1
  isplitl [GDest1]; · iexact GDest1
  isplitl [PRed1]; · iexact PRed1
  isplitl [PGs1]; · iexact PGs1
  isplitl [PGr1]; · iexact PGr1
  isplitl [Crs1T0 Crs1T1 Crs1T3 Crs1T4 Crs1T5 Crs1T6 Crs1T7]
  · isplitl [Crs1T0]; · iexact Crs1T0
    isplitl [Crs1T1]; · iexact Crs1T1
    isplitl [Crs1T3]; · iexact Crs1T3
    isplitl [Crs1T4]; · iexact Crs1T4
    isplitl [Crs1T5]; · iexact Crs1T5
    isplitl [Crs1T6]; · iexact Crs1T6
    iexact Crs1T7
  isplitl [HL2]; · iexact HL2
  isplitl [HPD0]; · iexact HPD0
  isplitl [Dgr0S0 Dgr0S1 Dgr0S3 Dgr0S4 Dgr0S5 Dgr0S6 Dgr0S7]
  · isplitl [Dgr0S0]; · iexact Dgr0S0
    isplitl [Dgr0S1]; · iexact Dgr0S1
    isplitl [Dgr0S3]; · iexact Dgr0S3
    isplitl [Dgr0S4]; · iexact Dgr0S4
    isplitl [Dgr0S5]; · iexact Dgr0S5
    isplitl [Dgr0S6]; · iexact Dgr0S6
    iexact Dgr0S7
  isplitl [HPrest]; · iexact HPrest
  isplitl [PL0]; · iapply (slab_ex c 0 f0); iexact PL0
  isplitl [P1own]; · iapply (ex_intro c (pChunk 1 c) (Pfun m c)); iexact P1own
  isplitl [PL2]; · iapply (slab_ex c 2 f0); iexact PL2
  isplitl [HSB0]; · iexact HSB0
  isplitl [HR1c]; · iexact HR1c
  isplitl [HR2c]; · iexact HR2c
  isplitl [G0T0 G0T1 G0T2 G0T3 G0T4 G0T5 G0T6 G0T7]
  · isplitl [G0T2]; · iapply (ex_intro c (gChunk 0 c) (Gfun m c)); iexact G0T2
    isplitl [G0T0]; · iapply (ex_intro c (gChunk 0 0) (Gfun m c)); iexact G0T0
    isplitl [G0T1]; · iapply (ex_intro c (gChunk 0 1) (Gfun m c)); iexact G0T1
    isplitl [G0T3]; · iapply (ex_intro c (gChunk 0 3) (Gfun m c)); iexact G0T3
    isplitl [G0T4]; · iapply (ex_intro c (gChunk 0 4) (Gfun m c)); iexact G0T4
    isplitl [G0T5]; · iapply (ex_intro c (gChunk 0 5) (Gfun m c)); iexact G0T5
    isplitl [G0T6]; · iapply (ex_intro c (gChunk 0 6) (Gfun m c)); iexact G0T6
    iapply (ex_intro c (gChunk 0 7) (Gfun m c)); iexact G0T7
  isplitl [G1c]; · iexact G1c
  isplitl [HCA2]; · iexact HCA2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segB1_sound2' depends on axioms: [propext, Classical.choice, Quot.sound] -/
#guard_msgs in #print axioms segB1_sound2

end Cert.KernelProof

end
-- ==== Proof.K.BodySegB2_d2.lean ====
import proofs.«900993_g7700000000000994_dist_mlpseq_tp1d_rep_bs_b512_d256_h512_v7x_i8_bf16_1_alg».proof.Proof.K.BodySegBCut
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 1 on the device at position 2: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound2 (c : Dev nD) (hc : c = 2) (K : GSem nD τ sig → ℕ) (Kt : PUnit → sProp 𝕄) (v463 : FVec F S64x256 .f32) (v466 : BitVec 32) :
    iprop(midB m K c [(0 : Dev nD), 1, 3, 4, 5, 6, 7] v463 ∗ (mid2 m K c [(0 : Dev nD), 1, 3, 4, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : ¬ k0_cond35 c = 1#1 := fun h => (cond35_iff c).mp h hc
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 3, 4, 5, 6, 7] 2) := by
    unfold owesRedL
    simp only [List.map_cons, List.map_nil, List.sum_cons, List.sum_nil]
    owes_above
  have hdebt : owesRedL c [(0 : Dev nD), 1, 3, 4, 5, 6, 7] 2 + owesGatL c 1
      = owesRedL c [(0 : Dev nD), 1, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 3, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound2.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound2.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound2.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound2.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound2.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound2.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound2.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound2.sl.r_2 m c a1 a2 a3 a4 a5 a6) (segB2_sound2.sl.v572 m c a7) = red1 m c := by
    intro a1 a2 a3 a4 a5 a6 a7
    unfold segB2_sound2.sl.r_2 segB2_sound2.sl.r_1 segB2_sound2.sl.r
    rw [e476, e492, e508, e524, e540, e556, e572]
    rfl
  have hG1 : ∀ i ∈ (gChunk 1 c).view.set, segB2_sound2.sl.G1c_w1 m c g1 fs1 fs2 fs3 fs4 fs5 fs6 fs7 i = Gfun m c i := by
    intro i hi
    unfold segB2_sound2.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelProof.segB2_sound2' depends on axioms: [propext, Classical.choice, Quot.sound] -/
#guard_msgs in #print axioms segB2_sound2

end Cert.KernelProof

end
-- ==== Proof.K.BodySegC1_d2.lean ====
import proofs.«900993_g7700000000000994_dist_mlpseq_tp1d_rep_bs_b512_d256_h512_v7x_i8_bf16_1_alg».proof.Proof.K.BodySegC1Lib
import Idealize.ShloMosaic.Lib.Tactic

/-! The first half of layer 2 on the device at position 2: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 2 owes for layer 2, the summands in the reverse of the order its sends pay them. -/
theorem owesRedL_rev_d2 (c : Dev nD) :
    owesRedL c [(0 : Dev nD), 1, 3, 4, 5, 6, 7] 2 = 0 + T2 c 7 + T2 c 6 + T2 c 5 + T2 c 4 + T2 c 3 + T2 c 1 + T2 c 0 := by
  unfold owesRedL T2
  simp only [List.map, List.sum_cons, List.sum_nil]
  abel

theorem segC1_sound2 (c : Dev nD) (hc : c = 2) (K : GSem nD τ sig → ℕ) (Kt : PUnit → sProp 𝕄) :
    iprop(mid2 m K c [(0 : Dev nD), 1, 3, 4, 5, 6, 7] ∗ (mid3 m K c [(0 : Dev nD), 1, 3, 4, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 := (condw0_iff c).mpr hne0
  have hw1 := (condw1_iff c).mpr hne1
  have hw2 : ¬ _ := fun h => (condw2_iff c).mp h hc
  have hw3 := (condw3_iff c).mpr hne3
  have hw4 := (condw4_iff c).mpr hne4
  have hw5 := (condw5_iff c).mpr hne5
  have hw6 := (condw6_iff c).mpr hne6
  have hw7 := (condw7_iff c).mpr hne7
  have hg43 : k0_cond43 c = 1#1 := (cond43_iff c).mpr hne0
  have hg44 : k0_cond44 c = 1#1 := (cond44_iff c).mpr hne1
  have hg47 : ¬ k0_cond47 c = 1#1 := fun h => (cond47_iff c).mp h hc
  have hg48 : k0_cond48 c = 1#1 := (cond48_iff c).mpr hne3
  have hg51 : k0_cond51 c = 1#1 := (cond51_iff c).mpr hne4
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts3, Tr3⟩, ⟨Ts4, Tr4⟩, ⟨Ts5, Tr5⟩, ⟨Ts6, Tr6⟩, ⟨Ts7, Tr7⟩⟩, -⟩, HposRed2, -, Hdest⟩, ⟨⟨Pg0, Cg0⟩, ⟨Pg1, Cg1⟩, ⟨Pg3, Cg3⟩, ⟨Pg4, Cg4⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d2 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 5 + T2 c 4 + T2 c 3 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 6 + T2 c 5 + T2 c 4 + T2 c 3 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound2.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 3's rows of the second activation
  ihave Ig := (invsAll_at m K c (.gr 1 3)) $$ Hinv
  ihave Hmw := (mayWait_gr (F := F) c 1 3 (0 + T2 c 7 + T2 c 6 + T2 c 5 + T2 c 4 + T2 c 3) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  -- the device's own rows are chunk 2 of the group
  ihave Gc2 := (Entails.of_eq (congrArg (fun t : Dev nD => (piece c (gChunk 1 t) fullShare (Gfun m c) : sProp 𝕄)) hc)) $$ Hg1c
  ihave GG1 := (gGroup_join c 1 1 fullShare (Gfun m c) 2 3 rfl rfl) $$ [Gc2 Gc3]
  · isplitl [Gc2] <;> iassumption
  sl_exec
  -- group 1 of layer 2 now holds the device's partial product
  unfold segC1_sound2.sl.PG1_w1 segC1_sound2.sl.r segC1_sound2.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound2.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound2.sl.PG3_w1 segC1_sound2.sl.r_2 segC1_sound2.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs3 Cs4 Cs5 Cs6 Cs7]
  · rw [sepL7]
    isplitl [Cs0]; · iexact Cs0
    isplitl [Cs1]; · iexact Cs1
    isplitl [Cs3]; · iexact Cs3
    isplitl [Cs4]; · iexact Cs4
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg0 Pg1 Pg3 Pg4 Pg5 Pg6 Pg7]
  · rw [sepL7]
    isplitl [Pg0]; · iexact Pg0
    isplitl [Pg1]; · iexact Pg1
    isplitl [Pg3]; · iexact Pg3
    isplitl [Pg4]; · iexact Pg4
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A02]
    · iapply (Entails.of_eq (congrArg (fun t : Dev nD => (ex (F := F) c (pChunk 0 t) : sProp 𝕄)) hc.symm))
      iapply (ex_of c (pChunk 0 2) _); iexact A02
    isplitl [A00]; · iapply (ex_of c (pChunk 0 0) _); iexact A00
    isplitl [A01]; · iapply (ex_of c (pChunk 0 1) _); iexact A01
    isplitl [A03]; · iapply (ex_of c (pChunk 0 3) _); iexact A03
    isplitl [A04]; · iapply (ex_of c (pChunk 0 4) _); iexact A04
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A12]
    · iapply (Entails.of_eq (congrArg (fun t : Dev nD => (ex (F := F) c (pChunk 1 t) : sProp 𝕄)) hc.symm))
      iapply (ex_of c (pChunk 1 2) _); iexact A12
    isplitl [A10]; · iapply (ex_of c (pChunk 1 0) _); iexact A10
    isplitl [A11]; · iapply (ex_of c (pChunk 1 1) _); iexact A11
    isplitl [A13]; · iapply (ex_of c (pChunk 1 3) _); iexact A13
    isplitl [A14]; · iapply (ex_of c (pChunk 1 4) _); iexact A14
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B22]
  · iapply (Entails.of_eq (congrArg (fun t : Dev nD => (piece c (pChunk 2 t) fullShare (Pfun m c) : sProp 𝕄)) hc.symm)); iexact B22
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G12]
    · iapply (Entails.of_eq (congrArg (fun t : Dev nD => (ex (F := F) c (gChunk 1 t) : sProp 𝕄)) hc.symm))
      iapply (ex_of c (gChunk 1 2) _); iexact G12
    isplitl [G10]; · iapply (ex_of c (gChunk 1 0) _); iexact G10
    isplitl [G11]; · iapply (ex_of c (gChunk 1 1) _); iexact G11
    isplitl [G13]; · iapply (ex_of c (gChunk 1 3) _); iexact G13
    isplitl [G14]; · iapply (ex_of c (gChunk 1 4) _); iexact G14
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelProof.segC1_sound2' depends on axioms: [propext, Classical.choice, Quot.sound] -/
#guard_msgs in #print axioms segC1_sound2

end Cert.KernelProof

end
-- ==== Proof.K.BodySegC2_d2.lean ====
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.BodyExit
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 2 on the device at position 2: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound2 (c : Dev nD) (hc : c = 2) (K : GSem nD τ sig → ℕ) (Kt : PUnit → sProp 𝕄) :
    iprop(mid3 m K c [(0 : Dev nD), 1, 3, 4, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 3, 4, 5, 6, 7]).toFinset := by subst hc; decide
  have hnd : ([(0 : Dev nD), 1, 3, 4, 5, 6, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : ¬ k0_cond59 c = 1#1 := fun h => (cond59_iff c).mp h hc
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound2.sl.v846 m c : Vec F S1x64x256 .bf16) = chunkOf (P2 m c) c := own_chunk_read m c _
  have e861 : ∀ a, (segC2_sound2.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound2.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound2.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound2.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound2.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound2.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound2.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound2.sl.r_3 m c a1 a2 a3 a4 a5 a6) (segC2_sound2.sl.v957 m c a7) = red2 m c := by
    intro a1 a2 a3 a4 a5 a6 a7
    unfold segC2_sound2.sl.r_3 segC2_sound2.sl.r_2 segC2_sound2.sl.r_1 segC2_sound2.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound2.sl.r_3 m c fs1 fs2 fs3 fs4 fs5 fs6) (segC2_sound2.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelProof.segC2_sound2' depends on axioms: [propext, Classical.choice, Quot.sound] -/
#guard_msgs in #print axioms segC2_sound2

end Cert.KernelProof

end
-- ==== Proof.K.BodySegA1a_d3.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.PreludeDevs
import proofs.«900993_g7700000000000994_dist_mlpseq_tp1d_rep_bs_b512_d256_h512_v7x_i8_bf16_1_alg».proof.Proof.K.StepsEntry
import Idealize.ShloMosaic.Lib.Tactic

/-! The entry and layer 0 on device 3, first half: from the body's start to the point where the device has enqueued its
    seven reduce copies of layer 0 and read its own chunk.

    The device signals its seven peers along the ring, one unit to each barrier cell: each signal pays the device's
    duty at that cell and hands the peer the pieces of the device's buffers the peer's copies will land in. It waits for
    the seven signals to itself, the whole round of its barrier cell, and receives in turn the pieces of its peers'
    buffers its own copies land in. It then makes layer 0's partial product from the staged arguments by the body's own
    arithmetic and stores it over layer 0 of the partial-product buffer, which from then on holds the canonical partial
    product there; cut into 64-row chunks, each chunk but the device's own is lent to the copy towards the device that
    reduces those rows, which pays duty `t` of the device's reduce-send cell and the one duty of the target's
    reduce-receive cell, settles what the device owed that cell, and earns the credit for a later wait on the send
    cell. The own chunk is read last, as the accumulation's first term. What the device holds then — the tokens,
    positions and credit of everything still to come, regrouped layer by layer — is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 4, 5, 6, 7]

/-- A step rule stated with its continuation as a wand, read with the continuation as a second conjunct. -/
private theorem step_uncurry {P R G : sProp 𝕄} (h : P ⊢ iprop(R -∗ G)) : iprop(P ∗ R) ⊢ G := by
  iintro ⟨HP, HR⟩
  iapply (h) $$ [HP]
  · iexact HP
  iexact HR

/-- The start holds every cell's invariant and round-0 fact for good. -/
private theorem pre_dup (K : GSem nD τ sig → ℕ) (c : Dev nD) : bodyPre m K c ⊢ iprop((invsAll m K ∗ reachedAll (F := F)) ∗ bodyPre m K c) := by
  unfold bodyPre ghost
  iintro ⟨⟨⟨#HI, #HR, HP, HT⟩, HC, Hlev, S0, S1, S2⟩, HO, Hstg⟩
  isplitr
  · isplitr; · iexact HI
    iexact HR
  isplitl [HP HT HC Hlev S0 S1 S2]
  · isplitl [HP HT]
    · isplitr; · iexact HI
      isplitr; · iexact HR
      isplitl [HP]; · iexact HP
      iexact HT
    isplitl [HC]; · iexact HC
    isplitl [Hlev]; · iexact Hlev
    isplitl [S0]; · iexact S0
    isplitl [S1]; · iexact S1
    iexact S2
  isplitl [HO]; · iexact HO
  iexact Hstg

/-- Two chains of seven, term by term. -/
private theorem zip7 {M : Type} [URA M] (a1 a2 a3 a4 a5 a6 a7 b1 b2 b3 b4 b5 b6 b7 : sProp M) :
    iprop((a1 ∗ a2 ∗ a3 ∗ a4 ∗ a5 ∗ a6 ∗ a7) ∗ (b1 ∗ b2 ∗ b3 ∗ b4 ∗ b5 ∗ b6 ∗ b7))
      ⊢ iprop((a1 ∗ b1) ∗ (a2 ∗ b2) ∗ (a3 ∗ b3) ∗ (a4 ∗ b4) ∗ (a5 ∗ b5) ∗ (a6 ∗ b6) ∗ (a7 ∗ b7)) := by
  iintro ⟨⟨A1, A2, A3, A4, A5, A6, A7⟩, ⟨B1, B2, B3, B4, B5, B6, B7⟩⟩
  isplitl [A1 B1]; · isplitl [A1]; · iexact A1
                     iexact B1
  isplitl [A2 B2]; · isplitl [A2]; · iexact A2
                     iexact B2
  isplitl [A3 B3]; · isplitl [A3]; · iexact A3
                     iexact B3
  isplitl [A4 B4]; · isplitl [A4]; · iexact A4
                     iexact B4
  isplitl [A5 B5]; · isplitl [A5]; · iexact A5
                     iexact B5
  isplitl [A6 B6]; · isplitl [A6]; · iexact A6
                     iexact B6
  isplitl [A7]; · iexact A7
  iexact B7

/-- What the seven entry signals heard hand the device, sorted by the layer whose copies land in it. -/
private theorem barPays_fold (c : Dev nD) (Ts : List (Dev nD)) (hTs : peers c = Ts.toFinset) (hnd : Ts.Nodup) :
    bigSep (peers c) (fun p => barPay (F := F) c p) ⊢ iprop(layerDest c Ts 0 ∗ layerDest c Ts 1 ∗ layerDest c Ts 2) := by
  unfold barPay layerDest
  simp only [bigSep_sep']
  rw [if_pos (show (0 : Fin 3).val < 2 by decide), if_pos (show (1 : Fin 3).val < 2 by decide), if_neg (show ¬ (2 : Fin 3).val < 2 by decide)]
  rw [bigSep_eq_bigSepL_of_eq Ts hTs hnd (fun p => iprop(∃ f, piece p (rSlot 0 c) fullShare f)),
    bigSep_eq_bigSepL_of_eq Ts hTs hnd (fun p => iprop(∃ f, piece p (rSlot 1 c) fullShare f)),
    bigSep_eq_bigSepL_of_eq Ts hTs hnd (fun p => iprop(∃ f, piece p (rSlot 2 c) fullShare f)),
    bigSep_eq_bigSepL_of_eq (ringF c) (peers_eq_fwd c) (fwd_nodup c) (fun p => iprop(∃ f, piece p (gChunk 0 c) fullShare f)),
    bigSep_eq_bigSepL_of_eq (ringF c) (peers_eq_fwd c) (fwd_nodup c) (fun p => iprop(∃ f, piece p (gChunk 1 c) fullShare f))]
  iintro ⟨A0, A1, A2, G0, G1, -⟩
  isplitl [A0 G0]; · isplitl [A0]; · iexact A0
                     iexact G0
  isplitl [A1 G1]; · isplitl [A1]; · iexact A1
                     iexact G1
  isplitl [A2]; · iexact A2
  iempintro

/-- Layer 0's destinations: the seven receive slots by target, and the gather chunks along the ring. -/
private theorem layerDest0_eq (c : Dev nD) : (layerDest (F := F) c Tsd 0 : sProp 𝕄) =
    iprop(((∃ fd, piece 0 (rSlot 0 c) fullShare fd) ∗ (∃ fd, piece 1 (rSlot 0 c) fullShare fd) ∗ (∃ fd, piece 2 (rSlot 0 c) fullShare fd) ∗ (∃ fd, piece 4 (rSlot 0 c) fullShare fd) ∗ (∃ fd, piece 5 (rSlot 0 c) fullShare fd) ∗ (∃ fd, piece 6 (rSlot 0 c) fullShare fd) ∗ (∃ fd, piece 7 (rSlot 0 c) fullShare fd))
      ∗ bigSepL (ringF c) (fun p => iprop(∃ fd, piece p (gChunk 0 c) fullShare fd))) := by
  unfold layerDest
  rw [if_pos (show (0 : Fin 3).val < 2 by decide)]
  rfl

/-- Chunk `t` of layer 0 after the store of the layer's partial product holds the canonical contents. -/
private theorem chunk0_stored (c t : Dev nD) (f0 : Buf (Elt F) ((c : Thread nD τ).loc cc0_scratch0))
    (inb : ∀ a, (![0, 0, 0] : Fin 3 → Nat) a + S1x512x256.size a ≤ S3x512x256.size a) :
    (piece c (pChunk 0 t) fullShare ((Memref.whole cc0_scratch0).view.writes (Elt F) f0
        [⟨Rect.unit (s := S3x512x256) ![0, 0, 0] S1x512x256.size inb, P0 m c⟩]) : sProp 𝕄)
      = piece c (pChunk 0 t) fullShare (Pfun m c) := by
  refine piece_congr c (pChunk 0 t) fullShare fun i hi => ?_
  refine write_P0 m c f0 ![0, 0, 0] rfl inb i ?_
  rw [set_pChunk] at hi
  have hs : i ∈ (rectSlab 0).set := by
    rw [rectSlab_eq]; exact Finset.mem_biUnion.mpr ⟨t, Finset.mem_univ _, hi⟩
  have hs' : i ∈ (pSlab 0).view.set := by rw [set_pSlab]; exact hs
  exact hs'

/-- The eight chunks of layer `l` of the partial-product buffer, each at some contents. -/
private def pLayerEx (c : Dev nD) (l : Fin 3) : sProp 𝕄 := bigSep (Finset.univ : Finset (Dev nD)) (fun t => ex (F := F) c (pChunk l t))

/-- After the store of layer 0's partial product the partial-product buffer is: its eight chunks of layer 0 holding the
    canonical contents, and the chunks of the two later layers at whatever they hold. -/
private theorem slab0_cut (c : Dev nD) (f0 : Buf (Elt F) ((c : Thread nD τ).loc cc0_scratch0))
    {a0 : Vec F S512x256 .f32} {a1 : Vec F S256x512 .f32} {a2 : Vec F S512x256 .f32}
    (h0 : a0 = argX m c) (h1 : a1 = argW m c 0) (h2 : a2 = argV m c 0)
    (inb : ∀ a, (![0, 0, 0] : Fin 3 → Nat) a + S1x512x256.size a ≤ S3x512x256.size a) :
    ((Memref.whole cc0_scratch0).view.loc (c : Thread nD τ) ↦[(Memref.whole cc0_scratch0).view.set]{fullShare}
        ((Memref.whole cc0_scratch0).view.writes (Elt F) f0 [⟨Rect.unit (s := S3x512x256) ![0, 0, 0] S1x512x256.size inb, k0_pay1 a0 a1 a2⟩]) : sProp 𝕄)
      ⊢ iprop(bigSep (Finset.univ : Finset (Dev nD)) (fun t => piece c (pChunk 0 t) fullShare (Pfun m c))
          ∗ pLayerEx c 1 ∗ pLayerEx c 2) := by
  unfold pLayerEx
  subst h0 h1 h2
  refine (whole0_split c fullShare _).trans ?_
  rw [bigSep_univ_prod, bigSep_fin3]
  exact sep_mono (Entails.of_eq (bigSep_congr fun t _ => chunk0_stored m c t f0 inb))
    (sep_mono (bigSep_mono fun t _ => piece_ex c _ _ _) (bigSep_mono fun t _ => piece_ex c _ _ _))

private theorem zero2 : (![0, 0] : Fin 2 → Nat) = fun _ => 0 := by funext a; fin_cases a <;> rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; rfl
  iapply (Entails.of_eq (congrArg (fun I => pointsTo ((c : Thread nD τ).loc b) I fullShare x) (View.set_whole b)))
  iexact H

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

/-- What is still owed once the entry signals and layer 0's reduce copies are out, and the whole debt at launch with
    those last, in the reverse of the order they are settled. -/
private abbrev restA (c : Dev nD) : CellTallies nD τ sig Unit := owesRedL c Tsd 1 + owesRedL c Tsd 2 + owesGatL c 0 + owesGatL c 1

private theorem debt_rev (c : Dev nD) : debt c 0 1 2 4 5 6 7 =
    restA c + tallyAt (rrCell 7 0 c) () N64 + tallyAt (rrCell 6 0 c) () N64 + tallyAt (rrCell 5 0 c) () N64 + tallyAt (rrCell 4 0 c) () N64 + tallyAt (rrCell 2 0 c) () N64 + tallyAt (rrCell 1 0 c) () N64 + tallyAt (rrCell 0 0 c) () N64
      + tallyAt (barCell (fwd 7 c)) () 1 + tallyAt (barCell (fwd 6 c)) () 1 + tallyAt (barCell (fwd 5 c)) () 1 + tallyAt (barCell (fwd 4 c)) () 1
      + tallyAt (barCell (fwd 3 c)) () 1 + tallyAt (barCell (fwd 2 c)) () 1 + tallyAt (barCell (fwd 1 c)) () 1 := by
  unfold debt owesBar owesRedLit owesGatA restA owesRedL owesGatL ringF
  simp only [amt_rSlot, amt_gChunk, List.map, List.sum_cons, List.sum_nil]
  abel

private theorem above_restA (c : Dev nD) : Above 1 (restA c) := by
  unfold restA owesRedL owesGatL ringF
  simp only [List.map, List.sum_cons, List.sum_nil]
  owes_above

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- Seven copies of one assertion, as the family over the literal peers. -/
private theorem creds7 (a : sProp 𝕄) : iprop(a ∗ a ∗ a ∗ a ∗ a ∗ a ∗ a) ⊢ bigSepL Tsd (fun _ => a) := .rfl

/-- Two chains along the ring forward, term by term. -/
private theorem zipF (c : Dev nD) (Φ Ψ : Dev nD → sProp 𝕄) : iprop(alongF c Φ ∗ alongF c Ψ) ⊢ bigSepL (ringF c) (fun p => iprop(Φ p ∗ Ψ p)) :=
  zip7 _ _ _ _ _ _ _ _ _ _ _ _ _ _
/-- Two chains along the ring backward, term by term. -/
private theorem zipB (c : Dev nD) (Φ Ψ : Dev nD → sProp 𝕄) : iprop(alongB c Φ ∗ alongB c Ψ) ⊢ bigSepL (ringB c) (fun p => iprop(Φ p ∗ Ψ p)) :=
  zip7 _ _ _ _ _ _ _ _ _ _ _ _ _ _
/-- Two chains over the literal peers, term by term. -/
private theorem zipT (Φ Ψ : Dev nD → sProp 𝕄) : iprop(lits3 Φ ∗ lits3 Ψ) ⊢ bigSepL Tsd (fun p => iprop(Φ p ∗ Ψ p)) :=
  zip7 _ _ _ _ _ _ _ _ _ _ _ _ _ _

/-- A layer's reduce positions from the send cell's, the receive cells' and their credit. -/
private theorem posRed_intro (c : Dev nD) (l : Fin 3) :
    iprop(atPos ER (rsCell c l) 0 ∅ 0 ∗ alongB c (fun s => (atPos ER (rrCell c l s) 0 ∅ 0 : sProp 𝕄))
      ∗ alongB c (fun s => (cred (tallyAt (rrCell c l s) () N64) : sProp 𝕄))) ⊢ (posRed (F := F) c l : sProp 𝕄) := by
  unfold posRed
  iintro ⟨A, B, C⟩
  isplitl [A]; · iexact A
  iapply (zipB c _ _)
  isplitl [B]; · iexact B
  iexact C
/-- A layer's gather-send position. -/
private theorem posGs_intro (c : Dev nD) (l : Fin 3) : (atPos ER (gsCell c l) 0 ∅ 0 : sProp 𝕄) ⊢ posGs (F := F) c l := by
  unfold posGs
  exact .rfl
/-- A layer's gather-receive positions with their credit. -/
private theorem posGr_intro (c : Dev nD) (l : Fin 3) :
    iprop(lits3 (fun s => (atPos ER (grCell c l s) 0 ∅ 0 : sProp 𝕄)) ∗ lits3 (fun s => (cred (tallyAt (grCell c l s) () N64) : sProp 𝕄)))
      ⊢ (posGr (F := F) c Tsd l : sProp 𝕄) := by
  unfold posGr
  exact zipT _ _

/-- A later layer's resources from its tokens, positions, credit and destinations. -/
private theorem layerRes1_intro (c : Dev nD) :
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1) ∗ layerDest c Tsd 1) ⊢ (layerRes (F := F) c Tsd 1 : sProp 𝕄) := by
  unfold layerRes layerToks
  rw [if_pos (show (1 : Fin 3).val < 2 by decide), if_pos (show (1 : Fin 3).val < 2 by decide)]
private theorem layerRes2_intro (c : Dev nD) :
    iprop((bigSepL Tsd (fun t => iprop(dutyTok ER (rsCell c 2) 0 t ∗ dutyTok ER (rrCell t 2 c) 0 c)) ∗ emp)
      ∗ posRed c 2 ∗ emp ∗ layerDest c Tsd 2) ⊢ (layerRes (F := F) c Tsd 2 : sProp 𝕄) := by
  unfold layerRes layerToks
  rw [if_neg (show ¬ (2 : Fin 3).val < 2 by decide), if_neg (show ¬ (2 : Fin 3).val < 2 by decide)]

private theorem pLayerEx_def (c : Dev nD) (l : Fin 3) :
    (pLayerEx (F := F) c l : sProp 𝕄) = bigSep (Finset.univ : Finset (Dev nD)) (fun t => ex (F := F) c (pChunk l t)) := rfl

/-- The last layer's chunks of the gather buffer, all held. -/
private theorem gath2 (c : Dev nD) (hc : c = 3) (f : Buf (Elt F) ((c : Thread nD τ).loc cc0_scratch2)) :
    bigSep (Finset.univ : Finset (Dev nD)) (fun t => (piece c (gChunk 2 t) fullShare f : sProp 𝕄)) ⊢ chunksAll c Tsd 2 := by
  subst hc
  rw [bigSep_dev8]
  unfold chunksAll
  rw [bigSepL7]
  iintro ⟨H0, H1, H2, H3, H4, H5, H6, H7⟩
  isplitl [H3]; · iapply (ex_intro _ (gChunk 2 3) f); iexact H3
  isplitl [H0]; · iapply (ex_intro _ (gChunk 2 0) f); iexact H0
  isplitl [H1]; · iapply (ex_intro _ (gChunk 2 1) f); iexact H1
  isplitl [H2]; · iapply (ex_intro _ (gChunk 2 2) f); iexact H2
  isplitl [H4]; · iapply (ex_intro _ (gChunk 2 4) f); iexact H4
  isplitl [H5]; · iapply (ex_intro _ (gChunk 2 5) f); iexact H5
  isplitl [H6]; · iapply (ex_intro _ (gChunk 2 6) f); iexact H6
  iapply (ex_intro _ (gChunk 2 7) f); iexact H7

attribute [local irreducible] layerDest layerRes layerToks barPay pLayerEx

set_option hygiene false in
/-- The entry signal to the peer `j` places after the device: it pays with the head token and the head payload. -/
local macro "entry_signal" j:num eq:ident : tactic => `(tactic| (
  icases TB with ⟨Tb, TB⟩
  icases PB with ⟨Pb, PB⟩
  iapply (step_uncurry (wp_entry_signal m 𝒱₀ c (fwd $j c) (fwd_ne_nat $j (by decide) (by decide) c) (K (barCell (fwd $j c))) ($eq c _) rfl rfl _))
  isplitl [Tb Pb HO]
  · isplitr; · iapply (invsAll_at m K (fwd $j c) .bar); iexact Hinv
    isplitl [Tb]; · iexact Tb
    isplitr; · iapply (reached_at (fwd $j c) .bar); iexact Hreach
    isplitl [Pb]; · iexact Pb
    iexact HO
  iintro HO
  sl_exec_parts))

theorem segA1_sound3 (c : Dev nD) (hc : c = 3) (K : GSem nD τ sig → ℕ)
    (Kt : (Σ' (d0 : Dev nD) (v2 : BitVec 32) (v78 : FVec F S64x256 .f32) (v81 : BitVec 32) (v82 : BitVec 32), BitVec 32) → sProp 𝕄) :
    iprop(bodyPre m K c ∗ (∀ v78 v81 v82 c0, midA m K c Tsd v78 -∗ Kt ⟨c, devWord c, v78, v81, v82, c0⟩))
      ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have hne0 : c ≠ (0 : Dev nD) := by rw [hc]; decide
  have hne1 : c ≠ (1 : Dev nD) := by rw [hc]; decide
  have hne2 : c ≠ (2 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hg1 : k0_cond1 c = 1#1 := (cond1_iff c).mpr hne0
  have hg2 : k0_cond2 c = 1#1 := (cond2_iff c).mpr hne1
  have hg3 : k0_cond3 c = 1#1 := (cond3_iff c).mpr hne2
  have hg4 : ¬ k0_cond4 c = 1#1 := fun h => (cond4_iff c).mp h hc
  have hg5 : k0_cond5 c = 1#1 := (cond5_iff c).mpr hne4
  have hg6 : k0_cond6 c = 1#1 := (cond6_iff c).mpr hne5
  have hg7 : k0_cond7 c = 1#1 := (cond7_iff c).mpr hne6
  have hg8 : k0_cond8 c = 1#1 := (cond8_iff c).mpr hne7
  have hAbW : Above 1 (restA c + tallyAt (rrCell 7 0 c) () N64 + tallyAt (rrCell 6 0 c) () N64 + tallyAt (rrCell 5 0 c) () N64 + tallyAt (rrCell 4 0 c) () N64 + tallyAt (rrCell 2 0 c) () N64 + tallyAt (rrCell 1 0 c) () N64 + tallyAt (rrCell 0 0 c) () N64 : CellTallies nD τ sig Unit) :=
    (((((((above_restA c).add (above_rr (n := 1) (7 : Dev nD) (0 : Fin 3) c N64 (by decide))).add (above_rr (n := 1) (6 : Dev nD) (0 : Fin 3) c N64 (by decide))).add (above_rr (n := 1) (5 : Dev nD) (0 : Fin 3) c N64 (by decide))).add (above_rr (n := 1) (4 : Dev nD) (0 : Fin 3) c N64 (by decide))).add (above_rr (n := 1) (2 : Dev nD) (0 : Fin 3) c N64 (by decide))).add (above_rr (n := 1) (1 : Dev nD) (0 : Fin 3) c N64 (by decide))).add (above_rr (n := 1) (0 : Dev nD) (0 : Fin 3) c N64 (by decide))
  refine (sep_mono_left ((pre_dup m K c).trans (sep_mono_right (prelude_dev3 m K c hc)))).trans ?_
  unfold ctx toksFam posFam credsFam lits3 midA stagedIn scr
  rw [debt_rev]
  iintro ⟨⟨⟨#Hinv, #Hreach⟩, -, -, #Hlev, ⟨TB, ⟨⟨Trs0T0, Trs0T1, Trs0T2, Trs0T4, Trs0T5, Trs0T6, Trs0T7⟩, ⟨Trr0T0, Trr0T1, Trr0T2, Trr0T4, Trr0T5, Trr0T6, Trr0T7⟩⟩, ⟨TS1, TR1⟩, ⟨TS2, TR2⟩, ⟨TGS0, TGR0⟩, ⟨TGS1, TGR1⟩⟩, ⟨Abar, ⟨Ars0, Arr0⟩, ⟨Ars1, Arr1⟩, ⟨Ars2, Arr2⟩, ⟨Ags0, Agr0⟩, ⟨Ags1, Agr1⟩⟩, ⟨Cbar, Crr0, Crr1, Crr2, Cgr0, Cgr1⟩, HPrest, ⟨%f0, S0⟩, PB, ⟨%fs, SO0, SO1, SO2⟩, ⟨%fg, GO0, GO1, GO2⟩, ⟨%W, HO⟩, ⟨%x0, %hx0, X0⟩, ⟨%x1, %hx1, X1⟩, ⟨%x2, %hx2, X2⟩, X3, X4, X5, X6, H7⟩, Hk⟩
  ihave X0 := (whole_restate c cc0_stg0_0 x0) $$ X0
  ihave X1 := (whole_restate c cc0_stg1_0 x1) $$ X1
  ihave X2 := (whole_restate c cc0_stg2_0 x2) $$ X2
  ihave S0 := (whole_restate c cc0_scratch0 f0) $$ S0
  sl_unfold [segA1]
  sl_exec_parts
  entry_signal 1 dev1_eq
  entry_signal 2 dev2_eq
  entry_signal 3 dev3_eq
  entry_signal 4 dev4_eq
  entry_signal 5 dev5_eq
  entry_signal 6 dev6_eq
  icases TB with Tb
  icases PB with Pb
  iapply (step_uncurry (wp_entry_signal m 𝒱₀ c (fwd 7 c) (fwd_ne_nat 7 (by decide) (by decide) c) (K (barCell (fwd 7 c))) (dev7_eq c _) rfl rfl _))
  isplitl [Tb Pb HO]
  · isplitr; · iapply (invsAll_at m K (fwd 7 c) .bar); iexact Hinv
    isplitl [Tb]; · iexact Tb
    isplitr; · iapply (reached_at (fwd 7 c) .bar); iexact Hreach
    isplitl [Pb]; · iexact Pb
    iexact HO
  iintro HO
  sl_exec_parts
  ihave #Hmw := (mayWait_bar (F := F) c (restA c + tallyAt (rrCell 7 0 c) () N64 + tallyAt (rrCell 6 0 c) () N64 + tallyAt (rrCell 5 0 c) () N64 + tallyAt (rrCell 4 0 c) () N64 + tallyAt (rrCell 2 0 c) () N64 + tallyAt (rrCell 1 0 c) () N64 + tallyAt (rrCell 0 0 c) () N64) hAbW) $$ Hlev
  iapply (step_uncurry (wp_bar_wait m 𝒱₀ c (K (barCell c)) rfl rfl (O := restA c + tallyAt (rrCell 7 0 c) () N64 + tallyAt (rrCell 6 0 c) () N64 + tallyAt (rrCell 5 0 c) () N64 + tallyAt (rrCell 4 0 c) () N64 + tallyAt (rrCell 2 0 c) () N64 + tallyAt (rrCell 1 0 c) () N64 + tallyAt (rrCell 0 0 c) () N64) (W := W)))
  isplitl [Cbar HO Abar]
  · isplitr; · iapply (invsAll_at m K c .bar); iexact Hinv
    isplitl [Cbar]; · iexact Cbar
    isplitl [HO]; · iexact HO
    isplitr; · iexact Hmw
    iexact Abar
  iintro ⟨HO, Abar, #Rbar1, PBin⟩
  ihave PBin := (barPays_fold c Tsd (by rw [hc]; decide) (by decide)) $$ PBin
  icases PBin with ⟨D0, D1, D2⟩
  ihave S0 := (slab0_cut m c f0 ((Memref.readAt_unit_zero (Elt F) cc0_stg0_0 zero2 inb_S512x256_S512x256_0_0 x0).trans hx0)
      ((Memref.readAt_unit_zero (Elt F) cc0_stg1_0 zero2 inb_S256x512_S256x512_0_0 x1).trans hx1)
      ((Memref.readAt_unit_zero (Elt F) cc0_stg2_0 zero2 inb_S512x256_S512x256_0_0 x2).trans hx2) _) $$ S0
  icases S0 with ⟨P0s, P1s, P2s⟩
  ihave P0s := (Entails.of_eq (bigSep_dev8 _)) $$ P0s
  icases P0s with ⟨Q0, Q1, Q2, Q3, Q4, Q5, Q6, Q7⟩
  sl_exec_parts
  ihave D0 := (Entails.of_eq (layerDest0_eq c)) $$ D0
  icases D0 with ⟨⟨⟨%fd0, Drr0T0⟩, ⟨%fd1, Drr0T1⟩, ⟨%fd2, Drr0T2⟩, ⟨%fd4, Drr0T4⟩, ⟨%fd5, Drr0T5⟩, ⟨%fd6, Drr0T6⟩, ⟨%fd7, Drr0T7⟩⟩, DG0⟩
  ihave #Irs0 := (invsAll_at m K c (.rs 0)) $$ Hinv
  ihave #Rrs0 := (reached_at (F := F) c (.rs 0)) $$ Hreach
  -- the copy of chunk 0 to device 0
  ihave #Irr0T0 := (invsAll_at m K 0 (.rr 0 c)) $$ Hinv
  ihave #Rrr0T0 := (reached_at (F := F) 0 (.rr 0 c)) $$ Hreach
  iapply (wp_red_send m 𝒱₀ c 0 0 hne0 (K (rsCell c 0)) (K (rrCell 0 0 c)) (dev8_eq _) (pchunk_lit0_0 _ _) (slot_off2 c _ _)
      (congrArg SemLoc.dma (sem_rs0 _)) (congrArg SemLoc.dma (sem_off1 c _)) (restA c + tallyAt (rrCell 7 0 c) () N64 + tallyAt (rrCell 6 0 c) () N64 + tallyAt (rrCell 5 0 c) () N64 + tallyAt (rrCell 4 0 c) () N64 + tallyAt (rrCell 2 0 c) () N64 + tallyAt (rrCell 1 0 c) () N64) fd0)
    $$ [Q0 Drr0T0 HO Trs0T0 Trr0T0]
  · isplitr; · iexact Irs0
    isplitr; · iexact Irr0T0
    isplitl [Q0]; · iexact Q0
    isplitl [Drr0T0]; · iexact Drr0T0
    isplitl [HO]; · iexact HO
    isplitl [Trs0T0]; · iexact Trs0T0
    isplitr; · iexact Rrs0
    isplitl [Trr0T0]; · iexact Trr0T0
    iexact Rrr0T0
  iintro ⟨Crs0T0, HO⟩
  sl_exec_parts
  -- the copy of chunk 1 to device 1
  ihave #Irr0T1 := (invsAll_at m K 1 (.rr 0 c)) $$ Hinv
  ihave #Rrr0T1 := (reached_at (F := F) 1 (.rr 0 c)) $$ Hreach
  iapply (wp_red_send m 𝒱₀ c 1 0 hne1 (K (rsCell c 0)) (K (rrCell 1 0 c)) (dev9_eq _) (pchunk_lit0_1 _ _) (slot_off4 c _ _)
      (congrArg SemLoc.dma (sem_rs0 _)) (congrArg SemLoc.dma (sem_off3 c _)) (restA c + tallyAt (rrCell 7 0 c) () N64 + tallyAt (rrCell 6 0 c) () N64 + tallyAt (rrCell 5 0 c) () N64 + tallyAt (rrCell 4 0 c) () N64 + tallyAt (rrCell 2 0 c) () N64) fd1)
    $$ [Q1 Drr0T1 HO Trs0T1 Trr0T1]
  · isplitr; · iexact Irs0
    isplitr; · iexact Irr0T1
    isplitl [Q1]; · iexact Q1
    isplitl [Drr0T1]; · iexact Drr0T1
    isplitl [HO]; · iexact HO
    isplitl [Trs0T1]; · iexact Trs0T1
    isplitr; · iexact Rrs0
    isplitl [Trr0T1]; · iexact Trr0T1
    iexact Rrr0T1
  iintro ⟨Crs0T1, HO⟩
  sl_exec_parts
  -- the copy of chunk 2 to device 2
  ihave #Irr0T2 := (invsAll_at m K 2 (.rr 0 c)) $$ Hinv
  ihave #Rrr0T2 := (reached_at (F := F) 2 (.rr 0 c)) $$ Hreach
  iapply (wp_red_send m 𝒱₀ c 2 0 hne2 (K (rsCell c 0)) (K (rrCell 2 0 c)) (dev10_eq _) (pchunk_lit0_2 _ _) (slot_off6 c _ _)
      (congrArg SemLoc.dma (sem_rs0 _)) (congrArg SemLoc.dma (sem_off5 c _)) (restA c + tallyAt (rrCell 7 0 c) () N64 + tallyAt (rrCell 6 0 c) () N64 + tallyAt (rrCell 5 0 c) () N64 + tallyAt (rrCell 4 0 c) () N64) fd2)
    $$ [Q2 Drr0T2 HO Trs0T2 Trr0T2]
  · isplitr; · iexact Irs0
    isplitr; · iexact Irr0T2
    isplitl [Q2]; · iexact Q2
    isplitl [Drr0T2]; · iexact Drr0T2
    isplitl [HO]; · iexact HO
    isplitl [Trs0T2]; · iexact Trs0T2
    isplitr; · iexact Rrs0
    isplitl [Trr0T2]; · iexact Trr0T2
    iexact Rrr0T2
  iintro ⟨Crs0T2, HO⟩
  sl_exec_parts
  -- the copy of chunk 4 to device 4
  ihave #Irr0T4 := (invsAll_at m K 4 (.rr 0 c)) $$ Hinv
  ihave #Rrr0T4 := (reached_at (F := F) 4 (.rr 0 c)) $$ Hreach
  iapply (wp_red_send m 𝒱₀ c 4 0 hne4 (K (rsCell c 0)) (K (rrCell 4 0 c)) (dev12_eq _) (pchunk_lit0_4 _ _) (slot_off10 c _ _)
      (congrArg SemLoc.dma (sem_rs0 _)) (congrArg SemLoc.dma (sem_off9 c _)) (restA c + tallyAt (rrCell 7 0 c) () N64 + tallyAt (rrCell 6 0 c) () N64 + tallyAt (rrCell 5 0 c) () N64) fd4)
    $$ [Q4 Drr0T4 HO Trs0T4 Trr0T4]
  · isplitr; · iexact Irs0
    isplitr; · iexact Irr0T4
    isplitl [Q4]; · iexact Q4
    isplitl [Drr0T4]; · iexact Drr0T4
    isplitl [HO]; · iexact HO
    isplitl [Trs0T4]; · iexact Trs0T4
    isplitr; · iexact Rrs0
    isplitl [Trr0T4]; · iexact Trr0T4
    iexact Rrr0T4
  iintro ⟨Crs0T4, HO⟩
  sl_exec_parts
  -- the copy of chunk 5 to device 5
  ihave #Irr0T5 := (invsAll_at m K 5 (.rr 0 c)) $$ Hinv
  ihave #Rrr0T5 := (reached_at (F := F) 5 (.rr 0 c)) $$ Hreach
  iapply (wp_red_send m 𝒱₀ c 5 0 hne5 (K (rsCell c 0)) (K (rrCell 5 0 c)) (dev13_eq _) (pchunk_lit0_5 _ _) (slot_off12 c _ _)
      (congrArg SemLoc.dma (sem_rs0 _)) (congrArg SemLoc.dma (sem_off11 c _)) (restA c + tallyAt (rrCell 7 0 c) () N64 + tallyAt (rrCell 6 0 c) () N64) fd5)
    $$ [Q5 Drr0T5 HO Trs0T5 Trr0T5]
  · isplitr; · iexact Irs0
    isplitr; · iexact Irr0T5
    isplitl [Q5]; · iexact Q5
    isplitl [Drr0T5]; · iexact Drr0T5
    isplitl [HO]; · iexact HO
    isplitl [Trs0T5]; · iexact Trs0T5
    isplitr; · iexact Rrs0
    isplitl [Trr0T5]; · iexact Trr0T5
    iexact Rrr0T5
  iintro ⟨Crs0T5, HO⟩
  sl_exec_parts
  -- the copy of chunk 6 to device 6
  ihave #Irr0T6 := (invsAll_at m K 6 (.rr 0 c)) $$ Hinv
  ihave #Rrr0T6 := (reached_at (F := F) 6 (.rr 0 c)) $$ Hreach
  iapply (wp_red_send m 𝒱₀ c 6 0 hne6 (K (rsCell c 0)) (K (rrCell 6 0 c)) (dev14_eq _) (pchunk_lit0_6 _ _) (slot_off14 c _ _)
      (congrArg SemLoc.dma (sem_rs0 _)) (congrArg SemLoc.dma (sem_off13 c _)) (restA c + tallyAt (rrCell 7 0 c) () N64) fd6)
    $$ [Q6 Drr0T6 HO Trs0T6 Trr0T6]
  · isplitr; · iexact Irs0
    isplitr; · iexact Irr0T6
    isplitl [Q6]; · iexact Q6
    isplitl [Drr0T6]; · iexact Drr0T6
    isplitl [HO]; · iexact HO
    isplitl [Trs0T6]; · iexact Trs0T6
    isplitr; · iexact Rrs0
    isplitl [Trr0T6]; · iexact Trr0T6
    iexact Rrr0T6
  iintro ⟨Crs0T6, HO⟩
  sl_exec_parts
  -- the copy of chunk 7 to device 7
  ihave #Irr0T7 := (invsAll_at m K 7 (.rr 0 c)) $$ Hinv
  ihave #Rrr0T7 := (reached_at (F := F) 7 (.rr 0 c)) $$ Hreach
  iapply (wp_red_send m 𝒱₀ c 7 0 hne7 (K (rsCell c 0)) (K (rrCell 7 0 c)) (dev15_eq _) (pchunk_lit0_7 _ _) (slot_off16 c _ _)
      (congrArg SemLoc.dma (sem_rs0 _)) (congrArg SemLoc.dma (sem_off15 c _)) (restA c) fd7)
    $$ [Q7 Drr0T7 HO Trs0T7 Trr0T7]
  · isplitr; · iexact Irs0
    isplitr; · iexact Irr0T7
    isplitl [Q7]; · iexact Q7
    isplitl [Drr0T7]; · iexact Drr0T7
    isplitl [HO]; · iexact HO
    isplitl [Trs0T7]; · iexact Trs0T7
    isplitr; · iexact Rrs0
    isplitl [Trr0T7]; · iexact Trr0T7
    iexact Rrr0T7
  iintro ⟨Crs0T7, HO⟩
  ihave Q3 := (Entails.of_eq (congrArg (fun t => (piece c (pChunk 0 t) fullShare (Pfun m c) : sProp 𝕄)) hc.symm)) $$ Q3
  ihave P0own := (Entails.of_eq (pRows_eq c 0 c fullShare (Pfun m c)).symm) $$ Q3
  sl_exec_parts
  have eOwn : View.readAt (Elt F) (Memref.whole cc0_scratch0).view (Rect.unit (s := S3x512x256) (k0_off17 c) S1x64x256.size (k0_off17_inb c)).toLoadRect (Pfun m c)
      = chunkOf (P0 m c) c := read_P_chunk m c 0 c (k0_off17 c) (k0_off17_eq c) _
  have hv78 : segA1_sound3.sl.r m c = k0_pay2 (chunkOf (P0 m c) c) := by
    unfold segA1_sound3.sl.r
    exact congrArg k0_pay2 eOwn
  have hv2 : segA1_sound3.sl.v2 c = devWord c := rfl
  iapply (ret_intro _ Kt c)
  iapply (Entails.of_eq (congrArg (fun w => (Kt ⟨c, w, segA1_sound3.sl.r m c, segA1_sound3.sl.v81 c, segA1_sound3.sl.v82 c, 0#32⟩ : sProp 𝕄)) hv2.symm))
  ihave P0own := (Entails.of_eq (pRows_eq c 0 c fullShare (Pfun m c))) $$ P0own
  ihave X0 := (stg_of_whole c cc0_stg0_0 (argX m c) x0 hx0) $$ X0
  ihave X1 := (stg_of_whole c cc0_stg1_0 (argW m c 0) x1 hx1) $$ X1
  ihave X2 := (stg_of_whole c cc0_stg2_0 (argV m c 0) x2 hx2) $$ X2
  iapply Hk
  isplitr
  · isplitr; · iexact Hinv
    isplitr; · iexact Hreach
    iexact Hlev
  isplitr; · ipureintro; exact hv78
  isplitl [HO]; · iexists _; iexact HO
  isplitl [TGS0 TGR0]
  · iapply (zipF c _ _)
    isplitl [TGS0]; · iexact TGS0
    iexact TGR0
  isplitl [DG0]; · iexact DG0
  isplitl [Ars0 Arr0 Crr0]
  · iapply (posRed_intro c 0)
    isplitl [Ars0]; · iexact Ars0
    isplitl [Arr0]; · iexact Arr0
    iexact Crr0
  isplitl [Ags0]; · iapply (posGs_intro c 0); iexact Ags0
  isplitl [Agr0 Cgr0]
  · iapply (posGr_intro c 0)
    isplitl [Agr0]; · iexact Agr0
    iexact Cgr0
  isplitl [Crs0T0 Crs0T1 Crs0T2 Crs0T4 Crs0T5 Crs0T6 Crs0T7]
  · iapply (creds7 _)
    isplitl [Crs0T0]; · iexact Crs0T0
    isplitl [Crs0T1]; · iexact Crs0T1
    isplitl [Crs0T2]; · iexact Crs0T2
    isplitl [Crs0T4]; · iexact Crs0T4
    isplitl [Crs0T5]; · iexact Crs0T5
    isplitl [Crs0T6]; · iexact Crs0T6
    iexact Crs0T7
  isplitl [TS1 TR1 TGS1 TGR1 Ars1 Arr1 Crr1 Ags1 Agr1 Cgr1 D1]
  · iapply (layerRes1_intro c)
    isplitl [TS1 TR1 TGS1 TGR1]
    · isplitl [TS1 TR1]
      · iapply (zipT _ _)
        isplitl [TS1]; · iexact TS1
        iexact TR1
      iapply (zipF c _ _)
      isplitl [TGS1]; · iexact TGS1
      iexact TGR1
    isplitl [Ars1 Arr1 Crr1]
    · iapply (posRed_intro c 1)
      isplitl [Ars1]; · iexact Ars1
      isplitl [Arr1]; · iexact Arr1
      iexact Crr1
    isplitl [Ags1 Agr1 Cgr1]
    · isplitl [Ags1]; · iapply (posGs_intro c 1); iexact Ags1
      iapply (posGr_intro c 1)
      isplitl [Agr1]; · iexact Agr1
      iexact Cgr1
    iexact D1
  isplitl [TS2 TR2 Ars2 Arr2 Crr2 D2]
  · iapply (layerRes2_intro c)
    isplitl [TS2 TR2]
    · isplitl [TS2 TR2]
      · iapply (zipT _ _)
        isplitl [TS2]; · iexact TS2
        iexact TR2
      iempintro
    isplitl [Ars2 Arr2 Crr2]
    · iapply (posRed_intro c 2)
      isplitl [Ars2]; · iexact Ars2
      isplitl [Arr2]; · iexact Arr2
      iexact Crr2
    isplitr; · iempintro
    iexact D2
  isplitl [HPrest]; · iexact HPrest
  isplitl [P0own]; · iapply (ex_intro c (pChunk 0 c) (Pfun m c)); iexact P0own
  isplitl [P1s]; · iapply (Entails.of_eq (pLayerEx_def c 1)); iexact P1s
  isplitl [P2s]; · iapply (Entails.of_eq (pLayerEx_def c 2)); iexact P2s
  isplitl [SO0]; · iapply (ex_intro c (rSlot 0 c) fs); iexact SO0
  isplitl [SO1]; · iapply (ex_intro c (rSlot 1 c) fs); iexact SO1
  isplitl [SO2]; · iapply (ex_intro c (rSlot 2 c) fs); iexact SO2
  isplitl [GO0]; · iapply (ex_intro c (gChunk 0 c) fg); iexact GO0
  isplitl [GO1]; · iapply (ex_intro c (gChunk 1 c) fg); iexact GO1
  isplitl [GO2]; · iapply (gath2 c hc fg); iexact GO2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segA1_sound3' depends on axioms: [propext, Classical.choice, Quot.sound] -/
#guard_msgs in #print axioms segA1_sound3

end Cert.KernelProof

end
-- ==== Proof.K.BodySegA2_d3.lean ====
import proofs.«900993_g7700000000000994_dist_mlpseq_tp1d_rep_bs_b512_d256_h512_v7x_i8_bf16_1_alg».proof.Proof.K.BodySegA2Lib

/-! The second half of layer 0 on device 3: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 4, 5, 6, 7] : List (Dev nD))

omit [FloatOps F] in
/-- Everything still owed after layer 0's gather sends is owed to cells above the level of the layer's send cells. -/
theorem above_a2_rest_d3 (c : Dev nD) : Above 3 (a2_rest c Ts) := by
  unfold a2_rest owesRedL owesGatL ringF
  simp only [List.map, List.sum_cons, List.sum_nil]
  owes_above

theorem segA2_sound3 (c : Dev nD) (hc : c = 3) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : ¬ k0_cond12 c = 1#1 := fun h => (cond12_iff c).mp h hc
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : ¬ Scalar.cmpi .ne (Scalar.extui (Scalar.cmpi .ne (Scalar.remsi (Scalar.divsi (Dev.word c) 1#32) 8#32) 3#32)) 0#32 = 1#1 := fun h => (condw3_iff c).mp h hc
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d3 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d3 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound3.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound3.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound3.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound3.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound3.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound3.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound3.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound3.sl.r_2 m c v78 a1 a2 a3 a4 a5) (segA2_sound3.sl.v171 m c a6) (segA2_sound3.sl.v187 m c a7) = red0 m c := by
    intro a1 a2 a3 a4 a5 a6 a7
    unfold segA2_sound3.sl.r_2 segA2_sound3.sl.r_1 segA2_sound3.sl.r
    rw [e91, e107, e123, e139, e155, e171, e187, hv]
    rfl
  have hG0 : ∀ g a1 a2 a3 a4 a5 a6 a7, ∀ i ∈ (gChunk 0 c).view.set, segA2_sound3.sl.G0c_w1 m c v78 g a1 a2 a3 a4 a5 a6 a7 i = Gfun m c i := by
    intro g a1 a2 a3 a4 a5 a6 a7 i hi
    unfold segA2_sound3.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelProof

end
-- ==== Proof.K.BodySegB1_d3.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegBCut
import Idealize.ShloMosaic.Lib.Tactic

/-! Layer 1 on device 3, first half: from the state between the layers to the point where the device has enqueued its
    seven reduce copies of layer 1 and read its own chunk.

    The device goes through the four groups of 128 rows in order. For a group it first waits for the rows of the first
    activation that the two devices owning them gathered into its buffer (its own rows it holds already): each wait is
    the one duty of a gather-receive cell of layer 0, and hands over the chunk holding the sender's reduced rows written
    over whatever it held — which is the activation on that chunk. The two chunks joined are the group the body loads;
    with the staged weights of layer 1 the body's own arithmetic makes the group of the layer's partial product, stored
    over rows of the partial-product buffer, where it agrees with the canonical partial product. Cut back into its two
    64-row chunks, each chunk is lent to the copy towards the device that reduces those rows: the copy pays duty `t` of
    the device's reduce-send cell and the one duty of the target's reduce-receive cell, settles what the device owed
    that cell, and earns the credit for a later wait on the send cell. The device's own chunk stays; it is read at the
    end, as the accumulation's first term. What is left is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 4, 5, 6, 7]

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- Layer 1's resources, its reduce tokens and destinations listed. -/
private theorem layerRes1_eq (c : Dev nD) : layerRes (F := F) c Tsd 1 =
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1)
      ∗ (bigSepL Tsd (fun t => iprop(∃ fd, piece t (rSlot 1 c) fullShare fd))
        ∗ bigSepL (ringF c) (fun p => iprop(∃ fd, piece p (gChunk 1 c) fullShare fd)))) := by
  unfold layerRes layerToks layerDest
  rw [if_pos (by decide), if_pos (by decide), if_pos (by decide)]

/-- The debt with the next reduce arrival last. -/
private theorem debt_peel (c t : Dev nD) (ts : List (Dev nD)) (l : Fin 3) (A B : CellTallies nD τ sig Unit) :
    owesRedL c (t :: ts) l + A + B = (owesRedL c ts l + A + B) + tallyAt (rrCell t l c) () N64 := by
  unfold owesRedL
  rw [List.map_cons, List.sum_cons]
  abel

/-- Every cell is at round 0: one cell's fact. -/
private theorem reachedAll_at (c : Dev nD) (k : CK) : reachedAll (F := F) ⊢ (reached ER (kcell c k) 0 : sProp 𝕄) := by
  unfold reachedAll
  exact allAt (fun p : Dev nD × CK => (reached ER (kcell p.1 p.2) 0 : sProp 𝕄)) c k

/-- Two functions that agree on a group of 128 rows agree on its two chunks. -/
private theorem agree_chunks {α : Type} (l : Fin 3) (g : Fin 4) (t0 t1 : Dev nD) (h0 : t0.val = 2 * g.val) (h1 : t1.val = 2 * g.val + 1)
    (w g' : S3x512x256.Idx → α) (h : ∀ i ∈ (rectGrp l g).set, w i = g' i) :
    (∀ i ∈ (rectP l t0).set, w i = g' i) ∧ (∀ i ∈ (rectP l t1).set, w i = g' i) := by
  rw [rectGrp_eq l g t0 t1 h0 h1] at h
  exact ⟨fun i hi => h i (Finset.mem_union_left _ hi), fun i hi => h i (Finset.mem_union_right _ hi)⟩

/-- A chunk of the partial-product buffer at contents that agree on its rows. -/
private theorem pChunk_congr (c : Dev nD) (l : Fin 3) (t : Dev nD) (q : PosShare TreeShare)
    {f g : Buf (Elt F) ((c : Thread nD τ).loc cc0_scratch0)} (h : ∀ i ∈ (rectP l t).set, f i = g i) :
    (piece c (pChunk l t) q f : sProp 𝕄) = piece c (pChunk l t) q g :=
  piece_congr c (pChunk l t) q fun i hi => h i ((set_pChunk l t) ▸ hi)

/-- A stored group of layer 1's partial product agrees with the canonical partial products on the group's rows. -/
private theorem stored_P1 (c : Dev nD) (g : Fin 4) (f0 : Buf (Elt F) ((c : Thread nD τ).loc cc0_scratch0)) (R : Rect S3x512x256)
    (hR : R = rectGrp 1 g) (w : R.shape.Idx → Elt F .bf16) (w' : (rectGrp 1 g).shape.Idx → Elt F .bf16) (hw : HEq w w') (hw' : w' = P1grp m c g) :
    ∀ i ∈ (rectGrp 1 g).set, View.write (Elt F) ((Memref.whole cc0_scratch0).access R) f0 w Finset.univ i = Pfun m c i := by
  subst hR
  obtain rfl := eq_of_heq hw
  subst hw'
  intro i hi
  refine write_P1grp m c g f0 _ rfl (inb_grp 1 g) i ?_
  show i ∈ ((View.whole cc0_scratch0).slice (rectGrp 1 g)).set
  rw [View.set_slice_whole]
  exact hi

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

private theorem posGr0_eq (c : Dev nD) : posGr (F := F) c Tsd 0 =
    iprop((atPos ER (grCell c 0 0) 0 ∅ 0 ∗ cred (tallyAt (grCell c 0 0) () N64)) ∗ (atPos ER (grCell c 0 1) 0 ∅ 0 ∗ cred (tallyAt (grCell c 0 1) () N64))
      ∗ (atPos ER (grCell c 0 2) 0 ∅ 0 ∗ cred (tallyAt (grCell c 0 2) () N64)) ∗ (atPos ER (grCell c 0 4) 0 ∅ 0 ∗ cred (tallyAt (grCell c 0 4) () N64))
      ∗ (atPos ER (grCell c 0 5) 0 ∅ 0 ∗ cred (tallyAt (grCell c 0 5) () N64)) ∗ (atPos ER (grCell c 0 6) 0 ∅ 0 ∗ cred (tallyAt (grCell c 0 6) () N64))
      ∗ (atPos ER (grCell c 0 7) 0 ∅ 0 ∗ cred (tallyAt (grCell c 0 7) () N64))) := rfl

private theorem posDoneGr0_eq (c : Dev nD) : posDoneGr (F := F) c Tsd 0 =
    iprop(atPos ER (grCell c 0 0) 1 ∅ 0 ∗ atPos ER (grCell c 0 1) 1 ∅ 0 ∗ atPos ER (grCell c 0 2) 1 ∅ 0 ∗ atPos ER (grCell c 0 4) 1 ∅ 0
      ∗ atPos ER (grCell c 0 5) 1 ∅ 0 ∗ atPos ER (grCell c 0 6) 1 ∅ 0 ∗ atPos ER (grCell c 0 7) 1 ∅ 0) := rfl

private theorem chunksAll0_eq (c : Dev nD) : chunksAll (F := F) c Tsd 0 =
    iprop(ex c (gChunk 0 c) ∗ ex c (gChunk 0 0) ∗ ex c (gChunk 0 1) ∗ ex c (gChunk 0 2) ∗ ex c (gChunk 0 4) ∗ ex c (gChunk 0 5)
      ∗ ex c (gChunk 0 6) ∗ ex c (gChunk 0 7)) := rfl

private theorem creds7_eq (c : Dev nD) : bigSepL Tsd (fun _ => (cred (tallyAt (rsCell c 1) () N64) : sProp 𝕄)) =
    iprop(cred (tallyAt (rsCell c 1) () N64) ∗ cred (tallyAt (rsCell c 1) () N64) ∗ cred (tallyAt (rsCell c 1) () N64) ∗ cred (tallyAt (rsCell c 1) () N64)
      ∗ cred (tallyAt (rsCell c 1) () N64) ∗ cred (tallyAt (rsCell c 1) () N64) ∗ cred (tallyAt (rsCell c 1) () N64)) := rfl

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- The eight chunks of a layer of the partial-product buffer, each held at some contents. -/
private theorem slab_ex (c : Dev nD) (l : Fin 3) (f0 : Buf (Elt F) ((c : Thread nD τ).loc cc0_scratch0)) :
    iprop(piece c (pChunk l 0) fullShare f0 ∗ piece c (pChunk l 1) fullShare f0 ∗ piece c (pChunk l 2) fullShare f0 ∗ piece c (pChunk l 3) fullShare f0
        ∗ piece c (pChunk l 4) fullShare f0 ∗ piece c (pChunk l 5) fullShare f0 ∗ piece c (pChunk l 6) fullShare f0 ∗ piece c (pChunk l 7) fullShare f0)
      ⊢ (bigSep (Finset.univ : Finset (Dev nD)) (fun t => ex (F := F) c (pChunk l t)) : sProp 𝕄) := by
  rw [bigSep_dev8]
  iintro ⟨H0, H1, H2, H3, H4, H5, H6, H7⟩
  isplitl [H0]; · iapply (ex_intro c (pChunk l 0) f0); iexact H0
  isplitl [H1]; · iapply (ex_intro c (pChunk l 1) f0); iexact H1
  isplitl [H2]; · iapply (ex_intro c (pChunk l 2) f0); iexact H2
  isplitl [H3]; · iapply (ex_intro c (pChunk l 3) f0); iexact H3
  isplitl [H4]; · iapply (ex_intro c (pChunk l 4) f0); iexact H4
  isplitl [H5]; · iapply (ex_intro c (pChunk l 5) f0); iexact H5
  isplitl [H6]; · iapply (ex_intro c (pChunk l 6) f0); iexact H6
  iapply (ex_intro c (pChunk l 7) f0); iexact H7

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; trivial
  iapply (Entails.of_eq (congrArg (fun I => pointsTo ((c : Thread nD τ).loc b) I fullShare x) (View.set_whole b)))
  iexact H

/-- Nothing is owed for a layer whose reduce copies have all been enqueued. -/
private theorem debt_done (c : Dev nD) (l : Fin 3) (A B : CellTallies nD τ sig Unit) : owesRedL c [] l + A + B = A + B := by
  unfold owesRedL
  rw [List.map_nil, List.sum_nil, zero_add]

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

private theorem zero2 : (![0, 0] : Fin 2 → ℕ) = fun _ => 0 := by funext a; fin_cases a <;> rfl

/-- A landed chunk of the gather buffer holds the activation, whatever the chunk held before. -/
private theorem grPay_canon (c s : Dev nD) (l : Fin 3) : grPay m c l s ⊢ (piece c (gChunk l s) fullShare (Gfun m c) : sProp 𝕄) := by
  unfold grPay
  iintro ⟨%fd, H⟩
  iapply (Entails.of_eq (piece_congr c (gChunk l s) fullShare (land_gather m s c l fd)))
  iexact H

theorem segB1_sound3 (c : Dev nD) (hc : c = 3) (K : GSem nD τ sig → ℕ) (Kt : (Σ' (v463 : FVec F S64x256 .f32), BitVec 32) → sProp 𝕄) :
    iprop(mid1 m K c Tsd ∗ (∀ v466, midB m K c Tsd (k0_pay14 (chunkOf (P1 m c) c)) -∗ Kt ⟨k0_pay14 (chunkOf (P1 m c) c), v466⟩))
      ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hgw0 : Scalar.cmpi .ne (Scalar.extui (Scalar.cmpi .ne (devWord c) 0#32)) 0#32 = 1#1 := (condw0_iff c).mpr hne0
  have hgw1 : Scalar.cmpi .ne (Scalar.extui (Scalar.cmpi .ne (devWord c) 1#32)) 0#32 = 1#1 := (condw1_iff c).mpr hne1
  have hgw2 : Scalar.cmpi .ne (Scalar.extui (Scalar.cmpi .ne (devWord c) 2#32)) 0#32 = 1#1 := (condw2_iff c).mpr hne2
  have hgw3 : ¬ Scalar.cmpi .ne (Scalar.extui (Scalar.cmpi .ne (devWord c) 3#32)) 0#32 = 1#1 := fun h => (condw3_iff c).mp h hc
  have hgw4 : Scalar.cmpi .ne (Scalar.extui (Scalar.cmpi .ne (devWord c) 4#32)) 0#32 = 1#1 := (condw4_iff c).mpr hne4
  have hgw5 : Scalar.cmpi .ne (Scalar.extui (Scalar.cmpi .ne (devWord c) 5#32)) 0#32 = 1#1 := (condw5_iff c).mpr hne5
  have hgw6 : Scalar.cmpi .ne (Scalar.extui (Scalar.cmpi .ne (devWord c) 6#32)) 0#32 = 1#1 := (condw6_iff c).mpr hne6
  have hgw7 : Scalar.cmpi .ne (Scalar.extui (Scalar.cmpi .ne (devWord c) 7#32)) 0#32 = 1#1 := (condw7_iff c).mpr hne7
  have hg19 : k0_cond19 c = 1#1 := (cond19_iff c).mpr hne0
  have hg20 : k0_cond20 c = 1#1 := (cond20_iff c).mpr hne1
  have hg23 : k0_cond23 c = 1#1 := (cond23_iff c).mpr hne2
  have hg24 : ¬ k0_cond24 c = 1#1 := fun h => (cond24_iff c).mp h hc
  have hg27 : k0_cond27 c = 1#1 := (cond27_iff c).mpr hne4
  have hg28 : k0_cond28 c = 1#1 := (cond28_iff c).mpr hne5
  have hg31 : k0_cond31 c = 1#1 := (cond31_iff c).mpr hne6
  have hg32 : k0_cond32 c = 1#1 := (cond32_iff c).mpr hne7
  have hAbG0 : Above 4 (owesRedL c Tsd 1 + owesRedL c Tsd 2 + owesGatL c 1) := by
    unfold owesRedL owesGatL ringF
    simp only [List.map, List.sum_cons, List.sum_nil]
    owes_above
  have hAbG1 : Above 4 (owesRedL c [2, 4, 5, 6, 7] 1 + owesRedL c Tsd 2 + owesGatL c 1) := by
    unfold owesRedL owesGatL ringF
    simp only [List.map, List.sum_cons, List.sum_nil]
    owes_above
  have hAbG2 : Above 4 (owesRedL c [4, 5, 6, 7] 1 + owesRedL c Tsd 2 + owesGatL c 1) := by
    unfold owesRedL owesGatL ringF
    simp only [List.map, List.sum_cons, List.sum_nil]
    owes_above
  have hAbG3 : Above 4 (owesRedL c [6, 7] 1 + owesRedL c Tsd 2 + owesGatL c 1) := by
    unfold owesRedL owesGatL ringF
    simp only [List.map, List.sum_cons, List.sum_nil]
    owes_above
  unfold mid1 midB stagedIn scr
  rw [layerRes1_eq, posGr0_eq, posDoneGr0_eq, chunksAll0_eq, creds7_eq]
  simp only [bigSepL7]
  iintro ⟨⟨⟨#Hinv, #Hreach, #Hlev⟩, ⟨%W, HO⟩, ⟨⟨⟨⟨Trs1T0, Trr1T0⟩, ⟨Trs1T1, Trr1T1⟩, ⟨Trs1T2, Trr1T2⟩, ⟨Trs1T4, Trr1T4⟩, ⟨Trs1T5, Trr1T5⟩, ⟨Trs1T6, Trr1T6⟩, ⟨Trs1T7, Trr1T7⟩⟩, GTok1⟩, PRed1, ⟨PGs1, PGr1⟩, ⟨⟨⟨%fd0, Drr1T0⟩, ⟨%fd1, Drr1T1⟩, ⟨%fd2, Drr1T2⟩, ⟨%fd4, Drr1T4⟩, ⟨%fd5, Drr1T5⟩, ⟨%fd6, Drr1T6⟩, ⟨%fd7, Drr1T7⟩⟩, GDest1⟩⟩, HL2, ⟨⟨Pgr0S0, Cgr0S0⟩, ⟨Pgr0S1, Cgr0S1⟩, ⟨Pgr0S2, Cgr0S2⟩, ⟨Pgr0S4, Cgr0S4⟩, ⟨Pgr0S5, Cgr0S5⟩, ⟨Pgr0S6, Cgr0S6⟩, ⟨Pgr0S7, Cgr0S7⟩⟩, HPD0, HPrest, ⟨%f0, S0⟩, HSB0, HR1c, HR2c, G0c, G1c, HCA2, ⟨X0, X1, X2, ⟨%x3, %hx3, X3⟩, ⟨%x4, %hx4, X4⟩, X5, X6⟩, H7⟩, Hk⟩
  ihave X3 := (whole_restate c cc0_stg3_0 x3) $$ X3
  ihave X4 := (whole_restate c cc0_stg4_0 x4) $$ X4
  sl_unfold [segB1]
  sl_exec_parts
  -- the wait for device 0's rows
  ihave #Igr0S0 := (invsAll_at m K c (.gr 0 0)) $$ Hinv
  ihave #Mgr0S0 := (mayWait_gr (F := F) c 0 0 (owesRedL c Tsd 1 + owesRedL c Tsd 2 + owesGatL c 1) hAbG0) $$ Hlev
  iapply (wp_gat_recv m 𝒱₀ c 0 0 (by decide) hne0.symm (K (grCell c 0 0)) (sem_gr0_0 _) (gChunk_credit 0 0)) $$ [Cgr0S0 HO Pgr0S0]
  · isplitr; · iexact Igr0S0
    isplitl [Cgr0S0]; · iexact Cgr0S0
    isplitl [HO]; · iexact HO
    isplitr; · iexact Mgr0S0
    iexact Pgr0S0
  iintro ⟨HO, Dgr0S0, #Rgr0S0, Ygr0S0⟩
  sl_exec_parts
  -- the wait for device 1's rows
  ihave #Igr0S1 := (invsAll_at m K c (.gr 0 1)) $$ Hinv
  ihave #Mgr0S1 := (mayWait_gr (F := F) c 0 1 (owesRedL c Tsd 1 + owesRedL c Tsd 2 + owesGatL c 1) hAbG0) $$ Hlev
  iapply (wp_gat_recv m 𝒱₀ c 1 0 (by decide) hne1.symm (K (grCell c 0 1)) (sem_gr0_1 _) (gChunk_credit 0 1)) $$ [Cgr0S1 HO Pgr0S1]
  · isplitr; · iexact Igr0S1
    isplitl [Cgr0S1]; · iexact Cgr0S1
    isplitl [HO]; · iexact HO
    isplitr; · iexact Mgr0S1
    iexact Pgr0S1
  iintro ⟨HO, Dgr0S1, #Rgr0S1, Ygr0S1⟩
  -- rows 0 … 127 of the first activation joined, and the same rows of layer 1's partial product
  ihave Ggr0S0 := (grPay_canon m c 0 0) $$ Ygr0S0
  ihave Ggr0S1 := (grPay_canon m c 1 0) $$ Ygr0S1
  ihave S0 := (whole_restate c cc0_scratch0 f0) $$ S0
  ihave S0 := (whole0_split c fullShare f0) $$ S0
  ihave S0 := (Entails.of_eq (bigSep_layers_devs (fun a => piece c (pChunk a.1 a.2) fullShare f0))) $$ S0
  icases S0 with ⟨PL0, ⟨P1T0, P1T1, P1T2, P1T3, P1T4, P1T5, P1T6, P1T7⟩, PL2⟩
  ihave GG0 := (gGroup_join c 0 0 fullShare (Gfun m c) 0 1 rfl rfl) $$ [Ggr0S0 Ggr0S1]
  · isplitl [Ggr0S0]; · iexact Ggr0S0
    iexact Ggr0S1
  ihave PG0 := (pGroup_join c 1 0 fullShare f0 0 1 rfl rfl) $$ [P1T0 P1T1]
  · isplitl [P1T0]; · iexact P1T0
    iexact P1T1
  sl_exec_parts
  -- the group stored is the canonical partial product on its rows; cut into its two chunks
  have e3 : View.readAt (Elt F) (Memref.whole cc0_stg3_0).view (Rect.unit (s := S256x512) ![0, 0] S256x512.size inb_S256x512_S256x512_0_0).toLoadRect x3 = argW m c 1 :=
    (Memref.readAt_unit_zero (Elt F) cc0_stg3_0 zero2 _ x3).trans hx3
  have e4 : View.readAt (Elt F) (Memref.whole cc0_stg4_0).view (Rect.unit (s := S512x256) ![0, 0] S512x256.size inb_S512x256_S512x256_0_0).toLoadRect x4 = argV m c 1 :=
    (Memref.readAt_unit_zero (Elt F) cc0_stg4_0 zero2 _ x4).trans hx4
  have eG0 : View.readAt (Elt F) (Memref.whole cc0_scratch2).view (Rect.unit (s := S3x512x256) ![0, 0, 0] S1x128x256.size inb_S3x512x256_S1x128x256_0_0_0).toLoadRect (Gfun m c)
      = groupOf (G0 m) 0 := read_G_group m c 0 0 ![0, 0, 0] rfl _
  have hval0 : k0_pay10 (segB1_sound3.sl.r_2 m c x3 x4) = P1grp m c 0 := by
    unfold segB1_sound3.sl.r_2
    rw [e3, e4, eG0]
    rfl
  have hw0 : ∀ i ∈ (rectGrp 1 0).set, segB1_sound3.sl.PG0_w1 m c f0 x3 x4 i = Pfun m c i :=
    stored_P1 m c 0 f0 _ rfl _ _ HEq.rfl hval0
  ihave PG0 := (pGroup_split c 1 0 fullShare _ 0 1 rfl rfl) $$ PG0
  icases PG0 with ⟨P1T0, P1T1⟩
  have hw0T := agree_chunks 1 0 0 1 rfl rfl _ _ hw0
  ihave P1T0 := (Entails.of_eq (pChunk_congr c 1 0 fullShare hw0T.1)) $$ P1T0
  ihave P1T1 := (Entails.of_eq (pChunk_congr c 1 1 fullShare hw0T.2)) $$ P1T1
  ihave #Irs1 := (invsAll_at m K c (.rs 1)) $$ Hinv
  ihave #Rrs1 := (reachedAll_at c (.rs 1)) $$ Hreach
  -- the copy of chunk 0 to device 0
  ihave #Irr1T0 := (invsAll_at m K 0 (.rr 1 c)) $$ Hinv
  ihave #Rrr1T0 := (reachedAll_at 0 (.rr 1 c)) $$ Hreach
  ihave HO := (Entails.of_eq (congrArg (fun o => owes (c : Thread nD τ) o _) (debt_peel c 0 [1, 2, 4, 5, 6, 7] 1 (owesRedL c Tsd 2) (owesGatL c 1)))) $$ HO
  iapply (wp_red_send m 𝒱₀ c 0 1 hne0 (K (rsCell c 1)) (K (rrCell 0 1 c)) (dev23_eq _) (pchunk_lit1_0 _ _) (slot_off32 c _ _)
      (congrArg SemLoc.dma (sem_rs1 _)) (congrArg SemLoc.dma (sem_off31 c _)) (owesRedL c [1, 2, 4, 5, 6, 7] 1 + owesRedL c Tsd 2 + owesGatL c 1) fd0)
    $$ [P1T0 Drr1T0 HO Trs1T0 Trr1T0]
  · isplitr; · iexact Irs1
    isplitr; · iexact Irr1T0
    isplitl [P1T0]; · iexact P1T0
    isplitl [Drr1T0]; · iexact Drr1T0
    isplitl [HO]; · iexact HO
    isplitl [Trs1T0]; · iexact Trs1T0
    isplitr; · iexact Rrs1
    isplitl [Trr1T0]; · iexact Trr1T0
    iexact Rrr1T0
  iintro ⟨Crs1T0, HO⟩
  sl_exec_parts
  -- the copy of chunk 1 to device 1
  ihave #Irr1T1 := (invsAll_at m K 1 (.rr 1 c)) $$ Hinv
  ihave #Rrr1T1 := (reachedAll_at 1 (.rr 1 c)) $$ Hreach
  ihave HO := (Entails.of_eq (congrArg (fun o => owes (c : Thread nD τ) o _) (debt_peel c 1 [2, 4, 5, 6, 7] 1 (owesRedL c Tsd 2) (owesGatL c 1)))) $$ HO
  iapply (wp_red_send m 𝒱₀ c 1 1 hne1 (K (rsCell c 1)) (K (rrCell 1 1 c)) (dev24_eq _) (pchunk_lit1_1 _ _) (slot_off34 c _ _)
      (congrArg SemLoc.dma (sem_rs1 _)) (congrArg SemLoc.dma (sem_off33 c _)) (owesRedL c [2, 4, 5, 6, 7] 1 + owesRedL c Tsd 2 + owesGatL c 1) fd1)
    $$ [P1T1 Drr1T1 HO Trs1T1 Trr1T1]
  · isplitr; · iexact Irs1
    isplitr; · iexact Irr1T1
    isplitl [P1T1]; · iexact P1T1
    isplitl [Drr1T1]; · iexact Drr1T1
    isplitl [HO]; · iexact HO
    isplitl [Trs1T1]; · iexact Trs1T1
    isplitr; · iexact Rrs1
    isplitl [Trr1T1]; · iexact Trr1T1
    iexact Rrr1T1
  iintro ⟨Crs1T1, HO⟩
  sl_exec_parts
  -- the wait for device 2's rows
  ihave #Igr0S2 := (invsAll_at m K c (.gr 0 2)) $$ Hinv
  ihave #Mgr0S2 := (mayWait_gr (F := F) c 0 2 (owesRedL c [2, 4, 5, 6, 7] 1 + owesRedL c Tsd 2 + owesGatL c 1) hAbG1) $$ Hlev
  iapply (wp_gat_recv m 𝒱₀ c 2 0 (by decide) hne2.symm (K (grCell c 0 2)) (sem_gr0_2 _) (gChunk_credit 0 2)) $$ [Cgr0S2 HO Pgr0S2]
  · isplitr; · iexact Igr0S2
    isplitl [Cgr0S2]; · iexact Cgr0S2
    isplitl [HO]; · iexact HO
    isplitr; · iexact Mgr0S2
    iexact Pgr0S2
  iintro ⟨HO, Dgr0S2, #Rgr0S2, Ygr0S2⟩
  -- rows 128 … 255 of the first activation joined, and the same rows of layer 1's partial product
  ihave Ggr0S2 := (grPay_canon m c 2 0) $$ Ygr0S2
  ihave G0c := (Entails.of_eq (congrArg (fun t => (piece c (gChunk 0 t) fullShare (Gfun m c) : sProp 𝕄)) hc)) $$ G0c
  ihave GG1 := (gGroup_join c 0 1 fullShare (Gfun m c) 2 3 rfl rfl) $$ [Ggr0S2 G0c]
  · isplitl [Ggr0S2]; · iexact Ggr0S2
    iexact G0c
  ihave PG1 := (pGroup_join c 1 1 fullShare f0 2 3 rfl rfl) $$ [P1T2 P1T3]
  · isplitl [P1T2]; · iexact P1T2
    iexact P1T3
  sl_exec_parts
  -- the group stored is the canonical partial product on its rows; cut into its two chunks
  have eG1 : View.readAt (Elt F) (Memref.whole cc0_scratch2).view (Rect.unit (s := S3x512x256) ![0, 128, 0] S1x128x256.size inb_S3x512x256_S1x128x256_0_128_0).toLoadRect (Gfun m c)
      = groupOf (G0 m) 1 := read_G_group m c 0 1 ![0, 128, 0] rfl _
  have hw1 : ∀ i ∈ (rectGrp 1 1).set, segB1_sound3.sl.PG1_w1 m c f0 x3 x4 i = Pfun m c i :=
    stored_P1 m c 1 f0 _ rfl _ _ HEq.rfl (by
      unfold segB1_sound3.sl.r segB1_sound3.sl.r_1
      rw [e3, e4, eG1]
      rfl)
  ihave PG1 := (pGroup_split c 1 1 fullShare _ 2 3 rfl rfl) $$ PG1
  icases PG1 with ⟨P1T2, P1T3⟩
  have hw1T := agree_chunks 1 1 2 3 rfl rfl _ _ hw1
  ihave P1T2 := (Entails.of_eq (pChunk_congr c 1 2 fullShare hw1T.1)) $$ P1T2
  ihave P1T3 := (Entails.of_eq (pChunk_congr c 1 3 fullShare hw1T.2)) $$ P1T3
  -- the copy of chunk 2 to device 2
  ihave #Irr1T2 := (invsAll_at m K 2 (.rr 1 c)) $$ Hinv
  ihave #Rrr1T2 := (reachedAll_at 2 (.rr 1 c)) $$ Hreach
  ihave HO := (Entails.of_eq (congrArg (fun o => owes (c : Thread nD τ) o _) (debt_peel c 2 [4, 5, 6, 7] 1 (owesRedL c Tsd 2) (owesGatL c 1)))) $$ HO
  iapply (wp_red_send m 𝒱₀ c 2 1 hne2 (K (rsCell c 1)) (K (rrCell 2 1 c)) (dev25_eq _) (pchunk_lit1_2 _ _) (slot_off36 c _ _)
      (congrArg SemLoc.dma (sem_rs1 _)) (congrArg SemLoc.dma (sem_off35 c _)) (owesRedL c [4, 5, 6, 7] 1 + owesRedL c Tsd 2 + owesGatL c 1) fd2)
    $$ [P1T2 Drr1T2 HO Trs1T2 Trr1T2]
  · isplitr; · iexact Irs1
    isplitr; · iexact Irr1T2
    isplitl [P1T2]; · iexact P1T2
    isplitl [Drr1T2]; · iexact Drr1T2
    isplitl [HO]; · iexact HO
    isplitl [Trs1T2]; · iexact Trs1T2
    isplitr; · iexact Rrs1
    isplitl [Trr1T2]; · iexact Trr1T2
    iexact Rrr1T2
  iintro ⟨Crs1T2, HO⟩
  sl_exec_parts
  -- the wait for device 4's rows
  ihave #Igr0S4 := (invsAll_at m K c (.gr 0 4)) $$ Hinv
  ihave #Mgr0S4 := (mayWait_gr (F := F) c 0 4 (owesRedL c [4, 5, 6, 7] 1 + owesRedL c Tsd 2 + owesGatL c 1) hAbG2) $$ Hlev
  iapply (wp_gat_recv m 𝒱₀ c 4 0 (by decide) hne4.symm (K (grCell c 0 4)) (sem_gr0_4 _) (gChunk_credit 0 4)) $$ [Cgr0S4 HO Pgr0S4]
  · isplitr; · iexact Igr0S4
    isplitl [Cgr0S4]; · iexact Cgr0S4
    isplitl [HO]; · iexact HO
    isplitr; · iexact Mgr0S4
    iexact Pgr0S4
  iintro ⟨HO, Dgr0S4, #Rgr0S4, Ygr0S4⟩
  sl_exec_parts
  -- the wait for device 5's rows
  ihave #Igr0S5 := (invsAll_at m K c (.gr 0 5)) $$ Hinv
  ihave #Mgr0S5 := (mayWait_gr (F := F) c 0 5 (owesRedL c [4, 5, 6, 7] 1 + owesRedL c Tsd 2 + owesGatL c 1) hAbG2) $$ Hlev
  iapply (wp_gat_recv m 𝒱₀ c 5 0 (by decide) hne5.symm (K (grCell c 0 5)) (sem_gr0_5 _) (gChunk_credit 0 5)) $$ [Cgr0S5 HO Pgr0S5]
  · isplitr; · iexact Igr0S5
    isplitl [Cgr0S5]; · iexact Cgr0S5
    isplitl [HO]; · iexact HO
    isplitr; · iexact Mgr0S5
    iexact Pgr0S5
  iintro ⟨HO, Dgr0S5, #Rgr0S5, Ygr0S5⟩
  -- rows 256 … 383 of the first activation joined, and the same rows of layer 1's partial product
  ihave Ggr0S4 := (grPay_canon m c 4 0) $$ Ygr0S4
  ihave Ggr0S5 := (grPay_canon m c 5 0) $$ Ygr0S5
  ihave GG2 := (gGroup_join c 0 2 fullShare (Gfun m c) 4 5 rfl rfl) $$ [Ggr0S4 Ggr0S5]
  · isplitl [Ggr0S4]; · iexact Ggr0S4
    iexact Ggr0S5
  ihave PG2 := (pGroup_join c 1 2 fullShare f0 4 5 rfl rfl) $$ [P1T4 P1T5]
  · isplitl [P1T4]; · iexact P1T4
    iexact P1T5
  sl_exec_parts
  -- the group stored is the canonical partial product on its rows; cut into its two chunks
  have eG2 : View.readAt (Elt F) (Memref.whole cc0_scratch2).view (Rect.unit (s := S3x512x256) ![0, 256, 0] S1x128x256.size inb_S3x512x256_S1x128x256_0_256_0).toLoadRect (Gfun m c)
      = groupOf (G0 m) 2 := read_G_group m c 0 2 ![0, 256, 0] rfl _
  have hw2 : ∀ i ∈ (rectGrp 1 2).set, segB1_sound3.sl.PG2_w1 m c f0 x3 x4 i = Pfun m c i :=
    stored_P1 m c 2 f0 _ rfl _ _ HEq.rfl (by
      unfold segB1_sound3.sl.r segB1_sound3.sl.r_1
      rw [e3, e4, eG2]
      rfl)
  ihave PG2 := (pGroup_split c 1 2 fullShare _ 4 5 rfl rfl) $$ PG2
  icases PG2 with ⟨P1T4, P1T5⟩
  have hw2T := agree_chunks 1 2 4 5 rfl rfl _ _ hw2
  ihave P1T4 := (Entails.of_eq (pChunk_congr c 1 4 fullShare hw2T.1)) $$ P1T4
  ihave P1T5 := (Entails.of_eq (pChunk_congr c 1 5 fullShare hw2T.2)) $$ P1T5
  -- the copy of chunk 4 to device 4
  ihave #Irr1T4 := (invsAll_at m K 4 (.rr 1 c)) $$ Hinv
  ihave #Rrr1T4 := (reachedAll_at 4 (.rr 1 c)) $$ Hreach
  ihave HO := (Entails.of_eq (congrArg (fun o => owes (c : Thread nD τ) o _) (debt_peel c 4 [5, 6, 7] 1 (owesRedL c Tsd 2) (owesGatL c 1)))) $$ HO
  iapply (wp_red_send m 𝒱₀ c 4 1 hne4 (K (rsCell c 1)) (K (rrCell 4 1 c)) (dev27_eq _) (pchunk_lit1_4 _ _) (slot_off40 c _ _)
      (congrArg SemLoc.dma (sem_rs1 _)) (congrArg SemLoc.dma (sem_off39 c _)) (owesRedL c [5, 6, 7] 1 + owesRedL c Tsd 2 + owesGatL c 1) fd4)
    $$ [P1T4 Drr1T4 HO Trs1T4 Trr1T4]
  · isplitr; · iexact Irs1
    isplitr; · iexact Irr1T4
    isplitl [P1T4]; · iexact P1T4
    isplitl [Drr1T4]; · iexact Drr1T4
    isplitl [HO]; · iexact HO
    isplitl [Trs1T4]; · iexact Trs1T4
    isplitr; · iexact Rrs1
    isplitl [Trr1T4]; · iexact Trr1T4
    iexact Rrr1T4
  iintro ⟨Crs1T4, HO⟩
  sl_exec_parts
  -- the copy of chunk 5 to device 5
  ihave #Irr1T5 := (invsAll_at m K 5 (.rr 1 c)) $$ Hinv
  ihave #Rrr1T5 := (reachedAll_at 5 (.rr 1 c)) $$ Hreach
  ihave HO := (Entails.of_eq (congrArg (fun o => owes (c : Thread nD τ) o _) (debt_peel c 5 [6, 7] 1 (owesRedL c Tsd 2) (owesGatL c 1)))) $$ HO
  iapply (wp_red_send m 𝒱₀ c 5 1 hne5 (K (rsCell c 1)) (K (rrCell 5 1 c)) (dev28_eq _) (pchunk_lit1_5 _ _) (slot_off42 c _ _)
      (congrArg SemLoc.dma (sem_rs1 _)) (congrArg SemLoc.dma (sem_off41 c _)) (owesRedL c [6, 7] 1 + owesRedL c Tsd 2 + owesGatL c 1) fd5)
    $$ [P1T5 Drr1T5 HO Trs1T5 Trr1T5]
  · isplitr; · iexact Irs1
    isplitr; · iexact Irr1T5
    isplitl [P1T5]; · iexact P1T5
    isplitl [Drr1T5]; · iexact Drr1T5
    isplitl [HO]; · iexact HO
    isplitl [Trs1T5]; · iexact Trs1T5
    isplitr; · iexact Rrs1
    isplitl [Trr1T5]; · iexact Trr1T5
    iexact Rrr1T5
  iintro ⟨Crs1T5, HO⟩
  sl_exec_parts
  -- the wait for device 6's rows
  ihave #Igr0S6 := (invsAll_at m K c (.gr 0 6)) $$ Hinv
  ihave #Mgr0S6 := (mayWait_gr (F := F) c 0 6 (owesRedL c [6, 7] 1 + owesRedL c Tsd 2 + owesGatL c 1) hAbG3) $$ Hlev
  iapply (wp_gat_recv m 𝒱₀ c 6 0 (by decide) hne6.symm (K (grCell c 0 6)) (sem_gr0_6 _) (gChunk_credit 0 6)) $$ [Cgr0S6 HO Pgr0S6]
  · isplitr; · iexact Igr0S6
    isplitl [Cgr0S6]; · iexact Cgr0S6
    isplitl [HO]; · iexact HO
    isplitr; · iexact Mgr0S6
    iexact Pgr0S6
  iintro ⟨HO, Dgr0S6, #Rgr0S6, Ygr0S6⟩
  sl_exec_parts
  -- the wait for device 7's rows
  ihave #Igr0S7 := (invsAll_at m K c (.gr 0 7)) $$ Hinv
  ihave #Mgr0S7 := (mayWait_gr (F := F) c 0 7 (owesRedL c [6, 7] 1 + owesRedL c Tsd 2 + owesGatL c 1) hAbG3) $$ Hlev
  iapply (wp_gat_recv m 𝒱₀ c 7 0 (by decide) hne7.symm (K (grCell c 0 7)) (sem_gr0_7 _) (gChunk_credit 0 7)) $$ [Cgr0S7 HO Pgr0S7]
  · isplitr; · iexact Igr0S7
    isplitl [Cgr0S7]; · iexact Cgr0S7
    isplitl [HO]; · iexact HO
    isplitr; · iexact Mgr0S7
    iexact Pgr0S7
  iintro ⟨HO, Dgr0S7, #Rgr0S7, Ygr0S7⟩
  -- rows 384 … 511 of the first activation joined, and the same rows of layer 1's partial product
  ihave Ggr0S6 := (grPay_canon m c 6 0) $$ Ygr0S6
  ihave Ggr0S7 := (grPay_canon m c 7 0) $$ Ygr0S7
  ihave GG3 := (gGroup_join c 0 3 fullShare (Gfun m c) 6 7 rfl rfl) $$ [Ggr0S6 Ggr0S7]
  · isplitl [Ggr0S6]; · iexact Ggr0S6
    iexact Ggr0S7
  ihave PG3 := (pGroup_join c 1 3 fullShare f0 6 7 rfl rfl) $$ [P1T6 P1T7]
  · isplitl [P1T6]; · iexact P1T6
    iexact P1T7
  sl_exec_parts
  -- the group stored is the canonical partial product on its rows; cut into its two chunks
  have eG3 : View.readAt (Elt F) (Memref.whole cc0_scratch2).view (Rect.unit (s := S3x512x256) ![0, 384, 0] S1x128x256.size inb_S3x512x256_S1x128x256_0_384_0).toLoadRect (Gfun m c)
      = groupOf (G0 m) 3 := read_G_group m c 0 3 ![0, 384, 0] rfl _
  have hw3 : ∀ i ∈ (rectGrp 1 3).set, segB1_sound3.sl.PG3_w1 m c f0 x3 x4 i = Pfun m c i :=
    stored_P1 m c 3 f0 _ rfl _ _ HEq.rfl (by
      unfold segB1_sound3.sl.r segB1_sound3.sl.r_1
      rw [e3, e4, eG3]
      rfl)
  ihave PG3 := (pGroup_split c 1 3 fullShare _ 6 7 rfl rfl) $$ PG3
  icases PG3 with ⟨P1T6, P1T7⟩
  have hw3T := agree_chunks 1 3 6 7 rfl rfl _ _ hw3
  ihave P1T6 := (Entails.of_eq (pChunk_congr c 1 6 fullShare hw3T.1)) $$ P1T6
  ihave P1T7 := (Entails.of_eq (pChunk_congr c 1 7 fullShare hw3T.2)) $$ P1T7
  -- the copy of chunk 6 to device 6
  ihave #Irr1T6 := (invsAll_at m K 6 (.rr 1 c)) $$ Hinv
  ihave #Rrr1T6 := (reachedAll_at 6 (.rr 1 c)) $$ Hreach
  ihave HO := (Entails.of_eq (congrArg (fun o => owes (c : Thread nD τ) o _) (debt_peel c 6 [7] 1 (owesRedL c Tsd 2) (owesGatL c 1)))) $$ HO
  iapply (wp_red_send m 𝒱₀ c 6 1 hne6 (K (rsCell c 1)) (K (rrCell 6 1 c)) (dev29_eq _) (pchunk_lit1_6 _ _) (slot_off44 c _ _)
      (congrArg SemLoc.dma (sem_rs1 _)) (congrArg SemLoc.dma (sem_off43 c _)) (owesRedL c [7] 1 + owesRedL c Tsd 2 + owesGatL c 1) fd6)
    $$ [P1T6 Drr1T6 HO Trs1T6 Trr1T6]
  · isplitr; · iexact Irs1
    isplitr; · iexact Irr1T6
    isplitl [P1T6]; · iexact P1T6
    isplitl [Drr1T6]; · iexact Drr1T6
    isplitl [HO]; · iexact HO
    isplitl [Trs1T6]; · iexact Trs1T6
    isplitr; · iexact Rrs1
    isplitl [Trr1T6]; · iexact Trr1T6
    iexact Rrr1T6
  iintro ⟨Crs1T6, HO⟩
  sl_exec_parts
  -- the copy of chunk 7 to device 7
  ihave #Irr1T7 := (invsAll_at m K 7 (.rr 1 c)) $$ Hinv
  ihave #Rrr1T7 := (reachedAll_at 7 (.rr 1 c)) $$ Hreach
  ihave HO := (Entails.of_eq (congrArg (fun o => owes (c : Thread nD τ) o _) (debt_peel c 7 [] 1 (owesRedL c Tsd 2) (owesGatL c 1)))) $$ HO
  iapply (wp_red_send m 𝒱₀ c 7 1 hne7 (K (rsCell c 1)) (K (rrCell 7 1 c)) (dev30_eq _) (pchunk_lit1_7 _ _) (slot_off46 c _ _)
      (congrArg SemLoc.dma (sem_rs1 _)) (congrArg SemLoc.dma (sem_off45 c _)) (owesRedL c [] 1 + owesRedL c Tsd 2 + owesGatL c 1) fd7)
    $$ [P1T7 Drr1T7 HO Trs1T7 Trr1T7]
  · isplitr; · iexact Irs1
    isplitr; · iexact Irr1T7
    isplitl [P1T7]; · iexact P1T7
    isplitl [Drr1T7]; · iexact Drr1T7
    isplitl [HO]; · iexact HO
    isplitl [Trs1T7]; · iexact Trs1T7
    isplitr; · iexact Rrs1
    isplitl [Trr1T7]; · iexact Trr1T7
    iexact Rrr1T7
  iintro ⟨Crs1T7, HO⟩
  ihave P1T3 := (Entails.of_eq (congrArg (fun t => (piece c (pChunk 1 t) fullShare (Pfun m c) : sProp 𝕄)) hc.symm)) $$ P1T3
  ihave P1own := (Entails.of_eq (pRows_eq c 1 c fullShare (Pfun m c)).symm) $$ P1T3
  sl_exec_parts
  have eOwn : View.readAt (Elt F) (Memref.whole cc0_scratch0).view (Rect.unit (s := S3x512x256) (k0_off47 c) S1x64x256.size (k0_off47_inb c)).toLoadRect (Pfun m c)
      = chunkOf (P1 m c) c := read_P_chunk m c 1 c (k0_off47 c) (k0_off47_eq c) _
  iapply (ret_intro _ Kt c)
  iapply (Entails.of_eq (congrArg (fun x => (Kt ⟨k0_pay14 x, segB1_sound3.sl.v466 c⟩ : sProp 𝕄)) eOwn.symm))
  ihave GG0 := (gGroup_split c 0 0 fullShare (Gfun m c) 0 1 rfl rfl) $$ GG0
  icases GG0 with ⟨G0T0, G0T1⟩
  ihave GG1 := (gGroup_split c 0 1 fullShare (Gfun m c) 2 3 rfl rfl) $$ GG1
  icases GG1 with ⟨G0T2, G0T3⟩
  ihave GG2 := (gGroup_split c 0 2 fullShare (Gfun m c) 4 5 rfl rfl) $$ GG2
  icases GG2 with ⟨G0T4, G0T5⟩
  ihave GG3 := (gGroup_split c 0 3 fullShare (Gfun m c) 6 7 rfl rfl) $$ GG3
  icases GG3 with ⟨G0T6, G0T7⟩
  ihave G0T3 := (Entails.of_eq (congrArg (fun t => (piece c (gChunk 0 t) fullShare (Gfun m c) : sProp 𝕄)) hc.symm)) $$ G0T3
  ihave P1own := (Entails.of_eq (pRows_eq c 1 c fullShare (Pfun m c))) $$ P1own
  ihave X3 := (stg_of_whole c cc0_stg3_0 (argW m c 1) x3 hx3) $$ X3
  ihave X4 := (stg_of_whole c cc0_stg4_0 (argV m c 1) x4 hx4) $$ X4
  ihave HO := (Entails.of_eq (congrArg (fun o => owes (c : Thread nD τ) o _) (debt_done c 1 (owesRedL c Tsd 2) (owesGatL c 1)))) $$ HO
  iapply Hk
  isplitr
  · isplitr; · iexact Hinv
    isplitr; · iexact Hreach
    iexact Hlev
  isplitr; · ipureintro; trivial
  isplitl [HO]; · iexists _; iexact HO
  isplitl [GTok1]; · iexact GTok1
  isplitl [GDest1]; · iexact GDest1
  isplitl [PRed1]; · iexact PRed1
  isplitl [PGs1]; · iexact PGs1
  isplitl [PGr1]; · iexact PGr1
  isplitl [Crs1T0 Crs1T1 Crs1T2 Crs1T4 Crs1T5 Crs1T6 Crs1T7]
  · isplitl [Crs1T0]; · iexact Crs1T0
    isplitl [Crs1T1]; · iexact Crs1T1
    isplitl [Crs1T2]; · iexact Crs1T2
    isplitl [Crs1T4]; · iexact Crs1T4
    isplitl [Crs1T5]; · iexact Crs1T5
    isplitl [Crs1T6]; · iexact Crs1T6
    iexact Crs1T7
  isplitl [HL2]; · iexact HL2
  isplitl [HPD0]; · iexact HPD0
  isplitl [Dgr0S0 Dgr0S1 Dgr0S2 Dgr0S4 Dgr0S5 Dgr0S6 Dgr0S7]
  · isplitl [Dgr0S0]; · iexact Dgr0S0
    isplitl [Dgr0S1]; · iexact Dgr0S1
    isplitl [Dgr0S2]; · iexact Dgr0S2
    isplitl [Dgr0S4]; · iexact Dgr0S4
    isplitl [Dgr0S5]; · iexact Dgr0S5
    isplitl [Dgr0S6]; · iexact Dgr0S6
    iexact Dgr0S7
  isplitl [HPrest]; · iexact HPrest
  isplitl [PL0]; · iapply (slab_ex c 0 f0); iexact PL0
  isplitl [P1own]; · iapply (ex_intro c (pChunk 1 c) (Pfun m c)); iexact P1own
  isplitl [PL2]; · iapply (slab_ex c 2 f0); iexact PL2
  isplitl [HSB0]; · iexact HSB0
  isplitl [HR1c]; · iexact HR1c
  isplitl [HR2c]; · iexact HR2c
  isplitl [G0T0 G0T1 G0T2 G0T3 G0T4 G0T5 G0T6 G0T7]
  · isplitl [G0T3]; · iapply (ex_intro c (gChunk 0 c) (Gfun m c)); iexact G0T3
    isplitl [G0T0]; · iapply (ex_intro c (gChunk 0 0) (Gfun m c)); iexact G0T0
    isplitl [G0T1]; · iapply (ex_intro c (gChunk 0 1) (Gfun m c)); iexact G0T1
    isplitl [G0T2]; · iapply (ex_intro c (gChunk 0 2) (Gfun m c)); iexact G0T2
    isplitl [G0T4]; · iapply (ex_intro c (gChunk 0 4) (Gfun m c)); iexact G0T4
    isplitl [G0T5]; · iapply (ex_intro c (gChunk 0 5) (Gfun m c)); iexact G0T5
    isplitl [G0T6]; · iapply (ex_intro c (gChunk 0 6) (Gfun m c)); iexact G0T6
    iapply (ex_intro c (gChunk 0 7) (Gfun m c)); iexact G0T7
  isplitl [G1c]; · iexact G1c
  isplitl [HCA2]; · iexact HCA2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segB1_sound3' depends on axioms: [propext, Classical.choice, Quot.sound] -/
#guard_msgs in #print axioms segB1_sound3

end Cert.KernelProof

end
-- ==== Proof.K.BodySegB2_d3.lean ====
import proofs.«900993_g7700000000000994_dist_mlpseq_tp1d_rep_bs_b512_d256_h512_v7x_i8_bf16_1_alg».proof.Proof.K.BodySegBCut
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 1 on the device at position 3: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound3 (c : Dev nD) (hc : c = 3) (K : GSem nD τ sig → ℕ) (Kt : PUnit → sProp 𝕄) (v463 : FVec F S64x256 .f32) (v466 : BitVec 32) :
    iprop(midB m K c [(0 : Dev nD), 1, 2, 4, 5, 6, 7] v463 ∗ (mid2 m K c [(0 : Dev nD), 1, 2, 4, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : ¬ k0_cond36 c = 1#1 := fun h => (cond36_iff c).mp h hc
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 2, 4, 5, 6, 7] 2) := by
    unfold owesRedL
    simp only [List.map_cons, List.map_nil, List.sum_cons, List.sum_nil]
    owes_above
  have hdebt : owesRedL c [(0 : Dev nD), 1, 2, 4, 5, 6, 7] 2 + owesGatL c 1
      = owesRedL c [(0 : Dev nD), 1, 2, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 4, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound3.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound3.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound3.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound3.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound3.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound3.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound3.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound3.sl.r_2 m c a1 a2 a3 a4 a5 a6) (segB2_sound3.sl.v572 m c a7) = red1 m c := by
    intro a1 a2 a3 a4 a5 a6 a7
    unfold segB2_sound3.sl.r_2 segB2_sound3.sl.r_1 segB2_sound3.sl.r
    rw [e476, e492, e508, e524, e540, e556, e572]
    rfl
  have hG1 : ∀ i ∈ (gChunk 1 c).view.set, segB2_sound3.sl.G1c_w1 m c g1 fs1 fs2 fs3 fs4 fs5 fs6 fs7 i = Gfun m c i := by
    intro i hi
    unfold segB2_sound3.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelProof.segB2_sound3' depends on axioms: [propext, Classical.choice, Quot.sound] -/
#guard_msgs in #print axioms segB2_sound3

end Cert.KernelProof

end
-- ==== Proof.K.BodySegC1_d3.lean ====
import proofs.«900993_g7700000000000994_dist_mlpseq_tp1d_rep_bs_b512_d256_h512_v7x_i8_bf16_1_alg».proof.Proof.K.BodySegC1Lib
import Idealize.ShloMosaic.Lib.Tactic

/-! The first half of layer 2 on the device at position 3: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 3 owes for layer 2, the summands in the reverse of the order its sends pay them. -/
theorem owesRedL_rev_d3 (c : Dev nD) :
    owesRedL c [(0 : Dev nD), 1, 2, 4, 5, 6, 7] 2 = 0 + T2 c 7 + T2 c 6 + T2 c 5 + T2 c 4 + T2 c 2 + T2 c 1 + T2 c 0 := by
  unfold owesRedL T2
  simp only [List.map, List.sum_cons, List.sum_nil]
  abel

theorem segC1_sound3 (c : Dev nD) (hc : c = 3) (K : GSem nD τ sig → ℕ) (Kt : PUnit → sProp 𝕄) :
    iprop(mid2 m K c [(0 : Dev nD), 1, 2, 4, 5, 6, 7] ∗ (mid3 m K c [(0 : Dev nD), 1, 2, 4, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 := (condw0_iff c).mpr hne0
  have hw1 := (condw1_iff c).mpr hne1
  have hw2 := (condw2_iff c).mpr hne2
  have hw3 : ¬ _ := fun h => (condw3_iff c).mp h hc
  have hw4 := (condw4_iff c).mpr hne4
  have hw5 := (condw5_iff c).mpr hne5
  have hw6 := (condw6_iff c).mpr hne6
  have hw7 := (condw7_iff c).mpr hne7
  have hg43 : k0_cond43 c = 1#1 := (cond43_iff c).mpr hne0
  have hg44 : k0_cond44 c = 1#1 := (cond44_iff c).mpr hne1
  have hg47 : k0_cond47 c = 1#1 := (cond47_iff c).mpr hne2
  have hg48 : ¬ k0_cond48 c = 1#1 := fun h => (cond48_iff c).mp h hc
  have hg51 : k0_cond51 c = 1#1 := (cond51_iff c).mpr hne4
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts4, Tr4⟩, ⟨Ts5, Tr5⟩, ⟨Ts6, Tr6⟩, ⟨Ts7, Tr7⟩⟩, -⟩, HposRed2, -, Hdest⟩, ⟨⟨Pg0, Cg0⟩, ⟨Pg1, Cg1⟩, ⟨Pg2, Cg2⟩, ⟨Pg4, Cg4⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d3 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 5 + T2 c 4 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 6 + T2 c 5 + T2 c 4 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound3.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 5 + T2 c 4 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  -- the device's own rows are chunk 3 of the group
  ihave Gc3 := (Entails.of_eq (congrArg (fun t : Dev nD => (piece c (gChunk 1 t) fullShare (Gfun m c) : sProp 𝕄)) hc)) $$ Hg1c
  ihave GG1 := (gGroup_join c 1 1 fullShare (Gfun m c) 2 3 rfl rfl) $$ [Gc2 Gc3]
  · isplitl [Gc2] <;> iassumption
  sl_exec
  -- group 1 of layer 2 now holds the device's partial product
  unfold segC1_sound3.sl.PG1_w1 segC1_sound3.sl.r segC1_sound3.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound3.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound3.sl.PG3_w1 segC1_sound3.sl.r_2 segC1_sound3.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs4 Cs5 Cs6 Cs7]
  · rw [sepL7]
    isplitl [Cs0]; · iexact Cs0
    isplitl [Cs1]; · iexact Cs1
    isplitl [Cs2]; · iexact Cs2
    isplitl [Cs4]; · iexact Cs4
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg0 Pg1 Pg2 Pg4 Pg5 Pg6 Pg7]
  · rw [sepL7]
    isplitl [Pg0]; · iexact Pg0
    isplitl [Pg1]; · iexact Pg1
    isplitl [Pg2]; · iexact Pg2
    isplitl [Pg4]; · iexact Pg4
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A03]
    · iapply (Entails.of_eq (congrArg (fun t : Dev nD => (ex (F := F) c (pChunk 0 t) : sProp 𝕄)) hc.symm))
      iapply (ex_of c (pChunk 0 3) _); iexact A03
    isplitl [A00]; · iapply (ex_of c (pChunk 0 0) _); iexact A00
    isplitl [A01]; · iapply (ex_of c (pChunk 0 1) _); iexact A01
    isplitl [A02]; · iapply (ex_of c (pChunk 0 2) _); iexact A02
    isplitl [A04]; · iapply (ex_of c (pChunk 0 4) _); iexact A04
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A13]
    · iapply (Entails.of_eq (congrArg (fun t : Dev nD => (ex (F := F) c (pChunk 1 t) : sProp 𝕄)) hc.symm))
      iapply (ex_of c (pChunk 1 3) _); iexact A13
    isplitl [A10]; · iapply (ex_of c (pChunk 1 0) _); iexact A10
    isplitl [A11]; · iapply (ex_of c (pChunk 1 1) _); iexact A11
    isplitl [A12]; · iapply (ex_of c (pChunk 1 2) _); iexact A12
    isplitl [A14]; · iapply (ex_of c (pChunk 1 4) _); iexact A14
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B23]
  · iapply (Entails.of_eq (congrArg (fun t : Dev nD => (piece c (pChunk 2 t) fullShare (Pfun m c) : sProp 𝕄)) hc.symm)); iexact B23
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G13]
    · iapply (Entails.of_eq (congrArg (fun t : Dev nD => (ex (F := F) c (gChunk 1 t) : sProp 𝕄)) hc.symm))
      iapply (ex_of c (gChunk 1 3) _); iexact G13
    isplitl [G10]; · iapply (ex_of c (gChunk 1 0) _); iexact G10
    isplitl [G11]; · iapply (ex_of c (gChunk 1 1) _); iexact G11
    isplitl [G12]; · iapply (ex_of c (gChunk 1 2) _); iexact G12
    isplitl [G14]; · iapply (ex_of c (gChunk 1 4) _); iexact G14
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelProof.segC1_sound3' depends on axioms: [propext, Classical.choice, Quot.sound] -/
#guard_msgs in #print axioms segC1_sound3

end Cert.KernelProof

end
-- ==== Proof.K.BodySegC2_d3.lean ====
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.BodyExit
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 2 on the device at position 3: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound3 (c : Dev nD) (hc : c = 3) (K : GSem nD τ sig → ℕ) (Kt : PUnit → sProp 𝕄) :
    iprop(mid3 m K c [(0 : Dev nD), 1, 2, 4, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 4, 5, 6, 7]).toFinset := by subst hc; decide
  have hnd : ([(0 : Dev nD), 1, 2, 4, 5, 6, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : ¬ k0_cond60 c = 1#1 := fun h => (cond60_iff c).mp h hc
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound3.sl.v846 m c : Vec F S1x64x256 .bf16) = chunkOf (P2 m c) c := own_chunk_read m c _
  have e861 : ∀ a, (segC2_sound3.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound3.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound3.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound3.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound3.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound3.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound3.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound3.sl.r_3 m c a1 a2 a3 a4 a5 a6) (segC2_sound3.sl.v957 m c a7) = red2 m c := by
    intro a1 a2 a3 a4 a5 a6 a7
    unfold segC2_sound3.sl.r_3 segC2_sound3.sl.r_2 segC2_sound3.sl.r_1 segC2_sound3.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound3.sl.r_3 m c fs1 fs2 fs3 fs4 fs5 fs6) (segC2_sound3.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelProof.segC2_sound3' depends on axioms: [propext, Classical.choice, Quot.sound] -/
#guard_msgs in #print axioms segC2_sound3

end Cert.KernelProof

end
-- ==== Proof.K.BodySegA1a_d4.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.PreludeDevs
import proofs.«900993_g7700000000000994_dist_mlpseq_tp1d_rep_bs_b512_d256_h512_v7x_i8_bf16_1_alg».proof.Proof.K.StepsEntry
import Idealize.ShloMosaic.Lib.Tactic

/-! The entry and layer 0 on device 4, first half: from the body's start to the point where the device has enqueued its
    seven reduce copies of layer 0 and read its own chunk.

    The device signals its seven peers along the ring, one unit to each barrier cell: each signal pays the device's
    duty at that cell and hands the peer the pieces of the device's buffers the peer's copies will land in. It waits for
    the seven signals to itself, the whole round of its barrier cell, and receives in turn the pieces of its peers'
    buffers its own copies land in. It then makes layer 0's partial product from the staged arguments by the body's own
    arithmetic and stores it over layer 0 of the partial-product buffer, which from then on holds the canonical partial
    product there; cut into 64-row chunks, each chunk but the device's own is lent to the copy towards the device that
    reduces those rows, which pays duty `t` of the device's reduce-send cell and the one duty of the target's
    reduce-receive cell, settles what the device owed that cell, and earns the credit for a later wait on the send
    cell. The own chunk is read last, as the accumulation's first term. What the device holds then — the tokens,
    positions and credit of everything still to come, regrouped layer by layer — is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 3, 5, 6, 7]

/-- A step rule stated with its continuation as a wand, read with the continuation as a second conjunct. -/
private theorem step_uncurry {P R G : sProp 𝕄} (h : P ⊢ iprop(R -∗ G)) : iprop(P ∗ R) ⊢ G := by
  iintro ⟨HP, HR⟩
  iapply (h) $$ [HP]
  · iexact HP
  iexact HR

/-- The start holds every cell's invariant and round-0 fact for good. -/
private theorem pre_dup (K : GSem nD τ sig → ℕ) (c : Dev nD) : bodyPre m K c ⊢ iprop((invsAll m K ∗ reachedAll (F := F)) ∗ bodyPre m K c) := by
  unfold bodyPre ghost
  iintro ⟨⟨⟨#HI, #HR, HP, HT⟩, HC, Hlev, S0, S1, S2⟩, HO, Hstg⟩
  isplitr
  · isplitr; · iexact HI
    iexact HR
  isplitl [HP HT HC Hlev S0 S1 S2]
  · isplitl [HP HT]
    · isplitr; · iexact HI
      isplitr; · iexact HR
      isplitl [HP]; · iexact HP
      iexact HT
    isplitl [HC]; · iexact HC
    isplitl [Hlev]; · iexact Hlev
    isplitl [S0]; · iexact S0
    isplitl [S1]; · iexact S1
    iexact S2
  isplitl [HO]; · iexact HO
  iexact Hstg

/-- Two chains of seven, term by term. -/
private theorem zip7 {M : Type} [URA M] (a1 a2 a3 a4 a5 a6 a7 b1 b2 b3 b4 b5 b6 b7 : sProp M) :
    iprop((a1 ∗ a2 ∗ a3 ∗ a4 ∗ a5 ∗ a6 ∗ a7) ∗ (b1 ∗ b2 ∗ b3 ∗ b4 ∗ b5 ∗ b6 ∗ b7))
      ⊢ iprop((a1 ∗ b1) ∗ (a2 ∗ b2) ∗ (a3 ∗ b3) ∗ (a4 ∗ b4) ∗ (a5 ∗ b5) ∗ (a6 ∗ b6) ∗ (a7 ∗ b7)) := by
  iintro ⟨⟨A1, A2, A3, A4, A5, A6, A7⟩, ⟨B1, B2, B3, B4, B5, B6, B7⟩⟩
  isplitl [A1 B1]; · isplitl [A1]; · iexact A1
                     iexact B1
  isplitl [A2 B2]; · isplitl [A2]; · iexact A2
                     iexact B2
  isplitl [A3 B3]; · isplitl [A3]; · iexact A3
                     iexact B3
  isplitl [A4 B4]; · isplitl [A4]; · iexact A4
                     iexact B4
  isplitl [A5 B5]; · isplitl [A5]; · iexact A5
                     iexact B5
  isplitl [A6 B6]; · isplitl [A6]; · iexact A6
                     iexact B6
  isplitl [A7]; · iexact A7
  iexact B7

/-- What the seven entry signals heard hand the device, sorted by the layer whose copies land in it. -/
private theorem barPays_fold (c : Dev nD) (Ts : List (Dev nD)) (hTs : peers c = Ts.toFinset) (hnd : Ts.Nodup) :
    bigSep (peers c) (fun p => barPay (F := F) c p) ⊢ iprop(layerDest c Ts 0 ∗ layerDest c Ts 1 ∗ layerDest c Ts 2) := by
  unfold barPay layerDest
  simp only [bigSep_sep']
  rw [if_pos (show (0 : Fin 3).val < 2 by decide), if_pos (show (1 : Fin 3).val < 2 by decide), if_neg (show ¬ (2 : Fin 3).val < 2 by decide)]
  rw [bigSep_eq_bigSepL_of_eq Ts hTs hnd (fun p => iprop(∃ f, piece p (rSlot 0 c) fullShare f)),
    bigSep_eq_bigSepL_of_eq Ts hTs hnd (fun p => iprop(∃ f, piece p (rSlot 1 c) fullShare f)),
    bigSep_eq_bigSepL_of_eq Ts hTs hnd (fun p => iprop(∃ f, piece p (rSlot 2 c) fullShare f)),
    bigSep_eq_bigSepL_of_eq (ringF c) (peers_eq_fwd c) (fwd_nodup c) (fun p => iprop(∃ f, piece p (gChunk 0 c) fullShare f)),
    bigSep_eq_bigSepL_of_eq (ringF c) (peers_eq_fwd c) (fwd_nodup c) (fun p => iprop(∃ f, piece p (gChunk 1 c) fullShare f))]
  iintro ⟨A0, A1, A2, G0, G1, -⟩
  isplitl [A0 G0]; · isplitl [A0]; · iexact A0
                     iexact G0
  isplitl [A1 G1]; · isplitl [A1]; · iexact A1
                     iexact G1
  isplitl [A2]; · iexact A2
  iempintro

/-- Layer 0's destinations: the seven receive slots by target, and the gather chunks along the ring. -/
private theorem layerDest0_eq (c : Dev nD) : (layerDest (F := F) c Tsd 0 : sProp 𝕄) =
    iprop(((∃ fd, piece 0 (rSlot 0 c) fullShare fd) ∗ (∃ fd, piece 1 (rSlot 0 c) fullShare fd) ∗ (∃ fd, piece 2 (rSlot 0 c) fullShare fd) ∗ (∃ fd, piece 3 (rSlot 0 c) fullShare fd) ∗ (∃ fd, piece 5 (rSlot 0 c) fullShare fd) ∗ (∃ fd, piece 6 (rSlot 0 c) fullShare fd) ∗ (∃ fd, piece 7 (rSlot 0 c) fullShare fd))
      ∗ bigSepL (ringF c) (fun p => iprop(∃ fd, piece p (gChunk 0 c) fullShare fd))) := by
  unfold layerDest
  rw [if_pos (show (0 : Fin 3).val < 2 by decide)]
  rfl

/-- Chunk `t` of layer 0 after the store of the layer's partial product holds the canonical contents. -/
private theorem chunk0_stored (c t : Dev nD) (f0 : Buf (Elt F) ((c : Thread nD τ).loc cc0_scratch0))
    (inb : ∀ a, (![0, 0, 0] : Fin 3 → Nat) a + S1x512x256.size a ≤ S3x512x256.size a) :
    (piece c (pChunk 0 t) fullShare ((Memref.whole cc0_scratch0).view.writes (Elt F) f0
        [⟨Rect.unit (s := S3x512x256) ![0, 0, 0] S1x512x256.size inb, P0 m c⟩]) : sProp 𝕄)
      = piece c (pChunk 0 t) fullShare (Pfun m c) := by
  refine piece_congr c (pChunk 0 t) fullShare fun i hi => ?_
  refine write_P0 m c f0 ![0, 0, 0] rfl inb i ?_
  rw [set_pChunk] at hi
  have hs : i ∈ (rectSlab 0).set := by
    rw [rectSlab_eq]; exact Finset.mem_biUnion.mpr ⟨t, Finset.mem_univ _, hi⟩
  have hs' : i ∈ (pSlab 0).view.set := by rw [set_pSlab]; exact hs
  exact hs'

/-- The eight chunks of layer `l` of the partial-product buffer, each at some contents. -/
private def pLayerEx (c : Dev nD) (l : Fin 3) : sProp 𝕄 := bigSep (Finset.univ : Finset (Dev nD)) (fun t => ex (F := F) c (pChunk l t))

/-- After the store of layer 0's partial product the partial-product buffer is: its eight chunks of layer 0 holding the
    canonical contents, and the chunks of the two later layers at whatever they hold. -/
private theorem slab0_cut (c : Dev nD) (f0 : Buf (Elt F) ((c : Thread nD τ).loc cc0_scratch0))
    {a0 : Vec F S512x256 .f32} {a1 : Vec F S256x512 .f32} {a2 : Vec F S512x256 .f32}
    (h0 : a0 = argX m c) (h1 : a1 = argW m c 0) (h2 : a2 = argV m c 0)
    (inb : ∀ a, (![0, 0, 0] : Fin 3 → Nat) a + S1x512x256.size a ≤ S3x512x256.size a) :
    ((Memref.whole cc0_scratch0).view.loc (c : Thread nD τ) ↦[(Memref.whole cc0_scratch0).view.set]{fullShare}
        ((Memref.whole cc0_scratch0).view.writes (Elt F) f0 [⟨Rect.unit (s := S3x512x256) ![0, 0, 0] S1x512x256.size inb, k0_pay1 a0 a1 a2⟩]) : sProp 𝕄)
      ⊢ iprop(bigSep (Finset.univ : Finset (Dev nD)) (fun t => piece c (pChunk 0 t) fullShare (Pfun m c))
          ∗ pLayerEx c 1 ∗ pLayerEx c 2) := by
  unfold pLayerEx
  subst h0 h1 h2
  refine (whole0_split c fullShare _).trans ?_
  rw [bigSep_univ_prod, bigSep_fin3]
  exact sep_mono (Entails.of_eq (bigSep_congr fun t _ => chunk0_stored m c t f0 inb))
    (sep_mono (bigSep_mono fun t _ => piece_ex c _ _ _) (bigSep_mono fun t _ => piece_ex c _ _ _))

private theorem zero2 : (![0, 0] : Fin 2 → Nat) = fun _ => 0 := by funext a; fin_cases a <;> rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; rfl
  iapply (Entails.of_eq (congrArg (fun I => pointsTo ((c : Thread nD τ).loc b) I fullShare x) (View.set_whole b)))
  iexact H

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

/-- What is still owed once the entry signals and layer 0's reduce copies are out, and the whole debt at launch with
    those last, in the reverse of the order they are settled. -/
private abbrev restA (c : Dev nD) : CellTallies nD τ sig Unit := owesRedL c Tsd 1 + owesRedL c Tsd 2 + owesGatL c 0 + owesGatL c 1

private theorem debt_rev (c : Dev nD) : debt c 0 1 2 3 5 6 7 =
    restA c + tallyAt (rrCell 7 0 c) () N64 + tallyAt (rrCell 6 0 c) () N64 + tallyAt (rrCell 5 0 c) () N64 + tallyAt (rrCell 3 0 c) () N64 + tallyAt (rrCell 2 0 c) () N64 + tallyAt (rrCell 1 0 c) () N64 + tallyAt (rrCell 0 0 c) () N64
      + tallyAt (barCell (fwd 7 c)) () 1 + tallyAt (barCell (fwd 6 c)) () 1 + tallyAt (barCell (fwd 5 c)) () 1 + tallyAt (barCell (fwd 4 c)) () 1
      + tallyAt (barCell (fwd 3 c)) () 1 + tallyAt (barCell (fwd 2 c)) () 1 + tallyAt (barCell (fwd 1 c)) () 1 := by
  unfold debt owesBar owesRedLit owesGatA restA owesRedL owesGatL ringF
  simp only [amt_rSlot, amt_gChunk, List.map, List.sum_cons, List.sum_nil]
  abel

private theorem above_restA (c : Dev nD) : Above 1 (restA c) := by
  unfold restA owesRedL owesGatL ringF
  simp only [List.map, List.sum_cons, List.sum_nil]
  owes_above

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- Seven copies of one assertion, as the family over the literal peers. -/
private theorem creds7 (a : sProp 𝕄) : iprop(a ∗ a ∗ a ∗ a ∗ a ∗ a ∗ a) ⊢ bigSepL Tsd (fun _ => a) := .rfl

/-- Two chains along the ring forward, term by term. -/
private theorem zipF (c : Dev nD) (Φ Ψ : Dev nD → sProp 𝕄) : iprop(alongF c Φ ∗ alongF c Ψ) ⊢ bigSepL (ringF c) (fun p => iprop(Φ p ∗ Ψ p)) :=
  zip7 _ _ _ _ _ _ _ _ _ _ _ _ _ _
/-- Two chains along the ring backward, term by term. -/
private theorem zipB (c : Dev nD) (Φ Ψ : Dev nD → sProp 𝕄) : iprop(alongB c Φ ∗ alongB c Ψ) ⊢ bigSepL (ringB c) (fun p => iprop(Φ p ∗ Ψ p)) :=
  zip7 _ _ _ _ _ _ _ _ _ _ _ _ _ _
/-- Two chains over the literal peers, term by term. -/
private theorem zipT (Φ Ψ : Dev nD → sProp 𝕄) : iprop(lits4 Φ ∗ lits4 Ψ) ⊢ bigSepL Tsd (fun p => iprop(Φ p ∗ Ψ p)) :=
  zip7 _ _ _ _ _ _ _ _ _ _ _ _ _ _

/-- A layer's reduce positions from the send cell's, the receive cells' and their credit. -/
private theorem posRed_intro (c : Dev nD) (l : Fin 3) :
    iprop(atPos ER (rsCell c l) 0 ∅ 0 ∗ alongB c (fun s => (atPos ER (rrCell c l s) 0 ∅ 0 : sProp 𝕄))
      ∗ alongB c (fun s => (cred (tallyAt (rrCell c l s) () N64) : sProp 𝕄))) ⊢ (posRed (F := F) c l : sProp 𝕄) := by
  unfold posRed
  iintro ⟨A, B, C⟩
  isplitl [A]; · iexact A
  iapply (zipB c _ _)
  isplitl [B]; · iexact B
  iexact C
/-- A layer's gather-send position. -/
private theorem posGs_intro (c : Dev nD) (l : Fin 3) : (atPos ER (gsCell c l) 0 ∅ 0 : sProp 𝕄) ⊢ posGs (F := F) c l := by
  unfold posGs
  exact .rfl
/-- A layer's gather-receive positions with their credit. -/
private theorem posGr_intro (c : Dev nD) (l : Fin 3) :
    iprop(lits4 (fun s => (atPos ER (grCell c l s) 0 ∅ 0 : sProp 𝕄)) ∗ lits4 (fun s => (cred (tallyAt (grCell c l s) () N64) : sProp 𝕄)))
      ⊢ (posGr (F := F) c Tsd l : sProp 𝕄) := by
  unfold posGr
  exact zipT _ _

/-- A later layer's resources from its tokens, positions, credit and destinations. -/
private theorem layerRes1_intro (c : Dev nD) :
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1) ∗ layerDest c Tsd 1) ⊢ (layerRes (F := F) c Tsd 1 : sProp 𝕄) := by
  unfold layerRes layerToks
  rw [if_pos (show (1 : Fin 3).val < 2 by decide), if_pos (show (1 : Fin 3).val < 2 by decide)]
private theorem layerRes2_intro (c : Dev nD) :
    iprop((bigSepL Tsd (fun t => iprop(dutyTok ER (rsCell c 2) 0 t ∗ dutyTok ER (rrCell t 2 c) 0 c)) ∗ emp)
      ∗ posRed c 2 ∗ emp ∗ layerDest c Tsd 2) ⊢ (layerRes (F := F) c Tsd 2 : sProp 𝕄) := by
  unfold layerRes layerToks
  rw [if_neg (show ¬ (2 : Fin 3).val < 2 by decide), if_neg (show ¬ (2 : Fin 3).val < 2 by decide)]

private theorem pLayerEx_def (c : Dev nD) (l : Fin 3) :
    (pLayerEx (F := F) c l : sProp 𝕄) = bigSep (Finset.univ : Finset (Dev nD)) (fun t => ex (F := F) c (pChunk l t)) := rfl

/-- The last layer's chunks of the gather buffer, all held. -/
private theorem gath2 (c : Dev nD) (hc : c = 4) (f : Buf (Elt F) ((c : Thread nD τ).loc cc0_scratch2)) :
    bigSep (Finset.univ : Finset (Dev nD)) (fun t => (piece c (gChunk 2 t) fullShare f : sProp 𝕄)) ⊢ chunksAll c Tsd 2 := by
  subst hc
  rw [bigSep_dev8]
  unfold chunksAll
  rw [bigSepL7]
  iintro ⟨H0, H1, H2, H3, H4, H5, H6, H7⟩
  isplitl [H4]; · iapply (ex_intro _ (gChunk 2 4) f); iexact H4
  isplitl [H0]; · iapply (ex_intro _ (gChunk 2 0) f); iexact H0
  isplitl [H1]; · iapply (ex_intro _ (gChunk 2 1) f); iexact H1
  isplitl [H2]; · iapply (ex_intro _ (gChunk 2 2) f); iexact H2
  isplitl [H3]; · iapply (ex_intro _ (gChunk 2 3) f); iexact H3
  isplitl [H5]; · iapply (ex_intro _ (gChunk 2 5) f); iexact H5
  isplitl [H6]; · iapply (ex_intro _ (gChunk 2 6) f); iexact H6
  iapply (ex_intro _ (gChunk 2 7) f); iexact H7

attribute [local irreducible] layerDest layerRes layerToks barPay pLayerEx

set_option hygiene false in
/-- The entry signal to the peer `j` places after the device: it pays with the head token and the head payload. -/
local macro "entry_signal" j:num eq:ident : tactic => `(tactic| (
  icases TB with ⟨Tb, TB⟩
  icases PB with ⟨Pb, PB⟩
  iapply (step_uncurry (wp_entry_signal m 𝒱₀ c (fwd $j c) (fwd_ne_nat $j (by decide) (by decide) c) (K (barCell (fwd $j c))) ($eq c _) rfl rfl _))
  isplitl [Tb Pb HO]
  · isplitr; · iapply (invsAll_at m K (fwd $j c) .bar); iexact Hinv
    isplitl [Tb]; · iexact Tb
    isplitr; · iapply (reached_at (fwd $j c) .bar); iexact Hreach
    isplitl [Pb]; · iexact Pb
    iexact HO
  iintro HO
  sl_exec_parts))

theorem segA1_sound4 (c : Dev nD) (hc : c = 4) (K : GSem nD τ sig → ℕ)
    (Kt : (Σ' (d0 : Dev nD) (v2 : BitVec 32) (v78 : FVec F S64x256 .f32) (v81 : BitVec 32) (v82 : BitVec 32), BitVec 32) → sProp 𝕄) :
    iprop(bodyPre m K c ∗ (∀ v78 v81 v82 c0, midA m K c Tsd v78 -∗ Kt ⟨c, devWord c, v78, v81, v82, c0⟩))
      ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hg1 : k0_cond1 c = 1#1 := (cond1_iff c).mpr hne0
  have hg2 : k0_cond2 c = 1#1 := (cond2_iff c).mpr hne1
  have hg3 : k0_cond3 c = 1#1 := (cond3_iff c).mpr hne2
  have hg4 : k0_cond4 c = 1#1 := (cond4_iff c).mpr hne3
  have hg5 : ¬ k0_cond5 c = 1#1 := fun h => (cond5_iff c).mp h hc
  have hg6 : k0_cond6 c = 1#1 := (cond6_iff c).mpr hne5
  have hg7 : k0_cond7 c = 1#1 := (cond7_iff c).mpr hne6
  have hg8 : k0_cond8 c = 1#1 := (cond8_iff c).mpr hne7
  have hAbW : Above 1 (restA c + tallyAt (rrCell 7 0 c) () N64 + tallyAt (rrCell 6 0 c) () N64 + tallyAt (rrCell 5 0 c) () N64 + tallyAt (rrCell 3 0 c) () N64 + tallyAt (rrCell 2 0 c) () N64 + tallyAt (rrCell 1 0 c) () N64 + tallyAt (rrCell 0 0 c) () N64 : CellTallies nD τ sig Unit) :=
    (((((((above_restA c).add (above_rr (n := 1) (7 : Dev nD) (0 : Fin 3) c N64 (by decide))).add (above_rr (n := 1) (6 : Dev nD) (0 : Fin 3) c N64 (by decide))).add (above_rr (n := 1) (5 : Dev nD) (0 : Fin 3) c N64 (by decide))).add (above_rr (n := 1) (3 : Dev nD) (0 : Fin 3) c N64 (by decide))).add (above_rr (n := 1) (2 : Dev nD) (0 : Fin 3) c N64 (by decide))).add (above_rr (n := 1) (1 : Dev nD) (0 : Fin 3) c N64 (by decide))).add (above_rr (n := 1) (0 : Dev nD) (0 : Fin 3) c N64 (by decide))
  refine (sep_mono_left ((pre_dup m K c).trans (sep_mono_right (prelude_dev4 m K c hc)))).trans ?_
  unfold ctx toksFam posFam credsFam lits4 midA stagedIn scr
  rw [debt_rev]
  iintro ⟨⟨⟨#Hinv, #Hreach⟩, -, -, #Hlev, ⟨TB, ⟨⟨Trs0T0, Trs0T1, Trs0T2, Trs0T3, Trs0T5, Trs0T6, Trs0T7⟩, ⟨Trr0T0, Trr0T1, Trr0T2, Trr0T3, Trr0T5, Trr0T6, Trr0T7⟩⟩, ⟨TS1, TR1⟩, ⟨TS2, TR2⟩, ⟨TGS0, TGR0⟩, ⟨TGS1, TGR1⟩⟩, ⟨Abar, ⟨Ars0, Arr0⟩, ⟨Ars1, Arr1⟩, ⟨Ars2, Arr2⟩, ⟨Ags0, Agr0⟩, ⟨Ags1, Agr1⟩⟩, ⟨Cbar, Crr0, Crr1, Crr2, Cgr0, Cgr1⟩, HPrest, ⟨%f0, S0⟩, PB, ⟨%fs, SO0, SO1, SO2⟩, ⟨%fg, GO0, GO1, GO2⟩, ⟨%W, HO⟩, ⟨%x0, %hx0, X0⟩, ⟨%x1, %hx1, X1⟩, ⟨%x2, %hx2, X2⟩, X3, X4, X5, X6, H7⟩, Hk⟩
  ihave X0 := (whole_restate c cc0_stg0_0 x0) $$ X0
  ihave X1 := (whole_restate c cc0_stg1_0 x1) $$ X1
  ihave X2 := (whole_restate c cc0_stg2_0 x2) $$ X2
  ihave S0 := (whole_restate c cc0_scratch0 f0) $$ S0
  sl_unfold [segA1]
  sl_exec_parts
  entry_signal 1 dev1_eq
  entry_signal 2 dev2_eq
  entry_signal 3 dev3_eq
  entry_signal 4 dev4_eq
  entry_signal 5 dev5_eq
  entry_signal 6 dev6_eq
  icases TB with Tb
  icases PB with Pb
  iapply (step_uncurry (wp_entry_signal m 𝒱₀ c (fwd 7 c) (fwd_ne_nat 7 (by decide) (by decide) c) (K (barCell (fwd 7 c))) (dev7_eq c _) rfl rfl _))
  isplitl [Tb Pb HO]
  · isplitr; · iapply (invsAll_at m K (fwd 7 c) .bar); iexact Hinv
    isplitl [Tb]; · iexact Tb
    isplitr; · iapply (reached_at (fwd 7 c) .bar); iexact Hreach
    isplitl [Pb]; · iexact Pb
    iexact HO
  iintro HO
  sl_exec_parts
  ihave #Hmw := (mayWait_bar (F := F) c (restA c + tallyAt (rrCell 7 0 c) () N64 + tallyAt (rrCell 6 0 c) () N64 + tallyAt (rrCell 5 0 c) () N64 + tallyAt (rrCell 3 0 c) () N64 + tallyAt (rrCell 2 0 c) () N64 + tallyAt (rrCell 1 0 c) () N64 + tallyAt (rrCell 0 0 c) () N64) hAbW) $$ Hlev
  iapply (step_uncurry (wp_bar_wait m 𝒱₀ c (K (barCell c)) rfl rfl (O := restA c + tallyAt (rrCell 7 0 c) () N64 + tallyAt (rrCell 6 0 c) () N64 + tallyAt (rrCell 5 0 c) () N64 + tallyAt (rrCell 3 0 c) () N64 + tallyAt (rrCell 2 0 c) () N64 + tallyAt (rrCell 1 0 c) () N64 + tallyAt (rrCell 0 0 c) () N64) (W := W)))
  isplitl [Cbar HO Abar]
  · isplitr; · iapply (invsAll_at m K c .bar); iexact Hinv
    isplitl [Cbar]; · iexact Cbar
    isplitl [HO]; · iexact HO
    isplitr; · iexact Hmw
    iexact Abar
  iintro ⟨HO, Abar, #Rbar1, PBin⟩
  ihave PBin := (barPays_fold c Tsd (by rw [hc]; decide) (by decide)) $$ PBin
  icases PBin with ⟨D0, D1, D2⟩
  ihave S0 := (slab0_cut m c f0 ((Memref.readAt_unit_zero (Elt F) cc0_stg0_0 zero2 inb_S512x256_S512x256_0_0 x0).trans hx0)
      ((Memref.readAt_unit_zero (Elt F) cc0_stg1_0 zero2 inb_S256x512_S256x512_0_0 x1).trans hx1)
      ((Memref.readAt_unit_zero (Elt F) cc0_stg2_0 zero2 inb_S512x256_S512x256_0_0 x2).trans hx2) _) $$ S0
  icases S0 with ⟨P0s, P1s, P2s⟩
  ihave P0s := (Entails.of_eq (bigSep_dev8 _)) $$ P0s
  icases P0s with ⟨Q0, Q1, Q2, Q3, Q4, Q5, Q6, Q7⟩
  sl_exec_parts
  ihave D0 := (Entails.of_eq (layerDest0_eq c)) $$ D0
  icases D0 with ⟨⟨⟨%fd0, Drr0T0⟩, ⟨%fd1, Drr0T1⟩, ⟨%fd2, Drr0T2⟩, ⟨%fd3, Drr0T3⟩, ⟨%fd5, Drr0T5⟩, ⟨%fd6, Drr0T6⟩, ⟨%fd7, Drr0T7⟩⟩, DG0⟩
  ihave #Irs0 := (invsAll_at m K c (.rs 0)) $$ Hinv
  ihave #Rrs0 := (reached_at (F := F) c (.rs 0)) $$ Hreach
  -- the copy of chunk 0 to device 0
  ihave #Irr0T0 := (invsAll_at m K 0 (.rr 0 c)) $$ Hinv
  ihave #Rrr0T0 := (reached_at (F := F) 0 (.rr 0 c)) $$ Hreach
  iapply (wp_red_send m 𝒱₀ c 0 0 hne0 (K (rsCell c 0)) (K (rrCell 0 0 c)) (dev8_eq _) (pchunk_lit0_0 _ _) (slot_off2 c _ _)
      (congrArg SemLoc.dma (sem_rs0 _)) (congrArg SemLoc.dma (sem_off1 c _)) (restA c + tallyAt (rrCell 7 0 c) () N64 + tallyAt (rrCell 6 0 c) () N64 + tallyAt (rrCell 5 0 c) () N64 + tallyAt (rrCell 3 0 c) () N64 + tallyAt (rrCell 2 0 c) () N64 + tallyAt (rrCell 1 0 c) () N64) fd0)
    $$ [Q0 Drr0T0 HO Trs0T0 Trr0T0]
  · isplitr; · iexact Irs0
    isplitr; · iexact Irr0T0
    isplitl [Q0]; · iexact Q0
    isplitl [Drr0T0]; · iexact Drr0T0
    isplitl [HO]; · iexact HO
    isplitl [Trs0T0]; · iexact Trs0T0
    isplitr; · iexact Rrs0
    isplitl [Trr0T0]; · iexact Trr0T0
    iexact Rrr0T0
  iintro ⟨Crs0T0, HO⟩
  sl_exec_parts
  -- the copy of chunk 1 to device 1
  ihave #Irr0T1 := (invsAll_at m K 1 (.rr 0 c)) $$ Hinv
  ihave #Rrr0T1 := (reached_at (F := F) 1 (.rr 0 c)) $$ Hreach
  iapply (wp_red_send m 𝒱₀ c 1 0 hne1 (K (rsCell c 0)) (K (rrCell 1 0 c)) (dev9_eq _) (pchunk_lit0_1 _ _) (slot_off4 c _ _)
      (congrArg SemLoc.dma (sem_rs0 _)) (congrArg SemLoc.dma (sem_off3 c _)) (restA c + tallyAt (rrCell 7 0 c) () N64 + tallyAt (rrCell 6 0 c) () N64 + tallyAt (rrCell 5 0 c) () N64 + tallyAt (rrCell 3 0 c) () N64 + tallyAt (rrCell 2 0 c) () N64) fd1)
    $$ [Q1 Drr0T1 HO Trs0T1 Trr0T1]
  · isplitr; · iexact Irs0
    isplitr; · iexact Irr0T1
    isplitl [Q1]; · iexact Q1
    isplitl [Drr0T1]; · iexact Drr0T1
    isplitl [HO]; · iexact HO
    isplitl [Trs0T1]; · iexact Trs0T1
    isplitr; · iexact Rrs0
    isplitl [Trr0T1]; · iexact Trr0T1
    iexact Rrr0T1
  iintro ⟨Crs0T1, HO⟩
  sl_exec_parts
  -- the copy of chunk 2 to device 2
  ihave #Irr0T2 := (invsAll_at m K 2 (.rr 0 c)) $$ Hinv
  ihave #Rrr0T2 := (reached_at (F := F) 2 (.rr 0 c)) $$ Hreach
  iapply (wp_red_send m 𝒱₀ c 2 0 hne2 (K (rsCell c 0)) (K (rrCell 2 0 c)) (dev10_eq _) (pchunk_lit0_2 _ _) (slot_off6 c _ _)
      (congrArg SemLoc.dma (sem_rs0 _)) (congrArg SemLoc.dma (sem_off5 c _)) (restA c + tallyAt (rrCell 7 0 c) () N64 + tallyAt (rrCell 6 0 c) () N64 + tallyAt (rrCell 5 0 c) () N64 + tallyAt (rrCell 3 0 c) () N64) fd2)
    $$ [Q2 Drr0T2 HO Trs0T2 Trr0T2]
  · isplitr; · iexact Irs0
    isplitr; · iexact Irr0T2
    isplitl [Q2]; · iexact Q2
    isplitl [Drr0T2]; · iexact Drr0T2
    isplitl [HO]; · iexact HO
    isplitl [Trs0T2]; · iexact Trs0T2
    isplitr; · iexact Rrs0
    isplitl [Trr0T2]; · iexact Trr0T2
    iexact Rrr0T2
  iintro ⟨Crs0T2, HO⟩
  sl_exec_parts
  -- the copy of chunk 3 to device 3
  ihave #Irr0T3 := (invsAll_at m K 3 (.rr 0 c)) $$ Hinv
  ihave #Rrr0T3 := (reached_at (F := F) 3 (.rr 0 c)) $$ Hreach
  iapply (wp_red_send m 𝒱₀ c 3 0 hne3 (K (rsCell c 0)) (K (rrCell 3 0 c)) (dev11_eq _) (pchunk_lit0_3 _ _) (slot_off8 c _ _)
      (congrArg SemLoc.dma (sem_rs0 _)) (congrArg SemLoc.dma (sem_off7 c _)) (restA c + tallyAt (rrCell 7 0 c) () N64 + tallyAt (rrCell 6 0 c) () N64 + tallyAt (rrCell 5 0 c) () N64) fd3)
    $$ [Q3 Drr0T3 HO Trs0T3 Trr0T3]
  · isplitr; · iexact Irs0
    isplitr; · iexact Irr0T3
    isplitl [Q3]; · iexact Q3
    isplitl [Drr0T3]; · iexact Drr0T3
    isplitl [HO]; · iexact HO
    isplitl [Trs0T3]; · iexact Trs0T3
    isplitr; · iexact Rrs0
    isplitl [Trr0T3]; · iexact Trr0T3
    iexact Rrr0T3
  iintro ⟨Crs0T3, HO⟩
  sl_exec_parts
  -- the copy of chunk 5 to device 5
  ihave #Irr0T5 := (invsAll_at m K 5 (.rr 0 c)) $$ Hinv
  ihave #Rrr0T5 := (reached_at (F := F) 5 (.rr 0 c)) $$ Hreach
  iapply (wp_red_send m 𝒱₀ c 5 0 hne5 (K (rsCell c 0)) (K (rrCell 5 0 c)) (dev13_eq _) (pchunk_lit0_5 _ _) (slot_off12 c _ _)
      (congrArg SemLoc.dma (sem_rs0 _)) (congrArg SemLoc.dma (sem_off11 c _)) (restA c + tallyAt (rrCell 7 0 c) () N64 + tallyAt (rrCell 6 0 c) () N64) fd5)
    $$ [Q5 Drr0T5 HO Trs0T5 Trr0T5]
  · isplitr; · iexact Irs0
    isplitr; · iexact Irr0T5
    isplitl [Q5]; · iexact Q5
    isplitl [Drr0T5]; · iexact Drr0T5
    isplitl [HO]; · iexact HO
    isplitl [Trs0T5]; · iexact Trs0T5
    isplitr; · iexact Rrs0
    isplitl [Trr0T5]; · iexact Trr0T5
    iexact Rrr0T5
  iintro ⟨Crs0T5, HO⟩
  sl_exec_parts
  -- the copy of chunk 6 to device 6
  ihave #Irr0T6 := (invsAll_at m K 6 (.rr 0 c)) $$ Hinv
  ihave #Rrr0T6 := (reached_at (F := F) 6 (.rr 0 c)) $$ Hreach
  iapply (wp_red_send m 𝒱₀ c 6 0 hne6 (K (rsCell c 0)) (K (rrCell 6 0 c)) (dev14_eq _) (pchunk_lit0_6 _ _) (slot_off14 c _ _)
      (congrArg SemLoc.dma (sem_rs0 _)) (congrArg SemLoc.dma (sem_off13 c _)) (restA c + tallyAt (rrCell 7 0 c) () N64) fd6)
    $$ [Q6 Drr0T6 HO Trs0T6 Trr0T6]
  · isplitr; · iexact Irs0
    isplitr; · iexact Irr0T6
    isplitl [Q6]; · iexact Q6
    isplitl [Drr0T6]; · iexact Drr0T6
    isplitl [HO]; · iexact HO
    isplitl [Trs0T6]; · iexact Trs0T6
    isplitr; · iexact Rrs0
    isplitl [Trr0T6]; · iexact Trr0T6
    iexact Rrr0T6
  iintro ⟨Crs0T6, HO⟩
  sl_exec_parts
  -- the copy of chunk 7 to device 7
  ihave #Irr0T7 := (invsAll_at m K 7 (.rr 0 c)) $$ Hinv
  ihave #Rrr0T7 := (reached_at (F := F) 7 (.rr 0 c)) $$ Hreach
  iapply (wp_red_send m 𝒱₀ c 7 0 hne7 (K (rsCell c 0)) (K (rrCell 7 0 c)) (dev15_eq _) (pchunk_lit0_7 _ _) (slot_off16 c _ _)
      (congrArg SemLoc.dma (sem_rs0 _)) (congrArg SemLoc.dma (sem_off15 c _)) (restA c) fd7)
    $$ [Q7 Drr0T7 HO Trs0T7 Trr0T7]
  · isplitr; · iexact Irs0
    isplitr; · iexact Irr0T7
    isplitl [Q7]; · iexact Q7
    isplitl [Drr0T7]; · iexact Drr0T7
    isplitl [HO]; · iexact HO
    isplitl [Trs0T7]; · iexact Trs0T7
    isplitr; · iexact Rrs0
    isplitl [Trr0T7]; · iexact Trr0T7
    iexact Rrr0T7
  iintro ⟨Crs0T7, HO⟩
  ihave Q4 := (Entails.of_eq (congrArg (fun t => (piece c (pChunk 0 t) fullShare (Pfun m c) : sProp 𝕄)) hc.symm)) $$ Q4
  ihave P0own := (Entails.of_eq (pRows_eq c 0 c fullShare (Pfun m c)).symm) $$ Q4
  sl_exec_parts
  have eOwn : View.readAt (Elt F) (Memref.whole cc0_scratch0).view (Rect.unit (s := S3x512x256) (k0_off17 c) S1x64x256.size (k0_off17_inb c)).toLoadRect (Pfun m c)
      = chunkOf (P0 m c) c := read_P_chunk m c 0 c (k0_off17 c) (k0_off17_eq c) _
  have hv78 : segA1_sound4.sl.r m c = k0_pay2 (chunkOf (P0 m c) c) := by
    unfold segA1_sound4.sl.r
    exact congrArg k0_pay2 eOwn
  have hv2 : segA1_sound4.sl.v2 c = devWord c := rfl
  iapply (ret_intro _ Kt c)
  iapply (Entails.of_eq (congrArg (fun w => (Kt ⟨c, w, segA1_sound4.sl.r m c, segA1_sound4.sl.v81 c, segA1_sound4.sl.v82 c, 0#32⟩ : sProp 𝕄)) hv2.symm))
  ihave P0own := (Entails.of_eq (pRows_eq c 0 c fullShare (Pfun m c))) $$ P0own
  ihave X0 := (stg_of_whole c cc0_stg0_0 (argX m c) x0 hx0) $$ X0
  ihave X1 := (stg_of_whole c cc0_stg1_0 (argW m c 0) x1 hx1) $$ X1
  ihave X2 := (stg_of_whole c cc0_stg2_0 (argV m c 0) x2 hx2) $$ X2
  iapply Hk
  isplitr
  · isplitr; · iexact Hinv
    isplitr; · iexact Hreach
    iexact Hlev
  isplitr; · ipureintro; exact hv78
  isplitl [HO]; · iexists _; iexact HO
  isplitl [TGS0 TGR0]
  · iapply (zipF c _ _)
    isplitl [TGS0]; · iexact TGS0
    iexact TGR0
  isplitl [DG0]; · iexact DG0
  isplitl [Ars0 Arr0 Crr0]
  · iapply (posRed_intro c 0)
    isplitl [Ars0]; · iexact Ars0
    isplitl [Arr0]; · iexact Arr0
    iexact Crr0
  isplitl [Ags0]; · iapply (posGs_intro c 0); iexact Ags0
  isplitl [Agr0 Cgr0]
  · iapply (posGr_intro c 0)
    isplitl [Agr0]; · iexact Agr0
    iexact Cgr0
  isplitl [Crs0T0 Crs0T1 Crs0T2 Crs0T3 Crs0T5 Crs0T6 Crs0T7]
  · iapply (creds7 _)
    isplitl [Crs0T0]; · iexact Crs0T0
    isplitl [Crs0T1]; · iexact Crs0T1
    isplitl [Crs0T2]; · iexact Crs0T2
    isplitl [Crs0T3]; · iexact Crs0T3
    isplitl [Crs0T5]; · iexact Crs0T5
    isplitl [Crs0T6]; · iexact Crs0T6
    iexact Crs0T7
  isplitl [TS1 TR1 TGS1 TGR1 Ars1 Arr1 Crr1 Ags1 Agr1 Cgr1 D1]
  · iapply (layerRes1_intro c)
    isplitl [TS1 TR1 TGS1 TGR1]
    · isplitl [TS1 TR1]
      · iapply (zipT _ _)
        isplitl [TS1]; · iexact TS1
        iexact TR1
      iapply (zipF c _ _)
      isplitl [TGS1]; · iexact TGS1
      iexact TGR1
    isplitl [Ars1 Arr1 Crr1]
    · iapply (posRed_intro c 1)
      isplitl [Ars1]; · iexact Ars1
      isplitl [Arr1]; · iexact Arr1
      iexact Crr1
    isplitl [Ags1 Agr1 Cgr1]
    · isplitl [Ags1]; · iapply (posGs_intro c 1); iexact Ags1
      iapply (posGr_intro c 1)
      isplitl [Agr1]; · iexact Agr1
      iexact Cgr1
    iexact D1
  isplitl [TS2 TR2 Ars2 Arr2 Crr2 D2]
  · iapply (layerRes2_intro c)
    isplitl [TS2 TR2]
    · isplitl [TS2 TR2]
      · iapply (zipT _ _)
        isplitl [TS2]; · iexact TS2
        iexact TR2
      iempintro
    isplitl [Ars2 Arr2 Crr2]
    · iapply (posRed_intro c 2)
      isplitl [Ars2]; · iexact Ars2
      isplitl [Arr2]; · iexact Arr2
      iexact Crr2
    isplitr; · iempintro
    iexact D2
  isplitl [HPrest]; · iexact HPrest
  isplitl [P0own]; · iapply (ex_intro c (pChunk 0 c) (Pfun m c)); iexact P0own
  isplitl [P1s]; · iapply (Entails.of_eq (pLayerEx_def c 1)); iexact P1s
  isplitl [P2s]; · iapply (Entails.of_eq (pLayerEx_def c 2)); iexact P2s
  isplitl [SO0]; · iapply (ex_intro c (rSlot 0 c) fs); iexact SO0
  isplitl [SO1]; · iapply (ex_intro c (rSlot 1 c) fs); iexact SO1
  isplitl [SO2]; · iapply (ex_intro c (rSlot 2 c) fs); iexact SO2
  isplitl [GO0]; · iapply (ex_intro c (gChunk 0 c) fg); iexact GO0
  isplitl [GO1]; · iapply (ex_intro c (gChunk 1 c) fg); iexact GO1
  isplitl [GO2]; · iapply (gath2 c hc fg); iexact GO2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segA1_sound4' depends on axioms: [propext, Classical.choice, Quot.sound] -/
#guard_msgs in #print axioms segA1_sound4

end Cert.KernelProof

end
-- ==== Proof.K.BodySegA2_d4.lean ====
import proofs.«900993_g7700000000000994_dist_mlpseq_tp1d_rep_bs_b512_d256_h512_v7x_i8_bf16_1_alg».proof.Proof.K.BodySegA2Lib

/-! The second half of layer 0 on device 4: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 3, 5, 6, 7] : List (Dev nD))

omit [FloatOps F] in
/-- Everything still owed after layer 0's gather sends is owed to cells above the level of the layer's send cells. -/
theorem above_a2_rest_d4 (c : Dev nD) : Above 3 (a2_rest c Ts) := by
  unfold a2_rest owesRedL owesGatL ringF
  simp only [List.map, List.sum_cons, List.sum_nil]
  owes_above

theorem segA2_sound4 (c : Dev nD) (hc : c = 4) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : ¬ k0_cond13 c = 1#1 := fun h => (cond13_iff c).mp h hc
  have hg14 : k0_cond14 c = 1#1 := (cond14_iff c).mpr (by rw [hc]; decide)
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : ¬ Scalar.cmpi .ne (Scalar.extui (Scalar.cmpi .ne (Scalar.remsi (Scalar.divsi (Dev.word c) 1#32) 8#32) 4#32)) 0#32 = 1#1 := fun h => (condw4_iff c).mp h hc
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d4 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d4 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound4.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound4.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound4.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound4.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound4.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound4.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound4.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound4.sl.r_2 m c v78 a1 a2 a3 a4 a5) (segA2_sound4.sl.v171 m c a6) (segA2_sound4.sl.v187 m c a7) = red0 m c := by
    intro a1 a2 a3 a4 a5 a6 a7
    unfold segA2_sound4.sl.r_2 segA2_sound4.sl.r_1 segA2_sound4.sl.r
    rw [e91, e107, e123, e139, e155, e171, e187, hv]
    rfl
  have hG0 : ∀ g a1 a2 a3 a4 a5 a6 a7, ∀ i ∈ (gChunk 0 c).view.set, segA2_sound4.sl.G0c_w1 m c v78 g a1 a2 a3 a4 a5 a6 a7 i = Gfun m c i := by
    intro g a1 a2 a3 a4 a5 a6 a7 i hi
    unfold segA2_sound4.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelProof

end
-- ==== Proof.K.BodySegB1_d4.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegBCut
import Idealize.ShloMosaic.Lib.Tactic

/-! Layer 1 on device 4, first half: from the state between the layers to the point where the device has enqueued its
    seven reduce copies of layer 1 and read its own chunk.

    The device goes through the four groups of 128 rows in order. For a group it first waits for the rows of the first
    activation that the two devices owning them gathered into its buffer (its own rows it holds already): each wait is
    the one duty of a gather-receive cell of layer 0, and hands over the chunk holding the sender's reduced rows written
    over whatever it held — which is the activation on that chunk. The two chunks joined are the group the body loads;
    with the staged weights of layer 1 the body's own arithmetic makes the group of the layer's partial product, stored
    over rows of the partial-product buffer, where it agrees with the canonical partial product. Cut back into its two
    64-row chunks, each chunk is lent to the copy towards the device that reduces those rows: the copy pays duty `t` of
    the device's reduce-send cell and the one duty of the target's reduce-receive cell, settles what the device owed
    that cell, and earns the credit for a later wait on the send cell. The device's own chunk stays; it is read at the
    end, as the accumulation's first term. What is left is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 3, 5, 6, 7]

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- Layer 1's resources, its reduce tokens and destinations listed. -/
private theorem layerRes1_eq (c : Dev nD) : layerRes (F := F) c Tsd 1 =
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1)
      ∗ (bigSepL Tsd (fun t => iprop(∃ fd, piece t (rSlot 1 c) fullShare fd))
        ∗ bigSepL (ringF c) (fun p => iprop(∃ fd, piece p (gChunk 1 c) fullShare fd)))) := by
  unfold layerRes layerToks layerDest
  rw [if_pos (by decide), if_pos (by decide), if_pos (by decide)]

/-- The debt with the next reduce arrival last. -/
private theorem debt_peel (c t : Dev nD) (ts : List (Dev nD)) (l : Fin 3) (A B : CellTallies nD τ sig Unit) :
    owesRedL c (t :: ts) l + A + B = (owesRedL c ts l + A + B) + tallyAt (rrCell t l c) () N64 := by
  unfold owesRedL
  rw [List.map_cons, List.sum_cons]
  abel

/-- Every cell is at round 0: one cell's fact. -/
private theorem reachedAll_at (c : Dev nD) (k : CK) : reachedAll (F := F) ⊢ (reached ER (kcell c k) 0 : sProp 𝕄) := by
  unfold reachedAll
  exact allAt (fun p : Dev nD × CK => (reached ER (kcell p.1 p.2) 0 : sProp 𝕄)) c k

/-- Two functions that agree on a group of 128 rows agree on its two chunks. -/
private theorem agree_chunks {α : Type} (l : Fin 3) (g : Fin 4) (t0 t1 : Dev nD) (h0 : t0.val = 2 * g.val) (h1 : t1.val = 2 * g.val + 1)
    (w g' : S3x512x256.Idx → α) (h : ∀ i ∈ (rectGrp l g).set, w i = g' i) :
    (∀ i ∈ (rectP l t0).set, w i = g' i) ∧ (∀ i ∈ (rectP l t1).set, w i = g' i) := by
  rw [rectGrp_eq l g t0 t1 h0 h1] at h
  exact ⟨fun i hi => h i (Finset.mem_union_left _ hi), fun i hi => h i (Finset.mem_union_right _ hi)⟩

/-- A chunk of the partial-product buffer at contents that agree on its rows. -/
private theorem pChunk_congr (c : Dev nD) (l : Fin 3) (t : Dev nD) (q : PosShare TreeShare)
    {f g : Buf (Elt F) ((c : Thread nD τ).loc cc0_scratch0)} (h : ∀ i ∈ (rectP l t).set, f i = g i) :
    (piece c (pChunk l t) q f : sProp 𝕄) = piece c (pChunk l t) q g :=
  piece_congr c (pChunk l t) q fun i hi => h i ((set_pChunk l t) ▸ hi)

/-- A stored group of layer 1's partial product agrees with the canonical partial products on the group's rows. -/
private theorem stored_P1 (c : Dev nD) (g : Fin 4) (f0 : Buf (Elt F) ((c : Thread nD τ).loc cc0_scratch0)) (R : Rect S3x512x256)
    (hR : R = rectGrp 1 g) (w : R.shape.Idx → Elt F .bf16) (w' : (rectGrp 1 g).shape.Idx → Elt F .bf16) (hw : HEq w w') (hw' : w' = P1grp m c g) :
    ∀ i ∈ (rectGrp 1 g).set, View.write (Elt F) ((Memref.whole cc0_scratch0).access R) f0 w Finset.univ i = Pfun m c i := by
  subst hR
  obtain rfl := eq_of_heq hw
  subst hw'
  intro i hi
  refine write_P1grp m c g f0 _ rfl (inb_grp 1 g) i ?_
  show i ∈ ((View.whole cc0_scratch0).slice (rectGrp 1 g)).set
  rw [View.set_slice_whole]
  exact hi

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

private theorem posGr0_eq (c : Dev nD) : posGr (F := F) c Tsd 0 =
    iprop((atPos ER (grCell c 0 0) 0 ∅ 0 ∗ cred (tallyAt (grCell c 0 0) () N64)) ∗ (atPos ER (grCell c 0 1) 0 ∅ 0 ∗ cred (tallyAt (grCell c 0 1) () N64))
      ∗ (atPos ER (grCell c 0 2) 0 ∅ 0 ∗ cred (tallyAt (grCell c 0 2) () N64)) ∗ (atPos ER (grCell c 0 3) 0 ∅ 0 ∗ cred (tallyAt (grCell c 0 3) () N64))
      ∗ (atPos ER (grCell c 0 5) 0 ∅ 0 ∗ cred (tallyAt (grCell c 0 5) () N64)) ∗ (atPos ER (grCell c 0 6) 0 ∅ 0 ∗ cred (tallyAt (grCell c 0 6) () N64))
      ∗ (atPos ER (grCell c 0 7) 0 ∅ 0 ∗ cred (tallyAt (grCell c 0 7) () N64))) := rfl

private theorem posDoneGr0_eq (c : Dev nD) : posDoneGr (F := F) c Tsd 0 =
    iprop(atPos ER (grCell c 0 0) 1 ∅ 0 ∗ atPos ER (grCell c 0 1) 1 ∅ 0 ∗ atPos ER (grCell c 0 2) 1 ∅ 0 ∗ atPos ER (grCell c 0 3) 1 ∅ 0
      ∗ atPos ER (grCell c 0 5) 1 ∅ 0 ∗ atPos ER (grCell c 0 6) 1 ∅ 0 ∗ atPos ER (grCell c 0 7) 1 ∅ 0) := rfl

private theorem chunksAll0_eq (c : Dev nD) : chunksAll (F := F) c Tsd 0 =
    iprop(ex c (gChunk 0 c) ∗ ex c (gChunk 0 0) ∗ ex c (gChunk 0 1) ∗ ex c (gChunk 0 2) ∗ ex c (gChunk 0 3) ∗ ex c (gChunk 0 5)
      ∗ ex c (gChunk 0 6) ∗ ex c (gChunk 0 7)) := rfl

private theorem creds7_eq (c : Dev nD) : bigSepL Tsd (fun _ => (cred (tallyAt (rsCell c 1) () N64) : sProp 𝕄)) =
    iprop(cred (tallyAt (rsCell c 1) () N64) ∗ cred (tallyAt (rsCell c 1) () N64) ∗ cred (tallyAt (rsCell c 1) () N64) ∗ cred (tallyAt (rsCell c 1) () N64)
      ∗ cred (tallyAt (rsCell c 1) () N64) ∗ cred (tallyAt (rsCell c 1) () N64) ∗ cred (tallyAt (rsCell c 1) () N64)) := rfl

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- The eight chunks of a layer of the partial-product buffer, each held at some contents. -/
private theorem slab_ex (c : Dev nD) (l : Fin 3) (f0 : Buf (Elt F) ((c : Thread nD τ).loc cc0_scratch0)) :
    iprop(piece c (pChunk l 0) fullShare f0 ∗ piece c (pChunk l 1) fullShare f0 ∗ piece c (pChunk l 2) fullShare f0 ∗ piece c (pChunk l 3) fullShare f0
        ∗ piece c (pChunk l 4) fullShare f0 ∗ piece c (pChunk l 5) fullShare f0 ∗ piece c (pChunk l 6) fullShare f0 ∗ piece c (pChunk l 7) fullShare f0)
      ⊢ (bigSep (Finset.univ : Finset (Dev nD)) (fun t => ex (F := F) c (pChunk l t)) : sProp 𝕄) := by
  rw [bigSep_dev8]
  iintro ⟨H0, H1, H2, H3, H4, H5, H6, H7⟩
  isplitl [H0]; · iapply (ex_intro c (pChunk l 0) f0); iexact H0
  isplitl [H1]; · iapply (ex_intro c (pChunk l 1) f0); iexact H1
  isplitl [H2]; · iapply (ex_intro c (pChunk l 2) f0); iexact H2
  isplitl [H3]; · iapply (ex_intro c (pChunk l 3) f0); iexact H3
  isplitl [H4]; · iapply (ex_intro c (pChunk l 4) f0); iexact H4
  isplitl [H5]; · iapply (ex_intro c (pChunk l 5) f0); iexact H5
  isplitl [H6]; · iapply (ex_intro c (pChunk l 6) f0); iexact H6
  iapply (ex_intro c (pChunk l 7) f0); iexact H7

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; trivial
  iapply (Entails.of_eq (congrArg (fun I => pointsTo ((c : Thread nD τ).loc b) I fullShare x) (View.set_whole b)))
  iexact H

/-- Nothing is owed for a layer whose reduce copies have all been enqueued. -/
private theorem debt_done (c : Dev nD) (l : Fin 3) (A B : CellTallies nD τ sig Unit) : owesRedL c [] l + A + B = A + B := by
  unfold owesRedL
  rw [List.map_nil, List.sum_nil, zero_add]

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

private theorem zero2 : (![0, 0] : Fin 2 → ℕ) = fun _ => 0 := by funext a; fin_cases a <;> rfl

/-- A landed chunk of the gather buffer holds the activation, whatever the chunk held before. -/
private theorem grPay_canon (c s : Dev nD) (l : Fin 3) : grPay m c l s ⊢ (piece c (gChunk l s) fullShare (Gfun m c) : sProp 𝕄) := by
  unfold grPay
  iintro ⟨%fd, H⟩
  iapply (Entails.of_eq (piece_congr c (gChunk l s) fullShare (land_gather m s c l fd)))
  iexact H

theorem segB1_sound4 (c : Dev nD) (hc : c = 4) (K : GSem nD τ sig → ℕ) (Kt : (Σ' (v463 : FVec F S64x256 .f32), BitVec 32) → sProp 𝕄) :
    iprop(mid1 m K c Tsd ∗ (∀ v466, midB m K c Tsd (k0_pay14 (chunkOf (P1 m c) c)) -∗ Kt ⟨k0_pay14 (chunkOf (P1 m c) c), v466⟩))
      ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hgw0 : Scalar.cmpi .ne (Scalar.extui (Scalar.cmpi .ne (devWord c) 0#32)) 0#32 = 1#1 := (condw0_iff c).mpr hne0
  have hgw1 : Scalar.cmpi .ne (Scalar.extui (Scalar.cmpi .ne (devWord c) 1#32)) 0#32 = 1#1 := (condw1_iff c).mpr hne1
  have hgw2 : Scalar.cmpi .ne (Scalar.extui (Scalar.cmpi .ne (devWord c) 2#32)) 0#32 = 1#1 := (condw2_iff c).mpr hne2
  have hgw3 : Scalar.cmpi .ne (Scalar.extui (Scalar.cmpi .ne (devWord c) 3#32)) 0#32 = 1#1 := (condw3_iff c).mpr hne3
  have hgw4 : ¬ Scalar.cmpi .ne (Scalar.extui (Scalar.cmpi .ne (devWord c) 4#32)) 0#32 = 1#1 := fun h => (condw4_iff c).mp h hc
  have hgw5 : Scalar.cmpi .ne (Scalar.extui (Scalar.cmpi .ne (devWord c) 5#32)) 0#32 = 1#1 := (condw5_iff c).mpr hne5
  have hgw6 : Scalar.cmpi .ne (Scalar.extui (Scalar.cmpi .ne (devWord c) 6#32)) 0#32 = 1#1 := (condw6_iff c).mpr hne6
  have hgw7 : Scalar.cmpi .ne (Scalar.extui (Scalar.cmpi .ne (devWord c) 7#32)) 0#32 = 1#1 := (condw7_iff c).mpr hne7
  have hg19 : k0_cond19 c = 1#1 := (cond19_iff c).mpr hne0
  have hg20 : k0_cond20 c = 1#1 := (cond20_iff c).mpr hne1
  have hg23 : k0_cond23 c = 1#1 := (cond23_iff c).mpr hne2
  have hg24 : k0_cond24 c = 1#1 := (cond24_iff c).mpr hne3
  have hg27 : ¬ k0_cond27 c = 1#1 := fun h => (cond27_iff c).mp h hc
  have hg28 : k0_cond28 c = 1#1 := (cond28_iff c).mpr hne5
  have hg31 : k0_cond31 c = 1#1 := (cond31_iff c).mpr hne6
  have hg32 : k0_cond32 c = 1#1 := (cond32_iff c).mpr hne7
  have hAbG0 : Above 4 (owesRedL c Tsd 1 + owesRedL c Tsd 2 + owesGatL c 1) := by
    unfold owesRedL owesGatL ringF
    simp only [List.map, List.sum_cons, List.sum_nil]
    owes_above
  have hAbG1 : Above 4 (owesRedL c [2, 3, 5, 6, 7] 1 + owesRedL c Tsd 2 + owesGatL c 1) := by
    unfold owesRedL owesGatL ringF
    simp only [List.map, List.sum_cons, List.sum_nil]
    owes_above
  have hAbG2 : Above 4 (owesRedL c [5, 6, 7] 1 + owesRedL c Tsd 2 + owesGatL c 1) := by
    unfold owesRedL owesGatL ringF
    simp only [List.map, List.sum_cons, List.sum_nil]
    owes_above
  have hAbG3 : Above 4 (owesRedL c [6, 7] 1 + owesRedL c Tsd 2 + owesGatL c 1) := by
    unfold owesRedL owesGatL ringF
    simp only [List.map, List.sum_cons, List.sum_nil]
    owes_above
  unfold mid1 midB stagedIn scr
  rw [layerRes1_eq, posGr0_eq, posDoneGr0_eq, chunksAll0_eq, creds7_eq]
  simp only [bigSepL7]
  iintro ⟨⟨⟨#Hinv, #Hreach, #Hlev⟩, ⟨%W, HO⟩, ⟨⟨⟨⟨Trs1T0, Trr1T0⟩, ⟨Trs1T1, Trr1T1⟩, ⟨Trs1T2, Trr1T2⟩, ⟨Trs1T3, Trr1T3⟩, ⟨Trs1T5, Trr1T5⟩, ⟨Trs1T6, Trr1T6⟩, ⟨Trs1T7, Trr1T7⟩⟩, GTok1⟩, PRed1, ⟨PGs1, PGr1⟩, ⟨⟨⟨%fd0, Drr1T0⟩, ⟨%fd1, Drr1T1⟩, ⟨%fd2, Drr1T2⟩, ⟨%fd3, Drr1T3⟩, ⟨%fd5, Drr1T5⟩, ⟨%fd6, Drr1T6⟩, ⟨%fd7, Drr1T7⟩⟩, GDest1⟩⟩, HL2, ⟨⟨Pgr0S0, Cgr0S0⟩, ⟨Pgr0S1, Cgr0S1⟩, ⟨Pgr0S2, Cgr0S2⟩, ⟨Pgr0S3, Cgr0S3⟩, ⟨Pgr0S5, Cgr0S5⟩, ⟨Pgr0S6, Cgr0S6⟩, ⟨Pgr0S7, Cgr0S7⟩⟩, HPD0, HPrest, ⟨%f0, S0⟩, HSB0, HR1c, HR2c, G0c, G1c, HCA2, ⟨X0, X1, X2, ⟨%x3, %hx3, X3⟩, ⟨%x4, %hx4, X4⟩, X5, X6⟩, H7⟩, Hk⟩
  ihave X3 := (whole_restate c cc0_stg3_0 x3) $$ X3
  ihave X4 := (whole_restate c cc0_stg4_0 x4) $$ X4
  sl_unfold [segB1]
  sl_exec_parts
  -- the wait for device 0's rows
  ihave #Igr0S0 := (invsAll_at m K c (.gr 0 0)) $$ Hinv
  ihave #Mgr0S0 := (mayWait_gr (F := F) c 0 0 (owesRedL c Tsd 1 + owesRedL c Tsd 2 + owesGatL c 1) hAbG0) $$ Hlev
  iapply (wp_gat_recv m 𝒱₀ c 0 0 (by decide) hne0.symm (K (grCell c 0 0)) (sem_gr0_0 _) (gChunk_credit 0 0)) $$ [Cgr0S0 HO Pgr0S0]
  · isplitr; · iexact Igr0S0
    isplitl [Cgr0S0]; · iexact Cgr0S0
    isplitl [HO]; · iexact HO
    isplitr; · iexact Mgr0S0
    iexact Pgr0S0
  iintro ⟨HO, Dgr0S0, #Rgr0S0, Ygr0S0⟩
  sl_exec_parts
  -- the wait for device 1's rows
  ihave #Igr0S1 := (invsAll_at m K c (.gr 0 1)) $$ Hinv
  ihave #Mgr0S1 := (mayWait_gr (F := F) c 0 1 (owesRedL c Tsd 1 + owesRedL c Tsd 2 + owesGatL c 1) hAbG0) $$ Hlev
  iapply (wp_gat_recv m 𝒱₀ c 1 0 (by decide) hne1.symm (K (grCell c 0 1)) (sem_gr0_1 _) (gChunk_credit 0 1)) $$ [Cgr0S1 HO Pgr0S1]
  · isplitr; · iexact Igr0S1
    isplitl [Cgr0S1]; · iexact Cgr0S1
    isplitl [HO]; · iexact HO
    isplitr; · iexact Mgr0S1
    iexact Pgr0S1
  iintro ⟨HO, Dgr0S1, #Rgr0S1, Ygr0S1⟩
  -- rows 0 … 127 of the first activation joined, and the same rows of layer 1's partial product
  ihave Ggr0S0 := (grPay_canon m c 0 0) $$ Ygr0S0
  ihave Ggr0S1 := (grPay_canon m c 1 0) $$ Ygr0S1
  ihave S0 := (whole_restate c cc0_scratch0 f0) $$ S0
  ihave S0 := (whole0_split c fullShare f0) $$ S0
  ihave S0 := (Entails.of_eq (bigSep_layers_devs (fun a => piece c (pChunk a.1 a.2) fullShare f0))) $$ S0
  icases S0 with ⟨PL0, ⟨P1T0, P1T1, P1T2, P1T3, P1T4, P1T5, P1T6, P1T7⟩, PL2⟩
  ihave GG0 := (gGroup_join c 0 0 fullShare (Gfun m c) 0 1 rfl rfl) $$ [Ggr0S0 Ggr0S1]
  · isplitl [Ggr0S0]; · iexact Ggr0S0
    iexact Ggr0S1
  ihave PG0 := (pGroup_join c 1 0 fullShare f0 0 1 rfl rfl) $$ [P1T0 P1T1]
  · isplitl [P1T0]; · iexact P1T0
    iexact P1T1
  sl_exec_parts
  -- the group stored is the canonical partial product on its rows; cut into its two chunks
  have e3 : View.readAt (Elt F) (Memref.whole cc0_stg3_0).view (Rect.unit (s := S256x512) ![0, 0] S256x512.size inb_S256x512_S256x512_0_0).toLoadRect x3 = argW m c 1 :=
    (Memref.readAt_unit_zero (Elt F) cc0_stg3_0 zero2 _ x3).trans hx3
  have e4 : View.readAt (Elt F) (Memref.whole cc0_stg4_0).view (Rect.unit (s := S512x256) ![0, 0] S512x256.size inb_S512x256_S512x256_0_0).toLoadRect x4 = argV m c 1 :=
    (Memref.readAt_unit_zero (Elt F) cc0_stg4_0 zero2 _ x4).trans hx4
  have eG0 : View.readAt (Elt F) (Memref.whole cc0_scratch2).view (Rect.unit (s := S3x512x256) ![0, 0, 0] S1x128x256.size inb_S3x512x256_S1x128x256_0_0_0).toLoadRect (Gfun m c)
      = groupOf (G0 m) 0 := read_G_group m c 0 0 ![0, 0, 0] rfl _
  have hval0 : k0_pay10 (segB1_sound4.sl.r_2 m c x3 x4) = P1grp m c 0 := by
    unfold segB1_sound4.sl.r_2
    rw [e3, e4, eG0]
    rfl
  have hw0 : ∀ i ∈ (rectGrp 1 0).set, segB1_sound4.sl.PG0_w1 m c f0 x3 x4 i = Pfun m c i :=
    stored_P1 m c 0 f0 _ rfl _ _ HEq.rfl hval0
  ihave PG0 := (pGroup_split c 1 0 fullShare _ 0 1 rfl rfl) $$ PG0
  icases PG0 with ⟨P1T0, P1T1⟩
  have hw0T := agree_chunks 1 0 0 1 rfl rfl _ _ hw0
  ihave P1T0 := (Entails.of_eq (pChunk_congr c 1 0 fullShare hw0T.1)) $$ P1T0
  ihave P1T1 := (Entails.of_eq (pChunk_congr c 1 1 fullShare hw0T.2)) $$ P1T1
  ihave #Irs1 := (invsAll_at m K c (.rs 1)) $$ Hinv
  ihave #Rrs1 := (reachedAll_at c (.rs 1)) $$ Hreach
  -- the copy of chunk 0 to device 0
  ihave #Irr1T0 := (invsAll_at m K 0 (.rr 1 c)) $$ Hinv
  ihave #Rrr1T0 := (reachedAll_at 0 (.rr 1 c)) $$ Hreach
  ihave HO := (Entails.of_eq (congrArg (fun o => owes (c : Thread nD τ) o _) (debt_peel c 0 [1, 2, 3, 5, 6, 7] 1 (owesRedL c Tsd 2) (owesGatL c 1)))) $$ HO
  iapply (wp_red_send m 𝒱₀ c 0 1 hne0 (K (rsCell c 1)) (K (rrCell 0 1 c)) (dev23_eq _) (pchunk_lit1_0 _ _) (slot_off32 c _ _)
      (congrArg SemLoc.dma (sem_rs1 _)) (congrArg SemLoc.dma (sem_off31 c _)) (owesRedL c [1, 2, 3, 5, 6, 7] 1 + owesRedL c Tsd 2 + owesGatL c 1) fd0)
    $$ [P1T0 Drr1T0 HO Trs1T0 Trr1T0]
  · isplitr; · iexact Irs1
    isplitr; · iexact Irr1T0
    isplitl [P1T0]; · iexact P1T0
    isplitl [Drr1T0]; · iexact Drr1T0
    isplitl [HO]; · iexact HO
    isplitl [Trs1T0]; · iexact Trs1T0
    isplitr; · iexact Rrs1
    isplitl [Trr1T0]; · iexact Trr1T0
    iexact Rrr1T0
  iintro ⟨Crs1T0, HO⟩
  sl_exec_parts
  -- the copy of chunk 1 to device 1
  ihave #Irr1T1 := (invsAll_at m K 1 (.rr 1 c)) $$ Hinv
  ihave #Rrr1T1 := (reachedAll_at 1 (.rr 1 c)) $$ Hreach
  ihave HO := (Entails.of_eq (congrArg (fun o => owes (c : Thread nD τ) o _) (debt_peel c 1 [2, 3, 5, 6, 7] 1 (owesRedL c Tsd 2) (owesGatL c 1)))) $$ HO
  iapply (wp_red_send m 𝒱₀ c 1 1 hne1 (K (rsCell c 1)) (K (rrCell 1 1 c)) (dev24_eq _) (pchunk_lit1_1 _ _) (slot_off34 c _ _)
      (congrArg SemLoc.dma (sem_rs1 _)) (congrArg SemLoc.dma (sem_off33 c _)) (owesRedL c [2, 3, 5, 6, 7] 1 + owesRedL c Tsd 2 + owesGatL c 1) fd1)
    $$ [P1T1 Drr1T1 HO Trs1T1 Trr1T1]
  · isplitr; · iexact Irs1
    isplitr; · iexact Irr1T1
    isplitl [P1T1]; · iexact P1T1
    isplitl [Drr1T1]; · iexact Drr1T1
    isplitl [HO]; · iexact HO
    isplitl [Trs1T1]; · iexact Trs1T1
    isplitr; · iexact Rrs1
    isplitl [Trr1T1]; · iexact Trr1T1
    iexact Rrr1T1
  iintro ⟨Crs1T1, HO⟩
  sl_exec_parts
  -- the wait for device 2's rows
  ihave #Igr0S2 := (invsAll_at m K c (.gr 0 2)) $$ Hinv
  ihave #Mgr0S2 := (mayWait_gr (F := F) c 0 2 (owesRedL c [2, 3, 5, 6, 7] 1 + owesRedL c Tsd 2 + owesGatL c 1) hAbG1) $$ Hlev
  iapply (wp_gat_recv m 𝒱₀ c 2 0 (by decide) hne2.symm (K (grCell c 0 2)) (sem_gr0_2 _) (gChunk_credit 0 2)) $$ [Cgr0S2 HO Pgr0S2]
  · isplitr; · iexact Igr0S2
    isplitl [Cgr0S2]; · iexact Cgr0S2
    isplitl [HO]; · iexact HO
    isplitr; · iexact Mgr0S2
    iexact Pgr0S2
  iintro ⟨HO, Dgr0S2, #Rgr0S2, Ygr0S2⟩
  sl_exec_parts
  -- the wait for device 3's rows
  ihave #Igr0S3 := (invsAll_at m K c (.gr 0 3)) $$ Hinv
  ihave #Mgr0S3 := (mayWait_gr (F := F) c 0 3 (owesRedL c [2, 3, 5, 6, 7] 1 + owesRedL c Tsd 2 + owesGatL c 1) hAbG1) $$ Hlev
  iapply (wp_gat_recv m 𝒱₀ c 3 0 (by decide) hne3.symm (K (grCell c 0 3)) (sem_gr0_3 _) (gChunk_credit 0 3)) $$ [Cgr0S3 HO Pgr0S3]
  · isplitr; · iexact Igr0S3
    isplitl [Cgr0S3]; · iexact Cgr0S3
    isplitl [HO]; · iexact HO
    isplitr; · iexact Mgr0S3
    iexact Pgr0S3
  iintro ⟨HO, Dgr0S3, #Rgr0S3, Ygr0S3⟩
  -- rows 128 … 255 of the first activation joined, and the same rows of layer 1's partial product
  ihave Ggr0S2 := (grPay_canon m c 2 0) $$ Ygr0S2
  ihave Ggr0S3 := (grPay_canon m c 3 0) $$ Ygr0S3
  ihave GG1 := (gGroup_join c 0 1 fullShare (Gfun m c) 2 3 rfl rfl) $$ [Ggr0S2 Ggr0S3]
  · isplitl [Ggr0S2]; · iexact Ggr0S2
    iexact Ggr0S3
  ihave PG1 := (pGroup_join c 1 1 fullShare f0 2 3 rfl rfl) $$ [P1T2 P1T3]
  · isplitl [P1T2]; · iexact P1T2
    iexact P1T3
  sl_exec_parts
  -- the group stored is the canonical partial product on its rows; cut into its two chunks
  have eG1 : View.readAt (Elt F) (Memref.whole cc0_scratch2).view (Rect.unit (s := S3x512x256) ![0, 128, 0] S1x128x256.size inb_S3x512x256_S1x128x256_0_128_0).toLoadRect (Gfun m c)
      = groupOf (G0 m) 1 := read_G_group m c 0 1 ![0, 128, 0] rfl _
  have hw1 : ∀ i ∈ (rectGrp 1 1).set, segB1_sound4.sl.PG1_w1 m c f0 x3 x4 i = Pfun m c i :=
    stored_P1 m c 1 f0 _ rfl _ _ HEq.rfl (by
      unfold segB1_sound4.sl.r segB1_sound4.sl.r_1
      rw [e3, e4, eG1]
      rfl)
  ihave PG1 := (pGroup_split c 1 1 fullShare _ 2 3 rfl rfl) $$ PG1
  icases PG1 with ⟨P1T2, P1T3⟩
  have hw1T := agree_chunks 1 1 2 3 rfl rfl _ _ hw1
  ihave P1T2 := (Entails.of_eq (pChunk_congr c 1 2 fullShare hw1T.1)) $$ P1T2
  ihave P1T3 := (Entails.of_eq (pChunk_congr c 1 3 fullShare hw1T.2)) $$ P1T3
  -- the copy of chunk 2 to device 2
  ihave #Irr1T2 := (invsAll_at m K 2 (.rr 1 c)) $$ Hinv
  ihave #Rrr1T2 := (reachedAll_at 2 (.rr 1 c)) $$ Hreach
  ihave HO := (Entails.of_eq (congrArg (fun o => owes (c : Thread nD τ) o _) (debt_peel c 2 [3, 5, 6, 7] 1 (owesRedL c Tsd 2) (owesGatL c 1)))) $$ HO
  iapply (wp_red_send m 𝒱₀ c 2 1 hne2 (K (rsCell c 1)) (K (rrCell 2 1 c)) (dev25_eq _) (pchunk_lit1_2 _ _) (slot_off36 c _ _)
      (congrArg SemLoc.dma (sem_rs1 _)) (congrArg SemLoc.dma (sem_off35 c _)) (owesRedL c [3, 5, 6, 7] 1 + owesRedL c Tsd 2 + owesGatL c 1) fd2)
    $$ [P1T2 Drr1T2 HO Trs1T2 Trr1T2]
  · isplitr; · iexact Irs1
    isplitr; · iexact Irr1T2
    isplitl [P1T2]; · iexact P1T2
    isplitl [Drr1T2]; · iexact Drr1T2
    isplitl [HO]; · iexact HO
    isplitl [Trs1T2]; · iexact Trs1T2
    isplitr; · iexact Rrs1
    isplitl [Trr1T2]; · iexact Trr1T2
    iexact Rrr1T2
  iintro ⟨Crs1T2, HO⟩
  sl_exec_parts
  -- the copy of chunk 3 to device 3
  ihave #Irr1T3 := (invsAll_at m K 3 (.rr 1 c)) $$ Hinv
  ihave #Rrr1T3 := (reachedAll_at 3 (.rr 1 c)) $$ Hreach
  ihave HO := (Entails.of_eq (congrArg (fun o => owes (c : Thread nD τ) o _) (debt_peel c 3 [5, 6, 7] 1 (owesRedL c Tsd 2) (owesGatL c 1)))) $$ HO
  iapply (wp_red_send m 𝒱₀ c 3 1 hne3 (K (rsCell c 1)) (K (rrCell 3 1 c)) (dev26_eq _) (pchunk_lit1_3 _ _) (slot_off38 c _ _)
      (congrArg SemLoc.dma (sem_rs1 _)) (congrArg SemLoc.dma (sem_off37 c _)) (owesRedL c [5, 6, 7] 1 + owesRedL c Tsd 2 + owesGatL c 1) fd3)
    $$ [P1T3 Drr1T3 HO Trs1T3 Trr1T3]
  · isplitr; · iexact Irs1
    isplitr; · iexact Irr1T3
    isplitl [P1T3]; · iexact P1T3
    isplitl [Drr1T3]; · iexact Drr1T3
    isplitl [HO]; · iexact HO
    isplitl [Trs1T3]; · iexact Trs1T3
    isplitr; · iexact Rrs1
    isplitl [Trr1T3]; · iexact Trr1T3
    iexact Rrr1T3
  iintro ⟨Crs1T3, HO⟩
  sl_exec_parts
  -- the wait for device 5's rows
  ihave #Igr0S5 := (invsAll_at m K c (.gr 0 5)) $$ Hinv
  ihave #Mgr0S5 := (mayWait_gr (F := F) c 0 5 (owesRedL c [5, 6, 7] 1 + owesRedL c Tsd 2 + owesGatL c 1) hAbG2) $$ Hlev
  iapply (wp_gat_recv m 𝒱₀ c 5 0 (by decide) hne5.symm (K (grCell c 0 5)) (sem_gr0_5 _) (gChunk_credit 0 5)) $$ [Cgr0S5 HO Pgr0S5]
  · isplitr; · iexact Igr0S5
    isplitl [Cgr0S5]; · iexact Cgr0S5
    isplitl [HO]; · iexact HO
    isplitr; · iexact Mgr0S5
    iexact Pgr0S5
  iintro ⟨HO, Dgr0S5, #Rgr0S5, Ygr0S5⟩
  -- rows 256 … 383 of the first activation joined, and the same rows of layer 1's partial product
  ihave Ggr0S5 := (grPay_canon m c 5 0) $$ Ygr0S5
  ihave G0c := (Entails.of_eq (congrArg (fun t => (piece c (gChunk 0 t) fullShare (Gfun m c) : sProp 𝕄)) hc)) $$ G0c
  ihave GG2 := (gGroup_join c 0 2 fullShare (Gfun m c) 4 5 rfl rfl) $$ [G0c Ggr0S5]
  · isplitl [G0c]; · iexact G0c
    iexact Ggr0S5
  ihave PG2 := (pGroup_join c 1 2 fullShare f0 4 5 rfl rfl) $$ [P1T4 P1T5]
  · isplitl [P1T4]; · iexact P1T4
    iexact P1T5
  sl_exec_parts
  -- the group stored is the canonical partial product on its rows; cut into its two chunks
  have eG2 : View.readAt (Elt F) (Memref.whole cc0_scratch2).view (Rect.unit (s := S3x512x256) ![0, 256, 0] S1x128x256.size inb_S3x512x256_S1x128x256_0_256_0).toLoadRect (Gfun m c)
      = groupOf (G0 m) 2 := read_G_group m c 0 2 ![0, 256, 0] rfl _
  have hw2 : ∀ i ∈ (rectGrp 1 2).set, segB1_sound4.sl.PG2_w1 m c f0 x3 x4 i = Pfun m c i :=
    stored_P1 m c 2 f0 _ rfl _ _ HEq.rfl (by
      unfold segB1_sound4.sl.r segB1_sound4.sl.r_1
      rw [e3, e4, eG2]
      rfl)
  ihave PG2 := (pGroup_split c 1 2 fullShare _ 4 5 rfl rfl) $$ PG2
  icases PG2 with ⟨P1T4, P1T5⟩
  have hw2T := agree_chunks 1 2 4 5 rfl rfl _ _ hw2
  ihave P1T4 := (Entails.of_eq (pChunk_congr c 1 4 fullShare hw2T.1)) $$ P1T4
  ihave P1T5 := (Entails.of_eq (pChunk_congr c 1 5 fullShare hw2T.2)) $$ P1T5
  -- the copy of chunk 5 to device 5
  ihave #Irr1T5 := (invsAll_at m K 5 (.rr 1 c)) $$ Hinv
  ihave #Rrr1T5 := (reachedAll_at 5 (.rr 1 c)) $$ Hreach
  ihave HO := (Entails.of_eq (congrArg (fun o => owes (c : Thread nD τ) o _) (debt_peel c 5 [6, 7] 1 (owesRedL c Tsd 2) (owesGatL c 1)))) $$ HO
  iapply (wp_red_send m 𝒱₀ c 5 1 hne5 (K (rsCell c 1)) (K (rrCell 5 1 c)) (dev28_eq _) (pchunk_lit1_5 _ _) (slot_off42 c _ _)
      (congrArg SemLoc.dma (sem_rs1 _)) (congrArg SemLoc.dma (sem_off41 c _)) (owesRedL c [6, 7] 1 + owesRedL c Tsd 2 + owesGatL c 1) fd5)
    $$ [P1T5 Drr1T5 HO Trs1T5 Trr1T5]
  · isplitr; · iexact Irs1
    isplitr; · iexact Irr1T5
    isplitl [P1T5]; · iexact P1T5
    isplitl [Drr1T5]; · iexact Drr1T5
    isplitl [HO]; · iexact HO
    isplitl [Trs1T5]; · iexact Trs1T5
    isplitr; · iexact Rrs1
    isplitl [Trr1T5]; · iexact Trr1T5
    iexact Rrr1T5
  iintro ⟨Crs1T5, HO⟩
  sl_exec_parts
  -- the wait for device 6's rows
  ihave #Igr0S6 := (invsAll_at m K c (.gr 0 6)) $$ Hinv
  ihave #Mgr0S6 := (mayWait_gr (F := F) c 0 6 (owesRedL c [6, 7] 1 + owesRedL c Tsd 2 + owesGatL c 1) hAbG3) $$ Hlev
  iapply (wp_gat_recv m 𝒱₀ c 6 0 (by decide) hne6.symm (K (grCell c 0 6)) (sem_gr0_6 _) (gChunk_credit 0 6)) $$ [Cgr0S6 HO Pgr0S6]
  · isplitr; · iexact Igr0S6
    isplitl [Cgr0S6]; · iexact Cgr0S6
    isplitl [HO]; · iexact HO
    isplitr; · iexact Mgr0S6
    iexact Pgr0S6
  iintro ⟨HO, Dgr0S6, #Rgr0S6, Ygr0S6⟩
  sl_exec_parts
  -- the wait for device 7's rows
  ihave #Igr0S7 := (invsAll_at m K c (.gr 0 7)) $$ Hinv
  ihave #Mgr0S7 := (mayWait_gr (F := F) c 0 7 (owesRedL c [6, 7] 1 + owesRedL c Tsd 2 + owesGatL c 1) hAbG3) $$ Hlev
  iapply (wp_gat_recv m 𝒱₀ c 7 0 (by decide) hne7.symm (K (grCell c 0 7)) (sem_gr0_7 _) (gChunk_credit 0 7)) $$ [Cgr0S7 HO Pgr0S7]
  · isplitr; · iexact Igr0S7
    isplitl [Cgr0S7]; · iexact Cgr0S7
    isplitl [HO]; · iexact HO
    isplitr; · iexact Mgr0S7
    iexact Pgr0S7
  iintro ⟨HO, Dgr0S7, #Rgr0S7, Ygr0S7⟩
  -- rows 384 … 511 of the first activation joined, and the same rows of layer 1's partial product
  ihave Ggr0S6 := (grPay_canon m c 6 0) $$ Ygr0S6
  ihave Ggr0S7 := (grPay_canon m c 7 0) $$ Ygr0S7
  ihave GG3 := (gGroup_join c 0 3 fullShare (Gfun m c) 6 7 rfl rfl) $$ [Ggr0S6 Ggr0S7]
  · isplitl [Ggr0S6]; · iexact Ggr0S6
    iexact Ggr0S7
  ihave PG3 := (pGroup_join c 1 3 fullShare f0 6 7 rfl rfl) $$ [P1T6 P1T7]
  · isplitl [P1T6]; · iexact P1T6
    iexact P1T7
  sl_exec_parts
  -- the group stored is the canonical partial product on its rows; cut into its two chunks
  have eG3 : View.readAt (Elt F) (Memref.whole cc0_scratch2).view (Rect.unit (s := S3x512x256) ![0, 384, 0] S1x128x256.size inb_S3x512x256_S1x128x256_0_384_0).toLoadRect (Gfun m c)
      = groupOf (G0 m) 3 := read_G_group m c 0 3 ![0, 384, 0] rfl _
  have hw3 : ∀ i ∈ (rectGrp 1 3).set, segB1_sound4.sl.PG3_w1 m c f0 x3 x4 i = Pfun m c i :=
    stored_P1 m c 3 f0 _ rfl _ _ HEq.rfl (by
      unfold segB1_sound4.sl.r segB1_sound4.sl.r_1
      rw [e3, e4, eG3]
      rfl)
  ihave PG3 := (pGroup_split c 1 3 fullShare _ 6 7 rfl rfl) $$ PG3
  icases PG3 with ⟨P1T6, P1T7⟩
  have hw3T := agree_chunks 1 3 6 7 rfl rfl _ _ hw3
  ihave P1T6 := (Entails.of_eq (pChunk_congr c 1 6 fullShare hw3T.1)) $$ P1T6
  ihave P1T7 := (Entails.of_eq (pChunk_congr c 1 7 fullShare hw3T.2)) $$ P1T7
  -- the copy of chunk 6 to device 6
  ihave #Irr1T6 := (invsAll_at m K 6 (.rr 1 c)) $$ Hinv
  ihave #Rrr1T6 := (reachedAll_at 6 (.rr 1 c)) $$ Hreach
  ihave HO := (Entails.of_eq (congrArg (fun o => owes (c : Thread nD τ) o _) (debt_peel c 6 [7] 1 (owesRedL c Tsd 2) (owesGatL c 1)))) $$ HO
  iapply (wp_red_send m 𝒱₀ c 6 1 hne6 (K (rsCell c 1)) (K (rrCell 6 1 c)) (dev29_eq _) (pchunk_lit1_6 _ _) (slot_off44 c _ _)
      (congrArg SemLoc.dma (sem_rs1 _)) (congrArg SemLoc.dma (sem_off43 c _)) (owesRedL c [7] 1 + owesRedL c Tsd 2 + owesGatL c 1) fd6)
    $$ [P1T6 Drr1T6 HO Trs1T6 Trr1T6]
  · isplitr; · iexact Irs1
    isplitr; · iexact Irr1T6
    isplitl [P1T6]; · iexact P1T6
    isplitl [Drr1T6]; · iexact Drr1T6
    isplitl [HO]; · iexact HO
    isplitl [Trs1T6]; · iexact Trs1T6
    isplitr; · iexact Rrs1
    isplitl [Trr1T6]; · iexact Trr1T6
    iexact Rrr1T6
  iintro ⟨Crs1T6, HO⟩
  sl_exec_parts
  -- the copy of chunk 7 to device 7
  ihave #Irr1T7 := (invsAll_at m K 7 (.rr 1 c)) $$ Hinv
  ihave #Rrr1T7 := (reachedAll_at 7 (.rr 1 c)) $$ Hreach
  ihave HO := (Entails.of_eq (congrArg (fun o => owes (c : Thread nD τ) o _) (debt_peel c 7 [] 1 (owesRedL c Tsd 2) (owesGatL c 1)))) $$ HO
  iapply (wp_red_send m 𝒱₀ c 7 1 hne7 (K (rsCell c 1)) (K (rrCell 7 1 c)) (dev30_eq _) (pchunk_lit1_7 _ _) (slot_off46 c _ _)
      (congrArg SemLoc.dma (sem_rs1 _)) (congrArg SemLoc.dma (sem_off45 c _)) (owesRedL c [] 1 + owesRedL c Tsd 2 + owesGatL c 1) fd7)
    $$ [P1T7 Drr1T7 HO Trs1T7 Trr1T7]
  · isplitr; · iexact Irs1
    isplitr; · iexact Irr1T7
    isplitl [P1T7]; · iexact P1T7
    isplitl [Drr1T7]; · iexact Drr1T7
    isplitl [HO]; · iexact HO
    isplitl [Trs1T7]; · iexact Trs1T7
    isplitr; · iexact Rrs1
    isplitl [Trr1T7]; · iexact Trr1T7
    iexact Rrr1T7
  iintro ⟨Crs1T7, HO⟩
  ihave P1T4 := (Entails.of_eq (congrArg (fun t => (piece c (pChunk 1 t) fullShare (Pfun m c) : sProp 𝕄)) hc.symm)) $$ P1T4
  ihave P1own := (Entails.of_eq (pRows_eq c 1 c fullShare (Pfun m c)).symm) $$ P1T4
  sl_exec_parts
  have eOwn : View.readAt (Elt F) (Memref.whole cc0_scratch0).view (Rect.unit (s := S3x512x256) (k0_off47 c) S1x64x256.size (k0_off47_inb c)).toLoadRect (Pfun m c)
      = chunkOf (P1 m c) c := read_P_chunk m c 1 c (k0_off47 c) (k0_off47_eq c) _
  iapply (ret_intro _ Kt c)
  iapply (Entails.of_eq (congrArg (fun x => (Kt ⟨k0_pay14 x, segB1_sound4.sl.v466 c⟩ : sProp 𝕄)) eOwn.symm))
  ihave GG0 := (gGroup_split c 0 0 fullShare (Gfun m c) 0 1 rfl rfl) $$ GG0
  icases GG0 with ⟨G0T0, G0T1⟩
  ihave GG1 := (gGroup_split c 0 1 fullShare (Gfun m c) 2 3 rfl rfl) $$ GG1
  icases GG1 with ⟨G0T2, G0T3⟩
  ihave GG2 := (gGroup_split c 0 2 fullShare (Gfun m c) 4 5 rfl rfl) $$ GG2
  icases GG2 with ⟨G0T4, G0T5⟩
  ihave GG3 := (gGroup_split c 0 3 fullShare (Gfun m c) 6 7 rfl rfl) $$ GG3
  icases GG3 with ⟨G0T6, G0T7⟩
  ihave G0T4 := (Entails.of_eq (congrArg (fun t => (piece c (gChunk 0 t) fullShare (Gfun m c) : sProp 𝕄)) hc.symm)) $$ G0T4
  ihave P1own := (Entails.of_eq (pRows_eq c 1 c fullShare (Pfun m c))) $$ P1own
  ihave X3 := (stg_of_whole c cc0_stg3_0 (argW m c 1) x3 hx3) $$ X3
  ihave X4 := (stg_of_whole c cc0_stg4_0 (argV m c 1) x4 hx4) $$ X4
  ihave HO := (Entails.of_eq (congrArg (fun o => owes (c : Thread nD τ) o _) (debt_done c 1 (owesRedL c Tsd 2) (owesGatL c 1)))) $$ HO
  iapply Hk
  isplitr
  · isplitr; · iexact Hinv
    isplitr; · iexact Hreach
    iexact Hlev
  isplitr; · ipureintro; trivial
  isplitl [HO]; · iexists _; iexact HO
  isplitl [GTok1]; · iexact GTok1
  isplitl [GDest1]; · iexact GDest1
  isplitl [PRed1]; · iexact PRed1
  isplitl [PGs1]; · iexact PGs1
  isplitl [PGr1]; · iexact PGr1
  isplitl [Crs1T0 Crs1T1 Crs1T2 Crs1T3 Crs1T5 Crs1T6 Crs1T7]
  · isplitl [Crs1T0]; · iexact Crs1T0
    isplitl [Crs1T1]; · iexact Crs1T1
    isplitl [Crs1T2]; · iexact Crs1T2
    isplitl [Crs1T3]; · iexact Crs1T3
    isplitl [Crs1T5]; · iexact Crs1T5
    isplitl [Crs1T6]; · iexact Crs1T6
    iexact Crs1T7
  isplitl [HL2]; · iexact HL2
  isplitl [HPD0]; · iexact HPD0
  isplitl [Dgr0S0 Dgr0S1 Dgr0S2 Dgr0S3 Dgr0S5 Dgr0S6 Dgr0S7]
  · isplitl [Dgr0S0]; · iexact Dgr0S0
    isplitl [Dgr0S1]; · iexact Dgr0S1
    isplitl [Dgr0S2]; · iexact Dgr0S2
    isplitl [Dgr0S3]; · iexact Dgr0S3
    isplitl [Dgr0S5]; · iexact Dgr0S5
    isplitl [Dgr0S6]; · iexact Dgr0S6
    iexact Dgr0S7
  isplitl [HPrest]; · iexact HPrest
  isplitl [PL0]; · iapply (slab_ex c 0 f0); iexact PL0
  isplitl [P1own]; · iapply (ex_intro c (pChunk 1 c) (Pfun m c)); iexact P1own
  isplitl [PL2]; · iapply (slab_ex c 2 f0); iexact PL2
  isplitl [HSB0]; · iexact HSB0
  isplitl [HR1c]; · iexact HR1c
  isplitl [HR2c]; · iexact HR2c
  isplitl [G0T0 G0T1 G0T2 G0T3 G0T4 G0T5 G0T6 G0T7]
  · isplitl [G0T4]; · iapply (ex_intro c (gChunk 0 c) (Gfun m c)); iexact G0T4
    isplitl [G0T0]; · iapply (ex_intro c (gChunk 0 0) (Gfun m c)); iexact G0T0
    isplitl [G0T1]; · iapply (ex_intro c (gChunk 0 1) (Gfun m c)); iexact G0T1
    isplitl [G0T2]; · iapply (ex_intro c (gChunk 0 2) (Gfun m c)); iexact G0T2
    isplitl [G0T3]; · iapply (ex_intro c (gChunk 0 3) (Gfun m c)); iexact G0T3
    isplitl [G0T5]; · iapply (ex_intro c (gChunk 0 5) (Gfun m c)); iexact G0T5
    isplitl [G0T6]; · iapply (ex_intro c (gChunk 0 6) (Gfun m c)); iexact G0T6
    iapply (ex_intro c (gChunk 0 7) (Gfun m c)); iexact G0T7
  isplitl [G1c]; · iexact G1c
  isplitl [HCA2]; · iexact HCA2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segB1_sound4' depends on axioms: [propext, Classical.choice, Quot.sound] -/
#guard_msgs in #print axioms segB1_sound4

end Cert.KernelProof

end
-- ==== Proof.K.BodySegB2_d4.lean ====
import proofs.«900993_g7700000000000994_dist_mlpseq_tp1d_rep_bs_b512_d256_h512_v7x_i8_bf16_1_alg».proof.Proof.K.BodySegBCut
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 1 on the device at position 4: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound4 (c : Dev nD) (hc : c = 4) (K : GSem nD τ sig → ℕ) (Kt : PUnit → sProp 𝕄) (v463 : FVec F S64x256 .f32) (v466 : BitVec 32) :
    iprop(midB m K c [(0 : Dev nD), 1, 2, 3, 5, 6, 7] v463 ∗ (mid2 m K c [(0 : Dev nD), 1, 2, 3, 5, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : ¬ k0_cond37 c = 1#1 := fun h => (cond37_iff c).mp h hc
  have hg38 : k0_cond38 c = 1#1 := (cond38_iff c).mpr (by rw [hc]; decide)
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 2, 3, 5, 6, 7] 2) := by
    unfold owesRedL
    simp only [List.map_cons, List.map_nil, List.sum_cons, List.sum_nil]
    owes_above
  have hdebt : owesRedL c [(0 : Dev nD), 1, 2, 3, 5, 6, 7] 2 + owesGatL c 1
      = owesRedL c [(0 : Dev nD), 1, 2, 3, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 3, 5, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound4.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound4.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound4.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound4.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound4.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound4.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound4.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound4.sl.r_2 m c a1 a2 a3 a4 a5 a6) (segB2_sound4.sl.v572 m c a7) = red1 m c := by
    intro a1 a2 a3 a4 a5 a6 a7
    unfold segB2_sound4.sl.r_2 segB2_sound4.sl.r_1 segB2_sound4.sl.r
    rw [e476, e492, e508, e524, e540, e556, e572]
    rfl
  have hG1 : ∀ i ∈ (gChunk 1 c).view.set, segB2_sound4.sl.G1c_w1 m c g1 fs1 fs2 fs3 fs4 fs5 fs6 fs7 i = Gfun m c i := by
    intro i hi
    unfold segB2_sound4.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelProof.segB2_sound4' depends on axioms: [propext, Classical.choice, Quot.sound] -/
#guard_msgs in #print axioms segB2_sound4

end Cert.KernelProof

end
-- ==== Proof.K.BodySegC1_d4.lean ====
import proofs.«900993_g7700000000000994_dist_mlpseq_tp1d_rep_bs_b512_d256_h512_v7x_i8_bf16_1_alg».proof.Proof.K.BodySegC1Lib
import Idealize.ShloMosaic.Lib.Tactic

/-! The first half of layer 2 on the device at position 4: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 4 owes for layer 2, the summands in the reverse of the order its sends pay them. -/
theorem owesRedL_rev_d4 (c : Dev nD) :
    owesRedL c [(0 : Dev nD), 1, 2, 3, 5, 6, 7] 2 = 0 + T2 c 7 + T2 c 6 + T2 c 5 + T2 c 3 + T2 c 2 + T2 c 1 + T2 c 0 := by
  unfold owesRedL T2
  simp only [List.map, List.sum_cons, List.sum_nil]
  abel

theorem segC1_sound4 (c : Dev nD) (hc : c = 4) (K : GSem nD τ sig → ℕ) (Kt : PUnit → sProp 𝕄) :
    iprop(mid2 m K c [(0 : Dev nD), 1, 2, 3, 5, 6, 7] ∗ (mid3 m K c [(0 : Dev nD), 1, 2, 3, 5, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne5 : c ≠ (5 : Dev nD) := by rw [hc]; decide
  have hne6 : c ≠ (6 : Dev nD) := by rw [hc]; decide
  have hne7 : c ≠ (7 : Dev nD) := by rw [hc]; decide
  have hw0 := (condw0_iff c).mpr hne0
  have hw1 := (condw1_iff c).mpr hne1
  have hw2 := (condw2_iff c).mpr hne2
  have hw3 := (condw3_iff c).mpr hne3
  have hw4 : ¬ _ := fun h => (condw4_iff c).mp h hc
  have hw5 := (condw5_iff c).mpr hne5
  have hw6 := (condw6_iff c).mpr hne6
  have hw7 := (condw7_iff c).mpr hne7
  have hg43 : k0_cond43 c = 1#1 := (cond43_iff c).mpr hne0
  have hg44 : k0_cond44 c = 1#1 := (cond44_iff c).mpr hne1
  have hg47 : k0_cond47 c = 1#1 := (cond47_iff c).mpr hne2
  have hg48 : k0_cond48 c = 1#1 := (cond48_iff c).mpr hne3
  have hg51 : ¬ k0_cond51 c = 1#1 := fun h => (cond51_iff c).mp h hc
  have hg52 : k0_cond52 c = 1#1 := (cond52_iff c).mpr hne5
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts3, Tr3⟩, ⟨Ts5, Tr5⟩, ⟨Ts6, Tr6⟩, ⟨Ts7, Tr7⟩⟩, -⟩, HposRed2, -, Hdest⟩, ⟨⟨Pg0, Cg0⟩, ⟨Pg1, Cg1⟩, ⟨Pg2, Cg2⟩, ⟨Pg3, Cg3⟩, ⟨Pg5, Cg5⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d4 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 5 + T2 c 3 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 6 + T2 c 5 + T2 c 3 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound4.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 5 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 6 + T2 c 5 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound4.sl.PG1_w1 segC1_sound4.sl.r segC1_sound4.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 5's rows of the second activation
  ihave Ig := (invsAll_at m K c (.gr 1 5)) $$ Hinv
  ihave Hmw := (mayWait_gr (F := F) c 1 5 (0 + T2 c 7 + T2 c 6 + T2 c 5) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  -- the device's own rows are chunk 4 of the group
  ihave Gc4 := (Entails.of_eq (congrArg (fun t : Dev nD => (piece c (gChunk 1 t) fullShare (Gfun m c) : sProp 𝕄)) hc)) $$ Hg1c
  ihave GG2 := (gGroup_join c 1 2 fullShare (Gfun m c) 4 5 rfl rfl) $$ [Gc4 Gc5]
  · isplitl [Gc4] <;> iassumption
  sl_exec
  -- group 2 of layer 2 now holds the device's partial product
  unfold segC1_sound4.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound4.sl.PG3_w1 segC1_sound4.sl.r_2 segC1_sound4.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs3 Cs5 Cs6 Cs7]
  · rw [sepL7]
    isplitl [Cs0]; · iexact Cs0
    isplitl [Cs1]; · iexact Cs1
    isplitl [Cs2]; · iexact Cs2
    isplitl [Cs3]; · iexact Cs3
    isplitl [Cs5]; · iexact Cs5
    isplitl [Cs6]; · iexact Cs6
    iexact Cs7
  isplitl [Hpd0]; · iexact Hpd0
  isplitl [Hpd1]; · iexact Hpd1
  isplitl [HpdG0]; · iexact HpdG0
  isplitl [Pg0 Pg1 Pg2 Pg3 Pg5 Pg6 Pg7]
  · rw [sepL7]
    isplitl [Pg0]; · iexact Pg0
    isplitl [Pg1]; · iexact Pg1
    isplitl [Pg2]; · iexact Pg2
    isplitl [Pg3]; · iexact Pg3
    isplitl [Pg5]; · iexact Pg5
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A04]
    · iapply (Entails.of_eq (congrArg (fun t : Dev nD => (ex (F := F) c (pChunk 0 t) : sProp 𝕄)) hc.symm))
      iapply (ex_of c (pChunk 0 4) _); iexact A04
    isplitl [A00]; · iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A05]; · iapply (ex_of c (pChunk 0 5) _); iexact A05
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A14]
    · iapply (Entails.of_eq (congrArg (fun t : Dev nD => (ex (F := F) c (pChunk 1 t) : sProp 𝕄)) hc.symm))
      iapply (ex_of c (pChunk 1 4) _); iexact A14
    isplitl [A10]; · iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A15]; · iapply (ex_of c (pChunk 1 5) _); iexact A15
    isplitl [A16]; · iapply (ex_of c (pChunk 1 6) _); iexact A16
    iapply (ex_of c (pChunk 1 7) _); iexact A17
  -- the device's own chunk of layer 2, holding its partial product
  isplitl [B24]
  · iapply (Entails.of_eq (congrArg (fun t : Dev nD => (piece c (pChunk 2 t) fullShare (Pfun m c) : sProp 𝕄)) hc.symm)); iexact B24
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G14]
    · iapply (Entails.of_eq (congrArg (fun t : Dev nD => (ex (F := F) c (gChunk 1 t) : sProp 𝕄)) hc.symm))
      iapply (ex_of c (gChunk 1 4) _); iexact G14
    isplitl [G10]; · iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G15]; · iapply (ex_of c (gChunk 1 5) _); iexact G15
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelProof.segC1_sound4' depends on axioms: [propext, Classical.choice, Quot.sound] -/
#guard_msgs in #print axioms segC1_sound4

end Cert.KernelProof

end
-- ==== Proof.K.BodySegC2_d4.lean ====
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.BodyExit
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 2 on the device at position 4: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound4 (c : Dev nD) (hc : c = 4) (K : GSem nD τ sig → ℕ) (Kt : PUnit → sProp 𝕄) :
    iprop(mid3 m K c [(0 : Dev nD), 1, 2, 3, 5, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 3, 5, 6, 7]).toFinset := by subst hc; decide
  have hnd : ([(0 : Dev nD), 1, 2, 3, 5, 6, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : ¬ k0_cond61 c = 1#1 := fun h => (cond61_iff c).mp h hc
  have hg62 : k0_cond62 c = 1#1 := (cond62_iff c).mpr (by rw [hc]; decide)
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound4.sl.v846 m c : Vec F S1x64x256 .bf16) = chunkOf (P2 m c) c := own_chunk_read m c _
  have e861 : ∀ a, (segC2_sound4.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound4.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound4.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound4.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound4.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound4.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound4.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound4.sl.r_3 m c a1 a2 a3 a4 a5 a6) (segC2_sound4.sl.v957 m c a7) = red2 m c := by
    intro a1 a2 a3 a4 a5 a6 a7
    unfold segC2_sound4.sl.r_3 segC2_sound4.sl.r_2 segC2_sound4.sl.r_1 segC2_sound4.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound4.sl.r_3 m c fs1 fs2 fs3 fs4 fs5 fs6) (segC2_sound4.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelProof.segC2_sound4' depends on axioms: [propext, Classical.choice, Quot.sound] -/
#guard_msgs in #print axioms segC2_sound4

end Cert.KernelProof

end
-- ==== Proof.K.BodySegA1a_d5.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.PreludeDevs
import proofs.«900993_g7700000000000994_dist_mlpseq_tp1d_rep_bs_b512_d256_h512_v7x_i8_bf16_1_alg».proof.Proof.K.StepsEntry
import Idealize.ShloMosaic.Lib.Tactic

/-! The entry and layer 0 on device 5, first half: from the body's start to the point where the device has enqueued its
    seven reduce copies of layer 0 and read its own chunk.

    The device signals its seven peers along the ring, one unit to each barrier cell: each signal pays the device's
    duty at that cell and hands the peer the pieces of the device's buffers the peer's copies will land in. It waits for
    the seven signals to itself, the whole round of its barrier cell, and receives in turn the pieces of its peers'
    buffers its own copies land in. It then makes layer 0's partial product from the staged arguments by the body's own
    arithmetic and stores it over layer 0 of the partial-product buffer, which from then on holds the canonical partial
    product there; cut into 64-row chunks, each chunk but the device's own is lent to the copy towards the device that
    reduces those rows, which pays duty `t` of the device's reduce-send cell and the one duty of the target's
    reduce-receive cell, settles what the device owed that cell, and earns the credit for a later wait on the send
    cell. The own chunk is read last, as the accumulation's first term. What the device holds then — the tokens,
    positions and credit of everything still to come, regrouped layer by layer — is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 3, 4, 6, 7]

/-- A step rule stated with its continuation as a wand, read with the continuation as a second conjunct. -/
private theorem step_uncurry {P R G : sProp 𝕄} (h : P ⊢ iprop(R -∗ G)) : iprop(P ∗ R) ⊢ G := by
  iintro ⟨HP, HR⟩
  iapply (h) $$ [HP]
  · iexact HP
  iexact HR

/-- The start holds every cell's invariant and round-0 fact for good. -/
private theorem pre_dup (K : GSem nD τ sig → ℕ) (c : Dev nD) : bodyPre m K c ⊢ iprop((invsAll m K ∗ reachedAll (F := F)) ∗ bodyPre m K c) := by
  unfold bodyPre ghost
  iintro ⟨⟨⟨#HI, #HR, HP, HT⟩, HC, Hlev, S0, S1, S2⟩, HO, Hstg⟩
  isplitr
  · isplitr; · iexact HI
    iexact HR
  isplitl [HP HT HC Hlev S0 S1 S2]
  · isplitl [HP HT]
    · isplitr; · iexact HI
      isplitr; · iexact HR
      isplitl [HP]; · iexact HP
      iexact HT
    isplitl [HC]; · iexact HC
    isplitl [Hlev]; · iexact Hlev
    isplitl [S0]; · iexact S0
    isplitl [S1]; · iexact S1
    iexact S2
  isplitl [HO]; · iexact HO
  iexact Hstg

/-- Two chains of seven, term by term. -/
private theorem zip7 {M : Type} [URA M] (a1 a2 a3 a4 a5 a6 a7 b1 b2 b3 b4 b5 b6 b7 : sProp M) :
    iprop((a1 ∗ a2 ∗ a3 ∗ a4 ∗ a5 ∗ a6 ∗ a7) ∗ (b1 ∗ b2 ∗ b3 ∗ b4 ∗ b5 ∗ b6 ∗ b7))
      ⊢ iprop((a1 ∗ b1) ∗ (a2 ∗ b2) ∗ (a3 ∗ b3) ∗ (a4 ∗ b4) ∗ (a5 ∗ b5) ∗ (a6 ∗ b6) ∗ (a7 ∗ b7)) := by
  iintro ⟨⟨A1, A2, A3, A4, A5, A6, A7⟩, ⟨B1, B2, B3, B4, B5, B6, B7⟩⟩
  isplitl [A1 B1]; · isplitl [A1]; · iexact A1
                     iexact B1
  isplitl [A2 B2]; · isplitl [A2]; · iexact A2
                     iexact B2
  isplitl [A3 B3]; · isplitl [A3]; · iexact A3
                     iexact B3
  isplitl [A4 B4]; · isplitl [A4]; · iexact A4
                     iexact B4
  isplitl [A5 B5]; · isplitl [A5]; · iexact A5
                     iexact B5
  isplitl [A6 B6]; · isplitl [A6]; · iexact A6
                     iexact B6
  isplitl [A7]; · iexact A7
  iexact B7

/-- What the seven entry signals heard hand the device, sorted by the layer whose copies land in it. -/
private theorem barPays_fold (c : Dev nD) (Ts : List (Dev nD)) (hTs : peers c = Ts.toFinset) (hnd : Ts.Nodup) :
    bigSep (peers c) (fun p => barPay (F := F) c p) ⊢ iprop(layerDest c Ts 0 ∗ layerDest c Ts 1 ∗ layerDest c Ts 2) := by
  unfold barPay layerDest
  simp only [bigSep_sep']
  rw [if_pos (show (0 : Fin 3).val < 2 by decide), if_pos (show (1 : Fin 3).val < 2 by decide), if_neg (show ¬ (2 : Fin 3).val < 2 by decide)]
  rw [bigSep_eq_bigSepL_of_eq Ts hTs hnd (fun p => iprop(∃ f, piece p (rSlot 0 c) fullShare f)),
    bigSep_eq_bigSepL_of_eq Ts hTs hnd (fun p => iprop(∃ f, piece p (rSlot 1 c) fullShare f)),
    bigSep_eq_bigSepL_of_eq Ts hTs hnd (fun p => iprop(∃ f, piece p (rSlot 2 c) fullShare f)),
    bigSep_eq_bigSepL_of_eq (ringF c) (peers_eq_fwd c) (fwd_nodup c) (fun p => iprop(∃ f, piece p (gChunk 0 c) fullShare f)),
    bigSep_eq_bigSepL_of_eq (ringF c) (peers_eq_fwd c) (fwd_nodup c) (fun p => iprop(∃ f, piece p (gChunk 1 c) fullShare f))]
  iintro ⟨A0, A1, A2, G0, G1, -⟩
  isplitl [A0 G0]; · isplitl [A0]; · iexact A0
                     iexact G0
  isplitl [A1 G1]; · isplitl [A1]; · iexact A1
                     iexact G1
  isplitl [A2]; · iexact A2
  iempintro

/-- Layer 0's destinations: the seven receive slots by target, and the gather chunks along the ring. -/
private theorem layerDest0_eq (c : Dev nD) : (layerDest (F := F) c Tsd 0 : sProp 𝕄) =
    iprop(((∃ fd, piece 0 (rSlot 0 c) fullShare fd) ∗ (∃ fd, piece 1 (rSlot 0 c) fullShare fd) ∗ (∃ fd, piece 2 (rSlot 0 c) fullShare fd) ∗ (∃ fd, piece 3 (rSlot 0 c) fullShare fd) ∗ (∃ fd, piece 4 (rSlot 0 c) fullShare fd) ∗ (∃ fd, piece 6 (rSlot 0 c) fullShare fd) ∗ (∃ fd, piece 7 (rSlot 0 c) fullShare fd))
      ∗ bigSepL (ringF c) (fun p => iprop(∃ fd, piece p (gChunk 0 c) fullShare fd))) := by
  unfold layerDest
  rw [if_pos (show (0 : Fin 3).val < 2 by decide)]
  rfl

/-- Chunk `t` of layer 0 after the store of the layer's partial product holds the canonical contents. -/
private theorem chunk0_stored (c t : Dev nD) (f0 : Buf (Elt F) ((c : Thread nD τ).loc cc0_scratch0))
    (inb : ∀ a, (![0, 0, 0] : Fin 3 → Nat) a + S1x512x256.size a ≤ S3x512x256.size a) :
    (piece c (pChunk 0 t) fullShare ((Memref.whole cc0_scratch0).view.writes (Elt F) f0
        [⟨Rect.unit (s := S3x512x256) ![0, 0, 0] S1x512x256.size inb, P0 m c⟩]) : sProp 𝕄)
      = piece c (pChunk 0 t) fullShare (Pfun m c) := by
  refine piece_congr c (pChunk 0 t) fullShare fun i hi => ?_
  refine write_P0 m c f0 ![0, 0, 0] rfl inb i ?_
  rw [set_pChunk] at hi
  have hs : i ∈ (rectSlab 0).set := by
    rw [rectSlab_eq]; exact Finset.mem_biUnion.mpr ⟨t, Finset.mem_univ _, hi⟩
  have hs' : i ∈ (pSlab 0).view.set := by rw [set_pSlab]; exact hs
  exact hs'

/-- The eight chunks of layer `l` of the partial-product buffer, each at some contents. -/
private def pLayerEx (c : Dev nD) (l : Fin 3) : sProp 𝕄 := bigSep (Finset.univ : Finset (Dev nD)) (fun t => ex (F := F) c (pChunk l t))

/-- After the store of layer 0's partial product the partial-product buffer is: its eight chunks of layer 0 holding the
    canonical contents, and the chunks of the two later layers at whatever they hold. -/
private theorem slab0_cut (c : Dev nD) (f0 : Buf (Elt F) ((c : Thread nD τ).loc cc0_scratch0))
    {a0 : Vec F S512x256 .f32} {a1 : Vec F S256x512 .f32} {a2 : Vec F S512x256 .f32}
    (h0 : a0 = argX m c) (h1 : a1 = argW m c 0) (h2 : a2 = argV m c 0)
    (inb : ∀ a, (![0, 0, 0] : Fin 3 → Nat) a + S1x512x256.size a ≤ S3x512x256.size a) :
    ((Memref.whole cc0_scratch0).view.loc (c : Thread nD τ) ↦[(Memref.whole cc0_scratch0).view.set]{fullShare}
        ((Memref.whole cc0_scratch0).view.writes (Elt F) f0 [⟨Rect.unit (s := S3x512x256) ![0, 0, 0] S1x512x256.size inb, k0_pay1 a0 a1 a2⟩]) : sProp 𝕄)
      ⊢ iprop(bigSep (Finset.univ : Finset (Dev nD)) (fun t => piece c (pChunk 0 t) fullShare (Pfun m c))
          ∗ pLayerEx c 1 ∗ pLayerEx c 2) := by
  unfold pLayerEx
  subst h0 h1 h2
  refine (whole0_split c fullShare _).trans ?_
  rw [bigSep_univ_prod, bigSep_fin3]
  exact sep_mono (Entails.of_eq (bigSep_congr fun t _ => chunk0_stored m c t f0 inb))
    (sep_mono (bigSep_mono fun t _ => piece_ex c _ _ _) (bigSep_mono fun t _ => piece_ex c _ _ _))

private theorem zero2 : (![0, 0] : Fin 2 → Nat) = fun _ => 0 := by funext a; fin_cases a <;> rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; rfl
  iapply (Entails.of_eq (congrArg (fun I => pointsTo ((c : Thread nD τ).loc b) I fullShare x) (View.set_whole b)))
  iexact H

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

/-- What is still owed once the entry signals and layer 0's reduce copies are out, and the whole debt at launch with
    those last, in the reverse of the order they are settled. -/
private abbrev restA (c : Dev nD) : CellTallies nD τ sig Unit := owesRedL c Tsd 1 + owesRedL c Tsd 2 + owesGatL c 0 + owesGatL c 1

private theorem debt_rev (c : Dev nD) : debt c 0 1 2 3 4 6 7 =
    restA c + tallyAt (rrCell 7 0 c) () N64 + tallyAt (rrCell 6 0 c) () N64 + tallyAt (rrCell 4 0 c) () N64 + tallyAt (rrCell 3 0 c) () N64 + tallyAt (rrCell 2 0 c) () N64 + tallyAt (rrCell 1 0 c) () N64 + tallyAt (rrCell 0 0 c) () N64
      + tallyAt (barCell (fwd 7 c)) () 1 + tallyAt (barCell (fwd 6 c)) () 1 + tallyAt (barCell (fwd 5 c)) () 1 + tallyAt (barCell (fwd 4 c)) () 1
      + tallyAt (barCell (fwd 3 c)) () 1 + tallyAt (barCell (fwd 2 c)) () 1 + tallyAt (barCell (fwd 1 c)) () 1 := by
  unfold debt owesBar owesRedLit owesGatA restA owesRedL owesGatL ringF
  simp only [amt_rSlot, amt_gChunk, List.map, List.sum_cons, List.sum_nil]
  abel

private theorem above_restA (c : Dev nD) : Above 1 (restA c) := by
  unfold restA owesRedL owesGatL ringF
  simp only [List.map, List.sum_cons, List.sum_nil]
  owes_above

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- Seven copies of one assertion, as the family over the literal peers. -/
private theorem creds7 (a : sProp 𝕄) : iprop(a ∗ a ∗ a ∗ a ∗ a ∗ a ∗ a) ⊢ bigSepL Tsd (fun _ => a) := .rfl

/-- Two chains along the ring forward, term by term. -/
private theorem zipF (c : Dev nD) (Φ Ψ : Dev nD → sProp 𝕄) : iprop(alongF c Φ ∗ alongF c Ψ) ⊢ bigSepL (ringF c) (fun p => iprop(Φ p ∗ Ψ p)) :=
  zip7 _ _ _ _ _ _ _ _ _ _ _ _ _ _
/-- Two chains along the ring backward, term by term. -/
private theorem zipB (c : Dev nD) (Φ Ψ : Dev nD → sProp 𝕄) : iprop(alongB c Φ ∗ alongB c Ψ) ⊢ bigSepL (ringB c) (fun p => iprop(Φ p ∗ Ψ p)) :=
  zip7 _ _ _ _ _ _ _ _ _ _ _ _ _ _
/-- Two chains over the literal peers, term by term. -/
private theorem zipT (Φ Ψ : Dev nD → sProp 𝕄) : iprop(lits5 Φ ∗ lits5 Ψ) ⊢ bigSepL Tsd (fun p => iprop(Φ p ∗ Ψ p)) :=
  zip7 _ _ _ _ _ _ _ _ _ _ _ _ _ _

/-- A layer's reduce positions from the send cell's, the receive cells' and their credit. -/
private theorem posRed_intro (c : Dev nD) (l : Fin 3) :
    iprop(atPos ER (rsCell c l) 0 ∅ 0 ∗ alongB c (fun s => (atPos ER (rrCell c l s) 0 ∅ 0 : sProp 𝕄))
      ∗ alongB c (fun s => (cred (tallyAt (rrCell c l s) () N64) : sProp 𝕄))) ⊢ (posRed (F := F) c l : sProp 𝕄) := by
  unfold posRed
  iintro ⟨A, B, C⟩
  isplitl [A]; · iexact A
  iapply (zipB c _ _)
  isplitl [B]; · iexact B
  iexact C
/-- A layer's gather-send position. -/
private theorem posGs_intro (c : Dev nD) (l : Fin 3) : (atPos ER (gsCell c l) 0 ∅ 0 : sProp 𝕄) ⊢ posGs (F := F) c l := by
  unfold posGs
  exact .rfl
/-- A layer's gather-receive positions with their credit. -/
private theorem posGr_intro (c : Dev nD) (l : Fin 3) :
    iprop(lits5 (fun s => (atPos ER (grCell c l s) 0 ∅ 0 : sProp 𝕄)) ∗ lits5 (fun s => (cred (tallyAt (grCell c l s) () N64) : sProp 𝕄)))
      ⊢ (posGr (F := F) c Tsd l : sProp 𝕄) := by
  unfold posGr
  exact zipT _ _

/-- A later layer's resources from its tokens, positions, credit and destinations. -/
private theorem layerRes1_intro (c : Dev nD) :
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1) ∗ layerDest c Tsd 1) ⊢ (layerRes (F := F) c Tsd 1 : sProp 𝕄) := by
  unfold layerRes layerToks
  rw [if_pos (show (1 : Fin 3).val < 2 by decide), if_pos (show (1 : Fin 3).val < 2 by decide)]
private theorem layerRes2_intro (c : Dev nD) :
    iprop((bigSepL Tsd (fun t => iprop(dutyTok ER (rsCell c 2) 0 t ∗ dutyTok ER (rrCell t 2 c) 0 c)) ∗ emp)
      ∗ posRed c 2 ∗ emp ∗ layerDest c Tsd 2) ⊢ (layerRes (F := F) c Tsd 2 : sProp 𝕄) := by
  unfold layerRes layerToks
  rw [if_neg (show ¬ (2 : Fin 3).val < 2 by decide), if_neg (show ¬ (2 : Fin 3).val < 2 by decide)]

private theorem pLayerEx_def (c : Dev nD) (l : Fin 3) :
    (pLayerEx (F := F) c l : sProp 𝕄) = bigSep (Finset.univ : Finset (Dev nD)) (fun t => ex (F := F) c (pChunk l t)) := rfl

/-- The last layer's chunks of the gather buffer, all held. -/
private theorem gath2 (c : Dev nD) (hc : c = 5) (f : Buf (Elt F) ((c : Thread nD τ).loc cc0_scratch2)) :
    bigSep (Finset.univ : Finset (Dev nD)) (fun t => (piece c (gChunk 2 t) fullShare f : sProp 𝕄)) ⊢ chunksAll c Tsd 2 := by
  subst hc
  rw [bigSep_dev8]
  unfold chunksAll
  rw [bigSepL7]
  iintro ⟨H0, H1, H2, H3, H4, H5, H6, H7⟩
  isplitl [H5]; · iapply (ex_intro _ (gChunk 2 5) f); iexact H5
  isplitl [H0]; · iapply (ex_intro _ (gChunk 2 0) f); iexact H0
  isplitl [H1]; · iapply (ex_intro _ (gChunk 2 1) f); iexact H1
  isplitl [H2]; · iapply (ex_intro _ (gChunk 2 2) f); iexact H2
  isplitl [H3]; · iapply (ex_intro _ (gChunk 2 3) f); iexact H3
  isplitl [H4]; · iapply (ex_intro _ (gChunk 2 4) f); iexact H4
  isplitl [H6]; · iapply (ex_intro _ (gChunk 2 6) f); iexact H6
  iapply (ex_intro _ (gChunk 2 7) f); iexact H7

attribute [local irreducible] layerDest layerRes layerToks barPay pLayerEx

set_option hygiene false in
/-- The entry signal to the peer `j` places after the device: it pays with the head token and the head payload. -/
local macro "entry_signal" j:num eq:ident : tactic => `(tactic| (
  icases TB with ⟨Tb, TB⟩
  icases PB with ⟨Pb, PB⟩
  iapply (step_uncurry (wp_entry_signal m 𝒱₀ c (fwd $j c) (fwd_ne_nat $j (by decide) (by decide) c) (K (barCell (fwd $j c))) ($eq c _) rfl rfl _))
  isplitl [Tb Pb HO]
  · isplitr; · iapply (invsAll_at m K (fwd $j c) .bar); iexact Hinv
    isplitl [Tb]; · iexact Tb
    isplitr; · iapply (reached_at (fwd $j c) .bar); iexact Hreach
    isplitl [Pb]; · iexact Pb
    iexact HO
  iintro HO
  sl_exec_parts))

theorem segA1_sound5 (c : Dev nD) (hc : c = 5) (K : GSem nD τ sig → ℕ)
    (Kt : (Σ' (d0 : Dev nD) (v2 : BitVec 32) (v78 : FVec F S64x256 .f32) (v81 : BitVec 32) (v82 : BitVec 32), BitVec 32) → sProp 𝕄) :
    iprop(bodyPre m K c ∗ (∀ v78 v81 v82 c0, midA m K c Tsd v78 -∗ Kt ⟨c, devWord c, v78, v81, v82, c0⟩))
      ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne6 : c ≠ (6 : Dev nD) := by rw [hc]; decide
  have hne7 : c ≠ (7 : Dev nD) := by rw [hc]; decide
  have hg1 : k0_cond1 c = 1#1 := (cond1_iff c).mpr hne0
  have hg2 : k0_cond2 c = 1#1 := (cond2_iff c).mpr hne1
  have hg3 : k0_cond3 c = 1#1 := (cond3_iff c).mpr hne2
  have hg4 : k0_cond4 c = 1#1 := (cond4_iff c).mpr hne3
  have hg5 : k0_cond5 c = 1#1 := (cond5_iff c).mpr hne4
  have hg6 : ¬ k0_cond6 c = 1#1 := fun h => (cond6_iff c).mp h hc
  have hg7 : k0_cond7 c = 1#1 := (cond7_iff c).mpr hne6
  have hg8 : k0_cond8 c = 1#1 := (cond8_iff c).mpr hne7
  have hAbW : Above 1 (restA c + tallyAt (rrCell 7 0 c) () N64 + tallyAt (rrCell 6 0 c) () N64 + tallyAt (rrCell 4 0 c) () N64 + tallyAt (rrCell 3 0 c) () N64 + tallyAt (rrCell 2 0 c) () N64 + tallyAt (rrCell 1 0 c) () N64 + tallyAt (rrCell 0 0 c) () N64 : CellTallies nD τ sig Unit) :=
    (((((((above_restA c).add (above_rr (n := 1) (7 : Dev nD) (0 : Fin 3) c N64 (by decide))).add (above_rr (n := 1) (6 : Dev nD) (0 : Fin 3) c N64 (by decide))).add (above_rr (n := 1) (4 : Dev nD) (0 : Fin 3) c N64 (by decide))).add (above_rr (n := 1) (3 : Dev nD) (0 : Fin 3) c N64 (by decide))).add (above_rr (n := 1) (2 : Dev nD) (0 : Fin 3) c N64 (by decide))).add (above_rr (n := 1) (1 : Dev nD) (0 : Fin 3) c N64 (by decide))).add (above_rr (n := 1) (0 : Dev nD) (0 : Fin 3) c N64 (by decide))
  refine (sep_mono_left ((pre_dup m K c).trans (sep_mono_right (prelude_dev5 m K c hc)))).trans ?_
  unfold ctx toksFam posFam credsFam lits5 midA stagedIn scr
  rw [debt_rev]
  iintro ⟨⟨⟨#Hinv, #Hreach⟩, -, -, #Hlev, ⟨TB, ⟨⟨Trs0T0, Trs0T1, Trs0T2, Trs0T3, Trs0T4, Trs0T6, Trs0T7⟩, ⟨Trr0T0, Trr0T1, Trr0T2, Trr0T3, Trr0T4, Trr0T6, Trr0T7⟩⟩, ⟨TS1, TR1⟩, ⟨TS2, TR2⟩, ⟨TGS0, TGR0⟩, ⟨TGS1, TGR1⟩⟩, ⟨Abar, ⟨Ars0, Arr0⟩, ⟨Ars1, Arr1⟩, ⟨Ars2, Arr2⟩, ⟨Ags0, Agr0⟩, ⟨Ags1, Agr1⟩⟩, ⟨Cbar, Crr0, Crr1, Crr2, Cgr0, Cgr1⟩, HPrest, ⟨%f0, S0⟩, PB, ⟨%fs, SO0, SO1, SO2⟩, ⟨%fg, GO0, GO1, GO2⟩, ⟨%W, HO⟩, ⟨%x0, %hx0, X0⟩, ⟨%x1, %hx1, X1⟩, ⟨%x2, %hx2, X2⟩, X3, X4, X5, X6, H7⟩, Hk⟩
  ihave X0 := (whole_restate c cc0_stg0_0 x0) $$ X0
  ihave X1 := (whole_restate c cc0_stg1_0 x1) $$ X1
  ihave X2 := (whole_restate c cc0_stg2_0 x2) $$ X2
  ihave S0 := (whole_restate c cc0_scratch0 f0) $$ S0
  sl_unfold [segA1]
  sl_exec_parts
  entry_signal 1 dev1_eq
  entry_signal 2 dev2_eq
  entry_signal 3 dev3_eq
  entry_signal 4 dev4_eq
  entry_signal 5 dev5_eq
  entry_signal 6 dev6_eq
  icases TB with Tb
  icases PB with Pb
  iapply (step_uncurry (wp_entry_signal m 𝒱₀ c (fwd 7 c) (fwd_ne_nat 7 (by decide) (by decide) c) (K (barCell (fwd 7 c))) (dev7_eq c _) rfl rfl _))
  isplitl [Tb Pb HO]
  · isplitr; · iapply (invsAll_at m K (fwd 7 c) .bar); iexact Hinv
    isplitl [Tb]; · iexact Tb
    isplitr; · iapply (reached_at (fwd 7 c) .bar); iexact Hreach
    isplitl [Pb]; · iexact Pb
    iexact HO
  iintro HO
  sl_exec_parts
  ihave #Hmw := (mayWait_bar (F := F) c (restA c + tallyAt (rrCell 7 0 c) () N64 + tallyAt (rrCell 6 0 c) () N64 + tallyAt (rrCell 4 0 c) () N64 + tallyAt (rrCell 3 0 c) () N64 + tallyAt (rrCell 2 0 c) () N64 + tallyAt (rrCell 1 0 c) () N64 + tallyAt (rrCell 0 0 c) () N64) hAbW) $$ Hlev
  iapply (step_uncurry (wp_bar_wait m 𝒱₀ c (K (barCell c)) rfl rfl (O := restA c + tallyAt (rrCell 7 0 c) () N64 + tallyAt (rrCell 6 0 c) () N64 + tallyAt (rrCell 4 0 c) () N64 + tallyAt (rrCell 3 0 c) () N64 + tallyAt (rrCell 2 0 c) () N64 + tallyAt (rrCell 1 0 c) () N64 + tallyAt (rrCell 0 0 c) () N64) (W := W)))
  isplitl [Cbar HO Abar]
  · isplitr; · iapply (invsAll_at m K c .bar); iexact Hinv
    isplitl [Cbar]; · iexact Cbar
    isplitl [HO]; · iexact HO
    isplitr; · iexact Hmw
    iexact Abar
  iintro ⟨HO, Abar, #Rbar1, PBin⟩
  ihave PBin := (barPays_fold c Tsd (by rw [hc]; decide) (by decide)) $$ PBin
  icases PBin with ⟨D0, D1, D2⟩
  ihave S0 := (slab0_cut m c f0 ((Memref.readAt_unit_zero (Elt F) cc0_stg0_0 zero2 inb_S512x256_S512x256_0_0 x0).trans hx0)
      ((Memref.readAt_unit_zero (Elt F) cc0_stg1_0 zero2 inb_S256x512_S256x512_0_0 x1).trans hx1)
      ((Memref.readAt_unit_zero (Elt F) cc0_stg2_0 zero2 inb_S512x256_S512x256_0_0 x2).trans hx2) _) $$ S0
  icases S0 with ⟨P0s, P1s, P2s⟩
  ihave P0s := (Entails.of_eq (bigSep_dev8 _)) $$ P0s
  icases P0s with ⟨Q0, Q1, Q2, Q3, Q4, Q5, Q6, Q7⟩
  sl_exec_parts
  ihave D0 := (Entails.of_eq (layerDest0_eq c)) $$ D0
  icases D0 with ⟨⟨⟨%fd0, Drr0T0⟩, ⟨%fd1, Drr0T1⟩, ⟨%fd2, Drr0T2⟩, ⟨%fd3, Drr0T3⟩, ⟨%fd4, Drr0T4⟩, ⟨%fd6, Drr0T6⟩, ⟨%fd7, Drr0T7⟩⟩, DG0⟩
  ihave #Irs0 := (invsAll_at m K c (.rs 0)) $$ Hinv
  ihave #Rrs0 := (reached_at (F := F) c (.rs 0)) $$ Hreach
  -- the copy of chunk 0 to device 0
  ihave #Irr0T0 := (invsAll_at m K 0 (.rr 0 c)) $$ Hinv
  ihave #Rrr0T0 := (reached_at (F := F) 0 (.rr 0 c)) $$ Hreach
  iapply (wp_red_send m 𝒱₀ c 0 0 hne0 (K (rsCell c 0)) (K (rrCell 0 0 c)) (dev8_eq _) (pchunk_lit0_0 _ _) (slot_off2 c _ _)
      (congrArg SemLoc.dma (sem_rs0 _)) (congrArg SemLoc.dma (sem_off1 c _)) (restA c + tallyAt (rrCell 7 0 c) () N64 + tallyAt (rrCell 6 0 c) () N64 + tallyAt (rrCell 4 0 c) () N64 + tallyAt (rrCell 3 0 c) () N64 + tallyAt (rrCell 2 0 c) () N64 + tallyAt (rrCell 1 0 c) () N64) fd0)
    $$ [Q0 Drr0T0 HO Trs0T0 Trr0T0]
  · isplitr; · iexact Irs0
    isplitr; · iexact Irr0T0
    isplitl [Q0]; · iexact Q0
    isplitl [Drr0T0]; · iexact Drr0T0
    isplitl [HO]; · iexact HO
    isplitl [Trs0T0]; · iexact Trs0T0
    isplitr; · iexact Rrs0
    isplitl [Trr0T0]; · iexact Trr0T0
    iexact Rrr0T0
  iintro ⟨Crs0T0, HO⟩
  sl_exec_parts
  -- the copy of chunk 1 to device 1
  ihave #Irr0T1 := (invsAll_at m K 1 (.rr 0 c)) $$ Hinv
  ihave #Rrr0T1 := (reached_at (F := F) 1 (.rr 0 c)) $$ Hreach
  iapply (wp_red_send m 𝒱₀ c 1 0 hne1 (K (rsCell c 0)) (K (rrCell 1 0 c)) (dev9_eq _) (pchunk_lit0_1 _ _) (slot_off4 c _ _)
      (congrArg SemLoc.dma (sem_rs0 _)) (congrArg SemLoc.dma (sem_off3 c _)) (restA c + tallyAt (rrCell 7 0 c) () N64 + tallyAt (rrCell 6 0 c) () N64 + tallyAt (rrCell 4 0 c) () N64 + tallyAt (rrCell 3 0 c) () N64 + tallyAt (rrCell 2 0 c) () N64) fd1)
    $$ [Q1 Drr0T1 HO Trs0T1 Trr0T1]
  · isplitr; · iexact Irs0
    isplitr; · iexact Irr0T1
    isplitl [Q1]; · iexact Q1
    isplitl [Drr0T1]; · iexact Drr0T1
    isplitl [HO]; · iexact HO
    isplitl [Trs0T1]; · iexact Trs0T1
    isplitr; · iexact Rrs0
    isplitl [Trr0T1]; · iexact Trr0T1
    iexact Rrr0T1
  iintro ⟨Crs0T1, HO⟩
  sl_exec_parts
  -- the copy of chunk 2 to device 2
  ihave #Irr0T2 := (invsAll_at m K 2 (.rr 0 c)) $$ Hinv
  ihave #Rrr0T2 := (reached_at (F := F) 2 (.rr 0 c)) $$ Hreach
  iapply (wp_red_send m 𝒱₀ c 2 0 hne2 (K (rsCell c 0)) (K (rrCell 2 0 c)) (dev10_eq _) (pchunk_lit0_2 _ _) (slot_off6 c _ _)
      (congrArg SemLoc.dma (sem_rs0 _)) (congrArg SemLoc.dma (sem_off5 c _)) (restA c + tallyAt (rrCell 7 0 c) () N64 + tallyAt (rrCell 6 0 c) () N64 + tallyAt (rrCell 4 0 c) () N64 + tallyAt (rrCell 3 0 c) () N64) fd2)
    $$ [Q2 Drr0T2 HO Trs0T2 Trr0T2]
  · isplitr; · iexact Irs0
    isplitr; · iexact Irr0T2
    isplitl [Q2]; · iexact Q2
    isplitl [Drr0T2]; · iexact Drr0T2
    isplitl [HO]; · iexact HO
    isplitl [Trs0T2]; · iexact Trs0T2
    isplitr; · iexact Rrs0
    isplitl [Trr0T2]; · iexact Trr0T2
    iexact Rrr0T2
  iintro ⟨Crs0T2, HO⟩
  sl_exec_parts
  -- the copy of chunk 3 to device 3
  ihave #Irr0T3 := (invsAll_at m K 3 (.rr 0 c)) $$ Hinv
  ihave #Rrr0T3 := (reached_at (F := F) 3 (.rr 0 c)) $$ Hreach
  iapply (wp_red_send m 𝒱₀ c 3 0 hne3 (K (rsCell c 0)) (K (rrCell 3 0 c)) (dev11_eq _) (pchunk_lit0_3 _ _) (slot_off8 c _ _)
      (congrArg SemLoc.dma (sem_rs0 _)) (congrArg SemLoc.dma (sem_off7 c _)) (restA c + tallyAt (rrCell 7 0 c) () N64 + tallyAt (rrCell 6 0 c) () N64 + tallyAt (rrCell 4 0 c) () N64) fd3)
    $$ [Q3 Drr0T3 HO Trs0T3 Trr0T3]
  · isplitr; · iexact Irs0
    isplitr; · iexact Irr0T3
    isplitl [Q3]; · iexact Q3
    isplitl [Drr0T3]; · iexact Drr0T3
    isplitl [HO]; · iexact HO
    isplitl [Trs0T3]; · iexact Trs0T3
    isplitr; · iexact Rrs0
    isplitl [Trr0T3]; · iexact Trr0T3
    iexact Rrr0T3
  iintro ⟨Crs0T3, HO⟩
  sl_exec_parts
  -- the copy of chunk 4 to device 4
  ihave #Irr0T4 := (invsAll_at m K 4 (.rr 0 c)) $$ Hinv
  ihave #Rrr0T4 := (reached_at (F := F) 4 (.rr 0 c)) $$ Hreach
  iapply (wp_red_send m 𝒱₀ c 4 0 hne4 (K (rsCell c 0)) (K (rrCell 4 0 c)) (dev12_eq _) (pchunk_lit0_4 _ _) (slot_off10 c _ _)
      (congrArg SemLoc.dma (sem_rs0 _)) (congrArg SemLoc.dma (sem_off9 c _)) (restA c + tallyAt (rrCell 7 0 c) () N64 + tallyAt (rrCell 6 0 c) () N64) fd4)
    $$ [Q4 Drr0T4 HO Trs0T4 Trr0T4]
  · isplitr; · iexact Irs0
    isplitr; · iexact Irr0T4
    isplitl [Q4]; · iexact Q4
    isplitl [Drr0T4]; · iexact Drr0T4
    isplitl [HO]; · iexact HO
    isplitl [Trs0T4]; · iexact Trs0T4
    isplitr; · iexact Rrs0
    isplitl [Trr0T4]; · iexact Trr0T4
    iexact Rrr0T4
  iintro ⟨Crs0T4, HO⟩
  sl_exec_parts
  -- the copy of chunk 6 to device 6
  ihave #Irr0T6 := (invsAll_at m K 6 (.rr 0 c)) $$ Hinv
  ihave #Rrr0T6 := (reached_at (F := F) 6 (.rr 0 c)) $$ Hreach
  iapply (wp_red_send m 𝒱₀ c 6 0 hne6 (K (rsCell c 0)) (K (rrCell 6 0 c)) (dev14_eq _) (pchunk_lit0_6 _ _) (slot_off14 c _ _)
      (congrArg SemLoc.dma (sem_rs0 _)) (congrArg SemLoc.dma (sem_off13 c _)) (restA c + tallyAt (rrCell 7 0 c) () N64) fd6)
    $$ [Q6 Drr0T6 HO Trs0T6 Trr0T6]
  · isplitr; · iexact Irs0
    isplitr; · iexact Irr0T6
    isplitl [Q6]; · iexact Q6
    isplitl [Drr0T6]; · iexact Drr0T6
    isplitl [HO]; · iexact HO
    isplitl [Trs0T6]; · iexact Trs0T6
    isplitr; · iexact Rrs0
    isplitl [Trr0T6]; · iexact Trr0T6
    iexact Rrr0T6
  iintro ⟨Crs0T6, HO⟩
  sl_exec_parts
  -- the copy of chunk 7 to device 7
  ihave #Irr0T7 := (invsAll_at m K 7 (.rr 0 c)) $$ Hinv
  ihave #Rrr0T7 := (reached_at (F := F) 7 (.rr 0 c)) $$ Hreach
  iapply (wp_red_send m 𝒱₀ c 7 0 hne7 (K (rsCell c 0)) (K (rrCell 7 0 c)) (dev15_eq _) (pchunk_lit0_7 _ _) (slot_off16 c _ _)
      (congrArg SemLoc.dma (sem_rs0 _)) (congrArg SemLoc.dma (sem_off15 c _)) (restA c) fd7)
    $$ [Q7 Drr0T7 HO Trs0T7 Trr0T7]
  · isplitr; · iexact Irs0
    isplitr; · iexact Irr0T7
    isplitl [Q7]; · iexact Q7
    isplitl [Drr0T7]; · iexact Drr0T7
    isplitl [HO]; · iexact HO
    isplitl [Trs0T7]; · iexact Trs0T7
    isplitr; · iexact Rrs0
    isplitl [Trr0T7]; · iexact Trr0T7
    iexact Rrr0T7
  iintro ⟨Crs0T7, HO⟩
  ihave Q5 := (Entails.of_eq (congrArg (fun t => (piece c (pChunk 0 t) fullShare (Pfun m c) : sProp 𝕄)) hc.symm)) $$ Q5
  ihave P0own := (Entails.of_eq (pRows_eq c 0 c fullShare (Pfun m c)).symm) $$ Q5
  sl_exec_parts
  have eOwn : View.readAt (Elt F) (Memref.whole cc0_scratch0).view (Rect.unit (s := S3x512x256) (k0_off17 c) S1x64x256.size (k0_off17_inb c)).toLoadRect (Pfun m c)
      = chunkOf (P0 m c) c := read_P_chunk m c 0 c (k0_off17 c) (k0_off17_eq c) _
  have hv78 : segA1_sound5.sl.r m c = k0_pay2 (chunkOf (P0 m c) c) := by
    unfold segA1_sound5.sl.r
    exact congrArg k0_pay2 eOwn
  have hv2 : segA1_sound5.sl.v2 c = devWord c := rfl
  iapply (ret_intro _ Kt c)
  iapply (Entails.of_eq (congrArg (fun w => (Kt ⟨c, w, segA1_sound5.sl.r m c, segA1_sound5.sl.v81 c, segA1_sound5.sl.v82 c, 0#32⟩ : sProp 𝕄)) hv2.symm))
  ihave P0own := (Entails.of_eq (pRows_eq c 0 c fullShare (Pfun m c))) $$ P0own
  ihave X0 := (stg_of_whole c cc0_stg0_0 (argX m c) x0 hx0) $$ X0
  ihave X1 := (stg_of_whole c cc0_stg1_0 (argW m c 0) x1 hx1) $$ X1
  ihave X2 := (stg_of_whole c cc0_stg2_0 (argV m c 0) x2 hx2) $$ X2
  iapply Hk
  isplitr
  · isplitr; · iexact Hinv
    isplitr; · iexact Hreach
    iexact Hlev
  isplitr; · ipureintro; exact hv78
  isplitl [HO]; · iexists _; iexact HO
  isplitl [TGS0 TGR0]
  · iapply (zipF c _ _)
    isplitl [TGS0]; · iexact TGS0
    iexact TGR0
  isplitl [DG0]; · iexact DG0
  isplitl [Ars0 Arr0 Crr0]
  · iapply (posRed_intro c 0)
    isplitl [Ars0]; · iexact Ars0
    isplitl [Arr0]; · iexact Arr0
    iexact Crr0
  isplitl [Ags0]; · iapply (posGs_intro c 0); iexact Ags0
  isplitl [Agr0 Cgr0]
  · iapply (posGr_intro c 0)
    isplitl [Agr0]; · iexact Agr0
    iexact Cgr0
  isplitl [Crs0T0 Crs0T1 Crs0T2 Crs0T3 Crs0T4 Crs0T6 Crs0T7]
  · iapply (creds7 _)
    isplitl [Crs0T0]; · iexact Crs0T0
    isplitl [Crs0T1]; · iexact Crs0T1
    isplitl [Crs0T2]; · iexact Crs0T2
    isplitl [Crs0T3]; · iexact Crs0T3
    isplitl [Crs0T4]; · iexact Crs0T4
    isplitl [Crs0T6]; · iexact Crs0T6
    iexact Crs0T7
  isplitl [TS1 TR1 TGS1 TGR1 Ars1 Arr1 Crr1 Ags1 Agr1 Cgr1 D1]
  · iapply (layerRes1_intro c)
    isplitl [TS1 TR1 TGS1 TGR1]
    · isplitl [TS1 TR1]
      · iapply (zipT _ _)
        isplitl [TS1]; · iexact TS1
        iexact TR1
      iapply (zipF c _ _)
      isplitl [TGS1]; · iexact TGS1
      iexact TGR1
    isplitl [Ars1 Arr1 Crr1]
    · iapply (posRed_intro c 1)
      isplitl [Ars1]; · iexact Ars1
      isplitl [Arr1]; · iexact Arr1
      iexact Crr1
    isplitl [Ags1 Agr1 Cgr1]
    · isplitl [Ags1]; · iapply (posGs_intro c 1); iexact Ags1
      iapply (posGr_intro c 1)
      isplitl [Agr1]; · iexact Agr1
      iexact Cgr1
    iexact D1
  isplitl [TS2 TR2 Ars2 Arr2 Crr2 D2]
  · iapply (layerRes2_intro c)
    isplitl [TS2 TR2]
    · isplitl [TS2 TR2]
      · iapply (zipT _ _)
        isplitl [TS2]; · iexact TS2
        iexact TR2
      iempintro
    isplitl [Ars2 Arr2 Crr2]
    · iapply (posRed_intro c 2)
      isplitl [Ars2]; · iexact Ars2
      isplitl [Arr2]; · iexact Arr2
      iexact Crr2
    isplitr; · iempintro
    iexact D2
  isplitl [HPrest]; · iexact HPrest
  isplitl [P0own]; · iapply (ex_intro c (pChunk 0 c) (Pfun m c)); iexact P0own
  isplitl [P1s]; · iapply (Entails.of_eq (pLayerEx_def c 1)); iexact P1s
  isplitl [P2s]; · iapply (Entails.of_eq (pLayerEx_def c 2)); iexact P2s
  isplitl [SO0]; · iapply (ex_intro c (rSlot 0 c) fs); iexact SO0
  isplitl [SO1]; · iapply (ex_intro c (rSlot 1 c) fs); iexact SO1
  isplitl [SO2]; · iapply (ex_intro c (rSlot 2 c) fs); iexact SO2
  isplitl [GO0]; · iapply (ex_intro c (gChunk 0 c) fg); iexact GO0
  isplitl [GO1]; · iapply (ex_intro c (gChunk 1 c) fg); iexact GO1
  isplitl [GO2]; · iapply (gath2 c hc fg); iexact GO2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segA1_sound5' depends on axioms: [propext, Classical.choice, Quot.sound] -/
#guard_msgs in #print axioms segA1_sound5

end Cert.KernelProof

end
-- ==== Proof.K.BodySegA2_d5.lean ====
import proofs.«900993_g7700000000000994_dist_mlpseq_tp1d_rep_bs_b512_d256_h512_v7x_i8_bf16_1_alg».proof.Proof.K.BodySegA2Lib

/-! The second half of layer 0 on device 5: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 3, 4, 6, 7] : List (Dev nD))

omit [FloatOps F] in
/-- Everything still owed after layer 0's gather sends is owed to cells above the level of the layer's send cells. -/
theorem above_a2_rest_d5 (c : Dev nD) : Above 3 (a2_rest c Ts) := by
  unfold a2_rest owesRedL owesGatL ringF
  simp only [List.map, List.sum_cons, List.sum_nil]
  owes_above

theorem segA2_sound5 (c : Dev nD) (hc : c = 5) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : ¬ k0_cond14 c = 1#1 := fun h => (cond14_iff c).mp h hc
  have hg15 : k0_cond15 c = 1#1 := (cond15_iff c).mpr (by rw [hc]; decide)
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : ¬ Scalar.cmpi .ne (Scalar.extui (Scalar.cmpi .ne (Scalar.remsi (Scalar.divsi (Dev.word c) 1#32) 8#32) 5#32)) 0#32 = 1#1 := fun h => (condw5_iff c).mp h hc
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d5 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d5 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound5.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound5.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound5.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound5.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound5.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound5.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound5.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound5.sl.r_2 m c v78 a1 a2 a3 a4 a5) (segA2_sound5.sl.v171 m c a6) (segA2_sound5.sl.v187 m c a7) = red0 m c := by
    intro a1 a2 a3 a4 a5 a6 a7
    unfold segA2_sound5.sl.r_2 segA2_sound5.sl.r_1 segA2_sound5.sl.r
    rw [e91, e107, e123, e139, e155, e171, e187, hv]
    rfl
  have hG0 : ∀ g a1 a2 a3 a4 a5 a6 a7, ∀ i ∈ (gChunk 0 c).view.set, segA2_sound5.sl.G0c_w1 m c v78 g a1 a2 a3 a4 a5 a6 a7 i = Gfun m c i := by
    intro g a1 a2 a3 a4 a5 a6 a7 i hi
    unfold segA2_sound5.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelProof

end
-- ==== Proof.K.BodySegB1_d5.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegBCut
import Idealize.ShloMosaic.Lib.Tactic

/-! Layer 1 on device 5, first half: from the state between the layers to the point where the device has enqueued its
    seven reduce copies of layer 1 and read its own chunk.

    The device goes through the four groups of 128 rows in order. For a group it first waits for the rows of the first
    activation that the two devices owning them gathered into its buffer (its own rows it holds already): each wait is
    the one duty of a gather-receive cell of layer 0, and hands over the chunk holding the sender's reduced rows written
    over whatever it held — which is the activation on that chunk. The two chunks joined are the group the body loads;
    with the staged weights of layer 1 the body's own arithmetic makes the group of the layer's partial product, stored
    over rows of the partial-product buffer, where it agrees with the canonical partial product. Cut back into its two
    64-row chunks, each chunk is lent to the copy towards the device that reduces those rows: the copy pays duty `t` of
    the device's reduce-send cell and the one duty of the target's reduce-receive cell, settles what the device owed
    that cell, and earns the credit for a later wait on the send cell. The device's own chunk stays; it is read at the
    end, as the accumulation's first term. What is left is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 3, 4, 6, 7]

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- Layer 1's resources, its reduce tokens and destinations listed. -/
private theorem layerRes1_eq (c : Dev nD) : layerRes (F := F) c Tsd 1 =
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1)
      ∗ (bigSepL Tsd (fun t => iprop(∃ fd, piece t (rSlot 1 c) fullShare fd))
        ∗ bigSepL (ringF c) (fun p => iprop(∃ fd, piece p (gChunk 1 c) fullShare fd)))) := by
  unfold layerRes layerToks layerDest
  rw [if_pos (by decide), if_pos (by decide), if_pos (by decide)]

/-- The debt with the next reduce arrival last. -/
private theorem debt_peel (c t : Dev nD) (ts : List (Dev nD)) (l : Fin 3) (A B : CellTallies nD τ sig Unit) :
    owesRedL c (t :: ts) l + A + B = (owesRedL c ts l + A + B) + tallyAt (rrCell t l c) () N64 := by
  unfold owesRedL
  rw [List.map_cons, List.sum_cons]
  abel

/-- Every cell is at round 0: one cell's fact. -/
private theorem reachedAll_at (c : Dev nD) (k : CK) : reachedAll (F := F) ⊢ (reached ER (kcell c k) 0 : sProp 𝕄) := by
  unfold reachedAll
  exact allAt (fun p : Dev nD × CK => (reached ER (kcell p.1 p.2) 0 : sProp 𝕄)) c k

/-- Two functions that agree on a group of 128 rows agree on its two chunks. -/
private theorem agree_chunks {α : Type} (l : Fin 3) (g : Fin 4) (t0 t1 : Dev nD) (h0 : t0.val = 2 * g.val) (h1 : t1.val = 2 * g.val + 1)
    (w g' : S3x512x256.Idx → α) (h : ∀ i ∈ (rectGrp l g).set, w i = g' i) :
    (∀ i ∈ (rectP l t0).set, w i = g' i) ∧ (∀ i ∈ (rectP l t1).set, w i = g' i) := by
  rw [rectGrp_eq l g t0 t1 h0 h1] at h
  exact ⟨fun i hi => h i (Finset.mem_union_left _ hi), fun i hi => h i (Finset.mem_union_right _ hi)⟩

/-- A chunk of the partial-product buffer at contents that agree on its rows. -/
private theorem pChunk_congr (c : Dev nD) (l : Fin 3) (t : Dev nD) (q : PosShare TreeShare)
    {f g : Buf (Elt F) ((c : Thread nD τ).loc cc0_scratch0)} (h : ∀ i ∈ (rectP l t).set, f i = g i) :
    (piece c (pChunk l t) q f : sProp 𝕄) = piece c (pChunk l t) q g :=
  piece_congr c (pChunk l t) q fun i hi => h i ((set_pChunk l t) ▸ hi)

/-- A stored group of layer 1's partial product agrees with the canonical partial products on the group's rows. -/
private theorem stored_P1 (c : Dev nD) (g : Fin 4) (f0 : Buf (Elt F) ((c : Thread nD τ).loc cc0_scratch0)) (R : Rect S3x512x256)
    (hR : R = rectGrp 1 g) (w : R.shape.Idx → Elt F .bf16) (w' : (rectGrp 1 g).shape.Idx → Elt F .bf16) (hw : HEq w w') (hw' : w' = P1grp m c g) :
    ∀ i ∈ (rectGrp 1 g).set, View.write (Elt F) ((Memref.whole cc0_scratch0).access R) f0 w Finset.univ i = Pfun m c i := by
  subst hR
  obtain rfl := eq_of_heq hw
  subst hw'
  intro i hi
  refine write_P1grp m c g f0 _ rfl (inb_grp 1 g) i ?_
  show i ∈ ((View.whole cc0_scratch0).slice (rectGrp 1 g)).set
  rw [View.set_slice_whole]
  exact hi

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

private theorem posGr0_eq (c : Dev nD) : posGr (F := F) c Tsd 0 =
    iprop((atPos ER (grCell c 0 0) 0 ∅ 0 ∗ cred (tallyAt (grCell c 0 0) () N64)) ∗ (atPos ER (grCell c 0 1) 0 ∅ 0 ∗ cred (tallyAt (grCell c 0 1) () N64))
      ∗ (atPos ER (grCell c 0 2) 0 ∅ 0 ∗ cred (tallyAt (grCell c 0 2) () N64)) ∗ (atPos ER (grCell c 0 3) 0 ∅ 0 ∗ cred (tallyAt (grCell c 0 3) () N64))
      ∗ (atPos ER (grCell c 0 4) 0 ∅ 0 ∗ cred (tallyAt (grCell c 0 4) () N64)) ∗ (atPos ER (grCell c 0 6) 0 ∅ 0 ∗ cred (tallyAt (grCell c 0 6) () N64))
      ∗ (atPos ER (grCell c 0 7) 0 ∅ 0 ∗ cred (tallyAt (grCell c 0 7) () N64))) := rfl

private theorem posDoneGr0_eq (c : Dev nD) : posDoneGr (F := F) c Tsd 0 =
    iprop(atPos ER (grCell c 0 0) 1 ∅ 0 ∗ atPos ER (grCell c 0 1) 1 ∅ 0 ∗ atPos ER (grCell c 0 2) 1 ∅ 0 ∗ atPos ER (grCell c 0 3) 1 ∅ 0
      ∗ atPos ER (grCell c 0 4) 1 ∅ 0 ∗ atPos ER (grCell c 0 6) 1 ∅ 0 ∗ atPos ER (grCell c 0 7) 1 ∅ 0) := rfl

private theorem chunksAll0_eq (c : Dev nD) : chunksAll (F := F) c Tsd 0 =
    iprop(ex c (gChunk 0 c) ∗ ex c (gChunk 0 0) ∗ ex c (gChunk 0 1) ∗ ex c (gChunk 0 2) ∗ ex c (gChunk 0 3) ∗ ex c (gChunk 0 4)
      ∗ ex c (gChunk 0 6) ∗ ex c (gChunk 0 7)) := rfl

private theorem creds7_eq (c : Dev nD) : bigSepL Tsd (fun _ => (cred (tallyAt (rsCell c 1) () N64) : sProp 𝕄)) =
    iprop(cred (tallyAt (rsCell c 1) () N64) ∗ cred (tallyAt (rsCell c 1) () N64) ∗ cred (tallyAt (rsCell c 1) () N64) ∗ cred (tallyAt (rsCell c 1) () N64)
      ∗ cred (tallyAt (rsCell c 1) () N64) ∗ cred (tallyAt (rsCell c 1) () N64) ∗ cred (tallyAt (rsCell c 1) () N64)) := rfl

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- The eight chunks of a layer of the partial-product buffer, each held at some contents. -/
private theorem slab_ex (c : Dev nD) (l : Fin 3) (f0 : Buf (Elt F) ((c : Thread nD τ).loc cc0_scratch0)) :
    iprop(piece c (pChunk l 0) fullShare f0 ∗ piece c (pChunk l 1) fullShare f0 ∗ piece c (pChunk l 2) fullShare f0 ∗ piece c (pChunk l 3) fullShare f0
        ∗ piece c (pChunk l 4) fullShare f0 ∗ piece c (pChunk l 5) fullShare f0 ∗ piece c (pChunk l 6) fullShare f0 ∗ piece c (pChunk l 7) fullShare f0)
      ⊢ (bigSep (Finset.univ : Finset (Dev nD)) (fun t => ex (F := F) c (pChunk l t)) : sProp 𝕄) := by
  rw [bigSep_dev8]
  iintro ⟨H0, H1, H2, H3, H4, H5, H6, H7⟩
  isplitl [H0]; · iapply (ex_intro c (pChunk l 0) f0); iexact H0
  isplitl [H1]; · iapply (ex_intro c (pChunk l 1) f0); iexact H1
  isplitl [H2]; · iapply (ex_intro c (pChunk l 2) f0); iexact H2
  isplitl [H3]; · iapply (ex_intro c (pChunk l 3) f0); iexact H3
  isplitl [H4]; · iapply (ex_intro c (pChunk l 4) f0); iexact H4
  isplitl [H5]; · iapply (ex_intro c (pChunk l 5) f0); iexact H5
  isplitl [H6]; · iapply (ex_intro c (pChunk l 6) f0); iexact H6
  iapply (ex_intro c (pChunk l 7) f0); iexact H7

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; trivial
  iapply (Entails.of_eq (congrArg (fun I => pointsTo ((c : Thread nD τ).loc b) I fullShare x) (View.set_whole b)))
  iexact H

/-- Nothing is owed for a layer whose reduce copies have all been enqueued. -/
private theorem debt_done (c : Dev nD) (l : Fin 3) (A B : CellTallies nD τ sig Unit) : owesRedL c [] l + A + B = A + B := by
  unfold owesRedL
  rw [List.map_nil, List.sum_nil, zero_add]

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

private theorem zero2 : (![0, 0] : Fin 2 → ℕ) = fun _ => 0 := by funext a; fin_cases a <;> rfl

/-- A landed chunk of the gather buffer holds the activation, whatever the chunk held before. -/
private theorem grPay_canon (c s : Dev nD) (l : Fin 3) : grPay m c l s ⊢ (piece c (gChunk l s) fullShare (Gfun m c) : sProp 𝕄) := by
  unfold grPay
  iintro ⟨%fd, H⟩
  iapply (Entails.of_eq (piece_congr c (gChunk l s) fullShare (land_gather m s c l fd)))
  iexact H

theorem segB1_sound5 (c : Dev nD) (hc : c = 5) (K : GSem nD τ sig → ℕ) (Kt : (Σ' (v463 : FVec F S64x256 .f32), BitVec 32) → sProp 𝕄) :
    iprop(mid1 m K c Tsd ∗ (∀ v466, midB m K c Tsd (k0_pay14 (chunkOf (P1 m c) c)) -∗ Kt ⟨k0_pay14 (chunkOf (P1 m c) c), v466⟩))
      ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne6 : c ≠ (6 : Dev nD) := by rw [hc]; decide
  have hne7 : c ≠ (7 : Dev nD) := by rw [hc]; decide
  have hgw0 : Scalar.cmpi .ne (Scalar.extui (Scalar.cmpi .ne (devWord c) 0#32)) 0#32 = 1#1 := (condw0_iff c).mpr hne0
  have hgw1 : Scalar.cmpi .ne (Scalar.extui (Scalar.cmpi .ne (devWord c) 1#32)) 0#32 = 1#1 := (condw1_iff c).mpr hne1
  have hgw2 : Scalar.cmpi .ne (Scalar.extui (Scalar.cmpi .ne (devWord c) 2#32)) 0#32 = 1#1 := (condw2_iff c).mpr hne2
  have hgw3 : Scalar.cmpi .ne (Scalar.extui (Scalar.cmpi .ne (devWord c) 3#32)) 0#32 = 1#1 := (condw3_iff c).mpr hne3
  have hgw4 : Scalar.cmpi .ne (Scalar.extui (Scalar.cmpi .ne (devWord c) 4#32)) 0#32 = 1#1 := (condw4_iff c).mpr hne4
  have hgw5 : ¬ Scalar.cmpi .ne (Scalar.extui (Scalar.cmpi .ne (devWord c) 5#32)) 0#32 = 1#1 := fun h => (condw5_iff c).mp h hc
  have hgw6 : Scalar.cmpi .ne (Scalar.extui (Scalar.cmpi .ne (devWord c) 6#32)) 0#32 = 1#1 := (condw6_iff c).mpr hne6
  have hgw7 : Scalar.cmpi .ne (Scalar.extui (Scalar.cmpi .ne (devWord c) 7#32)) 0#32 = 1#1 := (condw7_iff c).mpr hne7
  have hg19 : k0_cond19 c = 1#1 := (cond19_iff c).mpr hne0
  have hg20 : k0_cond20 c = 1#1 := (cond20_iff c).mpr hne1
  have hg23 : k0_cond23 c = 1#1 := (cond23_iff c).mpr hne2
  have hg24 : k0_cond24 c = 1#1 := (cond24_iff c).mpr hne3
  have hg27 : k0_cond27 c = 1#1 := (cond27_iff c).mpr hne4
  have hg28 : ¬ k0_cond28 c = 1#1 := fun h => (cond28_iff c).mp h hc
  have hg31 : k0_cond31 c = 1#1 := (cond31_iff c).mpr hne6
  have hg32 : k0_cond32 c = 1#1 := (cond32_iff c).mpr hne7
  have hAbG0 : Above 4 (owesRedL c Tsd 1 + owesRedL c Tsd 2 + owesGatL c 1) := by
    unfold owesRedL owesGatL ringF
    simp only [List.map, List.sum_cons, List.sum_nil]
    owes_above
  have hAbG1 : Above 4 (owesRedL c [2, 3, 4, 6, 7] 1 + owesRedL c Tsd 2 + owesGatL c 1) := by
    unfold owesRedL owesGatL ringF
    simp only [List.map, List.sum_cons, List.sum_nil]
    owes_above
  have hAbG2 : Above 4 (owesRedL c [4, 6, 7] 1 + owesRedL c Tsd 2 + owesGatL c 1) := by
    unfold owesRedL owesGatL ringF
    simp only [List.map, List.sum_cons, List.sum_nil]
    owes_above
  have hAbG3 : Above 4 (owesRedL c [6, 7] 1 + owesRedL c Tsd 2 + owesGatL c 1) := by
    unfold owesRedL owesGatL ringF
    simp only [List.map, List.sum_cons, List.sum_nil]
    owes_above
  unfold mid1 midB stagedIn scr
  rw [layerRes1_eq, posGr0_eq, posDoneGr0_eq, chunksAll0_eq, creds7_eq]
  simp only [bigSepL7]
  iintro ⟨⟨⟨#Hinv, #Hreach, #Hlev⟩, ⟨%W, HO⟩, ⟨⟨⟨⟨Trs1T0, Trr1T0⟩, ⟨Trs1T1, Trr1T1⟩, ⟨Trs1T2, Trr1T2⟩, ⟨Trs1T3, Trr1T3⟩, ⟨Trs1T4, Trr1T4⟩, ⟨Trs1T6, Trr1T6⟩, ⟨Trs1T7, Trr1T7⟩⟩, GTok1⟩, PRed1, ⟨PGs1, PGr1⟩, ⟨⟨⟨%fd0, Drr1T0⟩, ⟨%fd1, Drr1T1⟩, ⟨%fd2, Drr1T2⟩, ⟨%fd3, Drr1T3⟩, ⟨%fd4, Drr1T4⟩, ⟨%fd6, Drr1T6⟩, ⟨%fd7, Drr1T7⟩⟩, GDest1⟩⟩, HL2, ⟨⟨Pgr0S0, Cgr0S0⟩, ⟨Pgr0S1, Cgr0S1⟩, ⟨Pgr0S2, Cgr0S2⟩, ⟨Pgr0S3, Cgr0S3⟩, ⟨Pgr0S4, Cgr0S4⟩, ⟨Pgr0S6, Cgr0S6⟩, ⟨Pgr0S7, Cgr0S7⟩⟩, HPD0, HPrest, ⟨%f0, S0⟩, HSB0, HR1c, HR2c, G0c, G1c, HCA2, ⟨X0, X1, X2, ⟨%x3, %hx3, X3⟩, ⟨%x4, %hx4, X4⟩, X5, X6⟩, H7⟩, Hk⟩
  ihave X3 := (whole_restate c cc0_stg3_0 x3) $$ X3
  ihave X4 := (whole_restate c cc0_stg4_0 x4) $$ X4
  sl_unfold [segB1]
  sl_exec_parts
  -- the wait for device 0's rows
  ihave #Igr0S0 := (invsAll_at m K c (.gr 0 0)) $$ Hinv
  ihave #Mgr0S0 := (mayWait_gr (F := F) c 0 0 (owesRedL c Tsd 1 + owesRedL c Tsd 2 + owesGatL c 1) hAbG0) $$ Hlev
  iapply (wp_gat_recv m 𝒱₀ c 0 0 (by decide) hne0.symm (K (grCell c 0 0)) (sem_gr0_0 _) (gChunk_credit 0 0)) $$ [Cgr0S0 HO Pgr0S0]
  · isplitr; · iexact Igr0S0
    isplitl [Cgr0S0]; · iexact Cgr0S0
    isplitl [HO]; · iexact HO
    isplitr; · iexact Mgr0S0
    iexact Pgr0S0
  iintro ⟨HO, Dgr0S0, #Rgr0S0, Ygr0S0⟩
  sl_exec_parts
  -- the wait for device 1's rows
  ihave #Igr0S1 := (invsAll_at m K c (.gr 0 1)) $$ Hinv
  ihave #Mgr0S1 := (mayWait_gr (F := F) c 0 1 (owesRedL c Tsd 1 + owesRedL c Tsd 2 + owesGatL c 1) hAbG0) $$ Hlev
  iapply (wp_gat_recv m 𝒱₀ c 1 0 (by decide) hne1.symm (K (grCell c 0 1)) (sem_gr0_1 _) (gChunk_credit 0 1)) $$ [Cgr0S1 HO Pgr0S1]
  · isplitr; · iexact Igr0S1
    isplitl [Cgr0S1]; · iexact Cgr0S1
    isplitl [HO]; · iexact HO
    isplitr; · iexact Mgr0S1
    iexact Pgr0S1
  iintro ⟨HO, Dgr0S1, #Rgr0S1, Ygr0S1⟩
  -- rows 0 … 127 of the first activation joined, and the same rows of layer 1's partial product
  ihave Ggr0S0 := (grPay_canon m c 0 0) $$ Ygr0S0
  ihave Ggr0S1 := (grPay_canon m c 1 0) $$ Ygr0S1
  ihave S0 := (whole_restate c cc0_scratch0 f0) $$ S0
  ihave S0 := (whole0_split c fullShare f0) $$ S0
  ihave S0 := (Entails.of_eq (bigSep_layers_devs (fun a => piece c (pChunk a.1 a.2) fullShare f0))) $$ S0
  icases S0 with ⟨PL0, ⟨P1T0, P1T1, P1T2, P1T3, P1T4, P1T5, P1T6, P1T7⟩, PL2⟩
  ihave GG0 := (gGroup_join c 0 0 fullShare (Gfun m c) 0 1 rfl rfl) $$ [Ggr0S0 Ggr0S1]
  · isplitl [Ggr0S0]; · iexact Ggr0S0
    iexact Ggr0S1
  ihave PG0 := (pGroup_join c 1 0 fullShare f0 0 1 rfl rfl) $$ [P1T0 P1T1]
  · isplitl [P1T0]; · iexact P1T0
    iexact P1T1
  sl_exec_parts
  -- the group stored is the canonical partial product on its rows; cut into its two chunks
  have e3 : View.readAt (Elt F) (Memref.whole cc0_stg3_0).view (Rect.unit (s := S256x512) ![0, 0] S256x512.size inb_S256x512_S256x512_0_0).toLoadRect x3 = argW m c 1 :=
    (Memref.readAt_unit_zero (Elt F) cc0_stg3_0 zero2 _ x3).trans hx3
  have e4 : View.readAt (Elt F) (Memref.whole cc0_stg4_0).view (Rect.unit (s := S512x256) ![0, 0] S512x256.size inb_S512x256_S512x256_0_0).toLoadRect x4 = argV m c 1 :=
    (Memref.readAt_unit_zero (Elt F) cc0_stg4_0 zero2 _ x4).trans hx4
  have eG0 : View.readAt (Elt F) (Memref.whole cc0_scratch2).view (Rect.unit (s := S3x512x256) ![0, 0, 0] S1x128x256.size inb_S3x512x256_S1x128x256_0_0_0).toLoadRect (Gfun m c)
      = groupOf (G0 m) 0 := read_G_group m c 0 0 ![0, 0, 0] rfl _
  have hval0 : k0_pay10 (segB1_sound5.sl.r_2 m c x3 x4) = P1grp m c 0 := by
    unfold segB1_sound5.sl.r_2
    rw [e3, e4, eG0]
    rfl
  have hw0 : ∀ i ∈ (rectGrp 1 0).set, segB1_sound5.sl.PG0_w1 m c f0 x3 x4 i = Pfun m c i :=
    stored_P1 m c 0 f0 _ rfl _ _ HEq.rfl hval0
  ihave PG0 := (pGroup_split c 1 0 fullShare _ 0 1 rfl rfl) $$ PG0
  icases PG0 with ⟨P1T0, P1T1⟩
  have hw0T := agree_chunks 1 0 0 1 rfl rfl _ _ hw0
  ihave P1T0 := (Entails.of_eq (pChunk_congr c 1 0 fullShare hw0T.1)) $$ P1T0
  ihave P1T1 := (Entails.of_eq (pChunk_congr c 1 1 fullShare hw0T.2)) $$ P1T1
  ihave #Irs1 := (invsAll_at m K c (.rs 1)) $$ Hinv
  ihave #Rrs1 := (reachedAll_at c (.rs 1)) $$ Hreach
  -- the copy of chunk 0 to device 0
  ihave #Irr1T0 := (invsAll_at m K 0 (.rr 1 c)) $$ Hinv
  ihave #Rrr1T0 := (reachedAll_at 0 (.rr 1 c)) $$ Hreach
  ihave HO := (Entails.of_eq (congrArg (fun o => owes (c : Thread nD τ) o _) (debt_peel c 0 [1, 2, 3, 4, 6, 7] 1 (owesRedL c Tsd 2) (owesGatL c 1)))) $$ HO
  iapply (wp_red_send m 𝒱₀ c 0 1 hne0 (K (rsCell c 1)) (K (rrCell 0 1 c)) (dev23_eq _) (pchunk_lit1_0 _ _) (slot_off32 c _ _)
      (congrArg SemLoc.dma (sem_rs1 _)) (congrArg SemLoc.dma (sem_off31 c _)) (owesRedL c [1, 2, 3, 4, 6, 7] 1 + owesRedL c Tsd 2 + owesGatL c 1) fd0)
    $$ [P1T0 Drr1T0 HO Trs1T0 Trr1T0]
  · isplitr; · iexact Irs1
    isplitr; · iexact Irr1T0
    isplitl [P1T0]; · iexact P1T0
    isplitl [Drr1T0]; · iexact Drr1T0
    isplitl [HO]; · iexact HO
    isplitl [Trs1T0]; · iexact Trs1T0
    isplitr; · iexact Rrs1
    isplitl [Trr1T0]; · iexact Trr1T0
    iexact Rrr1T0
  iintro ⟨Crs1T0, HO⟩
  sl_exec_parts
  -- the copy of chunk 1 to device 1
  ihave #Irr1T1 := (invsAll_at m K 1 (.rr 1 c)) $$ Hinv
  ihave #Rrr1T1 := (reachedAll_at 1 (.rr 1 c)) $$ Hreach
  ihave HO := (Entails.of_eq (congrArg (fun o => owes (c : Thread nD τ) o _) (debt_peel c 1 [2, 3, 4, 6, 7] 1 (owesRedL c Tsd 2) (owesGatL c 1)))) $$ HO
  iapply (wp_red_send m 𝒱₀ c 1 1 hne1 (K (rsCell c 1)) (K (rrCell 1 1 c)) (dev24_eq _) (pchunk_lit1_1 _ _) (slot_off34 c _ _)
      (congrArg SemLoc.dma (sem_rs1 _)) (congrArg SemLoc.dma (sem_off33 c _)) (owesRedL c [2, 3, 4, 6, 7] 1 + owesRedL c Tsd 2 + owesGatL c 1) fd1)
    $$ [P1T1 Drr1T1 HO Trs1T1 Trr1T1]
  · isplitr; · iexact Irs1
    isplitr; · iexact Irr1T1
    isplitl [P1T1]; · iexact P1T1
    isplitl [Drr1T1]; · iexact Drr1T1
    isplitl [HO]; · iexact HO
    isplitl [Trs1T1]; · iexact Trs1T1
    isplitr; · iexact Rrs1
    isplitl [Trr1T1]; · iexact Trr1T1
    iexact Rrr1T1
  iintro ⟨Crs1T1, HO⟩
  sl_exec_parts
  -- the wait for device 2's rows
  ihave #Igr0S2 := (invsAll_at m K c (.gr 0 2)) $$ Hinv
  ihave #Mgr0S2 := (mayWait_gr (F := F) c 0 2 (owesRedL c [2, 3, 4, 6, 7] 1 + owesRedL c Tsd 2 + owesGatL c 1) hAbG1) $$ Hlev
  iapply (wp_gat_recv m 𝒱₀ c 2 0 (by decide) hne2.symm (K (grCell c 0 2)) (sem_gr0_2 _) (gChunk_credit 0 2)) $$ [Cgr0S2 HO Pgr0S2]
  · isplitr; · iexact Igr0S2
    isplitl [Cgr0S2]; · iexact Cgr0S2
    isplitl [HO]; · iexact HO
    isplitr; · iexact Mgr0S2
    iexact Pgr0S2
  iintro ⟨HO, Dgr0S2, #Rgr0S2, Ygr0S2⟩
  sl_exec_parts
  -- the wait for device 3's rows
  ihave #Igr0S3 := (invsAll_at m K c (.gr 0 3)) $$ Hinv
  ihave #Mgr0S3 := (mayWait_gr (F := F) c 0 3 (owesRedL c [2, 3, 4, 6, 7] 1 + owesRedL c Tsd 2 + owesGatL c 1) hAbG1) $$ Hlev
  iapply (wp_gat_recv m 𝒱₀ c 3 0 (by decide) hne3.symm (K (grCell c 0 3)) (sem_gr0_3 _) (gChunk_credit 0 3)) $$ [Cgr0S3 HO Pgr0S3]
  · isplitr; · iexact Igr0S3
    isplitl [Cgr0S3]; · iexact Cgr0S3
    isplitl [HO]; · iexact HO
    isplitr; · iexact Mgr0S3
    iexact Pgr0S3
  iintro ⟨HO, Dgr0S3, #Rgr0S3, Ygr0S3⟩
  -- rows 128 … 255 of the first activation joined, and the same rows of layer 1's partial product
  ihave Ggr0S2 := (grPay_canon m c 2 0) $$ Ygr0S2
  ihave Ggr0S3 := (grPay_canon m c 3 0) $$ Ygr0S3
  ihave GG1 := (gGroup_join c 0 1 fullShare (Gfun m c) 2 3 rfl rfl) $$ [Ggr0S2 Ggr0S3]
  · isplitl [Ggr0S2]; · iexact Ggr0S2
    iexact Ggr0S3
  ihave PG1 := (pGroup_join c 1 1 fullShare f0 2 3 rfl rfl) $$ [P1T2 P1T3]
  · isplitl [P1T2]; · iexact P1T2
    iexact P1T3
  sl_exec_parts
  -- the group stored is the canonical partial product on its rows; cut into its two chunks
  have eG1 : View.readAt (Elt F) (Memref.whole cc0_scratch2).view (Rect.unit (s := S3x512x256) ![0, 128, 0] S1x128x256.size inb_S3x512x256_S1x128x256_0_128_0).toLoadRect (Gfun m c)
      = groupOf (G0 m) 1 := read_G_group m c 0 1 ![0, 128, 0] rfl _
  have hw1 : ∀ i ∈ (rectGrp 1 1).set, segB1_sound5.sl.PG1_w1 m c f0 x3 x4 i = Pfun m c i :=
    stored_P1 m c 1 f0 _ rfl _ _ HEq.rfl (by
      unfold segB1_sound5.sl.r segB1_sound5.sl.r_1
      rw [e3, e4, eG1]
      rfl)
  ihave PG1 := (pGroup_split c 1 1 fullShare _ 2 3 rfl rfl) $$ PG1
  icases PG1 with ⟨P1T2, P1T3⟩
  have hw1T := agree_chunks 1 1 2 3 rfl rfl _ _ hw1
  ihave P1T2 := (Entails.of_eq (pChunk_congr c 1 2 fullShare hw1T.1)) $$ P1T2
  ihave P1T3 := (Entails.of_eq (pChunk_congr c 1 3 fullShare hw1T.2)) $$ P1T3
  -- the copy of chunk 2 to device 2
  ihave #Irr1T2 := (invsAll_at m K 2 (.rr 1 c)) $$ Hinv
  ihave #Rrr1T2 := (reachedAll_at 2 (.rr 1 c)) $$ Hreach
  ihave HO := (Entails.of_eq (congrArg (fun o => owes (c : Thread nD τ) o _) (debt_peel c 2 [3, 4, 6, 7] 1 (owesRedL c Tsd 2) (owesGatL c 1)))) $$ HO
  iapply (wp_red_send m 𝒱₀ c 2 1 hne2 (K (rsCell c 1)) (K (rrCell 2 1 c)) (dev25_eq _) (pchunk_lit1_2 _ _) (slot_off36 c _ _)
      (congrArg SemLoc.dma (sem_rs1 _)) (congrArg SemLoc.dma (sem_off35 c _)) (owesRedL c [3, 4, 6, 7] 1 + owesRedL c Tsd 2 + owesGatL c 1) fd2)
    $$ [P1T2 Drr1T2 HO Trs1T2 Trr1T2]
  · isplitr; · iexact Irs1
    isplitr; · iexact Irr1T2
    isplitl [P1T2]; · iexact P1T2
    isplitl [Drr1T2]; · iexact Drr1T2
    isplitl [HO]; · iexact HO
    isplitl [Trs1T2]; · iexact Trs1T2
    isplitr; · iexact Rrs1
    isplitl [Trr1T2]; · iexact Trr1T2
    iexact Rrr1T2
  iintro ⟨Crs1T2, HO⟩
  sl_exec_parts
  -- the copy of chunk 3 to device 3
  ihave #Irr1T3 := (invsAll_at m K 3 (.rr 1 c)) $$ Hinv
  ihave #Rrr1T3 := (reachedAll_at 3 (.rr 1 c)) $$ Hreach
  ihave HO := (Entails.of_eq (congrArg (fun o => owes (c : Thread nD τ) o _) (debt_peel c 3 [4, 6, 7] 1 (owesRedL c Tsd 2) (owesGatL c 1)))) $$ HO
  iapply (wp_red_send m 𝒱₀ c 3 1 hne3 (K (rsCell c 1)) (K (rrCell 3 1 c)) (dev26_eq _) (pchunk_lit1_3 _ _) (slot_off38 c _ _)
      (congrArg SemLoc.dma (sem_rs1 _)) (congrArg SemLoc.dma (sem_off37 c _)) (owesRedL c [4, 6, 7] 1 + owesRedL c Tsd 2 + owesGatL c 1) fd3)
    $$ [P1T3 Drr1T3 HO Trs1T3 Trr1T3]
  · isplitr; · iexact Irs1
    isplitr; · iexact Irr1T3
    isplitl [P1T3]; · iexact P1T3
    isplitl [Drr1T3]; · iexact Drr1T3
    isplitl [HO]; · iexact HO
    isplitl [Trs1T3]; · iexact Trs1T3
    isplitr; · iexact Rrs1
    isplitl [Trr1T3]; · iexact Trr1T3
    iexact Rrr1T3
  iintro ⟨Crs1T3, HO⟩
  sl_exec_parts
  -- the wait for device 4's rows
  ihave #Igr0S4 := (invsAll_at m K c (.gr 0 4)) $$ Hinv
  ihave #Mgr0S4 := (mayWait_gr (F := F) c 0 4 (owesRedL c [4, 6, 7] 1 + owesRedL c Tsd 2 + owesGatL c 1) hAbG2) $$ Hlev
  iapply (wp_gat_recv m 𝒱₀ c 4 0 (by decide) hne4.symm (K (grCell c 0 4)) (sem_gr0_4 _) (gChunk_credit 0 4)) $$ [Cgr0S4 HO Pgr0S4]
  · isplitr; · iexact Igr0S4
    isplitl [Cgr0S4]; · iexact Cgr0S4
    isplitl [HO]; · iexact HO
    isplitr; · iexact Mgr0S4
    iexact Pgr0S4
  iintro ⟨HO, Dgr0S4, #Rgr0S4, Ygr0S4⟩
  -- rows 256 … 383 of the first activation joined, and the same rows of layer 1's partial product
  ihave Ggr0S4 := (grPay_canon m c 4 0) $$ Ygr0S4
  ihave G0c := (Entails.of_eq (congrArg (fun t => (piece c (gChunk 0 t) fullShare (Gfun m c) : sProp 𝕄)) hc)) $$ G0c
  ihave GG2 := (gGroup_join c 0 2 fullShare (Gfun m c) 4 5 rfl rfl) $$ [Ggr0S4 G0c]
  · isplitl [Ggr0S4]; · iexact Ggr0S4
    iexact G0c
  ihave PG2 := (pGroup_join c 1 2 fullShare f0 4 5 rfl rfl) $$ [P1T4 P1T5]
  · isplitl [P1T4]; · iexact P1T4
    iexact P1T5
  sl_exec_parts
  -- the group stored is the canonical partial product on its rows; cut into its two chunks
  have eG2 : View.readAt (Elt F) (Memref.whole cc0_scratch2).view (Rect.unit (s := S3x512x256) ![0, 256, 0] S1x128x256.size inb_S3x512x256_S1x128x256_0_256_0).toLoadRect (Gfun m c)
      = groupOf (G0 m) 2 := read_G_group m c 0 2 ![0, 256, 0] rfl _
  have hw2 : ∀ i ∈ (rectGrp 1 2).set, segB1_sound5.sl.PG2_w1 m c f0 x3 x4 i = Pfun m c i :=
    stored_P1 m c 2 f0 _ rfl _ _ HEq.rfl (by
      unfold segB1_sound5.sl.r segB1_sound5.sl.r_1
      rw [e3, e4, eG2]
      rfl)
  ihave PG2 := (pGroup_split c 1 2 fullShare _ 4 5 rfl rfl) $$ PG2
  icases PG2 with ⟨P1T4, P1T5⟩
  have hw2T := agree_chunks 1 2 4 5 rfl rfl _ _ hw2
  ihave P1T4 := (Entails.of_eq (pChunk_congr c 1 4 fullShare hw2T.1)) $$ P1T4
  ihave P1T5 := (Entails.of_eq (pChunk_congr c 1 5 fullShare hw2T.2)) $$ P1T5
  -- the copy of chunk 4 to device 4
  ihave #Irr1T4 := (invsAll_at m K 4 (.rr 1 c)) $$ Hinv
  ihave #Rrr1T4 := (reachedAll_at 4 (.rr 1 c)) $$ Hreach
  ihave HO := (Entails.of_eq (congrArg (fun o => owes (c : Thread nD τ) o _) (debt_peel c 4 [6, 7] 1 (owesRedL c Tsd 2) (owesGatL c 1)))) $$ HO
  iapply (wp_red_send m 𝒱₀ c 4 1 hne4 (K (rsCell c 1)) (K (rrCell 4 1 c)) (dev27_eq _) (pchunk_lit1_4 _ _) (slot_off40 c _ _)
      (congrArg SemLoc.dma (sem_rs1 _)) (congrArg SemLoc.dma (sem_off39 c _)) (owesRedL c [6, 7] 1 + owesRedL c Tsd 2 + owesGatL c 1) fd4)
    $$ [P1T4 Drr1T4 HO Trs1T4 Trr1T4]
  · isplitr; · iexact Irs1
    isplitr; · iexact Irr1T4
    isplitl [P1T4]; · iexact P1T4
    isplitl [Drr1T4]; · iexact Drr1T4
    isplitl [HO]; · iexact HO
    isplitl [Trs1T4]; · iexact Trs1T4
    isplitr; · iexact Rrs1
    isplitl [Trr1T4]; · iexact Trr1T4
    iexact Rrr1T4
  iintro ⟨Crs1T4, HO⟩
  sl_exec_parts
  -- the wait for device 6's rows
  ihave #Igr0S6 := (invsAll_at m K c (.gr 0 6)) $$ Hinv
  ihave #Mgr0S6 := (mayWait_gr (F := F) c 0 6 (owesRedL c [6, 7] 1 + owesRedL c Tsd 2 + owesGatL c 1) hAbG3) $$ Hlev
  iapply (wp_gat_recv m 𝒱₀ c 6 0 (by decide) hne6.symm (K (grCell c 0 6)) (sem_gr0_6 _) (gChunk_credit 0 6)) $$ [Cgr0S6 HO Pgr0S6]
  · isplitr; · iexact Igr0S6
    isplitl [Cgr0S6]; · iexact Cgr0S6
    isplitl [HO]; · iexact HO
    isplitr; · iexact Mgr0S6
    iexact Pgr0S6
  iintro ⟨HO, Dgr0S6, #Rgr0S6, Ygr0S6⟩
  sl_exec_parts
  -- the wait for device 7's rows
  ihave #Igr0S7 := (invsAll_at m K c (.gr 0 7)) $$ Hinv
  ihave #Mgr0S7 := (mayWait_gr (F := F) c 0 7 (owesRedL c [6, 7] 1 + owesRedL c Tsd 2 + owesGatL c 1) hAbG3) $$ Hlev
  iapply (wp_gat_recv m 𝒱₀ c 7 0 (by decide) hne7.symm (K (grCell c 0 7)) (sem_gr0_7 _) (gChunk_credit 0 7)) $$ [Cgr0S7 HO Pgr0S7]
  · isplitr; · iexact Igr0S7
    isplitl [Cgr0S7]; · iexact Cgr0S7
    isplitl [HO]; · iexact HO
    isplitr; · iexact Mgr0S7
    iexact Pgr0S7
  iintro ⟨HO, Dgr0S7, #Rgr0S7, Ygr0S7⟩
  -- rows 384 … 511 of the first activation joined, and the same rows of layer 1's partial product
  ihave Ggr0S6 := (grPay_canon m c 6 0) $$ Ygr0S6
  ihave Ggr0S7 := (grPay_canon m c 7 0) $$ Ygr0S7
  ihave GG3 := (gGroup_join c 0 3 fullShare (Gfun m c) 6 7 rfl rfl) $$ [Ggr0S6 Ggr0S7]
  · isplitl [Ggr0S6]; · iexact Ggr0S6
    iexact Ggr0S7
  ihave PG3 := (pGroup_join c 1 3 fullShare f0 6 7 rfl rfl) $$ [P1T6 P1T7]
  · isplitl [P1T6]; · iexact P1T6
    iexact P1T7
  sl_exec_parts
  -- the group stored is the canonical partial product on its rows; cut into its two chunks
  have eG3 : View.readAt (Elt F) (Memref.whole cc0_scratch2).view (Rect.unit (s := S3x512x256) ![0, 384, 0] S1x128x256.size inb_S3x512x256_S1x128x256_0_384_0).toLoadRect (Gfun m c)
      = groupOf (G0 m) 3 := read_G_group m c 0 3 ![0, 384, 0] rfl _
  have hw3 : ∀ i ∈ (rectGrp 1 3).set, segB1_sound5.sl.PG3_w1 m c f0 x3 x4 i = Pfun m c i :=
    stored_P1 m c 3 f0 _ rfl _ _ HEq.rfl (by
      unfold segB1_sound5.sl.r segB1_sound5.sl.r_1
      rw [e3, e4, eG3]
      rfl)
  ihave PG3 := (pGroup_split c 1 3 fullShare _ 6 7 rfl rfl) $$ PG3
  icases PG3 with ⟨P1T6, P1T7⟩
  have hw3T := agree_chunks 1 3 6 7 rfl rfl _ _ hw3
  ihave P1T6 := (Entails.of_eq (pChunk_congr c 1 6 fullShare hw3T.1)) $$ P1T6
  ihave P1T7 := (Entails.of_eq (pChunk_congr c 1 7 fullShare hw3T.2)) $$ P1T7
  -- the copy of chunk 6 to device 6
  ihave #Irr1T6 := (invsAll_at m K 6 (.rr 1 c)) $$ Hinv
  ihave #Rrr1T6 := (reachedAll_at 6 (.rr 1 c)) $$ Hreach
  ihave HO := (Entails.of_eq (congrArg (fun o => owes (c : Thread nD τ) o _) (debt_peel c 6 [7] 1 (owesRedL c Tsd 2) (owesGatL c 1)))) $$ HO
  iapply (wp_red_send m 𝒱₀ c 6 1 hne6 (K (rsCell c 1)) (K (rrCell 6 1 c)) (dev29_eq _) (pchunk_lit1_6 _ _) (slot_off44 c _ _)
      (congrArg SemLoc.dma (sem_rs1 _)) (congrArg SemLoc.dma (sem_off43 c _)) (owesRedL c [7] 1 + owesRedL c Tsd 2 + owesGatL c 1) fd6)
    $$ [P1T6 Drr1T6 HO Trs1T6 Trr1T6]
  · isplitr; · iexact Irs1
    isplitr; · iexact Irr1T6
    isplitl [P1T6]; · iexact P1T6
    isplitl [Drr1T6]; · iexact Drr1T6
    isplitl [HO]; · iexact HO
    isplitl [Trs1T6]; · iexact Trs1T6
    isplitr; · iexact Rrs1
    isplitl [Trr1T6]; · iexact Trr1T6
    iexact Rrr1T6
  iintro ⟨Crs1T6, HO⟩
  sl_exec_parts
  -- the copy of chunk 7 to device 7
  ihave #Irr1T7 := (invsAll_at m K 7 (.rr 1 c)) $$ Hinv
  ihave #Rrr1T7 := (reachedAll_at 7 (.rr 1 c)) $$ Hreach
  ihave HO := (Entails.of_eq (congrArg (fun o => owes (c : Thread nD τ) o _) (debt_peel c 7 [] 1 (owesRedL c Tsd 2) (owesGatL c 1)))) $$ HO
  iapply (wp_red_send m 𝒱₀ c 7 1 hne7 (K (rsCell c 1)) (K (rrCell 7 1 c)) (dev30_eq _) (pchunk_lit1_7 _ _) (slot_off46 c _ _)
      (congrArg SemLoc.dma (sem_rs1 _)) (congrArg SemLoc.dma (sem_off45 c _)) (owesRedL c [] 1 + owesRedL c Tsd 2 + owesGatL c 1) fd7)
    $$ [P1T7 Drr1T7 HO Trs1T7 Trr1T7]
  · isplitr; · iexact Irs1
    isplitr; · iexact Irr1T7
    isplitl [P1T7]; · iexact P1T7
    isplitl [Drr1T7]; · iexact Drr1T7
    isplitl [HO]; · iexact HO
    isplitl [Trs1T7]; · iexact Trs1T7
    isplitr; · iexact Rrs1
    isplitl [Trr1T7]; · iexact Trr1T7
    iexact Rrr1T7
  iintro ⟨Crs1T7, HO⟩
  ihave P1T5 := (Entails.of_eq (congrArg (fun t => (piece c (pChunk 1 t) fullShare (Pfun m c) : sProp 𝕄)) hc.symm)) $$ P1T5
  ihave P1own := (Entails.of_eq (pRows_eq c 1 c fullShare (Pfun m c)).symm) $$ P1T5
  sl_exec_parts
  have eOwn : View.readAt (Elt F) (Memref.whole cc0_scratch0).view (Rect.unit (s := S3x512x256) (k0_off47 c) S1x64x256.size (k0_off47_inb c)).toLoadRect (Pfun m c)
      = chunkOf (P1 m c) c := read_P_chunk m c 1 c (k0_off47 c) (k0_off47_eq c) _
  iapply (ret_intro _ Kt c)
  iapply (Entails.of_eq (congrArg (fun x => (Kt ⟨k0_pay14 x, segB1_sound5.sl.v466 c⟩ : sProp 𝕄)) eOwn.symm))
  ihave GG0 := (gGroup_split c 0 0 fullShare (Gfun m c) 0 1 rfl rfl) $$ GG0
  icases GG0 with ⟨G0T0, G0T1⟩
  ihave GG1 := (gGroup_split c 0 1 fullShare (Gfun m c) 2 3 rfl rfl) $$ GG1
  icases GG1 with ⟨G0T2, G0T3⟩
  ihave GG2 := (gGroup_split c 0 2 fullShare (Gfun m c) 4 5 rfl rfl) $$ GG2
  icases GG2 with ⟨G0T4, G0T5⟩
  ihave GG3 := (gGroup_split c 0 3 fullShare (Gfun m c) 6 7 rfl rfl) $$ GG3
  icases GG3 with ⟨G0T6, G0T7⟩
  ihave G0T5 := (Entails.of_eq (congrArg (fun t => (piece c (gChunk 0 t) fullShare (Gfun m c) : sProp 𝕄)) hc.symm)) $$ G0T5
  ihave P1own := (Entails.of_eq (pRows_eq c 1 c fullShare (Pfun m c))) $$ P1own
  ihave X3 := (stg_of_whole c cc0_stg3_0 (argW m c 1) x3 hx3) $$ X3
  ihave X4 := (stg_of_whole c cc0_stg4_0 (argV m c 1) x4 hx4) $$ X4
  ihave HO := (Entails.of_eq (congrArg (fun o => owes (c : Thread nD τ) o _) (debt_done c 1 (owesRedL c Tsd 2) (owesGatL c 1)))) $$ HO
  iapply Hk
  isplitr
  · isplitr; · iexact Hinv
    isplitr; · iexact Hreach
    iexact Hlev
  isplitr; · ipureintro; trivial
  isplitl [HO]; · iexists _; iexact HO
  isplitl [GTok1]; · iexact GTok1
  isplitl [GDest1]; · iexact GDest1
  isplitl [PRed1]; · iexact PRed1
  isplitl [PGs1]; · iexact PGs1
  isplitl [PGr1]; · iexact PGr1
  isplitl [Crs1T0 Crs1T1 Crs1T2 Crs1T3 Crs1T4 Crs1T6 Crs1T7]
  · isplitl [Crs1T0]; · iexact Crs1T0
    isplitl [Crs1T1]; · iexact Crs1T1
    isplitl [Crs1T2]; · iexact Crs1T2
    isplitl [Crs1T3]; · iexact Crs1T3
    isplitl [Crs1T4]; · iexact Crs1T4
    isplitl [Crs1T6]; · iexact Crs1T6
    iexact Crs1T7
  isplitl [HL2]; · iexact HL2
  isplitl [HPD0]; · iexact HPD0
  isplitl [Dgr0S0 Dgr0S1 Dgr0S2 Dgr0S3 Dgr0S4 Dgr0S6 Dgr0S7]
  · isplitl [Dgr0S0]; · iexact Dgr0S0
    isplitl [Dgr0S1]; · iexact Dgr0S1
    isplitl [Dgr0S2]; · iexact Dgr0S2
    isplitl [Dgr0S3]; · iexact Dgr0S3
    isplitl [Dgr0S4]; · iexact Dgr0S4
    isplitl [Dgr0S6]; · iexact Dgr0S6
    iexact Dgr0S7
  isplitl [HPrest]; · iexact HPrest
  isplitl [PL0]; · iapply (slab_ex c 0 f0); iexact PL0
  isplitl [P1own]; · iapply (ex_intro c (pChunk 1 c) (Pfun m c)); iexact P1own
  isplitl [PL2]; · iapply (slab_ex c 2 f0); iexact PL2
  isplitl [HSB0]; · iexact HSB0
  isplitl [HR1c]; · iexact HR1c
  isplitl [HR2c]; · iexact HR2c
  isplitl [G0T0 G0T1 G0T2 G0T3 G0T4 G0T5 G0T6 G0T7]
  · isplitl [G0T5]; · iapply (ex_intro c (gChunk 0 c) (Gfun m c)); iexact G0T5
    isplitl [G0T0]; · iapply (ex_intro c (gChunk 0 0) (Gfun m c)); iexact G0T0
    isplitl [G0T1]; · iapply (ex_intro c (gChunk 0 1) (Gfun m c)); iexact G0T1
    isplitl [G0T2]; · iapply (ex_intro c (gChunk 0 2) (Gfun m c)); iexact G0T2
    isplitl [G0T3]; · iapply (ex_intro c (gChunk 0 3) (Gfun m c)); iexact G0T3
    isplitl [G0T4]; · iapply (ex_intro c (gChunk 0 4) (Gfun m c)); iexact G0T4
    isplitl [G0T6]; · iapply (ex_intro c (gChunk 0 6) (Gfun m c)); iexact G0T6
    iapply (ex_intro c (gChunk 0 7) (Gfun m c)); iexact G0T7
  isplitl [G1c]; · iexact G1c
  isplitl [HCA2]; · iexact HCA2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segB1_sound5' depends on axioms: [propext, Classical.choice, Quot.sound] -/
#guard_msgs in #print axioms segB1_sound5

end Cert.KernelProof

end
-- ==== Proof.K.BodySegB2_d5.lean ====
import proofs.«900993_g7700000000000994_dist_mlpseq_tp1d_rep_bs_b512_d256_h512_v7x_i8_bf16_1_alg».proof.Proof.K.BodySegBCut
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 1 on the device at position 5: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound5 (c : Dev nD) (hc : c = 5) (K : GSem nD τ sig → ℕ) (Kt : PUnit → sProp 𝕄) (v463 : FVec F S64x256 .f32) (v466 : BitVec 32) :
    iprop(midB m K c [(0 : Dev nD), 1, 2, 3, 4, 6, 7] v463 ∗ (mid2 m K c [(0 : Dev nD), 1, 2, 3, 4, 6, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : ¬ k0_cond38 c = 1#1 := fun h => (cond38_iff c).mp h hc
  have hg39 : k0_cond39 c = 1#1 := (cond39_iff c).mpr (by rw [hc]; decide)
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 2, 3, 4, 6, 7] 2) := by
    unfold owesRedL
    simp only [List.map_cons, List.map_nil, List.sum_cons, List.sum_nil]
    owes_above
  have hdebt : owesRedL c [(0 : Dev nD), 1, 2, 3, 4, 6, 7] 2 + owesGatL c 1
      = owesRedL c [(0 : Dev nD), 1, 2, 3, 4, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 3, 4, 6, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound5.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound5.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound5.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound5.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound5.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound5.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound5.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound5.sl.r_2 m c a1 a2 a3 a4 a5 a6) (segB2_sound5.sl.v572 m c a7) = red1 m c := by
    intro a1 a2 a3 a4 a5 a6 a7
    unfold segB2_sound5.sl.r_2 segB2_sound5.sl.r_1 segB2_sound5.sl.r
    rw [e476, e492, e508, e524, e540, e556, e572]
    rfl
  have hG1 : ∀ i ∈ (gChunk 1 c).view.set, segB2_sound5.sl.G1c_w1 m c g1 fs1 fs2 fs3 fs4 fs5 fs6 fs7 i = Gfun m c i := by
    intro i hi
    unfold segB2_sound5.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelProof.segB2_sound5' depends on axioms: [propext, Classical.choice, Quot.sound] -/
#guard_msgs in #print axioms segB2_sound5

end Cert.KernelProof

end
-- ==== Proof.K.BodySegC1_d5.lean ====
import proofs.«900993_g7700000000000994_dist_mlpseq_tp1d_rep_bs_b512_d256_h512_v7x_i8_bf16_1_alg».proof.Proof.K.BodySegC1Lib
import Idealize.ShloMosaic.Lib.Tactic

/-! The first half of layer 2 on the device at position 5: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 5 owes for layer 2, the summands in the reverse of the order its sends pay them. -/
theorem owesRedL_rev_d5 (c : Dev nD) :
    owesRedL c [(0 : Dev nD), 1, 2, 3, 4, 6, 7] 2 = 0 + T2 c 7 + T2 c 6 + T2 c 4 + T2 c 3 + T2 c 2 + T2 c 1 + T2 c 0 := by
  unfold owesRedL T2
  simp only [List.map, List.sum_cons, List.sum_nil]
  abel

theorem segC1_sound5 (c : Dev nD) (hc : c = 5) (K : GSem nD τ sig → ℕ) (Kt : PUnit → sProp 𝕄) :
    iprop(mid2 m K c [(0 : Dev nD), 1, 2, 3, 4, 6, 7] ∗ (mid3 m K c [(0 : Dev nD), 1, 2, 3, 4, 6, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne6 : c ≠ (6 : Dev nD) := by rw [hc]; decide
  have hne7 : c ≠ (7 : Dev nD) := by rw [hc]; decide
  have hw0 := (condw0_iff c).mpr hne0
  have hw1 := (condw1_iff c).mpr hne1
  have hw2 := (condw2_iff c).mpr hne2
  have hw3 := (condw3_iff c).mpr hne3
  have hw4 := (condw4_iff c).mpr hne4
  have hw5 : ¬ _ := fun h => (condw5_iff c).mp h hc
  have hw6 := (condw6_iff c).mpr hne6
  have hw7 := (condw7_iff c).mpr hne7
  have hg43 : k0_cond43 c = 1#1 := (cond43_iff c).mpr hne0
  have hg44 : k0_cond44 c = 1#1 := (cond44_iff c).mpr hne1
  have hg47 : k0_cond47 c = 1#1 := (cond47_iff c).mpr hne2
  have hg48 : k0_cond48 c = 1#1 := (cond48_iff c).mpr hne3
  have hg51 : k0_cond51 c = 1#1 := (cond51_iff c).mpr hne4
  have hg52 : ¬ k0_cond52 c = 1#1 := fun h => (cond52_iff c).mp h hc
  have hg55 : k0_cond55 c = 1#1 := (cond55_iff c).mpr hne6
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts3, Tr3⟩, ⟨Ts4, Tr4⟩, ⟨Ts6, Tr6⟩, ⟨Ts7, Tr7⟩⟩, -⟩, HposRed2, -, Hdest⟩, ⟨⟨Pg0, Cg0⟩, ⟨Pg1, Cg1⟩, ⟨Pg2, Cg2⟩, ⟨Pg3, Cg3⟩, ⟨Pg4, Cg4⟩, ⟨Pg6, Cg6⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d5 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 6 + T2 c 4 + T2 c 3 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 6 + T2 c 4 + T2 c 3 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound5.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 6 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 6 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound5.sl.PG1_w1 segC1_sound5.sl.r segC1_sound5.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 6 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  -- the device's own rows are chunk 5 of the group
  ihave Gc5 := (Entails.of_eq (congrArg (fun t : Dev nD => (piece c (gChunk 1 t) fullShare (Gfun m c) : sProp 𝕄)) hc)) $$ Hg1c
  ihave GG2 := (gGroup_join c 1 2 fullShare (Gfun m c) 4 5 rfl rfl) $$ [Gc4 Gc5]
  · isplitl [Gc4] <;> iassumption
  sl_exec
  -- group 2 of layer 2 now holds the device's partial product
  unfold segC1_sound5.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the wait for device 6's rows of the second activation
  ihave Ig := (invsAll_at m K c (.gr 1 6)) $$ Hinv
  ihave Hmw := (mayWait_gr (F := F) c 1 6 (0 + T2 c 7 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  sl_exec
  -- the wait for device 7's rows of the second activation
  ihave Ig := (invsAll_at m K c (.gr 1 7)) $$ Hinv
  ihave Hmw := (mayWait_gr (F := F) c 1 7 (0 + T2 c 7 + T2 c 6) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  ihave GG3 := (gGroup_join c 1 3 fullShare (Gfun m c) 6 7 rfl rfl) $$ [Gc6 Gc7]
  · isplitl [Gc6] <;> iassumption
  sl_exec
  -- group 3 of layer 2 now holds the device's partial product
  unfold segC1_sound5.sl.PG3_w1 segC1_sound5.sl.r_2 segC1_sound5.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs3 Cs4 Cs6 Cs7]
  · rw [sepL7]
    isplitl [Cs0]; · iexact Cs0
    isplitl [Cs1]; · iexact Cs1
    isplitl [Cs2]; · iexact Cs2
    isplitl [Cs3]; · iexact Cs3
    isplitl [Cs4]; · iexact Cs4
    isplitl [Cs6]; · iexact Cs6
    iexact Cs7
  isplitl [Hpd0]; · iexact Hpd0
  isplitl [Hpd1]; · iexact Hpd1
  isplitl [HpdG0]; · iexact HpdG0
  isplitl [Pg0 Pg1 Pg2 Pg3 Pg4 Pg6 Pg7]
  · rw [sepL7]
    isplitl [Pg0]; · iexact Pg0
    isplitl [Pg1]; · iexact Pg1
    isplitl [Pg2]; · iexact Pg2
    isplitl [Pg3]; · iexact Pg3
    isplitl [Pg4]; · iexact Pg4
    isplitl [Pg6]; · iexact Pg6
    iexact Pg7
  isplitl [Hrest]; · iexact Hrest
  -- layer 0 of the partial-product buffer: its eight chunks, at whatever they hold
  isplitl [A00 A01 A02 A03 A04 A05 A06 A07]
  · unfold chunksP
    rw [sepL7]
    isplitl [A05]
    · iapply (Entails.of_eq (congrArg (fun t : Dev nD => (ex (F := F) c (pChunk 0 t) : sProp 𝕄)) hc.symm))
      iapply (ex_of c (pChunk 0 5) _); iexact A05
    isplitl [A00]; · iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A04]; · iapply (ex_of c (pChunk 0 4) _); iexact A04
    isplitl [A06]; · iapply (ex_of c (pChunk 0 6) _); iexact A06
    iapply (ex_of c (pChunk 0 7) _); iexact A07
  -- layer 1 of the partial-product buffer: its eight chunks, at whatever they hold
  isplitl [A10 A11 A12 A13 A14 A15 A16 A17]
  · unfold chunksP
    rw [sepL7]
    isplitl [A15]
    · iapply (Entails.of_eq (congrArg (fun t : Dev nD => (ex (F := F) c (pChunk 1 t) : sProp 𝕄)) hc.symm))
      iapply (ex_of c (pChunk 1 5) _); iexact A15
    isplitl [A10]; · iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A14]; · iapply (ex_of c (pChunk 1 4) _); iexact A14
    isplitl [A16]; · iapply (ex_of c (pChunk 1 6) _); iexact A16
    iapply (ex_of c (pChunk 1 7) _); iexact A17
  -- the device's own chunk of layer 2, holding its partial product
  isplitl [B25]
  · iapply (Entails.of_eq (congrArg (fun t : Dev nD => (piece c (pChunk 2 t) fullShare (Pfun m c) : sProp 𝕄)) hc.symm)); iexact B25
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G15]
    · iapply (Entails.of_eq (congrArg (fun t : Dev nD => (ex (F := F) c (gChunk 1 t) : sProp 𝕄)) hc.symm))
      iapply (ex_of c (gChunk 1 5) _); iexact G15
    isplitl [G10]; · iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G14]; · iapply (ex_of c (gChunk 1 4) _); iexact G14
    isplitl [G16]; · iapply (ex_of c (gChunk 1 6) _); iexact G16
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelProof.segC1_sound5' depends on axioms: [propext, Classical.choice, Quot.sound] -/
#guard_msgs in #print axioms segC1_sound5

end Cert.KernelProof

end
-- ==== Proof.K.BodySegC2_d5.lean ====
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.BodyExit
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 2 on the device at position 5: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound5 (c : Dev nD) (hc : c = 5) (K : GSem nD τ sig → ℕ) (Kt : PUnit → sProp 𝕄) :
    iprop(mid3 m K c [(0 : Dev nD), 1, 2, 3, 4, 6, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 3, 4, 6, 7]).toFinset := by subst hc; decide
  have hnd : ([(0 : Dev nD), 1, 2, 3, 4, 6, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : ¬ k0_cond62 c = 1#1 := fun h => (cond62_iff c).mp h hc
  have hg63 : k0_cond63 c = 1#1 := (cond63_iff c).mpr (by rw [hc]; decide)
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound5.sl.v846 m c : Vec F S1x64x256 .bf16) = chunkOf (P2 m c) c := own_chunk_read m c _
  have e861 : ∀ a, (segC2_sound5.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound5.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound5.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound5.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound5.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound5.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound5.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound5.sl.r_3 m c a1 a2 a3 a4 a5 a6) (segC2_sound5.sl.v957 m c a7) = red2 m c := by
    intro a1 a2 a3 a4 a5 a6 a7
    unfold segC2_sound5.sl.r_3 segC2_sound5.sl.r_2 segC2_sound5.sl.r_1 segC2_sound5.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound5.sl.r_3 m c fs1 fs2 fs3 fs4 fs5 fs6) (segC2_sound5.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelProof.segC2_sound5' depends on axioms: [propext, Classical.choice, Quot.sound] -/
#guard_msgs in #print axioms segC2_sound5

end Cert.KernelProof

end
-- ==== Proof.K.BodySegA1a_d6.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.PreludeDevs
import proofs.«900993_g7700000000000994_dist_mlpseq_tp1d_rep_bs_b512_d256_h512_v7x_i8_bf16_1_alg».proof.Proof.K.StepsEntry
import Idealize.ShloMosaic.Lib.Tactic

/-! The entry and layer 0 on device 6, first half: from the body's start to the point where the device has enqueued its
    seven reduce copies of layer 0 and read its own chunk.

    The device signals its seven peers along the ring, one unit to each barrier cell: each signal pays the device's
    duty at that cell and hands the peer the pieces of the device's buffers the peer's copies will land in. It waits for
    the seven signals to itself, the whole round of its barrier cell, and receives in turn the pieces of its peers'
    buffers its own copies land in. It then makes layer 0's partial product from the staged arguments by the body's own
    arithmetic and stores it over layer 0 of the partial-product buffer, which from then on holds the canonical partial
    product there; cut into 64-row chunks, each chunk but the device's own is lent to the copy towards the device that
    reduces those rows, which pays duty `t` of the device's reduce-send cell and the one duty of the target's
    reduce-receive cell, settles what the device owed that cell, and earns the credit for a later wait on the send
    cell. The own chunk is read last, as the accumulation's first term. What the device holds then — the tokens,
    positions and credit of everything still to come, regrouped layer by layer — is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 3, 4, 5, 7]

/-- A step rule stated with its continuation as a wand, read with the continuation as a second conjunct. -/
private theorem step_uncurry {P R G : sProp 𝕄} (h : P ⊢ iprop(R -∗ G)) : iprop(P ∗ R) ⊢ G := by
  iintro ⟨HP, HR⟩
  iapply (h) $$ [HP]
  · iexact HP
  iexact HR

/-- The start holds every cell's invariant and round-0 fact for good. -/
private theorem pre_dup (K : GSem nD τ sig → ℕ) (c : Dev nD) : bodyPre m K c ⊢ iprop((invsAll m K ∗ reachedAll (F := F)) ∗ bodyPre m K c) := by
  unfold bodyPre ghost
  iintro ⟨⟨⟨#HI, #HR, HP, HT⟩, HC, Hlev, S0, S1, S2⟩, HO, Hstg⟩
  isplitr
  · isplitr; · iexact HI
    iexact HR
  isplitl [HP HT HC Hlev S0 S1 S2]
  · isplitl [HP HT]
    · isplitr; · iexact HI
      isplitr; · iexact HR
      isplitl [HP]; · iexact HP
      iexact HT
    isplitl [HC]; · iexact HC
    isplitl [Hlev]; · iexact Hlev
    isplitl [S0]; · iexact S0
    isplitl [S1]; · iexact S1
    iexact S2
  isplitl [HO]; · iexact HO
  iexact Hstg

/-- Two chains of seven, term by term. -/
private theorem zip7 {M : Type} [URA M] (a1 a2 a3 a4 a5 a6 a7 b1 b2 b3 b4 b5 b6 b7 : sProp M) :
    iprop((a1 ∗ a2 ∗ a3 ∗ a4 ∗ a5 ∗ a6 ∗ a7) ∗ (b1 ∗ b2 ∗ b3 ∗ b4 ∗ b5 ∗ b6 ∗ b7))
      ⊢ iprop((a1 ∗ b1) ∗ (a2 ∗ b2) ∗ (a3 ∗ b3) ∗ (a4 ∗ b4) ∗ (a5 ∗ b5) ∗ (a6 ∗ b6) ∗ (a7 ∗ b7)) := by
  iintro ⟨⟨A1, A2, A3, A4, A5, A6, A7⟩, ⟨B1, B2, B3, B4, B5, B6, B7⟩⟩
  isplitl [A1 B1]; · isplitl [A1]; · iexact A1
                     iexact B1
  isplitl [A2 B2]; · isplitl [A2]; · iexact A2
                     iexact B2
  isplitl [A3 B3]; · isplitl [A3]; · iexact A3
                     iexact B3
  isplitl [A4 B4]; · isplitl [A4]; · iexact A4
                     iexact B4
  isplitl [A5 B5]; · isplitl [A5]; · iexact A5
                     iexact B5
  isplitl [A6 B6]; · isplitl [A6]; · iexact A6
                     iexact B6
  isplitl [A7]; · iexact A7
  iexact B7

/-- What the seven entry signals heard hand the device, sorted by the layer whose copies land in it. -/
private theorem barPays_fold (c : Dev nD) (Ts : List (Dev nD)) (hTs : peers c = Ts.toFinset) (hnd : Ts.Nodup) :
    bigSep (peers c) (fun p => barPay (F := F) c p) ⊢ iprop(layerDest c Ts 0 ∗ layerDest c Ts 1 ∗ layerDest c Ts 2) := by
  unfold barPay layerDest
  simp only [bigSep_sep']
  rw [if_pos (show (0 : Fin 3).val < 2 by decide), if_pos (show (1 : Fin 3).val < 2 by decide), if_neg (show ¬ (2 : Fin 3).val < 2 by decide)]
  rw [bigSep_eq_bigSepL_of_eq Ts hTs hnd (fun p => iprop(∃ f, piece p (rSlot 0 c) fullShare f)),
    bigSep_eq_bigSepL_of_eq Ts hTs hnd (fun p => iprop(∃ f, piece p (rSlot 1 c) fullShare f)),
    bigSep_eq_bigSepL_of_eq Ts hTs hnd (fun p => iprop(∃ f, piece p (rSlot 2 c) fullShare f)),
    bigSep_eq_bigSepL_of_eq (ringF c) (peers_eq_fwd c) (fwd_nodup c) (fun p => iprop(∃ f, piece p (gChunk 0 c) fullShare f)),
    bigSep_eq_bigSepL_of_eq (ringF c) (peers_eq_fwd c) (fwd_nodup c) (fun p => iprop(∃ f, piece p (gChunk 1 c) fullShare f))]
  iintro ⟨A0, A1, A2, G0, G1, -⟩
  isplitl [A0 G0]; · isplitl [A0]; · iexact A0
                     iexact G0
  isplitl [A1 G1]; · isplitl [A1]; · iexact A1
                     iexact G1
  isplitl [A2]; · iexact A2
  iempintro

/-- Layer 0's destinations: the seven receive slots by target, and the gather chunks along the ring. -/
private theorem layerDest0_eq (c : Dev nD) : (layerDest (F := F) c Tsd 0 : sProp 𝕄) =
    iprop(((∃ fd, piece 0 (rSlot 0 c) fullShare fd) ∗ (∃ fd, piece 1 (rSlot 0 c) fullShare fd) ∗ (∃ fd, piece 2 (rSlot 0 c) fullShare fd) ∗ (∃ fd, piece 3 (rSlot 0 c) fullShare fd) ∗ (∃ fd, piece 4 (rSlot 0 c) fullShare fd) ∗ (∃ fd, piece 5 (rSlot 0 c) fullShare fd) ∗ (∃ fd, piece 7 (rSlot 0 c) fullShare fd))
      ∗ bigSepL (ringF c) (fun p => iprop(∃ fd, piece p (gChunk 0 c) fullShare fd))) := by
  unfold layerDest
  rw [if_pos (show (0 : Fin 3).val < 2 by decide)]
  rfl

/-- Chunk `t` of layer 0 after the store of the layer's partial product holds the canonical contents. -/
private theorem chunk0_stored (c t : Dev nD) (f0 : Buf (Elt F) ((c : Thread nD τ).loc cc0_scratch0))
    (inb : ∀ a, (![0, 0, 0] : Fin 3 → Nat) a + S1x512x256.size a ≤ S3x512x256.size a) :
    (piece c (pChunk 0 t) fullShare ((Memref.whole cc0_scratch0).view.writes (Elt F) f0
        [⟨Rect.unit (s := S3x512x256) ![0, 0, 0] S1x512x256.size inb, P0 m c⟩]) : sProp 𝕄)
      = piece c (pChunk 0 t) fullShare (Pfun m c) := by
  refine piece_congr c (pChunk 0 t) fullShare fun i hi => ?_
  refine write_P0 m c f0 ![0, 0, 0] rfl inb i ?_
  rw [set_pChunk] at hi
  have hs : i ∈ (rectSlab 0).set := by
    rw [rectSlab_eq]; exact Finset.mem_biUnion.mpr ⟨t, Finset.mem_univ _, hi⟩
  have hs' : i ∈ (pSlab 0).view.set := by rw [set_pSlab]; exact hs
  exact hs'

/-- The eight chunks of layer `l` of the partial-product buffer, each at some contents. -/
private def pLayerEx (c : Dev nD) (l : Fin 3) : sProp 𝕄 := bigSep (Finset.univ : Finset (Dev nD)) (fun t => ex (F := F) c (pChunk l t))

/-- After the store of layer 0's partial product the partial-product buffer is: its eight chunks of layer 0 holding the
    canonical contents, and the chunks of the two later layers at whatever they hold. -/
private theorem slab0_cut (c : Dev nD) (f0 : Buf (Elt F) ((c : Thread nD τ).loc cc0_scratch0))
    {a0 : Vec F S512x256 .f32} {a1 : Vec F S256x512 .f32} {a2 : Vec F S512x256 .f32}
    (h0 : a0 = argX m c) (h1 : a1 = argW m c 0) (h2 : a2 = argV m c 0)
    (inb : ∀ a, (![0, 0, 0] : Fin 3 → Nat) a + S1x512x256.size a ≤ S3x512x256.size a) :
    ((Memref.whole cc0_scratch0).view.loc (c : Thread nD τ) ↦[(Memref.whole cc0_scratch0).view.set]{fullShare}
        ((Memref.whole cc0_scratch0).view.writes (Elt F) f0 [⟨Rect.unit (s := S3x512x256) ![0, 0, 0] S1x512x256.size inb, k0_pay1 a0 a1 a2⟩]) : sProp 𝕄)
      ⊢ iprop(bigSep (Finset.univ : Finset (Dev nD)) (fun t => piece c (pChunk 0 t) fullShare (Pfun m c))
          ∗ pLayerEx c 1 ∗ pLayerEx c 2) := by
  unfold pLayerEx
  subst h0 h1 h2
  refine (whole0_split c fullShare _).trans ?_
  rw [bigSep_univ_prod, bigSep_fin3]
  exact sep_mono (Entails.of_eq (bigSep_congr fun t _ => chunk0_stored m c t f0 inb))
    (sep_mono (bigSep_mono fun t _ => piece_ex c _ _ _) (bigSep_mono fun t _ => piece_ex c _ _ _))

private theorem zero2 : (![0, 0] : Fin 2 → Nat) = fun _ => 0 := by funext a; fin_cases a <;> rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; rfl
  iapply (Entails.of_eq (congrArg (fun I => pointsTo ((c : Thread nD τ).loc b) I fullShare x) (View.set_whole b)))
  iexact H

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

/-- What is still owed once the entry signals and layer 0's reduce copies are out, and the whole debt at launch with
    those last, in the reverse of the order they are settled. -/
private abbrev restA (c : Dev nD) : CellTallies nD τ sig Unit := owesRedL c Tsd 1 + owesRedL c Tsd 2 + owesGatL c 0 + owesGatL c 1

private theorem debt_rev (c : Dev nD) : debt c 0 1 2 3 4 5 7 =
    restA c + tallyAt (rrCell 7 0 c) () N64 + tallyAt (rrCell 5 0 c) () N64 + tallyAt (rrCell 4 0 c) () N64 + tallyAt (rrCell 3 0 c) () N64 + tallyAt (rrCell 2 0 c) () N64 + tallyAt (rrCell 1 0 c) () N64 + tallyAt (rrCell 0 0 c) () N64
      + tallyAt (barCell (fwd 7 c)) () 1 + tallyAt (barCell (fwd 6 c)) () 1 + tallyAt (barCell (fwd 5 c)) () 1 + tallyAt (barCell (fwd 4 c)) () 1
      + tallyAt (barCell (fwd 3 c)) () 1 + tallyAt (barCell (fwd 2 c)) () 1 + tallyAt (barCell (fwd 1 c)) () 1 := by
  unfold debt owesBar owesRedLit owesGatA restA owesRedL owesGatL ringF
  simp only [amt_rSlot, amt_gChunk, List.map, List.sum_cons, List.sum_nil]
  abel

private theorem above_restA (c : Dev nD) : Above 1 (restA c) := by
  unfold restA owesRedL owesGatL ringF
  simp only [List.map, List.sum_cons, List.sum_nil]
  owes_above

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- Seven copies of one assertion, as the family over the literal peers. -/
private theorem creds7 (a : sProp 𝕄) : iprop(a ∗ a ∗ a ∗ a ∗ a ∗ a ∗ a) ⊢ bigSepL Tsd (fun _ => a) := .rfl

/-- Two chains along the ring forward, term by term. -/
private theorem zipF (c : Dev nD) (Φ Ψ : Dev nD → sProp 𝕄) : iprop(alongF c Φ ∗ alongF c Ψ) ⊢ bigSepL (ringF c) (fun p => iprop(Φ p ∗ Ψ p)) :=
  zip7 _ _ _ _ _ _ _ _ _ _ _ _ _ _
/-- Two chains along the ring backward, term by term. -/
private theorem zipB (c : Dev nD) (Φ Ψ : Dev nD → sProp 𝕄) : iprop(alongB c Φ ∗ alongB c Ψ) ⊢ bigSepL (ringB c) (fun p => iprop(Φ p ∗ Ψ p)) :=
  zip7 _ _ _ _ _ _ _ _ _ _ _ _ _ _
/-- Two chains over the literal peers, term by term. -/
private theorem zipT (Φ Ψ : Dev nD → sProp 𝕄) : iprop(lits6 Φ ∗ lits6 Ψ) ⊢ bigSepL Tsd (fun p => iprop(Φ p ∗ Ψ p)) :=
  zip7 _ _ _ _ _ _ _ _ _ _ _ _ _ _

/-- A layer's reduce positions from the send cell's, the receive cells' and their credit. -/
private theorem posRed_intro (c : Dev nD) (l : Fin 3) :
    iprop(atPos ER (rsCell c l) 0 ∅ 0 ∗ alongB c (fun s => (atPos ER (rrCell c l s) 0 ∅ 0 : sProp 𝕄))
      ∗ alongB c (fun s => (cred (tallyAt (rrCell c l s) () N64) : sProp 𝕄))) ⊢ (posRed (F := F) c l : sProp 𝕄) := by
  unfold posRed
  iintro ⟨A, B, C⟩
  isplitl [A]; · iexact A
  iapply (zipB c _ _)
  isplitl [B]; · iexact B
  iexact C
/-- A layer's gather-send position. -/
private theorem posGs_intro (c : Dev nD) (l : Fin 3) : (atPos ER (gsCell c l) 0 ∅ 0 : sProp 𝕄) ⊢ posGs (F := F) c l := by
  unfold posGs
  exact .rfl
/-- A layer's gather-receive positions with their credit. -/
private theorem posGr_intro (c : Dev nD) (l : Fin 3) :
    iprop(lits6 (fun s => (atPos ER (grCell c l s) 0 ∅ 0 : sProp 𝕄)) ∗ lits6 (fun s => (cred (tallyAt (grCell c l s) () N64) : sProp 𝕄)))
      ⊢ (posGr (F := F) c Tsd l : sProp 𝕄) := by
  unfold posGr
  exact zipT _ _

/-- A later layer's resources from its tokens, positions, credit and destinations. -/
private theorem layerRes1_intro (c : Dev nD) :
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1) ∗ layerDest c Tsd 1) ⊢ (layerRes (F := F) c Tsd 1 : sProp 𝕄) := by
  unfold layerRes layerToks
  rw [if_pos (show (1 : Fin 3).val < 2 by decide), if_pos (show (1 : Fin 3).val < 2 by decide)]
private theorem layerRes2_intro (c : Dev nD) :
    iprop((bigSepL Tsd (fun t => iprop(dutyTok ER (rsCell c 2) 0 t ∗ dutyTok ER (rrCell t 2 c) 0 c)) ∗ emp)
      ∗ posRed c 2 ∗ emp ∗ layerDest c Tsd 2) ⊢ (layerRes (F := F) c Tsd 2 : sProp 𝕄) := by
  unfold layerRes layerToks
  rw [if_neg (show ¬ (2 : Fin 3).val < 2 by decide), if_neg (show ¬ (2 : Fin 3).val < 2 by decide)]

private theorem pLayerEx_def (c : Dev nD) (l : Fin 3) :
    (pLayerEx (F := F) c l : sProp 𝕄) = bigSep (Finset.univ : Finset (Dev nD)) (fun t => ex (F := F) c (pChunk l t)) := rfl

/-- The last layer's chunks of the gather buffer, all held. -/
private theorem gath2 (c : Dev nD) (hc : c = 6) (f : Buf (Elt F) ((c : Thread nD τ).loc cc0_scratch2)) :
    bigSep (Finset.univ : Finset (Dev nD)) (fun t => (piece c (gChunk 2 t) fullShare f : sProp 𝕄)) ⊢ chunksAll c Tsd 2 := by
  subst hc
  rw [bigSep_dev8]
  unfold chunksAll
  rw [bigSepL7]
  iintro ⟨H0, H1, H2, H3, H4, H5, H6, H7⟩
  isplitl [H6]; · iapply (ex_intro _ (gChunk 2 6) f); iexact H6
  isplitl [H0]; · iapply (ex_intro _ (gChunk 2 0) f); iexact H0
  isplitl [H1]; · iapply (ex_intro _ (gChunk 2 1) f); iexact H1
  isplitl [H2]; · iapply (ex_intro _ (gChunk 2 2) f); iexact H2
  isplitl [H3]; · iapply (ex_intro _ (gChunk 2 3) f); iexact H3
  isplitl [H4]; · iapply (ex_intro _ (gChunk 2 4) f); iexact H4
  isplitl [H5]; · iapply (ex_intro _ (gChunk 2 5) f); iexact H5
  iapply (ex_intro _ (gChunk 2 7) f); iexact H7

attribute [local irreducible] layerDest layerRes layerToks barPay pLayerEx

set_option hygiene false in
/-- The entry signal to the peer `j` places after the device: it pays with the head token and the head payload. -/
local macro "entry_signal" j:num eq:ident : tactic => `(tactic| (
  icases TB with ⟨Tb, TB⟩
  icases PB with ⟨Pb, PB⟩
  iapply (step_uncurry (wp_entry_signal m 𝒱₀ c (fwd $j c) (fwd_ne_nat $j (by decide) (by decide) c) (K (barCell (fwd $j c))) ($eq c _) rfl rfl _))
  isplitl [Tb Pb HO]
  · isplitr; · iapply (invsAll_at m K (fwd $j c) .bar); iexact Hinv
    isplitl [Tb]; · iexact Tb
    isplitr; · iapply (reached_at (fwd $j c) .bar); iexact Hreach
    isplitl [Pb]; · iexact Pb
    iexact HO
  iintro HO
  sl_exec_parts))

theorem segA1_sound6 (c : Dev nD) (hc : c = 6) (K : GSem nD τ sig → ℕ)
    (Kt : (Σ' (d0 : Dev nD) (v2 : BitVec 32) (v78 : FVec F S64x256 .f32) (v81 : BitVec 32) (v82 : BitVec 32), BitVec 32) → sProp 𝕄) :
    iprop(bodyPre m K c ∗ (∀ v78 v81 v82 c0, midA m K c Tsd v78 -∗ Kt ⟨c, devWord c, v78, v81, v82, c0⟩))
      ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne7 : c ≠ (7 : Dev nD) := by rw [hc]; decide
  have hg1 : k0_cond1 c = 1#1 := (cond1_iff c).mpr hne0
  have hg2 : k0_cond2 c = 1#1 := (cond2_iff c).mpr hne1
  have hg3 : k0_cond3 c = 1#1 := (cond3_iff c).mpr hne2
  have hg4 : k0_cond4 c = 1#1 := (cond4_iff c).mpr hne3
  have hg5 : k0_cond5 c = 1#1 := (cond5_iff c).mpr hne4
  have hg6 : k0_cond6 c = 1#1 := (cond6_iff c).mpr hne5
  have hg7 : ¬ k0_cond7 c = 1#1 := fun h => (cond7_iff c).mp h hc
  have hg8 : k0_cond8 c = 1#1 := (cond8_iff c).mpr hne7
  have hAbW : Above 1 (restA c + tallyAt (rrCell 7 0 c) () N64 + tallyAt (rrCell 5 0 c) () N64 + tallyAt (rrCell 4 0 c) () N64 + tallyAt (rrCell 3 0 c) () N64 + tallyAt (rrCell 2 0 c) () N64 + tallyAt (rrCell 1 0 c) () N64 + tallyAt (rrCell 0 0 c) () N64 : CellTallies nD τ sig Unit) :=
    (((((((above_restA c).add (above_rr (n := 1) (7 : Dev nD) (0 : Fin 3) c N64 (by decide))).add (above_rr (n := 1) (5 : Dev nD) (0 : Fin 3) c N64 (by decide))).add (above_rr (n := 1) (4 : Dev nD) (0 : Fin 3) c N64 (by decide))).add (above_rr (n := 1) (3 : Dev nD) (0 : Fin 3) c N64 (by decide))).add (above_rr (n := 1) (2 : Dev nD) (0 : Fin 3) c N64 (by decide))).add (above_rr (n := 1) (1 : Dev nD) (0 : Fin 3) c N64 (by decide))).add (above_rr (n := 1) (0 : Dev nD) (0 : Fin 3) c N64 (by decide))
  refine (sep_mono_left ((pre_dup m K c).trans (sep_mono_right (prelude_dev6 m K c hc)))).trans ?_
  unfold ctx toksFam posFam credsFam lits6 midA stagedIn scr
  rw [debt_rev]
  iintro ⟨⟨⟨#Hinv, #Hreach⟩, -, -, #Hlev, ⟨TB, ⟨⟨Trs0T0, Trs0T1, Trs0T2, Trs0T3, Trs0T4, Trs0T5, Trs0T7⟩, ⟨Trr0T0, Trr0T1, Trr0T2, Trr0T3, Trr0T4, Trr0T5, Trr0T7⟩⟩, ⟨TS1, TR1⟩, ⟨TS2, TR2⟩, ⟨TGS0, TGR0⟩, ⟨TGS1, TGR1⟩⟩, ⟨Abar, ⟨Ars0, Arr0⟩, ⟨Ars1, Arr1⟩, ⟨Ars2, Arr2⟩, ⟨Ags0, Agr0⟩, ⟨Ags1, Agr1⟩⟩, ⟨Cbar, Crr0, Crr1, Crr2, Cgr0, Cgr1⟩, HPrest, ⟨%f0, S0⟩, PB, ⟨%fs, SO0, SO1, SO2⟩, ⟨%fg, GO0, GO1, GO2⟩, ⟨%W, HO⟩, ⟨%x0, %hx0, X0⟩, ⟨%x1, %hx1, X1⟩, ⟨%x2, %hx2, X2⟩, X3, X4, X5, X6, H7⟩, Hk⟩
  ihave X0 := (whole_restate c cc0_stg0_0 x0) $$ X0
  ihave X1 := (whole_restate c cc0_stg1_0 x1) $$ X1
  ihave X2 := (whole_restate c cc0_stg2_0 x2) $$ X2
  ihave S0 := (whole_restate c cc0_scratch0 f0) $$ S0
  sl_unfold [segA1]
  sl_exec_parts
  entry_signal 1 dev1_eq
  entry_signal 2 dev2_eq
  entry_signal 3 dev3_eq
  entry_signal 4 dev4_eq
  entry_signal 5 dev5_eq
  entry_signal 6 dev6_eq
  icases TB with Tb
  icases PB with Pb
  iapply (step_uncurry (wp_entry_signal m 𝒱₀ c (fwd 7 c) (fwd_ne_nat 7 (by decide) (by decide) c) (K (barCell (fwd 7 c))) (dev7_eq c _) rfl rfl _))
  isplitl [Tb Pb HO]
  · isplitr; · iapply (invsAll_at m K (fwd 7 c) .bar); iexact Hinv
    isplitl [Tb]; · iexact Tb
    isplitr; · iapply (reached_at (fwd 7 c) .bar); iexact Hreach
    isplitl [Pb]; · iexact Pb
    iexact HO
  iintro HO
  sl_exec_parts
  ihave #Hmw := (mayWait_bar (F := F) c (restA c + tallyAt (rrCell 7 0 c) () N64 + tallyAt (rrCell 5 0 c) () N64 + tallyAt (rrCell 4 0 c) () N64 + tallyAt (rrCell 3 0 c) () N64 + tallyAt (rrCell 2 0 c) () N64 + tallyAt (rrCell 1 0 c) () N64 + tallyAt (rrCell 0 0 c) () N64) hAbW) $$ Hlev
  iapply (step_uncurry (wp_bar_wait m 𝒱₀ c (K (barCell c)) rfl rfl (O := restA c + tallyAt (rrCell 7 0 c) () N64 + tallyAt (rrCell 5 0 c) () N64 + tallyAt (rrCell 4 0 c) () N64 + tallyAt (rrCell 3 0 c) () N64 + tallyAt (rrCell 2 0 c) () N64 + tallyAt (rrCell 1 0 c) () N64 + tallyAt (rrCell 0 0 c) () N64) (W := W)))
  isplitl [Cbar HO Abar]
  · isplitr; · iapply (invsAll_at m K c .bar); iexact Hinv
    isplitl [Cbar]; · iexact Cbar
    isplitl [HO]; · iexact HO
    isplitr; · iexact Hmw
    iexact Abar
  iintro ⟨HO, Abar, #Rbar1, PBin⟩
  ihave PBin := (barPays_fold c Tsd (by rw [hc]; decide) (by decide)) $$ PBin
  icases PBin with ⟨D0, D1, D2⟩
  ihave S0 := (slab0_cut m c f0 ((Memref.readAt_unit_zero (Elt F) cc0_stg0_0 zero2 inb_S512x256_S512x256_0_0 x0).trans hx0)
      ((Memref.readAt_unit_zero (Elt F) cc0_stg1_0 zero2 inb_S256x512_S256x512_0_0 x1).trans hx1)
      ((Memref.readAt_unit_zero (Elt F) cc0_stg2_0 zero2 inb_S512x256_S512x256_0_0 x2).trans hx2) _) $$ S0
  icases S0 with ⟨P0s, P1s, P2s⟩
  ihave P0s := (Entails.of_eq (bigSep_dev8 _)) $$ P0s
  icases P0s with ⟨Q0, Q1, Q2, Q3, Q4, Q5, Q6, Q7⟩
  sl_exec_parts
  ihave D0 := (Entails.of_eq (layerDest0_eq c)) $$ D0
  icases D0 with ⟨⟨⟨%fd0, Drr0T0⟩, ⟨%fd1, Drr0T1⟩, ⟨%fd2, Drr0T2⟩, ⟨%fd3, Drr0T3⟩, ⟨%fd4, Drr0T4⟩, ⟨%fd5, Drr0T5⟩, ⟨%fd7, Drr0T7⟩⟩, DG0⟩
  ihave #Irs0 := (invsAll_at m K c (.rs 0)) $$ Hinv
  ihave #Rrs0 := (reached_at (F := F) c (.rs 0)) $$ Hreach
  -- the copy of chunk 0 to device 0
  ihave #Irr0T0 := (invsAll_at m K 0 (.rr 0 c)) $$ Hinv
  ihave #Rrr0T0 := (reached_at (F := F) 0 (.rr 0 c)) $$ Hreach
  iapply (wp_red_send m 𝒱₀ c 0 0 hne0 (K (rsCell c 0)) (K (rrCell 0 0 c)) (dev8_eq _) (pchunk_lit0_0 _ _) (slot_off2 c _ _)
      (congrArg SemLoc.dma (sem_rs0 _)) (congrArg SemLoc.dma (sem_off1 c _)) (restA c + tallyAt (rrCell 7 0 c) () N64 + tallyAt (rrCell 5 0 c) () N64 + tallyAt (rrCell 4 0 c) () N64 + tallyAt (rrCell 3 0 c) () N64 + tallyAt (rrCell 2 0 c) () N64 + tallyAt (rrCell 1 0 c) () N64) fd0)
    $$ [Q0 Drr0T0 HO Trs0T0 Trr0T0]
  · isplitr; · iexact Irs0
    isplitr; · iexact Irr0T0
    isplitl [Q0]; · iexact Q0
    isplitl [Drr0T0]; · iexact Drr0T0
    isplitl [HO]; · iexact HO
    isplitl [Trs0T0]; · iexact Trs0T0
    isplitr; · iexact Rrs0
    isplitl [Trr0T0]; · iexact Trr0T0
    iexact Rrr0T0
  iintro ⟨Crs0T0, HO⟩
  sl_exec_parts
  -- the copy of chunk 1 to device 1
  ihave #Irr0T1 := (invsAll_at m K 1 (.rr 0 c)) $$ Hinv
  ihave #Rrr0T1 := (reached_at (F := F) 1 (.rr 0 c)) $$ Hreach
  iapply (wp_red_send m 𝒱₀ c 1 0 hne1 (K (rsCell c 0)) (K (rrCell 1 0 c)) (dev9_eq _) (pchunk_lit0_1 _ _) (slot_off4 c _ _)
      (congrArg SemLoc.dma (sem_rs0 _)) (congrArg SemLoc.dma (sem_off3 c _)) (restA c + tallyAt (rrCell 7 0 c) () N64 + tallyAt (rrCell 5 0 c) () N64 + tallyAt (rrCell 4 0 c) () N64 + tallyAt (rrCell 3 0 c) () N64 + tallyAt (rrCell 2 0 c) () N64) fd1)
    $$ [Q1 Drr0T1 HO Trs0T1 Trr0T1]
  · isplitr; · iexact Irs0
    isplitr; · iexact Irr0T1
    isplitl [Q1]; · iexact Q1
    isplitl [Drr0T1]; · iexact Drr0T1
    isplitl [HO]; · iexact HO
    isplitl [Trs0T1]; · iexact Trs0T1
    isplitr; · iexact Rrs0
    isplitl [Trr0T1]; · iexact Trr0T1
    iexact Rrr0T1
  iintro ⟨Crs0T1, HO⟩
  sl_exec_parts
  -- the copy of chunk 2 to device 2
  ihave #Irr0T2 := (invsAll_at m K 2 (.rr 0 c)) $$ Hinv
  ihave #Rrr0T2 := (reached_at (F := F) 2 (.rr 0 c)) $$ Hreach
  iapply (wp_red_send m 𝒱₀ c 2 0 hne2 (K (rsCell c 0)) (K (rrCell 2 0 c)) (dev10_eq _) (pchunk_lit0_2 _ _) (slot_off6 c _ _)
      (congrArg SemLoc.dma (sem_rs0 _)) (congrArg SemLoc.dma (sem_off5 c _)) (restA c + tallyAt (rrCell 7 0 c) () N64 + tallyAt (rrCell 5 0 c) () N64 + tallyAt (rrCell 4 0 c) () N64 + tallyAt (rrCell 3 0 c) () N64) fd2)
    $$ [Q2 Drr0T2 HO Trs0T2 Trr0T2]
  · isplitr; · iexact Irs0
    isplitr; · iexact Irr0T2
    isplitl [Q2]; · iexact Q2
    isplitl [Drr0T2]; · iexact Drr0T2
    isplitl [HO]; · iexact HO
    isplitl [Trs0T2]; · iexact Trs0T2
    isplitr; · iexact Rrs0
    isplitl [Trr0T2]; · iexact Trr0T2
    iexact Rrr0T2
  iintro ⟨Crs0T2, HO⟩
  sl_exec_parts
  -- the copy of chunk 3 to device 3
  ihave #Irr0T3 := (invsAll_at m K 3 (.rr 0 c)) $$ Hinv
  ihave #Rrr0T3 := (reached_at (F := F) 3 (.rr 0 c)) $$ Hreach
  iapply (wp_red_send m 𝒱₀ c 3 0 hne3 (K (rsCell c 0)) (K (rrCell 3 0 c)) (dev11_eq _) (pchunk_lit0_3 _ _) (slot_off8 c _ _)
      (congrArg SemLoc.dma (sem_rs0 _)) (congrArg SemLoc.dma (sem_off7 c _)) (restA c + tallyAt (rrCell 7 0 c) () N64 + tallyAt (rrCell 5 0 c) () N64 + tallyAt (rrCell 4 0 c) () N64) fd3)
    $$ [Q3 Drr0T3 HO Trs0T3 Trr0T3]
  · isplitr; · iexact Irs0
    isplitr; · iexact Irr0T3
    isplitl [Q3]; · iexact Q3
    isplitl [Drr0T3]; · iexact Drr0T3
    isplitl [HO]; · iexact HO
    isplitl [Trs0T3]; · iexact Trs0T3
    isplitr; · iexact Rrs0
    isplitl [Trr0T3]; · iexact Trr0T3
    iexact Rrr0T3
  iintro ⟨Crs0T3, HO⟩
  sl_exec_parts
  -- the copy of chunk 4 to device 4
  ihave #Irr0T4 := (invsAll_at m K 4 (.rr 0 c)) $$ Hinv
  ihave #Rrr0T4 := (reached_at (F := F) 4 (.rr 0 c)) $$ Hreach
  iapply (wp_red_send m 𝒱₀ c 4 0 hne4 (K (rsCell c 0)) (K (rrCell 4 0 c)) (dev12_eq _) (pchunk_lit0_4 _ _) (slot_off10 c _ _)
      (congrArg SemLoc.dma (sem_rs0 _)) (congrArg SemLoc.dma (sem_off9 c _)) (restA c + tallyAt (rrCell 7 0 c) () N64 + tallyAt (rrCell 5 0 c) () N64) fd4)
    $$ [Q4 Drr0T4 HO Trs0T4 Trr0T4]
  · isplitr; · iexact Irs0
    isplitr; · iexact Irr0T4
    isplitl [Q4]; · iexact Q4
    isplitl [Drr0T4]; · iexact Drr0T4
    isplitl [HO]; · iexact HO
    isplitl [Trs0T4]; · iexact Trs0T4
    isplitr; · iexact Rrs0
    isplitl [Trr0T4]; · iexact Trr0T4
    iexact Rrr0T4
  iintro ⟨Crs0T4, HO⟩
  sl_exec_parts
  -- the copy of chunk 5 to device 5
  ihave #Irr0T5 := (invsAll_at m K 5 (.rr 0 c)) $$ Hinv
  ihave #Rrr0T5 := (reached_at (F := F) 5 (.rr 0 c)) $$ Hreach
  iapply (wp_red_send m 𝒱₀ c 5 0 hne5 (K (rsCell c 0)) (K (rrCell 5 0 c)) (dev13_eq _) (pchunk_lit0_5 _ _) (slot_off12 c _ _)
      (congrArg SemLoc.dma (sem_rs0 _)) (congrArg SemLoc.dma (sem_off11 c _)) (restA c + tallyAt (rrCell 7 0 c) () N64) fd5)
    $$ [Q5 Drr0T5 HO Trs0T5 Trr0T5]
  · isplitr; · iexact Irs0
    isplitr; · iexact Irr0T5
    isplitl [Q5]; · iexact Q5
    isplitl [Drr0T5]; · iexact Drr0T5
    isplitl [HO]; · iexact HO
    isplitl [Trs0T5]; · iexact Trs0T5
    isplitr; · iexact Rrs0
    isplitl [Trr0T5]; · iexact Trr0T5
    iexact Rrr0T5
  iintro ⟨Crs0T5, HO⟩
  sl_exec_parts
  -- the copy of chunk 7 to device 7
  ihave #Irr0T7 := (invsAll_at m K 7 (.rr 0 c)) $$ Hinv
  ihave #Rrr0T7 := (reached_at (F := F) 7 (.rr 0 c)) $$ Hreach
  iapply (wp_red_send m 𝒱₀ c 7 0 hne7 (K (rsCell c 0)) (K (rrCell 7 0 c)) (dev15_eq _) (pchunk_lit0_7 _ _) (slot_off16 c _ _)
      (congrArg SemLoc.dma (sem_rs0 _)) (congrArg SemLoc.dma (sem_off15 c _)) (restA c) fd7)
    $$ [Q7 Drr0T7 HO Trs0T7 Trr0T7]
  · isplitr; · iexact Irs0
    isplitr; · iexact Irr0T7
    isplitl [Q7]; · iexact Q7
    isplitl [Drr0T7]; · iexact Drr0T7
    isplitl [HO]; · iexact HO
    isplitl [Trs0T7]; · iexact Trs0T7
    isplitr; · iexact Rrs0
    isplitl [Trr0T7]; · iexact Trr0T7
    iexact Rrr0T7
  iintro ⟨Crs0T7, HO⟩
  ihave Q6 := (Entails.of_eq (congrArg (fun t => (piece c (pChunk 0 t) fullShare (Pfun m c) : sProp 𝕄)) hc.symm)) $$ Q6
  ihave P0own := (Entails.of_eq (pRows_eq c 0 c fullShare (Pfun m c)).symm) $$ Q6
  sl_exec_parts
  have eOwn : View.readAt (Elt F) (Memref.whole cc0_scratch0).view (Rect.unit (s := S3x512x256) (k0_off17 c) S1x64x256.size (k0_off17_inb c)).toLoadRect (Pfun m c)
      = chunkOf (P0 m c) c := read_P_chunk m c 0 c (k0_off17 c) (k0_off17_eq c) _
  have hv78 : segA1_sound6.sl.r m c = k0_pay2 (chunkOf (P0 m c) c) := by
    unfold segA1_sound6.sl.r
    exact congrArg k0_pay2 eOwn
  have hv2 : segA1_sound6.sl.v2 c = devWord c := rfl
  iapply (ret_intro _ Kt c)
  iapply (Entails.of_eq (congrArg (fun w => (Kt ⟨c, w, segA1_sound6.sl.r m c, segA1_sound6.sl.v81 c, segA1_sound6.sl.v82 c, 0#32⟩ : sProp 𝕄)) hv2.symm))
  ihave P0own := (Entails.of_eq (pRows_eq c 0 c fullShare (Pfun m c))) $$ P0own
  ihave X0 := (stg_of_whole c cc0_stg0_0 (argX m c) x0 hx0) $$ X0
  ihave X1 := (stg_of_whole c cc0_stg1_0 (argW m c 0) x1 hx1) $$ X1
  ihave X2 := (stg_of_whole c cc0_stg2_0 (argV m c 0) x2 hx2) $$ X2
  iapply Hk
  isplitr
  · isplitr; · iexact Hinv
    isplitr; · iexact Hreach
    iexact Hlev
  isplitr; · ipureintro; exact hv78
  isplitl [HO]; · iexists _; iexact HO
  isplitl [TGS0 TGR0]
  · iapply (zipF c _ _)
    isplitl [TGS0]; · iexact TGS0
    iexact TGR0
  isplitl [DG0]; · iexact DG0
  isplitl [Ars0 Arr0 Crr0]
  · iapply (posRed_intro c 0)
    isplitl [Ars0]; · iexact Ars0
    isplitl [Arr0]; · iexact Arr0
    iexact Crr0
  isplitl [Ags0]; · iapply (posGs_intro c 0); iexact Ags0
  isplitl [Agr0 Cgr0]
  · iapply (posGr_intro c 0)
    isplitl [Agr0]; · iexact Agr0
    iexact Cgr0
  isplitl [Crs0T0 Crs0T1 Crs0T2 Crs0T3 Crs0T4 Crs0T5 Crs0T7]
  · iapply (creds7 _)
    isplitl [Crs0T0]; · iexact Crs0T0
    isplitl [Crs0T1]; · iexact Crs0T1
    isplitl [Crs0T2]; · iexact Crs0T2
    isplitl [Crs0T3]; · iexact Crs0T3
    isplitl [Crs0T4]; · iexact Crs0T4
    isplitl [Crs0T5]; · iexact Crs0T5
    iexact Crs0T7
  isplitl [TS1 TR1 TGS1 TGR1 Ars1 Arr1 Crr1 Ags1 Agr1 Cgr1 D1]
  · iapply (layerRes1_intro c)
    isplitl [TS1 TR1 TGS1 TGR1]
    · isplitl [TS1 TR1]
      · iapply (zipT _ _)
        isplitl [TS1]; · iexact TS1
        iexact TR1
      iapply (zipF c _ _)
      isplitl [TGS1]; · iexact TGS1
      iexact TGR1
    isplitl [Ars1 Arr1 Crr1]
    · iapply (posRed_intro c 1)
      isplitl [Ars1]; · iexact Ars1
      isplitl [Arr1]; · iexact Arr1
      iexact Crr1
    isplitl [Ags1 Agr1 Cgr1]
    · isplitl [Ags1]; · iapply (posGs_intro c 1); iexact Ags1
      iapply (posGr_intro c 1)
      isplitl [Agr1]; · iexact Agr1
      iexact Cgr1
    iexact D1
  isplitl [TS2 TR2 Ars2 Arr2 Crr2 D2]
  · iapply (layerRes2_intro c)
    isplitl [TS2 TR2]
    · isplitl [TS2 TR2]
      · iapply (zipT _ _)
        isplitl [TS2]; · iexact TS2
        iexact TR2
      iempintro
    isplitl [Ars2 Arr2 Crr2]
    · iapply (posRed_intro c 2)
      isplitl [Ars2]; · iexact Ars2
      isplitl [Arr2]; · iexact Arr2
      iexact Crr2
    isplitr; · iempintro
    iexact D2
  isplitl [HPrest]; · iexact HPrest
  isplitl [P0own]; · iapply (ex_intro c (pChunk 0 c) (Pfun m c)); iexact P0own
  isplitl [P1s]; · iapply (Entails.of_eq (pLayerEx_def c 1)); iexact P1s
  isplitl [P2s]; · iapply (Entails.of_eq (pLayerEx_def c 2)); iexact P2s
  isplitl [SO0]; · iapply (ex_intro c (rSlot 0 c) fs); iexact SO0
  isplitl [SO1]; · iapply (ex_intro c (rSlot 1 c) fs); iexact SO1
  isplitl [SO2]; · iapply (ex_intro c (rSlot 2 c) fs); iexact SO2
  isplitl [GO0]; · iapply (ex_intro c (gChunk 0 c) fg); iexact GO0
  isplitl [GO1]; · iapply (ex_intro c (gChunk 1 c) fg); iexact GO1
  isplitl [GO2]; · iapply (gath2 c hc fg); iexact GO2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segA1_sound6' depends on axioms: [propext, Classical.choice, Quot.sound] -/
#guard_msgs in #print axioms segA1_sound6

end Cert.KernelProof

end
-- ==== Proof.K.BodySegA2_d6.lean ====
import proofs.«900993_g7700000000000994_dist_mlpseq_tp1d_rep_bs_b512_d256_h512_v7x_i8_bf16_1_alg».proof.Proof.K.BodySegA2Lib

/-! The second half of layer 0 on device 6: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 3, 4, 5, 7] : List (Dev nD))

omit [FloatOps F] in
/-- Everything still owed after layer 0's gather sends is owed to cells above the level of the layer's send cells. -/
theorem above_a2_rest_d6 (c : Dev nD) : Above 3 (a2_rest c Ts) := by
  unfold a2_rest owesRedL owesGatL ringF
  simp only [List.map, List.sum_cons, List.sum_nil]
  owes_above

theorem segA2_sound6 (c : Dev nD) (hc : c = 6) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : ¬ k0_cond15 c = 1#1 := fun h => (cond15_iff c).mp h hc
  have hg16 : k0_cond16 c = 1#1 := (cond16_iff c).mpr (by rw [hc]; decide)
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : ¬ Scalar.cmpi .ne (Scalar.extui (Scalar.cmpi .ne (Scalar.remsi (Scalar.divsi (Dev.word c) 1#32) 8#32) 6#32)) 0#32 = 1#1 := fun h => (condw6_iff c).mp h hc
  have hw7 : Scalar.cmpi .ne (Scalar.extui (Scalar.cmpi .ne (Scalar.remsi (Scalar.divsi (Dev.word c) 1#32) 8#32) 7#32)) 0#32 = 1#1 := (condw7_iff c).mpr (by rw [hc]; decide)
  have haboveR : Above (3 + 3 * (0 : Fin 3).val) (a2_rest c Ts) := above_a2_rest_d6 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d6 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound6.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound6.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound6.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound6.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound6.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound6.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound6.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound6.sl.r_2 m c v78 a1 a2 a3 a4 a5) (segA2_sound6.sl.v171 m c a6) (segA2_sound6.sl.v187 m c a7) = red0 m c := by
    intro a1 a2 a3 a4 a5 a6 a7
    unfold segA2_sound6.sl.r_2 segA2_sound6.sl.r_1 segA2_sound6.sl.r
    rw [e91, e107, e123, e139, e155, e171, e187, hv]
    rfl
  have hG0 : ∀ g a1 a2 a3 a4 a5 a6 a7, ∀ i ∈ (gChunk 0 c).view.set, segA2_sound6.sl.G0c_w1 m c v78 g a1 a2 a3 a4 a5 a6 a7 i = Gfun m c i := by
    intro g a1 a2 a3 a4 a5 a6 a7 i hi
    unfold segA2_sound6.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelProof

end
-- ==== Proof.K.BodySegB1_d6.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegBCut
import Idealize.ShloMosaic.Lib.Tactic

/-! Layer 1 on device 6, first half: from the state between the layers to the point where the device has enqueued its
    seven reduce copies of layer 1 and read its own chunk.

    The device goes through the four groups of 128 rows in order. For a group it first waits for the rows of the first
    activation that the two devices owning them gathered into its buffer (its own rows it holds already): each wait is
    the one duty of a gather-receive cell of layer 0, and hands over the chunk holding the sender's reduced rows written
    over whatever it held — which is the activation on that chunk. The two chunks joined are the group the body loads;
    with the staged weights of layer 1 the body's own arithmetic makes the group of the layer's partial product, stored
    over rows of the partial-product buffer, where it agrees with the canonical partial product. Cut back into its two
    64-row chunks, each chunk is lent to the copy towards the device that reduces those rows: the copy pays duty `t` of
    the device's reduce-send cell and the one duty of the target's reduce-receive cell, settles what the device owed
    that cell, and earns the credit for a later wait on the send cell. The device's own chunk stays; it is read at the
    end, as the accumulation's first term. What is left is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 3, 4, 5, 7]

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- Layer 1's resources, its reduce tokens and destinations listed. -/
private theorem layerRes1_eq (c : Dev nD) : layerRes (F := F) c Tsd 1 =
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1)
      ∗ (bigSepL Tsd (fun t => iprop(∃ fd, piece t (rSlot 1 c) fullShare fd))
        ∗ bigSepL (ringF c) (fun p => iprop(∃ fd, piece p (gChunk 1 c) fullShare fd)))) := by
  unfold layerRes layerToks layerDest
  rw [if_pos (by decide), if_pos (by decide), if_pos (by decide)]

/-- The debt with the next reduce arrival last. -/
private theorem debt_peel (c t : Dev nD) (ts : List (Dev nD)) (l : Fin 3) (A B : CellTallies nD τ sig Unit) :
    owesRedL c (t :: ts) l + A + B = (owesRedL c ts l + A + B) + tallyAt (rrCell t l c) () N64 := by
  unfold owesRedL
  rw [List.map_cons, List.sum_cons]
  abel

/-- Every cell is at round 0: one cell's fact. -/
private theorem reachedAll_at (c : Dev nD) (k : CK) : reachedAll (F := F) ⊢ (reached ER (kcell c k) 0 : sProp 𝕄) := by
  unfold reachedAll
  exact allAt (fun p : Dev nD × CK => (reached ER (kcell p.1 p.2) 0 : sProp 𝕄)) c k

/-- Two functions that agree on a group of 128 rows agree on its two chunks. -/
private theorem agree_chunks {α : Type} (l : Fin 3) (g : Fin 4) (t0 t1 : Dev nD) (h0 : t0.val = 2 * g.val) (h1 : t1.val = 2 * g.val + 1)
    (w g' : S3x512x256.Idx → α) (h : ∀ i ∈ (rectGrp l g).set, w i = g' i) :
    (∀ i ∈ (rectP l t0).set, w i = g' i) ∧ (∀ i ∈ (rectP l t1).set, w i = g' i) := by
  rw [rectGrp_eq l g t0 t1 h0 h1] at h
  exact ⟨fun i hi => h i (Finset.mem_union_left _ hi), fun i hi => h i (Finset.mem_union_right _ hi)⟩

/-- A chunk of the partial-product buffer at contents that agree on its rows. -/
private theorem pChunk_congr (c : Dev nD) (l : Fin 3) (t : Dev nD) (q : PosShare TreeShare)
    {f g : Buf (Elt F) ((c : Thread nD τ).loc cc0_scratch0)} (h : ∀ i ∈ (rectP l t).set, f i = g i) :
    (piece c (pChunk l t) q f : sProp 𝕄) = piece c (pChunk l t) q g :=
  piece_congr c (pChunk l t) q fun i hi => h i ((set_pChunk l t) ▸ hi)

/-- A stored group of layer 1's partial product agrees with the canonical partial products on the group's rows. -/
private theorem stored_P1 (c : Dev nD) (g : Fin 4) (f0 : Buf (Elt F) ((c : Thread nD τ).loc cc0_scratch0)) (R : Rect S3x512x256)
    (hR : R = rectGrp 1 g) (w : R.shape.Idx → Elt F .bf16) (w' : (rectGrp 1 g).shape.Idx → Elt F .bf16) (hw : HEq w w') (hw' : w' = P1grp m c g) :
    ∀ i ∈ (rectGrp 1 g).set, View.write (Elt F) ((Memref.whole cc0_scratch0).access R) f0 w Finset.univ i = Pfun m c i := by
  subst hR
  obtain rfl := eq_of_heq hw
  subst hw'
  intro i hi
  refine write_P1grp m c g f0 _ rfl (inb_grp 1 g) i ?_
  show i ∈ ((View.whole cc0_scratch0).slice (rectGrp 1 g)).set
  rw [View.set_slice_whole]
  exact hi

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

private theorem posGr0_eq (c : Dev nD) : posGr (F := F) c Tsd 0 =
    iprop((atPos ER (grCell c 0 0) 0 ∅ 0 ∗ cred (tallyAt (grCell c 0 0) () N64)) ∗ (atPos ER (grCell c 0 1) 0 ∅ 0 ∗ cred (tallyAt (grCell c 0 1) () N64))
      ∗ (atPos ER (grCell c 0 2) 0 ∅ 0 ∗ cred (tallyAt (grCell c 0 2) () N64)) ∗ (atPos ER (grCell c 0 3) 0 ∅ 0 ∗ cred (tallyAt (grCell c 0 3) () N64))
      ∗ (atPos ER (grCell c 0 4) 0 ∅ 0 ∗ cred (tallyAt (grCell c 0 4) () N64)) ∗ (atPos ER (grCell c 0 5) 0 ∅ 0 ∗ cred (tallyAt (grCell c 0 5) () N64))
      ∗ (atPos ER (grCell c 0 7) 0 ∅ 0 ∗ cred (tallyAt (grCell c 0 7) () N64))) := rfl

private theorem posDoneGr0_eq (c : Dev nD) : posDoneGr (F := F) c Tsd 0 =
    iprop(atPos ER (grCell c 0 0) 1 ∅ 0 ∗ atPos ER (grCell c 0 1) 1 ∅ 0 ∗ atPos ER (grCell c 0 2) 1 ∅ 0 ∗ atPos ER (grCell c 0 3) 1 ∅ 0
      ∗ atPos ER (grCell c 0 4) 1 ∅ 0 ∗ atPos ER (grCell c 0 5) 1 ∅ 0 ∗ atPos ER (grCell c 0 7) 1 ∅ 0) := rfl

private theorem chunksAll0_eq (c : Dev nD) : chunksAll (F := F) c Tsd 0 =
    iprop(ex c (gChunk 0 c) ∗ ex c (gChunk 0 0) ∗ ex c (gChunk 0 1) ∗ ex c (gChunk 0 2) ∗ ex c (gChunk 0 3) ∗ ex c (gChunk 0 4)
      ∗ ex c (gChunk 0 5) ∗ ex c (gChunk 0 7)) := rfl

private theorem creds7_eq (c : Dev nD) : bigSepL Tsd (fun _ => (cred (tallyAt (rsCell c 1) () N64) : sProp 𝕄)) =
    iprop(cred (tallyAt (rsCell c 1) () N64) ∗ cred (tallyAt (rsCell c 1) () N64) ∗ cred (tallyAt (rsCell c 1) () N64) ∗ cred (tallyAt (rsCell c 1) () N64)
      ∗ cred (tallyAt (rsCell c 1) () N64) ∗ cred (tallyAt (rsCell c 1) () N64) ∗ cred (tallyAt (rsCell c 1) () N64)) := rfl

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- The eight chunks of a layer of the partial-product buffer, each held at some contents. -/
private theorem slab_ex (c : Dev nD) (l : Fin 3) (f0 : Buf (Elt F) ((c : Thread nD τ).loc cc0_scratch0)) :
    iprop(piece c (pChunk l 0) fullShare f0 ∗ piece c (pChunk l 1) fullShare f0 ∗ piece c (pChunk l 2) fullShare f0 ∗ piece c (pChunk l 3) fullShare f0
        ∗ piece c (pChunk l 4) fullShare f0 ∗ piece c (pChunk l 5) fullShare f0 ∗ piece c (pChunk l 6) fullShare f0 ∗ piece c (pChunk l 7) fullShare f0)
      ⊢ (bigSep (Finset.univ : Finset (Dev nD)) (fun t => ex (F := F) c (pChunk l t)) : sProp 𝕄) := by
  rw [bigSep_dev8]
  iintro ⟨H0, H1, H2, H3, H4, H5, H6, H7⟩
  isplitl [H0]; · iapply (ex_intro c (pChunk l 0) f0); iexact H0
  isplitl [H1]; · iapply (ex_intro c (pChunk l 1) f0); iexact H1
  isplitl [H2]; · iapply (ex_intro c (pChunk l 2) f0); iexact H2
  isplitl [H3]; · iapply (ex_intro c (pChunk l 3) f0); iexact H3
  isplitl [H4]; · iapply (ex_intro c (pChunk l 4) f0); iexact H4
  isplitl [H5]; · iapply (ex_intro c (pChunk l 5) f0); iexact H5
  isplitl [H6]; · iapply (ex_intro c (pChunk l 6) f0); iexact H6
  iapply (ex_intro c (pChunk l 7) f0); iexact H7

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; trivial
  iapply (Entails.of_eq (congrArg (fun I => pointsTo ((c : Thread nD τ).loc b) I fullShare x) (View.set_whole b)))
  iexact H

/-- Nothing is owed for a layer whose reduce copies have all been enqueued. -/
private theorem debt_done (c : Dev nD) (l : Fin 3) (A B : CellTallies nD τ sig Unit) : owesRedL c [] l + A + B = A + B := by
  unfold owesRedL
  rw [List.map_nil, List.sum_nil, zero_add]

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

private theorem zero2 : (![0, 0] : Fin 2 → ℕ) = fun _ => 0 := by funext a; fin_cases a <;> rfl

/-- A landed chunk of the gather buffer holds the activation, whatever the chunk held before. -/
private theorem grPay_canon (c s : Dev nD) (l : Fin 3) : grPay m c l s ⊢ (piece c (gChunk l s) fullShare (Gfun m c) : sProp 𝕄) := by
  unfold grPay
  iintro ⟨%fd, H⟩
  iapply (Entails.of_eq (piece_congr c (gChunk l s) fullShare (land_gather m s c l fd)))
  iexact H

theorem segB1_sound6 (c : Dev nD) (hc : c = 6) (K : GSem nD τ sig → ℕ) (Kt : (Σ' (v463 : FVec F S64x256 .f32), BitVec 32) → sProp 𝕄) :
    iprop(mid1 m K c Tsd ∗ (∀ v466, midB m K c Tsd (k0_pay14 (chunkOf (P1 m c) c)) -∗ Kt ⟨k0_pay14 (chunkOf (P1 m c) c), v466⟩))
      ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne7 : c ≠ (7 : Dev nD) := by rw [hc]; decide
  have hgw0 : Scalar.cmpi .ne (Scalar.extui (Scalar.cmpi .ne (devWord c) 0#32)) 0#32 = 1#1 := (condw0_iff c).mpr hne0
  have hgw1 : Scalar.cmpi .ne (Scalar.extui (Scalar.cmpi .ne (devWord c) 1#32)) 0#32 = 1#1 := (condw1_iff c).mpr hne1
  have hgw2 : Scalar.cmpi .ne (Scalar.extui (Scalar.cmpi .ne (devWord c) 2#32)) 0#32 = 1#1 := (condw2_iff c).mpr hne2
  have hgw3 : Scalar.cmpi .ne (Scalar.extui (Scalar.cmpi .ne (devWord c) 3#32)) 0#32 = 1#1 := (condw3_iff c).mpr hne3
  have hgw4 : Scalar.cmpi .ne (Scalar.extui (Scalar.cmpi .ne (devWord c) 4#32)) 0#32 = 1#1 := (condw4_iff c).mpr hne4
  have hgw5 : Scalar.cmpi .ne (Scalar.extui (Scalar.cmpi .ne (devWord c) 5#32)) 0#32 = 1#1 := (condw5_iff c).mpr hne5
  have hgw6 : ¬ Scalar.cmpi .ne (Scalar.extui (Scalar.cmpi .ne (devWord c) 6#32)) 0#32 = 1#1 := fun h => (condw6_iff c).mp h hc
  have hgw7 : Scalar.cmpi .ne (Scalar.extui (Scalar.cmpi .ne (devWord c) 7#32)) 0#32 = 1#1 := (condw7_iff c).mpr hne7
  have hg19 : k0_cond19 c = 1#1 := (cond19_iff c).mpr hne0
  have hg20 : k0_cond20 c = 1#1 := (cond20_iff c).mpr hne1
  have hg23 : k0_cond23 c = 1#1 := (cond23_iff c).mpr hne2
  have hg24 : k0_cond24 c = 1#1 := (cond24_iff c).mpr hne3
  have hg27 : k0_cond27 c = 1#1 := (cond27_iff c).mpr hne4
  have hg28 : k0_cond28 c = 1#1 := (cond28_iff c).mpr hne5
  have hg31 : ¬ k0_cond31 c = 1#1 := fun h => (cond31_iff c).mp h hc
  have hg32 : k0_cond32 c = 1#1 := (cond32_iff c).mpr hne7
  have hAbG0 : Above 4 (owesRedL c Tsd 1 + owesRedL c Tsd 2 + owesGatL c 1) := by
    unfold owesRedL owesGatL ringF
    simp only [List.map, List.sum_cons, List.sum_nil]
    owes_above
  have hAbG1 : Above 4 (owesRedL c [2, 3, 4, 5, 7] 1 + owesRedL c Tsd 2 + owesGatL c 1) := by
    unfold owesRedL owesGatL ringF
    simp only [List.map, List.sum_cons, List.sum_nil]
    owes_above
  have hAbG2 : Above 4 (owesRedL c [4, 5, 7] 1 + owesRedL c Tsd 2 + owesGatL c 1) := by
    unfold owesRedL owesGatL ringF
    simp only [List.map, List.sum_cons, List.sum_nil]
    owes_above
  have hAbG3 : Above 4 (owesRedL c [7] 1 + owesRedL c Tsd 2 + owesGatL c 1) := by
    unfold owesRedL owesGatL ringF
    simp only [List.map, List.sum_cons, List.sum_nil]
    owes_above
  unfold mid1 midB stagedIn scr
  rw [layerRes1_eq, posGr0_eq, posDoneGr0_eq, chunksAll0_eq, creds7_eq]
  simp only [bigSepL7]
  iintro ⟨⟨⟨#Hinv, #Hreach, #Hlev⟩, ⟨%W, HO⟩, ⟨⟨⟨⟨Trs1T0, Trr1T0⟩, ⟨Trs1T1, Trr1T1⟩, ⟨Trs1T2, Trr1T2⟩, ⟨Trs1T3, Trr1T3⟩, ⟨Trs1T4, Trr1T4⟩, ⟨Trs1T5, Trr1T5⟩, ⟨Trs1T7, Trr1T7⟩⟩, GTok1⟩, PRed1, ⟨PGs1, PGr1⟩, ⟨⟨⟨%fd0, Drr1T0⟩, ⟨%fd1, Drr1T1⟩, ⟨%fd2, Drr1T2⟩, ⟨%fd3, Drr1T3⟩, ⟨%fd4, Drr1T4⟩, ⟨%fd5, Drr1T5⟩, ⟨%fd7, Drr1T7⟩⟩, GDest1⟩⟩, HL2, ⟨⟨Pgr0S0, Cgr0S0⟩, ⟨Pgr0S1, Cgr0S1⟩, ⟨Pgr0S2, Cgr0S2⟩, ⟨Pgr0S3, Cgr0S3⟩, ⟨Pgr0S4, Cgr0S4⟩, ⟨Pgr0S5, Cgr0S5⟩, ⟨Pgr0S7, Cgr0S7⟩⟩, HPD0, HPrest, ⟨%f0, S0⟩, HSB0, HR1c, HR2c, G0c, G1c, HCA2, ⟨X0, X1, X2, ⟨%x3, %hx3, X3⟩, ⟨%x4, %hx4, X4⟩, X5, X6⟩, H7⟩, Hk⟩
  ihave X3 := (whole_restate c cc0_stg3_0 x3) $$ X3
  ihave X4 := (whole_restate c cc0_stg4_0 x4) $$ X4
  sl_unfold [segB1]
  sl_exec_parts
  -- the wait for device 0's rows
  ihave #Igr0S0 := (invsAll_at m K c (.gr 0 0)) $$ Hinv
  ihave #Mgr0S0 := (mayWait_gr (F := F) c 0 0 (owesRedL c Tsd 1 + owesRedL c Tsd 2 + owesGatL c 1) hAbG0) $$ Hlev
  iapply (wp_gat_recv m 𝒱₀ c 0 0 (by decide) hne0.symm (K (grCell c 0 0)) (sem_gr0_0 _) (gChunk_credit 0 0)) $$ [Cgr0S0 HO Pgr0S0]
  · isplitr; · iexact Igr0S0
    isplitl [Cgr0S0]; · iexact Cgr0S0
    isplitl [HO]; · iexact HO
    isplitr; · iexact Mgr0S0
    iexact Pgr0S0
  iintro ⟨HO, Dgr0S0, #Rgr0S0, Ygr0S0⟩
  sl_exec_parts
  -- the wait for device 1's rows
  ihave #Igr0S1 := (invsAll_at m K c (.gr 0 1)) $$ Hinv
  ihave #Mgr0S1 := (mayWait_gr (F := F) c 0 1 (owesRedL c Tsd 1 + owesRedL c Tsd 2 + owesGatL c 1) hAbG0) $$ Hlev
  iapply (wp_gat_recv m 𝒱₀ c 1 0 (by decide) hne1.symm (K (grCell c 0 1)) (sem_gr0_1 _) (gChunk_credit 0 1)) $$ [Cgr0S1 HO Pgr0S1]
  · isplitr; · iexact Igr0S1
    isplitl [Cgr0S1]; · iexact Cgr0S1
    isplitl [HO]; · iexact HO
    isplitr; · iexact Mgr0S1
    iexact Pgr0S1
  iintro ⟨HO, Dgr0S1, #Rgr0S1, Ygr0S1⟩
  -- rows 0 … 127 of the first activation joined, and the same rows of layer 1's partial product
  ihave Ggr0S0 := (grPay_canon m c 0 0) $$ Ygr0S0
  ihave Ggr0S1 := (grPay_canon m c 1 0) $$ Ygr0S1
  ihave S0 := (whole_restate c cc0_scratch0 f0) $$ S0
  ihave S0 := (whole0_split c fullShare f0) $$ S0
  ihave S0 := (Entails.of_eq (bigSep_layers_devs (fun a => piece c (pChunk a.1 a.2) fullShare f0))) $$ S0
  icases S0 with ⟨PL0, ⟨P1T0, P1T1, P1T2, P1T3, P1T4, P1T5, P1T6, P1T7⟩, PL2⟩
  ihave GG0 := (gGroup_join c 0 0 fullShare (Gfun m c) 0 1 rfl rfl) $$ [Ggr0S0 Ggr0S1]
  · isplitl [Ggr0S0]; · iexact Ggr0S0
    iexact Ggr0S1
  ihave PG0 := (pGroup_join c 1 0 fullShare f0 0 1 rfl rfl) $$ [P1T0 P1T1]
  · isplitl [P1T0]; · iexact P1T0
    iexact P1T1
  sl_exec_parts
  -- the group stored is the canonical partial product on its rows; cut into its two chunks
  have e3 : View.readAt (Elt F) (Memref.whole cc0_stg3_0).view (Rect.unit (s := S256x512) ![0, 0] S256x512.size inb_S256x512_S256x512_0_0).toLoadRect x3 = argW m c 1 :=
    (Memref.readAt_unit_zero (Elt F) cc0_stg3_0 zero2 _ x3).trans hx3
  have e4 : View.readAt (Elt F) (Memref.whole cc0_stg4_0).view (Rect.unit (s := S512x256) ![0, 0] S512x256.size inb_S512x256_S512x256_0_0).toLoadRect x4 = argV m c 1 :=
    (Memref.readAt_unit_zero (Elt F) cc0_stg4_0 zero2 _ x4).trans hx4
  have eG0 : View.readAt (Elt F) (Memref.whole cc0_scratch2).view (Rect.unit (s := S3x512x256) ![0, 0, 0] S1x128x256.size inb_S3x512x256_S1x128x256_0_0_0).toLoadRect (Gfun m c)
      = groupOf (G0 m) 0 := read_G_group m c 0 0 ![0, 0, 0] rfl _
  have hval0 : k0_pay10 (segB1_sound6.sl.r_2 m c x3 x4) = P1grp m c 0 := by
    unfold segB1_sound6.sl.r_2
    rw [e3, e4, eG0]
    rfl
  have hw0 : ∀ i ∈ (rectGrp 1 0).set, segB1_sound6.sl.PG0_w1 m c f0 x3 x4 i = Pfun m c i :=
    stored_P1 m c 0 f0 _ rfl _ _ HEq.rfl hval0
  ihave PG0 := (pGroup_split c 1 0 fullShare _ 0 1 rfl rfl) $$ PG0
  icases PG0 with ⟨P1T0, P1T1⟩
  have hw0T := agree_chunks 1 0 0 1 rfl rfl _ _ hw0
  ihave P1T0 := (Entails.of_eq (pChunk_congr c 1 0 fullShare hw0T.1)) $$ P1T0
  ihave P1T1 := (Entails.of_eq (pChunk_congr c 1 1 fullShare hw0T.2)) $$ P1T1
  ihave #Irs1 := (invsAll_at m K c (.rs 1)) $$ Hinv
  ihave #Rrs1 := (reachedAll_at c (.rs 1)) $$ Hreach
  -- the copy of chunk 0 to device 0
  ihave #Irr1T0 := (invsAll_at m K 0 (.rr 1 c)) $$ Hinv
  ihave #Rrr1T0 := (reachedAll_at 0 (.rr 1 c)) $$ Hreach
  ihave HO := (Entails.of_eq (congrArg (fun o => owes (c : Thread nD τ) o _) (debt_peel c 0 [1, 2, 3, 4, 5, 7] 1 (owesRedL c Tsd 2) (owesGatL c 1)))) $$ HO
  iapply (wp_red_send m 𝒱₀ c 0 1 hne0 (K (rsCell c 1)) (K (rrCell 0 1 c)) (dev23_eq _) (pchunk_lit1_0 _ _) (slot_off32 c _ _)
      (congrArg SemLoc.dma (sem_rs1 _)) (congrArg SemLoc.dma (sem_off31 c _)) (owesRedL c [1, 2, 3, 4, 5, 7] 1 + owesRedL c Tsd 2 + owesGatL c 1) fd0)
    $$ [P1T0 Drr1T0 HO Trs1T0 Trr1T0]
  · isplitr; · iexact Irs1
    isplitr; · iexact Irr1T0
    isplitl [P1T0]; · iexact P1T0
    isplitl [Drr1T0]; · iexact Drr1T0
    isplitl [HO]; · iexact HO
    isplitl [Trs1T0]; · iexact Trs1T0
    isplitr; · iexact Rrs1
    isplitl [Trr1T0]; · iexact Trr1T0
    iexact Rrr1T0
  iintro ⟨Crs1T0, HO⟩
  sl_exec_parts
  -- the copy of chunk 1 to device 1
  ihave #Irr1T1 := (invsAll_at m K 1 (.rr 1 c)) $$ Hinv
  ihave #Rrr1T1 := (reachedAll_at 1 (.rr 1 c)) $$ Hreach
  ihave HO := (Entails.of_eq (congrArg (fun o => owes (c : Thread nD τ) o _) (debt_peel c 1 [2, 3, 4, 5, 7] 1 (owesRedL c Tsd 2) (owesGatL c 1)))) $$ HO
  iapply (wp_red_send m 𝒱₀ c 1 1 hne1 (K (rsCell c 1)) (K (rrCell 1 1 c)) (dev24_eq _) (pchunk_lit1_1 _ _) (slot_off34 c _ _)
      (congrArg SemLoc.dma (sem_rs1 _)) (congrArg SemLoc.dma (sem_off33 c _)) (owesRedL c [2, 3, 4, 5, 7] 1 + owesRedL c Tsd 2 + owesGatL c 1) fd1)
    $$ [P1T1 Drr1T1 HO Trs1T1 Trr1T1]
  · isplitr; · iexact Irs1
    isplitr; · iexact Irr1T1
    isplitl [P1T1]; · iexact P1T1
    isplitl [Drr1T1]; · iexact Drr1T1
    isplitl [HO]; · iexact HO
    isplitl [Trs1T1]; · iexact Trs1T1
    isplitr; · iexact Rrs1
    isplitl [Trr1T1]; · iexact Trr1T1
    iexact Rrr1T1
  iintro ⟨Crs1T1, HO⟩
  sl_exec_parts
  -- the wait for device 2's rows
  ihave #Igr0S2 := (invsAll_at m K c (.gr 0 2)) $$ Hinv
  ihave #Mgr0S2 := (mayWait_gr (F := F) c 0 2 (owesRedL c [2, 3, 4, 5, 7] 1 + owesRedL c Tsd 2 + owesGatL c 1) hAbG1) $$ Hlev
  iapply (wp_gat_recv m 𝒱₀ c 2 0 (by decide) hne2.symm (K (grCell c 0 2)) (sem_gr0_2 _) (gChunk_credit 0 2)) $$ [Cgr0S2 HO Pgr0S2]
  · isplitr; · iexact Igr0S2
    isplitl [Cgr0S2]; · iexact Cgr0S2
    isplitl [HO]; · iexact HO
    isplitr; · iexact Mgr0S2
    iexact Pgr0S2
  iintro ⟨HO, Dgr0S2, #Rgr0S2, Ygr0S2⟩
  sl_exec_parts
  -- the wait for device 3's rows
  ihave #Igr0S3 := (invsAll_at m K c (.gr 0 3)) $$ Hinv
  ihave #Mgr0S3 := (mayWait_gr (F := F) c 0 3 (owesRedL c [2, 3, 4, 5, 7] 1 + owesRedL c Tsd 2 + owesGatL c 1) hAbG1) $$ Hlev
  iapply (wp_gat_recv m 𝒱₀ c 3 0 (by decide) hne3.symm (K (grCell c 0 3)) (sem_gr0_3 _) (gChunk_credit 0 3)) $$ [Cgr0S3 HO Pgr0S3]
  · isplitr; · iexact Igr0S3
    isplitl [Cgr0S3]; · iexact Cgr0S3
    isplitl [HO]; · iexact HO
    isplitr; · iexact Mgr0S3
    iexact Pgr0S3
  iintro ⟨HO, Dgr0S3, #Rgr0S3, Ygr0S3⟩
  -- rows 128 … 255 of the first activation joined, and the same rows of layer 1's partial product
  ihave Ggr0S2 := (grPay_canon m c 2 0) $$ Ygr0S2
  ihave Ggr0S3 := (grPay_canon m c 3 0) $$ Ygr0S3
  ihave GG1 := (gGroup_join c 0 1 fullShare (Gfun m c) 2 3 rfl rfl) $$ [Ggr0S2 Ggr0S3]
  · isplitl [Ggr0S2]; · iexact Ggr0S2
    iexact Ggr0S3
  ihave PG1 := (pGroup_join c 1 1 fullShare f0 2 3 rfl rfl) $$ [P1T2 P1T3]
  · isplitl [P1T2]; · iexact P1T2
    iexact P1T3
  sl_exec_parts
  -- the group stored is the canonical partial product on its rows; cut into its two chunks
  have eG1 : View.readAt (Elt F) (Memref.whole cc0_scratch2).view (Rect.unit (s := S3x512x256) ![0, 128, 0] S1x128x256.size inb_S3x512x256_S1x128x256_0_128_0).toLoadRect (Gfun m c)
      = groupOf (G0 m) 1 := read_G_group m c 0 1 ![0, 128, 0] rfl _
  have hw1 : ∀ i ∈ (rectGrp 1 1).set, segB1_sound6.sl.PG1_w1 m c f0 x3 x4 i = Pfun m c i :=
    stored_P1 m c 1 f0 _ rfl _ _ HEq.rfl (by
      unfold segB1_sound6.sl.r segB1_sound6.sl.r_1
      rw [e3, e4, eG1]
      rfl)
  ihave PG1 := (pGroup_split c 1 1 fullShare _ 2 3 rfl rfl) $$ PG1
  icases PG1 with ⟨P1T2, P1T3⟩
  have hw1T := agree_chunks 1 1 2 3 rfl rfl _ _ hw1
  ihave P1T2 := (Entails.of_eq (pChunk_congr c 1 2 fullShare hw1T.1)) $$ P1T2
  ihave P1T3 := (Entails.of_eq (pChunk_congr c 1 3 fullShare hw1T.2)) $$ P1T3
  -- the copy of chunk 2 to device 2
  ihave #Irr1T2 := (invsAll_at m K 2 (.rr 1 c)) $$ Hinv
  ihave #Rrr1T2 := (reachedAll_at 2 (.rr 1 c)) $$ Hreach
  ihave HO := (Entails.of_eq (congrArg (fun o => owes (c : Thread nD τ) o _) (debt_peel c 2 [3, 4, 5, 7] 1 (owesRedL c Tsd 2) (owesGatL c 1)))) $$ HO
  iapply (wp_red_send m 𝒱₀ c 2 1 hne2 (K (rsCell c 1)) (K (rrCell 2 1 c)) (dev25_eq _) (pchunk_lit1_2 _ _) (slot_off36 c _ _)
      (congrArg SemLoc.dma (sem_rs1 _)) (congrArg SemLoc.dma (sem_off35 c _)) (owesRedL c [3, 4, 5, 7] 1 + owesRedL c Tsd 2 + owesGatL c 1) fd2)
    $$ [P1T2 Drr1T2 HO Trs1T2 Trr1T2]
  · isplitr; · iexact Irs1
    isplitr; · iexact Irr1T2
    isplitl [P1T2]; · iexact P1T2
    isplitl [Drr1T2]; · iexact Drr1T2
    isplitl [HO]; · iexact HO
    isplitl [Trs1T2]; · iexact Trs1T2
    isplitr; · iexact Rrs1
    isplitl [Trr1T2]; · iexact Trr1T2
    iexact Rrr1T2
  iintro ⟨Crs1T2, HO⟩
  sl_exec_parts
  -- the copy of chunk 3 to device 3
  ihave #Irr1T3 := (invsAll_at m K 3 (.rr 1 c)) $$ Hinv
  ihave #Rrr1T3 := (reachedAll_at 3 (.rr 1 c)) $$ Hreach
  ihave HO := (Entails.of_eq (congrArg (fun o => owes (c : Thread nD τ) o _) (debt_peel c 3 [4, 5, 7] 1 (owesRedL c Tsd 2) (owesGatL c 1)))) $$ HO
  iapply (wp_red_send m 𝒱₀ c 3 1 hne3 (K (rsCell c 1)) (K (rrCell 3 1 c)) (dev26_eq _) (pchunk_lit1_3 _ _) (slot_off38 c _ _)
      (congrArg SemLoc.dma (sem_rs1 _)) (congrArg SemLoc.dma (sem_off37 c _)) (owesRedL c [4, 5, 7] 1 + owesRedL c Tsd 2 + owesGatL c 1) fd3)
    $$ [P1T3 Drr1T3 HO Trs1T3 Trr1T3]
  · isplitr; · iexact Irs1
    isplitr; · iexact Irr1T3
    isplitl [P1T3]; · iexact P1T3
    isplitl [Drr1T3]; · iexact Drr1T3
    isplitl [HO]; · iexact HO
    isplitl [Trs1T3]; · iexact Trs1T3
    isplitr; · iexact Rrs1
    isplitl [Trr1T3]; · iexact Trr1T3
    iexact Rrr1T3
  iintro ⟨Crs1T3, HO⟩
  sl_exec_parts
  -- the wait for device 4's rows
  ihave #Igr0S4 := (invsAll_at m K c (.gr 0 4)) $$ Hinv
  ihave #Mgr0S4 := (mayWait_gr (F := F) c 0 4 (owesRedL c [4, 5, 7] 1 + owesRedL c Tsd 2 + owesGatL c 1) hAbG2) $$ Hlev
  iapply (wp_gat_recv m 𝒱₀ c 4 0 (by decide) hne4.symm (K (grCell c 0 4)) (sem_gr0_4 _) (gChunk_credit 0 4)) $$ [Cgr0S4 HO Pgr0S4]
  · isplitr; · iexact Igr0S4
    isplitl [Cgr0S4]; · iexact Cgr0S4
    isplitl [HO]; · iexact HO
    isplitr; · iexact Mgr0S4
    iexact Pgr0S4
  iintro ⟨HO, Dgr0S4, #Rgr0S4, Ygr0S4⟩
  sl_exec_parts
  -- the wait for device 5's rows
  ihave #Igr0S5 := (invsAll_at m K c (.gr 0 5)) $$ Hinv
  ihave #Mgr0S5 := (mayWait_gr (F := F) c 0 5 (owesRedL c [4, 5, 7] 1 + owesRedL c Tsd 2 + owesGatL c 1) hAbG2) $$ Hlev
  iapply (wp_gat_recv m 𝒱₀ c 5 0 (by decide) hne5.symm (K (grCell c 0 5)) (sem_gr0_5 _) (gChunk_credit 0 5)) $$ [Cgr0S5 HO Pgr0S5]
  · isplitr; · iexact Igr0S5
    isplitl [Cgr0S5]; · iexact Cgr0S5
    isplitl [HO]; · iexact HO
    isplitr; · iexact Mgr0S5
    iexact Pgr0S5
  iintro ⟨HO, Dgr0S5, #Rgr0S5, Ygr0S5⟩
  -- rows 256 … 383 of the first activation joined, and the same rows of layer 1's partial product
  ihave Ggr0S4 := (grPay_canon m c 4 0) $$ Ygr0S4
  ihave Ggr0S5 := (grPay_canon m c 5 0) $$ Ygr0S5
  ihave GG2 := (gGroup_join c 0 2 fullShare (Gfun m c) 4 5 rfl rfl) $$ [Ggr0S4 Ggr0S5]
  · isplitl [Ggr0S4]; · iexact Ggr0S4
    iexact Ggr0S5
  ihave PG2 := (pGroup_join c 1 2 fullShare f0 4 5 rfl rfl) $$ [P1T4 P1T5]
  · isplitl [P1T4]; · iexact P1T4
    iexact P1T5
  sl_exec_parts
  -- the group stored is the canonical partial product on its rows; cut into its two chunks
  have eG2 : View.readAt (Elt F) (Memref.whole cc0_scratch2).view (Rect.unit (s := S3x512x256) ![0, 256, 0] S1x128x256.size inb_S3x512x256_S1x128x256_0_256_0).toLoadRect (Gfun m c)
      = groupOf (G0 m) 2 := read_G_group m c 0 2 ![0, 256, 0] rfl _
  have hw2 : ∀ i ∈ (rectGrp 1 2).set, segB1_sound6.sl.PG2_w1 m c f0 x3 x4 i = Pfun m c i :=
    stored_P1 m c 2 f0 _ rfl _ _ HEq.rfl (by
      unfold segB1_sound6.sl.r segB1_sound6.sl.r_1
      rw [e3, e4, eG2]
      rfl)
  ihave PG2 := (pGroup_split c 1 2 fullShare _ 4 5 rfl rfl) $$ PG2
  icases PG2 with ⟨P1T4, P1T5⟩
  have hw2T := agree_chunks 1 2 4 5 rfl rfl _ _ hw2
  ihave P1T4 := (Entails.of_eq (pChunk_congr c 1 4 fullShare hw2T.1)) $$ P1T4
  ihave P1T5 := (Entails.of_eq (pChunk_congr c 1 5 fullShare hw2T.2)) $$ P1T5
  -- the copy of chunk 4 to device 4
  ihave #Irr1T4 := (invsAll_at m K 4 (.rr 1 c)) $$ Hinv
  ihave #Rrr1T4 := (reachedAll_at 4 (.rr 1 c)) $$ Hreach
  ihave HO := (Entails.of_eq (congrArg (fun o => owes (c : Thread nD τ) o _) (debt_peel c 4 [5, 7] 1 (owesRedL c Tsd 2) (owesGatL c 1)))) $$ HO
  iapply (wp_red_send m 𝒱₀ c 4 1 hne4 (K (rsCell c 1)) (K (rrCell 4 1 c)) (dev27_eq _) (pchunk_lit1_4 _ _) (slot_off40 c _ _)
      (congrArg SemLoc.dma (sem_rs1 _)) (congrArg SemLoc.dma (sem_off39 c _)) (owesRedL c [5, 7] 1 + owesRedL c Tsd 2 + owesGatL c 1) fd4)
    $$ [P1T4 Drr1T4 HO Trs1T4 Trr1T4]
  · isplitr; · iexact Irs1
    isplitr; · iexact Irr1T4
    isplitl [P1T4]; · iexact P1T4
    isplitl [Drr1T4]; · iexact Drr1T4
    isplitl [HO]; · iexact HO
    isplitl [Trs1T4]; · iexact Trs1T4
    isplitr; · iexact Rrs1
    isplitl [Trr1T4]; · iexact Trr1T4
    iexact Rrr1T4
  iintro ⟨Crs1T4, HO⟩
  sl_exec_parts
  -- the copy of chunk 5 to device 5
  ihave #Irr1T5 := (invsAll_at m K 5 (.rr 1 c)) $$ Hinv
  ihave #Rrr1T5 := (reachedAll_at 5 (.rr 1 c)) $$ Hreach
  ihave HO := (Entails.of_eq (congrArg (fun o => owes (c : Thread nD τ) o _) (debt_peel c 5 [7] 1 (owesRedL c Tsd 2) (owesGatL c 1)))) $$ HO
  iapply (wp_red_send m 𝒱₀ c 5 1 hne5 (K (rsCell c 1)) (K (rrCell 5 1 c)) (dev28_eq _) (pchunk_lit1_5 _ _) (slot_off42 c _ _)
      (congrArg SemLoc.dma (sem_rs1 _)) (congrArg SemLoc.dma (sem_off41 c _)) (owesRedL c [7] 1 + owesRedL c Tsd 2 + owesGatL c 1) fd5)
    $$ [P1T5 Drr1T5 HO Trs1T5 Trr1T5]
  · isplitr; · iexact Irs1
    isplitr; · iexact Irr1T5
    isplitl [P1T5]; · iexact P1T5
    isplitl [Drr1T5]; · iexact Drr1T5
    isplitl [HO]; · iexact HO
    isplitl [Trs1T5]; · iexact Trs1T5
    isplitr; · iexact Rrs1
    isplitl [Trr1T5]; · iexact Trr1T5
    iexact Rrr1T5
  iintro ⟨Crs1T5, HO⟩
  sl_exec_parts
  -- the wait for device 7's rows
  ihave #Igr0S7 := (invsAll_at m K c (.gr 0 7)) $$ Hinv
  ihave #Mgr0S7 := (mayWait_gr (F := F) c 0 7 (owesRedL c [7] 1 + owesRedL c Tsd 2 + owesGatL c 1) hAbG3) $$ Hlev
  iapply (wp_gat_recv m 𝒱₀ c 7 0 (by decide) hne7.symm (K (grCell c 0 7)) (sem_gr0_7 _) (gChunk_credit 0 7)) $$ [Cgr0S7 HO Pgr0S7]
  · isplitr; · iexact Igr0S7
    isplitl [Cgr0S7]; · iexact Cgr0S7
    isplitl [HO]; · iexact HO
    isplitr; · iexact Mgr0S7
    iexact Pgr0S7
  iintro ⟨HO, Dgr0S7, #Rgr0S7, Ygr0S7⟩
  -- rows 384 … 511 of the first activation joined, and the same rows of layer 1's partial product
  ihave Ggr0S7 := (grPay_canon m c 7 0) $$ Ygr0S7
  ihave G0c := (Entails.of_eq (congrArg (fun t => (piece c (gChunk 0 t) fullShare (Gfun m c) : sProp 𝕄)) hc)) $$ G0c
  ihave GG3 := (gGroup_join c 0 3 fullShare (Gfun m c) 6 7 rfl rfl) $$ [G0c Ggr0S7]
  · isplitl [G0c]; · iexact G0c
    iexact Ggr0S7
  ihave PG3 := (pGroup_join c 1 3 fullShare f0 6 7 rfl rfl) $$ [P1T6 P1T7]
  · isplitl [P1T6]; · iexact P1T6
    iexact P1T7
  sl_exec_parts
  -- the group stored is the canonical partial product on its rows; cut into its two chunks
  have eG3 : View.readAt (Elt F) (Memref.whole cc0_scratch2).view (Rect.unit (s := S3x512x256) ![0, 384, 0] S1x128x256.size inb_S3x512x256_S1x128x256_0_384_0).toLoadRect (Gfun m c)
      = groupOf (G0 m) 3 := read_G_group m c 0 3 ![0, 384, 0] rfl _
  have hw3 : ∀ i ∈ (rectGrp 1 3).set, segB1_sound6.sl.PG3_w1 m c f0 x3 x4 i = Pfun m c i :=
    stored_P1 m c 3 f0 _ rfl _ _ HEq.rfl (by
      unfold segB1_sound6.sl.r segB1_sound6.sl.r_1
      rw [e3, e4, eG3]
      rfl)
  ihave PG3 := (pGroup_split c 1 3 fullShare _ 6 7 rfl rfl) $$ PG3
  icases PG3 with ⟨P1T6, P1T7⟩
  have hw3T := agree_chunks 1 3 6 7 rfl rfl _ _ hw3
  ihave P1T6 := (Entails.of_eq (pChunk_congr c 1 6 fullShare hw3T.1)) $$ P1T6
  ihave P1T7 := (Entails.of_eq (pChunk_congr c 1 7 fullShare hw3T.2)) $$ P1T7
  -- the copy of chunk 7 to device 7
  ihave #Irr1T7 := (invsAll_at m K 7 (.rr 1 c)) $$ Hinv
  ihave #Rrr1T7 := (reachedAll_at 7 (.rr 1 c)) $$ Hreach
  ihave HO := (Entails.of_eq (congrArg (fun o => owes (c : Thread nD τ) o _) (debt_peel c 7 [] 1 (owesRedL c Tsd 2) (owesGatL c 1)))) $$ HO
  iapply (wp_red_send m 𝒱₀ c 7 1 hne7 (K (rsCell c 1)) (K (rrCell 7 1 c)) (dev30_eq _) (pchunk_lit1_7 _ _) (slot_off46 c _ _)
      (congrArg SemLoc.dma (sem_rs1 _)) (congrArg SemLoc.dma (sem_off45 c _)) (owesRedL c [] 1 + owesRedL c Tsd 2 + owesGatL c 1) fd7)
    $$ [P1T7 Drr1T7 HO Trs1T7 Trr1T7]
  · isplitr; · iexact Irs1
    isplitr; · iexact Irr1T7
    isplitl [P1T7]; · iexact P1T7
    isplitl [Drr1T7]; · iexact Drr1T7
    isplitl [HO]; · iexact HO
    isplitl [Trs1T7]; · iexact Trs1T7
    isplitr; · iexact Rrs1
    isplitl [Trr1T7]; · iexact Trr1T7
    iexact Rrr1T7
  iintro ⟨Crs1T7, HO⟩
  ihave P1T6 := (Entails.of_eq (congrArg (fun t => (piece c (pChunk 1 t) fullShare (Pfun m c) : sProp 𝕄)) hc.symm)) $$ P1T6
  ihave P1own := (Entails.of_eq (pRows_eq c 1 c fullShare (Pfun m c)).symm) $$ P1T6
  sl_exec_parts
  have eOwn : View.readAt (Elt F) (Memref.whole cc0_scratch0).view (Rect.unit (s := S3x512x256) (k0_off47 c) S1x64x256.size (k0_off47_inb c)).toLoadRect (Pfun m c)
      = chunkOf (P1 m c) c := read_P_chunk m c 1 c (k0_off47 c) (k0_off47_eq c) _
  iapply (ret_intro _ Kt c)
  iapply (Entails.of_eq (congrArg (fun x => (Kt ⟨k0_pay14 x, segB1_sound6.sl.v466 c⟩ : sProp 𝕄)) eOwn.symm))
  ihave GG0 := (gGroup_split c 0 0 fullShare (Gfun m c) 0 1 rfl rfl) $$ GG0
  icases GG0 with ⟨G0T0, G0T1⟩
  ihave GG1 := (gGroup_split c 0 1 fullShare (Gfun m c) 2 3 rfl rfl) $$ GG1
  icases GG1 with ⟨G0T2, G0T3⟩
  ihave GG2 := (gGroup_split c 0 2 fullShare (Gfun m c) 4 5 rfl rfl) $$ GG2
  icases GG2 with ⟨G0T4, G0T5⟩
  ihave GG3 := (gGroup_split c 0 3 fullShare (Gfun m c) 6 7 rfl rfl) $$ GG3
  icases GG3 with ⟨G0T6, G0T7⟩
  ihave G0T6 := (Entails.of_eq (congrArg (fun t => (piece c (gChunk 0 t) fullShare (Gfun m c) : sProp 𝕄)) hc.symm)) $$ G0T6
  ihave P1own := (Entails.of_eq (pRows_eq c 1 c fullShare (Pfun m c))) $$ P1own
  ihave X3 := (stg_of_whole c cc0_stg3_0 (argW m c 1) x3 hx3) $$ X3
  ihave X4 := (stg_of_whole c cc0_stg4_0 (argV m c 1) x4 hx4) $$ X4
  ihave HO := (Entails.of_eq (congrArg (fun o => owes (c : Thread nD τ) o _) (debt_done c 1 (owesRedL c Tsd 2) (owesGatL c 1)))) $$ HO
  iapply Hk
  isplitr
  · isplitr; · iexact Hinv
    isplitr; · iexact Hreach
    iexact Hlev
  isplitr; · ipureintro; trivial
  isplitl [HO]; · iexists _; iexact HO
  isplitl [GTok1]; · iexact GTok1
  isplitl [GDest1]; · iexact GDest1
  isplitl [PRed1]; · iexact PRed1
  isplitl [PGs1]; · iexact PGs1
  isplitl [PGr1]; · iexact PGr1
  isplitl [Crs1T0 Crs1T1 Crs1T2 Crs1T3 Crs1T4 Crs1T5 Crs1T7]
  · isplitl [Crs1T0]; · iexact Crs1T0
    isplitl [Crs1T1]; · iexact Crs1T1
    isplitl [Crs1T2]; · iexact Crs1T2
    isplitl [Crs1T3]; · iexact Crs1T3
    isplitl [Crs1T4]; · iexact Crs1T4
    isplitl [Crs1T5]; · iexact Crs1T5
    iexact Crs1T7
  isplitl [HL2]; · iexact HL2
  isplitl [HPD0]; · iexact HPD0
  isplitl [Dgr0S0 Dgr0S1 Dgr0S2 Dgr0S3 Dgr0S4 Dgr0S5 Dgr0S7]
  · isplitl [Dgr0S0]; · iexact Dgr0S0
    isplitl [Dgr0S1]; · iexact Dgr0S1
    isplitl [Dgr0S2]; · iexact Dgr0S2
    isplitl [Dgr0S3]; · iexact Dgr0S3
    isplitl [Dgr0S4]; · iexact Dgr0S4
    isplitl [Dgr0S5]; · iexact Dgr0S5
    iexact Dgr0S7
  isplitl [HPrest]; · iexact HPrest
  isplitl [PL0]; · iapply (slab_ex c 0 f0); iexact PL0
  isplitl [P1own]; · iapply (ex_intro c (pChunk 1 c) (Pfun m c)); iexact P1own
  isplitl [PL2]; · iapply (slab_ex c 2 f0); iexact PL2
  isplitl [HSB0]; · iexact HSB0
  isplitl [HR1c]; · iexact HR1c
  isplitl [HR2c]; · iexact HR2c
  isplitl [G0T0 G0T1 G0T2 G0T3 G0T4 G0T5 G0T6 G0T7]
  · isplitl [G0T6]; · iapply (ex_intro c (gChunk 0 c) (Gfun m c)); iexact G0T6
    isplitl [G0T0]; · iapply (ex_intro c (gChunk 0 0) (Gfun m c)); iexact G0T0
    isplitl [G0T1]; · iapply (ex_intro c (gChunk 0 1) (Gfun m c)); iexact G0T1
    isplitl [G0T2]; · iapply (ex_intro c (gChunk 0 2) (Gfun m c)); iexact G0T2
    isplitl [G0T3]; · iapply (ex_intro c (gChunk 0 3) (Gfun m c)); iexact G0T3
    isplitl [G0T4]; · iapply (ex_intro c (gChunk 0 4) (Gfun m c)); iexact G0T4
    isplitl [G0T5]; · iapply (ex_intro c (gChunk 0 5) (Gfun m c)); iexact G0T5
    iapply (ex_intro c (gChunk 0 7) (Gfun m c)); iexact G0T7
  isplitl [G1c]; · iexact G1c
  isplitl [HCA2]; · iexact HCA2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segB1_sound6' depends on axioms: [propext, Classical.choice, Quot.sound] -/
#guard_msgs in #print axioms segB1_sound6

end Cert.KernelProof

end
-- ==== Proof.K.BodySegB2_d6.lean ====
import proofs.«900993_g7700000000000994_dist_mlpseq_tp1d_rep_bs_b512_d256_h512_v7x_i8_bf16_1_alg».proof.Proof.K.BodySegBCut
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 1 on the device at position 6: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound6 (c : Dev nD) (hc : c = 6) (K : GSem nD τ sig → ℕ) (Kt : PUnit → sProp 𝕄) (v463 : FVec F S64x256 .f32) (v466 : BitVec 32) :
    iprop(midB m K c [(0 : Dev nD), 1, 2, 3, 4, 5, 7] v463 ∗ (mid2 m K c [(0 : Dev nD), 1, 2, 3, 4, 5, 7] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : ¬ k0_cond39 c = 1#1 := fun h => (cond39_iff c).mp h hc
  have hg40 : k0_cond40 c = 1#1 := (cond40_iff c).mpr (by rw [hc]; decide)
  -- what is owed: layer 2's reduce arrivals (above every cell of layer 1) and layer 1's gather arrivals, last first
  have hRest : Above 6 (owesRedL c [(0 : Dev nD), 1, 2, 3, 4, 5, 7] 2) := by
    unfold owesRedL
    simp only [List.map_cons, List.map_nil, List.sum_cons, List.sum_nil]
    owes_above
  have hdebt : owesRedL c [(0 : Dev nD), 1, 2, 3, 4, 5, 7] 2 + owesGatL c 1
      = owesRedL c [(0 : Dev nD), 1, 2, 3, 4, 5, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 3, 4, 5, 7] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound6.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound6.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound6.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound6.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound6.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound6.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound6.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound6.sl.r_2 m c a1 a2 a3 a4 a5 a6) (segB2_sound6.sl.v572 m c a7) = red1 m c := by
    intro a1 a2 a3 a4 a5 a6 a7
    unfold segB2_sound6.sl.r_2 segB2_sound6.sl.r_1 segB2_sound6.sl.r
    rw [e476, e492, e508, e524, e540, e556, e572]
    rfl
  have hG1 : ∀ i ∈ (gChunk 1 c).view.set, segB2_sound6.sl.G1c_w1 m c g1 fs1 fs2 fs3 fs4 fs5 fs6 fs7 i = Gfun m c i := by
    intro i hi
    unfold segB2_sound6.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelProof.segB2_sound6' depends on axioms: [propext, Classical.choice, Quot.sound] -/
#guard_msgs in #print axioms segB2_sound6

end Cert.KernelProof

end
-- ==== Proof.K.BodySegC1_d6.lean ====
import proofs.«900993_g7700000000000994_dist_mlpseq_tp1d_rep_bs_b512_d256_h512_v7x_i8_bf16_1_alg».proof.Proof.K.BodySegC1Lib
import Idealize.ShloMosaic.Lib.Tactic

/-! The first half of layer 2 on the device at position 6: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 6 owes for layer 2, the summands in the reverse of the order its sends pay them. -/
theorem owesRedL_rev_d6 (c : Dev nD) :
    owesRedL c [(0 : Dev nD), 1, 2, 3, 4, 5, 7] 2 = 0 + T2 c 7 + T2 c 5 + T2 c 4 + T2 c 3 + T2 c 2 + T2 c 1 + T2 c 0 := by
  unfold owesRedL T2
  simp only [List.map, List.sum_cons, List.sum_nil]
  abel

theorem segC1_sound6 (c : Dev nD) (hc : c = 6) (K : GSem nD τ sig → ℕ) (Kt : PUnit → sProp 𝕄) :
    iprop(mid2 m K c [(0 : Dev nD), 1, 2, 3, 4, 5, 7] ∗ (mid3 m K c [(0 : Dev nD), 1, 2, 3, 4, 5, 7] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne7 : c ≠ (7 : Dev nD) := by rw [hc]; decide
  have hw0 := (condw0_iff c).mpr hne0
  have hw1 := (condw1_iff c).mpr hne1
  have hw2 := (condw2_iff c).mpr hne2
  have hw3 := (condw3_iff c).mpr hne3
  have hw4 := (condw4_iff c).mpr hne4
  have hw5 := (condw5_iff c).mpr hne5
  have hw6 : ¬ _ := fun h => (condw6_iff c).mp h hc
  have hw7 := (condw7_iff c).mpr hne7
  have hg43 : k0_cond43 c = 1#1 := (cond43_iff c).mpr hne0
  have hg44 : k0_cond44 c = 1#1 := (cond44_iff c).mpr hne1
  have hg47 : k0_cond47 c = 1#1 := (cond47_iff c).mpr hne2
  have hg48 : k0_cond48 c = 1#1 := (cond48_iff c).mpr hne3
  have hg51 : k0_cond51 c = 1#1 := (cond51_iff c).mpr hne4
  have hg52 : k0_cond52 c = 1#1 := (cond52_iff c).mpr hne5
  have hg55 : ¬ k0_cond55 c = 1#1 := fun h => (cond55_iff c).mp h hc
  have hg56 : k0_cond56 c = 1#1 := (cond56_iff c).mpr hne7
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts3, Tr3⟩, ⟨Ts4, Tr4⟩, ⟨Ts5, Tr5⟩, ⟨Ts7, Tr7⟩⟩, -⟩, HposRed2, -, Hdest⟩, ⟨⟨Pg0, Cg0⟩, ⟨Pg1, Cg1⟩, ⟨Pg2, Cg2⟩, ⟨Pg3, Cg3⟩, ⟨Pg4, Cg4⟩, ⟨Pg5, Cg5⟩, ⟨Pg7, Cg7⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d6 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 7 + T2 c 5 + T2 c 4 + T2 c 3 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 7 + T2 c 5 + T2 c 4 + T2 c 3 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound6.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 7 + T2 c 5 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 7 + T2 c 5 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound6.sl.PG1_w1 segC1_sound6.sl.r segC1_sound6.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 7 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 7 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound6.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 7's rows of the second activation
  ihave Ig := (invsAll_at m K c (.gr 1 7)) $$ Hinv
  ihave Hmw := (mayWait_gr (F := F) c 1 7 (0 + T2 c 7) (by owes_above)) $$ Hlev
  iapply (wp_gat_recv m 𝒱₀ c (7 : Dev nD) 1 (by decide) hne7.symm (K (grCell c 1 7)) (sem_gr1_7 _)
      ((congrArg (fun M : Memref sig .tc .vmem S64x256 .bf16 => M.view.dmaCredit) (gchunk_lit1_7 _ _)).trans (gChunk_credit 1 7))) $$ [Cg7 HO Pg7]
  · isplitr; · iexact Ig
    isplitl [Cg7]; · iexact Cg7
    isplitl [HO]; · iexact HO
    isplitr; · iexact Hmw
    iexact Pg7
  iintro ⟨HO, Pg7, #Rg7, Hgp7⟩
  iclear Ig Hmw
  ihave Gc7 := (grPay_canon m c 7 1) $$ Hgp7
  -- the device's own rows are chunk 6 of the group
  ihave Gc6 := (Entails.of_eq (congrArg (fun t : Dev nD => (piece c (gChunk 1 t) fullShare (Gfun m c) : sProp 𝕄)) hc)) $$ Hg1c
  ihave GG3 := (gGroup_join c 1 3 fullShare (Gfun m c) 6 7 rfl rfl) $$ [Gc6 Gc7]
  · isplitl [Gc6] <;> iassumption
  sl_exec
  -- group 3 of layer 2 now holds the device's partial product
  unfold segC1_sound6.sl.PG3_w1 segC1_sound6.sl.r_2 segC1_sound6.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 7 to device 7
  ihave Hd := (dests2_cons (F := F) c (7 : Dev nD) _) $$ Hdest
  icases Hd with ⟨⟨%fd7, D7⟩, Hdest⟩
  ihave Ir := (invsAll_at m K (7 : Dev nD) (.rr 2 c)) $$ Hinv
  ihave Rr := (reached_at (F := F) (7 : Dev nD) (.rr 2 c)) $$ Hreach
  iapply (wp_red_send m 𝒱₀ c (7 : Dev nD) 2 hne7 (K (rsCell c 2)) (K (rrCell (7 : Dev nD) 2 c)) (dev45_eq _) (pchunk_lit2_7 _ _) (slot_off76 c _ _)
      (congrArg SemLoc.dma (sem_rs2 _)) (congrArg SemLoc.dma (sem_off75 c _)) _ fd7) $$ [B27 D7 HO Ts7 Tr7]
  · isplitr; · iexact Is
    isplitr; · iexact Ir
    isplitl [B27]; · iexact B27
    isplitl [D7]; · iexact D7
    isplitl [HO]; · iexact HO
    isplitl [Ts7]; · iexact Ts7
    isplitr; · iexact Rs
    isplitl [Tr7]; · iexact Tr7
    iexact Rr
  iintro ⟨Cs7, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs3 Cs4 Cs5 Cs7]
  · rw [sepL7]
    isplitl [Cs0]; · iexact Cs0
    isplitl [Cs1]; · iexact Cs1
    isplitl [Cs2]; · iexact Cs2
    isplitl [Cs3]; · iexact Cs3
    isplitl [Cs4]; · iexact Cs4
    isplitl [Cs5]; · iexact Cs5
    iexact Cs7
  isplitl [Hpd0]; · iexact Hpd0
  isplitl [Hpd1]; · iexact Hpd1
  isplitl [HpdG0]; · iexact HpdG0
  isplitl [Pg0 Pg1 Pg2 Pg3 Pg4 Pg5 Pg7]
  · rw [sepL7]
    isplitl [Pg0]; · iexact Pg0
    isplitl [Pg1]; · iexact Pg1
    isplitl [Pg2]; · iexact Pg2
    isplitl [Pg3]; · iexact Pg3
    isplitl [Pg4]; · iexact Pg4
    isplitl [Pg5]; · iexact Pg5
    iexact Pg7
  isplitl [Hrest]; · iexact Hrest
  -- layer 0 of the partial-product buffer: its eight chunks, at whatever they hold
  isplitl [A00 A01 A02 A03 A04 A05 A06 A07]
  · unfold chunksP
    rw [sepL7]
    isplitl [A06]
    · iapply (Entails.of_eq (congrArg (fun t : Dev nD => (ex (F := F) c (pChunk 0 t) : sProp 𝕄)) hc.symm))
      iapply (ex_of c (pChunk 0 6) _); iexact A06
    isplitl [A00]; · iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A04]; · iapply (ex_of c (pChunk 0 4) _); iexact A04
    isplitl [A05]; · iapply (ex_of c (pChunk 0 5) _); iexact A05
    iapply (ex_of c (pChunk 0 7) _); iexact A07
  -- layer 1 of the partial-product buffer: its eight chunks, at whatever they hold
  isplitl [A10 A11 A12 A13 A14 A15 A16 A17]
  · unfold chunksP
    rw [sepL7]
    isplitl [A16]
    · iapply (Entails.of_eq (congrArg (fun t : Dev nD => (ex (F := F) c (pChunk 1 t) : sProp 𝕄)) hc.symm))
      iapply (ex_of c (pChunk 1 6) _); iexact A16
    isplitl [A10]; · iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A14]; · iapply (ex_of c (pChunk 1 4) _); iexact A14
    isplitl [A15]; · iapply (ex_of c (pChunk 1 5) _); iexact A15
    iapply (ex_of c (pChunk 1 7) _); iexact A17
  -- the device's own chunk of layer 2, holding its partial product
  isplitl [B26]
  · iapply (Entails.of_eq (congrArg (fun t : Dev nD => (piece c (pChunk 2 t) fullShare (Pfun m c) : sProp 𝕄)) hc.symm)); iexact B26
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G16]
    · iapply (Entails.of_eq (congrArg (fun t : Dev nD => (ex (F := F) c (gChunk 1 t) : sProp 𝕄)) hc.symm))
      iapply (ex_of c (gChunk 1 6) _); iexact G16
    isplitl [G10]; · iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G14]; · iapply (ex_of c (gChunk 1 4) _); iexact G14
    isplitl [G15]; · iapply (ex_of c (gChunk 1 5) _); iexact G15
    iapply (ex_of c (gChunk 1 7) _); iexact G17
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelProof.segC1_sound6' depends on axioms: [propext, Classical.choice, Quot.sound] -/
#guard_msgs in #print axioms segC1_sound6

end Cert.KernelProof

end
-- ==== Proof.K.BodySegC2_d6.lean ====
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.BodyExit
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 2 on the device at position 6: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound6 (c : Dev nD) (hc : c = 6) (K : GSem nD τ sig → ℕ) (Kt : PUnit → sProp 𝕄) :
    iprop(mid3 m K c [(0 : Dev nD), 1, 2, 3, 4, 5, 7] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 3, 4, 5, 7]).toFinset := by subst hc; decide
  have hnd : ([(0 : Dev nD), 1, 2, 3, 4, 5, 7]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : ¬ k0_cond63 c = 1#1 := fun h => (cond63_iff c).mp h hc
  have hg64 : k0_cond64 c = 1#1 := (cond64_iff c).mpr (by rw [hc]; decide)
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound6.sl.v846 m c : Vec F S1x64x256 .bf16) = chunkOf (P2 m c) c := own_chunk_read m c _
  have e861 : ∀ a, (segC2_sound6.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound6.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound6.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound6.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound6.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound6.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound6.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound6.sl.r_3 m c a1 a2 a3 a4 a5 a6) (segC2_sound6.sl.v957 m c a7) = red2 m c := by
    intro a1 a2 a3 a4 a5 a6 a7
    unfold segC2_sound6.sl.r_3 segC2_sound6.sl.r_2 segC2_sound6.sl.r_1 segC2_sound6.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound6.sl.r_3 m c fs1 fs2 fs3 fs4 fs5 fs6) (segC2_sound6.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelProof.segC2_sound6' depends on axioms: [propext, Classical.choice, Quot.sound] -/
#guard_msgs in #print axioms segC2_sound6

end Cert.KernelProof

end
-- ==== Proof.K.BodySegA1a_d7.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegACut
import proofs.«900993_g7700000000000994_dist_mlpseq_tp1d_rep_bs_b512_d256_h512_v7x_i8_bf16_1_alg».proof.Proof.K.Prelude
import proofs.«900993_g7700000000000994_dist_mlpseq_tp1d_rep_bs_b512_d256_h512_v7x_i8_bf16_1_alg».proof.Proof.K.PreludeDevs
import proofs.«900993_g7700000000000994_dist_mlpseq_tp1d_rep_bs_b512_d256_h512_v7x_i8_bf16_1_alg».proof.Proof.K.StepsEntry
import Idealize.ShloMosaic.Lib.Tactic

/-! The entry and layer 0 on device 7, first half: from the body's start to the point where the device has enqueued its
    seven reduce copies of layer 0 and read its own chunk.

    The device signals its seven peers along the ring, one unit to each barrier cell: each signal pays the device's
    duty at that cell and hands the peer the pieces of the device's buffers the peer's copies will land in. It waits for
    the seven signals to itself, the whole round of its barrier cell, and receives in turn the pieces of its peers'
    buffers its own copies land in. It then makes layer 0's partial product from the staged arguments by the body's own
    arithmetic and stores it over layer 0 of the partial-product buffer, which from then on holds the canonical partial
    product there; cut into 64-row chunks, each chunk but the device's own is lent to the copy towards the device that
    reduces those rows, which pays duty `t` of the device's reduce-send cell and the one duty of the target's
    reduce-receive cell, settles what the device owed that cell, and earns the credit for a later wait on the send
    cell. The own chunk is read last, as the accumulation's first term. What the device holds then — the tokens,
    positions and credit of everything still to come, regrouped layer by layer — is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 3, 4, 5, 6]

/-- A step rule stated with its continuation as a wand, read with the continuation as a second conjunct. -/
private theorem step_uncurry {P R G : sProp 𝕄} (h : P ⊢ iprop(R -∗ G)) : iprop(P ∗ R) ⊢ G := by
  iintro ⟨HP, HR⟩
  iapply (h) $$ [HP]
  · iexact HP
  iexact HR

/-- The start holds every cell's invariant and round-0 fact for good. -/
private theorem pre_dup (K : GSem nD τ sig → ℕ) (c : Dev nD) : bodyPre m K c ⊢ iprop((invsAll m K ∗ reachedAll (F := F)) ∗ bodyPre m K c) := by
  unfold bodyPre ghost
  iintro ⟨⟨⟨#HI, #HR, HP, HT⟩, HC, Hlev, S0, S1, S2⟩, HO, Hstg⟩
  isplitr
  · isplitr; · iexact HI
    iexact HR
  isplitl [HP HT HC Hlev S0 S1 S2]
  · isplitl [HP HT]
    · isplitr; · iexact HI
      isplitr; · iexact HR
      isplitl [HP]; · iexact HP
      iexact HT
    isplitl [HC]; · iexact HC
    isplitl [Hlev]; · iexact Hlev
    isplitl [S0]; · iexact S0
    isplitl [S1]; · iexact S1
    iexact S2
  isplitl [HO]; · iexact HO
  iexact Hstg

/-- Two chains of seven, term by term. -/
private theorem zip7 {M : Type} [URA M] (a1 a2 a3 a4 a5 a6 a7 b1 b2 b3 b4 b5 b6 b7 : sProp M) :
    iprop((a1 ∗ a2 ∗ a3 ∗ a4 ∗ a5 ∗ a6 ∗ a7) ∗ (b1 ∗ b2 ∗ b3 ∗ b4 ∗ b5 ∗ b6 ∗ b7))
      ⊢ iprop((a1 ∗ b1) ∗ (a2 ∗ b2) ∗ (a3 ∗ b3) ∗ (a4 ∗ b4) ∗ (a5 ∗ b5) ∗ (a6 ∗ b6) ∗ (a7 ∗ b7)) := by
  iintro ⟨⟨A1, A2, A3, A4, A5, A6, A7⟩, ⟨B1, B2, B3, B4, B5, B6, B7⟩⟩
  isplitl [A1 B1]; · isplitl [A1]; · iexact A1
                     iexact B1
  isplitl [A2 B2]; · isplitl [A2]; · iexact A2
                     iexact B2
  isplitl [A3 B3]; · isplitl [A3]; · iexact A3
                     iexact B3
  isplitl [A4 B4]; · isplitl [A4]; · iexact A4
                     iexact B4
  isplitl [A5 B5]; · isplitl [A5]; · iexact A5
                     iexact B5
  isplitl [A6 B6]; · isplitl [A6]; · iexact A6
                     iexact B6
  isplitl [A7]; · iexact A7
  iexact B7

/-- What the seven entry signals heard hand the device, sorted by the layer whose copies land in it. -/
private theorem barPays_fold (c : Dev nD) (Ts : List (Dev nD)) (hTs : peers c = Ts.toFinset) (hnd : Ts.Nodup) :
    bigSep (peers c) (fun p => barPay (F := F) c p) ⊢ iprop(layerDest c Ts 0 ∗ layerDest c Ts 1 ∗ layerDest c Ts 2) := by
  unfold barPay layerDest
  simp only [bigSep_sep']
  rw [if_pos (show (0 : Fin 3).val < 2 by decide), if_pos (show (1 : Fin 3).val < 2 by decide), if_neg (show ¬ (2 : Fin 3).val < 2 by decide)]
  rw [bigSep_eq_bigSepL_of_eq Ts hTs hnd (fun p => iprop(∃ f, piece p (rSlot 0 c) fullShare f)),
    bigSep_eq_bigSepL_of_eq Ts hTs hnd (fun p => iprop(∃ f, piece p (rSlot 1 c) fullShare f)),
    bigSep_eq_bigSepL_of_eq Ts hTs hnd (fun p => iprop(∃ f, piece p (rSlot 2 c) fullShare f)),
    bigSep_eq_bigSepL_of_eq (ringF c) (peers_eq_fwd c) (fwd_nodup c) (fun p => iprop(∃ f, piece p (gChunk 0 c) fullShare f)),
    bigSep_eq_bigSepL_of_eq (ringF c) (peers_eq_fwd c) (fwd_nodup c) (fun p => iprop(∃ f, piece p (gChunk 1 c) fullShare f))]
  iintro ⟨A0, A1, A2, G0, G1, -⟩
  isplitl [A0 G0]; · isplitl [A0]; · iexact A0
                     iexact G0
  isplitl [A1 G1]; · isplitl [A1]; · iexact A1
                     iexact G1
  isplitl [A2]; · iexact A2
  iempintro

/-- Layer 0's destinations: the seven receive slots by target, and the gather chunks along the ring. -/
private theorem layerDest0_eq (c : Dev nD) : (layerDest (F := F) c Tsd 0 : sProp 𝕄) =
    iprop(((∃ fd, piece 0 (rSlot 0 c) fullShare fd) ∗ (∃ fd, piece 1 (rSlot 0 c) fullShare fd) ∗ (∃ fd, piece 2 (rSlot 0 c) fullShare fd) ∗ (∃ fd, piece 3 (rSlot 0 c) fullShare fd) ∗ (∃ fd, piece 4 (rSlot 0 c) fullShare fd) ∗ (∃ fd, piece 5 (rSlot 0 c) fullShare fd) ∗ (∃ fd, piece 6 (rSlot 0 c) fullShare fd))
      ∗ bigSepL (ringF c) (fun p => iprop(∃ fd, piece p (gChunk 0 c) fullShare fd))) := by
  unfold layerDest
  rw [if_pos (show (0 : Fin 3).val < 2 by decide)]
  rfl

/-- Chunk `t` of layer 0 after the store of the layer's partial product holds the canonical contents. -/
private theorem chunk0_stored (c t : Dev nD) (f0 : Buf (Elt F) ((c : Thread nD τ).loc cc0_scratch0))
    (inb : ∀ a, (![0, 0, 0] : Fin 3 → Nat) a + S1x512x256.size a ≤ S3x512x256.size a) :
    (piece c (pChunk 0 t) fullShare ((Memref.whole cc0_scratch0).view.writes (Elt F) f0
        [⟨Rect.unit (s := S3x512x256) ![0, 0, 0] S1x512x256.size inb, P0 m c⟩]) : sProp 𝕄)
      = piece c (pChunk 0 t) fullShare (Pfun m c) := by
  refine piece_congr c (pChunk 0 t) fullShare fun i hi => ?_
  refine write_P0 m c f0 ![0, 0, 0] rfl inb i ?_
  rw [set_pChunk] at hi
  have hs : i ∈ (rectSlab 0).set := by
    rw [rectSlab_eq]; exact Finset.mem_biUnion.mpr ⟨t, Finset.mem_univ _, hi⟩
  have hs' : i ∈ (pSlab 0).view.set := by rw [set_pSlab]; exact hs
  exact hs'

/-- The eight chunks of layer `l` of the partial-product buffer, each at some contents. -/
private def pLayerEx (c : Dev nD) (l : Fin 3) : sProp 𝕄 := bigSep (Finset.univ : Finset (Dev nD)) (fun t => ex (F := F) c (pChunk l t))

/-- After the store of layer 0's partial product the partial-product buffer is: its eight chunks of layer 0 holding the
    canonical contents, and the chunks of the two later layers at whatever they hold. -/
private theorem slab0_cut (c : Dev nD) (f0 : Buf (Elt F) ((c : Thread nD τ).loc cc0_scratch0))
    {a0 : Vec F S512x256 .f32} {a1 : Vec F S256x512 .f32} {a2 : Vec F S512x256 .f32}
    (h0 : a0 = argX m c) (h1 : a1 = argW m c 0) (h2 : a2 = argV m c 0)
    (inb : ∀ a, (![0, 0, 0] : Fin 3 → Nat) a + S1x512x256.size a ≤ S3x512x256.size a) :
    ((Memref.whole cc0_scratch0).view.loc (c : Thread nD τ) ↦[(Memref.whole cc0_scratch0).view.set]{fullShare}
        ((Memref.whole cc0_scratch0).view.writes (Elt F) f0 [⟨Rect.unit (s := S3x512x256) ![0, 0, 0] S1x512x256.size inb, k0_pay1 a0 a1 a2⟩]) : sProp 𝕄)
      ⊢ iprop(bigSep (Finset.univ : Finset (Dev nD)) (fun t => piece c (pChunk 0 t) fullShare (Pfun m c))
          ∗ pLayerEx c 1 ∗ pLayerEx c 2) := by
  unfold pLayerEx
  subst h0 h1 h2
  refine (whole0_split c fullShare _).trans ?_
  rw [bigSep_univ_prod, bigSep_fin3]
  exact sep_mono (Entails.of_eq (bigSep_congr fun t _ => chunk0_stored m c t f0 inb))
    (sep_mono (bigSep_mono fun t _ => piece_ex c _ _ _) (bigSep_mono fun t _ => piece_ex c _ _ _))

private theorem zero2 : (![0, 0] : Fin 2 → Nat) = fun _ => 0 := by funext a; fin_cases a <;> rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; rfl
  iapply (Entails.of_eq (congrArg (fun I => pointsTo ((c : Thread nD τ).loc b) I fullShare x) (View.set_whole b)))
  iexact H

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

/-- What is still owed once the entry signals and layer 0's reduce copies are out, and the whole debt at launch with
    those last, in the reverse of the order they are settled. -/
private abbrev restA (c : Dev nD) : CellTallies nD τ sig Unit := owesRedL c Tsd 1 + owesRedL c Tsd 2 + owesGatL c 0 + owesGatL c 1

private theorem debt_rev (c : Dev nD) : debt c 0 1 2 3 4 5 6 =
    restA c + tallyAt (rrCell 6 0 c) () N64 + tallyAt (rrCell 5 0 c) () N64 + tallyAt (rrCell 4 0 c) () N64 + tallyAt (rrCell 3 0 c) () N64 + tallyAt (rrCell 2 0 c) () N64 + tallyAt (rrCell 1 0 c) () N64 + tallyAt (rrCell 0 0 c) () N64
      + tallyAt (barCell (fwd 7 c)) () 1 + tallyAt (barCell (fwd 6 c)) () 1 + tallyAt (barCell (fwd 5 c)) () 1 + tallyAt (barCell (fwd 4 c)) () 1
      + tallyAt (barCell (fwd 3 c)) () 1 + tallyAt (barCell (fwd 2 c)) () 1 + tallyAt (barCell (fwd 1 c)) () 1 := by
  unfold debt owesBar owesRedLit owesGatA restA owesRedL owesGatL ringF
  simp only [amt_rSlot, amt_gChunk, List.map, List.sum_cons, List.sum_nil]
  abel

private theorem above_restA (c : Dev nD) : Above 1 (restA c) := by
  unfold restA owesRedL owesGatL ringF
  simp only [List.map, List.sum_cons, List.sum_nil]
  owes_above

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- Seven copies of one assertion, as the family over the literal peers. -/
private theorem creds7 (a : sProp 𝕄) : iprop(a ∗ a ∗ a ∗ a ∗ a ∗ a ∗ a) ⊢ bigSepL Tsd (fun _ => a) := .rfl

/-- Two chains along the ring forward, term by term. -/
private theorem zipF (c : Dev nD) (Φ Ψ : Dev nD → sProp 𝕄) : iprop(alongF c Φ ∗ alongF c Ψ) ⊢ bigSepL (ringF c) (fun p => iprop(Φ p ∗ Ψ p)) :=
  zip7 _ _ _ _ _ _ _ _ _ _ _ _ _ _
/-- Two chains along the ring backward, term by term. -/
private theorem zipB (c : Dev nD) (Φ Ψ : Dev nD → sProp 𝕄) : iprop(alongB c Φ ∗ alongB c Ψ) ⊢ bigSepL (ringB c) (fun p => iprop(Φ p ∗ Ψ p)) :=
  zip7 _ _ _ _ _ _ _ _ _ _ _ _ _ _
/-- Two chains over the literal peers, term by term. -/
private theorem zipT (Φ Ψ : Dev nD → sProp 𝕄) : iprop(lits7 Φ ∗ lits7 Ψ) ⊢ bigSepL Tsd (fun p => iprop(Φ p ∗ Ψ p)) :=
  zip7 _ _ _ _ _ _ _ _ _ _ _ _ _ _

/-- A layer's reduce positions from the send cell's, the receive cells' and their credit. -/
private theorem posRed_intro (c : Dev nD) (l : Fin 3) :
    iprop(atPos ER (rsCell c l) 0 ∅ 0 ∗ alongB c (fun s => (atPos ER (rrCell c l s) 0 ∅ 0 : sProp 𝕄))
      ∗ alongB c (fun s => (cred (tallyAt (rrCell c l s) () N64) : sProp 𝕄))) ⊢ (posRed (F := F) c l : sProp 𝕄) := by
  unfold posRed
  iintro ⟨A, B, C⟩
  isplitl [A]; · iexact A
  iapply (zipB c _ _)
  isplitl [B]; · iexact B
  iexact C
/-- A layer's gather-send position. -/
private theorem posGs_intro (c : Dev nD) (l : Fin 3) : (atPos ER (gsCell c l) 0 ∅ 0 : sProp 𝕄) ⊢ posGs (F := F) c l := by
  unfold posGs
  exact .rfl
/-- A layer's gather-receive positions with their credit. -/
private theorem posGr_intro (c : Dev nD) (l : Fin 3) :
    iprop(lits7 (fun s => (atPos ER (grCell c l s) 0 ∅ 0 : sProp 𝕄)) ∗ lits7 (fun s => (cred (tallyAt (grCell c l s) () N64) : sProp 𝕄)))
      ⊢ (posGr (F := F) c Tsd l : sProp 𝕄) := by
  unfold posGr
  exact zipT _ _

/-- A later layer's resources from its tokens, positions, credit and destinations. -/
private theorem layerRes1_intro (c : Dev nD) :
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1) ∗ layerDest c Tsd 1) ⊢ (layerRes (F := F) c Tsd 1 : sProp 𝕄) := by
  unfold layerRes layerToks
  rw [if_pos (show (1 : Fin 3).val < 2 by decide), if_pos (show (1 : Fin 3).val < 2 by decide)]
private theorem layerRes2_intro (c : Dev nD) :
    iprop((bigSepL Tsd (fun t => iprop(dutyTok ER (rsCell c 2) 0 t ∗ dutyTok ER (rrCell t 2 c) 0 c)) ∗ emp)
      ∗ posRed c 2 ∗ emp ∗ layerDest c Tsd 2) ⊢ (layerRes (F := F) c Tsd 2 : sProp 𝕄) := by
  unfold layerRes layerToks
  rw [if_neg (show ¬ (2 : Fin 3).val < 2 by decide), if_neg (show ¬ (2 : Fin 3).val < 2 by decide)]

private theorem pLayerEx_def (c : Dev nD) (l : Fin 3) :
    (pLayerEx (F := F) c l : sProp 𝕄) = bigSep (Finset.univ : Finset (Dev nD)) (fun t => ex (F := F) c (pChunk l t)) := rfl

/-- The last layer's chunks of the gather buffer, all held. -/
private theorem gath2 (c : Dev nD) (hc : c = 7) (f : Buf (Elt F) ((c : Thread nD τ).loc cc0_scratch2)) :
    bigSep (Finset.univ : Finset (Dev nD)) (fun t => (piece c (gChunk 2 t) fullShare f : sProp 𝕄)) ⊢ chunksAll c Tsd 2 := by
  subst hc
  rw [bigSep_dev8]
  unfold chunksAll
  rw [bigSepL7]
  iintro ⟨H0, H1, H2, H3, H4, H5, H6, H7⟩
  isplitl [H7]; · iapply (ex_intro _ (gChunk 2 7) f); iexact H7
  isplitl [H0]; · iapply (ex_intro _ (gChunk 2 0) f); iexact H0
  isplitl [H1]; · iapply (ex_intro _ (gChunk 2 1) f); iexact H1
  isplitl [H2]; · iapply (ex_intro _ (gChunk 2 2) f); iexact H2
  isplitl [H3]; · iapply (ex_intro _ (gChunk 2 3) f); iexact H3
  isplitl [H4]; · iapply (ex_intro _ (gChunk 2 4) f); iexact H4
  isplitl [H5]; · iapply (ex_intro _ (gChunk 2 5) f); iexact H5
  iapply (ex_intro _ (gChunk 2 6) f); iexact H6

attribute [local irreducible] layerDest layerRes layerToks barPay pLayerEx

set_option hygiene false in
/-- The entry signal to the peer `j` places after the device: it pays with the head token and the head payload. -/
local macro "entry_signal" j:num eq:ident : tactic => `(tactic| (
  icases TB with ⟨Tb, TB⟩
  icases PB with ⟨Pb, PB⟩
  iapply (step_uncurry (wp_entry_signal m 𝒱₀ c (fwd $j c) (fwd_ne_nat $j (by decide) (by decide) c) (K (barCell (fwd $j c))) ($eq c _) rfl rfl _))
  isplitl [Tb Pb HO]
  · isplitr; · iapply (invsAll_at m K (fwd $j c) .bar); iexact Hinv
    isplitl [Tb]; · iexact Tb
    isplitr; · iapply (reached_at (fwd $j c) .bar); iexact Hreach
    isplitl [Pb]; · iexact Pb
    iexact HO
  iintro HO
  sl_exec_parts))

theorem segA1_sound7 (c : Dev nD) (hc : c = 7) (K : GSem nD τ sig → ℕ)
    (Kt : (Σ' (d0 : Dev nD) (v2 : BitVec 32) (v78 : FVec F S64x256 .f32) (v81 : BitVec 32) (v82 : BitVec 32), BitVec 32) → sProp 𝕄) :
    iprop(bodyPre m K c ∗ (∀ v78 v81 v82 c0, midA m K c Tsd v78 -∗ Kt ⟨c, devWord c, v78, v81, v82, c0⟩))
      ⊢ wp frame (wpE (defs₀ (F := F)) 𝒱₀ (c : Thread nD τ) none) Set.univ (segA1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hg1 : k0_cond1 c = 1#1 := (cond1_iff c).mpr hne0
  have hg2 : k0_cond2 c = 1#1 := (cond2_iff c).mpr hne1
  have hg3 : k0_cond3 c = 1#1 := (cond3_iff c).mpr hne2
  have hg4 : k0_cond4 c = 1#1 := (cond4_iff c).mpr hne3
  have hg5 : k0_cond5 c = 1#1 := (cond5_iff c).mpr hne4
  have hg6 : k0_cond6 c = 1#1 := (cond6_iff c).mpr hne5
  have hg7 : k0_cond7 c = 1#1 := (cond7_iff c).mpr hne6
  have hg8 : ¬ k0_cond8 c = 1#1 := fun h => (cond8_iff c).mp h hc
  have hAbW : Above 1 (restA c + tallyAt (rrCell 6 0 c) () N64 + tallyAt (rrCell 5 0 c) () N64 + tallyAt (rrCell 4 0 c) () N64 + tallyAt (rrCell 3 0 c) () N64 + tallyAt (rrCell 2 0 c) () N64 + tallyAt (rrCell 1 0 c) () N64 + tallyAt (rrCell 0 0 c) () N64 : CellTallies nD τ sig Unit) :=
    (((((((above_restA c).add (above_rr (n := 1) (6 : Dev nD) (0 : Fin 3) c N64 (by decide))).add (above_rr (n := 1) (5 : Dev nD) (0 : Fin 3) c N64 (by decide))).add (above_rr (n := 1) (4 : Dev nD) (0 : Fin 3) c N64 (by decide))).add (above_rr (n := 1) (3 : Dev nD) (0 : Fin 3) c N64 (by decide))).add (above_rr (n := 1) (2 : Dev nD) (0 : Fin 3) c N64 (by decide))).add (above_rr (n := 1) (1 : Dev nD) (0 : Fin 3) c N64 (by decide))).add (above_rr (n := 1) (0 : Dev nD) (0 : Fin 3) c N64 (by decide))
  refine (sep_mono_left ((pre_dup m K c).trans (sep_mono_right (prelude_dev7 m K c hc)))).trans ?_
  unfold ctx toksFam posFam credsFam lits7 midA stagedIn scr
  rw [debt_rev]
  iintro ⟨⟨⟨#Hinv, #Hreach⟩, -, -, #Hlev, ⟨TB, ⟨⟨Trs0T0, Trs0T1, Trs0T2, Trs0T3, Trs0T4, Trs0T5, Trs0T6⟩, ⟨Trr0T0, Trr0T1, Trr0T2, Trr0T3, Trr0T4, Trr0T5, Trr0T6⟩⟩, ⟨TS1, TR1⟩, ⟨TS2, TR2⟩, ⟨TGS0, TGR0⟩, ⟨TGS1, TGR1⟩⟩, ⟨Abar, ⟨Ars0, Arr0⟩, ⟨Ars1, Arr1⟩, ⟨Ars2, Arr2⟩, ⟨Ags0, Agr0⟩, ⟨Ags1, Agr1⟩⟩, ⟨Cbar, Crr0, Crr1, Crr2, Cgr0, Cgr1⟩, HPrest, ⟨%f0, S0⟩, PB, ⟨%fs, SO0, SO1, SO2⟩, ⟨%fg, GO0, GO1, GO2⟩, ⟨%W, HO⟩, ⟨%x0, %hx0, X0⟩, ⟨%x1, %hx1, X1⟩, ⟨%x2, %hx2, X2⟩, X3, X4, X5, X6, H7⟩, Hk⟩
  ihave X0 := (whole_restate c cc0_stg0_0 x0) $$ X0
  ihave X1 := (whole_restate c cc0_stg1_0 x1) $$ X1
  ihave X2 := (whole_restate c cc0_stg2_0 x2) $$ X2
  ihave S0 := (whole_restate c cc0_scratch0 f0) $$ S0
  sl_unfold [segA1]
  sl_exec_parts
  entry_signal 1 dev1_eq
  entry_signal 2 dev2_eq
  entry_signal 3 dev3_eq
  entry_signal 4 dev4_eq
  entry_signal 5 dev5_eq
  entry_signal 6 dev6_eq
  icases TB with Tb
  icases PB with Pb
  iapply (step_uncurry (wp_entry_signal m 𝒱₀ c (fwd 7 c) (fwd_ne_nat 7 (by decide) (by decide) c) (K (barCell (fwd 7 c))) (dev7_eq c _) rfl rfl _))
  isplitl [Tb Pb HO]
  · isplitr; · iapply (invsAll_at m K (fwd 7 c) .bar); iexact Hinv
    isplitl [Tb]; · iexact Tb
    isplitr; · iapply (reached_at (fwd 7 c) .bar); iexact Hreach
    isplitl [Pb]; · iexact Pb
    iexact HO
  iintro HO
  sl_exec_parts
  ihave #Hmw := (mayWait_bar (F := F) c (restA c + tallyAt (rrCell 6 0 c) () N64 + tallyAt (rrCell 5 0 c) () N64 + tallyAt (rrCell 4 0 c) () N64 + tallyAt (rrCell 3 0 c) () N64 + tallyAt (rrCell 2 0 c) () N64 + tallyAt (rrCell 1 0 c) () N64 + tallyAt (rrCell 0 0 c) () N64) hAbW) $$ Hlev
  iapply (step_uncurry (wp_bar_wait m 𝒱₀ c (K (barCell c)) rfl rfl (O := restA c + tallyAt (rrCell 6 0 c) () N64 + tallyAt (rrCell 5 0 c) () N64 + tallyAt (rrCell 4 0 c) () N64 + tallyAt (rrCell 3 0 c) () N64 + tallyAt (rrCell 2 0 c) () N64 + tallyAt (rrCell 1 0 c) () N64 + tallyAt (rrCell 0 0 c) () N64) (W := W)))
  isplitl [Cbar HO Abar]
  · isplitr; · iapply (invsAll_at m K c .bar); iexact Hinv
    isplitl [Cbar]; · iexact Cbar
    isplitl [HO]; · iexact HO
    isplitr; · iexact Hmw
    iexact Abar
  iintro ⟨HO, Abar, #Rbar1, PBin⟩
  ihave PBin := (barPays_fold c Tsd (by rw [hc]; decide) (by decide)) $$ PBin
  icases PBin with ⟨D0, D1, D2⟩
  ihave S0 := (slab0_cut m c f0 ((Memref.readAt_unit_zero (Elt F) cc0_stg0_0 zero2 inb_S512x256_S512x256_0_0 x0).trans hx0)
      ((Memref.readAt_unit_zero (Elt F) cc0_stg1_0 zero2 inb_S256x512_S256x512_0_0 x1).trans hx1)
      ((Memref.readAt_unit_zero (Elt F) cc0_stg2_0 zero2 inb_S512x256_S512x256_0_0 x2).trans hx2) _) $$ S0
  icases S0 with ⟨P0s, P1s, P2s⟩
  ihave P0s := (Entails.of_eq (bigSep_dev8 _)) $$ P0s
  icases P0s with ⟨Q0, Q1, Q2, Q3, Q4, Q5, Q6, Q7⟩
  sl_exec_parts
  ihave D0 := (Entails.of_eq (layerDest0_eq c)) $$ D0
  icases D0 with ⟨⟨⟨%fd0, Drr0T0⟩, ⟨%fd1, Drr0T1⟩, ⟨%fd2, Drr0T2⟩, ⟨%fd3, Drr0T3⟩, ⟨%fd4, Drr0T4⟩, ⟨%fd5, Drr0T5⟩, ⟨%fd6, Drr0T6⟩⟩, DG0⟩
  ihave #Irs0 := (invsAll_at m K c (.rs 0)) $$ Hinv
  ihave #Rrs0 := (reached_at (F := F) c (.rs 0)) $$ Hreach
  -- the copy of chunk 0 to device 0
  ihave #Irr0T0 := (invsAll_at m K 0 (.rr 0 c)) $$ Hinv
  ihave #Rrr0T0 := (reached_at (F := F) 0 (.rr 0 c)) $$ Hreach
  iapply (wp_red_send m 𝒱₀ c 0 0 hne0 (K (rsCell c 0)) (K (rrCell 0 0 c)) (dev8_eq _) (pchunk_lit0_0 _ _) (slot_off2 c _ _)
      (congrArg SemLoc.dma (sem_rs0 _)) (congrArg SemLoc.dma (sem_off1 c _)) (restA c + tallyAt (rrCell 6 0 c) () N64 + tallyAt (rrCell 5 0 c) () N64 + tallyAt (rrCell 4 0 c) () N64 + tallyAt (rrCell 3 0 c) () N64 + tallyAt (rrCell 2 0 c) () N64 + tallyAt (rrCell 1 0 c) () N64) fd0)
    $$ [Q0 Drr0T0 HO Trs0T0 Trr0T0]
  · isplitr; · iexact Irs0
    isplitr; · iexact Irr0T0
    isplitl [Q0]; · iexact Q0
    isplitl [Drr0T0]; · iexact Drr0T0
    isplitl [HO]; · iexact HO
    isplitl [Trs0T0]; · iexact Trs0T0
    isplitr; · iexact Rrs0
    isplitl [Trr0T0]; · iexact Trr0T0
    iexact Rrr0T0
  iintro ⟨Crs0T0, HO⟩
  sl_exec_parts
  -- the copy of chunk 1 to device 1
  ihave #Irr0T1 := (invsAll_at m K 1 (.rr 0 c)) $$ Hinv
  ihave #Rrr0T1 := (reached_at (F := F) 1 (.rr 0 c)) $$ Hreach
  iapply (wp_red_send m 𝒱₀ c 1 0 hne1 (K (rsCell c 0)) (K (rrCell 1 0 c)) (dev9_eq _) (pchunk_lit0_1 _ _) (slot_off4 c _ _)
      (congrArg SemLoc.dma (sem_rs0 _)) (congrArg SemLoc.dma (sem_off3 c _)) (restA c + tallyAt (rrCell 6 0 c) () N64 + tallyAt (rrCell 5 0 c) () N64 + tallyAt (rrCell 4 0 c) () N64 + tallyAt (rrCell 3 0 c) () N64 + tallyAt (rrCell 2 0 c) () N64) fd1)
    $$ [Q1 Drr0T1 HO Trs0T1 Trr0T1]
  · isplitr; · iexact Irs0
    isplitr; · iexact Irr0T1
    isplitl [Q1]; · iexact Q1
    isplitl [Drr0T1]; · iexact Drr0T1
    isplitl [HO]; · iexact HO
    isplitl [Trs0T1]; · iexact Trs0T1
    isplitr; · iexact Rrs0
    isplitl [Trr0T1]; · iexact Trr0T1
    iexact Rrr0T1
  iintro ⟨Crs0T1, HO⟩
  sl_exec_parts
  -- the copy of chunk 2 to device 2
  ihave #Irr0T2 := (invsAll_at m K 2 (.rr 0 c)) $$ Hinv
  ihave #Rrr0T2 := (reached_at (F := F) 2 (.rr 0 c)) $$ Hreach
  iapply (wp_red_send m 𝒱₀ c 2 0 hne2 (K (rsCell c 0)) (K (rrCell 2 0 c)) (dev10_eq _) (pchunk_lit0_2 _ _) (slot_off6 c _ _)
      (congrArg SemLoc.dma (sem_rs0 _)) (congrArg SemLoc.dma (sem_off5 c _)) (restA c + tallyAt (rrCell 6 0 c) () N64 + tallyAt (rrCell 5 0 c) () N64 + tallyAt (rrCell 4 0 c) () N64 + tallyAt (rrCell 3 0 c) () N64) fd2)
    $$ [Q2 Drr0T2 HO Trs0T2 Trr0T2]
  · isplitr; · iexact Irs0
    isplitr; · iexact Irr0T2
    isplitl [Q2]; · iexact Q2
    isplitl [Drr0T2]; · iexact Drr0T2
    isplitl [HO]; · iexact HO
    isplitl [Trs0T2]; · iexact Trs0T2
    isplitr; · iexact Rrs0
    isplitl [Trr0T2]; · iexact Trr0T2
    iexact Rrr0T2
  iintro ⟨Crs0T2, HO⟩
  sl_exec_parts
  -- the copy of chunk 3 to device 3
  ihave #Irr0T3 := (invsAll_at m K 3 (.rr 0 c)) $$ Hinv
  ihave #Rrr0T3 := (reached_at (F := F) 3 (.rr 0 c)) $$ Hreach
  iapply (wp_red_send m 𝒱₀ c 3 0 hne3 (K (rsCell c 0)) (K (rrCell 3 0 c)) (dev11_eq _) (pchunk_lit0_3 _ _) (slot_off8 c _ _)
      (congrArg SemLoc.dma (sem_rs0 _)) (congrArg SemLoc.dma (sem_off7 c _)) (restA c + tallyAt (rrCell 6 0 c) () N64 + tallyAt (rrCell 5 0 c) () N64 + tallyAt (rrCell 4 0 c) () N64) fd3)
    $$ [Q3 Drr0T3 HO Trs0T3 Trr0T3]
  · isplitr; · iexact Irs0
    isplitr; · iexact Irr0T3
    isplitl [Q3]; · iexact Q3
    isplitl [Drr0T3]; · iexact Drr0T3
    isplitl [HO]; · iexact HO
    isplitl [Trs0T3]; · iexact Trs0T3
    isplitr; · iexact Rrs0
    isplitl [Trr0T3]; · iexact Trr0T3
    iexact Rrr0T3
  iintro ⟨Crs0T3, HO⟩
  sl_exec_parts
  -- the copy of chunk 4 to device 4
  ihave #Irr0T4 := (invsAll_at m K 4 (.rr 0 c)) $$ Hinv
  ihave #Rrr0T4 := (reached_at (F := F) 4 (.rr 0 c)) $$ Hreach
  iapply (wp_red_send m 𝒱₀ c 4 0 hne4 (K (rsCell c 0)) (K (rrCell 4 0 c)) (dev12_eq _) (pchunk_lit0_4 _ _) (slot_off10 c _ _)
      (congrArg SemLoc.dma (sem_rs0 _)) (congrArg SemLoc.dma (sem_off9 c _)) (restA c + tallyAt (rrCell 6 0 c) () N64 + tallyAt (rrCell 5 0 c) () N64) fd4)
    $$ [Q4 Drr0T4 HO Trs0T4 Trr0T4]
  · isplitr; · iexact Irs0
    isplitr; · iexact Irr0T4
    isplitl [Q4]; · iexact Q4
    isplitl [Drr0T4]; · iexact Drr0T4
    isplitl [HO]; · iexact HO
    isplitl [Trs0T4]; · iexact Trs0T4
    isplitr; · iexact Rrs0
    isplitl [Trr0T4]; · iexact Trr0T4
    iexact Rrr0T4
  iintro ⟨Crs0T4, HO⟩
  sl_exec_parts
  -- the copy of chunk 5 to device 5
  ihave #Irr0T5 := (invsAll_at m K 5 (.rr 0 c)) $$ Hinv
  ihave #Rrr0T5 := (reached_at (F := F) 5 (.rr 0 c)) $$ Hreach
  iapply (wp_red_send m 𝒱₀ c 5 0 hne5 (K (rsCell c 0)) (K (rrCell 5 0 c)) (dev13_eq _) (pchunk_lit0_5 _ _) (slot_off12 c _ _)
      (congrArg SemLoc.dma (sem_rs0 _)) (congrArg SemLoc.dma (sem_off11 c _)) (restA c + tallyAt (rrCell 6 0 c) () N64) fd5)
    $$ [Q5 Drr0T5 HO Trs0T5 Trr0T5]
  · isplitr; · iexact Irs0
    isplitr; · iexact Irr0T5
    isplitl [Q5]; · iexact Q5
    isplitl [Drr0T5]; · iexact Drr0T5
    isplitl [HO]; · iexact HO
    isplitl [Trs0T5]; · iexact Trs0T5
    isplitr; · iexact Rrs0
    isplitl [Trr0T5]; · iexact Trr0T5
    iexact Rrr0T5
  iintro ⟨Crs0T5, HO⟩
  sl_exec_parts
  -- the copy of chunk 6 to device 6
  ihave #Irr0T6 := (invsAll_at m K 6 (.rr 0 c)) $$ Hinv
  ihave #Rrr0T6 := (reached_at (F := F) 6 (.rr 0 c)) $$ Hreach
  iapply (wp_red_send m 𝒱₀ c 6 0 hne6 (K (rsCell c 0)) (K (rrCell 6 0 c)) (dev14_eq _) (pchunk_lit0_6 _ _) (slot_off14 c _ _)
      (congrArg SemLoc.dma (sem_rs0 _)) (congrArg SemLoc.dma (sem_off13 c _)) (restA c) fd6)
    $$ [Q6 Drr0T6 HO Trs0T6 Trr0T6]
  · isplitr; · iexact Irs0
    isplitr; · iexact Irr0T6
    isplitl [Q6]; · iexact Q6
    isplitl [Drr0T6]; · iexact Drr0T6
    isplitl [HO]; · iexact HO
    isplitl [Trs0T6]; · iexact Trs0T6
    isplitr; · iexact Rrs0
    isplitl [Trr0T6]; · iexact Trr0T6
    iexact Rrr0T6
  iintro ⟨Crs0T6, HO⟩
  ihave Q7 := (Entails.of_eq (congrArg (fun t => (piece c (pChunk 0 t) fullShare (Pfun m c) : sProp 𝕄)) hc.symm)) $$ Q7
  ihave P0own := (Entails.of_eq (pRows_eq c 0 c fullShare (Pfun m c)).symm) $$ Q7
  sl_exec_parts
  have eOwn : View.readAt (Elt F) (Memref.whole cc0_scratch0).view (Rect.unit (s := S3x512x256) (k0_off17 c) S1x64x256.size (k0_off17_inb c)).toLoadRect (Pfun m c)
      = chunkOf (P0 m c) c := read_P_chunk m c 0 c (k0_off17 c) (k0_off17_eq c) _
  have hv78 : segA1_sound7.sl.r m c = k0_pay2 (chunkOf (P0 m c) c) := by
    unfold segA1_sound7.sl.r
    exact congrArg k0_pay2 eOwn
  have hv2 : segA1_sound7.sl.v2 c = devWord c := rfl
  iapply (ret_intro _ Kt c)
  iapply (Entails.of_eq (congrArg (fun w => (Kt ⟨c, w, segA1_sound7.sl.r m c, segA1_sound7.sl.v81 c, segA1_sound7.sl.v82 c, 0#32⟩ : sProp 𝕄)) hv2.symm))
  ihave P0own := (Entails.of_eq (pRows_eq c 0 c fullShare (Pfun m c))) $$ P0own
  ihave X0 := (stg_of_whole c cc0_stg0_0 (argX m c) x0 hx0) $$ X0
  ihave X1 := (stg_of_whole c cc0_stg1_0 (argW m c 0) x1 hx1) $$ X1
  ihave X2 := (stg_of_whole c cc0_stg2_0 (argV m c 0) x2 hx2) $$ X2
  iapply Hk
  isplitr
  · isplitr; · iexact Hinv
    isplitr; · iexact Hreach
    iexact Hlev
  isplitr; · ipureintro; exact hv78
  isplitl [HO]; · iexists _; iexact HO
  isplitl [TGS0 TGR0]
  · iapply (zipF c _ _)
    isplitl [TGS0]; · iexact TGS0
    iexact TGR0
  isplitl [DG0]; · iexact DG0
  isplitl [Ars0 Arr0 Crr0]
  · iapply (posRed_intro c 0)
    isplitl [Ars0]; · iexact Ars0
    isplitl [Arr0]; · iexact Arr0
    iexact Crr0
  isplitl [Ags0]; · iapply (posGs_intro c 0); iexact Ags0
  isplitl [Agr0 Cgr0]
  · iapply (posGr_intro c 0)
    isplitl [Agr0]; · iexact Agr0
    iexact Cgr0
  isplitl [Crs0T0 Crs0T1 Crs0T2 Crs0T3 Crs0T4 Crs0T5 Crs0T6]
  · iapply (creds7 _)
    isplitl [Crs0T0]; · iexact Crs0T0
    isplitl [Crs0T1]; · iexact Crs0T1
    isplitl [Crs0T2]; · iexact Crs0T2
    isplitl [Crs0T3]; · iexact Crs0T3
    isplitl [Crs0T4]; · iexact Crs0T4
    isplitl [Crs0T5]; · iexact Crs0T5
    iexact Crs0T6
  isplitl [TS1 TR1 TGS1 TGR1 Ars1 Arr1 Crr1 Ags1 Agr1 Cgr1 D1]
  · iapply (layerRes1_intro c)
    isplitl [TS1 TR1 TGS1 TGR1]
    · isplitl [TS1 TR1]
      · iapply (zipT _ _)
        isplitl [TS1]; · iexact TS1
        iexact TR1
      iapply (zipF c _ _)
      isplitl [TGS1]; · iexact TGS1
      iexact TGR1
    isplitl [Ars1 Arr1 Crr1]
    · iapply (posRed_intro c 1)
      isplitl [Ars1]; · iexact Ars1
      isplitl [Arr1]; · iexact Arr1
      iexact Crr1
    isplitl [Ags1 Agr1 Cgr1]
    · isplitl [Ags1]; · iapply (posGs_intro c 1); iexact Ags1
      iapply (posGr_intro c 1)
      isplitl [Agr1]; · iexact Agr1
      iexact Cgr1
    iexact D1
  isplitl [TS2 TR2 Ars2 Arr2 Crr2 D2]
  · iapply (layerRes2_intro c)
    isplitl [TS2 TR2]
    · isplitl [TS2 TR2]
      · iapply (zipT _ _)
        isplitl [TS2]; · iexact TS2
        iexact TR2
      iempintro
    isplitl [Ars2 Arr2 Crr2]
    · iapply (posRed_intro c 2)
      isplitl [Ars2]; · iexact Ars2
      isplitl [Arr2]; · iexact Arr2
      iexact Crr2
    isplitr; · iempintro
    iexact D2
  isplitl [HPrest]; · iexact HPrest
  isplitl [P0own]; · iapply (ex_intro c (pChunk 0 c) (Pfun m c)); iexact P0own
  isplitl [P1s]; · iapply (Entails.of_eq (pLayerEx_def c 1)); iexact P1s
  isplitl [P2s]; · iapply (Entails.of_eq (pLayerEx_def c 2)); iexact P2s
  isplitl [SO0]; · iapply (ex_intro c (rSlot 0 c) fs); iexact SO0
  isplitl [SO1]; · iapply (ex_intro c (rSlot 1 c) fs); iexact SO1
  isplitl [SO2]; · iapply (ex_intro c (rSlot 2 c) fs); iexact SO2
  isplitl [GO0]; · iapply (ex_intro c (gChunk 0 c) fg); iexact GO0
  isplitl [GO1]; · iapply (ex_intro c (gChunk 1 c) fg); iexact GO1
  isplitl [GO2]; · iapply (gath2 c hc fg); iexact GO2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segA1_sound7' depends on axioms: [propext, Classical.choice, Quot.sound] -/
#guard_msgs in #print axioms segA1_sound7

end Cert.KernelProof

end
-- ==== Proof.K.BodySegA2_d7.lean ====
import proofs.«900993_g7700000000000994_dist_mlpseq_tp1d_rep_bs_b512_d256_h512_v7x_i8_bf16_1_alg».proof.Proof.K.BodySegA2Lib

/-! The second half of layer 0 on device 7: from the state after the layer's reduce sends and the load of the device's
    own chunk to the state between layers 0 and 1. The accumulation adds what the seven peers sent in the order of the
    ring before the device; the sum, rounded, is the device's rows of the first activation and is stored as its own chunk
    of the gather buffer; the chunk is lent in seven shares to the gather copies along the ring after the device; then the
    layer's fourteen copies are waited for to have left, which brings the lent chunks and shares back. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

attribute [local irreducible] sched

/-- The device's seven peers by literal. -/
local notation "Ts" => ([(0 : Dev nD), 1, 2, 3, 4, 5, 6] : List (Dev nD))

omit [FloatOps F] in
/-- Everything still owed after layer 0's gather sends is owed to cells above the level of the layer's send cells. -/
theorem above_a2_rest_d7 (c : Dev nD) : Above 3 (a2_rest c Ts) := by
  unfold a2_rest owesRedL owesGatL ringF
  simp only [List.map, List.sum_cons, List.sum_nil]
  owes_above

theorem segA2_sound7 (c : Dev nD) (hc : c = 7) (K : GSem nD τ sig → ℕ) (Kt : (Σ' (d0 : Dev nD), BitVec 32) → sProp 𝕄)
    (v78 : FVec F S64x256 .f32) (v81 v82 c0 : BitVec 32) :
    iprop(midA m K c Ts v78 ∗ (mid1 m K c Ts -∗ Kt ⟨c, devWord c⟩))
      ⊢ wp frame (wpE (defs₀ (F := F)) Variants.none (c : Thread nD τ) none) Set.univ (segA2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v78 v81 v82 c0) Kt := by
  have hg9 : k0_cond9 c = 1#1 := (cond9_iff c).mpr (by rw [hc]; decide)
  have hg10 : k0_cond10 c = 1#1 := (cond10_iff c).mpr (by rw [hc]; decide)
  have hg11 : k0_cond11 c = 1#1 := (cond11_iff c).mpr (by rw [hc]; decide)
  have hg12 : k0_cond12 c = 1#1 := (cond12_iff c).mpr (by rw [hc]; decide)
  have hg13 : k0_cond13 c = 1#1 := (cond13_iff c).mpr (by rw [hc]; decide)
  have hg14 : k0_cond14 c = 1#1 := (cond14_iff c).mpr (by rw [hc]; decide)
  have hg15 : k0_cond15 c = 1#1 := (cond15_iff c).mpr (by rw [hc]; decide)
  have hg16 : ¬ k0_cond16 c = 1#1 := fun h => (cond16_iff c).mp h hc
  have hw0 : Scalar.cmpi .ne (Scalar.extui (Scalar.cmpi .ne (Scalar.remsi (Scalar.divsi (Dev.word c) 1#32) 8#32) 0#32)) 0#32 = 1#1 := (condw0_iff c).mpr (by rw [hc]; decide)
  have hw1 : Scalar.cmpi .ne (Scalar.extui (Scalar.cmpi .ne (Scalar.remsi (Scalar.divsi (Dev.word c) 1#32) 8#32) 1#32)) 0#32 = 1#1 := (condw1_iff c).mpr (by rw [hc]; decide)
  have hw2 : Scalar.cmpi .ne (Scalar.extui (Scalar.cmpi .ne (Scalar.remsi (Scalar.divsi (Dev.word c) 1#32) 8#32) 2#32)) 0#32 = 1#1 := (condw2_iff c).mpr (by rw [hc]; decide)
  have hw3 : Scalar.cmpi .ne (Scalar.extui (Scalar.cmpi .ne (Scalar.remsi (Scalar.divsi (Dev.word c) 1#32) 8#32) 3#32)) 0#32 = 1#1 := (condw3_iff c).mpr (by rw [hc]; decide)
  have hw4 : Scalar.cmpi .ne (Scalar.extui (Scalar.cmpi .ne (Scalar.remsi (Scalar.divsi (Dev.word c) 1#32) 8#32) 4#32)) 0#32 = 1#1 := (condw4_iff c).mpr (by rw [hc]; decide)
  have hw5 : Scalar.cmpi .ne (Scalar.extui (Scalar.cmpi .ne (Scalar.remsi (Scalar.divsi (Dev.word c) 1#32) 8#32) 5#32)) 0#32 = 1#1 := (condw5_iff c).mpr (by rw [hc]; decide)
  have hw6 : Scalar.cmpi .ne (Scalar.extui (Scalar.cmpi .ne (Scalar.remsi (Scalar.divsi (Dev.word c) 1#32) 8#32) 6#32)) 0#32 = 1#1 := (condw6_iff c).mpr (by rw [hc]; decide)
  have hw7 : ¬ Scalar.cmpi .ne (Scalar.extui (Scalar.cmpi .ne (Scalar.remsi (Scalar.divsi (Dev.word c) 1#32) 8#32) 7#32)) 0#32 = 1#1 := fun h => (condw7_iff c).mp h hc
  have haboveR : Above (3 + 3 * (0 : Fin 3).val) (a2_rest c Ts) := above_a2_rest_d7 c
  have hdebt : owesRedL c Ts 1 + owesRedL c Ts 2 + owesGatL c 0 + owesGatL c 1 = a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64 := by
    unfold a2_rest
    rw [show owesGatL c 0 = tallyAt (grCell (fwd 1 c) 0 c) () N64 + (tallyAt (grCell (fwd 2 c) 0 c) () N64 + (tallyAt (grCell (fwd 3 c) 0 c) () N64 + (tallyAt (grCell (fwd 4 c) 0 c) () N64 + (tallyAt (grCell (fwd 5 c) 0 c) () N64 + (tallyAt (grCell (fwd 6 c) 0 c) () N64 + (tallyAt (grCell (fwd 7 c) 0 c) () N64 + 0)))))) from rfl]
    abel
  have habove : Above (2 + 3 * (0 : Fin 3).val) (a2_rest c Ts + tallyAt (grCell (fwd 7 c) 0 c) () N64 + tallyAt (grCell (fwd 6 c) 0 c) () N64 + tallyAt (grCell (fwd 5 c) 0 c) () N64 + tallyAt (grCell (fwd 4 c) 0 c) () N64 + tallyAt (grCell (fwd 3 c) 0 c) () N64 + tallyAt (grCell (fwd 2 c) 0 c) () N64 + tallyAt (grCell (fwd 1 c) 0 c) () N64) := by
    have hg : ∀ j : ℕ, Above (2 + 3 * (0 : Fin 3).val) (tallyAt (grCell (fwd j c) 0 c) () N64) := fun j => above_gr _ _ _ _ (by decide) (by decide)
    exact ((((((((above_a2_rest_d7 c).mono (by decide)).add (hg 7)).add (hg 6)).add (hg 5)).add (hg 4)).add (hg 3)).add (hg 2)).add (hg 1)
  have hsub1 : (Memref.whole cc0_scratch1).view.setOn (Rect.unit (s := S3x8x64x256) (k0_off20 c 1#32) S1x1x64x256.size (k0_off20_inb c 0)).set ⊆ (rSlot 0 (bwd 1 c)).view.set := by
    rw [setOn_whole, rect_off20_1 c, set_rSlot]; exact Finset.Subset.refl _
  have hsub2 : (Memref.whole cc0_scratch1).view.setOn (Rect.unit (s := S3x8x64x256) (k0_off20 c 2#32) S1x1x64x256.size (k0_off20_inb c 1)).set ⊆ (rSlot 0 (bwd 2 c)).view.set := by
    rw [setOn_whole, rect_off20_2 c, set_rSlot]; exact Finset.Subset.refl _
  have hsub3 : (Memref.whole cc0_scratch1).view.setOn (Rect.unit (s := S3x8x64x256) (k0_off20 c 3#32) S1x1x64x256.size (k0_off20_inb c 2)).set ⊆ (rSlot 0 (bwd 3 c)).view.set := by
    rw [setOn_whole, rect_off20_3 c, set_rSlot]; exact Finset.Subset.refl _
  have hsub4 : (Memref.whole cc0_scratch1).view.setOn (Rect.unit (s := S3x8x64x256) (k0_off20 c 4#32) S1x1x64x256.size (k0_off20_inb c 3)).set ⊆ (rSlot 0 (bwd 4 c)).view.set := by
    rw [setOn_whole, rect_off20_4 c, set_rSlot]; exact Finset.Subset.refl _
  have hsub5 : (Memref.whole cc0_scratch1).view.setOn (Rect.unit (s := S3x8x64x256) (k0_off20 c 5#32) S1x1x64x256.size (k0_off20_inb c 4)).set ⊆ (rSlot 0 (bwd 5 c)).view.set := by
    rw [setOn_whole, rect_off20_5 c, set_rSlot]; exact Finset.Subset.refl _
  have hsub6 : (Memref.whole cc0_scratch1).view.setOn (Rect.unit (s := S3x8x64x256) (k0_off20 c 6#32) S1x1x64x256.size (k0_off20_inb c 5)).set ⊆ (rSlot 0 (bwd 6 c)).view.set := by
    rw [setOn_whole, rect_off20_6 c, set_rSlot]; exact Finset.Subset.refl _
  have hsub7 : (Memref.whole cc0_scratch1).view.setOn (Rect.unit (s := S3x8x64x256) (k0_off20 c 7#32) S1x1x64x256.size (k0_off20_inb c 6)).set ⊆ (rSlot 0 (bwd 7 c)).view.set := by
    rw [setOn_whole, rect_off20_7 c, set_rSlot]; exact Finset.Subset.refl _
  have hsubG : (Memref.whole cc0_scratch2).view.setOn (Rect.unit (s := S3x512x256) (k0_off17 c) S1x64x256.size (k0_off17_inb c)).set ⊆ (gChunk 0 c).view.set := by
    rw [setOn_whole, rect_off17 c, set_gChunk]; exact Finset.Subset.refl _
  unfold midA posRed posGs ringB ringF
  rw [hdebt]
  simp only [a2_bigSepL7]
  iintro ⟨⟨⟨#HI, #HR, #Hlev⟩, %hv, ⟨%W, HO⟩, ⟨⟨Tgs1, Tgr1⟩, ⟨Tgs2, Tgr2⟩, ⟨Tgs3, Tgr3⟩, ⟨Tgs4, Tgr4⟩, ⟨Tgs5, Tgr5⟩, ⟨Tgs6, Tgr6⟩, ⟨Tgs7, Tgr7⟩⟩, ⟨⟨%fd1, Dg1⟩, ⟨%fd2, Dg2⟩, ⟨%fd3, Dg3⟩, ⟨%fd4, Dg4⟩, ⟨%fd5, Dg5⟩, ⟨%fd6, Dg6⟩, ⟨%fd7, Dg7⟩⟩, ⟨Ars, ⟨Ar1, Cr1⟩, ⟨Ar2, Cr2⟩, ⟨Ar3, Cr3⟩, ⟨Ar4, Cr4⟩, ⟨Ar5, Cr5⟩, ⟨Ar6, Cr6⟩, ⟨Ar7, Cr7⟩⟩, Ags, Hgr, ⟨Crs1, Crs2, Crs3, Crs4, Crs5, Crs6, Crs7⟩, L1, L2, Hrest, P0c, P1, P2, R0c, R1c, R2c, G0c, G1c, G2, Hst, Hst7⟩, Hk⟩
  unfold ex
  icases G0c with ⟨%g0, G0c⟩
  unfold piece devWord
  sl_unfold [segA2]
  sl_exec_parts
  a2_recv 1 sem_off18_1 slot_off19_1 Ar1 Cr1 Sl1
  sl_exec_parts
  a2_recv 2 sem_off18_2 slot_off19_2 Ar2 Cr2 Sl2
  sl_exec_parts
  a2_recv 3 sem_off18_3 slot_off19_3 Ar3 Cr3 Sl3
  sl_exec_parts
  a2_recv 4 sem_off18_4 slot_off19_4 Ar4 Cr4 Sl4
  sl_exec_parts
  a2_recv 5 sem_off18_5 slot_off19_5 Ar5 Cr5 Sl5
  sl_exec_parts
  a2_recv 6 sem_off18_6 slot_off19_6 Ar6 Cr6 Sl6
  sl_exec_parts
  a2_recv 7 sem_off18_7 slot_off19_7 Ar7 Cr7 Sl7
  sl_exec_parts
  have e91 : ∀ a, (segA2_sound7.sl.v91 m c a : Vec F S1x1x64x256 .bf16) = slotOf (P0 m (bwd 1 c)) c := fun a =>
    a2_slot_landed_read m c (bwd 1 c) (k0_off20 c 1#32) ((k0_off20_eq c 0).trans (by rw [bwd_val c 0]; rfl)) _ a
  have e107 : ∀ a, (segA2_sound7.sl.v107 m c a : Vec F S1x1x64x256 .bf16) = slotOf (P0 m (bwd 2 c)) c := fun a =>
    a2_slot_landed_read m c (bwd 2 c) (k0_off20 c 2#32) ((k0_off20_eq c 1).trans (by rw [bwd_val c 1]; rfl)) _ a
  have e123 : ∀ a, (segA2_sound7.sl.v123 m c a : Vec F S1x1x64x256 .bf16) = slotOf (P0 m (bwd 3 c)) c := fun a =>
    a2_slot_landed_read m c (bwd 3 c) (k0_off20 c 3#32) ((k0_off20_eq c 2).trans (by rw [bwd_val c 2]; rfl)) _ a
  have e139 : ∀ a, (segA2_sound7.sl.v139 m c a : Vec F S1x1x64x256 .bf16) = slotOf (P0 m (bwd 4 c)) c := fun a =>
    a2_slot_landed_read m c (bwd 4 c) (k0_off20 c 4#32) ((k0_off20_eq c 3).trans (by rw [bwd_val c 3]; rfl)) _ a
  have e155 : ∀ a, (segA2_sound7.sl.v155 m c a : Vec F S1x1x64x256 .bf16) = slotOf (P0 m (bwd 5 c)) c := fun a =>
    a2_slot_landed_read m c (bwd 5 c) (k0_off20 c 5#32) ((k0_off20_eq c 4).trans (by rw [bwd_val c 4]; rfl)) _ a
  have e171 : ∀ a, (segA2_sound7.sl.v171 m c a : Vec F S1x1x64x256 .bf16) = slotOf (P0 m (bwd 6 c)) c := fun a =>
    a2_slot_landed_read m c (bwd 6 c) (k0_off20 c 6#32) ((k0_off20_eq c 5).trans (by rw [bwd_val c 5]; rfl)) _ a
  have e187 : ∀ a, (segA2_sound7.sl.v187 m c a : Vec F S1x1x64x256 .bf16) = slotOf (P0 m (bwd 7 c)) c := fun a =>
    a2_slot_landed_read m c (bwd 7 c) (k0_off20 c 7#32) ((k0_off20_eq c 6).trans (by rw [bwd_val c 6]; rfl)) _ a
  have hred : ∀ a1 a2 a3 a4 a5 a6 a7, k0_pay6 (segA2_sound7.sl.r_2 m c v78 a1 a2 a3 a4 a5) (segA2_sound7.sl.v171 m c a6) (segA2_sound7.sl.v187 m c a7) = red0 m c := by
    intro a1 a2 a3 a4 a5 a6 a7
    unfold segA2_sound7.sl.r_2 segA2_sound7.sl.r_1 segA2_sound7.sl.r
    rw [e91, e107, e123, e139, e155, e171, e187, hv]
    rfl
  have hG0 : ∀ g a1 a2 a3 a4 a5 a6 a7, ∀ i ∈ (gChunk 0 c).view.set, segA2_sound7.sl.G0c_w1 m c v78 g a1 a2 a3 a4 a5 a6 a7 i = Gfun m c i := by
    intro g a1 a2 a3 a4 a5 a6 a7 i hi
    unfold segA2_sound7.sl.G0c_w1
    rw [hred]
    refine write_G0 m c g (k0_off17 c) (k0_off17_eq c) (k0_off17_inb c) i ?_
    rw [set_gChunk] at hi
    rw [show ((Memref.whole cc0_scratch2).access (Rect.unit (s := S3x512x256) (k0_off17 c) S1x64x256.size (k0_off17_inb c))).set
      = (Rect.unit (s := S3x512x256) ![0, 64 * c.val, 0] S1x64x256.size (inb_p 0 c)).set from by rw [rect_off17 c]; exact View.set_slice_whole _ _]
    exact hi
  ihave G0c' := (a2_piece_of_agree c (gChunk 0 c) fullShare (hG0 g0 _ _ _ _ _ _ _)) $$ [G0c]
  · iexact G0c
  ihave G0s := (Entails.of_eq (a2_piece_shares_ring c (gChunk 0 c) (Gfun m c))) $$ [G0c']
  · iexact G0c'
  icases G0s with ⟨G0own, G0s1, G0s2, G0s3, G0s4, G0s5, G0s6, G0s7⟩
  a2_send 1 dev16_eq Tgs1 Tgr1 Dg1 fd1 G0s1 Cgs1
  sl_exec_parts
  a2_send 2 dev17_eq Tgs2 Tgr2 Dg2 fd2 G0s2 Cgs2
  sl_exec_parts
  a2_send 3 dev18_eq Tgs3 Tgr3 Dg3 fd3 G0s3 Cgs3
  sl_exec_parts
  a2_send 4 dev19_eq Tgs4 Tgr4 Dg4 fd4 G0s4 Cgs4
  sl_exec_parts
  a2_send 5 dev20_eq Tgs5 Tgr5 Dg5 fd5 G0s5 Cgs5
  sl_exec_parts
  a2_send 6 dev21_eq Tgs6 Tgr6 Dg6 fd6 G0s6 Cgs6
  sl_exec_parts
  a2_send 7 dev22_eq Tgs7 Tgr7 Dg7 fd7 G0s7 Cgs7
  sl_exec_parts
  ihave Wrs := (waited_zero m (rsCell c 0)) $$ [Ars]
  · iexact Ars
  a2_rs_wait 0 Crs1
  sl_exec_parts
  a2_rs_wait 1 Crs2
  sl_exec_parts
  a2_rs_wait 2 Crs3
  sl_exec_parts
  a2_rs_wait 3 Crs4
  sl_exec_parts
  a2_rs_wait 4 Crs5
  sl_exec_parts
  a2_rs_wait 5 Crs6
  sl_exec_parts
  iapply (a2_step_uncurry (wp_rs_last m Variants.none c 0 (K (rsCell c 0)) (sem_rs0 _) (by rfl)))
  isplitl [Crs7 HO Wrs]
  · isplitl []; · iapply (invsAll_at m K c (.rs 0)); iexact HI
    isplitl [Crs7]; · iexact Crs7
    isplitl [HO]; · iexact HO
    isplitl []; · iapply (mayWait_rs (F := F) c 0 _ haboveR); iexact Hlev
    iexact Wrs
  iintro ⟨HO, Ars, -, Hrsp⟩
  sl_exec_parts
  ihave Wgs := (waited_zero m (gsCell c 0)) $$ [Ags]
  · iexact Ags
  a2_gs_wait 0 Cgs1
  sl_exec_parts
  a2_gs_wait 1 Cgs2
  sl_exec_parts
  a2_gs_wait 2 Cgs3
  sl_exec_parts
  a2_gs_wait 3 Cgs4
  sl_exec_parts
  a2_gs_wait 4 Cgs5
  sl_exec_parts
  a2_gs_wait 5 Cgs6
  sl_exec_parts
  iapply (a2_step_uncurry (wp_gs_last m Variants.none c 0 (by decide) (K (gsCell c 0)) (sem_gs0 _) (by rfl)))
  isplitl [Cgs7 HO Wgs]
  · isplitl []; · iapply (invsAll_at m K c (.gs 0)); iexact HI
    isplitl [Cgs7]; · iexact Cgs7
    isplitl [HO]; · iexact HO
    isplitl []; · iapply (mayWait_gs (F := F) c 0 _ haboveR); iexact Hlev
    iexact Wgs
  iintro ⟨HO, Ags, -, Hgsp⟩
  sl_exec_parts
  -- everything is back: hand the next layer its start
  iapply (a2_wp_ret_of c)
  iapply Hk
  unfold mid1 posDoneRed slotsBack ringB
  rw [if_pos (show (0 : Fin 3).val < 2 by decide)]
  simp only [a2_bigSepL7]
  isplitl []
  · isplitl []; · iexact HI
    isplitl []; · iexact HR
    iexact Hlev
  isplitl [HO]; · iexists _; iexact HO
  isplitl [L1]; · iexact L1
  isplitl [L2]; · iexact L2
  isplitl [Hgr]; · iexact Hgr
  isplitl [Ars Ar1 Ar2 Ar3 Ar4 Ar5 Ar6 Ar7 Ags]
  · isplitl [Ars]; · iexact Ars
    isplitl [Ar1 Ar2 Ar3 Ar4 Ar5 Ar6 Ar7]
    · isplitl [Ar1]; · iexact Ar1
      isplitl [Ar2]; · iexact Ar2
      isplitl [Ar3]; · iexact Ar3
      isplitl [Ar4]; · iexact Ar4
      isplitl [Ar5]; · iexact Ar5
      isplitl [Ar6]; · iexact Ar6
      iexact Ar7
    iexact Ags
  isplitl [Hrest]; · iexact Hrest
  isplitl [P0c Hrsp P1 P2]
  · iapply (a2_scr0_back m c)
    isplitl [P0c]; · unfold ex piece; iexact P0c
    isplitl [Hrsp]; · iexact Hrsp
    isplitl [P1]; · unfold ex piece; iexact P1
    unfold ex piece; iexact P2
  isplitl [R0c Sl1 Sl2 Sl3 Sl4 Sl5 Sl6 Sl7]
  · isplitl [R0c]; · unfold ex piece; iexact R0c
    isplitl [Sl1]; · iapply (a2_ex_of_piece c (rSlot 0 (bwd 1 c))); iexact Sl1
    isplitl [Sl2]; · iapply (a2_ex_of_piece c (rSlot 0 (bwd 2 c))); iexact Sl2
    isplitl [Sl3]; · iapply (a2_ex_of_piece c (rSlot 0 (bwd 3 c))); iexact Sl3
    isplitl [Sl4]; · iapply (a2_ex_of_piece c (rSlot 0 (bwd 4 c))); iexact Sl4
    isplitl [Sl5]; · iapply (a2_ex_of_piece c (rSlot 0 (bwd 5 c))); iexact Sl5
    isplitl [Sl6]; · iapply (a2_ex_of_piece c (rSlot 0 (bwd 6 c))); iexact Sl6
    iapply (a2_ex_of_piece c (rSlot 0 (bwd 7 c))); iexact Sl7
  isplitl [R1c]; · unfold ex piece; iexact R1c
  isplitl [R2c]; · unfold ex piece; iexact R2c
  isplitl [G0own Hgsp]
  · iapply (a2_gchunk0_back m c)
    isplitl [G0own]; · iexact G0own
    iexact Hgsp
  isplitl [G1c]; · unfold ex piece; iexact G1c
  isplitl [G2]; · iexact G2
  isplitl [Hst]; · iexact Hst
  iexact Hst7

end Cert.KernelProof

end
-- ==== Proof.K.BodySegB1_d7.lean ====
import proofs.«900993_g7700000000000994_dist_mlpseq_tp1d_rep_bs_b512_d256_h512_v7x_i8_bf16_1_alg».proof.Proof.K.BodyMid
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Groups
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.BodySegBCut
import Idealize.ShloMosaic.Lib.Tactic

/-! Layer 1 on device 7, first half: from the state between the layers to the point where the device has enqueued its
    seven reduce copies of layer 1 and read its own chunk.

    The device goes through the four groups of 128 rows in order. For a group it first waits for the rows of the first
    activation that the two devices owning them gathered into its buffer (its own rows it holds already): each wait is
    the one duty of a gather-receive cell of layer 0, and hands over the chunk holding the sender's reduced rows written
    over whatever it held — which is the activation on that chunk. The two chunks joined are the group the body loads;
    with the staged weights of layer 1 the body's own arithmetic makes the group of the layer's partial product, stored
    over rows of the partial-product buffer, where it agrees with the canonical partial product. Cut back into its two
    64-row chunks, each chunk is lent to the copy towards the device that reduces those rows: the copy pays duty `t` of
    the device's reduce-send cell and the one duty of the target's reduce-receive cell, settles what the device owed
    that cell, and earns the credit for a later wait on the send cell. The device's own chunk stays; it is read at the
    end, as the accumulation's first term. What is left is what the second half starts from. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

private abbrev Tsd : List (Dev nD) := [0, 1, 2, 3, 4, 5, 6]

/-- A separating conjunction over a list of seven is the chain of its seven terms. -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-- A whole buffer held is held through its whole view. -/
private theorem whole_restate (c : Dev nD) (b : Ref sig .tc) (f : Buf (Elt F) ((c : Thread nD τ).loc b)) :
    (((c : Thread nD τ).loc b) ↦{fullShare} f : sProp 𝕄)
      ⊢ ((Memref.whole b).view.loc (c : Thread nD τ) ↦[(Memref.whole b).view.set]{fullShare} f : sProp 𝕄) :=
  Entails.of_eq (congrArg (fun I => pointsTo ((c : Thread nD τ).loc b) I fullShare f) (View.set_whole b).symm)

/-- Layer 1's resources, its reduce tokens and destinations listed. -/
private theorem layerRes1_eq (c : Dev nD) : layerRes (F := F) c Tsd 1 =
    iprop((bigSepL Tsd (fun t => iprop(dutyTok ER (rsCell c 1) 0 t ∗ dutyTok ER (rrCell t 1 c) 0 c))
        ∗ bigSepL (ringF c) (fun p => iprop(dutyTok ER (gsCell c 1) 0 p ∗ dutyTok ER (grCell p 1 c) 0 c)))
      ∗ posRed c 1 ∗ (posGs c 1 ∗ posGr c Tsd 1)
      ∗ (bigSepL Tsd (fun t => iprop(∃ fd, piece t (rSlot 1 c) fullShare fd))
        ∗ bigSepL (ringF c) (fun p => iprop(∃ fd, piece p (gChunk 1 c) fullShare fd)))) := by
  unfold layerRes layerToks layerDest
  rw [if_pos (by decide), if_pos (by decide), if_pos (by decide)]

/-- The debt with the next reduce arrival last. -/
private theorem debt_peel (c t : Dev nD) (ts : List (Dev nD)) (l : Fin 3) (A B : CellTallies nD τ sig Unit) :
    owesRedL c (t :: ts) l + A + B = (owesRedL c ts l + A + B) + tallyAt (rrCell t l c) () N64 := by
  unfold owesRedL
  rw [List.map_cons, List.sum_cons]
  abel

/-- Every cell is at round 0: one cell's fact. -/
private theorem reachedAll_at (c : Dev nD) (k : CK) : reachedAll (F := F) ⊢ (reached ER (kcell c k) 0 : sProp 𝕄) := by
  unfold reachedAll
  exact allAt (fun p : Dev nD × CK => (reached ER (kcell p.1 p.2) 0 : sProp 𝕄)) c k

/-- Two functions that agree on a group of 128 rows agree on its two chunks. -/
private theorem agree_chunks {α : Type} (l : Fin 3) (g : Fin 4) (t0 t1 : Dev nD) (h0 : t0.val = 2 * g.val) (h1 : t1.val = 2 * g.val + 1)
    (w g' : S3x512x256.Idx → α) (h : ∀ i ∈ (rectGrp l g).set, w i = g' i) :
    (∀ i ∈ (rectP l t0).set, w i = g' i) ∧ (∀ i ∈ (rectP l t1).set, w i = g' i) := by
  rw [rectGrp_eq l g t0 t1 h0 h1] at h
  exact ⟨fun i hi => h i (Finset.mem_union_left _ hi), fun i hi => h i (Finset.mem_union_right _ hi)⟩

/-- A chunk of the partial-product buffer at contents that agree on its rows. -/
private theorem pChunk_congr (c : Dev nD) (l : Fin 3) (t : Dev nD) (q : PosShare TreeShare)
    {f g : Buf (Elt F) ((c : Thread nD τ).loc cc0_scratch0)} (h : ∀ i ∈ (rectP l t).set, f i = g i) :
    (piece c (pChunk l t) q f : sProp 𝕄) = piece c (pChunk l t) q g :=
  piece_congr c (pChunk l t) q fun i hi => h i ((set_pChunk l t) ▸ hi)

/-- A stored group of layer 1's partial product agrees with the canonical partial products on the group's rows. -/
private theorem stored_P1 (c : Dev nD) (g : Fin 4) (f0 : Buf (Elt F) ((c : Thread nD τ).loc cc0_scratch0)) (R : Rect S3x512x256)
    (hR : R = rectGrp 1 g) (w : R.shape.Idx → Elt F .bf16) (w' : (rectGrp 1 g).shape.Idx → Elt F .bf16) (hw : HEq w w') (hw' : w' = P1grp m c g) :
    ∀ i ∈ (rectGrp 1 g).set, View.write (Elt F) ((Memref.whole cc0_scratch0).access R) f0 w Finset.univ i = Pfun m c i := by
  subst hR
  obtain rfl := eq_of_heq hw
  subst hw'
  intro i hi
  refine write_P1grp m c g f0 _ rfl (inb_grp 1 g) i ?_
  show i ∈ ((View.whole cc0_scratch0).slice (rectGrp 1 g)).set
  rw [View.set_slice_whole]
  exact hi

/-- Rows `64 t …` of layer `l` of the partial-product buffer, as a 64-row rectangle of it. -/
private def pRows (l : Fin 3) (t : Dev nD) : Memref sig .tc .vmem S1x64x256 .bf16 := (Memref.whole cc0_scratch0).slice (rectP l t) (fun _ => rfl)

private theorem set_pRows (l : Fin 3) (t : Dev nD) : (pRows l t).view.set = (rectP l t).set := View.set_slice_whole _ _

/-- The rows held through the rectangle are the chunk held. -/
private theorem pRows_eq (c : Dev nD) (l : Fin 3) (t : Dev nD) (q : PosShare TreeShare) (f : Buf (Elt F) ((c : Thread nD τ).loc cc0_scratch0)) :
    ((pRows l t).view.loc (c : Thread nD τ) ↦[(pRows l t).view.set]{q} f : sProp 𝕄) = piece c (pChunk l t) q f := by
  unfold piece
  exact congrArg (fun I => pointsTo ((c : Thread nD τ).loc cc0_scratch0) I q f) ((set_pRows l t).trans (set_pChunk l t).symm)

private theorem posGr0_eq (c : Dev nD) : posGr (F := F) c Tsd 0 =
    iprop((atPos ER (grCell c 0 0) 0 ∅ 0 ∗ cred (tallyAt (grCell c 0 0) () N64)) ∗ (atPos ER (grCell c 0 1) 0 ∅ 0 ∗ cred (tallyAt (grCell c 0 1) () N64))
      ∗ (atPos ER (grCell c 0 2) 0 ∅ 0 ∗ cred (tallyAt (grCell c 0 2) () N64)) ∗ (atPos ER (grCell c 0 3) 0 ∅ 0 ∗ cred (tallyAt (grCell c 0 3) () N64))
      ∗ (atPos ER (grCell c 0 4) 0 ∅ 0 ∗ cred (tallyAt (grCell c 0 4) () N64)) ∗ (atPos ER (grCell c 0 5) 0 ∅ 0 ∗ cred (tallyAt (grCell c 0 5) () N64))
      ∗ (atPos ER (grCell c 0 6) 0 ∅ 0 ∗ cred (tallyAt (grCell c 0 6) () N64))) := rfl

private theorem posDoneGr0_eq (c : Dev nD) : posDoneGr (F := F) c Tsd 0 =
    iprop(atPos ER (grCell c 0 0) 1 ∅ 0 ∗ atPos ER (grCell c 0 1) 1 ∅ 0 ∗ atPos ER (grCell c 0 2) 1 ∅ 0 ∗ atPos ER (grCell c 0 3) 1 ∅ 0
      ∗ atPos ER (grCell c 0 4) 1 ∅ 0 ∗ atPos ER (grCell c 0 5) 1 ∅ 0 ∗ atPos ER (grCell c 0 6) 1 ∅ 0) := rfl

private theorem chunksAll0_eq (c : Dev nD) : chunksAll (F := F) c Tsd 0 =
    iprop(ex c (gChunk 0 c) ∗ ex c (gChunk 0 0) ∗ ex c (gChunk 0 1) ∗ ex c (gChunk 0 2) ∗ ex c (gChunk 0 3) ∗ ex c (gChunk 0 4)
      ∗ ex c (gChunk 0 5) ∗ ex c (gChunk 0 6)) := rfl

private theorem creds7_eq (c : Dev nD) : bigSepL Tsd (fun _ => (cred (tallyAt (rsCell c 1) () N64) : sProp 𝕄)) =
    iprop(cred (tallyAt (rsCell c 1) () N64) ∗ cred (tallyAt (rsCell c 1) () N64) ∗ cred (tallyAt (rsCell c 1) () N64) ∗ cred (tallyAt (rsCell c 1) () N64)
      ∗ cred (tallyAt (rsCell c 1) () N64) ∗ cred (tallyAt (rsCell c 1) () N64) ∗ cred (tallyAt (rsCell c 1) () N64)) := rfl

/-- A piece held at some contents. -/
private theorem ex_intro (c : Dev nD) (M : Memref sig .tc .vmem S64x256 .bf16) (f : Buf (Elt F) (M.view.loc (c : Thread nD τ))) :
    (piece c M fullShare f : sProp 𝕄) ⊢ ex c M := by
  unfold ex
  iintro H
  iexists f
  iexact H

/-- The eight chunks of a layer of the partial-product buffer, each held at some contents. -/
private theorem slab_ex (c : Dev nD) (l : Fin 3) (f0 : Buf (Elt F) ((c : Thread nD τ).loc cc0_scratch0)) :
    iprop(piece c (pChunk l 0) fullShare f0 ∗ piece c (pChunk l 1) fullShare f0 ∗ piece c (pChunk l 2) fullShare f0 ∗ piece c (pChunk l 3) fullShare f0
        ∗ piece c (pChunk l 4) fullShare f0 ∗ piece c (pChunk l 5) fullShare f0 ∗ piece c (pChunk l 6) fullShare f0 ∗ piece c (pChunk l 7) fullShare f0)
      ⊢ (bigSep (Finset.univ : Finset (Dev nD)) (fun t => ex (F := F) c (pChunk l t)) : sProp 𝕄) := by
  rw [bigSep_dev8]
  iintro ⟨H0, H1, H2, H3, H4, H5, H6, H7⟩
  isplitl [H0]; · iapply (ex_intro c (pChunk l 0) f0); iexact H0
  isplitl [H1]; · iapply (ex_intro c (pChunk l 1) f0); iexact H1
  isplitl [H2]; · iapply (ex_intro c (pChunk l 2) f0); iexact H2
  isplitl [H3]; · iapply (ex_intro c (pChunk l 3) f0); iexact H3
  isplitl [H4]; · iapply (ex_intro c (pChunk l 4) f0); iexact H4
  isplitl [H5]; · iapply (ex_intro c (pChunk l 5) f0); iexact H5
  isplitl [H6]; · iapply (ex_intro c (pChunk l 6) f0); iexact H6
  iapply (ex_intro c (pChunk l 7) f0); iexact H7

/-- A whole staging buffer held through its whole view at the contents it should hold. -/
private theorem stg_of_whole (c : Dev nD) (b : Ref sig .tc) (X x : Buf (Elt F) ((c : Thread nD τ).loc b)) (hx : x = X) :
    ((Memref.whole b).view.loc (c : Thread nD τ) ↦[(Memref.whole b).view.set]{fullShare} x : sProp 𝕄) ⊢ stg c b X := by
  subst hx
  iintro H
  iexists x
  isplitr; · ipureintro; trivial
  iapply (Entails.of_eq (congrArg (fun I => pointsTo ((c : Thread nD τ).loc b) I fullShare x) (View.set_whole b)))
  iexact H

/-- Nothing is owed for a layer whose reduce copies have all been enqueued. -/
private theorem debt_done (c : Dev nD) (l : Fin 3) (A B : CellTallies nD τ sig Unit) : owesRedL c [] l + A + B = A + B := by
  unfold owesRedL
  rw [List.map_nil, List.sum_nil, zero_add]

/-- A returned value satisfies the postcondition it is handed. -/
private theorem ret_intro {α : Type} (a : α) (Q : α → sProp 𝕄) (c : Dev nD) :
    (Q a) ⊢ wp frame (wpE (defs₀ (F := F)) 𝒱₀ (c : Thread nD τ) none) Set.univ (Prog.ret a) Q := by
  rw [wp_ret]
  iintro H
  imodintro
  iexact H

private theorem zero2 : (![0, 0] : Fin 2 → ℕ) = fun _ => 0 := by funext a; fin_cases a <;> rfl

/-- A landed chunk of the gather buffer holds the activation, whatever the chunk held before. -/
private theorem grPay_canon (c s : Dev nD) (l : Fin 3) : grPay m c l s ⊢ (piece c (gChunk l s) fullShare (Gfun m c) : sProp 𝕄) := by
  unfold grPay
  iintro ⟨%fd, H⟩
  iapply (Entails.of_eq (piece_congr c (gChunk l s) fullShare (land_gather m s c l fd)))
  iexact H

theorem segB1_sound7 (c : Dev nD) (hc : c = 7) (K : GSem nD τ sig → ℕ) (Kt : (Σ' (v463 : FVec F S64x256 .f32), BitVec 32) → sProp 𝕄) :
    iprop(mid1 m K c Tsd ∗ (∀ v466, midB m K c Tsd (k0_pay14 (chunkOf (P1 m c) c)) -∗ Kt ⟨k0_pay14 (chunkOf (P1 m c) c), v466⟩))
      ⊢ wp frame (wpE (defs₀ (F := F)) 𝒱₀ (c : Thread nD τ) none) Set.univ (segB1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hgw0 : Scalar.cmpi .ne (Scalar.extui (Scalar.cmpi .ne (devWord c) 0#32)) 0#32 = 1#1 := (condw0_iff c).mpr hne0
  have hgw1 : Scalar.cmpi .ne (Scalar.extui (Scalar.cmpi .ne (devWord c) 1#32)) 0#32 = 1#1 := (condw1_iff c).mpr hne1
  have hgw2 : Scalar.cmpi .ne (Scalar.extui (Scalar.cmpi .ne (devWord c) 2#32)) 0#32 = 1#1 := (condw2_iff c).mpr hne2
  have hgw3 : Scalar.cmpi .ne (Scalar.extui (Scalar.cmpi .ne (devWord c) 3#32)) 0#32 = 1#1 := (condw3_iff c).mpr hne3
  have hgw4 : Scalar.cmpi .ne (Scalar.extui (Scalar.cmpi .ne (devWord c) 4#32)) 0#32 = 1#1 := (condw4_iff c).mpr hne4
  have hgw5 : Scalar.cmpi .ne (Scalar.extui (Scalar.cmpi .ne (devWord c) 5#32)) 0#32 = 1#1 := (condw5_iff c).mpr hne5
  have hgw6 : Scalar.cmpi .ne (Scalar.extui (Scalar.cmpi .ne (devWord c) 6#32)) 0#32 = 1#1 := (condw6_iff c).mpr hne6
  have hgw7 : ¬ Scalar.cmpi .ne (Scalar.extui (Scalar.cmpi .ne (devWord c) 7#32)) 0#32 = 1#1 := fun h => (condw7_iff c).mp h hc
  have hg19 : k0_cond19 c = 1#1 := (cond19_iff c).mpr hne0
  have hg20 : k0_cond20 c = 1#1 := (cond20_iff c).mpr hne1
  have hg23 : k0_cond23 c = 1#1 := (cond23_iff c).mpr hne2
  have hg24 : k0_cond24 c = 1#1 := (cond24_iff c).mpr hne3
  have hg27 : k0_cond27 c = 1#1 := (cond27_iff c).mpr hne4
  have hg28 : k0_cond28 c = 1#1 := (cond28_iff c).mpr hne5
  have hg31 : k0_cond31 c = 1#1 := (cond31_iff c).mpr hne6
  have hg32 : ¬ k0_cond32 c = 1#1 := fun h => (cond32_iff c).mp h hc
  have hAbG0 : Above 4 (owesRedL c Tsd 1 + owesRedL c Tsd 2 + owesGatL c 1) := by
    unfold owesRedL owesGatL ringF
    simp only [List.map, List.sum_cons, List.sum_nil]
    owes_above
  have hAbG1 : Above 4 (owesRedL c [2, 3, 4, 5, 6] 1 + owesRedL c Tsd 2 + owesGatL c 1) := by
    unfold owesRedL owesGatL ringF
    simp only [List.map, List.sum_cons, List.sum_nil]
    owes_above
  have hAbG2 : Above 4 (owesRedL c [4, 5, 6] 1 + owesRedL c Tsd 2 + owesGatL c 1) := by
    unfold owesRedL owesGatL ringF
    simp only [List.map, List.sum_cons, List.sum_nil]
    owes_above
  have hAbG3 : Above 4 (owesRedL c [6] 1 + owesRedL c Tsd 2 + owesGatL c 1) := by
    unfold owesRedL owesGatL ringF
    simp only [List.map, List.sum_cons, List.sum_nil]
    owes_above
  unfold mid1 midB stagedIn scr
  rw [layerRes1_eq, posGr0_eq, posDoneGr0_eq, chunksAll0_eq, creds7_eq]
  simp only [bigSepL7]
  iintro ⟨⟨⟨#Hinv, #Hreach, #Hlev⟩, ⟨%W, HO⟩, ⟨⟨⟨⟨Trs1T0, Trr1T0⟩, ⟨Trs1T1, Trr1T1⟩, ⟨Trs1T2, Trr1T2⟩, ⟨Trs1T3, Trr1T3⟩, ⟨Trs1T4, Trr1T4⟩, ⟨Trs1T5, Trr1T5⟩, ⟨Trs1T6, Trr1T6⟩⟩, GTok1⟩, PRed1, ⟨PGs1, PGr1⟩, ⟨⟨⟨%fd0, Drr1T0⟩, ⟨%fd1, Drr1T1⟩, ⟨%fd2, Drr1T2⟩, ⟨%fd3, Drr1T3⟩, ⟨%fd4, Drr1T4⟩, ⟨%fd5, Drr1T5⟩, ⟨%fd6, Drr1T6⟩⟩, GDest1⟩⟩, HL2, ⟨⟨Pgr0S0, Cgr0S0⟩, ⟨Pgr0S1, Cgr0S1⟩, ⟨Pgr0S2, Cgr0S2⟩, ⟨Pgr0S3, Cgr0S3⟩, ⟨Pgr0S4, Cgr0S4⟩, ⟨Pgr0S5, Cgr0S5⟩, ⟨Pgr0S6, Cgr0S6⟩⟩, HPD0, HPrest, ⟨%f0, S0⟩, HSB0, HR1c, HR2c, G0c, G1c, HCA2, ⟨X0, X1, X2, ⟨%x3, %hx3, X3⟩, ⟨%x4, %hx4, X4⟩, X5, X6⟩, H7⟩, Hk⟩
  ihave X3 := (whole_restate c cc0_stg3_0 x3) $$ X3
  ihave X4 := (whole_restate c cc0_stg4_0 x4) $$ X4
  sl_unfold [segB1]
  sl_exec_parts
  -- the wait for device 0's rows
  ihave #Igr0S0 := (invsAll_at m K c (.gr 0 0)) $$ Hinv
  ihave #Mgr0S0 := (mayWait_gr (F := F) c 0 0 (owesRedL c Tsd 1 + owesRedL c Tsd 2 + owesGatL c 1) hAbG0) $$ Hlev
  iapply (wp_gat_recv m 𝒱₀ c 0 0 (by decide) hne0.symm (K (grCell c 0 0)) (sem_gr0_0 _) (gChunk_credit 0 0)) $$ [Cgr0S0 HO Pgr0S0]
  · isplitr; · iexact Igr0S0
    isplitl [Cgr0S0]; · iexact Cgr0S0
    isplitl [HO]; · iexact HO
    isplitr; · iexact Mgr0S0
    iexact Pgr0S0
  iintro ⟨HO, Dgr0S0, #Rgr0S0, Ygr0S0⟩
  sl_exec_parts
  -- the wait for device 1's rows
  ihave #Igr0S1 := (invsAll_at m K c (.gr 0 1)) $$ Hinv
  ihave #Mgr0S1 := (mayWait_gr (F := F) c 0 1 (owesRedL c Tsd 1 + owesRedL c Tsd 2 + owesGatL c 1) hAbG0) $$ Hlev
  iapply (wp_gat_recv m 𝒱₀ c 1 0 (by decide) hne1.symm (K (grCell c 0 1)) (sem_gr0_1 _) (gChunk_credit 0 1)) $$ [Cgr0S1 HO Pgr0S1]
  · isplitr; · iexact Igr0S1
    isplitl [Cgr0S1]; · iexact Cgr0S1
    isplitl [HO]; · iexact HO
    isplitr; · iexact Mgr0S1
    iexact Pgr0S1
  iintro ⟨HO, Dgr0S1, #Rgr0S1, Ygr0S1⟩
  -- rows 0 … 127 of the first activation joined, and the same rows of layer 1's partial product
  ihave Ggr0S0 := (grPay_canon m c 0 0) $$ Ygr0S0
  ihave Ggr0S1 := (grPay_canon m c 1 0) $$ Ygr0S1
  ihave S0 := (whole_restate c cc0_scratch0 f0) $$ S0
  ihave S0 := (whole0_split c fullShare f0) $$ S0
  ihave S0 := (Entails.of_eq (bigSep_layers_devs (fun a => piece c (pChunk a.1 a.2) fullShare f0))) $$ S0
  icases S0 with ⟨PL0, ⟨P1T0, P1T1, P1T2, P1T3, P1T4, P1T5, P1T6, P1T7⟩, PL2⟩
  ihave GG0 := (gGroup_join c 0 0 fullShare (Gfun m c) 0 1 rfl rfl) $$ [Ggr0S0 Ggr0S1]
  · isplitl [Ggr0S0]; · iexact Ggr0S0
    iexact Ggr0S1
  ihave PG0 := (pGroup_join c 1 0 fullShare f0 0 1 rfl rfl) $$ [P1T0 P1T1]
  · isplitl [P1T0]; · iexact P1T0
    iexact P1T1
  sl_exec_parts
  -- the group stored is the canonical partial product on its rows; cut into its two chunks
  have e3 : View.readAt (Elt F) (Memref.whole cc0_stg3_0).view (Rect.unit (s := S256x512) ![0, 0] S256x512.size inb_S256x512_S256x512_0_0).toLoadRect x3 = argW m c 1 :=
    (Memref.readAt_unit_zero (Elt F) cc0_stg3_0 zero2 _ x3).trans hx3
  have e4 : View.readAt (Elt F) (Memref.whole cc0_stg4_0).view (Rect.unit (s := S512x256) ![0, 0] S512x256.size inb_S512x256_S512x256_0_0).toLoadRect x4 = argV m c 1 :=
    (Memref.readAt_unit_zero (Elt F) cc0_stg4_0 zero2 _ x4).trans hx4
  have eG0 : View.readAt (Elt F) (Memref.whole cc0_scratch2).view (Rect.unit (s := S3x512x256) ![0, 0, 0] S1x128x256.size inb_S3x512x256_S1x128x256_0_0_0).toLoadRect (Gfun m c)
      = groupOf (G0 m) 0 := read_G_group m c 0 0 ![0, 0, 0] rfl _
  have hval0 : k0_pay10 (segB1_sound7.sl.r_2 m c x3 x4) = P1grp m c 0 := by
    unfold segB1_sound7.sl.r_2
    rw [e3, e4, eG0]
    rfl
  have hw0 : ∀ i ∈ (rectGrp 1 0).set, segB1_sound7.sl.PG0_w1 m c f0 x3 x4 i = Pfun m c i :=
    stored_P1 m c 0 f0 _ rfl _ _ HEq.rfl hval0
  ihave PG0 := (pGroup_split c 1 0 fullShare _ 0 1 rfl rfl) $$ PG0
  icases PG0 with ⟨P1T0, P1T1⟩
  have hw0T := agree_chunks 1 0 0 1 rfl rfl _ _ hw0
  ihave P1T0 := (Entails.of_eq (pChunk_congr c 1 0 fullShare hw0T.1)) $$ P1T0
  ihave P1T1 := (Entails.of_eq (pChunk_congr c 1 1 fullShare hw0T.2)) $$ P1T1
  ihave #Irs1 := (invsAll_at m K c (.rs 1)) $$ Hinv
  ihave #Rrs1 := (reachedAll_at c (.rs 1)) $$ Hreach
  -- the copy of chunk 0 to device 0
  ihave #Irr1T0 := (invsAll_at m K 0 (.rr 1 c)) $$ Hinv
  ihave #Rrr1T0 := (reachedAll_at 0 (.rr 1 c)) $$ Hreach
  ihave HO := (Entails.of_eq (congrArg (fun o => owes (c : Thread nD τ) o _) (debt_peel c 0 [1, 2, 3, 4, 5, 6] 1 (owesRedL c Tsd 2) (owesGatL c 1)))) $$ HO
  iapply (wp_red_send m 𝒱₀ c 0 1 hne0 (K (rsCell c 1)) (K (rrCell 0 1 c)) (dev23_eq _) (pchunk_lit1_0 _ _) (slot_off32 c _ _)
      (congrArg SemLoc.dma (sem_rs1 _)) (congrArg SemLoc.dma (sem_off31 c _)) (owesRedL c [1, 2, 3, 4, 5, 6] 1 + owesRedL c Tsd 2 + owesGatL c 1) fd0)
    $$ [P1T0 Drr1T0 HO Trs1T0 Trr1T0]
  · isplitr; · iexact Irs1
    isplitr; · iexact Irr1T0
    isplitl [P1T0]; · iexact P1T0
    isplitl [Drr1T0]; · iexact Drr1T0
    isplitl [HO]; · iexact HO
    isplitl [Trs1T0]; · iexact Trs1T0
    isplitr; · iexact Rrs1
    isplitl [Trr1T0]; · iexact Trr1T0
    iexact Rrr1T0
  iintro ⟨Crs1T0, HO⟩
  sl_exec_parts
  -- the copy of chunk 1 to device 1
  ihave #Irr1T1 := (invsAll_at m K 1 (.rr 1 c)) $$ Hinv
  ihave #Rrr1T1 := (reachedAll_at 1 (.rr 1 c)) $$ Hreach
  ihave HO := (Entails.of_eq (congrArg (fun o => owes (c : Thread nD τ) o _) (debt_peel c 1 [2, 3, 4, 5, 6] 1 (owesRedL c Tsd 2) (owesGatL c 1)))) $$ HO
  iapply (wp_red_send m 𝒱₀ c 1 1 hne1 (K (rsCell c 1)) (K (rrCell 1 1 c)) (dev24_eq _) (pchunk_lit1_1 _ _) (slot_off34 c _ _)
      (congrArg SemLoc.dma (sem_rs1 _)) (congrArg SemLoc.dma (sem_off33 c _)) (owesRedL c [2, 3, 4, 5, 6] 1 + owesRedL c Tsd 2 + owesGatL c 1) fd1)
    $$ [P1T1 Drr1T1 HO Trs1T1 Trr1T1]
  · isplitr; · iexact Irs1
    isplitr; · iexact Irr1T1
    isplitl [P1T1]; · iexact P1T1
    isplitl [Drr1T1]; · iexact Drr1T1
    isplitl [HO]; · iexact HO
    isplitl [Trs1T1]; · iexact Trs1T1
    isplitr; · iexact Rrs1
    isplitl [Trr1T1]; · iexact Trr1T1
    iexact Rrr1T1
  iintro ⟨Crs1T1, HO⟩
  sl_exec_parts
  -- the wait for device 2's rows
  ihave #Igr0S2 := (invsAll_at m K c (.gr 0 2)) $$ Hinv
  ihave #Mgr0S2 := (mayWait_gr (F := F) c 0 2 (owesRedL c [2, 3, 4, 5, 6] 1 + owesRedL c Tsd 2 + owesGatL c 1) hAbG1) $$ Hlev
  iapply (wp_gat_recv m 𝒱₀ c 2 0 (by decide) hne2.symm (K (grCell c 0 2)) (sem_gr0_2 _) (gChunk_credit 0 2)) $$ [Cgr0S2 HO Pgr0S2]
  · isplitr; · iexact Igr0S2
    isplitl [Cgr0S2]; · iexact Cgr0S2
    isplitl [HO]; · iexact HO
    isplitr; · iexact Mgr0S2
    iexact Pgr0S2
  iintro ⟨HO, Dgr0S2, #Rgr0S2, Ygr0S2⟩
  sl_exec_parts
  -- the wait for device 3's rows
  ihave #Igr0S3 := (invsAll_at m K c (.gr 0 3)) $$ Hinv
  ihave #Mgr0S3 := (mayWait_gr (F := F) c 0 3 (owesRedL c [2, 3, 4, 5, 6] 1 + owesRedL c Tsd 2 + owesGatL c 1) hAbG1) $$ Hlev
  iapply (wp_gat_recv m 𝒱₀ c 3 0 (by decide) hne3.symm (K (grCell c 0 3)) (sem_gr0_3 _) (gChunk_credit 0 3)) $$ [Cgr0S3 HO Pgr0S3]
  · isplitr; · iexact Igr0S3
    isplitl [Cgr0S3]; · iexact Cgr0S3
    isplitl [HO]; · iexact HO
    isplitr; · iexact Mgr0S3
    iexact Pgr0S3
  iintro ⟨HO, Dgr0S3, #Rgr0S3, Ygr0S3⟩
  -- rows 128 … 255 of the first activation joined, and the same rows of layer 1's partial product
  ihave Ggr0S2 := (grPay_canon m c 2 0) $$ Ygr0S2
  ihave Ggr0S3 := (grPay_canon m c 3 0) $$ Ygr0S3
  ihave GG1 := (gGroup_join c 0 1 fullShare (Gfun m c) 2 3 rfl rfl) $$ [Ggr0S2 Ggr0S3]
  · isplitl [Ggr0S2]; · iexact Ggr0S2
    iexact Ggr0S3
  ihave PG1 := (pGroup_join c 1 1 fullShare f0 2 3 rfl rfl) $$ [P1T2 P1T3]
  · isplitl [P1T2]; · iexact P1T2
    iexact P1T3
  sl_exec_parts
  -- the group stored is the canonical partial product on its rows; cut into its two chunks
  have eG1 : View.readAt (Elt F) (Memref.whole cc0_scratch2).view (Rect.unit (s := S3x512x256) ![0, 128, 0] S1x128x256.size inb_S3x512x256_S1x128x256_0_128_0).toLoadRect (Gfun m c)
      = groupOf (G0 m) 1 := read_G_group m c 0 1 ![0, 128, 0] rfl _
  have hw1 : ∀ i ∈ (rectGrp 1 1).set, segB1_sound7.sl.PG1_w1 m c f0 x3 x4 i = Pfun m c i :=
    stored_P1 m c 1 f0 _ rfl _ _ HEq.rfl (by
      unfold segB1_sound7.sl.r segB1_sound7.sl.r_1
      rw [e3, e4, eG1]
      rfl)
  ihave PG1 := (pGroup_split c 1 1 fullShare _ 2 3 rfl rfl) $$ PG1
  icases PG1 with ⟨P1T2, P1T3⟩
  have hw1T := agree_chunks 1 1 2 3 rfl rfl _ _ hw1
  ihave P1T2 := (Entails.of_eq (pChunk_congr c 1 2 fullShare hw1T.1)) $$ P1T2
  ihave P1T3 := (Entails.of_eq (pChunk_congr c 1 3 fullShare hw1T.2)) $$ P1T3
  -- the copy of chunk 2 to device 2
  ihave #Irr1T2 := (invsAll_at m K 2 (.rr 1 c)) $$ Hinv
  ihave #Rrr1T2 := (reachedAll_at 2 (.rr 1 c)) $$ Hreach
  ihave HO := (Entails.of_eq (congrArg (fun o => owes (c : Thread nD τ) o _) (debt_peel c 2 [3, 4, 5, 6] 1 (owesRedL c Tsd 2) (owesGatL c 1)))) $$ HO
  iapply (wp_red_send m 𝒱₀ c 2 1 hne2 (K (rsCell c 1)) (K (rrCell 2 1 c)) (dev25_eq _) (pchunk_lit1_2 _ _) (slot_off36 c _ _)
      (congrArg SemLoc.dma (sem_rs1 _)) (congrArg SemLoc.dma (sem_off35 c _)) (owesRedL c [3, 4, 5, 6] 1 + owesRedL c Tsd 2 + owesGatL c 1) fd2)
    $$ [P1T2 Drr1T2 HO Trs1T2 Trr1T2]
  · isplitr; · iexact Irs1
    isplitr; · iexact Irr1T2
    isplitl [P1T2]; · iexact P1T2
    isplitl [Drr1T2]; · iexact Drr1T2
    isplitl [HO]; · iexact HO
    isplitl [Trs1T2]; · iexact Trs1T2
    isplitr; · iexact Rrs1
    isplitl [Trr1T2]; · iexact Trr1T2
    iexact Rrr1T2
  iintro ⟨Crs1T2, HO⟩
  sl_exec_parts
  -- the copy of chunk 3 to device 3
  ihave #Irr1T3 := (invsAll_at m K 3 (.rr 1 c)) $$ Hinv
  ihave #Rrr1T3 := (reachedAll_at 3 (.rr 1 c)) $$ Hreach
  ihave HO := (Entails.of_eq (congrArg (fun o => owes (c : Thread nD τ) o _) (debt_peel c 3 [4, 5, 6] 1 (owesRedL c Tsd 2) (owesGatL c 1)))) $$ HO
  iapply (wp_red_send m 𝒱₀ c 3 1 hne3 (K (rsCell c 1)) (K (rrCell 3 1 c)) (dev26_eq _) (pchunk_lit1_3 _ _) (slot_off38 c _ _)
      (congrArg SemLoc.dma (sem_rs1 _)) (congrArg SemLoc.dma (sem_off37 c _)) (owesRedL c [4, 5, 6] 1 + owesRedL c Tsd 2 + owesGatL c 1) fd3)
    $$ [P1T3 Drr1T3 HO Trs1T3 Trr1T3]
  · isplitr; · iexact Irs1
    isplitr; · iexact Irr1T3
    isplitl [P1T3]; · iexact P1T3
    isplitl [Drr1T3]; · iexact Drr1T3
    isplitl [HO]; · iexact HO
    isplitl [Trs1T3]; · iexact Trs1T3
    isplitr; · iexact Rrs1
    isplitl [Trr1T3]; · iexact Trr1T3
    iexact Rrr1T3
  iintro ⟨Crs1T3, HO⟩
  sl_exec_parts
  -- the wait for device 4's rows
  ihave #Igr0S4 := (invsAll_at m K c (.gr 0 4)) $$ Hinv
  ihave #Mgr0S4 := (mayWait_gr (F := F) c 0 4 (owesRedL c [4, 5, 6] 1 + owesRedL c Tsd 2 + owesGatL c 1) hAbG2) $$ Hlev
  iapply (wp_gat_recv m 𝒱₀ c 4 0 (by decide) hne4.symm (K (grCell c 0 4)) (sem_gr0_4 _) (gChunk_credit 0 4)) $$ [Cgr0S4 HO Pgr0S4]
  · isplitr; · iexact Igr0S4
    isplitl [Cgr0S4]; · iexact Cgr0S4
    isplitl [HO]; · iexact HO
    isplitr; · iexact Mgr0S4
    iexact Pgr0S4
  iintro ⟨HO, Dgr0S4, #Rgr0S4, Ygr0S4⟩
  sl_exec_parts
  -- the wait for device 5's rows
  ihave #Igr0S5 := (invsAll_at m K c (.gr 0 5)) $$ Hinv
  ihave #Mgr0S5 := (mayWait_gr (F := F) c 0 5 (owesRedL c [4, 5, 6] 1 + owesRedL c Tsd 2 + owesGatL c 1) hAbG2) $$ Hlev
  iapply (wp_gat_recv m 𝒱₀ c 5 0 (by decide) hne5.symm (K (grCell c 0 5)) (sem_gr0_5 _) (gChunk_credit 0 5)) $$ [Cgr0S5 HO Pgr0S5]
  · isplitr; · iexact Igr0S5
    isplitl [Cgr0S5]; · iexact Cgr0S5
    isplitl [HO]; · iexact HO
    isplitr; · iexact Mgr0S5
    iexact Pgr0S5
  iintro ⟨HO, Dgr0S5, #Rgr0S5, Ygr0S5⟩
  -- rows 256 … 383 of the first activation joined, and the same rows of layer 1's partial product
  ihave Ggr0S4 := (grPay_canon m c 4 0) $$ Ygr0S4
  ihave Ggr0S5 := (grPay_canon m c 5 0) $$ Ygr0S5
  ihave GG2 := (gGroup_join c 0 2 fullShare (Gfun m c) 4 5 rfl rfl) $$ [Ggr0S4 Ggr0S5]
  · isplitl [Ggr0S4]; · iexact Ggr0S4
    iexact Ggr0S5
  ihave PG2 := (pGroup_join c 1 2 fullShare f0 4 5 rfl rfl) $$ [P1T4 P1T5]
  · isplitl [P1T4]; · iexact P1T4
    iexact P1T5
  sl_exec_parts
  -- the group stored is the canonical partial product on its rows; cut into its two chunks
  have eG2 : View.readAt (Elt F) (Memref.whole cc0_scratch2).view (Rect.unit (s := S3x512x256) ![0, 256, 0] S1x128x256.size inb_S3x512x256_S1x128x256_0_256_0).toLoadRect (Gfun m c)
      = groupOf (G0 m) 2 := read_G_group m c 0 2 ![0, 256, 0] rfl _
  have hw2 : ∀ i ∈ (rectGrp 1 2).set, segB1_sound7.sl.PG2_w1 m c f0 x3 x4 i = Pfun m c i :=
    stored_P1 m c 2 f0 _ rfl _ _ HEq.rfl (by
      unfold segB1_sound7.sl.r segB1_sound7.sl.r_1
      rw [e3, e4, eG2]
      rfl)
  ihave PG2 := (pGroup_split c 1 2 fullShare _ 4 5 rfl rfl) $$ PG2
  icases PG2 with ⟨P1T4, P1T5⟩
  have hw2T := agree_chunks 1 2 4 5 rfl rfl _ _ hw2
  ihave P1T4 := (Entails.of_eq (pChunk_congr c 1 4 fullShare hw2T.1)) $$ P1T4
  ihave P1T5 := (Entails.of_eq (pChunk_congr c 1 5 fullShare hw2T.2)) $$ P1T5
  -- the copy of chunk 4 to device 4
  ihave #Irr1T4 := (invsAll_at m K 4 (.rr 1 c)) $$ Hinv
  ihave #Rrr1T4 := (reachedAll_at 4 (.rr 1 c)) $$ Hreach
  ihave HO := (Entails.of_eq (congrArg (fun o => owes (c : Thread nD τ) o _) (debt_peel c 4 [5, 6] 1 (owesRedL c Tsd 2) (owesGatL c 1)))) $$ HO
  iapply (wp_red_send m 𝒱₀ c 4 1 hne4 (K (rsCell c 1)) (K (rrCell 4 1 c)) (dev27_eq _) (pchunk_lit1_4 _ _) (slot_off40 c _ _)
      (congrArg SemLoc.dma (sem_rs1 _)) (congrArg SemLoc.dma (sem_off39 c _)) (owesRedL c [5, 6] 1 + owesRedL c Tsd 2 + owesGatL c 1) fd4)
    $$ [P1T4 Drr1T4 HO Trs1T4 Trr1T4]
  · isplitr; · iexact Irs1
    isplitr; · iexact Irr1T4
    isplitl [P1T4]; · iexact P1T4
    isplitl [Drr1T4]; · iexact Drr1T4
    isplitl [HO]; · iexact HO
    isplitl [Trs1T4]; · iexact Trs1T4
    isplitr; · iexact Rrs1
    isplitl [Trr1T4]; · iexact Trr1T4
    iexact Rrr1T4
  iintro ⟨Crs1T4, HO⟩
  sl_exec_parts
  -- the copy of chunk 5 to device 5
  ihave #Irr1T5 := (invsAll_at m K 5 (.rr 1 c)) $$ Hinv
  ihave #Rrr1T5 := (reachedAll_at 5 (.rr 1 c)) $$ Hreach
  ihave HO := (Entails.of_eq (congrArg (fun o => owes (c : Thread nD τ) o _) (debt_peel c 5 [6] 1 (owesRedL c Tsd 2) (owesGatL c 1)))) $$ HO
  iapply (wp_red_send m 𝒱₀ c 5 1 hne5 (K (rsCell c 1)) (K (rrCell 5 1 c)) (dev28_eq _) (pchunk_lit1_5 _ _) (slot_off42 c _ _)
      (congrArg SemLoc.dma (sem_rs1 _)) (congrArg SemLoc.dma (sem_off41 c _)) (owesRedL c [6] 1 + owesRedL c Tsd 2 + owesGatL c 1) fd5)
    $$ [P1T5 Drr1T5 HO Trs1T5 Trr1T5]
  · isplitr; · iexact Irs1
    isplitr; · iexact Irr1T5
    isplitl [P1T5]; · iexact P1T5
    isplitl [Drr1T5]; · iexact Drr1T5
    isplitl [HO]; · iexact HO
    isplitl [Trs1T5]; · iexact Trs1T5
    isplitr; · iexact Rrs1
    isplitl [Trr1T5]; · iexact Trr1T5
    iexact Rrr1T5
  iintro ⟨Crs1T5, HO⟩
  sl_exec_parts
  -- the wait for device 6's rows
  ihave #Igr0S6 := (invsAll_at m K c (.gr 0 6)) $$ Hinv
  ihave #Mgr0S6 := (mayWait_gr (F := F) c 0 6 (owesRedL c [6] 1 + owesRedL c Tsd 2 + owesGatL c 1) hAbG3) $$ Hlev
  iapply (wp_gat_recv m 𝒱₀ c 6 0 (by decide) hne6.symm (K (grCell c 0 6)) (sem_gr0_6 _) (gChunk_credit 0 6)) $$ [Cgr0S6 HO Pgr0S6]
  · isplitr; · iexact Igr0S6
    isplitl [Cgr0S6]; · iexact Cgr0S6
    isplitl [HO]; · iexact HO
    isplitr; · iexact Mgr0S6
    iexact Pgr0S6
  iintro ⟨HO, Dgr0S6, #Rgr0S6, Ygr0S6⟩
  -- rows 384 … 511 of the first activation joined, and the same rows of layer 1's partial product
  ihave Ggr0S6 := (grPay_canon m c 6 0) $$ Ygr0S6
  ihave G0c := (Entails.of_eq (congrArg (fun t => (piece c (gChunk 0 t) fullShare (Gfun m c) : sProp 𝕄)) hc)) $$ G0c
  ihave GG3 := (gGroup_join c 0 3 fullShare (Gfun m c) 6 7 rfl rfl) $$ [Ggr0S6 G0c]
  · isplitl [Ggr0S6]; · iexact Ggr0S6
    iexact G0c
  ihave PG3 := (pGroup_join c 1 3 fullShare f0 6 7 rfl rfl) $$ [P1T6 P1T7]
  · isplitl [P1T6]; · iexact P1T6
    iexact P1T7
  sl_exec_parts
  -- the group stored is the canonical partial product on its rows; cut into its two chunks
  have eG3 : View.readAt (Elt F) (Memref.whole cc0_scratch2).view (Rect.unit (s := S3x512x256) ![0, 384, 0] S1x128x256.size inb_S3x512x256_S1x128x256_0_384_0).toLoadRect (Gfun m c)
      = groupOf (G0 m) 3 := read_G_group m c 0 3 ![0, 384, 0] rfl _
  have hw3 : ∀ i ∈ (rectGrp 1 3).set, segB1_sound7.sl.PG3_w1 m c f0 x3 x4 i = Pfun m c i :=
    stored_P1 m c 3 f0 _ rfl _ _ HEq.rfl (by
      unfold segB1_sound7.sl.r segB1_sound7.sl.r_1
      rw [e3, e4, eG3]
      rfl)
  ihave PG3 := (pGroup_split c 1 3 fullShare _ 6 7 rfl rfl) $$ PG3
  icases PG3 with ⟨P1T6, P1T7⟩
  have hw3T := agree_chunks 1 3 6 7 rfl rfl _ _ hw3
  ihave P1T6 := (Entails.of_eq (pChunk_congr c 1 6 fullShare hw3T.1)) $$ P1T6
  ihave P1T7 := (Entails.of_eq (pChunk_congr c 1 7 fullShare hw3T.2)) $$ P1T7
  -- the copy of chunk 6 to device 6
  ihave #Irr1T6 := (invsAll_at m K 6 (.rr 1 c)) $$ Hinv
  ihave #Rrr1T6 := (reachedAll_at 6 (.rr 1 c)) $$ Hreach
  ihave HO := (Entails.of_eq (congrArg (fun o => owes (c : Thread nD τ) o _) (debt_peel c 6 [] 1 (owesRedL c Tsd 2) (owesGatL c 1)))) $$ HO
  iapply (wp_red_send m 𝒱₀ c 6 1 hne6 (K (rsCell c 1)) (K (rrCell 6 1 c)) (dev29_eq _) (pchunk_lit1_6 _ _) (slot_off44 c _ _)
      (congrArg SemLoc.dma (sem_rs1 _)) (congrArg SemLoc.dma (sem_off43 c _)) (owesRedL c [] 1 + owesRedL c Tsd 2 + owesGatL c 1) fd6)
    $$ [P1T6 Drr1T6 HO Trs1T6 Trr1T6]
  · isplitr; · iexact Irs1
    isplitr; · iexact Irr1T6
    isplitl [P1T6]; · iexact P1T6
    isplitl [Drr1T6]; · iexact Drr1T6
    isplitl [HO]; · iexact HO
    isplitl [Trs1T6]; · iexact Trs1T6
    isplitr; · iexact Rrs1
    isplitl [Trr1T6]; · iexact Trr1T6
    iexact Rrr1T6
  iintro ⟨Crs1T6, HO⟩
  ihave P1T7 := (Entails.of_eq (congrArg (fun t => (piece c (pChunk 1 t) fullShare (Pfun m c) : sProp 𝕄)) hc.symm)) $$ P1T7
  ihave P1own := (Entails.of_eq (pRows_eq c 1 c fullShare (Pfun m c)).symm) $$ P1T7
  sl_exec_parts
  have eOwn : View.readAt (Elt F) (Memref.whole cc0_scratch0).view (Rect.unit (s := S3x512x256) (k0_off47 c) S1x64x256.size (k0_off47_inb c)).toLoadRect (Pfun m c)
      = chunkOf (P1 m c) c := read_P_chunk m c 1 c (k0_off47 c) (k0_off47_eq c) _
  iapply (ret_intro _ Kt c)
  iapply (Entails.of_eq (congrArg (fun x => (Kt ⟨k0_pay14 x, segB1_sound7.sl.v466 c⟩ : sProp 𝕄)) eOwn.symm))
  ihave GG0 := (gGroup_split c 0 0 fullShare (Gfun m c) 0 1 rfl rfl) $$ GG0
  icases GG0 with ⟨G0T0, G0T1⟩
  ihave GG1 := (gGroup_split c 0 1 fullShare (Gfun m c) 2 3 rfl rfl) $$ GG1
  icases GG1 with ⟨G0T2, G0T3⟩
  ihave GG2 := (gGroup_split c 0 2 fullShare (Gfun m c) 4 5 rfl rfl) $$ GG2
  icases GG2 with ⟨G0T4, G0T5⟩
  ihave GG3 := (gGroup_split c 0 3 fullShare (Gfun m c) 6 7 rfl rfl) $$ GG3
  icases GG3 with ⟨G0T6, G0T7⟩
  ihave G0T7 := (Entails.of_eq (congrArg (fun t => (piece c (gChunk 0 t) fullShare (Gfun m c) : sProp 𝕄)) hc.symm)) $$ G0T7
  ihave P1own := (Entails.of_eq (pRows_eq c 1 c fullShare (Pfun m c))) $$ P1own
  ihave X3 := (stg_of_whole c cc0_stg3_0 (argW m c 1) x3 hx3) $$ X3
  ihave X4 := (stg_of_whole c cc0_stg4_0 (argV m c 1) x4 hx4) $$ X4
  ihave HO := (Entails.of_eq (congrArg (fun o => owes (c : Thread nD τ) o _) (debt_done c 1 (owesRedL c Tsd 2) (owesGatL c 1)))) $$ HO
  iapply Hk
  isplitr
  · isplitr; · iexact Hinv
    isplitr; · iexact Hreach
    iexact Hlev
  isplitr; · ipureintro; trivial
  isplitl [HO]; · iexists _; iexact HO
  isplitl [GTok1]; · iexact GTok1
  isplitl [GDest1]; · iexact GDest1
  isplitl [PRed1]; · iexact PRed1
  isplitl [PGs1]; · iexact PGs1
  isplitl [PGr1]; · iexact PGr1
  isplitl [Crs1T0 Crs1T1 Crs1T2 Crs1T3 Crs1T4 Crs1T5 Crs1T6]
  · isplitl [Crs1T0]; · iexact Crs1T0
    isplitl [Crs1T1]; · iexact Crs1T1
    isplitl [Crs1T2]; · iexact Crs1T2
    isplitl [Crs1T3]; · iexact Crs1T3
    isplitl [Crs1T4]; · iexact Crs1T4
    isplitl [Crs1T5]; · iexact Crs1T5
    iexact Crs1T6
  isplitl [HL2]; · iexact HL2
  isplitl [HPD0]; · iexact HPD0
  isplitl [Dgr0S0 Dgr0S1 Dgr0S2 Dgr0S3 Dgr0S4 Dgr0S5 Dgr0S6]
  · isplitl [Dgr0S0]; · iexact Dgr0S0
    isplitl [Dgr0S1]; · iexact Dgr0S1
    isplitl [Dgr0S2]; · iexact Dgr0S2
    isplitl [Dgr0S3]; · iexact Dgr0S3
    isplitl [Dgr0S4]; · iexact Dgr0S4
    isplitl [Dgr0S5]; · iexact Dgr0S5
    iexact Dgr0S6
  isplitl [HPrest]; · iexact HPrest
  isplitl [PL0]; · iapply (slab_ex c 0 f0); iexact PL0
  isplitl [P1own]; · iapply (ex_intro c (pChunk 1 c) (Pfun m c)); iexact P1own
  isplitl [PL2]; · iapply (slab_ex c 2 f0); iexact PL2
  isplitl [HSB0]; · iexact HSB0
  isplitl [HR1c]; · iexact HR1c
  isplitl [HR2c]; · iexact HR2c
  isplitl [G0T0 G0T1 G0T2 G0T3 G0T4 G0T5 G0T6 G0T7]
  · isplitl [G0T7]; · iapply (ex_intro c (gChunk 0 c) (Gfun m c)); iexact G0T7
    isplitl [G0T0]; · iapply (ex_intro c (gChunk 0 0) (Gfun m c)); iexact G0T0
    isplitl [G0T1]; · iapply (ex_intro c (gChunk 0 1) (Gfun m c)); iexact G0T1
    isplitl [G0T2]; · iapply (ex_intro c (gChunk 0 2) (Gfun m c)); iexact G0T2
    isplitl [G0T3]; · iapply (ex_intro c (gChunk 0 3) (Gfun m c)); iexact G0T3
    isplitl [G0T4]; · iapply (ex_intro c (gChunk 0 4) (Gfun m c)); iexact G0T4
    isplitl [G0T5]; · iapply (ex_intro c (gChunk 0 5) (Gfun m c)); iexact G0T5
    iapply (ex_intro c (gChunk 0 6) (Gfun m c)); iexact G0T6
  isplitl [G1c]; · iexact G1c
  isplitl [HCA2]; · iexact HCA2
  isplitl [X0 X1 X2 X3 X4 X5 X6]
  · isplitl [X0]; · iexact X0
    isplitl [X1]; · iexact X1
    isplitl [X2]; · iexact X2
    isplitl [X3]; · iexact X3
    isplitl [X4]; · iexact X4
    isplitl [X5]; · iexact X5
    iexact X6
  iexact H7

/-- info: 'Cert.KernelProof.segB1_sound7' depends on axioms: [propext, Classical.choice, Quot.sound] -/
#guard_msgs in #print axioms segB1_sound7

end Cert.KernelProof

end
-- ==== Proof.K.BodySegB2_d7.lean ====
import proofs.«900993_g7700000000000994_dist_mlpseq_tp1d_rep_bs_b512_d256_h512_v7x_i8_bf16_1_alg».proof.Proof.K.BodySegBCut
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.StepsGather
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 1 on the device at position 7: from the first wait of the accumulation to the last wait
    for the layer's gather copies.

    The device waits, in ring order backwards, for the chunk of each of its seven peers and adds it to its own: what it
    has after the seventh is its rows of the second activation (`red1`), which it stores into its own chunk of the
    gather buffer — that chunk then holds the canonical function. It cuts the chunk into eight shares, lends one to each
    of the seven copies that carry the rows to the peers (ring order forwards), each copy paying one arrival off what the
    device owes; then it waits seven times on the reduce-send cell (the seven chunks of its partial product come back,
    and the partial-product buffer is whole again) and seven times on the gather-send cell (the seven shares come back,
    and the chunk is held whole again). Everything indexed by the ring reads the same on every device; only the guards
    of the seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 1 has just landed reads `s`'s partial product on
    the reader's rows. -/
private theorem slot_landed_read (c s : Dev nD) (off : Fin 4 → Nat) (hoff : off = ![1, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 1 s).view.write (Elt F) fd ((pChunk 1 c).view.read (Elt F) (Pfun m s)) Finset.univ)
      = slotOf (P1 m s) c :=
  read_R_slot_landed m c s 1 off hoff inb _ fd (fun i _ => rfl)

/-- The device's own share of its gather chunk and the seven shares back from the copies are the chunk held whole. -/
private theorem gather_rejoin (c : Dev nD) :
    iprop(piece c (gChunk 1 c) (sh8 c) (Gfun m c) ∗ bigSep (peers c) (fun t => gsPay m c 1 t))
      ⊢ (piece c (gChunk 1 c) fullShare (Gfun m c) : sProp 𝕄) := by
  refine .trans ?_ (piece_shares_join c (gChunk 1 c) (Gfun m c))
  rw [bigSep_univ_at _ c]
  exact .rfl

/-- The chunks of layers 0 and 2, the device's own chunk of layer 1 and the seven chunks back from the copies are the
    partial-product buffer held whole. -/
private theorem scr0_rejoin (c : Dev nD) :
    iprop(bigSep (Finset.univ : Finset (Dev nD)) (fun t => ex (F := F) c (pChunk 0 t)) ∗ ex c (pChunk 1 c)
        ∗ bigSep (peers c) (fun t => rsPay m c 1 t) ∗ bigSep (Finset.univ : Finset (Dev nD)) (fun t => ex (F := F) c (pChunk 2 t)))
      ⊢ (scr c cc0_scratch0 : sProp 𝕄) := by
  have h1 : (bigSep (peers c) fun t => (piece c (pChunk 1 t) fullShare (Pfun m c) : sProp 𝕄))
      ⊢ bigSep (peers c) fun t => (iprop(∃ f, piece c (pChunk 1 t) fullShare f) : sProp 𝕄) :=
    bigSep_mono fun t _ => piece_ex c (pChunk 1 t) fullShare (Pfun m c)
  refine .trans ?_ (scr0_of_pieces c)
  unfold ex rsPay
  rw [layers_split' c (fun a => (iprop(∃ f, piece c (pChunk a.1 a.2) fullShare f) : sProp 𝕄)),
    bigSep_univ_at (fun t => (iprop(∃ f, piece c (pChunk 0 t) fullShare f) : sProp 𝕄)) c]
  iintro ⟨⟨H0c, H0p⟩, H1c, H1p, H2⟩
  isplitl [H0c H0p]
  · isplitl [H0c]; · iexact H0c
    iexact H0p
  isplitl [H1c H1p]
  · isplitl [H1c]; · iexact H1c
    iapply h1
    iexact H1p
  iexact H2

/-- The positions layer 1 leaves. -/
private theorem posDoneRed1_intro (c : Dev nD) :
    iprop(atPos ER (rsCell c 1) 1 ∅ 0
        ∗ (atPos ER (rrCell c 1 (bwd 1 c)) 1 ∅ 0 ∗ atPos ER (rrCell c 1 (bwd 2 c)) 1 ∅ 0 ∗ atPos ER (rrCell c 1 (bwd 3 c)) 1 ∅ 0
          ∗ atPos ER (rrCell c 1 (bwd 4 c)) 1 ∅ 0 ∗ atPos ER (rrCell c 1 (bwd 5 c)) 1 ∅ 0 ∗ atPos ER (rrCell c 1 (bwd 6 c)) 1 ∅ 0
          ∗ atPos ER (rrCell c 1 (bwd 7 c)) 1 ∅ 0)
        ∗ atPos ER (gsCell c 1) 1 ∅ 0) ⊢ (posDoneRed c 1 : sProp 𝕄) := by
  unfold posDoneRed ringB
  rw [if_pos (by decide)]
  exact .rfl

/-- Layer 1's receive slots, all eight back. -/
private theorem slotsBack1_intro (c : Dev nD) :
    iprop(ex c (rSlot 1 c)
        ∗ (ex c (rSlot 1 (bwd 1 c)) ∗ ex c (rSlot 1 (bwd 2 c)) ∗ ex c (rSlot 1 (bwd 3 c)) ∗ ex c (rSlot 1 (bwd 4 c))
          ∗ ex c (rSlot 1 (bwd 5 c)) ∗ ex c (rSlot 1 (bwd 6 c)) ∗ ex c (rSlot 1 (bwd 7 c))))
      ⊢ (slotsBack (F := F) c 1 : sProp 𝕄) := by
  unfold slotsBack ringB
  exact .rfl

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 1 (bwd $j c) _ habove) $$ Hlev
  iapply (wp_red_recv m 𝒱₀ c (bwd $j c) 1 (bwd_ne_nat $j (by decide) (by decide) c) (K (rrCell c 1 (bwd $j c))) ($semeq c _)
      ((congrArg (fun M : Memref sig .tc .vmem S64x256 .bf16 => M.view.dmaCredit) ($sloteq c _ _)).trans (rSlot_amount 1 (bwd $j c) (rrS 1 (bwd $j c))))) $$ [Hc_ HO Ha_]
  · isplitr; · iapply (invsAll_at m K c (.rr 1 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- The copy of the device's reduced rows to the peer `j` places forward. -/
local macro "gat_send" j:num deveq:ident tgs:ident tgr:ident dst:ident sh:ident cr:ident : tactic => `(tactic| (
  irename $tgs => Ht1_
  irename $tgr => Ht2_
  irename $dst => Hd_
  irename $sh => Hs_
  iapply (wp_gat_send m 𝒱₀ c (fwd $j c) 1 (by decide) (fwd_ne_nat $j (by decide) (by decide) c) (K (gsCell c 1)) (K (grCell (fwd $j c) 1 c))
      ($deveq c _) (chunk_off52 c _ _) (chunk_off52 c _ _) (congrArg SemLoc.dma (sem_gs1 _)) (congrArg SemLoc.dma (sem_off51 c _)) _ rfl _) $$ [Hs_ Hd_ HO Ht1_ Ht2_]
  · unfold piece
    isplitr; · iapply (invsAll_at m K c (.gs 1)); iexact Hinv
    isplitr; · iapply (invsAll_at m K (fwd $j c) (.gr 1 c)); iexact Hinv
    isplitl [Hs_]; · iexact Hs_
    isplitl [Hd_]; · iexact Hd_
    isplitl [HO]; · iexact HO
    isplitl [Ht1_]; · iexact Ht1_
    isplitr; · iapply (reached_at c (.gs 1)); iexact Hreach
    isplitl [Ht2_]; · iexact Ht2_
    iapply (reached_at (fwd $j c) (.gr 1 c)); iexact Hreach
  iintro ⟨Hc_, HO⟩
  irename Hc_ => $cr))

set_option hygiene false in
/-- One of the first six waits on the reduce-send cell of layer 1. -/
local macro "rs_wait" k:num cr:ident : tactic => `(tactic| (
  irename $cr => Hc_
  ihave Hmw := (mayWait_rs (F := F) c 1 _ hRest) $$ Hlev
  iapply (wp_rs_step m 𝒱₀ c 1 (K (rsCell c 1)) $k (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 1. -/
local macro "rs_last" cr:ident : tactic => `(tactic| (
  irename $cr => Hc_
  ihave Hmw := (mayWait_rs (F := F) c 1 _ hRest) $$ Hlev
  iapply (wp_rs_last m 𝒱₀ c 1 (K (rsCell c 1)) (sem_rs1 _) (by decide)) $$ [Hc_ HO Wrs]
  · isplitr; · iapply (invsAll_at m K c (.rs 1)); iexact Hinv
    isplitl [Hc_]; · iexact Hc_
    isplitl [HO]; · iexact HO
    isplitr; · iexact Hmw
    iexact Wrs
  iclear Hmw
  iintro ⟨HO, Ars1, -, Prs1⟩))

set_option hygiene false in
/-- One of the first six waits on the gather-send cell of layer 1. -/
local macro "gs_wait" k:num cr:ident : tactic => `(tactic| (
  irename $cr => Hc_
  ihave Hmw := (mayWait_gs (F := F) c 1 _ hRest) $$ Hlev
  iapply (wp_gs_step m 𝒱₀ c 1 (K (gsCell c 1)) $k (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Wgs⟩))

set_option hygiene false in
/-- The seventh wait on the gather-send cell of layer 1. -/
local macro "gs_last" cr:ident : tactic => `(tactic| (
  irename $cr => Hc_
  ihave Hmw := (mayWait_gs (F := F) c 1 _ hRest) $$ Hlev
  iapply (wp_gs_last m 𝒱₀ c 1 (by decide) (K (gsCell c 1)) (sem_gs1 _)
      ((congrArg (fun M : Memref sig .tc .vmem S64x256 .bf16 => M.view.dmaCredit) (chunk_off52 c _ _)).trans (gChunk_credit 1 c))) $$ [Hc_ HO Wgs]
  · isplitr; · iapply (invsAll_at m K c (.gs 1)); iexact Hinv
    isplitl [Hc_]; · iexact Hc_
    isplitl [HO]; · iexact HO
    isplitr; · iexact Hmw
    iexact Wgs
  iclear Hmw
  iintro ⟨HO, Ags1, -, Pgs1⟩))

/-! ## The half -/

theorem segB2_sound7 (c : Dev nD) (hc : c = 7) (K : GSem nD τ sig → ℕ) (Kt : PUnit → sProp 𝕄) (v463 : FVec F S64x256 .f32) (v466 : BitVec 32) :
    iprop(midB m K c [(0 : Dev nD), 1, 2, 3, 4, 5, 6] v463 ∗ (mid2 m K c [(0 : Dev nD), 1, 2, 3, 4, 5, 6] -∗ Kt ⟨⟩))
      ⊢ wp frame (wpE (defs₀ (F := F)) 𝒱₀ (c : Thread nD τ) none) Set.univ (segB2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c) v463 v466) Kt := by
  -- the guards of the seven waits on the reduce-send cell: every literal target but the device itself
  have hg33 : k0_cond33 c = 1#1 := (cond33_iff c).mpr (by rw [hc]; decide)
  have hg34 : k0_cond34 c = 1#1 := (cond34_iff c).mpr (by rw [hc]; decide)
  have hg35 : k0_cond35 c = 1#1 := (cond35_iff c).mpr (by rw [hc]; decide)
  have hg36 : k0_cond36 c = 1#1 := (cond36_iff c).mpr (by rw [hc]; decide)
  have hg37 : k0_cond37 c = 1#1 := (cond37_iff c).mpr (by rw [hc]; decide)
  have hg38 : k0_cond38 c = 1#1 := (cond38_iff c).mpr (by rw [hc]; decide)
  have hg39 : k0_cond39 c = 1#1 := (cond39_iff c).mpr (by rw [hc]; decide)
  have hg40 : ¬ k0_cond40 c = 1#1 := fun h => (cond40_iff c).mp h hc
  -- what is owed: layer 2's reduce arrivals (above every cell of layer 1) and layer 1's gather arrivals, last first
  have hRest : Above 6 (owesRedL c [(0 : Dev nD), 1, 2, 3, 4, 5, 6] 2) := by
    unfold owesRedL
    simp only [List.map_cons, List.map_nil, List.sum_cons, List.sum_nil]
    owes_above
  have hdebt : owesRedL c [(0 : Dev nD), 1, 2, 3, 4, 5, 6] 2 + owesGatL c 1
      = owesRedL c [(0 : Dev nD), 1, 2, 3, 4, 5, 6] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64 := by
    unfold owesGatL ringF
    simp only [List.map_cons, List.map_nil, List.sum_cons, List.sum_nil, add_zero]
    ac_rfl
  have habove : Above (2 + 3 * (1 : Fin 3).val) (owesRedL c [(0 : Dev nD), 1, 2, 3, 4, 5, 6] 2 + tallyAt (grCell (fwd 7 c) 1 c) () N64 + tallyAt (grCell (fwd 6 c) 1 c) () N64 + tallyAt (grCell (fwd 5 c) 1 c) () N64 + tallyAt (grCell (fwd 4 c) 1 c) () N64 + tallyAt (grCell (fwd 3 c) 1 c) () N64 + tallyAt (grCell (fwd 2 c) 1 c) () N64 + tallyAt (grCell (fwd 1 c) 1 c) () N64) := by
    exact (((((((hRest.mono (by decide)).add (above_gr _ _ _ _ (by decide) (by decide))).add (above_gr _ _ _ _ (by decide) (by decide))).add
      (above_gr _ _ _ _ (by decide) (by decide))).add (above_gr _ _ _ _ (by decide) (by decide))).add (above_gr _ _ _ _ (by decide) (by decide))).add
      (above_gr _ _ _ _ (by decide) (by decide))).add (above_gr _ _ _ _ (by decide) (by decide))
  -- each slot load reads inside the slot just received; the store of the sum writes the device's own gather chunk
  have hsub1 : (Memref.whole cc0_scratch1).view.setOn (Rect.unit (s := S3x8x64x256) (k0_off50 c 1#32) S1x1x64x256.size (k0_off50_inb c 0)).set ⊆ (rSlot 1 (bwd 1 c)).view.set := by
    rw [setOn_whole, rect_off50_1 c, set_rSlot]; exact Finset.Subset.refl _
  have hsub2 : (Memref.whole cc0_scratch1).view.setOn (Rect.unit (s := S3x8x64x256) (k0_off50 c 2#32) S1x1x64x256.size (k0_off50_inb c 1)).set ⊆ (rSlot 1 (bwd 2 c)).view.set := by
    rw [setOn_whole, rect_off50_2 c, set_rSlot]; exact Finset.Subset.refl _
  have hsub3 : (Memref.whole cc0_scratch1).view.setOn (Rect.unit (s := S3x8x64x256) (k0_off50 c 3#32) S1x1x64x256.size (k0_off50_inb c 2)).set ⊆ (rSlot 1 (bwd 3 c)).view.set := by
    rw [setOn_whole, rect_off50_3 c, set_rSlot]; exact Finset.Subset.refl _
  have hsub4 : (Memref.whole cc0_scratch1).view.setOn (Rect.unit (s := S3x8x64x256) (k0_off50 c 4#32) S1x1x64x256.size (k0_off50_inb c 3)).set ⊆ (rSlot 1 (bwd 4 c)).view.set := by
    rw [setOn_whole, rect_off50_4 c, set_rSlot]; exact Finset.Subset.refl _
  have hsub5 : (Memref.whole cc0_scratch1).view.setOn (Rect.unit (s := S3x8x64x256) (k0_off50 c 5#32) S1x1x64x256.size (k0_off50_inb c 4)).set ⊆ (rSlot 1 (bwd 5 c)).view.set := by
    rw [setOn_whole, rect_off50_5 c, set_rSlot]; exact Finset.Subset.refl _
  have hsub6 : (Memref.whole cc0_scratch1).view.setOn (Rect.unit (s := S3x8x64x256) (k0_off50 c 6#32) S1x1x64x256.size (k0_off50_inb c 5)).set ⊆ (rSlot 1 (bwd 6 c)).view.set := by
    rw [setOn_whole, rect_off50_6 c, set_rSlot]; exact Finset.Subset.refl _
  have hsub7 : (Memref.whole cc0_scratch1).view.setOn (Rect.unit (s := S3x8x64x256) (k0_off50 c 7#32) S1x1x64x256.size (k0_off50_inb c 6)).set ⊆ (rSlot 1 (bwd 7 c)).view.set := by
    rw [setOn_whole, rect_off50_7 c, set_rSlot]; exact Finset.Subset.refl _
  have hsubG : (Memref.whole cc0_scratch2).view.setOn (Rect.unit (s := S3x512x256) (k0_off47 c) S1x64x256.size (k0_off47_inb c)).set ⊆ (gChunk 1 c).view.set := by
    rw [setOn_whole, rect_off47 c, set_gChunk]; exact Finset.Subset.refl _
  -- what the device holds, named
  unfold midB posRed posGs ringF ringB ex
  rw [hdebt]
  simp only [bigSepL7]
  iintro ⟨⟨⟨#Hinv, #Hreach, #Hlev⟩, %hv, ⟨%W, HO⟩,
    ⟨⟨Tgs1F1, Tgr1F1⟩, ⟨Tgs1F2, Tgr1F2⟩, ⟨Tgs1F3, Tgr1F3⟩, ⟨Tgs1F4, Tgr1F4⟩, ⟨Tgs1F5, Tgr1F5⟩, ⟨Tgs1F6, Tgr1F6⟩, ⟨Tgs1F7, Tgr1F7⟩⟩,
    ⟨⟨%fd1, Dg1F1⟩, ⟨%fd2, Dg1F2⟩, ⟨%fd3, Dg1F3⟩, ⟨%fd4, Dg1F4⟩, ⟨%fd5, Dg1F5⟩, ⟨%fd6, Dg1F6⟩, ⟨%fd7, Dg1F7⟩⟩,
    ⟨Ars1, ⟨Arr1B1, Crr1B1⟩, ⟨Arr1B2, Crr1B2⟩, ⟨Arr1B3, Crr1B3⟩, ⟨Arr1B4, Crr1B4⟩, ⟨Arr1B5, Crr1B5⟩, ⟨Arr1B6, Crr1B6⟩, ⟨Arr1B7, Crr1B7⟩⟩,
    Ags1, HposGr1, ⟨Crs1_1, Crs1_2, Crs1_3, Crs1_4, Crs1_5, Crs1_6, Crs1_7⟩, Hres2, Hpd0, HpdG0, Hrest,
    Hp0, Hp1c, Hp2, Hsb0, Hr1c, Hr2c, Hch0, ⟨%g1, G1c⟩, Hch2, Hst, H7⟩, Hk⟩
  subst hv
  unfold piece
  unfold devWord
  sl_unfold [segB2]
  sl_exec_parts
  -- the accumulation: seven waits, each followed by the load of the slot it hands over
  red_recv 1 sem_off48_1 slot_off49_1 Arr1B1 Crr1B1 Sl1 fs1
  sl_exec_parts
  red_recv 2 sem_off48_2 slot_off49_2 Arr1B2 Crr1B2 Sl2 fs2
  sl_exec_parts
  red_recv 3 sem_off48_3 slot_off49_3 Arr1B3 Crr1B3 Sl3 fs3
  sl_exec_parts
  red_recv 4 sem_off48_4 slot_off49_4 Arr1B4 Crr1B4 Sl4 fs4
  sl_exec_parts
  red_recv 5 sem_off48_5 slot_off49_5 Arr1B5 Crr1B5 Sl5 fs5
  sl_exec_parts
  red_recv 6 sem_off48_6 slot_off49_6 Arr1B6 Crr1B6 Sl6 fs6
  sl_exec_parts
  red_recv 7 sem_off48_7 slot_off49_7 Arr1B7 Crr1B7 Sl7 fs7
  sl_exec_parts
  -- the sum stored is the device's rows of the second activation: its own gather chunk holds the canonical function
  have e476 : ∀ a, (segB2_sound7.sl.v476 m c a : Vec F S1x1x64x256 .bf16) = slotOf (P1 m (bwd 1 c)) c := fun a =>
    slot_landed_read m c (bwd 1 c) (k0_off50 c 1#32) ((k0_off50_eq c 0).trans (by rw [bwd_val c 0]; rfl)) _ a
  have e492 : ∀ a, (segB2_sound7.sl.v492 m c a : Vec F S1x1x64x256 .bf16) = slotOf (P1 m (bwd 2 c)) c := fun a =>
    slot_landed_read m c (bwd 2 c) (k0_off50 c 2#32) ((k0_off50_eq c 1).trans (by rw [bwd_val c 1]; rfl)) _ a
  have e508 : ∀ a, (segB2_sound7.sl.v508 m c a : Vec F S1x1x64x256 .bf16) = slotOf (P1 m (bwd 3 c)) c := fun a =>
    slot_landed_read m c (bwd 3 c) (k0_off50 c 3#32) ((k0_off50_eq c 2).trans (by rw [bwd_val c 2]; rfl)) _ a
  have e524 : ∀ a, (segB2_sound7.sl.v524 m c a : Vec F S1x1x64x256 .bf16) = slotOf (P1 m (bwd 4 c)) c := fun a =>
    slot_landed_read m c (bwd 4 c) (k0_off50 c 4#32) ((k0_off50_eq c 3).trans (by rw [bwd_val c 3]; rfl)) _ a
  have e540 : ∀ a, (segB2_sound7.sl.v540 m c a : Vec F S1x1x64x256 .bf16) = slotOf (P1 m (bwd 5 c)) c := fun a =>
    slot_landed_read m c (bwd 5 c) (k0_off50 c 5#32) ((k0_off50_eq c 4).trans (by rw [bwd_val c 4]; rfl)) _ a
  have e556 : ∀ a, (segB2_sound7.sl.v556 m c a : Vec F S1x1x64x256 .bf16) = slotOf (P1 m (bwd 6 c)) c := fun a =>
    slot_landed_read m c (bwd 6 c) (k0_off50 c 6#32) ((k0_off50_eq c 5).trans (by rw [bwd_val c 5]; rfl)) _ a
  have e572 : ∀ a, (segB2_sound7.sl.v572 m c a : Vec F S1x1x64x256 .bf16) = slotOf (P1 m (bwd 7 c)) c := fun a =>
    slot_landed_read m c (bwd 7 c) (k0_off50 c 7#32) ((k0_off50_eq c 6).trans (by rw [bwd_val c 6]; rfl)) _ a
  have hred : ∀ a1 a2 a3 a4 a5 a6 a7, k0_pay18 (segB2_sound7.sl.r_2 m c a1 a2 a3 a4 a5 a6) (segB2_sound7.sl.v572 m c a7) = red1 m c := by
    intro a1 a2 a3 a4 a5 a6 a7
    unfold segB2_sound7.sl.r_2 segB2_sound7.sl.r_1 segB2_sound7.sl.r
    rw [e476, e492, e508, e524, e540, e556, e572]
    rfl
  have hG1 : ∀ i ∈ (gChunk 1 c).view.set, segB2_sound7.sl.G1c_w1 m c g1 fs1 fs2 fs3 fs4 fs5 fs6 fs7 i = Gfun m c i := by
    intro i hi
    unfold segB2_sound7.sl.G1c_w1
    rw [hred]
    exact write_G1 m c g1 (k0_off47 c) (k0_off47_eq c) (k0_off47_inb c) i
      ((show ((Memref.whole cc0_scratch2).access (Rect.unit (s := S3x512x256) (k0_off47 c) S1x64x256.size (k0_off47_inb c))).set = (gChunk 1 c).view.set from
        (View.set_slice_whole _ _).trans ((congrArg (fun r : Rect S3x512x256 => r.set) (rect_off47 c _)).trans (gChunk_set 1 c).symm)) ▸ hi)
  have hpc := piece_congr (F := F) c (gChunk 1 c) fullShare hG1
  unfold piece at hpc
  ihave G1c := (Entails.of_eq hpc) $$ G1c
  -- the chunk in eight shares: one kept, seven lent to the copies
  have hsh := piece_shares_split (F := F) c (gChunk 1 c) (Gfun m c)
  rw [bigSep_ring c] at hsh
  unfold piece at hsh
  ihave G1s := hsh $$ G1c
  icases G1s with ⟨G1own, G1sF1, G1sF2, G1sF3, G1sF4, G1sF5, G1sF6, G1sF7⟩
  gat_send 1 dev31_eq Tgs1F1 Tgr1F1 Dg1F1 G1sF1 Cgs1_1
  sl_exec_parts
  gat_send 2 dev32_eq Tgs1F2 Tgr1F2 Dg1F2 G1sF2 Cgs1_2
  sl_exec_parts
  gat_send 3 dev33_eq Tgs1F3 Tgr1F3 Dg1F3 G1sF3 Cgs1_3
  sl_exec_parts
  gat_send 4 dev34_eq Tgs1F4 Tgr1F4 Dg1F4 G1sF4 Cgs1_4
  sl_exec_parts
  gat_send 5 dev35_eq Tgs1F5 Tgr1F5 Dg1F5 G1sF5 Cgs1_5
  sl_exec_parts
  gat_send 6 dev36_eq Tgs1F6 Tgr1F6 Dg1F6 G1sF6 Cgs1_6
  sl_exec_parts
  gat_send 7 dev37_eq Tgs1F7 Tgr1F7 Dg1F7 G1sF7 Cgs1_7
  sl_exec_parts
  -- the seven waits on the reduce-send cell, one per literal target but the device itself
  ihave Wrs := (waited_zero m (rsCell c 1)) $$ Ars1
  rs_wait 0 Crs1_1
  sl_exec_parts
  rs_wait 1 Crs1_2
  sl_exec_parts
  rs_wait 2 Crs1_3
  sl_exec_parts
  rs_wait 3 Crs1_4
  sl_exec_parts
  rs_wait 4 Crs1_5
  sl_exec_parts
  rs_wait 5 Crs1_6
  sl_exec_parts
  rs_last Crs1_7
  sl_exec_parts
  -- the seven waits on the gather-send cell
  ihave Wgs := (waited_zero m (gsCell c 1)) $$ Ags1
  gs_wait 0 Cgs1_1
  sl_exec_parts
  gs_wait 1 Cgs1_2
  sl_exec_parts
  gs_wait 2 Cgs1_3
  sl_exec_parts
  gs_wait 3 Cgs1_4
  sl_exec_parts
  gs_wait 4 Cgs1_5
  sl_exec_parts
  gs_wait 5 Cgs1_6
  sl_exec_parts
  gs_last Cgs1_7
  sl_exec_parts
  -- between layer 1 and layer 2
  rw [wp_ret]; imodintro
  iapply Hk
  ihave Hscr0 := (scr0_rejoin m c) $$ [Hp0 Hp1c Prs1 Hp2]
  · unfold ex
    isplitl [Hp0]; · iexact Hp0
    isplitl [Hp1c]; · iexact Hp1c
    isplitl [Prs1]; · iexact Prs1
    iexact Hp2
  ihave HG1 := (gather_rejoin m c) $$ [G1own Pgs1]
  · unfold piece
    isplitl [G1own]; · iexact G1own
    iexact Pgs1
  ihave Hpd1 := (posDoneRed1_intro (F := F) c) $$ [Ars1 Arr1B1 Arr1B2 Arr1B3 Arr1B4 Arr1B5 Arr1B6 Arr1B7 Ags1]
  · isplitl [Ars1]; · iexact Ars1
    isplitr [Ags1]
    · isplitl [Arr1B1]; · iexact Arr1B1
      isplitl [Arr1B2]; · iexact Arr1B2
      isplitl [Arr1B3]; · iexact Arr1B3
      isplitl [Arr1B4]; · iexact Arr1B4
      isplitl [Arr1B5]; · iexact Arr1B5
      isplitl [Arr1B6]; · iexact Arr1B6
      iexact Arr1B7
    iexact Ags1
  ihave Hsb1 := (slotsBack1_intro (F := F) c) $$ [Hr1c Sl1 Sl2 Sl3 Sl4 Sl5 Sl6 Sl7]
  · unfold ex piece
    isplitl [Hr1c]; · iexact Hr1c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  unfold mid2 ex
  isplitr
  · isplitr; · iexact Hinv
    isplitr; · iexact Hreach
    iexact Hlev
  isplitl [HO]; · iexists _; iexact HO
  isplitl [Hres2]; · iexact Hres2
  isplitl [HposGr1]; · iexact HposGr1
  isplitl [Hpd0]; · iexact Hpd0
  isplitl [Hpd1]; · iexact Hpd1
  isplitl [HpdG0]; · iexact HpdG0
  isplitl [Hrest]; · iexact Hrest
  isplitl [Hscr0]; · iexact Hscr0
  isplitl [Hsb0]; · iexact Hsb0
  isplitl [Hsb1]; · iexact Hsb1
  isplitl [Hr2c]; · iexact Hr2c
  isplitl [Hch0]; · iexact Hch0
  isplitl [HG1]; · iexact HG1
  isplitl [Hch2]; · iexact Hch2
  isplitl [Hst]; · iexact Hst
  iexact H7

/-- info: 'Cert.KernelProof.segB2_sound7' depends on axioms: [propext, Classical.choice, Quot.sound] -/
#guard_msgs in #print axioms segB2_sound7

end Cert.KernelProof

end
-- ==== Proof.K.BodySegC1_d7.lean ====
import proofs.«900993_g7700000000000994_dist_mlpseq_tp1d_rep_bs_b512_d256_h512_v7x_i8_bf16_1_alg».proof.Proof.K.BodySegC1Lib
import Idealize.ShloMosaic.Lib.Tactic

/-! The first half of layer 2 on the device at position 7: it loads the layer's two weight blocks; then, for each of the
    four groups of 128 rows of the second activation, waits for the gathered rows of the group's two owners (its own rows
    it holds already), multiplies the group through and stores the group of its partial product, and sends the group's
    two 64-row chunks to their owners — none to itself. Afterwards nothing is owed any more; each chunk sent is with
    its copy, each send having left the credit for one wait on the send cell; its own chunk holds its partial product. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched dests2

/-- What the device at position 7 owes for layer 2, the summands in the reverse of the order its sends pay them. -/
theorem owesRedL_rev_d7 (c : Dev nD) :
    owesRedL c [(0 : Dev nD), 1, 2, 3, 4, 5, 6] 2 = 0 + T2 c 6 + T2 c 5 + T2 c 4 + T2 c 3 + T2 c 2 + T2 c 1 + T2 c 0 := by
  unfold owesRedL T2
  simp only [List.map, List.sum_cons, List.sum_nil]
  abel

theorem segC1_sound7 (c : Dev nD) (hc : c = 7) (K : GSem nD τ sig → ℕ) (Kt : PUnit → sProp 𝕄) :
    iprop(mid2 m K c [(0 : Dev nD), 1, 2, 3, 4, 5, 6] ∗ (mid3 m K c [(0 : Dev nD), 1, 2, 3, 4, 5, 6] -∗ Kt ⟨⟩))
      ⊢ wp frame (wpE (defs₀ (F := F)) 𝒱₀ (c : Thread nD τ) none) Set.univ (segC1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  have hne0 : c ≠ (0 : Dev nD) := by rw [hc]; decide
  have hne1 : c ≠ (1 : Dev nD) := by rw [hc]; decide
  have hne2 : c ≠ (2 : Dev nD) := by rw [hc]; decide
  have hne3 : c ≠ (3 : Dev nD) := by rw [hc]; decide
  have hne4 : c ≠ (4 : Dev nD) := by rw [hc]; decide
  have hne5 : c ≠ (5 : Dev nD) := by rw [hc]; decide
  have hne6 : c ≠ (6 : Dev nD) := by rw [hc]; decide
  have hw0 := (condw0_iff c).mpr hne0
  have hw1 := (condw1_iff c).mpr hne1
  have hw2 := (condw2_iff c).mpr hne2
  have hw3 := (condw3_iff c).mpr hne3
  have hw4 := (condw4_iff c).mpr hne4
  have hw5 := (condw5_iff c).mpr hne5
  have hw6 := (condw6_iff c).mpr hne6
  have hw7 : ¬ _ := fun h => (condw7_iff c).mp h hc
  have hg43 : k0_cond43 c = 1#1 := (cond43_iff c).mpr hne0
  have hg44 : k0_cond44 c = 1#1 := (cond44_iff c).mpr hne1
  have hg47 : k0_cond47 c = 1#1 := (cond47_iff c).mpr hne2
  have hg48 : k0_cond48 c = 1#1 := (cond48_iff c).mpr hne3
  have hg51 : k0_cond51 c = 1#1 := (cond51_iff c).mpr hne4
  have hg52 : k0_cond52 c = 1#1 := (cond52_iff c).mpr hne5
  have hg55 : k0_cond55 c = 1#1 := (cond55_iff c).mpr hne6
  have hg56 : ¬ k0_cond56 c = 1#1 := fun h => (cond56_iff c).mp h hc
  unfold mid2 stagedIn posGr layerRes layerToks devWord
  simp only [sepL7, if_neg (show ¬ (2 : Fin 3).val < 2 by decide)]
  iintro ⟨⟨⟨#Hinv, #Hreach, #Hlev⟩, ⟨%W, HO⟩, ⟨⟨⟨⟨Ts0, Tr0⟩, ⟨Ts1, Tr1⟩, ⟨Ts2, Tr2⟩, ⟨Ts3, Tr3⟩, ⟨Ts4, Tr4⟩, ⟨Ts5, Tr5⟩, ⟨Ts6, Tr6⟩⟩, -⟩, HposRed2, -, Hdest⟩, ⟨⟨Pg0, Cg0⟩, ⟨Pg1, Cg1⟩, ⟨Pg2, Cg2⟩, ⟨Pg3, Cg3⟩, ⟨Pg4, Cg4⟩, ⟨Pg5, Cg5⟩, ⟨Pg6, Cg6⟩⟩, Hpd0, Hpd1, HpdG0, Hrest, Hscr0, Hsb0, Hsb1, Hex2c, Hch0, Hg1c, Hch2, ⟨S0, S1, S2, S3, S4, S5, S6⟩, ⟨%X7, H7⟩⟩, Hk⟩
  ihave HO := (Entails.of_eq (congrArg (fun O => owes (c : Thread nD τ) O W) (owesRedL_rev_d7 c))) $$ HO
  ihave Hdest := (dests2_of (F := F) c _) $$ Hdest
  ihave X5 := (stg_open c cc0_stg5_0 _) $$ S5
  ihave X6 := (stg_open c cc0_stg6_0 _) $$ S6
  ihave Hcut := (scr0_cut (F := F) c) $$ Hscr0
  icases Hcut with ⟨%f0, ⟨A00, A01, A02, A03, A04, A05, A06, A07⟩, ⟨A10, A11, A12, A13, A14, A15, A16, A17⟩, ⟨A20, A21, A22, A23, A24, A25, A26, A27⟩⟩
  ihave PG0 := (pGroup_join c 2 0 fullShare f0 0 1 rfl rfl) $$ [A20 A21]
  · isplitl [A20] <;> iassumption
  ihave PG1 := (pGroup_join c 2 1 fullShare f0 2 3 rfl rfl) $$ [A22 A23]
  · isplitl [A22] <;> iassumption
  ihave PG2 := (pGroup_join c 2 2 fullShare f0 4 5 rfl rfl) $$ [A24 A25]
  · isplitl [A24] <;> iassumption
  ihave PG3 := (pGroup_join c 2 3 fullShare f0 6 7 rfl rfl) $$ [A26 A27]
  · isplitl [A26] <;> iassumption
  ihave Is := (invsAll_at m K c (.rs 2)) $$ Hinv
  ihave Rs := (reached_at (F := F) c (.rs 2)) $$ Hreach
  sl_unfold [segC1]
  sl_exec_parts
  -- the wait for device 0's rows of the second activation
  ihave Ig := (invsAll_at m K c (.gr 1 0)) $$ Hinv
  ihave Hmw := (mayWait_gr (F := F) c 1 0 (0 + T2 c 6 + T2 c 5 + T2 c 4 + T2 c 3 + T2 c 2 + T2 c 1 + T2 c 0) (by owes_above)) $$ Hlev
  iapply (wp_gat_recv m 𝒱₀ c (0 : Dev nD) 1 (by decide) hne0.symm (K (grCell c 1 0)) (sem_gr1_0 _)
      ((congrArg (fun M : Memref sig .tc .vmem S64x256 .bf16 => M.view.dmaCredit) (gchunk_lit1_0 _ _)).trans (gChunk_credit 1 0))) $$ [Cg0 HO Pg0]
  · isplitr; · iexact Ig
    isplitl [Cg0]; · iexact Cg0
    isplitl [HO]; · iexact HO
    isplitr; · iexact Hmw
    iexact Pg0
  iintro ⟨HO, Pg0, #Rg0, Hgp0⟩
  iclear Ig Hmw
  ihave Gc0 := (grPay_canon m c 0 1) $$ Hgp0
  sl_exec
  -- the wait for device 1's rows of the second activation
  ihave Ig := (invsAll_at m K c (.gr 1 1)) $$ Hinv
  ihave Hmw := (mayWait_gr (F := F) c 1 1 (0 + T2 c 6 + T2 c 5 + T2 c 4 + T2 c 3 + T2 c 2 + T2 c 1 + T2 c 0) (by owes_above)) $$ Hlev
  iapply (wp_gat_recv m 𝒱₀ c (1 : Dev nD) 1 (by decide) hne1.symm (K (grCell c 1 1)) (sem_gr1_1 _)
      ((congrArg (fun M : Memref sig .tc .vmem S64x256 .bf16 => M.view.dmaCredit) (gchunk_lit1_1 _ _)).trans (gChunk_credit 1 1))) $$ [Cg1 HO Pg1]
  · isplitr; · iexact Ig
    isplitl [Cg1]; · iexact Cg1
    isplitl [HO]; · iexact HO
    isplitr; · iexact Hmw
    iexact Pg1
  iintro ⟨HO, Pg1, #Rg1, Hgp1⟩
  iclear Ig Hmw
  ihave Gc1 := (grPay_canon m c 1 1) $$ Hgp1
  ihave GG0 := (gGroup_join c 1 0 fullShare (Gfun m c) 0 1 rfl rfl) $$ [Gc0 Gc1]
  · isplitl [Gc0] <;> iassumption
  sl_exec
  -- group 0 of layer 2 now holds the device's partial product
  unfold segC1_sound7.sl.PG0_w1
  ihave PG0 := (pGroup_restate m c 0 _ (grp0_canon m c f0)) $$ PG0
  ihave PP := (pGroup_split c 2 0 fullShare (Pfun m c) 0 1 rfl rfl) $$ PG0
  icases PP with ⟨B20, B21⟩
  -- the send of chunk 0 to device 0
  ihave Hd := (dests2_cons (F := F) c (0 : Dev nD) _) $$ Hdest
  icases Hd with ⟨⟨%fd0, D0⟩, Hdest⟩
  ihave Ir := (invsAll_at m K (0 : Dev nD) (.rr 2 c)) $$ Hinv
  ihave Rr := (reached_at (F := F) (0 : Dev nD) (.rr 2 c)) $$ Hreach
  iapply (wp_red_send m 𝒱₀ c (0 : Dev nD) 2 hne0 (K (rsCell c 2)) (K (rrCell (0 : Dev nD) 2 c)) (dev38_eq _) (pchunk_lit2_0 _ _) (slot_off62 c _ _)
      (congrArg SemLoc.dma (sem_rs2 _)) (congrArg SemLoc.dma (sem_off61 c _)) _ fd0) $$ [B20 D0 HO Ts0 Tr0]
  · isplitr; · iexact Is
    isplitr; · iexact Ir
    isplitl [B20]; · iexact B20
    isplitl [D0]; · iexact D0
    isplitl [HO]; · iexact HO
    isplitl [Ts0]; · iexact Ts0
    isplitr; · iexact Rs
    isplitl [Tr0]; · iexact Tr0
    iexact Rr
  iintro ⟨Cs0, HO⟩
  iclear Ir Rr
  sl_exec
  -- the send of chunk 1 to device 1
  ihave Hd := (dests2_cons (F := F) c (1 : Dev nD) _) $$ Hdest
  icases Hd with ⟨⟨%fd1, D1⟩, Hdest⟩
  ihave Ir := (invsAll_at m K (1 : Dev nD) (.rr 2 c)) $$ Hinv
  ihave Rr := (reached_at (F := F) (1 : Dev nD) (.rr 2 c)) $$ Hreach
  iapply (wp_red_send m 𝒱₀ c (1 : Dev nD) 2 hne1 (K (rsCell c 2)) (K (rrCell (1 : Dev nD) 2 c)) (dev39_eq _) (pchunk_lit2_1 _ _) (slot_off64 c _ _)
      (congrArg SemLoc.dma (sem_rs2 _)) (congrArg SemLoc.dma (sem_off63 c _)) _ fd1) $$ [B21 D1 HO Ts1 Tr1]
  · isplitr; · iexact Is
    isplitr; · iexact Ir
    isplitl [B21]; · iexact B21
    isplitl [D1]; · iexact D1
    isplitl [HO]; · iexact HO
    isplitl [Ts1]; · iexact Ts1
    isplitr; · iexact Rs
    isplitl [Tr1]; · iexact Tr1
    iexact Rr
  iintro ⟨Cs1, HO⟩
  iclear Ir Rr
  sl_exec
  -- the wait for device 2's rows of the second activation
  ihave Ig := (invsAll_at m K c (.gr 1 2)) $$ Hinv
  ihave Hmw := (mayWait_gr (F := F) c 1 2 (0 + T2 c 6 + T2 c 5 + T2 c 4 + T2 c 3 + T2 c 2) (by owes_above)) $$ Hlev
  iapply (wp_gat_recv m 𝒱₀ c (2 : Dev nD) 1 (by decide) hne2.symm (K (grCell c 1 2)) (sem_gr1_2 _)
      ((congrArg (fun M : Memref sig .tc .vmem S64x256 .bf16 => M.view.dmaCredit) (gchunk_lit1_2 _ _)).trans (gChunk_credit 1 2))) $$ [Cg2 HO Pg2]
  · isplitr; · iexact Ig
    isplitl [Cg2]; · iexact Cg2
    isplitl [HO]; · iexact HO
    isplitr; · iexact Hmw
    iexact Pg2
  iintro ⟨HO, Pg2, #Rg2, Hgp2⟩
  iclear Ig Hmw
  ihave Gc2 := (grPay_canon m c 2 1) $$ Hgp2
  sl_exec
  -- the wait for device 3's rows of the second activation
  ihave Ig := (invsAll_at m K c (.gr 1 3)) $$ Hinv
  ihave Hmw := (mayWait_gr (F := F) c 1 3 (0 + T2 c 6 + T2 c 5 + T2 c 4 + T2 c 3 + T2 c 2) (by owes_above)) $$ Hlev
  iapply (wp_gat_recv m 𝒱₀ c (3 : Dev nD) 1 (by decide) hne3.symm (K (grCell c 1 3)) (sem_gr1_3 _)
      ((congrArg (fun M : Memref sig .tc .vmem S64x256 .bf16 => M.view.dmaCredit) (gchunk_lit1_3 _ _)).trans (gChunk_credit 1 3))) $$ [Cg3 HO Pg3]
  · isplitr; · iexact Ig
    isplitl [Cg3]; · iexact Cg3
    isplitl [HO]; · iexact HO
    isplitr; · iexact Hmw
    iexact Pg3
  iintro ⟨HO, Pg3, #Rg3, Hgp3⟩
  iclear Ig Hmw
  ihave Gc3 := (grPay_canon m c 3 1) $$ Hgp3
  ihave GG1 := (gGroup_join c 1 1 fullShare (Gfun m c) 2 3 rfl rfl) $$ [Gc2 Gc3]
  · isplitl [Gc2] <;> iassumption
  sl_exec
  -- group 1 of layer 2 now holds the device's partial product
  unfold segC1_sound7.sl.PG1_w1 segC1_sound7.sl.r segC1_sound7.sl.r_1
  ihave PG1 := (pGroup_restate m c 1 _ (grp1_canon m c f0)) $$ PG1
  ihave PP := (pGroup_split c 2 1 fullShare (Pfun m c) 2 3 rfl rfl) $$ PG1
  icases PP with ⟨B22, B23⟩
  -- the send of chunk 2 to device 2
  ihave Hd := (dests2_cons (F := F) c (2 : Dev nD) _) $$ Hdest
  icases Hd with ⟨⟨%fd2, D2⟩, Hdest⟩
  ihave Ir := (invsAll_at m K (2 : Dev nD) (.rr 2 c)) $$ Hinv
  ihave Rr := (reached_at (F := F) (2 : Dev nD) (.rr 2 c)) $$ Hreach
  iapply (wp_red_send m 𝒱₀ c (2 : Dev nD) 2 hne2 (K (rsCell c 2)) (K (rrCell (2 : Dev nD) 2 c)) (dev40_eq _) (pchunk_lit2_2 _ _) (slot_off66 c _ _)
      (congrArg SemLoc.dma (sem_rs2 _)) (congrArg SemLoc.dma (sem_off65 c _)) _ fd2) $$ [B22 D2 HO Ts2 Tr2]
  · isplitr; · iexact Is
    isplitr; · iexact Ir
    isplitl [B22]; · iexact B22
    isplitl [D2]; · iexact D2
    isplitl [HO]; · iexact HO
    isplitl [Ts2]; · iexact Ts2
    isplitr; · iexact Rs
    isplitl [Tr2]; · iexact Tr2
    iexact Rr
  iintro ⟨Cs2, HO⟩
  iclear Ir Rr
  sl_exec
  -- the send of chunk 3 to device 3
  ihave Hd := (dests2_cons (F := F) c (3 : Dev nD) _) $$ Hdest
  icases Hd with ⟨⟨%fd3, D3⟩, Hdest⟩
  ihave Ir := (invsAll_at m K (3 : Dev nD) (.rr 2 c)) $$ Hinv
  ihave Rr := (reached_at (F := F) (3 : Dev nD) (.rr 2 c)) $$ Hreach
  iapply (wp_red_send m 𝒱₀ c (3 : Dev nD) 2 hne3 (K (rsCell c 2)) (K (rrCell (3 : Dev nD) 2 c)) (dev41_eq _) (pchunk_lit2_3 _ _) (slot_off68 c _ _)
      (congrArg SemLoc.dma (sem_rs2 _)) (congrArg SemLoc.dma (sem_off67 c _)) _ fd3) $$ [B23 D3 HO Ts3 Tr3]
  · isplitr; · iexact Is
    isplitr; · iexact Ir
    isplitl [B23]; · iexact B23
    isplitl [D3]; · iexact D3
    isplitl [HO]; · iexact HO
    isplitl [Ts3]; · iexact Ts3
    isplitr; · iexact Rs
    isplitl [Tr3]; · iexact Tr3
    iexact Rr
  iintro ⟨Cs3, HO⟩
  iclear Ir Rr
  sl_exec
  -- the wait for device 4's rows of the second activation
  ihave Ig := (invsAll_at m K c (.gr 1 4)) $$ Hinv
  ihave Hmw := (mayWait_gr (F := F) c 1 4 (0 + T2 c 6 + T2 c 5 + T2 c 4) (by owes_above)) $$ Hlev
  iapply (wp_gat_recv m 𝒱₀ c (4 : Dev nD) 1 (by decide) hne4.symm (K (grCell c 1 4)) (sem_gr1_4 _)
      ((congrArg (fun M : Memref sig .tc .vmem S64x256 .bf16 => M.view.dmaCredit) (gchunk_lit1_4 _ _)).trans (gChunk_credit 1 4))) $$ [Cg4 HO Pg4]
  · isplitr; · iexact Ig
    isplitl [Cg4]; · iexact Cg4
    isplitl [HO]; · iexact HO
    isplitr; · iexact Hmw
    iexact Pg4
  iintro ⟨HO, Pg4, #Rg4, Hgp4⟩
  iclear Ig Hmw
  ihave Gc4 := (grPay_canon m c 4 1) $$ Hgp4
  sl_exec
  -- the wait for device 5's rows of the second activation
  ihave Ig := (invsAll_at m K c (.gr 1 5)) $$ Hinv
  ihave Hmw := (mayWait_gr (F := F) c 1 5 (0 + T2 c 6 + T2 c 5 + T2 c 4) (by owes_above)) $$ Hlev
  iapply (wp_gat_recv m 𝒱₀ c (5 : Dev nD) 1 (by decide) hne5.symm (K (grCell c 1 5)) (sem_gr1_5 _)
      ((congrArg (fun M : Memref sig .tc .vmem S64x256 .bf16 => M.view.dmaCredit) (gchunk_lit1_5 _ _)).trans (gChunk_credit 1 5))) $$ [Cg5 HO Pg5]
  · isplitr; · iexact Ig
    isplitl [Cg5]; · iexact Cg5
    isplitl [HO]; · iexact HO
    isplitr; · iexact Hmw
    iexact Pg5
  iintro ⟨HO, Pg5, #Rg5, Hgp5⟩
  iclear Ig Hmw
  ihave Gc5 := (grPay_canon m c 5 1) $$ Hgp5
  ihave GG2 := (gGroup_join c 1 2 fullShare (Gfun m c) 4 5 rfl rfl) $$ [Gc4 Gc5]
  · isplitl [Gc4] <;> iassumption
  sl_exec
  -- group 2 of layer 2 now holds the device's partial product
  unfold segC1_sound7.sl.PG2_w1
  ihave PG2 := (pGroup_restate m c 2 _ (grp2_canon m c f0)) $$ PG2
  ihave PP := (pGroup_split c 2 2 fullShare (Pfun m c) 4 5 rfl rfl) $$ PG2
  icases PP with ⟨B24, B25⟩
  -- the send of chunk 4 to device 4
  ihave Hd := (dests2_cons (F := F) c (4 : Dev nD) _) $$ Hdest
  icases Hd with ⟨⟨%fd4, D4⟩, Hdest⟩
  ihave Ir := (invsAll_at m K (4 : Dev nD) (.rr 2 c)) $$ Hinv
  ihave Rr := (reached_at (F := F) (4 : Dev nD) (.rr 2 c)) $$ Hreach
  iapply (wp_red_send m 𝒱₀ c (4 : Dev nD) 2 hne4 (K (rsCell c 2)) (K (rrCell (4 : Dev nD) 2 c)) (dev42_eq _) (pchunk_lit2_4 _ _) (slot_off70 c _ _)
      (congrArg SemLoc.dma (sem_rs2 _)) (congrArg SemLoc.dma (sem_off69 c _)) _ fd4) $$ [B24 D4 HO Ts4 Tr4]
  · isplitr; · iexact Is
    isplitr; · iexact Ir
    isplitl [B24]; · iexact B24
    isplitl [D4]; · iexact D4
    isplitl [HO]; · iexact HO
    isplitl [Ts4]; · iexact Ts4
    isplitr; · iexact Rs
    isplitl [Tr4]; · iexact Tr4
    iexact Rr
  iintro ⟨Cs4, HO⟩
  iclear Ir Rr
  sl_exec
  -- the send of chunk 5 to device 5
  ihave Hd := (dests2_cons (F := F) c (5 : Dev nD) _) $$ Hdest
  icases Hd with ⟨⟨%fd5, D5⟩, Hdest⟩
  ihave Ir := (invsAll_at m K (5 : Dev nD) (.rr 2 c)) $$ Hinv
  ihave Rr := (reached_at (F := F) (5 : Dev nD) (.rr 2 c)) $$ Hreach
  iapply (wp_red_send m 𝒱₀ c (5 : Dev nD) 2 hne5 (K (rsCell c 2)) (K (rrCell (5 : Dev nD) 2 c)) (dev43_eq _) (pchunk_lit2_5 _ _) (slot_off72 c _ _)
      (congrArg SemLoc.dma (sem_rs2 _)) (congrArg SemLoc.dma (sem_off71 c _)) _ fd5) $$ [B25 D5 HO Ts5 Tr5]
  · isplitr; · iexact Is
    isplitr; · iexact Ir
    isplitl [B25]; · iexact B25
    isplitl [D5]; · iexact D5
    isplitl [HO]; · iexact HO
    isplitl [Ts5]; · iexact Ts5
    isplitr; · iexact Rs
    isplitl [Tr5]; · iexact Tr5
    iexact Rr
  iintro ⟨Cs5, HO⟩
  iclear Ir Rr
  sl_exec
  -- the wait for device 6's rows of the second activation
  ihave Ig := (invsAll_at m K c (.gr 1 6)) $$ Hinv
  ihave Hmw := (mayWait_gr (F := F) c 1 6 (0 + T2 c 6) (by owes_above)) $$ Hlev
  iapply (wp_gat_recv m 𝒱₀ c (6 : Dev nD) 1 (by decide) hne6.symm (K (grCell c 1 6)) (sem_gr1_6 _)
      ((congrArg (fun M : Memref sig .tc .vmem S64x256 .bf16 => M.view.dmaCredit) (gchunk_lit1_6 _ _)).trans (gChunk_credit 1 6))) $$ [Cg6 HO Pg6]
  · isplitr; · iexact Ig
    isplitl [Cg6]; · iexact Cg6
    isplitl [HO]; · iexact HO
    isplitr; · iexact Hmw
    iexact Pg6
  iintro ⟨HO, Pg6, #Rg6, Hgp6⟩
  iclear Ig Hmw
  ihave Gc6 := (grPay_canon m c 6 1) $$ Hgp6
  -- the device's own rows are chunk 7 of the group
  ihave Gc7 := (Entails.of_eq (congrArg (fun t : Dev nD => (piece c (gChunk 1 t) fullShare (Gfun m c) : sProp 𝕄)) hc)) $$ Hg1c
  ihave GG3 := (gGroup_join c 1 3 fullShare (Gfun m c) 6 7 rfl rfl) $$ [Gc6 Gc7]
  · isplitl [Gc6] <;> iassumption
  sl_exec
  -- group 3 of layer 2 now holds the device's partial product
  unfold segC1_sound7.sl.PG3_w1 segC1_sound7.sl.r_2 segC1_sound7.sl.cst_717
  ihave PG3 := (pGroup_restate m c 3 _ (grp3_canon m c f0)) $$ PG3
  ihave PP := (pGroup_split c 2 3 fullShare (Pfun m c) 6 7 rfl rfl) $$ PG3
  icases PP with ⟨B26, B27⟩
  -- the send of chunk 6 to device 6
  ihave Hd := (dests2_cons (F := F) c (6 : Dev nD) _) $$ Hdest
  icases Hd with ⟨⟨%fd6, D6⟩, Hdest⟩
  ihave Ir := (invsAll_at m K (6 : Dev nD) (.rr 2 c)) $$ Hinv
  ihave Rr := (reached_at (F := F) (6 : Dev nD) (.rr 2 c)) $$ Hreach
  iapply (wp_red_send m 𝒱₀ c (6 : Dev nD) 2 hne6 (K (rsCell c 2)) (K (rrCell (6 : Dev nD) 2 c)) (dev44_eq _) (pchunk_lit2_6 _ _) (slot_off74 c _ _)
      (congrArg SemLoc.dma (sem_rs2 _)) (congrArg SemLoc.dma (sem_off73 c _)) _ fd6) $$ [B26 D6 HO Ts6 Tr6]
  · isplitr; · iexact Is
    isplitr; · iexact Ir
    isplitl [B26]; · iexact B26
    isplitl [D6]; · iexact D6
    isplitl [HO]; · iexact HO
    isplitl [Ts6]; · iexact Ts6
    isplitr; · iexact Rs
    isplitl [Tr6]; · iexact Tr6
    iexact Rr
  iintro ⟨Cs6, HO⟩
  iclear Ir Rr
  sl_exec
  -- the gathered chunks of layer 1, back from their groups
  ihave Q0 := (gGroup_split c 1 0 fullShare (Gfun m c) 0 1 rfl rfl) $$ GG0
  icases Q0 with ⟨G10, G11⟩
  ihave Q1 := (gGroup_split c 1 1 fullShare (Gfun m c) 2 3 rfl rfl) $$ GG1
  icases Q1 with ⟨G12, G13⟩
  ihave Q2 := (gGroup_split c 1 2 fullShare (Gfun m c) 4 5 rfl rfl) $$ GG2
  icases Q2 with ⟨G14, G15⟩
  ihave Q3 := (gGroup_split c 1 3 fullShare (Gfun m c) 6 7 rfl rfl) $$ GG3
  icases Q3 with ⟨G16, G17⟩
  ihave S5 := (stg_close c cc0_stg5_0 _) $$ X5
  ihave S6 := (stg_close c cc0_stg6_0 _) $$ X6
  rw [wp_ret]; imodintro
  iapply Hk
  unfold mid3 stagedIn posDoneGr
  isplitr
  · isplitr; · iexact Hinv
    isplitr; · iexact Hreach
    iexact Hlev
  isplitl [HO]; · iexists _; iexact HO
  isplitl [HposRed2]; · iexact HposRed2
  isplitl [Cs0 Cs1 Cs2 Cs3 Cs4 Cs5 Cs6]
  · rw [sepL7]
    isplitl [Cs0]; · iexact Cs0
    isplitl [Cs1]; · iexact Cs1
    isplitl [Cs2]; · iexact Cs2
    isplitl [Cs3]; · iexact Cs3
    isplitl [Cs4]; · iexact Cs4
    isplitl [Cs5]; · iexact Cs5
    iexact Cs6
  isplitl [Hpd0]; · iexact Hpd0
  isplitl [Hpd1]; · iexact Hpd1
  isplitl [HpdG0]; · iexact HpdG0
  isplitl [Pg0 Pg1 Pg2 Pg3 Pg4 Pg5 Pg6]
  · rw [sepL7]
    isplitl [Pg0]; · iexact Pg0
    isplitl [Pg1]; · iexact Pg1
    isplitl [Pg2]; · iexact Pg2
    isplitl [Pg3]; · iexact Pg3
    isplitl [Pg4]; · iexact Pg4
    isplitl [Pg5]; · iexact Pg5
    iexact Pg6
  isplitl [Hrest]; · iexact Hrest
  -- layer 0 of the partial-product buffer: its eight chunks, at whatever they hold
  isplitl [A00 A01 A02 A03 A04 A05 A06 A07]
  · unfold chunksP
    rw [sepL7]
    isplitl [A07]
    · iapply (Entails.of_eq (congrArg (fun t : Dev nD => (ex (F := F) c (pChunk 0 t) : sProp 𝕄)) hc.symm))
      iapply (ex_of c (pChunk 0 7) _); iexact A07
    isplitl [A00]; · iapply (ex_of c (pChunk 0 0) _); iexact A00
    isplitl [A01]; · iapply (ex_of c (pChunk 0 1) _); iexact A01
    isplitl [A02]; · iapply (ex_of c (pChunk 0 2) _); iexact A02
    isplitl [A03]; · iapply (ex_of c (pChunk 0 3) _); iexact A03
    isplitl [A04]; · iapply (ex_of c (pChunk 0 4) _); iexact A04
    isplitl [A05]; · iapply (ex_of c (pChunk 0 5) _); iexact A05
    iapply (ex_of c (pChunk 0 6) _); iexact A06
  -- layer 1 of the partial-product buffer: its eight chunks, at whatever they hold
  isplitl [A10 A11 A12 A13 A14 A15 A16 A17]
  · unfold chunksP
    rw [sepL7]
    isplitl [A17]
    · iapply (Entails.of_eq (congrArg (fun t : Dev nD => (ex (F := F) c (pChunk 1 t) : sProp 𝕄)) hc.symm))
      iapply (ex_of c (pChunk 1 7) _); iexact A17
    isplitl [A10]; · iapply (ex_of c (pChunk 1 0) _); iexact A10
    isplitl [A11]; · iapply (ex_of c (pChunk 1 1) _); iexact A11
    isplitl [A12]; · iapply (ex_of c (pChunk 1 2) _); iexact A12
    isplitl [A13]; · iapply (ex_of c (pChunk 1 3) _); iexact A13
    isplitl [A14]; · iapply (ex_of c (pChunk 1 4) _); iexact A14
    isplitl [A15]; · iapply (ex_of c (pChunk 1 5) _); iexact A15
    iapply (ex_of c (pChunk 1 6) _); iexact A16
  -- the device's own chunk of layer 2, holding its partial product
  isplitl [B27]
  · iapply (Entails.of_eq (congrArg (fun t : Dev nD => (piece c (pChunk 2 t) fullShare (Pfun m c) : sProp 𝕄)) hc.symm)); iexact B27
  isplitl [Hsb0]; · iexact Hsb0
  isplitl [Hsb1]; · iexact Hsb1
  isplitl [Hex2c]; · iexact Hex2c
  isplitl [Hch0]; · iexact Hch0
  isplitl [G10 G11 G12 G13 G14 G15 G16 G17]
  · unfold chunksAll
    rw [sepL7]
    isplitl [G17]
    · iapply (Entails.of_eq (congrArg (fun t : Dev nD => (ex (F := F) c (gChunk 1 t) : sProp 𝕄)) hc.symm))
      iapply (ex_of c (gChunk 1 7) _); iexact G17
    isplitl [G10]; · iapply (ex_of c (gChunk 1 0) _); iexact G10
    isplitl [G11]; · iapply (ex_of c (gChunk 1 1) _); iexact G11
    isplitl [G12]; · iapply (ex_of c (gChunk 1 2) _); iexact G12
    isplitl [G13]; · iapply (ex_of c (gChunk 1 3) _); iexact G13
    isplitl [G14]; · iapply (ex_of c (gChunk 1 4) _); iexact G14
    isplitl [G15]; · iapply (ex_of c (gChunk 1 5) _); iexact G15
    iapply (ex_of c (gChunk 1 6) _); iexact G16
  isplitl [Hch2]; · iexact Hch2
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists X7; iexact H7

/-- info: 'Cert.KernelProof.segC1_sound7' depends on axioms: [propext, Classical.choice, Quot.sound] -/
#guard_msgs in #print axioms segC1_sound7

end Cert.KernelProof

end
-- ==== Proof.K.BodySegC2_d7.lean ====
import proofs.«900993_g7700000000000994_dist_mlpseq_tp1d_rep_bs_b512_d256_h512_v7x_i8_bf16_1_alg».proof.Proof.K.BodyMidC
import proofs.«900993_g7700000000000994_dist_mlpseq_tp1d_rep_bs_b512_d256_h512_v7x_i8_bf16_1_alg».proof.Proof.K.BodyExit
import proofs.«900993_g7700000000000994_dist_mlpseq_tp1d_rep_bs_b512_d256_h512_v7x_i8_bf16_1_alg».proof.Proof.K.StepsReduce
import proofs.«900993_g7700000000000994_dist_mlpseq_tp1d_rep_bs_b512_d256_h512_v7x_i8_bf16_1_alg».proof.Proof.K.Waits
import proofs.«900993_g7700000000000994_dist_mlpseq_tp1d_rep_bs_b512_d256_h512_v7x_i8_bf16_1_alg».proof.Proof.K.Exit
import proofs.«900993_g7700000000000994_dist_mlpseq_tp1d_rep_bs_b512_d256_h512_v7x_i8_bf16_1_alg».proof.Proof.K.Lit
import proofs.«900993_g7700000000000994_dist_mlpseq_tp1d_rep_bs_b512_d256_h512_v7x_i8_bf16_1_alg».proof.Proof.K.CanonTable
import proofs.«900993_g7700000000000994_dist_mlpseq_tp1d_rep_bs_b512_d256_h512_v7x_i8_bf16_1_alg».proof.Proof.K.ContentsRead
import proofs.«900993_g7700000000000994_dist_mlpseq_tp1d_rep_bs_b512_d256_h512_v7x_i8_bf16_1_alg».proof.Proof.K.Split
import proofs.«900993_g7700000000000994_dist_mlpseq_tp1d_rep_bs_b512_d256_h512_v7x_i8_bf16_1_alg».proof.Proof.K.Levels
import proofs.«900993_g7700000000000994_dist_mlpseq_tp1d_rep_bs_b512_d256_h512_v7x_i8_bf16_1_alg».proof.Proof.K.Data
import Idealize.ShloMosaic.Lib.Tactic

/-! The second half of layer 2 on the device at position 7: from the load of the device's own chunk of its last partial
    product to the end of the body.

    The device waits, in ring order backwards, for the chunk of each of its seven peers and adds it to its own: what it
    has after the seventh is its rows of the last layer's sum (`red2`), not rounded, which it stores into the result's
    staging buffer. Then it waits seven times on the reduce-send cell: the seven chunks of its partial product come back.
    Every piece of the three scratch buffers is then held again and every cell that had duties stands after its round,
    which is what the exit needs. Everything indexed by the ring reads the same on every device; only the guards of the
    seven reduce-send waits name devices by literal. -/

set_option maxRecDepth 65536
set_option maxHeartbeats 4000000

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local irreducible] sched

/-- A list of seven, term by term (with the proof mode's `∗`). -/
private theorem bigSepL7 {M : Type} [URA M] {I : Type} (a b c d e f g : I) (Φ : I → sProp M) :
    bigSepL [a, b, c, d, e, f, g] Φ = iprop(Φ a ∗ Φ b ∗ Φ c ∗ Φ d ∗ Φ e ∗ Φ f ∗ Φ g) := rfl

/-! ## Values and pieces -/

/-- The load of a receive slot in which device `s`'s chunk of layer 2 has just landed reads `s`'s partial product on
    the reader's rows. -/
private theorem slot_landed_read (c s : Dev nD) (off : Fin 4 → Nat) (hoff : off = ![2, s.val, 0, 0])
    (inb : ∀ a, off a + S1x1x64x256.size a ≤ S3x8x64x256.size a) (fd : Buf (Elt F) ((c : Thread nD τ).loc cc0_scratch1)) :
    (Memref.whole cc0_scratch1).view.readAt (Elt F) (Rect.unit (s := S3x8x64x256) off S1x1x64x256.size inb).toLoadRect
        ((rSlot 2 s).view.write (Elt F) fd ((pChunk 2 c).view.read (Elt F) (Pfun m s)) Finset.univ)
      = slotOf (P2 m s) c :=
  read_R_slot_landed m c s 2 off hoff inb _ fd (fun i _ => rfl)

/-- The device's own chunk of its last partial product. -/
private theorem own_chunk_read (c : Dev nD) (inb : ∀ a, (k0_off77 c) a + S1x64x256.size a ≤ S3x512x256.size a) :
    (Memref.whole cc0_scratch0).view.readAt (Elt F) (Rect.unit (s := S3x512x256) (k0_off77 c) S1x64x256.size inb).toLoadRect (Pfun m c)
      = chunkOf (P2 m c) c :=
  read_P_chunk_of m c 2 c (k0_off77 c) (k0_off77_eq c) inb (Pfun m c) (fun _ _ => rfl)

/-- The positions layer 2 leaves. -/
private theorem posDoneRed2_intro (c : Dev nD) :
    iprop(atPos ER (rsCell c 2) 1 ∅ 0
        ∗ (atPos ER (rrCell c 2 (bwd 1 c)) 1 ∅ 0 ∗ atPos ER (rrCell c 2 (bwd 2 c)) 1 ∅ 0 ∗ atPos ER (rrCell c 2 (bwd 3 c)) 1 ∅ 0
          ∗ atPos ER (rrCell c 2 (bwd 4 c)) 1 ∅ 0 ∗ atPos ER (rrCell c 2 (bwd 5 c)) 1 ∅ 0 ∗ atPos ER (rrCell c 2 (bwd 6 c)) 1 ∅ 0
          ∗ atPos ER (rrCell c 2 (bwd 7 c)) 1 ∅ 0)) ⊢ (posDoneRed c 2 : sProp 𝕄) := by
  unfold posDoneRed ringB
  rw [if_neg (by decide), bigSepL7]
  iintro ⟨H1, H2⟩
  isplitl [H1]; · iexact H1
  isplitl [H2]; · iexact H2
  iempintro

/-- Layer 2's receive slots, all eight back. -/
private theorem slotsBack2_intro (c : Dev nD) :
    iprop(ex c (rSlot 2 c)
        ∗ (ex c (rSlot 2 (bwd 1 c)) ∗ ex c (rSlot 2 (bwd 2 c)) ∗ ex c (rSlot 2 (bwd 3 c)) ∗ ex c (rSlot 2 (bwd 4 c))
          ∗ ex c (rSlot 2 (bwd 5 c)) ∗ ex c (rSlot 2 (bwd 6 c)) ∗ ex c (rSlot 2 (bwd 7 c))))
      ⊢ (slotsBack (F := F) c 2 : sProp 𝕄) := by
  unfold slotsBack ringB
  exact .rfl

/-- Layer 2's chunks of the partial-product buffer: the device's own and the seven back from the copies. -/
private theorem chunksP2_intro (c : Dev nD) (Ts : List (Dev nD)) (hTs : peers c = Ts.toFinset) (hnd : Ts.Nodup) :
    iprop(ex c (pChunk 2 c) ∗ bigSep (peers c) (fun t => rsPay m c 2 t)) ⊢ (chunksP (F := F) c Ts 2 : sProp 𝕄) := by
  have h1 : (bigSep (peers c) fun t => (piece c (pChunk 2 t) fullShare (Pfun m c) : sProp 𝕄))
      ⊢ bigSep (peers c) fun t => (iprop(∃ f, piece c (pChunk 2 t) fullShare f) : sProp 𝕄) :=
    bigSep_mono fun t _ => piece_ex c (pChunk 2 t) fullShare (Pfun m c)
  unfold chunksP ex rsPay
  rw [← bigSep_eq_bigSepL Ts hnd, ← hTs]
  iintro ⟨Hc, Hp⟩
  isplitl [Hc]; · iexact Hc
  iapply h1
  iexact Hp

/-- A whole staging buffer held through its whole memref's view, at named contents. -/
private theorem stg_open (c : Dev nD) (b : Ref sig .tc) (X : b.ty.Contents (Elt F)) :
    (stg c b X : sProp 𝕄) ⊢ ((Memref.whole b).view.loc (c : Thread nD τ) ↦[(Memref.whole b).view.set]{fullShare} X) := by
  iintro ⟨%f, %hf, H⟩
  subst hf
  rw [View.set_whole]
  iexact H
private theorem stg_close (c : Dev nD) (b : Ref sig .tc) (X : b.ty.Contents (Elt F)) :
    ((Memref.whole b).view.loc (c : Thread nD τ) ↦[(Memref.whole b).view.set]{fullShare} X) ⊢ (stg c b X : sProp 𝕄) := by
  rw [View.set_whole]
  iintro H
  iexists X
  isplitr; · ipureintro; rfl
  iexact H

/-- The same with the contents named through an equation. -/
private theorem stg_close' (c : Dev nD) (b : Ref sig .tc) (X : b.ty.Contents (Elt F)) (f : b.ty.Contents (Elt F)) (h : f = X) :
    ((Memref.whole b).view.loc (c : Thread nD τ) ↦[(Memref.whole b).view.set]{fullShare} f) ⊢ (stg c b X : sProp 𝕄) := by
  subst h; exact stg_close c b f

/-! ## The remote steps, as they are invoked -/

set_option hygiene false in
/-- The wait for the chunk of the device `j` places back; the run then loads its slot. -/
local macro "red_recv" j:num semeq:ident sloteq:ident a:ident cr:ident sl:ident fd:ident : tactic => `(tactic| (
  irename $cr => Hc_
  irename $a => Ha_
  ihave Hmw := (mayWait_rr (F := F) c 2 (bwd $j c) _ (Above.zero _)) $$ Hlev
  iapply (wp_red_recv m 𝒱₀ c (bwd $j c) 2 (bwd_ne_nat $j (by decide) (by decide) c) (K (rrCell c 2 (bwd $j c))) ($semeq c _)
      ((congrArg (fun M : Memref sig .tc .vmem S64x256 .bf16 => M.view.dmaCredit) ($sloteq c _ _)).trans (rSlot_amount 2 (bwd $j c) (rrS 2 (bwd $j c))))) $$ [Hc_ HO Ha_]
  · isplitr; · iapply (invsAll_at m K c (.rr 2 (bwd $j c))); iexact Hinv
    isplitl [Hc_]; · iexact Hc_
    isplitl [HO]; · iexact HO
    isplitr; · iexact Hmw
    iexact Ha_
  iclear Hmw
  iintro ⟨HO, Ha_, -, Hpay⟩
  irename Ha_ => $a
  unfold rrPay piece
  icases Hpay with ⟨%fd_, Hsl_⟩
  irename Hsl_ => $sl
  revert fd_
  intro $fd:ident))

set_option hygiene false in
/-- One of the first six waits on the reduce-send cell of layer 2. -/
local macro "rs_wait" k:num cr:ident : tactic => `(tactic| (
  irename $cr => Hc_
  ihave Hmw := (mayWait_rs (F := F) c 2 _ (Above.zero _)) $$ Hlev
  iapply (wp_rs_step m 𝒱₀ c 2 (K (rsCell c 2)) $k (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Wrs⟩))

set_option hygiene false in
/-- The seventh wait on the reduce-send cell of layer 2. -/
local macro "rs_last" cr:ident : tactic => `(tactic| (
  irename $cr => Hc_
  ihave Hmw := (mayWait_rs (F := F) c 2 _ (Above.zero _)) $$ Hlev
  iapply (wp_rs_last m 𝒱₀ c 2 (K (rsCell c 2)) (sem_rs2 _) (by decide)) $$ [Hc_ HO Wrs]
  · isplitr; · iapply (invsAll_at m K c (.rs 2)); iexact Hinv
    isplitl [Hc_]; · iexact Hc_
    isplitl [HO]; · iexact HO
    isplitr; · iexact Hmw
    iexact Wrs
  iclear Hmw
  iintro ⟨HO, Ars2, -, Prs2⟩))

/-! ## The half -/

theorem segC2_sound7 (c : Dev nD) (hc : c = 7) (K : GSem nD τ sig → ℕ) (Kt : PUnit → sProp 𝕄) :
    iprop(mid3 m K c [(0 : Dev nD), 1, 2, 3, 4, 5, 6] ∗ (bodyPost m c -∗ Kt ⟨⟩))
      ⊢ wp frame (wpE (defs₀ (F := F)) 𝒱₀ (c : Thread nD τ) none) Set.univ (segC2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (devWord c)) Kt := by
  -- the seven literal peers of the device
  have hTs : peers c = ([(0 : Dev nD), 1, 2, 3, 4, 5, 6]).toFinset := by subst hc; decide
  have hnd : ([(0 : Dev nD), 1, 2, 3, 4, 5, 6]).Nodup := by decide
  -- the guards of the seven waits on the reduce-send cell: every literal target but the device itself
  have hg57 : k0_cond57 c = 1#1 := (cond57_iff c).mpr (by rw [hc]; decide)
  have hg58 : k0_cond58 c = 1#1 := (cond58_iff c).mpr (by rw [hc]; decide)
  have hg59 : k0_cond59 c = 1#1 := (cond59_iff c).mpr (by rw [hc]; decide)
  have hg60 : k0_cond60 c = 1#1 := (cond60_iff c).mpr (by rw [hc]; decide)
  have hg61 : k0_cond61 c = 1#1 := (cond61_iff c).mpr (by rw [hc]; decide)
  have hg62 : k0_cond62 c = 1#1 := (cond62_iff c).mpr (by rw [hc]; decide)
  have hg63 : k0_cond63 c = 1#1 := (cond63_iff c).mpr (by rw [hc]; decide)
  have hg64 : ¬ k0_cond64 c = 1#1 := fun h => (cond64_iff c).mp h hc
  -- each slot load reads inside the slot just received; the first load reads the device's own chunk
  have hsub1 : (Memref.whole cc0_scratch1).view.setOn (Rect.unit (s := S3x8x64x256) (k0_off80 c 1#32) S1x1x64x256.size (k0_off80_inb c 0)).set ⊆ (rSlot 2 (bwd 1 c)).view.set := by
    rw [setOn_whole, rect_off80_1 c, set_rSlot]; exact Finset.Subset.refl _
  have hsub2 : (Memref.whole cc0_scratch1).view.setOn (Rect.unit (s := S3x8x64x256) (k0_off80 c 2#32) S1x1x64x256.size (k0_off80_inb c 1)).set ⊆ (rSlot 2 (bwd 2 c)).view.set := by
    rw [setOn_whole, rect_off80_2 c, set_rSlot]; exact Finset.Subset.refl _
  have hsub3 : (Memref.whole cc0_scratch1).view.setOn (Rect.unit (s := S3x8x64x256) (k0_off80 c 3#32) S1x1x64x256.size (k0_off80_inb c 2)).set ⊆ (rSlot 2 (bwd 3 c)).view.set := by
    rw [setOn_whole, rect_off80_3 c, set_rSlot]; exact Finset.Subset.refl _
  have hsub4 : (Memref.whole cc0_scratch1).view.setOn (Rect.unit (s := S3x8x64x256) (k0_off80 c 4#32) S1x1x64x256.size (k0_off80_inb c 3)).set ⊆ (rSlot 2 (bwd 4 c)).view.set := by
    rw [setOn_whole, rect_off80_4 c, set_rSlot]; exact Finset.Subset.refl _
  have hsub5 : (Memref.whole cc0_scratch1).view.setOn (Rect.unit (s := S3x8x64x256) (k0_off80 c 5#32) S1x1x64x256.size (k0_off80_inb c 4)).set ⊆ (rSlot 2 (bwd 5 c)).view.set := by
    rw [setOn_whole, rect_off80_5 c, set_rSlot]; exact Finset.Subset.refl _
  have hsub6 : (Memref.whole cc0_scratch1).view.setOn (Rect.unit (s := S3x8x64x256) (k0_off80 c 6#32) S1x1x64x256.size (k0_off80_inb c 5)).set ⊆ (rSlot 2 (bwd 6 c)).view.set := by
    rw [setOn_whole, rect_off80_6 c, set_rSlot]; exact Finset.Subset.refl _
  have hsub7 : (Memref.whole cc0_scratch1).view.setOn (Rect.unit (s := S3x8x64x256) (k0_off80 c 7#32) S1x1x64x256.size (k0_off80_inb c 6)).set ⊆ (rSlot 2 (bwd 7 c)).view.set := by
    rw [setOn_whole, rect_off80_7 c, set_rSlot]; exact Finset.Subset.refl _
  have hsubP : (Memref.whole cc0_scratch0).view.setOn (Rect.unit (s := S3x512x256) (k0_off77 c) S1x64x256.size (k0_off77_inb c)).set ⊆ (pChunk 2 c).view.set := by
    rw [setOn_whole, rect_off77 c, set_pChunk]; exact Finset.Subset.refl _
  -- what the device holds, named
  unfold mid3 posRed ringB
  simp only [bigSepL7]
  iintro ⟨⟨⟨#Hinv, #Hreach, #Hlev⟩, ⟨%W, HO⟩,
    ⟨Ars2, ⟨Arr2B1, Crr2B1⟩, ⟨Arr2B2, Crr2B2⟩, ⟨Arr2B3, Crr2B3⟩, ⟨Arr2B4, Crr2B4⟩, ⟨Arr2B5, Crr2B5⟩, ⟨Arr2B6, Crr2B6⟩, ⟨Arr2B7, Crr2B7⟩⟩,
    ⟨Crs2_1, Crs2_2, Crs2_3, Crs2_4, Crs2_5, Crs2_6, Crs2_7⟩, Hpd0, Hpd1, HpdG0, HpdG1, Hrest,
    HP0, HP1, HP2c, Hsb0, Hsb1, Hr2c, Hch0, Hch1, Hch2, Hst, ⟨%X7, H7⟩⟩, Hk⟩
  ihave X7 := (stg_open c cc0_stg7_0 _) $$ H7
  unfold piece
  unfold devWord
  sl_unfold [segC2]
  sl_exec_parts
  -- the accumulation: seven waits, each followed by the load of the slot it hands over
  red_recv 1 sem_off78_1 slot_off79_1 Arr2B1 Crr2B1 Sl1 fs1
  sl_exec_parts
  red_recv 2 sem_off78_2 slot_off79_2 Arr2B2 Crr2B2 Sl2 fs2
  sl_exec_parts
  red_recv 3 sem_off78_3 slot_off79_3 Arr2B3 Crr2B3 Sl3 fs3
  sl_exec_parts
  red_recv 4 sem_off78_4 slot_off79_4 Arr2B4 Crr2B4 Sl4 fs4
  sl_exec_parts
  red_recv 5 sem_off78_5 slot_off79_5 Arr2B5 Crr2B5 Sl5 fs5
  sl_exec_parts
  red_recv 6 sem_off78_6 slot_off79_6 Arr2B6 Crr2B6 Sl6 fs6
  sl_exec_parts
  red_recv 7 sem_off78_7 slot_off79_7 Arr2B7 Crr2B7 Sl7 fs7
  sl_exec_parts
  -- the seven waits on the reduce-send cell, one per literal target but the device itself
  ihave Wrs := (waited_zero m (rsCell c 2)) $$ Ars2
  rs_wait 0 Crs2_1
  sl_exec_parts
  rs_wait 1 Crs2_2
  sl_exec_parts
  rs_wait 2 Crs2_3
  sl_exec_parts
  rs_wait 3 Crs2_4
  sl_exec_parts
  rs_wait 4 Crs2_5
  sl_exec_parts
  rs_wait 5 Crs2_6
  sl_exec_parts
  rs_last Crs2_7
  -- the sum stored is the device's rows of the last layer's sum
  have e846 : (segC2_sound7.sl.v846 m c : Vec F S1x64x256 .bf16) = chunkOf (P2 m c) c := own_chunk_read m c _
  have e861 : ∀ a, (segC2_sound7.sl.v861 m c a : Vec F S1x1x64x256 .bf16) = slotOf (P2 m (bwd 1 c)) c := fun a =>
    slot_landed_read m c (bwd 1 c) (k0_off80 c 1#32) ((k0_off80_eq c 0).trans (by rw [bwd_val c 0]; rfl)) _ a
  have e877 : ∀ a, (segC2_sound7.sl.v877 m c a : Vec F S1x1x64x256 .bf16) = slotOf (P2 m (bwd 2 c)) c := fun a =>
    slot_landed_read m c (bwd 2 c) (k0_off80 c 2#32) ((k0_off80_eq c 1).trans (by rw [bwd_val c 1]; rfl)) _ a
  have e893 : ∀ a, (segC2_sound7.sl.v893 m c a : Vec F S1x1x64x256 .bf16) = slotOf (P2 m (bwd 3 c)) c := fun a =>
    slot_landed_read m c (bwd 3 c) (k0_off80 c 3#32) ((k0_off80_eq c 2).trans (by rw [bwd_val c 2]; rfl)) _ a
  have e909 : ∀ a, (segC2_sound7.sl.v909 m c a : Vec F S1x1x64x256 .bf16) = slotOf (P2 m (bwd 4 c)) c := fun a =>
    slot_landed_read m c (bwd 4 c) (k0_off80 c 4#32) ((k0_off80_eq c 3).trans (by rw [bwd_val c 3]; rfl)) _ a
  have e925 : ∀ a, (segC2_sound7.sl.v925 m c a : Vec F S1x1x64x256 .bf16) = slotOf (P2 m (bwd 5 c)) c := fun a =>
    slot_landed_read m c (bwd 5 c) (k0_off80 c 5#32) ((k0_off80_eq c 4).trans (by rw [bwd_val c 4]; rfl)) _ a
  have e941 : ∀ a, (segC2_sound7.sl.v941 m c a : Vec F S1x1x64x256 .bf16) = slotOf (P2 m (bwd 6 c)) c := fun a =>
    slot_landed_read m c (bwd 6 c) (k0_off80 c 6#32) ((k0_off80_eq c 5).trans (by rw [bwd_val c 5]; rfl)) _ a
  have e957 : ∀ a, (segC2_sound7.sl.v957 m c a : Vec F S1x1x64x256 .bf16) = slotOf (P2 m (bwd 7 c)) c := fun a =>
    slot_landed_read m c (bwd 7 c) (k0_off80 c 7#32) ((k0_off80_eq c 6).trans (by rw [bwd_val c 6]; rfl)) _ a
  have hred : ∀ a1 a2 a3 a4 a5 a6 a7, k0_pay30 (segC2_sound7.sl.r_3 m c a1 a2 a3 a4 a5 a6) (segC2_sound7.sl.v957 m c a7) = red2 m c := by
    intro a1 a2 a3 a4 a5 a6 a7
    unfold segC2_sound7.sl.r_3 segC2_sound7.sl.r_2 segC2_sound7.sl.r_1 segC2_sound7.sl.r
    rw [e846, e861, e877, e893, e909, e925, e941, e957]
    rfl
  have hX7 : (Memref.whole cc0_stg7_0).view.writes (Elt F) X7
      [⟨Rect.unit (s := S64x256) ![0, 0] S64x256.size inb_S64x256_S64x256_0_0,
        k0_pay30 (segC2_sound7.sl.r_3 m c fs1 fs2 fs3 fs4 fs5 fs6) (segC2_sound7.sl.v957 m c fs7)⟩] = outAt m c := by
    rw [hred]
    exact Memref.write_access_unit_zero_univ (Elt F) cc0_stg7_0 (off := ![0, 0]) (by funext a; fin_cases a <;> rfl) inb_S64x256_S64x256_0_0 X7 (red2 m c)
  -- everything is back: the pieces, the positions after their rounds, the result staged
  ihave H7 := (stg_close' (F := F) c cc0_stg7_0 (outAt m c) _ hX7) $$ X7
  ihave HP2 := (chunksP2_intro m c _ hTs hnd) $$ [HP2c Prs2]
  · unfold ex piece
    isplitl [HP2c]; · iexists _; iexact HP2c
    iexact Prs2
  ihave Hpd2 := (posDoneRed2_intro (F := F) c) $$ [Ars2 Arr2B1 Arr2B2 Arr2B3 Arr2B4 Arr2B5 Arr2B6 Arr2B7]
  · isplitl [Ars2]; · iexact Ars2
    isplitl [Arr2B1]; · iexact Arr2B1
    isplitl [Arr2B2]; · iexact Arr2B2
    isplitl [Arr2B3]; · iexact Arr2B3
    isplitl [Arr2B4]; · iexact Arr2B4
    isplitl [Arr2B5]; · iexact Arr2B5
    isplitl [Arr2B6]; · iexact Arr2B6
    iexact Arr2B7
  ihave Hsb2 := (slotsBack2_intro (F := F) c) $$ [Hr2c Sl1 Sl2 Sl3 Sl4 Sl5 Sl6 Sl7]
  · unfold ex piece
    isplitl [Hr2c]; · iexact Hr2c
    isplitl [Sl1]; · iexists _; iexact Sl1
    isplitl [Sl2]; · iexists _; iexact Sl2
    isplitl [Sl3]; · iexists _; iexact Sl3
    isplitl [Sl4]; · iexists _; iexact Sl4
    isplitl [Sl5]; · iexists _; iexact Sl5
    isplitl [Sl6]; · iexists _; iexact Sl6
    iexists _; iexact Sl7
  sl_exec_parts
  imod (exit_of m c _ hTs hnd K) $$ [HO Hpd0 Hpd1 Hpd2 HpdG0 HpdG1 Hrest HP0 HP1 HP2 Hsb0 Hsb1 Hsb2 Hch0 Hch1 Hch2 Hst H7] with Hpost
  · unfold midE
    isplitr
    · isplitr; · iexact Hinv
      isplitr; · iexact Hreach
      iexact Hlev
    isplitl [HO]; · iexists _; iexact HO
    isplitl [Hpd0]; · iexact Hpd0
    isplitl [Hpd1]; · iexact Hpd1
    isplitl [Hpd2]; · iexact Hpd2
    isplitl [HpdG0]; · iexact HpdG0
    isplitl [HpdG1]; · iexact HpdG1
    isplitl [Hrest]; · iexact Hrest
    isplitl [HP0]; · iexact HP0
    isplitl [HP1]; · iexact HP1
    isplitl [HP2]; · iexact HP2
    isplitl [Hsb0]; · iexact Hsb0
    isplitl [Hsb1]; · iexact Hsb1
    isplitl [Hsb2]; · iexact Hsb2
    isplitl [Hch0]; · iexact Hch0
    isplitl [Hch1]; · iexact Hch1
    isplitl [Hch2]; · iexact Hch2
    isplitl [Hst]; · iexact Hst
    iexact H7
  rw [wp_ret]; imodintro
  iapply Hk
  iexact Hpost

/-- info: 'Cert.KernelProof.segC2_sound7' depends on axioms: [propext, Classical.choice, Quot.sound] -/
#guard_msgs in #print axioms segC2_sound7

end Cert.KernelProof

end
-- ==== Proof.K.Body.lean ====
import proofs.«900993_g7700000000000994_dist_mlpseq_tp1d_rep_bs_b512_d256_h512_v7x_i8_bf16_1_alg».proof.Proof.K.BodyCompose2
import proofs.«900993_g7700000000000994_dist_mlpseq_tp1d_rep_bs_b512_d256_h512_v7x_i8_bf16_1_alg».proof.Proof.K.BodySegA1a_d0
import proofs.«900993_g7700000000000994_dist_mlpseq_tp1d_rep_bs_b512_d256_h512_v7x_i8_bf16_1_alg».proof.Proof.K.BodySegA2_d0
import proofs.«900993_g7700000000000994_dist_mlpseq_tp1d_rep_bs_b512_d256_h512_v7x_i8_bf16_1_alg».proof.Proof.K.BodySegB1_d0
import proofs.«900993_g7700000000000994_dist_mlpseq_tp1d_rep_bs_b512_d256_h512_v7x_i8_bf16_1_alg».proof.Proof.K.BodySegB2_d0
import proofs.«900993_g7700000000000994_dist_mlpseq_tp1d_rep_bs_b512_d256_h512_v7x_i8_bf16_1_alg».proof.Proof.K.BodySegC1_d0
import proofs.«900993_g7700000000000994_dist_mlpseq_tp1d_rep_bs_b512_d256_h512_v7x_i8_bf16_1_alg».proof.Proof.K.BodySegC2_d0
import proofs.«900993_g7700000000000994_dist_mlpseq_tp1d_rep_bs_b512_d256_h512_v7x_i8_bf16_1_alg».proof.Proof.K.BodySegA1a_d1
import proofs.«900993_g7700000000000994_dist_mlpseq_tp1d_rep_bs_b512_d256_h512_v7x_i8_bf16_1_alg».proof.Proof.K.BodySegA2_d1
import proofs.«900993_g7700000000000994_dist_mlpseq_tp1d_rep_bs_b512_d256_h512_v7x_i8_bf16_1_alg».proof.Proof.K.BodySegB1_d1
import proofs.«900993_g7700000000000994_dist_mlpseq_tp1d_rep_bs_b512_d256_h512_v7x_i8_bf16_1_alg».proof.Proof.K.BodySegB2_d1
import proofs.«900993_g7700000000000994_dist_mlpseq_tp1d_rep_bs_b512_d256_h512_v7x_i8_bf16_1_alg».proof.Proof.K.BodySegC1_d1
import proofs.«900993_g7700000000000994_dist_mlpseq_tp1d_rep_bs_b512_d256_h512_v7x_i8_bf16_1_alg».proof.Proof.K.BodySegC2_d1
import proofs.«900993_g7700000000000994_dist_mlpseq_tp1d_rep_bs_b512_d256_h512_v7x_i8_bf16_1_alg».proof.Proof.K.BodySegA1a_d2
import proofs.«900993_g7700000000000994_dist_mlpseq_tp1d_rep_bs_b512_d256_h512_v7x_i8_bf16_1_alg».proof.Proof.K.BodySegA2_d2
import proofs.«900993_g7700000000000994_dist_mlpseq_tp1d_rep_bs_b512_d256_h512_v7x_i8_bf16_1_alg».proof.Proof.K.BodySegB1_d2
import proofs.«900993_g7700000000000994_dist_mlpseq_tp1d_rep_bs_b512_d256_h512_v7x_i8_bf16_1_alg».proof.Proof.K.BodySegB2_d2
import proofs.«900993_g7700000000000994_dist_mlpseq_tp1d_rep_bs_b512_d256_h512_v7x_i8_bf16_1_alg».proof.Proof.K.BodySegC1_d2
import proofs.«900993_g7700000000000994_dist_mlpseq_tp1d_rep_bs_b512_d256_h512_v7x_i8_bf16_1_alg».proof.Proof.K.BodySegC2_d2
import proofs.«900993_g7700000000000994_dist_mlpseq_tp1d_rep_bs_b512_d256_h512_v7x_i8_bf16_1_alg».proof.Proof.K.BodySegA1a_d3
import proofs.«900993_g7700000000000994_dist_mlpseq_tp1d_rep_bs_b512_d256_h512_v7x_i8_bf16_1_alg».proof.Proof.K.BodySegA2_d3
import proofs.«900993_g7700000000000994_dist_mlpseq_tp1d_rep_bs_b512_d256_h512_v7x_i8_bf16_1_alg».proof.Proof.K.BodySegB1_d3
import proofs.«900993_g7700000000000994_dist_mlpseq_tp1d_rep_bs_b512_d256_h512_v7x_i8_bf16_1_alg».proof.Proof.K.BodySegB2_d3
import proofs.«900993_g7700000000000994_dist_mlpseq_tp1d_rep_bs_b512_d256_h512_v7x_i8_bf16_1_alg».proof.Proof.K.BodySegC1_d3
import proofs.«900993_g7700000000000994_dist_mlpseq_tp1d_rep_bs_b512_d256_h512_v7x_i8_bf16_1_alg».proof.Proof.K.BodySegC2_d3
import proofs.«900993_g7700000000000994_dist_mlpseq_tp1d_rep_bs_b512_d256_h512_v7x_i8_bf16_1_alg».proof.Proof.K.BodySegA1a_d4
import proofs.«900993_g7700000000000994_dist_mlpseq_tp1d_rep_bs_b512_d256_h512_v7x_i8_bf16_1_alg».proof.Proof.K.BodySegA2_d4
import proofs.«900993_g7700000000000994_dist_mlpseq_tp1d_rep_bs_b512_d256_h512_v7x_i8_bf16_1_alg».proof.Proof.K.BodySegB1_d4
import proofs.«900993_g7700000000000994_dist_mlpseq_tp1d_rep_bs_b512_d256_h512_v7x_i8_bf16_1_alg».proof.Proof.K.BodySegB2_d4
import proofs.«900993_g7700000000000994_dist_mlpseq_tp1d_rep_bs_b512_d256_h512_v7x_i8_bf16_1_alg».proof.Proof.K.BodySegC1_d4
import proofs.«900993_g7700000000000994_dist_mlpseq_tp1d_rep_bs_b512_d256_h512_v7x_i8_bf16_1_alg».proof.Proof.K.BodySegC2_d4
import proofs.«900993_g7700000000000994_dist_mlpseq_tp1d_rep_bs_b512_d256_h512_v7x_i8_bf16_1_alg».proof.Proof.K.BodySegA1a_d5
import proofs.«900993_g7700000000000994_dist_mlpseq_tp1d_rep_bs_b512_d256_h512_v7x_i8_bf16_1_alg».proof.Proof.K.BodySegA2_d5
import proofs.«900993_g7700000000000994_dist_mlpseq_tp1d_rep_bs_b512_d256_h512_v7x_i8_bf16_1_alg».proof.Proof.K.BodySegB1_d5
import proofs.«900993_g7700000000000994_dist_mlpseq_tp1d_rep_bs_b512_d256_h512_v7x_i8_bf16_1_alg».proof.Proof.K.BodySegB2_d5
import proofs.«900993_g7700000000000994_dist_mlpseq_tp1d_rep_bs_b512_d256_h512_v7x_i8_bf16_1_alg».proof.Proof.K.BodySegC1_d5
import proofs.«900993_g7700000000000994_dist_mlpseq_tp1d_rep_bs_b512_d256_h512_v7x_i8_bf16_1_alg».proof.Proof.K.BodySegC2_d5
import proofs.«900993_g7700000000000994_dist_mlpseq_tp1d_rep_bs_b512_d256_h512_v7x_i8_bf16_1_alg».proof.Proof.K.BodySegA1a_d6
import proofs.«900993_g7700000000000994_dist_mlpseq_tp1d_rep_bs_b512_d256_h512_v7x_i8_bf16_1_alg».proof.Proof.K.BodySegA2_d6
import proofs.«900993_g7700000000000994_dist_mlpseq_tp1d_rep_bs_b512_d256_h512_v7x_i8_bf16_1_alg».proof.Proof.K.BodySegB1_d6
import proofs.«900993_g7700000000000994_dist_mlpseq_tp1d_rep_bs_b512_d256_h512_v7x_i8_bf16_1_alg».proof.Proof.K.BodySegB2_d6
import proofs.«900993_g7700000000000994_dist_mlpseq_tp1d_rep_bs_b512_d256_h512_v7x_i8_bf16_1_alg».proof.Proof.K.BodySegC1_d6
import proofs.«900993_g7700000000000994_dist_mlpseq_tp1d_rep_bs_b512_d256_h512_v7x_i8_bf16_1_alg».proof.Proof.K.BodySegC2_d6
import proofs.«900993_g7700000000000994_dist_mlpseq_tp1d_rep_bs_b512_d256_h512_v7x_i8_bf16_1_alg».proof.Proof.K.BodySegA1a_d7
import proofs.«900993_g7700000000000994_dist_mlpseq_tp1d_rep_bs_b512_d256_h512_v7x_i8_bf16_1_alg».proof.Proof.K.BodySegA2_d7
import proofs.«900993_g7700000000000994_dist_mlpseq_tp1d_rep_bs_b512_d256_h512_v7x_i8_bf16_1_alg».proof.Proof.K.BodySegB1_d7
import proofs.«900993_g7700000000000994_dist_mlpseq_tp1d_rep_bs_b512_d256_h512_v7x_i8_bf16_1_alg».proof.Proof.K.BodySegB2_d7
import proofs.«900993_g7700000000000994_dist_mlpseq_tp1d_rep_bs_b512_d256_h512_v7x_i8_bf16_1_alg».proof.Proof.K.BodySegC1_d7
import proofs.«900993_g7700000000000994_dist_mlpseq_tp1d_rep_bs_b512_d256_h512_v7x_i8_bf16_1_alg».proof.Proof.K.BodySegC2_d7

/-! The soundness of the kernel's body on every device: from what the launch deals a device (`bodyPre`) the body runs to
    what it owes the launch back (`bodyPost`): the three scratch buffers, every own semaphore at zero with its cell
    closed, nothing owed, the seven staged arguments unchanged and the result block staged. By cases on the device; on
    each device the three segments in sequence. -/

set_option maxHeartbeats 4000000

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem sound_body (K : GSem nD τ sig → ℕ) (c : Dev nD) (Kt : PUnit → sProp 𝕄) :
    iprop(bodyPre m K c ∗ (bodyPost m c -∗ Kt ⟨⟩)) ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  have h : c = 0 ∨ c = 1 ∨ c = 2 ∨ c = 3 ∨ c = 4 ∨ c = 5 ∨ c = 6 ∨ c = 7 := by revert c; decide
  rcases h with h | h | h | h | h | h | h | h
  · exact body_of_halves m c [(1 : Dev nD), 2, 3, 4, 5, 6, 7] K Kt
      (fun Kt' => segA1_sound0 m c h K Kt') (fun Kt' v78 v81 v82 c0 => segA2_sound0 m c h K Kt' v78 v81 v82 c0)
      (fun Kt' => segB1_sound0 m c h K Kt') (fun Kt' v463 v466 => segB2_sound0 m c h K Kt' v463 v466)
      (fun Kt' => segC1_sound0 m c h K Kt') (fun Kt' => segC2_sound0 m c h K Kt')
  · exact body_of_halves m c [(0 : Dev nD), 2, 3, 4, 5, 6, 7] K Kt
      (fun Kt' => segA1_sound1 m c h K Kt') (fun Kt' v78 v81 v82 c0 => segA2_sound1 m c h K Kt' v78 v81 v82 c0)
      (fun Kt' => segB1_sound1 m c h K Kt') (fun Kt' v463 v466 => segB2_sound1 m c h K Kt' v463 v466)
      (fun Kt' => segC1_sound1 m c h K Kt') (fun Kt' => segC2_sound1 m c h K Kt')
  · exact body_of_halves m c [(0 : Dev nD), 1, 3, 4, 5, 6, 7] K Kt
      (fun Kt' => segA1_sound2 m c h K Kt') (fun Kt' v78 v81 v82 c0 => segA2_sound2 m c h K Kt' v78 v81 v82 c0)
      (fun Kt' => segB1_sound2 m c h K Kt') (fun Kt' v463 v466 => segB2_sound2 m c h K Kt' v463 v466)
      (fun Kt' => segC1_sound2 m c h K Kt') (fun Kt' => segC2_sound2 m c h K Kt')
  · exact body_of_halves m c [(0 : Dev nD), 1, 2, 4, 5, 6, 7] K Kt
      (fun Kt' => segA1_sound3 m c h K Kt') (fun Kt' v78 v81 v82 c0 => segA2_sound3 m c h K Kt' v78 v81 v82 c0)
      (fun Kt' => segB1_sound3 m c h K Kt') (fun Kt' v463 v466 => segB2_sound3 m c h K Kt' v463 v466)
      (fun Kt' => segC1_sound3 m c h K Kt') (fun Kt' => segC2_sound3 m c h K Kt')
  · exact body_of_halves m c [(0 : Dev nD), 1, 2, 3, 5, 6, 7] K Kt
      (fun Kt' => segA1_sound4 m c h K Kt') (fun Kt' v78 v81 v82 c0 => segA2_sound4 m c h K Kt' v78 v81 v82 c0)
      (fun Kt' => segB1_sound4 m c h K Kt') (fun Kt' v463 v466 => segB2_sound4 m c h K Kt' v463 v466)
      (fun Kt' => segC1_sound4 m c h K Kt') (fun Kt' => segC2_sound4 m c h K Kt')
  · exact body_of_halves m c [(0 : Dev nD), 1, 2, 3, 4, 6, 7] K Kt
      (fun Kt' => segA1_sound5 m c h K Kt') (fun Kt' v78 v81 v82 c0 => segA2_sound5 m c h K Kt' v78 v81 v82 c0)
      (fun Kt' => segB1_sound5 m c h K Kt') (fun Kt' v463 v466 => segB2_sound5 m c h K Kt' v463 v466)
      (fun Kt' => segC1_sound5 m c h K Kt') (fun Kt' => segC2_sound5 m c h K Kt')
  · exact body_of_halves m c [(0 : Dev nD), 1, 2, 3, 4, 5, 7] K Kt
      (fun Kt' => segA1_sound6 m c h K Kt') (fun Kt' v78 v81 v82 c0 => segA2_sound6 m c h K Kt' v78 v81 v82 c0)
      (fun Kt' => segB1_sound6 m c h K Kt') (fun Kt' v463 v466 => segB2_sound6 m c h K Kt' v463 v466)
      (fun Kt' => segC1_sound6 m c h K Kt') (fun Kt' => segC2_sound6 m c h K Kt')
  · exact body_of_halves m c [(0 : Dev nD), 1, 2, 3, 4, 5, 6] K Kt
      (fun Kt' => segA1_sound7 m c h K Kt') (fun Kt' v78 v81 v82 c0 => segA2_sound7 m c h K Kt' v78 v81 v82 c0)
      (fun Kt' => segB1_sound7 m c h K Kt') (fun Kt' v463 v466 => segB2_sound7 m c h K Kt' v463 v466)
      (fun Kt' => segC1_sound7 m c h K Kt') (fun Kt' => segC2_sound7 m c h K Kt')

end Cert.KernelProof

end
-- ==== Proof.K.LaunchFund.lean ====
import proofs.«900993_g7700000000000994_dist_mlpseq_tp1d_rep_bs_b512_d256_h512_v7x_i8_bf16_1_alg».proof.Proof.K.Ghost

/-! The funding of the protocol's algebra at launch. The launch element holds, for every protocol cell (each kind of
    semaphore on each device), its one round's state, and one duty token per cell and device. It deals a device the
    round states and positions of its own cells, the fact that every cell is at round 0, and — regrouped from the owner
    of a cell to the device that pays it — the tokens of the duties the device pays: on each peer's barrier cell and
    receive cells its own name, on its own send cells each peer's name. Tokens no duty bears are let go. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells and the tokens funded -/

/-- Every protocol cell: each kind of semaphore on each device. -/
def allCells : Finset (GSem nD τ sig) := Finset.univ.map ⟨fun p : Dev nD × CK => kcell p.1 p.2, kcell_injective⟩

/-- A duty token at round 0 of the cell `(o, k)` named by the device `d`. -/
def tokOf (x : (Dev nD × CK) × Dev nD) : GSem nD τ sig × ℕ × Dev nD := (kcell x.1.1 x.1.2, 0, x.2)

theorem tokOf_injective : Function.Injective tokOf := by
  rintro ⟨⟨c, k⟩, d⟩ ⟨⟨c', k'⟩, d'⟩ h
  obtain ⟨h1, h2⟩ := kcell_inj (congrArg Prod.fst h)
  have h3 : d = d' := congrArg (fun x : GSem nD τ sig × ℕ × Dev nD => x.2.2) h
  subst h1; subst h2; subst h3; rfl

/-- One token per cell and device: among them every duty of every cell's one round. -/
def allToks : Finset (GSem nD τ sig × ℕ × Dev nD) := Finset.univ.map ⟨tokOf, tokOf_injective⟩

/-- The launch element: the pipeline library's cells and tokens, and the protocol's. -/
def u₀ : UU :=
  (initOf (Pipeline.cells cfgs cellOf_inj) (Pipeline.launchToks cfgs cellOf_inj), initOf allCells allToks)

/-! ## What the launch element deals a device -/

/-- Device `c` is dealt: the round state of each of its cells at counter zero; that every cell of every device is at
    round 0; its positions; and the tokens of the duties it pays. -/
def G (c : Dev nD) : sProp 𝕄 :=
  iprop((bigSep Finset.univ fun k : CK => roundState ER (sched m) (kcell c k) 0) ∗ reachedAll ∗ posAll c ∗ payToks c)

/-! ## The tokens, from owner to payer -/

/-- The kinds of cell of an owner on which its peer `d` pays the duty `d`: the barrier, the three reduce-receive and
    two gather-receive cells `(l, d)`, the three reduce-send and two gather-send cells. -/
def paidKinds (d : Dev nD) : List CK := [.bar, .rr 0 d, .rr 1 d, .rr 2 d, .gr 0 d, .gr 1 d, .rs 0, .rs 1, .rs 2, .gs 0, .gs 1]

theorem paidKinds_nodup (d : Dev nD) : (paidKinds d).Nodup := by revert d; decide

omit [FloatOps F] in
/-- A family over the kinds `d` pays, one by one. -/
theorem bigSep_paid (d : Dev nD) (Φ : CK → sProp 𝕄) :
    bigSep (paidKinds d).toFinset Φ = iprop(Φ .bar ∗ Φ (.rr 0 d) ∗ Φ (.rr 1 d) ∗ Φ (.rr 2 d) ∗ Φ (.gr 0 d) ∗ Φ (.gr 1 d)
      ∗ Φ (.rs 0) ∗ Φ (.rs 1) ∗ Φ (.rs 2) ∗ Φ (.gs 0) ∗ Φ (.gs 1)) :=
  bigSep_eq_bigSepL (paidKinds d) (paidKinds_nodup d) Φ

omit [FloatOps F] in
/-- Of the tokens named `d` on the cells of the owner `o`: those `d` pays `o`'s receive cells with, and those of
    the departures of `o`'s own copies to `d`. -/
theorem toks_of_owner (o d : Dev nD) :
    (bigSep Finset.univ fun k : CK => (dutyTok ER (kcell o k) 0 d : sProp 𝕄)) ⊢ iprop(toksTo d o ∗ toksOut o d) := by
  refine (bigSep_subset (Finset.subset_univ (paidKinds d).toFinset)).trans ?_
  rw [bigSep_paid]
  unfold toksTo toksOut
  show (_ : sProp 𝕄) ⊢ _
  iintro ⟨H1, H2, H3, H4, H5, H6, H7, H8, H9, H10, H11⟩
  isplitl [H1 H2 H3 H4 H5 H6]
  · isplitl [H1]; · iexact H1
    isplitl [H2]; · iexact H2
    isplitl [H3]; · iexact H3
    isplitl [H4]; · iexact H4
    isplitl [H5]; · iexact H5
    iexact H6
  · isplitl [H7]; · iexact H7
    isplitl [H8]; · iexact H8
    isplitl [H9]; · iexact H9
    isplitl [H10]; · iexact H10
    iexact H11

omit [FloatOps F] in
/-- All tokens, grouped by the owner of the cell, regrouped by the device that pays: the pairs (owner, payer) of
    distinct devices are the pairs (payer, owner). -/
theorem toks_regroup :
    (bigSep Finset.univ fun o : Dev nD => bigSep Finset.univ fun k : CK => bigSep Finset.univ fun d : Dev nD =>
        (dutyTok ER (kcell o k) 0 d : sProp 𝕄))
      ⊢ bigSep Finset.univ fun c : Dev nD => payToks (F := F) c := by
  have h1 : ∀ o : Dev nD, (bigSep Finset.univ fun k : CK => bigSep Finset.univ fun d : Dev nD => (dutyTok ER (kcell o k) 0 d : sProp 𝕄))
      ⊢ bigSep (Finset.univ.erase o) fun d => iprop(toksTo (F := F) d o ∗ toksOut (F := F) o d) := fun o => by
    rw [bigSep_univ_comm]
    exact (bigSep_subset (Finset.subset_univ _)).trans (bigSep_mono fun d _ => toks_of_owner o d)
  refine (bigSep_mono fun o _ => h1 o).trans ?_
  unfold payToks peers
  simp only [bigSep_sep']
  rw [bigSep_erase_comm (fun a b => toksTo (F := F) b a)]
  exact BI.Entails.refl _

/-! ## The funding -/

/-- The protocol's launch element gives every device what `G` says. -/
theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : CK => Φ (kcell c k) := by
    unfold allCells; rw [bigSep_map, bigSep_univ_prod]; rfl
  have hR : bigSep allCells (fun g => (reached ER g 0 : sProp 𝕄)) = reachedAll := by
    unfold allCells reachedAll; rw [bigSep_map]; rfl
  have hT : bigSep allToks (fun x => (dutyTok ER x.1 x.2.1 x.2.2 : sProp 𝕄))
      = bigSep Finset.univ fun o : Dev nD => bigSep Finset.univ fun k : CK => bigSep Finset.univ fun d : Dev nD =>
          (dutyTok ER (kcell o k) 0 d : sProp 𝕄) := by
    unfold allToks; rw [bigSep_map, bigSep_univ_prod, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := ((Entails.of_eq hR).trans (BI.bigSep_of_persistent (Finset.univ : Finset (Dev nD)) (reachedAll (F := F)))) $$ Hr
  ihave Htok' := ((Entails.of_eq hT).trans (toks_regroup (F := F))) $$ Htok
  unfold G posAll; simp only [bigSep_sep']
  isplitl [Hst']; · iexact Hst'
  isplitl [Hr']; · iexact Hr'
  isplitl [Hat']; · iexact Hat'
  iexact Htok'

/-- info: 'Cert.KernelProof.fund_all' depends on axioms: [propext, Classical.choice, Quot.sound] -/
#guard_msgs in #print axioms fund_all

end Cert.KernelProof

end
-- ==== Proof.K.LaunchGlob.lean ====
import proofs.«900993_g7700000000000994_dist_mlpseq_tp1d_rep_bs_b512_d256_h512_v7x_i8_bf16_1_alg».proof.Proof.K.LaunchFund

/-! The launch's global step. The kernel's own semaphores are every kind of the protocol's but the barrier, which is the
    runtime's and the one semaphore of a device not scoped to the launch. With the counters of all of them at zero on
    every device, and every cell's round state, the bodies of all cells' invariants stand; they are allocated together,
    at names `K`, and every device keeps all the invariants beside what it was dealt: its ghost state. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The kernel's own semaphores -/

/-- The kernel's own (scoped) semaphores, as the launch indexes them: every kind of the protocol's but the barrier. -/
abbrev osem : {k : CK // k ≠ .bar} → SemLoc sig := fun k => k.1.sem

theorem stage_sem_lt (w : Fin cfg0.W) (s : Fin (cfg0.spec w).nbuf) : ((cfg0.spec w).sem s).val < 8 := by
  fin_cases w <;> fin_cases s <;> decide

theorem ownSemFacts : Pipeline.OwnSemFacts cfg0.spec osem where
  isScoped := fun ⟨k, hk⟩ => by
    cases k with
    | bar => exact absurd rfl hk
    | rs l => revert l; decide
    | rr l s => revert l s; decide
    | gs l => revert l; decide
    | gr l s => revert l s; decide
  inj := fun a b h => Subtype.ext (CK.sem_injective h)
  disj := fun k w s h => by
    have h1 : ckOf (osem k) = some k.1 := ckOf_sem k.1
    rw [h, ckOf_stage _ (stage_sem_lt w s)] at h1
    exact absurd h1 (by simp)

omit [FloatOps F] in
/-- A device's own semaphores at zero: every kind's but the barrier's. -/
theorem ownSems0_eq (c : Dev nD) :
    (Pipeline.ownSems0 (Ix := Unit) (Name := ℕ) (U := UU) (Lvl := ℕ) (Val := Elt F) (τ := τ) osem c : sProp 𝕄)
      = bigSep ((Finset.univ : Finset CK).erase .bar) (fun k => (semVal (kcell c k) 0 : sProp 𝕄)) := by
  unfold Pipeline.ownSems0
  exact bigSep_subtype_ne CK.bar (fun k => (semVal (kcell c k) 0 : sProp 𝕄))

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together: the counter of every protocol cell of the device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell c k) 0 : sProp 𝕄) := by
  rw [ownSems0_eq, unscopedSems0_eq, bigSep_univ_at (fun k : CK => (semVal (kcell c k) 0 : sProp 𝕄)) CK.bar]
  iintro ⟨HO, HB⟩
  isplitl [HB]; · iexact HB
  iexact HO

/-! ## The global step -/

/-- What the global step makes of what a device was dealt: the ghost state at some names. -/
def G' (c : Dev nD) : sProp 𝕄 := iprop(∃ K, ghost m K c)

omit [FloatOps F] in
theorem bigSep_cells (Φ : GSem nD τ sig → sProp 𝕄) :
    bigSep allCells Φ = bigSep Finset.univ fun c : Dev nD => bigSep Finset.univ fun k : CK => Φ (kcell c k) := by
  unfold allCells; rw [bigSep_map, bigSep_univ_prod]; rfl

/-- A device's counters at zero and round states make the bodies of its cells' invariants; the rest it keeps. -/
theorem core_bodies (c : Dev nD) :
    iprop(Pipeline.ownSems0 (Ix := Unit) (Name := ℕ) (U := UU) (Lvl := ℕ) (Val := Elt F) (τ := τ) osem c ∗ unscopedSems0 c ∗ G m c)
      ⊢ iprop((bigSep Finset.univ fun k : CK => Rounds.body ER (sched m) (kcell c k)) ∗ reachedAll ∗ posAll c ∗ payToks c) := by
  unfold G
  iintro ⟨Hos, Hus, Hst, Hr, Hat, Htok⟩
  ihave Hv := (sems0_eq (F := F) c) $$ [Hos Hus]
  · isplitl [Hos] <;> iassumption
  isplitl [Hv Hst]
  · iapply (show iprop((bigSep Finset.univ fun k : CK => semVal (kcell c k) 0) ∗ bigSep Finset.univ fun k : CK => roundState ER (sched m) (kcell c k) 0)
        ⊢ (bigSep Finset.univ fun k : CK => Rounds.body ER (sched m) (kcell c k) : sProp 𝕄) from by
          rw [← bigSep_sep']
          exact bigSep_mono fun k _ => Rounds.body_intro ER (sched m) (kcell c k))
    isplitl [Hv] <;> iassumption
  isplitl [Hr]; · iexact Hr
  isplitl [Hat]; · iexact Hat
  iexact Htok

theorem invsAll_eq (K : GSem nD τ sig → ℕ) : invsAll m K = bigSep allCells fun g => cellInv ER (sched m) (K g) g := by
  unfold invsAll allCells; rw [bigSep_map]; rfl

/-- With every cell's invariant in hand, a device's share is its ghost state. -/
theorem ghost_intro (K : GSem nD τ sig → ℕ) (c : Dev nD) :
    iprop(invsAll m K ∗ (reachedAll ∗ posAll c ∗ payToks c)) ⊢ G' m c := by
  unfold G' ghost
  iintro ⟨HI, Hr, Hat, Htok⟩
  iexists K
  isplitl [HI]; · iexact HI
  isplitl [Hr]; · iexact Hr
  isplitl [Hat]; · iexact Hat
  iexact Htok

/-- The global step: own AND unscoped semaphores of every device at once become the bodies of all cells' invariants,
    allocated together; every device gets all of them. -/
theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) := by
  refine (bigSep_mono fun c _ => core_bodies m c).trans ?_
  rw [bigSep_sep', ← bigSep_cells (fun g => Rounds.body ER (sched m) g)]
  show (_ : sProp 𝕄) ⊢ _
  iintro ⟨HB, Hrest⟩
  imod (inv_alloc_family allCells (fun g => Rounds.body ER (sched m) g) ∅ (E := Set.univ)) $$ HB with ⟨%K, -, HI⟩
  imodintro
  iapply (bigSep_with_persistent (R := invsAll m K) fun c _ => ghost_intro m K c)
  isplitl [HI]
  · rw [invsAll_eq]; iexact HI
  iexact Hrest

/-- info: 'Cert.KernelProof.glob' depends on axioms: [propext, Classical.choice, Quot.sound] -/
#guard_msgs in #print axioms glob

end Cert.KernelProof

end
-- ==== Proof.K.LaunchCredit.lean ====
import proofs.«900993_g7700000000000994_dist_mlpseq_tp1d_rep_bs_b512_d256_h512_v7x_i8_bf16_1_alg».proof.Proof.K.Levels
import Mathlib.Algebra.BigOperators.Fin

/-! The launch credit: what all devices together owe each cell of device `c`, dealt to `c` as credit tokens at launch.

    Every family of dues has one shape: device `d` owes one tally to a cell of each of its seven peers `t`. Summed over
    all `d` and regrouped by the owner `t`, each device is owed, per family, one tally from each of its seven peers:
    seven units on its barrier cell; a piece's credit on each reduce-receive cell `(l, s)`, `s` a peer, of the three
    layers; a piece's credit on each gather-receive cell `(l, s)`, `s` a peer, of layers 0 and 1. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The dues of a family, as sums over the peers -/

/-- The seven devices after `d` on the ring are its seven peers. -/
theorem sum_fwd {α : Type} [AddCommMonoid α] (X : Dev nD → α) (d : Dev nD) :
    X (fwd 1 d) + X (fwd 2 d) + X (fwd 3 d) + X (fwd 4 d) + X (fwd 5 d) + X (fwd 6 d) + X (fwd 7 d) = ∑ t ∈ peers d, X t := by
  have hp : ∀ d : Dev nD, peers d = (Finset.univ : Finset (Fin 7)).image (fun j => fwd (j.val + 1) d) := by decide
  have hinj : ∀ (d : Dev nD) (a b : Fin 7), fwd (a.val + 1) d = fwd (b.val + 1) d → a = b := by decide
  rw [hp d, Finset.sum_image (fun a _ b _ h => hinj d a b h), Fin.sum_univ_seven]
  rfl

theorem owesBar_eq (d : Dev nD) : owesBar d = ∑ t ∈ peers d, tallyAt (barCell t) () 1 :=
  sum_fwd (fun t => (tallyAt (barCell t) () 1 : CellTallies nD τ sig Unit)) d

theorem owesGat_eq (d : Dev nD) (l : Fin 3) : owesGat d l = ∑ t ∈ peers d, tallyAt (grCell t l d) () N64 :=
  sum_fwd (fun t => (tallyAt (grCell t l d) () N64 : CellTallies nD τ sig Unit)) d

/-- The eight literal targets are all the devices; the one towards `d` itself is owed nothing. -/
theorem owesRed_eq (d : Dev nD) (l : Fin 3) : owesRed d l = ∑ t ∈ peers d, tallyAt (rrCell t l d) () N64 := by
  have h8 : owesRed d l = ∑ t : Dev nD, (tallyAt (rrCell t l d) () (if d ≠ t then N64 else 0) : CellTallies nD τ sig Unit) :=
    (Fin.sum_univ_eight (fun t : Dev nD => (tallyAt (rrCell t l d) () (if d ≠ t then N64 else 0) : CellTallies nD τ sig Unit))).symm
  rw [h8]
  unfold peers
  rw [← Finset.sum_erase Finset.univ (a := d) (by rw [if_neg (not_not.mpr rfl), tallyAt_zero])]
  exact Finset.sum_congr rfl fun t ht => by rw [if_pos (Finset.ne_of_mem_erase ht).symm]

/-- A constant tally summed is the tally of the multiple. -/
theorem sum_const_tallyAt (s : Finset (Dev nD)) (g : GSem nD τ sig) (k : ℕ) :
    (∑ _d ∈ s, tallyAt g () k : CellTallies nD τ sig Unit) = tallyAt g () (s.card * k) := by
  induction s using Finset.induction_on with
  | empty => rw [Finset.sum_empty, Finset.card_empty, Nat.zero_mul, tallyAt_zero]
  | insert a s ha ih => rw [Finset.sum_insert ha, ih, tallyAt_add, Finset.card_insert_of_notMem ha, Nat.succ_mul, Nat.add_comm]

theorem peers_card7 (c : Dev nD) : (peers c).card = 7 := by revert c; decide

/-! ## The credit of a family -/

omit [FloatOps F] in
/-- Every device `d` owing the tally `X t d`, on a cell of `t`, to each of its peers `t`: device `c` is dealt the tallies
    `X c s` its peers `s` owe it (the double sum regrouped by the owner). -/
theorem launchCred_peers (X : Dev nD → Dev nD → CellTallies nD τ sig Unit)
    (hX : ∀ (t d : Dev nD) (g : GSem nD τ sig), g.1 ≠ (t : Thread nD τ) → X t d g = 0) (c : Dev nD) :
    (Pipeline.launchCred (fun d => ∑ t ∈ peers d, X t d) c : sProp 𝕄) = bigSep (peers c) fun s => cred (X c s) := by
  have hsum : (∑ d, ∑ t ∈ peers d, X t d) = ∑ t, ∑ d ∈ peers t, X t d :=
    Finset.sum_comm' (fun d t => by
      unfold peers
      rw [Finset.mem_erase, Finset.mem_erase]
      exact ⟨fun h => ⟨⟨fun e => h.2.1 e.symm, Finset.mem_univ _⟩, Finset.mem_univ _⟩, fun h => ⟨Finset.mem_univ _, fun e => h.1.1 e.symm, Finset.mem_univ _⟩⟩)
  have hT : ∀ (t : Dev nD) (g : GSem nD τ sig), (∑ d ∈ peers t, X t d) g ≠ 0 → g.1 = (t : Thread nD τ) := fun t g hg => by
    by_contra hne
    exact hg (by rw [Finset.sum_apply]; exact Finset.sum_eq_zero fun d _ => hX t d g hne)
  rw [Pipeline.launchCred_of_sum (fun d => ∑ t ∈ peers d, X t d) (fun t => ∑ d ∈ peers t, X t d) hsum hT c, Pipeline.cred_finsetSum]

omit [FloatOps F] in
/-- The barrier cell: a unit from each of the seven peers. -/
theorem cred_bar (c : Dev nD) : (Pipeline.launchCred (fun d => owesBar d) c : sProp 𝕄) = cred (tallyAt (barCell c) () 7) := by
  rw [show (fun d => owesBar d) = fun d => ∑ t ∈ peers d, (tallyAt (barCell t) () 1 : CellTallies nD τ sig Unit) from funext owesBar_eq,
    launchCred_peers (fun t _ => tallyAt (barCell t) () 1) (fun t d g hg => tallyAt_ne_cell (fun h => hg (congrArg Prod.fst h)) () 1) c,
    ← Pipeline.cred_finsetSum, sum_const_tallyAt, peers_card7]

omit [FloatOps F] in
/-- The reduce-receive cells of layer `l`: a piece's credit on the cell `(l, s)` of each peer `s`. -/
theorem cred_red (c : Dev nD) (l : Fin 3) :
    (Pipeline.launchCred (fun d => owesRed d l) c : sProp 𝕄) = bigSep (peers c) fun s => cred (tallyAt (rrCell c l s) () N64) := by
  rw [show (fun d => owesRed d l) = fun d => ∑ t ∈ peers d, (tallyAt (rrCell t l d) () N64 : CellTallies nD τ sig Unit) from funext fun d => owesRed_eq d l]
  exact launchCred_peers (fun t d => tallyAt (rrCell t l d) () N64) (fun t d g hg => tallyAt_ne_cell (fun h => hg (congrArg Prod.fst h)) () N64) c

omit [FloatOps F] in
/-- The gather-receive cells of layer `l`: a piece's credit on the cell `(l, s)` of each peer `s`. -/
theorem cred_gat (c : Dev nD) (l : Fin 3) :
    (Pipeline.launchCred (fun d => owesGat d l) c : sProp 𝕄) = bigSep (peers c) fun s => cred (tallyAt (grCell c l s) () N64) := by
  rw [show (fun d => owesGat d l) = fun d => ∑ t ∈ peers d, (tallyAt (grCell t l d) () N64 : CellTallies nD τ sig Unit) from funext fun d => owesGat_eq d l]
  exact launchCred_peers (fun t d => tallyAt (grCell t l d) () N64) (fun t d g hg => tallyAt_ne_cell (fun h => hg (congrArg Prod.fst h)) () N64) c

/-! ## The launch credit of a device -/

omit [FloatOps F] in
/-- Family by family. -/
theorem launchCred_O₀ (c : Dev nD) :
    (Pipeline.launchCred O₀ c : sProp 𝕄)
      = iprop(((((Pipeline.launchCred (fun d => owesBar d) c ∗ Pipeline.launchCred (fun d => owesRed d 0) c) ∗ Pipeline.launchCred (fun d => owesRed d 1) c)
          ∗ Pipeline.launchCred (fun d => owesRed d 2) c) ∗ Pipeline.launchCred (fun d => owesGat d 0) c) ∗ Pipeline.launchCred (fun d => owesGat d 1) c) := by
  rw [← Pipeline.launchCred_add (fun d => owesBar d) (fun d => owesRed d 0) c,
    ← Pipeline.launchCred_add (fun d => owesBar d + owesRed d 0) (fun d => owesRed d 1) c,
    ← Pipeline.launchCred_add (fun d => owesBar d + owesRed d 0 + owesRed d 1) (fun d => owesRed d 2) c,
    ← Pipeline.launchCred_add (fun d => owesBar d + owesRed d 0 + owesRed d 1 + owesRed d 2) (fun d => owesGat d 0) c,
    ← Pipeline.launchCred_add (fun d => owesBar d + owesRed d 0 + owesRed d 1 + owesRed d 2 + owesGat d 0) (fun d => owesGat d 1) c]

omit [FloatOps F] in
/-- What device `c` is dealt at launch: seven units on its barrier cell, and from each peer `s` a piece's credit on the
    reduce-receive cell `(l, s)` of the three layers and on the gather-receive cell `(l, s)` of layers 0 and 1. -/
theorem creds (c : Dev nD) :
    (Pipeline.launchCred O₀ c : sProp 𝕄) ⊢ iprop(cred (tallyAt (barCell c) () 7) ∗ bigSep (peers c) (fun s =>
      iprop(cred (tallyAt (rrCell c 0 s) () N64) ∗ cred (tallyAt (rrCell c 1 s) () N64) ∗ cred (tallyAt (rrCell c 2 s) () N64)
        ∗ cred (tallyAt (grCell c 0 s) () N64) ∗ cred (tallyAt (grCell c 1 s) () N64)))) := by
  rw [launchCred_O₀, cred_bar, cred_red, cred_red, cred_red, cred_gat, cred_gat, bigSep_sep', bigSep_sep', bigSep_sep', bigSep_sep']
  iintro ⟨⟨⟨⟨⟨Hb, H0⟩, H1⟩, H2⟩, G0⟩, G1⟩
  isplitl [Hb]; · iexact Hb
  isplitl [H0]; · iexact H0
  isplitl [H1]; · iexact H1
  isplitl [H2]; · iexact H2
  isplitl [G0]; · iexact G0
  iexact G1

/-- info: 'Cert.KernelProof.creds' depends on axioms: [propext, Classical.choice, Quot.sound] -/
#guard_msgs in #print axioms creds

end Cert.KernelProof

end
-- ==== Proof.K.LaunchRun.lean ====
import proofs.«900993_g7700000000000994_dist_mlpseq_tp1d_rep_bs_b512_d256_h512_v7x_i8_bf16_1_alg».proof.Proof.K.Data
import proofs.«900993_g7700000000000994_dist_mlpseq_tp1d_rep_bs_b512_d256_h512_v7x_i8_bf16_1_alg».proof.Proof.K.LaunchGlob
import proofs.«900993_g7700000000000994_dist_mlpseq_tp1d_rep_bs_b512_d256_h512_v7x_i8_bf16_1_alg».proof.Proof.K.LaunchCredit

/-! The run of @main on the eight devices. The launch theorem for cores that owe at launch and whose protocol also runs
    on the runtime's barrier semaphore is applied to: the proof data and the body obligation; the protocol's funding and
    global step; the launch credit as the credit a device's body starts from; the levels, under which the pipeline's own
    waits are below everything a device owes. Its conclusion names each windowed array's final contents: an argument
    array holds what it held; the result array holds the device's rows of the last layer's sum. -/

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The launch theorem's side conditions -/

theorem share_eq (c : Dev nD) (w : Fin cfg0.W) : (dats m ρ 0 c).share w = fullShare := by unfold Dat.share; split <;> rfl

omit [FloatOps F] in
/-- The launch credit of a device is the credit its body starts from. -/
theorem credsOf_intro (c : Dev nD) : (Pipeline.launchCred O₀ c : sProp 𝕄) ⊢ credsOf c := by
  unfold credsOf credFrom; exact creds c

/-- What the launch hands a device beside its buffers is its start: no unscoped buffer but the windows' arrays. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credsOf_intro (F := F) c) $$ Hcr
  imodintro
  unfold start G'
  isplitl
  · isplitl [HG]; · iexact HG
    isplitl [Hc]; · iexact Hc
    iexact Hlev
  · iempintro

/-- With the three scratch buffers it is the invariant before the point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, H0, H1, H2⟩
  isplitl [Hs]; · iexact Hs
  isplitl [H0]; · iexact H0
  isplitl [H1]; · iexact H1
  iexact H2

/-- The invariant after the point gives the launch back the scratch buffers and the device's own semaphores at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr
  iintro ⟨H0, H1, H2, Hz⟩
  isplitr; · iempintro
  isplitl [Hz]; · iexact Hz
  isplitl [H0]; · iexact H0
  isplitl [H1]; · iexact H1
  iexact H2

/-- The pipeline's own waits, on the staging semaphores, are below everything a device owes before and after the point. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem_lt w s) _ (by
      rcases t with ⟨_ | _, ht⟩
      · exact Or.inl rfl
      · exact Or.inr rfl)

/-! ## The run -/

/-- The windows' arrays after the run, as the pipeline's write-backs leave them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: given the body's
    soundness, every weakly fair execution of @main terminates, and every final state has each device's windowed arrays
    at `finalA`. -/
theorem run_main
    (hbody : ∀ (K : GSem nD τ sig → ℕ) (c : Dev nD) (Kt : PUnit → sProp 𝕄), iprop(bodyPre m K c ∗ (bodyPost m c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

/-! ## The arrays after the run -/

/-- An argument array after the run holds what it held: the pipeline never writes an input window back. -/
theorem finalA_in (c : Dev nD) (w : Fin 8) (hw : w.val < 7) : finalA m ρ c w = m ((cfg0.win w).arr.view.loc (c : Thread nD τ)) :=
  (dats (F := F) m ρ 0 c).arrAt_in w (by fin_cases w <;> first | rfl | exact absurd hw (by decide)) _

/-- The result array after the run: the one write-back, at the one point, of the whole block the body left in the
    result's staging buffer — the device's rows of the last layer's sum. -/
theorem finalA_out (c : Dev nD) : finalA m ρ c (7 : Fin 8) = outAt m c := by
  show (dats (F := F) m ρ 0 c).arrAt (7 : Fin 8) (t0_0.val + 1) = _
  rw [Dat.arrAt_succ, if_pos (flush0_7 t0_0)]
  show (win0_7.blk t0_0).view.write (Elt F) _ (outAt m c) Finset.univ = outAt m c
  exact Memref.write_access_unit_zero_univ (Elt F) main_v1 (funext fun a => Nat.zero_mul _) _ _ _

/-- info: 'Cert.KernelProof.finalA_out' depends on axioms: [propext, Classical.choice, Quot.sound] -/
#guard_msgs in #print axioms finalA_out

/-! ## The run, its post read at the arrays -/

set_option maxRecDepth 8000 in
/-- Given the body's soundness: every weakly fair execution of @main from a memory with zero counters terminates, and in
    every final state each device's seven argument arrays hold what they held and its result array holds its rows of
    the last layer's sum. -/
theorem run_value
    (hbody : ∀ (K : GSem nD τ sig → ℕ) (c : Dev nD) (Kt : PUnit → sProp 𝕄), iprop(bodyPre m K c ∗ (bodyPost m c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt) :
    θ_run defs (onTc (τ := τ) (main (F := F))) (s₀ m ρ) (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_v1) = outAt m c) :=
  (θ_run defs _ _).mono (fun _ h c => ⟨((h c) 0).trans (finalA_in m ρ c 0 (by decide)),
      ((h c) 1).trans (finalA_in m ρ c 1 (by decide)),
      ((h c) 2).trans (finalA_in m ρ c 2 (by decide)),
      ((h c) 3).trans (finalA_in m ρ c 3 (by decide)),
      ((h c) 4).trans (finalA_in m ρ c 4 (by decide)),
      ((h c) 5).trans (finalA_in m ρ c 5 (by decide)),
      ((h c) 6).trans (finalA_in m ρ c 6 (by decide)),
      ((h c) 7).trans (finalA_out m ρ c)⟩) (run_main m ρ hbody)

/-- info: 'Cert.KernelProof.run_value' depends on axioms: [propext, Classical.choice, Quot.sound] -/
#guard_msgs in #print axioms run_value

end Cert.KernelProof

end
-- ==== Proof.K.Wire.lean ====
import proofs.«900993_g7700000000000994_dist_mlpseq_tp1d_rep_bs_b512_d256_h512_v7x_i8_bf16_1_alg».proof.Proof.K.Body
import proofs.«900993_g7700000000000994_dist_mlpseq_tp1d_rep_bs_b512_d256_h512_v7x_i8_bf16_1_alg».proof.Proof.K.LaunchRun

/-! The kernel's run, closed over the body's soundness: every weakly fair execution from any memory with the semaphore
    counters at zero terminates with each argument array unchanged and the result array at the result block. -/

noncomputable section

namespace Cert.KernelProof

open Cert.Kernel Cert.Kernel.Gen
open Idealize.ShloMosaic Idealize.ShloMosaic.TcCoe Idealize.SL.Sem

variable {F : FTy → Type} [FloatOps F]

theorem run_main_closed (m : (ℓ : Loc nD τ sig) → Buf (Elt F) ℓ) (ρ : Dev nD → PrngReg) :
    θ_run (defs (F := F)) (onTc (τ := τ) (main (F := F))) (s₀ m ρ)
      (fun r => ∀ (c : Dev nD) (w : Fin 8), r.2.mem ((cfg0.win w).arr.view.loc (c : Thread nD τ)) = finalA m ρ c w) :=
  run_main m ρ (fun K c Kt => sound_body m K c Kt)

end Cert.KernelProof

end
-- ==== Proof.lean ====
/- The proof of `Cert.Claim` (proofs.«900993_g7700000000000994_dist_mlpseq_tp1d_rep_bs_b512_d256_h512_v7x_i8_bf16_1_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«900993_g7700000000000994_dist_mlpseq_tp1d_rep_bs_b512_d256_h512_v7x_i8_bf16_1_alg».proof.Defs
import proofs.«900993_g7700000000000994_dist_mlpseq_tp1d_rep_bs_b512_d256_h512_v7x_i8_bf16_1_alg».proof.Proof.Assembly
import proofs.«900993_g7700000000000994_dist_mlpseq_tp1d_rep_bs_b512_d256_h512_v7x_i8_bf16_1_alg».proof.Proof.Wire
import proofs.«900993_g7700000000000994_dist_mlpseq_tp1d_rep_bs_b512_d256_h512_v7x_i8_bf16_1_alg».proof.Proof.K.Wire
import Idealize.ShloMosaic.Adequacy
import Idealize.ShloMosaic.Init

noncomputable section

namespace Cert.Proof

theorem claim : Cert.Claim :=
  Cert.Proof.Assembly.claim_of
    Cert.KernelProof.finalA Cert.KernelProof.run_main_closed Cert.KernelProof.finalA_in
    Cert.KernelIdealProof.finalA Cert.KernelIdealProof.run_main_closed Cert.KernelIdealProof.finalA_in Cert.KernelIdealProof.finalA_out

end Cert.Proof

end
